-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24)) (m ((c.tc : Thread Cert.Kernel.nD Cert.Kernel.τ).loc Cert.Kernel.main_arg25)) (m ((c.tc : Thread Cert.Kernel.nD Cert.Kernel.τ).loc Cert.Kernel.main_arg26)) (m ((c.tc : Thread Cert.Kernel.nD Cert.Kernel.τ).loc Cert.Kernel.main_arg27)) (m ((c.tc : Thread Cert.Kernel.nD Cert.Kernel.τ).loc Cert.Kernel.main_arg28)) (m ((c.tc : Thread Cert.Kernel.nD Cert.Kernel.τ).loc Cert.Kernel.main_arg29))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27)) (m ((c.tc : Thread Cert.KernelIdeal.nD Cert.KernelIdeal.τ).loc Cert.KernelIdeal.main_arg28)) (m ((c.tc : Thread Cert.KernelIdeal.nD Cert.KernelIdeal.τ).loc Cert.KernelIdeal.main_arg29))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26)) (m ((c.tc : Thread Cert.ReferenceIdeal.nD Cert.ReferenceIdeal.τ).loc Cert.ReferenceIdeal.main_arg27)) (m ((c.tc : Thread Cert.ReferenceIdeal.nD Cert.ReferenceIdeal.τ).loc Cert.ReferenceIdeal.main_arg28)) (m ((c.tc : Thread Cert.ReferenceIdeal.nD Cert.ReferenceIdeal.τ).loc Cert.ReferenceIdeal.main_arg29))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25)
      ∧ r.2.mem ((c.tc : Thread Cert.Kernel.nD Cert.Kernel.τ).loc Cert.Kernel.main_arg26) = m ((c.tc : Thread Cert.Kernel.nD Cert.Kernel.τ).loc Cert.Kernel.main_arg26)
      ∧ r.2.mem ((c.tc : Thread Cert.Kernel.nD Cert.Kernel.τ).loc Cert.Kernel.main_arg27) = m ((c.tc : Thread Cert.Kernel.nD Cert.Kernel.τ).loc Cert.Kernel.main_arg27)
      ∧ r.2.mem ((c.tc : Thread Cert.Kernel.nD Cert.Kernel.τ).loc Cert.Kernel.main_arg28) = m ((c.tc : Thread Cert.Kernel.nD Cert.Kernel.τ).loc Cert.Kernel.main_arg28)
      ∧ r.2.mem ((c.tc : Thread Cert.Kernel.nD Cert.Kernel.τ).loc Cert.Kernel.main_arg29) = m ((c.tc : Thread Cert.Kernel.nD Cert.Kernel.τ).loc Cert.Kernel.main_arg29))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
      ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
      ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
      ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28)
      ∧ r.2.mem ((c.tc : Thread Cert.KernelIdeal.nD Cert.KernelIdeal.τ).loc Cert.KernelIdeal.main_arg29) = m ((c.tc : Thread Cert.KernelIdeal.nD Cert.KernelIdeal.τ).loc Cert.KernelIdeal.main_arg29))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25)
      ∧ r.2.mem ((c.tc : Thread Cert.ReferenceIdeal.nD Cert.ReferenceIdeal.τ).loc Cert.ReferenceIdeal.main_arg26) = m ((c.tc : Thread Cert.ReferenceIdeal.nD Cert.ReferenceIdeal.τ).loc Cert.ReferenceIdeal.main_arg26)
      ∧ r.2.mem ((c.tc : Thread Cert.ReferenceIdeal.nD Cert.ReferenceIdeal.τ).loc Cert.ReferenceIdeal.main_arg27) = m ((c.tc : Thread Cert.ReferenceIdeal.nD Cert.ReferenceIdeal.τ).loc Cert.ReferenceIdeal.main_arg27)
      ∧ r.2.mem ((c.tc : Thread Cert.ReferenceIdeal.nD Cert.ReferenceIdeal.τ).loc Cert.ReferenceIdeal.main_arg28) = m ((c.tc : Thread Cert.ReferenceIdeal.nD Cert.ReferenceIdeal.τ).loc Cert.ReferenceIdeal.main_arg28)
      ∧ r.2.mem ((c.tc : Thread Cert.ReferenceIdeal.nD Cert.ReferenceIdeal.τ).loc Cert.ReferenceIdeal.main_arg29) = m ((c.tc : Thread Cert.ReferenceIdeal.nD Cert.ReferenceIdeal.τ).loc Cert.ReferenceIdeal.main_arg29))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
      ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)
      ∧ m' ((c.tc : Thread Cert.ReferenceIdeal.nD Cert.ReferenceIdeal.τ).loc Cert.ReferenceIdeal.main_arg27) = m ((c.tc : Thread Cert.KernelIdeal.nD Cert.KernelIdeal.τ).loc Cert.KernelIdeal.main_arg27)
      ∧ m' ((c.tc : Thread Cert.ReferenceIdeal.nD Cert.ReferenceIdeal.τ).loc Cert.ReferenceIdeal.main_arg28) = m ((c.tc : Thread Cert.KernelIdeal.nD Cert.KernelIdeal.τ).loc Cert.KernelIdeal.main_arg28)
      ∧ m' ((c.tc : Thread Cert.ReferenceIdeal.nD Cert.ReferenceIdeal.τ).loc Cert.ReferenceIdeal.main_arg29) = m ((c.tc : Thread Cert.KernelIdeal.nD Cert.KernelIdeal.τ).loc Cert.KernelIdeal.main_arg29)) →
    ∃ (v0 : (c : Dev Cert.KernelIdeal.nD) → Buf (Elt Ideal) ((c.tc : Thread Cert.KernelIdeal.nD Cert.KernelIdeal.τ).loc Cert.KernelIdeal.main_v577)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v577) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
          ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
          ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
          ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28)
          ∧ r.2.mem ((c.tc : Thread Cert.KernelIdeal.nD Cert.KernelIdeal.τ).loc Cert.KernelIdeal.main_arg29) = m ((c.tc : Thread Cert.KernelIdeal.nD Cert.KernelIdeal.τ).loc Cert.KernelIdeal.main_arg29))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v567) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25)
          ∧ r.2.mem ((c.tc : Thread Cert.ReferenceIdeal.nD Cert.ReferenceIdeal.τ).loc Cert.ReferenceIdeal.main_arg26) = m' ((c.tc : Thread Cert.ReferenceIdeal.nD Cert.ReferenceIdeal.τ).loc Cert.ReferenceIdeal.main_arg26)
          ∧ r.2.mem ((c.tc : Thread Cert.ReferenceIdeal.nD Cert.ReferenceIdeal.τ).loc Cert.ReferenceIdeal.main_arg27) = m' ((c.tc : Thread Cert.ReferenceIdeal.nD Cert.ReferenceIdeal.τ).loc Cert.ReferenceIdeal.main_arg27)
          ∧ r.2.mem ((c.tc : Thread Cert.ReferenceIdeal.nD Cert.ReferenceIdeal.τ).loc Cert.ReferenceIdeal.main_arg28) = m' ((c.tc : Thread Cert.ReferenceIdeal.nD Cert.ReferenceIdeal.τ).loc Cert.ReferenceIdeal.main_arg28)
          ∧ r.2.mem ((c.tc : Thread Cert.ReferenceIdeal.nD Cert.ReferenceIdeal.τ).loc Cert.ReferenceIdeal.main_arg29) = m' ((c.tc : Thread Cert.ReferenceIdeal.nD Cert.ReferenceIdeal.τ).loc Cert.ReferenceIdeal.main_arg29))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S2x160000 : Shape := ⟨2, ![2, 160000]⟩
abbrev S10000 : Shape := ⟨1, ![10000]⟩
abbrev S1x300 : Shape := ⟨2, ![1, 300]⟩
abbrev S128x600 : Shape := ⟨2, ![128, 600]⟩
abbrev S600 : Shape := ⟨1, ![600]⟩
abbrev S600x300 : Shape := ⟨2, ![600, 300]⟩
abbrev S300 : Shape := ⟨1, ![300]⟩
abbrev S4x300x600 : Shape := ⟨3, ![4, 300, 600]⟩
abbrev S4x600 : Shape := ⟨2, ![4, 600]⟩
abbrev S4x600x300 : Shape := ⟨3, ![4, 600, 300]⟩
abbrev S4x300 : Shape := ⟨2, ![4, 300]⟩
abbrev S300x600 : Shape := ⟨2, ![300, 600]⟩
abbrev S300x10 : Shape := ⟨2, ![300, 10]⟩
abbrev S10 : Shape := ⟨1, ![10]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S1x300 : S_.BroadcastsInDim S1x300 (![] : Fin 0 → Fin S1x300.rank)
  reducesTo_S1x300_S_d0_1 : S1x300.ReducesTo [0, 1] S_
  bcast_S_S128x600 : S_.BroadcastsInDim S128x600 (![] : Fin 0 → Fin S128x600.rank)
  reducesTo_S128x600_S_d0_1 : S128x600.ReducesTo [0, 1] S_
  bcast_S_S600 : S_.BroadcastsInDim S600 (![] : Fin 0 → Fin S600.rank)
  reducesTo_S600_S_d0 : S600.ReducesTo [0] S_
  bcast_S_S600x300 : S_.BroadcastsInDim S600x300 (![] : Fin 0 → Fin S600x300.rank)
  reducesTo_S600x300_S_d0_1 : S600x300.ReducesTo [0, 1] S_
  bcast_S_S300 : S_.BroadcastsInDim S300 (![] : Fin 0 → Fin S300.rank)
  reducesTo_S300_S_d0 : S300.ReducesTo [0] S_
  bcast_S_S4x300x600 : S_.BroadcastsInDim S4x300x600 (![] : Fin 0 → Fin S4x300x600.rank)
  reducesTo_S4x300x600_S_d0_1_2 : S4x300x600.ReducesTo [0, 1, 2] S_
  bcast_S_S4x600 : S_.BroadcastsInDim S4x600 (![] : Fin 0 → Fin S4x600.rank)
  reducesTo_S4x600_S_d0_1 : S4x600.ReducesTo [0, 1] S_
  bcast_S_S4x600x300 : S_.BroadcastsInDim S4x600x300 (![] : Fin 0 → Fin S4x600x300.rank)
  reducesTo_S4x600x300_S_d0_1_2 : S4x600x300.ReducesTo [0, 1, 2] S_
  bcast_S_S4x300 : S_.BroadcastsInDim S4x300 (![] : Fin 0 → Fin S4x300.rank)
  reducesTo_S4x300_S_d0_1 : S4x300.ReducesTo [0, 1] S_
  bcast_S_S300x600 : S_.BroadcastsInDim S300x600 (![] : Fin 0 → Fin S300x600.rank)
  reducesTo_S300x600_S_d0_1 : S300x600.ReducesTo [0, 1] S_
  bcast_S_S300x10 : S_.BroadcastsInDim S300x10 (![] : Fin 0 → Fin S300x10.rank)
  reducesTo_S300x10_S_d0_1 : S300x10.ReducesTo [0, 1] S_
  bcast_S_S10 : S_.BroadcastsInDim S10 (![] : Fin 0 → Fin S10.rank)
  reducesTo_S10_S_d0 : S10.ReducesTo [0] S_
  bcast_S_S10000 : S_.BroadcastsInDim S10000 (![] : Fin 0 → Fin S10000.rank)
  reducesTo_S10000_S_d0 : S10000.ReducesTo [0] S_

variable [Facts]

def fn_part8 {F : FTy → Type} [FloatOps F] (main_arg2 : IVec S10000 32) (main_v133 : IVec S_ 1) (main_v136 : IVec S10 1) : IVec S_ 1 :=
  let main_c_53 : IVec S_ 1 := constantI S_ 1 1#1
  let main_v137 : IVec S_ 1 := (fun x v => Host.reduce IntOp.andi x v reducesTo_S10_S_d0 h_S_) main_v136 main_c_53
  let main_v138 : IVec S_ 1 := andi main_v133 main_v137
  let main_c_54 : IVec S_ 32 := constantI S_ 32 0#32
  let main_v139 : IVec S10000 32 := broadcastInDim S10000 ![] bcast_S_S10000 main_c_54
  let main_v140 : IVec S10000 1 := cmpi .sge main_arg2 main_v139
  let main_c_55 : IVec S_ 1 := constantI S_ 1 1#1
  let main_v141 : IVec S_ 1 := (fun x v => Host.reduce IntOp.andi x v reducesTo_S10000_S_d0 h_S_) main_v140 main_c_55
  let main_v142 : IVec S_ 1 := andi main_v138 main_v141
  main_v142

def fn_part7 {F : FTy → Type} [FloatOps F] (main_arg2 : IVec S10000 32) (main_arg27 : FVec F S300 .f32) (main_arg28 : FVec F S300x10 .f32) (main_arg29 : FVec F S10 .f32) (main_v118 : IVec S_ 1) (main_v119 : FVec F S300 .f32) : IVec S_ 1 :=
  let main_cst_46 : FVec F S_ .f32 := constant S_ .f32 0x7F800000#32
  let main_v120 : FVec F S300 .f32 := broadcastInDim S300 ![] bcast_S_S300 main_cst_46
  let main_v121 : IVec S300 1 := cmpf .olt main_v119 main_v120
  let main_c_47 : IVec S_ 1 := constantI S_ 1 1#1
  let main_v122 : IVec S_ 1 := (fun x v => Host.reduce IntOp.andi x v reducesTo_S300_S_d0 h_S_) main_v121 main_c_47
  let main_v123 : IVec S_ 1 := andi main_v118 main_v122
  let main_v124 : FVec F S300 .f32 := Host.absf main_arg27
  let main_cst_48 : FVec F S_ .f32 := constant S_ .f32 0x7F800000#32
  let main_v125 : FVec F S300 .f32 := broadcastInDim S300 ![] bcast_S_S300 main_cst_48
  let main_v126 : IVec S300 1 := cmpf .olt main_v124 main_v125
  let main_c_49 : IVec S_ 1 := constantI S_ 1 1#1
  let main_v127 : IVec S_ 1 := (fun x v => Host.reduce IntOp.andi x v reducesTo_S300_S_d0 h_S_) main_v126 main_c_49
  let main_v128 : IVec S_ 1 := andi main_v123 main_v127
  let main_v129 : FVec F S300x10 .f32 := Host.absf main_arg28
  let main_cst_50 : FVec F S_ .f32 := constant S_ .f32 0x7F800000#32
  let main_v130 : FVec F S300x10 .f32 := broadcastInDim S300x10 ![] bcast_S_S300x10 main_cst_50
  let main_v131 : IVec S300x10 1 := cmpf .olt main_v129 main_v130
  let main_c_51 : IVec S_ 1 := constantI S_ 1 1#1
  let main_v132 : IVec S_ 1 := (fun x v => Host.reduce IntOp.andi x v reducesTo_S300x10_S_d0_1 h_S_) main_v131 main_c_51
  let main_v133 : IVec S_ 1 := andi main_v128 main_v132
  let main_v134 : FVec F S10 .f32 := Host.absf main_arg29
  let main_cst_52 : FVec F S_ .f32 := constant S_ .f32 0x7F800000#32
  let main_v135 : FVec F S10 .f32 := broadcastInDim S10 ![] bcast_S_S10 main_cst_52
  let main_v136 : IVec S10 1 := cmpf .olt main_v134 main_v135
  fn_part8 (F := F) main_arg2 main_v133 main_v136

def fn_part6 {F : FTy → Type} [FloatOps F] (main_arg2 : IVec S10000 32) (main_arg23 : FVec F S600 .f32) (main_arg24 : FVec F S600x300 .f32) (main_arg25 : FVec F S300 .f32) (main_arg26 : FVec F S300 .f32) (main_arg27 : FVec F S300 .f32) (main_arg28 : FVec F S300x10 .f32) (main_arg29 : FVec F S10 .f32) (main_v98 : IVec S_ 1) (main_v101 : IVec S600 1) (main_c_39 : IVec S_ 1) : IVec S_ 1 :=
  let main_v102 : IVec S_ 1 := (fun x v => Host.reduce IntOp.andi x v reducesTo_S600_S_d0 h_S_) main_v101 main_c_39
  let main_v103 : IVec S_ 1 := andi main_v98 main_v102
  let main_v104 : FVec F S600 .f32 := Host.absf main_arg23
  let main_cst_40 : FVec F S_ .f32 := constant S_ .f32 0x7F800000#32
  let main_v105 : FVec F S600 .f32 := broadcastInDim S600 ![] bcast_S_S600 main_cst_40
  let main_v106 : IVec S600 1 := cmpf .olt main_v104 main_v105
  let main_c_41 : IVec S_ 1 := constantI S_ 1 1#1
  let main_v107 : IVec S_ 1 := (fun x v => Host.reduce IntOp.andi x v reducesTo_S600_S_d0 h_S_) main_v106 main_c_41
  let main_v108 : IVec S_ 1 := andi main_v103 main_v107
  let main_v109 : FVec F S600x300 .f32 := Host.absf main_arg24
  let main_cst_42 : FVec F S_ .f32 := constant S_ .f32 0x7F800000#32
  let main_v110 : FVec F S600x300 .f32 := broadcastInDim S600x300 ![] bcast_S_S600x300 main_cst_42
  let main_v111 : IVec S600x300 1 := cmpf .olt main_v109 main_v110
  let main_c_43 : IVec S_ 1 := constantI S_ 1 1#1
  let main_v112 : IVec S_ 1 := (fun x v => Host.reduce IntOp.andi x v reducesTo_S600x300_S_d0_1 h_S_) main_v111 main_c_43
  let main_v113 : IVec S_ 1 := andi main_v108 main_v112
  let main_v114 : FVec F S300 .f32 := Host.absf main_arg25
  let main_cst_44 : FVec F S_ .f32 := constant S_ .f32 0x7F800000#32
  let main_v115 : FVec F S300 .f32 := broadcastInDim S300 ![] bcast_S_S300 main_cst_44
  let main_v116 : IVec S300 1 := cmpf .olt main_v114 main_v115
  let main_c_45 : IVec S_ 1 := constantI S_ 1 1#1
  let main_v117 : IVec S_ 1 := (fun x v => Host.reduce IntOp.andi x v reducesTo_S300_S_d0 h_S_) main_v116 main_c_45
  let main_v118 : IVec S_ 1 := andi main_v113 main_v117
  let main_v119 : FVec F S300 .f32 := Host.absf main_arg26
  fn_part7 (F := F) main_arg2 main_arg27 main_arg28 main_arg29 main_v118 main_v119

def fn_part5 {F : FTy → Type} [FloatOps F] (main_arg2 : IVec S10000 32) (main_arg20 : FVec F S300x600 .f32) (main_arg21 : FVec F S600 .f32) (main_arg22 : FVec F S600 .f32) (main_arg23 : FVec F S600 .f32) (main_arg24 : FVec F S600x300 .f32) (main_arg25 : FVec F S300 .f32) (main_arg26 : FVec F S300 .f32) (main_arg27 : FVec F S300 .f32) (main_arg28 : FVec F S300x10 .f32) (main_arg29 : FVec F S10 .f32) (main_v83 : IVec S_ 1) (main_v84 : FVec F S4x300 .f32) (main_cst_32 : FVec F S_ .f32) : IVec S_ 1 :=
  let main_v85 : FVec F S4x300 .f32 := broadcastInDim S4x300 ![] bcast_S_S4x300 main_cst_32
  let main_v86 : IVec S4x300 1 := cmpf .olt main_v84 main_v85
  let main_c_33 : IVec S_ 1 := constantI S_ 1 1#1
  let main_v87 : IVec S_ 1 := (fun x v => Host.reduce IntOp.andi x v reducesTo_S4x300_S_d0_1 h_S_) main_v86 main_c_33
  let main_v88 : IVec S_ 1 := andi main_v83 main_v87
  let main_v89 : FVec F S300x600 .f32 := Host.absf main_arg20
  let main_cst_34 : FVec F S_ .f32 := constant S_ .f32 0x7F800000#32
  let main_v90 : FVec F S300x600 .f32 := broadcastInDim S300x600 ![] bcast_S_S300x600 main_cst_34
  let main_v91 : IVec S300x600 1 := cmpf .olt main_v89 main_v90
  let main_c_35 : IVec S_ 1 := constantI S_ 1 1#1
  let main_v92 : IVec S_ 1 := (fun x v => Host.reduce IntOp.andi x v reducesTo_S300x600_S_d0_1 h_S_) main_v91 main_c_35
  let main_v93 : IVec S_ 1 := andi main_v88 main_v92
  let main_v94 : FVec F S600 .f32 := Host.absf main_arg21
  let main_cst_36 : FVec F S_ .f32 := constant S_ .f32 0x7F800000#32
  let main_v95 : FVec F S600 .f32 := broadcastInDim S600 ![] bcast_S_S600 main_cst_36
  let main_v96 : IVec S600 1 := cmpf .olt main_v94 main_v95
  let main_c_37 : IVec S_ 1 := constantI S_ 1 1#1
  let main_v97 : IVec S_ 1 := (fun x v => Host.reduce IntOp.andi x v reducesTo_S600_S_d0 h_S_) main_v96 main_c_37
  let main_v98 : IVec S_ 1 := andi main_v93 main_v97
  let main_v99 : FVec F S600 .f32 := Host.absf main_arg22
  let main_cst_38 : FVec F S_ .f32 := constant S_ .f32 0x7F800000#32
  let main_v100 : FVec F S600 .f32 := broadcastInDim S600 ![] bcast_S_S600 main_cst_38
  let main_v101 : IVec S600 1 := cmpf .olt main_v99 main_v100
  let main_c_39 : IVec S_ 1 := constantI S_ 1 1#1
  fn_part6 (F := F) main_arg2 main_arg23 main_arg24 main_arg25 main_arg26 main_arg27 main_arg28 main_arg29 main_v98 main_v101 main_c_39

def fn_part4 {F : FTy → Type} [FloatOps F] (main_arg2 : IVec S10000 32) (main_arg16 : FVec F S300 .f32) (main_arg17 : FVec F S300 .f32) (main_arg18 : FVec F S4x300 .f32) (main_arg19 : FVec F S4x300 .f32) (main_arg20 : FVec F S300x600 .f32) (main_arg21 : FVec F S600 .f32) (main_arg22 : FVec F S600 .f32) (main_arg23 : FVec F S600 .f32) (main_arg24 : FVec F S600x300 .f32) (main_arg25 : FVec F S300 .f32) (main_arg26 : FVec F S300 .f32) (main_arg27 : FVec F S300 .f32) (main_arg28 : FVec F S300x10 .f32) (main_arg29 : FVec F S10 .f32) (main_v63 : IVec S_ 1) (main_v67 : IVec S_ 1) : IVec S_ 1 :=
  let main_v68 : IVec S_ 1 := andi main_v63 main_v67
  let main_v69 : FVec F S300 .f32 := Host.absf main_arg16
  let main_cst_26 : FVec F S_ .f32 := constant S_ .f32 0x7F800000#32
  let main_v70 : FVec F S300 .f32 := broadcastInDim S300 ![] bcast_S_S300 main_cst_26
  let main_v71 : IVec S300 1 := cmpf .olt main_v69 main_v70
  let main_c_27 : IVec S_ 1 := constantI S_ 1 1#1
  let main_v72 : IVec S_ 1 := (fun x v => Host.reduce IntOp.andi x v reducesTo_S300_S_d0 h_S_) main_v71 main_c_27
  let main_v73 : IVec S_ 1 := andi main_v68 main_v72
  let main_v74 : FVec F S300 .f32 := Host.absf main_arg17
  let main_cst_28 : FVec F S_ .f32 := constant S_ .f32 0x7F800000#32
  let main_v75 : FVec F S300 .f32 := broadcastInDim S300 ![] bcast_S_S300 main_cst_28
  let main_v76 : IVec S300 1 := cmpf .olt main_v74 main_v75
  let main_c_29 : IVec S_ 1 := constantI S_ 1 1#1
  let main_v77 : IVec S_ 1 := (fun x v => Host.reduce IntOp.andi x v reducesTo_S300_S_d0 h_S_) main_v76 main_c_29
  let main_v78 : IVec S_ 1 := andi main_v73 main_v77
  let main_v79 : FVec F S4x300 .f32 := Host.absf main_arg18
  let main_cst_30 : FVec F S_ .f32 := constant S_ .f32 0x7F800000#32
  let main_v80 : FVec F S4x300 .f32 := broadcastInDim S4x300 ![] bcast_S_S4x300 main_cst_30
  let main_v81 : IVec S4x300 1 := cmpf .olt main_v79 main_v80
  let main_c_31 : IVec S_ 1 := constantI S_ 1 1#1
  let main_v82 : IVec S_ 1 := (fun x v => Host.reduce IntOp.andi x v reducesTo_S4x300_S_d0_1 h_S_) main_v81 main_c_31
  let main_v83 : IVec S_ 1 := andi main_v78 main_v82
  let main_v84 : FVec F S4x300 .f32 := Host.absf main_arg19
  let main_cst_32 : FVec F S_ .f32 := constant S_ .f32 0x7F800000#32
  fn_part5 (F := F) main_arg2 main_arg20 main_arg21 main_arg22 main_arg23 main_arg24 main_arg25 main_arg26 main_arg27 main_arg28 main_arg29 main_v83 main_v84 main_cst_32

def fn_part3 {F : FTy → Type} [FloatOps F] (main_arg2 : IVec S10000 32) (main_arg13 : FVec F S4x600 .f32) (main_arg14 : FVec F S4x600x300 .f32) (main_arg15 : FVec F S4x300 .f32) (main_arg16 : FVec F S300 .f32) (main_arg17 : FVec F S300 .f32) (main_arg18 : FVec F S4x300 .f32) (main_arg19 : FVec F S4x300 .f32) (main_arg20 : FVec F S300x600 .f32) (main_arg21 : FVec F S600 .f32) (main_arg22 : FVec F S600 .f32) (main_arg23 : FVec F S600 .f32) (main_arg24 : FVec F S600x300 .f32) (main_arg25 : FVec F S300 .f32) (main_arg26 : FVec F S300 .f32) (main_arg27 : FVec F S300 .f32) (main_arg28 : FVec F S300x10 .f32) (main_arg29 : FVec F S10 .f32) (main_v48 : IVec S_ 1) (main_v49 : FVec F S4x600 .f32) (main_v50 : FVec F S4x600 .f32) : IVec S_ 1 :=
  let main_v51 : IVec S4x600 1 := cmpf .olt main_v49 main_v50
  let main_c_19 : IVec S_ 1 := constantI S_ 1 1#1
  let main_v52 : IVec S_ 1 := (fun x v => Host.reduce IntOp.andi x v reducesTo_S4x600_S_d0_1 h_S_) main_v51 main_c_19
  let main_v53 : IVec S_ 1 := andi main_v48 main_v52
  let main_v54 : FVec F S4x600 .f32 := Host.absf main_arg13
  let main_cst_20 : FVec F S_ .f32 := constant S_ .f32 0x7F800000#32
  let main_v55 : FVec F S4x600 .f32 := broadcastInDim S4x600 ![] bcast_S_S4x600 main_cst_20
  let main_v56 : IVec S4x600 1 := cmpf .olt main_v54 main_v55
  let main_c_21 : IVec S_ 1 := constantI S_ 1 1#1
  let main_v57 : IVec S_ 1 := (fun x v => Host.reduce IntOp.andi x v reducesTo_S4x600_S_d0_1 h_S_) main_v56 main_c_21
  let main_v58 : IVec S_ 1 := andi main_v53 main_v57
  let main_v59 : FVec F S4x600x300 .f32 := Host.absf main_arg14
  let main_cst_22 : FVec F S_ .f32 := constant S_ .f32 0x7F800000#32
  let main_v60 : FVec F S4x600x300 .f32 := broadcastInDim S4x600x300 ![] bcast_S_S4x600x300 main_cst_22
  let main_v61 : IVec S4x600x300 1 := cmpf .olt main_v59 main_v60
  let main_c_23 : IVec S_ 1 := constantI S_ 1 1#1
  let main_v62 : IVec S_ 1 := (fun x v => Host.reduce IntOp.andi x v reducesTo_S4x600x300_S_d0_1_2 h_S_) main_v61 main_c_23
  let main_v63 : IVec S_ 1 := andi main_v58 main_v62
  let main_v64 : FVec F S4x300 .f32 := Host.absf main_arg15
  let main_cst_24 : FVec F S_ .f32 := constant S_ .f32 0x7F800000#32
  let main_v65 : FVec F S4x300 .f32 := broadcastInDim S4x300 ![] bcast_S_S4x300 main_cst_24
  let main_v66 : IVec S4x300 1 := cmpf .olt main_v64 main_v65
  let main_c_25 : IVec S_ 1 := constantI S_ 1 1#1
  let main_v67 : IVec S_ 1 := (fun x v => Host.reduce IntOp.andi x v reducesTo_S4x300_S_d0_1 h_S_) main_v66 main_c_25
  fn_part4 (F := F) main_arg2 main_arg16 main_arg17 main_arg18 main_arg19 main_arg20 main_arg21 main_arg22 main_arg23 main_arg24 main_arg25 main_arg26 main_arg27 main_arg28 main_arg29 main_v63 main_v67

def fn_part2 {F : FTy → Type} [FloatOps F] (main_arg2 : IVec S10000 32) (main_arg9 : FVec F S300 .f32) (main_arg10 : FVec F S4x300x600 .f32) (main_arg11 : FVec F S4x600 .f32) (main_arg12 : FVec F S4x600 .f32) (main_arg13 : FVec F S4x600 .f32) (main_arg14 : FVec F S4x600x300 .f32) (main_arg15 : FVec F S4x300 .f32) (main_arg16 : FVec F S300 .f32) (main_arg17 : FVec F S300 .f32) (main_arg18 : FVec F S4x300 .f32) (main_arg19 : FVec F S4x300 .f32) (main_arg20 : FVec F S300x600 .f32) (main_arg21 : FVec F S600 .f32) (main_arg22 : FVec F S600 .f32) (main_arg23 : FVec F S600 .f32) (main_arg24 : FVec F S600x300 .f32) (main_arg25 : FVec F S300 .f32) (main_arg26 : FVec F S300 .f32) (main_arg27 : FVec F S300 .f32) (main_arg28 : FVec F S300x10 .f32) (main_arg29 : FVec F S10 .f32) (main_v33 : IVec S_ 1) : IVec S_ 1 :=
  let main_v34 : FVec F S300 .f32 := Host.absf main_arg9
  let main_cst_12 : FVec F S_ .f32 := constant S_ .f32 0x7F800000#32
  let main_v35 : FVec F S300 .f32 := broadcastInDim S300 ![] bcast_S_S300 main_cst_12
  let main_v36 : IVec S300 1 := cmpf .olt main_v34 main_v35
  let main_c_13 : IVec S_ 1 := constantI S_ 1 1#1
  let main_v37 : IVec S_ 1 := (fun x v => Host.reduce IntOp.andi x v reducesTo_S300_S_d0 h_S_) main_v36 main_c_13
  let main_v38 : IVec S_ 1 := andi main_v33 main_v37
  let main_v39 : FVec F S4x300x600 .f32 := Host.absf main_arg10
  let main_cst_14 : FVec F S_ .f32 := constant S_ .f32 0x7F800000#32
  let main_v40 : FVec F S4x300x600 .f32 := broadcastInDim S4x300x600 ![] bcast_S_S4x300x600 main_cst_14
  let main_v41 : IVec S4x300x600 1 := cmpf .olt main_v39 main_v40
  let main_c_15 : IVec S_ 1 := constantI S_ 1 1#1
  let main_v42 : IVec S_ 1 := (fun x v => Host.reduce IntOp.andi x v reducesTo_S4x300x600_S_d0_1_2 h_S_) main_v41 main_c_15
  let main_v43 : IVec S_ 1 := andi main_v38 main_v42
  let main_v44 : FVec F S4x600 .f32 := Host.absf main_arg11
  let main_cst_16 : FVec F S_ .f32 := constant S_ .f32 0x7F800000#32
  let main_v45 : FVec F S4x600 .f32 := broadcastInDim S4x600 ![] bcast_S_S4x600 main_cst_16
  let main_v46 : IVec S4x600 1 := cmpf .olt main_v44 main_v45
  let main_c_17 : IVec S_ 1 := constantI S_ 1 1#1
  let main_v47 : IVec S_ 1 := (fun x v => Host.reduce IntOp.andi x v reducesTo_S4x600_S_d0_1 h_S_) main_v46 main_c_17
  let main_v48 : IVec S_ 1 := andi main_v43 main_v47
  let main_v49 : FVec F S4x600 .f32 := Host.absf main_arg12
  let main_cst_18 : FVec F S_ .f32 := constant S_ .f32 0x7F800000#32
  let main_v50 : FVec F S4x600 .f32 := broadcastInDim S4x600 ![] bcast_S_S4x600 main_cst_18
  fn_part3 (F := F) main_arg2 main_arg13 main_arg14 main_arg15 main_arg16 main_arg17 main_arg18 main_arg19 main_arg20 main_arg21 main_arg22 main_arg23 main_arg24 main_arg25 main_arg26 main_arg27 main_arg28 main_arg29 main_v48 main_v49 main_v50

def fn_part1 {F : FTy → Type} [FloatOps F] (main_arg2 : IVec S10000 32) (main_arg6 : FVec F S600 .f32) (main_arg7 : FVec F S600 .f32) (main_arg8 : FVec F S600x300 .f32) (main_arg9 : FVec F S300 .f32) (main_arg10 : FVec F S4x300x600 .f32) (main_arg11 : FVec F S4x600 .f32) (main_arg12 : FVec F S4x600 .f32) (main_arg13 : FVec F S4x600 .f32) (main_arg14 : FVec F S4x600x300 .f32) (main_arg15 : FVec F S4x300 .f32) (main_arg16 : FVec F S300 .f32) (main_arg17 : FVec F S300 .f32) (main_arg18 : FVec F S4x300 .f32) (main_arg19 : FVec F S4x300 .f32) (main_arg20 : FVec F S300x600 .f32) (main_arg21 : FVec F S600 .f32) (main_arg22 : FVec F S600 .f32) (main_arg23 : FVec F S600 .f32) (main_arg24 : FVec F S600x300 .f32) (main_arg25 : FVec F S300 .f32) (main_arg26 : FVec F S300 .f32) (main_arg27 : FVec F S300 .f32) (main_arg28 : FVec F S300x10 .f32) (main_arg29 : FVec F S10 .f32) (main_v13 : IVec S_ 1) (main_v16 : IVec S600 1) : IVec S_ 1 :=
  let main_c_5 : IVec S_ 1 := constantI S_ 1 1#1
  let main_v17 : IVec S_ 1 := (fun x v => Host.reduce IntOp.andi x v reducesTo_S600_S_d0 h_S_) main_v16 main_c_5
  let main_v18 : IVec S_ 1 := andi main_v13 main_v17
  let main_v19 : FVec F S600 .f32 := Host.absf main_arg6
  let main_cst_6 : FVec F S_ .f32 := constant S_ .f32 0x7F800000#32
  let main_v20 : FVec F S600 .f32 := broadcastInDim S600 ![] bcast_S_S600 main_cst_6
  let main_v21 : IVec S600 1 := cmpf .olt main_v19 main_v20
  let main_c_7 : IVec S_ 1 := constantI S_ 1 1#1
  let main_v22 : IVec S_ 1 := (fun x v => Host.reduce IntOp.andi x v reducesTo_S600_S_d0 h_S_) main_v21 main_c_7
  let main_v23 : IVec S_ 1 := andi main_v18 main_v22
  let main_v24 : FVec F S600 .f32 := Host.absf main_arg7
  let main_cst_8 : FVec F S_ .f32 := constant S_ .f32 0x7F800000#32
  let main_v25 : FVec F S600 .f32 := broadcastInDim S600 ![] bcast_S_S600 main_cst_8
  let main_v26 : IVec S600 1 := cmpf .olt main_v24 main_v25
  let main_c_9 : IVec S_ 1 := constantI S_ 1 1#1
  let main_v27 : IVec S_ 1 := (fun x v => Host.reduce IntOp.andi x v reducesTo_S600_S_d0 h_S_) main_v26 main_c_9
  let main_v28 : IVec S_ 1 := andi main_v23 main_v27
  let main_v29 : FVec F S600x300 .f32 := Host.absf main_arg8
  let main_cst_10 : FVec F S_ .f32 := constant S_ .f32 0x7F800000#32
  let main_v30 : FVec F S600x300 .f32 := broadcastInDim S600x300 ![] bcast_S_S600x300 main_cst_10
  let main_v31 : IVec S600x300 1 := cmpf .olt main_v29 main_v30
  let main_c_11 : IVec S_ 1 := constantI S_ 1 1#1
  let main_v32 : IVec S_ 1 := (fun x v => Host.reduce IntOp.andi x v reducesTo_S600x300_S_d0_1 h_S_) main_v31 main_c_11
  let main_v33 : IVec S_ 1 := andi main_v28 main_v32
  fn_part2 (F := F) main_arg2 main_arg9 main_arg10 main_arg11 main_arg12 main_arg13 main_arg14 main_arg15 main_arg16 main_arg17 main_arg18 main_arg19 main_arg20 main_arg21 main_arg22 main_arg23 main_arg24 main_arg25 main_arg26 main_arg27 main_arg28 main_arg29 main_v33

def fn {F : FTy → Type} [FloatOps F] (main_arg0 : FVec F S10000x128 .f32) (main_arg1 : IVec S2x160000 32) (main_arg2 : IVec S10000 32) (main_arg3 : FVec F S1x300 .f32) (main_arg4 : FVec F S128x600 .f32) (main_arg5 : FVec F S600 .f32) (main_arg6 : FVec F S600 .f32) (main_arg7 : FVec F S600 .f32) (main_arg8 : FVec F S600x300 .f32) (main_arg9 : FVec F S300 .f32) (main_arg10 : FVec F S4x300x600 .f32) (main_arg11 : FVec F S4x600 .f32) (main_arg12 : FVec F S4x600 .f32) (main_arg13 : FVec F S4x600 .f32) (main_arg14 : FVec F S4x600x300 .f32) (main_arg15 : FVec F S4x300 .f32) (main_arg16 : FVec F S300 .f32) (main_arg17 : FVec F S300 .f32) (main_arg18 : FVec F S4x300 .f32) (main_arg19 : FVec F S4x300 .f32) (main_arg20 : FVec F S300x600 .f32) (main_arg21 : FVec F S600 .f32) (main_arg22 : FVec F S600 .f32) (main_arg23 : FVec F S600 .f32) (main_arg24 : FVec F S600x300 .f32) (main_arg25 : FVec F S300 .f32) (main_arg26 : FVec F S300 .f32) (main_arg27 : FVec F S300 .f32) (main_arg28 : FVec F S300x10 .f32) (main_arg29 : FVec F S10 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S1x300 .f32 := Host.absf main_arg3
  let main_cst_0 : FVec F S_ .f32 := constant S_ .f32 0x7F800000#32
  let main_v5 : FVec F S1x300 .f32 := broadcastInDim S1x300 ![] bcast_S_S1x300 main_cst_0
  let main_v6 : IVec S1x300 1 := cmpf .olt main_v4 main_v5
  let main_c_1 : IVec S_ 1 := constantI S_ 1 1#1
  let main_v7 : IVec S_ 1 := (fun x v => Host.reduce IntOp.andi x v reducesTo_S1x300_S_d0_1 h_S_) main_v6 main_c_1
  let main_v8 : IVec S_ 1 := andi main_v3 main_v7
  let main_v9 : FVec F S128x600 .f32 := Host.absf main_arg4
  let main_cst_2 : FVec F S_ .f32 := constant S_ .f32 0x7F800000#32
  let main_v10 : FVec F S128x600 .f32 := broadcastInDim S128x600 ![] bcast_S_S128x600 main_cst_2
  let main_v11 : IVec S128x600 1 := cmpf .olt main_v9 main_v10
  let main_c_3 : IVec S_ 1 := constantI S_ 1 1#1
  let main_v12 : IVec S_ 1 := (fun x v => Host.reduce IntOp.andi x v reducesTo_S128x600_S_d0_1 h_S_) main_v11 main_c_3
  let main_v13 : IVec S_ 1 := andi main_v8 main_v12
  let main_v14 : FVec F S600 .f32 := Host.absf main_arg5
  let main_cst_4 : FVec F S_ .f32 := constant S_ .f32 0x7F800000#32
  let main_v15 : FVec F S600 .f32 := broadcastInDim S600 ![] bcast_S_S600 main_cst_4
  let main_v16 : IVec S600 1 := cmpf .olt main_v14 main_v15
  fn_part1 (F := F) main_arg2 main_arg6 main_arg7 main_arg8 main_arg9 main_arg10 main_arg11 main_arg12 main_arg13 main_arg14 main_arg15 main_arg16 main_arg17 main_arg18 main_arg19 main_arg20 main_arg21 main_arg22 main_arg23 main_arg24 main_arg25 main_arg26 main_arg27 main_arg28 main_arg29 main_v13 main_v16
-- ==== Kernel.lean ====
abbrev S10000x128 : Shape := ⟨2, ![10000, 128]⟩
abbrev S2x160000 : Shape := ⟨2, ![2, 160000]⟩
abbrev S10000 : Shape := ⟨1, ![10000]⟩
abbrev S1x300 : Shape := ⟨2, ![1, 300]⟩
abbrev S128x600 : Shape := ⟨2, ![128, 600]⟩
abbrev S600 : Shape := ⟨1, ![600]⟩
abbrev S600x300 : Shape := ⟨2, ![600, 300]⟩
abbrev S300 : Shape := ⟨1, ![300]⟩
abbrev S4x300x600 : Shape := ⟨3, ![4, 300, 600]⟩
abbrev S4x600 : Shape := ⟨2, ![4, 600]⟩
abbrev S4x600x300 : Shape := ⟨3, ![4, 600, 300]⟩
abbrev S4x300 : Shape := ⟨2, ![4, 300]⟩
abbrev S300x600 : Shape := ⟨2, ![300, 600]⟩
abbrev S300x10 : Shape := ⟨2, ![300, 10]⟩
abbrev S10 : Shape := ⟨1, ![10]⟩
abbrev S1x160000 : Shape := ⟨2, ![1, 160000]⟩
abbrev S160000 : Shape := ⟨1, ![160000]⟩
abbrev S64x300 : Shape := ⟨2, ![64, 300]⟩
abbrev S_ : Shape := ⟨0, ![]⟩
abbrev S160000x1 : Shape := ⟨2, ![160000, 1]⟩
abbrev S160000x128 : Shape := ⟨2, ![160000, 128]⟩
abbrev S10240x128 : Shape := ⟨2, ![10240, 128]⟩
abbrev S8000x1 : Shape := ⟨2, ![8000, 1]⟩
abbrev S8000x128 : Shape := ⟨2, ![8000, 128]⟩
abbrev S1024x128 : Shape := ⟨2, ![1024, 128]⟩
abbrev S1x1024 : Shape := ⟨2, ![1, 1024]⟩
abbrev S8000x1024 : Shape := ⟨2, ![8000, 1024]⟩
abbrev S10000x600 : Shape := ⟨2, ![10000, 600]⟩
abbrev S1x600 : Shape := ⟨2, ![1, 600]⟩
abbrev S10000x300 : Shape := ⟨2, ![10000, 300]⟩
abbrev S10000x1 : Shape := ⟨2, ![10000, 1]⟩
abbrev S1x300x600 : Shape := ⟨3, ![1, 300, 600]⟩
abbrev S1x600x300 : Shape := ⟨3, ![1, 600, 300]⟩
abbrev S160000x300 : Shape := ⟨2, ![160000, 300]⟩
abbrev S10240x300 : Shape := ⟨2, ![10240, 300]⟩
abbrev S8000x300 : Shape := ⟨2, ![8000, 300]⟩
abbrev S1024x300 : Shape := ⟨2, ![1024, 300]⟩
abbrev S2000x1 : Shape := ⟨2, ![2000, 1]⟩
abbrev S2000x300 : Shape := ⟨2, ![2000, 300]⟩
abbrev S1x64 : Shape := ⟨2, ![1, 64]⟩
abbrev S2000x64 : Shape := ⟨2, ![2000, 64]⟩
abbrev S64x600 : Shape := ⟨2, ![64, 600]⟩
abbrev S64 : Shape := ⟨1, ![64]⟩
abbrev S64x1 : Shape := ⟨2, ![64, 1]⟩
abbrev S64x10 : Shape := ⟨2, ![64, 10]⟩
abbrev S1x10 : Shape := ⟨2, ![1, 10]⟩

abbrev nBuf : Space → Nat
  | .hbm => 1061
  | .vmem => 59
  | .smem => 0
  | _ => 0

abbrev hbmTy0_0 (i : Nat) : BufTy := match i % 128 with
  | 0 => ⟨S10000x128, .f32⟩
  | 1 => ⟨S2x160000, .i32⟩
  | 2 => ⟨S10000, .i32⟩
  | 3 => ⟨S1x300, .f32⟩
  | 4 => ⟨S128x600, .f32⟩
  | 5 => ⟨S600, .f32⟩
  | 6 => ⟨S600, .f32⟩
  | 7 => ⟨S600, .f32⟩
  | 8 => ⟨S600x300, .f32⟩
  | 9 => ⟨S300, .f32⟩
  | 10 => ⟨S4x300x600, .f32⟩
  | 11 => ⟨S4x600, .f32⟩
  | 12 => ⟨S4x600, .f32⟩
  | 13 => ⟨S4x600, .f32⟩
  | 14 => ⟨S4x600x300, .f32⟩
  | 15 => ⟨S4x300, .f32⟩
  | 16 => ⟨S300, .f32⟩
  | 17 => ⟨S300, .f32⟩
  | 18 => ⟨S4x300, .f32⟩
  | 19 => ⟨S4x300, .f32⟩
  | 20 => ⟨S300x600, .f32⟩
  | 21 => ⟨S600, .f32⟩
  | 22 => ⟨S600, .f32⟩
  | 23 => ⟨S600, .f32⟩
  | 24 => ⟨S600x300, .f32⟩
  | 25 => ⟨S300, .f32⟩
  | 26 => ⟨S300, .f32⟩
  | 27 => ⟨S300, .f32⟩
  | 28 => ⟨S300x10, .f32⟩
  | 29 => ⟨S10, .f32⟩
  | 30 => ⟨S1x160000, .i32⟩
  | 31 => ⟨S160000, .i32⟩
  | 32 => ⟨S1x160000, .i32⟩
  | 33 => ⟨S160000, .i32⟩
  | 34 => ⟨S300, .f32⟩
  | 35 => ⟨S64x300, .f32⟩
  | 36 => ⟨S10000x128, .bf16⟩
  | 37 => ⟨S_, .i32⟩
  | 38 => ⟨S160000, .i32⟩
  | 39 => ⟨S160000, .i1⟩
  | 40 => ⟨S_, .i32⟩
  | 41 => ⟨S160000, .i32⟩
  | 42 => ⟨S160000, .i32⟩
  | 43 => ⟨S160000, .i32⟩
  | 44 => ⟨S160000x1, .i32⟩
  | 45 => ⟨S160000x128, .bf16⟩
  | 46 => ⟨S160000x1, .i32⟩
  | 47 => ⟨S10240x128, .f32⟩
  | 48 => ⟨S10000x128, .f32⟩
  | 49 => ⟨S10000x128, .f32⟩
  | 50 => ⟨S10000x600, .f32⟩
  | 51 => ⟨S1x600, .f32⟩
  | 52 => ⟨S10000x600, .f32⟩
  | 53 => ⟨S10000x600, .f32⟩
  | 54 => ⟨S_, .f32⟩
  | 55 => ⟨S600, .f32⟩
  | 56 => ⟨S_, .f32⟩
  | 57 => ⟨S600, .f32⟩
  | 58 => ⟨S600, .f32⟩
  | 59 => ⟨S_, .i32⟩
  | 60 => ⟨S_, .f32⟩
  | 61 => ⟨S600, .f32⟩
  | 62 => ⟨S1x600, .f32⟩
  | 63 => ⟨S_, .f32⟩
  | 64 => ⟨S1x600, .f32⟩
  | 65 => ⟨S1x600, .f32⟩
  | 66 => ⟨S10000x600, .f32⟩
  | 67 => ⟨S10000x600, .f32⟩
  | 68 => ⟨S10000x600, .f32⟩
  | 69 => ⟨S_, .f32⟩
  | 70 => ⟨S_, .f32⟩
  | 71 => ⟨S_, .f32⟩
  | 72 => ⟨S_, .f32⟩
  | 73 => ⟨S600, .f32⟩
  | 74 => ⟨S600, .f32⟩
  | 75 => ⟨S600, .f32⟩
  | 76 => ⟨S_, .f32⟩
  | 77 => ⟨S_, .i1⟩
  | 78 => ⟨S_, .f32⟩
  | 79 => ⟨S_, .f32⟩
  | 80 => ⟨S600, .f32⟩
  | 81 => ⟨S600, .f32⟩
  | 82 => ⟨S1x600, .f32⟩
  | 83 => ⟨S10000x600, .f32⟩
  | 84 => ⟨S10000x600, .f32⟩
  | 85 => ⟨S_, .f32⟩
  | 86 => ⟨S600, .f32⟩
  | 87 => ⟨S600, .f32⟩
  | 88 => ⟨S600, .f32⟩
  | 89 => ⟨S1x600, .f32⟩
  | 90 => ⟨S10000x600, .f32⟩
  | 91 => ⟨S10000x600, .f32⟩
  | 92 => ⟨S1x600, .f32⟩
  | 93 => ⟨S10000x600, .f32⟩
  | 94 => ⟨S10000x600, .f32⟩
  | 95 => ⟨S1x600, .f32⟩
  | 96 => ⟨S10000x600, .f32⟩
  | 97 => ⟨S10000x600, .f32⟩
  | 98 => ⟨S_, .f32⟩
  | 99 => ⟨S10000x600, .f32⟩
  | 100 => ⟨S10000x600, .f32⟩
  | 101 => ⟨S10000x300, .f32⟩
  | 102 => ⟨S1x300, .f32⟩
  | 103 => ⟨S10000x300, .f32⟩
  | 104 => ⟨S10000x300, .f32⟩
  | 105 => ⟨S_, .f32⟩
  | 106 => ⟨S300, .f32⟩
  | 107 => ⟨S_, .f32⟩
  | 108 => ⟨S300, .f32⟩
  | 109 => ⟨S300, .f32⟩
  | 110 => ⟨S_, .i32⟩
  | 111 => ⟨S_, .f32⟩
  | 112 => ⟨S300, .f32⟩
  | 113 => ⟨S1x300, .f32⟩
  | 114 => ⟨S_, .f32⟩
  | 115 => ⟨S1x300, .f32⟩
  | 116 => ⟨S1x300, .f32⟩
  | 117 => ⟨S10000x300, .f32⟩
  | 118 => ⟨S10000x300, .f32⟩
  | 119 => ⟨S10000x300, .f32⟩
  | 120 => ⟨S_, .f32⟩
  | 121 => ⟨S_, .f32⟩
  | 122 => ⟨S_, .f32⟩
  | 123 => ⟨S_, .f32⟩
  | 124 => ⟨S300, .f32⟩
  | 125 => ⟨S300, .f32⟩
  | 126 => ⟨S300, .f32⟩
  | 127 => ⟨S_, .f32⟩
  | _ => ⟨S10000x128, .f32⟩

abbrev hbmTy0_1 (i : Nat) : BufTy := match i % 128 with
  | 0 => ⟨S_, .i1⟩
  | 1 => ⟨S_, .f32⟩
  | 2 => ⟨S_, .f32⟩
  | 3 => ⟨S300, .f32⟩
  | 4 => ⟨S300, .f32⟩
  | 5 => ⟨S1x300, .f32⟩
  | 6 => ⟨S10000x300, .f32⟩
  | 7 => ⟨S10000x300, .f32⟩
  | 8 => ⟨S_, .f32⟩
  | 9 => ⟨S300, .f32⟩
  | 10 => ⟨S300, .f32⟩
  | 11 => ⟨S300, .f32⟩
  | 12 => ⟨S1x300, .f32⟩
  | 13 => ⟨S10000x300, .f32⟩
  | 14 => ⟨S10000x300, .f32⟩
  | 15 => ⟨S1x300, .f32⟩
  | 16 => ⟨S10000x300, .f32⟩
  | 17 => ⟨S10000x300, .f32⟩
  | 18 => ⟨S1x300, .f32⟩
  | 19 => ⟨S10000x300, .f32⟩
  | 20 => ⟨S10000x300, .f32⟩
  | 21 => ⟨S_, .f32⟩
  | 22 => ⟨S10000x300, .f32⟩
  | 23 => ⟨S10000x300, .f32⟩
  | 24 => ⟨S_, .i32⟩
  | 25 => ⟨S10000, .i32⟩
  | 26 => ⟨S10000, .i1⟩
  | 27 => ⟨S_, .i32⟩
  | 28 => ⟨S10000, .i32⟩
  | 29 => ⟨S10000, .i32⟩
  | 30 => ⟨S10000, .i32⟩
  | 31 => ⟨S10000x1, .i32⟩
  | 32 => ⟨S10000x300, .f32⟩
  | 33 => ⟨S10000x300, .f32⟩
  | 34 => ⟨S1x300x600, .f32⟩
  | 35 => ⟨S300x600, .f32⟩
  | 36 => ⟨S1x600, .f32⟩
  | 37 => ⟨S600, .f32⟩
  | 38 => ⟨S1x600, .f32⟩
  | 39 => ⟨S600, .f32⟩
  | 40 => ⟨S1x600, .f32⟩
  | 41 => ⟨S600, .f32⟩
  | 42 => ⟨S1x600x300, .f32⟩
  | 43 => ⟨S600x300, .f32⟩
  | 44 => ⟨S1x300, .f32⟩
  | 45 => ⟨S300, .f32⟩
  | 46 => ⟨S10000x300, .bf16⟩
  | 47 => ⟨S_, .i32⟩
  | 48 => ⟨S160000, .i32⟩
  | 49 => ⟨S160000, .i1⟩
  | 50 => ⟨S_, .i32⟩
  | 51 => ⟨S160000, .i32⟩
  | 52 => ⟨S160000, .i32⟩
  | 53 => ⟨S160000, .i32⟩
  | 54 => ⟨S160000x1, .i32⟩
  | 55 => ⟨S160000x300, .bf16⟩
  | 56 => ⟨S160000x1, .i32⟩
  | 57 => ⟨S10240x300, .f32⟩
  | 58 => ⟨S10000x300, .f32⟩
  | 59 => ⟨S10000x300, .f32⟩
  | 60 => ⟨S10000x600, .f32⟩
  | 61 => ⟨S1x600, .f32⟩
  | 62 => ⟨S10000x600, .f32⟩
  | 63 => ⟨S10000x600, .f32⟩
  | 64 => ⟨S_, .f32⟩
  | 65 => ⟨S600, .f32⟩
  | 66 => ⟨S_, .f32⟩
  | 67 => ⟨S600, .f32⟩
  | 68 => ⟨S600, .f32⟩
  | 69 => ⟨S_, .i32⟩
  | 70 => ⟨S_, .f32⟩
  | 71 => ⟨S600, .f32⟩
  | 72 => ⟨S1x600, .f32⟩
  | 73 => ⟨S_, .f32⟩
  | 74 => ⟨S1x600, .f32⟩
  | 75 => ⟨S1x600, .f32⟩
  | 76 => ⟨S10000x600, .f32⟩
  | 77 => ⟨S10000x600, .f32⟩
  | 78 => ⟨S10000x600, .f32⟩
  | 79 => ⟨S_, .f32⟩
  | 80 => ⟨S_, .f32⟩
  | 81 => ⟨S_, .f32⟩
  | 82 => ⟨S_, .f32⟩
  | 83 => ⟨S600, .f32⟩
  | 84 => ⟨S600, .f32⟩
  | 85 => ⟨S600, .f32⟩
  | 86 => ⟨S_, .f32⟩
  | 87 => ⟨S_, .i1⟩
  | 88 => ⟨S_, .f32⟩
  | 89 => ⟨S_, .f32⟩
  | 90 => ⟨S600, .f32⟩
  | 91 => ⟨S600, .f32⟩
  | 92 => ⟨S1x600, .f32⟩
  | 93 => ⟨S10000x600, .f32⟩
  | 94 => ⟨S10000x600, .f32⟩
  | 95 => ⟨S_, .f32⟩
  | 96 => ⟨S600, .f32⟩
  | 97 => ⟨S600, .f32⟩
  | 98 => ⟨S600, .f32⟩
  | 99 => ⟨S1x600, .f32⟩
  | 100 => ⟨S10000x600, .f32⟩
  | 101 => ⟨S10000x600, .f32⟩
  | 102 => ⟨S1x600, .f32⟩
  | 103 => ⟨S10000x600, .f32⟩
  | 104 => ⟨S10000x600, .f32⟩
  | 105 => ⟨S1x600, .f32⟩
  | 106 => ⟨S10000x600, .f32⟩
  | 107 => ⟨S10000x600, .f32⟩
  | 108 => ⟨S_, .f32⟩
  | 109 => ⟨S10000x600, .f32⟩
  | 110 => ⟨S10000x600, .f32⟩
  | 111 => ⟨S10000x300, .f32⟩
  | 112 => ⟨S1x300, .f32⟩
  | 113 => ⟨S10000x300, .f32⟩
  | 114 => ⟨S10000x300, .f32⟩
  | 115 => ⟨S1x300, .f32⟩
  | 116 => ⟨S300, .f32⟩
  | 117 => ⟨S1x300, .f32⟩
  | 118 => ⟨S300, .f32⟩
  | 119 => ⟨S_, .f32⟩
  | 120 => ⟨S300, .f32⟩
  | 121 => ⟨S_, .f32⟩
  | 122 => ⟨S300, .f32⟩
  | 123 => ⟨S300, .f32⟩
  | 124 => ⟨S_, .i32⟩
  | 125 => ⟨S_, .f32⟩
  | 126 => ⟨S300, .f32⟩
  | 127 => ⟨S1x300, .f32⟩
  | _ => ⟨S10000x128, .f32⟩

abbrev hbmTy0_2 (i : Nat) : BufTy := match i % 128 with
  | 0 => ⟨S_, .f32⟩
  | 1 => ⟨S1x300, .f32⟩
  | 2 => ⟨S1x300, .f32⟩
  | 3 => ⟨S10000x300, .f32⟩
  | 4 => ⟨S10000x300, .f32⟩
  | 5 => ⟨S10000x300, .f32⟩
  | 6 => ⟨S_, .f32⟩
  | 7 => ⟨S_, .f32⟩
  | 8 => ⟨S_, .f32⟩
  | 9 => ⟨S_, .f32⟩
  | 10 => ⟨S300, .f32⟩
  | 11 => ⟨S300, .f32⟩
  | 12 => ⟨S300, .f32⟩
  | 13 => ⟨S_, .f32⟩
  | 14 => ⟨S_, .i1⟩
  | 15 => ⟨S_, .f32⟩
  | 16 => ⟨S_, .f32⟩
  | 17 => ⟨S300, .f32⟩
  | 18 => ⟨S300, .f32⟩
  | 19 => ⟨S1x300, .f32⟩
  | 20 => ⟨S10000x300, .f32⟩
  | 21 => ⟨S10000x300, .f32⟩
  | 22 => ⟨S_, .f32⟩
  | 23 => ⟨S300, .f32⟩
  | 24 => ⟨S300, .f32⟩
  | 25 => ⟨S300, .f32⟩
  | 26 => ⟨S1x300, .f32⟩
  | 27 => ⟨S10000x300, .f32⟩
  | 28 => ⟨S10000x300, .f32⟩
  | 29 => ⟨S1x300, .f32⟩
  | 30 => ⟨S10000x300, .f32⟩
  | 31 => ⟨S10000x300, .f32⟩
  | 32 => ⟨S1x300, .f32⟩
  | 33 => ⟨S10000x300, .f32⟩
  | 34 => ⟨S10000x300, .f32⟩
  | 35 => ⟨S_, .f32⟩
  | 36 => ⟨S10000x300, .f32⟩
  | 37 => ⟨S10000x300, .f32⟩
  | 38 => ⟨S10000x1, .i32⟩
  | 39 => ⟨S10000x300, .bf16⟩
  | 40 => ⟨S64x300, .f32⟩
  | 41 => ⟨S64x300, .f32⟩
  | 42 => ⟨S64x600, .f32⟩
  | 43 => ⟨S1x600, .f32⟩
  | 44 => ⟨S64x600, .f32⟩
  | 45 => ⟨S64x600, .f32⟩
  | 46 => ⟨S_, .f32⟩
  | 47 => ⟨S600, .f32⟩
  | 48 => ⟨S_, .f32⟩
  | 49 => ⟨S600, .f32⟩
  | 50 => ⟨S600, .f32⟩
  | 51 => ⟨S_, .i32⟩
  | 52 => ⟨S_, .f32⟩
  | 53 => ⟨S600, .f32⟩
  | 54 => ⟨S1x600, .f32⟩
  | 55 => ⟨S_, .f32⟩
  | 56 => ⟨S1x600, .f32⟩
  | 57 => ⟨S1x600, .f32⟩
  | 58 => ⟨S64x600, .f32⟩
  | 59 => ⟨S64x600, .f32⟩
  | 60 => ⟨S64x600, .f32⟩
  | 61 => ⟨S_, .f32⟩
  | 62 => ⟨S_, .f32⟩
  | 63 => ⟨S_, .f32⟩
  | 64 => ⟨S_, .f32⟩
  | 65 => ⟨S600, .f32⟩
  | 66 => ⟨S600, .f32⟩
  | 67 => ⟨S600, .f32⟩
  | 68 => ⟨S_, .f32⟩
  | 69 => ⟨S_, .i1⟩
  | 70 => ⟨S_, .f32⟩
  | 71 => ⟨S_, .f32⟩
  | 72 => ⟨S600, .f32⟩
  | 73 => ⟨S600, .f32⟩
  | 74 => ⟨S1x600, .f32⟩
  | 75 => ⟨S64x600, .f32⟩
  | 76 => ⟨S64x600, .f32⟩
  | 77 => ⟨S_, .f32⟩
  | 78 => ⟨S600, .f32⟩
  | 79 => ⟨S600, .f32⟩
  | 80 => ⟨S600, .f32⟩
  | 81 => ⟨S1x600, .f32⟩
  | 82 => ⟨S64x600, .f32⟩
  | 83 => ⟨S64x600, .f32⟩
  | 84 => ⟨S1x600, .f32⟩
  | 85 => ⟨S64x600, .f32⟩
  | 86 => ⟨S64x600, .f32⟩
  | 87 => ⟨S1x600, .f32⟩
  | 88 => ⟨S64x600, .f32⟩
  | 89 => ⟨S64x600, .f32⟩
  | 90 => ⟨S_, .f32⟩
  | 91 => ⟨S64x600, .f32⟩
  | 92 => ⟨S64x600, .f32⟩
  | 93 => ⟨S64x300, .f32⟩
  | 94 => ⟨S1x300, .f32⟩
  | 95 => ⟨S64x300, .f32⟩
  | 96 => ⟨S64x300, .f32⟩
  | 97 => ⟨S_, .f32⟩
  | 98 => ⟨S300, .f32⟩
  | 99 => ⟨S_, .f32⟩
  | 100 => ⟨S300, .f32⟩
  | 101 => ⟨S300, .f32⟩
  | 102 => ⟨S_, .i32⟩
  | 103 => ⟨S_, .f32⟩
  | 104 => ⟨S300, .f32⟩
  | 105 => ⟨S1x300, .f32⟩
  | 106 => ⟨S_, .f32⟩
  | 107 => ⟨S1x300, .f32⟩
  | 108 => ⟨S1x300, .f32⟩
  | 109 => ⟨S64x300, .f32⟩
  | 110 => ⟨S64x300, .f32⟩
  | 111 => ⟨S64x300, .f32⟩
  | 112 => ⟨S_, .f32⟩
  | 113 => ⟨S_, .f32⟩
  | 114 => ⟨S_, .f32⟩
  | 115 => ⟨S_, .f32⟩
  | 116 => ⟨S300, .f32⟩
  | 117 => ⟨S300, .f32⟩
  | 118 => ⟨S300, .f32⟩
  | 119 => ⟨S_, .f32⟩
  | 120 => ⟨S_, .i1⟩
  | 121 => ⟨S_, .f32⟩
  | 122 => ⟨S_, .f32⟩
  | 123 => ⟨S300, .f32⟩
  | 124 => ⟨S300, .f32⟩
  | 125 => ⟨S1x300, .f32⟩
  | 126 => ⟨S64x300, .f32⟩
  | 127 => ⟨S64x300, .f32⟩
  | _ => ⟨S10000x128, .f32⟩

abbrev hbmTy0_3 (i : Nat) : BufTy := match i % 128 with
  | 0 => ⟨S_, .f32⟩
  | 1 => ⟨S300, .f32⟩
  | 2 => ⟨S300, .f32⟩
  | 3 => ⟨S300, .f32⟩
  | 4 => ⟨S1x300, .f32⟩
  | 5 => ⟨S64x300, .f32⟩
  | 6 => ⟨S64x300, .f32⟩
  | 7 => ⟨S1x300, .f32⟩
  | 8 => ⟨S64x300, .f32⟩
  | 9 => ⟨S64x300, .f32⟩
  | 10 => ⟨S1x300, .f32⟩
  | 11 => ⟨S64x300, .f32⟩
  | 12 => ⟨S64x300, .f32⟩
  | 13 => ⟨S_, .f32⟩
  | 14 => ⟨S64x300, .f32⟩
  | 15 => ⟨S64x300, .f32⟩
  | 16 => ⟨S_, .i32⟩
  | 17 => ⟨S10000, .i32⟩
  | 18 => ⟨S10000, .i1⟩
  | 19 => ⟨S_, .i32⟩
  | 20 => ⟨S10000, .i32⟩
  | 21 => ⟨S10000, .i32⟩
  | 22 => ⟨S10000, .i32⟩
  | 23 => ⟨S10000x1, .i32⟩
  | 24 => ⟨S10000x300, .f32⟩
  | 25 => ⟨S10000x300, .f32⟩
  | 26 => ⟨S1x300x600, .f32⟩
  | 27 => ⟨S300x600, .f32⟩
  | 28 => ⟨S1x600, .f32⟩
  | 29 => ⟨S600, .f32⟩
  | 30 => ⟨S1x600, .f32⟩
  | 31 => ⟨S600, .f32⟩
  | 32 => ⟨S1x600, .f32⟩
  | 33 => ⟨S600, .f32⟩
  | 34 => ⟨S1x600x300, .f32⟩
  | 35 => ⟨S600x300, .f32⟩
  | 36 => ⟨S1x300, .f32⟩
  | 37 => ⟨S300, .f32⟩
  | 38 => ⟨S10000x300, .bf16⟩
  | 39 => ⟨S_, .i32⟩
  | 40 => ⟨S160000, .i32⟩
  | 41 => ⟨S160000, .i1⟩
  | 42 => ⟨S_, .i32⟩
  | 43 => ⟨S160000, .i32⟩
  | 44 => ⟨S160000, .i32⟩
  | 45 => ⟨S160000, .i32⟩
  | 46 => ⟨S160000x1, .i32⟩
  | 47 => ⟨S160000x300, .bf16⟩
  | 48 => ⟨S160000x1, .i32⟩
  | 49 => ⟨S10240x300, .f32⟩
  | 50 => ⟨S10000x300, .f32⟩
  | 51 => ⟨S10000x300, .f32⟩
  | 52 => ⟨S10000x600, .f32⟩
  | 53 => ⟨S1x600, .f32⟩
  | 54 => ⟨S10000x600, .f32⟩
  | 55 => ⟨S10000x600, .f32⟩
  | 56 => ⟨S_, .f32⟩
  | 57 => ⟨S600, .f32⟩
  | 58 => ⟨S_, .f32⟩
  | 59 => ⟨S600, .f32⟩
  | 60 => ⟨S600, .f32⟩
  | 61 => ⟨S_, .i32⟩
  | 62 => ⟨S_, .f32⟩
  | 63 => ⟨S600, .f32⟩
  | 64 => ⟨S1x600, .f32⟩
  | 65 => ⟨S_, .f32⟩
  | 66 => ⟨S1x600, .f32⟩
  | 67 => ⟨S1x600, .f32⟩
  | 68 => ⟨S10000x600, .f32⟩
  | 69 => ⟨S10000x600, .f32⟩
  | 70 => ⟨S10000x600, .f32⟩
  | 71 => ⟨S_, .f32⟩
  | 72 => ⟨S_, .f32⟩
  | 73 => ⟨S_, .f32⟩
  | 74 => ⟨S_, .f32⟩
  | 75 => ⟨S600, .f32⟩
  | 76 => ⟨S600, .f32⟩
  | 77 => ⟨S600, .f32⟩
  | 78 => ⟨S_, .f32⟩
  | 79 => ⟨S_, .i1⟩
  | 80 => ⟨S_, .f32⟩
  | 81 => ⟨S_, .f32⟩
  | 82 => ⟨S600, .f32⟩
  | 83 => ⟨S600, .f32⟩
  | 84 => ⟨S1x600, .f32⟩
  | 85 => ⟨S10000x600, .f32⟩
  | 86 => ⟨S10000x600, .f32⟩
  | 87 => ⟨S_, .f32⟩
  | 88 => ⟨S600, .f32⟩
  | 89 => ⟨S600, .f32⟩
  | 90 => ⟨S600, .f32⟩
  | 91 => ⟨S1x600, .f32⟩
  | 92 => ⟨S10000x600, .f32⟩
  | 93 => ⟨S10000x600, .f32⟩
  | 94 => ⟨S1x600, .f32⟩
  | 95 => ⟨S10000x600, .f32⟩
  | 96 => ⟨S10000x600, .f32⟩
  | 97 => ⟨S1x600, .f32⟩
  | 98 => ⟨S10000x600, .f32⟩
  | 99 => ⟨S10000x600, .f32⟩
  | 100 => ⟨S_, .f32⟩
  | 101 => ⟨S10000x600, .f32⟩
  | 102 => ⟨S10000x600, .f32⟩
  | 103 => ⟨S10000x300, .f32⟩
  | 104 => ⟨S1x300, .f32⟩
  | 105 => ⟨S10000x300, .f32⟩
  | 106 => ⟨S10000x300, .f32⟩
  | 107 => ⟨S1x300, .f32⟩
  | 108 => ⟨S300, .f32⟩
  | 109 => ⟨S1x300, .f32⟩
  | 110 => ⟨S300, .f32⟩
  | 111 => ⟨S_, .f32⟩
  | 112 => ⟨S300, .f32⟩
  | 113 => ⟨S_, .f32⟩
  | 114 => ⟨S300, .f32⟩
  | 115 => ⟨S300, .f32⟩
  | 116 => ⟨S_, .i32⟩
  | 117 => ⟨S_, .f32⟩
  | 118 => ⟨S300, .f32⟩
  | 119 => ⟨S1x300, .f32⟩
  | 120 => ⟨S_, .f32⟩
  | 121 => ⟨S1x300, .f32⟩
  | 122 => ⟨S1x300, .f32⟩
  | 123 => ⟨S10000x300, .f32⟩
  | 124 => ⟨S10000x300, .f32⟩
  | 125 => ⟨S10000x300, .f32⟩
  | 126 => ⟨S_, .f32⟩
  | 127 => ⟨S_, .f32⟩
  | _ => ⟨S10000x128, .f32⟩

abbrev hbmTy0_4 (i : Nat) : BufTy := match i % 128 with
  | 0 => ⟨S_, .f32⟩
  | 1 => ⟨S_, .f32⟩
  | 2 => ⟨S300, .f32⟩
  | 3 => ⟨S300, .f32⟩
  | 4 => ⟨S300, .f32⟩
  | 5 => ⟨S_, .f32⟩
  | 6 => ⟨S_, .i1⟩
  | 7 => ⟨S_, .f32⟩
  | 8 => ⟨S_, .f32⟩
  | 9 => ⟨S300, .f32⟩
  | 10 => ⟨S300, .f32⟩
  | 11 => ⟨S1x300, .f32⟩
  | 12 => ⟨S10000x300, .f32⟩
  | 13 => ⟨S10000x300, .f32⟩
  | 14 => ⟨S_, .f32⟩
  | 15 => ⟨S300, .f32⟩
  | 16 => ⟨S300, .f32⟩
  | 17 => ⟨S300, .f32⟩
  | 18 => ⟨S1x300, .f32⟩
  | 19 => ⟨S10000x300, .f32⟩
  | 20 => ⟨S10000x300, .f32⟩
  | 21 => ⟨S1x300, .f32⟩
  | 22 => ⟨S10000x300, .f32⟩
  | 23 => ⟨S10000x300, .f32⟩
  | 24 => ⟨S1x300, .f32⟩
  | 25 => ⟨S10000x300, .f32⟩
  | 26 => ⟨S10000x300, .f32⟩
  | 27 => ⟨S_, .f32⟩
  | 28 => ⟨S10000x300, .f32⟩
  | 29 => ⟨S10000x300, .f32⟩
  | 30 => ⟨S10000x1, .i32⟩
  | 31 => ⟨S10000x300, .bf16⟩
  | 32 => ⟨S64x300, .f32⟩
  | 33 => ⟨S64x300, .f32⟩
  | 34 => ⟨S64x600, .f32⟩
  | 35 => ⟨S1x600, .f32⟩
  | 36 => ⟨S64x600, .f32⟩
  | 37 => ⟨S64x600, .f32⟩
  | 38 => ⟨S_, .f32⟩
  | 39 => ⟨S600, .f32⟩
  | 40 => ⟨S_, .f32⟩
  | 41 => ⟨S600, .f32⟩
  | 42 => ⟨S600, .f32⟩
  | 43 => ⟨S_, .i32⟩
  | 44 => ⟨S_, .f32⟩
  | 45 => ⟨S600, .f32⟩
  | 46 => ⟨S1x600, .f32⟩
  | 47 => ⟨S_, .f32⟩
  | 48 => ⟨S1x600, .f32⟩
  | 49 => ⟨S1x600, .f32⟩
  | 50 => ⟨S64x600, .f32⟩
  | 51 => ⟨S64x600, .f32⟩
  | 52 => ⟨S64x600, .f32⟩
  | 53 => ⟨S_, .f32⟩
  | 54 => ⟨S_, .f32⟩
  | 55 => ⟨S_, .f32⟩
  | 56 => ⟨S_, .f32⟩
  | 57 => ⟨S600, .f32⟩
  | 58 => ⟨S600, .f32⟩
  | 59 => ⟨S600, .f32⟩
  | 60 => ⟨S_, .f32⟩
  | 61 => ⟨S_, .i1⟩
  | 62 => ⟨S_, .f32⟩
  | 63 => ⟨S_, .f32⟩
  | 64 => ⟨S600, .f32⟩
  | 65 => ⟨S600, .f32⟩
  | 66 => ⟨S1x600, .f32⟩
  | 67 => ⟨S64x600, .f32⟩
  | 68 => ⟨S64x600, .f32⟩
  | 69 => ⟨S_, .f32⟩
  | 70 => ⟨S600, .f32⟩
  | 71 => ⟨S600, .f32⟩
  | 72 => ⟨S600, .f32⟩
  | 73 => ⟨S1x600, .f32⟩
  | 74 => ⟨S64x600, .f32⟩
  | 75 => ⟨S64x600, .f32⟩
  | 76 => ⟨S1x600, .f32⟩
  | 77 => ⟨S64x600, .f32⟩
  | 78 => ⟨S64x600, .f32⟩
  | 79 => ⟨S1x600, .f32⟩
  | 80 => ⟨S64x600, .f32⟩
  | 81 => ⟨S64x600, .f32⟩
  | 82 => ⟨S_, .f32⟩
  | 83 => ⟨S64x600, .f32⟩
  | 84 => ⟨S64x600, .f32⟩
  | 85 => ⟨S64x300, .f32⟩
  | 86 => ⟨S1x300, .f32⟩
  | 87 => ⟨S64x300, .f32⟩
  | 88 => ⟨S64x300, .f32⟩
  | 89 => ⟨S_, .f32⟩
  | 90 => ⟨S300, .f32⟩
  | 91 => ⟨S_, .f32⟩
  | 92 => ⟨S300, .f32⟩
  | 93 => ⟨S300, .f32⟩
  | 94 => ⟨S_, .i32⟩
  | 95 => ⟨S_, .f32⟩
  | 96 => ⟨S300, .f32⟩
  | 97 => ⟨S1x300, .f32⟩
  | 98 => ⟨S_, .f32⟩
  | 99 => ⟨S1x300, .f32⟩
  | 100 => ⟨S1x300, .f32⟩
  | 101 => ⟨S64x300, .f32⟩
  | 102 => ⟨S64x300, .f32⟩
  | 103 => ⟨S64x300, .f32⟩
  | 104 => ⟨S_, .f32⟩
  | 105 => ⟨S_, .f32⟩
  | 106 => ⟨S_, .f32⟩
  | 107 => ⟨S_, .f32⟩
  | 108 => ⟨S300, .f32⟩
  | 109 => ⟨S300, .f32⟩
  | 110 => ⟨S300, .f32⟩
  | 111 => ⟨S_, .f32⟩
  | 112 => ⟨S_, .i1⟩
  | 113 => ⟨S_, .f32⟩
  | 114 => ⟨S_, .f32⟩
  | 115 => ⟨S300, .f32⟩
  | 116 => ⟨S300, .f32⟩
  | 117 => ⟨S1x300, .f32⟩
  | 118 => ⟨S64x300, .f32⟩
  | 119 => ⟨S64x300, .f32⟩
  | 120 => ⟨S_, .f32⟩
  | 121 => ⟨S300, .f32⟩
  | 122 => ⟨S300, .f32⟩
  | 123 => ⟨S300, .f32⟩
  | 124 => ⟨S1x300, .f32⟩
  | 125 => ⟨S64x300, .f32⟩
  | 126 => ⟨S64x300, .f32⟩
  | 127 => ⟨S1x300, .f32⟩
  | _ => ⟨S10000x128, .f32⟩

abbrev hbmTy0_5 (i : Nat) : BufTy := match i % 128 with
  | 0 => ⟨S64x300, .f32⟩
  | 1 => ⟨S64x300, .f32⟩
  | 2 => ⟨S1x300, .f32⟩
  | 3 => ⟨S64x300, .f32⟩
  | 4 => ⟨S64x300, .f32⟩
  | 5 => ⟨S_, .f32⟩
  | 6 => ⟨S64x300, .f32⟩
  | 7 => ⟨S64x300, .f32⟩
  | 8 => ⟨S_, .i32⟩
  | 9 => ⟨S10000, .i32⟩
  | 10 => ⟨S10000, .i1⟩
  | 11 => ⟨S_, .i32⟩
  | 12 => ⟨S10000, .i32⟩
  | 13 => ⟨S10000, .i32⟩
  | 14 => ⟨S10000, .i32⟩
  | 15 => ⟨S10000x1, .i32⟩
  | 16 => ⟨S10000x300, .f32⟩
  | 17 => ⟨S10000x300, .f32⟩
  | 18 => ⟨S1x300x600, .f32⟩
  | 19 => ⟨S300x600, .f32⟩
  | 20 => ⟨S1x600, .f32⟩
  | 21 => ⟨S600, .f32⟩
  | 22 => ⟨S1x600, .f32⟩
  | 23 => ⟨S600, .f32⟩
  | 24 => ⟨S1x600, .f32⟩
  | 25 => ⟨S600, .f32⟩
  | 26 => ⟨S1x600x300, .f32⟩
  | 27 => ⟨S600x300, .f32⟩
  | 28 => ⟨S1x300, .f32⟩
  | 29 => ⟨S300, .f32⟩
  | 30 => ⟨S10000x300, .bf16⟩
  | 31 => ⟨S_, .i32⟩
  | 32 => ⟨S160000, .i32⟩
  | 33 => ⟨S160000, .i1⟩
  | 34 => ⟨S_, .i32⟩
  | 35 => ⟨S160000, .i32⟩
  | 36 => ⟨S160000, .i32⟩
  | 37 => ⟨S160000, .i32⟩
  | 38 => ⟨S160000x1, .i32⟩
  | 39 => ⟨S160000x300, .bf16⟩
  | 40 => ⟨S160000x1, .i32⟩
  | 41 => ⟨S10240x300, .f32⟩
  | 42 => ⟨S10000x300, .f32⟩
  | 43 => ⟨S10000x300, .f32⟩
  | 44 => ⟨S10000x600, .f32⟩
  | 45 => ⟨S1x600, .f32⟩
  | 46 => ⟨S10000x600, .f32⟩
  | 47 => ⟨S10000x600, .f32⟩
  | 48 => ⟨S_, .f32⟩
  | 49 => ⟨S600, .f32⟩
  | 50 => ⟨S_, .f32⟩
  | 51 => ⟨S600, .f32⟩
  | 52 => ⟨S600, .f32⟩
  | 53 => ⟨S_, .i32⟩
  | 54 => ⟨S_, .f32⟩
  | 55 => ⟨S600, .f32⟩
  | 56 => ⟨S1x600, .f32⟩
  | 57 => ⟨S_, .f32⟩
  | 58 => ⟨S1x600, .f32⟩
  | 59 => ⟨S1x600, .f32⟩
  | 60 => ⟨S10000x600, .f32⟩
  | 61 => ⟨S10000x600, .f32⟩
  | 62 => ⟨S10000x600, .f32⟩
  | 63 => ⟨S_, .f32⟩
  | 64 => ⟨S_, .f32⟩
  | 65 => ⟨S_, .f32⟩
  | 66 => ⟨S_, .f32⟩
  | 67 => ⟨S600, .f32⟩
  | 68 => ⟨S600, .f32⟩
  | 69 => ⟨S600, .f32⟩
  | 70 => ⟨S_, .f32⟩
  | 71 => ⟨S_, .i1⟩
  | 72 => ⟨S_, .f32⟩
  | 73 => ⟨S_, .f32⟩
  | 74 => ⟨S600, .f32⟩
  | 75 => ⟨S600, .f32⟩
  | 76 => ⟨S1x600, .f32⟩
  | 77 => ⟨S10000x600, .f32⟩
  | 78 => ⟨S10000x600, .f32⟩
  | 79 => ⟨S_, .f32⟩
  | 80 => ⟨S600, .f32⟩
  | 81 => ⟨S600, .f32⟩
  | 82 => ⟨S600, .f32⟩
  | 83 => ⟨S1x600, .f32⟩
  | 84 => ⟨S10000x600, .f32⟩
  | 85 => ⟨S10000x600, .f32⟩
  | 86 => ⟨S1x600, .f32⟩
  | 87 => ⟨S10000x600, .f32⟩
  | 88 => ⟨S10000x600, .f32⟩
  | 89 => ⟨S1x600, .f32⟩
  | 90 => ⟨S10000x600, .f32⟩
  | 91 => ⟨S10000x600, .f32⟩
  | 92 => ⟨S_, .f32⟩
  | 93 => ⟨S10000x600, .f32⟩
  | 94 => ⟨S10000x600, .f32⟩
  | 95 => ⟨S10000x300, .f32⟩
  | 96 => ⟨S1x300, .f32⟩
  | 97 => ⟨S10000x300, .f32⟩
  | 98 => ⟨S10000x300, .f32⟩
  | 99 => ⟨S1x300, .f32⟩
  | 100 => ⟨S300, .f32⟩
  | 101 => ⟨S1x300, .f32⟩
  | 102 => ⟨S300, .f32⟩
  | 103 => ⟨S_, .f32⟩
  | 104 => ⟨S300, .f32⟩
  | 105 => ⟨S_, .f32⟩
  | 106 => ⟨S300, .f32⟩
  | 107 => ⟨S300, .f32⟩
  | 108 => ⟨S_, .i32⟩
  | 109 => ⟨S_, .f32⟩
  | 110 => ⟨S300, .f32⟩
  | 111 => ⟨S1x300, .f32⟩
  | 112 => ⟨S_, .f32⟩
  | 113 => ⟨S1x300, .f32⟩
  | 114 => ⟨S1x300, .f32⟩
  | 115 => ⟨S10000x300, .f32⟩
  | 116 => ⟨S10000x300, .f32⟩
  | 117 => ⟨S10000x300, .f32⟩
  | 118 => ⟨S_, .f32⟩
  | 119 => ⟨S_, .f32⟩
  | 120 => ⟨S_, .f32⟩
  | 121 => ⟨S_, .f32⟩
  | 122 => ⟨S300, .f32⟩
  | 123 => ⟨S300, .f32⟩
  | 124 => ⟨S300, .f32⟩
  | 125 => ⟨S_, .f32⟩
  | 126 => ⟨S_, .i1⟩
  | 127 => ⟨S_, .f32⟩
  | _ => ⟨S10000x128, .f32⟩

abbrev hbmTy0_6 (i : Nat) : BufTy := match i % 128 with
  | 0 => ⟨S_, .f32⟩
  | 1 => ⟨S300, .f32⟩
  | 2 => ⟨S300, .f32⟩
  | 3 => ⟨S1x300, .f32⟩
  | 4 => ⟨S10000x300, .f32⟩
  | 5 => ⟨S10000x300, .f32⟩
  | 6 => ⟨S_, .f32⟩
  | 7 => ⟨S300, .f32⟩
  | 8 => ⟨S300, .f32⟩
  | 9 => ⟨S300, .f32⟩
  | 10 => ⟨S1x300, .f32⟩
  | 11 => ⟨S10000x300, .f32⟩
  | 12 => ⟨S10000x300, .f32⟩
  | 13 => ⟨S1x300, .f32⟩
  | 14 => ⟨S10000x300, .f32⟩
  | 15 => ⟨S10000x300, .f32⟩
  | 16 => ⟨S1x300, .f32⟩
  | 17 => ⟨S10000x300, .f32⟩
  | 18 => ⟨S10000x300, .f32⟩
  | 19 => ⟨S_, .f32⟩
  | 20 => ⟨S10000x300, .f32⟩
  | 21 => ⟨S10000x300, .f32⟩
  | 22 => ⟨S10000x1, .i32⟩
  | 23 => ⟨S10000x300, .bf16⟩
  | 24 => ⟨S64x300, .f32⟩
  | 25 => ⟨S64x300, .f32⟩
  | 26 => ⟨S64x600, .f32⟩
  | 27 => ⟨S1x600, .f32⟩
  | 28 => ⟨S64x600, .f32⟩
  | 29 => ⟨S64x600, .f32⟩
  | 30 => ⟨S_, .f32⟩
  | 31 => ⟨S600, .f32⟩
  | 32 => ⟨S_, .f32⟩
  | 33 => ⟨S600, .f32⟩
  | 34 => ⟨S600, .f32⟩
  | 35 => ⟨S_, .i32⟩
  | 36 => ⟨S_, .f32⟩
  | 37 => ⟨S600, .f32⟩
  | 38 => ⟨S1x600, .f32⟩
  | 39 => ⟨S_, .f32⟩
  | 40 => ⟨S1x600, .f32⟩
  | 41 => ⟨S1x600, .f32⟩
  | 42 => ⟨S64x600, .f32⟩
  | 43 => ⟨S64x600, .f32⟩
  | 44 => ⟨S64x600, .f32⟩
  | 45 => ⟨S_, .f32⟩
  | 46 => ⟨S_, .f32⟩
  | 47 => ⟨S_, .f32⟩
  | 48 => ⟨S_, .f32⟩
  | 49 => ⟨S600, .f32⟩
  | 50 => ⟨S600, .f32⟩
  | 51 => ⟨S600, .f32⟩
  | 52 => ⟨S_, .f32⟩
  | 53 => ⟨S_, .i1⟩
  | 54 => ⟨S_, .f32⟩
  | 55 => ⟨S_, .f32⟩
  | 56 => ⟨S600, .f32⟩
  | 57 => ⟨S600, .f32⟩
  | 58 => ⟨S1x600, .f32⟩
  | 59 => ⟨S64x600, .f32⟩
  | 60 => ⟨S64x600, .f32⟩
  | 61 => ⟨S_, .f32⟩
  | 62 => ⟨S600, .f32⟩
  | 63 => ⟨S600, .f32⟩
  | 64 => ⟨S600, .f32⟩
  | 65 => ⟨S1x600, .f32⟩
  | 66 => ⟨S64x600, .f32⟩
  | 67 => ⟨S64x600, .f32⟩
  | 68 => ⟨S1x600, .f32⟩
  | 69 => ⟨S64x600, .f32⟩
  | 70 => ⟨S64x600, .f32⟩
  | 71 => ⟨S1x600, .f32⟩
  | 72 => ⟨S64x600, .f32⟩
  | 73 => ⟨S64x600, .f32⟩
  | 74 => ⟨S_, .f32⟩
  | 75 => ⟨S64x600, .f32⟩
  | 76 => ⟨S64x600, .f32⟩
  | 77 => ⟨S64x300, .f32⟩
  | 78 => ⟨S1x300, .f32⟩
  | 79 => ⟨S64x300, .f32⟩
  | 80 => ⟨S64x300, .f32⟩
  | 81 => ⟨S_, .f32⟩
  | 82 => ⟨S300, .f32⟩
  | 83 => ⟨S_, .f32⟩
  | 84 => ⟨S300, .f32⟩
  | 85 => ⟨S300, .f32⟩
  | 86 => ⟨S_, .i32⟩
  | 87 => ⟨S_, .f32⟩
  | 88 => ⟨S300, .f32⟩
  | 89 => ⟨S1x300, .f32⟩
  | 90 => ⟨S_, .f32⟩
  | 91 => ⟨S1x300, .f32⟩
  | 92 => ⟨S1x300, .f32⟩
  | 93 => ⟨S64x300, .f32⟩
  | 94 => ⟨S64x300, .f32⟩
  | 95 => ⟨S64x300, .f32⟩
  | 96 => ⟨S_, .f32⟩
  | 97 => ⟨S_, .f32⟩
  | 98 => ⟨S_, .f32⟩
  | 99 => ⟨S_, .f32⟩
  | 100 => ⟨S300, .f32⟩
  | 101 => ⟨S300, .f32⟩
  | 102 => ⟨S300, .f32⟩
  | 103 => ⟨S_, .f32⟩
  | 104 => ⟨S_, .i1⟩
  | 105 => ⟨S_, .f32⟩
  | 106 => ⟨S_, .f32⟩
  | 107 => ⟨S300, .f32⟩
  | 108 => ⟨S300, .f32⟩
  | 109 => ⟨S1x300, .f32⟩
  | 110 => ⟨S64x300, .f32⟩
  | 111 => ⟨S64x300, .f32⟩
  | 112 => ⟨S_, .f32⟩
  | 113 => ⟨S300, .f32⟩
  | 114 => ⟨S300, .f32⟩
  | 115 => ⟨S300, .f32⟩
  | 116 => ⟨S1x300, .f32⟩
  | 117 => ⟨S64x300, .f32⟩
  | 118 => ⟨S64x300, .f32⟩
  | 119 => ⟨S1x300, .f32⟩
  | 120 => ⟨S64x300, .f32⟩
  | 121 => ⟨S64x300, .f32⟩
  | 122 => ⟨S1x300, .f32⟩
  | 123 => ⟨S64x300, .f32⟩
  | 124 => ⟨S64x300, .f32⟩
  | 125 => ⟨S_, .f32⟩
  | 126 => ⟨S64x300, .f32⟩
  | 127 => ⟨S64x300, .f32⟩
  | _ => ⟨S10000x128, .f32⟩

abbrev hbmTy0_7 (i : Nat) : BufTy := match i % 128 with
  | 0 => ⟨S_, .i32⟩
  | 1 => ⟨S10000, .i32⟩
  | 2 => ⟨S10000, .i1⟩
  | 3 => ⟨S_, .i32⟩
  | 4 => ⟨S10000, .i32⟩
  | 5 => ⟨S10000, .i32⟩
  | 6 => ⟨S10000, .i32⟩
  | 7 => ⟨S10000x1, .i32⟩
  | 8 => ⟨S10000x300, .f32⟩
  | 9 => ⟨S10000x300, .f32⟩
  | 10 => ⟨S1x300x600, .f32⟩
  | 11 => ⟨S300x600, .f32⟩
  | 12 => ⟨S1x600, .f32⟩
  | 13 => ⟨S600, .f32⟩
  | 14 => ⟨S1x600, .f32⟩
  | 15 => ⟨S600, .f32⟩
  | 16 => ⟨S1x600, .f32⟩
  | 17 => ⟨S600, .f32⟩
  | 18 => ⟨S1x600x300, .f32⟩
  | 19 => ⟨S600x300, .f32⟩
  | 20 => ⟨S1x300, .f32⟩
  | 21 => ⟨S300, .f32⟩
  | 22 => ⟨S10000x300, .bf16⟩
  | 23 => ⟨S_, .i32⟩
  | 24 => ⟨S160000, .i32⟩
  | 25 => ⟨S160000, .i1⟩
  | 26 => ⟨S_, .i32⟩
  | 27 => ⟨S160000, .i32⟩
  | 28 => ⟨S160000, .i32⟩
  | 29 => ⟨S160000, .i32⟩
  | 30 => ⟨S160000x1, .i32⟩
  | 31 => ⟨S160000x300, .bf16⟩
  | 32 => ⟨S160000x1, .i32⟩
  | 33 => ⟨S10240x300, .f32⟩
  | 34 => ⟨S10000x300, .f32⟩
  | 35 => ⟨S10000x300, .f32⟩
  | 36 => ⟨S10000x600, .f32⟩
  | 37 => ⟨S1x600, .f32⟩
  | 38 => ⟨S10000x600, .f32⟩
  | 39 => ⟨S10000x600, .f32⟩
  | 40 => ⟨S_, .f32⟩
  | 41 => ⟨S600, .f32⟩
  | 42 => ⟨S_, .f32⟩
  | 43 => ⟨S600, .f32⟩
  | 44 => ⟨S600, .f32⟩
  | 45 => ⟨S_, .i32⟩
  | 46 => ⟨S_, .f32⟩
  | 47 => ⟨S600, .f32⟩
  | 48 => ⟨S1x600, .f32⟩
  | 49 => ⟨S_, .f32⟩
  | 50 => ⟨S1x600, .f32⟩
  | 51 => ⟨S1x600, .f32⟩
  | 52 => ⟨S10000x600, .f32⟩
  | 53 => ⟨S10000x600, .f32⟩
  | 54 => ⟨S10000x600, .f32⟩
  | 55 => ⟨S_, .f32⟩
  | 56 => ⟨S_, .f32⟩
  | 57 => ⟨S_, .f32⟩
  | 58 => ⟨S_, .f32⟩
  | 59 => ⟨S600, .f32⟩
  | 60 => ⟨S600, .f32⟩
  | 61 => ⟨S600, .f32⟩
  | 62 => ⟨S_, .f32⟩
  | 63 => ⟨S_, .i1⟩
  | 64 => ⟨S_, .f32⟩
  | 65 => ⟨S_, .f32⟩
  | 66 => ⟨S600, .f32⟩
  | 67 => ⟨S600, .f32⟩
  | 68 => ⟨S1x600, .f32⟩
  | 69 => ⟨S10000x600, .f32⟩
  | 70 => ⟨S10000x600, .f32⟩
  | 71 => ⟨S_, .f32⟩
  | 72 => ⟨S600, .f32⟩
  | 73 => ⟨S600, .f32⟩
  | 74 => ⟨S600, .f32⟩
  | 75 => ⟨S1x600, .f32⟩
  | 76 => ⟨S10000x600, .f32⟩
  | 77 => ⟨S10000x600, .f32⟩
  | 78 => ⟨S1x600, .f32⟩
  | 79 => ⟨S10000x600, .f32⟩
  | 80 => ⟨S10000x600, .f32⟩
  | 81 => ⟨S1x600, .f32⟩
  | 82 => ⟨S10000x600, .f32⟩
  | 83 => ⟨S10000x600, .f32⟩
  | 84 => ⟨S_, .f32⟩
  | 85 => ⟨S10000x600, .f32⟩
  | 86 => ⟨S10000x600, .f32⟩
  | 87 => ⟨S10000x300, .f32⟩
  | 88 => ⟨S1x300, .f32⟩
  | 89 => ⟨S10000x300, .f32⟩
  | 90 => ⟨S10000x300, .f32⟩
  | 91 => ⟨S1x300, .f32⟩
  | 92 => ⟨S300, .f32⟩
  | 93 => ⟨S1x300, .f32⟩
  | 94 => ⟨S300, .f32⟩
  | 95 => ⟨S_, .f32⟩
  | 96 => ⟨S300, .f32⟩
  | 97 => ⟨S_, .f32⟩
  | 98 => ⟨S300, .f32⟩
  | 99 => ⟨S300, .f32⟩
  | 100 => ⟨S_, .i32⟩
  | 101 => ⟨S_, .f32⟩
  | 102 => ⟨S300, .f32⟩
  | 103 => ⟨S1x300, .f32⟩
  | 104 => ⟨S_, .f32⟩
  | 105 => ⟨S1x300, .f32⟩
  | 106 => ⟨S1x300, .f32⟩
  | 107 => ⟨S10000x300, .f32⟩
  | 108 => ⟨S10000x300, .f32⟩
  | 109 => ⟨S10000x300, .f32⟩
  | 110 => ⟨S_, .f32⟩
  | 111 => ⟨S_, .f32⟩
  | 112 => ⟨S_, .f32⟩
  | 113 => ⟨S_, .f32⟩
  | 114 => ⟨S300, .f32⟩
  | 115 => ⟨S300, .f32⟩
  | 116 => ⟨S300, .f32⟩
  | 117 => ⟨S_, .f32⟩
  | 118 => ⟨S_, .i1⟩
  | 119 => ⟨S_, .f32⟩
  | 120 => ⟨S_, .f32⟩
  | 121 => ⟨S300, .f32⟩
  | 122 => ⟨S300, .f32⟩
  | 123 => ⟨S1x300, .f32⟩
  | 124 => ⟨S10000x300, .f32⟩
  | 125 => ⟨S10000x300, .f32⟩
  | 126 => ⟨S_, .f32⟩
  | 127 => ⟨S300, .f32⟩
  | _ => ⟨S10000x128, .f32⟩

abbrev hbmTy0_8 (i : Nat) : BufTy := match i % 128 with
  | 0 => ⟨S300, .f32⟩
  | 1 => ⟨S300, .f32⟩
  | 2 => ⟨S1x300, .f32⟩
  | 3 => ⟨S10000x300, .f32⟩
  | 4 => ⟨S10000x300, .f32⟩
  | 5 => ⟨S1x300, .f32⟩
  | 6 => ⟨S10000x300, .f32⟩
  | 7 => ⟨S10000x300, .f32⟩
  | 8 => ⟨S1x300, .f32⟩
  | 9 => ⟨S10000x300, .f32⟩
  | 10 => ⟨S10000x300, .f32⟩
  | 11 => ⟨S_, .f32⟩
  | 12 => ⟨S64, .f32⟩
  | 13 => ⟨S_, .i32⟩
  | 14 => ⟨S10000, .i32⟩
  | 15 => ⟨S10000, .i1⟩
  | 16 => ⟨S_, .i32⟩
  | 17 => ⟨S10000, .i32⟩
  | 18 => ⟨S10000, .i32⟩
  | 19 => ⟨S10000, .i32⟩
  | 20 => ⟨S10000x1, .i32⟩
  | 21 => ⟨S_, .f32⟩
  | 22 => ⟨S10000, .f32⟩
  | 23 => ⟨S64, .f32⟩
  | 24 => ⟨S10000x1, .i32⟩
  | 25 => ⟨S10000x300, .bf16⟩
  | 26 => ⟨S64x300, .f32⟩
  | 27 => ⟨S_, .f32⟩
  | 28 => ⟨S64, .f32⟩
  | 29 => ⟨S64, .f32⟩
  | 30 => ⟨S64x1, .f32⟩
  | 31 => ⟨S64x300, .f32⟩
  | 32 => ⟨S64x300, .f32⟩
  | 33 => ⟨S64x10, .f32⟩
  | 34 => ⟨S1x10, .f32⟩
  | 35 => ⟨S64x10, .f32⟩
  | 36 => ⟨S64x10, .f32⟩
  | _ => ⟨S10000x128, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | 7 => hbmTy0_7 i
  | 8 => hbmTy0_8 i
  | _ => ⟨S10000x128, .f32⟩

abbrev bufTy : (tb : Table) → Fin (tcTables nBuf tb) → BufTy
  | .hbm, ⟨i, _⟩ => hbmTy i
  | .local _ .vmem, ⟨0, _⟩ => ⟨S8000x1, .i32⟩
  | .local _ .vmem, ⟨1, _⟩ => ⟨S8000x1, .i32⟩
  | .local _ .vmem, ⟨2, _⟩ => ⟨S8000x128, .bf16⟩
  | .local _ .vmem, ⟨3, _⟩ => ⟨S8000x128, .bf16⟩
  | .local _ .vmem, ⟨4, _⟩ => ⟨S1024x128, .f32⟩
  | .local _ .vmem, ⟨5, _⟩ => ⟨S1024x128, .f32⟩
  | .local _ .vmem, ⟨6, _⟩ => ⟨S1024x128, .f32⟩
  | .local _ .vmem, ⟨7, _⟩ => ⟨S8000x1, .i32⟩
  | .local _ .vmem, ⟨8, _⟩ => ⟨S8000x1, .i32⟩
  | .local _ .vmem, ⟨9, _⟩ => ⟨S8000x300, .bf16⟩
  | .local _ .vmem, ⟨10, _⟩ => ⟨S8000x300, .bf16⟩
  | .local _ .vmem, ⟨11, _⟩ => ⟨S1024x300, .f32⟩
  | .local _ .vmem, ⟨12, _⟩ => ⟨S1024x300, .f32⟩
  | .local _ .vmem, ⟨13, _⟩ => ⟨S1024x300, .f32⟩
  | .local _ .vmem, ⟨14, _⟩ => ⟨S2000x1, .i32⟩
  | .local _ .vmem, ⟨15, _⟩ => ⟨S2000x1, .i32⟩
  | .local _ .vmem, ⟨16, _⟩ => ⟨S2000x300, .bf16⟩
  | .local _ .vmem, ⟨17, _⟩ => ⟨S2000x300, .bf16⟩
  | .local _ .vmem, ⟨18, _⟩ => ⟨S64x300, .f32⟩
  | .local _ .vmem, ⟨19, _⟩ => ⟨S64x300, .f32⟩
  | .local _ .vmem, ⟨20, _⟩ => ⟨S8000x1, .i32⟩
  | .local _ .vmem, ⟨21, _⟩ => ⟨S8000x1, .i32⟩
  | .local _ .vmem, ⟨22, _⟩ => ⟨S8000x300, .bf16⟩
  | .local _ .vmem, ⟨23, _⟩ => ⟨S8000x300, .bf16⟩
  | .local _ .vmem, ⟨24, _⟩ => ⟨S1024x300, .f32⟩
  | .local _ .vmem, ⟨25, _⟩ => ⟨S1024x300, .f32⟩
  | .local _ .vmem, ⟨26, _⟩ => ⟨S1024x300, .f32⟩
  | .local _ .vmem, ⟨27, _⟩ => ⟨S2000x1, .i32⟩
  | .local _ .vmem, ⟨28, _⟩ => ⟨S2000x1, .i32⟩
  | .local _ .vmem, ⟨29, _⟩ => ⟨S2000x300, .bf16⟩
  | .local _ .vmem, ⟨30, _⟩ => ⟨S2000x300, .bf16⟩
  | .local _ .vmem, ⟨31, _⟩ => ⟨S64x300, .f32⟩
  | .local _ .vmem, ⟨32, _⟩ => ⟨S64x300, .f32⟩
  | .local _ .vmem, ⟨33, _⟩ => ⟨S8000x1, .i32⟩
  | .local _ .vmem, ⟨34, _⟩ => ⟨S8000x1, .i32⟩
  | .local _ .vmem, ⟨35, _⟩ => ⟨S8000x300, .bf16⟩
  | .local _ .vmem, ⟨36, _⟩ => ⟨S8000x300, .bf16⟩
  | .local _ .vmem, ⟨37, _⟩ => ⟨S1024x300, .f32⟩
  | .local _ .vmem, ⟨38, _⟩ => ⟨S1024x300, .f32⟩
  | .local _ .vmem, ⟨39, _⟩ => ⟨S1024x300, .f32⟩
  | .local _ .vmem, ⟨40, _⟩ => ⟨S2000x1, .i32⟩
  | .local _ .vmem, ⟨41, _⟩ => ⟨S2000x1, .i32⟩
  | .local _ .vmem, ⟨42, _⟩ => ⟨S2000x300, .bf16⟩
  | .local _ .vmem, ⟨43, _⟩ => ⟨S2000x300, .bf16⟩
  | .local _ .vmem, ⟨44, _⟩ => ⟨S64x300, .f32⟩
  | .local _ .vmem, ⟨45, _⟩ => ⟨S64x300, .f32⟩
  | .local _ .vmem, ⟨46, _⟩ => ⟨S8000x1, .i32⟩
  | .local _ .vmem, ⟨47, _⟩ => ⟨S8000x1, .i32⟩
  | .local _ .vmem, ⟨48, _⟩ => ⟨S8000x300, .bf16⟩
  | .local _ .vmem, ⟨49, _⟩ => ⟨S8000x300, .bf16⟩
  | .local _ .vmem, ⟨50, _⟩ => ⟨S1024x300, .f32⟩
  | .local _ .vmem, ⟨51, _⟩ => ⟨S1024x300, .f32⟩
  | .local _ .vmem, ⟨52, _⟩ => ⟨S1024x300, .f32⟩
  | .local _ .vmem, ⟨53, _⟩ => ⟨S2000x1, .i32⟩
  | .local _ .vmem, ⟨54, _⟩ => ⟨S2000x1, .i32⟩
  | .local _ .vmem, ⟨55, _⟩ => ⟨S2000x300, .bf16⟩
  | .local _ .vmem, ⟨56, _⟩ => ⟨S2000x300, .bf16⟩
  | .local _ .vmem, ⟨57, _⟩ => ⟨S64x300, .f32⟩
  | .local _ .vmem, ⟨58, _⟩ => ⟨S64x300, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | _, _ => false

abbrev semScoped : Fin 0 → Bool
  | ⟨_, h⟩ => absurd h (Nat.not_lt_zero _)

abbrev dmaSemScoped : Fin 50 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | _ => false

abbrev sig : RefSig :=
  ofTc nBuf bufTy 0 50 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_v0 : Ref sig .tc := ⟨.hbm, 30, rfl⟩
abbrev main_v1 : Ref sig .tc := ⟨.hbm, 31, rfl⟩
abbrev main_v2 : Ref sig .tc := ⟨.hbm, 32, rfl⟩
abbrev main_v3 : Ref sig .tc := ⟨.hbm, 33, rfl⟩
abbrev main_v4 : Ref sig .tc := ⟨.hbm, 34, rfl⟩
abbrev main_v5 : Ref sig .tc := ⟨.hbm, 35, rfl⟩
abbrev main_v6 : Ref sig .tc := ⟨.hbm, 36, rfl⟩
abbrev main_c : Ref sig .tc := ⟨.hbm, 37, rfl⟩
abbrev main_v7 : Ref sig .tc := ⟨.hbm, 38, rfl⟩
abbrev main_v8 : Ref sig .tc := ⟨.hbm, 39, rfl⟩
abbrev main_c_0 : Ref sig .tc := ⟨.hbm, 40, rfl⟩
abbrev main_v9 : Ref sig .tc := ⟨.hbm, 41, rfl⟩
abbrev main_v10 : Ref sig .tc := ⟨.hbm, 42, rfl⟩
abbrev main_v11 : Ref sig .tc := ⟨.hbm, 43, rfl⟩
abbrev main_v12 : Ref sig .tc := ⟨.hbm, 44, rfl⟩
abbrev main_v13 : Ref sig .tc := ⟨.hbm, 45, rfl⟩
abbrev main_v14 : Ref sig .tc := ⟨.hbm, 46, rfl⟩
abbrev main_v15 : Ref sig .tc := ⟨.hbm, 47, rfl⟩
abbrev main_v16 : Ref sig .tc := ⟨.hbm, 48, rfl⟩
abbrev main_v17 : Ref sig .tc := ⟨.hbm, 49, rfl⟩
abbrev main_v18 : Ref sig .tc := ⟨.hbm, 50, rfl⟩
abbrev main_v19 : Ref sig .tc := ⟨.hbm, 51, rfl⟩
abbrev main_v20 : Ref sig .tc := ⟨.hbm, 52, rfl⟩
abbrev main_v21 : Ref sig .tc := ⟨.hbm, 53, rfl⟩
abbrev main_cst : Ref sig .tc := ⟨.hbm, 54, rfl⟩
abbrev main_v22 : Ref sig .tc := ⟨.hbm, 55, rfl⟩
abbrev main_cst_1 : Ref sig .tc := ⟨.hbm, 56, rfl⟩
abbrev main_v23 : Ref sig .tc := ⟨.hbm, 57, rfl⟩
abbrev main_v24 : Ref sig .tc := ⟨.hbm, 58, rfl⟩
abbrev main_c_2 : Ref sig .tc := ⟨.hbm, 59, rfl⟩
abbrev main_call0_cst : Ref sig .tc := ⟨.hbm, 60, rfl⟩
abbrev main_call0_v0 : Ref sig .tc := ⟨.hbm, 61, rfl⟩
abbrev main_call0_v1 : Ref sig .tc := ⟨.hbm, 62, rfl⟩
abbrev main_call0_cst_0 : Ref sig .tc := ⟨.hbm, 63, rfl⟩
abbrev main_call0_v2 : Ref sig .tc := ⟨.hbm, 64, rfl⟩
abbrev main_call0_v3 : Ref sig .tc := ⟨.hbm, 65, rfl⟩
abbrev main_call0_v4 : Ref sig .tc := ⟨.hbm, 66, rfl⟩
abbrev main_call0_v5 : Ref sig .tc := ⟨.hbm, 67, rfl⟩
abbrev main_call0_v6 : Ref sig .tc := ⟨.hbm, 68, rfl⟩
abbrev main_call0_v7 : Ref sig .tc := ⟨.hbm, 69, rfl⟩
abbrev main_call0_cst_1 : Ref sig .tc := ⟨.hbm, 70, rfl⟩
abbrev main_call0_v8 : Ref sig .tc := ⟨.hbm, 71, rfl⟩
abbrev main_call0_cst_2 : Ref sig .tc := ⟨.hbm, 72, rfl⟩
abbrev main_call0_v9 : Ref sig .tc := ⟨.hbm, 73, rfl⟩
abbrev main_call0_v10 : Ref sig .tc := ⟨.hbm, 74, rfl⟩
abbrev main_call0_v11 : Ref sig .tc := ⟨.hbm, 75, rfl⟩
abbrev main_call0_cst_3 : Ref sig .tc := ⟨.hbm, 76, rfl⟩
abbrev main_call0_v12 : Ref sig .tc := ⟨.hbm, 77, rfl⟩
abbrev main_call0_cst_4 : Ref sig .tc := ⟨.hbm, 78, rfl⟩
abbrev main_call0_call0_v0 : Ref sig .tc := ⟨.hbm, 79, rfl⟩
abbrev main_call0_call0_v1 : Ref sig .tc := ⟨.hbm, 80, rfl⟩
abbrev main_v25 : Ref sig .tc := ⟨.hbm, 81, rfl⟩
abbrev main_v26 : Ref sig .tc := ⟨.hbm, 82, rfl⟩
abbrev main_v27 : Ref sig .tc := ⟨.hbm, 83, rfl⟩
abbrev main_v28 : Ref sig .tc := ⟨.hbm, 84, rfl⟩
abbrev main_cst_3 : Ref sig .tc := ⟨.hbm, 85, rfl⟩
abbrev main_v29 : Ref sig .tc := ⟨.hbm, 86, rfl⟩
abbrev main_v30 : Ref sig .tc := ⟨.hbm, 87, rfl⟩
abbrev main_v31 : Ref sig .tc := ⟨.hbm, 88, rfl⟩
abbrev main_v32 : Ref sig .tc := ⟨.hbm, 89, rfl⟩
abbrev main_v33 : Ref sig .tc := ⟨.hbm, 90, rfl⟩
abbrev main_v34 : Ref sig .tc := ⟨.hbm, 91, rfl⟩
abbrev main_v35 : Ref sig .tc := ⟨.hbm, 92, rfl⟩
abbrev main_v36 : Ref sig .tc := ⟨.hbm, 93, rfl⟩
abbrev main_v37 : Ref sig .tc := ⟨.hbm, 94, rfl⟩
abbrev main_v38 : Ref sig .tc := ⟨.hbm, 95, rfl⟩
abbrev main_v39 : Ref sig .tc := ⟨.hbm, 96, rfl⟩
abbrev main_v40 : Ref sig .tc := ⟨.hbm, 97, rfl⟩
abbrev main_call1_cst : Ref sig .tc := ⟨.hbm, 98, rfl⟩
abbrev main_call1_v0 : Ref sig .tc := ⟨.hbm, 99, rfl⟩
abbrev main_v41 : Ref sig .tc := ⟨.hbm, 100, rfl⟩
abbrev main_v42 : Ref sig .tc := ⟨.hbm, 101, rfl⟩
abbrev main_v43 : Ref sig .tc := ⟨.hbm, 102, rfl⟩
abbrev main_v44 : Ref sig .tc := ⟨.hbm, 103, rfl⟩
abbrev main_v45 : Ref sig .tc := ⟨.hbm, 104, rfl⟩
abbrev main_cst_4 : Ref sig .tc := ⟨.hbm, 105, rfl⟩
abbrev main_v46 : Ref sig .tc := ⟨.hbm, 106, rfl⟩
abbrev main_cst_5 : Ref sig .tc := ⟨.hbm, 107, rfl⟩
abbrev main_v47 : Ref sig .tc := ⟨.hbm, 108, rfl⟩
abbrev main_v48 : Ref sig .tc := ⟨.hbm, 109, rfl⟩
abbrev main_c_6 : Ref sig .tc := ⟨.hbm, 110, rfl⟩
abbrev main_call2_cst : Ref sig .tc := ⟨.hbm, 111, rfl⟩
abbrev main_call2_v0 : Ref sig .tc := ⟨.hbm, 112, rfl⟩
abbrev main_call2_v1 : Ref sig .tc := ⟨.hbm, 113, rfl⟩
abbrev main_call2_cst_0 : Ref sig .tc := ⟨.hbm, 114, rfl⟩
abbrev main_call2_v2 : Ref sig .tc := ⟨.hbm, 115, rfl⟩
abbrev main_call2_v3 : Ref sig .tc := ⟨.hbm, 116, rfl⟩
abbrev main_call2_v4 : Ref sig .tc := ⟨.hbm, 117, rfl⟩
abbrev main_call2_v5 : Ref sig .tc := ⟨.hbm, 118, rfl⟩
abbrev main_call2_v6 : Ref sig .tc := ⟨.hbm, 119, rfl⟩
abbrev main_call2_v7 : Ref sig .tc := ⟨.hbm, 120, rfl⟩
abbrev main_call2_cst_1 : Ref sig .tc := ⟨.hbm, 121, rfl⟩
abbrev main_call2_v8 : Ref sig .tc := ⟨.hbm, 122, rfl⟩
abbrev main_call2_cst_2 : Ref sig .tc := ⟨.hbm, 123, rfl⟩
abbrev main_call2_v9 : Ref sig .tc := ⟨.hbm, 124, rfl⟩
abbrev main_call2_v10 : Ref sig .tc := ⟨.hbm, 125, rfl⟩
abbrev main_call2_v11 : Ref sig .tc := ⟨.hbm, 126, rfl⟩
abbrev main_call2_cst_3 : Ref sig .tc := ⟨.hbm, 127, rfl⟩
abbrev main_call2_v12 : Ref sig .tc := ⟨.hbm, 128, rfl⟩
abbrev main_call2_cst_4 : Ref sig .tc := ⟨.hbm, 129, rfl⟩
abbrev main_call2_call0_v0 : Ref sig .tc := ⟨.hbm, 130, rfl⟩
abbrev main_call2_call0_v1 : Ref sig .tc := ⟨.hbm, 131, rfl⟩
abbrev main_v49 : Ref sig .tc := ⟨.hbm, 132, rfl⟩
abbrev main_v50 : Ref sig .tc := ⟨.hbm, 133, rfl⟩
abbrev main_v51 : Ref sig .tc := ⟨.hbm, 134, rfl⟩
abbrev main_v52 : Ref sig .tc := ⟨.hbm, 135, rfl⟩
abbrev main_cst_7 : Ref sig .tc := ⟨.hbm, 136, rfl⟩
abbrev main_v53 : Ref sig .tc := ⟨.hbm, 137, rfl⟩
abbrev main_v54 : Ref sig .tc := ⟨.hbm, 138, rfl⟩
abbrev main_v55 : Ref sig .tc := ⟨.hbm, 139, rfl⟩
abbrev main_v56 : Ref sig .tc := ⟨.hbm, 140, rfl⟩
abbrev main_v57 : Ref sig .tc := ⟨.hbm, 141, rfl⟩
abbrev main_v58 : Ref sig .tc := ⟨.hbm, 142, rfl⟩
abbrev main_v59 : Ref sig .tc := ⟨.hbm, 143, rfl⟩
abbrev main_v60 : Ref sig .tc := ⟨.hbm, 144, rfl⟩
abbrev main_v61 : Ref sig .tc := ⟨.hbm, 145, rfl⟩
abbrev main_v62 : Ref sig .tc := ⟨.hbm, 146, rfl⟩
abbrev main_v63 : Ref sig .tc := ⟨.hbm, 147, rfl⟩
abbrev main_v64 : Ref sig .tc := ⟨.hbm, 148, rfl⟩
abbrev main_call3_cst : Ref sig .tc := ⟨.hbm, 149, rfl⟩
abbrev main_call3_v0 : Ref sig .tc := ⟨.hbm, 150, rfl⟩
abbrev main_v65 : Ref sig .tc := ⟨.hbm, 151, rfl⟩
abbrev main_c_8 : Ref sig .tc := ⟨.hbm, 152, rfl⟩
abbrev main_v66 : Ref sig .tc := ⟨.hbm, 153, rfl⟩
abbrev main_v67 : Ref sig .tc := ⟨.hbm, 154, rfl⟩
abbrev main_c_9 : Ref sig .tc := ⟨.hbm, 155, rfl⟩
abbrev main_v68 : Ref sig .tc := ⟨.hbm, 156, rfl⟩
abbrev main_v69 : Ref sig .tc := ⟨.hbm, 157, rfl⟩
abbrev main_v70 : Ref sig .tc := ⟨.hbm, 158, rfl⟩
abbrev main_v71 : Ref sig .tc := ⟨.hbm, 159, rfl⟩
abbrev main_v72 : Ref sig .tc := ⟨.hbm, 160, rfl⟩
abbrev main_v73 : Ref sig .tc := ⟨.hbm, 161, rfl⟩
abbrev main_v74 : Ref sig .tc := ⟨.hbm, 162, rfl⟩
abbrev main_v75 : Ref sig .tc := ⟨.hbm, 163, rfl⟩
abbrev main_v76 : Ref sig .tc := ⟨.hbm, 164, rfl⟩
abbrev main_v77 : Ref sig .tc := ⟨.hbm, 165, rfl⟩
abbrev main_v78 : Ref sig .tc := ⟨.hbm, 166, rfl⟩
abbrev main_v79 : Ref sig .tc := ⟨.hbm, 167, rfl⟩
abbrev main_v80 : Ref sig .tc := ⟨.hbm, 168, rfl⟩
abbrev main_v81 : Ref sig .tc := ⟨.hbm, 169, rfl⟩
abbrev main_v82 : Ref sig .tc := ⟨.hbm, 170, rfl⟩
abbrev main_v83 : Ref sig .tc := ⟨.hbm, 171, rfl⟩
abbrev main_v84 : Ref sig .tc := ⟨.hbm, 172, rfl⟩
abbrev main_v85 : Ref sig .tc := ⟨.hbm, 173, rfl⟩
abbrev main_v86 : Ref sig .tc := ⟨.hbm, 174, rfl⟩
abbrev main_c_10 : Ref sig .tc := ⟨.hbm, 175, rfl⟩
abbrev main_v87 : Ref sig .tc := ⟨.hbm, 176, rfl⟩
abbrev main_v88 : Ref sig .tc := ⟨.hbm, 177, rfl⟩
abbrev main_c_11 : Ref sig .tc := ⟨.hbm, 178, rfl⟩
abbrev main_v89 : Ref sig .tc := ⟨.hbm, 179, rfl⟩
abbrev main_v90 : Ref sig .tc := ⟨.hbm, 180, rfl⟩
abbrev main_v91 : Ref sig .tc := ⟨.hbm, 181, rfl⟩
abbrev main_v92 : Ref sig .tc := ⟨.hbm, 182, rfl⟩
abbrev main_v93 : Ref sig .tc := ⟨.hbm, 183, rfl⟩
abbrev main_v94 : Ref sig .tc := ⟨.hbm, 184, rfl⟩
abbrev main_v95 : Ref sig .tc := ⟨.hbm, 185, rfl⟩
abbrev main_v96 : Ref sig .tc := ⟨.hbm, 186, rfl⟩
abbrev main_v97 : Ref sig .tc := ⟨.hbm, 187, rfl⟩
abbrev main_v98 : Ref sig .tc := ⟨.hbm, 188, rfl⟩
abbrev main_v99 : Ref sig .tc := ⟨.hbm, 189, rfl⟩
abbrev main_v100 : Ref sig .tc := ⟨.hbm, 190, rfl⟩
abbrev main_v101 : Ref sig .tc := ⟨.hbm, 191, rfl⟩
abbrev main_cst_12 : Ref sig .tc := ⟨.hbm, 192, rfl⟩
abbrev main_v102 : Ref sig .tc := ⟨.hbm, 193, rfl⟩
abbrev main_cst_13 : Ref sig .tc := ⟨.hbm, 194, rfl⟩
abbrev main_v103 : Ref sig .tc := ⟨.hbm, 195, rfl⟩
abbrev main_v104 : Ref sig .tc := ⟨.hbm, 196, rfl⟩
abbrev main_c_14 : Ref sig .tc := ⟨.hbm, 197, rfl⟩
abbrev main_call4_cst : Ref sig .tc := ⟨.hbm, 198, rfl⟩
abbrev main_call4_v0 : Ref sig .tc := ⟨.hbm, 199, rfl⟩
abbrev main_call4_v1 : Ref sig .tc := ⟨.hbm, 200, rfl⟩
abbrev main_call4_cst_0 : Ref sig .tc := ⟨.hbm, 201, rfl⟩
abbrev main_call4_v2 : Ref sig .tc := ⟨.hbm, 202, rfl⟩
abbrev main_call4_v3 : Ref sig .tc := ⟨.hbm, 203, rfl⟩
abbrev main_call4_v4 : Ref sig .tc := ⟨.hbm, 204, rfl⟩
abbrev main_call4_v5 : Ref sig .tc := ⟨.hbm, 205, rfl⟩
abbrev main_call4_v6 : Ref sig .tc := ⟨.hbm, 206, rfl⟩
abbrev main_call4_v7 : Ref sig .tc := ⟨.hbm, 207, rfl⟩
abbrev main_call4_cst_1 : Ref sig .tc := ⟨.hbm, 208, rfl⟩
abbrev main_call4_v8 : Ref sig .tc := ⟨.hbm, 209, rfl⟩
abbrev main_call4_cst_2 : Ref sig .tc := ⟨.hbm, 210, rfl⟩
abbrev main_call4_v9 : Ref sig .tc := ⟨.hbm, 211, rfl⟩
abbrev main_call4_v10 : Ref sig .tc := ⟨.hbm, 212, rfl⟩
abbrev main_call4_v11 : Ref sig .tc := ⟨.hbm, 213, rfl⟩
abbrev main_call4_cst_3 : Ref sig .tc := ⟨.hbm, 214, rfl⟩
abbrev main_call4_v12 : Ref sig .tc := ⟨.hbm, 215, rfl⟩
abbrev main_call4_cst_4 : Ref sig .tc := ⟨.hbm, 216, rfl⟩
abbrev main_call4_call0_v0 : Ref sig .tc := ⟨.hbm, 217, rfl⟩
abbrev main_call4_call0_v1 : Ref sig .tc := ⟨.hbm, 218, rfl⟩
abbrev main_v105 : Ref sig .tc := ⟨.hbm, 219, rfl⟩
abbrev main_v106 : Ref sig .tc := ⟨.hbm, 220, rfl⟩
abbrev main_v107 : Ref sig .tc := ⟨.hbm, 221, rfl⟩
abbrev main_v108 : Ref sig .tc := ⟨.hbm, 222, rfl⟩
abbrev main_cst_15 : Ref sig .tc := ⟨.hbm, 223, rfl⟩
abbrev main_v109 : Ref sig .tc := ⟨.hbm, 224, rfl⟩
abbrev main_v110 : Ref sig .tc := ⟨.hbm, 225, rfl⟩
abbrev main_v111 : Ref sig .tc := ⟨.hbm, 226, rfl⟩
abbrev main_v112 : Ref sig .tc := ⟨.hbm, 227, rfl⟩
abbrev main_v113 : Ref sig .tc := ⟨.hbm, 228, rfl⟩
abbrev main_v114 : Ref sig .tc := ⟨.hbm, 229, rfl⟩
abbrev main_v115 : Ref sig .tc := ⟨.hbm, 230, rfl⟩
abbrev main_v116 : Ref sig .tc := ⟨.hbm, 231, rfl⟩
abbrev main_v117 : Ref sig .tc := ⟨.hbm, 232, rfl⟩
abbrev main_v118 : Ref sig .tc := ⟨.hbm, 233, rfl⟩
abbrev main_v119 : Ref sig .tc := ⟨.hbm, 234, rfl⟩
abbrev main_v120 : Ref sig .tc := ⟨.hbm, 235, rfl⟩
abbrev main_call5_cst : Ref sig .tc := ⟨.hbm, 236, rfl⟩
abbrev main_call5_v0 : Ref sig .tc := ⟨.hbm, 237, rfl⟩
abbrev main_v121 : Ref sig .tc := ⟨.hbm, 238, rfl⟩
abbrev main_v122 : Ref sig .tc := ⟨.hbm, 239, rfl⟩
abbrev main_v123 : Ref sig .tc := ⟨.hbm, 240, rfl⟩
abbrev main_v124 : Ref sig .tc := ⟨.hbm, 241, rfl⟩
abbrev main_v125 : Ref sig .tc := ⟨.hbm, 242, rfl⟩
abbrev main_v126 : Ref sig .tc := ⟨.hbm, 243, rfl⟩
abbrev main_v127 : Ref sig .tc := ⟨.hbm, 244, rfl⟩
abbrev main_v128 : Ref sig .tc := ⟨.hbm, 245, rfl⟩
abbrev main_v129 : Ref sig .tc := ⟨.hbm, 246, rfl⟩
abbrev main_cst_16 : Ref sig .tc := ⟨.hbm, 247, rfl⟩
abbrev main_v130 : Ref sig .tc := ⟨.hbm, 248, rfl⟩
abbrev main_cst_17 : Ref sig .tc := ⟨.hbm, 249, rfl⟩
abbrev main_v131 : Ref sig .tc := ⟨.hbm, 250, rfl⟩
abbrev main_v132 : Ref sig .tc := ⟨.hbm, 251, rfl⟩
abbrev main_c_18 : Ref sig .tc := ⟨.hbm, 252, rfl⟩
abbrev main_call6_cst : Ref sig .tc := ⟨.hbm, 253, rfl⟩
abbrev main_call6_v0 : Ref sig .tc := ⟨.hbm, 254, rfl⟩
abbrev main_call6_v1 : Ref sig .tc := ⟨.hbm, 255, rfl⟩
abbrev main_call6_cst_0 : Ref sig .tc := ⟨.hbm, 256, rfl⟩
abbrev main_call6_v2 : Ref sig .tc := ⟨.hbm, 257, rfl⟩
abbrev main_call6_v3 : Ref sig .tc := ⟨.hbm, 258, rfl⟩
abbrev main_call6_v4 : Ref sig .tc := ⟨.hbm, 259, rfl⟩
abbrev main_call6_v5 : Ref sig .tc := ⟨.hbm, 260, rfl⟩
abbrev main_call6_v6 : Ref sig .tc := ⟨.hbm, 261, rfl⟩
abbrev main_call6_v7 : Ref sig .tc := ⟨.hbm, 262, rfl⟩
abbrev main_call6_cst_1 : Ref sig .tc := ⟨.hbm, 263, rfl⟩
abbrev main_call6_v8 : Ref sig .tc := ⟨.hbm, 264, rfl⟩
abbrev main_call6_cst_2 : Ref sig .tc := ⟨.hbm, 265, rfl⟩
abbrev main_call6_v9 : Ref sig .tc := ⟨.hbm, 266, rfl⟩
abbrev main_call6_v10 : Ref sig .tc := ⟨.hbm, 267, rfl⟩
abbrev main_call6_v11 : Ref sig .tc := ⟨.hbm, 268, rfl⟩
abbrev main_call6_cst_3 : Ref sig .tc := ⟨.hbm, 269, rfl⟩
abbrev main_call6_v12 : Ref sig .tc := ⟨.hbm, 270, rfl⟩
abbrev main_call6_cst_4 : Ref sig .tc := ⟨.hbm, 271, rfl⟩
abbrev main_call6_call0_v0 : Ref sig .tc := ⟨.hbm, 272, rfl⟩
abbrev main_call6_call0_v1 : Ref sig .tc := ⟨.hbm, 273, rfl⟩
abbrev main_v133 : Ref sig .tc := ⟨.hbm, 274, rfl⟩
abbrev main_v134 : Ref sig .tc := ⟨.hbm, 275, rfl⟩
abbrev main_v135 : Ref sig .tc := ⟨.hbm, 276, rfl⟩
abbrev main_v136 : Ref sig .tc := ⟨.hbm, 277, rfl⟩
abbrev main_cst_19 : Ref sig .tc := ⟨.hbm, 278, rfl⟩
abbrev main_v137 : Ref sig .tc := ⟨.hbm, 279, rfl⟩
abbrev main_v138 : Ref sig .tc := ⟨.hbm, 280, rfl⟩
abbrev main_v139 : Ref sig .tc := ⟨.hbm, 281, rfl⟩
abbrev main_v140 : Ref sig .tc := ⟨.hbm, 282, rfl⟩
abbrev main_v141 : Ref sig .tc := ⟨.hbm, 283, rfl⟩
abbrev main_v142 : Ref sig .tc := ⟨.hbm, 284, rfl⟩
abbrev main_v143 : Ref sig .tc := ⟨.hbm, 285, rfl⟩
abbrev main_v144 : Ref sig .tc := ⟨.hbm, 286, rfl⟩
abbrev main_v145 : Ref sig .tc := ⟨.hbm, 287, rfl⟩
abbrev main_v146 : Ref sig .tc := ⟨.hbm, 288, rfl⟩
abbrev main_v147 : Ref sig .tc := ⟨.hbm, 289, rfl⟩
abbrev main_v148 : Ref sig .tc := ⟨.hbm, 290, rfl⟩
abbrev main_call7_cst : Ref sig .tc := ⟨.hbm, 291, rfl⟩
abbrev main_call7_v0 : Ref sig .tc := ⟨.hbm, 292, rfl⟩
abbrev main_v149 : Ref sig .tc := ⟨.hbm, 293, rfl⟩
abbrev main_v150 : Ref sig .tc := ⟨.hbm, 294, rfl⟩
abbrev main_v151 : Ref sig .tc := ⟨.hbm, 295, rfl⟩
abbrev main_v152 : Ref sig .tc := ⟨.hbm, 296, rfl⟩
abbrev main_v153 : Ref sig .tc := ⟨.hbm, 297, rfl⟩
abbrev main_v154 : Ref sig .tc := ⟨.hbm, 298, rfl⟩
abbrev main_v155 : Ref sig .tc := ⟨.hbm, 299, rfl⟩
abbrev main_v156 : Ref sig .tc := ⟨.hbm, 300, rfl⟩
abbrev main_v157 : Ref sig .tc := ⟨.hbm, 301, rfl⟩
abbrev main_cst_20 : Ref sig .tc := ⟨.hbm, 302, rfl⟩
abbrev main_v158 : Ref sig .tc := ⟨.hbm, 303, rfl⟩
abbrev main_cst_21 : Ref sig .tc := ⟨.hbm, 304, rfl⟩
abbrev main_v159 : Ref sig .tc := ⟨.hbm, 305, rfl⟩
abbrev main_v160 : Ref sig .tc := ⟨.hbm, 306, rfl⟩
abbrev main_c_22 : Ref sig .tc := ⟨.hbm, 307, rfl⟩
abbrev main_call8_cst : Ref sig .tc := ⟨.hbm, 308, rfl⟩
abbrev main_call8_v0 : Ref sig .tc := ⟨.hbm, 309, rfl⟩
abbrev main_call8_v1 : Ref sig .tc := ⟨.hbm, 310, rfl⟩
abbrev main_call8_cst_0 : Ref sig .tc := ⟨.hbm, 311, rfl⟩
abbrev main_call8_v2 : Ref sig .tc := ⟨.hbm, 312, rfl⟩
abbrev main_call8_v3 : Ref sig .tc := ⟨.hbm, 313, rfl⟩
abbrev main_call8_v4 : Ref sig .tc := ⟨.hbm, 314, rfl⟩
abbrev main_call8_v5 : Ref sig .tc := ⟨.hbm, 315, rfl⟩
abbrev main_call8_v6 : Ref sig .tc := ⟨.hbm, 316, rfl⟩
abbrev main_call8_v7 : Ref sig .tc := ⟨.hbm, 317, rfl⟩
abbrev main_call8_cst_1 : Ref sig .tc := ⟨.hbm, 318, rfl⟩
abbrev main_call8_v8 : Ref sig .tc := ⟨.hbm, 319, rfl⟩
abbrev main_call8_cst_2 : Ref sig .tc := ⟨.hbm, 320, rfl⟩
abbrev main_call8_v9 : Ref sig .tc := ⟨.hbm, 321, rfl⟩
abbrev main_call8_v10 : Ref sig .tc := ⟨.hbm, 322, rfl⟩
abbrev main_call8_v11 : Ref sig .tc := ⟨.hbm, 323, rfl⟩
abbrev main_call8_cst_3 : Ref sig .tc := ⟨.hbm, 324, rfl⟩
abbrev main_call8_v12 : Ref sig .tc := ⟨.hbm, 325, rfl⟩
abbrev main_call8_cst_4 : Ref sig .tc := ⟨.hbm, 326, rfl⟩
abbrev main_call8_call0_v0 : Ref sig .tc := ⟨.hbm, 327, rfl⟩
abbrev main_call8_call0_v1 : Ref sig .tc := ⟨.hbm, 328, rfl⟩
abbrev main_v161 : Ref sig .tc := ⟨.hbm, 329, rfl⟩
abbrev main_v162 : Ref sig .tc := ⟨.hbm, 330, rfl⟩
abbrev main_v163 : Ref sig .tc := ⟨.hbm, 331, rfl⟩
abbrev main_v164 : Ref sig .tc := ⟨.hbm, 332, rfl⟩
abbrev main_cst_23 : Ref sig .tc := ⟨.hbm, 333, rfl⟩
abbrev main_v165 : Ref sig .tc := ⟨.hbm, 334, rfl⟩
abbrev main_v166 : Ref sig .tc := ⟨.hbm, 335, rfl⟩
abbrev main_v167 : Ref sig .tc := ⟨.hbm, 336, rfl⟩
abbrev main_v168 : Ref sig .tc := ⟨.hbm, 337, rfl⟩
abbrev main_v169 : Ref sig .tc := ⟨.hbm, 338, rfl⟩
abbrev main_v170 : Ref sig .tc := ⟨.hbm, 339, rfl⟩
abbrev main_v171 : Ref sig .tc := ⟨.hbm, 340, rfl⟩
abbrev main_v172 : Ref sig .tc := ⟨.hbm, 341, rfl⟩
abbrev main_v173 : Ref sig .tc := ⟨.hbm, 342, rfl⟩
abbrev main_v174 : Ref sig .tc := ⟨.hbm, 343, rfl⟩
abbrev main_v175 : Ref sig .tc := ⟨.hbm, 344, rfl⟩
abbrev main_v176 : Ref sig .tc := ⟨.hbm, 345, rfl⟩
abbrev main_call9_cst : Ref sig .tc := ⟨.hbm, 346, rfl⟩
abbrev main_call9_v0 : Ref sig .tc := ⟨.hbm, 347, rfl⟩
abbrev main_v177 : Ref sig .tc := ⟨.hbm, 348, rfl⟩
abbrev main_v178 : Ref sig .tc := ⟨.hbm, 349, rfl⟩
abbrev main_v179 : Ref sig .tc := ⟨.hbm, 350, rfl⟩
abbrev main_v180 : Ref sig .tc := ⟨.hbm, 351, rfl⟩
abbrev main_v181 : Ref sig .tc := ⟨.hbm, 352, rfl⟩
abbrev main_cst_24 : Ref sig .tc := ⟨.hbm, 353, rfl⟩
abbrev main_v182 : Ref sig .tc := ⟨.hbm, 354, rfl⟩
abbrev main_cst_25 : Ref sig .tc := ⟨.hbm, 355, rfl⟩
abbrev main_v183 : Ref sig .tc := ⟨.hbm, 356, rfl⟩
abbrev main_v184 : Ref sig .tc := ⟨.hbm, 357, rfl⟩
abbrev main_c_26 : Ref sig .tc := ⟨.hbm, 358, rfl⟩
abbrev main_call10_cst : Ref sig .tc := ⟨.hbm, 359, rfl⟩
abbrev main_call10_v0 : Ref sig .tc := ⟨.hbm, 360, rfl⟩
abbrev main_call10_v1 : Ref sig .tc := ⟨.hbm, 361, rfl⟩
abbrev main_call10_cst_0 : Ref sig .tc := ⟨.hbm, 362, rfl⟩
abbrev main_call10_v2 : Ref sig .tc := ⟨.hbm, 363, rfl⟩
abbrev main_call10_v3 : Ref sig .tc := ⟨.hbm, 364, rfl⟩
abbrev main_call10_v4 : Ref sig .tc := ⟨.hbm, 365, rfl⟩
abbrev main_call10_v5 : Ref sig .tc := ⟨.hbm, 366, rfl⟩
abbrev main_call10_v6 : Ref sig .tc := ⟨.hbm, 367, rfl⟩
abbrev main_call10_v7 : Ref sig .tc := ⟨.hbm, 368, rfl⟩
abbrev main_call10_cst_1 : Ref sig .tc := ⟨.hbm, 369, rfl⟩
abbrev main_call10_v8 : Ref sig .tc := ⟨.hbm, 370, rfl⟩
abbrev main_call10_cst_2 : Ref sig .tc := ⟨.hbm, 371, rfl⟩
abbrev main_call10_v9 : Ref sig .tc := ⟨.hbm, 372, rfl⟩
abbrev main_call10_v10 : Ref sig .tc := ⟨.hbm, 373, rfl⟩
abbrev main_call10_v11 : Ref sig .tc := ⟨.hbm, 374, rfl⟩
abbrev main_call10_cst_3 : Ref sig .tc := ⟨.hbm, 375, rfl⟩
abbrev main_call10_v12 : Ref sig .tc := ⟨.hbm, 376, rfl⟩
abbrev main_call10_cst_4 : Ref sig .tc := ⟨.hbm, 377, rfl⟩
abbrev main_call10_call0_v0 : Ref sig .tc := ⟨.hbm, 378, rfl⟩
abbrev main_call10_call0_v1 : Ref sig .tc := ⟨.hbm, 379, rfl⟩
abbrev main_v185 : Ref sig .tc := ⟨.hbm, 380, rfl⟩
abbrev main_v186 : Ref sig .tc := ⟨.hbm, 381, rfl⟩
abbrev main_v187 : Ref sig .tc := ⟨.hbm, 382, rfl⟩
abbrev main_v188 : Ref sig .tc := ⟨.hbm, 383, rfl⟩
abbrev main_cst_27 : Ref sig .tc := ⟨.hbm, 384, rfl⟩
abbrev main_v189 : Ref sig .tc := ⟨.hbm, 385, rfl⟩
abbrev main_v190 : Ref sig .tc := ⟨.hbm, 386, rfl⟩
abbrev main_v191 : Ref sig .tc := ⟨.hbm, 387, rfl⟩
abbrev main_v192 : Ref sig .tc := ⟨.hbm, 388, rfl⟩
abbrev main_v193 : Ref sig .tc := ⟨.hbm, 389, rfl⟩
abbrev main_v194 : Ref sig .tc := ⟨.hbm, 390, rfl⟩
abbrev main_v195 : Ref sig .tc := ⟨.hbm, 391, rfl⟩
abbrev main_v196 : Ref sig .tc := ⟨.hbm, 392, rfl⟩
abbrev main_v197 : Ref sig .tc := ⟨.hbm, 393, rfl⟩
abbrev main_v198 : Ref sig .tc := ⟨.hbm, 394, rfl⟩
abbrev main_v199 : Ref sig .tc := ⟨.hbm, 395, rfl⟩
abbrev main_v200 : Ref sig .tc := ⟨.hbm, 396, rfl⟩
abbrev main_call11_cst : Ref sig .tc := ⟨.hbm, 397, rfl⟩
abbrev main_call11_v0 : Ref sig .tc := ⟨.hbm, 398, rfl⟩
abbrev main_v201 : Ref sig .tc := ⟨.hbm, 399, rfl⟩
abbrev main_c_28 : Ref sig .tc := ⟨.hbm, 400, rfl⟩
abbrev main_v202 : Ref sig .tc := ⟨.hbm, 401, rfl⟩
abbrev main_v203 : Ref sig .tc := ⟨.hbm, 402, rfl⟩
abbrev main_c_29 : Ref sig .tc := ⟨.hbm, 403, rfl⟩
abbrev main_v204 : Ref sig .tc := ⟨.hbm, 404, rfl⟩
abbrev main_v205 : Ref sig .tc := ⟨.hbm, 405, rfl⟩
abbrev main_v206 : Ref sig .tc := ⟨.hbm, 406, rfl⟩
abbrev main_v207 : Ref sig .tc := ⟨.hbm, 407, rfl⟩
abbrev main_v208 : Ref sig .tc := ⟨.hbm, 408, rfl⟩
abbrev main_v209 : Ref sig .tc := ⟨.hbm, 409, rfl⟩
abbrev main_v210 : Ref sig .tc := ⟨.hbm, 410, rfl⟩
abbrev main_v211 : Ref sig .tc := ⟨.hbm, 411, rfl⟩
abbrev main_v212 : Ref sig .tc := ⟨.hbm, 412, rfl⟩
abbrev main_v213 : Ref sig .tc := ⟨.hbm, 413, rfl⟩
abbrev main_v214 : Ref sig .tc := ⟨.hbm, 414, rfl⟩
abbrev main_v215 : Ref sig .tc := ⟨.hbm, 415, rfl⟩
abbrev main_v216 : Ref sig .tc := ⟨.hbm, 416, rfl⟩
abbrev main_v217 : Ref sig .tc := ⟨.hbm, 417, rfl⟩
abbrev main_v218 : Ref sig .tc := ⟨.hbm, 418, rfl⟩
abbrev main_v219 : Ref sig .tc := ⟨.hbm, 419, rfl⟩
abbrev main_v220 : Ref sig .tc := ⟨.hbm, 420, rfl⟩
abbrev main_v221 : Ref sig .tc := ⟨.hbm, 421, rfl⟩
abbrev main_v222 : Ref sig .tc := ⟨.hbm, 422, rfl⟩
abbrev main_c_30 : Ref sig .tc := ⟨.hbm, 423, rfl⟩
abbrev main_v223 : Ref sig .tc := ⟨.hbm, 424, rfl⟩
abbrev main_v224 : Ref sig .tc := ⟨.hbm, 425, rfl⟩
abbrev main_c_31 : Ref sig .tc := ⟨.hbm, 426, rfl⟩
abbrev main_v225 : Ref sig .tc := ⟨.hbm, 427, rfl⟩
abbrev main_v226 : Ref sig .tc := ⟨.hbm, 428, rfl⟩
abbrev main_v227 : Ref sig .tc := ⟨.hbm, 429, rfl⟩
abbrev main_v228 : Ref sig .tc := ⟨.hbm, 430, rfl⟩
abbrev main_v229 : Ref sig .tc := ⟨.hbm, 431, rfl⟩
abbrev main_v230 : Ref sig .tc := ⟨.hbm, 432, rfl⟩
abbrev main_v231 : Ref sig .tc := ⟨.hbm, 433, rfl⟩
abbrev main_v232 : Ref sig .tc := ⟨.hbm, 434, rfl⟩
abbrev main_v233 : Ref sig .tc := ⟨.hbm, 435, rfl⟩
abbrev main_v234 : Ref sig .tc := ⟨.hbm, 436, rfl⟩
abbrev main_v235 : Ref sig .tc := ⟨.hbm, 437, rfl⟩
abbrev main_v236 : Ref sig .tc := ⟨.hbm, 438, rfl⟩
abbrev main_v237 : Ref sig .tc := ⟨.hbm, 439, rfl⟩
abbrev main_cst_32 : Ref sig .tc := ⟨.hbm, 440, rfl⟩
abbrev main_v238 : Ref sig .tc := ⟨.hbm, 441, rfl⟩
abbrev main_cst_33 : Ref sig .tc := ⟨.hbm, 442, rfl⟩
abbrev main_v239 : Ref sig .tc := ⟨.hbm, 443, rfl⟩
abbrev main_v240 : Ref sig .tc := ⟨.hbm, 444, rfl⟩
abbrev main_c_34 : Ref sig .tc := ⟨.hbm, 445, rfl⟩
abbrev main_call12_cst : Ref sig .tc := ⟨.hbm, 446, rfl⟩
abbrev main_call12_v0 : Ref sig .tc := ⟨.hbm, 447, rfl⟩
abbrev main_call12_v1 : Ref sig .tc := ⟨.hbm, 448, rfl⟩
abbrev main_call12_cst_0 : Ref sig .tc := ⟨.hbm, 449, rfl⟩
abbrev main_call12_v2 : Ref sig .tc := ⟨.hbm, 450, rfl⟩
abbrev main_call12_v3 : Ref sig .tc := ⟨.hbm, 451, rfl⟩
abbrev main_call12_v4 : Ref sig .tc := ⟨.hbm, 452, rfl⟩
abbrev main_call12_v5 : Ref sig .tc := ⟨.hbm, 453, rfl⟩
abbrev main_call12_v6 : Ref sig .tc := ⟨.hbm, 454, rfl⟩
abbrev main_call12_v7 : Ref sig .tc := ⟨.hbm, 455, rfl⟩
abbrev main_call12_cst_1 : Ref sig .tc := ⟨.hbm, 456, rfl⟩
abbrev main_call12_v8 : Ref sig .tc := ⟨.hbm, 457, rfl⟩
abbrev main_call12_cst_2 : Ref sig .tc := ⟨.hbm, 458, rfl⟩
abbrev main_call12_v9 : Ref sig .tc := ⟨.hbm, 459, rfl⟩
abbrev main_call12_v10 : Ref sig .tc := ⟨.hbm, 460, rfl⟩
abbrev main_call12_v11 : Ref sig .tc := ⟨.hbm, 461, rfl⟩
abbrev main_call12_cst_3 : Ref sig .tc := ⟨.hbm, 462, rfl⟩
abbrev main_call12_v12 : Ref sig .tc := ⟨.hbm, 463, rfl⟩
abbrev main_call12_cst_4 : Ref sig .tc := ⟨.hbm, 464, rfl⟩
abbrev main_call12_call0_v0 : Ref sig .tc := ⟨.hbm, 465, rfl⟩
abbrev main_call12_call0_v1 : Ref sig .tc := ⟨.hbm, 466, rfl⟩
abbrev main_v241 : Ref sig .tc := ⟨.hbm, 467, rfl⟩
abbrev main_v242 : Ref sig .tc := ⟨.hbm, 468, rfl⟩
abbrev main_v243 : Ref sig .tc := ⟨.hbm, 469, rfl⟩
abbrev main_v244 : Ref sig .tc := ⟨.hbm, 470, rfl⟩
abbrev main_cst_35 : Ref sig .tc := ⟨.hbm, 471, rfl⟩
abbrev main_v245 : Ref sig .tc := ⟨.hbm, 472, rfl⟩
abbrev main_v246 : Ref sig .tc := ⟨.hbm, 473, rfl⟩
abbrev main_v247 : Ref sig .tc := ⟨.hbm, 474, rfl⟩
abbrev main_v248 : Ref sig .tc := ⟨.hbm, 475, rfl⟩
abbrev main_v249 : Ref sig .tc := ⟨.hbm, 476, rfl⟩
abbrev main_v250 : Ref sig .tc := ⟨.hbm, 477, rfl⟩
abbrev main_v251 : Ref sig .tc := ⟨.hbm, 478, rfl⟩
abbrev main_v252 : Ref sig .tc := ⟨.hbm, 479, rfl⟩
abbrev main_v253 : Ref sig .tc := ⟨.hbm, 480, rfl⟩
abbrev main_v254 : Ref sig .tc := ⟨.hbm, 481, rfl⟩
abbrev main_v255 : Ref sig .tc := ⟨.hbm, 482, rfl⟩
abbrev main_v256 : Ref sig .tc := ⟨.hbm, 483, rfl⟩
abbrev main_call13_cst : Ref sig .tc := ⟨.hbm, 484, rfl⟩
abbrev main_call13_v0 : Ref sig .tc := ⟨.hbm, 485, rfl⟩
abbrev main_v257 : Ref sig .tc := ⟨.hbm, 486, rfl⟩
abbrev main_v258 : Ref sig .tc := ⟨.hbm, 487, rfl⟩
abbrev main_v259 : Ref sig .tc := ⟨.hbm, 488, rfl⟩
abbrev main_v260 : Ref sig .tc := ⟨.hbm, 489, rfl⟩
abbrev main_v261 : Ref sig .tc := ⟨.hbm, 490, rfl⟩
abbrev main_v262 : Ref sig .tc := ⟨.hbm, 491, rfl⟩
abbrev main_v263 : Ref sig .tc := ⟨.hbm, 492, rfl⟩
abbrev main_v264 : Ref sig .tc := ⟨.hbm, 493, rfl⟩
abbrev main_v265 : Ref sig .tc := ⟨.hbm, 494, rfl⟩
abbrev main_cst_36 : Ref sig .tc := ⟨.hbm, 495, rfl⟩
abbrev main_v266 : Ref sig .tc := ⟨.hbm, 496, rfl⟩
abbrev main_cst_37 : Ref sig .tc := ⟨.hbm, 497, rfl⟩
abbrev main_v267 : Ref sig .tc := ⟨.hbm, 498, rfl⟩
abbrev main_v268 : Ref sig .tc := ⟨.hbm, 499, rfl⟩
abbrev main_c_38 : Ref sig .tc := ⟨.hbm, 500, rfl⟩
abbrev main_call14_cst : Ref sig .tc := ⟨.hbm, 501, rfl⟩
abbrev main_call14_v0 : Ref sig .tc := ⟨.hbm, 502, rfl⟩
abbrev main_call14_v1 : Ref sig .tc := ⟨.hbm, 503, rfl⟩
abbrev main_call14_cst_0 : Ref sig .tc := ⟨.hbm, 504, rfl⟩
abbrev main_call14_v2 : Ref sig .tc := ⟨.hbm, 505, rfl⟩
abbrev main_call14_v3 : Ref sig .tc := ⟨.hbm, 506, rfl⟩
abbrev main_call14_v4 : Ref sig .tc := ⟨.hbm, 507, rfl⟩
abbrev main_call14_v5 : Ref sig .tc := ⟨.hbm, 508, rfl⟩
abbrev main_call14_v6 : Ref sig .tc := ⟨.hbm, 509, rfl⟩
abbrev main_call14_v7 : Ref sig .tc := ⟨.hbm, 510, rfl⟩
abbrev main_call14_cst_1 : Ref sig .tc := ⟨.hbm, 511, rfl⟩
abbrev main_call14_v8 : Ref sig .tc := ⟨.hbm, 512, rfl⟩
abbrev main_call14_cst_2 : Ref sig .tc := ⟨.hbm, 513, rfl⟩
abbrev main_call14_v9 : Ref sig .tc := ⟨.hbm, 514, rfl⟩
abbrev main_call14_v10 : Ref sig .tc := ⟨.hbm, 515, rfl⟩
abbrev main_call14_v11 : Ref sig .tc := ⟨.hbm, 516, rfl⟩
abbrev main_call14_cst_3 : Ref sig .tc := ⟨.hbm, 517, rfl⟩
abbrev main_call14_v12 : Ref sig .tc := ⟨.hbm, 518, rfl⟩
abbrev main_call14_cst_4 : Ref sig .tc := ⟨.hbm, 519, rfl⟩
abbrev main_call14_call0_v0 : Ref sig .tc := ⟨.hbm, 520, rfl⟩
abbrev main_call14_call0_v1 : Ref sig .tc := ⟨.hbm, 521, rfl⟩
abbrev main_v269 : Ref sig .tc := ⟨.hbm, 522, rfl⟩
abbrev main_v270 : Ref sig .tc := ⟨.hbm, 523, rfl⟩
abbrev main_v271 : Ref sig .tc := ⟨.hbm, 524, rfl⟩
abbrev main_v272 : Ref sig .tc := ⟨.hbm, 525, rfl⟩
abbrev main_cst_39 : Ref sig .tc := ⟨.hbm, 526, rfl⟩
abbrev main_v273 : Ref sig .tc := ⟨.hbm, 527, rfl⟩
abbrev main_v274 : Ref sig .tc := ⟨.hbm, 528, rfl⟩
abbrev main_v275 : Ref sig .tc := ⟨.hbm, 529, rfl⟩
abbrev main_v276 : Ref sig .tc := ⟨.hbm, 530, rfl⟩
abbrev main_v277 : Ref sig .tc := ⟨.hbm, 531, rfl⟩
abbrev main_v278 : Ref sig .tc := ⟨.hbm, 532, rfl⟩
abbrev main_v279 : Ref sig .tc := ⟨.hbm, 533, rfl⟩
abbrev main_v280 : Ref sig .tc := ⟨.hbm, 534, rfl⟩
abbrev main_v281 : Ref sig .tc := ⟨.hbm, 535, rfl⟩
abbrev main_v282 : Ref sig .tc := ⟨.hbm, 536, rfl⟩
abbrev main_v283 : Ref sig .tc := ⟨.hbm, 537, rfl⟩
abbrev main_v284 : Ref sig .tc := ⟨.hbm, 538, rfl⟩
abbrev main_call15_cst : Ref sig .tc := ⟨.hbm, 539, rfl⟩
abbrev main_call15_v0 : Ref sig .tc := ⟨.hbm, 540, rfl⟩
abbrev main_v285 : Ref sig .tc := ⟨.hbm, 541, rfl⟩
abbrev main_v286 : Ref sig .tc := ⟨.hbm, 542, rfl⟩
abbrev main_v287 : Ref sig .tc := ⟨.hbm, 543, rfl⟩
abbrev main_v288 : Ref sig .tc := ⟨.hbm, 544, rfl⟩
abbrev main_v289 : Ref sig .tc := ⟨.hbm, 545, rfl⟩
abbrev main_v290 : Ref sig .tc := ⟨.hbm, 546, rfl⟩
abbrev main_v291 : Ref sig .tc := ⟨.hbm, 547, rfl⟩
abbrev main_v292 : Ref sig .tc := ⟨.hbm, 548, rfl⟩
abbrev main_v293 : Ref sig .tc := ⟨.hbm, 549, rfl⟩
abbrev main_cst_40 : Ref sig .tc := ⟨.hbm, 550, rfl⟩
abbrev main_v294 : Ref sig .tc := ⟨.hbm, 551, rfl⟩
abbrev main_cst_41 : Ref sig .tc := ⟨.hbm, 552, rfl⟩
abbrev main_v295 : Ref sig .tc := ⟨.hbm, 553, rfl⟩
abbrev main_v296 : Ref sig .tc := ⟨.hbm, 554, rfl⟩
abbrev main_c_42 : Ref sig .tc := ⟨.hbm, 555, rfl⟩
abbrev main_call16_cst : Ref sig .tc := ⟨.hbm, 556, rfl⟩
abbrev main_call16_v0 : Ref sig .tc := ⟨.hbm, 557, rfl⟩
abbrev main_call16_v1 : Ref sig .tc := ⟨.hbm, 558, rfl⟩
abbrev main_call16_cst_0 : Ref sig .tc := ⟨.hbm, 559, rfl⟩
abbrev main_call16_v2 : Ref sig .tc := ⟨.hbm, 560, rfl⟩
abbrev main_call16_v3 : Ref sig .tc := ⟨.hbm, 561, rfl⟩
abbrev main_call16_v4 : Ref sig .tc := ⟨.hbm, 562, rfl⟩
abbrev main_call16_v5 : Ref sig .tc := ⟨.hbm, 563, rfl⟩
abbrev main_call16_v6 : Ref sig .tc := ⟨.hbm, 564, rfl⟩
abbrev main_call16_v7 : Ref sig .tc := ⟨.hbm, 565, rfl⟩
abbrev main_call16_cst_1 : Ref sig .tc := ⟨.hbm, 566, rfl⟩
abbrev main_call16_v8 : Ref sig .tc := ⟨.hbm, 567, rfl⟩
abbrev main_call16_cst_2 : Ref sig .tc := ⟨.hbm, 568, rfl⟩
abbrev main_call16_v9 : Ref sig .tc := ⟨.hbm, 569, rfl⟩
abbrev main_call16_v10 : Ref sig .tc := ⟨.hbm, 570, rfl⟩
abbrev main_call16_v11 : Ref sig .tc := ⟨.hbm, 571, rfl⟩
abbrev main_call16_cst_3 : Ref sig .tc := ⟨.hbm, 572, rfl⟩
abbrev main_call16_v12 : Ref sig .tc := ⟨.hbm, 573, rfl⟩
abbrev main_call16_cst_4 : Ref sig .tc := ⟨.hbm, 574, rfl⟩
abbrev main_call16_call0_v0 : Ref sig .tc := ⟨.hbm, 575, rfl⟩
abbrev main_call16_call0_v1 : Ref sig .tc := ⟨.hbm, 576, rfl⟩
abbrev main_v297 : Ref sig .tc := ⟨.hbm, 577, rfl⟩
abbrev main_v298 : Ref sig .tc := ⟨.hbm, 578, rfl⟩
abbrev main_v299 : Ref sig .tc := ⟨.hbm, 579, rfl⟩
abbrev main_v300 : Ref sig .tc := ⟨.hbm, 580, rfl⟩
abbrev main_cst_43 : Ref sig .tc := ⟨.hbm, 581, rfl⟩
abbrev main_v301 : Ref sig .tc := ⟨.hbm, 582, rfl⟩
abbrev main_v302 : Ref sig .tc := ⟨.hbm, 583, rfl⟩
abbrev main_v303 : Ref sig .tc := ⟨.hbm, 584, rfl⟩
abbrev main_v304 : Ref sig .tc := ⟨.hbm, 585, rfl⟩
abbrev main_v305 : Ref sig .tc := ⟨.hbm, 586, rfl⟩
abbrev main_v306 : Ref sig .tc := ⟨.hbm, 587, rfl⟩
abbrev main_v307 : Ref sig .tc := ⟨.hbm, 588, rfl⟩
abbrev main_v308 : Ref sig .tc := ⟨.hbm, 589, rfl⟩
abbrev main_v309 : Ref sig .tc := ⟨.hbm, 590, rfl⟩
abbrev main_v310 : Ref sig .tc := ⟨.hbm, 591, rfl⟩
abbrev main_v311 : Ref sig .tc := ⟨.hbm, 592, rfl⟩
abbrev main_v312 : Ref sig .tc := ⟨.hbm, 593, rfl⟩
abbrev main_call17_cst : Ref sig .tc := ⟨.hbm, 594, rfl⟩
abbrev main_call17_v0 : Ref sig .tc := ⟨.hbm, 595, rfl⟩
abbrev main_v313 : Ref sig .tc := ⟨.hbm, 596, rfl⟩
abbrev main_v314 : Ref sig .tc := ⟨.hbm, 597, rfl⟩
abbrev main_v315 : Ref sig .tc := ⟨.hbm, 598, rfl⟩
abbrev main_v316 : Ref sig .tc := ⟨.hbm, 599, rfl⟩
abbrev main_v317 : Ref sig .tc := ⟨.hbm, 600, rfl⟩
abbrev main_cst_44 : Ref sig .tc := ⟨.hbm, 601, rfl⟩
abbrev main_v318 : Ref sig .tc := ⟨.hbm, 602, rfl⟩
abbrev main_cst_45 : Ref sig .tc := ⟨.hbm, 603, rfl⟩
abbrev main_v319 : Ref sig .tc := ⟨.hbm, 604, rfl⟩
abbrev main_v320 : Ref sig .tc := ⟨.hbm, 605, rfl⟩
abbrev main_c_46 : Ref sig .tc := ⟨.hbm, 606, rfl⟩
abbrev main_call18_cst : Ref sig .tc := ⟨.hbm, 607, rfl⟩
abbrev main_call18_v0 : Ref sig .tc := ⟨.hbm, 608, rfl⟩
abbrev main_call18_v1 : Ref sig .tc := ⟨.hbm, 609, rfl⟩
abbrev main_call18_cst_0 : Ref sig .tc := ⟨.hbm, 610, rfl⟩
abbrev main_call18_v2 : Ref sig .tc := ⟨.hbm, 611, rfl⟩
abbrev main_call18_v3 : Ref sig .tc := ⟨.hbm, 612, rfl⟩
abbrev main_call18_v4 : Ref sig .tc := ⟨.hbm, 613, rfl⟩
abbrev main_call18_v5 : Ref sig .tc := ⟨.hbm, 614, rfl⟩
abbrev main_call18_v6 : Ref sig .tc := ⟨.hbm, 615, rfl⟩
abbrev main_call18_v7 : Ref sig .tc := ⟨.hbm, 616, rfl⟩
abbrev main_call18_cst_1 : Ref sig .tc := ⟨.hbm, 617, rfl⟩
abbrev main_call18_v8 : Ref sig .tc := ⟨.hbm, 618, rfl⟩
abbrev main_call18_cst_2 : Ref sig .tc := ⟨.hbm, 619, rfl⟩
abbrev main_call18_v9 : Ref sig .tc := ⟨.hbm, 620, rfl⟩
abbrev main_call18_v10 : Ref sig .tc := ⟨.hbm, 621, rfl⟩
abbrev main_call18_v11 : Ref sig .tc := ⟨.hbm, 622, rfl⟩
abbrev main_call18_cst_3 : Ref sig .tc := ⟨.hbm, 623, rfl⟩
abbrev main_call18_v12 : Ref sig .tc := ⟨.hbm, 624, rfl⟩
abbrev main_call18_cst_4 : Ref sig .tc := ⟨.hbm, 625, rfl⟩
abbrev main_call18_call0_v0 : Ref sig .tc := ⟨.hbm, 626, rfl⟩
abbrev main_call18_call0_v1 : Ref sig .tc := ⟨.hbm, 627, rfl⟩
abbrev main_v321 : Ref sig .tc := ⟨.hbm, 628, rfl⟩
abbrev main_v322 : Ref sig .tc := ⟨.hbm, 629, rfl⟩
abbrev main_v323 : Ref sig .tc := ⟨.hbm, 630, rfl⟩
abbrev main_v324 : Ref sig .tc := ⟨.hbm, 631, rfl⟩
abbrev main_cst_47 : Ref sig .tc := ⟨.hbm, 632, rfl⟩
abbrev main_v325 : Ref sig .tc := ⟨.hbm, 633, rfl⟩
abbrev main_v326 : Ref sig .tc := ⟨.hbm, 634, rfl⟩
abbrev main_v327 : Ref sig .tc := ⟨.hbm, 635, rfl⟩
abbrev main_v328 : Ref sig .tc := ⟨.hbm, 636, rfl⟩
abbrev main_v329 : Ref sig .tc := ⟨.hbm, 637, rfl⟩
abbrev main_v330 : Ref sig .tc := ⟨.hbm, 638, rfl⟩
abbrev main_v331 : Ref sig .tc := ⟨.hbm, 639, rfl⟩
abbrev main_v332 : Ref sig .tc := ⟨.hbm, 640, rfl⟩
abbrev main_v333 : Ref sig .tc := ⟨.hbm, 641, rfl⟩
abbrev main_v334 : Ref sig .tc := ⟨.hbm, 642, rfl⟩
abbrev main_v335 : Ref sig .tc := ⟨.hbm, 643, rfl⟩
abbrev main_v336 : Ref sig .tc := ⟨.hbm, 644, rfl⟩
abbrev main_call19_cst : Ref sig .tc := ⟨.hbm, 645, rfl⟩
abbrev main_call19_v0 : Ref sig .tc := ⟨.hbm, 646, rfl⟩
abbrev main_v337 : Ref sig .tc := ⟨.hbm, 647, rfl⟩
abbrev main_c_48 : Ref sig .tc := ⟨.hbm, 648, rfl⟩
abbrev main_v338 : Ref sig .tc := ⟨.hbm, 649, rfl⟩
abbrev main_v339 : Ref sig .tc := ⟨.hbm, 650, rfl⟩
abbrev main_c_49 : Ref sig .tc := ⟨.hbm, 651, rfl⟩
abbrev main_v340 : Ref sig .tc := ⟨.hbm, 652, rfl⟩
abbrev main_v341 : Ref sig .tc := ⟨.hbm, 653, rfl⟩
abbrev main_v342 : Ref sig .tc := ⟨.hbm, 654, rfl⟩
abbrev main_v343 : Ref sig .tc := ⟨.hbm, 655, rfl⟩
abbrev main_v344 : Ref sig .tc := ⟨.hbm, 656, rfl⟩
abbrev main_v345 : Ref sig .tc := ⟨.hbm, 657, rfl⟩
abbrev main_v346 : Ref sig .tc := ⟨.hbm, 658, rfl⟩
abbrev main_v347 : Ref sig .tc := ⟨.hbm, 659, rfl⟩
abbrev main_v348 : Ref sig .tc := ⟨.hbm, 660, rfl⟩
abbrev main_v349 : Ref sig .tc := ⟨.hbm, 661, rfl⟩
abbrev main_v350 : Ref sig .tc := ⟨.hbm, 662, rfl⟩
abbrev main_v351 : Ref sig .tc := ⟨.hbm, 663, rfl⟩
abbrev main_v352 : Ref sig .tc := ⟨.hbm, 664, rfl⟩
abbrev main_v353 : Ref sig .tc := ⟨.hbm, 665, rfl⟩
abbrev main_v354 : Ref sig .tc := ⟨.hbm, 666, rfl⟩
abbrev main_v355 : Ref sig .tc := ⟨.hbm, 667, rfl⟩
abbrev main_v356 : Ref sig .tc := ⟨.hbm, 668, rfl⟩
abbrev main_v357 : Ref sig .tc := ⟨.hbm, 669, rfl⟩
abbrev main_v358 : Ref sig .tc := ⟨.hbm, 670, rfl⟩
abbrev main_c_50 : Ref sig .tc := ⟨.hbm, 671, rfl⟩
abbrev main_v359 : Ref sig .tc := ⟨.hbm, 672, rfl⟩
abbrev main_v360 : Ref sig .tc := ⟨.hbm, 673, rfl⟩
abbrev main_c_51 : Ref sig .tc := ⟨.hbm, 674, rfl⟩
abbrev main_v361 : Ref sig .tc := ⟨.hbm, 675, rfl⟩
abbrev main_v362 : Ref sig .tc := ⟨.hbm, 676, rfl⟩
abbrev main_v363 : Ref sig .tc := ⟨.hbm, 677, rfl⟩
abbrev main_v364 : Ref sig .tc := ⟨.hbm, 678, rfl⟩
abbrev main_v365 : Ref sig .tc := ⟨.hbm, 679, rfl⟩
abbrev main_v366 : Ref sig .tc := ⟨.hbm, 680, rfl⟩
abbrev main_v367 : Ref sig .tc := ⟨.hbm, 681, rfl⟩
abbrev main_v368 : Ref sig .tc := ⟨.hbm, 682, rfl⟩
abbrev main_v369 : Ref sig .tc := ⟨.hbm, 683, rfl⟩
abbrev main_v370 : Ref sig .tc := ⟨.hbm, 684, rfl⟩
abbrev main_v371 : Ref sig .tc := ⟨.hbm, 685, rfl⟩
abbrev main_v372 : Ref sig .tc := ⟨.hbm, 686, rfl⟩
abbrev main_v373 : Ref sig .tc := ⟨.hbm, 687, rfl⟩
abbrev main_cst_52 : Ref sig .tc := ⟨.hbm, 688, rfl⟩
abbrev main_v374 : Ref sig .tc := ⟨.hbm, 689, rfl⟩
abbrev main_cst_53 : Ref sig .tc := ⟨.hbm, 690, rfl⟩
abbrev main_v375 : Ref sig .tc := ⟨.hbm, 691, rfl⟩
abbrev main_v376 : Ref sig .tc := ⟨.hbm, 692, rfl⟩
abbrev main_c_54 : Ref sig .tc := ⟨.hbm, 693, rfl⟩
abbrev main_call20_cst : Ref sig .tc := ⟨.hbm, 694, rfl⟩
abbrev main_call20_v0 : Ref sig .tc := ⟨.hbm, 695, rfl⟩
abbrev main_call20_v1 : Ref sig .tc := ⟨.hbm, 696, rfl⟩
abbrev main_call20_cst_0 : Ref sig .tc := ⟨.hbm, 697, rfl⟩
abbrev main_call20_v2 : Ref sig .tc := ⟨.hbm, 698, rfl⟩
abbrev main_call20_v3 : Ref sig .tc := ⟨.hbm, 699, rfl⟩
abbrev main_call20_v4 : Ref sig .tc := ⟨.hbm, 700, rfl⟩
abbrev main_call20_v5 : Ref sig .tc := ⟨.hbm, 701, rfl⟩
abbrev main_call20_v6 : Ref sig .tc := ⟨.hbm, 702, rfl⟩
abbrev main_call20_v7 : Ref sig .tc := ⟨.hbm, 703, rfl⟩
abbrev main_call20_cst_1 : Ref sig .tc := ⟨.hbm, 704, rfl⟩
abbrev main_call20_v8 : Ref sig .tc := ⟨.hbm, 705, rfl⟩
abbrev main_call20_cst_2 : Ref sig .tc := ⟨.hbm, 706, rfl⟩
abbrev main_call20_v9 : Ref sig .tc := ⟨.hbm, 707, rfl⟩
abbrev main_call20_v10 : Ref sig .tc := ⟨.hbm, 708, rfl⟩
abbrev main_call20_v11 : Ref sig .tc := ⟨.hbm, 709, rfl⟩
abbrev main_call20_cst_3 : Ref sig .tc := ⟨.hbm, 710, rfl⟩
abbrev main_call20_v12 : Ref sig .tc := ⟨.hbm, 711, rfl⟩
abbrev main_call20_cst_4 : Ref sig .tc := ⟨.hbm, 712, rfl⟩
abbrev main_call20_call0_v0 : Ref sig .tc := ⟨.hbm, 713, rfl⟩
abbrev main_call20_call0_v1 : Ref sig .tc := ⟨.hbm, 714, rfl⟩
abbrev main_v377 : Ref sig .tc := ⟨.hbm, 715, rfl⟩
abbrev main_v378 : Ref sig .tc := ⟨.hbm, 716, rfl⟩
abbrev main_v379 : Ref sig .tc := ⟨.hbm, 717, rfl⟩
abbrev main_v380 : Ref sig .tc := ⟨.hbm, 718, rfl⟩
abbrev main_cst_55 : Ref sig .tc := ⟨.hbm, 719, rfl⟩
abbrev main_v381 : Ref sig .tc := ⟨.hbm, 720, rfl⟩
abbrev main_v382 : Ref sig .tc := ⟨.hbm, 721, rfl⟩
abbrev main_v383 : Ref sig .tc := ⟨.hbm, 722, rfl⟩
abbrev main_v384 : Ref sig .tc := ⟨.hbm, 723, rfl⟩
abbrev main_v385 : Ref sig .tc := ⟨.hbm, 724, rfl⟩
abbrev main_v386 : Ref sig .tc := ⟨.hbm, 725, rfl⟩
abbrev main_v387 : Ref sig .tc := ⟨.hbm, 726, rfl⟩
abbrev main_v388 : Ref sig .tc := ⟨.hbm, 727, rfl⟩
abbrev main_v389 : Ref sig .tc := ⟨.hbm, 728, rfl⟩
abbrev main_v390 : Ref sig .tc := ⟨.hbm, 729, rfl⟩
abbrev main_v391 : Ref sig .tc := ⟨.hbm, 730, rfl⟩
abbrev main_v392 : Ref sig .tc := ⟨.hbm, 731, rfl⟩
abbrev main_call21_cst : Ref sig .tc := ⟨.hbm, 732, rfl⟩
abbrev main_call21_v0 : Ref sig .tc := ⟨.hbm, 733, rfl⟩
abbrev main_v393 : Ref sig .tc := ⟨.hbm, 734, rfl⟩
abbrev main_v394 : Ref sig .tc := ⟨.hbm, 735, rfl⟩
abbrev main_v395 : Ref sig .tc := ⟨.hbm, 736, rfl⟩
abbrev main_v396 : Ref sig .tc := ⟨.hbm, 737, rfl⟩
abbrev main_v397 : Ref sig .tc := ⟨.hbm, 738, rfl⟩
abbrev main_v398 : Ref sig .tc := ⟨.hbm, 739, rfl⟩
abbrev main_v399 : Ref sig .tc := ⟨.hbm, 740, rfl⟩
abbrev main_v400 : Ref sig .tc := ⟨.hbm, 741, rfl⟩
abbrev main_v401 : Ref sig .tc := ⟨.hbm, 742, rfl⟩
abbrev main_cst_56 : Ref sig .tc := ⟨.hbm, 743, rfl⟩
abbrev main_v402 : Ref sig .tc := ⟨.hbm, 744, rfl⟩
abbrev main_cst_57 : Ref sig .tc := ⟨.hbm, 745, rfl⟩
abbrev main_v403 : Ref sig .tc := ⟨.hbm, 746, rfl⟩
abbrev main_v404 : Ref sig .tc := ⟨.hbm, 747, rfl⟩
abbrev main_c_58 : Ref sig .tc := ⟨.hbm, 748, rfl⟩
abbrev main_call22_cst : Ref sig .tc := ⟨.hbm, 749, rfl⟩
abbrev main_call22_v0 : Ref sig .tc := ⟨.hbm, 750, rfl⟩
abbrev main_call22_v1 : Ref sig .tc := ⟨.hbm, 751, rfl⟩
abbrev main_call22_cst_0 : Ref sig .tc := ⟨.hbm, 752, rfl⟩
abbrev main_call22_v2 : Ref sig .tc := ⟨.hbm, 753, rfl⟩
abbrev main_call22_v3 : Ref sig .tc := ⟨.hbm, 754, rfl⟩
abbrev main_call22_v4 : Ref sig .tc := ⟨.hbm, 755, rfl⟩
abbrev main_call22_v5 : Ref sig .tc := ⟨.hbm, 756, rfl⟩
abbrev main_call22_v6 : Ref sig .tc := ⟨.hbm, 757, rfl⟩
abbrev main_call22_v7 : Ref sig .tc := ⟨.hbm, 758, rfl⟩
abbrev main_call22_cst_1 : Ref sig .tc := ⟨.hbm, 759, rfl⟩
abbrev main_call22_v8 : Ref sig .tc := ⟨.hbm, 760, rfl⟩
abbrev main_call22_cst_2 : Ref sig .tc := ⟨.hbm, 761, rfl⟩
abbrev main_call22_v9 : Ref sig .tc := ⟨.hbm, 762, rfl⟩
abbrev main_call22_v10 : Ref sig .tc := ⟨.hbm, 763, rfl⟩
abbrev main_call22_v11 : Ref sig .tc := ⟨.hbm, 764, rfl⟩
abbrev main_call22_cst_3 : Ref sig .tc := ⟨.hbm, 765, rfl⟩
abbrev main_call22_v12 : Ref sig .tc := ⟨.hbm, 766, rfl⟩
abbrev main_call22_cst_4 : Ref sig .tc := ⟨.hbm, 767, rfl⟩
abbrev main_call22_call0_v0 : Ref sig .tc := ⟨.hbm, 768, rfl⟩
abbrev main_call22_call0_v1 : Ref sig .tc := ⟨.hbm, 769, rfl⟩
abbrev main_v405 : Ref sig .tc := ⟨.hbm, 770, rfl⟩
abbrev main_v406 : Ref sig .tc := ⟨.hbm, 771, rfl⟩
abbrev main_v407 : Ref sig .tc := ⟨.hbm, 772, rfl⟩
abbrev main_v408 : Ref sig .tc := ⟨.hbm, 773, rfl⟩
abbrev main_cst_59 : Ref sig .tc := ⟨.hbm, 774, rfl⟩
abbrev main_v409 : Ref sig .tc := ⟨.hbm, 775, rfl⟩
abbrev main_v410 : Ref sig .tc := ⟨.hbm, 776, rfl⟩
abbrev main_v411 : Ref sig .tc := ⟨.hbm, 777, rfl⟩
abbrev main_v412 : Ref sig .tc := ⟨.hbm, 778, rfl⟩
abbrev main_v413 : Ref sig .tc := ⟨.hbm, 779, rfl⟩
abbrev main_v414 : Ref sig .tc := ⟨.hbm, 780, rfl⟩
abbrev main_v415 : Ref sig .tc := ⟨.hbm, 781, rfl⟩
abbrev main_v416 : Ref sig .tc := ⟨.hbm, 782, rfl⟩
abbrev main_v417 : Ref sig .tc := ⟨.hbm, 783, rfl⟩
abbrev main_v418 : Ref sig .tc := ⟨.hbm, 784, rfl⟩
abbrev main_v419 : Ref sig .tc := ⟨.hbm, 785, rfl⟩
abbrev main_v420 : Ref sig .tc := ⟨.hbm, 786, rfl⟩
abbrev main_call23_cst : Ref sig .tc := ⟨.hbm, 787, rfl⟩
abbrev main_call23_v0 : Ref sig .tc := ⟨.hbm, 788, rfl⟩
abbrev main_v421 : Ref sig .tc := ⟨.hbm, 789, rfl⟩
abbrev main_v422 : Ref sig .tc := ⟨.hbm, 790, rfl⟩
abbrev main_v423 : Ref sig .tc := ⟨.hbm, 791, rfl⟩
abbrev main_v424 : Ref sig .tc := ⟨.hbm, 792, rfl⟩
abbrev main_v425 : Ref sig .tc := ⟨.hbm, 793, rfl⟩
abbrev main_v426 : Ref sig .tc := ⟨.hbm, 794, rfl⟩
abbrev main_v427 : Ref sig .tc := ⟨.hbm, 795, rfl⟩
abbrev main_v428 : Ref sig .tc := ⟨.hbm, 796, rfl⟩
abbrev main_v429 : Ref sig .tc := ⟨.hbm, 797, rfl⟩
abbrev main_cst_60 : Ref sig .tc := ⟨.hbm, 798, rfl⟩
abbrev main_v430 : Ref sig .tc := ⟨.hbm, 799, rfl⟩
abbrev main_cst_61 : Ref sig .tc := ⟨.hbm, 800, rfl⟩
abbrev main_v431 : Ref sig .tc := ⟨.hbm, 801, rfl⟩
abbrev main_v432 : Ref sig .tc := ⟨.hbm, 802, rfl⟩
abbrev main_c_62 : Ref sig .tc := ⟨.hbm, 803, rfl⟩
abbrev main_call24_cst : Ref sig .tc := ⟨.hbm, 804, rfl⟩
abbrev main_call24_v0 : Ref sig .tc := ⟨.hbm, 805, rfl⟩
abbrev main_call24_v1 : Ref sig .tc := ⟨.hbm, 806, rfl⟩
abbrev main_call24_cst_0 : Ref sig .tc := ⟨.hbm, 807, rfl⟩
abbrev main_call24_v2 : Ref sig .tc := ⟨.hbm, 808, rfl⟩
abbrev main_call24_v3 : Ref sig .tc := ⟨.hbm, 809, rfl⟩
abbrev main_call24_v4 : Ref sig .tc := ⟨.hbm, 810, rfl⟩
abbrev main_call24_v5 : Ref sig .tc := ⟨.hbm, 811, rfl⟩
abbrev main_call24_v6 : Ref sig .tc := ⟨.hbm, 812, rfl⟩
abbrev main_call24_v7 : Ref sig .tc := ⟨.hbm, 813, rfl⟩
abbrev main_call24_cst_1 : Ref sig .tc := ⟨.hbm, 814, rfl⟩
abbrev main_call24_v8 : Ref sig .tc := ⟨.hbm, 815, rfl⟩
abbrev main_call24_cst_2 : Ref sig .tc := ⟨.hbm, 816, rfl⟩
abbrev main_call24_v9 : Ref sig .tc := ⟨.hbm, 817, rfl⟩
abbrev main_call24_v10 : Ref sig .tc := ⟨.hbm, 818, rfl⟩
abbrev main_call24_v11 : Ref sig .tc := ⟨.hbm, 819, rfl⟩
abbrev main_call24_cst_3 : Ref sig .tc := ⟨.hbm, 820, rfl⟩
abbrev main_call24_v12 : Ref sig .tc := ⟨.hbm, 821, rfl⟩
abbrev main_call24_cst_4 : Ref sig .tc := ⟨.hbm, 822, rfl⟩
abbrev main_call24_call0_v0 : Ref sig .tc := ⟨.hbm, 823, rfl⟩
abbrev main_call24_call0_v1 : Ref sig .tc := ⟨.hbm, 824, rfl⟩
abbrev main_v433 : Ref sig .tc := ⟨.hbm, 825, rfl⟩
abbrev main_v434 : Ref sig .tc := ⟨.hbm, 826, rfl⟩
abbrev main_v435 : Ref sig .tc := ⟨.hbm, 827, rfl⟩
abbrev main_v436 : Ref sig .tc := ⟨.hbm, 828, rfl⟩
abbrev main_cst_63 : Ref sig .tc := ⟨.hbm, 829, rfl⟩
abbrev main_v437 : Ref sig .tc := ⟨.hbm, 830, rfl⟩
abbrev main_v438 : Ref sig .tc := ⟨.hbm, 831, rfl⟩
abbrev main_v439 : Ref sig .tc := ⟨.hbm, 832, rfl⟩
abbrev main_v440 : Ref sig .tc := ⟨.hbm, 833, rfl⟩
abbrev main_v441 : Ref sig .tc := ⟨.hbm, 834, rfl⟩
abbrev main_v442 : Ref sig .tc := ⟨.hbm, 835, rfl⟩
abbrev main_v443 : Ref sig .tc := ⟨.hbm, 836, rfl⟩
abbrev main_v444 : Ref sig .tc := ⟨.hbm, 837, rfl⟩
abbrev main_v445 : Ref sig .tc := ⟨.hbm, 838, rfl⟩
abbrev main_v446 : Ref sig .tc := ⟨.hbm, 839, rfl⟩
abbrev main_v447 : Ref sig .tc := ⟨.hbm, 840, rfl⟩
abbrev main_v448 : Ref sig .tc := ⟨.hbm, 841, rfl⟩
abbrev main_call25_cst : Ref sig .tc := ⟨.hbm, 842, rfl⟩
abbrev main_call25_v0 : Ref sig .tc := ⟨.hbm, 843, rfl⟩
abbrev main_v449 : Ref sig .tc := ⟨.hbm, 844, rfl⟩
abbrev main_v450 : Ref sig .tc := ⟨.hbm, 845, rfl⟩
abbrev main_v451 : Ref sig .tc := ⟨.hbm, 846, rfl⟩
abbrev main_v452 : Ref sig .tc := ⟨.hbm, 847, rfl⟩
abbrev main_v453 : Ref sig .tc := ⟨.hbm, 848, rfl⟩
abbrev main_cst_64 : Ref sig .tc := ⟨.hbm, 849, rfl⟩
abbrev main_v454 : Ref sig .tc := ⟨.hbm, 850, rfl⟩
abbrev main_cst_65 : Ref sig .tc := ⟨.hbm, 851, rfl⟩
abbrev main_v455 : Ref sig .tc := ⟨.hbm, 852, rfl⟩
abbrev main_v456 : Ref sig .tc := ⟨.hbm, 853, rfl⟩
abbrev main_c_66 : Ref sig .tc := ⟨.hbm, 854, rfl⟩
abbrev main_call26_cst : Ref sig .tc := ⟨.hbm, 855, rfl⟩
abbrev main_call26_v0 : Ref sig .tc := ⟨.hbm, 856, rfl⟩
abbrev main_call26_v1 : Ref sig .tc := ⟨.hbm, 857, rfl⟩
abbrev main_call26_cst_0 : Ref sig .tc := ⟨.hbm, 858, rfl⟩
abbrev main_call26_v2 : Ref sig .tc := ⟨.hbm, 859, rfl⟩
abbrev main_call26_v3 : Ref sig .tc := ⟨.hbm, 860, rfl⟩
abbrev main_call26_v4 : Ref sig .tc := ⟨.hbm, 861, rfl⟩
abbrev main_call26_v5 : Ref sig .tc := ⟨.hbm, 862, rfl⟩
abbrev main_call26_v6 : Ref sig .tc := ⟨.hbm, 863, rfl⟩
abbrev main_call26_v7 : Ref sig .tc := ⟨.hbm, 864, rfl⟩
abbrev main_call26_cst_1 : Ref sig .tc := ⟨.hbm, 865, rfl⟩
abbrev main_call26_v8 : Ref sig .tc := ⟨.hbm, 866, rfl⟩
abbrev main_call26_cst_2 : Ref sig .tc := ⟨.hbm, 867, rfl⟩
abbrev main_call26_v9 : Ref sig .tc := ⟨.hbm, 868, rfl⟩
abbrev main_call26_v10 : Ref sig .tc := ⟨.hbm, 869, rfl⟩
abbrev main_call26_v11 : Ref sig .tc := ⟨.hbm, 870, rfl⟩
abbrev main_call26_cst_3 : Ref sig .tc := ⟨.hbm, 871, rfl⟩
abbrev main_call26_v12 : Ref sig .tc := ⟨.hbm, 872, rfl⟩
abbrev main_call26_cst_4 : Ref sig .tc := ⟨.hbm, 873, rfl⟩
abbrev main_call26_call0_v0 : Ref sig .tc := ⟨.hbm, 874, rfl⟩
abbrev main_call26_call0_v1 : Ref sig .tc := ⟨.hbm, 875, rfl⟩
abbrev main_v457 : Ref sig .tc := ⟨.hbm, 876, rfl⟩
abbrev main_v458 : Ref sig .tc := ⟨.hbm, 877, rfl⟩
abbrev main_v459 : Ref sig .tc := ⟨.hbm, 878, rfl⟩
abbrev main_v460 : Ref sig .tc := ⟨.hbm, 879, rfl⟩
abbrev main_cst_67 : Ref sig .tc := ⟨.hbm, 880, rfl⟩
abbrev main_v461 : Ref sig .tc := ⟨.hbm, 881, rfl⟩
abbrev main_v462 : Ref sig .tc := ⟨.hbm, 882, rfl⟩
abbrev main_v463 : Ref sig .tc := ⟨.hbm, 883, rfl⟩
abbrev main_v464 : Ref sig .tc := ⟨.hbm, 884, rfl⟩
abbrev main_v465 : Ref sig .tc := ⟨.hbm, 885, rfl⟩
abbrev main_v466 : Ref sig .tc := ⟨.hbm, 886, rfl⟩
abbrev main_v467 : Ref sig .tc := ⟨.hbm, 887, rfl⟩
abbrev main_v468 : Ref sig .tc := ⟨.hbm, 888, rfl⟩
abbrev main_v469 : Ref sig .tc := ⟨.hbm, 889, rfl⟩
abbrev main_v470 : Ref sig .tc := ⟨.hbm, 890, rfl⟩
abbrev main_v471 : Ref sig .tc := ⟨.hbm, 891, rfl⟩
abbrev main_v472 : Ref sig .tc := ⟨.hbm, 892, rfl⟩
abbrev main_call27_cst : Ref sig .tc := ⟨.hbm, 893, rfl⟩
abbrev main_call27_v0 : Ref sig .tc := ⟨.hbm, 894, rfl⟩
abbrev main_v473 : Ref sig .tc := ⟨.hbm, 895, rfl⟩
abbrev main_c_68 : Ref sig .tc := ⟨.hbm, 896, rfl⟩
abbrev main_v474 : Ref sig .tc := ⟨.hbm, 897, rfl⟩
abbrev main_v475 : Ref sig .tc := ⟨.hbm, 898, rfl⟩
abbrev main_c_69 : Ref sig .tc := ⟨.hbm, 899, rfl⟩
abbrev main_v476 : Ref sig .tc := ⟨.hbm, 900, rfl⟩
abbrev main_v477 : Ref sig .tc := ⟨.hbm, 901, rfl⟩
abbrev main_v478 : Ref sig .tc := ⟨.hbm, 902, rfl⟩
abbrev main_v479 : Ref sig .tc := ⟨.hbm, 903, rfl⟩
abbrev main_v480 : Ref sig .tc := ⟨.hbm, 904, rfl⟩
abbrev main_v481 : Ref sig .tc := ⟨.hbm, 905, rfl⟩
abbrev main_v482 : Ref sig .tc := ⟨.hbm, 906, rfl⟩
abbrev main_v483 : Ref sig .tc := ⟨.hbm, 907, rfl⟩
abbrev main_v484 : Ref sig .tc := ⟨.hbm, 908, rfl⟩
abbrev main_v485 : Ref sig .tc := ⟨.hbm, 909, rfl⟩
abbrev main_v486 : Ref sig .tc := ⟨.hbm, 910, rfl⟩
abbrev main_v487 : Ref sig .tc := ⟨.hbm, 911, rfl⟩
abbrev main_v488 : Ref sig .tc := ⟨.hbm, 912, rfl⟩
abbrev main_v489 : Ref sig .tc := ⟨.hbm, 913, rfl⟩
abbrev main_v490 : Ref sig .tc := ⟨.hbm, 914, rfl⟩
abbrev main_v491 : Ref sig .tc := ⟨.hbm, 915, rfl⟩
abbrev main_v492 : Ref sig .tc := ⟨.hbm, 916, rfl⟩
abbrev main_v493 : Ref sig .tc := ⟨.hbm, 917, rfl⟩
abbrev main_v494 : Ref sig .tc := ⟨.hbm, 918, rfl⟩
abbrev main_c_70 : Ref sig .tc := ⟨.hbm, 919, rfl⟩
abbrev main_v495 : Ref sig .tc := ⟨.hbm, 920, rfl⟩
abbrev main_v496 : Ref sig .tc := ⟨.hbm, 921, rfl⟩
abbrev main_c_71 : Ref sig .tc := ⟨.hbm, 922, rfl⟩
abbrev main_v497 : Ref sig .tc := ⟨.hbm, 923, rfl⟩
abbrev main_v498 : Ref sig .tc := ⟨.hbm, 924, rfl⟩
abbrev main_v499 : Ref sig .tc := ⟨.hbm, 925, rfl⟩
abbrev main_v500 : Ref sig .tc := ⟨.hbm, 926, rfl⟩
abbrev main_v501 : Ref sig .tc := ⟨.hbm, 927, rfl⟩
abbrev main_v502 : Ref sig .tc := ⟨.hbm, 928, rfl⟩
abbrev main_v503 : Ref sig .tc := ⟨.hbm, 929, rfl⟩
abbrev main_v504 : Ref sig .tc := ⟨.hbm, 930, rfl⟩
abbrev main_v505 : Ref sig .tc := ⟨.hbm, 931, rfl⟩
abbrev main_v506 : Ref sig .tc := ⟨.hbm, 932, rfl⟩
abbrev main_v507 : Ref sig .tc := ⟨.hbm, 933, rfl⟩
abbrev main_v508 : Ref sig .tc := ⟨.hbm, 934, rfl⟩
abbrev main_v509 : Ref sig .tc := ⟨.hbm, 935, rfl⟩
abbrev main_cst_72 : Ref sig .tc := ⟨.hbm, 936, rfl⟩
abbrev main_v510 : Ref sig .tc := ⟨.hbm, 937, rfl⟩
abbrev main_cst_73 : Ref sig .tc := ⟨.hbm, 938, rfl⟩
abbrev main_v511 : Ref sig .tc := ⟨.hbm, 939, rfl⟩
abbrev main_v512 : Ref sig .tc := ⟨.hbm, 940, rfl⟩
abbrev main_c_74 : Ref sig .tc := ⟨.hbm, 941, rfl⟩
abbrev main_call28_cst : Ref sig .tc := ⟨.hbm, 942, rfl⟩
abbrev main_call28_v0 : Ref sig .tc := ⟨.hbm, 943, rfl⟩
abbrev main_call28_v1 : Ref sig .tc := ⟨.hbm, 944, rfl⟩
abbrev main_call28_cst_0 : Ref sig .tc := ⟨.hbm, 945, rfl⟩
abbrev main_call28_v2 : Ref sig .tc := ⟨.hbm, 946, rfl⟩
abbrev main_call28_v3 : Ref sig .tc := ⟨.hbm, 947, rfl⟩
abbrev main_call28_v4 : Ref sig .tc := ⟨.hbm, 948, rfl⟩
abbrev main_call28_v5 : Ref sig .tc := ⟨.hbm, 949, rfl⟩
abbrev main_call28_v6 : Ref sig .tc := ⟨.hbm, 950, rfl⟩
abbrev main_call28_v7 : Ref sig .tc := ⟨.hbm, 951, rfl⟩
abbrev main_call28_cst_1 : Ref sig .tc := ⟨.hbm, 952, rfl⟩
abbrev main_call28_v8 : Ref sig .tc := ⟨.hbm, 953, rfl⟩
abbrev main_call28_cst_2 : Ref sig .tc := ⟨.hbm, 954, rfl⟩
abbrev main_call28_v9 : Ref sig .tc := ⟨.hbm, 955, rfl⟩
abbrev main_call28_v10 : Ref sig .tc := ⟨.hbm, 956, rfl⟩
abbrev main_call28_v11 : Ref sig .tc := ⟨.hbm, 957, rfl⟩
abbrev main_call28_cst_3 : Ref sig .tc := ⟨.hbm, 958, rfl⟩
abbrev main_call28_v12 : Ref sig .tc := ⟨.hbm, 959, rfl⟩
abbrev main_call28_cst_4 : Ref sig .tc := ⟨.hbm, 960, rfl⟩
abbrev main_call28_call0_v0 : Ref sig .tc := ⟨.hbm, 961, rfl⟩
abbrev main_call28_call0_v1 : Ref sig .tc := ⟨.hbm, 962, rfl⟩
abbrev main_v513 : Ref sig .tc := ⟨.hbm, 963, rfl⟩
abbrev main_v514 : Ref sig .tc := ⟨.hbm, 964, rfl⟩
abbrev main_v515 : Ref sig .tc := ⟨.hbm, 965, rfl⟩
abbrev main_v516 : Ref sig .tc := ⟨.hbm, 966, rfl⟩
abbrev main_cst_75 : Ref sig .tc := ⟨.hbm, 967, rfl⟩
abbrev main_v517 : Ref sig .tc := ⟨.hbm, 968, rfl⟩
abbrev main_v518 : Ref sig .tc := ⟨.hbm, 969, rfl⟩
abbrev main_v519 : Ref sig .tc := ⟨.hbm, 970, rfl⟩
abbrev main_v520 : Ref sig .tc := ⟨.hbm, 971, rfl⟩
abbrev main_v521 : Ref sig .tc := ⟨.hbm, 972, rfl⟩
abbrev main_v522 : Ref sig .tc := ⟨.hbm, 973, rfl⟩
abbrev main_v523 : Ref sig .tc := ⟨.hbm, 974, rfl⟩
abbrev main_v524 : Ref sig .tc := ⟨.hbm, 975, rfl⟩
abbrev main_v525 : Ref sig .tc := ⟨.hbm, 976, rfl⟩
abbrev main_v526 : Ref sig .tc := ⟨.hbm, 977, rfl⟩
abbrev main_v527 : Ref sig .tc := ⟨.hbm, 978, rfl⟩
abbrev main_v528 : Ref sig .tc := ⟨.hbm, 979, rfl⟩
abbrev main_call29_cst : Ref sig .tc := ⟨.hbm, 980, rfl⟩
abbrev main_call29_v0 : Ref sig .tc := ⟨.hbm, 981, rfl⟩
abbrev main_v529 : Ref sig .tc := ⟨.hbm, 982, rfl⟩
abbrev main_v530 : Ref sig .tc := ⟨.hbm, 983, rfl⟩
abbrev main_v531 : Ref sig .tc := ⟨.hbm, 984, rfl⟩
abbrev main_v532 : Ref sig .tc := ⟨.hbm, 985, rfl⟩
abbrev main_v533 : Ref sig .tc := ⟨.hbm, 986, rfl⟩
abbrev main_v534 : Ref sig .tc := ⟨.hbm, 987, rfl⟩
abbrev main_v535 : Ref sig .tc := ⟨.hbm, 988, rfl⟩
abbrev main_v536 : Ref sig .tc := ⟨.hbm, 989, rfl⟩
abbrev main_v537 : Ref sig .tc := ⟨.hbm, 990, rfl⟩
abbrev main_cst_76 : Ref sig .tc := ⟨.hbm, 991, rfl⟩
abbrev main_v538 : Ref sig .tc := ⟨.hbm, 992, rfl⟩
abbrev main_cst_77 : Ref sig .tc := ⟨.hbm, 993, rfl⟩
abbrev main_v539 : Ref sig .tc := ⟨.hbm, 994, rfl⟩
abbrev main_v540 : Ref sig .tc := ⟨.hbm, 995, rfl⟩
abbrev main_c_78 : Ref sig .tc := ⟨.hbm, 996, rfl⟩
abbrev main_call30_cst : Ref sig .tc := ⟨.hbm, 997, rfl⟩
abbrev main_call30_v0 : Ref sig .tc := ⟨.hbm, 998, rfl⟩
abbrev main_call30_v1 : Ref sig .tc := ⟨.hbm, 999, rfl⟩
abbrev main_call30_cst_0 : Ref sig .tc := ⟨.hbm, 1000, rfl⟩
abbrev main_call30_v2 : Ref sig .tc := ⟨.hbm, 1001, rfl⟩
abbrev main_call30_v3 : Ref sig .tc := ⟨.hbm, 1002, rfl⟩
abbrev main_call30_v4 : Ref sig .tc := ⟨.hbm, 1003, rfl⟩
abbrev main_call30_v5 : Ref sig .tc := ⟨.hbm, 1004, rfl⟩
abbrev main_call30_v6 : Ref sig .tc := ⟨.hbm, 1005, rfl⟩
abbrev main_call30_v7 : Ref sig .tc := ⟨.hbm, 1006, rfl⟩
abbrev main_call30_cst_1 : Ref sig .tc := ⟨.hbm, 1007, rfl⟩
abbrev main_call30_v8 : Ref sig .tc := ⟨.hbm, 1008, rfl⟩
abbrev main_call30_cst_2 : Ref sig .tc := ⟨.hbm, 1009, rfl⟩
abbrev main_call30_v9 : Ref sig .tc := ⟨.hbm, 1010, rfl⟩
abbrev main_call30_v10 : Ref sig .tc := ⟨.hbm, 1011, rfl⟩
abbrev main_call30_v11 : Ref sig .tc := ⟨.hbm, 1012, rfl⟩
abbrev main_call30_cst_3 : Ref sig .tc := ⟨.hbm, 1013, rfl⟩
abbrev main_call30_v12 : Ref sig .tc := ⟨.hbm, 1014, rfl⟩
abbrev main_call30_cst_4 : Ref sig .tc := ⟨.hbm, 1015, rfl⟩
abbrev main_call30_call0_v0 : Ref sig .tc := ⟨.hbm, 1016, rfl⟩
abbrev main_call30_call0_v1 : Ref sig .tc := ⟨.hbm, 1017, rfl⟩
abbrev main_v541 : Ref sig .tc := ⟨.hbm, 1018, rfl⟩
abbrev main_v542 : Ref sig .tc := ⟨.hbm, 1019, rfl⟩
abbrev main_v543 : Ref sig .tc := ⟨.hbm, 1020, rfl⟩
abbrev main_v544 : Ref sig .tc := ⟨.hbm, 1021, rfl⟩
abbrev main_cst_79 : Ref sig .tc := ⟨.hbm, 1022, rfl⟩
abbrev main_v545 : Ref sig .tc := ⟨.hbm, 1023, rfl⟩
abbrev main_v546 : Ref sig .tc := ⟨.hbm, 1024, rfl⟩
abbrev main_v547 : Ref sig .tc := ⟨.hbm, 1025, rfl⟩
abbrev main_v548 : Ref sig .tc := ⟨.hbm, 1026, rfl⟩
abbrev main_v549 : Ref sig .tc := ⟨.hbm, 1027, rfl⟩
abbrev main_v550 : Ref sig .tc := ⟨.hbm, 1028, rfl⟩
abbrev main_v551 : Ref sig .tc := ⟨.hbm, 1029, rfl⟩
abbrev main_v552 : Ref sig .tc := ⟨.hbm, 1030, rfl⟩
abbrev main_v553 : Ref sig .tc := ⟨.hbm, 1031, rfl⟩
abbrev main_v554 : Ref sig .tc := ⟨.hbm, 1032, rfl⟩
abbrev main_v555 : Ref sig .tc := ⟨.hbm, 1033, rfl⟩
abbrev main_v556 : Ref sig .tc := ⟨.hbm, 1034, rfl⟩
abbrev main_cst_80 : Ref sig .tc := ⟨.hbm, 1035, rfl⟩
abbrev main_v557 : Ref sig .tc := ⟨.hbm, 1036, rfl⟩
abbrev main_c_81 : Ref sig .tc := ⟨.hbm, 1037, rfl⟩
abbrev main_v558 : Ref sig .tc := ⟨.hbm, 1038, rfl⟩
abbrev main_v559 : Ref sig .tc := ⟨.hbm, 1039, rfl⟩
abbrev main_c_82 : Ref sig .tc := ⟨.hbm, 1040, rfl⟩
abbrev main_v560 : Ref sig .tc := ⟨.hbm, 1041, rfl⟩
abbrev main_v561 : Ref sig .tc := ⟨.hbm, 1042, rfl⟩
abbrev main_v562 : Ref sig .tc := ⟨.hbm, 1043, rfl⟩
abbrev main_v563 : Ref sig .tc := ⟨.hbm, 1044, rfl⟩
abbrev main_cst_83 : Ref sig .tc := ⟨.hbm, 1045, rfl⟩
abbrev main_v564 : Ref sig .tc := ⟨.hbm, 1046, rfl⟩
abbrev main_v565 : Ref sig .tc := ⟨.hbm, 1047, rfl⟩
abbrev main_v566 : Ref sig .tc := ⟨.hbm, 1048, rfl⟩
abbrev main_v567 : Ref sig .tc := ⟨.hbm, 1049, rfl⟩
abbrev main_v568 : Ref sig .tc := ⟨.hbm, 1050, rfl⟩
abbrev main_cst_84 : Ref sig .tc := ⟨.hbm, 1051, rfl⟩
abbrev main_v569 : Ref sig .tc := ⟨.hbm, 1052, rfl⟩
abbrev main_v570 : Ref sig .tc := ⟨.hbm, 1053, rfl⟩
abbrev main_v571 : Ref sig .tc := ⟨.hbm, 1054, rfl⟩
abbrev main_v572 : Ref sig .tc := ⟨.hbm, 1055, rfl⟩
abbrev main_v573 : Ref sig .tc := ⟨.hbm, 1056, rfl⟩
abbrev main_v574 : Ref sig .tc := ⟨.hbm, 1057, rfl⟩
abbrev main_v575 : Ref sig .tc := ⟨.hbm, 1058, rfl⟩
abbrev main_v576 : Ref sig .tc := ⟨.hbm, 1059, rfl⟩
abbrev main_v577 : Ref sig .tc := ⟨.hbm, 1060, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc1_scratch0 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg1_1 : Ref sig .tc := ⟨.vmem, 17, rfl⟩
abbrev cc2_stg2_0 : Ref sig .tc := ⟨.vmem, 18, rfl⟩
abbrev cc2_scratch0 : Ref sig .tc := ⟨.vmem, 19, rfl⟩
abbrev cc3_stg0_0 : Ref sig .tc := ⟨.vmem, 20, rfl⟩
abbrev cc3_stg0_1 : Ref sig .tc := ⟨.vmem, 21, rfl⟩
abbrev cc3_stg1_0 : Ref sig .tc := ⟨.vmem, 22, rfl⟩
abbrev cc3_stg1_1 : Ref sig .tc := ⟨.vmem, 23, rfl⟩
abbrev cc3_stg2_0 : Ref sig .tc := ⟨.vmem, 24, rfl⟩
abbrev cc3_stg2_1 : Ref sig .tc := ⟨.vmem, 25, rfl⟩
abbrev cc3_scratch0 : Ref sig .tc := ⟨.vmem, 26, rfl⟩
abbrev cc4_stg0_0 : Ref sig .tc := ⟨.vmem, 27, rfl⟩
abbrev cc4_stg0_1 : Ref sig .tc := ⟨.vmem, 28, rfl⟩
abbrev cc4_stg1_0 : Ref sig .tc := ⟨.vmem, 29, rfl⟩
abbrev cc4_stg1_1 : Ref sig .tc := ⟨.vmem, 30, rfl⟩
abbrev cc4_stg2_0 : Ref sig .tc := ⟨.vmem, 31, rfl⟩
abbrev cc4_scratch0 : Ref sig .tc := ⟨.vmem, 32, rfl⟩
abbrev cc5_stg0_0 : Ref sig .tc := ⟨.vmem, 33, rfl⟩
abbrev cc5_stg0_1 : Ref sig .tc := ⟨.vmem, 34, rfl⟩
abbrev cc5_stg1_0 : Ref sig .tc := ⟨.vmem, 35, rfl⟩
abbrev cc5_stg1_1 : Ref sig .tc := ⟨.vmem, 36, rfl⟩
abbrev cc5_stg2_0 : Ref sig .tc := ⟨.vmem, 37, rfl⟩
abbrev cc5_stg2_1 : Ref sig .tc := ⟨.vmem, 38, rfl⟩
abbrev cc5_scratch0 : Ref sig .tc := ⟨.vmem, 39, rfl⟩
abbrev cc6_stg0_0 : Ref sig .tc := ⟨.vmem, 40, rfl⟩
abbrev cc6_stg0_1 : Ref sig .tc := ⟨.vmem, 41, rfl⟩
abbrev cc6_stg1_0 : Ref sig .tc := ⟨.vmem, 42, rfl⟩
abbrev cc6_stg1_1 : Ref sig .tc := ⟨.vmem, 43, rfl⟩
abbrev cc6_stg2_0 : Ref sig .tc := ⟨.vmem, 44, rfl⟩
abbrev cc6_scratch0 : Ref sig .tc := ⟨.vmem, 45, rfl⟩
abbrev cc7_stg0_0 : Ref sig .tc := ⟨.vmem, 46, rfl⟩
abbrev cc7_stg0_1 : Ref sig .tc := ⟨.vmem, 47, rfl⟩
abbrev cc7_stg1_0 : Ref sig .tc := ⟨.vmem, 48, rfl⟩
abbrev cc7_stg1_1 : Ref sig .tc := ⟨.vmem, 49, rfl⟩
abbrev cc7_stg2_0 : Ref sig .tc := ⟨.vmem, 50, rfl⟩
abbrev cc7_stg2_1 : Ref sig .tc := ⟨.vmem, 51, rfl⟩
abbrev cc7_scratch0 : Ref sig .tc := ⟨.vmem, 52, rfl⟩
abbrev cc8_stg0_0 : Ref sig .tc := ⟨.vmem, 53, rfl⟩
abbrev cc8_stg0_1 : Ref sig .tc := ⟨.vmem, 54, rfl⟩
abbrev cc8_stg1_0 : Ref sig .tc := ⟨.vmem, 55, rfl⟩
abbrev cc8_stg1_1 : Ref sig .tc := ⟨.vmem, 56, rfl⟩
abbrev cc8_stg2_0 : Ref sig .tc := ⟨.vmem, 57, rfl⟩
abbrev cc8_scratch0 : Ref sig .tc := ⟨.vmem, 58, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc3_sem0_0 : DmaSem sig := 17
abbrev cc3_sem0_1 : DmaSem sig := 18
abbrev cc3_sem1_0 : DmaSem sig := 19
abbrev cc3_sem1_1 : DmaSem sig := 20
abbrev cc3_sem2_0 : DmaSem sig := 21
abbrev cc3_sem2_1 : DmaSem sig := 22
abbrev cc4_sem0_0 : DmaSem sig := 23
abbrev cc4_sem0_1 : DmaSem sig := 24
abbrev cc4_sem1_0 : DmaSem sig := 25
abbrev cc4_sem1_1 : DmaSem sig := 26
abbrev cc4_sem2_0 : DmaSem sig := 27
abbrev cc5_sem0_0 : DmaSem sig := 28
abbrev cc5_sem0_1 : DmaSem sig := 29
abbrev cc5_sem1_0 : DmaSem sig := 30
abbrev cc5_sem1_1 : DmaSem sig := 31
abbrev cc5_sem2_0 : DmaSem sig := 32
abbrev cc5_sem2_1 : DmaSem sig := 33
abbrev cc6_sem0_0 : DmaSem sig := 34
abbrev cc6_sem0_1 : DmaSem sig := 35
abbrev cc6_sem1_0 : DmaSem sig := 36
abbrev cc6_sem1_1 : DmaSem sig := 37
abbrev cc6_sem2_0 : DmaSem sig := 38
abbrev cc7_sem0_0 : DmaSem sig := 39
abbrev cc7_sem0_1 : DmaSem sig := 40
abbrev cc7_sem1_0 : DmaSem sig := 41
abbrev cc7_sem1_1 : DmaSem sig := 42
abbrev cc7_sem2_0 : DmaSem sig := 43
abbrev cc7_sem2_1 : DmaSem sig := 44
abbrev cc8_sem0_0 : DmaSem sig := 45
abbrev cc8_sem0_1 : DmaSem sig := 46
abbrev cc8_sem1_0 : DmaSem sig := 47
abbrev cc8_sem1_1 : DmaSem sig := 48
abbrev cc8_sem2_0 : DmaSem sig := 49

abbrev nD : Nat := 1
abbrev τ : Topo := Topo.v7x

variable {F : FTy → Type} [FloatOps F]

abbrev grid0 : Pipeline.Grid := ⟨2, ![10, 20], ![false, false]⟩

def k0_cond2 (i : grid0.Coords) : BitVec 1 :=
  let arg1 : BitVec 32 := BitVec.ofNat 32 (i 1).val
  let c19_i32 : BitVec 32 := 19#32
  let v23 : BitVec 1 := Scalar.cmpi .eq arg1 c19_i32
  let v24 : BitVec 32 := Scalar.extui v23
  let c0_i32_8 : BitVec 32 := 0#32
  let v25 : BitVec 1 := Scalar.cmpi .ne v24 c0_i32_8
  v25

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S8000x1 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S8000x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev grid1 : Pipeline.Grid := ⟨2, ![10, 20], ![false, false]⟩

def k1_cond2 (i : grid1.Coords) : BitVec 1 :=
  let arg1 : BitVec 32 := BitVec.ofNat 32 (i 1).val
  let c19_i32 : BitVec 32 := 19#32
  let v23 : BitVec 1 := Scalar.cmpi .eq arg1 c19_i32
  let v24 : BitVec 32 := Scalar.extui v23
  let c0_i32_8 : BitVec 32 := 0#32
  let v25 : BitVec 1 := Scalar.cmpi .ne v24 c0_i32_8
  v25

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S8000x1 .i32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true]

abbrev stage1_1 : Fin 2 → Memref sig .tc .vmem S8000x300 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1024x300 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev grid2 : Pipeline.Grid := ⟨2, ![1, 5], ![false, false]⟩

def k2_cond2 (i : grid2.Coords) : BitVec 1 :=
  let arg1 : BitVec 32 := BitVec.ofNat 32 (i 1).val
  let c4_i32 : BitVec 32 := 4#32
  let v23 : BitVec 1 := Scalar.cmpi .eq arg1 c4_i32
  let v24 : BitVec 32 := Scalar.extui v23
  let c0_i32_8 : BitVec 32 := 0#32
  let v25 : BitVec 1 := Scalar.cmpi .ne v24 c0_i32_8
  v25

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage2_0 : Fin 2 → Memref sig .tc .vmem S2000x1 .i32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![false, true]

abbrev stage2_1 : Fin 2 → Memref sig .tc .vmem S2000x300 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 1 → Memref sig .tc .vmem S64x300 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![true, false]

abbrev grid3 : Pipeline.Grid := ⟨2, ![10, 20], ![false, false]⟩

def k3_cond2 (i : grid3.Coords) : BitVec 1 :=
  let arg1 : BitVec 32 := BitVec.ofNat 32 (i 1).val
  let c19_i32 : BitVec 32 := 19#32
  let v23 : BitVec 1 := Scalar.cmpi .eq arg1 c19_i32
  let v24 : BitVec 32 := Scalar.extui v23
  let c0_i32_8 : BitVec 32 := 0#32
  let v25 : BitVec 1 := Scalar.cmpi .ne v24 c0_i32_8
  v25

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage3_0 : Fin 2 → Memref sig .tc .vmem S8000x1 .i32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![false, true]

abbrev stage3_1 : Fin 2 → Memref sig .tc .vmem S8000x300 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true]

abbrev stage3_2 : Fin 2 → Memref sig .tc .vmem S1024x300 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, false]

abbrev grid4 : Pipeline.Grid := ⟨2, ![1, 5], ![false, false]⟩

def k4_cond2 (i : grid4.Coords) : BitVec 1 :=
  let arg1 : BitVec 32 := BitVec.ofNat 32 (i 1).val
  let c4_i32 : BitVec 32 := 4#32
  let v23 : BitVec 1 := Scalar.cmpi .eq arg1 c4_i32
  let v24 : BitVec 32 := Scalar.extui v23
  let c0_i32_8 : BitVec 32 := 0#32
  let v25 : BitVec 1 := Scalar.cmpi .ne v24 c0_i32_8
  v25

def cc4_transform_0 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc4_transform_1 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc4_transform_2 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage4_0 : Fin 2 → Memref sig .tc .vmem S2000x1 .i32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![false, true]

abbrev stage4_1 : Fin 2 → Memref sig .tc .vmem S2000x300 .bf16 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![false, true]

abbrev stage4_2 : Fin 1 → Memref sig .tc .vmem S64x300 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![true, false]

abbrev grid5 : Pipeline.Grid := ⟨2, ![10, 20], ![false, false]⟩

def k5_cond2 (i : grid5.Coords) : BitVec 1 :=
  let arg1 : BitVec 32 := BitVec.ofNat 32 (i 1).val
  let c19_i32 : BitVec 32 := 19#32
  let v23 : BitVec 1 := Scalar.cmpi .eq arg1 c19_i32
  let v24 : BitVec 32 := Scalar.extui v23
  let c0_i32_8 : BitVec 32 := 0#32
  let v25 : BitVec 1 := Scalar.cmpi .ne v24 c0_i32_8
  v25

def cc5_transform_0 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc5_transform_1 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc5_transform_2 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage5_0 : Fin 2 → Memref sig .tc .vmem S8000x1 .i32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![false, true]

abbrev stage5_1 : Fin 2 → Memref sig .tc .vmem S8000x300 .bf16 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![false, true]

abbrev stage5_2 : Fin 2 → Memref sig .tc .vmem S1024x300 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true, false]

abbrev grid6 : Pipeline.Grid := ⟨2, ![1, 5], ![false, false]⟩

def k6_cond2 (i : grid6.Coords) : BitVec 1 :=
  let arg1 : BitVec 32 := BitVec.ofNat 32 (i 1).val
  let c4_i32 : BitVec 32 := 4#32
  let v23 : BitVec 1 := Scalar.cmpi .eq arg1 c4_i32
  let v24 : BitVec 32 := Scalar.extui v23
  let c0_i32_8 : BitVec 32 := 0#32
  let v25 : BitVec 1 := Scalar.cmpi .ne v24 c0_i32_8
  v25

def cc6_transform_0 (i : grid6.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc6_transform_1 (i : grid6.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc6_transform_2 (i : grid6.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage6_0 : Fin 2 → Memref sig .tc .vmem S2000x1 .i32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![false, true]

abbrev stage6_1 : Fin 2 → Memref sig .tc .vmem S2000x300 .bf16 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![false, true]

abbrev stage6_2 : Fin 1 → Memref sig .tc .vmem S64x300 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![true, false]

abbrev grid7 : Pipeline.Grid := ⟨2, ![10, 20], ![false, false]⟩

def k7_cond2 (i : grid7.Coords) : BitVec 1 :=
  let arg1 : BitVec 32 := BitVec.ofNat 32 (i 1).val
  let c19_i32 : BitVec 32 := 19#32
  let v23 : BitVec 1 := Scalar.cmpi .eq arg1 c19_i32
  let v24 : BitVec 32 := Scalar.extui v23
  let c0_i32_8 : BitVec 32 := 0#32
  let v25 : BitVec 1 := Scalar.cmpi .ne v24 c0_i32_8
  v25

def cc7_transform_0 (i : grid7.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc7_transform_1 (i : grid7.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc7_transform_2 (i : grid7.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage7_0 : Fin 2 → Memref sig .tc .vmem S8000x1 .i32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![false, true]

abbrev stage7_1 : Fin 2 → Memref sig .tc .vmem S8000x300 .bf16 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![false, true]

abbrev stage7_2 : Fin 2 → Memref sig .tc .vmem S1024x300 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true, false]

abbrev grid8 : Pipeline.Grid := ⟨2, ![1, 5], ![false, false]⟩

def k8_cond2 (i : grid8.Coords) : BitVec 1 :=
  let arg1 : BitVec 32 := BitVec.ofNat 32 (i 1).val
  let c4_i32 : BitVec 32 := 4#32
  let v23 : BitVec 1 := Scalar.cmpi .eq arg1 c4_i32
  let v24 : BitVec 32 := Scalar.extui v23
  let c0_i32_8 : BitVec 32 := 0#32
  let v25 : BitVec 1 := Scalar.cmpi .ne v24 c0_i32_8
  v25

def cc8_transform_0 (i : grid8.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc8_transform_1 (i : grid8.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc8_transform_2 (i : grid8.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage8_0 : Fin 2 → Memref sig .tc .vmem S2000x1 .i32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![false, true]

abbrev stage8_1 : Fin 2 → Memref sig .tc .vmem S2000x300 .bf16 := fun | 0 => Memref.whole cc8_stg1_0 | 1 => Memref.whole cc8_stg1_1 | ⟨_ + 2, h⟩ => absurd h (Nat.not_lt.2 (Nat.le_add_left _ _))
abbrev sem8_1 : Fin 2 → DmaSem sig := fun | 0 => cc8_sem1_0 | 1 => cc8_sem1_1 | ⟨_ + 2, h⟩ => absurd h (Nat.not_lt.2 (Nat.le_add_left _ _))
abbrev reads8_1 : Fin grid8.rank → Bool := ![false, true]

abbrev stage8_2 : Fin 1 → Memref sig .tc .vmem S64x300 .f32 := fun | 0 => Memref.whole cc8_stg2_0 | ⟨_ + 1, h⟩ => absurd h (Nat.not_lt.2 (Nat.le_add_left _ _))
abbrev sem8_2 : Fin 1 → DmaSem sig := fun | 0 => cc8_sem2_0 | ⟨_ + 1, h⟩ => absurd h (Nat.not_lt.2 (Nat.le_add_left _ _))
abbrev reads8_2 : Fin grid8.rank → Bool := ![true, false]

class Facts₀ : Prop where
  slices_S2x160000_S1x160000_0_0 : S2x160000.Slices ![0, 0] S1x160000
  shapeCasts_S1x160000_S160000 : S1x160000.ShapeCasts S160000
  slices_S2x160000_S1x160000_1_0 : S2x160000.Slices ![1, 0] S1x160000
  shapeCasts_S1x300_S300 : S1x300.ShapeCasts S300
  bcast_S300_S64x300_1 : S300.BroadcastsInDim S64x300 (![1] : Fin 1 → Fin S64x300.rank)
  bitsLt_bf16_f32 : FTy.bits .bf16 < FTy.bits .f32
  bcast_S_S160000 : S_.BroadcastsInDim S160000 (![] : Fin 0 → Fin S160000.rank)
  bcast_S160000_S160000x1_0 : S160000.BroadcastsInDim S160000x1 (![0] : Fin 1 → Fin S160000x1.rank)
  shapeCasts_S160000_S160000x1 : S160000.ShapeCasts S160000x1
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  iota_S1x1024_d1_w32 : S1x1024.Iotas .tc 32 [1]
  inb_S8000x1_S8000x1_0_0 : ∀ a, (![0, 0] : Fin 2 → Nat) a + S8000x1.size a ≤ S8000x1.size a
  h_S8000x1 : 0 < S8000x1.numel
  shapeCasts_S8000x1_S8000x1 : S8000x1.ShapeCasts S8000x1
  broadcasts_S8000x1_S8000x1024 : S8000x1.Broadcasts S8000x1024
  broadcasts_S1x1024_S8000x1024 : S1x1024.Broadcasts S8000x1024
  natLt_1_32 : 1 < 32
  inb_S8000x128_S8000x128_0_0 : ∀ a, (![0, 0] : Fin 2 → Nat) a + S8000x128.size a ≤ S8000x128.size a
  h_S8000x128 : 0 < S8000x128.numel
  shapeCasts_S8000x128_S8000x128 : S8000x128.ShapeCasts S8000x128
  slices_S10240x128_S10000x128_0_0 : S10240x128.Slices ![0, 0] S10000x128
  bcast_S600_S1x600_1 : S600.BroadcastsInDim S1x600 (![1] : Fin 1 → Fin S1x600.rank)
  bcast_S1x600_S10000x600_0_1 : S1x600.BroadcastsInDim S10000x600 (![0, 1] : Fin 2 → Fin S10000x600.rank)
  reducesTo_S10000x600_S600_d0 : S10000x600.ReducesTo [0] S600
  h_S_ : 0 < S_.numel
  bcast_S_S600 : S_.BroadcastsInDim S600 (![] : Fin 0 → Fin S600.rank)
  bcast_S_S1x600 : S_.BroadcastsInDim S1x600 (![] : Fin 0 → Fin S1x600.rank)
  bcast_S_S10000x600 : S_.BroadcastsInDim S10000x600 (![] : Fin 0 → Fin S10000x600.rank)
  bcast_S300_S1x300_1 : S300.BroadcastsInDim S1x300 (![1] : Fin 1 → Fin S1x300.rank)
  bcast_S1x300_S10000x300_0_1 : S1x300.BroadcastsInDim S10000x300 (![0, 1] : Fin 2 → Fin S10000x300.rank)
  reducesTo_S10000x300_S300_d0 : S10000x300.ReducesTo [0] S300
  bcast_S_S300 : S_.BroadcastsInDim S300 (![] : Fin 0 → Fin S300.rank)
  bcast_S_S1x300 : S_.BroadcastsInDim S1x300 (![] : Fin 0 → Fin S1x300.rank)
  bcast_S_S10000x300 : S_.BroadcastsInDim S10000x300 (![] : Fin 0 → Fin S10000x300.rank)
  bcast_S_S10000 : S_.BroadcastsInDim S10000 (![] : Fin 0 → Fin S10000.rank)
  bcast_S10000_S10000x1_0 : S10000.BroadcastsInDim S10000x1 (![0] : Fin 1 → Fin S10000x1.rank)
  slices_S4x300x600_S1x300x600_0_0_0 : S4x300x600.Slices ![0, 0, 0] S1x300x600
  shapeCasts_S1x300x600_S300x600 : S1x300x600.ShapeCasts S300x600
  slices_S4x600_S1x600_0_0 : S4x600.Slices ![0, 0] S1x600
  shapeCasts_S1x600_S600 : S1x600.ShapeCasts S600
  slices_S4x600x300_S1x600x300_0_0_0 : S4x600x300.Slices ![0, 0, 0] S1x600x300
  shapeCasts_S1x600x300_S600x300 : S1x600x300.ShapeCasts S600x300
  slices_S4x300_S1x300_0_0 : S4x300.Slices ![0, 0] S1x300
  inb_S1024x300_S1024x300_0_0 : ∀ a, (![0, 0] : Fin 2 → Nat) a + S1024x300.size a ≤ S1024x300.size a
  h_S1024x300 : 0 < S1024x300.numel
  shapeCasts_S1024x300_S1024x300 : S1024x300.ShapeCasts S1024x300
  inb_S8000x300_S8000x300_0_0 : ∀ a, (![0, 0] : Fin 2 → Nat) a + S8000x300.size a ≤ S8000x300.size a
  h_S8000x300 : 0 < S8000x300.numel
  shapeCasts_S8000x300_S8000x300 : S8000x300.ShapeCasts S8000x300
  slices_S10240x300_S10000x300_0_0 : S10240x300.Slices ![0, 0] S10000x300
  shapeCasts_S10000_S10000x1 : S10000.ShapeCasts S10000x1
  inb_S64x300_S64x300_0_0 : ∀ a, (![0, 0] : Fin 2 → Nat) a + S64x300.size a ≤ S64x300.size a
  h_S64x300 : 0 < S64x300.numel
  shapeCasts_S64x300_S64x300 : S64x300.ShapeCasts S64x300
  iota_S1x64_d1_w32 : S1x64.Iotas .tc 32 [1]
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x64 : S2000x1.Broadcasts S2000x64
  broadcasts_S1x64_S2000x64 : S1x64.Broadcasts S2000x64
  inb_S2000x300_S2000x300_0_0 : ∀ a, (![0, 0] : Fin 2 → Nat) a + S2000x300.size a ≤ S2000x300.size a
  h_S2000x300 : 0 < S2000x300.numel
  shapeCasts_S2000x300_S2000x300 : S2000x300.ShapeCasts S2000x300
  bcast_S1x600_S64x600_0_1 : S1x600.BroadcastsInDim S64x600 (![0, 1] : Fin 2 → Fin S64x600.rank)
  reducesTo_S64x600_S600_d0 : S64x600.ReducesTo [0] S600
  bcast_S_S64x600 : S_.BroadcastsInDim S64x600 (![] : Fin 0 → Fin S64x600.rank)
  bcast_S1x300_S64x300_0_1 : S1x300.BroadcastsInDim S64x300 (![0, 1] : Fin 2 → Fin S64x300.rank)
  reducesTo_S64x300_S300_d0 : S64x300.ReducesTo [0] S300
  bcast_S_S64x300 : S_.BroadcastsInDim S64x300 (![] : Fin 0 → Fin S64x300.rank)
  slices_S4x300x600_S1x300x600_1_0_0 : S4x300x600.Slices ![1, 0, 0] S1x300x600
  slices_S4x600_S1x600_1_0 : S4x600.Slices ![1, 0] S1x600
  slices_S4x600x300_S1x600x300_1_0_0 : S4x600x300.Slices ![1, 0, 0] S1x600x300
  slices_S4x300_S1x300_1_0 : S4x300.Slices ![1, 0] S1x300
  slices_S4x300x600_S1x300x600_2_0_0 : S4x300x600.Slices ![2, 0, 0] S1x300x600
  slices_S4x600_S1x600_2_0 : S4x600.Slices ![2, 0] S1x600
  slices_S4x600x300_S1x600x300_2_0_0 : S4x600x300.Slices ![2, 0, 0] S1x600x300
  slices_S4x300_S1x300_2_0 : S4x300.Slices ![2, 0] S1x300
  slices_S4x300x600_S1x300x600_3_0_0 : S4x300x600.Slices ![3, 0, 0] S1x300x600
  slices_S4x600_S1x600_3_0 : S4x600.Slices ![3, 0] S1x600
  slices_S4x600x300_S1x600x300_3_0_0 : S4x600x300.Slices ![3, 0, 0] S1x600x300
  slices_S4x300_S1x300_3_0 : S4x300.Slices ![3, 0] S1x300
  bcast_S_S64 : S_.BroadcastsInDim S64 (![] : Fin 0 → Fin S64.rank)
  bcast_S64_S64x1_0 : S64.BroadcastsInDim S64x1 (![0] : Fin 1 → Fin S64x1.rank)
  bcast_S64x1_S64x300_0_1 : S64x1.BroadcastsInDim S64x300 (![0, 1] : Fin 2 → Fin S64x300.rank)
  bcast_S10_S1x10_1 : S10.BroadcastsInDim S1x10 (![1] : Fin 1 → Fin S1x10.rank)
  bcast_S1x10_S64x10_0_1 : S1x10.BroadcastsInDim S64x10 (![0, 1] : Fin 2 → Fin S64x10.rank)
  gather_S10000x128_S160000x1_S160000x128_1_0_n_n_0_1_1128_wf : GatherDims.WF S10000x128 S160000x1 S160000x128 [1] [0] [] [0] [] 1 ![1, 128]
  dot_S8000x1024_S8000x128_S1024x128_0_0_1_1_n_n_wf : DotDims.WF S8000x1024 S8000x128 S1024x128 [0] [0] [1] [1] [] []
  dot_S10000x128_S128x600_S10000x600_1_0_0_1_n_n_wf : DotDims.WF S10000x128 S128x600 S10000x600 [1] [0] [0] [1] [] []
  dot_S10000x600_S600x300_S10000x300_1_0_0_1_n_n_wf : DotDims.WF S10000x600 S600x300 S10000x300 [1] [0] [0] [1] [] []
  gather_S64x300_S10000x1_S10000x300_1_0_n_n_0_1_1300_wf : GatherDims.WF S64x300 S10000x1 S10000x300 [1] [0] [] [0] [] 1 ![1, 300]
  gather_S10000x300_S160000x1_S160000x300_1_0_n_n_0_1_1300_wf : GatherDims.WF S10000x300 S160000x1 S160000x300 [1] [0] [] [0] [] 1 ![1, 300]
  dot_S8000x1024_S8000x300_S1024x300_0_0_1_1_n_n_wf : DotDims.WF S8000x1024 S8000x300 S1024x300 [0] [0] [1] [1] [] []
  dot_S10000x300_S300x600_S10000x600_1_0_0_1_n_n_wf : DotDims.WF S10000x300 S300x600 S10000x600 [1] [0] [0] [1] [] []
  dot_S2000x64_S2000x300_S64x300_0_0_1_1_n_n_wf : DotDims.WF S2000x64 S2000x300 S64x300 [0] [0] [1] [1] [] []
  dot_S64x300_S300x600_S64x600_1_0_0_1_n_n_wf : DotDims.WF S64x300 S300x600 S64x600 [1] [0] [0] [1] [] []
  dot_S64x600_S600x300_S64x300_1_0_0_1_n_n_wf : DotDims.WF S64x600 S600x300 S64x300 [1] [0] [0] [1] [] []
  scatter_S64_S10000x1_S10000_n_0_0_1_wf : ScatterDims.WF S64 S10000x1 S10000 [] [0] [0] 1
  dot_S64x300_S300x10_S64x10_1_0_0_1_n_n_wf : DotDims.WF S64x300 S300x10 S64x10 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8000x1.size a ≤ S160000x1.size a
  hwx0_0 : ∀ i : grid0.Coords, EltTy.bits .i32 = 32 ∨ (Rect.block (s := S160000x1) S8000x1.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8000x128.size a ≤ S160000x128.size a
  hwx0_1 : ∀ i : grid0.Coords, EltTy.bits .bf16 = 32 ∨ (Rect.block (s := S160000x128) S8000x128.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x128.size a ≤ S10240x128.size a
  hwx0_2 : ∀ i : grid0.Coords, EltTy.bits .f32 = 32 ∨ (Rect.block (s := S10240x128) S1024x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8000x1.size a ≤ S160000x1.size a
  hwx1_0 : ∀ i : grid1.Coords, EltTy.bits .i32 = 32 ∨ (Rect.block (s := S160000x1) S8000x1.size (cc1_transform_0 i) (hinb1_0 i)).WholeWords (EltTy.packing .i32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S8000x300.size a ≤ S160000x300.size a
  hwx1_1 : ∀ i : grid1.Coords, EltTy.bits .bf16 = 32 ∨ (Rect.block (s := S160000x300) S8000x300.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x300.size a ≤ S10240x300.size a
  hwx1_2 : ∀ i : grid1.Coords, EltTy.bits .f32 = 32 ∨ (Rect.block (s := S10240x300) S1024x300.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x1.size a ≤ S10000x1.size a
  hwx2_0 : ∀ i : grid2.Coords, EltTy.bits .i32 = 32 ∨ (Rect.block (s := S10000x1) S2000x1.size (cc2_transform_0 i) (hinb2_0 i)).WholeWords (EltTy.packing .i32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x300.size a ≤ S10000x300.size a
  hwx2_1 : ∀ i : grid2.Coords, EltTy.bits .bf16 = 32 ∨ (Rect.block (s := S10000x300) S2000x300.size (cc2_transform_1 i) (hinb2_1 i)).WholeWords (EltTy.packing .bf16)
  hstage2_2 : ∀ j, (stage2_2 j).IsWhole
  nbuf2_2 : grid2.bufCount reads2_2 false = 1
  hreads2_2 : ∀ i i' : grid2.Coords, (∀ a, reads2_2 a = true → i a = i' a) → cc2_transform_2 i = cc2_transform_2 i'
  hinb2_2 : ∀ (i : grid2.Coords) a, (cc2_transform_2 i a + 1) * S64x300.size a ≤ S64x300.size a
  hwx2_2 : ∀ i : grid2.Coords, EltTy.bits .f32 = 32 ∨ (Rect.block (s := S64x300) S64x300.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S8000x1.size a ≤ S160000x1.size a
  hwx3_0 : ∀ i : grid3.Coords, EltTy.bits .i32 = 32 ∨ (Rect.block (s := S160000x1) S8000x1.size (cc3_transform_0 i) (hinb3_0 i)).WholeWords (EltTy.packing .i32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S8000x300.size a ≤ S160000x300.size a
  hwx3_1 : ∀ i : grid3.Coords, EltTy.bits .bf16 = 32 ∨ (Rect.block (s := S160000x300) S8000x300.size (cc3_transform_1 i) (hinb3_1 i)).WholeWords (EltTy.packing .bf16)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S1024x300.size a ≤ S10240x300.size a
  hwx3_2 : ∀ i : grid3.Coords, EltTy.bits .f32 = 32 ∨ (Rect.block (s := S10240x300) S1024x300.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x1.size a ≤ S10000x1.size a
  hwx4_0 : ∀ i : grid4.Coords, EltTy.bits .i32 = 32 ∨ (Rect.block (s := S10000x1) S2000x1.size (cc4_transform_0 i) (hinb4_0 i)).WholeWords (EltTy.packing .i32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S2000x300.size a ≤ S10000x300.size a
  hwx4_1 : ∀ i : grid4.Coords, EltTy.bits .bf16 = 32 ∨ (Rect.block (s := S10000x300) S2000x300.size (cc4_transform_1 i) (hinb4_1 i)).WholeWords (EltTy.packing .bf16)
  hstage4_2 : ∀ j, (stage4_2 j).IsWhole
  nbuf4_2 : grid4.bufCount reads4_2 false = 1
  hreads4_2 : ∀ i i' : grid4.Coords, (∀ a, reads4_2 a = true → i a = i' a) → cc4_transform_2 i = cc4_transform_2 i'
  hinb4_2 : ∀ (i : grid4.Coords) a, (cc4_transform_2 i a + 1) * S64x300.size a ≤ S64x300.size a
  hwx4_2 : ∀ i : grid4.Coords, EltTy.bits .f32 = 32 ∨ (Rect.block (s := S64x300) S64x300.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S8000x1.size a ≤ S160000x1.size a
  hwx5_0 : ∀ i : grid5.Coords, EltTy.bits .i32 = 32 ∨ (Rect.block (s := S160000x1) S8000x1.size (cc5_transform_0 i) (hinb5_0 i)).WholeWords (EltTy.packing .i32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S8000x300.size a ≤ S160000x300.size a
  hwx5_1 : ∀ i : grid5.Coords, EltTy.bits .bf16 = 32 ∨ (Rect.block (s := S160000x300) S8000x300.size (cc5_transform_1 i) (hinb5_1 i)).WholeWords (EltTy.packing .bf16)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S1024x300.size a ≤ S10240x300.size a
  hwx5_2 : ∀ i : grid5.Coords, EltTy.bits .f32 = 32 ∨ (Rect.block (s := S10240x300) S1024x300.size (cc5_transform_2 i) (hinb5_2 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S2000x1.size a ≤ S10000x1.size a
  hwx6_0 : ∀ i : grid6.Coords, EltTy.bits .i32 = 32 ∨ (Rect.block (s := S10000x1) S2000x1.size (cc6_transform_0 i) (hinb6_0 i)).WholeWords (EltTy.packing .i32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S2000x300.size a ≤ S10000x300.size a
  hwx6_1 : ∀ i : grid6.Coords, EltTy.bits .bf16 = 32 ∨ (Rect.block (s := S10000x300) S2000x300.size (cc6_transform_1 i) (hinb6_1 i)).WholeWords (EltTy.packing .bf16)
  hstage6_2 : ∀ j, (stage6_2 j).IsWhole
  nbuf6_2 : grid6.bufCount reads6_2 false = 1
  hreads6_2 : ∀ i i' : grid6.Coords, (∀ a, reads6_2 a = true → i a = i' a) → cc6_transform_2 i = cc6_transform_2 i'
  hinb6_2 : ∀ (i : grid6.Coords) a, (cc6_transform_2 i a + 1) * S64x300.size a ≤ S64x300.size a
  hwx6_2 : ∀ i : grid6.Coords, EltTy.bits .f32 = 32 ∨ (Rect.block (s := S64x300) S64x300.size (cc6_transform_2 i) (hinb6_2 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S8000x1.size a ≤ S160000x1.size a
  hwx7_0 : ∀ i : grid7.Coords, EltTy.bits .i32 = 32 ∨ (Rect.block (s := S160000x1) S8000x1.size (cc7_transform_0 i) (hinb7_0 i)).WholeWords (EltTy.packing .i32)
  hstage7_1 : ∀ j, (stage7_1 j).IsWhole
  nbuf7_1 : grid7.bufCount reads7_1 false = 2
  hreads7_1 : ∀ i i' : grid7.Coords, (∀ a, reads7_1 a = true → i a = i' a) → cc7_transform_1 i = cc7_transform_1 i'
  hinb7_1 : ∀ (i : grid7.Coords) a, (cc7_transform_1 i a + 1) * S8000x300.size a ≤ S160000x300.size a
  hwx7_1 : ∀ i : grid7.Coords, EltTy.bits .bf16 = 32 ∨ (Rect.block (s := S160000x300) S8000x300.size (cc7_transform_1 i) (hinb7_1 i)).WholeWords (EltTy.packing .bf16)
  hstage7_2 : ∀ j, (stage7_2 j).IsWhole
  nbuf7_2 : grid7.bufCount reads7_2 false = 2
  hreads7_2 : ∀ i i' : grid7.Coords, (∀ a, reads7_2 a = true → i a = i' a) → cc7_transform_2 i = cc7_transform_2 i'
  hinb7_2 : ∀ (i : grid7.Coords) a, (cc7_transform_2 i a + 1) * S1024x300.size a ≤ S10240x300.size a
  hwx7_2 : ∀ i : grid7.Coords, EltTy.bits .f32 = 32 ∨ (Rect.block (s := S10240x300) S1024x300.size (cc7_transform_2 i) (hinb7_2 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S2000x1.size a ≤ S10000x1.size a
  hwx8_0 : ∀ i : grid8.Coords, EltTy.bits .i32 = 32 ∨ (Rect.block (s := S10000x1) S2000x1.size (cc8_transform_0 i) (hinb8_0 i)).WholeWords (EltTy.packing .i32)
  hstage8_1 : ∀ j, (stage8_1 j).IsWhole
  nbuf8_1 : grid8.bufCount reads8_1 false = 2
  hreads8_1 : ∀ i i' : grid8.Coords, (∀ a, reads8_1 a = true → i a = i' a) → cc8_transform_1 i = cc8_transform_1 i'
  hinb8_1 : ∀ (i : grid8.Coords) a, (cc8_transform_1 i a + 1) * S2000x300.size a ≤ S10000x300.size a
  hwx8_1 : ∀ i : grid8.Coords, EltTy.bits .bf16 = 32 ∨ (Rect.block (s := S10000x300) S2000x300.size (cc8_transform_1 i) (hinb8_1 i)).WholeWords (EltTy.packing .bf16)
  hstage8_2 : ∀ j, (stage8_2 j).IsWhole
  nbuf8_2 : grid8.bufCount reads8_2 false = 1
  hreads8_2 : ∀ i i' : grid8.Coords, (∀ a, reads8_2 a = true → i a = i' a) → cc8_transform_2 i = cc8_transform_2 i'
  hinb8_2 : ∀ (i : grid8.Coords) a, (cc8_transform_2 i a + 1) * S64x300.size a ≤ S64x300.size a
  hwx8_2 : ∀ i : grid8.Coords, EltTy.bits .f32 = 32 ∨ (Rect.block (s := S64x300) S64x300.size (cc8_transform_2 i) (hinb8_2 i)).WholeWords (EltTy.packing .f32)

variable [Facts₀]

def gather_S10000x128_S160000x1_S160000x128_1_0_n_n_0_1_1128 : GatherDims S10000x128 S160000x1 S160000x128 where
  offsetDims := [1]
  collapsedSliceDims := [0]
  operandBatchingDims := []
  startIndicesBatchingDims := []
  startIndexMap := [0]
  indexVectorDim := 1
  sliceSizes := ![1, 128]
  wf := gather_S10000x128_S160000x1_S160000x128_1_0_n_n_0_1_1128_wf
def dot_S8000x1024_S8000x128_S1024x128_0_0_1_1_n_n : DotDims S8000x1024 S8000x128 S1024x128 where
  lhsContracting := [0]
  rhsContracting := [0]
  lhsNonContracting := [1]
  rhsNonContracting := [1]
  lhsBatch := []
  rhsBatch := []
  wf := dot_S8000x1024_S8000x128_S1024x128_0_0_1_1_n_n_wf
def dot_S10000x128_S128x600_S10000x600_1_0_0_1_n_n : DotDims S10000x128 S128x600 S10000x600 where
  lhsContracting := [1]
  rhsContracting := [0]
  lhsNonContracting := [0]
  rhsNonContracting := [1]
  lhsBatch := []
  rhsBatch := []
  wf := dot_S10000x128_S128x600_S10000x600_1_0_0_1_n_n_wf
def dot_S10000x600_S600x300_S10000x300_1_0_0_1_n_n : DotDims S10000x600 S600x300 S10000x300 where
  lhsContracting := [1]
  rhsContracting := [0]
  lhsNonContracting := [0]
  rhsNonContracting := [1]
  lhsBatch := []
  rhsBatch := []
  wf := dot_S10000x600_S600x300_S10000x300_1_0_0_1_n_n_wf
def gather_S64x300_S10000x1_S10000x300_1_0_n_n_0_1_1300 : GatherDims S64x300 S10000x1 S10000x300 where
  offsetDims := [1]
  collapsedSliceDims := [0]
  operandBatchingDims := []
  startIndicesBatchingDims := []
  startIndexMap := [0]
  indexVectorDim := 1
  sliceSizes := ![1, 300]
  wf := gather_S64x300_S10000x1_S10000x300_1_0_n_n_0_1_1300_wf
def gather_S10000x300_S160000x1_S160000x300_1_0_n_n_0_1_1300 : GatherDims S10000x300 S160000x1 S160000x300 where
  offsetDims := [1]
  collapsedSliceDims := [0]
  operandBatchingDims := []
  startIndicesBatchingDims := []
  startIndexMap := [0]
  indexVectorDim := 1
  sliceSizes := ![1, 300]
  wf := gather_S10000x300_S160000x1_S160000x300_1_0_n_n_0_1_1300_wf
def dot_S8000x1024_S8000x300_S1024x300_0_0_1_1_n_n : DotDims S8000x1024 S8000x300 S1024x300 where
  lhsContracting := [0]
  rhsContracting := [0]
  lhsNonContracting := [1]
  rhsNonContracting := [1]
  lhsBatch := []
  rhsBatch := []
  wf := dot_S8000x1024_S8000x300_S1024x300_0_0_1_1_n_n_wf
def dot_S10000x300_S300x600_S10000x600_1_0_0_1_n_n : DotDims S10000x300 S300x600 S10000x600 where
  lhsContracting := [1]
  rhsContracting := [0]
  lhsNonContracting := [0]
  rhsNonContracting := [1]
  lhsBatch := []
  rhsBatch := []
  wf := dot_S10000x300_S300x600_S10000x600_1_0_0_1_n_n_wf
def dot_S2000x64_S2000x300_S64x300_0_0_1_1_n_n : DotDims S2000x64 S2000x300 S64x300 where
  lhsContracting := [0]
  rhsContracting := [0]
  lhsNonContracting := [1]
  rhsNonContracting := [1]
  lhsBatch := []
  rhsBatch := []
  wf := dot_S2000x64_S2000x300_S64x300_0_0_1_1_n_n_wf
def dot_S64x300_S300x600_S64x600_1_0_0_1_n_n : DotDims S64x300 S300x600 S64x600 where
  lhsContracting := [1]
  rhsContracting := [0]
  lhsNonContracting := [0]
  rhsNonContracting := [1]
  lhsBatch := []
  rhsBatch := []
  wf := dot_S64x300_S300x600_S64x600_1_0_0_1_n_n_wf
def dot_S64x600_S600x300_S64x300_1_0_0_1_n_n : DotDims S64x600 S600x300 S64x300 where
  lhsContracting := [1]
  rhsContracting := [0]
  lhsNonContracting := [0]
  rhsNonContracting := [1]
  lhsBatch := []
  rhsBatch := []
  wf := dot_S64x600_S600x300_S64x300_1_0_0_1_n_n_wf
def scatter_S64_S10000x1_S10000_n_0_0_1 : ScatterDims S64 S10000x1 S10000 where
  updateWindowDims := []
  insertedWindowDims := [0]
  scatterDimsToOperandDims := [0]
  indexVectorDim := 1
  wf := scatter_S64_S10000x1_S10000_n_0_0_1_wf
def dot_S64x300_S300x10_S64x10_1_0_0_1_n_n : DotDims S64x300 S300x10 S64x10 where
  lhsContracting := [1]
  rhsContracting := [0]
  lhsNonContracting := [0]
  rhsNonContracting := [1]
  lhsBatch := []
  rhsBatch := []
  wf := dot_S64x300_S300x10_S64x10_1_0_0_1_n_n_wf

abbrev win0_0 : Pipeline.Window sig grid0 :=
  Pipeline.Window.ofSpec (Memref.whole main_v14) S8000x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S8000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v15) S1024x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

abbrev win1_0 : Pipeline.Window sig grid1 :=
  Pipeline.Window.ofSpec (Memref.whole main_v94) S8000x1.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v93) S8000x300.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v95) S1024x300.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev idle1 : Fin 3 → grid1.Coords → Bool := fun | 0 => fun _ => false | 1 => fun _ => false | 2 => fun i => !(k1_cond2 i == 1#1) | ⟨_ + 3, h⟩ => absurd h (Nat.not_lt.2 (Nat.le_add_left _ _))

abbrev win2_0 : Pipeline.Window sig grid2 :=
  Pipeline.Window.ofSpec (Memref.whole main_v150) S2000x1.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v151) S2000x300.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v152) S64x300.size cc2_transform_2 reads2_2 true false 1 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev idle2 : Fin 3 → grid2.Coords → Bool := fun | 0 => fun _ => false | 1 => fun _ => false | 2 => fun i => !(k2_cond2 i == 1#1) | ⟨_ + 3, h⟩ => absurd h (Nat.not_lt.2 (Nat.le_add_left _ _))

abbrev win3_0 : Pipeline.Window sig grid3 :=
  Pipeline.Window.ofSpec (Memref.whole main_v230) S8000x1.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v229) S8000x300.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v231) S1024x300.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev idle3 : Fin 3 → grid3.Coords → Bool := fun | 0 => fun _ => false | 1 => fun _ => false | 2 => fun i => !(k3_cond2 i == 1#1) | ⟨_ + 3, h⟩ => absurd h (Nat.not_lt.2 (Nat.le_add_left _ _))

abbrev win4_0 : Pipeline.Window sig grid4 :=
  Pipeline.Window.ofSpec (Memref.whole main_v286) S2000x1.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v287) S2000x300.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v288) S64x300.size cc4_transform_2 reads4_2 true false 1 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev idle4 : Fin 3 → grid4.Coords → Bool := fun | 0 => fun _ => false | 1 => fun _ => false | 2 => fun i => !(k4_cond2 i == 1#1) | ⟨_ + 3, h⟩ => absurd h (Nat.not_lt.2 (Nat.le_add_left _ _))

abbrev win5_0 : Pipeline.Window sig grid5 :=
  Pipeline.Window.ofSpec (Memref.whole main_v366) S8000x1.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v365) S8000x300.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v367) S1024x300.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

abbrev idle5 : Fin 3 → grid5.Coords → Bool := fun | 0 => fun _ => false | 1 => fun _ => false | 2 => fun i => !(k5_cond2 i == 1#1) | ⟨_ + 3, h⟩ => absurd h (Nat.not_lt.2 (Nat.le_add_left _ _))

abbrev win6_0 : Pipeline.Window sig grid6 :=
  Pipeline.Window.ofSpec (Memref.whole main_v422) S2000x1.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v423) S2000x300.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v424) S64x300.size cc6_transform_2 reads6_2 true false 1 stage6_2 sem6_2
    hrank6 hreads6_2 hinb6_2 nbuf6_2 (Memref.isWhole_whole _) hwx6_2 hstage6_2

abbrev win6 : Fin 3 → Pipeline.Window sig grid6 := fun | 0 => win6_0 | 1 => win6_1 | 2 => win6_2 | ⟨_ + 3, h⟩ => absurd h (Nat.not_lt.2 (Nat.le_add_left _ _))
abbrev spec6 : Fin 3 → Pipeline.WinSpec sig grid6.rank := fun w => (win6 w).toWinSpec

abbrev idle6 : Fin 3 → grid6.Coords → Bool := fun | 0 => fun _ => false | 1 => fun _ => false | 2 => fun i => !(k6_cond2 i == 1#1) | ⟨_ + 3, h⟩ => absurd h (Nat.not_lt.2 (Nat.le_add_left _ _))

abbrev win7_0 : Pipeline.Window sig grid7 :=
  Pipeline.Window.ofSpec (Memref.whole main_v502) S8000x1.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v501) S8000x300.size cc7_transform_1 reads7_1 false false 2 stage7_1 sem7_1
    hrank7 hreads7_1 hinb7_1 nbuf7_1 (Memref.isWhole_whole _) hwx7_1 hstage7_1

abbrev win7_2 : Pipeline.Window sig grid7 :=
  Pipeline.Window.ofSpec (Memref.whole main_v503) S1024x300.size cc7_transform_2 reads7_2 true false 2 stage7_2 sem7_2
    hrank7 hreads7_2 hinb7_2 nbuf7_2 (Memref.isWhole_whole _) hwx7_2 hstage7_2

abbrev win7 : Fin 3 → Pipeline.Window sig grid7 := fun | 0 => win7_0 | 1 => win7_1 | 2 => win7_2 | ⟨_ + 3, h⟩ => absurd h (Nat.not_lt.2 (Nat.le_add_left _ _))
abbrev spec7 : Fin 3 → Pipeline.WinSpec sig grid7.rank := fun w => (win7 w).toWinSpec

abbrev idle7 : Fin 3 → grid7.Coords → Bool := fun | 0 => fun _ => false | 1 => fun _ => false | 2 => fun i => !(k7_cond2 i == 1#1) | ⟨_ + 3, h⟩ => absurd h (Nat.not_lt.2 (Nat.le_add_left _ _))

abbrev win8_0 : Pipeline.Window sig grid8 :=
  Pipeline.Window.ofSpec (Memref.whole main_v566) S2000x1.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v567) S2000x300.size cc8_transform_1 reads8_1 false false 2 stage8_1 sem8_1
    hrank8 hreads8_1 hinb8_1 nbuf8_1 (Memref.isWhole_whole _) hwx8_1 hstage8_1

abbrev win8_2 : Pipeline.Window sig grid8 :=
  Pipeline.Window.ofSpec (Memref.whole main_v568) S64x300.size cc8_transform_2 reads8_2 true false 1 stage8_2 sem8_2
    hrank8 hreads8_2 hinb8_2 nbuf8_2 (Memref.isWhole_whole _) hwx8_2 hstage8_2

abbrev win8 : Fin 3 → Pipeline.Window sig grid8 := fun | 0 => win8_0 | 1 => win8_1 | 2 => win8_2 | ⟨_ + 3, h⟩ => absurd h (Nat.not_lt.2 (Nat.le_add_left _ _))
abbrev spec8 : Fin 3 → Pipeline.WinSpec sig grid8.rank := fun w => (win8 w).toWinSpec

abbrev idle8 : Fin 3 → grid8.Coords → Bool := fun | 0 => fun _ => false | 1 => fun _ => false | 2 => fun i => !(k8_cond2 i == 1#1) | ⟨_ + 3, h⟩ => absurd h (Nat.not_lt.2 (Nat.le_add_left _ _))

class Facts : Prop extends Facts₀ where

variable [Facts]
-- ==== ReferenceIdeal.lean ====
abbrev S10000x128 : Shape := ⟨2, ![10000, 128]⟩
abbrev S2x160000 : Shape := ⟨2, ![2, 160000]⟩
abbrev S10000 : Shape := ⟨1, ![10000]⟩
abbrev S1x300 : Shape := ⟨2, ![1, 300]⟩
abbrev S128x600 : Shape := ⟨2, ![128, 600]⟩
abbrev S600 : Shape := ⟨1, ![600]⟩
abbrev S600x300 : Shape := ⟨2, ![600, 300]⟩
abbrev S300 : Shape := ⟨1, ![300]⟩
abbrev S4x300x600 : Shape := ⟨3, ![4, 300, 600]⟩
abbrev S4x600 : Shape := ⟨2, ![4, 600]⟩
abbrev S4x600x300 : Shape := ⟨3, ![4, 600, 300]⟩
abbrev S4x300 : Shape := ⟨2, ![4, 300]⟩
abbrev S300x600 : Shape := ⟨2, ![300, 600]⟩
abbrev S300x10 : Shape := ⟨2, ![300, 10]⟩
abbrev S10 : Shape := ⟨1, ![10]⟩
abbrev S1x160000 : Shape := ⟨2, ![1, 160000]⟩
abbrev S160000 : Shape := ⟨1, ![160000]⟩
abbrev S64x300 : Shape := ⟨2, ![64, 300]⟩
abbrev S_ : Shape := ⟨0, ![]⟩
abbrev S160000x1 : Shape := ⟨2, ![160000, 1]⟩
abbrev S160000x128 : Shape := ⟨2, ![160000, 128]⟩
abbrev S10000x600 : Shape := ⟨2, ![10000, 600]⟩
abbrev S1x600 : Shape := ⟨2, ![1, 600]⟩
abbrev S10000x300 : Shape := ⟨2, ![10000, 300]⟩
abbrev S10000x1 : Shape := ⟨2, ![10000, 1]⟩
abbrev S1x300x600 : Shape := ⟨3, ![1, 300, 600]⟩
abbrev S1x600x300 : Shape := ⟨3, ![1, 600, 300]⟩
abbrev S160000x300 : Shape := ⟨2, ![160000, 300]⟩
abbrev S64x600 : Shape := ⟨2, ![64, 600]⟩
abbrev S64 : Shape := ⟨1, ![64]⟩
abbrev S64x1 : Shape := ⟨2, ![64, 1]⟩
abbrev S64x10 : Shape := ⟨2, ![64, 10]⟩
abbrev S1x10 : Shape := ⟨2, ![1, 10]⟩

abbrev nBuf : Space → Nat
  | .hbm => 1058
  | .vmem => 0
  | .smem => 0
  | _ => 0

abbrev hbmTy0_0 (i : Nat) : BufTy := match i % 128 with
  | 0 => ⟨S10000x128, .f32⟩
  | 1 => ⟨S2x160000, .i32⟩
  | 2 => ⟨S10000, .i32⟩
  | 3 => ⟨S1x300, .f32⟩
  | 4 => ⟨S128x600, .f32⟩
  | 5 => ⟨S600, .f32⟩
  | 6 => ⟨S600, .f32⟩
  | 7 => ⟨S600, .f32⟩
  | 8 => ⟨S600x300, .f32⟩
  | 9 => ⟨S300, .f32⟩
  | 10 => ⟨S4x300x600, .f32⟩
  | 11 => ⟨S4x600, .f32⟩
  | 12 => ⟨S4x600, .f32⟩
  | 13 => ⟨S4x600, .f32⟩
  | 14 => ⟨S4x600x300, .f32⟩
  | 15 => ⟨S4x300, .f32⟩
  | 16 => ⟨S300, .f32⟩
  | 17 => ⟨S300, .f32⟩
  | 18 => ⟨S4x300, .f32⟩
  | 19 => ⟨S4x300, .f32⟩
  | 20 => ⟨S300x600, .f32⟩
  | 21 => ⟨S600, .f32⟩
  | 22 => ⟨S600, .f32⟩
  | 23 => ⟨S600, .f32⟩
  | 24 => ⟨S600x300, .f32⟩
  | 25 => ⟨S300, .f32⟩
  | 26 => ⟨S300, .f32⟩
  | 27 => ⟨S300, .f32⟩
  | 28 => ⟨S300x10, .f32⟩
  | 29 => ⟨S10, .f32⟩
  | 30 => ⟨S1x160000, .i32⟩
  | 31 => ⟨S160000, .i32⟩
  | 32 => ⟨S1x160000, .i32⟩
  | 33 => ⟨S160000, .i32⟩
  | 34 => ⟨S300, .f32⟩
  | 35 => ⟨S64x300, .f32⟩
  | 36 => ⟨S_, .i32⟩
  | 37 => ⟨S160000, .i32⟩
  | 38 => ⟨S160000, .i1⟩
  | 39 => ⟨S_, .i32⟩
  | 40 => ⟨S160000, .i32⟩
  | 41 => ⟨S160000, .i32⟩
  | 42 => ⟨S160000, .i32⟩
  | 43 => ⟨S160000x1, .i32⟩
  | 44 => ⟨S160000x128, .f32⟩
  | 45 => ⟨S_, .f32⟩
  | 46 => ⟨S10000x128, .f32⟩
  | 47 => ⟨S160000x1, .i32⟩
  | 48 => ⟨S10000x128, .f32⟩
  | 49 => ⟨S10000x128, .f32⟩
  | 50 => ⟨S10000x600, .f32⟩
  | 51 => ⟨S1x600, .f32⟩
  | 52 => ⟨S10000x600, .f32⟩
  | 53 => ⟨S10000x600, .f32⟩
  | 54 => ⟨S_, .f32⟩
  | 55 => ⟨S600, .f32⟩
  | 56 => ⟨S_, .f32⟩
  | 57 => ⟨S600, .f32⟩
  | 58 => ⟨S600, .f32⟩
  | 59 => ⟨S_, .i32⟩
  | 60 => ⟨S_, .f32⟩
  | 61 => ⟨S600, .f32⟩
  | 62 => ⟨S1x600, .f32⟩
  | 63 => ⟨S_, .f32⟩
  | 64 => ⟨S1x600, .f32⟩
  | 65 => ⟨S1x600, .f32⟩
  | 66 => ⟨S10000x600, .f32⟩
  | 67 => ⟨S10000x600, .f32⟩
  | 68 => ⟨S10000x600, .f32⟩
  | 69 => ⟨S_, .f32⟩
  | 70 => ⟨S_, .f32⟩
  | 71 => ⟨S_, .f32⟩
  | 72 => ⟨S_, .f32⟩
  | 73 => ⟨S600, .f32⟩
  | 74 => ⟨S600, .f32⟩
  | 75 => ⟨S600, .f32⟩
  | 76 => ⟨S_, .f32⟩
  | 77 => ⟨S_, .i1⟩
  | 78 => ⟨S_, .f32⟩
  | 79 => ⟨S_, .f32⟩
  | 80 => ⟨S600, .f32⟩
  | 81 => ⟨S600, .f32⟩
  | 82 => ⟨S1x600, .f32⟩
  | 83 => ⟨S10000x600, .f32⟩
  | 84 => ⟨S10000x600, .f32⟩
  | 85 => ⟨S_, .f32⟩
  | 86 => ⟨S600, .f32⟩
  | 87 => ⟨S600, .f32⟩
  | 88 => ⟨S600, .f32⟩
  | 89 => ⟨S1x600, .f32⟩
  | 90 => ⟨S10000x600, .f32⟩
  | 91 => ⟨S10000x600, .f32⟩
  | 92 => ⟨S1x600, .f32⟩
  | 93 => ⟨S10000x600, .f32⟩
  | 94 => ⟨S10000x600, .f32⟩
  | 95 => ⟨S1x600, .f32⟩
  | 96 => ⟨S10000x600, .f32⟩
  | 97 => ⟨S10000x600, .f32⟩
  | 98 => ⟨S_, .f32⟩
  | 99 => ⟨S10000x600, .f32⟩
  | 100 => ⟨S10000x600, .f32⟩
  | 101 => ⟨S10000x300, .f32⟩
  | 102 => ⟨S1x300, .f32⟩
  | 103 => ⟨S10000x300, .f32⟩
  | 104 => ⟨S10000x300, .f32⟩
  | 105 => ⟨S_, .f32⟩
  | 106 => ⟨S300, .f32⟩
  | 107 => ⟨S_, .f32⟩
  | 108 => ⟨S300, .f32⟩
  | 109 => ⟨S300, .f32⟩
  | 110 => ⟨S_, .i32⟩
  | 111 => ⟨S_, .f32⟩
  | 112 => ⟨S300, .f32⟩
  | 113 => ⟨S1x300, .f32⟩
  | 114 => ⟨S_, .f32⟩
  | 115 => ⟨S1x300, .f32⟩
  | 116 => ⟨S1x300, .f32⟩
  | 117 => ⟨S10000x300, .f32⟩
  | 118 => ⟨S10000x300, .f32⟩
  | 119 => ⟨S10000x300, .f32⟩
  | 120 => ⟨S_, .f32⟩
  | 121 => ⟨S_, .f32⟩
  | 122 => ⟨S_, .f32⟩
  | 123 => ⟨S_, .f32⟩
  | 124 => ⟨S300, .f32⟩
  | 125 => ⟨S300, .f32⟩
  | 126 => ⟨S300, .f32⟩
  | 127 => ⟨S_, .f32⟩
  | _ => ⟨S10000x128, .f32⟩

abbrev hbmTy0_1 (i : Nat) : BufTy := match i % 128 with
  | 0 => ⟨S_, .i1⟩
  | 1 => ⟨S_, .f32⟩
  | 2 => ⟨S_, .f32⟩
  | 3 => ⟨S300, .f32⟩
  | 4 => ⟨S300, .f32⟩
  | 5 => ⟨S1x300, .f32⟩
  | 6 => ⟨S10000x300, .f32⟩
  | 7 => ⟨S10000x300, .f32⟩
  | 8 => ⟨S_, .f32⟩
  | 9 => ⟨S300, .f32⟩
  | 10 => ⟨S300, .f32⟩
  | 11 => ⟨S300, .f32⟩
  | 12 => ⟨S1x300, .f32⟩
  | 13 => ⟨S10000x300, .f32⟩
  | 14 => ⟨S10000x300, .f32⟩
  | 15 => ⟨S1x300, .f32⟩
  | 16 => ⟨S10000x300, .f32⟩
  | 17 => ⟨S10000x300, .f32⟩
  | 18 => ⟨S1x300, .f32⟩
  | 19 => ⟨S10000x300, .f32⟩
  | 20 => ⟨S10000x300, .f32⟩
  | 21 => ⟨S_, .f32⟩
  | 22 => ⟨S10000x300, .f32⟩
  | 23 => ⟨S10000x300, .f32⟩
  | 24 => ⟨S_, .i32⟩
  | 25 => ⟨S10000, .i32⟩
  | 26 => ⟨S10000, .i1⟩
  | 27 => ⟨S_, .i32⟩
  | 28 => ⟨S10000, .i32⟩
  | 29 => ⟨S10000, .i32⟩
  | 30 => ⟨S10000, .i32⟩
  | 31 => ⟨S10000x1, .i32⟩
  | 32 => ⟨S10000x300, .f32⟩
  | 33 => ⟨S10000x300, .f32⟩
  | 34 => ⟨S1x300x600, .f32⟩
  | 35 => ⟨S300x600, .f32⟩
  | 36 => ⟨S1x600, .f32⟩
  | 37 => ⟨S600, .f32⟩
  | 38 => ⟨S1x600, .f32⟩
  | 39 => ⟨S600, .f32⟩
  | 40 => ⟨S1x600, .f32⟩
  | 41 => ⟨S600, .f32⟩
  | 42 => ⟨S1x600x300, .f32⟩
  | 43 => ⟨S600x300, .f32⟩
  | 44 => ⟨S1x300, .f32⟩
  | 45 => ⟨S300, .f32⟩
  | 46 => ⟨S_, .i32⟩
  | 47 => ⟨S160000, .i32⟩
  | 48 => ⟨S160000, .i1⟩
  | 49 => ⟨S_, .i32⟩
  | 50 => ⟨S160000, .i32⟩
  | 51 => ⟨S160000, .i32⟩
  | 52 => ⟨S160000, .i32⟩
  | 53 => ⟨S160000x1, .i32⟩
  | 54 => ⟨S160000x300, .f32⟩
  | 55 => ⟨S_, .f32⟩
  | 56 => ⟨S10000x300, .f32⟩
  | 57 => ⟨S160000x1, .i32⟩
  | 58 => ⟨S10000x300, .f32⟩
  | 59 => ⟨S10000x300, .f32⟩
  | 60 => ⟨S10000x600, .f32⟩
  | 61 => ⟨S1x600, .f32⟩
  | 62 => ⟨S10000x600, .f32⟩
  | 63 => ⟨S10000x600, .f32⟩
  | 64 => ⟨S_, .f32⟩
  | 65 => ⟨S600, .f32⟩
  | 66 => ⟨S_, .f32⟩
  | 67 => ⟨S600, .f32⟩
  | 68 => ⟨S600, .f32⟩
  | 69 => ⟨S_, .i32⟩
  | 70 => ⟨S_, .f32⟩
  | 71 => ⟨S600, .f32⟩
  | 72 => ⟨S1x600, .f32⟩
  | 73 => ⟨S_, .f32⟩
  | 74 => ⟨S1x600, .f32⟩
  | 75 => ⟨S1x600, .f32⟩
  | 76 => ⟨S10000x600, .f32⟩
  | 77 => ⟨S10000x600, .f32⟩
  | 78 => ⟨S10000x600, .f32⟩
  | 79 => ⟨S_, .f32⟩
  | 80 => ⟨S_, .f32⟩
  | 81 => ⟨S_, .f32⟩
  | 82 => ⟨S_, .f32⟩
  | 83 => ⟨S600, .f32⟩
  | 84 => ⟨S600, .f32⟩
  | 85 => ⟨S600, .f32⟩
  | 86 => ⟨S_, .f32⟩
  | 87 => ⟨S_, .i1⟩
  | 88 => ⟨S_, .f32⟩
  | 89 => ⟨S_, .f32⟩
  | 90 => ⟨S600, .f32⟩
  | 91 => ⟨S600, .f32⟩
  | 92 => ⟨S1x600, .f32⟩
  | 93 => ⟨S10000x600, .f32⟩
  | 94 => ⟨S10000x600, .f32⟩
  | 95 => ⟨S_, .f32⟩
  | 96 => ⟨S600, .f32⟩
  | 97 => ⟨S600, .f32⟩
  | 98 => ⟨S600, .f32⟩
  | 99 => ⟨S1x600, .f32⟩
  | 100 => ⟨S10000x600, .f32⟩
  | 101 => ⟨S10000x600, .f32⟩
  | 102 => ⟨S1x600, .f32⟩
  | 103 => ⟨S10000x600, .f32⟩
  | 104 => ⟨S10000x600, .f32⟩
  | 105 => ⟨S1x600, .f32⟩
  | 106 => ⟨S10000x600, .f32⟩
  | 107 => ⟨S10000x600, .f32⟩
  | 108 => ⟨S_, .f32⟩
  | 109 => ⟨S10000x600, .f32⟩
  | 110 => ⟨S10000x600, .f32⟩
  | 111 => ⟨S10000x300, .f32⟩
  | 112 => ⟨S1x300, .f32⟩
  | 113 => ⟨S10000x300, .f32⟩
  | 114 => ⟨S10000x300, .f32⟩
  | 115 => ⟨S1x300, .f32⟩
  | 116 => ⟨S300, .f32⟩
  | 117 => ⟨S1x300, .f32⟩
  | 118 => ⟨S300, .f32⟩
  | 119 => ⟨S_, .f32⟩
  | 120 => ⟨S300, .f32⟩
  | 121 => ⟨S_, .f32⟩
  | 122 => ⟨S300, .f32⟩
  | 123 => ⟨S300, .f32⟩
  | 124 => ⟨S_, .i32⟩
  | 125 => ⟨S_, .f32⟩
  | 126 => ⟨S300, .f32⟩
  | 127 => ⟨S1x300, .f32⟩
  | _ => ⟨S10000x128, .f32⟩

abbrev hbmTy0_2 (i : Nat) : BufTy := match i % 128 with
  | 0 => ⟨S_, .f32⟩
  | 1 => ⟨S1x300, .f32⟩
  | 2 => ⟨S1x300, .f32⟩
  | 3 => ⟨S10000x300, .f32⟩
  | 4 => ⟨S10000x300, .f32⟩
  | 5 => ⟨S10000x300, .f32⟩
  | 6 => ⟨S_, .f32⟩
  | 7 => ⟨S_, .f32⟩
  | 8 => ⟨S_, .f32⟩
  | 9 => ⟨S_, .f32⟩
  | 10 => ⟨S300, .f32⟩
  | 11 => ⟨S300, .f32⟩
  | 12 => ⟨S300, .f32⟩
  | 13 => ⟨S_, .f32⟩
  | 14 => ⟨S_, .i1⟩
  | 15 => ⟨S_, .f32⟩
  | 16 => ⟨S_, .f32⟩
  | 17 => ⟨S300, .f32⟩
  | 18 => ⟨S300, .f32⟩
  | 19 => ⟨S1x300, .f32⟩
  | 20 => ⟨S10000x300, .f32⟩
  | 21 => ⟨S10000x300, .f32⟩
  | 22 => ⟨S_, .f32⟩
  | 23 => ⟨S300, .f32⟩
  | 24 => ⟨S300, .f32⟩
  | 25 => ⟨S300, .f32⟩
  | 26 => ⟨S1x300, .f32⟩
  | 27 => ⟨S10000x300, .f32⟩
  | 28 => ⟨S10000x300, .f32⟩
  | 29 => ⟨S1x300, .f32⟩
  | 30 => ⟨S10000x300, .f32⟩
  | 31 => ⟨S10000x300, .f32⟩
  | 32 => ⟨S1x300, .f32⟩
  | 33 => ⟨S10000x300, .f32⟩
  | 34 => ⟨S10000x300, .f32⟩
  | 35 => ⟨S_, .f32⟩
  | 36 => ⟨S10000x300, .f32⟩
  | 37 => ⟨S10000x300, .f32⟩
  | 38 => ⟨S_, .f32⟩
  | 39 => ⟨S64x300, .f32⟩
  | 40 => ⟨S10000x1, .i32⟩
  | 41 => ⟨S64x300, .f32⟩
  | 42 => ⟨S64x300, .f32⟩
  | 43 => ⟨S64x600, .f32⟩
  | 44 => ⟨S1x600, .f32⟩
  | 45 => ⟨S64x600, .f32⟩
  | 46 => ⟨S64x600, .f32⟩
  | 47 => ⟨S_, .f32⟩
  | 48 => ⟨S600, .f32⟩
  | 49 => ⟨S_, .f32⟩
  | 50 => ⟨S600, .f32⟩
  | 51 => ⟨S600, .f32⟩
  | 52 => ⟨S_, .i32⟩
  | 53 => ⟨S_, .f32⟩
  | 54 => ⟨S600, .f32⟩
  | 55 => ⟨S1x600, .f32⟩
  | 56 => ⟨S_, .f32⟩
  | 57 => ⟨S1x600, .f32⟩
  | 58 => ⟨S1x600, .f32⟩
  | 59 => ⟨S64x600, .f32⟩
  | 60 => ⟨S64x600, .f32⟩
  | 61 => ⟨S64x600, .f32⟩
  | 62 => ⟨S_, .f32⟩
  | 63 => ⟨S_, .f32⟩
  | 64 => ⟨S_, .f32⟩
  | 65 => ⟨S_, .f32⟩
  | 66 => ⟨S600, .f32⟩
  | 67 => ⟨S600, .f32⟩
  | 68 => ⟨S600, .f32⟩
  | 69 => ⟨S_, .f32⟩
  | 70 => ⟨S_, .i1⟩
  | 71 => ⟨S_, .f32⟩
  | 72 => ⟨S_, .f32⟩
  | 73 => ⟨S600, .f32⟩
  | 74 => ⟨S600, .f32⟩
  | 75 => ⟨S1x600, .f32⟩
  | 76 => ⟨S64x600, .f32⟩
  | 77 => ⟨S64x600, .f32⟩
  | 78 => ⟨S_, .f32⟩
  | 79 => ⟨S600, .f32⟩
  | 80 => ⟨S600, .f32⟩
  | 81 => ⟨S600, .f32⟩
  | 82 => ⟨S1x600, .f32⟩
  | 83 => ⟨S64x600, .f32⟩
  | 84 => ⟨S64x600, .f32⟩
  | 85 => ⟨S1x600, .f32⟩
  | 86 => ⟨S64x600, .f32⟩
  | 87 => ⟨S64x600, .f32⟩
  | 88 => ⟨S1x600, .f32⟩
  | 89 => ⟨S64x600, .f32⟩
  | 90 => ⟨S64x600, .f32⟩
  | 91 => ⟨S_, .f32⟩
  | 92 => ⟨S64x600, .f32⟩
  | 93 => ⟨S64x600, .f32⟩
  | 94 => ⟨S64x300, .f32⟩
  | 95 => ⟨S1x300, .f32⟩
  | 96 => ⟨S64x300, .f32⟩
  | 97 => ⟨S64x300, .f32⟩
  | 98 => ⟨S_, .f32⟩
  | 99 => ⟨S300, .f32⟩
  | 100 => ⟨S_, .f32⟩
  | 101 => ⟨S300, .f32⟩
  | 102 => ⟨S300, .f32⟩
  | 103 => ⟨S_, .i32⟩
  | 104 => ⟨S_, .f32⟩
  | 105 => ⟨S300, .f32⟩
  | 106 => ⟨S1x300, .f32⟩
  | 107 => ⟨S_, .f32⟩
  | 108 => ⟨S1x300, .f32⟩
  | 109 => ⟨S1x300, .f32⟩
  | 110 => ⟨S64x300, .f32⟩
  | 111 => ⟨S64x300, .f32⟩
  | 112 => ⟨S64x300, .f32⟩
  | 113 => ⟨S_, .f32⟩
  | 114 => ⟨S_, .f32⟩
  | 115 => ⟨S_, .f32⟩
  | 116 => ⟨S_, .f32⟩
  | 117 => ⟨S300, .f32⟩
  | 118 => ⟨S300, .f32⟩
  | 119 => ⟨S300, .f32⟩
  | 120 => ⟨S_, .f32⟩
  | 121 => ⟨S_, .i1⟩
  | 122 => ⟨S_, .f32⟩
  | 123 => ⟨S_, .f32⟩
  | 124 => ⟨S300, .f32⟩
  | 125 => ⟨S300, .f32⟩
  | 126 => ⟨S1x300, .f32⟩
  | 127 => ⟨S64x300, .f32⟩
  | _ => ⟨S10000x128, .f32⟩

abbrev hbmTy0_3 (i : Nat) : BufTy := match i % 128 with
  | 0 => ⟨S64x300, .f32⟩
  | 1 => ⟨S_, .f32⟩
  | 2 => ⟨S300, .f32⟩
  | 3 => ⟨S300, .f32⟩
  | 4 => ⟨S300, .f32⟩
  | 5 => ⟨S1x300, .f32⟩
  | 6 => ⟨S64x300, .f32⟩
  | 7 => ⟨S64x300, .f32⟩
  | 8 => ⟨S1x300, .f32⟩
  | 9 => ⟨S64x300, .f32⟩
  | 10 => ⟨S64x300, .f32⟩
  | 11 => ⟨S1x300, .f32⟩
  | 12 => ⟨S64x300, .f32⟩
  | 13 => ⟨S64x300, .f32⟩
  | 14 => ⟨S_, .f32⟩
  | 15 => ⟨S64x300, .f32⟩
  | 16 => ⟨S64x300, .f32⟩
  | 17 => ⟨S_, .i32⟩
  | 18 => ⟨S10000, .i32⟩
  | 19 => ⟨S10000, .i1⟩
  | 20 => ⟨S_, .i32⟩
  | 21 => ⟨S10000, .i32⟩
  | 22 => ⟨S10000, .i32⟩
  | 23 => ⟨S10000, .i32⟩
  | 24 => ⟨S10000x1, .i32⟩
  | 25 => ⟨S10000x300, .f32⟩
  | 26 => ⟨S10000x300, .f32⟩
  | 27 => ⟨S1x300x600, .f32⟩
  | 28 => ⟨S300x600, .f32⟩
  | 29 => ⟨S1x600, .f32⟩
  | 30 => ⟨S600, .f32⟩
  | 31 => ⟨S1x600, .f32⟩
  | 32 => ⟨S600, .f32⟩
  | 33 => ⟨S1x600, .f32⟩
  | 34 => ⟨S600, .f32⟩
  | 35 => ⟨S1x600x300, .f32⟩
  | 36 => ⟨S600x300, .f32⟩
  | 37 => ⟨S1x300, .f32⟩
  | 38 => ⟨S300, .f32⟩
  | 39 => ⟨S_, .i32⟩
  | 40 => ⟨S160000, .i32⟩
  | 41 => ⟨S160000, .i1⟩
  | 42 => ⟨S_, .i32⟩
  | 43 => ⟨S160000, .i32⟩
  | 44 => ⟨S160000, .i32⟩
  | 45 => ⟨S160000, .i32⟩
  | 46 => ⟨S160000x1, .i32⟩
  | 47 => ⟨S160000x300, .f32⟩
  | 48 => ⟨S_, .f32⟩
  | 49 => ⟨S10000x300, .f32⟩
  | 50 => ⟨S160000x1, .i32⟩
  | 51 => ⟨S10000x300, .f32⟩
  | 52 => ⟨S10000x300, .f32⟩
  | 53 => ⟨S10000x600, .f32⟩
  | 54 => ⟨S1x600, .f32⟩
  | 55 => ⟨S10000x600, .f32⟩
  | 56 => ⟨S10000x600, .f32⟩
  | 57 => ⟨S_, .f32⟩
  | 58 => ⟨S600, .f32⟩
  | 59 => ⟨S_, .f32⟩
  | 60 => ⟨S600, .f32⟩
  | 61 => ⟨S600, .f32⟩
  | 62 => ⟨S_, .i32⟩
  | 63 => ⟨S_, .f32⟩
  | 64 => ⟨S600, .f32⟩
  | 65 => ⟨S1x600, .f32⟩
  | 66 => ⟨S_, .f32⟩
  | 67 => ⟨S1x600, .f32⟩
  | 68 => ⟨S1x600, .f32⟩
  | 69 => ⟨S10000x600, .f32⟩
  | 70 => ⟨S10000x600, .f32⟩
  | 71 => ⟨S10000x600, .f32⟩
  | 72 => ⟨S_, .f32⟩
  | 73 => ⟨S_, .f32⟩
  | 74 => ⟨S_, .f32⟩
  | 75 => ⟨S_, .f32⟩
  | 76 => ⟨S600, .f32⟩
  | 77 => ⟨S600, .f32⟩
  | 78 => ⟨S600, .f32⟩
  | 79 => ⟨S_, .f32⟩
  | 80 => ⟨S_, .i1⟩
  | 81 => ⟨S_, .f32⟩
  | 82 => ⟨S_, .f32⟩
  | 83 => ⟨S600, .f32⟩
  | 84 => ⟨S600, .f32⟩
  | 85 => ⟨S1x600, .f32⟩
  | 86 => ⟨S10000x600, .f32⟩
  | 87 => ⟨S10000x600, .f32⟩
  | 88 => ⟨S_, .f32⟩
  | 89 => ⟨S600, .f32⟩
  | 90 => ⟨S600, .f32⟩
  | 91 => ⟨S600, .f32⟩
  | 92 => ⟨S1x600, .f32⟩
  | 93 => ⟨S10000x600, .f32⟩
  | 94 => ⟨S10000x600, .f32⟩
  | 95 => ⟨S1x600, .f32⟩
  | 96 => ⟨S10000x600, .f32⟩
  | 97 => ⟨S10000x600, .f32⟩
  | 98 => ⟨S1x600, .f32⟩
  | 99 => ⟨S10000x600, .f32⟩
  | 100 => ⟨S10000x600, .f32⟩
  | 101 => ⟨S_, .f32⟩
  | 102 => ⟨S10000x600, .f32⟩
  | 103 => ⟨S10000x600, .f32⟩
  | 104 => ⟨S10000x300, .f32⟩
  | 105 => ⟨S1x300, .f32⟩
  | 106 => ⟨S10000x300, .f32⟩
  | 107 => ⟨S10000x300, .f32⟩
  | 108 => ⟨S1x300, .f32⟩
  | 109 => ⟨S300, .f32⟩
  | 110 => ⟨S1x300, .f32⟩
  | 111 => ⟨S300, .f32⟩
  | 112 => ⟨S_, .f32⟩
  | 113 => ⟨S300, .f32⟩
  | 114 => ⟨S_, .f32⟩
  | 115 => ⟨S300, .f32⟩
  | 116 => ⟨S300, .f32⟩
  | 117 => ⟨S_, .i32⟩
  | 118 => ⟨S_, .f32⟩
  | 119 => ⟨S300, .f32⟩
  | 120 => ⟨S1x300, .f32⟩
  | 121 => ⟨S_, .f32⟩
  | 122 => ⟨S1x300, .f32⟩
  | 123 => ⟨S1x300, .f32⟩
  | 124 => ⟨S10000x300, .f32⟩
  | 125 => ⟨S10000x300, .f32⟩
  | 126 => ⟨S10000x300, .f32⟩
  | 127 => ⟨S_, .f32⟩
  | _ => ⟨S10000x128, .f32⟩

abbrev hbmTy0_4 (i : Nat) : BufTy := match i % 128 with
  | 0 => ⟨S_, .f32⟩
  | 1 => ⟨S_, .f32⟩
  | 2 => ⟨S_, .f32⟩
  | 3 => ⟨S300, .f32⟩
  | 4 => ⟨S300, .f32⟩
  | 5 => ⟨S300, .f32⟩
  | 6 => ⟨S_, .f32⟩
  | 7 => ⟨S_, .i1⟩
  | 8 => ⟨S_, .f32⟩
  | 9 => ⟨S_, .f32⟩
  | 10 => ⟨S300, .f32⟩
  | 11 => ⟨S300, .f32⟩
  | 12 => ⟨S1x300, .f32⟩
  | 13 => ⟨S10000x300, .f32⟩
  | 14 => ⟨S10000x300, .f32⟩
  | 15 => ⟨S_, .f32⟩
  | 16 => ⟨S300, .f32⟩
  | 17 => ⟨S300, .f32⟩
  | 18 => ⟨S300, .f32⟩
  | 19 => ⟨S1x300, .f32⟩
  | 20 => ⟨S10000x300, .f32⟩
  | 21 => ⟨S10000x300, .f32⟩
  | 22 => ⟨S1x300, .f32⟩
  | 23 => ⟨S10000x300, .f32⟩
  | 24 => ⟨S10000x300, .f32⟩
  | 25 => ⟨S1x300, .f32⟩
  | 26 => ⟨S10000x300, .f32⟩
  | 27 => ⟨S10000x300, .f32⟩
  | 28 => ⟨S_, .f32⟩
  | 29 => ⟨S10000x300, .f32⟩
  | 30 => ⟨S10000x300, .f32⟩
  | 31 => ⟨S_, .f32⟩
  | 32 => ⟨S64x300, .f32⟩
  | 33 => ⟨S10000x1, .i32⟩
  | 34 => ⟨S64x300, .f32⟩
  | 35 => ⟨S64x300, .f32⟩
  | 36 => ⟨S64x600, .f32⟩
  | 37 => ⟨S1x600, .f32⟩
  | 38 => ⟨S64x600, .f32⟩
  | 39 => ⟨S64x600, .f32⟩
  | 40 => ⟨S_, .f32⟩
  | 41 => ⟨S600, .f32⟩
  | 42 => ⟨S_, .f32⟩
  | 43 => ⟨S600, .f32⟩
  | 44 => ⟨S600, .f32⟩
  | 45 => ⟨S_, .i32⟩
  | 46 => ⟨S_, .f32⟩
  | 47 => ⟨S600, .f32⟩
  | 48 => ⟨S1x600, .f32⟩
  | 49 => ⟨S_, .f32⟩
  | 50 => ⟨S1x600, .f32⟩
  | 51 => ⟨S1x600, .f32⟩
  | 52 => ⟨S64x600, .f32⟩
  | 53 => ⟨S64x600, .f32⟩
  | 54 => ⟨S64x600, .f32⟩
  | 55 => ⟨S_, .f32⟩
  | 56 => ⟨S_, .f32⟩
  | 57 => ⟨S_, .f32⟩
  | 58 => ⟨S_, .f32⟩
  | 59 => ⟨S600, .f32⟩
  | 60 => ⟨S600, .f32⟩
  | 61 => ⟨S600, .f32⟩
  | 62 => ⟨S_, .f32⟩
  | 63 => ⟨S_, .i1⟩
  | 64 => ⟨S_, .f32⟩
  | 65 => ⟨S_, .f32⟩
  | 66 => ⟨S600, .f32⟩
  | 67 => ⟨S600, .f32⟩
  | 68 => ⟨S1x600, .f32⟩
  | 69 => ⟨S64x600, .f32⟩
  | 70 => ⟨S64x600, .f32⟩
  | 71 => ⟨S_, .f32⟩
  | 72 => ⟨S600, .f32⟩
  | 73 => ⟨S600, .f32⟩
  | 74 => ⟨S600, .f32⟩
  | 75 => ⟨S1x600, .f32⟩
  | 76 => ⟨S64x600, .f32⟩
  | 77 => ⟨S64x600, .f32⟩
  | 78 => ⟨S1x600, .f32⟩
  | 79 => ⟨S64x600, .f32⟩
  | 80 => ⟨S64x600, .f32⟩
  | 81 => ⟨S1x600, .f32⟩
  | 82 => ⟨S64x600, .f32⟩
  | 83 => ⟨S64x600, .f32⟩
  | 84 => ⟨S_, .f32⟩
  | 85 => ⟨S64x600, .f32⟩
  | 86 => ⟨S64x600, .f32⟩
  | 87 => ⟨S64x300, .f32⟩
  | 88 => ⟨S1x300, .f32⟩
  | 89 => ⟨S64x300, .f32⟩
  | 90 => ⟨S64x300, .f32⟩
  | 91 => ⟨S_, .f32⟩
  | 92 => ⟨S300, .f32⟩
  | 93 => ⟨S_, .f32⟩
  | 94 => ⟨S300, .f32⟩
  | 95 => ⟨S300, .f32⟩
  | 96 => ⟨S_, .i32⟩
  | 97 => ⟨S_, .f32⟩
  | 98 => ⟨S300, .f32⟩
  | 99 => ⟨S1x300, .f32⟩
  | 100 => ⟨S_, .f32⟩
  | 101 => ⟨S1x300, .f32⟩
  | 102 => ⟨S1x300, .f32⟩
  | 103 => ⟨S64x300, .f32⟩
  | 104 => ⟨S64x300, .f32⟩
  | 105 => ⟨S64x300, .f32⟩
  | 106 => ⟨S_, .f32⟩
  | 107 => ⟨S_, .f32⟩
  | 108 => ⟨S_, .f32⟩
  | 109 => ⟨S_, .f32⟩
  | 110 => ⟨S300, .f32⟩
  | 111 => ⟨S300, .f32⟩
  | 112 => ⟨S300, .f32⟩
  | 113 => ⟨S_, .f32⟩
  | 114 => ⟨S_, .i1⟩
  | 115 => ⟨S_, .f32⟩
  | 116 => ⟨S_, .f32⟩
  | 117 => ⟨S300, .f32⟩
  | 118 => ⟨S300, .f32⟩
  | 119 => ⟨S1x300, .f32⟩
  | 120 => ⟨S64x300, .f32⟩
  | 121 => ⟨S64x300, .f32⟩
  | 122 => ⟨S_, .f32⟩
  | 123 => ⟨S300, .f32⟩
  | 124 => ⟨S300, .f32⟩
  | 125 => ⟨S300, .f32⟩
  | 126 => ⟨S1x300, .f32⟩
  | 127 => ⟨S64x300, .f32⟩
  | _ => ⟨S10000x128, .f32⟩

abbrev hbmTy0_5 (i : Nat) : BufTy := match i % 128 with
  | 0 => ⟨S64x300, .f32⟩
  | 1 => ⟨S1x300, .f32⟩
  | 2 => ⟨S64x300, .f32⟩
  | 3 => ⟨S64x300, .f32⟩
  | 4 => ⟨S1x300, .f32⟩
  | 5 => ⟨S64x300, .f32⟩
  | 6 => ⟨S64x300, .f32⟩
  | 7 => ⟨S_, .f32⟩
  | 8 => ⟨S64x300, .f32⟩
  | 9 => ⟨S64x300, .f32⟩
  | 10 => ⟨S_, .i32⟩
  | 11 => ⟨S10000, .i32⟩
  | 12 => ⟨S10000, .i1⟩
  | 13 => ⟨S_, .i32⟩
  | 14 => ⟨S10000, .i32⟩
  | 15 => ⟨S10000, .i32⟩
  | 16 => ⟨S10000, .i32⟩
  | 17 => ⟨S10000x1, .i32⟩
  | 18 => ⟨S10000x300, .f32⟩
  | 19 => ⟨S10000x300, .f32⟩
  | 20 => ⟨S1x300x600, .f32⟩
  | 21 => ⟨S300x600, .f32⟩
  | 22 => ⟨S1x600, .f32⟩
  | 23 => ⟨S600, .f32⟩
  | 24 => ⟨S1x600, .f32⟩
  | 25 => ⟨S600, .f32⟩
  | 26 => ⟨S1x600, .f32⟩
  | 27 => ⟨S600, .f32⟩
  | 28 => ⟨S1x600x300, .f32⟩
  | 29 => ⟨S600x300, .f32⟩
  | 30 => ⟨S1x300, .f32⟩
  | 31 => ⟨S300, .f32⟩
  | 32 => ⟨S_, .i32⟩
  | 33 => ⟨S160000, .i32⟩
  | 34 => ⟨S160000, .i1⟩
  | 35 => ⟨S_, .i32⟩
  | 36 => ⟨S160000, .i32⟩
  | 37 => ⟨S160000, .i32⟩
  | 38 => ⟨S160000, .i32⟩
  | 39 => ⟨S160000x1, .i32⟩
  | 40 => ⟨S160000x300, .f32⟩
  | 41 => ⟨S_, .f32⟩
  | 42 => ⟨S10000x300, .f32⟩
  | 43 => ⟨S160000x1, .i32⟩
  | 44 => ⟨S10000x300, .f32⟩
  | 45 => ⟨S10000x300, .f32⟩
  | 46 => ⟨S10000x600, .f32⟩
  | 47 => ⟨S1x600, .f32⟩
  | 48 => ⟨S10000x600, .f32⟩
  | 49 => ⟨S10000x600, .f32⟩
  | 50 => ⟨S_, .f32⟩
  | 51 => ⟨S600, .f32⟩
  | 52 => ⟨S_, .f32⟩
  | 53 => ⟨S600, .f32⟩
  | 54 => ⟨S600, .f32⟩
  | 55 => ⟨S_, .i32⟩
  | 56 => ⟨S_, .f32⟩
  | 57 => ⟨S600, .f32⟩
  | 58 => ⟨S1x600, .f32⟩
  | 59 => ⟨S_, .f32⟩
  | 60 => ⟨S1x600, .f32⟩
  | 61 => ⟨S1x600, .f32⟩
  | 62 => ⟨S10000x600, .f32⟩
  | 63 => ⟨S10000x600, .f32⟩
  | 64 => ⟨S10000x600, .f32⟩
  | 65 => ⟨S_, .f32⟩
  | 66 => ⟨S_, .f32⟩
  | 67 => ⟨S_, .f32⟩
  | 68 => ⟨S_, .f32⟩
  | 69 => ⟨S600, .f32⟩
  | 70 => ⟨S600, .f32⟩
  | 71 => ⟨S600, .f32⟩
  | 72 => ⟨S_, .f32⟩
  | 73 => ⟨S_, .i1⟩
  | 74 => ⟨S_, .f32⟩
  | 75 => ⟨S_, .f32⟩
  | 76 => ⟨S600, .f32⟩
  | 77 => ⟨S600, .f32⟩
  | 78 => ⟨S1x600, .f32⟩
  | 79 => ⟨S10000x600, .f32⟩
  | 80 => ⟨S10000x600, .f32⟩
  | 81 => ⟨S_, .f32⟩
  | 82 => ⟨S600, .f32⟩
  | 83 => ⟨S600, .f32⟩
  | 84 => ⟨S600, .f32⟩
  | 85 => ⟨S1x600, .f32⟩
  | 86 => ⟨S10000x600, .f32⟩
  | 87 => ⟨S10000x600, .f32⟩
  | 88 => ⟨S1x600, .f32⟩
  | 89 => ⟨S10000x600, .f32⟩
  | 90 => ⟨S10000x600, .f32⟩
  | 91 => ⟨S1x600, .f32⟩
  | 92 => ⟨S10000x600, .f32⟩
  | 93 => ⟨S10000x600, .f32⟩
  | 94 => ⟨S_, .f32⟩
  | 95 => ⟨S10000x600, .f32⟩
  | 96 => ⟨S10000x600, .f32⟩
  | 97 => ⟨S10000x300, .f32⟩
  | 98 => ⟨S1x300, .f32⟩
  | 99 => ⟨S10000x300, .f32⟩
  | 100 => ⟨S10000x300, .f32⟩
  | 101 => ⟨S1x300, .f32⟩
  | 102 => ⟨S300, .f32⟩
  | 103 => ⟨S1x300, .f32⟩
  | 104 => ⟨S300, .f32⟩
  | 105 => ⟨S_, .f32⟩
  | 106 => ⟨S300, .f32⟩
  | 107 => ⟨S_, .f32⟩
  | 108 => ⟨S300, .f32⟩
  | 109 => ⟨S300, .f32⟩
  | 110 => ⟨S_, .i32⟩
  | 111 => ⟨S_, .f32⟩
  | 112 => ⟨S300, .f32⟩
  | 113 => ⟨S1x300, .f32⟩
  | 114 => ⟨S_, .f32⟩
  | 115 => ⟨S1x300, .f32⟩
  | 116 => ⟨S1x300, .f32⟩
  | 117 => ⟨S10000x300, .f32⟩
  | 118 => ⟨S10000x300, .f32⟩
  | 119 => ⟨S10000x300, .f32⟩
  | 120 => ⟨S_, .f32⟩
  | 121 => ⟨S_, .f32⟩
  | 122 => ⟨S_, .f32⟩
  | 123 => ⟨S_, .f32⟩
  | 124 => ⟨S300, .f32⟩
  | 125 => ⟨S300, .f32⟩
  | 126 => ⟨S300, .f32⟩
  | 127 => ⟨S_, .f32⟩
  | _ => ⟨S10000x128, .f32⟩

abbrev hbmTy0_6 (i : Nat) : BufTy := match i % 128 with
  | 0 => ⟨S_, .i1⟩
  | 1 => ⟨S_, .f32⟩
  | 2 => ⟨S_, .f32⟩
  | 3 => ⟨S300, .f32⟩
  | 4 => ⟨S300, .f32⟩
  | 5 => ⟨S1x300, .f32⟩
  | 6 => ⟨S10000x300, .f32⟩
  | 7 => ⟨S10000x300, .f32⟩
  | 8 => ⟨S_, .f32⟩
  | 9 => ⟨S300, .f32⟩
  | 10 => ⟨S300, .f32⟩
  | 11 => ⟨S300, .f32⟩
  | 12 => ⟨S1x300, .f32⟩
  | 13 => ⟨S10000x300, .f32⟩
  | 14 => ⟨S10000x300, .f32⟩
  | 15 => ⟨S1x300, .f32⟩
  | 16 => ⟨S10000x300, .f32⟩
  | 17 => ⟨S10000x300, .f32⟩
  | 18 => ⟨S1x300, .f32⟩
  | 19 => ⟨S10000x300, .f32⟩
  | 20 => ⟨S10000x300, .f32⟩
  | 21 => ⟨S_, .f32⟩
  | 22 => ⟨S10000x300, .f32⟩
  | 23 => ⟨S10000x300, .f32⟩
  | 24 => ⟨S_, .f32⟩
  | 25 => ⟨S64x300, .f32⟩
  | 26 => ⟨S10000x1, .i32⟩
  | 27 => ⟨S64x300, .f32⟩
  | 28 => ⟨S64x300, .f32⟩
  | 29 => ⟨S64x600, .f32⟩
  | 30 => ⟨S1x600, .f32⟩
  | 31 => ⟨S64x600, .f32⟩
  | 32 => ⟨S64x600, .f32⟩
  | 33 => ⟨S_, .f32⟩
  | 34 => ⟨S600, .f32⟩
  | 35 => ⟨S_, .f32⟩
  | 36 => ⟨S600, .f32⟩
  | 37 => ⟨S600, .f32⟩
  | 38 => ⟨S_, .i32⟩
  | 39 => ⟨S_, .f32⟩
  | 40 => ⟨S600, .f32⟩
  | 41 => ⟨S1x600, .f32⟩
  | 42 => ⟨S_, .f32⟩
  | 43 => ⟨S1x600, .f32⟩
  | 44 => ⟨S1x600, .f32⟩
  | 45 => ⟨S64x600, .f32⟩
  | 46 => ⟨S64x600, .f32⟩
  | 47 => ⟨S64x600, .f32⟩
  | 48 => ⟨S_, .f32⟩
  | 49 => ⟨S_, .f32⟩
  | 50 => ⟨S_, .f32⟩
  | 51 => ⟨S_, .f32⟩
  | 52 => ⟨S600, .f32⟩
  | 53 => ⟨S600, .f32⟩
  | 54 => ⟨S600, .f32⟩
  | 55 => ⟨S_, .f32⟩
  | 56 => ⟨S_, .i1⟩
  | 57 => ⟨S_, .f32⟩
  | 58 => ⟨S_, .f32⟩
  | 59 => ⟨S600, .f32⟩
  | 60 => ⟨S600, .f32⟩
  | 61 => ⟨S1x600, .f32⟩
  | 62 => ⟨S64x600, .f32⟩
  | 63 => ⟨S64x600, .f32⟩
  | 64 => ⟨S_, .f32⟩
  | 65 => ⟨S600, .f32⟩
  | 66 => ⟨S600, .f32⟩
  | 67 => ⟨S600, .f32⟩
  | 68 => ⟨S1x600, .f32⟩
  | 69 => ⟨S64x600, .f32⟩
  | 70 => ⟨S64x600, .f32⟩
  | 71 => ⟨S1x600, .f32⟩
  | 72 => ⟨S64x600, .f32⟩
  | 73 => ⟨S64x600, .f32⟩
  | 74 => ⟨S1x600, .f32⟩
  | 75 => ⟨S64x600, .f32⟩
  | 76 => ⟨S64x600, .f32⟩
  | 77 => ⟨S_, .f32⟩
  | 78 => ⟨S64x600, .f32⟩
  | 79 => ⟨S64x600, .f32⟩
  | 80 => ⟨S64x300, .f32⟩
  | 81 => ⟨S1x300, .f32⟩
  | 82 => ⟨S64x300, .f32⟩
  | 83 => ⟨S64x300, .f32⟩
  | 84 => ⟨S_, .f32⟩
  | 85 => ⟨S300, .f32⟩
  | 86 => ⟨S_, .f32⟩
  | 87 => ⟨S300, .f32⟩
  | 88 => ⟨S300, .f32⟩
  | 89 => ⟨S_, .i32⟩
  | 90 => ⟨S_, .f32⟩
  | 91 => ⟨S300, .f32⟩
  | 92 => ⟨S1x300, .f32⟩
  | 93 => ⟨S_, .f32⟩
  | 94 => ⟨S1x300, .f32⟩
  | 95 => ⟨S1x300, .f32⟩
  | 96 => ⟨S64x300, .f32⟩
  | 97 => ⟨S64x300, .f32⟩
  | 98 => ⟨S64x300, .f32⟩
  | 99 => ⟨S_, .f32⟩
  | 100 => ⟨S_, .f32⟩
  | 101 => ⟨S_, .f32⟩
  | 102 => ⟨S_, .f32⟩
  | 103 => ⟨S300, .f32⟩
  | 104 => ⟨S300, .f32⟩
  | 105 => ⟨S300, .f32⟩
  | 106 => ⟨S_, .f32⟩
  | 107 => ⟨S_, .i1⟩
  | 108 => ⟨S_, .f32⟩
  | 109 => ⟨S_, .f32⟩
  | 110 => ⟨S300, .f32⟩
  | 111 => ⟨S300, .f32⟩
  | 112 => ⟨S1x300, .f32⟩
  | 113 => ⟨S64x300, .f32⟩
  | 114 => ⟨S64x300, .f32⟩
  | 115 => ⟨S_, .f32⟩
  | 116 => ⟨S300, .f32⟩
  | 117 => ⟨S300, .f32⟩
  | 118 => ⟨S300, .f32⟩
  | 119 => ⟨S1x300, .f32⟩
  | 120 => ⟨S64x300, .f32⟩
  | 121 => ⟨S64x300, .f32⟩
  | 122 => ⟨S1x300, .f32⟩
  | 123 => ⟨S64x300, .f32⟩
  | 124 => ⟨S64x300, .f32⟩
  | 125 => ⟨S1x300, .f32⟩
  | 126 => ⟨S64x300, .f32⟩
  | 127 => ⟨S64x300, .f32⟩
  | _ => ⟨S10000x128, .f32⟩

abbrev hbmTy0_7 (i : Nat) : BufTy := match i % 128 with
  | 0 => ⟨S_, .f32⟩
  | 1 => ⟨S64x300, .f32⟩
  | 2 => ⟨S64x300, .f32⟩
  | 3 => ⟨S_, .i32⟩
  | 4 => ⟨S10000, .i32⟩
  | 5 => ⟨S10000, .i1⟩
  | 6 => ⟨S_, .i32⟩
  | 7 => ⟨S10000, .i32⟩
  | 8 => ⟨S10000, .i32⟩
  | 9 => ⟨S10000, .i32⟩
  | 10 => ⟨S10000x1, .i32⟩
  | 11 => ⟨S10000x300, .f32⟩
  | 12 => ⟨S10000x300, .f32⟩
  | 13 => ⟨S1x300x600, .f32⟩
  | 14 => ⟨S300x600, .f32⟩
  | 15 => ⟨S1x600, .f32⟩
  | 16 => ⟨S600, .f32⟩
  | 17 => ⟨S1x600, .f32⟩
  | 18 => ⟨S600, .f32⟩
  | 19 => ⟨S1x600, .f32⟩
  | 20 => ⟨S600, .f32⟩
  | 21 => ⟨S1x600x300, .f32⟩
  | 22 => ⟨S600x300, .f32⟩
  | 23 => ⟨S1x300, .f32⟩
  | 24 => ⟨S300, .f32⟩
  | 25 => ⟨S_, .i32⟩
  | 26 => ⟨S160000, .i32⟩
  | 27 => ⟨S160000, .i1⟩
  | 28 => ⟨S_, .i32⟩
  | 29 => ⟨S160000, .i32⟩
  | 30 => ⟨S160000, .i32⟩
  | 31 => ⟨S160000, .i32⟩
  | 32 => ⟨S160000x1, .i32⟩
  | 33 => ⟨S160000x300, .f32⟩
  | 34 => ⟨S_, .f32⟩
  | 35 => ⟨S10000x300, .f32⟩
  | 36 => ⟨S160000x1, .i32⟩
  | 37 => ⟨S10000x300, .f32⟩
  | 38 => ⟨S10000x300, .f32⟩
  | 39 => ⟨S10000x600, .f32⟩
  | 40 => ⟨S1x600, .f32⟩
  | 41 => ⟨S10000x600, .f32⟩
  | 42 => ⟨S10000x600, .f32⟩
  | 43 => ⟨S_, .f32⟩
  | 44 => ⟨S600, .f32⟩
  | 45 => ⟨S_, .f32⟩
  | 46 => ⟨S600, .f32⟩
  | 47 => ⟨S600, .f32⟩
  | 48 => ⟨S_, .i32⟩
  | 49 => ⟨S_, .f32⟩
  | 50 => ⟨S600, .f32⟩
  | 51 => ⟨S1x600, .f32⟩
  | 52 => ⟨S_, .f32⟩
  | 53 => ⟨S1x600, .f32⟩
  | 54 => ⟨S1x600, .f32⟩
  | 55 => ⟨S10000x600, .f32⟩
  | 56 => ⟨S10000x600, .f32⟩
  | 57 => ⟨S10000x600, .f32⟩
  | 58 => ⟨S_, .f32⟩
  | 59 => ⟨S_, .f32⟩
  | 60 => ⟨S_, .f32⟩
  | 61 => ⟨S_, .f32⟩
  | 62 => ⟨S600, .f32⟩
  | 63 => ⟨S600, .f32⟩
  | 64 => ⟨S600, .f32⟩
  | 65 => ⟨S_, .f32⟩
  | 66 => ⟨S_, .i1⟩
  | 67 => ⟨S_, .f32⟩
  | 68 => ⟨S_, .f32⟩
  | 69 => ⟨S600, .f32⟩
  | 70 => ⟨S600, .f32⟩
  | 71 => ⟨S1x600, .f32⟩
  | 72 => ⟨S10000x600, .f32⟩
  | 73 => ⟨S10000x600, .f32⟩
  | 74 => ⟨S_, .f32⟩
  | 75 => ⟨S600, .f32⟩
  | 76 => ⟨S600, .f32⟩
  | 77 => ⟨S600, .f32⟩
  | 78 => ⟨S1x600, .f32⟩
  | 79 => ⟨S10000x600, .f32⟩
  | 80 => ⟨S10000x600, .f32⟩
  | 81 => ⟨S1x600, .f32⟩
  | 82 => ⟨S10000x600, .f32⟩
  | 83 => ⟨S10000x600, .f32⟩
  | 84 => ⟨S1x600, .f32⟩
  | 85 => ⟨S10000x600, .f32⟩
  | 86 => ⟨S10000x600, .f32⟩
  | 87 => ⟨S_, .f32⟩
  | 88 => ⟨S10000x600, .f32⟩
  | 89 => ⟨S10000x600, .f32⟩
  | 90 => ⟨S10000x300, .f32⟩
  | 91 => ⟨S1x300, .f32⟩
  | 92 => ⟨S10000x300, .f32⟩
  | 93 => ⟨S10000x300, .f32⟩
  | 94 => ⟨S1x300, .f32⟩
  | 95 => ⟨S300, .f32⟩
  | 96 => ⟨S1x300, .f32⟩
  | 97 => ⟨S300, .f32⟩
  | 98 => ⟨S_, .f32⟩
  | 99 => ⟨S300, .f32⟩
  | 100 => ⟨S_, .f32⟩
  | 101 => ⟨S300, .f32⟩
  | 102 => ⟨S300, .f32⟩
  | 103 => ⟨S_, .i32⟩
  | 104 => ⟨S_, .f32⟩
  | 105 => ⟨S300, .f32⟩
  | 106 => ⟨S1x300, .f32⟩
  | 107 => ⟨S_, .f32⟩
  | 108 => ⟨S1x300, .f32⟩
  | 109 => ⟨S1x300, .f32⟩
  | 110 => ⟨S10000x300, .f32⟩
  | 111 => ⟨S10000x300, .f32⟩
  | 112 => ⟨S10000x300, .f32⟩
  | 113 => ⟨S_, .f32⟩
  | 114 => ⟨S_, .f32⟩
  | 115 => ⟨S_, .f32⟩
  | 116 => ⟨S_, .f32⟩
  | 117 => ⟨S300, .f32⟩
  | 118 => ⟨S300, .f32⟩
  | 119 => ⟨S300, .f32⟩
  | 120 => ⟨S_, .f32⟩
  | 121 => ⟨S_, .i1⟩
  | 122 => ⟨S_, .f32⟩
  | 123 => ⟨S_, .f32⟩
  | 124 => ⟨S300, .f32⟩
  | 125 => ⟨S300, .f32⟩
  | 126 => ⟨S1x300, .f32⟩
  | 127 => ⟨S10000x300, .f32⟩
  | _ => ⟨S10000x128, .f32⟩

abbrev hbmTy0_8 (i : Nat) : BufTy := match i % 128 with
  | 0 => ⟨S10000x300, .f32⟩
  | 1 => ⟨S_, .f32⟩
  | 2 => ⟨S300, .f32⟩
  | 3 => ⟨S300, .f32⟩
  | 4 => ⟨S300, .f32⟩
  | 5 => ⟨S1x300, .f32⟩
  | 6 => ⟨S10000x300, .f32⟩
  | 7 => ⟨S10000x300, .f32⟩
  | 8 => ⟨S1x300, .f32⟩
  | 9 => ⟨S10000x300, .f32⟩
  | 10 => ⟨S10000x300, .f32⟩
  | 11 => ⟨S1x300, .f32⟩
  | 12 => ⟨S10000x300, .f32⟩
  | 13 => ⟨S10000x300, .f32⟩
  | 14 => ⟨S_, .f32⟩
  | 15 => ⟨S10000, .f32⟩
  | 16 => ⟨S_, .f32⟩
  | 17 => ⟨S64, .f32⟩
  | 18 => ⟨S10000x1, .i32⟩
  | 19 => ⟨S64, .f32⟩
  | 20 => ⟨S_, .f32⟩
  | 21 => ⟨S64x300, .f32⟩
  | 22 => ⟨S10000x1, .i32⟩
  | 23 => ⟨S64x300, .f32⟩
  | 24 => ⟨S_, .f32⟩
  | 25 => ⟨S64, .f32⟩
  | 26 => ⟨S64, .f32⟩
  | 27 => ⟨S64x1, .f32⟩
  | 28 => ⟨S64x300, .f32⟩
  | 29 => ⟨S64x300, .f32⟩
  | 30 => ⟨S64x10, .f32⟩
  | 31 => ⟨S1x10, .f32⟩
  | 32 => ⟨S64x10, .f32⟩
  | 33 => ⟨S64x10, .f32⟩
  | _ => ⟨S10000x128, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | 7 => hbmTy0_7 i
  | 8 => hbmTy0_8 i
  | _ => ⟨S10000x128, .f32⟩

abbrev bufTy : (tb : Table) → Fin (tcTables nBuf tb) → BufTy
  | .hbm, ⟨i, _⟩ => hbmTy i
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_v0 : Ref sig .tc := ⟨.hbm, 30, rfl⟩
abbrev main_v1 : Ref sig .tc := ⟨.hbm, 31, rfl⟩
abbrev main_v2 : Ref sig .tc := ⟨.hbm, 32, rfl⟩
abbrev main_v3 : Ref sig .tc := ⟨.hbm, 33, rfl⟩
abbrev main_v4 : Ref sig .tc := ⟨.hbm, 34, rfl⟩
abbrev main_v5 : Ref sig .tc := ⟨.hbm, 35, rfl⟩
abbrev main_c : Ref sig .tc := ⟨.hbm, 36, rfl⟩
abbrev main_v6 : Ref sig .tc := ⟨.hbm, 37, rfl⟩
abbrev main_v7 : Ref sig .tc := ⟨.hbm, 38, rfl⟩
abbrev main_c_0 : Ref sig .tc := ⟨.hbm, 39, rfl⟩
abbrev main_v8 : Ref sig .tc := ⟨.hbm, 40, rfl⟩
abbrev main_v9 : Ref sig .tc := ⟨.hbm, 41, rfl⟩
abbrev main_v10 : Ref sig .tc := ⟨.hbm, 42, rfl⟩
abbrev main_v11 : Ref sig .tc := ⟨.hbm, 43, rfl⟩
abbrev main_v12 : Ref sig .tc := ⟨.hbm, 44, rfl⟩
abbrev main_cst : Ref sig .tc := ⟨.hbm, 45, rfl⟩
abbrev main_v13 : Ref sig .tc := ⟨.hbm, 46, rfl⟩
abbrev main_v14 : Ref sig .tc := ⟨.hbm, 47, rfl⟩
abbrev main_v15 : Ref sig .tc := ⟨.hbm, 48, rfl⟩
abbrev main_v16 : Ref sig .tc := ⟨.hbm, 49, rfl⟩
abbrev main_v17 : Ref sig .tc := ⟨.hbm, 50, rfl⟩
abbrev main_v18 : Ref sig .tc := ⟨.hbm, 51, rfl⟩
abbrev main_v19 : Ref sig .tc := ⟨.hbm, 52, rfl⟩
abbrev main_v20 : Ref sig .tc := ⟨.hbm, 53, rfl⟩
abbrev main_cst_1 : Ref sig .tc := ⟨.hbm, 54, rfl⟩
abbrev main_v21 : Ref sig .tc := ⟨.hbm, 55, rfl⟩
abbrev main_cst_2 : Ref sig .tc := ⟨.hbm, 56, rfl⟩
abbrev main_v22 : Ref sig .tc := ⟨.hbm, 57, rfl⟩
abbrev main_v23 : Ref sig .tc := ⟨.hbm, 58, rfl⟩
abbrev main_c_3 : Ref sig .tc := ⟨.hbm, 59, rfl⟩
abbrev main_call0_cst : Ref sig .tc := ⟨.hbm, 60, rfl⟩
abbrev main_call0_v0 : Ref sig .tc := ⟨.hbm, 61, rfl⟩
abbrev main_call0_v1 : Ref sig .tc := ⟨.hbm, 62, rfl⟩
abbrev main_call0_cst_0 : Ref sig .tc := ⟨.hbm, 63, rfl⟩
abbrev main_call0_v2 : Ref sig .tc := ⟨.hbm, 64, rfl⟩
abbrev main_call0_v3 : Ref sig .tc := ⟨.hbm, 65, rfl⟩
abbrev main_call0_v4 : Ref sig .tc := ⟨.hbm, 66, rfl⟩
abbrev main_call0_v5 : Ref sig .tc := ⟨.hbm, 67, rfl⟩
abbrev main_call0_v6 : Ref sig .tc := ⟨.hbm, 68, rfl⟩
abbrev main_call0_v7 : Ref sig .tc := ⟨.hbm, 69, rfl⟩
abbrev main_call0_cst_1 : Ref sig .tc := ⟨.hbm, 70, rfl⟩
abbrev main_call0_v8 : Ref sig .tc := ⟨.hbm, 71, rfl⟩
abbrev main_call0_cst_2 : Ref sig .tc := ⟨.hbm, 72, rfl⟩
abbrev main_call0_v9 : Ref sig .tc := ⟨.hbm, 73, rfl⟩
abbrev main_call0_v10 : Ref sig .tc := ⟨.hbm, 74, rfl⟩
abbrev main_call0_v11 : Ref sig .tc := ⟨.hbm, 75, rfl⟩
abbrev main_call0_cst_3 : Ref sig .tc := ⟨.hbm, 76, rfl⟩
abbrev main_call0_v12 : Ref sig .tc := ⟨.hbm, 77, rfl⟩
abbrev main_call0_cst_4 : Ref sig .tc := ⟨.hbm, 78, rfl⟩
abbrev main_call0_call0_v0 : Ref sig .tc := ⟨.hbm, 79, rfl⟩
abbrev main_call0_call0_v1 : Ref sig .tc := ⟨.hbm, 80, rfl⟩
abbrev main_v24 : Ref sig .tc := ⟨.hbm, 81, rfl⟩
abbrev main_v25 : Ref sig .tc := ⟨.hbm, 82, rfl⟩
abbrev main_v26 : Ref sig .tc := ⟨.hbm, 83, rfl⟩
abbrev main_v27 : Ref sig .tc := ⟨.hbm, 84, rfl⟩
abbrev main_cst_4 : Ref sig .tc := ⟨.hbm, 85, rfl⟩
abbrev main_v28 : Ref sig .tc := ⟨.hbm, 86, rfl⟩
abbrev main_v29 : Ref sig .tc := ⟨.hbm, 87, rfl⟩
abbrev main_v30 : Ref sig .tc := ⟨.hbm, 88, rfl⟩
abbrev main_v31 : Ref sig .tc := ⟨.hbm, 89, rfl⟩
abbrev main_v32 : Ref sig .tc := ⟨.hbm, 90, rfl⟩
abbrev main_v33 : Ref sig .tc := ⟨.hbm, 91, rfl⟩
abbrev main_v34 : Ref sig .tc := ⟨.hbm, 92, rfl⟩
abbrev main_v35 : Ref sig .tc := ⟨.hbm, 93, rfl⟩
abbrev main_v36 : Ref sig .tc := ⟨.hbm, 94, rfl⟩
abbrev main_v37 : Ref sig .tc := ⟨.hbm, 95, rfl⟩
abbrev main_v38 : Ref sig .tc := ⟨.hbm, 96, rfl⟩
abbrev main_v39 : Ref sig .tc := ⟨.hbm, 97, rfl⟩
abbrev main_call1_cst : Ref sig .tc := ⟨.hbm, 98, rfl⟩
abbrev main_call1_v0 : Ref sig .tc := ⟨.hbm, 99, rfl⟩
abbrev main_v40 : Ref sig .tc := ⟨.hbm, 100, rfl⟩
abbrev main_v41 : Ref sig .tc := ⟨.hbm, 101, rfl⟩
abbrev main_v42 : Ref sig .tc := ⟨.hbm, 102, rfl⟩
abbrev main_v43 : Ref sig .tc := ⟨.hbm, 103, rfl⟩
abbrev main_v44 : Ref sig .tc := ⟨.hbm, 104, rfl⟩
abbrev main_cst_5 : Ref sig .tc := ⟨.hbm, 105, rfl⟩
abbrev main_v45 : Ref sig .tc := ⟨.hbm, 106, rfl⟩
abbrev main_cst_6 : Ref sig .tc := ⟨.hbm, 107, rfl⟩
abbrev main_v46 : Ref sig .tc := ⟨.hbm, 108, rfl⟩
abbrev main_v47 : Ref sig .tc := ⟨.hbm, 109, rfl⟩
abbrev main_c_7 : Ref sig .tc := ⟨.hbm, 110, rfl⟩
abbrev main_call2_cst : Ref sig .tc := ⟨.hbm, 111, rfl⟩
abbrev main_call2_v0 : Ref sig .tc := ⟨.hbm, 112, rfl⟩
abbrev main_call2_v1 : Ref sig .tc := ⟨.hbm, 113, rfl⟩
abbrev main_call2_cst_0 : Ref sig .tc := ⟨.hbm, 114, rfl⟩
abbrev main_call2_v2 : Ref sig .tc := ⟨.hbm, 115, rfl⟩
abbrev main_call2_v3 : Ref sig .tc := ⟨.hbm, 116, rfl⟩
abbrev main_call2_v4 : Ref sig .tc := ⟨.hbm, 117, rfl⟩
abbrev main_call2_v5 : Ref sig .tc := ⟨.hbm, 118, rfl⟩
abbrev main_call2_v6 : Ref sig .tc := ⟨.hbm, 119, rfl⟩
abbrev main_call2_v7 : Ref sig .tc := ⟨.hbm, 120, rfl⟩
abbrev main_call2_cst_1 : Ref sig .tc := ⟨.hbm, 121, rfl⟩
abbrev main_call2_v8 : Ref sig .tc := ⟨.hbm, 122, rfl⟩
abbrev main_call2_cst_2 : Ref sig .tc := ⟨.hbm, 123, rfl⟩
abbrev main_call2_v9 : Ref sig .tc := ⟨.hbm, 124, rfl⟩
abbrev main_call2_v10 : Ref sig .tc := ⟨.hbm, 125, rfl⟩
abbrev main_call2_v11 : Ref sig .tc := ⟨.hbm, 126, rfl⟩
abbrev main_call2_cst_3 : Ref sig .tc := ⟨.hbm, 127, rfl⟩
abbrev main_call2_v12 : Ref sig .tc := ⟨.hbm, 128, rfl⟩
abbrev main_call2_cst_4 : Ref sig .tc := ⟨.hbm, 129, rfl⟩
abbrev main_call2_call0_v0 : Ref sig .tc := ⟨.hbm, 130, rfl⟩
abbrev main_call2_call0_v1 : Ref sig .tc := ⟨.hbm, 131, rfl⟩
abbrev main_v48 : Ref sig .tc := ⟨.hbm, 132, rfl⟩
abbrev main_v49 : Ref sig .tc := ⟨.hbm, 133, rfl⟩
abbrev main_v50 : Ref sig .tc := ⟨.hbm, 134, rfl⟩
abbrev main_v51 : Ref sig .tc := ⟨.hbm, 135, rfl⟩
abbrev main_cst_8 : Ref sig .tc := ⟨.hbm, 136, rfl⟩
abbrev main_v52 : Ref sig .tc := ⟨.hbm, 137, rfl⟩
abbrev main_v53 : Ref sig .tc := ⟨.hbm, 138, rfl⟩
abbrev main_v54 : Ref sig .tc := ⟨.hbm, 139, rfl⟩
abbrev main_v55 : Ref sig .tc := ⟨.hbm, 140, rfl⟩
abbrev main_v56 : Ref sig .tc := ⟨.hbm, 141, rfl⟩
abbrev main_v57 : Ref sig .tc := ⟨.hbm, 142, rfl⟩
abbrev main_v58 : Ref sig .tc := ⟨.hbm, 143, rfl⟩
abbrev main_v59 : Ref sig .tc := ⟨.hbm, 144, rfl⟩
abbrev main_v60 : Ref sig .tc := ⟨.hbm, 145, rfl⟩
abbrev main_v61 : Ref sig .tc := ⟨.hbm, 146, rfl⟩
abbrev main_v62 : Ref sig .tc := ⟨.hbm, 147, rfl⟩
abbrev main_v63 : Ref sig .tc := ⟨.hbm, 148, rfl⟩
abbrev main_call3_cst : Ref sig .tc := ⟨.hbm, 149, rfl⟩
abbrev main_call3_v0 : Ref sig .tc := ⟨.hbm, 150, rfl⟩
abbrev main_v64 : Ref sig .tc := ⟨.hbm, 151, rfl⟩
abbrev main_c_9 : Ref sig .tc := ⟨.hbm, 152, rfl⟩
abbrev main_v65 : Ref sig .tc := ⟨.hbm, 153, rfl⟩
abbrev main_v66 : Ref sig .tc := ⟨.hbm, 154, rfl⟩
abbrev main_c_10 : Ref sig .tc := ⟨.hbm, 155, rfl⟩
abbrev main_v67 : Ref sig .tc := ⟨.hbm, 156, rfl⟩
abbrev main_v68 : Ref sig .tc := ⟨.hbm, 157, rfl⟩
abbrev main_v69 : Ref sig .tc := ⟨.hbm, 158, rfl⟩
abbrev main_v70 : Ref sig .tc := ⟨.hbm, 159, rfl⟩
abbrev main_v71 : Ref sig .tc := ⟨.hbm, 160, rfl⟩
abbrev main_v72 : Ref sig .tc := ⟨.hbm, 161, rfl⟩
abbrev main_v73 : Ref sig .tc := ⟨.hbm, 162, rfl⟩
abbrev main_v74 : Ref sig .tc := ⟨.hbm, 163, rfl⟩
abbrev main_v75 : Ref sig .tc := ⟨.hbm, 164, rfl⟩
abbrev main_v76 : Ref sig .tc := ⟨.hbm, 165, rfl⟩
abbrev main_v77 : Ref sig .tc := ⟨.hbm, 166, rfl⟩
abbrev main_v78 : Ref sig .tc := ⟨.hbm, 167, rfl⟩
abbrev main_v79 : Ref sig .tc := ⟨.hbm, 168, rfl⟩
abbrev main_v80 : Ref sig .tc := ⟨.hbm, 169, rfl⟩
abbrev main_v81 : Ref sig .tc := ⟨.hbm, 170, rfl⟩
abbrev main_v82 : Ref sig .tc := ⟨.hbm, 171, rfl⟩
abbrev main_v83 : Ref sig .tc := ⟨.hbm, 172, rfl⟩
abbrev main_v84 : Ref sig .tc := ⟨.hbm, 173, rfl⟩
abbrev main_c_11 : Ref sig .tc := ⟨.hbm, 174, rfl⟩
abbrev main_v85 : Ref sig .tc := ⟨.hbm, 175, rfl⟩
abbrev main_v86 : Ref sig .tc := ⟨.hbm, 176, rfl⟩
abbrev main_c_12 : Ref sig .tc := ⟨.hbm, 177, rfl⟩
abbrev main_v87 : Ref sig .tc := ⟨.hbm, 178, rfl⟩
abbrev main_v88 : Ref sig .tc := ⟨.hbm, 179, rfl⟩
abbrev main_v89 : Ref sig .tc := ⟨.hbm, 180, rfl⟩
abbrev main_v90 : Ref sig .tc := ⟨.hbm, 181, rfl⟩
abbrev main_v91 : Ref sig .tc := ⟨.hbm, 182, rfl⟩
abbrev main_cst_13 : Ref sig .tc := ⟨.hbm, 183, rfl⟩
abbrev main_v92 : Ref sig .tc := ⟨.hbm, 184, rfl⟩
abbrev main_v93 : Ref sig .tc := ⟨.hbm, 185, rfl⟩
abbrev main_v94 : Ref sig .tc := ⟨.hbm, 186, rfl⟩
abbrev main_v95 : Ref sig .tc := ⟨.hbm, 187, rfl⟩
abbrev main_v96 : Ref sig .tc := ⟨.hbm, 188, rfl⟩
abbrev main_v97 : Ref sig .tc := ⟨.hbm, 189, rfl⟩
abbrev main_v98 : Ref sig .tc := ⟨.hbm, 190, rfl⟩
abbrev main_v99 : Ref sig .tc := ⟨.hbm, 191, rfl⟩
abbrev main_cst_14 : Ref sig .tc := ⟨.hbm, 192, rfl⟩
abbrev main_v100 : Ref sig .tc := ⟨.hbm, 193, rfl⟩
abbrev main_cst_15 : Ref sig .tc := ⟨.hbm, 194, rfl⟩
abbrev main_v101 : Ref sig .tc := ⟨.hbm, 195, rfl⟩
abbrev main_v102 : Ref sig .tc := ⟨.hbm, 196, rfl⟩
abbrev main_c_16 : Ref sig .tc := ⟨.hbm, 197, rfl⟩
abbrev main_call4_cst : Ref sig .tc := ⟨.hbm, 198, rfl⟩
abbrev main_call4_v0 : Ref sig .tc := ⟨.hbm, 199, rfl⟩
abbrev main_call4_v1 : Ref sig .tc := ⟨.hbm, 200, rfl⟩
abbrev main_call4_cst_0 : Ref sig .tc := ⟨.hbm, 201, rfl⟩
abbrev main_call4_v2 : Ref sig .tc := ⟨.hbm, 202, rfl⟩
abbrev main_call4_v3 : Ref sig .tc := ⟨.hbm, 203, rfl⟩
abbrev main_call4_v4 : Ref sig .tc := ⟨.hbm, 204, rfl⟩
abbrev main_call4_v5 : Ref sig .tc := ⟨.hbm, 205, rfl⟩
abbrev main_call4_v6 : Ref sig .tc := ⟨.hbm, 206, rfl⟩
abbrev main_call4_v7 : Ref sig .tc := ⟨.hbm, 207, rfl⟩
abbrev main_call4_cst_1 : Ref sig .tc := ⟨.hbm, 208, rfl⟩
abbrev main_call4_v8 : Ref sig .tc := ⟨.hbm, 209, rfl⟩
abbrev main_call4_cst_2 : Ref sig .tc := ⟨.hbm, 210, rfl⟩
abbrev main_call4_v9 : Ref sig .tc := ⟨.hbm, 211, rfl⟩
abbrev main_call4_v10 : Ref sig .tc := ⟨.hbm, 212, rfl⟩
abbrev main_call4_v11 : Ref sig .tc := ⟨.hbm, 213, rfl⟩
abbrev main_call4_cst_3 : Ref sig .tc := ⟨.hbm, 214, rfl⟩
abbrev main_call4_v12 : Ref sig .tc := ⟨.hbm, 215, rfl⟩
abbrev main_call4_cst_4 : Ref sig .tc := ⟨.hbm, 216, rfl⟩
abbrev main_call4_call0_v0 : Ref sig .tc := ⟨.hbm, 217, rfl⟩
abbrev main_call4_call0_v1 : Ref sig .tc := ⟨.hbm, 218, rfl⟩
abbrev main_v103 : Ref sig .tc := ⟨.hbm, 219, rfl⟩
abbrev main_v104 : Ref sig .tc := ⟨.hbm, 220, rfl⟩
abbrev main_v105 : Ref sig .tc := ⟨.hbm, 221, rfl⟩
abbrev main_v106 : Ref sig .tc := ⟨.hbm, 222, rfl⟩
abbrev main_cst_17 : Ref sig .tc := ⟨.hbm, 223, rfl⟩
abbrev main_v107 : Ref sig .tc := ⟨.hbm, 224, rfl⟩
abbrev main_v108 : Ref sig .tc := ⟨.hbm, 225, rfl⟩
abbrev main_v109 : Ref sig .tc := ⟨.hbm, 226, rfl⟩
abbrev main_v110 : Ref sig .tc := ⟨.hbm, 227, rfl⟩
abbrev main_v111 : Ref sig .tc := ⟨.hbm, 228, rfl⟩
abbrev main_v112 : Ref sig .tc := ⟨.hbm, 229, rfl⟩
abbrev main_v113 : Ref sig .tc := ⟨.hbm, 230, rfl⟩
abbrev main_v114 : Ref sig .tc := ⟨.hbm, 231, rfl⟩
abbrev main_v115 : Ref sig .tc := ⟨.hbm, 232, rfl⟩
abbrev main_v116 : Ref sig .tc := ⟨.hbm, 233, rfl⟩
abbrev main_v117 : Ref sig .tc := ⟨.hbm, 234, rfl⟩
abbrev main_v118 : Ref sig .tc := ⟨.hbm, 235, rfl⟩
abbrev main_call5_cst : Ref sig .tc := ⟨.hbm, 236, rfl⟩
abbrev main_call5_v0 : Ref sig .tc := ⟨.hbm, 237, rfl⟩
abbrev main_v119 : Ref sig .tc := ⟨.hbm, 238, rfl⟩
abbrev main_v120 : Ref sig .tc := ⟨.hbm, 239, rfl⟩
abbrev main_v121 : Ref sig .tc := ⟨.hbm, 240, rfl⟩
abbrev main_v122 : Ref sig .tc := ⟨.hbm, 241, rfl⟩
abbrev main_v123 : Ref sig .tc := ⟨.hbm, 242, rfl⟩
abbrev main_v124 : Ref sig .tc := ⟨.hbm, 243, rfl⟩
abbrev main_v125 : Ref sig .tc := ⟨.hbm, 244, rfl⟩
abbrev main_v126 : Ref sig .tc := ⟨.hbm, 245, rfl⟩
abbrev main_v127 : Ref sig .tc := ⟨.hbm, 246, rfl⟩
abbrev main_cst_18 : Ref sig .tc := ⟨.hbm, 247, rfl⟩
abbrev main_v128 : Ref sig .tc := ⟨.hbm, 248, rfl⟩
abbrev main_cst_19 : Ref sig .tc := ⟨.hbm, 249, rfl⟩
abbrev main_v129 : Ref sig .tc := ⟨.hbm, 250, rfl⟩
abbrev main_v130 : Ref sig .tc := ⟨.hbm, 251, rfl⟩
abbrev main_c_20 : Ref sig .tc := ⟨.hbm, 252, rfl⟩
abbrev main_call6_cst : Ref sig .tc := ⟨.hbm, 253, rfl⟩
abbrev main_call6_v0 : Ref sig .tc := ⟨.hbm, 254, rfl⟩
abbrev main_call6_v1 : Ref sig .tc := ⟨.hbm, 255, rfl⟩
abbrev main_call6_cst_0 : Ref sig .tc := ⟨.hbm, 256, rfl⟩
abbrev main_call6_v2 : Ref sig .tc := ⟨.hbm, 257, rfl⟩
abbrev main_call6_v3 : Ref sig .tc := ⟨.hbm, 258, rfl⟩
abbrev main_call6_v4 : Ref sig .tc := ⟨.hbm, 259, rfl⟩
abbrev main_call6_v5 : Ref sig .tc := ⟨.hbm, 260, rfl⟩
abbrev main_call6_v6 : Ref sig .tc := ⟨.hbm, 261, rfl⟩
abbrev main_call6_v7 : Ref sig .tc := ⟨.hbm, 262, rfl⟩
abbrev main_call6_cst_1 : Ref sig .tc := ⟨.hbm, 263, rfl⟩
abbrev main_call6_v8 : Ref sig .tc := ⟨.hbm, 264, rfl⟩
abbrev main_call6_cst_2 : Ref sig .tc := ⟨.hbm, 265, rfl⟩
abbrev main_call6_v9 : Ref sig .tc := ⟨.hbm, 266, rfl⟩
abbrev main_call6_v10 : Ref sig .tc := ⟨.hbm, 267, rfl⟩
abbrev main_call6_v11 : Ref sig .tc := ⟨.hbm, 268, rfl⟩
abbrev main_call6_cst_3 : Ref sig .tc := ⟨.hbm, 269, rfl⟩
abbrev main_call6_v12 : Ref sig .tc := ⟨.hbm, 270, rfl⟩
abbrev main_call6_cst_4 : Ref sig .tc := ⟨.hbm, 271, rfl⟩
abbrev main_call6_call0_v0 : Ref sig .tc := ⟨.hbm, 272, rfl⟩
abbrev main_call6_call0_v1 : Ref sig .tc := ⟨.hbm, 273, rfl⟩
abbrev main_v131 : Ref sig .tc := ⟨.hbm, 274, rfl⟩
abbrev main_v132 : Ref sig .tc := ⟨.hbm, 275, rfl⟩
abbrev main_v133 : Ref sig .tc := ⟨.hbm, 276, rfl⟩
abbrev main_v134 : Ref sig .tc := ⟨.hbm, 277, rfl⟩
abbrev main_cst_21 : Ref sig .tc := ⟨.hbm, 278, rfl⟩
abbrev main_v135 : Ref sig .tc := ⟨.hbm, 279, rfl⟩
abbrev main_v136 : Ref sig .tc := ⟨.hbm, 280, rfl⟩
abbrev main_v137 : Ref sig .tc := ⟨.hbm, 281, rfl⟩
abbrev main_v138 : Ref sig .tc := ⟨.hbm, 282, rfl⟩
abbrev main_v139 : Ref sig .tc := ⟨.hbm, 283, rfl⟩
abbrev main_v140 : Ref sig .tc := ⟨.hbm, 284, rfl⟩
abbrev main_v141 : Ref sig .tc := ⟨.hbm, 285, rfl⟩
abbrev main_v142 : Ref sig .tc := ⟨.hbm, 286, rfl⟩
abbrev main_v143 : Ref sig .tc := ⟨.hbm, 287, rfl⟩
abbrev main_v144 : Ref sig .tc := ⟨.hbm, 288, rfl⟩
abbrev main_v145 : Ref sig .tc := ⟨.hbm, 289, rfl⟩
abbrev main_v146 : Ref sig .tc := ⟨.hbm, 290, rfl⟩
abbrev main_call7_cst : Ref sig .tc := ⟨.hbm, 291, rfl⟩
abbrev main_call7_v0 : Ref sig .tc := ⟨.hbm, 292, rfl⟩
abbrev main_v147 : Ref sig .tc := ⟨.hbm, 293, rfl⟩
abbrev main_cst_22 : Ref sig .tc := ⟨.hbm, 294, rfl⟩
abbrev main_v148 : Ref sig .tc := ⟨.hbm, 295, rfl⟩
abbrev main_v149 : Ref sig .tc := ⟨.hbm, 296, rfl⟩
abbrev main_v150 : Ref sig .tc := ⟨.hbm, 297, rfl⟩
abbrev main_v151 : Ref sig .tc := ⟨.hbm, 298, rfl⟩
abbrev main_v152 : Ref sig .tc := ⟨.hbm, 299, rfl⟩
abbrev main_v153 : Ref sig .tc := ⟨.hbm, 300, rfl⟩
abbrev main_v154 : Ref sig .tc := ⟨.hbm, 301, rfl⟩
abbrev main_v155 : Ref sig .tc := ⟨.hbm, 302, rfl⟩
abbrev main_cst_23 : Ref sig .tc := ⟨.hbm, 303, rfl⟩
abbrev main_v156 : Ref sig .tc := ⟨.hbm, 304, rfl⟩
abbrev main_cst_24 : Ref sig .tc := ⟨.hbm, 305, rfl⟩
abbrev main_v157 : Ref sig .tc := ⟨.hbm, 306, rfl⟩
abbrev main_v158 : Ref sig .tc := ⟨.hbm, 307, rfl⟩
abbrev main_c_25 : Ref sig .tc := ⟨.hbm, 308, rfl⟩
abbrev main_call8_cst : Ref sig .tc := ⟨.hbm, 309, rfl⟩
abbrev main_call8_v0 : Ref sig .tc := ⟨.hbm, 310, rfl⟩
abbrev main_call8_v1 : Ref sig .tc := ⟨.hbm, 311, rfl⟩
abbrev main_call8_cst_0 : Ref sig .tc := ⟨.hbm, 312, rfl⟩
abbrev main_call8_v2 : Ref sig .tc := ⟨.hbm, 313, rfl⟩
abbrev main_call8_v3 : Ref sig .tc := ⟨.hbm, 314, rfl⟩
abbrev main_call8_v4 : Ref sig .tc := ⟨.hbm, 315, rfl⟩
abbrev main_call8_v5 : Ref sig .tc := ⟨.hbm, 316, rfl⟩
abbrev main_call8_v6 : Ref sig .tc := ⟨.hbm, 317, rfl⟩
abbrev main_call8_v7 : Ref sig .tc := ⟨.hbm, 318, rfl⟩
abbrev main_call8_cst_1 : Ref sig .tc := ⟨.hbm, 319, rfl⟩
abbrev main_call8_v8 : Ref sig .tc := ⟨.hbm, 320, rfl⟩
abbrev main_call8_cst_2 : Ref sig .tc := ⟨.hbm, 321, rfl⟩
abbrev main_call8_v9 : Ref sig .tc := ⟨.hbm, 322, rfl⟩
abbrev main_call8_v10 : Ref sig .tc := ⟨.hbm, 323, rfl⟩
abbrev main_call8_v11 : Ref sig .tc := ⟨.hbm, 324, rfl⟩
abbrev main_call8_cst_3 : Ref sig .tc := ⟨.hbm, 325, rfl⟩
abbrev main_call8_v12 : Ref sig .tc := ⟨.hbm, 326, rfl⟩
abbrev main_call8_cst_4 : Ref sig .tc := ⟨.hbm, 327, rfl⟩
abbrev main_call8_call0_v0 : Ref sig .tc := ⟨.hbm, 328, rfl⟩
abbrev main_call8_call0_v1 : Ref sig .tc := ⟨.hbm, 329, rfl⟩
abbrev main_v159 : Ref sig .tc := ⟨.hbm, 330, rfl⟩
abbrev main_v160 : Ref sig .tc := ⟨.hbm, 331, rfl⟩
abbrev main_v161 : Ref sig .tc := ⟨.hbm, 332, rfl⟩
abbrev main_v162 : Ref sig .tc := ⟨.hbm, 333, rfl⟩
abbrev main_cst_26 : Ref sig .tc := ⟨.hbm, 334, rfl⟩
abbrev main_v163 : Ref sig .tc := ⟨.hbm, 335, rfl⟩
abbrev main_v164 : Ref sig .tc := ⟨.hbm, 336, rfl⟩
abbrev main_v165 : Ref sig .tc := ⟨.hbm, 337, rfl⟩
abbrev main_v166 : Ref sig .tc := ⟨.hbm, 338, rfl⟩
abbrev main_v167 : Ref sig .tc := ⟨.hbm, 339, rfl⟩
abbrev main_v168 : Ref sig .tc := ⟨.hbm, 340, rfl⟩
abbrev main_v169 : Ref sig .tc := ⟨.hbm, 341, rfl⟩
abbrev main_v170 : Ref sig .tc := ⟨.hbm, 342, rfl⟩
abbrev main_v171 : Ref sig .tc := ⟨.hbm, 343, rfl⟩
abbrev main_v172 : Ref sig .tc := ⟨.hbm, 344, rfl⟩
abbrev main_v173 : Ref sig .tc := ⟨.hbm, 345, rfl⟩
abbrev main_v174 : Ref sig .tc := ⟨.hbm, 346, rfl⟩
abbrev main_call9_cst : Ref sig .tc := ⟨.hbm, 347, rfl⟩
abbrev main_call9_v0 : Ref sig .tc := ⟨.hbm, 348, rfl⟩
abbrev main_v175 : Ref sig .tc := ⟨.hbm, 349, rfl⟩
abbrev main_v176 : Ref sig .tc := ⟨.hbm, 350, rfl⟩
abbrev main_v177 : Ref sig .tc := ⟨.hbm, 351, rfl⟩
abbrev main_v178 : Ref sig .tc := ⟨.hbm, 352, rfl⟩
abbrev main_v179 : Ref sig .tc := ⟨.hbm, 353, rfl⟩
abbrev main_cst_27 : Ref sig .tc := ⟨.hbm, 354, rfl⟩
abbrev main_v180 : Ref sig .tc := ⟨.hbm, 355, rfl⟩
abbrev main_cst_28 : Ref sig .tc := ⟨.hbm, 356, rfl⟩
abbrev main_v181 : Ref sig .tc := ⟨.hbm, 357, rfl⟩
abbrev main_v182 : Ref sig .tc := ⟨.hbm, 358, rfl⟩
abbrev main_c_29 : Ref sig .tc := ⟨.hbm, 359, rfl⟩
abbrev main_call10_cst : Ref sig .tc := ⟨.hbm, 360, rfl⟩
abbrev main_call10_v0 : Ref sig .tc := ⟨.hbm, 361, rfl⟩
abbrev main_call10_v1 : Ref sig .tc := ⟨.hbm, 362, rfl⟩
abbrev main_call10_cst_0 : Ref sig .tc := ⟨.hbm, 363, rfl⟩
abbrev main_call10_v2 : Ref sig .tc := ⟨.hbm, 364, rfl⟩
abbrev main_call10_v3 : Ref sig .tc := ⟨.hbm, 365, rfl⟩
abbrev main_call10_v4 : Ref sig .tc := ⟨.hbm, 366, rfl⟩
abbrev main_call10_v5 : Ref sig .tc := ⟨.hbm, 367, rfl⟩
abbrev main_call10_v6 : Ref sig .tc := ⟨.hbm, 368, rfl⟩
abbrev main_call10_v7 : Ref sig .tc := ⟨.hbm, 369, rfl⟩
abbrev main_call10_cst_1 : Ref sig .tc := ⟨.hbm, 370, rfl⟩
abbrev main_call10_v8 : Ref sig .tc := ⟨.hbm, 371, rfl⟩
abbrev main_call10_cst_2 : Ref sig .tc := ⟨.hbm, 372, rfl⟩
abbrev main_call10_v9 : Ref sig .tc := ⟨.hbm, 373, rfl⟩
abbrev main_call10_v10 : Ref sig .tc := ⟨.hbm, 374, rfl⟩
abbrev main_call10_v11 : Ref sig .tc := ⟨.hbm, 375, rfl⟩
abbrev main_call10_cst_3 : Ref sig .tc := ⟨.hbm, 376, rfl⟩
abbrev main_call10_v12 : Ref sig .tc := ⟨.hbm, 377, rfl⟩
abbrev main_call10_cst_4 : Ref sig .tc := ⟨.hbm, 378, rfl⟩
abbrev main_call10_call0_v0 : Ref sig .tc := ⟨.hbm, 379, rfl⟩
abbrev main_call10_call0_v1 : Ref sig .tc := ⟨.hbm, 380, rfl⟩
abbrev main_v183 : Ref sig .tc := ⟨.hbm, 381, rfl⟩
abbrev main_v184 : Ref sig .tc := ⟨.hbm, 382, rfl⟩
abbrev main_v185 : Ref sig .tc := ⟨.hbm, 383, rfl⟩
abbrev main_v186 : Ref sig .tc := ⟨.hbm, 384, rfl⟩
abbrev main_cst_30 : Ref sig .tc := ⟨.hbm, 385, rfl⟩
abbrev main_v187 : Ref sig .tc := ⟨.hbm, 386, rfl⟩
abbrev main_v188 : Ref sig .tc := ⟨.hbm, 387, rfl⟩
abbrev main_v189 : Ref sig .tc := ⟨.hbm, 388, rfl⟩
abbrev main_v190 : Ref sig .tc := ⟨.hbm, 389, rfl⟩
abbrev main_v191 : Ref sig .tc := ⟨.hbm, 390, rfl⟩
abbrev main_v192 : Ref sig .tc := ⟨.hbm, 391, rfl⟩
abbrev main_v193 : Ref sig .tc := ⟨.hbm, 392, rfl⟩
abbrev main_v194 : Ref sig .tc := ⟨.hbm, 393, rfl⟩
abbrev main_v195 : Ref sig .tc := ⟨.hbm, 394, rfl⟩
abbrev main_v196 : Ref sig .tc := ⟨.hbm, 395, rfl⟩
abbrev main_v197 : Ref sig .tc := ⟨.hbm, 396, rfl⟩
abbrev main_v198 : Ref sig .tc := ⟨.hbm, 397, rfl⟩
abbrev main_call11_cst : Ref sig .tc := ⟨.hbm, 398, rfl⟩
abbrev main_call11_v0 : Ref sig .tc := ⟨.hbm, 399, rfl⟩
abbrev main_v199 : Ref sig .tc := ⟨.hbm, 400, rfl⟩
abbrev main_c_31 : Ref sig .tc := ⟨.hbm, 401, rfl⟩
abbrev main_v200 : Ref sig .tc := ⟨.hbm, 402, rfl⟩
abbrev main_v201 : Ref sig .tc := ⟨.hbm, 403, rfl⟩
abbrev main_c_32 : Ref sig .tc := ⟨.hbm, 404, rfl⟩
abbrev main_v202 : Ref sig .tc := ⟨.hbm, 405, rfl⟩
abbrev main_v203 : Ref sig .tc := ⟨.hbm, 406, rfl⟩
abbrev main_v204 : Ref sig .tc := ⟨.hbm, 407, rfl⟩
abbrev main_v205 : Ref sig .tc := ⟨.hbm, 408, rfl⟩
abbrev main_v206 : Ref sig .tc := ⟨.hbm, 409, rfl⟩
abbrev main_v207 : Ref sig .tc := ⟨.hbm, 410, rfl⟩
abbrev main_v208 : Ref sig .tc := ⟨.hbm, 411, rfl⟩
abbrev main_v209 : Ref sig .tc := ⟨.hbm, 412, rfl⟩
abbrev main_v210 : Ref sig .tc := ⟨.hbm, 413, rfl⟩
abbrev main_v211 : Ref sig .tc := ⟨.hbm, 414, rfl⟩
abbrev main_v212 : Ref sig .tc := ⟨.hbm, 415, rfl⟩
abbrev main_v213 : Ref sig .tc := ⟨.hbm, 416, rfl⟩
abbrev main_v214 : Ref sig .tc := ⟨.hbm, 417, rfl⟩
abbrev main_v215 : Ref sig .tc := ⟨.hbm, 418, rfl⟩
abbrev main_v216 : Ref sig .tc := ⟨.hbm, 419, rfl⟩
abbrev main_v217 : Ref sig .tc := ⟨.hbm, 420, rfl⟩
abbrev main_v218 : Ref sig .tc := ⟨.hbm, 421, rfl⟩
abbrev main_v219 : Ref sig .tc := ⟨.hbm, 422, rfl⟩
abbrev main_c_33 : Ref sig .tc := ⟨.hbm, 423, rfl⟩
abbrev main_v220 : Ref sig .tc := ⟨.hbm, 424, rfl⟩
abbrev main_v221 : Ref sig .tc := ⟨.hbm, 425, rfl⟩
abbrev main_c_34 : Ref sig .tc := ⟨.hbm, 426, rfl⟩
abbrev main_v222 : Ref sig .tc := ⟨.hbm, 427, rfl⟩
abbrev main_v223 : Ref sig .tc := ⟨.hbm, 428, rfl⟩
abbrev main_v224 : Ref sig .tc := ⟨.hbm, 429, rfl⟩
abbrev main_v225 : Ref sig .tc := ⟨.hbm, 430, rfl⟩
abbrev main_v226 : Ref sig .tc := ⟨.hbm, 431, rfl⟩
abbrev main_cst_35 : Ref sig .tc := ⟨.hbm, 432, rfl⟩
abbrev main_v227 : Ref sig .tc := ⟨.hbm, 433, rfl⟩
abbrev main_v228 : Ref sig .tc := ⟨.hbm, 434, rfl⟩
abbrev main_v229 : Ref sig .tc := ⟨.hbm, 435, rfl⟩
abbrev main_v230 : Ref sig .tc := ⟨.hbm, 436, rfl⟩
abbrev main_v231 : Ref sig .tc := ⟨.hbm, 437, rfl⟩
abbrev main_v232 : Ref sig .tc := ⟨.hbm, 438, rfl⟩
abbrev main_v233 : Ref sig .tc := ⟨.hbm, 439, rfl⟩
abbrev main_v234 : Ref sig .tc := ⟨.hbm, 440, rfl⟩
abbrev main_cst_36 : Ref sig .tc := ⟨.hbm, 441, rfl⟩
abbrev main_v235 : Ref sig .tc := ⟨.hbm, 442, rfl⟩
abbrev main_cst_37 : Ref sig .tc := ⟨.hbm, 443, rfl⟩
abbrev main_v236 : Ref sig .tc := ⟨.hbm, 444, rfl⟩
abbrev main_v237 : Ref sig .tc := ⟨.hbm, 445, rfl⟩
abbrev main_c_38 : Ref sig .tc := ⟨.hbm, 446, rfl⟩
abbrev main_call12_cst : Ref sig .tc := ⟨.hbm, 447, rfl⟩
abbrev main_call12_v0 : Ref sig .tc := ⟨.hbm, 448, rfl⟩
abbrev main_call12_v1 : Ref sig .tc := ⟨.hbm, 449, rfl⟩
abbrev main_call12_cst_0 : Ref sig .tc := ⟨.hbm, 450, rfl⟩
abbrev main_call12_v2 : Ref sig .tc := ⟨.hbm, 451, rfl⟩
abbrev main_call12_v3 : Ref sig .tc := ⟨.hbm, 452, rfl⟩
abbrev main_call12_v4 : Ref sig .tc := ⟨.hbm, 453, rfl⟩
abbrev main_call12_v5 : Ref sig .tc := ⟨.hbm, 454, rfl⟩
abbrev main_call12_v6 : Ref sig .tc := ⟨.hbm, 455, rfl⟩
abbrev main_call12_v7 : Ref sig .tc := ⟨.hbm, 456, rfl⟩
abbrev main_call12_cst_1 : Ref sig .tc := ⟨.hbm, 457, rfl⟩
abbrev main_call12_v8 : Ref sig .tc := ⟨.hbm, 458, rfl⟩
abbrev main_call12_cst_2 : Ref sig .tc := ⟨.hbm, 459, rfl⟩
abbrev main_call12_v9 : Ref sig .tc := ⟨.hbm, 460, rfl⟩
abbrev main_call12_v10 : Ref sig .tc := ⟨.hbm, 461, rfl⟩
abbrev main_call12_v11 : Ref sig .tc := ⟨.hbm, 462, rfl⟩
abbrev main_call12_cst_3 : Ref sig .tc := ⟨.hbm, 463, rfl⟩
abbrev main_call12_v12 : Ref sig .tc := ⟨.hbm, 464, rfl⟩
abbrev main_call12_cst_4 : Ref sig .tc := ⟨.hbm, 465, rfl⟩
abbrev main_call12_call0_v0 : Ref sig .tc := ⟨.hbm, 466, rfl⟩
abbrev main_call12_call0_v1 : Ref sig .tc := ⟨.hbm, 467, rfl⟩
abbrev main_v238 : Ref sig .tc := ⟨.hbm, 468, rfl⟩
abbrev main_v239 : Ref sig .tc := ⟨.hbm, 469, rfl⟩
abbrev main_v240 : Ref sig .tc := ⟨.hbm, 470, rfl⟩
abbrev main_v241 : Ref sig .tc := ⟨.hbm, 471, rfl⟩
abbrev main_cst_39 : Ref sig .tc := ⟨.hbm, 472, rfl⟩
abbrev main_v242 : Ref sig .tc := ⟨.hbm, 473, rfl⟩
abbrev main_v243 : Ref sig .tc := ⟨.hbm, 474, rfl⟩
abbrev main_v244 : Ref sig .tc := ⟨.hbm, 475, rfl⟩
abbrev main_v245 : Ref sig .tc := ⟨.hbm, 476, rfl⟩
abbrev main_v246 : Ref sig .tc := ⟨.hbm, 477, rfl⟩
abbrev main_v247 : Ref sig .tc := ⟨.hbm, 478, rfl⟩
abbrev main_v248 : Ref sig .tc := ⟨.hbm, 479, rfl⟩
abbrev main_v249 : Ref sig .tc := ⟨.hbm, 480, rfl⟩
abbrev main_v250 : Ref sig .tc := ⟨.hbm, 481, rfl⟩
abbrev main_v251 : Ref sig .tc := ⟨.hbm, 482, rfl⟩
abbrev main_v252 : Ref sig .tc := ⟨.hbm, 483, rfl⟩
abbrev main_v253 : Ref sig .tc := ⟨.hbm, 484, rfl⟩
abbrev main_call13_cst : Ref sig .tc := ⟨.hbm, 485, rfl⟩
abbrev main_call13_v0 : Ref sig .tc := ⟨.hbm, 486, rfl⟩
abbrev main_v254 : Ref sig .tc := ⟨.hbm, 487, rfl⟩
abbrev main_v255 : Ref sig .tc := ⟨.hbm, 488, rfl⟩
abbrev main_v256 : Ref sig .tc := ⟨.hbm, 489, rfl⟩
abbrev main_v257 : Ref sig .tc := ⟨.hbm, 490, rfl⟩
abbrev main_v258 : Ref sig .tc := ⟨.hbm, 491, rfl⟩
abbrev main_v259 : Ref sig .tc := ⟨.hbm, 492, rfl⟩
abbrev main_v260 : Ref sig .tc := ⟨.hbm, 493, rfl⟩
abbrev main_v261 : Ref sig .tc := ⟨.hbm, 494, rfl⟩
abbrev main_v262 : Ref sig .tc := ⟨.hbm, 495, rfl⟩
abbrev main_cst_40 : Ref sig .tc := ⟨.hbm, 496, rfl⟩
abbrev main_v263 : Ref sig .tc := ⟨.hbm, 497, rfl⟩
abbrev main_cst_41 : Ref sig .tc := ⟨.hbm, 498, rfl⟩
abbrev main_v264 : Ref sig .tc := ⟨.hbm, 499, rfl⟩
abbrev main_v265 : Ref sig .tc := ⟨.hbm, 500, rfl⟩
abbrev main_c_42 : Ref sig .tc := ⟨.hbm, 501, rfl⟩
abbrev main_call14_cst : Ref sig .tc := ⟨.hbm, 502, rfl⟩
abbrev main_call14_v0 : Ref sig .tc := ⟨.hbm, 503, rfl⟩
abbrev main_call14_v1 : Ref sig .tc := ⟨.hbm, 504, rfl⟩
abbrev main_call14_cst_0 : Ref sig .tc := ⟨.hbm, 505, rfl⟩
abbrev main_call14_v2 : Ref sig .tc := ⟨.hbm, 506, rfl⟩
abbrev main_call14_v3 : Ref sig .tc := ⟨.hbm, 507, rfl⟩
abbrev main_call14_v4 : Ref sig .tc := ⟨.hbm, 508, rfl⟩
abbrev main_call14_v5 : Ref sig .tc := ⟨.hbm, 509, rfl⟩
abbrev main_call14_v6 : Ref sig .tc := ⟨.hbm, 510, rfl⟩
abbrev main_call14_v7 : Ref sig .tc := ⟨.hbm, 511, rfl⟩
abbrev main_call14_cst_1 : Ref sig .tc := ⟨.hbm, 512, rfl⟩
abbrev main_call14_v8 : Ref sig .tc := ⟨.hbm, 513, rfl⟩
abbrev main_call14_cst_2 : Ref sig .tc := ⟨.hbm, 514, rfl⟩
abbrev main_call14_v9 : Ref sig .tc := ⟨.hbm, 515, rfl⟩
abbrev main_call14_v10 : Ref sig .tc := ⟨.hbm, 516, rfl⟩
abbrev main_call14_v11 : Ref sig .tc := ⟨.hbm, 517, rfl⟩
abbrev main_call14_cst_3 : Ref sig .tc := ⟨.hbm, 518, rfl⟩
abbrev main_call14_v12 : Ref sig .tc := ⟨.hbm, 519, rfl⟩
abbrev main_call14_cst_4 : Ref sig .tc := ⟨.hbm, 520, rfl⟩
abbrev main_call14_call0_v0 : Ref sig .tc := ⟨.hbm, 521, rfl⟩
abbrev main_call14_call0_v1 : Ref sig .tc := ⟨.hbm, 522, rfl⟩
abbrev main_v266 : Ref sig .tc := ⟨.hbm, 523, rfl⟩
abbrev main_v267 : Ref sig .tc := ⟨.hbm, 524, rfl⟩
abbrev main_v268 : Ref sig .tc := ⟨.hbm, 525, rfl⟩
abbrev main_v269 : Ref sig .tc := ⟨.hbm, 526, rfl⟩
abbrev main_cst_43 : Ref sig .tc := ⟨.hbm, 527, rfl⟩
abbrev main_v270 : Ref sig .tc := ⟨.hbm, 528, rfl⟩
abbrev main_v271 : Ref sig .tc := ⟨.hbm, 529, rfl⟩
abbrev main_v272 : Ref sig .tc := ⟨.hbm, 530, rfl⟩
abbrev main_v273 : Ref sig .tc := ⟨.hbm, 531, rfl⟩
abbrev main_v274 : Ref sig .tc := ⟨.hbm, 532, rfl⟩
abbrev main_v275 : Ref sig .tc := ⟨.hbm, 533, rfl⟩
abbrev main_v276 : Ref sig .tc := ⟨.hbm, 534, rfl⟩
abbrev main_v277 : Ref sig .tc := ⟨.hbm, 535, rfl⟩
abbrev main_v278 : Ref sig .tc := ⟨.hbm, 536, rfl⟩
abbrev main_v279 : Ref sig .tc := ⟨.hbm, 537, rfl⟩
abbrev main_v280 : Ref sig .tc := ⟨.hbm, 538, rfl⟩
abbrev main_v281 : Ref sig .tc := ⟨.hbm, 539, rfl⟩
abbrev main_call15_cst : Ref sig .tc := ⟨.hbm, 540, rfl⟩
abbrev main_call15_v0 : Ref sig .tc := ⟨.hbm, 541, rfl⟩
abbrev main_v282 : Ref sig .tc := ⟨.hbm, 542, rfl⟩
abbrev main_cst_44 : Ref sig .tc := ⟨.hbm, 543, rfl⟩
abbrev main_v283 : Ref sig .tc := ⟨.hbm, 544, rfl⟩
abbrev main_v284 : Ref sig .tc := ⟨.hbm, 545, rfl⟩
abbrev main_v285 : Ref sig .tc := ⟨.hbm, 546, rfl⟩
abbrev main_v286 : Ref sig .tc := ⟨.hbm, 547, rfl⟩
abbrev main_v287 : Ref sig .tc := ⟨.hbm, 548, rfl⟩
abbrev main_v288 : Ref sig .tc := ⟨.hbm, 549, rfl⟩
abbrev main_v289 : Ref sig .tc := ⟨.hbm, 550, rfl⟩
abbrev main_v290 : Ref sig .tc := ⟨.hbm, 551, rfl⟩
abbrev main_cst_45 : Ref sig .tc := ⟨.hbm, 552, rfl⟩
abbrev main_v291 : Ref sig .tc := ⟨.hbm, 553, rfl⟩
abbrev main_cst_46 : Ref sig .tc := ⟨.hbm, 554, rfl⟩
abbrev main_v292 : Ref sig .tc := ⟨.hbm, 555, rfl⟩
abbrev main_v293 : Ref sig .tc := ⟨.hbm, 556, rfl⟩
abbrev main_c_47 : Ref sig .tc := ⟨.hbm, 557, rfl⟩
abbrev main_call16_cst : Ref sig .tc := ⟨.hbm, 558, rfl⟩
abbrev main_call16_v0 : Ref sig .tc := ⟨.hbm, 559, rfl⟩
abbrev main_call16_v1 : Ref sig .tc := ⟨.hbm, 560, rfl⟩
abbrev main_call16_cst_0 : Ref sig .tc := ⟨.hbm, 561, rfl⟩
abbrev main_call16_v2 : Ref sig .tc := ⟨.hbm, 562, rfl⟩
abbrev main_call16_v3 : Ref sig .tc := ⟨.hbm, 563, rfl⟩
abbrev main_call16_v4 : Ref sig .tc := ⟨.hbm, 564, rfl⟩
abbrev main_call16_v5 : Ref sig .tc := ⟨.hbm, 565, rfl⟩
abbrev main_call16_v6 : Ref sig .tc := ⟨.hbm, 566, rfl⟩
abbrev main_call16_v7 : Ref sig .tc := ⟨.hbm, 567, rfl⟩
abbrev main_call16_cst_1 : Ref sig .tc := ⟨.hbm, 568, rfl⟩
abbrev main_call16_v8 : Ref sig .tc := ⟨.hbm, 569, rfl⟩
abbrev main_call16_cst_2 : Ref sig .tc := ⟨.hbm, 570, rfl⟩
abbrev main_call16_v9 : Ref sig .tc := ⟨.hbm, 571, rfl⟩
abbrev main_call16_v10 : Ref sig .tc := ⟨.hbm, 572, rfl⟩
abbrev main_call16_v11 : Ref sig .tc := ⟨.hbm, 573, rfl⟩
abbrev main_call16_cst_3 : Ref sig .tc := ⟨.hbm, 574, rfl⟩
abbrev main_call16_v12 : Ref sig .tc := ⟨.hbm, 575, rfl⟩
abbrev main_call16_cst_4 : Ref sig .tc := ⟨.hbm, 576, rfl⟩
abbrev main_call16_call0_v0 : Ref sig .tc := ⟨.hbm, 577, rfl⟩
abbrev main_call16_call0_v1 : Ref sig .tc := ⟨.hbm, 578, rfl⟩
abbrev main_v294 : Ref sig .tc := ⟨.hbm, 579, rfl⟩
abbrev main_v295 : Ref sig .tc := ⟨.hbm, 580, rfl⟩
abbrev main_v296 : Ref sig .tc := ⟨.hbm, 581, rfl⟩
abbrev main_v297 : Ref sig .tc := ⟨.hbm, 582, rfl⟩
abbrev main_cst_48 : Ref sig .tc := ⟨.hbm, 583, rfl⟩
abbrev main_v298 : Ref sig .tc := ⟨.hbm, 584, rfl⟩
abbrev main_v299 : Ref sig .tc := ⟨.hbm, 585, rfl⟩
abbrev main_v300 : Ref sig .tc := ⟨.hbm, 586, rfl⟩
abbrev main_v301 : Ref sig .tc := ⟨.hbm, 587, rfl⟩
abbrev main_v302 : Ref sig .tc := ⟨.hbm, 588, rfl⟩
abbrev main_v303 : Ref sig .tc := ⟨.hbm, 589, rfl⟩
abbrev main_v304 : Ref sig .tc := ⟨.hbm, 590, rfl⟩
abbrev main_v305 : Ref sig .tc := ⟨.hbm, 591, rfl⟩
abbrev main_v306 : Ref sig .tc := ⟨.hbm, 592, rfl⟩
abbrev main_v307 : Ref sig .tc := ⟨.hbm, 593, rfl⟩
abbrev main_v308 : Ref sig .tc := ⟨.hbm, 594, rfl⟩
abbrev main_v309 : Ref sig .tc := ⟨.hbm, 595, rfl⟩
abbrev main_call17_cst : Ref sig .tc := ⟨.hbm, 596, rfl⟩
abbrev main_call17_v0 : Ref sig .tc := ⟨.hbm, 597, rfl⟩
abbrev main_v310 : Ref sig .tc := ⟨.hbm, 598, rfl⟩
abbrev main_v311 : Ref sig .tc := ⟨.hbm, 599, rfl⟩
abbrev main_v312 : Ref sig .tc := ⟨.hbm, 600, rfl⟩
abbrev main_v313 : Ref sig .tc := ⟨.hbm, 601, rfl⟩
abbrev main_v314 : Ref sig .tc := ⟨.hbm, 602, rfl⟩
abbrev main_cst_49 : Ref sig .tc := ⟨.hbm, 603, rfl⟩
abbrev main_v315 : Ref sig .tc := ⟨.hbm, 604, rfl⟩
abbrev main_cst_50 : Ref sig .tc := ⟨.hbm, 605, rfl⟩
abbrev main_v316 : Ref sig .tc := ⟨.hbm, 606, rfl⟩
abbrev main_v317 : Ref sig .tc := ⟨.hbm, 607, rfl⟩
abbrev main_c_51 : Ref sig .tc := ⟨.hbm, 608, rfl⟩
abbrev main_call18_cst : Ref sig .tc := ⟨.hbm, 609, rfl⟩
abbrev main_call18_v0 : Ref sig .tc := ⟨.hbm, 610, rfl⟩
abbrev main_call18_v1 : Ref sig .tc := ⟨.hbm, 611, rfl⟩
abbrev main_call18_cst_0 : Ref sig .tc := ⟨.hbm, 612, rfl⟩
abbrev main_call18_v2 : Ref sig .tc := ⟨.hbm, 613, rfl⟩
abbrev main_call18_v3 : Ref sig .tc := ⟨.hbm, 614, rfl⟩
abbrev main_call18_v4 : Ref sig .tc := ⟨.hbm, 615, rfl⟩
abbrev main_call18_v5 : Ref sig .tc := ⟨.hbm, 616, rfl⟩
abbrev main_call18_v6 : Ref sig .tc := ⟨.hbm, 617, rfl⟩
abbrev main_call18_v7 : Ref sig .tc := ⟨.hbm, 618, rfl⟩
abbrev main_call18_cst_1 : Ref sig .tc := ⟨.hbm, 619, rfl⟩
abbrev main_call18_v8 : Ref sig .tc := ⟨.hbm, 620, rfl⟩
abbrev main_call18_cst_2 : Ref sig .tc := ⟨.hbm, 621, rfl⟩
abbrev main_call18_v9 : Ref sig .tc := ⟨.hbm, 622, rfl⟩
abbrev main_call18_v10 : Ref sig .tc := ⟨.hbm, 623, rfl⟩
abbrev main_call18_v11 : Ref sig .tc := ⟨.hbm, 624, rfl⟩
abbrev main_call18_cst_3 : Ref sig .tc := ⟨.hbm, 625, rfl⟩
abbrev main_call18_v12 : Ref sig .tc := ⟨.hbm, 626, rfl⟩
abbrev main_call18_cst_4 : Ref sig .tc := ⟨.hbm, 627, rfl⟩
abbrev main_call18_call0_v0 : Ref sig .tc := ⟨.hbm, 628, rfl⟩
abbrev main_call18_call0_v1 : Ref sig .tc := ⟨.hbm, 629, rfl⟩
abbrev main_v318 : Ref sig .tc := ⟨.hbm, 630, rfl⟩
abbrev main_v319 : Ref sig .tc := ⟨.hbm, 631, rfl⟩
abbrev main_v320 : Ref sig .tc := ⟨.hbm, 632, rfl⟩
abbrev main_v321 : Ref sig .tc := ⟨.hbm, 633, rfl⟩
abbrev main_cst_52 : Ref sig .tc := ⟨.hbm, 634, rfl⟩
abbrev main_v322 : Ref sig .tc := ⟨.hbm, 635, rfl⟩
abbrev main_v323 : Ref sig .tc := ⟨.hbm, 636, rfl⟩
abbrev main_v324 : Ref sig .tc := ⟨.hbm, 637, rfl⟩
abbrev main_v325 : Ref sig .tc := ⟨.hbm, 638, rfl⟩
abbrev main_v326 : Ref sig .tc := ⟨.hbm, 639, rfl⟩
abbrev main_v327 : Ref sig .tc := ⟨.hbm, 640, rfl⟩
abbrev main_v328 : Ref sig .tc := ⟨.hbm, 641, rfl⟩
abbrev main_v329 : Ref sig .tc := ⟨.hbm, 642, rfl⟩
abbrev main_v330 : Ref sig .tc := ⟨.hbm, 643, rfl⟩
abbrev main_v331 : Ref sig .tc := ⟨.hbm, 644, rfl⟩
abbrev main_v332 : Ref sig .tc := ⟨.hbm, 645, rfl⟩
abbrev main_v333 : Ref sig .tc := ⟨.hbm, 646, rfl⟩
abbrev main_call19_cst : Ref sig .tc := ⟨.hbm, 647, rfl⟩
abbrev main_call19_v0 : Ref sig .tc := ⟨.hbm, 648, rfl⟩
abbrev main_v334 : Ref sig .tc := ⟨.hbm, 649, rfl⟩
abbrev main_c_53 : Ref sig .tc := ⟨.hbm, 650, rfl⟩
abbrev main_v335 : Ref sig .tc := ⟨.hbm, 651, rfl⟩
abbrev main_v336 : Ref sig .tc := ⟨.hbm, 652, rfl⟩
abbrev main_c_54 : Ref sig .tc := ⟨.hbm, 653, rfl⟩
abbrev main_v337 : Ref sig .tc := ⟨.hbm, 654, rfl⟩
abbrev main_v338 : Ref sig .tc := ⟨.hbm, 655, rfl⟩
abbrev main_v339 : Ref sig .tc := ⟨.hbm, 656, rfl⟩
abbrev main_v340 : Ref sig .tc := ⟨.hbm, 657, rfl⟩
abbrev main_v341 : Ref sig .tc := ⟨.hbm, 658, rfl⟩
abbrev main_v342 : Ref sig .tc := ⟨.hbm, 659, rfl⟩
abbrev main_v343 : Ref sig .tc := ⟨.hbm, 660, rfl⟩
abbrev main_v344 : Ref sig .tc := ⟨.hbm, 661, rfl⟩
abbrev main_v345 : Ref sig .tc := ⟨.hbm, 662, rfl⟩
abbrev main_v346 : Ref sig .tc := ⟨.hbm, 663, rfl⟩
abbrev main_v347 : Ref sig .tc := ⟨.hbm, 664, rfl⟩
abbrev main_v348 : Ref sig .tc := ⟨.hbm, 665, rfl⟩
abbrev main_v349 : Ref sig .tc := ⟨.hbm, 666, rfl⟩
abbrev main_v350 : Ref sig .tc := ⟨.hbm, 667, rfl⟩
abbrev main_v351 : Ref sig .tc := ⟨.hbm, 668, rfl⟩
abbrev main_v352 : Ref sig .tc := ⟨.hbm, 669, rfl⟩
abbrev main_v353 : Ref sig .tc := ⟨.hbm, 670, rfl⟩
abbrev main_v354 : Ref sig .tc := ⟨.hbm, 671, rfl⟩
abbrev main_c_55 : Ref sig .tc := ⟨.hbm, 672, rfl⟩
abbrev main_v355 : Ref sig .tc := ⟨.hbm, 673, rfl⟩
abbrev main_v356 : Ref sig .tc := ⟨.hbm, 674, rfl⟩
abbrev main_c_56 : Ref sig .tc := ⟨.hbm, 675, rfl⟩
abbrev main_v357 : Ref sig .tc := ⟨.hbm, 676, rfl⟩
abbrev main_v358 : Ref sig .tc := ⟨.hbm, 677, rfl⟩
abbrev main_v359 : Ref sig .tc := ⟨.hbm, 678, rfl⟩
abbrev main_v360 : Ref sig .tc := ⟨.hbm, 679, rfl⟩
abbrev main_v361 : Ref sig .tc := ⟨.hbm, 680, rfl⟩
abbrev main_cst_57 : Ref sig .tc := ⟨.hbm, 681, rfl⟩
abbrev main_v362 : Ref sig .tc := ⟨.hbm, 682, rfl⟩
abbrev main_v363 : Ref sig .tc := ⟨.hbm, 683, rfl⟩
abbrev main_v364 : Ref sig .tc := ⟨.hbm, 684, rfl⟩
abbrev main_v365 : Ref sig .tc := ⟨.hbm, 685, rfl⟩
abbrev main_v366 : Ref sig .tc := ⟨.hbm, 686, rfl⟩
abbrev main_v367 : Ref sig .tc := ⟨.hbm, 687, rfl⟩
abbrev main_v368 : Ref sig .tc := ⟨.hbm, 688, rfl⟩
abbrev main_v369 : Ref sig .tc := ⟨.hbm, 689, rfl⟩
abbrev main_cst_58 : Ref sig .tc := ⟨.hbm, 690, rfl⟩
abbrev main_v370 : Ref sig .tc := ⟨.hbm, 691, rfl⟩
abbrev main_cst_59 : Ref sig .tc := ⟨.hbm, 692, rfl⟩
abbrev main_v371 : Ref sig .tc := ⟨.hbm, 693, rfl⟩
abbrev main_v372 : Ref sig .tc := ⟨.hbm, 694, rfl⟩
abbrev main_c_60 : Ref sig .tc := ⟨.hbm, 695, rfl⟩
abbrev main_call20_cst : Ref sig .tc := ⟨.hbm, 696, rfl⟩
abbrev main_call20_v0 : Ref sig .tc := ⟨.hbm, 697, rfl⟩
abbrev main_call20_v1 : Ref sig .tc := ⟨.hbm, 698, rfl⟩
abbrev main_call20_cst_0 : Ref sig .tc := ⟨.hbm, 699, rfl⟩
abbrev main_call20_v2 : Ref sig .tc := ⟨.hbm, 700, rfl⟩
abbrev main_call20_v3 : Ref sig .tc := ⟨.hbm, 701, rfl⟩
abbrev main_call20_v4 : Ref sig .tc := ⟨.hbm, 702, rfl⟩
abbrev main_call20_v5 : Ref sig .tc := ⟨.hbm, 703, rfl⟩
abbrev main_call20_v6 : Ref sig .tc := ⟨.hbm, 704, rfl⟩
abbrev main_call20_v7 : Ref sig .tc := ⟨.hbm, 705, rfl⟩
abbrev main_call20_cst_1 : Ref sig .tc := ⟨.hbm, 706, rfl⟩
abbrev main_call20_v8 : Ref sig .tc := ⟨.hbm, 707, rfl⟩
abbrev main_call20_cst_2 : Ref sig .tc := ⟨.hbm, 708, rfl⟩
abbrev main_call20_v9 : Ref sig .tc := ⟨.hbm, 709, rfl⟩
abbrev main_call20_v10 : Ref sig .tc := ⟨.hbm, 710, rfl⟩
abbrev main_call20_v11 : Ref sig .tc := ⟨.hbm, 711, rfl⟩
abbrev main_call20_cst_3 : Ref sig .tc := ⟨.hbm, 712, rfl⟩
abbrev main_call20_v12 : Ref sig .tc := ⟨.hbm, 713, rfl⟩
abbrev main_call20_cst_4 : Ref sig .tc := ⟨.hbm, 714, rfl⟩
abbrev main_call20_call0_v0 : Ref sig .tc := ⟨.hbm, 715, rfl⟩
abbrev main_call20_call0_v1 : Ref sig .tc := ⟨.hbm, 716, rfl⟩
abbrev main_v373 : Ref sig .tc := ⟨.hbm, 717, rfl⟩
abbrev main_v374 : Ref sig .tc := ⟨.hbm, 718, rfl⟩
abbrev main_v375 : Ref sig .tc := ⟨.hbm, 719, rfl⟩
abbrev main_v376 : Ref sig .tc := ⟨.hbm, 720, rfl⟩
abbrev main_cst_61 : Ref sig .tc := ⟨.hbm, 721, rfl⟩
abbrev main_v377 : Ref sig .tc := ⟨.hbm, 722, rfl⟩
abbrev main_v378 : Ref sig .tc := ⟨.hbm, 723, rfl⟩
abbrev main_v379 : Ref sig .tc := ⟨.hbm, 724, rfl⟩
abbrev main_v380 : Ref sig .tc := ⟨.hbm, 725, rfl⟩
abbrev main_v381 : Ref sig .tc := ⟨.hbm, 726, rfl⟩
abbrev main_v382 : Ref sig .tc := ⟨.hbm, 727, rfl⟩
abbrev main_v383 : Ref sig .tc := ⟨.hbm, 728, rfl⟩
abbrev main_v384 : Ref sig .tc := ⟨.hbm, 729, rfl⟩
abbrev main_v385 : Ref sig .tc := ⟨.hbm, 730, rfl⟩
abbrev main_v386 : Ref sig .tc := ⟨.hbm, 731, rfl⟩
abbrev main_v387 : Ref sig .tc := ⟨.hbm, 732, rfl⟩
abbrev main_v388 : Ref sig .tc := ⟨.hbm, 733, rfl⟩
abbrev main_call21_cst : Ref sig .tc := ⟨.hbm, 734, rfl⟩
abbrev main_call21_v0 : Ref sig .tc := ⟨.hbm, 735, rfl⟩
abbrev main_v389 : Ref sig .tc := ⟨.hbm, 736, rfl⟩
abbrev main_v390 : Ref sig .tc := ⟨.hbm, 737, rfl⟩
abbrev main_v391 : Ref sig .tc := ⟨.hbm, 738, rfl⟩
abbrev main_v392 : Ref sig .tc := ⟨.hbm, 739, rfl⟩
abbrev main_v393 : Ref sig .tc := ⟨.hbm, 740, rfl⟩
abbrev main_v394 : Ref sig .tc := ⟨.hbm, 741, rfl⟩
abbrev main_v395 : Ref sig .tc := ⟨.hbm, 742, rfl⟩
abbrev main_v396 : Ref sig .tc := ⟨.hbm, 743, rfl⟩
abbrev main_v397 : Ref sig .tc := ⟨.hbm, 744, rfl⟩
abbrev main_cst_62 : Ref sig .tc := ⟨.hbm, 745, rfl⟩
abbrev main_v398 : Ref sig .tc := ⟨.hbm, 746, rfl⟩
abbrev main_cst_63 : Ref sig .tc := ⟨.hbm, 747, rfl⟩
abbrev main_v399 : Ref sig .tc := ⟨.hbm, 748, rfl⟩
abbrev main_v400 : Ref sig .tc := ⟨.hbm, 749, rfl⟩
abbrev main_c_64 : Ref sig .tc := ⟨.hbm, 750, rfl⟩
abbrev main_call22_cst : Ref sig .tc := ⟨.hbm, 751, rfl⟩
abbrev main_call22_v0 : Ref sig .tc := ⟨.hbm, 752, rfl⟩
abbrev main_call22_v1 : Ref sig .tc := ⟨.hbm, 753, rfl⟩
abbrev main_call22_cst_0 : Ref sig .tc := ⟨.hbm, 754, rfl⟩
abbrev main_call22_v2 : Ref sig .tc := ⟨.hbm, 755, rfl⟩
abbrev main_call22_v3 : Ref sig .tc := ⟨.hbm, 756, rfl⟩
abbrev main_call22_v4 : Ref sig .tc := ⟨.hbm, 757, rfl⟩
abbrev main_call22_v5 : Ref sig .tc := ⟨.hbm, 758, rfl⟩
abbrev main_call22_v6 : Ref sig .tc := ⟨.hbm, 759, rfl⟩
abbrev main_call22_v7 : Ref sig .tc := ⟨.hbm, 760, rfl⟩
abbrev main_call22_cst_1 : Ref sig .tc := ⟨.hbm, 761, rfl⟩
abbrev main_call22_v8 : Ref sig .tc := ⟨.hbm, 762, rfl⟩
abbrev main_call22_cst_2 : Ref sig .tc := ⟨.hbm, 763, rfl⟩
abbrev main_call22_v9 : Ref sig .tc := ⟨.hbm, 764, rfl⟩
abbrev main_call22_v10 : Ref sig .tc := ⟨.hbm, 765, rfl⟩
abbrev main_call22_v11 : Ref sig .tc := ⟨.hbm, 766, rfl⟩
abbrev main_call22_cst_3 : Ref sig .tc := ⟨.hbm, 767, rfl⟩
abbrev main_call22_v12 : Ref sig .tc := ⟨.hbm, 768, rfl⟩
abbrev main_call22_cst_4 : Ref sig .tc := ⟨.hbm, 769, rfl⟩
abbrev main_call22_call0_v0 : Ref sig .tc := ⟨.hbm, 770, rfl⟩
abbrev main_call22_call0_v1 : Ref sig .tc := ⟨.hbm, 771, rfl⟩
abbrev main_v401 : Ref sig .tc := ⟨.hbm, 772, rfl⟩
abbrev main_v402 : Ref sig .tc := ⟨.hbm, 773, rfl⟩
abbrev main_v403 : Ref sig .tc := ⟨.hbm, 774, rfl⟩
abbrev main_v404 : Ref sig .tc := ⟨.hbm, 775, rfl⟩
abbrev main_cst_65 : Ref sig .tc := ⟨.hbm, 776, rfl⟩
abbrev main_v405 : Ref sig .tc := ⟨.hbm, 777, rfl⟩
abbrev main_v406 : Ref sig .tc := ⟨.hbm, 778, rfl⟩
abbrev main_v407 : Ref sig .tc := ⟨.hbm, 779, rfl⟩
abbrev main_v408 : Ref sig .tc := ⟨.hbm, 780, rfl⟩
abbrev main_v409 : Ref sig .tc := ⟨.hbm, 781, rfl⟩
abbrev main_v410 : Ref sig .tc := ⟨.hbm, 782, rfl⟩
abbrev main_v411 : Ref sig .tc := ⟨.hbm, 783, rfl⟩
abbrev main_v412 : Ref sig .tc := ⟨.hbm, 784, rfl⟩
abbrev main_v413 : Ref sig .tc := ⟨.hbm, 785, rfl⟩
abbrev main_v414 : Ref sig .tc := ⟨.hbm, 786, rfl⟩
abbrev main_v415 : Ref sig .tc := ⟨.hbm, 787, rfl⟩
abbrev main_v416 : Ref sig .tc := ⟨.hbm, 788, rfl⟩
abbrev main_call23_cst : Ref sig .tc := ⟨.hbm, 789, rfl⟩
abbrev main_call23_v0 : Ref sig .tc := ⟨.hbm, 790, rfl⟩
abbrev main_v417 : Ref sig .tc := ⟨.hbm, 791, rfl⟩
abbrev main_cst_66 : Ref sig .tc := ⟨.hbm, 792, rfl⟩
abbrev main_v418 : Ref sig .tc := ⟨.hbm, 793, rfl⟩
abbrev main_v419 : Ref sig .tc := ⟨.hbm, 794, rfl⟩
abbrev main_v420 : Ref sig .tc := ⟨.hbm, 795, rfl⟩
abbrev main_v421 : Ref sig .tc := ⟨.hbm, 796, rfl⟩
abbrev main_v422 : Ref sig .tc := ⟨.hbm, 797, rfl⟩
abbrev main_v423 : Ref sig .tc := ⟨.hbm, 798, rfl⟩
abbrev main_v424 : Ref sig .tc := ⟨.hbm, 799, rfl⟩
abbrev main_v425 : Ref sig .tc := ⟨.hbm, 800, rfl⟩
abbrev main_cst_67 : Ref sig .tc := ⟨.hbm, 801, rfl⟩
abbrev main_v426 : Ref sig .tc := ⟨.hbm, 802, rfl⟩
abbrev main_cst_68 : Ref sig .tc := ⟨.hbm, 803, rfl⟩
abbrev main_v427 : Ref sig .tc := ⟨.hbm, 804, rfl⟩
abbrev main_v428 : Ref sig .tc := ⟨.hbm, 805, rfl⟩
abbrev main_c_69 : Ref sig .tc := ⟨.hbm, 806, rfl⟩
abbrev main_call24_cst : Ref sig .tc := ⟨.hbm, 807, rfl⟩
abbrev main_call24_v0 : Ref sig .tc := ⟨.hbm, 808, rfl⟩
abbrev main_call24_v1 : Ref sig .tc := ⟨.hbm, 809, rfl⟩
abbrev main_call24_cst_0 : Ref sig .tc := ⟨.hbm, 810, rfl⟩
abbrev main_call24_v2 : Ref sig .tc := ⟨.hbm, 811, rfl⟩
abbrev main_call24_v3 : Ref sig .tc := ⟨.hbm, 812, rfl⟩
abbrev main_call24_v4 : Ref sig .tc := ⟨.hbm, 813, rfl⟩
abbrev main_call24_v5 : Ref sig .tc := ⟨.hbm, 814, rfl⟩
abbrev main_call24_v6 : Ref sig .tc := ⟨.hbm, 815, rfl⟩
abbrev main_call24_v7 : Ref sig .tc := ⟨.hbm, 816, rfl⟩
abbrev main_call24_cst_1 : Ref sig .tc := ⟨.hbm, 817, rfl⟩
abbrev main_call24_v8 : Ref sig .tc := ⟨.hbm, 818, rfl⟩
abbrev main_call24_cst_2 : Ref sig .tc := ⟨.hbm, 819, rfl⟩
abbrev main_call24_v9 : Ref sig .tc := ⟨.hbm, 820, rfl⟩
abbrev main_call24_v10 : Ref sig .tc := ⟨.hbm, 821, rfl⟩
abbrev main_call24_v11 : Ref sig .tc := ⟨.hbm, 822, rfl⟩
abbrev main_call24_cst_3 : Ref sig .tc := ⟨.hbm, 823, rfl⟩
abbrev main_call24_v12 : Ref sig .tc := ⟨.hbm, 824, rfl⟩
abbrev main_call24_cst_4 : Ref sig .tc := ⟨.hbm, 825, rfl⟩
abbrev main_call24_call0_v0 : Ref sig .tc := ⟨.hbm, 826, rfl⟩
abbrev main_call24_call0_v1 : Ref sig .tc := ⟨.hbm, 827, rfl⟩
abbrev main_v429 : Ref sig .tc := ⟨.hbm, 828, rfl⟩
abbrev main_v430 : Ref sig .tc := ⟨.hbm, 829, rfl⟩
abbrev main_v431 : Ref sig .tc := ⟨.hbm, 830, rfl⟩
abbrev main_v432 : Ref sig .tc := ⟨.hbm, 831, rfl⟩
abbrev main_cst_70 : Ref sig .tc := ⟨.hbm, 832, rfl⟩
abbrev main_v433 : Ref sig .tc := ⟨.hbm, 833, rfl⟩
abbrev main_v434 : Ref sig .tc := ⟨.hbm, 834, rfl⟩
abbrev main_v435 : Ref sig .tc := ⟨.hbm, 835, rfl⟩
abbrev main_v436 : Ref sig .tc := ⟨.hbm, 836, rfl⟩
abbrev main_v437 : Ref sig .tc := ⟨.hbm, 837, rfl⟩
abbrev main_v438 : Ref sig .tc := ⟨.hbm, 838, rfl⟩
abbrev main_v439 : Ref sig .tc := ⟨.hbm, 839, rfl⟩
abbrev main_v440 : Ref sig .tc := ⟨.hbm, 840, rfl⟩
abbrev main_v441 : Ref sig .tc := ⟨.hbm, 841, rfl⟩
abbrev main_v442 : Ref sig .tc := ⟨.hbm, 842, rfl⟩
abbrev main_v443 : Ref sig .tc := ⟨.hbm, 843, rfl⟩
abbrev main_v444 : Ref sig .tc := ⟨.hbm, 844, rfl⟩
abbrev main_call25_cst : Ref sig .tc := ⟨.hbm, 845, rfl⟩
abbrev main_call25_v0 : Ref sig .tc := ⟨.hbm, 846, rfl⟩
abbrev main_v445 : Ref sig .tc := ⟨.hbm, 847, rfl⟩
abbrev main_v446 : Ref sig .tc := ⟨.hbm, 848, rfl⟩
abbrev main_v447 : Ref sig .tc := ⟨.hbm, 849, rfl⟩
abbrev main_v448 : Ref sig .tc := ⟨.hbm, 850, rfl⟩
abbrev main_v449 : Ref sig .tc := ⟨.hbm, 851, rfl⟩
abbrev main_cst_71 : Ref sig .tc := ⟨.hbm, 852, rfl⟩
abbrev main_v450 : Ref sig .tc := ⟨.hbm, 853, rfl⟩
abbrev main_cst_72 : Ref sig .tc := ⟨.hbm, 854, rfl⟩
abbrev main_v451 : Ref sig .tc := ⟨.hbm, 855, rfl⟩
abbrev main_v452 : Ref sig .tc := ⟨.hbm, 856, rfl⟩
abbrev main_c_73 : Ref sig .tc := ⟨.hbm, 857, rfl⟩
abbrev main_call26_cst : Ref sig .tc := ⟨.hbm, 858, rfl⟩
abbrev main_call26_v0 : Ref sig .tc := ⟨.hbm, 859, rfl⟩
abbrev main_call26_v1 : Ref sig .tc := ⟨.hbm, 860, rfl⟩
abbrev main_call26_cst_0 : Ref sig .tc := ⟨.hbm, 861, rfl⟩
abbrev main_call26_v2 : Ref sig .tc := ⟨.hbm, 862, rfl⟩
abbrev main_call26_v3 : Ref sig .tc := ⟨.hbm, 863, rfl⟩
abbrev main_call26_v4 : Ref sig .tc := ⟨.hbm, 864, rfl⟩
abbrev main_call26_v5 : Ref sig .tc := ⟨.hbm, 865, rfl⟩
abbrev main_call26_v6 : Ref sig .tc := ⟨.hbm, 866, rfl⟩
abbrev main_call26_v7 : Ref sig .tc := ⟨.hbm, 867, rfl⟩
abbrev main_call26_cst_1 : Ref sig .tc := ⟨.hbm, 868, rfl⟩
abbrev main_call26_v8 : Ref sig .tc := ⟨.hbm, 869, rfl⟩
abbrev main_call26_cst_2 : Ref sig .tc := ⟨.hbm, 870, rfl⟩
abbrev main_call26_v9 : Ref sig .tc := ⟨.hbm, 871, rfl⟩
abbrev main_call26_v10 : Ref sig .tc := ⟨.hbm, 872, rfl⟩
abbrev main_call26_v11 : Ref sig .tc := ⟨.hbm, 873, rfl⟩
abbrev main_call26_cst_3 : Ref sig .tc := ⟨.hbm, 874, rfl⟩
abbrev main_call26_v12 : Ref sig .tc := ⟨.hbm, 875, rfl⟩
abbrev main_call26_cst_4 : Ref sig .tc := ⟨.hbm, 876, rfl⟩
abbrev main_call26_call0_v0 : Ref sig .tc := ⟨.hbm, 877, rfl⟩
abbrev main_call26_call0_v1 : Ref sig .tc := ⟨.hbm, 878, rfl⟩
abbrev main_v453 : Ref sig .tc := ⟨.hbm, 879, rfl⟩
abbrev main_v454 : Ref sig .tc := ⟨.hbm, 880, rfl⟩
abbrev main_v455 : Ref sig .tc := ⟨.hbm, 881, rfl⟩
abbrev main_v456 : Ref sig .tc := ⟨.hbm, 882, rfl⟩
abbrev main_cst_74 : Ref sig .tc := ⟨.hbm, 883, rfl⟩
abbrev main_v457 : Ref sig .tc := ⟨.hbm, 884, rfl⟩
abbrev main_v458 : Ref sig .tc := ⟨.hbm, 885, rfl⟩
abbrev main_v459 : Ref sig .tc := ⟨.hbm, 886, rfl⟩
abbrev main_v460 : Ref sig .tc := ⟨.hbm, 887, rfl⟩
abbrev main_v461 : Ref sig .tc := ⟨.hbm, 888, rfl⟩
abbrev main_v462 : Ref sig .tc := ⟨.hbm, 889, rfl⟩
abbrev main_v463 : Ref sig .tc := ⟨.hbm, 890, rfl⟩
abbrev main_v464 : Ref sig .tc := ⟨.hbm, 891, rfl⟩
abbrev main_v465 : Ref sig .tc := ⟨.hbm, 892, rfl⟩
abbrev main_v466 : Ref sig .tc := ⟨.hbm, 893, rfl⟩
abbrev main_v467 : Ref sig .tc := ⟨.hbm, 894, rfl⟩
abbrev main_v468 : Ref sig .tc := ⟨.hbm, 895, rfl⟩
abbrev main_call27_cst : Ref sig .tc := ⟨.hbm, 896, rfl⟩
abbrev main_call27_v0 : Ref sig .tc := ⟨.hbm, 897, rfl⟩
abbrev main_v469 : Ref sig .tc := ⟨.hbm, 898, rfl⟩
abbrev main_c_75 : Ref sig .tc := ⟨.hbm, 899, rfl⟩
abbrev main_v470 : Ref sig .tc := ⟨.hbm, 900, rfl⟩
abbrev main_v471 : Ref sig .tc := ⟨.hbm, 901, rfl⟩
abbrev main_c_76 : Ref sig .tc := ⟨.hbm, 902, rfl⟩
abbrev main_v472 : Ref sig .tc := ⟨.hbm, 903, rfl⟩
abbrev main_v473 : Ref sig .tc := ⟨.hbm, 904, rfl⟩
abbrev main_v474 : Ref sig .tc := ⟨.hbm, 905, rfl⟩
abbrev main_v475 : Ref sig .tc := ⟨.hbm, 906, rfl⟩
abbrev main_v476 : Ref sig .tc := ⟨.hbm, 907, rfl⟩
abbrev main_v477 : Ref sig .tc := ⟨.hbm, 908, rfl⟩
abbrev main_v478 : Ref sig .tc := ⟨.hbm, 909, rfl⟩
abbrev main_v479 : Ref sig .tc := ⟨.hbm, 910, rfl⟩
abbrev main_v480 : Ref sig .tc := ⟨.hbm, 911, rfl⟩
abbrev main_v481 : Ref sig .tc := ⟨.hbm, 912, rfl⟩
abbrev main_v482 : Ref sig .tc := ⟨.hbm, 913, rfl⟩
abbrev main_v483 : Ref sig .tc := ⟨.hbm, 914, rfl⟩
abbrev main_v484 : Ref sig .tc := ⟨.hbm, 915, rfl⟩
abbrev main_v485 : Ref sig .tc := ⟨.hbm, 916, rfl⟩
abbrev main_v486 : Ref sig .tc := ⟨.hbm, 917, rfl⟩
abbrev main_v487 : Ref sig .tc := ⟨.hbm, 918, rfl⟩
abbrev main_v488 : Ref sig .tc := ⟨.hbm, 919, rfl⟩
abbrev main_v489 : Ref sig .tc := ⟨.hbm, 920, rfl⟩
abbrev main_c_77 : Ref sig .tc := ⟨.hbm, 921, rfl⟩
abbrev main_v490 : Ref sig .tc := ⟨.hbm, 922, rfl⟩
abbrev main_v491 : Ref sig .tc := ⟨.hbm, 923, rfl⟩
abbrev main_c_78 : Ref sig .tc := ⟨.hbm, 924, rfl⟩
abbrev main_v492 : Ref sig .tc := ⟨.hbm, 925, rfl⟩
abbrev main_v493 : Ref sig .tc := ⟨.hbm, 926, rfl⟩
abbrev main_v494 : Ref sig .tc := ⟨.hbm, 927, rfl⟩
abbrev main_v495 : Ref sig .tc := ⟨.hbm, 928, rfl⟩
abbrev main_v496 : Ref sig .tc := ⟨.hbm, 929, rfl⟩
abbrev main_cst_79 : Ref sig .tc := ⟨.hbm, 930, rfl⟩
abbrev main_v497 : Ref sig .tc := ⟨.hbm, 931, rfl⟩
abbrev main_v498 : Ref sig .tc := ⟨.hbm, 932, rfl⟩
abbrev main_v499 : Ref sig .tc := ⟨.hbm, 933, rfl⟩
abbrev main_v500 : Ref sig .tc := ⟨.hbm, 934, rfl⟩
abbrev main_v501 : Ref sig .tc := ⟨.hbm, 935, rfl⟩
abbrev main_v502 : Ref sig .tc := ⟨.hbm, 936, rfl⟩
abbrev main_v503 : Ref sig .tc := ⟨.hbm, 937, rfl⟩
abbrev main_v504 : Ref sig .tc := ⟨.hbm, 938, rfl⟩
abbrev main_cst_80 : Ref sig .tc := ⟨.hbm, 939, rfl⟩
abbrev main_v505 : Ref sig .tc := ⟨.hbm, 940, rfl⟩
abbrev main_cst_81 : Ref sig .tc := ⟨.hbm, 941, rfl⟩
abbrev main_v506 : Ref sig .tc := ⟨.hbm, 942, rfl⟩
abbrev main_v507 : Ref sig .tc := ⟨.hbm, 943, rfl⟩
abbrev main_c_82 : Ref sig .tc := ⟨.hbm, 944, rfl⟩
abbrev main_call28_cst : Ref sig .tc := ⟨.hbm, 945, rfl⟩
abbrev main_call28_v0 : Ref sig .tc := ⟨.hbm, 946, rfl⟩
abbrev main_call28_v1 : Ref sig .tc := ⟨.hbm, 947, rfl⟩
abbrev main_call28_cst_0 : Ref sig .tc := ⟨.hbm, 948, rfl⟩
abbrev main_call28_v2 : Ref sig .tc := ⟨.hbm, 949, rfl⟩
abbrev main_call28_v3 : Ref sig .tc := ⟨.hbm, 950, rfl⟩
abbrev main_call28_v4 : Ref sig .tc := ⟨.hbm, 951, rfl⟩
abbrev main_call28_v5 : Ref sig .tc := ⟨.hbm, 952, rfl⟩
abbrev main_call28_v6 : Ref sig .tc := ⟨.hbm, 953, rfl⟩
abbrev main_call28_v7 : Ref sig .tc := ⟨.hbm, 954, rfl⟩
abbrev main_call28_cst_1 : Ref sig .tc := ⟨.hbm, 955, rfl⟩
abbrev main_call28_v8 : Ref sig .tc := ⟨.hbm, 956, rfl⟩
abbrev main_call28_cst_2 : Ref sig .tc := ⟨.hbm, 957, rfl⟩
abbrev main_call28_v9 : Ref sig .tc := ⟨.hbm, 958, rfl⟩
abbrev main_call28_v10 : Ref sig .tc := ⟨.hbm, 959, rfl⟩
abbrev main_call28_v11 : Ref sig .tc := ⟨.hbm, 960, rfl⟩
abbrev main_call28_cst_3 : Ref sig .tc := ⟨.hbm, 961, rfl⟩
abbrev main_call28_v12 : Ref sig .tc := ⟨.hbm, 962, rfl⟩
abbrev main_call28_cst_4 : Ref sig .tc := ⟨.hbm, 963, rfl⟩
abbrev main_call28_call0_v0 : Ref sig .tc := ⟨.hbm, 964, rfl⟩
abbrev main_call28_call0_v1 : Ref sig .tc := ⟨.hbm, 965, rfl⟩
abbrev main_v508 : Ref sig .tc := ⟨.hbm, 966, rfl⟩
abbrev main_v509 : Ref sig .tc := ⟨.hbm, 967, rfl⟩
abbrev main_v510 : Ref sig .tc := ⟨.hbm, 968, rfl⟩
abbrev main_v511 : Ref sig .tc := ⟨.hbm, 969, rfl⟩
abbrev main_cst_83 : Ref sig .tc := ⟨.hbm, 970, rfl⟩
abbrev main_v512 : Ref sig .tc := ⟨.hbm, 971, rfl⟩
abbrev main_v513 : Ref sig .tc := ⟨.hbm, 972, rfl⟩
abbrev main_v514 : Ref sig .tc := ⟨.hbm, 973, rfl⟩
abbrev main_v515 : Ref sig .tc := ⟨.hbm, 974, rfl⟩
abbrev main_v516 : Ref sig .tc := ⟨.hbm, 975, rfl⟩
abbrev main_v517 : Ref sig .tc := ⟨.hbm, 976, rfl⟩
abbrev main_v518 : Ref sig .tc := ⟨.hbm, 977, rfl⟩
abbrev main_v519 : Ref sig .tc := ⟨.hbm, 978, rfl⟩
abbrev main_v520 : Ref sig .tc := ⟨.hbm, 979, rfl⟩
abbrev main_v521 : Ref sig .tc := ⟨.hbm, 980, rfl⟩
abbrev main_v522 : Ref sig .tc := ⟨.hbm, 981, rfl⟩
abbrev main_v523 : Ref sig .tc := ⟨.hbm, 982, rfl⟩
abbrev main_call29_cst : Ref sig .tc := ⟨.hbm, 983, rfl⟩
abbrev main_call29_v0 : Ref sig .tc := ⟨.hbm, 984, rfl⟩
abbrev main_v524 : Ref sig .tc := ⟨.hbm, 985, rfl⟩
abbrev main_v525 : Ref sig .tc := ⟨.hbm, 986, rfl⟩
abbrev main_v526 : Ref sig .tc := ⟨.hbm, 987, rfl⟩
abbrev main_v527 : Ref sig .tc := ⟨.hbm, 988, rfl⟩
abbrev main_v528 : Ref sig .tc := ⟨.hbm, 989, rfl⟩
abbrev main_v529 : Ref sig .tc := ⟨.hbm, 990, rfl⟩
abbrev main_v530 : Ref sig .tc := ⟨.hbm, 991, rfl⟩
abbrev main_v531 : Ref sig .tc := ⟨.hbm, 992, rfl⟩
abbrev main_v532 : Ref sig .tc := ⟨.hbm, 993, rfl⟩
abbrev main_cst_84 : Ref sig .tc := ⟨.hbm, 994, rfl⟩
abbrev main_v533 : Ref sig .tc := ⟨.hbm, 995, rfl⟩
abbrev main_cst_85 : Ref sig .tc := ⟨.hbm, 996, rfl⟩
abbrev main_v534 : Ref sig .tc := ⟨.hbm, 997, rfl⟩
abbrev main_v535 : Ref sig .tc := ⟨.hbm, 998, rfl⟩
abbrev main_c_86 : Ref sig .tc := ⟨.hbm, 999, rfl⟩
abbrev main_call30_cst : Ref sig .tc := ⟨.hbm, 1000, rfl⟩
abbrev main_call30_v0 : Ref sig .tc := ⟨.hbm, 1001, rfl⟩
abbrev main_call30_v1 : Ref sig .tc := ⟨.hbm, 1002, rfl⟩
abbrev main_call30_cst_0 : Ref sig .tc := ⟨.hbm, 1003, rfl⟩
abbrev main_call30_v2 : Ref sig .tc := ⟨.hbm, 1004, rfl⟩
abbrev main_call30_v3 : Ref sig .tc := ⟨.hbm, 1005, rfl⟩
abbrev main_call30_v4 : Ref sig .tc := ⟨.hbm, 1006, rfl⟩
abbrev main_call30_v5 : Ref sig .tc := ⟨.hbm, 1007, rfl⟩
abbrev main_call30_v6 : Ref sig .tc := ⟨.hbm, 1008, rfl⟩
abbrev main_call30_v7 : Ref sig .tc := ⟨.hbm, 1009, rfl⟩
abbrev main_call30_cst_1 : Ref sig .tc := ⟨.hbm, 1010, rfl⟩
abbrev main_call30_v8 : Ref sig .tc := ⟨.hbm, 1011, rfl⟩
abbrev main_call30_cst_2 : Ref sig .tc := ⟨.hbm, 1012, rfl⟩
abbrev main_call30_v9 : Ref sig .tc := ⟨.hbm, 1013, rfl⟩
abbrev main_call30_v10 : Ref sig .tc := ⟨.hbm, 1014, rfl⟩
abbrev main_call30_v11 : Ref sig .tc := ⟨.hbm, 1015, rfl⟩
abbrev main_call30_cst_3 : Ref sig .tc := ⟨.hbm, 1016, rfl⟩
abbrev main_call30_v12 : Ref sig .tc := ⟨.hbm, 1017, rfl⟩
abbrev main_call30_cst_4 : Ref sig .tc := ⟨.hbm, 1018, rfl⟩
abbrev main_call30_call0_v0 : Ref sig .tc := ⟨.hbm, 1019, rfl⟩
abbrev main_call30_call0_v1 : Ref sig .tc := ⟨.hbm, 1020, rfl⟩
abbrev main_v536 : Ref sig .tc := ⟨.hbm, 1021, rfl⟩
abbrev main_v537 : Ref sig .tc := ⟨.hbm, 1022, rfl⟩
abbrev main_v538 : Ref sig .tc := ⟨.hbm, 1023, rfl⟩
abbrev main_v539 : Ref sig .tc := ⟨.hbm, 1024, rfl⟩
abbrev main_cst_87 : Ref sig .tc := ⟨.hbm, 1025, rfl⟩
abbrev main_v540 : Ref sig .tc := ⟨.hbm, 1026, rfl⟩
abbrev main_v541 : Ref sig .tc := ⟨.hbm, 1027, rfl⟩
abbrev main_v542 : Ref sig .tc := ⟨.hbm, 1028, rfl⟩
abbrev main_v543 : Ref sig .tc := ⟨.hbm, 1029, rfl⟩
abbrev main_v544 : Ref sig .tc := ⟨.hbm, 1030, rfl⟩
abbrev main_v545 : Ref sig .tc := ⟨.hbm, 1031, rfl⟩
abbrev main_v546 : Ref sig .tc := ⟨.hbm, 1032, rfl⟩
abbrev main_v547 : Ref sig .tc := ⟨.hbm, 1033, rfl⟩
abbrev main_v548 : Ref sig .tc := ⟨.hbm, 1034, rfl⟩
abbrev main_v549 : Ref sig .tc := ⟨.hbm, 1035, rfl⟩
abbrev main_v550 : Ref sig .tc := ⟨.hbm, 1036, rfl⟩
abbrev main_v551 : Ref sig .tc := ⟨.hbm, 1037, rfl⟩
abbrev main_cst_88 : Ref sig .tc := ⟨.hbm, 1038, rfl⟩
abbrev main_v552 : Ref sig .tc := ⟨.hbm, 1039, rfl⟩
abbrev main_cst_89 : Ref sig .tc := ⟨.hbm, 1040, rfl⟩
abbrev main_v553 : Ref sig .tc := ⟨.hbm, 1041, rfl⟩
abbrev main_v554 : Ref sig .tc := ⟨.hbm, 1042, rfl⟩
abbrev main_v555 : Ref sig .tc := ⟨.hbm, 1043, rfl⟩
abbrev main_cst_90 : Ref sig .tc := ⟨.hbm, 1044, rfl⟩
abbrev main_v556 : Ref sig .tc := ⟨.hbm, 1045, rfl⟩
abbrev main_v557 : Ref sig .tc := ⟨.hbm, 1046, rfl⟩
abbrev main_v558 : Ref sig .tc := ⟨.hbm, 1047, rfl⟩
abbrev main_cst_91 : Ref sig .tc := ⟨.hbm, 1048, rfl⟩
abbrev main_v559 : Ref sig .tc := ⟨.hbm, 1049, rfl⟩
abbrev main_v560 : Ref sig .tc := ⟨.hbm, 1050, rfl⟩
abbrev main_v561 : Ref sig .tc := ⟨.hbm, 1051, rfl⟩
abbrev main_v562 : Ref sig .tc := ⟨.hbm, 1052, rfl⟩
abbrev main_v563 : Ref sig .tc := ⟨.hbm, 1053, rfl⟩
abbrev main_v564 : Ref sig .tc := ⟨.hbm, 1054, rfl⟩
abbrev main_v565 : Ref sig .tc := ⟨.hbm, 1055, rfl⟩
abbrev main_v566 : Ref sig .tc := ⟨.hbm, 1056, rfl⟩
abbrev main_v567 : Ref sig .tc := ⟨.hbm, 1057, rfl⟩

abbrev nD : Nat := 1
abbrev τ : Topo := Topo.v7x

variable {F : FTy → Type} [FloatOps F]

class Facts₀ : Prop where
  slices_S2x160000_S1x160000_0_0 : S2x160000.Slices ![0, 0] S1x160000
  shapeCasts_S1x160000_S160000 : S1x160000.ShapeCasts S160000
  slices_S2x160000_S1x160000_1_0 : S2x160000.Slices ![1, 0] S1x160000
  shapeCasts_S1x300_S300 : S1x300.ShapeCasts S300
  bcast_S300_S64x300_1 : S300.BroadcastsInDim S64x300 (![1] : Fin 1 → Fin S64x300.rank)
  bcast_S_S160000 : S_.BroadcastsInDim S160000 (![] : Fin 0 → Fin S160000.rank)
  bcast_S160000_S160000x1_0 : S160000.BroadcastsInDim S160000x1 (![0] : Fin 1 → Fin S160000x1.rank)
  bcast_S_S10000x128 : S_.BroadcastsInDim S10000x128 (![] : Fin 0 → Fin S10000x128.rank)
  bcast_S600_S1x600_1 : S600.BroadcastsInDim S1x600 (![1] : Fin 1 → Fin S1x600.rank)
  bcast_S1x600_S10000x600_0_1 : S1x600.BroadcastsInDim S10000x600 (![0, 1] : Fin 2 → Fin S10000x600.rank)
  reducesTo_S10000x600_S600_d0 : S10000x600.ReducesTo [0] S600
  h_S_ : 0 < S_.numel
  bcast_S_S600 : S_.BroadcastsInDim S600 (![] : Fin 0 → Fin S600.rank)
  bcast_S_S1x600 : S_.BroadcastsInDim S1x600 (![] : Fin 0 → Fin S1x600.rank)
  bcast_S_S10000x600 : S_.BroadcastsInDim S10000x600 (![] : Fin 0 → Fin S10000x600.rank)
  bcast_S300_S1x300_1 : S300.BroadcastsInDim S1x300 (![1] : Fin 1 → Fin S1x300.rank)
  bcast_S1x300_S10000x300_0_1 : S1x300.BroadcastsInDim S10000x300 (![0, 1] : Fin 2 → Fin S10000x300.rank)
  reducesTo_S10000x300_S300_d0 : S10000x300.ReducesTo [0] S300
  bcast_S_S300 : S_.BroadcastsInDim S300 (![] : Fin 0 → Fin S300.rank)
  bcast_S_S1x300 : S_.BroadcastsInDim S1x300 (![] : Fin 0 → Fin S1x300.rank)
  bcast_S_S10000x300 : S_.BroadcastsInDim S10000x300 (![] : Fin 0 → Fin S10000x300.rank)
  bcast_S_S10000 : S_.BroadcastsInDim S10000 (![] : Fin 0 → Fin S10000.rank)
  bcast_S10000_S10000x1_0 : S10000.BroadcastsInDim S10000x1 (![0] : Fin 1 → Fin S10000x1.rank)
  slices_S4x300x600_S1x300x600_0_0_0 : S4x300x600.Slices ![0, 0, 0] S1x300x600
  shapeCasts_S1x300x600_S300x600 : S1x300x600.ShapeCasts S300x600
  slices_S4x600_S1x600_0_0 : S4x600.Slices ![0, 0] S1x600
  shapeCasts_S1x600_S600 : S1x600.ShapeCasts S600
  slices_S4x600x300_S1x600x300_0_0_0 : S4x600x300.Slices ![0, 0, 0] S1x600x300
  shapeCasts_S1x600x300_S600x300 : S1x600x300.ShapeCasts S600x300
  slices_S4x300_S1x300_0_0 : S4x300.Slices ![0, 0] S1x300
  bcast_S_S64x300 : S_.BroadcastsInDim S64x300 (![] : Fin 0 → Fin S64x300.rank)
  bcast_S1x600_S64x600_0_1 : S1x600.BroadcastsInDim S64x600 (![0, 1] : Fin 2 → Fin S64x600.rank)
  reducesTo_S64x600_S600_d0 : S64x600.ReducesTo [0] S600
  bcast_S_S64x600 : S_.BroadcastsInDim S64x600 (![] : Fin 0 → Fin S64x600.rank)
  bcast_S1x300_S64x300_0_1 : S1x300.BroadcastsInDim S64x300 (![0, 1] : Fin 2 → Fin S64x300.rank)
  reducesTo_S64x300_S300_d0 : S64x300.ReducesTo [0] S300
  slices_S4x300x600_S1x300x600_1_0_0 : S4x300x600.Slices ![1, 0, 0] S1x300x600
  slices_S4x600_S1x600_1_0 : S4x600.Slices ![1, 0] S1x600
  slices_S4x600x300_S1x600x300_1_0_0 : S4x600x300.Slices ![1, 0, 0] S1x600x300
  slices_S4x300_S1x300_1_0 : S4x300.Slices ![1, 0] S1x300
  slices_S4x300x600_S1x300x600_2_0_0 : S4x300x600.Slices ![2, 0, 0] S1x300x600
  slices_S4x600_S1x600_2_0 : S4x600.Slices ![2, 0] S1x600
  slices_S4x600x300_S1x600x300_2_0_0 : S4x600x300.Slices ![2, 0, 0] S1x600x300
  slices_S4x300_S1x300_2_0 : S4x300.Slices ![2, 0] S1x300
  slices_S4x300x600_S1x300x600_3_0_0 : S4x300x600.Slices ![3, 0, 0] S1x300x600
  slices_S4x600_S1x600_3_0 : S4x600.Slices ![3, 0] S1x600
  slices_S4x600x300_S1x600x300_3_0_0 : S4x600x300.Slices ![3, 0, 0] S1x600x300
  slices_S4x300_S1x300_3_0 : S4x300.Slices ![3, 0] S1x300
  bcast_S_S64 : S_.BroadcastsInDim S64 (![] : Fin 0 → Fin S64.rank)
  bcast_S64_S64x1_0 : S64.BroadcastsInDim S64x1 (![0] : Fin 1 → Fin S64x1.rank)
  bcast_S64x1_S64x300_0_1 : S64x1.BroadcastsInDim S64x300 (![0, 1] : Fin 2 → Fin S64x300.rank)
  bcast_S10_S1x10_1 : S10.BroadcastsInDim S1x10 (![1] : Fin 1 → Fin S1x10.rank)
  bcast_S1x10_S64x10_0_1 : S1x10.BroadcastsInDim S64x10 (![0, 1] : Fin 2 → Fin S64x10.rank)
  gather_S10000x128_S160000x1_S160000x128_1_0_n_n_0_1_1128_wf : GatherDims.WF S10000x128 S160000x1 S160000x128 [1] [0] [] [0] [] 1 ![1, 128]
  scatter_S10000x128_S160000x1_S160000x128_1_0_0_1_wf : ScatterDims.WF S10000x128 S160000x1 S160000x128 [1] [0] [0] 1
  dot_S10000x128_S128x600_S10000x600_1_0_0_1_n_n_wf : DotDims.WF S10000x128 S128x600 S10000x600 [1] [0] [0] [1] [] []
  dot_S10000x600_S600x300_S10000x300_1_0_0_1_n_n_wf : DotDims.WF S10000x600 S600x300 S10000x300 [1] [0] [0] [1] [] []
  gather_S64x300_S10000x1_S10000x300_1_0_n_n_0_1_1300_wf : GatherDims.WF S64x300 S10000x1 S10000x300 [1] [0] [] [0] [] 1 ![1, 300]
  gather_S10000x300_S160000x1_S160000x300_1_0_n_n_0_1_1300_wf : GatherDims.WF S10000x300 S160000x1 S160000x300 [1] [0] [] [0] [] 1 ![1, 300]
  scatter_S10000x300_S160000x1_S160000x300_1_0_0_1_wf : ScatterDims.WF S10000x300 S160000x1 S160000x300 [1] [0] [0] 1
  dot_S10000x300_S300x600_S10000x600_1_0_0_1_n_n_wf : DotDims.WF S10000x300 S300x600 S10000x600 [1] [0] [0] [1] [] []
  scatter_S64x300_S10000x1_S10000x300_1_0_0_1_wf : ScatterDims.WF S64x300 S10000x1 S10000x300 [1] [0] [0] 1
  dot_S64x300_S300x600_S64x600_1_0_0_1_n_n_wf : DotDims.WF S64x300 S300x600 S64x600 [1] [0] [0] [1] [] []
  dot_S64x600_S600x300_S64x300_1_0_0_1_n_n_wf : DotDims.WF S64x600 S600x300 S64x300 [1] [0] [0] [1] [] []
  scatter_S64_S10000x1_S10000_n_0_0_1_wf : ScatterDims.WF S64 S10000x1 S10000 [] [0] [0] 1
  dot_S64x300_S300x10_S64x10_1_0_0_1_n_n_wf : DotDims.WF S64x300 S300x10 S64x10 [1] [0] [0] [1] [] []

variable [Facts₀]

def gather_S10000x128_S160000x1_S160000x128_1_0_n_n_0_1_1128 : GatherDims S10000x128 S160000x1 S160000x128 where
  offsetDims := [1]
  collapsedSliceDims := [0]
  operandBatchingDims := []
  startIndicesBatchingDims := []
  startIndexMap := [0]
  indexVectorDim := 1
  sliceSizes := ![1, 128]
  wf := gather_S10000x128_S160000x1_S160000x128_1_0_n_n_0_1_1128_wf
def scatter_S10000x128_S160000x1_S160000x128_1_0_0_1 : ScatterDims S10000x128 S160000x1 S160000x128 where
  updateWindowDims := [1]
  insertedWindowDims := [0]
  scatterDimsToOperandDims := [0]
  indexVectorDim := 1
  wf := scatter_S10000x128_S160000x1_S160000x128_1_0_0_1_wf
def dot_S10000x128_S128x600_S10000x600_1_0_0_1_n_n : DotDims S10000x128 S128x600 S10000x600 where
  lhsContracting := [1]
  rhsContracting := [0]
  lhsNonContracting := [0]
  rhsNonContracting := [1]
  lhsBatch := []
  rhsBatch := []
  wf := dot_S10000x128_S128x600_S10000x600_1_0_0_1_n_n_wf
def dot_S10000x600_S600x300_S10000x300_1_0_0_1_n_n : DotDims S10000x600 S600x300 S10000x300 where
  lhsContracting := [1]
  rhsContracting := [0]
  lhsNonContracting := [0]
  rhsNonContracting := [1]
  lhsBatch := []
  rhsBatch := []
  wf := dot_S10000x600_S600x300_S10000x300_1_0_0_1_n_n_wf
def gather_S64x300_S10000x1_S10000x300_1_0_n_n_0_1_1300 : GatherDims S64x300 S10000x1 S10000x300 where
  offsetDims := [1]
  collapsedSliceDims := [0]
  operandBatchingDims := []
  startIndicesBatchingDims := []
  startIndexMap := [0]
  indexVectorDim := 1
  sliceSizes := ![1, 300]
  wf := gather_S64x300_S10000x1_S10000x300_1_0_n_n_0_1_1300_wf
def gather_S10000x300_S160000x1_S160000x300_1_0_n_n_0_1_1300 : GatherDims S10000x300 S160000x1 S160000x300 where
  offsetDims := [1]
  collapsedSliceDims := [0]
  operandBatchingDims := []
  startIndicesBatchingDims := []
  startIndexMap := [0]
  indexVectorDim := 1
  sliceSizes := ![1, 300]
  wf := gather_S10000x300_S160000x1_S160000x300_1_0_n_n_0_1_1300_wf
def scatter_S10000x300_S160000x1_S160000x300_1_0_0_1 : ScatterDims S10000x300 S160000x1 S160000x300 where
  updateWindowDims := [1]
  insertedWindowDims := [0]
  scatterDimsToOperandDims := [0]
  indexVectorDim := 1
  wf := scatter_S10000x300_S160000x1_S160000x300_1_0_0_1_wf
def dot_S10000x300_S300x600_S10000x600_1_0_0_1_n_n : DotDims S10000x300 S300x600 S10000x600 where
  lhsContracting := [1]
  rhsContracting := [0]
  lhsNonContracting := [0]
  rhsNonContracting := [1]
  lhsBatch := []
  rhsBatch := []
  wf := dot_S10000x300_S300x600_S10000x600_1_0_0_1_n_n_wf
def scatter_S64x300_S10000x1_S10000x300_1_0_0_1 : ScatterDims S64x300 S10000x1 S10000x300 where
  updateWindowDims := [1]
  insertedWindowDims := [0]
  scatterDimsToOperandDims := [0]
  indexVectorDim := 1
  wf := scatter_S64x300_S10000x1_S10000x300_1_0_0_1_wf
def dot_S64x300_S300x600_S64x600_1_0_0_1_n_n : DotDims S64x300 S300x600 S64x600 where
  lhsContracting := [1]
  rhsContracting := [0]
  lhsNonContracting := [0]
  rhsNonContracting := [1]
  lhsBatch := []
  rhsBatch := []
  wf := dot_S64x300_S300x600_S64x600_1_0_0_1_n_n_wf
def dot_S64x600_S600x300_S64x300_1_0_0_1_n_n : DotDims S64x600 S600x300 S64x300 where
  lhsContracting := [1]
  rhsContracting := [0]
  lhsNonContracting := [0]
  rhsNonContracting := [1]
  lhsBatch := []
  rhsBatch := []
  wf := dot_S64x600_S600x300_S64x300_1_0_0_1_n_n_wf
def scatter_S64_S10000x1_S10000_n_0_0_1 : ScatterDims S64 S10000x1 S10000 where
  updateWindowDims := []
  insertedWindowDims := [0]
  scatterDimsToOperandDims := [0]
  indexVectorDim := 1
  wf := scatter_S64_S10000x1_S10000_n_0_0_1_wf
def dot_S64x300_S300x10_S64x10_1_0_0_1_n_n : DotDims S64x300 S300x10 S64x10 where
  lhsContracting := [1]
  rhsContracting := [0]
  lhsNonContracting := [0]
  rhsNonContracting := [1]
  lhsBatch := []
  rhsBatch := []
  wf := dot_S64x300_S300x10_S64x10_1_0_0_1_n_n_wf

class Facts : Prop extends Facts₀ where

variable [Facts]
-- ==== Proof.K.Reg0Runs.lean ====
/- Region 0 (custom_call 0, `cc0_kernel`, grid ![10, 20]): the segment sum's body in each of its three control
   cases. The body keeps an accumulator (its last operand, a whole scratch buffer of shape 1024x300): at the first edge
   block of a node block (grid coordinate 1 equal to 0) it stores zeros into it; at every point it adds the one-hot
   product of the point's two input blocks to it; at the last edge block (coordinate 1 equal to 19) it copies it to
   the output's staging buffer, which it otherwise does not touch. Each case is a triple whose post names the
   accumulator's new contents as the payload `k0_pay2` of the input blocks and the contents found (zeros after a
   reset). -/
import proofs.«411400_j9251359555630_1_alg».proof.Proof.Gen.Kernel.Launch
import proofs.«411400_j9251359555630_1_alg».proof.Proof.Gen.Kernel.Skeleton
import proofs.«411400_j9251359555630_1_alg».proof.Proof.Gen.Kernel.Points
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.Kernel.Reg0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The branch conditions, in closed form over the grid -/

/-- The condition of the body's first `scf.if` (the accumulator's reset), from the grid coordinates. -/
abbrev cond0_0 (i : grid0.Coords) : Prop :=
  (Scalar.cmpi .ne (Scalar.extui (Scalar.cmpi .eq (BitVec.ofNat 32 (i 1).val) 0#32)) 0#32) = 1#1
/-- It holds at the points whose position is 0 modulo 20: the first edge block of each node block. -/
theorem hcond0_0 : ∀ t : Fin cfg0.N, cond0_0 (grid0.coords t) ↔ t.val % 20 = 0 :=
  (by decide +kernel : ∀ t : Fin grid0.N, cond0_0 (grid0.coords t) ↔ t.val % 20 = 0)

/-- The condition of the body's second `scf.if` (the copy to the output), from the grid coordinates. -/
abbrev cond0_1 (i : grid0.Coords) : Prop := k0_cond2 i = 1#1
/-- It holds at the points whose position is 19 modulo 20: the last edge block of each node block. -/
theorem hcond0_1 : ∀ t : Fin cfg0.N, cond0_1 (grid0.coords t) ↔ t.val % 20 = 19 :=
  (by decide +kernel : ∀ t : Fin grid0.N, cond0_1 (grid0.coords t) ↔ t.val % 20 = 19)

/-! ## Where the windows are idle -/

/-- The two input windows are never idle. -/
theorem liveAt0_0 (t : Fin cfg0.N) : cfg0.idle 0 (grid0.coords t) = false := rfl
theorem liveAt0_1 (t : Fin cfg0.N) : cfg0.idle 1 (grid0.coords t) = false := rfl
/-- The output window is idle exactly where the second condition fails: the body stores into it only under it. -/
theorem idleAt0_2 (i : grid0.Coords) (h : ¬cond0_1 i) : cfg0.idle 2 i = true := by
  show (!(k0_cond2 i == 1#1)) = true
  cases hb : (k0_cond2 i == 1#1) with
  | false => rfl
  | true => exact absurd (eq_of_beq hb) h
theorem liveAt0_2 (i : grid0.Coords) (h : cond0_1 i) : cfg0.idle 2 i = false := by
  show (!(k0_cond2 i == 1#1)) = false
  rw [show k0_cond2 i = 1#1 from h]; rfl
/-- Off the last edge block the output's block is not written back. -/
theorem noFlush0_2 (t : Fin cfg0.N) (h : ¬t.val % 20 = 19) : (cfg0.win 2).flush t = false :=
  Bool.eq_false_iff.mpr fun hf => h ((flush0_2 t).mp hf)

/-! ## Whole-buffer accesses -/

/-- The offsets of every access of the body: zero on both axes. -/
theorem hz0 : (![0, 0] : Fin 2 → Nat) = fun _ => 0 := funext fun a => by fin_cases a <;> rfl

/-- A store through the whole-shape rectangle at zero offsets, made last, is what the buffer then reads, whatever
    was stored before and whatever the buffer held. -/
theorem read_writes_whole0 {S : Shape} {e : EltTy} {sp : Space} (v : View sig .tc sp S e) (f : v.ty.Contents (Elt F))
    {off : Fin S.rank → Nat} (h : off = fun _ => 0) (inb : ∀ a, off a + S.size a ≤ S.size a)
    (w : S.Idx → Elt F e) (L : List (View.Piece (Elt F) S e)) :
    v.read (Elt F) (v.writes (Elt F) f ((⟨Rect.unit off S.size inb, w⟩ : View.Piece (Elt F) S e) :: L)) = w := by
  refine (View.read_writes_eq_canon v f _ fun y =>
    ⟨⟨Rect.unit off S.size inb, w⟩, List.mem_cons_self, View.mem_set_unit_zero h inb y⟩).trans ?_
  exact View.canon_cons_unit_zero h inb w L

/-! ## The body's triple, case by case -/

set_option maxHeartbeats 1000000 in
/-- CASE A, the first edge block of a node block (first condition true, second false): on whole memrefs, the inputs' at
    contents `x0`, `x1`, the output's at `xo`, the accumulator at anything, the body runs to the continuation holding
    the first three as they were and the accumulator at the payload of the input blocks over zeros. -/
theorem run0_A (c : Dev nD) (i : grid0.Coords)
    (arg2 : Memref sig .tc .vmem S8000x1 .i32) (harg2 : arg2.IsWhole)
    (arg3 : Memref sig .tc .vmem S8000x128 .bf16) (harg3 : arg3.IsWhole)
    (arg4 : Memref sig .tc .vmem S1024x128 .f32) (harg4 : arg4.IsWhole)
    (arg5 : Memref sig .tc .vmem S1024x128 .f32) (harg5 : arg5.IsWhole)
    (hc0 : cond0_0 i) (hc1 : ¬cond0_1 i)
    (x0 : Vec F S8000x1 .i32) (x1 : Vec F S8000x128 .bf16) (xo : Vec F S1024x128 .f32)
    (E : Set ℕ) (K : PUnit → sProp 𝕄) :
    iprop(owns (c : Thread nD τ) arg2 fullShare x0 ∗ owns (c : Thread nD τ) arg3 fullShare x1
        ∗ owns (c : Thread nD τ) arg4 fullShare xo ∗ (∃ d, owns (c : Thread nD τ) arg5 fullShare d)
        ∗ (iprop(owns (c : Thread nD τ) arg2 fullShare x0 ∗ owns (c : Thread nD τ) arg3 fullShare x1
            ∗ owns (c : Thread nD τ) arg4 fullShare xo
            ∗ owns (c : Thread nD τ) arg5 fullShare (k0_pay2 (F := F) i x0 x1 (k0_pay1 (F := F)))) -∗ K ⟨⟩))
      ⊢ wp frame (wpE (defs₀ (F := F)) Variants.none c none) E (cc0_kernel i arg2 harg2 arg3 harg3 arg4 harg4 arg5 harg5) K := by
  simp only [cc0_kernel_eq_skeleton]; unfold cc0_kernel_skel
  unfold owns
  iintro ⟨⟨%f0, %hf0, H0⟩, ⟨%f1, %hf1, H1⟩, ⟨%f2, %hf2, H2⟩, ⟨%ds, %fs, -, HS⟩, Hk⟩
  subst hf0; subst hf1; subst hf2
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact HS
  ipureintro
  sl_unfold_run_names
  rw [read_writes_whole0 _ _ hz0]
  simp only [View.readAt_eq_ld, View.ld_unit_zero (S := S8000x1) hz0, View.ld_unit_zero (S := S8000x128) hz0,
    View.readCov_unit_zero (S := S1024x128) _ hz0]

set_option maxHeartbeats 1000000 in
/-- CASE B, an edge block that is neither the first nor the last (both conditions false): the accumulator, found at
    `xs`, is left at the payload of the input blocks over `xs`; the output's buffer is not touched. -/
theorem run0_B (c : Dev nD) (i : grid0.Coords)
    (arg2 : Memref sig .tc .vmem S8000x1 .i32) (harg2 : arg2.IsWhole)
    (arg3 : Memref sig .tc .vmem S8000x128 .bf16) (harg3 : arg3.IsWhole)
    (arg4 : Memref sig .tc .vmem S1024x128 .f32) (harg4 : arg4.IsWhole)
    (arg5 : Memref sig .tc .vmem S1024x128 .f32) (harg5 : arg5.IsWhole)
    (hc0 : ¬cond0_0 i) (hc1 : ¬cond0_1 i)
    (x0 : Vec F S8000x1 .i32) (x1 : Vec F S8000x128 .bf16) (xo : Vec F S1024x128 .f32) (xs : Vec F S1024x128 .f32)
    (E : Set ℕ) (K : PUnit → sProp 𝕄) :
    iprop(owns (c : Thread nD τ) arg2 fullShare x0 ∗ owns (c : Thread nD τ) arg3 fullShare x1
        ∗ owns (c : Thread nD τ) arg4 fullShare xo ∗ owns (c : Thread nD τ) arg5 fullShare xs
        ∗ (iprop(owns (c : Thread nD τ) arg2 fullShare x0 ∗ owns (c : Thread nD τ) arg3 fullShare x1
            ∗ owns (c : Thread nD τ) arg4 fullShare xo
            ∗ owns (c : Thread nD τ) arg5 fullShare (k0_pay2 (F := F) i x0 x1 xs)) -∗ K ⟨⟩))
      ⊢ wp frame (wpE (defs₀ (F := F)) Variants.none c none) E (cc0_kernel i arg2 harg2 arg3 harg3 arg4 harg4 arg5 harg5) K := by
  simp only [cc0_kernel_eq_skeleton]; unfold cc0_kernel_skel
  unfold owns
  iintro ⟨⟨%f0, %hf0, H0⟩, ⟨%f1, %hf1, H1⟩, ⟨%f2, %hf2, H2⟩, ⟨%fs, %hfs, HS⟩, Hk⟩
  subst hf0; subst hf1; subst hf2; subst hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact HS
  ipureintro
  sl_unfold_run_names
  rw [read_writes_whole0 _ _ hz0]
  simp only [View.readAt_eq_ld, View.ld_unit_zero (S := S8000x1) hz0, View.ld_unit_zero (S := S8000x128) hz0,
    View.ld_unit_zero (S := S1024x128) hz0]

set_option maxHeartbeats 1000000 in
/-- CASE C, the last edge block of a node block (first condition false, second true): the accumulator, found at `xs`,
    is left at the payload of the input blocks over `xs`, and the output's buffer, found at anything, takes the same. -/
theorem run0_C (c : Dev nD) (i : grid0.Coords)
    (arg2 : Memref sig .tc .vmem S8000x1 .i32) (harg2 : arg2.IsWhole)
    (arg3 : Memref sig .tc .vmem S8000x128 .bf16) (harg3 : arg3.IsWhole)
    (arg4 : Memref sig .tc .vmem S1024x128 .f32) (harg4 : arg4.IsWhole)
    (arg5 : Memref sig .tc .vmem S1024x128 .f32) (harg5 : arg5.IsWhole)
    (hc0 : ¬cond0_0 i) (hc1 : cond0_1 i)
    (x0 : Vec F S8000x1 .i32) (x1 : Vec F S8000x128 .bf16) (xs : Vec F S1024x128 .f32)
    (E : Set ℕ) (K : PUnit → sProp 𝕄) :
    iprop(owns (c : Thread nD τ) arg2 fullShare x0 ∗ owns (c : Thread nD τ) arg3 fullShare x1
        ∗ (∃ d, owns (c : Thread nD τ) arg4 fullShare d) ∗ owns (c : Thread nD τ) arg5 fullShare xs
        ∗ (iprop(owns (c : Thread nD τ) arg2 fullShare x0 ∗ owns (c : Thread nD τ) arg3 fullShare x1
            ∗ owns (c : Thread nD τ) arg4 fullShare (k0_pay2 (F := F) i x0 x1 xs)
            ∗ owns (c : Thread nD τ) arg5 fullShare (k0_pay2 (F := F) i x0 x1 xs)) -∗ K ⟨⟩))
      ⊢ wp frame (wpE (defs₀ (F := F)) Variants.none c none) E (cc0_kernel i arg2 harg2 arg3 harg3 arg4 harg4 arg5 harg5) K := by
  simp only [cc0_kernel_eq_skeleton]; unfold cc0_kernel_skel
  unfold owns
  iintro ⟨⟨%f0, %hf0, H0⟩, ⟨%f1, %hf1, H1⟩, ⟨%d2, %f2, -, H2⟩, ⟨%fs, %hfs, HS⟩, Hk⟩
  subst hf0; subst hf1; subst hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    sl_unfold_run_names
    rw [read_writes_whole0 _ _ hz0]
    simp only [View.readAt_eq_ld, View.ld_unit_zero (S := S8000x1) hz0, View.ld_unit_zero (S := S8000x128) hz0,
      View.ld_unit_zero (S := S1024x128) hz0, View.readCov_unit_zero (S := S1024x128) _ hz0]
  iexists _; isplitr
  swap; · iexact HS
  ipureintro
  sl_unfold_run_names
  rw [read_writes_whole0 _ _ hz0]
  simp only [View.readAt_eq_ld, View.ld_unit_zero (S := S8000x1) hz0, View.ld_unit_zero (S := S8000x128) hz0,
    View.ld_unit_zero (S := S1024x128) hz0]

end Cert.Kernel.Reg0

end
-- ==== Proof.K.Reg0.lean ====
/- Region 0 (custom_call 0, `cc0_kernel`, grid ![10, 20]) at the buffer contents `V` the region is entered with: the
   windows' blocks, what the accumulator and the output's staging buffer hold after each grid point, the pipeline's proof
   data, and the body obligation. The accumulator is the kernel's own scratch buffer (shape 1024x300): the invariant
   hands it to the body out of the scoped buffers no window stages, at anything before the first point and afterwards at
   what the point before left in it. -/
import proofs.«411400_j9251359555630_1_alg».proof.Proof.K.Reg0Runs

set_option maxRecDepth 16384

noncomputable section

namespace Cert.Kernel.Reg0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region
-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! ## The memrefs the body is called with -/

/-- Each window's current staging memref at point `t`, as the pipeline passes it, and its wholeness. -/
abbrev ms0_0 (t : Fin cfg0.N) : Memref sig .tc .vmem S8000x1 .i32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S8000x128 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x128 .f32 := win0_2.stage (cfg0.slots t 2)
abbrev hs0_2 (t : Fin cfg0.N) : (ms0_2 t).IsWhole := hstage0_2 ((cfg0.slots t 2).cast nbuf0_2)
/-- The accumulator: a whole scoped buffer of the kernel's own, passed beside the windows. -/
abbrev scM0_0 : Memref sig .tc .vmem S1024x128 .f32 := Memref.whole cc0_scratch0

/-! ## What the accumulator and the output hold after each point -/

/-- (output staging buffer, accumulator) after the body at position `n`. The accumulator is the payload `k0_pay2` of the
    point's two input blocks over zeros (`k0_pay1`) where `n % 20 = 0` and over what the point before left elsewhere.
    The output's buffer takes the accumulator where `n % 20 = 19`; elsewhere the body leaves it as found (the component
    there repeats the previous one, and at position 0 the accumulator: a placeholder nothing reads). -/
def outsAt0 (c : Dev nD) : (n : ℕ) → n < cfg0.N → Vec F S1024x128 .f32 × Vec F S1024x128 .f32
  | 0, hn =>
    (k0_pay2 (F := F) (grid0.coords ⟨0, hn⟩) (iblk0 V c 0 ⟨0, hn⟩) (iblk0 V c 1 ⟨0, hn⟩) (k0_pay1 (F := F)),
     k0_pay2 (F := F) (grid0.coords ⟨0, hn⟩) (iblk0 V c 0 ⟨0, hn⟩) (iblk0 V c 1 ⟨0, hn⟩) (k0_pay1 (F := F)))
  | n + 1, hn =>
    (if (n + 1) % 20 = 19 then
        k0_pay2 (F := F) (grid0.coords ⟨n + 1, hn⟩) (iblk0 V c 0 ⟨n + 1, hn⟩) (iblk0 V c 1 ⟨n + 1, hn⟩)
          (if (n + 1) % 20 = 0 then k0_pay1 (F := F) else (outsAt0 c n (Nat.lt_of_succ_lt hn)).2)
      else (outsAt0 c n (Nat.lt_of_succ_lt hn)).1,
     k0_pay2 (F := F) (grid0.coords ⟨n + 1, hn⟩) (iblk0 V c 0 ⟨n + 1, hn⟩) (iblk0 V c 1 ⟨n + 1, hn⟩)
       (if (n + 1) % 20 = 0 then k0_pay1 (F := F) else (outsAt0 c n (Nat.lt_of_succ_lt hn)).2))

/-- The accumulator's step: the payload of the point's blocks over zeros at the first edge block of a node block, over
    the previous accumulator elsewhere. -/
theorem scratch_step0 (c : Dev nD) (t : Fin cfg0.N) :
    (outsAt0 V c t.val t.isLt).2 = k0_pay2 (F := F) (grid0.coords t) (iblk0 V c 0 t) (iblk0 V c 1 t)
      (if t.val % 20 = 0 then k0_pay1 (F := F) else (outsAt0 V c (t.val - 1) (Nat.lt_of_le_of_lt (Nat.sub_le _ _) t.isLt)).2) := by
  obtain ⟨n, hn⟩ := t
  cases n with
  | zero => exact congrArg (k0_pay2 (F := F) (grid0.coords ⟨0, hn⟩) (iblk0 V c 0 ⟨0, hn⟩) (iblk0 V c 1 ⟨0, hn⟩)) (if_pos (Nat.zero_mod 20)).symm
  | succ n => rfl

/-- At the last edge block of a node block the output's buffer is the accumulator. -/
theorem out_flush0 (c : Dev nD) (t : Fin cfg0.N) (h : t.val % 20 = 19) :
    (outsAt0 V c t.val t.isLt).1 = (outsAt0 V c t.val t.isLt).2 := by
  obtain ⟨n, hn⟩ := t
  cases n with
  | zero => rfl
  | succ n => exact if_pos h

/-! ## The invariant -/

/-- The region invariant before position `n`: before the first point the scoped buffers no window stages, each at
    anything (the accumulator among them); afterwards the accumulator at what the point before left in it, beside the
    others, unopened. -/
def PhiS0 (c : Dev nD) : (n : ℕ) → n ≤ cfg0.N → sProp 𝕄
  | 0, _ => Pipeline.scopedRest (Ix := Unit) (Name := ℕ) (U := UR sig nD τ) (Lvl := ℕ) (Val := Elt F) spec0 c
  | n + 1, hn => iprop(owns (c : Thread nD τ) scM0_0 fullShare ((outsAt0 V c n hn).2) ∗ Pipeline.scopedRestBut (Ix := Unit) (Name := ℕ) (U := UR sig nD τ) (Lvl := ℕ) (Val := Elt F) spec0 c [cc0_scratch0])

theorem PhiS0_zero (c : Dev nD) (n : ℕ) (h : n ≤ cfg0.N) (hz : n = 0) : PhiS0 V c n h = Pipeline.scopedRest (Ix := Unit) (Name := ℕ) (U := UR sig nD τ) (Lvl := ℕ) (Val := Elt F) spec0 c := by
  subst hz; rfl

theorem PhiS0_succ (c : Dev nD) (n : ℕ) (hn : n < cfg0.N) :
    PhiS0 V c (n + 1) hn = iprop(owns (c : Thread nD τ) scM0_0 fullShare ((outsAt0 V c n hn).2) ∗ Pipeline.scopedRestBut (Ix := Unit) (Name := ℕ) (U := UR sig nD τ) (Lvl := ℕ) (Val := Elt F) spec0 c [cc0_scratch0]) := rfl

theorem PhiS0_pos (c : Dev nD) (n : ℕ) (h : n ≤ cfg0.N) (hz : n ≠ 0) :
    PhiS0 V c n h = iprop(owns (c : Thread nD τ) scM0_0 fullShare ((outsAt0 V c (n - 1) (by omega)).2) ∗ Pipeline.scopedRestBut (Ix := Unit) (Name := ℕ) (U := UR sig nD τ) (Lvl := ℕ) (Val := Elt F) spec0 c [cc0_scratch0]) := by
  cases n with
  | zero => exact absurd rfl hz
  | succ n => rfl

/-- The scoped buffers no window stages, with the accumulator taken out as a memref owned at some contents. -/
theorem scopedRest0_acc (c : Dev nD) :
    (Pipeline.scopedRest (Ix := Unit) (Name := ℕ) (U := UR sig nD τ) (Lvl := ℕ) (Val := Elt F) spec0 c : sProp 𝕄)
      = iprop(iprop(∃ d, owns (c : Thread nD τ) scM0_0 fullShare d) ∗ Pipeline.scopedRestBut (Ix := Unit) (Name := ℕ) (U := UR sig nD τ) (Lvl := ℕ) (Val := Elt F) spec0 c [cc0_scratch0]) := by
  rw [scopedRest0_split]; simp only [scM0_0, owns_whole]; try rfl

/-! ## The pipeline's proof data -/

/-- The proof data of pipeline 0 on core `c`: the arrays as the region finds them; after the body at point `t` each
    input's buffer at its block and the output's at `outsAt0`'s first component; the invariant `PhiS0`; nothing owed;
    full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => (outsAt0 V c t.val t.isLt).1
  Φ t := PhiS0 V c t.val (Nat.le_of_lt_succ t.isLt)
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = (outsAt0 V c t.val t.isLt).1 := by dsimp only [dat0]

/-- The invariant at a point's start, restated at the point's position. -/
theorem PhiS0_castSucc (c : Dev nD) (t : Fin cfg0.N) :
    (dat0 V c).Φ t.castSucc = PhiS0 V c t.val (Nat.le_of_lt t.isLt) := by
  dsimp only [dat0]; simp only [Fin.coe_castSucc]

/-- Each input's current staging buffer holds its block at every point: both are fetched at every point, and neither
    window is cut, so the fetch fills the whole buffer with the array's block. -/
theorem before0_0 (c : Dev nD) (t : Fin cfg0.N) (d) : (dat0 V c).before 0 t d = iblk0 V c 0 t := by
  unfold Dat.before; rw [fetch0_0 t, if_pos rfl]; unfold Dat.fetched Dat.blockOf iblk0; rw [A_eq0]; rfl
theorem before0_1 (c : Dev nD) (t : Fin cfg0.N) (d) : (dat0 V c).before 1 t d = iblk0 V c 1 t := by
  unfold Dat.before; rw [fetch0_1 t, if_pos rfl]; unfold Dat.fetched Dat.blockOf iblk0; rw [A_eq0]; rfl

/-- The inputs' buffers are handed back at their blocks (the windows are never idle). -/
theorem leaves0_0 (c : Dev nD) (t : Fin cfg0.N) :
    (dat0 V c).leavesExact 0 t = owns (c : Thread nD τ) (ms0_0 t) fullShare (iblk0 V c 0 t) := by
  unfold Dat.leavesExact; rw [liveAt0_0 t, after0_0]
theorem leaves0_1 (c : Dev nD) (t : Fin cfg0.N) :
    (dat0 V c).leavesExact 1 t = owns (c : Thread nD τ) (ms0_1 t) fullShare (iblk0 V c 1 t) := by
  unfold Dat.leavesExact; rw [liveAt0_1 t, after0_1]

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

set_option maxHeartbeats 4800000 in
/-- The body at any point. The inputs' memrefs hold their blocks; the position modulo 20 says which case the point is
    in. The invariant hands the body the accumulator (at anything before the first point, else at what the point before
    left) and takes it back at this point's contents (`scratch_step0`). Off the last edge block the output's buffer goes
    back as found; at it, the buffer takes the accumulator (`out_flush0`). The core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = PhiS0 V c (t.val + 1) t.isLt from rfl, PhiS0_succ]
  rw [leaves0_0, leaves0_1]
  have hN : t.val < 200 := lt_of_lt_of_eq t.isLt (show cfg0.N = 200 from N_0)
  by_cases h0 : t.val % 20 = 0
  · have h1 : ¬t.val % 20 = 19 := by omega
    rw [Dat.leavesExact_idle (dat0 V c) 2 t (idleAt0_2 _ (fun h => h1 ((hcond0_1 t).mp h))) (noFlush0_2 t h1)]
    rw [scratch_step0 V c t, if_pos h0]
    by_cases hz : t.val = 0
    · rw [PhiS0_castSucc V c t, PhiS0_zero V c _ _ hz, scopedRest0_acc]
      iintro ⟨⟨HS, HR⟩, Ho, ⟨%d0, H0⟩, ⟨%d1, H1⟩, ⟨%d2, H2⟩⟩
      iapply (run0_A c (grid0.coords t) _ _ _ _ _ _ _ _ ((hcond0_0 t).mpr h0) (fun h => h1 ((hcond0_1 t).mp h)) (iblk0 V c 0 t) (iblk0 V c 1 t) _ Set.univ _)
      isplitl [H0]; · iexact H0
      isplitl [H1]; · iexact H1
      isplitl [H2]; · iexact H2
      isplitl [HS]; · iexact HS
      iintro ⟨H0, H1, H2, HS⟩
      isplitl [HS HR]
      · isplitl [HS]; · iexact HS
        iexact HR
      isplitl [Ho]; · iexact Ho
      isplitl [H0]; · iexact H0
      isplitl [H1]; · iexact H1
      iexists _; iexact H2
    · rw [PhiS0_castSucc V c t, PhiS0_pos V c _ _ hz]
      iintro ⟨⟨HS, HR⟩, Ho, ⟨%d0, H0⟩, ⟨%d1, H1⟩, ⟨%d2, H2⟩⟩
      iapply (run0_A c (grid0.coords t) _ _ _ _ _ _ _ _ ((hcond0_0 t).mpr h0) (fun h => h1 ((hcond0_1 t).mp h)) (iblk0 V c 0 t) (iblk0 V c 1 t) _ Set.univ _)
      isplitl [H0]; · iexact H0
      isplitl [H1]; · iexact H1
      isplitl [H2]; · iexact H2
      isplitl [HS]; · iexists _; iexact HS
      iintro ⟨H0, H1, H2, HS⟩
      isplitl [HS HR]
      · isplitl [HS]; · iexact HS
        iexact HR
      isplitl [Ho]; · iexact Ho
      isplitl [H0]; · iexact H0
      isplitl [H1]; · iexact H1
      iexists _; iexact H2
  · have hz : t.val ≠ 0 := fun hz => h0 (by omega)
    rw [PhiS0_castSucc V c t, PhiS0_pos V c _ _ hz]
    by_cases h1 : t.val % 20 = 19
    · rw [show (dat0 V c).leavesExact 2 t = owns (c : Thread nD τ) (ms0_2 t) fullShare ((dat0 V c).after 2 t) from by
        unfold Dat.leavesExact; rw [liveAt0_2 (grid0.coords t) ((hcond0_1 t).mpr h1)], after0_2, out_flush0 V c t h1]
      rw [scratch_step0 V c t, if_neg h0]
      iintro ⟨⟨HS, HR⟩, Ho, ⟨%d0, H0⟩, ⟨%d1, H1⟩, ⟨%d2, H2⟩⟩
      iapply (run0_C c (grid0.coords t) _ _ _ _ _ _ _ _ (fun h => h0 ((hcond0_0 t).mp h)) ((hcond0_1 t).mpr h1) (iblk0 V c 0 t) (iblk0 V c 1 t) _ Set.univ _)
      isplitl [H0]; · iexact H0
      isplitl [H1]; · iexact H1
      isplitl [H2]; · iexists _; iexact H2
      isplitl [HS]; · iexact HS
      iintro ⟨H0, H1, H2, HS⟩
      isplitl [HS HR]
      · isplitl [HS]; · iexact HS
        iexact HR
      isplitl [Ho]; · iexact Ho
      isplitl [H0]; · iexact H0
      isplitl [H1]; · iexact H1
      iexact H2
    · rw [Dat.leavesExact_idle (dat0 V c) 2 t (idleAt0_2 _ (fun h => h1 ((hcond0_1 t).mp h))) (noFlush0_2 t h1)]
      rw [scratch_step0 V c t, if_neg h0]
      iintro ⟨⟨HS, HR⟩, Ho, ⟨%d0, H0⟩, ⟨%d1, H1⟩, ⟨%d2, H2⟩⟩
      iapply (run0_B c (grid0.coords t) _ _ _ _ _ _ _ _ (fun h => h0 ((hcond0_0 t).mp h)) (fun h => h1 ((hcond0_1 t).mp h)) (iblk0 V c 0 t) (iblk0 V c 1 t) _ _ Set.univ _)
      isplitl [H0]; · iexact H0
      isplitl [H1]; · iexact H1
      isplitl [H2]; · iexact H2
      isplitl [HS]; · iexact HS
      iintro ⟨H0, H1, H2, HS⟩
      isplitl [HS HR]
      · isplitl [HS]; · iexact HS
        iexact HR
      isplitl [Ho]; · iexact Ho
      isplitl [H0]; · iexact H0
      isplitl [H1]; · iexact H1
      iexists _; iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

/-! ## The invariant at the region's two ends -/

/-- The scoped buffers no window stages are the invariant before the first point. -/
theorem Phi0_in (c : Dev nD) : (Pipeline.scopedRest (Ix := Unit) (Name := ℕ) (U := UR sig nD τ) (Lvl := ℕ) (Val := Elt F) spec0 c : sProp 𝕄) ⊢ (dat0 V c).Φ 0 := by
  rw [show (dat0 V c).Φ 0 = PhiS0 V c 0 (Nat.zero_le _) from rfl, PhiS0_zero V c 0 _ rfl]

/-- After the last point the invariant gives them back: the accumulator's named contents are forgotten. -/
theorem Phi0_out (c : Dev nD) : (dat0 V c).Φ (Fin.last cfg0.N) ⊢ (Pipeline.scopedRest (Ix := Unit) (Name := ℕ) (U := UR sig nD τ) (Lvl := ℕ) (Val := Elt F) spec0 c : sProp 𝕄) := by
  rw [show (dat0 V c).Φ (Fin.last cfg0.N) = PhiS0 V c (Fin.last cfg0.N).val (Nat.le_of_lt_succ (Fin.last cfg0.N).isLt) from rfl,
    PhiS0_pos V c _ _ (by rw [Fin.val_last]; have : cfg0.N = 200 := N_0; omega), scopedRest0_acc]
  iintro ⟨HS, HR⟩
  isplitl [HS]; · iexists _; iexact HS
  iexact HR

end Region

end Cert.Kernel.Reg0

end
-- ==== Proof.K.Reg1Runs.lean ====
/- Region 1 (custom_call 1, `cc1_kernel`, grid ![10, 20]): the segment sum's body in each of its three control
   cases. The body keeps an accumulator (its last operand, a whole scratch buffer of shape 1024x300): at the first edge
   block of a node block (grid coordinate 1 equal to 0) it stores zeros into it; at every point it adds the one-hot
   product of the point's two input blocks to it; at the last edge block (coordinate 1 equal to 19) it copies it to
   the output's staging buffer, which it otherwise does not touch. Each case is a triple whose post names the
   accumulator's new contents as the payload `k1_pay2` of the input blocks and the contents found (zeros after a
   reset). -/
import proofs.«411400_j9251359555630_1_alg».proof.Proof.Gen.Kernel.Launch
import proofs.«411400_j9251359555630_1_alg».proof.Proof.Gen.Kernel.Skeleton
import proofs.«411400_j9251359555630_1_alg».proof.Proof.Gen.Kernel.Points
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.Kernel.Reg1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The branch conditions, in closed form over the grid -/

/-- The condition of the body's first `scf.if` (the accumulator's reset), from the grid coordinates. -/
abbrev cond1_0 (i : grid1.Coords) : Prop :=
  (Scalar.cmpi .ne (Scalar.extui (Scalar.cmpi .eq (BitVec.ofNat 32 (i 1).val) 0#32)) 0#32) = 1#1
/-- It holds at the points whose position is 0 modulo 20: the first edge block of each node block. -/
theorem hcond1_0 : ∀ t : Fin cfg1.N, cond1_0 (grid1.coords t) ↔ t.val % 20 = 0 :=
  (by decide +kernel : ∀ t : Fin grid1.N, cond1_0 (grid1.coords t) ↔ t.val % 20 = 0)

/-- The condition of the body's second `scf.if` (the copy to the output), from the grid coordinates. -/
abbrev cond1_1 (i : grid1.Coords) : Prop := k1_cond2 i = 1#1
/-- It holds at the points whose position is 19 modulo 20: the last edge block of each node block. -/
theorem hcond1_1 : ∀ t : Fin cfg1.N, cond1_1 (grid1.coords t) ↔ t.val % 20 = 19 :=
  (by decide +kernel : ∀ t : Fin grid1.N, cond1_1 (grid1.coords t) ↔ t.val % 20 = 19)

/-! ## Where the windows are idle -/

/-- The two input windows are never idle. -/
theorem liveAt1_0 (t : Fin cfg1.N) : cfg1.idle 0 (grid1.coords t) = false := rfl
theorem liveAt1_1 (t : Fin cfg1.N) : cfg1.idle 1 (grid1.coords t) = false := rfl
/-- The output window is idle exactly where the second condition fails: the body stores into it only under it. -/
theorem idleAt1_2 (i : grid1.Coords) (h : ¬cond1_1 i) : cfg1.idle 2 i = true := by
  show (!(k1_cond2 i == 1#1)) = true
  cases hb : (k1_cond2 i == 1#1) with
  | false => rfl
  | true => exact absurd (eq_of_beq hb) h
theorem liveAt1_2 (i : grid1.Coords) (h : cond1_1 i) : cfg1.idle 2 i = false := by
  show (!(k1_cond2 i == 1#1)) = false
  rw [show k1_cond2 i = 1#1 from h]; rfl
/-- Off the last edge block the output's block is not written back. -/
theorem noFlush1_2 (t : Fin cfg1.N) (h : ¬t.val % 20 = 19) : (cfg1.win 2).flush t = false :=
  Bool.eq_false_iff.mpr fun hf => h ((flush1_2 t).mp hf)

/-! ## Whole-buffer accesses -/

/-- The offsets of every access of the body: zero on both axes. -/
theorem hz1 : (![0, 0] : Fin 2 → Nat) = fun _ => 0 := funext fun a => by fin_cases a <;> rfl

/-- A store through the whole-shape rectangle at zero offsets, made last, is what the buffer then reads, whatever
    was stored before and whatever the buffer held. -/
theorem read_writes_whole1 {S : Shape} {e : EltTy} {sp : Space} (v : View sig .tc sp S e) (f : v.ty.Contents (Elt F))
    {off : Fin S.rank → Nat} (h : off = fun _ => 0) (inb : ∀ a, off a + S.size a ≤ S.size a)
    (w : S.Idx → Elt F e) (L : List (View.Piece (Elt F) S e)) :
    v.read (Elt F) (v.writes (Elt F) f ((⟨Rect.unit off S.size inb, w⟩ : View.Piece (Elt F) S e) :: L)) = w := by
  refine (View.read_writes_eq_canon v f _ fun y =>
    ⟨⟨Rect.unit off S.size inb, w⟩, List.mem_cons_self, View.mem_set_unit_zero h inb y⟩).trans ?_
  exact View.canon_cons_unit_zero h inb w L

/-! ## The body's triple, case by case -/

set_option maxHeartbeats 1000000 in
/-- CASE A, the first edge block of a node block (first condition true, second false): on whole memrefs, the inputs' at
    contents `x0`, `x1`, the output's at `xo`, the accumulator at anything, the body runs to the continuation holding
    the first three as they were and the accumulator at the payload of the input blocks over zeros. -/
theorem run1_A (c : Dev nD) (i : grid1.Coords)
    (arg2 : Memref sig .tc .vmem S8000x1 .i32) (harg2 : arg2.IsWhole)
    (arg3 : Memref sig .tc .vmem S8000x300 .bf16) (harg3 : arg3.IsWhole)
    (arg4 : Memref sig .tc .vmem S1024x300 .f32) (harg4 : arg4.IsWhole)
    (arg5 : Memref sig .tc .vmem S1024x300 .f32) (harg5 : arg5.IsWhole)
    (hc0 : cond1_0 i) (hc1 : ¬cond1_1 i)
    (x0 : Vec F S8000x1 .i32) (x1 : Vec F S8000x300 .bf16) (xo : Vec F S1024x300 .f32)
    (E : Set ℕ) (K : PUnit → sProp 𝕄) :
    iprop(owns (c : Thread nD τ) arg2 fullShare x0 ∗ owns (c : Thread nD τ) arg3 fullShare x1
        ∗ owns (c : Thread nD τ) arg4 fullShare xo ∗ (∃ d, owns (c : Thread nD τ) arg5 fullShare d)
        ∗ (iprop(owns (c : Thread nD τ) arg2 fullShare x0 ∗ owns (c : Thread nD τ) arg3 fullShare x1
            ∗ owns (c : Thread nD τ) arg4 fullShare xo
            ∗ owns (c : Thread nD τ) arg5 fullShare (k1_pay2 (F := F) i x0 x1 (k1_pay1 (F := F)))) -∗ K ⟨⟩))
      ⊢ wp frame (wpE (defs₀ (F := F)) Variants.none c none) E (cc1_kernel i arg2 harg2 arg3 harg3 arg4 harg4 arg5 harg5) K := by
  simp only [cc1_kernel_eq_skeleton]; unfold cc1_kernel_skel
  unfold owns
  iintro ⟨⟨%f0, %hf0, H0⟩, ⟨%f1, %hf1, H1⟩, ⟨%f2, %hf2, H2⟩, ⟨%ds, %fs, -, HS⟩, Hk⟩
  subst hf0; subst hf1; subst hf2
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact HS
  ipureintro
  sl_unfold_run_names
  rw [read_writes_whole1 _ _ hz1]
  simp only [View.readAt_eq_ld, View.ld_unit_zero (S := S8000x1) hz1, View.ld_unit_zero (S := S8000x300) hz1,
    View.readCov_unit_zero (S := S1024x300) _ hz1]

set_option maxHeartbeats 1000000 in
/-- CASE B, an edge block that is neither the first nor the last (both conditions false): the accumulator, found at
    `xs`, is left at the payload of the input blocks over `xs`; the output's buffer is not touched. -/
theorem run1_B (c : Dev nD) (i : grid1.Coords)
    (arg2 : Memref sig .tc .vmem S8000x1 .i32) (harg2 : arg2.IsWhole)
    (arg3 : Memref sig .tc .vmem S8000x300 .bf16) (harg3 : arg3.IsWhole)
    (arg4 : Memref sig .tc .vmem S1024x300 .f32) (harg4 : arg4.IsWhole)
    (arg5 : Memref sig .tc .vmem S1024x300 .f32) (harg5 : arg5.IsWhole)
    (hc0 : ¬cond1_0 i) (hc1 : ¬cond1_1 i)
    (x0 : Vec F S8000x1 .i32) (x1 : Vec F S8000x300 .bf16) (xo : Vec F S1024x300 .f32) (xs : Vec F S1024x300 .f32)
    (E : Set ℕ) (K : PUnit → sProp 𝕄) :
    iprop(owns (c : Thread nD τ) arg2 fullShare x0 ∗ owns (c : Thread nD τ) arg3 fullShare x1
        ∗ owns (c : Thread nD τ) arg4 fullShare xo ∗ owns (c : Thread nD τ) arg5 fullShare xs
        ∗ (iprop(owns (c : Thread nD τ) arg2 fullShare x0 ∗ owns (c : Thread nD τ) arg3 fullShare x1
            ∗ owns (c : Thread nD τ) arg4 fullShare xo
            ∗ owns (c : Thread nD τ) arg5 fullShare (k1_pay2 (F := F) i x0 x1 xs)) -∗ K ⟨⟩))
      ⊢ wp frame (wpE (defs₀ (F := F)) Variants.none c none) E (cc1_kernel i arg2 harg2 arg3 harg3 arg4 harg4 arg5 harg5) K := by
  simp only [cc1_kernel_eq_skeleton]; unfold cc1_kernel_skel
  unfold owns
  iintro ⟨⟨%f0, %hf0, H0⟩, ⟨%f1, %hf1, H1⟩, ⟨%f2, %hf2, H2⟩, ⟨%fs, %hfs, HS⟩, Hk⟩
  subst hf0; subst hf1; subst hf2; subst hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact HS
  ipureintro
  sl_unfold_run_names
  rw [read_writes_whole1 _ _ hz1]
  simp only [View.readAt_eq_ld, View.ld_unit_zero (S := S8000x1) hz1, View.ld_unit_zero (S := S8000x300) hz1,
    View.ld_unit_zero (S := S1024x300) hz1]

set_option maxHeartbeats 1000000 in
/-- CASE C, the last edge block of a node block (first condition false, second true): the accumulator, found at `xs`,
    is left at the payload of the input blocks over `xs`, and the output's buffer, found at anything, takes the same. -/
theorem run1_C (c : Dev nD) (i : grid1.Coords)
    (arg2 : Memref sig .tc .vmem S8000x1 .i32) (harg2 : arg2.IsWhole)
    (arg3 : Memref sig .tc .vmem S8000x300 .bf16) (harg3 : arg3.IsWhole)
    (arg4 : Memref sig .tc .vmem S1024x300 .f32) (harg4 : arg4.IsWhole)
    (arg5 : Memref sig .tc .vmem S1024x300 .f32) (harg5 : arg5.IsWhole)
    (hc0 : ¬cond1_0 i) (hc1 : cond1_1 i)
    (x0 : Vec F S8000x1 .i32) (x1 : Vec F S8000x300 .bf16) (xs : Vec F S1024x300 .f32)
    (E : Set ℕ) (K : PUnit → sProp 𝕄) :
    iprop(owns (c : Thread nD τ) arg2 fullShare x0 ∗ owns (c : Thread nD τ) arg3 fullShare x1
        ∗ (∃ d, owns (c : Thread nD τ) arg4 fullShare d) ∗ owns (c : Thread nD τ) arg5 fullShare xs
        ∗ (iprop(owns (c : Thread nD τ) arg2 fullShare x0 ∗ owns (c : Thread nD τ) arg3 fullShare x1
            ∗ owns (c : Thread nD τ) arg4 fullShare (k1_pay2 (F := F) i x0 x1 xs)
            ∗ owns (c : Thread nD τ) arg5 fullShare (k1_pay2 (F := F) i x0 x1 xs)) -∗ K ⟨⟩))
      ⊢ wp frame (wpE (defs₀ (F := F)) Variants.none c none) E (cc1_kernel i arg2 harg2 arg3 harg3 arg4 harg4 arg5 harg5) K := by
  simp only [cc1_kernel_eq_skeleton]; unfold cc1_kernel_skel
  unfold owns
  iintro ⟨⟨%f0, %hf0, H0⟩, ⟨%f1, %hf1, H1⟩, ⟨%d2, %f2, -, H2⟩, ⟨%fs, %hfs, HS⟩, Hk⟩
  subst hf0; subst hf1; subst hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    sl_unfold_run_names
    rw [read_writes_whole1 _ _ hz1]
    simp only [View.readAt_eq_ld, View.ld_unit_zero (S := S8000x1) hz1, View.ld_unit_zero (S := S8000x300) hz1,
      View.ld_unit_zero (S := S1024x300) hz1, View.readCov_unit_zero (S := S1024x300) _ hz1]
  iexists _; isplitr
  swap; · iexact HS
  ipureintro
  sl_unfold_run_names
  rw [read_writes_whole1 _ _ hz1]
  simp only [View.readAt_eq_ld, View.ld_unit_zero (S := S8000x1) hz1, View.ld_unit_zero (S := S8000x300) hz1,
    View.ld_unit_zero (S := S1024x300) hz1]

end Cert.Kernel.Reg1

end
-- ==== Proof.K.Reg1.lean ====
/- Region 1 (custom_call 1, `cc1_kernel`, grid ![10, 20]) at the buffer contents `V` the region is entered with: the
   windows' blocks, what the accumulator and the output's staging buffer hold after each grid point, the pipeline's proof
   data, and the body obligation. The accumulator is the kernel's own scratch buffer (shape 1024x300): the invariant
   hands it to the body out of the scoped buffers no window stages, at anything before the first point and afterwards at
   what the point before left in it. -/
import proofs.«411400_j9251359555630_1_alg».proof.Proof.K.Reg1Runs

set_option maxRecDepth 16384

noncomputable section

namespace Cert.Kernel.Reg1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region
-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! ## The memrefs the body is called with -/

/-- Each window's current staging memref at point `t`, as the pipeline passes it, and its wholeness. -/
abbrev ms1_0 (t : Fin cfg1.N) : Memref sig .tc .vmem S8000x1 .i32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S8000x300 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1024x300 .f32 := win1_2.stage (cfg1.slots t 2)
abbrev hs1_2 (t : Fin cfg1.N) : (ms1_2 t).IsWhole := hstage1_2 ((cfg1.slots t 2).cast nbuf1_2)
/-- The accumulator: a whole scoped buffer of the kernel's own, passed beside the windows. -/
abbrev scM1_0 : Memref sig .tc .vmem S1024x300 .f32 := Memref.whole cc1_scratch0

/-! ## What the accumulator and the output hold after each point -/

/-- (output staging buffer, accumulator) after the body at position `n`. The accumulator is the payload `k1_pay2` of the
    point's two input blocks over zeros (`k1_pay1`) where `n % 20 = 0` and over what the point before left elsewhere.
    The output's buffer takes the accumulator where `n % 20 = 19`; elsewhere the body leaves it as found (the component
    there repeats the previous one, and at position 0 the accumulator: a placeholder nothing reads). -/
def outsAt1 (c : Dev nD) : (n : ℕ) → n < cfg1.N → Vec F S1024x300 .f32 × Vec F S1024x300 .f32
  | 0, hn =>
    (k1_pay2 (F := F) (grid1.coords ⟨0, hn⟩) (iblk1 V c 0 ⟨0, hn⟩) (iblk1 V c 1 ⟨0, hn⟩) (k1_pay1 (F := F)),
     k1_pay2 (F := F) (grid1.coords ⟨0, hn⟩) (iblk1 V c 0 ⟨0, hn⟩) (iblk1 V c 1 ⟨0, hn⟩) (k1_pay1 (F := F)))
  | n + 1, hn =>
    (if (n + 1) % 20 = 19 then
        k1_pay2 (F := F) (grid1.coords ⟨n + 1, hn⟩) (iblk1 V c 0 ⟨n + 1, hn⟩) (iblk1 V c 1 ⟨n + 1, hn⟩)
          (if (n + 1) % 20 = 0 then k1_pay1 (F := F) else (outsAt1 c n (Nat.lt_of_succ_lt hn)).2)
      else (outsAt1 c n (Nat.lt_of_succ_lt hn)).1,
     k1_pay2 (F := F) (grid1.coords ⟨n + 1, hn⟩) (iblk1 V c 0 ⟨n + 1, hn⟩) (iblk1 V c 1 ⟨n + 1, hn⟩)
       (if (n + 1) % 20 = 0 then k1_pay1 (F := F) else (outsAt1 c n (Nat.lt_of_succ_lt hn)).2))

/-- The accumulator's step: the payload of the point's blocks over zeros at the first edge block of a node block, over
    the previous accumulator elsewhere. -/
theorem scratch_step1 (c : Dev nD) (t : Fin cfg1.N) :
    (outsAt1 V c t.val t.isLt).2 = k1_pay2 (F := F) (grid1.coords t) (iblk1 V c 0 t) (iblk1 V c 1 t)
      (if t.val % 20 = 0 then k1_pay1 (F := F) else (outsAt1 V c (t.val - 1) (Nat.lt_of_le_of_lt (Nat.sub_le _ _) t.isLt)).2) := by
  obtain ⟨n, hn⟩ := t
  cases n with
  | zero => exact congrArg (k1_pay2 (F := F) (grid1.coords ⟨0, hn⟩) (iblk1 V c 0 ⟨0, hn⟩) (iblk1 V c 1 ⟨0, hn⟩)) (if_pos (Nat.zero_mod 20)).symm
  | succ n => rfl

/-- At the last edge block of a node block the output's buffer is the accumulator. -/
theorem out_flush1 (c : Dev nD) (t : Fin cfg1.N) (h : t.val % 20 = 19) :
    (outsAt1 V c t.val t.isLt).1 = (outsAt1 V c t.val t.isLt).2 := by
  obtain ⟨n, hn⟩ := t
  cases n with
  | zero => rfl
  | succ n => exact if_pos h

/-! ## The invariant -/

/-- The region invariant before position `n`: before the first point the scoped buffers no window stages, each at
    anything (the accumulator among them); afterwards the accumulator at what the point before left in it, beside the
    others, unopened. -/
def PhiS1 (c : Dev nD) : (n : ℕ) → n ≤ cfg1.N → sProp 𝕄
  | 0, _ => Pipeline.scopedRest (Ix := Unit) (Name := ℕ) (U := UR sig nD τ) (Lvl := ℕ) (Val := Elt F) spec1 c
  | n + 1, hn => iprop(owns (c : Thread nD τ) scM1_0 fullShare ((outsAt1 V c n hn).2) ∗ Pipeline.scopedRestBut (Ix := Unit) (Name := ℕ) (U := UR sig nD τ) (Lvl := ℕ) (Val := Elt F) spec1 c [cc1_scratch0])

theorem PhiS1_zero (c : Dev nD) (n : ℕ) (h : n ≤ cfg1.N) (hz : n = 0) : PhiS1 V c n h = Pipeline.scopedRest (Ix := Unit) (Name := ℕ) (U := UR sig nD τ) (Lvl := ℕ) (Val := Elt F) spec1 c := by
  subst hz; rfl

theorem PhiS1_succ (c : Dev nD) (n : ℕ) (hn : n < cfg1.N) :
    PhiS1 V c (n + 1) hn = iprop(owns (c : Thread nD τ) scM1_0 fullShare ((outsAt1 V c n hn).2) ∗ Pipeline.scopedRestBut (Ix := Unit) (Name := ℕ) (U := UR sig nD τ) (Lvl := ℕ) (Val := Elt F) spec1 c [cc1_scratch0]) := rfl

theorem PhiS1_pos (c : Dev nD) (n : ℕ) (h : n ≤ cfg1.N) (hz : n ≠ 0) :
    PhiS1 V c n h = iprop(owns (c : Thread nD τ) scM1_0 fullShare ((outsAt1 V c (n - 1) (by omega)).2) ∗ Pipeline.scopedRestBut (Ix := Unit) (Name := ℕ) (U := UR sig nD τ) (Lvl := ℕ) (Val := Elt F) spec1 c [cc1_scratch0]) := by
  cases n with
  | zero => exact absurd rfl hz
  | succ n => rfl

/-- The scoped buffers no window stages, with the accumulator taken out as a memref owned at some contents. -/
theorem scopedRest1_acc (c : Dev nD) :
    (Pipeline.scopedRest (Ix := Unit) (Name := ℕ) (U := UR sig nD τ) (Lvl := ℕ) (Val := Elt F) spec1 c : sProp 𝕄)
      = iprop(iprop(∃ d, owns (c : Thread nD τ) scM1_0 fullShare d) ∗ Pipeline.scopedRestBut (Ix := Unit) (Name := ℕ) (U := UR sig nD τ) (Lvl := ℕ) (Val := Elt F) spec1 c [cc1_scratch0]) := by
  rw [scopedRest1_split]; simp only [scM1_0, owns_whole]; try rfl

/-! ## The pipeline's proof data -/

/-- The proof data of pipeline 1 on core `c`: the arrays as the region finds them; after the body at point `t` each
    input's buffer at its block and the output's at `outsAt1`'s first component; the invariant `PhiS1`; nothing owed;
    full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => (outsAt1 V c t.val t.isLt).1
  Φ t := PhiS1 V c t.val (Nat.le_of_lt_succ t.isLt)
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = (outsAt1 V c t.val t.isLt).1 := by dsimp only [dat1]

/-- The invariant at a point's start, restated at the point's position. -/
theorem PhiS1_castSucc (c : Dev nD) (t : Fin cfg1.N) :
    (dat1 V c).Φ t.castSucc = PhiS1 V c t.val (Nat.le_of_lt t.isLt) := by
  dsimp only [dat1]; simp only [Fin.coe_castSucc]

/-- Each input's current staging buffer holds its block at every point: both are fetched at every point, and neither
    window is cut, so the fetch fills the whole buffer with the array's block. -/
theorem before1_0 (c : Dev nD) (t : Fin cfg1.N) (d) : (dat1 V c).before 0 t d = iblk1 V c 0 t := by
  unfold Dat.before; rw [fetch1_0 t, if_pos rfl]; unfold Dat.fetched Dat.blockOf iblk1; rw [A_eq1]; rfl
theorem before1_1 (c : Dev nD) (t : Fin cfg1.N) (d) : (dat1 V c).before 1 t d = iblk1 V c 1 t := by
  unfold Dat.before; rw [fetch1_1 t, if_pos rfl]; unfold Dat.fetched Dat.blockOf iblk1; rw [A_eq1]; rfl

/-- The inputs' buffers are handed back at their blocks (the windows are never idle). -/
theorem leaves1_0 (c : Dev nD) (t : Fin cfg1.N) :
    (dat1 V c).leavesExact 0 t = owns (c : Thread nD τ) (ms1_0 t) fullShare (iblk1 V c 0 t) := by
  unfold Dat.leavesExact; rw [liveAt1_0 t, after1_0]
theorem leaves1_1 (c : Dev nD) (t : Fin cfg1.N) :
    (dat1 V c).leavesExact 1 t = owns (c : Thread nD τ) (ms1_1 t) fullShare (iblk1 V c 1 t) := by
  unfold Dat.leavesExact; rw [liveAt1_1 t, after1_1]

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 4800000 in
/-- The body at any point. The inputs' memrefs hold their blocks; the position modulo 20 says which case the point is
    in. The invariant hands the body the accumulator (at anything before the first point, else at what the point before
    left) and takes it back at this point's contents (`scratch_step1`). Off the last edge block the output's buffer goes
    back as found; at it, the buffer takes the accumulator (`out_flush1`). The core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = PhiS1 V c (t.val + 1) t.isLt from rfl, PhiS1_succ]
  rw [leaves1_0, leaves1_1]
  have hN : t.val < 200 := lt_of_lt_of_eq t.isLt (show cfg1.N = 200 from N_1)
  by_cases h0 : t.val % 20 = 0
  · have h1 : ¬t.val % 20 = 19 := by omega
    rw [Dat.leavesExact_idle (dat1 V c) 2 t (idleAt1_2 _ (fun h => h1 ((hcond1_1 t).mp h))) (noFlush1_2 t h1)]
    rw [scratch_step1 V c t, if_pos h0]
    by_cases hz : t.val = 0
    · rw [PhiS1_castSucc V c t, PhiS1_zero V c _ _ hz, scopedRest1_acc]
      iintro ⟨⟨HS, HR⟩, Ho, ⟨%d0, H0⟩, ⟨%d1, H1⟩, ⟨%d2, H2⟩⟩
      iapply (run1_A c (grid1.coords t) _ _ _ _ _ _ _ _ ((hcond1_0 t).mpr h0) (fun h => h1 ((hcond1_1 t).mp h)) (iblk1 V c 0 t) (iblk1 V c 1 t) _ Set.univ _)
      isplitl [H0]; · iexact H0
      isplitl [H1]; · iexact H1
      isplitl [H2]; · iexact H2
      isplitl [HS]; · iexact HS
      iintro ⟨H0, H1, H2, HS⟩
      isplitl [HS HR]
      · isplitl [HS]; · iexact HS
        iexact HR
      isplitl [Ho]; · iexact Ho
      isplitl [H0]; · iexact H0
      isplitl [H1]; · iexact H1
      iexists _; iexact H2
    · rw [PhiS1_castSucc V c t, PhiS1_pos V c _ _ hz]
      iintro ⟨⟨HS, HR⟩, Ho, ⟨%d0, H0⟩, ⟨%d1, H1⟩, ⟨%d2, H2⟩⟩
      iapply (run1_A c (grid1.coords t) _ _ _ _ _ _ _ _ ((hcond1_0 t).mpr h0) (fun h => h1 ((hcond1_1 t).mp h)) (iblk1 V c 0 t) (iblk1 V c 1 t) _ Set.univ _)
      isplitl [H0]; · iexact H0
      isplitl [H1]; · iexact H1
      isplitl [H2]; · iexact H2
      isplitl [HS]; · iexists _; iexact HS
      iintro ⟨H0, H1, H2, HS⟩
      isplitl [HS HR]
      · isplitl [HS]; · iexact HS
        iexact HR
      isplitl [Ho]; · iexact Ho
      isplitl [H0]; · iexact H0
      isplitl [H1]; · iexact H1
      iexists _; iexact H2
  · have hz : t.val ≠ 0 := fun hz => h0 (by omega)
    rw [PhiS1_castSucc V c t, PhiS1_pos V c _ _ hz]
    by_cases h1 : t.val % 20 = 19
    · rw [show (dat1 V c).leavesExact 2 t = owns (c : Thread nD τ) (ms1_2 t) fullShare ((dat1 V c).after 2 t) from by
        unfold Dat.leavesExact; rw [liveAt1_2 (grid1.coords t) ((hcond1_1 t).mpr h1)], after1_2, out_flush1 V c t h1]
      rw [scratch_step1 V c t, if_neg h0]
      iintro ⟨⟨HS, HR⟩, Ho, ⟨%d0, H0⟩, ⟨%d1, H1⟩, ⟨%d2, H2⟩⟩
      iapply (run1_C c (grid1.coords t) _ _ _ _ _ _ _ _ (fun h => h0 ((hcond1_0 t).mp h)) ((hcond1_1 t).mpr h1) (iblk1 V c 0 t) (iblk1 V c 1 t) _ Set.univ _)
      isplitl [H0]; · iexact H0
      isplitl [H1]; · iexact H1
      isplitl [H2]; · iexists _; iexact H2
      isplitl [HS]; · iexact HS
      iintro ⟨H0, H1, H2, HS⟩
      isplitl [HS HR]
      · isplitl [HS]; · iexact HS
        iexact HR
      isplitl [Ho]; · iexact Ho
      isplitl [H0]; · iexact H0
      isplitl [H1]; · iexact H1
      iexact H2
    · rw [Dat.leavesExact_idle (dat1 V c) 2 t (idleAt1_2 _ (fun h => h1 ((hcond1_1 t).mp h))) (noFlush1_2 t h1)]
      rw [scratch_step1 V c t, if_neg h0]
      iintro ⟨⟨HS, HR⟩, Ho, ⟨%d0, H0⟩, ⟨%d1, H1⟩, ⟨%d2, H2⟩⟩
      iapply (run1_B c (grid1.coords t) _ _ _ _ _ _ _ _ (fun h => h0 ((hcond1_0 t).mp h)) (fun h => h1 ((hcond1_1 t).mp h)) (iblk1 V c 0 t) (iblk1 V c 1 t) _ _ Set.univ _)
      isplitl [H0]; · iexact H0
      isplitl [H1]; · iexact H1
      isplitl [H2]; · iexact H2
      isplitl [HS]; · iexact HS
      iintro ⟨H0, H1, H2, HS⟩
      isplitl [HS HR]
      · isplitl [HS]; · iexact HS
        iexact HR
      isplitl [Ho]; · iexact Ho
      isplitl [H0]; · iexact H0
      isplitl [H1]; · iexact H1
      iexists _; iexact H2

/-- The library's body obligation, at every point. -/
theorem body_obligation1 (c : Dev nD) : BodyObligation (dat1 (F := F) V c) (defs₀ (F := F)) Variants.none () Set.univ := fun t => by
  rw [bigSep_W1, bigSep_W1]
  exact sound_body1 V c t

/-! ## The invariant at the region's two ends -/

/-- The scoped buffers no window stages are the invariant before the first point. -/
theorem Phi1_in (c : Dev nD) : (Pipeline.scopedRest (Ix := Unit) (Name := ℕ) (U := UR sig nD τ) (Lvl := ℕ) (Val := Elt F) spec1 c : sProp 𝕄) ⊢ (dat1 V c).Φ 0 := by
  rw [show (dat1 V c).Φ 0 = PhiS1 V c 0 (Nat.zero_le _) from rfl, PhiS1_zero V c 0 _ rfl]

/-- After the last point the invariant gives them back: the accumulator's named contents are forgotten. -/
theorem Phi1_out (c : Dev nD) : (dat1 V c).Φ (Fin.last cfg1.N) ⊢ (Pipeline.scopedRest (Ix := Unit) (Name := ℕ) (U := UR sig nD τ) (Lvl := ℕ) (Val := Elt F) spec1 c : sProp 𝕄) := by
  rw [show (dat1 V c).Φ (Fin.last cfg1.N) = PhiS1 V c (Fin.last cfg1.N).val (Nat.le_of_lt_succ (Fin.last cfg1.N).isLt) from rfl,
    PhiS1_pos V c _ _ (by rw [Fin.val_last]; have : cfg1.N = 200 := N_1; omega), scopedRest1_acc]
  iintro ⟨HS, HR⟩
  isplitl [HS]; · iexists _; iexact HS
  iexact HR

end Region

end Cert.Kernel.Reg1

end
-- ==== Proof.K.Reg2Runs.lean ====
/- Region 2 (custom_call 2, `cc2_kernel`, grid ![1, 5]): the segment sum's body in each of its three control
   cases. The body keeps an accumulator (its last operand, a whole scratch buffer of shape 1024x300): at the first edge
   block of a node block (grid coordinate 1 equal to 0) it stores zeros into it; at every point it adds the one-hot
   product of the point's two input blocks to it; at the last edge block (coordinate 1 equal to 4) it copies it to
   the output's staging buffer, which it otherwise does not touch. Each case is a triple whose post names the
   accumulator's new contents as the payload `k2_pay2` of the input blocks and the contents found (zeros after a
   reset). -/
import proofs.«411400_j9251359555630_1_alg».proof.Proof.Gen.Kernel.Launch
import proofs.«411400_j9251359555630_1_alg».proof.Proof.Gen.Kernel.Skeleton
import proofs.«411400_j9251359555630_1_alg».proof.Proof.Gen.Kernel.Points
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.Kernel.Reg2

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The branch conditions, in closed form over the grid -/

/-- The condition of the body's first `scf.if` (the accumulator's reset), from the grid coordinates. -/
abbrev cond2_0 (i : grid2.Coords) : Prop :=
  (Scalar.cmpi .ne (Scalar.extui (Scalar.cmpi .eq (BitVec.ofNat 32 (i 1).val) 0#32)) 0#32) = 1#1
/-- It holds at the points whose position is 0 modulo 5: the first edge block of each node block. -/
theorem hcond2_0 : ∀ t : Fin cfg2.N, cond2_0 (grid2.coords t) ↔ t.val % 5 = 0 :=
  (by decide +kernel : ∀ t : Fin grid2.N, cond2_0 (grid2.coords t) ↔ t.val % 5 = 0)

/-- The condition of the body's second `scf.if` (the copy to the output), from the grid coordinates. -/
abbrev cond2_1 (i : grid2.Coords) : Prop := k2_cond2 i = 1#1
/-- It holds at the points whose position is 4 modulo 5: the last edge block of each node block. -/
theorem hcond2_1 : ∀ t : Fin cfg2.N, cond2_1 (grid2.coords t) ↔ t.val % 5 = 4 :=
  (by decide +kernel : ∀ t : Fin grid2.N, cond2_1 (grid2.coords t) ↔ t.val % 5 = 4)

/-! ## Where the windows are idle -/

/-- The two input windows are never idle. -/
theorem liveAt2_0 (t : Fin cfg2.N) : cfg2.idle 0 (grid2.coords t) = false := rfl
theorem liveAt2_1 (t : Fin cfg2.N) : cfg2.idle 1 (grid2.coords t) = false := rfl
/-- The output window is idle exactly where the second condition fails: the body stores into it only under it. -/
theorem idleAt2_2 (i : grid2.Coords) (h : ¬cond2_1 i) : cfg2.idle 2 i = true := by
  show (!(k2_cond2 i == 1#1)) = true
  cases hb : (k2_cond2 i == 1#1) with
  | false => rfl
  | true => exact absurd (eq_of_beq hb) h
theorem liveAt2_2 (i : grid2.Coords) (h : cond2_1 i) : cfg2.idle 2 i = false := by
  show (!(k2_cond2 i == 1#1)) = false
  rw [show k2_cond2 i = 1#1 from h]; rfl
/-- Off the last edge block the output's block is not written back. -/
theorem noFlush2_2 (t : Fin cfg2.N) (h : ¬t.val % 5 = 4) : (cfg2.win 2).flush t = false :=
  Bool.eq_false_iff.mpr fun hf => h ((flush2_2 t).mp hf)

/-! ## Whole-buffer accesses -/

/-- The offsets of every access of the body: zero on both axes. -/
theorem hz2 : (![0, 0] : Fin 2 → Nat) = fun _ => 0 := funext fun a => by fin_cases a <;> rfl

/-- A store through the whole-shape rectangle at zero offsets, made last, is what the buffer then reads, whatever
    was stored before and whatever the buffer held. -/
theorem read_writes_whole2 {S : Shape} {e : EltTy} {sp : Space} (v : View sig .tc sp S e) (f : v.ty.Contents (Elt F))
    {off : Fin S.rank → Nat} (h : off = fun _ => 0) (inb : ∀ a, off a + S.size a ≤ S.size a)
    (w : S.Idx → Elt F e) (L : List (View.Piece (Elt F) S e)) :
    v.read (Elt F) (v.writes (Elt F) f ((⟨Rect.unit off S.size inb, w⟩ : View.Piece (Elt F) S e) :: L)) = w := by
  refine (View.read_writes_eq_canon v f _ fun y =>
    ⟨⟨Rect.unit off S.size inb, w⟩, List.mem_cons_self, View.mem_set_unit_zero h inb y⟩).trans ?_
  exact View.canon_cons_unit_zero h inb w L

/-! ## The body's triple, case by case -/

set_option maxHeartbeats 1000000 in
/-- CASE A, the first edge block of a node block (first condition true, second false): on whole memrefs, the inputs' at
    contents `x0`, `x1`, the output's at `xo`, the accumulator at anything, the body runs to the continuation holding
    the first three as they were and the accumulator at the payload of the input blocks over zeros. -/
theorem run2_A (c : Dev nD) (i : grid2.Coords)
    (arg2 : Memref sig .tc .vmem S2000x1 .i32) (harg2 : arg2.IsWhole)
    (arg3 : Memref sig .tc .vmem S2000x300 .bf16) (harg3 : arg3.IsWhole)
    (arg4 : Memref sig .tc .vmem S64x300 .f32) (harg4 : arg4.IsWhole)
    (arg5 : Memref sig .tc .vmem S64x300 .f32) (harg5 : arg5.IsWhole)
    (hc0 : cond2_0 i) (hc1 : ¬cond2_1 i)
    (x0 : Vec F S2000x1 .i32) (x1 : Vec F S2000x300 .bf16) (xo : Vec F S64x300 .f32)
    (E : Set ℕ) (K : PUnit → sProp 𝕄) :
    iprop(owns (c : Thread nD τ) arg2 fullShare x0 ∗ owns (c : Thread nD τ) arg3 fullShare x1
        ∗ owns (c : Thread nD τ) arg4 fullShare xo ∗ (∃ d, owns (c : Thread nD τ) arg5 fullShare d)
        ∗ (iprop(owns (c : Thread nD τ) arg2 fullShare x0 ∗ owns (c : Thread nD τ) arg3 fullShare x1
            ∗ owns (c : Thread nD τ) arg4 fullShare xo
            ∗ owns (c : Thread nD τ) arg5 fullShare (k2_pay2 (F := F) i x0 x1 (k2_pay1 (F := F)))) -∗ K ⟨⟩))
      ⊢ wp frame (wpE (defs₀ (F := F)) Variants.none c none) E (cc2_kernel i arg2 harg2 arg3 harg3 arg4 harg4 arg5 harg5) K := by
  simp only [cc2_kernel_eq_skeleton]; unfold cc2_kernel_skel
  unfold owns
  iintro ⟨⟨%f0, %hf0, H0⟩, ⟨%f1, %hf1, H1⟩, ⟨%f2, %hf2, H2⟩, ⟨%ds, %fs, -, HS⟩, Hk⟩
  subst hf0; subst hf1; subst hf2
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact HS
  ipureintro
  sl_unfold_run_names
  rw [read_writes_whole2 _ _ hz2]
  simp only [View.readAt_eq_ld, View.ld_unit_zero (S := S2000x1) hz2, View.ld_unit_zero (S := S2000x300) hz2,
    View.readCov_unit_zero (S := S64x300) _ hz2]

set_option maxHeartbeats 1000000 in
/-- CASE B, an edge block that is neither the first nor the last (both conditions false): the accumulator, found at
    `xs`, is left at the payload of the input blocks over `xs`; the output's buffer is not touched. -/
theorem run2_B (c : Dev nD) (i : grid2.Coords)
    (arg2 : Memref sig .tc .vmem S2000x1 .i32) (harg2 : arg2.IsWhole)
    (arg3 : Memref sig .tc .vmem S2000x300 .bf16) (harg3 : arg3.IsWhole)
    (arg4 : Memref sig .tc .vmem S64x300 .f32) (harg4 : arg4.IsWhole)
    (arg5 : Memref sig .tc .vmem S64x300 .f32) (harg5 : arg5.IsWhole)
    (hc0 : ¬cond2_0 i) (hc1 : ¬cond2_1 i)
    (x0 : Vec F S2000x1 .i32) (x1 : Vec F S2000x300 .bf16) (xo : Vec F S64x300 .f32) (xs : Vec F S64x300 .f32)
    (E : Set ℕ) (K : PUnit → sProp 𝕄) :
    iprop(owns (c : Thread nD τ) arg2 fullShare x0 ∗ owns (c : Thread nD τ) arg3 fullShare x1
        ∗ owns (c : Thread nD τ) arg4 fullShare xo ∗ owns (c : Thread nD τ) arg5 fullShare xs
        ∗ (iprop(owns (c : Thread nD τ) arg2 fullShare x0 ∗ owns (c : Thread nD τ) arg3 fullShare x1
            ∗ owns (c : Thread nD τ) arg4 fullShare xo
            ∗ owns (c : Thread nD τ) arg5 fullShare (k2_pay2 (F := F) i x0 x1 xs)) -∗ K ⟨⟩))
      ⊢ wp frame (wpE (defs₀ (F := F)) Variants.none c none) E (cc2_kernel i arg2 harg2 arg3 harg3 arg4 harg4 arg5 harg5) K := by
  simp only [cc2_kernel_eq_skeleton]; unfold cc2_kernel_skel
  unfold owns
  iintro ⟨⟨%f0, %hf0, H0⟩, ⟨%f1, %hf1, H1⟩, ⟨%f2, %hf2, H2⟩, ⟨%fs, %hfs, HS⟩, Hk⟩
  subst hf0; subst hf1; subst hf2; subst hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact HS
  ipureintro
  sl_unfold_run_names
  rw [read_writes_whole2 _ _ hz2]
  simp only [View.readAt_eq_ld, View.ld_unit_zero (S := S2000x1) hz2, View.ld_unit_zero (S := S2000x300) hz2,
    View.ld_unit_zero (S := S64x300) hz2]

set_option maxHeartbeats 1000000 in
/-- CASE C, the last edge block of a node block (first condition false, second true): the accumulator, found at `xs`,
    is left at the payload of the input blocks over `xs`, and the output's buffer, found at anything, takes the same. -/
theorem run2_C (c : Dev nD) (i : grid2.Coords)
    (arg2 : Memref sig .tc .vmem S2000x1 .i32) (harg2 : arg2.IsWhole)
    (arg3 : Memref sig .tc .vmem S2000x300 .bf16) (harg3 : arg3.IsWhole)
    (arg4 : Memref sig .tc .vmem S64x300 .f32) (harg4 : arg4.IsWhole)
    (arg5 : Memref sig .tc .vmem S64x300 .f32) (harg5 : arg5.IsWhole)
    (hc0 : ¬cond2_0 i) (hc1 : cond2_1 i)
    (x0 : Vec F S2000x1 .i32) (x1 : Vec F S2000x300 .bf16) (xs : Vec F S64x300 .f32)
    (E : Set ℕ) (K : PUnit → sProp 𝕄) :
    iprop(owns (c : Thread nD τ) arg2 fullShare x0 ∗ owns (c : Thread nD τ) arg3 fullShare x1
        ∗ (∃ d, owns (c : Thread nD τ) arg4 fullShare d) ∗ owns (c : Thread nD τ) arg5 fullShare xs
        ∗ (iprop(owns (c : Thread nD τ) arg2 fullShare x0 ∗ owns (c : Thread nD τ) arg3 fullShare x1
            ∗ owns (c : Thread nD τ) arg4 fullShare (k2_pay2 (F := F) i x0 x1 xs)
            ∗ owns (c : Thread nD τ) arg5 fullShare (k2_pay2 (F := F) i x0 x1 xs)) -∗ K ⟨⟩))
      ⊢ wp frame (wpE (defs₀ (F := F)) Variants.none c none) E (cc2_kernel i arg2 harg2 arg3 harg3 arg4 harg4 arg5 harg5) K := by
  simp only [cc2_kernel_eq_skeleton]; unfold cc2_kernel_skel
  unfold owns
  iintro ⟨⟨%f0, %hf0, H0⟩, ⟨%f1, %hf1, H1⟩, ⟨%d2, %f2, -, H2⟩, ⟨%fs, %hfs, HS⟩, Hk⟩
  subst hf0; subst hf1; subst hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    sl_unfold_run_names
    rw [read_writes_whole2 _ _ hz2]
    simp only [View.readAt_eq_ld, View.ld_unit_zero (S := S2000x1) hz2, View.ld_unit_zero (S := S2000x300) hz2,
      View.ld_unit_zero (S := S64x300) hz2, View.readCov_unit_zero (S := S64x300) _ hz2]
  iexists _; isplitr
  swap; · iexact HS
  ipureintro
  sl_unfold_run_names
  rw [read_writes_whole2 _ _ hz2]
  simp only [View.readAt_eq_ld, View.ld_unit_zero (S := S2000x1) hz2, View.ld_unit_zero (S := S2000x300) hz2,
    View.ld_unit_zero (S := S64x300) hz2]

end Cert.Kernel.Reg2

end
-- ==== Proof.K.Reg2.lean ====
/- Region 2 (custom_call 2, `cc2_kernel`, grid ![1, 5]) at the buffer contents `V` the region is entered with: the
   windows' blocks, what the accumulator and the output's staging buffer hold after each grid point, the pipeline's proof
   data, and the body obligation. The accumulator is the kernel's own scratch buffer (shape 1024x300): the invariant
   hands it to the body out of the scoped buffers no window stages, at anything before the first point and afterwards at
   what the point before left in it. -/
import proofs.«411400_j9251359555630_1_alg».proof.Proof.K.Reg2Runs

set_option maxRecDepth 16384

noncomputable section

namespace Cert.Kernel.Reg2

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region
-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-! ## The memrefs the body is called with -/

/-- Each window's current staging memref at point `t`, as the pipeline passes it, and its wholeness. -/
abbrev ms2_0 (t : Fin cfg2.N) : Memref sig .tc .vmem S2000x1 .i32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S2000x300 .bf16 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S64x300 .f32 := win2_2.stage (cfg2.slots t 2)
abbrev hs2_2 (t : Fin cfg2.N) : (ms2_2 t).IsWhole := hstage2_2 ((cfg2.slots t 2).cast nbuf2_2)
/-- The accumulator: a whole scoped buffer of the kernel's own, passed beside the windows. -/
abbrev scM2_0 : Memref sig .tc .vmem S64x300 .f32 := Memref.whole cc2_scratch0

/-! ## What the accumulator and the output hold after each point -/

/-- (output staging buffer, accumulator) after the body at position `n`. The accumulator is the payload `k2_pay2` of the
    point's two input blocks over zeros (`k2_pay1`) where `n % 5 = 0` and over what the point before left elsewhere.
    The output's buffer takes the accumulator where `n % 5 = 4`; elsewhere the body leaves it as found (the component
    there repeats the previous one, and at position 0 the accumulator: a placeholder nothing reads). -/
def outsAt2 (c : Dev nD) : (n : ℕ) → n < cfg2.N → Vec F S64x300 .f32 × Vec F S64x300 .f32
  | 0, hn =>
    (k2_pay2 (F := F) (grid2.coords ⟨0, hn⟩) (iblk2 V c 0 ⟨0, hn⟩) (iblk2 V c 1 ⟨0, hn⟩) (k2_pay1 (F := F)),
     k2_pay2 (F := F) (grid2.coords ⟨0, hn⟩) (iblk2 V c 0 ⟨0, hn⟩) (iblk2 V c 1 ⟨0, hn⟩) (k2_pay1 (F := F)))
  | n + 1, hn =>
    (if (n + 1) % 5 = 4 then
        k2_pay2 (F := F) (grid2.coords ⟨n + 1, hn⟩) (iblk2 V c 0 ⟨n + 1, hn⟩) (iblk2 V c 1 ⟨n + 1, hn⟩)
          (if (n + 1) % 5 = 0 then k2_pay1 (F := F) else (outsAt2 c n (Nat.lt_of_succ_lt hn)).2)
      else (outsAt2 c n (Nat.lt_of_succ_lt hn)).1,
     k2_pay2 (F := F) (grid2.coords ⟨n + 1, hn⟩) (iblk2 V c 0 ⟨n + 1, hn⟩) (iblk2 V c 1 ⟨n + 1, hn⟩)
       (if (n + 1) % 5 = 0 then k2_pay1 (F := F) else (outsAt2 c n (Nat.lt_of_succ_lt hn)).2))

/-- The accumulator's step: the payload of the point's blocks over zeros at the first edge block of a node block, over
    the previous accumulator elsewhere. -/
theorem scratch_step2 (c : Dev nD) (t : Fin cfg2.N) :
    (outsAt2 V c t.val t.isLt).2 = k2_pay2 (F := F) (grid2.coords t) (iblk2 V c 0 t) (iblk2 V c 1 t)
      (if t.val % 5 = 0 then k2_pay1 (F := F) else (outsAt2 V c (t.val - 1) (Nat.lt_of_le_of_lt (Nat.sub_le _ _) t.isLt)).2) := by
  obtain ⟨n, hn⟩ := t
  cases n with
  | zero => exact congrArg (k2_pay2 (F := F) (grid2.coords ⟨0, hn⟩) (iblk2 V c 0 ⟨0, hn⟩) (iblk2 V c 1 ⟨0, hn⟩)) (if_pos (Nat.zero_mod 5)).symm
  | succ n => rfl

/-- At the last edge block of a node block the output's buffer is the accumulator. -/
theorem out_flush2 (c : Dev nD) (t : Fin cfg2.N) (h : t.val % 5 = 4) :
    (outsAt2 V c t.val t.isLt).1 = (outsAt2 V c t.val t.isLt).2 := by
  obtain ⟨n, hn⟩ := t
  cases n with
  | zero => rfl
  | succ n => exact if_pos h

/-! ## The invariant -/

/-- The region invariant before position `n`: before the first point the scoped buffers no window stages, each at
    anything (the accumulator among them); afterwards the accumulator at what the point before left in it, beside the
    others, unopened. -/
def PhiS2 (c : Dev nD) : (n : ℕ) → n ≤ cfg2.N → sProp 𝕄
  | 0, _ => Pipeline.scopedRest (Ix := Unit) (Name := ℕ) (U := UR sig nD τ) (Lvl := ℕ) (Val := Elt F) spec2 c
  | n + 1, hn => iprop(owns (c : Thread nD τ) scM2_0 fullShare ((outsAt2 V c n hn).2) ∗ Pipeline.scopedRestBut (Ix := Unit) (Name := ℕ) (U := UR sig nD τ) (Lvl := ℕ) (Val := Elt F) spec2 c [cc2_scratch0])

theorem PhiS2_zero (c : Dev nD) (n : ℕ) (h : n ≤ cfg2.N) (hz : n = 0) : PhiS2 V c n h = Pipeline.scopedRest (Ix := Unit) (Name := ℕ) (U := UR sig nD τ) (Lvl := ℕ) (Val := Elt F) spec2 c := by
  subst hz; rfl

theorem PhiS2_succ (c : Dev nD) (n : ℕ) (hn : n < cfg2.N) :
    PhiS2 V c (n + 1) hn = iprop(owns (c : Thread nD τ) scM2_0 fullShare ((outsAt2 V c n hn).2) ∗ Pipeline.scopedRestBut (Ix := Unit) (Name := ℕ) (U := UR sig nD τ) (Lvl := ℕ) (Val := Elt F) spec2 c [cc2_scratch0]) := rfl

theorem PhiS2_pos (c : Dev nD) (n : ℕ) (h : n ≤ cfg2.N) (hz : n ≠ 0) :
    PhiS2 V c n h = iprop(owns (c : Thread nD τ) scM2_0 fullShare ((outsAt2 V c (n - 1) (by omega)).2) ∗ Pipeline.scopedRestBut (Ix := Unit) (Name := ℕ) (U := UR sig nD τ) (Lvl := ℕ) (Val := Elt F) spec2 c [cc2_scratch0]) := by
  cases n with
  | zero => exact absurd rfl hz
  | succ n => rfl

/-- The scoped buffers no window stages, with the accumulator taken out as a memref owned at some contents. -/
theorem scopedRest2_acc (c : Dev nD) :
    (Pipeline.scopedRest (Ix := Unit) (Name := ℕ) (U := UR sig nD τ) (Lvl := ℕ) (Val := Elt F) spec2 c : sProp 𝕄)
      = iprop(iprop(∃ d, owns (c : Thread nD τ) scM2_0 fullShare d) ∗ Pipeline.scopedRestBut (Ix := Unit) (Name := ℕ) (U := UR sig nD τ) (Lvl := ℕ) (Val := Elt F) spec2 c [cc2_scratch0]) := by
  rw [scopedRest2_split]; simp only [scM2_0, owns_whole]; try rfl

/-! ## The pipeline's proof data -/

/-- The proof data of pipeline 2 on core `c`: the arrays as the region finds them; after the body at point `t` each
    input's buffer at its block and the output's at `outsAt2`'s first component; the invariant `PhiS2`; nothing owed;
    full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => (outsAt2 V c t.val t.isLt).1
  Φ t := PhiS2 V c t.val (Nat.le_of_lt_succ t.isLt)
  q _ := fullShare
  owed _ := 0

/-- The proof data's arrays are the region-entry contents. -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = (outsAt2 V c t.val t.isLt).1 := by dsimp only [dat2]

/-- The invariant at a point's start, restated at the point's position. -/
theorem PhiS2_castSucc (c : Dev nD) (t : Fin cfg2.N) :
    (dat2 V c).Φ t.castSucc = PhiS2 V c t.val (Nat.le_of_lt t.isLt) := by
  dsimp only [dat2]; simp only [Fin.coe_castSucc]

/-- Each input's current staging buffer holds its block at every point: both are fetched at every point, and neither
    window is cut, so the fetch fills the whole buffer with the array's block. -/
theorem before2_0 (c : Dev nD) (t : Fin cfg2.N) (d) : (dat2 V c).before 0 t d = iblk2 V c 0 t := by
  unfold Dat.before; rw [fetch2_0 t, if_pos rfl]; unfold Dat.fetched Dat.blockOf iblk2; rw [A_eq2]; rfl
theorem before2_1 (c : Dev nD) (t : Fin cfg2.N) (d) : (dat2 V c).before 1 t d = iblk2 V c 1 t := by
  unfold Dat.before; rw [fetch2_1 t, if_pos rfl]; unfold Dat.fetched Dat.blockOf iblk2; rw [A_eq2]; rfl

/-- The inputs' buffers are handed back at their blocks (the windows are never idle). -/
theorem leaves2_0 (c : Dev nD) (t : Fin cfg2.N) :
    (dat2 V c).leavesExact 0 t = owns (c : Thread nD τ) (ms2_0 t) fullShare (iblk2 V c 0 t) := by
  unfold Dat.leavesExact; rw [liveAt2_0 t, after2_0]
theorem leaves2_1 (c : Dev nD) (t : Fin cfg2.N) :
    (dat2 V c).leavesExact 1 t = owns (c : Thread nD τ) (ms2_1 t) fullShare (iblk2 V c 1 t) := by
  unfold Dat.leavesExact; rw [liveAt2_1 t, after2_1]

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d)))

/-- and what it returns. -/
def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t)

set_option maxHeartbeats 4800000 in
/-- The body at any point. The inputs' memrefs hold their blocks; the position modulo 5 says which case the point is
    in. The invariant hands the body the accumulator (at anything before the first point, else at what the point before
    left) and takes it back at this point's contents (`scratch_step2`). Off the last edge block the output's buffer goes
    back as found; at it, the buffer takes the accumulator (`out_flush2`). The core owes nothing throughout. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).owesAt () t.succ = (dat2 V c).owesAt () t.castSucc from rfl]
  rw [show (dat2 V c).Φ t.succ = PhiS2 V c (t.val + 1) t.isLt from rfl, PhiS2_succ]
  rw [leaves2_0, leaves2_1]
  have hN : t.val < 5 := lt_of_lt_of_eq t.isLt (show cfg2.N = 5 from N_2)
  by_cases h0 : t.val % 5 = 0
  · have h1 : ¬t.val % 5 = 4 := by omega
    rw [Dat.leavesExact_idle (dat2 V c) 2 t (idleAt2_2 _ (fun h => h1 ((hcond2_1 t).mp h))) (noFlush2_2 t h1)]
    rw [scratch_step2 V c t, if_pos h0]
    by_cases hz : t.val = 0
    · rw [PhiS2_castSucc V c t, PhiS2_zero V c _ _ hz, scopedRest2_acc]
      iintro ⟨⟨HS, HR⟩, Ho, ⟨%d0, H0⟩, ⟨%d1, H1⟩, ⟨%d2, H2⟩⟩
      iapply (run2_A c (grid2.coords t) _ _ _ _ _ _ _ _ ((hcond2_0 t).mpr h0) (fun h => h1 ((hcond2_1 t).mp h)) (iblk2 V c 0 t) (iblk2 V c 1 t) _ Set.univ _)
      isplitl [H0]; · iexact H0
      isplitl [H1]; · iexact H1
      isplitl [H2]; · iexact H2
      isplitl [HS]; · iexact HS
      iintro ⟨H0, H1, H2, HS⟩
      isplitl [HS HR]
      · isplitl [HS]; · iexact HS
        iexact HR
      isplitl [Ho]; · iexact Ho
      isplitl [H0]; · iexact H0
      isplitl [H1]; · iexact H1
      iexists _; iexact H2
    · rw [PhiS2_castSucc V c t, PhiS2_pos V c _ _ hz]
      iintro ⟨⟨HS, HR⟩, Ho, ⟨%d0, H0⟩, ⟨%d1, H1⟩, ⟨%d2, H2⟩⟩
      iapply (run2_A c (grid2.coords t) _ _ _ _ _ _ _ _ ((hcond2_0 t).mpr h0) (fun h => h1 ((hcond2_1 t).mp h)) (iblk2 V c 0 t) (iblk2 V c 1 t) _ Set.univ _)
      isplitl [H0]; · iexact H0
      isplitl [H1]; · iexact H1
      isplitl [H2]; · iexact H2
      isplitl [HS]; · iexists _; iexact HS
      iintro ⟨H0, H1, H2, HS⟩
      isplitl [HS HR]
      · isplitl [HS]; · iexact HS
        iexact HR
      isplitl [Ho]; · iexact Ho
      isplitl [H0]; · iexact H0
      isplitl [H1]; · iexact H1
      iexists _; iexact H2
  · have hz : t.val ≠ 0 := fun hz => h0 (by omega)
    rw [PhiS2_castSucc V c t, PhiS2_pos V c _ _ hz]
    by_cases h1 : t.val % 5 = 4
    · rw [show (dat2 V c).leavesExact 2 t = owns (c : Thread nD τ) (ms2_2 t) fullShare ((dat2 V c).after 2 t) from by
        unfold Dat.leavesExact; rw [liveAt2_2 (grid2.coords t) ((hcond2_1 t).mpr h1)], after2_2, out_flush2 V c t h1]
      rw [scratch_step2 V c t, if_neg h0]
      iintro ⟨⟨HS, HR⟩, Ho, ⟨%d0, H0⟩, ⟨%d1, H1⟩, ⟨%d2, H2⟩⟩
      iapply (run2_C c (grid2.coords t) _ _ _ _ _ _ _ _ (fun h => h0 ((hcond2_0 t).mp h)) ((hcond2_1 t).mpr h1) (iblk2 V c 0 t) (iblk2 V c 1 t) _ Set.univ _)
      isplitl [H0]; · iexact H0
      isplitl [H1]; · iexact H1
      isplitl [H2]; · iexists _; iexact H2
      isplitl [HS]; · iexact HS
      iintro ⟨H0, H1, H2, HS⟩
      isplitl [HS HR]
      · isplitl [HS]; · iexact HS
        iexact HR
      isplitl [Ho]; · iexact Ho
      isplitl [H0]; · iexact H0
      isplitl [H1]; · iexact H1
      iexact H2
    · rw [Dat.leavesExact_idle (dat2 V c) 2 t (idleAt2_2 _ (fun h => h1 ((hcond2_1 t).mp h))) (noFlush2_2 t h1)]
      rw [scratch_step2 V c t, if_neg h0]
      iintro ⟨⟨HS, HR⟩, Ho, ⟨%d0, H0⟩, ⟨%d1, H1⟩, ⟨%d2, H2⟩⟩
      iapply (run2_B c (grid2.coords t) _ _ _ _ _ _ _ _ (fun h => h0 ((hcond2_0 t).mp h)) (fun h => h1 ((hcond2_1 t).mp h)) (iblk2 V c 0 t) (iblk2 V c 1 t) _ _ Set.univ _)
      isplitl [H0]; · iexact H0
      isplitl [H1]; · iexact H1
      isplitl [H2]; · iexact H2
      isplitl [HS]; · iexact HS
      iintro ⟨H0, H1, H2, HS⟩
      isplitl [HS HR]
      · isplitl [HS]; · iexact HS
        iexact HR
      isplitl [Ho]; · iexact Ho
      isplitl [H0]; · iexact H0
      isplitl [H1]; · iexact H1
      iexists _; iexact H2

/-- The library's body obligation, at every point. -/
theorem body_obligation2 (c : Dev nD) : BodyObligation (dat2 (F := F) V c) (defs₀ (F := F)) Variants.none () Set.univ := fun t => by
  rw [bigSep_W2, bigSep_W2]
  exact sound_body2 V c t

/-! ## The invariant at the region's two ends -/

/-- The scoped buffers no window stages are the invariant before the first point. -/
theorem Phi2_in (c : Dev nD) : (Pipeline.scopedRest (Ix := Unit) (Name := ℕ) (U := UR sig nD τ) (Lvl := ℕ) (Val := Elt F) spec2 c : sProp 𝕄) ⊢ (dat2 V c).Φ 0 := by
  rw [show (dat2 V c).Φ 0 = PhiS2 V c 0 (Nat.zero_le _) from rfl, PhiS2_zero V c 0 _ rfl]

/-- After the last point the invariant gives them back: the accumulator's named contents are forgotten. -/
theorem Phi2_out (c : Dev nD) : (dat2 V c).Φ (Fin.last cfg2.N) ⊢ (Pipeline.scopedRest (Ix := Unit) (Name := ℕ) (U := UR sig nD τ) (Lvl := ℕ) (Val := Elt F) spec2 c : sProp 𝕄) := by
  rw [show (dat2 V c).Φ (Fin.last cfg2.N) = PhiS2 V c (Fin.last cfg2.N).val (Nat.le_of_lt_succ (Fin.last cfg2.N).isLt) from rfl,
    PhiS2_pos V c _ _ (by rw [Fin.val_last]; have : cfg2.N = 5 := N_2; omega), scopedRest2_acc]
  iintro ⟨HS, HR⟩
  isplitl [HS]; · iexists _; iexact HS
  iexact HR

end Region

end Cert.Kernel.Reg2

end
-- ==== Proof.K.Reg3Runs.lean ====
/- Region 3 (custom_call 3, `cc3_kernel`, grid ![10, 20]): the segment sum's body in each of its three control
   cases. The body keeps an accumulator (its last operand, a whole scratch buffer of shape 1024x300): at the first edge
   block of a node block (grid coordinate 1 equal to 0) it stores zeros into it; at every point it adds the one-hot
   product of the point's two input blocks to it; at the last edge block (coordinate 1 equal to 19) it copies it to
   the output's staging buffer, which it otherwise does not touch. Each case is a triple whose post names the
   accumulator's new contents as the payload `k3_pay2` of the input blocks and the contents found (zeros after a
   reset). -/
import proofs.«411400_j9251359555630_1_alg».proof.Proof.Gen.Kernel.Launch
import proofs.«411400_j9251359555630_1_alg».proof.Proof.Gen.Kernel.Skeleton
import proofs.«411400_j9251359555630_1_alg».proof.Proof.Gen.Kernel.Points
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.Kernel.Reg3

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The branch conditions, in closed form over the grid -/

/-- The condition of the body's first `scf.if` (the accumulator's reset), from the grid coordinates. -/
abbrev cond3_0 (i : grid3.Coords) : Prop :=
  (Scalar.cmpi .ne (Scalar.extui (Scalar.cmpi .eq (BitVec.ofNat 32 (i 1).val) 0#32)) 0#32) = 1#1
/-- It holds at the points whose position is 0 modulo 20: the first edge block of each node block. -/
theorem hcond3_0 : ∀ t : Fin cfg3.N, cond3_0 (grid3.coords t) ↔ t.val % 20 = 0 :=
  (by decide +kernel : ∀ t : Fin grid3.N, cond3_0 (grid3.coords t) ↔ t.val % 20 = 0)

/-- The condition of the body's second `scf.if` (the copy to the output), from the grid coordinates. -/
abbrev cond3_1 (i : grid3.Coords) : Prop := k3_cond2 i = 1#1
/-- It holds at the points whose position is 19 modulo 20: the last edge block of each node block. -/
theorem hcond3_1 : ∀ t : Fin cfg3.N, cond3_1 (grid3.coords t) ↔ t.val % 20 = 19 :=
  (by decide +kernel : ∀ t : Fin grid3.N, cond3_1 (grid3.coords t) ↔ t.val % 20 = 19)

/-! ## Where the windows are idle -/

/-- The two input windows are never idle. -/
theorem liveAt3_0 (t : Fin cfg3.N) : cfg3.idle 0 (grid3.coords t) = false := rfl
theorem liveAt3_1 (t : Fin cfg3.N) : cfg3.idle 1 (grid3.coords t) = false := rfl
/-- The output window is idle exactly where the second condition fails: the body stores into it only under it. -/
theorem idleAt3_2 (i : grid3.Coords) (h : ¬cond3_1 i) : cfg3.idle 2 i = true := by
  show (!(k3_cond2 i == 1#1)) = true
  cases hb : (k3_cond2 i == 1#1) with
  | false => rfl
  | true => exact absurd (eq_of_beq hb) h
theorem liveAt3_2 (i : grid3.Coords) (h : cond3_1 i) : cfg3.idle 2 i = false := by
  show (!(k3_cond2 i == 1#1)) = false
  rw [show k3_cond2 i = 1#1 from h]; rfl
/-- Off the last edge block the output's block is not written back. -/
theorem noFlush3_2 (t : Fin cfg3.N) (h : ¬t.val % 20 = 19) : (cfg3.win 2).flush t = false :=
  Bool.eq_false_iff.mpr fun hf => h ((flush3_2 t).mp hf)

/-! ## Whole-buffer accesses -/

/-- The offsets of every access of the body: zero on both axes. -/
theorem hz3 : (![0, 0] : Fin 2 → Nat) = fun _ => 0 := funext fun a => by fin_cases a <;> rfl

/-- A store through the whole-shape rectangle at zero offsets, made last, is what the buffer then reads, whatever
    was stored before and whatever the buffer held. -/
theorem read_writes_whole3 {S : Shape} {e : EltTy} {sp : Space} (v : View sig .tc sp S e) (f : v.ty.Contents (Elt F))
    {off : Fin S.rank → Nat} (h : off = fun _ => 0) (inb : ∀ a, off a + S.size a ≤ S.size a)
    (w : S.Idx → Elt F e) (L : List (View.Piece (Elt F) S e)) :
    v.read (Elt F) (v.writes (Elt F) f ((⟨Rect.unit off S.size inb, w⟩ : View.Piece (Elt F) S e) :: L)) = w := by
  refine (View.read_writes_eq_canon v f _ fun y =>
    ⟨⟨Rect.unit off S.size inb, w⟩, List.mem_cons_self, View.mem_set_unit_zero h inb y⟩).trans ?_
  exact View.canon_cons_unit_zero h inb w L

/-! ## The body's triple, case by case -/

set_option maxHeartbeats 1000000 in
/-- CASE A, the first edge block of a node block (first condition true, second false): on whole memrefs, the inputs' at
    contents `x0`, `x1`, the output's at `xo`, the accumulator at anything, the body runs to the continuation holding
    the first three as they were and the accumulator at the payload of the input blocks over zeros. -/
theorem run3_A (c : Dev nD) (i : grid3.Coords)
    (arg2 : Memref sig .tc .vmem S8000x1 .i32) (harg2 : arg2.IsWhole)
    (arg3 : Memref sig .tc .vmem S8000x300 .bf16) (harg3 : arg3.IsWhole)
    (arg4 : Memref sig .tc .vmem S1024x300 .f32) (harg4 : arg4.IsWhole)
    (arg5 : Memref sig .tc .vmem S1024x300 .f32) (harg5 : arg5.IsWhole)
    (hc0 : cond3_0 i) (hc1 : ¬cond3_1 i)
    (x0 : Vec F S8000x1 .i32) (x1 : Vec F S8000x300 .bf16) (xo : Vec F S1024x300 .f32)
    (E : Set ℕ) (K : PUnit → sProp 𝕄) :
    iprop(owns (c : Thread nD τ) arg2 fullShare x0 ∗ owns (c : Thread nD τ) arg3 fullShare x1
        ∗ owns (c : Thread nD τ) arg4 fullShare xo ∗ (∃ d, owns (c : Thread nD τ) arg5 fullShare d)
        ∗ (iprop(owns (c : Thread nD τ) arg2 fullShare x0 ∗ owns (c : Thread nD τ) arg3 fullShare x1
            ∗ owns (c : Thread nD τ) arg4 fullShare xo
            ∗ owns (c : Thread nD τ) arg5 fullShare (k3_pay2 (F := F) i x0 x1 (k3_pay1 (F := F)))) -∗ K ⟨⟩))
      ⊢ wp frame (wpE (defs₀ (F := F)) Variants.none c none) E (cc3_kernel i arg2 harg2 arg3 harg3 arg4 harg4 arg5 harg5) K := by
  simp only [cc3_kernel_eq_skeleton]; unfold cc3_kernel_skel
  unfold owns
  iintro ⟨⟨%f0, %hf0, H0⟩, ⟨%f1, %hf1, H1⟩, ⟨%f2, %hf2, H2⟩, ⟨%ds, %fs, -, HS⟩, Hk⟩
  subst hf0; subst hf1; subst hf2
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact HS
  ipureintro
  sl_unfold_run_names
  rw [read_writes_whole3 _ _ hz3]
  simp only [View.readAt_eq_ld, View.ld_unit_zero (S := S8000x1) hz3, View.ld_unit_zero (S := S8000x300) hz3,
    View.readCov_unit_zero (S := S1024x300) _ hz3]

set_option maxHeartbeats 1000000 in
/-- CASE B, an edge block that is neither the first nor the last (both conditions false): the accumulator, found at
    `xs`, is left at the payload of the input blocks over `xs`; the output's buffer is not touched. -/
theorem run3_B (c : Dev nD) (i : grid3.Coords)
    (arg2 : Memref sig .tc .vmem S8000x1 .i32) (harg2 : arg2.IsWhole)
    (arg3 : Memref sig .tc .vmem S8000x300 .bf16) (harg3 : arg3.IsWhole)
    (arg4 : Memref sig .tc .vmem S1024x300 .f32) (harg4 : arg4.IsWhole)
    (arg5 : Memref sig .tc .vmem S1024x300 .f32) (harg5 : arg5.IsWhole)
    (hc0 : ¬cond3_0 i) (hc1 : ¬cond3_1 i)
    (x0 : Vec F S8000x1 .i32) (x1 : Vec F S8000x300 .bf16) (xo : Vec F S1024x300 .f32) (xs : Vec F S1024x300 .f32)
    (E : Set ℕ) (K : PUnit → sProp 𝕄) :
    iprop(owns (c : Thread nD τ) arg2 fullShare x0 ∗ owns (c : Thread nD τ) arg3 fullShare x1
        ∗ owns (c : Thread nD τ) arg4 fullShare xo ∗ owns (c : Thread nD τ) arg5 fullShare xs
        ∗ (iprop(owns (c : Thread nD τ) arg2 fullShare x0 ∗ owns (c : Thread nD τ) arg3 fullShare x1
            ∗ owns (c : Thread nD τ) arg4 fullShare xo
            ∗ owns (c : Thread nD τ) arg5 fullShare (k3_pay2 (F := F) i x0 x1 xs)) -∗ K ⟨⟩))
      ⊢ wp frame (wpE (defs₀ (F := F)) Variants.none c none) E (cc3_kernel i arg2 harg2 arg3 harg3 arg4 harg4 arg5 harg5) K := by
  simp only [cc3_kernel_eq_skeleton]; unfold cc3_kernel_skel
  unfold owns
  iintro ⟨⟨%f0, %hf0, H0⟩, ⟨%f1, %hf1, H1⟩, ⟨%f2, %hf2, H2⟩, ⟨%fs, %hfs, HS⟩, Hk⟩
  subst hf0; subst hf1; subst hf2; subst hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact HS
  ipureintro
  sl_unfold_run_names
  rw [read_writes_whole3 _ _ hz3]
  simp only [View.readAt_eq_ld, View.ld_unit_zero (S := S8000x1) hz3, View.ld_unit_zero (S := S8000x300) hz3,
    View.ld_unit_zero (S := S1024x300) hz3]

set_option maxHeartbeats 1000000 in
/-- CASE C, the last edge block of a node block (first condition false, second true): the accumulator, found at `xs`,
    is left at the payload of the input blocks over `xs`, and the output's buffer, found at anything, takes the same. -/
theorem run3_C (c : Dev nD) (i : grid3.Coords)
    (arg2 : Memref sig .tc .vmem S8000x1 .i32) (harg2 : arg2.IsWhole)
    (arg3 : Memref sig .tc .vmem S8000x300 .bf16) (harg3 : arg3.IsWhole)
    (arg4 : Memref sig .tc .vmem S1024x300 .f32) (harg4 : arg4.IsWhole)
    (arg5 : Memref sig .tc .vmem S1024x300 .f32) (harg5 : arg5.IsWhole)
    (hc0 : ¬cond3_0 i) (hc1 : cond3_1 i)
    (x0 : Vec F S8000x1 .i32) (x1 : Vec F S8000x300 .bf16) (xs : Vec F S1024x300 .f32)
    (E : Set ℕ) (K : PUnit → sProp 𝕄) :
    iprop(owns (c : Thread nD τ) arg2 fullShare x0 ∗ owns (c : Thread nD τ) arg3 fullShare x1
        ∗ (∃ d, owns (c : Thread nD τ) arg4 fullShare d) ∗ owns (c : Thread nD τ) arg5 fullShare xs
        ∗ (iprop(owns (c : Thread nD τ) arg2 fullShare x0 ∗ owns (c : Thread nD τ) arg3 fullShare x1
            ∗ owns (c : Thread nD τ) arg4 fullShare (k3_pay2 (F := F) i x0 x1 xs)
            ∗ owns (c : Thread nD τ) arg5 fullShare (k3_pay2 (F := F) i x0 x1 xs)) -∗ K ⟨⟩))
      ⊢ wp frame (wpE (defs₀ (F := F)) Variants.none c none) E (cc3_kernel i arg2 harg2 arg3 harg3 arg4 harg4 arg5 harg5) K := by
  simp only [cc3_kernel_eq_skeleton]; unfold cc3_kernel_skel
  unfold owns
  iintro ⟨⟨%f0, %hf0, H0⟩, ⟨%f1, %hf1, H1⟩, ⟨%d2, %f2, -, H2⟩, ⟨%fs, %hfs, HS⟩, Hk⟩
  subst hf0; subst hf1; subst hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    sl_unfold_run_names
    rw [read_writes_whole3 _ _ hz3]
    simp only [View.readAt_eq_ld, View.ld_unit_zero (S := S8000x1) hz3, View.ld_unit_zero (S := S8000x300) hz3,
      View.ld_unit_zero (S := S1024x300) hz3, View.readCov_unit_zero (S := S1024x300) _ hz3]
  iexists _; isplitr
  swap; · iexact HS
  ipureintro
  sl_unfold_run_names
  rw [read_writes_whole3 _ _ hz3]
  simp only [View.readAt_eq_ld, View.ld_unit_zero (S := S8000x1) hz3, View.ld_unit_zero (S := S8000x300) hz3,
    View.ld_unit_zero (S := S1024x300) hz3]

end Cert.Kernel.Reg3

end
-- ==== Proof.K.Reg3.lean ====
/- Region 3 (custom_call 3, `cc3_kernel`, grid ![10, 20]) at the buffer contents `V` the region is entered with: the
   windows' blocks, what the accumulator and the output's staging buffer hold after each grid point, the pipeline's proof
   data, and the body obligation. The accumulator is the kernel's own scratch buffer (shape 1024x300): the invariant
   hands it to the body out of the scoped buffers no window stages, at anything before the first point and afterwards at
   what the point before left in it. -/
import proofs.«411400_j9251359555630_1_alg».proof.Proof.K.Reg3Runs

set_option maxRecDepth 16384

noncomputable section

namespace Cert.Kernel.Reg3

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region
-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-! ## The memrefs the body is called with -/

/-- Each window's current staging memref at point `t`, as the pipeline passes it, and its wholeness. -/
abbrev ms3_0 (t : Fin cfg3.N) : Memref sig .tc .vmem S8000x1 .i32 := win3_0.stage (cfg3.slots t 0)
abbrev hs3_0 (t : Fin cfg3.N) : (ms3_0 t).IsWhole := hstage3_0 ((cfg3.slots t 0).cast nbuf3_0)
abbrev ms3_1 (t : Fin cfg3.N) : Memref sig .tc .vmem S8000x300 .bf16 := win3_1.stage (cfg3.slots t 1)
abbrev hs3_1 (t : Fin cfg3.N) : (ms3_1 t).IsWhole := hstage3_1 ((cfg3.slots t 1).cast nbuf3_1)
abbrev ms3_2 (t : Fin cfg3.N) : Memref sig .tc .vmem S1024x300 .f32 := win3_2.stage (cfg3.slots t 2)
abbrev hs3_2 (t : Fin cfg3.N) : (ms3_2 t).IsWhole := hstage3_2 ((cfg3.slots t 2).cast nbuf3_2)
/-- The accumulator: a whole scoped buffer of the kernel's own, passed beside the windows. -/
abbrev scM3_0 : Memref sig .tc .vmem S1024x300 .f32 := Memref.whole cc3_scratch0

/-! ## What the accumulator and the output hold after each point -/

/-- (output staging buffer, accumulator) after the body at position `n`. The accumulator is the payload `k3_pay2` of the
    point's two input blocks over zeros (`k3_pay1`) where `n % 20 = 0` and over what the point before left elsewhere.
    The output's buffer takes the accumulator where `n % 20 = 19`; elsewhere the body leaves it as found (the component
    there repeats the previous one, and at position 0 the accumulator: a placeholder nothing reads). -/
def outsAt3 (c : Dev nD) : (n : ℕ) → n < cfg3.N → Vec F S1024x300 .f32 × Vec F S1024x300 .f32
  | 0, hn =>
    (k3_pay2 (F := F) (grid3.coords ⟨0, hn⟩) (iblk3 V c 0 ⟨0, hn⟩) (iblk3 V c 1 ⟨0, hn⟩) (k3_pay1 (F := F)),
     k3_pay2 (F := F) (grid3.coords ⟨0, hn⟩) (iblk3 V c 0 ⟨0, hn⟩) (iblk3 V c 1 ⟨0, hn⟩) (k3_pay1 (F := F)))
  | n + 1, hn =>
    (if (n + 1) % 20 = 19 then
        k3_pay2 (F := F) (grid3.coords ⟨n + 1, hn⟩) (iblk3 V c 0 ⟨n + 1, hn⟩) (iblk3 V c 1 ⟨n + 1, hn⟩)
          (if (n + 1) % 20 = 0 then k3_pay1 (F := F) else (outsAt3 c n (Nat.lt_of_succ_lt hn)).2)
      else (outsAt3 c n (Nat.lt_of_succ_lt hn)).1,
     k3_pay2 (F := F) (grid3.coords ⟨n + 1, hn⟩) (iblk3 V c 0 ⟨n + 1, hn⟩) (iblk3 V c 1 ⟨n + 1, hn⟩)
       (if (n + 1) % 20 = 0 then k3_pay1 (F := F) else (outsAt3 c n (Nat.lt_of_succ_lt hn)).2))

/-- The accumulator's step: the payload of the point's blocks over zeros at the first edge block of a node block, over
    the previous accumulator elsewhere. -/
theorem scratch_step3 (c : Dev nD) (t : Fin cfg3.N) :
    (outsAt3 V c t.val t.isLt).2 = k3_pay2 (F := F) (grid3.coords t) (iblk3 V c 0 t) (iblk3 V c 1 t)
      (if t.val % 20 = 0 then k3_pay1 (F := F) else (outsAt3 V c (t.val - 1) (Nat.lt_of_le_of_lt (Nat.sub_le _ _) t.isLt)).2) := by
  obtain ⟨n, hn⟩ := t
  cases n with
  | zero => exact congrArg (k3_pay2 (F := F) (grid3.coords ⟨0, hn⟩) (iblk3 V c 0 ⟨0, hn⟩) (iblk3 V c 1 ⟨0, hn⟩)) (if_pos (Nat.zero_mod 20)).symm
  | succ n => rfl

/-- At the last edge block of a node block the output's buffer is the accumulator. -/
theorem out_flush3 (c : Dev nD) (t : Fin cfg3.N) (h : t.val % 20 = 19) :
    (outsAt3 V c t.val t.isLt).1 = (outsAt3 V c t.val t.isLt).2 := by
  obtain ⟨n, hn⟩ := t
  cases n with
  | zero => rfl
  | succ n => exact if_pos h

/-! ## The invariant -/

/-- The region invariant before position `n`: before the first point the scoped buffers no window stages, each at
    anything (the accumulator among them); afterwards the accumulator at what the point before left in it, beside the
    others, unopened. -/
def PhiS3 (c : Dev nD) : (n : ℕ) → n ≤ cfg3.N → sProp 𝕄
  | 0, _ => Pipeline.scopedRest (Ix := Unit) (Name := ℕ) (U := UR sig nD τ) (Lvl := ℕ) (Val := Elt F) spec3 c
  | n + 1, hn => iprop(owns (c : Thread nD τ) scM3_0 fullShare ((outsAt3 V c n hn).2) ∗ Pipeline.scopedRestBut (Ix := Unit) (Name := ℕ) (U := UR sig nD τ) (Lvl := ℕ) (Val := Elt F) spec3 c [cc3_scratch0])

theorem PhiS3_zero (c : Dev nD) (n : ℕ) (h : n ≤ cfg3.N) (hz : n = 0) : PhiS3 V c n h = Pipeline.scopedRest (Ix := Unit) (Name := ℕ) (U := UR sig nD τ) (Lvl := ℕ) (Val := Elt F) spec3 c := by
  subst hz; rfl

theorem PhiS3_succ (c : Dev nD) (n : ℕ) (hn : n < cfg3.N) :
    PhiS3 V c (n + 1) hn = iprop(owns (c : Thread nD τ) scM3_0 fullShare ((outsAt3 V c n hn).2) ∗ Pipeline.scopedRestBut (Ix := Unit) (Name := ℕ) (U := UR sig nD τ) (Lvl := ℕ) (Val := Elt F) spec3 c [cc3_scratch0]) := rfl

theorem PhiS3_pos (c : Dev nD) (n : ℕ) (h : n ≤ cfg3.N) (hz : n ≠ 0) :
    PhiS3 V c n h = iprop(owns (c : Thread nD τ) scM3_0 fullShare ((outsAt3 V c (n - 1) (by omega)).2) ∗ Pipeline.scopedRestBut (Ix := Unit) (Name := ℕ) (U := UR sig nD τ) (Lvl := ℕ) (Val := Elt F) spec3 c [cc3_scratch0]) := by
  cases n with
  | zero => exact absurd rfl hz
  | succ n => rfl

/-- The scoped buffers no window stages, with the accumulator taken out as a memref owned at some contents. -/
theorem scopedRest3_acc (c : Dev nD) :
    (Pipeline.scopedRest (Ix := Unit) (Name := ℕ) (U := UR sig nD τ) (Lvl := ℕ) (Val := Elt F) spec3 c : sProp 𝕄)
      = iprop(iprop(∃ d, owns (c : Thread nD τ) scM3_0 fullShare d) ∗ Pipeline.scopedRestBut (Ix := Unit) (Name := ℕ) (U := UR sig nD τ) (Lvl := ℕ) (Val := Elt F) spec3 c [cc3_scratch0]) := by
  rw [scopedRest3_split]; simp only [scM3_0, owns_whole]; try rfl

/-! ## The pipeline's proof data -/

/-- The proof data of pipeline 3 on core `c`: the arrays as the region finds them; after the body at point `t` each
    input's buffer at its block and the output's at `outsAt3`'s first component; the invariant `PhiS3`; nothing owed;
    full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => (outsAt3 V c t.val t.isLt).1
  Φ t := PhiS3 V c t.val (Nat.le_of_lt_succ t.isLt)
  q _ := fullShare
  owed _ := 0

/-- The proof data's arrays are the region-entry contents. -/
theorem A_eq3 (c : Dev nD) (w : Fin cfg3.W) : (dat3 V c).A w = V c (Pipeline.arrRef spec3 w) := by
  dsimp only [dat3]

/-- What the body leaves, window by window. -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = (outsAt3 V c t.val t.isLt).1 := by dsimp only [dat3]

/-- The invariant at a point's start, restated at the point's position. -/
theorem PhiS3_castSucc (c : Dev nD) (t : Fin cfg3.N) :
    (dat3 V c).Φ t.castSucc = PhiS3 V c t.val (Nat.le_of_lt t.isLt) := by
  dsimp only [dat3]; simp only [Fin.coe_castSucc]

/-- Each input's current staging buffer holds its block at every point: both are fetched at every point, and neither
    window is cut, so the fetch fills the whole buffer with the array's block. -/
theorem before3_0 (c : Dev nD) (t : Fin cfg3.N) (d) : (dat3 V c).before 0 t d = iblk3 V c 0 t := by
  unfold Dat.before; rw [fetch3_0 t, if_pos rfl]; unfold Dat.fetched Dat.blockOf iblk3; rw [A_eq3]; rfl
theorem before3_1 (c : Dev nD) (t : Fin cfg3.N) (d) : (dat3 V c).before 1 t d = iblk3 V c 1 t := by
  unfold Dat.before; rw [fetch3_1 t, if_pos rfl]; unfold Dat.fetched Dat.blockOf iblk3; rw [A_eq3]; rfl

/-- The inputs' buffers are handed back at their blocks (the windows are never idle). -/
theorem leaves3_0 (c : Dev nD) (t : Fin cfg3.N) :
    (dat3 V c).leavesExact 0 t = owns (c : Thread nD τ) (ms3_0 t) fullShare (iblk3 V c 0 t) := by
  unfold Dat.leavesExact; rw [liveAt3_0 t, after3_0]
theorem leaves3_1 (c : Dev nD) (t : Fin cfg3.N) :
    (dat3 V c).leavesExact 1 t = owns (c : Thread nD τ) (ms3_1 t) fullShare (iblk3 V c 1 t) := by
  unfold Dat.leavesExact; rw [liveAt3_1 t, after3_1]

/-! ## The body obligation, at a generic point -/

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (ms3_0 t) fullShare ((dat3 V c).before 0 t d))
    ∗ (∃ d, owns (c : Thread nD τ) (ms3_1 t) fullShare ((dat3 V c).before 1 t d))
    ∗ (∃ d, owns (c : Thread nD τ) (ms3_2 t) fullShare ((dat3 V c).before 2 t d)))

/-- and what it returns. -/
def bodyPost3 (c : Dev nD) (t : Fin cfg3.N) : sProp 𝕄 :=
  iprop((dat3 V c).Φ t.succ ∗ (dat3 V c).owesAt () t.succ
    ∗ (dat3 V c).leavesExact 0 t
    ∗ (dat3 V c).leavesExact 1 t
    ∗ (dat3 V c).leavesExact 2 t)

set_option maxHeartbeats 4800000 in
/-- The body at any point. The inputs' memrefs hold their blocks; the position modulo 20 says which case the point is
    in. The invariant hands the body the accumulator (at anything before the first point, else at what the point before
    left) and takes it back at this point's contents (`scratch_step3`). Off the last edge block the output's buffer goes
    back as found; at it, the buffer takes the accumulator (`out_flush3`). The core owes nothing throughout. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1]
  rw [show (dat3 V c).owesAt () t.succ = (dat3 V c).owesAt () t.castSucc from rfl]
  rw [show (dat3 V c).Φ t.succ = PhiS3 V c (t.val + 1) t.isLt from rfl, PhiS3_succ]
  rw [leaves3_0, leaves3_1]
  have hN : t.val < 200 := lt_of_lt_of_eq t.isLt (show cfg3.N = 200 from N_3)
  by_cases h0 : t.val % 20 = 0
  · have h1 : ¬t.val % 20 = 19 := by omega
    rw [Dat.leavesExact_idle (dat3 V c) 2 t (idleAt3_2 _ (fun h => h1 ((hcond3_1 t).mp h))) (noFlush3_2 t h1)]
    rw [scratch_step3 V c t, if_pos h0]
    by_cases hz : t.val = 0
    · rw [PhiS3_castSucc V c t, PhiS3_zero V c _ _ hz, scopedRest3_acc]
      iintro ⟨⟨HS, HR⟩, Ho, ⟨%d0, H0⟩, ⟨%d1, H1⟩, ⟨%d2, H2⟩⟩
      iapply (run3_A c (grid3.coords t) _ _ _ _ _ _ _ _ ((hcond3_0 t).mpr h0) (fun h => h1 ((hcond3_1 t).mp h)) (iblk3 V c 0 t) (iblk3 V c 1 t) _ Set.univ _)
      isplitl [H0]; · iexact H0
      isplitl [H1]; · iexact H1
      isplitl [H2]; · iexact H2
      isplitl [HS]; · iexact HS
      iintro ⟨H0, H1, H2, HS⟩
      isplitl [HS HR]
      · isplitl [HS]; · iexact HS
        iexact HR
      isplitl [Ho]; · iexact Ho
      isplitl [H0]; · iexact H0
      isplitl [H1]; · iexact H1
      iexists _; iexact H2
    · rw [PhiS3_castSucc V c t, PhiS3_pos V c _ _ hz]
      iintro ⟨⟨HS, HR⟩, Ho, ⟨%d0, H0⟩, ⟨%d1, H1⟩, ⟨%d2, H2⟩⟩
      iapply (run3_A c (grid3.coords t) _ _ _ _ _ _ _ _ ((hcond3_0 t).mpr h0) (fun h => h1 ((hcond3_1 t).mp h)) (iblk3 V c 0 t) (iblk3 V c 1 t) _ Set.univ _)
      isplitl [H0]; · iexact H0
      isplitl [H1]; · iexact H1
      isplitl [H2]; · iexact H2
      isplitl [HS]; · iexists _; iexact HS
      iintro ⟨H0, H1, H2, HS⟩
      isplitl [HS HR]
      · isplitl [HS]; · iexact HS
        iexact HR
      isplitl [Ho]; · iexact Ho
      isplitl [H0]; · iexact H0
      isplitl [H1]; · iexact H1
      iexists _; iexact H2
  · have hz : t.val ≠ 0 := fun hz => h0 (by omega)
    rw [PhiS3_castSucc V c t, PhiS3_pos V c _ _ hz]
    by_cases h1 : t.val % 20 = 19
    · rw [show (dat3 V c).leavesExact 2 t = owns (c : Thread nD τ) (ms3_2 t) fullShare ((dat3 V c).after 2 t) from by
        unfold Dat.leavesExact; rw [liveAt3_2 (grid3.coords t) ((hcond3_1 t).mpr h1)], after3_2, out_flush3 V c t h1]
      rw [scratch_step3 V c t, if_neg h0]
      iintro ⟨⟨HS, HR⟩, Ho, ⟨%d0, H0⟩, ⟨%d1, H1⟩, ⟨%d2, H2⟩⟩
      iapply (run3_C c (grid3.coords t) _ _ _ _ _ _ _ _ (fun h => h0 ((hcond3_0 t).mp h)) ((hcond3_1 t).mpr h1) (iblk3 V c 0 t) (iblk3 V c 1 t) _ Set.univ _)
      isplitl [H0]; · iexact H0
      isplitl [H1]; · iexact H1
      isplitl [H2]; · iexists _; iexact H2
      isplitl [HS]; · iexact HS
      iintro ⟨H0, H1, H2, HS⟩
      isplitl [HS HR]
      · isplitl [HS]; · iexact HS
        iexact HR
      isplitl [Ho]; · iexact Ho
      isplitl [H0]; · iexact H0
      isplitl [H1]; · iexact H1
      iexact H2
    · rw [Dat.leavesExact_idle (dat3 V c) 2 t (idleAt3_2 _ (fun h => h1 ((hcond3_1 t).mp h))) (noFlush3_2 t h1)]
      rw [scratch_step3 V c t, if_neg h0]
      iintro ⟨⟨HS, HR⟩, Ho, ⟨%d0, H0⟩, ⟨%d1, H1⟩, ⟨%d2, H2⟩⟩
      iapply (run3_B c (grid3.coords t) _ _ _ _ _ _ _ _ (fun h => h0 ((hcond3_0 t).mp h)) (fun h => h1 ((hcond3_1 t).mp h)) (iblk3 V c 0 t) (iblk3 V c 1 t) _ _ Set.univ _)
      isplitl [H0]; · iexact H0
      isplitl [H1]; · iexact H1
      isplitl [H2]; · iexact H2
      isplitl [HS]; · iexact HS
      iintro ⟨H0, H1, H2, HS⟩
      isplitl [HS HR]
      · isplitl [HS]; · iexact HS
        iexact HR
      isplitl [Ho]; · iexact Ho
      isplitl [H0]; · iexact H0
      isplitl [H1]; · iexact H1
      iexists _; iexact H2

/-- The library's body obligation, at every point. -/
theorem body_obligation3 (c : Dev nD) : BodyObligation (dat3 (F := F) V c) (defs₀ (F := F)) Variants.none () Set.univ := fun t => by
  rw [bigSep_W3, bigSep_W3]
  exact sound_body3 V c t

/-! ## The invariant at the region's two ends -/

/-- The scoped buffers no window stages are the invariant before the first point. -/
theorem Phi3_in (c : Dev nD) : (Pipeline.scopedRest (Ix := Unit) (Name := ℕ) (U := UR sig nD τ) (Lvl := ℕ) (Val := Elt F) spec3 c : sProp 𝕄) ⊢ (dat3 V c).Φ 0 := by
  rw [show (dat3 V c).Φ 0 = PhiS3 V c 0 (Nat.zero_le _) from rfl, PhiS3_zero V c 0 _ rfl]

/-- After the last point the invariant gives them back: the accumulator's named contents are forgotten. -/
theorem Phi3_out (c : Dev nD) : (dat3 V c).Φ (Fin.last cfg3.N) ⊢ (Pipeline.scopedRest (Ix := Unit) (Name := ℕ) (U := UR sig nD τ) (Lvl := ℕ) (Val := Elt F) spec3 c : sProp 𝕄) := by
  rw [show (dat3 V c).Φ (Fin.last cfg3.N) = PhiS3 V c (Fin.last cfg3.N).val (Nat.le_of_lt_succ (Fin.last cfg3.N).isLt) from rfl,
    PhiS3_pos V c _ _ (by rw [Fin.val_last]; have : cfg3.N = 200 := N_3; omega), scopedRest3_acc]
  iintro ⟨HS, HR⟩
  isplitl [HS]; · iexists _; iexact HS
  iexact HR

end Region

end Cert.Kernel.Reg3

end
-- ==== Proof.K.Reg4Runs.lean ====
/- Region 4 (custom_call 4, `cc4_kernel`, grid ![1, 5]): the segment sum's body in each of its three control
   cases. The body keeps an accumulator (its last operand, a whole scratch buffer of shape 1024x300): at the first edge
   block of a node block (grid coordinate 1 equal to 0) it stores zeros into it; at every point it adds the one-hot
   product of the point's two input blocks to it; at the last edge block (coordinate 1 equal to 4) it copies it to
   the output's staging buffer, which it otherwise does not touch. Each case is a triple whose post names the
   accumulator's new contents as the payload `k4_pay2` of the input blocks and the contents found (zeros after a
   reset). -/
import proofs.«411400_j9251359555630_1_alg».proof.Proof.Gen.Kernel.Launch
import proofs.«411400_j9251359555630_1_alg».proof.Proof.Gen.Kernel.Skeleton
import proofs.«411400_j9251359555630_1_alg».proof.Proof.Gen.Kernel.Points
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.Kernel.Reg4

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The branch conditions, in closed form over the grid -/

/-- The condition of the body's first `scf.if` (the accumulator's reset), from the grid coordinates. -/
abbrev cond4_0 (i : grid4.Coords) : Prop :=
  (Scalar.cmpi .ne (Scalar.extui (Scalar.cmpi .eq (BitVec.ofNat 32 (i 1).val) 0#32)) 0#32) = 1#1
/-- It holds at the points whose position is 0 modulo 5: the first edge block of each node block. -/
theorem hcond4_0 : ∀ t : Fin cfg4.N, cond4_0 (grid4.coords t) ↔ t.val % 5 = 0 :=
  (by decide +kernel : ∀ t : Fin grid4.N, cond4_0 (grid4.coords t) ↔ t.val % 5 = 0)

/-- The condition of the body's second `scf.if` (the copy to the output), from the grid coordinates. -/
abbrev cond4_1 (i : grid4.Coords) : Prop := k4_cond2 i = 1#1
/-- It holds at the points whose position is 4 modulo 5: the last edge block of each node block. -/
theorem hcond4_1 : ∀ t : Fin cfg4.N, cond4_1 (grid4.coords t) ↔ t.val % 5 = 4 :=
  (by decide +kernel : ∀ t : Fin grid4.N, cond4_1 (grid4.coords t) ↔ t.val % 5 = 4)

/-! ## Where the windows are idle -/

/-- The two input windows are never idle. -/
theorem liveAt4_0 (t : Fin cfg4.N) : cfg4.idle 0 (grid4.coords t) = false := rfl
theorem liveAt4_1 (t : Fin cfg4.N) : cfg4.idle 1 (grid4.coords t) = false := rfl
/-- The output window is idle exactly where the second condition fails: the body stores into it only under it. -/
theorem idleAt4_2 (i : grid4.Coords) (h : ¬cond4_1 i) : cfg4.idle 2 i = true := by
  show (!(k4_cond2 i == 1#1)) = true
  cases hb : (k4_cond2 i == 1#1) with
  | false => rfl
  | true => exact absurd (eq_of_beq hb) h
theorem liveAt4_2 (i : grid4.Coords) (h : cond4_1 i) : cfg4.idle 2 i = false := by
  show (!(k4_cond2 i == 1#1)) = false
  rw [show k4_cond2 i = 1#1 from h]; rfl
/-- Off the last edge block the output's block is not written back. -/
theorem noFlush4_2 (t : Fin cfg4.N) (h : ¬t.val % 5 = 4) : (cfg4.win 2).flush t = false :=
  Bool.eq_false_iff.mpr fun hf => h ((flush4_2 t).mp hf)

/-! ## Whole-buffer accesses -/

/-- The offsets of every access of the body: zero on both axes. -/
theorem hz4 : (![0, 0] : Fin 2 → Nat) = fun _ => 0 := funext fun a => by fin_cases a <;> rfl

/-- A store through the whole-shape rectangle at zero offsets, made last, is what the buffer then reads, whatever
    was stored before and whatever the buffer held. -/
theorem read_writes_whole4 {S : Shape} {e : EltTy} {sp : Space} (v : View sig .tc sp S e) (f : v.ty.Contents (Elt F))
    {off : Fin S.rank → Nat} (h : off = fun _ => 0) (inb : ∀ a, off a + S.size a ≤ S.size a)
    (w : S.Idx → Elt F e) (L : List (View.Piece (Elt F) S e)) :
    v.read (Elt F) (v.writes (Elt F) f ((⟨Rect.unit off S.size inb, w⟩ : View.Piece (Elt F) S e) :: L)) = w := by
  refine (View.read_writes_eq_canon v f _ fun y =>
    ⟨⟨Rect.unit off S.size inb, w⟩, List.mem_cons_self, View.mem_set_unit_zero h inb y⟩).trans ?_
  exact View.canon_cons_unit_zero h inb w L

/-! ## The body's triple, case by case -/

set_option maxHeartbeats 1000000 in
/-- CASE A, the first edge block of a node block (first condition true, second false): on whole memrefs, the inputs' at
    contents `x0`, `x1`, the output's at `xo`, the accumulator at anything, the body runs to the continuation holding
    the first three as they were and the accumulator at the payload of the input blocks over zeros. -/
theorem run4_A (c : Dev nD) (i : grid4.Coords)
    (arg2 : Memref sig .tc .vmem S2000x1 .i32) (harg2 : arg2.IsWhole)
    (arg3 : Memref sig .tc .vmem S2000x300 .bf16) (harg3 : arg3.IsWhole)
    (arg4 : Memref sig .tc .vmem S64x300 .f32) (harg4 : arg4.IsWhole)
    (arg5 : Memref sig .tc .vmem S64x300 .f32) (harg5 : arg5.IsWhole)
    (hc0 : cond4_0 i) (hc1 : ¬cond4_1 i)
    (x0 : Vec F S2000x1 .i32) (x1 : Vec F S2000x300 .bf16) (xo : Vec F S64x300 .f32)
    (E : Set ℕ) (K : PUnit → sProp 𝕄) :
    iprop(owns (c : Thread nD τ) arg2 fullShare x0 ∗ owns (c : Thread nD τ) arg3 fullShare x1
        ∗ owns (c : Thread nD τ) arg4 fullShare xo ∗ (∃ d, owns (c : Thread nD τ) arg5 fullShare d)
        ∗ (iprop(owns (c : Thread nD τ) arg2 fullShare x0 ∗ owns (c : Thread nD τ) arg3 fullShare x1
            ∗ owns (c : Thread nD τ) arg4 fullShare xo
            ∗ owns (c : Thread nD τ) arg5 fullShare (k4_pay2 (F := F) i x0 x1 (k4_pay1 (F := F)))) -∗ K ⟨⟩))
      ⊢ wp frame (wpE (defs₀ (F := F)) Variants.none c none) E (cc4_kernel i arg2 harg2 arg3 harg3 arg4 harg4 arg5 harg5) K := by
  simp only [cc4_kernel_eq_skeleton]; unfold cc4_kernel_skel
  unfold owns
  iintro ⟨⟨%f0, %hf0, H0⟩, ⟨%f1, %hf1, H1⟩, ⟨%f2, %hf2, H2⟩, ⟨%ds, %fs, -, HS⟩, Hk⟩
  subst hf0; subst hf1; subst hf2
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact HS
  ipureintro
  sl_unfold_run_names
  rw [read_writes_whole4 _ _ hz4]
  simp only [View.readAt_eq_ld, View.ld_unit_zero (S := S2000x1) hz4, View.ld_unit_zero (S := S2000x300) hz4,
    View.readCov_unit_zero (S := S64x300) _ hz4]

set_option maxHeartbeats 1000000 in
/-- CASE B, an edge block that is neither the first nor the last (both conditions false): the accumulator, found at
    `xs`, is left at the payload of the input blocks over `xs`; the output's buffer is not touched. -/
theorem run4_B (c : Dev nD) (i : grid4.Coords)
    (arg2 : Memref sig .tc .vmem S2000x1 .i32) (harg2 : arg2.IsWhole)
    (arg3 : Memref sig .tc .vmem S2000x300 .bf16) (harg3 : arg3.IsWhole)
    (arg4 : Memref sig .tc .vmem S64x300 .f32) (harg4 : arg4.IsWhole)
    (arg5 : Memref sig .tc .vmem S64x300 .f32) (harg5 : arg5.IsWhole)
    (hc0 : ¬cond4_0 i) (hc1 : ¬cond4_1 i)
    (x0 : Vec F S2000x1 .i32) (x1 : Vec F S2000x300 .bf16) (xo : Vec F S64x300 .f32) (xs : Vec F S64x300 .f32)
    (E : Set ℕ) (K : PUnit → sProp 𝕄) :
    iprop(owns (c : Thread nD τ) arg2 fullShare x0 ∗ owns (c : Thread nD τ) arg3 fullShare x1
        ∗ owns (c : Thread nD τ) arg4 fullShare xo ∗ owns (c : Thread nD τ) arg5 fullShare xs
        ∗ (iprop(owns (c : Thread nD τ) arg2 fullShare x0 ∗ owns (c : Thread nD τ) arg3 fullShare x1
            ∗ owns (c : Thread nD τ) arg4 fullShare xo
            ∗ owns (c : Thread nD τ) arg5 fullShare (k4_pay2 (F := F) i x0 x1 xs)) -∗ K ⟨⟩))
      ⊢ wp frame (wpE (defs₀ (F := F)) Variants.none c none) E (cc4_kernel i arg2 harg2 arg3 harg3 arg4 harg4 arg5 harg5) K := by
  simp only [cc4_kernel_eq_skeleton]; unfold cc4_kernel_skel
  unfold owns
  iintro ⟨⟨%f0, %hf0, H0⟩, ⟨%f1, %hf1, H1⟩, ⟨%f2, %hf2, H2⟩, ⟨%fs, %hfs, HS⟩, Hk⟩
  subst hf0; subst hf1; subst hf2; subst hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact HS
  ipureintro
  sl_unfold_run_names
  rw [read_writes_whole4 _ _ hz4]
  simp only [View.readAt_eq_ld, View.ld_unit_zero (S := S2000x1) hz4, View.ld_unit_zero (S := S2000x300) hz4,
    View.ld_unit_zero (S := S64x300) hz4]

set_option maxHeartbeats 1000000 in
/-- CASE C, the last edge block of a node block (first condition false, second true): the accumulator, found at `xs`,
    is left at the payload of the input blocks over `xs`, and the output's buffer, found at anything, takes the same. -/
theorem run4_C (c : Dev nD) (i : grid4.Coords)
    (arg2 : Memref sig .tc .vmem S2000x1 .i32) (harg2 : arg2.IsWhole)
    (arg3 : Memref sig .tc .vmem S2000x300 .bf16) (harg3 : arg3.IsWhole)
    (arg4 : Memref sig .tc .vmem S64x300 .f32) (harg4 : arg4.IsWhole)
    (arg5 : Memref sig .tc .vmem S64x300 .f32) (harg5 : arg5.IsWhole)
    (hc0 : ¬cond4_0 i) (hc1 : cond4_1 i)
    (x0 : Vec F S2000x1 .i32) (x1 : Vec F S2000x300 .bf16) (xs : Vec F S64x300 .f32)
    (E : Set ℕ) (K : PUnit → sProp 𝕄) :
    iprop(owns (c : Thread nD τ) arg2 fullShare x0 ∗ owns (c : Thread nD τ) arg3 fullShare x1
        ∗ (∃ d, owns (c : Thread nD τ) arg4 fullShare d) ∗ owns (c : Thread nD τ) arg5 fullShare xs
        ∗ (iprop(owns (c : Thread nD τ) arg2 fullShare x0 ∗ owns (c : Thread nD τ) arg3 fullShare x1
            ∗ owns (c : Thread nD τ) arg4 fullShare (k4_pay2 (F := F) i x0 x1 xs)
            ∗ owns (c : Thread nD τ) arg5 fullShare (k4_pay2 (F := F) i x0 x1 xs)) -∗ K ⟨⟩))
      ⊢ wp frame (wpE (defs₀ (F := F)) Variants.none c none) E (cc4_kernel i arg2 harg2 arg3 harg3 arg4 harg4 arg5 harg5) K := by
  simp only [cc4_kernel_eq_skeleton]; unfold cc4_kernel_skel
  unfold owns
  iintro ⟨⟨%f0, %hf0, H0⟩, ⟨%f1, %hf1, H1⟩, ⟨%d2, %f2, -, H2⟩, ⟨%fs, %hfs, HS⟩, Hk⟩
  subst hf0; subst hf1; subst hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    sl_unfold_run_names
    rw [read_writes_whole4 _ _ hz4]
    simp only [View.readAt_eq_ld, View.ld_unit_zero (S := S2000x1) hz4, View.ld_unit_zero (S := S2000x300) hz4,
      View.ld_unit_zero (S := S64x300) hz4, View.readCov_unit_zero (S := S64x300) _ hz4]
  iexists _; isplitr
  swap; · iexact HS
  ipureintro
  sl_unfold_run_names
  rw [read_writes_whole4 _ _ hz4]
  simp only [View.readAt_eq_ld, View.ld_unit_zero (S := S2000x1) hz4, View.ld_unit_zero (S := S2000x300) hz4,
    View.ld_unit_zero (S := S64x300) hz4]

end Cert.Kernel.Reg4

end
-- ==== Proof.K.Reg4.lean ====
/- Region 4 (custom_call 4, `cc4_kernel`, grid ![1, 5]) at the buffer contents `V` the region is entered with: the
   windows' blocks, what the accumulator and the output's staging buffer hold after each grid point, the pipeline's proof
   data, and the body obligation. The accumulator is the kernel's own scratch buffer (shape 1024x300): the invariant
   hands it to the body out of the scoped buffers no window stages, at anything before the first point and afterwards at
   what the point before left in it. -/
import proofs.«411400_j9251359555630_1_alg».proof.Proof.K.Reg4Runs

set_option maxRecDepth 16384

noncomputable section

namespace Cert.Kernel.Reg4

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region
-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-! ## The memrefs the body is called with -/

/-- Each window's current staging memref at point `t`, as the pipeline passes it, and its wholeness. -/
abbrev ms4_0 (t : Fin cfg4.N) : Memref sig .tc .vmem S2000x1 .i32 := win4_0.stage (cfg4.slots t 0)
abbrev hs4_0 (t : Fin cfg4.N) : (ms4_0 t).IsWhole := hstage4_0 ((cfg4.slots t 0).cast nbuf4_0)
abbrev ms4_1 (t : Fin cfg4.N) : Memref sig .tc .vmem S2000x300 .bf16 := win4_1.stage (cfg4.slots t 1)
abbrev hs4_1 (t : Fin cfg4.N) : (ms4_1 t).IsWhole := hstage4_1 ((cfg4.slots t 1).cast nbuf4_1)
abbrev ms4_2 (t : Fin cfg4.N) : Memref sig .tc .vmem S64x300 .f32 := win4_2.stage (cfg4.slots t 2)
abbrev hs4_2 (t : Fin cfg4.N) : (ms4_2 t).IsWhole := hstage4_2 ((cfg4.slots t 2).cast nbuf4_2)
/-- The accumulator: a whole scoped buffer of the kernel's own, passed beside the windows. -/
abbrev scM4_0 : Memref sig .tc .vmem S64x300 .f32 := Memref.whole cc4_scratch0

/-! ## What the accumulator and the output hold after each point -/

/-- (output staging buffer, accumulator) after the body at position `n`. The accumulator is the payload `k4_pay2` of the
    point's two input blocks over zeros (`k4_pay1`) where `n % 5 = 0` and over what the point before left elsewhere.
    The output's buffer takes the accumulator where `n % 5 = 4`; elsewhere the body leaves it as found (the component
    there repeats the previous one, and at position 0 the accumulator: a placeholder nothing reads). -/
def outsAt4 (c : Dev nD) : (n : ℕ) → n < cfg4.N → Vec F S64x300 .f32 × Vec F S64x300 .f32
  | 0, hn =>
    (k4_pay2 (F := F) (grid4.coords ⟨0, hn⟩) (iblk4 V c 0 ⟨0, hn⟩) (iblk4 V c 1 ⟨0, hn⟩) (k4_pay1 (F := F)),
     k4_pay2 (F := F) (grid4.coords ⟨0, hn⟩) (iblk4 V c 0 ⟨0, hn⟩) (iblk4 V c 1 ⟨0, hn⟩) (k4_pay1 (F := F)))
  | n + 1, hn =>
    (if (n + 1) % 5 = 4 then
        k4_pay2 (F := F) (grid4.coords ⟨n + 1, hn⟩) (iblk4 V c 0 ⟨n + 1, hn⟩) (iblk4 V c 1 ⟨n + 1, hn⟩)
          (if (n + 1) % 5 = 0 then k4_pay1 (F := F) else (outsAt4 c n (Nat.lt_of_succ_lt hn)).2)
      else (outsAt4 c n (Nat.lt_of_succ_lt hn)).1,
     k4_pay2 (F := F) (grid4.coords ⟨n + 1, hn⟩) (iblk4 V c 0 ⟨n + 1, hn⟩) (iblk4 V c 1 ⟨n + 1, hn⟩)
       (if (n + 1) % 5 = 0 then k4_pay1 (F := F) else (outsAt4 c n (Nat.lt_of_succ_lt hn)).2))

/-- The accumulator's step: the payload of the point's blocks over zeros at the first edge block of a node block, over
    the previous accumulator elsewhere. -/
theorem scratch_step4 (c : Dev nD) (t : Fin cfg4.N) :
    (outsAt4 V c t.val t.isLt).2 = k4_pay2 (F := F) (grid4.coords t) (iblk4 V c 0 t) (iblk4 V c 1 t)
      (if t.val % 5 = 0 then k4_pay1 (F := F) else (outsAt4 V c (t.val - 1) (Nat.lt_of_le_of_lt (Nat.sub_le _ _) t.isLt)).2) := by
  obtain ⟨n, hn⟩ := t
  cases n with
  | zero => exact congrArg (k4_pay2 (F := F) (grid4.coords ⟨0, hn⟩) (iblk4 V c 0 ⟨0, hn⟩) (iblk4 V c 1 ⟨0, hn⟩)) (if_pos (Nat.zero_mod 5)).symm
  | succ n => rfl

/-- At the last edge block of a node block the output's buffer is the accumulator. -/
theorem out_flush4 (c : Dev nD) (t : Fin cfg4.N) (h : t.val % 5 = 4) :
    (outsAt4 V c t.val t.isLt).1 = (outsAt4 V c t.val t.isLt).2 := by
  obtain ⟨n, hn⟩ := t
  cases n with
  | zero => rfl
  | succ n => exact if_pos h

/-! ## The invariant -/

/-- The region invariant before position `n`: before the first point the scoped buffers no window stages, each at
    anything (the accumulator among them); afterwards the accumulator at what the point before left in it, beside the
    others, unopened. -/
def PhiS4 (c : Dev nD) : (n : ℕ) → n ≤ cfg4.N → sProp 𝕄
  | 0, _ => Pipeline.scopedRest (Ix := Unit) (Name := ℕ) (U := UR sig nD τ) (Lvl := ℕ) (Val := Elt F) spec4 c
  | n + 1, hn => iprop(owns (c : Thread nD τ) scM4_0 fullShare ((outsAt4 V c n hn).2) ∗ Pipeline.scopedRestBut (Ix := Unit) (Name := ℕ) (U := UR sig nD τ) (Lvl := ℕ) (Val := Elt F) spec4 c [cc4_scratch0])

theorem PhiS4_zero (c : Dev nD) (n : ℕ) (h : n ≤ cfg4.N) (hz : n = 0) : PhiS4 V c n h = Pipeline.scopedRest (Ix := Unit) (Name := ℕ) (U := UR sig nD τ) (Lvl := ℕ) (Val := Elt F) spec4 c := by
  subst hz; rfl

theorem PhiS4_succ (c : Dev nD) (n : ℕ) (hn : n < cfg4.N) :
    PhiS4 V c (n + 1) hn = iprop(owns (c : Thread nD τ) scM4_0 fullShare ((outsAt4 V c n hn).2) ∗ Pipeline.scopedRestBut (Ix := Unit) (Name := ℕ) (U := UR sig nD τ) (Lvl := ℕ) (Val := Elt F) spec4 c [cc4_scratch0]) := rfl

theorem PhiS4_pos (c : Dev nD) (n : ℕ) (h : n ≤ cfg4.N) (hz : n ≠ 0) :
    PhiS4 V c n h = iprop(owns (c : Thread nD τ) scM4_0 fullShare ((outsAt4 V c (n - 1) (by omega)).2) ∗ Pipeline.scopedRestBut (Ix := Unit) (Name := ℕ) (U := UR sig nD τ) (Lvl := ℕ) (Val := Elt F) spec4 c [cc4_scratch0]) := by
  cases n with
  | zero => exact absurd rfl hz
  | succ n => rfl

/-- The scoped buffers no window stages, with the accumulator taken out as a memref owned at some contents. -/
theorem scopedRest4_acc (c : Dev nD) :
    (Pipeline.scopedRest (Ix := Unit) (Name := ℕ) (U := UR sig nD τ) (Lvl := ℕ) (Val := Elt F) spec4 c : sProp 𝕄)
      = iprop(iprop(∃ d, owns (c : Thread nD τ) scM4_0 fullShare d) ∗ Pipeline.scopedRestBut (Ix := Unit) (Name := ℕ) (U := UR sig nD τ) (Lvl := ℕ) (Val := Elt F) spec4 c [cc4_scratch0]) := by
  rw [scopedRest4_split]; simp only [scM4_0, owns_whole]; try rfl

/-! ## The pipeline's proof data -/

/-- The proof data of pipeline 4 on core `c`: the arrays as the region finds them; after the body at point `t` each
    input's buffer at its block and the output's at `outsAt4`'s first component; the invariant `PhiS4`; nothing owed;
    full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => (outsAt4 V c t.val t.isLt).1
  Φ t := PhiS4 V c t.val (Nat.le_of_lt_succ t.isLt)
  q _ := fullShare
  owed _ := 0

/-- The proof data's arrays are the region-entry contents. -/
theorem A_eq4 (c : Dev nD) (w : Fin cfg4.W) : (dat4 V c).A w = V c (Pipeline.arrRef spec4 w) := by
  dsimp only [dat4]

/-- What the body leaves, window by window. -/
theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = (outsAt4 V c t.val t.isLt).1 := by dsimp only [dat4]

/-- The invariant at a point's start, restated at the point's position. -/
theorem PhiS4_castSucc (c : Dev nD) (t : Fin cfg4.N) :
    (dat4 V c).Φ t.castSucc = PhiS4 V c t.val (Nat.le_of_lt t.isLt) := by
  dsimp only [dat4]; simp only [Fin.coe_castSucc]

/-- Each input's current staging buffer holds its block at every point: both are fetched at every point, and neither
    window is cut, so the fetch fills the whole buffer with the array's block. -/
theorem before4_0 (c : Dev nD) (t : Fin cfg4.N) (d) : (dat4 V c).before 0 t d = iblk4 V c 0 t := by
  unfold Dat.before; rw [fetch4_0 t, if_pos rfl]; unfold Dat.fetched Dat.blockOf iblk4; rw [A_eq4]; rfl
theorem before4_1 (c : Dev nD) (t : Fin cfg4.N) (d) : (dat4 V c).before 1 t d = iblk4 V c 1 t := by
  unfold Dat.before; rw [fetch4_1 t, if_pos rfl]; unfold Dat.fetched Dat.blockOf iblk4; rw [A_eq4]; rfl

/-- The inputs' buffers are handed back at their blocks (the windows are never idle). -/
theorem leaves4_0 (c : Dev nD) (t : Fin cfg4.N) :
    (dat4 V c).leavesExact 0 t = owns (c : Thread nD τ) (ms4_0 t) fullShare (iblk4 V c 0 t) := by
  unfold Dat.leavesExact; rw [liveAt4_0 t, after4_0]
theorem leaves4_1 (c : Dev nD) (t : Fin cfg4.N) :
    (dat4 V c).leavesExact 1 t = owns (c : Thread nD τ) (ms4_1 t) fullShare (iblk4 V c 1 t) := by
  unfold Dat.leavesExact; rw [liveAt4_1 t, after4_1]

/-! ## The body obligation, at a generic point -/

/-- What the body is called with at point `t`, the windows one by one, -/
def bodyPre4 (c : Dev nD) (t : Fin cfg4.N) : sProp 𝕄 :=
  iprop((dat4 V c).Φ t.castSucc ∗ (dat4 V c).owesAt () t.castSucc
    ∗ (∃ d, owns (c : Thread nD τ) (ms4_0 t) fullShare ((dat4 V c).before 0 t d))
    ∗ (∃ d, owns (c : Thread nD τ) (ms4_1 t) fullShare ((dat4 V c).before 1 t d))
    ∗ (∃ d, owns (c : Thread nD τ) (ms4_2 t) fullShare ((dat4 V c).before 2 t d)))

/-- and what it returns. -/
def bodyPost4 (c : Dev nD) (t : Fin cfg4.N) : sProp 𝕄 :=
  iprop((dat4 V c).Φ t.succ ∗ (dat4 V c).owesAt () t.succ
    ∗ (dat4 V c).leavesExact 0 t
    ∗ (dat4 V c).leavesExact 1 t
    ∗ (dat4 V c).leavesExact 2 t)

set_option maxHeartbeats 4800000 in
/-- The body at any point. The inputs' memrefs hold their blocks; the position modulo 5 says which case the point is
    in. The invariant hands the body the accumulator (at anything before the first point, else at what the point before
    left) and takes it back at this point's contents (`scratch_step4`). Off the last edge block the output's buffer goes
    back as found; at it, the buffer takes the accumulator (`out_flush4`). The core owes nothing throughout. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1]
  rw [show (dat4 V c).owesAt () t.succ = (dat4 V c).owesAt () t.castSucc from rfl]
  rw [show (dat4 V c).Φ t.succ = PhiS4 V c (t.val + 1) t.isLt from rfl, PhiS4_succ]
  rw [leaves4_0, leaves4_1]
  have hN : t.val < 5 := lt_of_lt_of_eq t.isLt (show cfg4.N = 5 from N_4)
  by_cases h0 : t.val % 5 = 0
  · have h1 : ¬t.val % 5 = 4 := by omega
    rw [Dat.leavesExact_idle (dat4 V c) 2 t (idleAt4_2 _ (fun h => h1 ((hcond4_1 t).mp h))) (noFlush4_2 t h1)]
    rw [scratch_step4 V c t, if_pos h0]
    by_cases hz : t.val = 0
    · rw [PhiS4_castSucc V c t, PhiS4_zero V c _ _ hz, scopedRest4_acc]
      iintro ⟨⟨HS, HR⟩, Ho, ⟨%d0, H0⟩, ⟨%d1, H1⟩, ⟨%d2, H2⟩⟩
      iapply (run4_A c (grid4.coords t) _ _ _ _ _ _ _ _ ((hcond4_0 t).mpr h0) (fun h => h1 ((hcond4_1 t).mp h)) (iblk4 V c 0 t) (iblk4 V c 1 t) _ Set.univ _)
      isplitl [H0]; · iexact H0
      isplitl [H1]; · iexact H1
      isplitl [H2]; · iexact H2
      isplitl [HS]; · iexact HS
      iintro ⟨H0, H1, H2, HS⟩
      isplitl [HS HR]
      · isplitl [HS]; · iexact HS
        iexact HR
      isplitl [Ho]; · iexact Ho
      isplitl [H0]; · iexact H0
      isplitl [H1]; · iexact H1
      iexists _; iexact H2
    · rw [PhiS4_castSucc V c t, PhiS4_pos V c _ _ hz]
      iintro ⟨⟨HS, HR⟩, Ho, ⟨%d0, H0⟩, ⟨%d1, H1⟩, ⟨%d2, H2⟩⟩
      iapply (run4_A c (grid4.coords t) _ _ _ _ _ _ _ _ ((hcond4_0 t).mpr h0) (fun h => h1 ((hcond4_1 t).mp h)) (iblk4 V c 0 t) (iblk4 V c 1 t) _ Set.univ _)
      isplitl [H0]; · iexact H0
      isplitl [H1]; · iexact H1
      isplitl [H2]; · iexact H2
      isplitl [HS]; · iexists _; iexact HS
      iintro ⟨H0, H1, H2, HS⟩
      isplitl [HS HR]
      · isplitl [HS]; · iexact HS
        iexact HR
      isplitl [Ho]; · iexact Ho
      isplitl [H0]; · iexact H0
      isplitl [H1]; · iexact H1
      iexists _; iexact H2
  · have hz : t.val ≠ 0 := fun hz => h0 (by omega)
    rw [PhiS4_castSucc V c t, PhiS4_pos V c _ _ hz]
    by_cases h1 : t.val % 5 = 4
    · rw [show (dat4 V c).leavesExact 2 t = owns (c : Thread nD τ) (ms4_2 t) fullShare ((dat4 V c).after 2 t) from by
        unfold Dat.leavesExact; rw [liveAt4_2 (grid4.coords t) ((hcond4_1 t).mpr h1)], after4_2, out_flush4 V c t h1]
      rw [scratch_step4 V c t, if_neg h0]
      iintro ⟨⟨HS, HR⟩, Ho, ⟨%d0, H0⟩, ⟨%d1, H1⟩, ⟨%d2, H2⟩⟩
      iapply (run4_C c (grid4.coords t) _ _ _ _ _ _ _ _ (fun h => h0 ((hcond4_0 t).mp h)) ((hcond4_1 t).mpr h1) (iblk4 V c 0 t) (iblk4 V c 1 t) _ Set.univ _)
      isplitl [H0]; · iexact H0
      isplitl [H1]; · iexact H1
      isplitl [H2]; · iexists _; iexact H2
      isplitl [HS]; · iexact HS
      iintro ⟨H0, H1, H2, HS⟩
      isplitl [HS HR]
      · isplitl [HS]; · iexact HS
        iexact HR
      isplitl [Ho]; · iexact Ho
      isplitl [H0]; · iexact H0
      isplitl [H1]; · iexact H1
      iexact H2
    · rw [Dat.leavesExact_idle (dat4 V c) 2 t (idleAt4_2 _ (fun h => h1 ((hcond4_1 t).mp h))) (noFlush4_2 t h1)]
      rw [scratch_step4 V c t, if_neg h0]
      iintro ⟨⟨HS, HR⟩, Ho, ⟨%d0, H0⟩, ⟨%d1, H1⟩, ⟨%d2, H2⟩⟩
      iapply (run4_B c (grid4.coords t) _ _ _ _ _ _ _ _ (fun h => h0 ((hcond4_0 t).mp h)) (fun h => h1 ((hcond4_1 t).mp h)) (iblk4 V c 0 t) (iblk4 V c 1 t) _ _ Set.univ _)
      isplitl [H0]; · iexact H0
      isplitl [H1]; · iexact H1
      isplitl [H2]; · iexact H2
      isplitl [HS]; · iexact HS
      iintro ⟨H0, H1, H2, HS⟩
      isplitl [HS HR]
      · isplitl [HS]; · iexact HS
        iexact HR
      isplitl [Ho]; · iexact Ho
      isplitl [H0]; · iexact H0
      isplitl [H1]; · iexact H1
      iexists _; iexact H2

/-- The library's body obligation, at every point. -/
theorem body_obligation4 (c : Dev nD) : BodyObligation (dat4 (F := F) V c) (defs₀ (F := F)) Variants.none () Set.univ := fun t => by
  rw [bigSep_W4, bigSep_W4]
  exact sound_body4 V c t

/-! ## The invariant at the region's two ends -/

/-- The scoped buffers no window stages are the invariant before the first point. -/
theorem Phi4_in (c : Dev nD) : (Pipeline.scopedRest (Ix := Unit) (Name := ℕ) (U := UR sig nD τ) (Lvl := ℕ) (Val := Elt F) spec4 c : sProp 𝕄) ⊢ (dat4 V c).Φ 0 := by
  rw [show (dat4 V c).Φ 0 = PhiS4 V c 0 (Nat.zero_le _) from rfl, PhiS4_zero V c 0 _ rfl]

/-- After the last point the invariant gives them back: the accumulator's named contents are forgotten. -/
theorem Phi4_out (c : Dev nD) : (dat4 V c).Φ (Fin.last cfg4.N) ⊢ (Pipeline.scopedRest (Ix := Unit) (Name := ℕ) (U := UR sig nD τ) (Lvl := ℕ) (Val := Elt F) spec4 c : sProp 𝕄) := by
  rw [show (dat4 V c).Φ (Fin.last cfg4.N) = PhiS4 V c (Fin.last cfg4.N).val (Nat.le_of_lt_succ (Fin.last cfg4.N).isLt) from rfl,
    PhiS4_pos V c _ _ (by rw [Fin.val_last]; have : cfg4.N = 5 := N_4; omega), scopedRest4_acc]
  iintro ⟨HS, HR⟩
  isplitl [HS]; · iexists _; iexact HS
  iexact HR

end Region

end Cert.Kernel.Reg4

end
-- ==== Proof.K.Reg5Runs.lean ====
/- Region 5 (custom_call 5, `cc5_kernel`, grid ![10, 20]): the segment sum's body in each of its three control
   cases. The body keeps an accumulator (its last operand, a whole scratch buffer of shape 1024x300): at the first edge
   block of a node block (grid coordinate 1 equal to 0) it stores zeros into it; at every point it adds the one-hot
   product of the point's two input blocks to it; at the last edge block (coordinate 1 equal to 19) it copies it to
   the output's staging buffer, which it otherwise does not touch. Each case is a triple whose post names the
   accumulator's new contents as the payload `k5_pay2` of the input blocks and the contents found (zeros after a
   reset). -/
import proofs.«411400_j9251359555630_1_alg».proof.Proof.Gen.Kernel.Launch
import proofs.«411400_j9251359555630_1_alg».proof.Proof.Gen.Kernel.Skeleton
import proofs.«411400_j9251359555630_1_alg».proof.Proof.Gen.Kernel.Points
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.Kernel.Reg5

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The branch conditions, in closed form over the grid -/

/-- The condition of the body's first `scf.if` (the accumulator's reset), from the grid coordinates. -/
abbrev cond5_0 (i : grid5.Coords) : Prop :=
  (Scalar.cmpi .ne (Scalar.extui (Scalar.cmpi .eq (BitVec.ofNat 32 (i 1).val) 0#32)) 0#32) = 1#1
/-- It holds at the points whose position is 0 modulo 20: the first edge block of each node block. -/
theorem hcond5_0 : ∀ t : Fin cfg5.N, cond5_0 (grid5.coords t) ↔ t.val % 20 = 0 :=
  (by decide +kernel : ∀ t : Fin grid5.N, cond5_0 (grid5.coords t) ↔ t.val % 20 = 0)

/-- The condition of the body's second `scf.if` (the copy to the output), from the grid coordinates. -/
abbrev cond5_1 (i : grid5.Coords) : Prop := k5_cond2 i = 1#1
/-- It holds at the points whose position is 19 modulo 20: the last edge block of each node block. -/
theorem hcond5_1 : ∀ t : Fin cfg5.N, cond5_1 (grid5.coords t) ↔ t.val % 20 = 19 :=
  (by decide +kernel : ∀ t : Fin grid5.N, cond5_1 (grid5.coords t) ↔ t.val % 20 = 19)

/-! ## Where the windows are idle -/

/-- The two input windows are never idle. -/
theorem liveAt5_0 (t : Fin cfg5.N) : cfg5.idle 0 (grid5.coords t) = false := rfl
theorem liveAt5_1 (t : Fin cfg5.N) : cfg5.idle 1 (grid5.coords t) = false := rfl
/-- The output window is idle exactly where the second condition fails: the body stores into it only under it. -/
theorem idleAt5_2 (i : grid5.Coords) (h : ¬cond5_1 i) : cfg5.idle 2 i = true := by
  show (!(k5_cond2 i == 1#1)) = true
  cases hb : (k5_cond2 i == 1#1) with
  | false => rfl
  | true => exact absurd (eq_of_beq hb) h
theorem liveAt5_2 (i : grid5.Coords) (h : cond5_1 i) : cfg5.idle 2 i = false := by
  show (!(k5_cond2 i == 1#1)) = false
  rw [show k5_cond2 i = 1#1 from h]; rfl
/-- Off the last edge block the output's block is not written back. -/
theorem noFlush5_2 (t : Fin cfg5.N) (h : ¬t.val % 20 = 19) : (cfg5.win 2).flush t = false :=
  Bool.eq_false_iff.mpr fun hf => h ((flush5_2 t).mp hf)

/-! ## Whole-buffer accesses -/

/-- The offsets of every access of the body: zero on both axes. -/
theorem hz5 : (![0, 0] : Fin 2 → Nat) = fun _ => 0 := funext fun a => by fin_cases a <;> rfl

/-- A store through the whole-shape rectangle at zero offsets, made last, is what the buffer then reads, whatever
    was stored before and whatever the buffer held. -/
theorem read_writes_whole5 {S : Shape} {e : EltTy} {sp : Space} (v : View sig .tc sp S e) (f : v.ty.Contents (Elt F))
    {off : Fin S.rank → Nat} (h : off = fun _ => 0) (inb : ∀ a, off a + S.size a ≤ S.size a)
    (w : S.Idx → Elt F e) (L : List (View.Piece (Elt F) S e)) :
    v.read (Elt F) (v.writes (Elt F) f ((⟨Rect.unit off S.size inb, w⟩ : View.Piece (Elt F) S e) :: L)) = w := by
  refine (View.read_writes_eq_canon v f _ fun y =>
    ⟨⟨Rect.unit off S.size inb, w⟩, List.mem_cons_self, View.mem_set_unit_zero h inb y⟩).trans ?_
  exact View.canon_cons_unit_zero h inb w L

/-! ## The body's triple, case by case -/

set_option maxHeartbeats 1000000 in
/-- CASE A, the first edge block of a node block (first condition true, second false): on whole memrefs, the inputs' at
    contents `x0`, `x1`, the output's at `xo`, the accumulator at anything, the body runs to the continuation holding
    the first three as they were and the accumulator at the payload of the input blocks over zeros. -/
theorem run5_A (c : Dev nD) (i : grid5.Coords)
    (arg2 : Memref sig .tc .vmem S8000x1 .i32) (harg2 : arg2.IsWhole)
    (arg3 : Memref sig .tc .vmem S8000x300 .bf16) (harg3 : arg3.IsWhole)
    (arg4 : Memref sig .tc .vmem S1024x300 .f32) (harg4 : arg4.IsWhole)
    (arg5 : Memref sig .tc .vmem S1024x300 .f32) (harg5 : arg5.IsWhole)
    (hc0 : cond5_0 i) (hc1 : ¬cond5_1 i)
    (x0 : Vec F S8000x1 .i32) (x1 : Vec F S8000x300 .bf16) (xo : Vec F S1024x300 .f32)
    (E : Set ℕ) (K : PUnit → sProp 𝕄) :
    iprop(owns (c : Thread nD τ) arg2 fullShare x0 ∗ owns (c : Thread nD τ) arg3 fullShare x1
        ∗ owns (c : Thread nD τ) arg4 fullShare xo ∗ (∃ d, owns (c : Thread nD τ) arg5 fullShare d)
        ∗ (iprop(owns (c : Thread nD τ) arg2 fullShare x0 ∗ owns (c : Thread nD τ) arg3 fullShare x1
            ∗ owns (c : Thread nD τ) arg4 fullShare xo
            ∗ owns (c : Thread nD τ) arg5 fullShare (k5_pay2 (F := F) i x0 x1 (k5_pay1 (F := F)))) -∗ K ⟨⟩))
      ⊢ wp frame (wpE (defs₀ (F := F)) Variants.none c none) E (cc5_kernel i arg2 harg2 arg3 harg3 arg4 harg4 arg5 harg5) K := by
  simp only [cc5_kernel_eq_skeleton]; unfold cc5_kernel_skel
  unfold owns
  iintro ⟨⟨%f0, %hf0, H0⟩, ⟨%f1, %hf1, H1⟩, ⟨%f2, %hf2, H2⟩, ⟨%ds, %fs, -, HS⟩, Hk⟩
  subst hf0; subst hf1; subst hf2
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact HS
  ipureintro
  sl_unfold_run_names
  rw [read_writes_whole5 _ _ hz5]
  simp only [View.readAt_eq_ld, View.ld_unit_zero (S := S8000x1) hz5, View.ld_unit_zero (S := S8000x300) hz5,
    View.readCov_unit_zero (S := S1024x300) _ hz5]

set_option maxHeartbeats 1000000 in
/-- CASE B, an edge block that is neither the first nor the last (both conditions false): the accumulator, found at
    `xs`, is left at the payload of the input blocks over `xs`; the output's buffer is not touched. -/
theorem run5_B (c : Dev nD) (i : grid5.Coords)
    (arg2 : Memref sig .tc .vmem S8000x1 .i32) (harg2 : arg2.IsWhole)
    (arg3 : Memref sig .tc .vmem S8000x300 .bf16) (harg3 : arg3.IsWhole)
    (arg4 : Memref sig .tc .vmem S1024x300 .f32) (harg4 : arg4.IsWhole)
    (arg5 : Memref sig .tc .vmem S1024x300 .f32) (harg5 : arg5.IsWhole)
    (hc0 : ¬cond5_0 i) (hc1 : ¬cond5_1 i)
    (x0 : Vec F S8000x1 .i32) (x1 : Vec F S8000x300 .bf16) (xo : Vec F S1024x300 .f32) (xs : Vec F S1024x300 .f32)
    (E : Set ℕ) (K : PUnit → sProp 𝕄) :
    iprop(owns (c : Thread nD τ) arg2 fullShare x0 ∗ owns (c : Thread nD τ) arg3 fullShare x1
        ∗ owns (c : Thread nD τ) arg4 fullShare xo ∗ owns (c : Thread nD τ) arg5 fullShare xs
        ∗ (iprop(owns (c : Thread nD τ) arg2 fullShare x0 ∗ owns (c : Thread nD τ) arg3 fullShare x1
            ∗ owns (c : Thread nD τ) arg4 fullShare xo
            ∗ owns (c : Thread nD τ) arg5 fullShare (k5_pay2 (F := F) i x0 x1 xs)) -∗ K ⟨⟩))
      ⊢ wp frame (wpE (defs₀ (F := F)) Variants.none c none) E (cc5_kernel i arg2 harg2 arg3 harg3 arg4 harg4 arg5 harg5) K := by
  simp only [cc5_kernel_eq_skeleton]; unfold cc5_kernel_skel
  unfold owns
  iintro ⟨⟨%f0, %hf0, H0⟩, ⟨%f1, %hf1, H1⟩, ⟨%f2, %hf2, H2⟩, ⟨%fs, %hfs, HS⟩, Hk⟩
  subst hf0; subst hf1; subst hf2; subst hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact HS
  ipureintro
  sl_unfold_run_names
  rw [read_writes_whole5 _ _ hz5]
  simp only [View.readAt_eq_ld, View.ld_unit_zero (S := S8000x1) hz5, View.ld_unit_zero (S := S8000x300) hz5,
    View.ld_unit_zero (S := S1024x300) hz5]

set_option maxHeartbeats 1000000 in
/-- CASE C, the last edge block of a node block (first condition false, second true): the accumulator, found at `xs`,
    is left at the payload of the input blocks over `xs`, and the output's buffer, found at anything, takes the same. -/
theorem run5_C (c : Dev nD) (i : grid5.Coords)
    (arg2 : Memref sig .tc .vmem S8000x1 .i32) (harg2 : arg2.IsWhole)
    (arg3 : Memref sig .tc .vmem S8000x300 .bf16) (harg3 : arg3.IsWhole)
    (arg4 : Memref sig .tc .vmem S1024x300 .f32) (harg4 : arg4.IsWhole)
    (arg5 : Memref sig .tc .vmem S1024x300 .f32) (harg5 : arg5.IsWhole)
    (hc0 : ¬cond5_0 i) (hc1 : cond5_1 i)
    (x0 : Vec F S8000x1 .i32) (x1 : Vec F S8000x300 .bf16) (xs : Vec F S1024x300 .f32)
    (E : Set ℕ) (K : PUnit → sProp 𝕄) :
    iprop(owns (c : Thread nD τ) arg2 fullShare x0 ∗ owns (c : Thread nD τ) arg3 fullShare x1
        ∗ (∃ d, owns (c : Thread nD τ) arg4 fullShare d) ∗ owns (c : Thread nD τ) arg5 fullShare xs
        ∗ (iprop(owns (c : Thread nD τ) arg2 fullShare x0 ∗ owns (c : Thread nD τ) arg3 fullShare x1
            ∗ owns (c : Thread nD τ) arg4 fullShare (k5_pay2 (F := F) i x0 x1 xs)
            ∗ owns (c : Thread nD τ) arg5 fullShare (k5_pay2 (F := F) i x0 x1 xs)) -∗ K ⟨⟩))
      ⊢ wp frame (wpE (defs₀ (F := F)) Variants.none c none) E (cc5_kernel i arg2 harg2 arg3 harg3 arg4 harg4 arg5 harg5) K := by
  simp only [cc5_kernel_eq_skeleton]; unfold cc5_kernel_skel
  unfold owns
  iintro ⟨⟨%f0, %hf0, H0⟩, ⟨%f1, %hf1, H1⟩, ⟨%d2, %f2, -, H2⟩, ⟨%fs, %hfs, HS⟩, Hk⟩
  subst hf0; subst hf1; subst hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    sl_unfold_run_names
    rw [read_writes_whole5 _ _ hz5]
    simp only [View.readAt_eq_ld, View.ld_unit_zero (S := S8000x1) hz5, View.ld_unit_zero (S := S8000x300) hz5,
      View.ld_unit_zero (S := S1024x300) hz5, View.readCov_unit_zero (S := S1024x300) _ hz5]
  iexists _; isplitr
  swap; · iexact HS
  ipureintro
  sl_unfold_run_names
  rw [read_writes_whole5 _ _ hz5]
  simp only [View.readAt_eq_ld, View.ld_unit_zero (S := S8000x1) hz5, View.ld_unit_zero (S := S8000x300) hz5,
    View.ld_unit_zero (S := S1024x300) hz5]

end Cert.Kernel.Reg5

end
-- ==== Proof.K.Reg5.lean ====
/- Region 5 (custom_call 5, `cc5_kernel`, grid ![10, 20]) at the buffer contents `V` the region is entered with: the
   windows' blocks, what the accumulator and the output's staging buffer hold after each grid point, the pipeline's proof
   data, and the body obligation. The accumulator is the kernel's own scratch buffer (shape 1024x300): the invariant
   hands it to the body out of the scoped buffers no window stages, at anything before the first point and afterwards at
   what the point before left in it. -/
import proofs.«411400_j9251359555630_1_alg».proof.Proof.K.Reg5Runs

set_option maxRecDepth 16384

noncomputable section

namespace Cert.Kernel.Reg5

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region
-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-! ## The memrefs the body is called with -/

/-- Each window's current staging memref at point `t`, as the pipeline passes it, and its wholeness. -/
abbrev ms5_0 (t : Fin cfg5.N) : Memref sig .tc .vmem S8000x1 .i32 := win5_0.stage (cfg5.slots t 0)
abbrev hs5_0 (t : Fin cfg5.N) : (ms5_0 t).IsWhole := hstage5_0 ((cfg5.slots t 0).cast nbuf5_0)
abbrev ms5_1 (t : Fin cfg5.N) : Memref sig .tc .vmem S8000x300 .bf16 := win5_1.stage (cfg5.slots t 1)
abbrev hs5_1 (t : Fin cfg5.N) : (ms5_1 t).IsWhole := hstage5_1 ((cfg5.slots t 1).cast nbuf5_1)
abbrev ms5_2 (t : Fin cfg5.N) : Memref sig .tc .vmem S1024x300 .f32 := win5_2.stage (cfg5.slots t 2)
abbrev hs5_2 (t : Fin cfg5.N) : (ms5_2 t).IsWhole := hstage5_2 ((cfg5.slots t 2).cast nbuf5_2)
/-- The accumulator: a whole scoped buffer of the kernel's own, passed beside the windows. -/
abbrev scM5_0 : Memref sig .tc .vmem S1024x300 .f32 := Memref.whole cc5_scratch0

/-! ## What the accumulator and the output hold after each point -/

/-- (output staging buffer, accumulator) after the body at position `n`. The accumulator is the payload `k5_pay2` of the
    point's two input blocks over zeros (`k5_pay1`) where `n % 20 = 0` and over what the point before left elsewhere.
    The output's buffer takes the accumulator where `n % 20 = 19`; elsewhere the body leaves it as found (the component
    there repeats the previous one, and at position 0 the accumulator: a placeholder nothing reads). -/
def outsAt5 (c : Dev nD) : (n : ℕ) → n < cfg5.N → Vec F S1024x300 .f32 × Vec F S1024x300 .f32
  | 0, hn =>
    (k5_pay2 (F := F) (grid5.coords ⟨0, hn⟩) (iblk5 V c 0 ⟨0, hn⟩) (iblk5 V c 1 ⟨0, hn⟩) (k5_pay1 (F := F)),
     k5_pay2 (F := F) (grid5.coords ⟨0, hn⟩) (iblk5 V c 0 ⟨0, hn⟩) (iblk5 V c 1 ⟨0, hn⟩) (k5_pay1 (F := F)))
  | n + 1, hn =>
    (if (n + 1) % 20 = 19 then
        k5_pay2 (F := F) (grid5.coords ⟨n + 1, hn⟩) (iblk5 V c 0 ⟨n + 1, hn⟩) (iblk5 V c 1 ⟨n + 1, hn⟩)
          (if (n + 1) % 20 = 0 then k5_pay1 (F := F) else (outsAt5 c n (Nat.lt_of_succ_lt hn)).2)
      else (outsAt5 c n (Nat.lt_of_succ_lt hn)).1,
     k5_pay2 (F := F) (grid5.coords ⟨n + 1, hn⟩) (iblk5 V c 0 ⟨n + 1, hn⟩) (iblk5 V c 1 ⟨n + 1, hn⟩)
       (if (n + 1) % 20 = 0 then k5_pay1 (F := F) else (outsAt5 c n (Nat.lt_of_succ_lt hn)).2))

/-- The accumulator's step: the payload of the point's blocks over zeros at the first edge block of a node block, over
    the previous accumulator elsewhere. -/
theorem scratch_step5 (c : Dev nD) (t : Fin cfg5.N) :
    (outsAt5 V c t.val t.isLt).2 = k5_pay2 (F := F) (grid5.coords t) (iblk5 V c 0 t) (iblk5 V c 1 t)
      (if t.val % 20 = 0 then k5_pay1 (F := F) else (outsAt5 V c (t.val - 1) (Nat.lt_of_le_of_lt (Nat.sub_le _ _) t.isLt)).2) := by
  obtain ⟨n, hn⟩ := t
  cases n with
  | zero => exact congrArg (k5_pay2 (F := F) (grid5.coords ⟨0, hn⟩) (iblk5 V c 0 ⟨0, hn⟩) (iblk5 V c 1 ⟨0, hn⟩)) (if_pos (Nat.zero_mod 20)).symm
  | succ n => rfl

/-- At the last edge block of a node block the output's buffer is the accumulator. -/
theorem out_flush5 (c : Dev nD) (t : Fin cfg5.N) (h : t.val % 20 = 19) :
    (outsAt5 V c t.val t.isLt).1 = (outsAt5 V c t.val t.isLt).2 := by
  obtain ⟨n, hn⟩ := t
  cases n with
  | zero => rfl
  | succ n => exact if_pos h

/-! ## The invariant -/

/-- The region invariant before position `n`: before the first point the scoped buffers no window stages, each at
    anything (the accumulator among them); afterwards the accumulator at what the point before left in it, beside the
    others, unopened. -/
def PhiS5 (c : Dev nD) : (n : ℕ) → n ≤ cfg5.N → sProp 𝕄
  | 0, _ => Pipeline.scopedRest (Ix := Unit) (Name := ℕ) (U := UR sig nD τ) (Lvl := ℕ) (Val := Elt F) spec5 c
  | n + 1, hn => iprop(owns (c : Thread nD τ) scM5_0 fullShare ((outsAt5 V c n hn).2) ∗ Pipeline.scopedRestBut (Ix := Unit) (Name := ℕ) (U := UR sig nD τ) (Lvl := ℕ) (Val := Elt F) spec5 c [cc5_scratch0])

theorem PhiS5_zero (c : Dev nD) (n : ℕ) (h : n ≤ cfg5.N) (hz : n = 0) : PhiS5 V c n h = Pipeline.scopedRest (Ix := Unit) (Name := ℕ) (U := UR sig nD τ) (Lvl := ℕ) (Val := Elt F) spec5 c := by
  subst hz; rfl

theorem PhiS5_succ (c : Dev nD) (n : ℕ) (hn : n < cfg5.N) :
    PhiS5 V c (n + 1) hn = iprop(owns (c : Thread nD τ) scM5_0 fullShare ((outsAt5 V c n hn).2) ∗ Pipeline.scopedRestBut (Ix := Unit) (Name := ℕ) (U := UR sig nD τ) (Lvl := ℕ) (Val := Elt F) spec5 c [cc5_scratch0]) := rfl

theorem PhiS5_pos (c : Dev nD) (n : ℕ) (h : n ≤ cfg5.N) (hz : n ≠ 0) :
    PhiS5 V c n h = iprop(owns (c : Thread nD τ) scM5_0 fullShare ((outsAt5 V c (n - 1) (by omega)).2) ∗ Pipeline.scopedRestBut (Ix := Unit) (Name := ℕ) (U := UR sig nD τ) (Lvl := ℕ) (Val := Elt F) spec5 c [cc5_scratch0]) := by
  cases n with
  | zero => exact absurd rfl hz
  | succ n => rfl

/-- The scoped buffers no window stages, with the accumulator taken out as a memref owned at some contents. -/
theorem scopedRest5_acc (c : Dev nD) :
    (Pipeline.scopedRest (Ix := Unit) (Name := ℕ) (U := UR sig nD τ) (Lvl := ℕ) (Val := Elt F) spec5 c : sProp 𝕄)
      = iprop(iprop(∃ d, owns (c : Thread nD τ) scM5_0 fullShare d) ∗ Pipeline.scopedRestBut (Ix := Unit) (Name := ℕ) (U := UR sig nD τ) (Lvl := ℕ) (Val := Elt F) spec5 c [cc5_scratch0]) := by
  rw [scopedRest5_split]; simp only [scM5_0, owns_whole]; try rfl

/-! ## The pipeline's proof data -/

/-- The proof data of pipeline 5 on core `c`: the arrays as the region finds them; after the body at point `t` each
    input's buffer at its block and the output's at `outsAt5`'s first component; the invariant `PhiS5`; nothing owed;
    full shares. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => (outsAt5 V c t.val t.isLt).1
  Φ t := PhiS5 V c t.val (Nat.le_of_lt_succ t.isLt)
  q _ := fullShare
  owed _ := 0

/-- The proof data's arrays are the region-entry contents. -/
theorem A_eq5 (c : Dev nD) (w : Fin cfg5.W) : (dat5 V c).A w = V c (Pipeline.arrRef spec5 w) := by
  dsimp only [dat5]

/-- What the body leaves, window by window. -/
theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = (outsAt5 V c t.val t.isLt).1 := by dsimp only [dat5]

/-- The invariant at a point's start, restated at the point's position. -/
theorem PhiS5_castSucc (c : Dev nD) (t : Fin cfg5.N) :
    (dat5 V c).Φ t.castSucc = PhiS5 V c t.val (Nat.le_of_lt t.isLt) := by
  dsimp only [dat5]; simp only [Fin.coe_castSucc]

/-- Each input's current staging buffer holds its block at every point: both are fetched at every point, and neither
    window is cut, so the fetch fills the whole buffer with the array's block. -/
theorem before5_0 (c : Dev nD) (t : Fin cfg5.N) (d) : (dat5 V c).before 0 t d = iblk5 V c 0 t := by
  unfold Dat.before; rw [fetch5_0 t, if_pos rfl]; unfold Dat.fetched Dat.blockOf iblk5; rw [A_eq5]; rfl
theorem before5_1 (c : Dev nD) (t : Fin cfg5.N) (d) : (dat5 V c).before 1 t d = iblk5 V c 1 t := by
  unfold Dat.before; rw [fetch5_1 t, if_pos rfl]; unfold Dat.fetched Dat.blockOf iblk5; rw [A_eq5]; rfl

/-- The inputs' buffers are handed back at their blocks (the windows are never idle). -/
theorem leaves5_0 (c : Dev nD) (t : Fin cfg5.N) :
    (dat5 V c).leavesExact 0 t = owns (c : Thread nD τ) (ms5_0 t) fullShare (iblk5 V c 0 t) := by
  unfold Dat.leavesExact; rw [liveAt5_0 t, after5_0]
theorem leaves5_1 (c : Dev nD) (t : Fin cfg5.N) :
    (dat5 V c).leavesExact 1 t = owns (c : Thread nD τ) (ms5_1 t) fullShare (iblk5 V c 1 t) := by
  unfold Dat.leavesExact; rw [liveAt5_1 t, after5_1]

/-! ## The body obligation, at a generic point -/

/-- What the body is called with at point `t`, the windows one by one, -/
def bodyPre5 (c : Dev nD) (t : Fin cfg5.N) : sProp 𝕄 :=
  iprop((dat5 V c).Φ t.castSucc ∗ (dat5 V c).owesAt () t.castSucc
    ∗ (∃ d, owns (c : Thread nD τ) (ms5_0 t) fullShare ((dat5 V c).before 0 t d))
    ∗ (∃ d, owns (c : Thread nD τ) (ms5_1 t) fullShare ((dat5 V c).before 1 t d))
    ∗ (∃ d, owns (c : Thread nD τ) (ms5_2 t) fullShare ((dat5 V c).before 2 t d)))

/-- and what it returns. -/
def bodyPost5 (c : Dev nD) (t : Fin cfg5.N) : sProp 𝕄 :=
  iprop((dat5 V c).Φ t.succ ∗ (dat5 V c).owesAt () t.succ
    ∗ (dat5 V c).leavesExact 0 t
    ∗ (dat5 V c).leavesExact 1 t
    ∗ (dat5 V c).leavesExact 2 t)

set_option maxHeartbeats 4800000 in
/-- The body at any point. The inputs' memrefs hold their blocks; the position modulo 20 says which case the point is
    in. The invariant hands the body the accumulator (at anything before the first point, else at what the point before
    left) and takes it back at this point's contents (`scratch_step5`). Off the last edge block the output's buffer goes
    back as found; at it, the buffer takes the accumulator (`out_flush5`). The core owes nothing throughout. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1]
  rw [show (dat5 V c).owesAt () t.succ = (dat5 V c).owesAt () t.castSucc from rfl]
  rw [show (dat5 V c).Φ t.succ = PhiS5 V c (t.val + 1) t.isLt from rfl, PhiS5_succ]
  rw [leaves5_0, leaves5_1]
  have hN : t.val < 200 := lt_of_lt_of_eq t.isLt (show cfg5.N = 200 from N_5)
  by_cases h0 : t.val % 20 = 0
  · have h1 : ¬t.val % 20 = 19 := by omega
    rw [Dat.leavesExact_idle (dat5 V c) 2 t (idleAt5_2 _ (fun h => h1 ((hcond5_1 t).mp h))) (noFlush5_2 t h1)]
    rw [scratch_step5 V c t, if_pos h0]
    by_cases hz : t.val = 0
    · rw [PhiS5_castSucc V c t, PhiS5_zero V c _ _ hz, scopedRest5_acc]
      iintro ⟨⟨HS, HR⟩, Ho, ⟨%d0, H0⟩, ⟨%d1, H1⟩, ⟨%d2, H2⟩⟩
      iapply (run5_A c (grid5.coords t) _ _ _ _ _ _ _ _ ((hcond5_0 t).mpr h0) (fun h => h1 ((hcond5_1 t).mp h)) (iblk5 V c 0 t) (iblk5 V c 1 t) _ Set.univ _)
      isplitl [H0]; · iexact H0
      isplitl [H1]; · iexact H1
      isplitl [H2]; · iexact H2
      isplitl [HS]; · iexact HS
      iintro ⟨H0, H1, H2, HS⟩
      isplitl [HS HR]
      · isplitl [HS]; · iexact HS
        iexact HR
      isplitl [Ho]; · iexact Ho
      isplitl [H0]; · iexact H0
      isplitl [H1]; · iexact H1
      iexists _; iexact H2
    · rw [PhiS5_castSucc V c t, PhiS5_pos V c _ _ hz]
      iintro ⟨⟨HS, HR⟩, Ho, ⟨%d0, H0⟩, ⟨%d1, H1⟩, ⟨%d2, H2⟩⟩
      iapply (run5_A c (grid5.coords t) _ _ _ _ _ _ _ _ ((hcond5_0 t).mpr h0) (fun h => h1 ((hcond5_1 t).mp h)) (iblk5 V c 0 t) (iblk5 V c 1 t) _ Set.univ _)
      isplitl [H0]; · iexact H0
      isplitl [H1]; · iexact H1
      isplitl [H2]; · iexact H2
      isplitl [HS]; · iexists _; iexact HS
      iintro ⟨H0, H1, H2, HS⟩
      isplitl [HS HR]
      · isplitl [HS]; · iexact HS
        iexact HR
      isplitl [Ho]; · iexact Ho
      isplitl [H0]; · iexact H0
      isplitl [H1]; · iexact H1
      iexists _; iexact H2
  · have hz : t.val ≠ 0 := fun hz => h0 (by omega)
    rw [PhiS5_castSucc V c t, PhiS5_pos V c _ _ hz]
    by_cases h1 : t.val % 20 = 19
    · rw [show (dat5 V c).leavesExact 2 t = owns (c : Thread nD τ) (ms5_2 t) fullShare ((dat5 V c).after 2 t) from by
        unfold Dat.leavesExact; rw [liveAt5_2 (grid5.coords t) ((hcond5_1 t).mpr h1)], after5_2, out_flush5 V c t h1]
      rw [scratch_step5 V c t, if_neg h0]
      iintro ⟨⟨HS, HR⟩, Ho, ⟨%d0, H0⟩, ⟨%d1, H1⟩, ⟨%d2, H2⟩⟩
      iapply (run5_C c (grid5.coords t) _ _ _ _ _ _ _ _ (fun h => h0 ((hcond5_0 t).mp h)) ((hcond5_1 t).mpr h1) (iblk5 V c 0 t) (iblk5 V c 1 t) _ Set.univ _)
      isplitl [H0]; · iexact H0
      isplitl [H1]; · iexact H1
      isplitl [H2]; · iexists _; iexact H2
      isplitl [HS]; · iexact HS
      iintro ⟨H0, H1, H2, HS⟩
      isplitl [HS HR]
      · isplitl [HS]; · iexact HS
        iexact HR
      isplitl [Ho]; · iexact Ho
      isplitl [H0]; · iexact H0
      isplitl [H1]; · iexact H1
      iexact H2
    · rw [Dat.leavesExact_idle (dat5 V c) 2 t (idleAt5_2 _ (fun h => h1 ((hcond5_1 t).mp h))) (noFlush5_2 t h1)]
      rw [scratch_step5 V c t, if_neg h0]
      iintro ⟨⟨HS, HR⟩, Ho, ⟨%d0, H0⟩, ⟨%d1, H1⟩, ⟨%d2, H2⟩⟩
      iapply (run5_B c (grid5.coords t) _ _ _ _ _ _ _ _ (fun h => h0 ((hcond5_0 t).mp h)) (fun h => h1 ((hcond5_1 t).mp h)) (iblk5 V c 0 t) (iblk5 V c 1 t) _ _ Set.univ _)
      isplitl [H0]; · iexact H0
      isplitl [H1]; · iexact H1
      isplitl [H2]; · iexact H2
      isplitl [HS]; · iexact HS
      iintro ⟨H0, H1, H2, HS⟩
      isplitl [HS HR]
      · isplitl [HS]; · iexact HS
        iexact HR
      isplitl [Ho]; · iexact Ho
      isplitl [H0]; · iexact H0
      isplitl [H1]; · iexact H1
      iexists _; iexact H2

/-- The library's body obligation, at every point. -/
theorem body_obligation5 (c : Dev nD) : BodyObligation (dat5 (F := F) V c) (defs₀ (F := F)) Variants.none () Set.univ := fun t => by
  rw [bigSep_W5, bigSep_W5]
  exact sound_body5 V c t

/-! ## The invariant at the region's two ends -/

/-- The scoped buffers no window stages are the invariant before the first point. -/
theorem Phi5_in (c : Dev nD) : (Pipeline.scopedRest (Ix := Unit) (Name := ℕ) (U := UR sig nD τ) (Lvl := ℕ) (Val := Elt F) spec5 c : sProp 𝕄) ⊢ (dat5 V c).Φ 0 := by
  rw [show (dat5 V c).Φ 0 = PhiS5 V c 0 (Nat.zero_le _) from rfl, PhiS5_zero V c 0 _ rfl]

/-- After the last point the invariant gives them back: the accumulator's named contents are forgotten. -/
theorem Phi5_out (c : Dev nD) : (dat5 V c).Φ (Fin.last cfg5.N) ⊢ (Pipeline.scopedRest (Ix := Unit) (Name := ℕ) (U := UR sig nD τ) (Lvl := ℕ) (Val := Elt F) spec5 c : sProp 𝕄) := by
  rw [show (dat5 V c).Φ (Fin.last cfg5.N) = PhiS5 V c (Fin.last cfg5.N).val (Nat.le_of_lt_succ (Fin.last cfg5.N).isLt) from rfl,
    PhiS5_pos V c _ _ (by rw [Fin.val_last]; have : cfg5.N = 200 := N_5; omega), scopedRest5_acc]
  iintro ⟨HS, HR⟩
  isplitl [HS]; · iexists _; iexact HS
  iexact HR

end Region

end Cert.Kernel.Reg5

end
-- ==== Proof.K.Reg6Runs.lean ====
/- Region 6 (custom_call 6, `cc6_kernel`, grid ![1, 5]): the segment sum's body in each of its three control
   cases. The body keeps an accumulator (its last operand, a whole scratch buffer of shape 1024x300): at the first edge
   block of a node block (grid coordinate 1 equal to 0) it stores zeros into it; at every point it adds the one-hot
   product of the point's two input blocks to it; at the last edge block (coordinate 1 equal to 4) it copies it to
   the output's staging buffer, which it otherwise does not touch. Each case is a triple whose post names the
   accumulator's new contents as the payload `k6_pay2` of the input blocks and the contents found (zeros after a
   reset). -/
import proofs.«411400_j9251359555630_1_alg».proof.Proof.Gen.Kernel.Launch
import proofs.«411400_j9251359555630_1_alg».proof.Proof.Gen.Kernel.Skeleton
import proofs.«411400_j9251359555630_1_alg».proof.Proof.Gen.Kernel.Points
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.Kernel.Reg6

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The branch conditions, in closed form over the grid -/

/-- The condition of the body's first `scf.if` (the accumulator's reset), from the grid coordinates. -/
abbrev cond6_0 (i : grid6.Coords) : Prop :=
  (Scalar.cmpi .ne (Scalar.extui (Scalar.cmpi .eq (BitVec.ofNat 32 (i 1).val) 0#32)) 0#32) = 1#1
/-- It holds at the points whose position is 0 modulo 5: the first edge block of each node block. -/
theorem hcond6_0 : ∀ t : Fin cfg6.N, cond6_0 (grid6.coords t) ↔ t.val % 5 = 0 :=
  (by decide +kernel : ∀ t : Fin grid6.N, cond6_0 (grid6.coords t) ↔ t.val % 5 = 0)

/-- The condition of the body's second `scf.if` (the copy to the output), from the grid coordinates. -/
abbrev cond6_1 (i : grid6.Coords) : Prop := k6_cond2 i = 1#1
/-- It holds at the points whose position is 4 modulo 5: the last edge block of each node block. -/
theorem hcond6_1 : ∀ t : Fin cfg6.N, cond6_1 (grid6.coords t) ↔ t.val % 5 = 4 :=
  (by decide +kernel : ∀ t : Fin grid6.N, cond6_1 (grid6.coords t) ↔ t.val % 5 = 4)

/-! ## Where the windows are idle -/

/-- The two input windows are never idle. -/
theorem liveAt6_0 (t : Fin cfg6.N) : cfg6.idle 0 (grid6.coords t) = false := rfl
theorem liveAt6_1 (t : Fin cfg6.N) : cfg6.idle 1 (grid6.coords t) = false := rfl
/-- The output window is idle exactly where the second condition fails: the body stores into it only under it. -/
theorem idleAt6_2 (i : grid6.Coords) (h : ¬cond6_1 i) : cfg6.idle 2 i = true := by
  show (!(k6_cond2 i == 1#1)) = true
  cases hb : (k6_cond2 i == 1#1) with
  | false => rfl
  | true => exact absurd (eq_of_beq hb) h
theorem liveAt6_2 (i : grid6.Coords) (h : cond6_1 i) : cfg6.idle 2 i = false := by
  show (!(k6_cond2 i == 1#1)) = false
  rw [show k6_cond2 i = 1#1 from h]; rfl
/-- Off the last edge block the output's block is not written back. -/
theorem noFlush6_2 (t : Fin cfg6.N) (h : ¬t.val % 5 = 4) : (cfg6.win 2).flush t = false :=
  Bool.eq_false_iff.mpr fun hf => h ((flush6_2 t).mp hf)

/-! ## Whole-buffer accesses -/

/-- The offsets of every access of the body: zero on both axes. -/
theorem hz6 : (![0, 0] : Fin 2 → Nat) = fun _ => 0 := funext fun a => by fin_cases a <;> rfl

/-- A store through the whole-shape rectangle at zero offsets, made last, is what the buffer then reads, whatever
    was stored before and whatever the buffer held. -/
theorem read_writes_whole6 {S : Shape} {e : EltTy} {sp : Space} (v : View sig .tc sp S e) (f : v.ty.Contents (Elt F))
    {off : Fin S.rank → Nat} (h : off = fun _ => 0) (inb : ∀ a, off a + S.size a ≤ S.size a)
    (w : S.Idx → Elt F e) (L : List (View.Piece (Elt F) S e)) :
    v.read (Elt F) (v.writes (Elt F) f ((⟨Rect.unit off S.size inb, w⟩ : View.Piece (Elt F) S e) :: L)) = w := by
  refine (View.read_writes_eq_canon v f _ fun y =>
    ⟨⟨Rect.unit off S.size inb, w⟩, List.mem_cons_self, View.mem_set_unit_zero h inb y⟩).trans ?_
  exact View.canon_cons_unit_zero h inb w L

/-! ## The body's triple, case by case -/

set_option maxHeartbeats 1000000 in
/-- CASE A, the first edge block of a node block (first condition true, second false): on whole memrefs, the inputs' at
    contents `x0`, `x1`, the output's at `xo`, the accumulator at anything, the body runs to the continuation holding
    the first three as they were and the accumulator at the payload of the input blocks over zeros. -/
theorem run6_A (c : Dev nD) (i : grid6.Coords)
    (arg2 : Memref sig .tc .vmem S2000x1 .i32) (harg2 : arg2.IsWhole)
    (arg3 : Memref sig .tc .vmem S2000x300 .bf16) (harg3 : arg3.IsWhole)
    (arg4 : Memref sig .tc .vmem S64x300 .f32) (harg4 : arg4.IsWhole)
    (arg5 : Memref sig .tc .vmem S64x300 .f32) (harg5 : arg5.IsWhole)
    (hc0 : cond6_0 i) (hc1 : ¬cond6_1 i)
    (x0 : Vec F S2000x1 .i32) (x1 : Vec F S2000x300 .bf16) (xo : Vec F S64x300 .f32)
    (E : Set ℕ) (K : PUnit → sProp 𝕄) :
    iprop(owns (c : Thread nD τ) arg2 fullShare x0 ∗ owns (c : Thread nD τ) arg3 fullShare x1
        ∗ owns (c : Thread nD τ) arg4 fullShare xo ∗ (∃ d, owns (c : Thread nD τ) arg5 fullShare d)
        ∗ (iprop(owns (c : Thread nD τ) arg2 fullShare x0 ∗ owns (c : Thread nD τ) arg3 fullShare x1
            ∗ owns (c : Thread nD τ) arg4 fullShare xo
            ∗ owns (c : Thread nD τ) arg5 fullShare (k6_pay2 (F := F) i x0 x1 (k6_pay1 (F := F)))) -∗ K ⟨⟩))
      ⊢ wp frame (wpE (defs₀ (F := F)) Variants.none c none) E (cc6_kernel i arg2 harg2 arg3 harg3 arg4 harg4 arg5 harg5) K := by
  simp only [cc6_kernel_eq_skeleton]; unfold cc6_kernel_skel
  unfold owns
  iintro ⟨⟨%f0, %hf0, H0⟩, ⟨%f1, %hf1, H1⟩, ⟨%f2, %hf2, H2⟩, ⟨%ds, %fs, -, HS⟩, Hk⟩
  subst hf0; subst hf1; subst hf2
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact HS
  ipureintro
  sl_unfold_run_names
  rw [read_writes_whole6 _ _ hz6]
  simp only [View.readAt_eq_ld, View.ld_unit_zero (S := S2000x1) hz6, View.ld_unit_zero (S := S2000x300) hz6,
    View.readCov_unit_zero (S := S64x300) _ hz6]

set_option maxHeartbeats 1000000 in
/-- CASE B, an edge block that is neither the first nor the last (both conditions false): the accumulator, found at
    `xs`, is left at the payload of the input blocks over `xs`; the output's buffer is not touched. -/
theorem run6_B (c : Dev nD) (i : grid6.Coords)
    (arg2 : Memref sig .tc .vmem S2000x1 .i32) (harg2 : arg2.IsWhole)
    (arg3 : Memref sig .tc .vmem S2000x300 .bf16) (harg3 : arg3.IsWhole)
    (arg4 : Memref sig .tc .vmem S64x300 .f32) (harg4 : arg4.IsWhole)
    (arg5 : Memref sig .tc .vmem S64x300 .f32) (harg5 : arg5.IsWhole)
    (hc0 : ¬cond6_0 i) (hc1 : ¬cond6_1 i)
    (x0 : Vec F S2000x1 .i32) (x1 : Vec F S2000x300 .bf16) (xo : Vec F S64x300 .f32) (xs : Vec F S64x300 .f32)
    (E : Set ℕ) (K : PUnit → sProp 𝕄) :
    iprop(owns (c : Thread nD τ) arg2 fullShare x0 ∗ owns (c : Thread nD τ) arg3 fullShare x1
        ∗ owns (c : Thread nD τ) arg4 fullShare xo ∗ owns (c : Thread nD τ) arg5 fullShare xs
        ∗ (iprop(owns (c : Thread nD τ) arg2 fullShare x0 ∗ owns (c : Thread nD τ) arg3 fullShare x1
            ∗ owns (c : Thread nD τ) arg4 fullShare xo
            ∗ owns (c : Thread nD τ) arg5 fullShare (k6_pay2 (F := F) i x0 x1 xs)) -∗ K ⟨⟩))
      ⊢ wp frame (wpE (defs₀ (F := F)) Variants.none c none) E (cc6_kernel i arg2 harg2 arg3 harg3 arg4 harg4 arg5 harg5) K := by
  simp only [cc6_kernel_eq_skeleton]; unfold cc6_kernel_skel
  unfold owns
  iintro ⟨⟨%f0, %hf0, H0⟩, ⟨%f1, %hf1, H1⟩, ⟨%f2, %hf2, H2⟩, ⟨%fs, %hfs, HS⟩, Hk⟩
  subst hf0; subst hf1; subst hf2; subst hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact HS
  ipureintro
  sl_unfold_run_names
  rw [read_writes_whole6 _ _ hz6]
  simp only [View.readAt_eq_ld, View.ld_unit_zero (S := S2000x1) hz6, View.ld_unit_zero (S := S2000x300) hz6,
    View.ld_unit_zero (S := S64x300) hz6]

set_option maxHeartbeats 1000000 in
/-- CASE C, the last edge block of a node block (first condition false, second true): the accumulator, found at `xs`,
    is left at the payload of the input blocks over `xs`, and the output's buffer, found at anything, takes the same. -/
theorem run6_C (c : Dev nD) (i : grid6.Coords)
    (arg2 : Memref sig .tc .vmem S2000x1 .i32) (harg2 : arg2.IsWhole)
    (arg3 : Memref sig .tc .vmem S2000x300 .bf16) (harg3 : arg3.IsWhole)
    (arg4 : Memref sig .tc .vmem S64x300 .f32) (harg4 : arg4.IsWhole)
    (arg5 : Memref sig .tc .vmem S64x300 .f32) (harg5 : arg5.IsWhole)
    (hc0 : ¬cond6_0 i) (hc1 : cond6_1 i)
    (x0 : Vec F S2000x1 .i32) (x1 : Vec F S2000x300 .bf16) (xs : Vec F S64x300 .f32)
    (E : Set ℕ) (K : PUnit → sProp 𝕄) :
    iprop(owns (c : Thread nD τ) arg2 fullShare x0 ∗ owns (c : Thread nD τ) arg3 fullShare x1
        ∗ (∃ d, owns (c : Thread nD τ) arg4 fullShare d) ∗ owns (c : Thread nD τ) arg5 fullShare xs
        ∗ (iprop(owns (c : Thread nD τ) arg2 fullShare x0 ∗ owns (c : Thread nD τ) arg3 fullShare x1
            ∗ owns (c : Thread nD τ) arg4 fullShare (k6_pay2 (F := F) i x0 x1 xs)
            ∗ owns (c : Thread nD τ) arg5 fullShare (k6_pay2 (F := F) i x0 x1 xs)) -∗ K ⟨⟩))
      ⊢ wp frame (wpE (defs₀ (F := F)) Variants.none c none) E (cc6_kernel i arg2 harg2 arg3 harg3 arg4 harg4 arg5 harg5) K := by
  simp only [cc6_kernel_eq_skeleton]; unfold cc6_kernel_skel
  unfold owns
  iintro ⟨⟨%f0, %hf0, H0⟩, ⟨%f1, %hf1, H1⟩, ⟨%d2, %f2, -, H2⟩, ⟨%fs, %hfs, HS⟩, Hk⟩
  subst hf0; subst hf1; subst hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    sl_unfold_run_names
    rw [read_writes_whole6 _ _ hz6]
    simp only [View.readAt_eq_ld, View.ld_unit_zero (S := S2000x1) hz6, View.ld_unit_zero (S := S2000x300) hz6,
      View.ld_unit_zero (S := S64x300) hz6, View.readCov_unit_zero (S := S64x300) _ hz6]
  iexists _; isplitr
  swap; · iexact HS
  ipureintro
  sl_unfold_run_names
  rw [read_writes_whole6 _ _ hz6]
  simp only [View.readAt_eq_ld, View.ld_unit_zero (S := S2000x1) hz6, View.ld_unit_zero (S := S2000x300) hz6,
    View.ld_unit_zero (S := S64x300) hz6]

end Cert.Kernel.Reg6

end
-- ==== Proof.K.Reg6.lean ====
/- Region 6 (custom_call 6, `cc6_kernel`, grid ![1, 5]) at the buffer contents `V` the region is entered with: the
   windows' blocks, what the accumulator and the output's staging buffer hold after each grid point, the pipeline's proof
   data, and the body obligation. The accumulator is the kernel's own scratch buffer (shape 1024x300): the invariant
   hands it to the body out of the scoped buffers no window stages, at anything before the first point and afterwards at
   what the point before left in it. -/
import proofs.«411400_j9251359555630_1_alg».proof.Proof.K.Reg6Runs

set_option maxRecDepth 16384

noncomputable section

namespace Cert.Kernel.Reg6

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region
-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-! ## The memrefs the body is called with -/

/-- Each window's current staging memref at point `t`, as the pipeline passes it, and its wholeness. -/
abbrev ms6_0 (t : Fin cfg6.N) : Memref sig .tc .vmem S2000x1 .i32 := win6_0.stage (cfg6.slots t 0)
abbrev hs6_0 (t : Fin cfg6.N) : (ms6_0 t).IsWhole := hstage6_0 ((cfg6.slots t 0).cast nbuf6_0)
abbrev ms6_1 (t : Fin cfg6.N) : Memref sig .tc .vmem S2000x300 .bf16 := win6_1.stage (cfg6.slots t 1)
abbrev hs6_1 (t : Fin cfg6.N) : (ms6_1 t).IsWhole := hstage6_1 ((cfg6.slots t 1).cast nbuf6_1)
abbrev ms6_2 (t : Fin cfg6.N) : Memref sig .tc .vmem S64x300 .f32 := win6_2.stage (cfg6.slots t 2)
abbrev hs6_2 (t : Fin cfg6.N) : (ms6_2 t).IsWhole := hstage6_2 ((cfg6.slots t 2).cast nbuf6_2)
/-- The accumulator: a whole scoped buffer of the kernel's own, passed beside the windows. -/
abbrev scM6_0 : Memref sig .tc .vmem S64x300 .f32 := Memref.whole cc6_scratch0

/-! ## What the accumulator and the output hold after each point -/

/-- (output staging buffer, accumulator) after the body at position `n`. The accumulator is the payload `k6_pay2` of the
    point's two input blocks over zeros (`k6_pay1`) where `n % 5 = 0` and over what the point before left elsewhere.
    The output's buffer takes the accumulator where `n % 5 = 4`; elsewhere the body leaves it as found (the component
    there repeats the previous one, and at position 0 the accumulator: a placeholder nothing reads). -/
def outsAt6 (c : Dev nD) : (n : ℕ) → n < cfg6.N → Vec F S64x300 .f32 × Vec F S64x300 .f32
  | 0, hn =>
    (k6_pay2 (F := F) (grid6.coords ⟨0, hn⟩) (iblk6 V c 0 ⟨0, hn⟩) (iblk6 V c 1 ⟨0, hn⟩) (k6_pay1 (F := F)),
     k6_pay2 (F := F) (grid6.coords ⟨0, hn⟩) (iblk6 V c 0 ⟨0, hn⟩) (iblk6 V c 1 ⟨0, hn⟩) (k6_pay1 (F := F)))
  | n + 1, hn =>
    (if (n + 1) % 5 = 4 then
        k6_pay2 (F := F) (grid6.coords ⟨n + 1, hn⟩) (iblk6 V c 0 ⟨n + 1, hn⟩) (iblk6 V c 1 ⟨n + 1, hn⟩)
          (if (n + 1) % 5 = 0 then k6_pay1 (F := F) else (outsAt6 c n (Nat.lt_of_succ_lt hn)).2)
      else (outsAt6 c n (Nat.lt_of_succ_lt hn)).1,
     k6_pay2 (F := F) (grid6.coords ⟨n + 1, hn⟩) (iblk6 V c 0 ⟨n + 1, hn⟩) (iblk6 V c 1 ⟨n + 1, hn⟩)
       (if (n + 1) % 5 = 0 then k6_pay1 (F := F) else (outsAt6 c n (Nat.lt_of_succ_lt hn)).2))

/-- The accumulator's step: the payload of the point's blocks over zeros at the first edge block of a node block, over
    the previous accumulator elsewhere. -/
theorem scratch_step6 (c : Dev nD) (t : Fin cfg6.N) :
    (outsAt6 V c t.val t.isLt).2 = k6_pay2 (F := F) (grid6.coords t) (iblk6 V c 0 t) (iblk6 V c 1 t)
      (if t.val % 5 = 0 then k6_pay1 (F := F) else (outsAt6 V c (t.val - 1) (Nat.lt_of_le_of_lt (Nat.sub_le _ _) t.isLt)).2) := by
  obtain ⟨n, hn⟩ := t
  cases n with
  | zero => exact congrArg (k6_pay2 (F := F) (grid6.coords ⟨0, hn⟩) (iblk6 V c 0 ⟨0, hn⟩) (iblk6 V c 1 ⟨0, hn⟩)) (if_pos (Nat.zero_mod 5)).symm
  | succ n => rfl

/-- At the last edge block of a node block the output's buffer is the accumulator. -/
theorem out_flush6 (c : Dev nD) (t : Fin cfg6.N) (h : t.val % 5 = 4) :
    (outsAt6 V c t.val t.isLt).1 = (outsAt6 V c t.val t.isLt).2 := by
  obtain ⟨n, hn⟩ := t
  cases n with
  | zero => rfl
  | succ n => exact if_pos h

/-! ## The invariant -/

/-- The region invariant before position `n`: before the first point the scoped buffers no window stages, each at
    anything (the accumulator among them); afterwards the accumulator at what the point before left in it, beside the
    others, unopened. -/
def PhiS6 (c : Dev nD) : (n : ℕ) → n ≤ cfg6.N → sProp 𝕄
  | 0, _ => Pipeline.scopedRest (Ix := Unit) (Name := ℕ) (U := UR sig nD τ) (Lvl := ℕ) (Val := Elt F) spec6 c
  | n + 1, hn => iprop(owns (c : Thread nD τ) scM6_0 fullShare ((outsAt6 V c n hn).2) ∗ Pipeline.scopedRestBut (Ix := Unit) (Name := ℕ) (U := UR sig nD τ) (Lvl := ℕ) (Val := Elt F) spec6 c [cc6_scratch0])

theorem PhiS6_zero (c : Dev nD) (n : ℕ) (h : n ≤ cfg6.N) (hz : n = 0) : PhiS6 V c n h = Pipeline.scopedRest (Ix := Unit) (Name := ℕ) (U := UR sig nD τ) (Lvl := ℕ) (Val := Elt F) spec6 c := by
  subst hz; rfl

theorem PhiS6_succ (c : Dev nD) (n : ℕ) (hn : n < cfg6.N) :
    PhiS6 V c (n + 1) hn = iprop(owns (c : Thread nD τ) scM6_0 fullShare ((outsAt6 V c n hn).2) ∗ Pipeline.scopedRestBut (Ix := Unit) (Name := ℕ) (U := UR sig nD τ) (Lvl := ℕ) (Val := Elt F) spec6 c [cc6_scratch0]) := rfl

theorem PhiS6_pos (c : Dev nD) (n : ℕ) (h : n ≤ cfg6.N) (hz : n ≠ 0) :
    PhiS6 V c n h = iprop(owns (c : Thread nD τ) scM6_0 fullShare ((outsAt6 V c (n - 1) (by omega)).2) ∗ Pipeline.scopedRestBut (Ix := Unit) (Name := ℕ) (U := UR sig nD τ) (Lvl := ℕ) (Val := Elt F) spec6 c [cc6_scratch0]) := by
  cases n with
  | zero => exact absurd rfl hz
  | succ n => rfl

/-- The scoped buffers no window stages, with the accumulator taken out as a memref owned at some contents. -/
theorem scopedRest6_acc (c : Dev nD) :
    (Pipeline.scopedRest (Ix := Unit) (Name := ℕ) (U := UR sig nD τ) (Lvl := ℕ) (Val := Elt F) spec6 c : sProp 𝕄)
      = iprop(iprop(∃ d, owns (c : Thread nD τ) scM6_0 fullShare d) ∗ Pipeline.scopedRestBut (Ix := Unit) (Name := ℕ) (U := UR sig nD τ) (Lvl := ℕ) (Val := Elt F) spec6 c [cc6_scratch0]) := by
  rw [scopedRest6_split]; simp only [scM6_0, owns_whole]; try rfl

/-! ## The pipeline's proof data -/

/-- The proof data of pipeline 6 on core `c`: the arrays as the region finds them; after the body at point `t` each
    input's buffer at its block and the output's at `outsAt6`'s first component; the invariant `PhiS6`; nothing owed;
    full shares. -/
def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => (outsAt6 V c t.val t.isLt).1
  Φ t := PhiS6 V c t.val (Nat.le_of_lt_succ t.isLt)
  q _ := fullShare
  owed _ := 0

/-- The proof data's arrays are the region-entry contents. -/
theorem A_eq6 (c : Dev nD) (w : Fin cfg6.W) : (dat6 V c).A w = V c (Pipeline.arrRef spec6 w) := by
  dsimp only [dat6]

/-- What the body leaves, window by window. -/
theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = (outsAt6 V c t.val t.isLt).1 := by dsimp only [dat6]

/-- The invariant at a point's start, restated at the point's position. -/
theorem PhiS6_castSucc (c : Dev nD) (t : Fin cfg6.N) :
    (dat6 V c).Φ t.castSucc = PhiS6 V c t.val (Nat.le_of_lt t.isLt) := by
  dsimp only [dat6]; simp only [Fin.coe_castSucc]

/-- Each input's current staging buffer holds its block at every point: both are fetched at every point, and neither
    window is cut, so the fetch fills the whole buffer with the array's block. -/
theorem before6_0 (c : Dev nD) (t : Fin cfg6.N) (d) : (dat6 V c).before 0 t d = iblk6 V c 0 t := by
  unfold Dat.before; rw [fetch6_0 t, if_pos rfl]; unfold Dat.fetched Dat.blockOf iblk6; rw [A_eq6]; rfl
theorem before6_1 (c : Dev nD) (t : Fin cfg6.N) (d) : (dat6 V c).before 1 t d = iblk6 V c 1 t := by
  unfold Dat.before; rw [fetch6_1 t, if_pos rfl]; unfold Dat.fetched Dat.blockOf iblk6; rw [A_eq6]; rfl

/-- The inputs' buffers are handed back at their blocks (the windows are never idle). -/
theorem leaves6_0 (c : Dev nD) (t : Fin cfg6.N) :
    (dat6 V c).leavesExact 0 t = owns (c : Thread nD τ) (ms6_0 t) fullShare (iblk6 V c 0 t) := by
  unfold Dat.leavesExact; rw [liveAt6_0 t, after6_0]
theorem leaves6_1 (c : Dev nD) (t : Fin cfg6.N) :
    (dat6 V c).leavesExact 1 t = owns (c : Thread nD τ) (ms6_1 t) fullShare (iblk6 V c 1 t) := by
  unfold Dat.leavesExact; rw [liveAt6_1 t, after6_1]

/-! ## The body obligation, at a generic point -/

/-- What the body is called with at point `t`, the windows one by one, -/
def bodyPre6 (c : Dev nD) (t : Fin cfg6.N) : sProp 𝕄 :=
  iprop((dat6 V c).Φ t.castSucc ∗ (dat6 V c).owesAt () t.castSucc
    ∗ (∃ d, owns (c : Thread nD τ) (ms6_0 t) fullShare ((dat6 V c).before 0 t d))
    ∗ (∃ d, owns (c : Thread nD τ) (ms6_1 t) fullShare ((dat6 V c).before 1 t d))
    ∗ (∃ d, owns (c : Thread nD τ) (ms6_2 t) fullShare ((dat6 V c).before 2 t d)))

/-- and what it returns. -/
def bodyPost6 (c : Dev nD) (t : Fin cfg6.N) : sProp 𝕄 :=
  iprop((dat6 V c).Φ t.succ ∗ (dat6 V c).owesAt () t.succ
    ∗ (dat6 V c).leavesExact 0 t
    ∗ (dat6 V c).leavesExact 1 t
    ∗ (dat6 V c).leavesExact 2 t)

set_option maxHeartbeats 4800000 in
/-- The body at any point. The inputs' memrefs hold their blocks; the position modulo 5 says which case the point is
    in. The invariant hands the body the accumulator (at anything before the first point, else at what the point before
    left) and takes it back at this point's contents (`scratch_step6`). Off the last edge block the output's buffer goes
    back as found; at it, the buffer takes the accumulator (`out_flush6`). The core owes nothing throughout. -/
theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1]
  rw [show (dat6 V c).owesAt () t.succ = (dat6 V c).owesAt () t.castSucc from rfl]
  rw [show (dat6 V c).Φ t.succ = PhiS6 V c (t.val + 1) t.isLt from rfl, PhiS6_succ]
  rw [leaves6_0, leaves6_1]
  have hN : t.val < 5 := lt_of_lt_of_eq t.isLt (show cfg6.N = 5 from N_6)
  by_cases h0 : t.val % 5 = 0
  · have h1 : ¬t.val % 5 = 4 := by omega
    rw [Dat.leavesExact_idle (dat6 V c) 2 t (idleAt6_2 _ (fun h => h1 ((hcond6_1 t).mp h))) (noFlush6_2 t h1)]
    rw [scratch_step6 V c t, if_pos h0]
    by_cases hz : t.val = 0
    · rw [PhiS6_castSucc V c t, PhiS6_zero V c _ _ hz, scopedRest6_acc]
      iintro ⟨⟨HS, HR⟩, Ho, ⟨%d0, H0⟩, ⟨%d1, H1⟩, ⟨%d2, H2⟩⟩
      iapply (run6_A c (grid6.coords t) _ _ _ _ _ _ _ _ ((hcond6_0 t).mpr h0) (fun h => h1 ((hcond6_1 t).mp h)) (iblk6 V c 0 t) (iblk6 V c 1 t) _ Set.univ _)
      isplitl [H0]; · iexact H0
      isplitl [H1]; · iexact H1
      isplitl [H2]; · iexact H2
      isplitl [HS]; · iexact HS
      iintro ⟨H0, H1, H2, HS⟩
      isplitl [HS HR]
      · isplitl [HS]; · iexact HS
        iexact HR
      isplitl [Ho]; · iexact Ho
      isplitl [H0]; · iexact H0
      isplitl [H1]; · iexact H1
      iexists _; iexact H2
    · rw [PhiS6_castSucc V c t, PhiS6_pos V c _ _ hz]
      iintro ⟨⟨HS, HR⟩, Ho, ⟨%d0, H0⟩, ⟨%d1, H1⟩, ⟨%d2, H2⟩⟩
      iapply (run6_A c (grid6.coords t) _ _ _ _ _ _ _ _ ((hcond6_0 t).mpr h0) (fun h => h1 ((hcond6_1 t).mp h)) (iblk6 V c 0 t) (iblk6 V c 1 t) _ Set.univ _)
      isplitl [H0]; · iexact H0
      isplitl [H1]; · iexact H1
      isplitl [H2]; · iexact H2
      isplitl [HS]; · iexists _; iexact HS
      iintro ⟨H0, H1, H2, HS⟩
      isplitl [HS HR]
      · isplitl [HS]; · iexact HS
        iexact HR
      isplitl [Ho]; · iexact Ho
      isplitl [H0]; · iexact H0
      isplitl [H1]; · iexact H1
      iexists _; iexact H2
  · have hz : t.val ≠ 0 := fun hz => h0 (by omega)
    rw [PhiS6_castSucc V c t, PhiS6_pos V c _ _ hz]
    by_cases h1 : t.val % 5 = 4
    · rw [show (dat6 V c).leavesExact 2 t = owns (c : Thread nD τ) (ms6_2 t) fullShare ((dat6 V c).after 2 t) from by
        unfold Dat.leavesExact; rw [liveAt6_2 (grid6.coords t) ((hcond6_1 t).mpr h1)], after6_2, out_flush6 V c t h1]
      rw [scratch_step6 V c t, if_neg h0]
      iintro ⟨⟨HS, HR⟩, Ho, ⟨%d0, H0⟩, ⟨%d1, H1⟩, ⟨%d2, H2⟩⟩
      iapply (run6_C c (grid6.coords t) _ _ _ _ _ _ _ _ (fun h => h0 ((hcond6_0 t).mp h)) ((hcond6_1 t).mpr h1) (iblk6 V c 0 t) (iblk6 V c 1 t) _ Set.univ _)
      isplitl [H0]; · iexact H0
      isplitl [H1]; · iexact H1
      isplitl [H2]; · iexists _; iexact H2
      isplitl [HS]; · iexact HS
      iintro ⟨H0, H1, H2, HS⟩
      isplitl [HS HR]
      · isplitl [HS]; · iexact HS
        iexact HR
      isplitl [Ho]; · iexact Ho
      isplitl [H0]; · iexact H0
      isplitl [H1]; · iexact H1
      iexact H2
    · rw [Dat.leavesExact_idle (dat6 V c) 2 t (idleAt6_2 _ (fun h => h1 ((hcond6_1 t).mp h))) (noFlush6_2 t h1)]
      rw [scratch_step6 V c t, if_neg h0]
      iintro ⟨⟨HS, HR⟩, Ho, ⟨%d0, H0⟩, ⟨%d1, H1⟩, ⟨%d2, H2⟩⟩
      iapply (run6_B c (grid6.coords t) _ _ _ _ _ _ _ _ (fun h => h0 ((hcond6_0 t).mp h)) (fun h => h1 ((hcond6_1 t).mp h)) (iblk6 V c 0 t) (iblk6 V c 1 t) _ _ Set.univ _)
      isplitl [H0]; · iexact H0
      isplitl [H1]; · iexact H1
      isplitl [H2]; · iexact H2
      isplitl [HS]; · iexact HS
      iintro ⟨H0, H1, H2, HS⟩
      isplitl [HS HR]
      · isplitl [HS]; · iexact HS
        iexact HR
      isplitl [Ho]; · iexact Ho
      isplitl [H0]; · iexact H0
      isplitl [H1]; · iexact H1
      iexists _; iexact H2

/-- The library's body obligation, at every point. -/
theorem body_obligation6 (c : Dev nD) : BodyObligation (dat6 (F := F) V c) (defs₀ (F := F)) Variants.none () Set.univ := fun t => by
  rw [bigSep_W6, bigSep_W6]
  exact sound_body6 V c t

/-! ## The invariant at the region's two ends -/

/-- The scoped buffers no window stages are the invariant before the first point. -/
theorem Phi6_in (c : Dev nD) : (Pipeline.scopedRest (Ix := Unit) (Name := ℕ) (U := UR sig nD τ) (Lvl := ℕ) (Val := Elt F) spec6 c : sProp 𝕄) ⊢ (dat6 V c).Φ 0 := by
  rw [show (dat6 V c).Φ 0 = PhiS6 V c 0 (Nat.zero_le _) from rfl, PhiS6_zero V c 0 _ rfl]

/-- After the last point the invariant gives them back: the accumulator's named contents are forgotten. -/
theorem Phi6_out (c : Dev nD) : (dat6 V c).Φ (Fin.last cfg6.N) ⊢ (Pipeline.scopedRest (Ix := Unit) (Name := ℕ) (U := UR sig nD τ) (Lvl := ℕ) (Val := Elt F) spec6 c : sProp 𝕄) := by
  rw [show (dat6 V c).Φ (Fin.last cfg6.N) = PhiS6 V c (Fin.last cfg6.N).val (Nat.le_of_lt_succ (Fin.last cfg6.N).isLt) from rfl,
    PhiS6_pos V c _ _ (by rw [Fin.val_last]; have : cfg6.N = 5 := N_6; omega), scopedRest6_acc]
  iintro ⟨HS, HR⟩
  isplitl [HS]; · iexists _; iexact HS
  iexact HR

end Region

end Cert.Kernel.Reg6

end
-- ==== Proof.K.Reg7Runs.lean ====
/- Region 7 (custom_call 7, `cc7_kernel`, grid ![10, 20]): the segment sum's body in each of its three control
   cases. The body keeps an accumulator (its last operand, a whole scratch buffer of shape 1024x300): at the first edge
   block of a node block (grid coordinate 1 equal to 0) it stores zeros into it; at every point it adds the one-hot
   product of the point's two input blocks to it; at the last edge block (coordinate 1 equal to 19) it copies it to
   the output's staging buffer, which it otherwise does not touch. Each case is a triple whose post names the
   accumulator's new contents as the payload `k7_pay2` of the input blocks and the contents found (zeros after a
   reset). -/
import proofs.«411400_j9251359555630_1_alg».proof.Proof.Gen.Kernel.Launch
import proofs.«411400_j9251359555630_1_alg».proof.Proof.Gen.Kernel.Skeleton
import proofs.«411400_j9251359555630_1_alg».proof.Proof.Gen.Kernel.Points
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.Kernel.Reg7

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The branch conditions, in closed form over the grid -/

/-- The condition of the body's first `scf.if` (the accumulator's reset), from the grid coordinates. -/
abbrev cond7_0 (i : grid7.Coords) : Prop :=
  (Scalar.cmpi .ne (Scalar.extui (Scalar.cmpi .eq (BitVec.ofNat 32 (i 1).val) 0#32)) 0#32) = 1#1
/-- It holds at the points whose position is 0 modulo 20: the first edge block of each node block. -/
theorem hcond7_0 : ∀ t : Fin cfg7.N, cond7_0 (grid7.coords t) ↔ t.val % 20 = 0 :=
  (by decide +kernel : ∀ t : Fin grid7.N, cond7_0 (grid7.coords t) ↔ t.val % 20 = 0)

/-- The condition of the body's second `scf.if` (the copy to the output), from the grid coordinates. -/
abbrev cond7_1 (i : grid7.Coords) : Prop := k7_cond2 i = 1#1
/-- It holds at the points whose position is 19 modulo 20: the last edge block of each node block. -/
theorem hcond7_1 : ∀ t : Fin cfg7.N, cond7_1 (grid7.coords t) ↔ t.val % 20 = 19 :=
  (by decide +kernel : ∀ t : Fin grid7.N, cond7_1 (grid7.coords t) ↔ t.val % 20 = 19)

/-! ## Where the windows are idle -/

/-- The two input windows are never idle. -/
theorem liveAt7_0 (t : Fin cfg7.N) : cfg7.idle 0 (grid7.coords t) = false := rfl
theorem liveAt7_1 (t : Fin cfg7.N) : cfg7.idle 1 (grid7.coords t) = false := rfl
/-- The output window is idle exactly where the second condition fails: the body stores into it only under it. -/
theorem idleAt7_2 (i : grid7.Coords) (h : ¬cond7_1 i) : cfg7.idle 2 i = true := by
  show (!(k7_cond2 i == 1#1)) = true
  cases hb : (k7_cond2 i == 1#1) with
  | false => rfl
  | true => exact absurd (eq_of_beq hb) h
theorem liveAt7_2 (i : grid7.Coords) (h : cond7_1 i) : cfg7.idle 2 i = false := by
  show (!(k7_cond2 i == 1#1)) = false
  rw [show k7_cond2 i = 1#1 from h]; rfl
/-- Off the last edge block the output's block is not written back. -/
theorem noFlush7_2 (t : Fin cfg7.N) (h : ¬t.val % 20 = 19) : (cfg7.win 2).flush t = false :=
  Bool.eq_false_iff.mpr fun hf => h ((flush7_2 t).mp hf)

/-! ## Whole-buffer accesses -/

/-- The offsets of every access of the body: zero on both axes. -/
theorem hz7 : (![0, 0] : Fin 2 → Nat) = fun _ => 0 := funext fun a => by fin_cases a <;> rfl

/-- A store through the whole-shape rectangle at zero offsets, made last, is what the buffer then reads, whatever
    was stored before and whatever the buffer held. -/
theorem read_writes_whole7 {S : Shape} {e : EltTy} {sp : Space} (v : View sig .tc sp S e) (f : v.ty.Contents (Elt F))
    {off : Fin S.rank → Nat} (h : off = fun _ => 0) (inb : ∀ a, off a + S.size a ≤ S.size a)
    (w : S.Idx → Elt F e) (L : List (View.Piece (Elt F) S e)) :
    v.read (Elt F) (v.writes (Elt F) f ((⟨Rect.unit off S.size inb, w⟩ : View.Piece (Elt F) S e) :: L)) = w := by
  refine (View.read_writes_eq_canon v f _ fun y =>
    ⟨⟨Rect.unit off S.size inb, w⟩, List.mem_cons_self, View.mem_set_unit_zero h inb y⟩).trans ?_
  exact View.canon_cons_unit_zero h inb w L

/-! ## The body's triple, case by case -/

set_option maxHeartbeats 1000000 in
/-- CASE A, the first edge block of a node block (first condition true, second false): on whole memrefs, the inputs' at
    contents `x0`, `x1`, the output's at `xo`, the accumulator at anything, the body runs to the continuation holding
    the first three as they were and the accumulator at the payload of the input blocks over zeros. -/
theorem run7_A (c : Dev nD) (i : grid7.Coords)
    (arg2 : Memref sig .tc .vmem S8000x1 .i32) (harg2 : arg2.IsWhole)
    (arg3 : Memref sig .tc .vmem S8000x300 .bf16) (harg3 : arg3.IsWhole)
    (arg4 : Memref sig .tc .vmem S1024x300 .f32) (harg4 : arg4.IsWhole)
    (arg5 : Memref sig .tc .vmem S1024x300 .f32) (harg5 : arg5.IsWhole)
    (hc0 : cond7_0 i) (hc1 : ¬cond7_1 i)
    (x0 : Vec F S8000x1 .i32) (x1 : Vec F S8000x300 .bf16) (xo : Vec F S1024x300 .f32)
    (E : Set ℕ) (K : PUnit → sProp 𝕄) :
    iprop(owns (c : Thread nD τ) arg2 fullShare x0 ∗ owns (c : Thread nD τ) arg3 fullShare x1
        ∗ owns (c : Thread nD τ) arg4 fullShare xo ∗ (∃ d, owns (c : Thread nD τ) arg5 fullShare d)
        ∗ (iprop(owns (c : Thread nD τ) arg2 fullShare x0 ∗ owns (c : Thread nD τ) arg3 fullShare x1
            ∗ owns (c : Thread nD τ) arg4 fullShare xo
            ∗ owns (c : Thread nD τ) arg5 fullShare (k7_pay2 (F := F) i x0 x1 (k7_pay1 (F := F)))) -∗ K ⟨⟩))
      ⊢ wp frame (wpE (defs₀ (F := F)) Variants.none c none) E (cc7_kernel i arg2 harg2 arg3 harg3 arg4 harg4 arg5 harg5) K := by
  simp only [cc7_kernel_eq_skeleton]; unfold cc7_kernel_skel
  unfold owns
  iintro ⟨⟨%f0, %hf0, H0⟩, ⟨%f1, %hf1, H1⟩, ⟨%f2, %hf2, H2⟩, ⟨%ds, %fs, -, HS⟩, Hk⟩
  subst hf0; subst hf1; subst hf2
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact HS
  ipureintro
  sl_unfold_run_names
  rw [read_writes_whole7 _ _ hz7]
  simp only [View.readAt_eq_ld, View.ld_unit_zero (S := S8000x1) hz7, View.ld_unit_zero (S := S8000x300) hz7,
    View.readCov_unit_zero (S := S1024x300) _ hz7]

set_option maxHeartbeats 1000000 in
/-- CASE B, an edge block that is neither the first nor the last (both conditions false): the accumulator, found at
    `xs`, is left at the payload of the input blocks over `xs`; the output's buffer is not touched. -/
theorem run7_B (c : Dev nD) (i : grid7.Coords)
    (arg2 : Memref sig .tc .vmem S8000x1 .i32) (harg2 : arg2.IsWhole)
    (arg3 : Memref sig .tc .vmem S8000x300 .bf16) (harg3 : arg3.IsWhole)
    (arg4 : Memref sig .tc .vmem S1024x300 .f32) (harg4 : arg4.IsWhole)
    (arg5 : Memref sig .tc .vmem S1024x300 .f32) (harg5 : arg5.IsWhole)
    (hc0 : ¬cond7_0 i) (hc1 : ¬cond7_1 i)
    (x0 : Vec F S8000x1 .i32) (x1 : Vec F S8000x300 .bf16) (xo : Vec F S1024x300 .f32) (xs : Vec F S1024x300 .f32)
    (E : Set ℕ) (K : PUnit → sProp 𝕄) :
    iprop(owns (c : Thread nD τ) arg2 fullShare x0 ∗ owns (c : Thread nD τ) arg3 fullShare x1
        ∗ owns (c : Thread nD τ) arg4 fullShare xo ∗ owns (c : Thread nD τ) arg5 fullShare xs
        ∗ (iprop(owns (c : Thread nD τ) arg2 fullShare x0 ∗ owns (c : Thread nD τ) arg3 fullShare x1
            ∗ owns (c : Thread nD τ) arg4 fullShare xo
            ∗ owns (c : Thread nD τ) arg5 fullShare (k7_pay2 (F := F) i x0 x1 xs)) -∗ K ⟨⟩))
      ⊢ wp frame (wpE (defs₀ (F := F)) Variants.none c none) E (cc7_kernel i arg2 harg2 arg3 harg3 arg4 harg4 arg5 harg5) K := by
  simp only [cc7_kernel_eq_skeleton]; unfold cc7_kernel_skel
  unfold owns
  iintro ⟨⟨%f0, %hf0, H0⟩, ⟨%f1, %hf1, H1⟩, ⟨%f2, %hf2, H2⟩, ⟨%fs, %hfs, HS⟩, Hk⟩
  subst hf0; subst hf1; subst hf2; subst hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact HS
  ipureintro
  sl_unfold_run_names
  rw [read_writes_whole7 _ _ hz7]
  simp only [View.readAt_eq_ld, View.ld_unit_zero (S := S8000x1) hz7, View.ld_unit_zero (S := S8000x300) hz7,
    View.ld_unit_zero (S := S1024x300) hz7]

set_option maxHeartbeats 1000000 in
/-- CASE C, the last edge block of a node block (first condition false, second true): the accumulator, found at `xs`,
    is left at the payload of the input blocks over `xs`, and the output's buffer, found at anything, takes the same. -/
theorem run7_C (c : Dev nD) (i : grid7.Coords)
    (arg2 : Memref sig .tc .vmem S8000x1 .i32) (harg2 : arg2.IsWhole)
    (arg3 : Memref sig .tc .vmem S8000x300 .bf16) (harg3 : arg3.IsWhole)
    (arg4 : Memref sig .tc .vmem S1024x300 .f32) (harg4 : arg4.IsWhole)
    (arg5 : Memref sig .tc .vmem S1024x300 .f32) (harg5 : arg5.IsWhole)
    (hc0 : ¬cond7_0 i) (hc1 : cond7_1 i)
    (x0 : Vec F S8000x1 .i32) (x1 : Vec F S8000x300 .bf16) (xs : Vec F S1024x300 .f32)
    (E : Set ℕ) (K : PUnit → sProp 𝕄) :
    iprop(owns (c : Thread nD τ) arg2 fullShare x0 ∗ owns (c : Thread nD τ) arg3 fullShare x1
        ∗ (∃ d, owns (c : Thread nD τ) arg4 fullShare d) ∗ owns (c : Thread nD τ) arg5 fullShare xs
        ∗ (iprop(owns (c : Thread nD τ) arg2 fullShare x0 ∗ owns (c : Thread nD τ) arg3 fullShare x1
            ∗ owns (c : Thread nD τ) arg4 fullShare (k7_pay2 (F := F) i x0 x1 xs)
            ∗ owns (c : Thread nD τ) arg5 fullShare (k7_pay2 (F := F) i x0 x1 xs)) -∗ K ⟨⟩))
      ⊢ wp frame (wpE (defs₀ (F := F)) Variants.none c none) E (cc7_kernel i arg2 harg2 arg3 harg3 arg4 harg4 arg5 harg5) K := by
  simp only [cc7_kernel_eq_skeleton]; unfold cc7_kernel_skel
  unfold owns
  iintro ⟨⟨%f0, %hf0, H0⟩, ⟨%f1, %hf1, H1⟩, ⟨%d2, %f2, -, H2⟩, ⟨%fs, %hfs, HS⟩, Hk⟩
  subst hf0; subst hf1; subst hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    sl_unfold_run_names
    rw [read_writes_whole7 _ _ hz7]
    simp only [View.readAt_eq_ld, View.ld_unit_zero (S := S8000x1) hz7, View.ld_unit_zero (S := S8000x300) hz7,
      View.ld_unit_zero (S := S1024x300) hz7, View.readCov_unit_zero (S := S1024x300) _ hz7]
  iexists _; isplitr
  swap; · iexact HS
  ipureintro
  sl_unfold_run_names
  rw [read_writes_whole7 _ _ hz7]
  simp only [View.readAt_eq_ld, View.ld_unit_zero (S := S8000x1) hz7, View.ld_unit_zero (S := S8000x300) hz7,
    View.ld_unit_zero (S := S1024x300) hz7]

end Cert.Kernel.Reg7

end
-- ==== Proof.K.Reg7.lean ====
/- Region 7 (custom_call 7, `cc7_kernel`, grid ![10, 20]) at the buffer contents `V` the region is entered with: the
   windows' blocks, what the accumulator and the output's staging buffer hold after each grid point, the pipeline's proof
   data, and the body obligation. The accumulator is the kernel's own scratch buffer (shape 1024x300): the invariant
   hands it to the body out of the scoped buffers no window stages, at anything before the first point and afterwards at
   what the point before left in it. -/
import proofs.«411400_j9251359555630_1_alg».proof.Proof.K.Reg7Runs

set_option maxRecDepth 16384

noncomputable section

namespace Cert.Kernel.Reg7

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region
-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

/-! ## The memrefs the body is called with -/

/-- Each window's current staging memref at point `t`, as the pipeline passes it, and its wholeness. -/
abbrev ms7_0 (t : Fin cfg7.N) : Memref sig .tc .vmem S8000x1 .i32 := win7_0.stage (cfg7.slots t 0)
abbrev hs7_0 (t : Fin cfg7.N) : (ms7_0 t).IsWhole := hstage7_0 ((cfg7.slots t 0).cast nbuf7_0)
abbrev ms7_1 (t : Fin cfg7.N) : Memref sig .tc .vmem S8000x300 .bf16 := win7_1.stage (cfg7.slots t 1)
abbrev hs7_1 (t : Fin cfg7.N) : (ms7_1 t).IsWhole := hstage7_1 ((cfg7.slots t 1).cast nbuf7_1)
abbrev ms7_2 (t : Fin cfg7.N) : Memref sig .tc .vmem S1024x300 .f32 := win7_2.stage (cfg7.slots t 2)
abbrev hs7_2 (t : Fin cfg7.N) : (ms7_2 t).IsWhole := hstage7_2 ((cfg7.slots t 2).cast nbuf7_2)
/-- The accumulator: a whole scoped buffer of the kernel's own, passed beside the windows. -/
abbrev scM7_0 : Memref sig .tc .vmem S1024x300 .f32 := Memref.whole cc7_scratch0

/-! ## What the accumulator and the output hold after each point -/

/-- (output staging buffer, accumulator) after the body at position `n`. The accumulator is the payload `k7_pay2` of the
    point's two input blocks over zeros (`k7_pay1`) where `n % 20 = 0` and over what the point before left elsewhere.
    The output's buffer takes the accumulator where `n % 20 = 19`; elsewhere the body leaves it as found (the component
    there repeats the previous one, and at position 0 the accumulator: a placeholder nothing reads). -/
def outsAt7 (c : Dev nD) : (n : ℕ) → n < cfg7.N → Vec F S1024x300 .f32 × Vec F S1024x300 .f32
  | 0, hn =>
    (k7_pay2 (F := F) (grid7.coords ⟨0, hn⟩) (iblk7 V c 0 ⟨0, hn⟩) (iblk7 V c 1 ⟨0, hn⟩) (k7_pay1 (F := F)),
     k7_pay2 (F := F) (grid7.coords ⟨0, hn⟩) (iblk7 V c 0 ⟨0, hn⟩) (iblk7 V c 1 ⟨0, hn⟩) (k7_pay1 (F := F)))
  | n + 1, hn =>
    (if (n + 1) % 20 = 19 then
        k7_pay2 (F := F) (grid7.coords ⟨n + 1, hn⟩) (iblk7 V c 0 ⟨n + 1, hn⟩) (iblk7 V c 1 ⟨n + 1, hn⟩)
          (if (n + 1) % 20 = 0 then k7_pay1 (F := F) else (outsAt7 c n (Nat.lt_of_succ_lt hn)).2)
      else (outsAt7 c n (Nat.lt_of_succ_lt hn)).1,
     k7_pay2 (F := F) (grid7.coords ⟨n + 1, hn⟩) (iblk7 V c 0 ⟨n + 1, hn⟩) (iblk7 V c 1 ⟨n + 1, hn⟩)
       (if (n + 1) % 20 = 0 then k7_pay1 (F := F) else (outsAt7 c n (Nat.lt_of_succ_lt hn)).2))

/-- The accumulator's step: the payload of the point's blocks over zeros at the first edge block of a node block, over
    the previous accumulator elsewhere. -/
theorem scratch_step7 (c : Dev nD) (t : Fin cfg7.N) :
    (outsAt7 V c t.val t.isLt).2 = k7_pay2 (F := F) (grid7.coords t) (iblk7 V c 0 t) (iblk7 V c 1 t)
      (if t.val % 20 = 0 then k7_pay1 (F := F) else (outsAt7 V c (t.val - 1) (Nat.lt_of_le_of_lt (Nat.sub_le _ _) t.isLt)).2) := by
  obtain ⟨n, hn⟩ := t
  cases n with
  | zero => exact congrArg (k7_pay2 (F := F) (grid7.coords ⟨0, hn⟩) (iblk7 V c 0 ⟨0, hn⟩) (iblk7 V c 1 ⟨0, hn⟩)) (if_pos (Nat.zero_mod 20)).symm
  | succ n => rfl

/-- At the last edge block of a node block the output's buffer is the accumulator. -/
theorem out_flush7 (c : Dev nD) (t : Fin cfg7.N) (h : t.val % 20 = 19) :
    (outsAt7 V c t.val t.isLt).1 = (outsAt7 V c t.val t.isLt).2 := by
  obtain ⟨n, hn⟩ := t
  cases n with
  | zero => rfl
  | succ n => exact if_pos h

/-! ## The invariant -/

/-- The region invariant before position `n`: before the first point the scoped buffers no window stages, each at
    anything (the accumulator among them); afterwards the accumulator at what the point before left in it, beside the
    others, unopened. -/
def PhiS7 (c : Dev nD) : (n : ℕ) → n ≤ cfg7.N → sProp 𝕄
  | 0, _ => Pipeline.scopedRest (Ix := Unit) (Name := ℕ) (U := UR sig nD τ) (Lvl := ℕ) (Val := Elt F) spec7 c
  | n + 1, hn => iprop(owns (c : Thread nD τ) scM7_0 fullShare ((outsAt7 V c n hn).2) ∗ Pipeline.scopedRestBut (Ix := Unit) (Name := ℕ) (U := UR sig nD τ) (Lvl := ℕ) (Val := Elt F) spec7 c [cc7_scratch0])

theorem PhiS7_zero (c : Dev nD) (n : ℕ) (h : n ≤ cfg7.N) (hz : n = 0) : PhiS7 V c n h = Pipeline.scopedRest (Ix := Unit) (Name := ℕ) (U := UR sig nD τ) (Lvl := ℕ) (Val := Elt F) spec7 c := by
  subst hz; rfl

theorem PhiS7_succ (c : Dev nD) (n : ℕ) (hn : n < cfg7.N) :
    PhiS7 V c (n + 1) hn = iprop(owns (c : Thread nD τ) scM7_0 fullShare ((outsAt7 V c n hn).2) ∗ Pipeline.scopedRestBut (Ix := Unit) (Name := ℕ) (U := UR sig nD τ) (Lvl := ℕ) (Val := Elt F) spec7 c [cc7_scratch0]) := rfl

theorem PhiS7_pos (c : Dev nD) (n : ℕ) (h : n ≤ cfg7.N) (hz : n ≠ 0) :
    PhiS7 V c n h = iprop(owns (c : Thread nD τ) scM7_0 fullShare ((outsAt7 V c (n - 1) (by omega)).2) ∗ Pipeline.scopedRestBut (Ix := Unit) (Name := ℕ) (U := UR sig nD τ) (Lvl := ℕ) (Val := Elt F) spec7 c [cc7_scratch0]) := by
  cases n with
  | zero => exact absurd rfl hz
  | succ n => rfl

/-- The scoped buffers no window stages, with the accumulator taken out as a memref owned at some contents. -/
theorem scopedRest7_acc (c : Dev nD) :
    (Pipeline.scopedRest (Ix := Unit) (Name := ℕ) (U := UR sig nD τ) (Lvl := ℕ) (Val := Elt F) spec7 c : sProp 𝕄)
      = iprop(iprop(∃ d, owns (c : Thread nD τ) scM7_0 fullShare d) ∗ Pipeline.scopedRestBut (Ix := Unit) (Name := ℕ) (U := UR sig nD τ) (Lvl := ℕ) (Val := Elt F) spec7 c [cc7_scratch0]) := by
  rw [scopedRest7_split]; simp only [scM7_0, owns_whole]; try rfl

/-! ## The pipeline's proof data -/

/-- The proof data of pipeline 7 on core `c`: the arrays as the region finds them; after the body at point `t` each
    input's buffer at its block and the output's at `outsAt7`'s first component; the invariant `PhiS7`; nothing owed;
    full shares. -/
def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => (outsAt7 V c t.val t.isLt).1
  Φ t := PhiS7 V c t.val (Nat.le_of_lt_succ t.isLt)
  q _ := fullShare
  owed _ := 0

/-- The proof data's arrays are the region-entry contents. -/
theorem A_eq7 (c : Dev nD) (w : Fin cfg7.W) : (dat7 V c).A w = V c (Pipeline.arrRef spec7 w) := by
  dsimp only [dat7]

/-- What the body leaves, window by window. -/
theorem after7_0 (c : Dev nD) (t : Fin cfg7.N) : (dat7 V c).after 0 t = iblk7 V c 0 t := by dsimp only [dat7]
theorem after7_1 (c : Dev nD) (t : Fin cfg7.N) : (dat7 V c).after 1 t = iblk7 V c 1 t := by dsimp only [dat7]
theorem after7_2 (c : Dev nD) (t : Fin cfg7.N) : (dat7 V c).after 2 t = (outsAt7 V c t.val t.isLt).1 := by dsimp only [dat7]

/-- The invariant at a point's start, restated at the point's position. -/
theorem PhiS7_castSucc (c : Dev nD) (t : Fin cfg7.N) :
    (dat7 V c).Φ t.castSucc = PhiS7 V c t.val (Nat.le_of_lt t.isLt) := by
  dsimp only [dat7]; simp only [Fin.coe_castSucc]

/-- Each input's current staging buffer holds its block at every point: both are fetched at every point, and neither
    window is cut, so the fetch fills the whole buffer with the array's block. -/
theorem before7_0 (c : Dev nD) (t : Fin cfg7.N) (d) : (dat7 V c).before 0 t d = iblk7 V c 0 t := by
  unfold Dat.before; rw [fetch7_0 t, if_pos rfl]; unfold Dat.fetched Dat.blockOf iblk7; rw [A_eq7]; rfl
theorem before7_1 (c : Dev nD) (t : Fin cfg7.N) (d) : (dat7 V c).before 1 t d = iblk7 V c 1 t := by
  unfold Dat.before; rw [fetch7_1 t, if_pos rfl]; unfold Dat.fetched Dat.blockOf iblk7; rw [A_eq7]; rfl

/-- The inputs' buffers are handed back at their blocks (the windows are never idle). -/
theorem leaves7_0 (c : Dev nD) (t : Fin cfg7.N) :
    (dat7 V c).leavesExact 0 t = owns (c : Thread nD τ) (ms7_0 t) fullShare (iblk7 V c 0 t) := by
  unfold Dat.leavesExact; rw [liveAt7_0 t, after7_0]
theorem leaves7_1 (c : Dev nD) (t : Fin cfg7.N) :
    (dat7 V c).leavesExact 1 t = owns (c : Thread nD τ) (ms7_1 t) fullShare (iblk7 V c 1 t) := by
  unfold Dat.leavesExact; rw [liveAt7_1 t, after7_1]

/-! ## The body obligation, at a generic point -/

/-- What the body is called with at point `t`, the windows one by one, -/
def bodyPre7 (c : Dev nD) (t : Fin cfg7.N) : sProp 𝕄 :=
  iprop((dat7 V c).Φ t.castSucc ∗ (dat7 V c).owesAt () t.castSucc
    ∗ (∃ d, owns (c : Thread nD τ) (ms7_0 t) fullShare ((dat7 V c).before 0 t d))
    ∗ (∃ d, owns (c : Thread nD τ) (ms7_1 t) fullShare ((dat7 V c).before 1 t d))
    ∗ (∃ d, owns (c : Thread nD τ) (ms7_2 t) fullShare ((dat7 V c).before 2 t d)))

/-- and what it returns. -/
def bodyPost7 (c : Dev nD) (t : Fin cfg7.N) : sProp 𝕄 :=
  iprop((dat7 V c).Φ t.succ ∗ (dat7 V c).owesAt () t.succ
    ∗ (dat7 V c).leavesExact 0 t
    ∗ (dat7 V c).leavesExact 1 t
    ∗ (dat7 V c).leavesExact 2 t)

set_option maxHeartbeats 4800000 in
/-- The body at any point. The inputs' memrefs hold their blocks; the position modulo 20 says which case the point is
    in. The invariant hands the body the accumulator (at anything before the first point, else at what the point before
    left) and takes it back at this point's contents (`scratch_step7`). Off the last edge block the output's buffer goes
    back as found; at it, the buffer takes the accumulator (`out_flush7`). The core owes nothing throughout. -/
theorem sound_body7 (c : Dev nD) (t : Fin cfg7.N) :
    bodyPre7 V c t ⊢ wp frame (wpE (defs₀ (F := F)) Variants.none c none) Set.univ (bodyAt7 t) (fun _ => bodyPost7 V c t) := by
  unfold bodyPre7 bodyPost7 bodyAt7
  simp only [before7_0, before7_1]
  rw [show (dat7 V c).owesAt () t.succ = (dat7 V c).owesAt () t.castSucc from rfl]
  rw [show (dat7 V c).Φ t.succ = PhiS7 V c (t.val + 1) t.isLt from rfl, PhiS7_succ]
  rw [leaves7_0, leaves7_1]
  have hN : t.val < 200 := lt_of_lt_of_eq t.isLt (show cfg7.N = 200 from N_7)
  by_cases h0 : t.val % 20 = 0
  · have h1 : ¬t.val % 20 = 19 := by omega
    rw [Dat.leavesExact_idle (dat7 V c) 2 t (idleAt7_2 _ (fun h => h1 ((hcond7_1 t).mp h))) (noFlush7_2 t h1)]
    rw [scratch_step7 V c t, if_pos h0]
    by_cases hz : t.val = 0
    · rw [PhiS7_castSucc V c t, PhiS7_zero V c _ _ hz, scopedRest7_acc]
      iintro ⟨⟨HS, HR⟩, Ho, ⟨%d0, H0⟩, ⟨%d1, H1⟩, ⟨%d2, H2⟩⟩
      iapply (run7_A c (grid7.coords t) _ _ _ _ _ _ _ _ ((hcond7_0 t).mpr h0) (fun h => h1 ((hcond7_1 t).mp h)) (iblk7 V c 0 t) (iblk7 V c 1 t) _ Set.univ _)
      isplitl [H0]; · iexact H0
      isplitl [H1]; · iexact H1
      isplitl [H2]; · iexact H2
      isplitl [HS]; · iexact HS
      iintro ⟨H0, H1, H2, HS⟩
      isplitl [HS HR]
      · isplitl [HS]; · iexact HS
        iexact HR
      isplitl [Ho]; · iexact Ho
      isplitl [H0]; · iexact H0
      isplitl [H1]; · iexact H1
      iexists _; iexact H2
    · rw [PhiS7_castSucc V c t, PhiS7_pos V c _ _ hz]
      iintro ⟨⟨HS, HR⟩, Ho, ⟨%d0, H0⟩, ⟨%d1, H1⟩, ⟨%d2, H2⟩⟩
      iapply (run7_A c (grid7.coords t) _ _ _ _ _ _ _ _ ((hcond7_0 t).mpr h0) (fun h => h1 ((hcond7_1 t).mp h)) (iblk7 V c 0 t) (iblk7 V c 1 t) _ Set.univ _)
      isplitl [H0]; · iexact H0
      isplitl [H1]; · iexact H1
      isplitl [H2]; · iexact H2
      isplitl [HS]; · iexists _; iexact HS
      iintro ⟨H0, H1, H2, HS⟩
      isplitl [HS HR]
      · isplitl [HS]; · iexact HS
        iexact HR
      isplitl [Ho]; · iexact Ho
      isplitl [H0]; · iexact H0
      isplitl [H1]; · iexact H1
      iexists _; iexact H2
  · have hz : t.val ≠ 0 := fun hz => h0 (by omega)
    rw [PhiS7_castSucc V c t, PhiS7_pos V c _ _ hz]
    by_cases h1 : t.val % 20 = 19
    · rw [show (dat7 V c).leavesExact 2 t = owns (c : Thread nD τ) (ms7_2 t) fullShare ((dat7 V c).after 2 t) from by
        unfold Dat.leavesExact; rw [liveAt7_2 (grid7.coords t) ((hcond7_1 t).mpr h1)], after7_2, out_flush7 V c t h1]
      rw [scratch_step7 V c t, if_neg h0]
      iintro ⟨⟨HS, HR⟩, Ho, ⟨%d0, H0⟩, ⟨%d1, H1⟩, ⟨%d2, H2⟩⟩
      iapply (run7_C c (grid7.coords t) _ _ _ _ _ _ _ _ (fun h => h0 ((hcond7_0 t).mp h)) ((hcond7_1 t).mpr h1) (iblk7 V c 0 t) (iblk7 V c 1 t) _ Set.univ _)
      isplitl [H0]; · iexact H0
      isplitl [H1]; · iexact H1
      isplitl [H2]; · iexists _; iexact H2
      isplitl [HS]; · iexact HS
      iintro ⟨H0, H1, H2, HS⟩
      isplitl [HS HR]
      · isplitl [HS]; · iexact HS
        iexact HR
      isplitl [Ho]; · iexact Ho
      isplitl [H0]; · iexact H0
      isplitl [H1]; · iexact H1
      iexact H2
    · rw [Dat.leavesExact_idle (dat7 V c) 2 t (idleAt7_2 _ (fun h => h1 ((hcond7_1 t).mp h))) (noFlush7_2 t h1)]
      rw [scratch_step7 V c t, if_neg h0]
      iintro ⟨⟨HS, HR⟩, Ho, ⟨%d0, H0⟩, ⟨%d1, H1⟩, ⟨%d2, H2⟩⟩
      iapply (run7_B c (grid7.coords t) _ _ _ _ _ _ _ _ (fun h => h0 ((hcond7_0 t).mp h)) (fun h => h1 ((hcond7_1 t).mp h)) (iblk7 V c 0 t) (iblk7 V c 1 t) _ _ Set.univ _)
      isplitl [H0]; · iexact H0
      isplitl [H1]; · iexact H1
      isplitl [H2]; · iexact H2
      isplitl [HS]; · iexact HS
      iintro ⟨H0, H1, H2, HS⟩
      isplitl [HS HR]
      · isplitl [HS]; · iexact HS
        iexact HR
      isplitl [Ho]; · iexact Ho
      isplitl [H0]; · iexact H0
      isplitl [H1]; · iexact H1
      iexists _; iexact H2

/-- The library's body obligation, at every point. -/
theorem body_obligation7 (c : Dev nD) : BodyObligation (dat7 (F := F) V c) (defs₀ (F := F)) Variants.none () Set.univ := fun t => by
  rw [bigSep_W7, bigSep_W7]
  exact sound_body7 V c t

/-! ## The invariant at the region's two ends -/

/-- The scoped buffers no window stages are the invariant before the first point. -/
theorem Phi7_in (c : Dev nD) : (Pipeline.scopedRest (Ix := Unit) (Name := ℕ) (U := UR sig nD τ) (Lvl := ℕ) (Val := Elt F) spec7 c : sProp 𝕄) ⊢ (dat7 V c).Φ 0 := by
  rw [show (dat7 V c).Φ 0 = PhiS7 V c 0 (Nat.zero_le _) from rfl, PhiS7_zero V c 0 _ rfl]

/-- After the last point the invariant gives them back: the accumulator's named contents are forgotten. -/
theorem Phi7_out (c : Dev nD) : (dat7 V c).Φ (Fin.last cfg7.N) ⊢ (Pipeline.scopedRest (Ix := Unit) (Name := ℕ) (U := UR sig nD τ) (Lvl := ℕ) (Val := Elt F) spec7 c : sProp 𝕄) := by
  rw [show (dat7 V c).Φ (Fin.last cfg7.N) = PhiS7 V c (Fin.last cfg7.N).val (Nat.le_of_lt_succ (Fin.last cfg7.N).isLt) from rfl,
    PhiS7_pos V c _ _ (by rw [Fin.val_last]; have : cfg7.N = 200 := N_7; omega), scopedRest7_acc]
  iintro ⟨HS, HR⟩
  isplitl [HS]; · iexists _; iexact HS
  iexact HR

end Region

end Cert.Kernel.Reg7

end
-- ==== Proof.K.Reg8Runs.lean ====
/- Region 8 (custom_call 8, `cc8_kernel`, grid ![1, 5]): the segment sum's body in each of its three control
   cases. The body keeps an accumulator (its last operand, a whole scratch buffer of shape 1024x300): at the first edge
   block of a node block (grid coordinate 1 equal to 0) it stores zeros into it; at every point it adds the one-hot
   product of the point's two input blocks to it; at the last edge block (coordinate 1 equal to 4) it copies it to
   the output's staging buffer, which it otherwise does not touch. Each case is a triple whose post names the
   accumulator's new contents as the payload `k8_pay2` of the input blocks and the contents found (zeros after a
   reset). -/
import proofs.«411400_j9251359555630_1_alg».proof.Proof.Gen.Kernel.Launch
import proofs.«411400_j9251359555630_1_alg».proof.Proof.Gen.Kernel.Skeleton
import proofs.«411400_j9251359555630_1_alg».proof.Proof.Gen.Kernel.Points
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.Kernel.Reg8

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The branch conditions, in closed form over the grid -/

/-- The condition of the body's first `scf.if` (the accumulator's reset), from the grid coordinates. -/
abbrev cond8_0 (i : grid8.Coords) : Prop :=
  (Scalar.cmpi .ne (Scalar.extui (Scalar.cmpi .eq (BitVec.ofNat 32 (i 1).val) 0#32)) 0#32) = 1#1
/-- It holds at the points whose position is 0 modulo 5: the first edge block of each node block. -/
theorem hcond8_0 : ∀ t : Fin cfg8.N, cond8_0 (grid8.coords t) ↔ t.val % 5 = 0 :=
  (by decide +kernel : ∀ t : Fin grid8.N, cond8_0 (grid8.coords t) ↔ t.val % 5 = 0)

/-- The condition of the body's second `scf.if` (the copy to the output), from the grid coordinates. -/
abbrev cond8_1 (i : grid8.Coords) : Prop := k8_cond2 i = 1#1
/-- It holds at the points whose position is 4 modulo 5: the last edge block of each node block. -/
theorem hcond8_1 : ∀ t : Fin cfg8.N, cond8_1 (grid8.coords t) ↔ t.val % 5 = 4 :=
  (by decide +kernel : ∀ t : Fin grid8.N, cond8_1 (grid8.coords t) ↔ t.val % 5 = 4)

/-! ## Where the windows are idle -/

/-- The two input windows are never idle. -/
theorem liveAt8_0 (t : Fin cfg8.N) : cfg8.idle 0 (grid8.coords t) = false := rfl
theorem liveAt8_1 (t : Fin cfg8.N) : cfg8.idle 1 (grid8.coords t) = false := rfl
/-- The output window is idle exactly where the second condition fails: the body stores into it only under it. -/
theorem idleAt8_2 (i : grid8.Coords) (h : ¬cond8_1 i) : cfg8.idle 2 i = true := by
  show (!(k8_cond2 i == 1#1)) = true
  cases hb : (k8_cond2 i == 1#1) with
  | false => rfl
  | true => exact absurd (eq_of_beq hb) h
theorem liveAt8_2 (i : grid8.Coords) (h : cond8_1 i) : cfg8.idle 2 i = false := by
  show (!(k8_cond2 i == 1#1)) = false
  rw [show k8_cond2 i = 1#1 from h]; rfl
/-- Off the last edge block the output's block is not written back. -/
theorem noFlush8_2 (t : Fin cfg8.N) (h : ¬t.val % 5 = 4) : (cfg8.win 2).flush t = false :=
  Bool.eq_false_iff.mpr fun hf => h ((flush8_2 t).mp hf)

/-! ## Whole-buffer accesses -/

/-- The offsets of every access of the body: zero on both axes. -/
theorem hz8 : (![0, 0] : Fin 2 → Nat) = fun _ => 0 := funext fun a => by fin_cases a <;> rfl

/-- A store through the whole-shape rectangle at zero offsets, made last, is what the buffer then reads, whatever
    was stored before and whatever the buffer held. -/
theorem read_writes_whole8 {S : Shape} {e : EltTy} {sp : Space} (v : View sig .tc sp S e) (f : v.ty.Contents (Elt F))
    {off : Fin S.rank → Nat} (h : off = fun _ => 0) (inb : ∀ a, off a + S.size a ≤ S.size a)
    (w : S.Idx → Elt F e) (L : List (View.Piece (Elt F) S e)) :
    v.read (Elt F) (v.writes (Elt F) f ((⟨Rect.unit off S.size inb, w⟩ : View.Piece (Elt F) S e) :: L)) = w := by
  refine (View.read_writes_eq_canon v f _ fun y =>
    ⟨⟨Rect.unit off S.size inb, w⟩, List.mem_cons_self, View.mem_set_unit_zero h inb y⟩).trans ?_
  exact View.canon_cons_unit_zero h inb w L

/-! ## The body's triple, case by case -/

set_option maxHeartbeats 1000000 in
/-- CASE A, the first edge block of a node block (first condition true, second false): on whole memrefs, the inputs' at
    contents `x0`, `x1`, the output's at `xo`, the accumulator at anything, the body runs to the continuation holding
    the first three as they were and the accumulator at the payload of the input blocks over zeros. -/
theorem run8_A (c : Dev nD) (i : grid8.Coords)
    (arg2 : Memref sig .tc .vmem S2000x1 .i32) (harg2 : arg2.IsWhole)
    (arg3 : Memref sig .tc .vmem S2000x300 .bf16) (harg3 : arg3.IsWhole)
    (arg4 : Memref sig .tc .vmem S64x300 .f32) (harg4 : arg4.IsWhole)
    (arg5 : Memref sig .tc .vmem S64x300 .f32) (harg5 : arg5.IsWhole)
    (hc0 : cond8_0 i) (hc1 : ¬cond8_1 i)
    (x0 : Vec F S2000x1 .i32) (x1 : Vec F S2000x300 .bf16) (xo : Vec F S64x300 .f32)
    (E : Set ℕ) (K : PUnit → sProp 𝕄) :
    iprop(owns (c : Thread nD τ) arg2 fullShare x0 ∗ owns (c : Thread nD τ) arg3 fullShare x1
        ∗ owns (c : Thread nD τ) arg4 fullShare xo ∗ (∃ d, owns (c : Thread nD τ) arg5 fullShare d)
        ∗ (iprop(owns (c : Thread nD τ) arg2 fullShare x0 ∗ owns (c : Thread nD τ) arg3 fullShare x1
            ∗ owns (c : Thread nD τ) arg4 fullShare xo
            ∗ owns (c : Thread nD τ) arg5 fullShare (k8_pay2 (F := F) i x0 x1 (k8_pay1 (F := F)))) -∗ K ⟨⟩))
      ⊢ wp frame (wpE (defs₀ (F := F)) Variants.none c none) E (cc8_kernel i arg2 harg2 arg3 harg3 arg4 harg4 arg5 harg5) K := by
  simp only [cc8_kernel_eq_skeleton]; unfold cc8_kernel_skel
  unfold owns
  iintro ⟨⟨%f0, %hf0, H0⟩, ⟨%f1, %hf1, H1⟩, ⟨%f2, %hf2, H2⟩, ⟨%ds, %fs, -, HS⟩, Hk⟩
  subst hf0; subst hf1; subst hf2
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact HS
  ipureintro
  sl_unfold_run_names
  rw [read_writes_whole8 _ _ hz8]
  simp only [View.readAt_eq_ld, View.ld_unit_zero (S := S2000x1) hz8, View.ld_unit_zero (S := S2000x300) hz8,
    View.readCov_unit_zero (S := S64x300) _ hz8]

set_option maxHeartbeats 1000000 in
/-- CASE B, an edge block that is neither the first nor the last (both conditions false): the accumulator, found at
    `xs`, is left at the payload of the input blocks over `xs`; the output's buffer is not touched. -/
theorem run8_B (c : Dev nD) (i : grid8.Coords)
    (arg2 : Memref sig .tc .vmem S2000x1 .i32) (harg2 : arg2.IsWhole)
    (arg3 : Memref sig .tc .vmem S2000x300 .bf16) (harg3 : arg3.IsWhole)
    (arg4 : Memref sig .tc .vmem S64x300 .f32) (harg4 : arg4.IsWhole)
    (arg5 : Memref sig .tc .vmem S64x300 .f32) (harg5 : arg5.IsWhole)
    (hc0 : ¬cond8_0 i) (hc1 : ¬cond8_1 i)
    (x0 : Vec F S2000x1 .i32) (x1 : Vec F S2000x300 .bf16) (xo : Vec F S64x300 .f32) (xs : Vec F S64x300 .f32)
    (E : Set ℕ) (K : PUnit → sProp 𝕄) :
    iprop(owns (c : Thread nD τ) arg2 fullShare x0 ∗ owns (c : Thread nD τ) arg3 fullShare x1
        ∗ owns (c : Thread nD τ) arg4 fullShare xo ∗ owns (c : Thread nD τ) arg5 fullShare xs
        ∗ (iprop(owns (c : Thread nD τ) arg2 fullShare x0 ∗ owns (c : Thread nD τ) arg3 fullShare x1
            ∗ owns (c : Thread nD τ) arg4 fullShare xo
            ∗ owns (c : Thread nD τ) arg5 fullShare (k8_pay2 (F := F) i x0 x1 xs)) -∗ K ⟨⟩))
      ⊢ wp frame (wpE (defs₀ (F := F)) Variants.none c none) E (cc8_kernel i arg2 harg2 arg3 harg3 arg4 harg4 arg5 harg5) K := by
  simp only [cc8_kernel_eq_skeleton]; unfold cc8_kernel_skel
  unfold owns
  iintro ⟨⟨%f0, %hf0, H0⟩, ⟨%f1, %hf1, H1⟩, ⟨%f2, %hf2, H2⟩, ⟨%fs, %hfs, HS⟩, Hk⟩
  subst hf0; subst hf1; subst hf2; subst hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact HS
  ipureintro
  sl_unfold_run_names
  rw [read_writes_whole8 _ _ hz8]
  simp only [View.readAt_eq_ld, View.ld_unit_zero (S := S2000x1) hz8, View.ld_unit_zero (S := S2000x300) hz8,
    View.ld_unit_zero (S := S64x300) hz8]

set_option maxHeartbeats 1000000 in
/-- CASE C, the last edge block of a node block (first condition false, second true): the accumulator, found at `xs`,
    is left at the payload of the input blocks over `xs`, and the output's buffer, found at anything, takes the same. -/
theorem run8_C (c : Dev nD) (i : grid8.Coords)
    (arg2 : Memref sig .tc .vmem S2000x1 .i32) (harg2 : arg2.IsWhole)
    (arg3 : Memref sig .tc .vmem S2000x300 .bf16) (harg3 : arg3.IsWhole)
    (arg4 : Memref sig .tc .vmem S64x300 .f32) (harg4 : arg4.IsWhole)
    (arg5 : Memref sig .tc .vmem S64x300 .f32) (harg5 : arg5.IsWhole)
    (hc0 : ¬cond8_0 i) (hc1 : cond8_1 i)
    (x0 : Vec F S2000x1 .i32) (x1 : Vec F S2000x300 .bf16) (xs : Vec F S64x300 .f32)
    (E : Set ℕ) (K : PUnit → sProp 𝕄) :
    iprop(owns (c : Thread nD τ) arg2 fullShare x0 ∗ owns (c : Thread nD τ) arg3 fullShare x1
        ∗ (∃ d, owns (c : Thread nD τ) arg4 fullShare d) ∗ owns (c : Thread nD τ) arg5 fullShare xs
        ∗ (iprop(owns (c : Thread nD τ) arg2 fullShare x0 ∗ owns (c : Thread nD τ) arg3 fullShare x1
            ∗ owns (c : Thread nD τ) arg4 fullShare (k8_pay2 (F := F) i x0 x1 xs)
            ∗ owns (c : Thread nD τ) arg5 fullShare (k8_pay2 (F := F) i x0 x1 xs)) -∗ K ⟨⟩))
      ⊢ wp frame (wpE (defs₀ (F := F)) Variants.none c none) E (cc8_kernel i arg2 harg2 arg3 harg3 arg4 harg4 arg5 harg5) K := by
  simp only [cc8_kernel_eq_skeleton]; unfold cc8_kernel_skel
  unfold owns
  iintro ⟨⟨%f0, %hf0, H0⟩, ⟨%f1, %hf1, H1⟩, ⟨%d2, %f2, -, H2⟩, ⟨%fs, %hfs, HS⟩, Hk⟩
  subst hf0; subst hf1; subst hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    sl_unfold_run_names
    rw [read_writes_whole8 _ _ hz8]
    simp only [View.readAt_eq_ld, View.ld_unit_zero (S := S2000x1) hz8, View.ld_unit_zero (S := S2000x300) hz8,
      View.ld_unit_zero (S := S64x300) hz8, View.readCov_unit_zero (S := S64x300) _ hz8]
  iexists _; isplitr
  swap; · iexact HS
  ipureintro
  sl_unfold_run_names
  rw [read_writes_whole8 _ _ hz8]
  simp only [View.readAt_eq_ld, View.ld_unit_zero (S := S2000x1) hz8, View.ld_unit_zero (S := S2000x300) hz8,
    View.ld_unit_zero (S := S64x300) hz8]

end Cert.Kernel.Reg8

end
-- ==== Proof.K.Reg8.lean ====
/- Region 8 (custom_call 8, `cc8_kernel`, grid ![1, 5]) at the buffer contents `V` the region is entered with: the
   windows' blocks, what the accumulator and the output's staging buffer hold after each grid point, the pipeline's proof
   data, and the body obligation. The accumulator is the kernel's own scratch buffer (shape 1024x300): the invariant
   hands it to the body out of the scoped buffers no window stages, at anything before the first point and afterwards at
   what the point before left in it. -/
import proofs.«411400_j9251359555630_1_alg».proof.Proof.K.Reg8Runs

set_option maxRecDepth 16384

noncomputable section

namespace Cert.Kernel.Reg8

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region
-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk8 (c : Dev nD) (w : Fin cfg8.W) (t : Fin cfg8.N) : ((cfg8.win w).xblock (cfg8.grid.coords t)).Idx → Elt F (cfg8.win w).elt :=
  ((cfg8.win w).blk t).view.read (Elt F) (V c (Pipeline.arrRef spec8 w))

/-! ## The memrefs the body is called with -/

/-- Each window's current staging memref at point `t`, as the pipeline passes it, and its wholeness. -/
abbrev ms8_0 (t : Fin cfg8.N) : Memref sig .tc .vmem S2000x1 .i32 := win8_0.stage (cfg8.slots t 0)
abbrev hs8_0 (t : Fin cfg8.N) : (ms8_0 t).IsWhole := hstage8_0 ((cfg8.slots t 0).cast nbuf8_0)
abbrev ms8_1 (t : Fin cfg8.N) : Memref sig .tc .vmem S2000x300 .bf16 := win8_1.stage (cfg8.slots t 1)
abbrev hs8_1 (t : Fin cfg8.N) : (ms8_1 t).IsWhole := hstage8_1 ((cfg8.slots t 1).cast nbuf8_1)
abbrev ms8_2 (t : Fin cfg8.N) : Memref sig .tc .vmem S64x300 .f32 := win8_2.stage (cfg8.slots t 2)
abbrev hs8_2 (t : Fin cfg8.N) : (ms8_2 t).IsWhole := hstage8_2 ((cfg8.slots t 2).cast nbuf8_2)
/-- The accumulator: a whole scoped buffer of the kernel's own, passed beside the windows. -/
abbrev scM8_0 : Memref sig .tc .vmem S64x300 .f32 := Memref.whole cc8_scratch0

/-! ## What the accumulator and the output hold after each point -/

/-- (output staging buffer, accumulator) after the body at position `n`. The accumulator is the payload `k8_pay2` of the
    point's two input blocks over zeros (`k8_pay1`) where `n % 5 = 0` and over what the point before left elsewhere.
    The output's buffer takes the accumulator where `n % 5 = 4`; elsewhere the body leaves it as found (the component
    there repeats the previous one, and at position 0 the accumulator: a placeholder nothing reads). -/
def outsAt8 (c : Dev nD) : (n : ℕ) → n < cfg8.N → Vec F S64x300 .f32 × Vec F S64x300 .f32
  | 0, hn =>
    (k8_pay2 (F := F) (grid8.coords ⟨0, hn⟩) (iblk8 V c 0 ⟨0, hn⟩) (iblk8 V c 1 ⟨0, hn⟩) (k8_pay1 (F := F)),
     k8_pay2 (F := F) (grid8.coords ⟨0, hn⟩) (iblk8 V c 0 ⟨0, hn⟩) (iblk8 V c 1 ⟨0, hn⟩) (k8_pay1 (F := F)))
  | n + 1, hn =>
    (if (n + 1) % 5 = 4 then
        k8_pay2 (F := F) (grid8.coords ⟨n + 1, hn⟩) (iblk8 V c 0 ⟨n + 1, hn⟩) (iblk8 V c 1 ⟨n + 1, hn⟩)
          (if (n + 1) % 5 = 0 then k8_pay1 (F := F) else (outsAt8 c n (Nat.lt_of_succ_lt hn)).2)
      else (outsAt8 c n (Nat.lt_of_succ_lt hn)).1,
     k8_pay2 (F := F) (grid8.coords ⟨n + 1, hn⟩) (iblk8 V c 0 ⟨n + 1, hn⟩) (iblk8 V c 1 ⟨n + 1, hn⟩)
       (if (n + 1) % 5 = 0 then k8_pay1 (F := F) else (outsAt8 c n (Nat.lt_of_succ_lt hn)).2))

/-- The accumulator's step: the payload of the point's blocks over zeros at the first edge block of a node block, over
    the previous accumulator elsewhere. -/
theorem scratch_step8 (c : Dev nD) (t : Fin cfg8.N) :
    (outsAt8 V c t.val t.isLt).2 = k8_pay2 (F := F) (grid8.coords t) (iblk8 V c 0 t) (iblk8 V c 1 t)
      (if t.val % 5 = 0 then k8_pay1 (F := F) else (outsAt8 V c (t.val - 1) (Nat.lt_of_le_of_lt (Nat.sub_le _ _) t.isLt)).2) := by
  obtain ⟨n, hn⟩ := t
  cases n with
  | zero => exact congrArg (k8_pay2 (F := F) (grid8.coords ⟨0, hn⟩) (iblk8 V c 0 ⟨0, hn⟩) (iblk8 V c 1 ⟨0, hn⟩)) (if_pos (Nat.zero_mod 5)).symm
  | succ n => rfl

/-- At the last edge block of a node block the output's buffer is the accumulator. -/
theorem out_flush8 (c : Dev nD) (t : Fin cfg8.N) (h : t.val % 5 = 4) :
    (outsAt8 V c t.val t.isLt).1 = (outsAt8 V c t.val t.isLt).2 := by
  obtain ⟨n, hn⟩ := t
  cases n with
  | zero => rfl
  | succ n => exact if_pos h

/-! ## The invariant -/

/-- The region invariant before position `n`: before the first point the scoped buffers no window stages, each at
    anything (the accumulator among them); afterwards the accumulator at what the point before left in it, beside the
    others, unopened. -/
def PhiS8 (c : Dev nD) : (n : ℕ) → n ≤ cfg8.N → sProp 𝕄
  | 0, _ => Pipeline.scopedRest (Ix := Unit) (Name := ℕ) (U := UR sig nD τ) (Lvl := ℕ) (Val := Elt F) spec8 c
  | n + 1, hn => iprop(owns (c : Thread nD τ) scM8_0 fullShare ((outsAt8 V c n hn).2) ∗ Pipeline.scopedRestBut (Ix := Unit) (Name := ℕ) (U := UR sig nD τ) (Lvl := ℕ) (Val := Elt F) spec8 c [cc8_scratch0])

theorem PhiS8_zero (c : Dev nD) (n : ℕ) (h : n ≤ cfg8.N) (hz : n = 0) : PhiS8 V c n h = Pipeline.scopedRest (Ix := Unit) (Name := ℕ) (U := UR sig nD τ) (Lvl := ℕ) (Val := Elt F) spec8 c := by
  subst hz; rfl

theorem PhiS8_succ (c : Dev nD) (n : ℕ) (hn : n < cfg8.N) :
    PhiS8 V c (n + 1) hn = iprop(owns (c : Thread nD τ) scM8_0 fullShare ((outsAt8 V c n hn).2) ∗ Pipeline.scopedRestBut (Ix := Unit) (Name := ℕ) (U := UR sig nD τ) (Lvl := ℕ) (Val := Elt F) spec8 c [cc8_scratch0]) := rfl

theorem PhiS8_pos (c : Dev nD) (n : ℕ) (h : n ≤ cfg8.N) (hz : n ≠ 0) :
    PhiS8 V c n h = iprop(owns (c : Thread nD τ) scM8_0 fullShare ((outsAt8 V c (n - 1) (by omega)).2) ∗ Pipeline.scopedRestBut (Ix := Unit) (Name := ℕ) (U := UR sig nD τ) (Lvl := ℕ) (Val := Elt F) spec8 c [cc8_scratch0]) := by
  cases n with
  | zero => exact absurd rfl hz
  | succ n => rfl

/-- The scoped buffers no window stages, with the accumulator taken out as a memref owned at some contents. -/
theorem scopedRest8_acc (c : Dev nD) :
    (Pipeline.scopedRest (Ix := Unit) (Name := ℕ) (U := UR sig nD τ) (Lvl := ℕ) (Val := Elt F) spec8 c : sProp 𝕄)
      = iprop(iprop(∃ d, owns (c : Thread nD τ) scM8_0 fullShare d) ∗ Pipeline.scopedRestBut (Ix := Unit) (Name := ℕ) (U := UR sig nD τ) (Lvl := ℕ) (Val := Elt F) spec8 c [cc8_scratch0]) := by
  rw [scopedRest8_split]; simp only [scM8_0, owns_whole]; try rfl

/-! ## The pipeline's proof data -/

/-- The proof data of pipeline 8 on core `c`: the arrays as the region finds them; after the body at point `t` each
    input's buffer at its block and the output's at `outsAt8`'s first component; the invariant `PhiS8`; nothing owed;
    full shares. -/
def dat8 (c : Dev nD) : Dat τ (Elt F) Unit ℕ (UR sig nD τ) ℕ cfg8 c where
  A w := V c (Pipeline.arrRef spec8 w)
  after w t := match w with
    | ⟨0, _⟩ => iblk8 V c 0 t
    | ⟨1, _⟩ => iblk8 V c 1 t
    | ⟨2, _⟩ => (outsAt8 V c t.val t.isLt).1
  Φ t := PhiS8 V c t.val (Nat.le_of_lt_succ t.isLt)
  q _ := fullShare
  owed _ := 0

/-- The proof data's arrays are the region-entry contents. -/
theorem A_eq8 (c : Dev nD) (w : Fin cfg8.W) : (dat8 V c).A w = V c (Pipeline.arrRef spec8 w) := by
  dsimp only [dat8]

/-- What the body leaves, window by window. -/
theorem after8_0 (c : Dev nD) (t : Fin cfg8.N) : (dat8 V c).after 0 t = iblk8 V c 0 t := by dsimp only [dat8]
theorem after8_1 (c : Dev nD) (t : Fin cfg8.N) : (dat8 V c).after 1 t = iblk8 V c 1 t := by dsimp only [dat8]
theorem after8_2 (c : Dev nD) (t : Fin cfg8.N) : (dat8 V c).after 2 t = (outsAt8 V c t.val t.isLt).1 := by dsimp only [dat8]

/-- The invariant at a point's start, restated at the point's position. -/
theorem PhiS8_castSucc (c : Dev nD) (t : Fin cfg8.N) :
    (dat8 V c).Φ t.castSucc = PhiS8 V c t.val (Nat.le_of_lt t.isLt) := by
  dsimp only [dat8]; simp only [Fin.coe_castSucc]

/-- Each input's current staging buffer holds its block at every point: both are fetched at every point, and neither
    window is cut, so the fetch fills the whole buffer with the array's block. -/
theorem before8_0 (c : Dev nD) (t : Fin cfg8.N) (d) : (dat8 V c).before 0 t d = iblk8 V c 0 t := by
  unfold Dat.before; rw [fetch8_0 t, if_pos rfl]; unfold Dat.fetched Dat.blockOf iblk8; rw [A_eq8]; rfl
theorem before8_1 (c : Dev nD) (t : Fin cfg8.N) (d) : (dat8 V c).before 1 t d = iblk8 V c 1 t := by
  unfold Dat.before; rw [fetch8_1 t, if_pos rfl]; unfold Dat.fetched Dat.blockOf iblk8; rw [A_eq8]; rfl

/-- The inputs' buffers are handed back at their blocks (the windows are never idle). -/
theorem leaves8_0 (c : Dev nD) (t : Fin cfg8.N) :
    (dat8 V c).leavesExact 0 t = owns (c : Thread nD τ) (ms8_0 t) fullShare (iblk8 V c 0 t) := by
  unfold Dat.leavesExact; rw [liveAt8_0 t, after8_0]
theorem leaves8_1 (c : Dev nD) (t : Fin cfg8.N) :
    (dat8 V c).leavesExact 1 t = owns (c : Thread nD τ) (ms8_1 t) fullShare (iblk8 V c 1 t) := by
  unfold Dat.leavesExact; rw [liveAt8_1 t, after8_1]

/-! ## The body obligation, at a generic point -/

/-- What the body is called with at point `t`, the windows one by one, -/
def bodyPre8 (c : Dev nD) (t : Fin cfg8.N) : sProp 𝕄 :=
  iprop((dat8 V c).Φ t.castSucc ∗ (dat8 V c).owesAt () t.castSucc
    ∗ (∃ d, owns (c : Thread nD τ) (ms8_0 t) fullShare ((dat8 V c).before 0 t d))
    ∗ (∃ d, owns (c : Thread nD τ) (ms8_1 t) fullShare ((dat8 V c).before 1 t d))
    ∗ (∃ d, owns (c : Thread nD τ) (ms8_2 t) fullShare ((dat8 V c).before 2 t d)))

/-- and what it returns. -/
def bodyPost8 (c : Dev nD) (t : Fin cfg8.N) : sProp 𝕄 :=
  iprop((dat8 V c).Φ t.succ ∗ (dat8 V c).owesAt () t.succ
    ∗ (dat8 V c).leavesExact 0 t
    ∗ (dat8 V c).leavesExact 1 t
    ∗ (dat8 V c).leavesExact 2 t)

set_option maxHeartbeats 4800000 in
/-- The body at any point. The inputs' memrefs hold their blocks; the position modulo 5 says which case the point is
    in. The invariant hands the body the accumulator (at anything before the first point, else at what the point before
    left) and takes it back at this point's contents (`scratch_step8`). Off the last edge block the output's buffer goes
    back as found; at it, the buffer takes the accumulator (`out_flush8`). The core owes nothing throughout. -/
theorem sound_body8 (c : Dev nD) (t : Fin cfg8.N) :
    bodyPre8 V c t ⊢ wp frame (wpE (defs₀ (F := F)) Variants.none c none) Set.univ (bodyAt8 t) (fun _ => bodyPost8 V c t) := by
  unfold bodyPre8 bodyPost8 bodyAt8
  simp only [before8_0, before8_1]
  rw [show (dat8 V c).owesAt () t.succ = (dat8 V c).owesAt () t.castSucc from rfl]
  rw [show (dat8 V c).Φ t.succ = PhiS8 V c (t.val + 1) t.isLt from rfl, PhiS8_succ]
  rw [leaves8_0, leaves8_1]
  have hN : t.val < 5 := lt_of_lt_of_eq t.isLt (show cfg8.N = 5 from N_8)
  by_cases h0 : t.val % 5 = 0
  · have h1 : ¬t.val % 5 = 4 := by omega
    rw [Dat.leavesExact_idle (dat8 V c) 2 t (idleAt8_2 _ (fun h => h1 ((hcond8_1 t).mp h))) (noFlush8_2 t h1)]
    rw [scratch_step8 V c t, if_pos h0]
    by_cases hz : t.val = 0
    · rw [PhiS8_castSucc V c t, PhiS8_zero V c _ _ hz, scopedRest8_acc]
      iintro ⟨⟨HS, HR⟩, Ho, ⟨%d0, H0⟩, ⟨%d1, H1⟩, ⟨%d2, H2⟩⟩
      iapply (run8_A c (grid8.coords t) _ _ _ _ _ _ _ _ ((hcond8_0 t).mpr h0) (fun h => h1 ((hcond8_1 t).mp h)) (iblk8 V c 0 t) (iblk8 V c 1 t) _ Set.univ _)
      isplitl [H0]; · iexact H0
      isplitl [H1]; · iexact H1
      isplitl [H2]; · iexact H2
      isplitl [HS]; · iexact HS
      iintro ⟨H0, H1, H2, HS⟩
      isplitl [HS HR]
      · isplitl [HS]; · iexact HS
        iexact HR
      isplitl [Ho]; · iexact Ho
      isplitl [H0]; · iexact H0
      isplitl [H1]; · iexact H1
      iexists _; iexact H2
    · rw [PhiS8_castSucc V c t, PhiS8_pos V c _ _ hz]
      iintro ⟨⟨HS, HR⟩, Ho, ⟨%d0, H0⟩, ⟨%d1, H1⟩, ⟨%d2, H2⟩⟩
      iapply (run8_A c (grid8.coords t) _ _ _ _ _ _ _ _ ((hcond8_0 t).mpr h0) (fun h => h1 ((hcond8_1 t).mp h)) (iblk8 V c 0 t) (iblk8 V c 1 t) _ Set.univ _)
      isplitl [H0]; · iexact H0
      isplitl [H1]; · iexact H1
      isplitl [H2]; · iexact H2
      isplitl [HS]; · iexists _; iexact HS
      iintro ⟨H0, H1, H2, HS⟩
      isplitl [HS HR]
      · isplitl [HS]; · iexact HS
        iexact HR
      isplitl [Ho]; · iexact Ho
      isplitl [H0]; · iexact H0
      isplitl [H1]; · iexact H1
      iexists _; iexact H2
  · have hz : t.val ≠ 0 := fun hz => h0 (by omega)
    rw [PhiS8_castSucc V c t, PhiS8_pos V c _ _ hz]
    by_cases h1 : t.val % 5 = 4
    · rw [show (dat8 V c).leavesExact 2 t = owns (c : Thread nD τ) (ms8_2 t) fullShare ((dat8 V c).after 2 t) from by
        unfold Dat.leavesExact; rw [liveAt8_2 (grid8.coords t) ((hcond8_1 t).mpr h1)], after8_2, out_flush8 V c t h1]
      rw [scratch_step8 V c t, if_neg h0]
      iintro ⟨⟨HS, HR⟩, Ho, ⟨%d0, H0⟩, ⟨%d1, H1⟩, ⟨%d2, H2⟩⟩
      iapply (run8_C c (grid8.coords t) _ _ _ _ _ _ _ _ (fun h => h0 ((hcond8_0 t).mp h)) ((hcond8_1 t).mpr h1) (iblk8 V c 0 t) (iblk8 V c 1 t) _ Set.univ _)
      isplitl [H0]; · iexact H0
      isplitl [H1]; · iexact H1
      isplitl [H2]; · iexists _; iexact H2
      isplitl [HS]; · iexact HS
      iintro ⟨H0, H1, H2, HS⟩
      isplitl [HS HR]
      · isplitl [HS]; · iexact HS
        iexact HR
      isplitl [Ho]; · iexact Ho
      isplitl [H0]; · iexact H0
      isplitl [H1]; · iexact H1
      iexact H2
    · rw [Dat.leavesExact_idle (dat8 V c) 2 t (idleAt8_2 _ (fun h => h1 ((hcond8_1 t).mp h))) (noFlush8_2 t h1)]
      rw [scratch_step8 V c t, if_neg h0]
      iintro ⟨⟨HS, HR⟩, Ho, ⟨%d0, H0⟩, ⟨%d1, H1⟩, ⟨%d2, H2⟩⟩
      iapply (run8_B c (grid8.coords t) _ _ _ _ _ _ _ _ (fun h => h0 ((hcond8_0 t).mp h)) (fun h => h1 ((hcond8_1 t).mp h)) (iblk8 V c 0 t) (iblk8 V c 1 t) _ _ Set.univ _)
      isplitl [H0]; · iexact H0
      isplitl [H1]; · iexact H1
      isplitl [H2]; · iexact H2
      isplitl [HS]; · iexact HS
      iintro ⟨H0, H1, H2, HS⟩
      isplitl [HS HR]
      · isplitl [HS]; · iexact HS
        iexact HR
      isplitl [Ho]; · iexact Ho
      isplitl [H0]; · iexact H0
      isplitl [H1]; · iexact H1
      iexists _; iexact H2

/-- The library's body obligation, at every point. -/
theorem body_obligation8 (c : Dev nD) : BodyObligation (dat8 (F := F) V c) (defs₀ (F := F)) Variants.none () Set.univ := fun t => by
  rw [bigSep_W8, bigSep_W8]
  exact sound_body8 V c t

/-! ## The invariant at the region's two ends -/

/-- The scoped buffers no window stages are the invariant before the first point. -/
theorem Phi8_in (c : Dev nD) : (Pipeline.scopedRest (Ix := Unit) (Name := ℕ) (U := UR sig nD τ) (Lvl := ℕ) (Val := Elt F) spec8 c : sProp 𝕄) ⊢ (dat8 V c).Φ 0 := by
  rw [show (dat8 V c).Φ 0 = PhiS8 V c 0 (Nat.zero_le _) from rfl, PhiS8_zero V c 0 _ rfl]

/-- After the last point the invariant gives them back: the accumulator's named contents are forgotten. -/
theorem Phi8_out (c : Dev nD) : (dat8 V c).Φ (Fin.last cfg8.N) ⊢ (Pipeline.scopedRest (Ix := Unit) (Name := ℕ) (U := UR sig nD τ) (Lvl := ℕ) (Val := Elt F) spec8 c : sProp 𝕄) := by
  rw [show (dat8 V c).Φ (Fin.last cfg8.N) = PhiS8 V c (Fin.last cfg8.N).val (Nat.le_of_lt_succ (Fin.last cfg8.N).isLt) from rfl,
    PhiS8_pos V c _ _ (by rw [Fin.val_last]; have : cfg8.N = 5 := N_8; omega), scopedRest8_acc]
  iintro ⟨HS, HR⟩
  isplitl [HS]; · iexists _; iexact HS
  iexact HR

end Region

end Cert.Kernel.Reg8

end
-- ==== Proof.K.Vals.lean ====
/-
  The buffer contents between the items of the kernel program's @main, with every region's output named.

  `W j` is the contents after item j-1: a host stretch applies its operations to the contents before it; a region
  replaces its output array by what its pipeline's proof data fold from the write-backs (`Dat.arrAt 2 N` of the region's
  data at the contents the region is entered from) and changes nothing else.  The family `outs` hands the generated
  valuations each region's output, and then those valuations ARE the `W j` (`Veq_j`, one step at a time).
-/
import proofs.«411400_j9251359555630_1_alg».proof.Proof.K.RegionsP
import proofs.«411400_j9251359555630_1_alg».proof.Proof.K.Reg0
import proofs.«411400_j9251359555630_1_alg».proof.Proof.K.Reg1
import proofs.«411400_j9251359555630_1_alg».proof.Proof.K.Reg2
import proofs.«411400_j9251359555630_1_alg».proof.Proof.K.Reg3
import proofs.«411400_j9251359555630_1_alg».proof.Proof.K.Reg4
import proofs.«411400_j9251359555630_1_alg».proof.Proof.K.Reg5
import proofs.«411400_j9251359555630_1_alg».proof.Proof.K.Reg6
import proofs.«411400_j9251359555630_1_alg».proof.Proof.K.Reg7
import proofs.«411400_j9251359555630_1_alg».proof.Proof.K.Reg8

noncomputable section

namespace Cert.Kernel.Run

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)
open Cert.Kernel Cert.Kernel.Gen

variable {F : FTy → Type} [FloatOps F]
variable (m : (ℓ : Loc nD τ sig) → Buf (Elt F) ℓ)

/-! ## The contents after each item -/

/-- The launch contents. -/
def W0 (c : Dev nD) : Valuation τ sig (Elt F) := V0 m c
/-- After item 0, the host stretch `hostOps0`. -/
def W1 (c : Dev nD) : Valuation τ sig (Elt F) := StableHlo.after hostOps0 (W0 m c)
/-- What region 0 is entered from. -/
abbrev Vin0 (c : Dev nD) (b : Ref sig .tc) : Buf (Elt F) ((c : Thread nD τ).loc b) := W1 m c b
/-- What region 0 leaves in its output array `main_v15`. -/
def o0 (c : Dev nD) : Buf (Elt F) ((c : Thread nD τ).loc main_v15) := (Reg0.dat0 (Vin0 m) c).arrAt 2 cfg0.N
/-- After item 1, region 0: its output array replaced, nothing else changed. -/
def W2 (c : Dev nD) : Valuation τ sig (Elt F) := Function.update (W1 m c) main_v15 (o0 m c)
/-- After item 2, the host stretch `hostOps1`. -/
def W3 (c : Dev nD) : Valuation τ sig (Elt F) := StableHlo.after hostOps1 (W2 m c)
/-- After item 3, the host stretch `hostOps1_1`. -/
def W4 (c : Dev nD) : Valuation τ sig (Elt F) := StableHlo.after hostOps1_1 (W3 m c)
/-- After item 4, the host stretch `hostOps1_2`. -/
def W5 (c : Dev nD) : Valuation τ sig (Elt F) := StableHlo.after hostOps1_2 (W4 m c)
/-- After item 5, the host stretch `hostOps1_3`. -/
def W6 (c : Dev nD) : Valuation τ sig (Elt F) := StableHlo.after hostOps1_3 (W5 m c)
/-- After item 6, the host stretch `hostOps1_4`. -/
def W7 (c : Dev nD) : Valuation τ sig (Elt F) := StableHlo.after hostOps1_4 (W6 m c)
/-- After item 7, the host stretch `hostOps1_5`. -/
def W8 (c : Dev nD) : Valuation τ sig (Elt F) := StableHlo.after hostOps1_5 (W7 m c)
/-- After item 8, the host stretch `hostOps1_6`. -/
def W9 (c : Dev nD) : Valuation τ sig (Elt F) := StableHlo.after hostOps1_6 (W8 m c)
/-- After item 9, the host stretch `hostOps1_7`. -/
def W10 (c : Dev nD) : Valuation τ sig (Elt F) := StableHlo.after hostOps1_7 (W9 m c)
/-- After item 10, the host stretch `hostOps1_8`. -/
def W11 (c : Dev nD) : Valuation τ sig (Elt F) := StableHlo.after hostOps1_8 (W10 m c)
/-- What region 1 is entered from. -/
abbrev Vin1 (c : Dev nD) (b : Ref sig .tc) : Buf (Elt F) ((c : Thread nD τ).loc b) := W11 m c b
/-- What region 1 leaves in its output array `main_v95`. -/
def o1 (c : Dev nD) : Buf (Elt F) ((c : Thread nD τ).loc main_v95) := (Reg1.dat1 (Vin1 m) c).arrAt 2 cfg1.N
/-- After item 11, region 1: its output array replaced, nothing else changed. -/
def W12 (c : Dev nD) : Valuation τ sig (Elt F) := Function.update (W11 m c) main_v95 (o1 m c)
/-- After item 12, the host stretch `hostOps2`. -/
def W13 (c : Dev nD) : Valuation τ sig (Elt F) := StableHlo.after hostOps2 (W12 m c)
/-- After item 13, the host stretch `hostOps2_1`. -/
def W14 (c : Dev nD) : Valuation τ sig (Elt F) := StableHlo.after hostOps2_1 (W13 m c)
/-- After item 14, the host stretch `hostOps2_2`. -/
def W15 (c : Dev nD) : Valuation τ sig (Elt F) := StableHlo.after hostOps2_2 (W14 m c)
/-- After item 15, the host stretch `hostOps2_3`. -/
def W16 (c : Dev nD) : Valuation τ sig (Elt F) := StableHlo.after hostOps2_3 (W15 m c)
/-- After item 16, the host stretch `hostOps2_4`. -/
def W17 (c : Dev nD) : Valuation τ sig (Elt F) := StableHlo.after hostOps2_4 (W16 m c)
/-- After item 17, the host stretch `hostOps2_5`. -/
def W18 (c : Dev nD) : Valuation τ sig (Elt F) := StableHlo.after hostOps2_5 (W17 m c)
/-- After item 18, the host stretch `hostOps2_6`. -/
def W19 (c : Dev nD) : Valuation τ sig (Elt F) := StableHlo.after hostOps2_6 (W18 m c)
/-- After item 19, the host stretch `hostOps2_7`. -/
def W20 (c : Dev nD) : Valuation τ sig (Elt F) := StableHlo.after hostOps2_7 (W19 m c)
/-- After item 20, the host stretch `hostOps2_8`. -/
def W21 (c : Dev nD) : Valuation τ sig (Elt F) := StableHlo.after hostOps2_8 (W20 m c)
/-- What region 2 is entered from. -/
abbrev Vin2 (c : Dev nD) (b : Ref sig .tc) : Buf (Elt F) ((c : Thread nD τ).loc b) := W21 m c b
/-- What region 2 leaves in its output array `main_v152`. -/
def o2 (c : Dev nD) : Buf (Elt F) ((c : Thread nD τ).loc main_v152) := (Reg2.dat2 (Vin2 m) c).arrAt 2 cfg2.N
/-- After item 21, region 2: its output array replaced, nothing else changed. -/
def W22 (c : Dev nD) : Valuation τ sig (Elt F) := Function.update (W21 m c) main_v152 (o2 m c)
/-- After item 22, the host stretch `hostOps3`. -/
def W23 (c : Dev nD) : Valuation τ sig (Elt F) := StableHlo.after hostOps3 (W22 m c)
/-- After item 23, the host stretch `hostOps3_1`. -/
def W24 (c : Dev nD) : Valuation τ sig (Elt F) := StableHlo.after hostOps3_1 (W23 m c)
/-- After item 24, the host stretch `hostOps3_2`. -/
def W25 (c : Dev nD) : Valuation τ sig (Elt F) := StableHlo.after hostOps3_2 (W24 m c)
/-- After item 25, the host stretch `hostOps3_3`. -/
def W26 (c : Dev nD) : Valuation τ sig (Elt F) := StableHlo.after hostOps3_3 (W25 m c)
/-- After item 26, the host stretch `hostOps3_4`. -/
def W27 (c : Dev nD) : Valuation τ sig (Elt F) := StableHlo.after hostOps3_4 (W26 m c)
/-- After item 27, the host stretch `hostOps3_5`. -/
def W28 (c : Dev nD) : Valuation τ sig (Elt F) := StableHlo.after hostOps3_5 (W27 m c)
/-- After item 28, the host stretch `hostOps3_6`. -/
def W29 (c : Dev nD) : Valuation τ sig (Elt F) := StableHlo.after hostOps3_6 (W28 m c)
/-- After item 29, the host stretch `hostOps3_7`. -/
def W30 (c : Dev nD) : Valuation τ sig (Elt F) := StableHlo.after hostOps3_7 (W29 m c)
/-- After item 30, the host stretch `hostOps3_8`. -/
def W31 (c : Dev nD) : Valuation τ sig (Elt F) := StableHlo.after hostOps3_8 (W30 m c)
/-- What region 3 is entered from. -/
abbrev Vin3 (c : Dev nD) (b : Ref sig .tc) : Buf (Elt F) ((c : Thread nD τ).loc b) := W31 m c b
/-- What region 3 leaves in its output array `main_v231`. -/
def o3 (c : Dev nD) : Buf (Elt F) ((c : Thread nD τ).loc main_v231) := (Reg3.dat3 (Vin3 m) c).arrAt 2 cfg3.N
/-- After item 31, region 3: its output array replaced, nothing else changed. -/
def W32 (c : Dev nD) : Valuation τ sig (Elt F) := Function.update (W31 m c) main_v231 (o3 m c)
/-- After item 32, the host stretch `hostOps4`. -/
def W33 (c : Dev nD) : Valuation τ sig (Elt F) := StableHlo.after hostOps4 (W32 m c)
/-- After item 33, the host stretch `hostOps4_1`. -/
def W34 (c : Dev nD) : Valuation τ sig (Elt F) := StableHlo.after hostOps4_1 (W33 m c)
/-- After item 34, the host stretch `hostOps4_2`. -/
def W35 (c : Dev nD) : Valuation τ sig (Elt F) := StableHlo.after hostOps4_2 (W34 m c)
/-- After item 35, the host stretch `hostOps4_3`. -/
def W36 (c : Dev nD) : Valuation τ sig (Elt F) := StableHlo.after hostOps4_3 (W35 m c)
/-- After item 36, the host stretch `hostOps4_4`. -/
def W37 (c : Dev nD) : Valuation τ sig (Elt F) := StableHlo.after hostOps4_4 (W36 m c)
/-- After item 37, the host stretch `hostOps4_5`. -/
def W38 (c : Dev nD) : Valuation τ sig (Elt F) := StableHlo.after hostOps4_5 (W37 m c)
/-- After item 38, the host stretch `hostOps4_6`. -/
def W39 (c : Dev nD) : Valuation τ sig (Elt F) := StableHlo.after hostOps4_6 (W38 m c)
/-- After item 39, the host stretch `hostOps4_7`. -/
def W40 (c : Dev nD) : Valuation τ sig (Elt F) := StableHlo.after hostOps4_7 (W39 m c)
/-- After item 40, the host stretch `hostOps4_8`. -/
def W41 (c : Dev nD) : Valuation τ sig (Elt F) := StableHlo.after hostOps4_8 (W40 m c)
/-- What region 4 is entered from. -/
abbrev Vin4 (c : Dev nD) (b : Ref sig .tc) : Buf (Elt F) ((c : Thread nD τ).loc b) := W41 m c b
/-- What region 4 leaves in its output array `main_v288`. -/
def o4 (c : Dev nD) : Buf (Elt F) ((c : Thread nD τ).loc main_v288) := (Reg4.dat4 (Vin4 m) c).arrAt 2 cfg4.N
/-- After item 41, region 4: its output array replaced, nothing else changed. -/
def W42 (c : Dev nD) : Valuation τ sig (Elt F) := Function.update (W41 m c) main_v288 (o4 m c)
/-- After item 42, the host stretch `hostOps5`. -/
def W43 (c : Dev nD) : Valuation τ sig (Elt F) := StableHlo.after hostOps5 (W42 m c)
/-- After item 43, the host stretch `hostOps5_1`. -/
def W44 (c : Dev nD) : Valuation τ sig (Elt F) := StableHlo.after hostOps5_1 (W43 m c)
/-- After item 44, the host stretch `hostOps5_2`. -/
def W45 (c : Dev nD) : Valuation τ sig (Elt F) := StableHlo.after hostOps5_2 (W44 m c)
/-- After item 45, the host stretch `hostOps5_3`. -/
def W46 (c : Dev nD) : Valuation τ sig (Elt F) := StableHlo.after hostOps5_3 (W45 m c)
/-- After item 46, the host stretch `hostOps5_4`. -/
def W47 (c : Dev nD) : Valuation τ sig (Elt F) := StableHlo.after hostOps5_4 (W46 m c)
/-- After item 47, the host stretch `hostOps5_5`. -/
def W48 (c : Dev nD) : Valuation τ sig (Elt F) := StableHlo.after hostOps5_5 (W47 m c)
/-- After item 48, the host stretch `hostOps5_6`. -/
def W49 (c : Dev nD) : Valuation τ sig (Elt F) := StableHlo.after hostOps5_6 (W48 m c)
/-- After item 49, the host stretch `hostOps5_7`. -/
def W50 (c : Dev nD) : Valuation τ sig (Elt F) := StableHlo.after hostOps5_7 (W49 m c)
/-- After item 50, the host stretch `hostOps5_8`. -/
def W51 (c : Dev nD) : Valuation τ sig (Elt F) := StableHlo.after hostOps5_8 (W50 m c)
/-- What region 5 is entered from. -/
abbrev Vin5 (c : Dev nD) (b : Ref sig .tc) : Buf (Elt F) ((c : Thread nD τ).loc b) := W51 m c b
/-- What region 5 leaves in its output array `main_v367`. -/
def o5 (c : Dev nD) : Buf (Elt F) ((c : Thread nD τ).loc main_v367) := (Reg5.dat5 (Vin5 m) c).arrAt 2 cfg5.N
/-- After item 51, region 5: its output array replaced, nothing else changed. -/
def W52 (c : Dev nD) : Valuation τ sig (Elt F) := Function.update (W51 m c) main_v367 (o5 m c)
/-- After item 52, the host stretch `hostOps6`. -/
def W53 (c : Dev nD) : Valuation τ sig (Elt F) := StableHlo.after hostOps6 (W52 m c)
/-- After item 53, the host stretch `hostOps6_1`. -/
def W54 (c : Dev nD) : Valuation τ sig (Elt F) := StableHlo.after hostOps6_1 (W53 m c)
/-- After item 54, the host stretch `hostOps6_2`. -/
def W55 (c : Dev nD) : Valuation τ sig (Elt F) := StableHlo.after hostOps6_2 (W54 m c)
/-- After item 55, the host stretch `hostOps6_3`. -/
def W56 (c : Dev nD) : Valuation τ sig (Elt F) := StableHlo.after hostOps6_3 (W55 m c)
/-- After item 56, the host stretch `hostOps6_4`. -/
def W57 (c : Dev nD) : Valuation τ sig (Elt F) := StableHlo.after hostOps6_4 (W56 m c)
/-- After item 57, the host stretch `hostOps6_5`. -/
def W58 (c : Dev nD) : Valuation τ sig (Elt F) := StableHlo.after hostOps6_5 (W57 m c)
/-- After item 58, the host stretch `hostOps6_6`. -/
def W59 (c : Dev nD) : Valuation τ sig (Elt F) := StableHlo.after hostOps6_6 (W58 m c)
/-- After item 59, the host stretch `hostOps6_7`. -/
def W60 (c : Dev nD) : Valuation τ sig (Elt F) := StableHlo.after hostOps6_7 (W59 m c)
/-- After item 60, the host stretch `hostOps6_8`. -/
def W61 (c : Dev nD) : Valuation τ sig (Elt F) := StableHlo.after hostOps6_8 (W60 m c)
/-- What region 6 is entered from. -/
abbrev Vin6 (c : Dev nD) (b : Ref sig .tc) : Buf (Elt F) ((c : Thread nD τ).loc b) := W61 m c b
/-- What region 6 leaves in its output array `main_v424`. -/
def o6 (c : Dev nD) : Buf (Elt F) ((c : Thread nD τ).loc main_v424) := (Reg6.dat6 (Vin6 m) c).arrAt 2 cfg6.N
/-- After item 61, region 6: its output array replaced, nothing else changed. -/
def W62 (c : Dev nD) : Valuation τ sig (Elt F) := Function.update (W61 m c) main_v424 (o6 m c)
/-- After item 62, the host stretch `hostOps7`. -/
def W63 (c : Dev nD) : Valuation τ sig (Elt F) := StableHlo.after hostOps7 (W62 m c)
/-- After item 63, the host stretch `hostOps7_1`. -/
def W64 (c : Dev nD) : Valuation τ sig (Elt F) := StableHlo.after hostOps7_1 (W63 m c)
/-- After item 64, the host stretch `hostOps7_2`. -/
def W65 (c : Dev nD) : Valuation τ sig (Elt F) := StableHlo.after hostOps7_2 (W64 m c)
/-- After item 65, the host stretch `hostOps7_3`. -/
def W66 (c : Dev nD) : Valuation τ sig (Elt F) := StableHlo.after hostOps7_3 (W65 m c)
/-- After item 66, the host stretch `hostOps7_4`. -/
def W67 (c : Dev nD) : Valuation τ sig (Elt F) := StableHlo.after hostOps7_4 (W66 m c)
/-- After item 67, the host stretch `hostOps7_5`. -/
def W68 (c : Dev nD) : Valuation τ sig (Elt F) := StableHlo.after hostOps7_5 (W67 m c)
/-- After item 68, the host stretch `hostOps7_6`. -/
def W69 (c : Dev nD) : Valuation τ sig (Elt F) := StableHlo.after hostOps7_6 (W68 m c)
/-- After item 69, the host stretch `hostOps7_7`. -/
def W70 (c : Dev nD) : Valuation τ sig (Elt F) := StableHlo.after hostOps7_7 (W69 m c)
/-- After item 70, the host stretch `hostOps7_8`. -/
def W71 (c : Dev nD) : Valuation τ sig (Elt F) := StableHlo.after hostOps7_8 (W70 m c)
/-- What region 7 is entered from. -/
abbrev Vin7 (c : Dev nD) (b : Ref sig .tc) : Buf (Elt F) ((c : Thread nD τ).loc b) := W71 m c b
/-- What region 7 leaves in its output array `main_v503`. -/
def o7 (c : Dev nD) : Buf (Elt F) ((c : Thread nD τ).loc main_v503) := (Reg7.dat7 (Vin7 m) c).arrAt 2 cfg7.N
/-- After item 71, region 7: its output array replaced, nothing else changed. -/
def W72 (c : Dev nD) : Valuation τ sig (Elt F) := Function.update (W71 m c) main_v503 (o7 m c)
/-- After item 72, the host stretch `hostOps8`. -/
def W73 (c : Dev nD) : Valuation τ sig (Elt F) := StableHlo.after hostOps8 (W72 m c)
/-- After item 73, the host stretch `hostOps8_1`. -/
def W74 (c : Dev nD) : Valuation τ sig (Elt F) := StableHlo.after hostOps8_1 (W73 m c)
/-- After item 74, the host stretch `hostOps8_2`. -/
def W75 (c : Dev nD) : Valuation τ sig (Elt F) := StableHlo.after hostOps8_2 (W74 m c)
/-- After item 75, the host stretch `hostOps8_3`. -/
def W76 (c : Dev nD) : Valuation τ sig (Elt F) := StableHlo.after hostOps8_3 (W75 m c)
/-- After item 76, the host stretch `hostOps8_4`. -/
def W77 (c : Dev nD) : Valuation τ sig (Elt F) := StableHlo.after hostOps8_4 (W76 m c)
/-- After item 77, the host stretch `hostOps8_5`. -/
def W78 (c : Dev nD) : Valuation τ sig (Elt F) := StableHlo.after hostOps8_5 (W77 m c)
/-- After item 78, the host stretch `hostOps8_6`. -/
def W79 (c : Dev nD) : Valuation τ sig (Elt F) := StableHlo.after hostOps8_6 (W78 m c)
/-- What region 8 is entered from. -/
abbrev Vin8 (c : Dev nD) (b : Ref sig .tc) : Buf (Elt F) ((c : Thread nD τ).loc b) := W79 m c b
/-- What region 8 leaves in its output array `main_v568`. -/
def o8 (c : Dev nD) : Buf (Elt F) ((c : Thread nD τ).loc main_v568) := (Reg8.dat8 (Vin8 m) c).arrAt 2 cfg8.N
/-- After item 79, region 8: its output array replaced, nothing else changed. -/
def W80 (c : Dev nD) : Valuation τ sig (Elt F) := Function.update (W79 m c) main_v568 (o8 m c)
/-- After item 80, the host stretch `hostOps9`. -/
def W81 (c : Dev nD) : Valuation τ sig (Elt F) := StableHlo.after hostOps9 (W80 m c)

/-- Every region's output named: at item J the contents after the region, read at the reference. -/
def outs : Outs (F := F) := fun J r c =>
  if J = 2 then W2 m c r else
  if J = 12 then W12 m c r else
  if J = 22 then W22 m c r else
  if J = 32 then W32 m c r else
  if J = 42 then W42 m c r else
  if J = 52 then W52 m c r else
  if J = 62 then W62 m c r else
  if J = 72 then W72 m c r else
  if J = 80 then W80 m c r else
  m (c, r)

/-- The contents after the last item: the result `main_v577` is read off it. -/
abbrev Vend (c : Dev nD) : Valuation τ sig (Elt F) := V81 m (outs m) c

/-! ## The family reads each region's output where the generated valuations read it -/
theorem outs_2 (c : Dev nD) : outs m 2 main_v15 c = o0 m c := by
  have h : outs m 2 main_v15 c = W2 m c main_v15 := by
    unfold outs
    rw [if_pos rfl]
  rw [h]; unfold W2; exact Function.update_self _ _ _
theorem outs_12 (c : Dev nD) : outs m 12 main_v95 c = o1 m c := by
  have h : outs m 12 main_v95 c = W12 m c main_v95 := by
    unfold outs
    rw [if_neg (by decide : ¬ ((12 : ℕ) = 2)), if_pos rfl]
  rw [h]; unfold W12; exact Function.update_self _ _ _
theorem outs_22 (c : Dev nD) : outs m 22 main_v152 c = o2 m c := by
  have h : outs m 22 main_v152 c = W22 m c main_v152 := by
    unfold outs
    rw [if_neg (by decide : ¬ ((22 : ℕ) = 2)), if_neg (by decide : ¬ ((22 : ℕ) = 12)), if_pos rfl]
  rw [h]; unfold W22; exact Function.update_self _ _ _
theorem outs_32 (c : Dev nD) : outs m 32 main_v231 c = o3 m c := by
  have h : outs m 32 main_v231 c = W32 m c main_v231 := by
    unfold outs
    rw [if_neg (by decide : ¬ ((32 : ℕ) = 2)), if_neg (by decide : ¬ ((32 : ℕ) = 12)), if_neg (by decide : ¬ ((32 : ℕ) = 22)), if_pos rfl]
  rw [h]; unfold W32; exact Function.update_self _ _ _
theorem outs_42 (c : Dev nD) : outs m 42 main_v288 c = o4 m c := by
  have h : outs m 42 main_v288 c = W42 m c main_v288 := by
    unfold outs
    rw [if_neg (by decide : ¬ ((42 : ℕ) = 2)), if_neg (by decide : ¬ ((42 : ℕ) = 12)), if_neg (by decide : ¬ ((42 : ℕ) = 22)), if_neg (by decide : ¬ ((42 : ℕ) = 32)), if_pos rfl]
  rw [h]; unfold W42; exact Function.update_self _ _ _
theorem outs_52 (c : Dev nD) : outs m 52 main_v367 c = o5 m c := by
  have h : outs m 52 main_v367 c = W52 m c main_v367 := by
    unfold outs
    rw [if_neg (by decide : ¬ ((52 : ℕ) = 2)), if_neg (by decide : ¬ ((52 : ℕ) = 12)), if_neg (by decide : ¬ ((52 : ℕ) = 22)), if_neg (by decide : ¬ ((52 : ℕ) = 32)), if_neg (by decide : ¬ ((52 : ℕ) = 42)), if_pos rfl]
  rw [h]; unfold W52; exact Function.update_self _ _ _
theorem outs_62 (c : Dev nD) : outs m 62 main_v424 c = o6 m c := by
  have h : outs m 62 main_v424 c = W62 m c main_v424 := by
    unfold outs
    rw [if_neg (by decide : ¬ ((62 : ℕ) = 2)), if_neg (by decide : ¬ ((62 : ℕ) = 12)), if_neg (by decide : ¬ ((62 : ℕ) = 22)), if_neg (by decide : ¬ ((62 : ℕ) = 32)), if_neg (by decide : ¬ ((62 : ℕ) = 42)), if_neg (by decide : ¬ ((62 : ℕ) = 52)), if_pos rfl]
  rw [h]; unfold W62; exact Function.update_self _ _ _
theorem outs_72 (c : Dev nD) : outs m 72 main_v503 c = o7 m c := by
  have h : outs m 72 main_v503 c = W72 m c main_v503 := by
    unfold outs
    rw [if_neg (by decide : ¬ ((72 : ℕ) = 2)), if_neg (by decide : ¬ ((72 : ℕ) = 12)), if_neg (by decide : ¬ ((72 : ℕ) = 22)), if_neg (by decide : ¬ ((72 : ℕ) = 32)), if_neg (by decide : ¬ ((72 : ℕ) = 42)), if_neg (by decide : ¬ ((72 : ℕ) = 52)), if_neg (by decide : ¬ ((72 : ℕ) = 62)), if_pos rfl]
  rw [h]; unfold W72; exact Function.update_self _ _ _
theorem outs_80 (c : Dev nD) : outs m 80 main_v568 c = o8 m c := by
  have h : outs m 80 main_v568 c = W80 m c main_v568 := by
    unfold outs
    rw [if_neg (by decide : ¬ ((80 : ℕ) = 2)), if_neg (by decide : ¬ ((80 : ℕ) = 12)), if_neg (by decide : ¬ ((80 : ℕ) = 22)), if_neg (by decide : ¬ ((80 : ℕ) = 32)), if_neg (by decide : ¬ ((80 : ℕ) = 42)), if_neg (by decide : ¬ ((80 : ℕ) = 52)), if_neg (by decide : ¬ ((80 : ℕ) = 62)), if_neg (by decide : ¬ ((80 : ℕ) = 72)), if_pos rfl]
  rw [h]; unfold W80; exact Function.update_self _ _ _

/-! ## The generated valuations at this family are the contents above, one item at a time -/
theorem Veq_0 (c : Dev nD) : V0 m c = W0 m c := rfl
theorem Veq_1 (c : Dev nD) : V1 m c = W1 m c := by
  show StableHlo.after hostOps0 (V0 m c) = W1 m c
  rw [Veq_0]; rfl
theorem Veq_2 (c : Dev nD) : V2 m (outs m) c = W2 m c := by
  show Function.update (V1 m c) main_v15 (outs m 2 main_v15 c) = W2 m c
  rw [Veq_1, outs_2]; rfl
theorem Veq_3 (c : Dev nD) : V3 m (outs m) c = W3 m c := by
  show StableHlo.after hostOps1 (V2 m (outs m) c) = W3 m c
  rw [Veq_2]; rfl
theorem Veq_4 (c : Dev nD) : V4 m (outs m) c = W4 m c := by
  show StableHlo.after hostOps1_1 (V3 m (outs m) c) = W4 m c
  rw [Veq_3]; rfl
theorem Veq_5 (c : Dev nD) : V5 m (outs m) c = W5 m c := by
  show StableHlo.after hostOps1_2 (V4 m (outs m) c) = W5 m c
  rw [Veq_4]; rfl
theorem Veq_6 (c : Dev nD) : V6 m (outs m) c = W6 m c := by
  show StableHlo.after hostOps1_3 (V5 m (outs m) c) = W6 m c
  rw [Veq_5]; rfl
theorem Veq_7 (c : Dev nD) : V7 m (outs m) c = W7 m c := by
  show StableHlo.after hostOps1_4 (V6 m (outs m) c) = W7 m c
  rw [Veq_6]; rfl
theorem Veq_8 (c : Dev nD) : V8 m (outs m) c = W8 m c := by
  show StableHlo.after hostOps1_5 (V7 m (outs m) c) = W8 m c
  rw [Veq_7]; rfl
theorem Veq_9 (c : Dev nD) : V9 m (outs m) c = W9 m c := by
  show StableHlo.after hostOps1_6 (V8 m (outs m) c) = W9 m c
  rw [Veq_8]; rfl
theorem Veq_10 (c : Dev nD) : V10 m (outs m) c = W10 m c := by
  show StableHlo.after hostOps1_7 (V9 m (outs m) c) = W10 m c
  rw [Veq_9]; rfl
theorem Veq_11 (c : Dev nD) : V11 m (outs m) c = W11 m c := by
  show StableHlo.after hostOps1_8 (V10 m (outs m) c) = W11 m c
  rw [Veq_10]; rfl
theorem Veq_12 (c : Dev nD) : V12 m (outs m) c = W12 m c := by
  show Function.update (V11 m (outs m) c) main_v95 (outs m 12 main_v95 c) = W12 m c
  rw [Veq_11, outs_12]; rfl
theorem Veq_13 (c : Dev nD) : V13 m (outs m) c = W13 m c := by
  show StableHlo.after hostOps2 (V12 m (outs m) c) = W13 m c
  rw [Veq_12]; rfl
theorem Veq_14 (c : Dev nD) : V14 m (outs m) c = W14 m c := by
  show StableHlo.after hostOps2_1 (V13 m (outs m) c) = W14 m c
  rw [Veq_13]; rfl
theorem Veq_15 (c : Dev nD) : V15 m (outs m) c = W15 m c := by
  show StableHlo.after hostOps2_2 (V14 m (outs m) c) = W15 m c
  rw [Veq_14]; rfl
theorem Veq_16 (c : Dev nD) : V16 m (outs m) c = W16 m c := by
  show StableHlo.after hostOps2_3 (V15 m (outs m) c) = W16 m c
  rw [Veq_15]; rfl
theorem Veq_17 (c : Dev nD) : V17 m (outs m) c = W17 m c := by
  show StableHlo.after hostOps2_4 (V16 m (outs m) c) = W17 m c
  rw [Veq_16]; rfl
theorem Veq_18 (c : Dev nD) : V18 m (outs m) c = W18 m c := by
  show StableHlo.after hostOps2_5 (V17 m (outs m) c) = W18 m c
  rw [Veq_17]; rfl
theorem Veq_19 (c : Dev nD) : V19 m (outs m) c = W19 m c := by
  show StableHlo.after hostOps2_6 (V18 m (outs m) c) = W19 m c
  rw [Veq_18]; rfl
theorem Veq_20 (c : Dev nD) : V20 m (outs m) c = W20 m c := by
  show StableHlo.after hostOps2_7 (V19 m (outs m) c) = W20 m c
  rw [Veq_19]; rfl
theorem Veq_21 (c : Dev nD) : V21 m (outs m) c = W21 m c := by
  show StableHlo.after hostOps2_8 (V20 m (outs m) c) = W21 m c
  rw [Veq_20]; rfl
theorem Veq_22 (c : Dev nD) : V22 m (outs m) c = W22 m c := by
  show Function.update (V21 m (outs m) c) main_v152 (outs m 22 main_v152 c) = W22 m c
  rw [Veq_21, outs_22]; rfl
theorem Veq_23 (c : Dev nD) : V23 m (outs m) c = W23 m c := by
  show StableHlo.after hostOps3 (V22 m (outs m) c) = W23 m c
  rw [Veq_22]; rfl
theorem Veq_24 (c : Dev nD) : V24 m (outs m) c = W24 m c := by
  show StableHlo.after hostOps3_1 (V23 m (outs m) c) = W24 m c
  rw [Veq_23]; rfl
theorem Veq_25 (c : Dev nD) : V25 m (outs m) c = W25 m c := by
  show StableHlo.after hostOps3_2 (V24 m (outs m) c) = W25 m c
  rw [Veq_24]; rfl
theorem Veq_26 (c : Dev nD) : V26 m (outs m) c = W26 m c := by
  show StableHlo.after hostOps3_3 (V25 m (outs m) c) = W26 m c
  rw [Veq_25]; rfl
theorem Veq_27 (c : Dev nD) : V27 m (outs m) c = W27 m c := by
  show StableHlo.after hostOps3_4 (V26 m (outs m) c) = W27 m c
  rw [Veq_26]; rfl
theorem Veq_28 (c : Dev nD) : V28 m (outs m) c = W28 m c := by
  show StableHlo.after hostOps3_5 (V27 m (outs m) c) = W28 m c
  rw [Veq_27]; rfl
theorem Veq_29 (c : Dev nD) : V29 m (outs m) c = W29 m c := by
  show StableHlo.after hostOps3_6 (V28 m (outs m) c) = W29 m c
  rw [Veq_28]; rfl
theorem Veq_30 (c : Dev nD) : V30 m (outs m) c = W30 m c := by
  show StableHlo.after hostOps3_7 (V29 m (outs m) c) = W30 m c
  rw [Veq_29]; rfl
theorem Veq_31 (c : Dev nD) : V31 m (outs m) c = W31 m c := by
  show StableHlo.after hostOps3_8 (V30 m (outs m) c) = W31 m c
  rw [Veq_30]; rfl
theorem Veq_32 (c : Dev nD) : V32 m (outs m) c = W32 m c := by
  show Function.update (V31 m (outs m) c) main_v231 (outs m 32 main_v231 c) = W32 m c
  rw [Veq_31, outs_32]; rfl
theorem Veq_33 (c : Dev nD) : V33 m (outs m) c = W33 m c := by
  show StableHlo.after hostOps4 (V32 m (outs m) c) = W33 m c
  rw [Veq_32]; rfl
theorem Veq_34 (c : Dev nD) : V34 m (outs m) c = W34 m c := by
  show StableHlo.after hostOps4_1 (V33 m (outs m) c) = W34 m c
  rw [Veq_33]; rfl
theorem Veq_35 (c : Dev nD) : V35 m (outs m) c = W35 m c := by
  show StableHlo.after hostOps4_2 (V34 m (outs m) c) = W35 m c
  rw [Veq_34]; rfl
theorem Veq_36 (c : Dev nD) : V36 m (outs m) c = W36 m c := by
  show StableHlo.after hostOps4_3 (V35 m (outs m) c) = W36 m c
  rw [Veq_35]; rfl
theorem Veq_37 (c : Dev nD) : V37 m (outs m) c = W37 m c := by
  show StableHlo.after hostOps4_4 (V36 m (outs m) c) = W37 m c
  rw [Veq_36]; rfl
theorem Veq_38 (c : Dev nD) : V38 m (outs m) c = W38 m c := by
  show StableHlo.after hostOps4_5 (V37 m (outs m) c) = W38 m c
  rw [Veq_37]; rfl
theorem Veq_39 (c : Dev nD) : V39 m (outs m) c = W39 m c := by
  show StableHlo.after hostOps4_6 (V38 m (outs m) c) = W39 m c
  rw [Veq_38]; rfl
theorem Veq_40 (c : Dev nD) : V40 m (outs m) c = W40 m c := by
  show StableHlo.after hostOps4_7 (V39 m (outs m) c) = W40 m c
  rw [Veq_39]; rfl
theorem Veq_41 (c : Dev nD) : V41 m (outs m) c = W41 m c := by
  show StableHlo.after hostOps4_8 (V40 m (outs m) c) = W41 m c
  rw [Veq_40]; rfl
theorem Veq_42 (c : Dev nD) : V42 m (outs m) c = W42 m c := by
  show Function.update (V41 m (outs m) c) main_v288 (outs m 42 main_v288 c) = W42 m c
  rw [Veq_41, outs_42]; rfl
theorem Veq_43 (c : Dev nD) : V43 m (outs m) c = W43 m c := by
  show StableHlo.after hostOps5 (V42 m (outs m) c) = W43 m c
  rw [Veq_42]; rfl
theorem Veq_44 (c : Dev nD) : V44 m (outs m) c = W44 m c := by
  show StableHlo.after hostOps5_1 (V43 m (outs m) c) = W44 m c
  rw [Veq_43]; rfl
theorem Veq_45 (c : Dev nD) : V45 m (outs m) c = W45 m c := by
  show StableHlo.after hostOps5_2 (V44 m (outs m) c) = W45 m c
  rw [Veq_44]; rfl
theorem Veq_46 (c : Dev nD) : V46 m (outs m) c = W46 m c := by
  show StableHlo.after hostOps5_3 (V45 m (outs m) c) = W46 m c
  rw [Veq_45]; rfl
theorem Veq_47 (c : Dev nD) : V47 m (outs m) c = W47 m c := by
  show StableHlo.after hostOps5_4 (V46 m (outs m) c) = W47 m c
  rw [Veq_46]; rfl
theorem Veq_48 (c : Dev nD) : V48 m (outs m) c = W48 m c := by
  show StableHlo.after hostOps5_5 (V47 m (outs m) c) = W48 m c
  rw [Veq_47]; rfl
theorem Veq_49 (c : Dev nD) : V49 m (outs m) c = W49 m c := by
  show StableHlo.after hostOps5_6 (V48 m (outs m) c) = W49 m c
  rw [Veq_48]; rfl
theorem Veq_50 (c : Dev nD) : V50 m (outs m) c = W50 m c := by
  show StableHlo.after hostOps5_7 (V49 m (outs m) c) = W50 m c
  rw [Veq_49]; rfl
theorem Veq_51 (c : Dev nD) : V51 m (outs m) c = W51 m c := by
  show StableHlo.after hostOps5_8 (V50 m (outs m) c) = W51 m c
  rw [Veq_50]; rfl
theorem Veq_52 (c : Dev nD) : V52 m (outs m) c = W52 m c := by
  show Function.update (V51 m (outs m) c) main_v367 (outs m 52 main_v367 c) = W52 m c
  rw [Veq_51, outs_52]; rfl
theorem Veq_53 (c : Dev nD) : V53 m (outs m) c = W53 m c := by
  show StableHlo.after hostOps6 (V52 m (outs m) c) = W53 m c
  rw [Veq_52]; rfl
theorem Veq_54 (c : Dev nD) : V54 m (outs m) c = W54 m c := by
  show StableHlo.after hostOps6_1 (V53 m (outs m) c) = W54 m c
  rw [Veq_53]; rfl
theorem Veq_55 (c : Dev nD) : V55 m (outs m) c = W55 m c := by
  show StableHlo.after hostOps6_2 (V54 m (outs m) c) = W55 m c
  rw [Veq_54]; rfl
theorem Veq_56 (c : Dev nD) : V56 m (outs m) c = W56 m c := by
  show StableHlo.after hostOps6_3 (V55 m (outs m) c) = W56 m c
  rw [Veq_55]; rfl
theorem Veq_57 (c : Dev nD) : V57 m (outs m) c = W57 m c := by
  show StableHlo.after hostOps6_4 (V56 m (outs m) c) = W57 m c
  rw [Veq_56]; rfl
theorem Veq_58 (c : Dev nD) : V58 m (outs m) c = W58 m c := by
  show StableHlo.after hostOps6_5 (V57 m (outs m) c) = W58 m c
  rw [Veq_57]; rfl
theorem Veq_59 (c : Dev nD) : V59 m (outs m) c = W59 m c := by
  show StableHlo.after hostOps6_6 (V58 m (outs m) c) = W59 m c
  rw [Veq_58]; rfl
theorem Veq_60 (c : Dev nD) : V60 m (outs m) c = W60 m c := by
  show StableHlo.after hostOps6_7 (V59 m (outs m) c) = W60 m c
  rw [Veq_59]; rfl
theorem Veq_61 (c : Dev nD) : V61 m (outs m) c = W61 m c := by
  show StableHlo.after hostOps6_8 (V60 m (outs m) c) = W61 m c
  rw [Veq_60]; rfl
theorem Veq_62 (c : Dev nD) : V62 m (outs m) c = W62 m c := by
  show Function.update (V61 m (outs m) c) main_v424 (outs m 62 main_v424 c) = W62 m c
  rw [Veq_61, outs_62]; rfl
theorem Veq_63 (c : Dev nD) : V63 m (outs m) c = W63 m c := by
  show StableHlo.after hostOps7 (V62 m (outs m) c) = W63 m c
  rw [Veq_62]; rfl
theorem Veq_64 (c : Dev nD) : V64 m (outs m) c = W64 m c := by
  show StableHlo.after hostOps7_1 (V63 m (outs m) c) = W64 m c
  rw [Veq_63]; rfl
theorem Veq_65 (c : Dev nD) : V65 m (outs m) c = W65 m c := by
  show StableHlo.after hostOps7_2 (V64 m (outs m) c) = W65 m c
  rw [Veq_64]; rfl
theorem Veq_66 (c : Dev nD) : V66 m (outs m) c = W66 m c := by
  show StableHlo.after hostOps7_3 (V65 m (outs m) c) = W66 m c
  rw [Veq_65]; rfl
theorem Veq_67 (c : Dev nD) : V67 m (outs m) c = W67 m c := by
  show StableHlo.after hostOps7_4 (V66 m (outs m) c) = W67 m c
  rw [Veq_66]; rfl
theorem Veq_68 (c : Dev nD) : V68 m (outs m) c = W68 m c := by
  show StableHlo.after hostOps7_5 (V67 m (outs m) c) = W68 m c
  rw [Veq_67]; rfl
theorem Veq_69 (c : Dev nD) : V69 m (outs m) c = W69 m c := by
  show StableHlo.after hostOps7_6 (V68 m (outs m) c) = W69 m c
  rw [Veq_68]; rfl
theorem Veq_70 (c : Dev nD) : V70 m (outs m) c = W70 m c := by
  show StableHlo.after hostOps7_7 (V69 m (outs m) c) = W70 m c
  rw [Veq_69]; rfl
theorem Veq_71 (c : Dev nD) : V71 m (outs m) c = W71 m c := by
  show StableHlo.after hostOps7_8 (V70 m (outs m) c) = W71 m c
  rw [Veq_70]; rfl
theorem Veq_72 (c : Dev nD) : V72 m (outs m) c = W72 m c := by
  show Function.update (V71 m (outs m) c) main_v503 (outs m 72 main_v503 c) = W72 m c
  rw [Veq_71, outs_72]; rfl
theorem Veq_73 (c : Dev nD) : V73 m (outs m) c = W73 m c := by
  show StableHlo.after hostOps8 (V72 m (outs m) c) = W73 m c
  rw [Veq_72]; rfl
theorem Veq_74 (c : Dev nD) : V74 m (outs m) c = W74 m c := by
  show StableHlo.after hostOps8_1 (V73 m (outs m) c) = W74 m c
  rw [Veq_73]; rfl
theorem Veq_75 (c : Dev nD) : V75 m (outs m) c = W75 m c := by
  show StableHlo.after hostOps8_2 (V74 m (outs m) c) = W75 m c
  rw [Veq_74]; rfl
theorem Veq_76 (c : Dev nD) : V76 m (outs m) c = W76 m c := by
  show StableHlo.after hostOps8_3 (V75 m (outs m) c) = W76 m c
  rw [Veq_75]; rfl
theorem Veq_77 (c : Dev nD) : V77 m (outs m) c = W77 m c := by
  show StableHlo.after hostOps8_4 (V76 m (outs m) c) = W77 m c
  rw [Veq_76]; rfl
theorem Veq_78 (c : Dev nD) : V78 m (outs m) c = W78 m c := by
  show StableHlo.after hostOps8_5 (V77 m (outs m) c) = W78 m c
  rw [Veq_77]; rfl
theorem Veq_79 (c : Dev nD) : V79 m (outs m) c = W79 m c := by
  show StableHlo.after hostOps8_6 (V78 m (outs m) c) = W79 m c
  rw [Veq_78]; rfl
theorem Veq_80 (c : Dev nD) : V80 m (outs m) c = W80 m c := by
  show Function.update (V79 m (outs m) c) main_v568 (outs m 80 main_v568 c) = W80 m c
  rw [Veq_79, outs_80]; rfl
theorem Veq_81 (c : Dev nD) : V81 m (outs m) c = W81 m c := by
  show StableHlo.after hostOps9 (V80 m (outs m) c) = W81 m c
  rw [Veq_80]; rfl

/-! ## Each region is entered from the generated valuation before it -/
theorem Vin0_eq (c : Dev nD) (b : Ref sig .tc) : V1 m c b = Vin0 m c b := by
  rw [Veq_1]
theorem Vin1_eq (c : Dev nD) (b : Ref sig .tc) : V11 m (outs m) c b = Vin1 m c b := by
  rw [Veq_11]
theorem Vin2_eq (c : Dev nD) (b : Ref sig .tc) : V21 m (outs m) c b = Vin2 m c b := by
  rw [Veq_21]
theorem Vin3_eq (c : Dev nD) (b : Ref sig .tc) : V31 m (outs m) c b = Vin3 m c b := by
  rw [Veq_31]
theorem Vin4_eq (c : Dev nD) (b : Ref sig .tc) : V41 m (outs m) c b = Vin4 m c b := by
  rw [Veq_41]
theorem Vin5_eq (c : Dev nD) (b : Ref sig .tc) : V51 m (outs m) c b = Vin5 m c b := by
  rw [Veq_51]
theorem Vin6_eq (c : Dev nD) (b : Ref sig .tc) : V61 m (outs m) c b = Vin6 m c b := by
  rw [Veq_61]
theorem Vin7_eq (c : Dev nD) (b : Ref sig .tc) : V71 m (outs m) c b = Vin7 m c b := by
  rw [Veq_71]
theorem Vin8_eq (c : Dev nD) (b : Ref sig .tc) : V79 m (outs m) c b = Vin8 m c b := by
  rw [Veq_79]

/-! ## The proof data family, the levels, what rides beside the buffers -/

/-- Every pipeline's proof data, each at its region's entry contents: a literal match on the pipeline. -/
def pdats : (p : Fin 9) → (c : Dev nD) → Dat τ (Elt F) Unit ℕ (UR sig nD τ) ℕ (cfgs p) c
  | ⟨0, _⟩ => fun c => Reg0.dat0 (Vin0 m) c
  | ⟨1, _⟩ => fun c => Reg1.dat1 (Vin1 m) c
  | ⟨2, _⟩ => fun c => Reg2.dat2 (Vin2 m) c
  | ⟨3, _⟩ => fun c => Reg3.dat3 (Vin3 m) c
  | ⟨4, _⟩ => fun c => Reg4.dat4 (Vin4 m) c
  | ⟨5, _⟩ => fun c => Reg5.dat5 (Vin5 m) c
  | ⟨6, _⟩ => fun c => Reg6.dat6 (Vin6 m) c
  | ⟨7, _⟩ => fun c => Reg7.dat7 (Vin7 m) c
  | ⟨8, _⟩ => fun c => Reg8.dat8 (Vin8 m) c

abbrev 𝒱₀ : Variants := Variants.none
/-- No core owes another anything: no level is assigned. -/
abbrev L : GSem nD τ sig → Finset Unit := fun _ => ∅
abbrev lv : GSem nD τ sig → Unit → ℕ := fun _ _ => 0

local notation "𝕄" => MT nD τ sig Unit (Elt F) ℕ (UR sig nD τ) ℕ

/-- What rides beside the unscoped buffers through every item: the generator register at some state and the core
    owing nothing. -/
abbrev R (c : Dev nD) : sProp 𝕄 := iprop((∃ r, prngReg c r) ∗ ∃ W, owes (c : Thread nD τ) (0 : CellTallies nD τ sig Unit) W)
/-- The rest beside the buffers, the same between any two items. -/
abbrev E : Fin 10 → Dev nD → sProp 𝕄 := fun _ c => R (F := F) c

end Cert.Kernel.Run

end
-- ==== Proof.K.Launch.lean ====
/-
  The launch's own choices for the program's @main, and the shape of the nine regions' records.

  The user algebra is the pipeline library's component alone, its launch element the library's initial element over
  the nine pipelines' staging cells; there are no ghost resources and no core owes anything at launch.  What the
  launch deals a core beside its buffers yields the rest that rides beside the buffers through every item (the
  generator register at its launch state, the empty debt), and that rest ends owing nothing because it never owed.

  A region's record is entered from the contents before the region and left at the contents after it, the rest
  beside them; the nine are gathered in one structure.
-/
import proofs.«411400_j9251359555630_1_alg».proof.Proof.K.Vals

set_option maxRecDepth 4992

noncomputable section

namespace Cert.Kernel.Run

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)
open Cert.Kernel Cert.Kernel.Gen

variable {F : FTy → Type} [FloatOps F]
variable (m : (ℓ : Loc nD τ sig) → Buf (Elt F) ℓ)

/-! ## The launch's own choices -/

local notation "𝕄" => MT nD τ sig Unit (Elt F) ℕ (UR sig nD τ) ℕ

/-- The pipeline library's component is the whole user algebra. -/
abbrev EP : Emb (UR sig nD τ) 𝕄 := emb₁

instance EP_landsIn : (EP (F := F)).LandsIn (upEmb : UEmb _ 𝕄) := emb₁_landsIn

/-- The launch element: the library's initial element over the nine pipelines' staging cells. -/
abbrev u₀ : UR sig nD τ := initOf (Pipeline.cells cfgs cellOf_inj) (Pipeline.launchToks cfgs cellOf_inj)

/-- No ghost resources beside the library's. -/
abbrev G : Dev nD → sProp 𝕄 := fun _ => iprop(emp)

/-- No core owes anything at launch. -/
abbrev O₀ : Dev nD → CellTallies nD τ sig Unit := 0

/-- No level is assigned anywhere, so none off the TensorCores. -/
theorem hL : ∀ g : GSem nD τ sig, g.1.2 ≠ .tc → L g = ∅ := fun _ _ => rfl

/-- Owning the launch element is owning the library's initial element through the embedding; the ghost resources
    are empty on every core. -/
theorem hu₀ : (ownU u₀ : sProp 𝕄)
    ⊢ |={Set.univ}=> iprop(BI.own (EP (F := F) (initOf (Pipeline.cells cfgs cellOf_inj) (Pipeline.launchToks cfgs cellOf_inj))) ∗ bigSep Finset.univ (G (F := F))) := by
  iintro Hu; imodintro
  isplitl [Hu]
  · iapply (show (ownU (initOf (Pipeline.cells cfgs cellOf_inj) (Pipeline.launchToks cfgs cellOf_inj)) : sProp 𝕄)
        ⊢ BI.own (emb₁ (initOf (Pipeline.cells cfgs cellOf_inj) (Pipeline.launchToks cfgs cellOf_inj))) from .rfl)
    iexact Hu
  iapply (show (BI.emp : sProp 𝕄) ⊢ bigSep Finset.univ (fun _ : Dev nD => (BI.emp : sProp 𝕄)) from by rw [BI.bigSep_emp_const])
  iempintro

/-- What the launch deals a core beside its buffers yields the rest: the register at its launch state, the empty
    debt with nothing waited for. -/
theorem hE0 (ρ : Dev nD → PrngReg) :
    iprop((bigSep Finset.univ fun c : Dev nD => iprop(unscopedSems0 c ∗ owes (c : Thread nD τ) (O₀ c) ∅ ∗ Pipeline.launchCred O₀ c ∗ prngReg c (ρ c) ∗ G (F := F) c)) ∗ levAts L lv)
      ⊢ (|={Set.univ}=> bigSep Finset.univ (E (F := F) 0) : sProp 𝕄) :=
  Pipeline.initEach L lv
    (T₀ := fun c => iprop((∃ r, prngReg c r) ∗ ∃ W, owes (c : Thread nD τ) (0 : CellTallies nD τ sig Unit) W)) fun c => by
    iintro ⟨⟨-, HO, -, Hp, -⟩, -⟩
    imodintro
    isplitl [Hp]; · iexists _; iexact Hp
    iexists ∅; iexact HO

/-- The rest ends owing nothing: it never owed. -/
theorem hE9 (c : Dev nD) : E (F := F) 9 c ⊢ (iprop(∃ W, owes (c : Thread nD τ) (0 : CellTallies nD τ sig Unit) W) : sProp 𝕄) := by
  show (iprop((∃ r, prngReg c r) ∗ ∃ W, owes (c : Thread nD τ) (0 : CellTallies nD τ sig Unit) W) : sProp 𝕄) ⊢ _
  iintro ⟨-, HO⟩
  iexact HO

/-! ## The nine regions' records -/

/-- The nine regions' records at the staged family: region K entered from the contents before it and left at the
    contents after it, the rest beside them. -/
structure Regs where
  reg0 : RegionSeg (pcfgs (F := F)) adm (pdats m) () defs₀ 𝒱₀ L lv 0
  hpre0 : ∀ c : Dev nD, iprop(StableHlo.held (c : Thread nD τ) (Pipeline.ucRefs τ sig) (V1 m c) ∗ E (F := F) 0 c) ⊢ reg0.pre c
  hpost0 : ∀ c : Dev nD, reg0.post c ⊢ iprop(StableHlo.held (c : Thread nD τ) (Pipeline.ucRefs τ sig) (V2 m (outs m) c) ∗ E (F := F) 1 c)
  reg1 : RegionSeg (pcfgs (F := F)) adm (pdats m) () defs₀ 𝒱₀ L lv 1
  hpre1 : ∀ c : Dev nD, iprop(StableHlo.held (c : Thread nD τ) (Pipeline.ucRefs τ sig) (V11 m (outs m) c) ∗ E (F := F) 1 c) ⊢ reg1.pre c
  hpost1 : ∀ c : Dev nD, reg1.post c ⊢ iprop(StableHlo.held (c : Thread nD τ) (Pipeline.ucRefs τ sig) (V12 m (outs m) c) ∗ E (F := F) 2 c)
  reg2 : RegionSeg (pcfgs (F := F)) adm (pdats m) () defs₀ 𝒱₀ L lv 2
  hpre2 : ∀ c : Dev nD, iprop(StableHlo.held (c : Thread nD τ) (Pipeline.ucRefs τ sig) (V21 m (outs m) c) ∗ E (F := F) 2 c) ⊢ reg2.pre c
  hpost2 : ∀ c : Dev nD, reg2.post c ⊢ iprop(StableHlo.held (c : Thread nD τ) (Pipeline.ucRefs τ sig) (V22 m (outs m) c) ∗ E (F := F) 3 c)
  reg3 : RegionSeg (pcfgs (F := F)) adm (pdats m) () defs₀ 𝒱₀ L lv 3
  hpre3 : ∀ c : Dev nD, iprop(StableHlo.held (c : Thread nD τ) (Pipeline.ucRefs τ sig) (V31 m (outs m) c) ∗ E (F := F) 3 c) ⊢ reg3.pre c
  hpost3 : ∀ c : Dev nD, reg3.post c ⊢ iprop(StableHlo.held (c : Thread nD τ) (Pipeline.ucRefs τ sig) (V32 m (outs m) c) ∗ E (F := F) 4 c)
  reg4 : RegionSeg (pcfgs (F := F)) adm (pdats m) () defs₀ 𝒱₀ L lv 4
  hpre4 : ∀ c : Dev nD, iprop(StableHlo.held (c : Thread nD τ) (Pipeline.ucRefs τ sig) (V41 m (outs m) c) ∗ E (F := F) 4 c) ⊢ reg4.pre c
  hpost4 : ∀ c : Dev nD, reg4.post c ⊢ iprop(StableHlo.held (c : Thread nD τ) (Pipeline.ucRefs τ sig) (V42 m (outs m) c) ∗ E (F := F) 5 c)
  reg5 : RegionSeg (pcfgs (F := F)) adm (pdats m) () defs₀ 𝒱₀ L lv 5
  hpre5 : ∀ c : Dev nD, iprop(StableHlo.held (c : Thread nD τ) (Pipeline.ucRefs τ sig) (V51 m (outs m) c) ∗ E (F := F) 5 c) ⊢ reg5.pre c
  hpost5 : ∀ c : Dev nD, reg5.post c ⊢ iprop(StableHlo.held (c : Thread nD τ) (Pipeline.ucRefs τ sig) (V52 m (outs m) c) ∗ E (F := F) 6 c)
  reg6 : RegionSeg (pcfgs (F := F)) adm (pdats m) () defs₀ 𝒱₀ L lv 6
  hpre6 : ∀ c : Dev nD, iprop(StableHlo.held (c : Thread nD τ) (Pipeline.ucRefs τ sig) (V61 m (outs m) c) ∗ E (F := F) 6 c) ⊢ reg6.pre c
  hpost6 : ∀ c : Dev nD, reg6.post c ⊢ iprop(StableHlo.held (c : Thread nD τ) (Pipeline.ucRefs τ sig) (V62 m (outs m) c) ∗ E (F := F) 7 c)
  reg7 : RegionSeg (pcfgs (F := F)) adm (pdats m) () defs₀ 𝒱₀ L lv 7
  hpre7 : ∀ c : Dev nD, iprop(StableHlo.held (c : Thread nD τ) (Pipeline.ucRefs τ sig) (V71 m (outs m) c) ∗ E (F := F) 7 c) ⊢ reg7.pre c
  hpost7 : ∀ c : Dev nD, reg7.post c ⊢ iprop(StableHlo.held (c : Thread nD τ) (Pipeline.ucRefs τ sig) (V72 m (outs m) c) ∗ E (F := F) 8 c)
  reg8 : RegionSeg (pcfgs (F := F)) adm (pdats m) () defs₀ 𝒱₀ L lv 8
  hpre8 : ∀ c : Dev nD, iprop(StableHlo.held (c : Thread nD τ) (Pipeline.ucRefs τ sig) (V79 m (outs m) c) ∗ E (F := F) 8 c) ⊢ reg8.pre c
  hpost8 : ∀ c : Dev nD, reg8.post c ⊢ iprop(StableHlo.held (c : Thread nD τ) (Pipeline.ucRefs τ sig) (V80 m (outs m) c) ∗ E (F := F) 9 c)

end Cert.Kernel.Run

end
-- ==== Proof.K.Frame.lean ====
/-
  The frame of the program's @main: every weakly fair execution from any memory with zero counters terminates, and
  every final memory holds each argument array as launched — the conditional frame at the launch's choices and the
  nine regions' records.
-/
import proofs.«411400_j9251359555630_1_alg».proof.Proof.K.Launch

set_option maxRecDepth 4992

noncomputable section

namespace Cert.Kernel.Run

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)
open Cert.Kernel Cert.Kernel.Gen

variable {F : FTy → Type} [FloatOps F]
variable (m : (ℓ : Loc nD τ sig) → Buf (Elt F) ℓ)

/-- THE FRAME: every weakly fair execution of @main from memory m with zero counters terminates, and every final
    memory holds each argument as launched. -/
theorem frame_main (ρ : Dev nD → PrngReg) (S : Regs (F := F) m) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)
      ∧ r.2.mem ((c.tc : Thread nD τ).loc main_arg28) = m ((c.tc : Thread nD τ).loc main_arg28)
      ∧ r.2.mem ((c.tc : Thread nD τ).loc main_arg29) = m ((c.tc : Thread nD τ).loc main_arg29)) :=
  frame_cond m EP () 𝒱₀ L lv hL ρ (outs m) (pdats m) O₀ G u₀ hu₀ E (hE0 ρ) hE9
    S.reg0 S.hpre0 S.hpost0 S.reg1 S.hpre1 S.hpost1 S.reg2 S.hpre2 S.hpost2 S.reg3 S.hpre3 S.hpost3 S.reg4 S.hpre4 S.hpost4
    S.reg5 S.hpre5 S.hpost5 S.reg6 S.hpre6 S.hpost6 S.reg7 S.hpre7 S.hpost7 S.reg8 S.hpre8 S.hpost8

end Cert.Kernel.Run

end
-- ==== Proof.K.Seg0.lean ====
/-
  Region 0 of the kernel program's @main as a segment between the buffer contents after item 0 and after item 1.

  Entering, the core holds every unscoped buffer at the contents after item 0.  The region's three windowed arrays
  (the segment ids, the edge rows, the node sums) are split out of them at the proof data's entry contents; every other
  unscoped buffer passes the region by, and so does the generator register.  The pipeline's invariant starts as the
  scoped buffers no window stages (the accumulator is one of them) and gives them back at the last point.

  Leaving, an input window's array is never written, so the two input arrays hold what they held at entry; the output
  array holds the fold of the write-backs, which is the value the contents after item 1 name at that array.  The
  contents after item 1 differ from those after item 0 at that one array only, so the arrays at their final contents
  together with the bypassing buffers are every unscoped buffer at the contents after item 1.
-/
import proofs.«411400_j9251359555630_1_alg».proof.Proof.K.Vals
import Idealize.ShloMosaic.Lib.Pipeline.RegionsLoop
import Idealize.ShloMosaic.Lib.Pipeline.Cells
import Idealize.ShloMosaic.Lib.Pipeline.Kit

-- memberships decided among the program's 1120 references recurse past the default depth
set_option maxRecDepth 4992

noncomputable section

namespace Cert.Kernel.Run

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)
open Cert.Kernel Cert.Kernel.Gen

variable {F : FTy → Type} [FloatOps F]
variable (m : (ℓ : Loc nD τ sig) → Buf (Elt F) ℓ)

local notation "𝕄" => MT nD τ sig Unit (Elt F) ℕ (UR sig nD τ) ℕ

/-! ## Region 0's arrays at its exit -/

/-- The contents after item 0, read at the TensorCore's references: what region 0 is entered from. -/
abbrev Vpre0 (c : Dev nD) : (b : Ref sig .tc) → Buf (Elt F) ((c : Thread nD τ).loc b) := fun b => V1 m c b
/-- The contents after item 1, read at the TensorCore's references: what region 0 leaves. -/
abbrev Vpost0 (c : Dev nD) : (b : Ref sig .tc) → Buf (Elt F) ((c : Thread nD τ).loc b) := fun b => V2 m (outs m) c b

/-- The output window's array is `main_v15`. -/
theorem arrRef0_out : Pipeline.arrRef spec0 (2 : Fin 3) = main_v15 := rfl

/-- An input window's array is not the output array: the windows' arrays are distinct buffers. -/
theorem arrRef0_ne_out (w : Fin 3) (hw : w ≠ 2) : Pipeline.arrRef spec0 w ≠ main_v15 :=
  fun e => hw (launch0.win.arr_inj (e.trans arrRef0_out.symm))

/-- The proof data are entered from the contents after item 0: each array's entry contents read off them. -/
theorem hA0 (c : Dev nD) (w : Fin cfg0.W) : (pdats m 0 c).A w = Vpre0 m c (Pipeline.arrRef spec0 w) :=
  (Reg0.A_eq0 (Vin0 m) c w).trans (Vin0_eq m c (Pipeline.arrRef spec0 w)).symm

/-- The contents after item 1 agree with those after item 0 at every reference but the output array. -/
theorem Vpost0_of_ne (c : Dev nD) (b : Ref sig .tc) (hb : b ≠ main_v15) : Vpost0 m c b = Vpre0 m c b :=
  V2_of m (outs m) c b fun h => hb (List.mem_singleton.mp h)

/-- At the output array they hold what region 0 leaves there. -/
theorem Vpost0_out (c : Dev nD) : Vpost0 m c main_v15 = o0 m c :=
  (Function.update_self _ _ _).trans (outs_2 m c)

/-- The contents after item 1 agree with those after item 0 off region 0's arrays: they differ at the output array only. -/
theorem hrest0 (c : Dev nD) : ∀ b, b ∉ Finset.univ.image (Pipeline.arrRef spec0) → Vpost0 m c b = Vpre0 m c b :=
  fun b hb => Vpost0_of_ne m c b fun e => hb (Finset.mem_image.mpr ⟨(2 : Fin 3), Finset.mem_univ _, arrRef0_out.trans e.symm⟩)

/-- At region 0's exit an input array holds what it held at entry: no write-back ever touches it, and the two contents
    agree there. -/
theorem hF0_in (c : Dev nD) (w : Fin 3) (hw : w ≠ 2) (hin : (cfg0.win w).isOut = false) :
    (pdats m 0 c).arrAt w cfg0.N = Vpost0 m c (Pipeline.arrRef spec0 w) :=
  ((pdats m 0 c).arrAt_in w hin cfg0.N).trans <| (hA0 m c w).trans (Vpost0_of_ne m c _ (arrRef0_ne_out w hw)).symm

/-- The output array holds the fold of the write-backs, the value the contents after item 1 name there. -/
theorem hF0_out (c : Dev nD) : (pdats m 0 c).arrAt (2 : Fin 3) cfg0.N = Vpost0 m c (Pipeline.arrRef spec0 (2 : Fin 3)) :=
  (Vpost0_out m c).symm

/-- At region 0's exit each of its arrays holds what the contents after item 1 say. -/
theorem hF0 (c : Dev nD) : ∀ w : Fin 3, (pdats m 0 c).arrAt w cfg0.N = Vpost0 m c (Pipeline.arrRef spec0 w)
  | 0 => hF0_in m c 0 (by decide) rfl
  | 1 => hF0_in m c 1 (by decide) rfl
  | 2 => hF0_out m c
  | ⟨_ + 3, h⟩ => absurd h (Nat.not_lt.2 (Nat.le_add_left _ _))

/-! ## The region as a segment -/

-- a library lemma stated over the pinned configuration unifies with the printed one only when unification may unfold
-- plain definitions in a metavariable's type
set_option backward.isDefEq.respectTransparency.types false in
/-- REGION 0 (custom_call 0) over the thread state: entered from every unscoped buffer at the contents after item 0,
    left at the contents after item 1.  Its arrays are split out of the unscoped buffers at entry and put back at their
    exit contents; the unscoped rest and the generator register bypass it; the invariant is fed from the scoped rest alone
    and returns it; nothing is owed at the pipeline's cells; the kernel has no semaphore of its own. -/
def reg0 : RegionSeg (pcfgs (F := F)) Gen.adm (pdats m) () defs₀ 𝒱₀ L lv 0 where
  win := launch0.win.to₀
  block_pos := launch0.block_pos
  stage_whole := launch0.stage_whole
  K := PEmpty
  osem k := k.elim
  ho := Pipeline.OwnSemFacts.none _
  hbody c := (Reg0.body_obligation0 (Vin0 m) c).loose
  hwaits := Pipeline.hwaits_of_owed_zero _ _ _ _ L lv 0 fun _ _ => rfl
  pre c := iprop(StableHlo.held (c : Thread nD τ) (Pipeline.ucRefs τ sig) (V1 m c) ∗ E (F := F) 0 c)
  post c := iprop(StableHlo.held (c : Thread nD τ) (Pipeline.ucRefs τ sig) (V2 m (outs m) c) ∗ E (F := F) 1 c)
  X c := BI.emp
  Y c := BI.emp
  Z c := iprop((∃ r, prngReg c r)
    ∗ Pipeline.unscopedRest (Ix := Unit) (Name := ℕ) (U := UR sig nD τ) (Lvl := ℕ) spec0 c (Vpre0 m c))
  hentry c := by
    rw [Pipeline.ownSems0_none]
    have hsplit := Pipeline.arrays_of_unscopedBufs (p := 0) (pcfgs (F := F)) Gen.adm (pdats m) launch0.win launch0.arr_whole c
      ((pdats m 0 c).share_full fun _ => rfl) (Vpre0 m c) (hA0 m c)
    rw [Pipeline.unscopedBufs_held c (V1 m c)] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    isplitl [Hp]; · iexact Hp
    iexact Hrest
  hin c := by
    refine BIBase.Entails.trans ?_ (Reg0.Phi0_in (Vin0 m) c)
    iintro ⟨-, -, Hr⟩
    iexact Hr
  hout c := by
    rw [Pipeline.ownSems0_none]
    refine (Reg0.Phi0_out (Vin0 m) c).trans ?_
    iintro Hr
    isplitr; · iempintro
    isplitr; · iempintro
    iexact Hr
  hexit c := by
    have hjoin := Pipeline.unscopedBufs_of_arrays (p := 0) (pcfgs (F := F)) Gen.adm (Ix := Unit) (Name := ℕ) (U := UR sig nD τ) (Lvl := ℕ)
      launch0.win launch0.arr_whole c (pdats m) ((pdats m 0 c).share_full fun _ => rfl)
      (Vpre0 m c) (Vpost0 m c) ((pdats m 0 c).arrAt · cfg0.N) (hF0 m c) (hrest0 m c)
    rw [Pipeline.unscopedBufs_held c (V2 m (outs m) c)] at hjoin
    iintro ⟨Ha, HO, -, Hp, Hrest⟩
    imodintro
    isplitl [Ha Hrest]
    · iapply hjoin; isplitl [Ha] <;> iassumption
    isplitl [Hp]; · iexact Hp
    unfold Pipeline.Dat.owesAt Pipeline.owesWithin
    icases HO with ⟨%W, -, HO⟩; iexists W; iexact HO

/-- The thread state before item 1 is the one region 0 is entered from, -/
theorem hpre0 (c : Dev nD) :
    iprop(StableHlo.held (c : Thread nD τ) (Pipeline.ucRefs τ sig) (V1 m c) ∗ E (F := F) 0 c) ⊢ (reg0 m).pre c := .rfl
/-- and the one it leaves is the thread state after item 1. -/
theorem hpost0 (c : Dev nD) :
    (reg0 m).post c ⊢ iprop(StableHlo.held (c : Thread nD τ) (Pipeline.ucRefs τ sig) (V2 m (outs m) c) ∗ E (F := F) 1 c) := .rfl

end Cert.Kernel.Run

end
-- ==== Proof.K.Seg1.lean ====
/-
  Region 1 of the kernel program's @main as a segment between the buffer contents after item 10 and after item 11.

  Entering, the core holds every unscoped buffer at the contents after item 10.  The region's three windowed arrays
  (the segment ids, the edge rows, the node sums) are split out of them at the proof data's entry contents; every other
  unscoped buffer passes the region by, and so does the generator register.  The pipeline's invariant starts as the
  scoped buffers no window stages (the accumulator is one of them) and gives them back at the last point.

  Leaving, an input window's array is never written, so the two input arrays hold what they held at entry; the output
  array holds the fold of the write-backs, which is the value the contents after item 11 name at that array.  The
  contents after item 11 differ from those after item 10 at that one array only, so the arrays at their final contents
  together with the bypassing buffers are every unscoped buffer at the contents after item 11.
-/
import proofs.«411400_j9251359555630_1_alg».proof.Proof.K.Vals
import Idealize.ShloMosaic.Lib.Pipeline.RegionsLoop
import Idealize.ShloMosaic.Lib.Pipeline.Cells
import Idealize.ShloMosaic.Lib.Pipeline.Kit

-- memberships decided among the program's 1120 references recurse past the default depth
set_option maxRecDepth 4992

noncomputable section

namespace Cert.Kernel.Run

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)
open Cert.Kernel Cert.Kernel.Gen

variable {F : FTy → Type} [FloatOps F]
variable (m : (ℓ : Loc nD τ sig) → Buf (Elt F) ℓ)

local notation "𝕄" => MT nD τ sig Unit (Elt F) ℕ (UR sig nD τ) ℕ

/-! ## Region 1's arrays at its exit -/

/-- The contents after item 10, read at the TensorCore's references: what region 1 is entered from. -/
abbrev Vpre1 (c : Dev nD) : (b : Ref sig .tc) → Buf (Elt F) ((c : Thread nD τ).loc b) := fun b => V11 m (outs m) c b
/-- The contents after item 11, read at the TensorCore's references: what region 1 leaves. -/
abbrev Vpost1 (c : Dev nD) : (b : Ref sig .tc) → Buf (Elt F) ((c : Thread nD τ).loc b) := fun b => V12 m (outs m) c b

/-- The output window's array is `main_v95`. -/
theorem arrRef1_out : Pipeline.arrRef spec1 (2 : Fin 3) = main_v95 := rfl

/-- An input window's array is not the output array: the windows' arrays are distinct buffers. -/
theorem arrRef1_ne_out (w : Fin 3) (hw : w ≠ 2) : Pipeline.arrRef spec1 w ≠ main_v95 :=
  fun e => hw (launch1.win.arr_inj (e.trans arrRef1_out.symm))

/-- The proof data are entered from the contents after item 10: each array's entry contents read off them. -/
theorem hA1 (c : Dev nD) (w : Fin cfg1.W) : (pdats m 1 c).A w = Vpre1 m c (Pipeline.arrRef spec1 w) :=
  (Reg1.A_eq1 (Vin1 m) c w).trans (Vin1_eq m c (Pipeline.arrRef spec1 w)).symm

/-- The contents after item 11 agree with those after item 10 at every reference but the output array. -/
theorem Vpost1_of_ne (c : Dev nD) (b : Ref sig .tc) (hb : b ≠ main_v95) : Vpost1 m c b = Vpre1 m c b :=
  V12_of m (outs m) c b fun h => hb (List.mem_singleton.mp h)

/-- At the output array they hold what region 1 leaves there. -/
theorem Vpost1_out (c : Dev nD) : Vpost1 m c main_v95 = o1 m c :=
  (Function.update_self _ _ _).trans (outs_12 m c)

/-- The contents after item 11 agree with those after item 10 off region 1's arrays: they differ at the output array only. -/
theorem hrest1 (c : Dev nD) : ∀ b, b ∉ Finset.univ.image (Pipeline.arrRef spec1) → Vpost1 m c b = Vpre1 m c b :=
  fun b hb => Vpost1_of_ne m c b fun e => hb (Finset.mem_image.mpr ⟨(2 : Fin 3), Finset.mem_univ _, arrRef1_out.trans e.symm⟩)

/-- At region 1's exit an input array holds what it held at entry: no write-back ever touches it, and the two contents
    agree there. -/
theorem hF1_in (c : Dev nD) (w : Fin 3) (hw : w ≠ 2) (hin : (cfg1.win w).isOut = false) :
    (pdats m 1 c).arrAt w cfg1.N = Vpost1 m c (Pipeline.arrRef spec1 w) :=
  ((pdats m 1 c).arrAt_in w hin cfg1.N).trans <| (hA1 m c w).trans (Vpost1_of_ne m c _ (arrRef1_ne_out w hw)).symm

/-- The output array holds the fold of the write-backs, the value the contents after item 11 name there. -/
theorem hF1_out (c : Dev nD) : (pdats m 1 c).arrAt (2 : Fin 3) cfg1.N = Vpost1 m c (Pipeline.arrRef spec1 (2 : Fin 3)) :=
  (Vpost1_out m c).symm

/-- At region 1's exit each of its arrays holds what the contents after item 11 say. -/
theorem hF1 (c : Dev nD) : ∀ w : Fin 3, (pdats m 1 c).arrAt w cfg1.N = Vpost1 m c (Pipeline.arrRef spec1 w)
  | 0 => hF1_in m c 0 (by decide) rfl
  | 1 => hF1_in m c 1 (by decide) rfl
  | 2 => hF1_out m c
  | ⟨_ + 3, h⟩ => absurd h (Nat.not_lt.2 (Nat.le_add_left _ _))

/-! ## The region as a segment -/

-- a library lemma stated over the pinned configuration unifies with the printed one only when unification may unfold
-- plain definitions in a metavariable's type
set_option backward.isDefEq.respectTransparency.types false in
/-- REGION 1 (custom_call 1) over the thread state: entered from every unscoped buffer at the contents after item 10,
    left at the contents after item 11.  Its arrays are split out of the unscoped buffers at entry and put back at their
    exit contents; the unscoped rest and the generator register bypass it; the invariant is fed from the scoped rest alone
    and returns it; nothing is owed at the pipeline's cells; the kernel has no semaphore of its own. -/
def reg1 : RegionSeg (pcfgs (F := F)) Gen.adm (pdats m) () defs₀ 𝒱₀ L lv 1 where
  win := launch1.win.to₀
  block_pos := launch1.block_pos
  stage_whole := launch1.stage_whole
  K := PEmpty
  osem k := k.elim
  ho := Pipeline.OwnSemFacts.none _
  hbody c := (Reg1.body_obligation1 (Vin1 m) c).loose
  hwaits := Pipeline.hwaits_of_owed_zero _ _ _ _ L lv 1 fun _ _ => rfl
  pre c := iprop(StableHlo.held (c : Thread nD τ) (Pipeline.ucRefs τ sig) (V11 m (outs m) c) ∗ E (F := F) 1 c)
  post c := iprop(StableHlo.held (c : Thread nD τ) (Pipeline.ucRefs τ sig) (V12 m (outs m) c) ∗ E (F := F) 2 c)
  X c := BI.emp
  Y c := BI.emp
  Z c := iprop((∃ r, prngReg c r)
    ∗ Pipeline.unscopedRest (Ix := Unit) (Name := ℕ) (U := UR sig nD τ) (Lvl := ℕ) spec1 c (Vpre1 m c))
  hentry c := by
    rw [Pipeline.ownSems0_none]
    have hsplit := Pipeline.arrays_of_unscopedBufs (p := 1) (pcfgs (F := F)) Gen.adm (pdats m) launch1.win launch1.arr_whole c
      ((pdats m 1 c).share_full fun _ => rfl) (Vpre1 m c) (hA1 m c)
    rw [Pipeline.unscopedBufs_held c (V11 m (outs m) c)] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    isplitl [Hp]; · iexact Hp
    iexact Hrest
  hin c := by
    refine BIBase.Entails.trans ?_ (Reg1.Phi1_in (Vin1 m) c)
    iintro ⟨-, -, Hr⟩
    iexact Hr
  hout c := by
    rw [Pipeline.ownSems0_none]
    refine (Reg1.Phi1_out (Vin1 m) c).trans ?_
    iintro Hr
    isplitr; · iempintro
    isplitr; · iempintro
    iexact Hr
  hexit c := by
    have hjoin := Pipeline.unscopedBufs_of_arrays (p := 1) (pcfgs (F := F)) Gen.adm (Ix := Unit) (Name := ℕ) (U := UR sig nD τ) (Lvl := ℕ)
      launch1.win launch1.arr_whole c (pdats m) ((pdats m 1 c).share_full fun _ => rfl)
      (Vpre1 m c) (Vpost1 m c) ((pdats m 1 c).arrAt · cfg1.N) (hF1 m c) (hrest1 m c)
    rw [Pipeline.unscopedBufs_held c (V12 m (outs m) c)] at hjoin
    iintro ⟨Ha, HO, -, Hp, Hrest⟩
    imodintro
    isplitl [Ha Hrest]
    · iapply hjoin; isplitl [Ha] <;> iassumption
    isplitl [Hp]; · iexact Hp
    unfold Pipeline.Dat.owesAt Pipeline.owesWithin
    icases HO with ⟨%W, -, HO⟩; iexists W; iexact HO

/-- The thread state before item 11 is the one region 1 is entered from, -/
theorem hpre1 (c : Dev nD) :
    iprop(StableHlo.held (c : Thread nD τ) (Pipeline.ucRefs τ sig) (V11 m (outs m) c) ∗ E (F := F) 1 c) ⊢ (reg1 m).pre c := .rfl
/-- and the one it leaves is the thread state after item 11. -/
theorem hpost1 (c : Dev nD) :
    (reg1 m).post c ⊢ iprop(StableHlo.held (c : Thread nD τ) (Pipeline.ucRefs τ sig) (V12 m (outs m) c) ∗ E (F := F) 2 c) := .rfl

end Cert.Kernel.Run

end
-- ==== Proof.K.Seg2.lean ====
/-
  Region 2 of the kernel program's @main as a segment between the buffer contents after item 20 and after item 21.

  Entering, the core holds every unscoped buffer at the contents after item 20.  The region's three windowed arrays
  (the segment ids, the edge rows, the node sums) are split out of them at the proof data's entry contents; every other
  unscoped buffer passes the region by, and so does the generator register.  The pipeline's invariant starts as the
  scoped buffers no window stages (the accumulator is one of them) and gives them back at the last point.

  Leaving, an input window's array is never written, so the two input arrays hold what they held at entry; the output
  array holds the fold of the write-backs, which is the value the contents after item 21 name at that array.  The
  contents after item 21 differ from those after item 20 at that one array only, so the arrays at their final contents
  together with the bypassing buffers are every unscoped buffer at the contents after item 21.
-/
import proofs.«411400_j9251359555630_1_alg».proof.Proof.K.Vals
import Idealize.ShloMosaic.Lib.Pipeline.RegionsLoop
import Idealize.ShloMosaic.Lib.Pipeline.Cells
import Idealize.ShloMosaic.Lib.Pipeline.Kit

-- memberships decided among the program's 1120 references recurse past the default depth
set_option maxRecDepth 4992

noncomputable section

namespace Cert.Kernel.Run

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)
open Cert.Kernel Cert.Kernel.Gen

variable {F : FTy → Type} [FloatOps F]
variable (m : (ℓ : Loc nD τ sig) → Buf (Elt F) ℓ)

local notation "𝕄" => MT nD τ sig Unit (Elt F) ℕ (UR sig nD τ) ℕ

/-! ## Region 2's arrays at its exit -/

/-- The contents after item 20, read at the TensorCore's references: what region 2 is entered from. -/
abbrev Vpre2 (c : Dev nD) : (b : Ref sig .tc) → Buf (Elt F) ((c : Thread nD τ).loc b) := fun b => V21 m (outs m) c b
/-- The contents after item 21, read at the TensorCore's references: what region 2 leaves. -/
abbrev Vpost2 (c : Dev nD) : (b : Ref sig .tc) → Buf (Elt F) ((c : Thread nD τ).loc b) := fun b => V22 m (outs m) c b

/-- The output window's array is `main_v152`. -/
theorem arrRef2_out : Pipeline.arrRef spec2 (2 : Fin 3) = main_v152 := rfl

/-- An input window's array is not the output array: the windows' arrays are distinct buffers. -/
theorem arrRef2_ne_out (w : Fin 3) (hw : w ≠ 2) : Pipeline.arrRef spec2 w ≠ main_v152 :=
  fun e => hw (launch2.win.arr_inj (e.trans arrRef2_out.symm))

/-- The proof data are entered from the contents after item 20: each array's entry contents read off them. -/
theorem hA2 (c : Dev nD) (w : Fin cfg2.W) : (pdats m 2 c).A w = Vpre2 m c (Pipeline.arrRef spec2 w) :=
  (Reg2.A_eq2 (Vin2 m) c w).trans (Vin2_eq m c (Pipeline.arrRef spec2 w)).symm

/-- The contents after item 21 agree with those after item 20 at every reference but the output array. -/
theorem Vpost2_of_ne (c : Dev nD) (b : Ref sig .tc) (hb : b ≠ main_v152) : Vpost2 m c b = Vpre2 m c b :=
  V22_of m (outs m) c b fun h => hb (List.mem_singleton.mp h)

/-- At the output array they hold what region 2 leaves there. -/
theorem Vpost2_out (c : Dev nD) : Vpost2 m c main_v152 = o2 m c :=
  (Function.update_self _ _ _).trans (outs_22 m c)

/-- The contents after item 21 agree with those after item 20 off region 2's arrays: they differ at the output array only. -/
theorem hrest2 (c : Dev nD) : ∀ b, b ∉ Finset.univ.image (Pipeline.arrRef spec2) → Vpost2 m c b = Vpre2 m c b :=
  fun b hb => Vpost2_of_ne m c b fun e => hb (Finset.mem_image.mpr ⟨(2 : Fin 3), Finset.mem_univ _, arrRef2_out.trans e.symm⟩)

/-- At region 2's exit an input array holds what it held at entry: no write-back ever touches it, and the two contents
    agree there. -/
theorem hF2_in (c : Dev nD) (w : Fin 3) (hw : w ≠ 2) (hin : (cfg2.win w).isOut = false) :
    (pdats m 2 c).arrAt w cfg2.N = Vpost2 m c (Pipeline.arrRef spec2 w) :=
  ((pdats m 2 c).arrAt_in w hin cfg2.N).trans <| (hA2 m c w).trans (Vpost2_of_ne m c _ (arrRef2_ne_out w hw)).symm

/-- The output array holds the fold of the write-backs, the value the contents after item 21 name there. -/
theorem hF2_out (c : Dev nD) : (pdats m 2 c).arrAt (2 : Fin 3) cfg2.N = Vpost2 m c (Pipeline.arrRef spec2 (2 : Fin 3)) :=
  (Vpost2_out m c).symm

/-- At region 2's exit each of its arrays holds what the contents after item 21 say. -/
theorem hF2 (c : Dev nD) : ∀ w : Fin 3, (pdats m 2 c).arrAt w cfg2.N = Vpost2 m c (Pipeline.arrRef spec2 w)
  | 0 => hF2_in m c 0 (by decide) rfl
  | 1 => hF2_in m c 1 (by decide) rfl
  | 2 => hF2_out m c
  | ⟨_ + 3, h⟩ => absurd h (Nat.not_lt.2 (Nat.le_add_left _ _))

/-! ## The region as a segment -/

-- a library lemma stated over the pinned configuration unifies with the printed one only when unification may unfold
-- plain definitions in a metavariable's type
set_option backward.isDefEq.respectTransparency.types false in
/-- REGION 2 (custom_call 2) over the thread state: entered from every unscoped buffer at the contents after item 20,
    left at the contents after item 21.  Its arrays are split out of the unscoped buffers at entry and put back at their
    exit contents; the unscoped rest and the generator register bypass it; the invariant is fed from the scoped rest alone
    and returns it; nothing is owed at the pipeline's cells; the kernel has no semaphore of its own. -/
def reg2 : RegionSeg (pcfgs (F := F)) Gen.adm (pdats m) () defs₀ 𝒱₀ L lv 2 where
  win := launch2.win.to₀
  block_pos := launch2.block_pos
  stage_whole := launch2.stage_whole
  K := PEmpty
  osem k := k.elim
  ho := Pipeline.OwnSemFacts.none _
  hbody c := (Reg2.body_obligation2 (Vin2 m) c).loose
  hwaits := Pipeline.hwaits_of_owed_zero _ _ _ _ L lv 2 fun _ _ => rfl
  pre c := iprop(StableHlo.held (c : Thread nD τ) (Pipeline.ucRefs τ sig) (V21 m (outs m) c) ∗ E (F := F) 2 c)
  post c := iprop(StableHlo.held (c : Thread nD τ) (Pipeline.ucRefs τ sig) (V22 m (outs m) c) ∗ E (F := F) 3 c)
  X c := BI.emp
  Y c := BI.emp
  Z c := iprop((∃ r, prngReg c r)
    ∗ Pipeline.unscopedRest (Ix := Unit) (Name := ℕ) (U := UR sig nD τ) (Lvl := ℕ) spec2 c (Vpre2 m c))
  hentry c := by
    rw [Pipeline.ownSems0_none]
    have hsplit := Pipeline.arrays_of_unscopedBufs (p := 2) (pcfgs (F := F)) Gen.adm (pdats m) launch2.win launch2.arr_whole c
      ((pdats m 2 c).share_full fun _ => rfl) (Vpre2 m c) (hA2 m c)
    rw [Pipeline.unscopedBufs_held c (V21 m (outs m) c)] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    isplitl [Hp]; · iexact Hp
    iexact Hrest
  hin c := by
    refine BIBase.Entails.trans ?_ (Reg2.Phi2_in (Vin2 m) c)
    iintro ⟨-, -, Hr⟩
    iexact Hr
  hout c := by
    rw [Pipeline.ownSems0_none]
    refine (Reg2.Phi2_out (Vin2 m) c).trans ?_
    iintro Hr
    isplitr; · iempintro
    isplitr; · iempintro
    iexact Hr
  hexit c := by
    have hjoin := Pipeline.unscopedBufs_of_arrays (p := 2) (pcfgs (F := F)) Gen.adm (Ix := Unit) (Name := ℕ) (U := UR sig nD τ) (Lvl := ℕ)
      launch2.win launch2.arr_whole c (pdats m) ((pdats m 2 c).share_full fun _ => rfl)
      (Vpre2 m c) (Vpost2 m c) ((pdats m 2 c).arrAt · cfg2.N) (hF2 m c) (hrest2 m c)
    rw [Pipeline.unscopedBufs_held c (V22 m (outs m) c)] at hjoin
    iintro ⟨Ha, HO, -, Hp, Hrest⟩
    imodintro
    isplitl [Ha Hrest]
    · iapply hjoin; isplitl [Ha] <;> iassumption
    isplitl [Hp]; · iexact Hp
    unfold Pipeline.Dat.owesAt Pipeline.owesWithin
    icases HO with ⟨%W, -, HO⟩; iexists W; iexact HO

/-- The thread state before item 21 is the one region 2 is entered from, -/
theorem hpre2 (c : Dev nD) :
    iprop(StableHlo.held (c : Thread nD τ) (Pipeline.ucRefs τ sig) (V21 m (outs m) c) ∗ E (F := F) 2 c) ⊢ (reg2 m).pre c := .rfl
/-- and the one it leaves is the thread state after item 21. -/
theorem hpost2 (c : Dev nD) :
    (reg2 m).post c ⊢ iprop(StableHlo.held (c : Thread nD τ) (Pipeline.ucRefs τ sig) (V22 m (outs m) c) ∗ E (F := F) 3 c) := .rfl

end Cert.Kernel.Run

end
-- ==== Proof.K.Seg3.lean ====
/-
  Region 3 of the kernel program's @main as a segment between the buffer contents after item 30 and after item 31.

  Entering, the core holds every unscoped buffer at the contents after item 30.  The region's three windowed arrays
  (the segment ids, the edge rows, the node sums) are split out of them at the proof data's entry contents; every other
  unscoped buffer passes the region by, and so does the generator register.  The pipeline's invariant starts as the
  scoped buffers no window stages (the accumulator is one of them) and gives them back at the last point.

  Leaving, an input window's array is never written, so the two input arrays hold what they held at entry; the output
  array holds the fold of the write-backs, which is the value the contents after item 31 name at that array.  The
  contents after item 31 differ from those after item 30 at that one array only, so the arrays at their final contents
  together with the bypassing buffers are every unscoped buffer at the contents after item 31.
-/
import proofs.«411400_j9251359555630_1_alg».proof.Proof.K.Vals
import Idealize.ShloMosaic.Lib.Pipeline.RegionsLoop
import Idealize.ShloMosaic.Lib.Pipeline.Cells
import Idealize.ShloMosaic.Lib.Pipeline.Kit

-- memberships decided among the program's 1120 references recurse past the default depth
set_option maxRecDepth 4992

noncomputable section

namespace Cert.Kernel.Run

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)
open Cert.Kernel Cert.Kernel.Gen

variable {F : FTy → Type} [FloatOps F]
variable (m : (ℓ : Loc nD τ sig) → Buf (Elt F) ℓ)

local notation "𝕄" => MT nD τ sig Unit (Elt F) ℕ (UR sig nD τ) ℕ

/-! ## Region 3's arrays at its exit -/

/-- The contents after item 30, read at the TensorCore's references: what region 3 is entered from. -/
abbrev Vpre3 (c : Dev nD) : (b : Ref sig .tc) → Buf (Elt F) ((c : Thread nD τ).loc b) := fun b => V31 m (outs m) c b
/-- The contents after item 31, read at the TensorCore's references: what region 3 leaves. -/
abbrev Vpost3 (c : Dev nD) : (b : Ref sig .tc) → Buf (Elt F) ((c : Thread nD τ).loc b) := fun b => V32 m (outs m) c b

/-- The output window's array is `main_v231`. -/
theorem arrRef3_out : Pipeline.arrRef spec3 (2 : Fin 3) = main_v231 := rfl

/-- An input window's array is not the output array: the windows' arrays are distinct buffers. -/
theorem arrRef3_ne_out (w : Fin 3) (hw : w ≠ 2) : Pipeline.arrRef spec3 w ≠ main_v231 :=
  fun e => hw (launch3.win.arr_inj (e.trans arrRef3_out.symm))

/-- The proof data are entered from the contents after item 30: each array's entry contents read off them. -/
theorem hA3 (c : Dev nD) (w : Fin cfg3.W) : (pdats m 3 c).A w = Vpre3 m c (Pipeline.arrRef spec3 w) :=
  (Reg3.A_eq3 (Vin3 m) c w).trans (Vin3_eq m c (Pipeline.arrRef spec3 w)).symm

/-- The contents after item 31 agree with those after item 30 at every reference but the output array. -/
theorem Vpost3_of_ne (c : Dev nD) (b : Ref sig .tc) (hb : b ≠ main_v231) : Vpost3 m c b = Vpre3 m c b :=
  V32_of m (outs m) c b fun h => hb (List.mem_singleton.mp h)

/-- At the output array they hold what region 3 leaves there. -/
theorem Vpost3_out (c : Dev nD) : Vpost3 m c main_v231 = o3 m c :=
  (Function.update_self _ _ _).trans (outs_32 m c)

/-- The contents after item 31 agree with those after item 30 off region 3's arrays: they differ at the output array only. -/
theorem hrest3 (c : Dev nD) : ∀ b, b ∉ Finset.univ.image (Pipeline.arrRef spec3) → Vpost3 m c b = Vpre3 m c b :=
  fun b hb => Vpost3_of_ne m c b fun e => hb (Finset.mem_image.mpr ⟨(2 : Fin 3), Finset.mem_univ _, arrRef3_out.trans e.symm⟩)

/-- At region 3's exit an input array holds what it held at entry: no write-back ever touches it, and the two contents
    agree there. -/
theorem hF3_in (c : Dev nD) (w : Fin 3) (hw : w ≠ 2) (hin : (cfg3.win w).isOut = false) :
    (pdats m 3 c).arrAt w cfg3.N = Vpost3 m c (Pipeline.arrRef spec3 w) :=
  ((pdats m 3 c).arrAt_in w hin cfg3.N).trans <| (hA3 m c w).trans (Vpost3_of_ne m c _ (arrRef3_ne_out w hw)).symm

/-- The output array holds the fold of the write-backs, the value the contents after item 31 name there. -/
theorem hF3_out (c : Dev nD) : (pdats m 3 c).arrAt (2 : Fin 3) cfg3.N = Vpost3 m c (Pipeline.arrRef spec3 (2 : Fin 3)) :=
  (Vpost3_out m c).symm

/-- At region 3's exit each of its arrays holds what the contents after item 31 say. -/
theorem hF3 (c : Dev nD) : ∀ w : Fin 3, (pdats m 3 c).arrAt w cfg3.N = Vpost3 m c (Pipeline.arrRef spec3 w)
  | 0 => hF3_in m c 0 (by decide) rfl
  | 1 => hF3_in m c 1 (by decide) rfl
  | 2 => hF3_out m c
  | ⟨_ + 3, h⟩ => absurd h (Nat.not_lt.2 (Nat.le_add_left _ _))

/-! ## The region as a segment -/

-- a library lemma stated over the pinned configuration unifies with the printed one only when unification may unfold
-- plain definitions in a metavariable's type
set_option backward.isDefEq.respectTransparency.types false in
/-- REGION 3 (custom_call 3) over the thread state: entered from every unscoped buffer at the contents after item 30,
    left at the contents after item 31.  Its arrays are split out of the unscoped buffers at entry and put back at their
    exit contents; the unscoped rest and the generator register bypass it; the invariant is fed from the scoped rest alone
    and returns it; nothing is owed at the pipeline's cells; the kernel has no semaphore of its own. -/
def reg3 : RegionSeg (pcfgs (F := F)) Gen.adm (pdats m) () defs₀ 𝒱₀ L lv 3 where
  win := launch3.win.to₀
  block_pos := launch3.block_pos
  stage_whole := launch3.stage_whole
  K := PEmpty
  osem k := k.elim
  ho := Pipeline.OwnSemFacts.none _
  hbody c := (Reg3.body_obligation3 (Vin3 m) c).loose
  hwaits := Pipeline.hwaits_of_owed_zero _ _ _ _ L lv 3 fun _ _ => rfl
  pre c := iprop(StableHlo.held (c : Thread nD τ) (Pipeline.ucRefs τ sig) (V31 m (outs m) c) ∗ E (F := F) 3 c)
  post c := iprop(StableHlo.held (c : Thread nD τ) (Pipeline.ucRefs τ sig) (V32 m (outs m) c) ∗ E (F := F) 4 c)
  X c := BI.emp
  Y c := BI.emp
  Z c := iprop((∃ r, prngReg c r)
    ∗ Pipeline.unscopedRest (Ix := Unit) (Name := ℕ) (U := UR sig nD τ) (Lvl := ℕ) spec3 c (Vpre3 m c))
  hentry c := by
    rw [Pipeline.ownSems0_none]
    have hsplit := Pipeline.arrays_of_unscopedBufs (p := 3) (pcfgs (F := F)) Gen.adm (pdats m) launch3.win launch3.arr_whole c
      ((pdats m 3 c).share_full fun _ => rfl) (Vpre3 m c) (hA3 m c)
    rw [Pipeline.unscopedBufs_held c (V31 m (outs m) c)] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    isplitl [Hp]; · iexact Hp
    iexact Hrest
  hin c := by
    refine BIBase.Entails.trans ?_ (Reg3.Phi3_in (Vin3 m) c)
    iintro ⟨-, -, Hr⟩
    iexact Hr
  hout c := by
    rw [Pipeline.ownSems0_none]
    refine (Reg3.Phi3_out (Vin3 m) c).trans ?_
    iintro Hr
    isplitr; · iempintro
    isplitr; · iempintro
    iexact Hr
  hexit c := by
    have hjoin := Pipeline.unscopedBufs_of_arrays (p := 3) (pcfgs (F := F)) Gen.adm (Ix := Unit) (Name := ℕ) (U := UR sig nD τ) (Lvl := ℕ)
      launch3.win launch3.arr_whole c (pdats m) ((pdats m 3 c).share_full fun _ => rfl)
      (Vpre3 m c) (Vpost3 m c) ((pdats m 3 c).arrAt · cfg3.N) (hF3 m c) (hrest3 m c)
    rw [Pipeline.unscopedBufs_held c (V32 m (outs m) c)] at hjoin
    iintro ⟨Ha, HO, -, Hp, Hrest⟩
    imodintro
    isplitl [Ha Hrest]
    · iapply hjoin; isplitl [Ha] <;> iassumption
    isplitl [Hp]; · iexact Hp
    unfold Pipeline.Dat.owesAt Pipeline.owesWithin
    icases HO with ⟨%W, -, HO⟩; iexists W; iexact HO

/-- The thread state before item 31 is the one region 3 is entered from, -/
theorem hpre3 (c : Dev nD) :
    iprop(StableHlo.held (c : Thread nD τ) (Pipeline.ucRefs τ sig) (V31 m (outs m) c) ∗ E (F := F) 3 c) ⊢ (reg3 m).pre c := .rfl
/-- and the one it leaves is the thread state after item 31. -/
theorem hpost3 (c : Dev nD) :
    (reg3 m).post c ⊢ iprop(StableHlo.held (c : Thread nD τ) (Pipeline.ucRefs τ sig) (V32 m (outs m) c) ∗ E (F := F) 4 c) := .rfl

end Cert.Kernel.Run

end
-- ==== Proof.K.Seg4.lean ====
/-
  Region 4 of the kernel program's @main as a segment between the buffer contents after item 40 and after item 41.

  Entering, the core holds every unscoped buffer at the contents after item 40.  The region's three windowed arrays
  (the segment ids, the edge rows, the node sums) are split out of them at the proof data's entry contents; every other
  unscoped buffer passes the region by, and so does the generator register.  The pipeline's invariant starts as the
  scoped buffers no window stages (the accumulator is one of them) and gives them back at the last point.

  Leaving, an input window's array is never written, so the two input arrays hold what they held at entry; the output
  array holds the fold of the write-backs, which is the value the contents after item 41 name at that array.  The
  contents after item 41 differ from those after item 40 at that one array only, so the arrays at their final contents
  together with the bypassing buffers are every unscoped buffer at the contents after item 41.
-/
import proofs.«411400_j9251359555630_1_alg».proof.Proof.K.Vals
import Idealize.ShloMosaic.Lib.Pipeline.RegionsLoop
import Idealize.ShloMosaic.Lib.Pipeline.Cells
import Idealize.ShloMosaic.Lib.Pipeline.Kit

-- memberships decided among the program's 1120 references recurse past the default depth
set_option maxRecDepth 4992

noncomputable section

namespace Cert.Kernel.Run

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)
open Cert.Kernel Cert.Kernel.Gen

variable {F : FTy → Type} [FloatOps F]
variable (m : (ℓ : Loc nD τ sig) → Buf (Elt F) ℓ)

local notation "𝕄" => MT nD τ sig Unit (Elt F) ℕ (UR sig nD τ) ℕ

/-! ## Region 4's arrays at its exit -/

/-- The contents after item 40, read at the TensorCore's references: what region 4 is entered from. -/
abbrev Vpre4 (c : Dev nD) : (b : Ref sig .tc) → Buf (Elt F) ((c : Thread nD τ).loc b) := fun b => V41 m (outs m) c b
/-- The contents after item 41, read at the TensorCore's references: what region 4 leaves. -/
abbrev Vpost4 (c : Dev nD) : (b : Ref sig .tc) → Buf (Elt F) ((c : Thread nD τ).loc b) := fun b => V42 m (outs m) c b

/-- The output window's array is `main_v288`. -/
theorem arrRef4_out : Pipeline.arrRef spec4 (2 : Fin 3) = main_v288 := rfl

/-- An input window's array is not the output array: the windows' arrays are distinct buffers. -/
theorem arrRef4_ne_out (w : Fin 3) (hw : w ≠ 2) : Pipeline.arrRef spec4 w ≠ main_v288 :=
  fun e => hw (launch4.win.arr_inj (e.trans arrRef4_out.symm))

/-- The proof data are entered from the contents after item 40: each array's entry contents read off them. -/
theorem hA4 (c : Dev nD) (w : Fin cfg4.W) : (pdats m 4 c).A w = Vpre4 m c (Pipeline.arrRef spec4 w) :=
  (Reg4.A_eq4 (Vin4 m) c w).trans (Vin4_eq m c (Pipeline.arrRef spec4 w)).symm

/-- The contents after item 41 agree with those after item 40 at every reference but the output array. -/
theorem Vpost4_of_ne (c : Dev nD) (b : Ref sig .tc) (hb : b ≠ main_v288) : Vpost4 m c b = Vpre4 m c b :=
  V42_of m (outs m) c b fun h => hb (List.mem_singleton.mp h)

/-- At the output array they hold what region 4 leaves there. -/
theorem Vpost4_out (c : Dev nD) : Vpost4 m c main_v288 = o4 m c :=
  (Function.update_self _ _ _).trans (outs_42 m c)

/-- The contents after item 41 agree with those after item 40 off region 4's arrays: they differ at the output array only. -/
theorem hrest4 (c : Dev nD) : ∀ b, b ∉ Finset.univ.image (Pipeline.arrRef spec4) → Vpost4 m c b = Vpre4 m c b :=
  fun b hb => Vpost4_of_ne m c b fun e => hb (Finset.mem_image.mpr ⟨(2 : Fin 3), Finset.mem_univ _, arrRef4_out.trans e.symm⟩)

/-- At region 4's exit an input array holds what it held at entry: no write-back ever touches it, and the two contents
    agree there. -/
theorem hF4_in (c : Dev nD) (w : Fin 3) (hw : w ≠ 2) (hin : (cfg4.win w).isOut = false) :
    (pdats m 4 c).arrAt w cfg4.N = Vpost4 m c (Pipeline.arrRef spec4 w) :=
  ((pdats m 4 c).arrAt_in w hin cfg4.N).trans <| (hA4 m c w).trans (Vpost4_of_ne m c _ (arrRef4_ne_out w hw)).symm

/-- The output array holds the fold of the write-backs, the value the contents after item 41 name there. -/
theorem hF4_out (c : Dev nD) : (pdats m 4 c).arrAt (2 : Fin 3) cfg4.N = Vpost4 m c (Pipeline.arrRef spec4 (2 : Fin 3)) :=
  (Vpost4_out m c).symm

/-- At region 4's exit each of its arrays holds what the contents after item 41 say. -/
theorem hF4 (c : Dev nD) : ∀ w : Fin 3, (pdats m 4 c).arrAt w cfg4.N = Vpost4 m c (Pipeline.arrRef spec4 w)
  | 0 => hF4_in m c 0 (by decide) rfl
  | 1 => hF4_in m c 1 (by decide) rfl
  | 2 => hF4_out m c
  | ⟨_ + 3, h⟩ => absurd h (Nat.not_lt.2 (Nat.le_add_left _ _))

/-! ## The region as a segment -/

-- a library lemma stated over the pinned configuration unifies with the printed one only when unification may unfold
-- plain definitions in a metavariable's type
set_option backward.isDefEq.respectTransparency.types false in
/-- REGION 4 (custom_call 4) over the thread state: entered from every unscoped buffer at the contents after item 40,
    left at the contents after item 41.  Its arrays are split out of the unscoped buffers at entry and put back at their
    exit contents; the unscoped rest and the generator register bypass it; the invariant is fed from the scoped rest alone
    and returns it; nothing is owed at the pipeline's cells; the kernel has no semaphore of its own. -/
def reg4 : RegionSeg (pcfgs (F := F)) Gen.adm (pdats m) () defs₀ 𝒱₀ L lv 4 where
  win := launch4.win.to₀
  block_pos := launch4.block_pos
  stage_whole := launch4.stage_whole
  K := PEmpty
  osem k := k.elim
  ho := Pipeline.OwnSemFacts.none _
  hbody c := (Reg4.body_obligation4 (Vin4 m) c).loose
  hwaits := Pipeline.hwaits_of_owed_zero _ _ _ _ L lv 4 fun _ _ => rfl
  pre c := iprop(StableHlo.held (c : Thread nD τ) (Pipeline.ucRefs τ sig) (V41 m (outs m) c) ∗ E (F := F) 4 c)
  post c := iprop(StableHlo.held (c : Thread nD τ) (Pipeline.ucRefs τ sig) (V42 m (outs m) c) ∗ E (F := F) 5 c)
  X c := BI.emp
  Y c := BI.emp
  Z c := iprop((∃ r, prngReg c r)
    ∗ Pipeline.unscopedRest (Ix := Unit) (Name := ℕ) (U := UR sig nD τ) (Lvl := ℕ) spec4 c (Vpre4 m c))
  hentry c := by
    rw [Pipeline.ownSems0_none]
    have hsplit := Pipeline.arrays_of_unscopedBufs (p := 4) (pcfgs (F := F)) Gen.adm (pdats m) launch4.win launch4.arr_whole c
      ((pdats m 4 c).share_full fun _ => rfl) (Vpre4 m c) (hA4 m c)
    rw [Pipeline.unscopedBufs_held c (V41 m (outs m) c)] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    isplitl [Hp]; · iexact Hp
    iexact Hrest
  hin c := by
    refine BIBase.Entails.trans ?_ (Reg4.Phi4_in (Vin4 m) c)
    iintro ⟨-, -, Hr⟩
    iexact Hr
  hout c := by
    rw [Pipeline.ownSems0_none]
    refine (Reg4.Phi4_out (Vin4 m) c).trans ?_
    iintro Hr
    isplitr; · iempintro
    isplitr; · iempintro
    iexact Hr
  hexit c := by
    have hjoin := Pipeline.unscopedBufs_of_arrays (p := 4) (pcfgs (F := F)) Gen.adm (Ix := Unit) (Name := ℕ) (U := UR sig nD τ) (Lvl := ℕ)
      launch4.win launch4.arr_whole c (pdats m) ((pdats m 4 c).share_full fun _ => rfl)
      (Vpre4 m c) (Vpost4 m c) ((pdats m 4 c).arrAt · cfg4.N) (hF4 m c) (hrest4 m c)
    rw [Pipeline.unscopedBufs_held c (V42 m (outs m) c)] at hjoin
    iintro ⟨Ha, HO, -, Hp, Hrest⟩
    imodintro
    isplitl [Ha Hrest]
    · iapply hjoin; isplitl [Ha] <;> iassumption
    isplitl [Hp]; · iexact Hp
    unfold Pipeline.Dat.owesAt Pipeline.owesWithin
    icases HO with ⟨%W, -, HO⟩; iexists W; iexact HO

/-- The thread state before item 41 is the one region 4 is entered from, -/
theorem hpre4 (c : Dev nD) :
    iprop(StableHlo.held (c : Thread nD τ) (Pipeline.ucRefs τ sig) (V41 m (outs m) c) ∗ E (F := F) 4 c) ⊢ (reg4 m).pre c := .rfl
/-- and the one it leaves is the thread state after item 41. -/
theorem hpost4 (c : Dev nD) :
    (reg4 m).post c ⊢ iprop(StableHlo.held (c : Thread nD τ) (Pipeline.ucRefs τ sig) (V42 m (outs m) c) ∗ E (F := F) 5 c) := .rfl

end Cert.Kernel.Run

end
-- ==== Proof.K.Seg5.lean ====
/-
  Region 5 of the kernel program's @main as a segment between the buffer contents after item 50 and after item 51.

  Entering, the core holds every unscoped buffer at the contents after item 50.  The region's three windowed arrays
  (the segment ids, the edge rows, the node sums) are split out of them at the proof data's entry contents; every other
  unscoped buffer passes the region by, and so does the generator register.  The pipeline's invariant starts as the
  scoped buffers no window stages (the accumulator is one of them) and gives them back at the last point.

  Leaving, an input window's array is never written, so the two input arrays hold what they held at entry; the output
  array holds the fold of the write-backs, which is the value the contents after item 51 name at that array.  The
  contents after item 51 differ from those after item 50 at that one array only, so the arrays at their final contents
  together with the bypassing buffers are every unscoped buffer at the contents after item 51.
-/
import proofs.«411400_j9251359555630_1_alg».proof.Proof.K.Vals
import Idealize.ShloMosaic.Lib.Pipeline.RegionsLoop
import Idealize.ShloMosaic.Lib.Pipeline.Cells
import Idealize.ShloMosaic.Lib.Pipeline.Kit

-- memberships decided among the program's 1120 references recurse past the default depth
set_option maxRecDepth 4992

noncomputable section

namespace Cert.Kernel.Run

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)
open Cert.Kernel Cert.Kernel.Gen

variable {F : FTy → Type} [FloatOps F]
variable (m : (ℓ : Loc nD τ sig) → Buf (Elt F) ℓ)

local notation "𝕄" => MT nD τ sig Unit (Elt F) ℕ (UR sig nD τ) ℕ

/-! ## Region 5's arrays at its exit -/

/-- The contents after item 50, read at the TensorCore's references: what region 5 is entered from. -/
abbrev Vpre5 (c : Dev nD) : (b : Ref sig .tc) → Buf (Elt F) ((c : Thread nD τ).loc b) := fun b => V51 m (outs m) c b
/-- The contents after item 51, read at the TensorCore's references: what region 5 leaves. -/
abbrev Vpost5 (c : Dev nD) : (b : Ref sig .tc) → Buf (Elt F) ((c : Thread nD τ).loc b) := fun b => V52 m (outs m) c b

/-- The output window's array is `main_v367`. -/
theorem arrRef5_out : Pipeline.arrRef spec5 (2 : Fin 3) = main_v367 := rfl

/-- An input window's array is not the output array: the windows' arrays are distinct buffers. -/
theorem arrRef5_ne_out (w : Fin 3) (hw : w ≠ 2) : Pipeline.arrRef spec5 w ≠ main_v367 :=
  fun e => hw (launch5.win.arr_inj (e.trans arrRef5_out.symm))

/-- The proof data are entered from the contents after item 50: each array's entry contents read off them. -/
theorem hA5 (c : Dev nD) (w : Fin cfg5.W) : (pdats m 5 c).A w = Vpre5 m c (Pipeline.arrRef spec5 w) :=
  (Reg5.A_eq5 (Vin5 m) c w).trans (Vin5_eq m c (Pipeline.arrRef spec5 w)).symm

/-- The contents after item 51 agree with those after item 50 at every reference but the output array. -/
theorem Vpost5_of_ne (c : Dev nD) (b : Ref sig .tc) (hb : b ≠ main_v367) : Vpost5 m c b = Vpre5 m c b :=
  V52_of m (outs m) c b fun h => hb (List.mem_singleton.mp h)

/-- At the output array they hold what region 5 leaves there. -/
theorem Vpost5_out (c : Dev nD) : Vpost5 m c main_v367 = o5 m c :=
  (Function.update_self _ _ _).trans (outs_52 m c)

/-- The contents after item 51 agree with those after item 50 off region 5's arrays: they differ at the output array only. -/
theorem hrest5 (c : Dev nD) : ∀ b, b ∉ Finset.univ.image (Pipeline.arrRef spec5) → Vpost5 m c b = Vpre5 m c b :=
  fun b hb => Vpost5_of_ne m c b fun e => hb (Finset.mem_image.mpr ⟨(2 : Fin 3), Finset.mem_univ _, arrRef5_out.trans e.symm⟩)

/-- At region 5's exit an input array holds what it held at entry: no write-back ever touches it, and the two contents
    agree there. -/
theorem hF5_in (c : Dev nD) (w : Fin 3) (hw : w ≠ 2) (hin : (cfg5.win w).isOut = false) :
    (pdats m 5 c).arrAt w cfg5.N = Vpost5 m c (Pipeline.arrRef spec5 w) :=
  ((pdats m 5 c).arrAt_in w hin cfg5.N).trans <| (hA5 m c w).trans (Vpost5_of_ne m c _ (arrRef5_ne_out w hw)).symm

/-- The output array holds the fold of the write-backs, the value the contents after item 51 name there. -/
theorem hF5_out (c : Dev nD) : (pdats m 5 c).arrAt (2 : Fin 3) cfg5.N = Vpost5 m c (Pipeline.arrRef spec5 (2 : Fin 3)) :=
  (Vpost5_out m c).symm

/-- At region 5's exit each of its arrays holds what the contents after item 51 say. -/
theorem hF5 (c : Dev nD) : ∀ w : Fin 3, (pdats m 5 c).arrAt w cfg5.N = Vpost5 m c (Pipeline.arrRef spec5 w)
  | 0 => hF5_in m c 0 (by decide) rfl
  | 1 => hF5_in m c 1 (by decide) rfl
  | 2 => hF5_out m c
  | ⟨_ + 3, h⟩ => absurd h (Nat.not_lt.2 (Nat.le_add_left _ _))

/-! ## The region as a segment -/

-- a library lemma stated over the pinned configuration unifies with the printed one only when unification may unfold
-- plain definitions in a metavariable's type
set_option backward.isDefEq.respectTransparency.types false in
/-- REGION 5 (custom_call 5) over the thread state: entered from every unscoped buffer at the contents after item 50,
    left at the contents after item 51.  Its arrays are split out of the unscoped buffers at entry and put back at their
    exit contents; the unscoped rest and the generator register bypass it; the invariant is fed from the scoped rest alone
    and returns it; nothing is owed at the pipeline's cells; the kernel has no semaphore of its own. -/
def reg5 : RegionSeg (pcfgs (F := F)) Gen.adm (pdats m) () defs₀ 𝒱₀ L lv 5 where
  win := launch5.win.to₀
  block_pos := launch5.block_pos
  stage_whole := launch5.stage_whole
  K := PEmpty
  osem k := k.elim
  ho := Pipeline.OwnSemFacts.none _
  hbody c := (Reg5.body_obligation5 (Vin5 m) c).loose
  hwaits := Pipeline.hwaits_of_owed_zero _ _ _ _ L lv 5 fun _ _ => rfl
  pre c := iprop(StableHlo.held (c : Thread nD τ) (Pipeline.ucRefs τ sig) (V51 m (outs m) c) ∗ E (F := F) 5 c)
  post c := iprop(StableHlo.held (c : Thread nD τ) (Pipeline.ucRefs τ sig) (V52 m (outs m) c) ∗ E (F := F) 6 c)
  X c := BI.emp
  Y c := BI.emp
  Z c := iprop((∃ r, prngReg c r)
    ∗ Pipeline.unscopedRest (Ix := Unit) (Name := ℕ) (U := UR sig nD τ) (Lvl := ℕ) spec5 c (Vpre5 m c))
  hentry c := by
    rw [Pipeline.ownSems0_none]
    have hsplit := Pipeline.arrays_of_unscopedBufs (p := 5) (pcfgs (F := F)) Gen.adm (pdats m) launch5.win launch5.arr_whole c
      ((pdats m 5 c).share_full fun _ => rfl) (Vpre5 m c) (hA5 m c)
    rw [Pipeline.unscopedBufs_held c (V51 m (outs m) c)] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    isplitl [Hp]; · iexact Hp
    iexact Hrest
  hin c := by
    refine BIBase.Entails.trans ?_ (Reg5.Phi5_in (Vin5 m) c)
    iintro ⟨-, -, Hr⟩
    iexact Hr
  hout c := by
    rw [Pipeline.ownSems0_none]
    refine (Reg5.Phi5_out (Vin5 m) c).trans ?_
    iintro Hr
    isplitr; · iempintro
    isplitr; · iempintro
    iexact Hr
  hexit c := by
    have hjoin := Pipeline.unscopedBufs_of_arrays (p := 5) (pcfgs (F := F)) Gen.adm (Ix := Unit) (Name := ℕ) (U := UR sig nD τ) (Lvl := ℕ)
      launch5.win launch5.arr_whole c (pdats m) ((pdats m 5 c).share_full fun _ => rfl)
      (Vpre5 m c) (Vpost5 m c) ((pdats m 5 c).arrAt · cfg5.N) (hF5 m c) (hrest5 m c)
    rw [Pipeline.unscopedBufs_held c (V52 m (outs m) c)] at hjoin
    iintro ⟨Ha, HO, -, Hp, Hrest⟩
    imodintro
    isplitl [Ha Hrest]
    · iapply hjoin; isplitl [Ha] <;> iassumption
    isplitl [Hp]; · iexact Hp
    unfold Pipeline.Dat.owesAt Pipeline.owesWithin
    icases HO with ⟨%W, -, HO⟩; iexists W; iexact HO

/-- The thread state before item 51 is the one region 5 is entered from, -/
theorem hpre5 (c : Dev nD) :
    iprop(StableHlo.held (c : Thread nD τ) (Pipeline.ucRefs τ sig) (V51 m (outs m) c) ∗ E (F := F) 5 c) ⊢ (reg5 m).pre c := .rfl
/-- and the one it leaves is the thread state after item 51. -/
theorem hpost5 (c : Dev nD) :
    (reg5 m).post c ⊢ iprop(StableHlo.held (c : Thread nD τ) (Pipeline.ucRefs τ sig) (V52 m (outs m) c) ∗ E (F := F) 6 c) := .rfl

end Cert.Kernel.Run

end
-- ==== Proof.K.Seg6.lean ====
/-
  Region 6 of the kernel program's @main as a segment between the buffer contents after item 60 and after item 61.

  Entering, the core holds every unscoped buffer at the contents after item 60.  The region's three windowed arrays
  (the segment ids, the edge rows, the node sums) are split out of them at the proof data's entry contents; every other
  unscoped buffer passes the region by, and so does the generator register.  The pipeline's invariant starts as the
  scoped buffers no window stages (the accumulator is one of them) and gives them back at the last point.

  Leaving, an input window's array is never written, so the two input arrays hold what they held at entry; the output
  array holds the fold of the write-backs, which is the value the contents after item 61 name at that array.  The
  contents after item 61 differ from those after item 60 at that one array only, so the arrays at their final contents
  together with the bypassing buffers are every unscoped buffer at the contents after item 61.
-/
import proofs.«411400_j9251359555630_1_alg».proof.Proof.K.Vals
import Idealize.ShloMosaic.Lib.Pipeline.RegionsLoop
import Idealize.ShloMosaic.Lib.Pipeline.Cells
import Idealize.ShloMosaic.Lib.Pipeline.Kit

-- memberships decided among the program's 1120 references recurse past the default depth
set_option maxRecDepth 4992

noncomputable section

namespace Cert.Kernel.Run

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)
open Cert.Kernel Cert.Kernel.Gen

variable {F : FTy → Type} [FloatOps F]
variable (m : (ℓ : Loc nD τ sig) → Buf (Elt F) ℓ)

local notation "𝕄" => MT nD τ sig Unit (Elt F) ℕ (UR sig nD τ) ℕ

/-! ## Region 6's arrays at its exit -/

/-- The contents after item 60, read at the TensorCore's references: what region 6 is entered from. -/
abbrev Vpre6 (c : Dev nD) : (b : Ref sig .tc) → Buf (Elt F) ((c : Thread nD τ).loc b) := fun b => V61 m (outs m) c b
/-- The contents after item 61, read at the TensorCore's references: what region 6 leaves. -/
abbrev Vpost6 (c : Dev nD) : (b : Ref sig .tc) → Buf (Elt F) ((c : Thread nD τ).loc b) := fun b => V62 m (outs m) c b

/-- The output window's array is `main_v424`. -/
theorem arrRef6_out : Pipeline.arrRef spec6 (2 : Fin 3) = main_v424 := rfl

/-- An input window's array is not the output array: the windows' arrays are distinct buffers. -/
theorem arrRef6_ne_out (w : Fin 3) (hw : w ≠ 2) : Pipeline.arrRef spec6 w ≠ main_v424 :=
  fun e => hw (launch6.win.arr_inj (e.trans arrRef6_out.symm))

/-- The proof data are entered from the contents after item 60: each array's entry contents read off them. -/
theorem hA6 (c : Dev nD) (w : Fin cfg6.W) : (pdats m 6 c).A w = Vpre6 m c (Pipeline.arrRef spec6 w) :=
  (Reg6.A_eq6 (Vin6 m) c w).trans (Vin6_eq m c (Pipeline.arrRef spec6 w)).symm

/-- The contents after item 61 agree with those after item 60 at every reference but the output array. -/
theorem Vpost6_of_ne (c : Dev nD) (b : Ref sig .tc) (hb : b ≠ main_v424) : Vpost6 m c b = Vpre6 m c b :=
  V62_of m (outs m) c b fun h => hb (List.mem_singleton.mp h)

/-- At the output array they hold what region 6 leaves there. -/
theorem Vpost6_out (c : Dev nD) : Vpost6 m c main_v424 = o6 m c :=
  (Function.update_self _ _ _).trans (outs_62 m c)

/-- The contents after item 61 agree with those after item 60 off region 6's arrays: they differ at the output array only. -/
theorem hrest6 (c : Dev nD) : ∀ b, b ∉ Finset.univ.image (Pipeline.arrRef spec6) → Vpost6 m c b = Vpre6 m c b :=
  fun b hb => Vpost6_of_ne m c b fun e => hb (Finset.mem_image.mpr ⟨(2 : Fin 3), Finset.mem_univ _, arrRef6_out.trans e.symm⟩)

/-- At region 6's exit an input array holds what it held at entry: no write-back ever touches it, and the two contents
    agree there. -/
theorem hF6_in (c : Dev nD) (w : Fin 3) (hw : w ≠ 2) (hin : (cfg6.win w).isOut = false) :
    (pdats m 6 c).arrAt w cfg6.N = Vpost6 m c (Pipeline.arrRef spec6 w) :=
  ((pdats m 6 c).arrAt_in w hin cfg6.N).trans <| (hA6 m c w).trans (Vpost6_of_ne m c _ (arrRef6_ne_out w hw)).symm

/-- The output array holds the fold of the write-backs, the value the contents after item 61 name there. -/
theorem hF6_out (c : Dev nD) : (pdats m 6 c).arrAt (2 : Fin 3) cfg6.N = Vpost6 m c (Pipeline.arrRef spec6 (2 : Fin 3)) :=
  (Vpost6_out m c).symm

/-- At region 6's exit each of its arrays holds what the contents after item 61 say. -/
theorem hF6 (c : Dev nD) : ∀ w : Fin 3, (pdats m 6 c).arrAt w cfg6.N = Vpost6 m c (Pipeline.arrRef spec6 w)
  | 0 => hF6_in m c 0 (by decide) rfl
  | 1 => hF6_in m c 1 (by decide) rfl
  | 2 => hF6_out m c
  | ⟨_ + 3, h⟩ => absurd h (Nat.not_lt.2 (Nat.le_add_left _ _))

/-! ## The region as a segment -/

-- a library lemma stated over the pinned configuration unifies with the printed one only when unification may unfold
-- plain definitions in a metavariable's type
set_option backward.isDefEq.respectTransparency.types false in
/-- REGION 6 (custom_call 6) over the thread state: entered from every unscoped buffer at the contents after item 60,
    left at the contents after item 61.  Its arrays are split out of the unscoped buffers at entry and put back at their
    exit contents; the unscoped rest and the generator register bypass it; the invariant is fed from the scoped rest alone
    and returns it; nothing is owed at the pipeline's cells; the kernel has no semaphore of its own. -/
def reg6 : RegionSeg (pcfgs (F := F)) Gen.adm (pdats m) () defs₀ 𝒱₀ L lv 6 where
  win := launch6.win.to₀
  block_pos := launch6.block_pos
  stage_whole := launch6.stage_whole
  K := PEmpty
  osem k := k.elim
  ho := Pipeline.OwnSemFacts.none _
  hbody c := (Reg6.body_obligation6 (Vin6 m) c).loose
  hwaits := Pipeline.hwaits_of_owed_zero _ _ _ _ L lv 6 fun _ _ => rfl
  pre c := iprop(StableHlo.held (c : Thread nD τ) (Pipeline.ucRefs τ sig) (V61 m (outs m) c) ∗ E (F := F) 6 c)
  post c := iprop(StableHlo.held (c : Thread nD τ) (Pipeline.ucRefs τ sig) (V62 m (outs m) c) ∗ E (F := F) 7 c)
  X c := BI.emp
  Y c := BI.emp
  Z c := iprop((∃ r, prngReg c r)
    ∗ Pipeline.unscopedRest (Ix := Unit) (Name := ℕ) (U := UR sig nD τ) (Lvl := ℕ) spec6 c (Vpre6 m c))
  hentry c := by
    rw [Pipeline.ownSems0_none]
    have hsplit := Pipeline.arrays_of_unscopedBufs (p := 6) (pcfgs (F := F)) Gen.adm (pdats m) launch6.win launch6.arr_whole c
      ((pdats m 6 c).share_full fun _ => rfl) (Vpre6 m c) (hA6 m c)
    rw [Pipeline.unscopedBufs_held c (V61 m (outs m) c)] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    isplitl [Hp]; · iexact Hp
    iexact Hrest
  hin c := by
    refine BIBase.Entails.trans ?_ (Reg6.Phi6_in (Vin6 m) c)
    iintro ⟨-, -, Hr⟩
    iexact Hr
  hout c := by
    rw [Pipeline.ownSems0_none]
    refine (Reg6.Phi6_out (Vin6 m) c).trans ?_
    iintro Hr
    isplitr; · iempintro
    isplitr; · iempintro
    iexact Hr
  hexit c := by
    have hjoin := Pipeline.unscopedBufs_of_arrays (p := 6) (pcfgs (F := F)) Gen.adm (Ix := Unit) (Name := ℕ) (U := UR sig nD τ) (Lvl := ℕ)
      launch6.win launch6.arr_whole c (pdats m) ((pdats m 6 c).share_full fun _ => rfl)
      (Vpre6 m c) (Vpost6 m c) ((pdats m 6 c).arrAt · cfg6.N) (hF6 m c) (hrest6 m c)
    rw [Pipeline.unscopedBufs_held c (V62 m (outs m) c)] at hjoin
    iintro ⟨Ha, HO, -, Hp, Hrest⟩
    imodintro
    isplitl [Ha Hrest]
    · iapply hjoin; isplitl [Ha] <;> iassumption
    isplitl [Hp]; · iexact Hp
    unfold Pipeline.Dat.owesAt Pipeline.owesWithin
    icases HO with ⟨%W, -, HO⟩; iexists W; iexact HO

/-- The thread state before item 61 is the one region 6 is entered from, -/
theorem hpre6 (c : Dev nD) :
    iprop(StableHlo.held (c : Thread nD τ) (Pipeline.ucRefs τ sig) (V61 m (outs m) c) ∗ E (F := F) 6 c) ⊢ (reg6 m).pre c := .rfl
/-- and the one it leaves is the thread state after item 61. -/
theorem hpost6 (c : Dev nD) :
    (reg6 m).post c ⊢ iprop(StableHlo.held (c : Thread nD τ) (Pipeline.ucRefs τ sig) (V62 m (outs m) c) ∗ E (F := F) 7 c) := .rfl

end Cert.Kernel.Run

end
-- ==== Proof.K.Seg7.lean ====
/-
  Region 7 of the kernel program's @main as a segment between the buffer contents after item 70 and after item 71.

  Entering, the core holds every unscoped buffer at the contents after item 70.  The region's three windowed arrays
  (the segment ids, the edge rows, the node sums) are split out of them at the proof data's entry contents; every other
  unscoped buffer passes the region by, and so does the generator register.  The pipeline's invariant starts as the
  scoped buffers no window stages (the accumulator is one of them) and gives them back at the last point.

  Leaving, an input window's array is never written, so the two input arrays hold what they held at entry; the output
  array holds the fold of the write-backs, which is the value the contents after item 71 name at that array.  The
  contents after item 71 differ from those after item 70 at that one array only, so the arrays at their final contents
  together with the bypassing buffers are every unscoped buffer at the contents after item 71.
-/
import proofs.«411400_j9251359555630_1_alg».proof.Proof.K.Vals
import Idealize.ShloMosaic.Lib.Pipeline.RegionsLoop
import Idealize.ShloMosaic.Lib.Pipeline.Cells
import Idealize.ShloMosaic.Lib.Pipeline.Kit

-- memberships decided among the program's 1120 references recurse past the default depth
set_option maxRecDepth 4992

noncomputable section

namespace Cert.Kernel.Run

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)
open Cert.Kernel Cert.Kernel.Gen

variable {F : FTy → Type} [FloatOps F]
variable (m : (ℓ : Loc nD τ sig) → Buf (Elt F) ℓ)

local notation "𝕄" => MT nD τ sig Unit (Elt F) ℕ (UR sig nD τ) ℕ

/-! ## Region 7's arrays at its exit -/

/-- The contents after item 70, read at the TensorCore's references: what region 7 is entered from. -/
abbrev Vpre7 (c : Dev nD) : (b : Ref sig .tc) → Buf (Elt F) ((c : Thread nD τ).loc b) := fun b => V71 m (outs m) c b
/-- The contents after item 71, read at the TensorCore's references: what region 7 leaves. -/
abbrev Vpost7 (c : Dev nD) : (b : Ref sig .tc) → Buf (Elt F) ((c : Thread nD τ).loc b) := fun b => V72 m (outs m) c b

/-- The output window's array is `main_v503`. -/
theorem arrRef7_out : Pipeline.arrRef spec7 (2 : Fin 3) = main_v503 := rfl

/-- An input window's array is not the output array: the windows' arrays are distinct buffers. -/
theorem arrRef7_ne_out (w : Fin 3) (hw : w ≠ 2) : Pipeline.arrRef spec7 w ≠ main_v503 :=
  fun e => hw (launch7.win.arr_inj (e.trans arrRef7_out.symm))

/-- The proof data are entered from the contents after item 70: each array's entry contents read off them. -/
theorem hA7 (c : Dev nD) (w : Fin cfg7.W) : (pdats m 7 c).A w = Vpre7 m c (Pipeline.arrRef spec7 w) :=
  (Reg7.A_eq7 (Vin7 m) c w).trans (Vin7_eq m c (Pipeline.arrRef spec7 w)).symm

/-- The contents after item 71 agree with those after item 70 at every reference but the output array. -/
theorem Vpost7_of_ne (c : Dev nD) (b : Ref sig .tc) (hb : b ≠ main_v503) : Vpost7 m c b = Vpre7 m c b :=
  V72_of m (outs m) c b fun h => hb (List.mem_singleton.mp h)

/-- At the output array they hold what region 7 leaves there. -/
theorem Vpost7_out (c : Dev nD) : Vpost7 m c main_v503 = o7 m c :=
  (Function.update_self _ _ _).trans (outs_72 m c)

/-- The contents after item 71 agree with those after item 70 off region 7's arrays: they differ at the output array only. -/
theorem hrest7 (c : Dev nD) : ∀ b, b ∉ Finset.univ.image (Pipeline.arrRef spec7) → Vpost7 m c b = Vpre7 m c b :=
  fun b hb => Vpost7_of_ne m c b fun e => hb (Finset.mem_image.mpr ⟨(2 : Fin 3), Finset.mem_univ _, arrRef7_out.trans e.symm⟩)

/-- At region 7's exit an input array holds what it held at entry: no write-back ever touches it, and the two contents
    agree there. -/
theorem hF7_in (c : Dev nD) (w : Fin 3) (hw : w ≠ 2) (hin : (cfg7.win w).isOut = false) :
    (pdats m 7 c).arrAt w cfg7.N = Vpost7 m c (Pipeline.arrRef spec7 w) :=
  ((pdats m 7 c).arrAt_in w hin cfg7.N).trans <| (hA7 m c w).trans (Vpost7_of_ne m c _ (arrRef7_ne_out w hw)).symm

/-- The output array holds the fold of the write-backs, the value the contents after item 71 name there. -/
theorem hF7_out (c : Dev nD) : (pdats m 7 c).arrAt (2 : Fin 3) cfg7.N = Vpost7 m c (Pipeline.arrRef spec7 (2 : Fin 3)) :=
  (Vpost7_out m c).symm

/-- At region 7's exit each of its arrays holds what the contents after item 71 say. -/
theorem hF7 (c : Dev nD) : ∀ w : Fin 3, (pdats m 7 c).arrAt w cfg7.N = Vpost7 m c (Pipeline.arrRef spec7 w)
  | 0 => hF7_in m c 0 (by decide) rfl
  | 1 => hF7_in m c 1 (by decide) rfl
  | 2 => hF7_out m c
  | ⟨_ + 3, h⟩ => absurd h (Nat.not_lt.2 (Nat.le_add_left _ _))

/-! ## The region as a segment -/

-- a library lemma stated over the pinned configuration unifies with the printed one only when unification may unfold
-- plain definitions in a metavariable's type
set_option backward.isDefEq.respectTransparency.types false in
/-- REGION 7 (custom_call 7) over the thread state: entered from every unscoped buffer at the contents after item 70,
    left at the contents after item 71.  Its arrays are split out of the unscoped buffers at entry and put back at their
    exit contents; the unscoped rest and the generator register bypass it; the invariant is fed from the scoped rest alone
    and returns it; nothing is owed at the pipeline's cells; the kernel has no semaphore of its own. -/
def reg7 : RegionSeg (pcfgs (F := F)) Gen.adm (pdats m) () defs₀ 𝒱₀ L lv 7 where
  win := launch7.win.to₀
  block_pos := launch7.block_pos
  stage_whole := launch7.stage_whole
  K := PEmpty
  osem k := k.elim
  ho := Pipeline.OwnSemFacts.none _
  hbody c := (Reg7.body_obligation7 (Vin7 m) c).loose
  hwaits := Pipeline.hwaits_of_owed_zero _ _ _ _ L lv 7 fun _ _ => rfl
  pre c := iprop(StableHlo.held (c : Thread nD τ) (Pipeline.ucRefs τ sig) (V71 m (outs m) c) ∗ E (F := F) 7 c)
  post c := iprop(StableHlo.held (c : Thread nD τ) (Pipeline.ucRefs τ sig) (V72 m (outs m) c) ∗ E (F := F) 8 c)
  X c := BI.emp
  Y c := BI.emp
  Z c := iprop((∃ r, prngReg c r)
    ∗ Pipeline.unscopedRest (Ix := Unit) (Name := ℕ) (U := UR sig nD τ) (Lvl := ℕ) spec7 c (Vpre7 m c))
  hentry c := by
    rw [Pipeline.ownSems0_none]
    have hsplit := Pipeline.arrays_of_unscopedBufs (p := 7) (pcfgs (F := F)) Gen.adm (pdats m) launch7.win launch7.arr_whole c
      ((pdats m 7 c).share_full fun _ => rfl) (Vpre7 m c) (hA7 m c)
    rw [Pipeline.unscopedBufs_held c (V71 m (outs m) c)] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    isplitl [Hp]; · iexact Hp
    iexact Hrest
  hin c := by
    refine BIBase.Entails.trans ?_ (Reg7.Phi7_in (Vin7 m) c)
    iintro ⟨-, -, Hr⟩
    iexact Hr
  hout c := by
    rw [Pipeline.ownSems0_none]
    refine (Reg7.Phi7_out (Vin7 m) c).trans ?_
    iintro Hr
    isplitr; · iempintro
    isplitr; · iempintro
    iexact Hr
  hexit c := by
    have hjoin := Pipeline.unscopedBufs_of_arrays (p := 7) (pcfgs (F := F)) Gen.adm (Ix := Unit) (Name := ℕ) (U := UR sig nD τ) (Lvl := ℕ)
      launch7.win launch7.arr_whole c (pdats m) ((pdats m 7 c).share_full fun _ => rfl)
      (Vpre7 m c) (Vpost7 m c) ((pdats m 7 c).arrAt · cfg7.N) (hF7 m c) (hrest7 m c)
    rw [Pipeline.unscopedBufs_held c (V72 m (outs m) c)] at hjoin
    iintro ⟨Ha, HO, -, Hp, Hrest⟩
    imodintro
    isplitl [Ha Hrest]
    · iapply hjoin; isplitl [Ha] <;> iassumption
    isplitl [Hp]; · iexact Hp
    unfold Pipeline.Dat.owesAt Pipeline.owesWithin
    icases HO with ⟨%W, -, HO⟩; iexists W; iexact HO

/-- The thread state before item 71 is the one region 7 is entered from, -/
theorem hpre7 (c : Dev nD) :
    iprop(StableHlo.held (c : Thread nD τ) (Pipeline.ucRefs τ sig) (V71 m (outs m) c) ∗ E (F := F) 7 c) ⊢ (reg7 m).pre c := .rfl
/-- and the one it leaves is the thread state after item 71. -/
theorem hpost7 (c : Dev nD) :
    (reg7 m).post c ⊢ iprop(StableHlo.held (c : Thread nD τ) (Pipeline.ucRefs τ sig) (V72 m (outs m) c) ∗ E (F := F) 8 c) := .rfl

end Cert.Kernel.Run

end
-- ==== Proof.K.Seg8.lean ====
/-
  Region 8 of the kernel program's @main as a segment between the buffer contents after item 78 and after item 79.

  Entering, the core holds every unscoped buffer at the contents after item 78.  The region's three windowed arrays
  (the segment ids, the edge rows, the node sums) are split out of them at the proof data's entry contents; every other
  unscoped buffer passes the region by, and so does the generator register.  The pipeline's invariant starts as the
  scoped buffers no window stages (the accumulator is one of them) and gives them back at the last point.

  Leaving, an input window's array is never written, so the two input arrays hold what they held at entry; the output
  array holds the fold of the write-backs, which is the value the contents after item 79 name at that array.  The
  contents after item 79 differ from those after item 78 at that one array only, so the arrays at their final contents
  together with the bypassing buffers are every unscoped buffer at the contents after item 79.
-/
import proofs.«411400_j9251359555630_1_alg».proof.Proof.K.Vals
import Idealize.ShloMosaic.Lib.Pipeline.RegionsLoop
import Idealize.ShloMosaic.Lib.Pipeline.Cells
import Idealize.ShloMosaic.Lib.Pipeline.Kit

-- memberships decided among the program's 1120 references recurse past the default depth
set_option maxRecDepth 4992

noncomputable section

namespace Cert.Kernel.Run

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)
open Cert.Kernel Cert.Kernel.Gen

variable {F : FTy → Type} [FloatOps F]
variable (m : (ℓ : Loc nD τ sig) → Buf (Elt F) ℓ)

local notation "𝕄" => MT nD τ sig Unit (Elt F) ℕ (UR sig nD τ) ℕ

/-! ## Region 8's arrays at its exit -/

/-- The contents after item 78, read at the TensorCore's references: what region 8 is entered from. -/
abbrev Vpre8 (c : Dev nD) : (b : Ref sig .tc) → Buf (Elt F) ((c : Thread nD τ).loc b) := fun b => V79 m (outs m) c b
/-- The contents after item 79, read at the TensorCore's references: what region 8 leaves. -/
abbrev Vpost8 (c : Dev nD) : (b : Ref sig .tc) → Buf (Elt F) ((c : Thread nD τ).loc b) := fun b => V80 m (outs m) c b

/-- The output window's array is `main_v568`. -/
theorem arrRef8_out : Pipeline.arrRef spec8 (2 : Fin 3) = main_v568 := rfl

/-- An input window's array is not the output array: the windows' arrays are distinct buffers. -/
theorem arrRef8_ne_out (w : Fin 3) (hw : w ≠ 2) : Pipeline.arrRef spec8 w ≠ main_v568 :=
  fun e => hw (launch8.win.arr_inj (e.trans arrRef8_out.symm))

/-- The proof data are entered from the contents after item 78: each array's entry contents read off them. -/
theorem hA8 (c : Dev nD) (w : Fin cfg8.W) : (pdats m 8 c).A w = Vpre8 m c (Pipeline.arrRef spec8 w) :=
  (Reg8.A_eq8 (Vin8 m) c w).trans (Vin8_eq m c (Pipeline.arrRef spec8 w)).symm

/-- The contents after item 79 agree with those after item 78 at every reference but the output array. -/
theorem Vpost8_of_ne (c : Dev nD) (b : Ref sig .tc) (hb : b ≠ main_v568) : Vpost8 m c b = Vpre8 m c b :=
  V80_of m (outs m) c b fun h => hb (List.mem_singleton.mp h)

/-- At the output array they hold what region 8 leaves there. -/
theorem Vpost8_out (c : Dev nD) : Vpost8 m c main_v568 = o8 m c :=
  (Function.update_self _ _ _).trans (outs_80 m c)

/-- The contents after item 79 agree with those after item 78 off region 8's arrays: they differ at the output array only. -/
theorem hrest8 (c : Dev nD) : ∀ b, b ∉ Finset.univ.image (Pipeline.arrRef spec8) → Vpost8 m c b = Vpre8 m c b :=
  fun b hb => Vpost8_of_ne m c b fun e => hb (Finset.mem_image.mpr ⟨(2 : Fin 3), Finset.mem_univ _, arrRef8_out.trans e.symm⟩)

/-- At region 8's exit an input array holds what it held at entry: no write-back ever touches it, and the two contents
    agree there. -/
theorem hF8_in (c : Dev nD) (w : Fin 3) (hw : w ≠ 2) (hin : (cfg8.win w).isOut = false) :
    (pdats m 8 c).arrAt w cfg8.N = Vpost8 m c (Pipeline.arrRef spec8 w) :=
  ((pdats m 8 c).arrAt_in w hin cfg8.N).trans <| (hA8 m c w).trans (Vpost8_of_ne m c _ (arrRef8_ne_out w hw)).symm

/-- The output array holds the fold of the write-backs, the value the contents after item 79 name there. -/
theorem hF8_out (c : Dev nD) : (pdats m 8 c).arrAt (2 : Fin 3) cfg8.N = Vpost8 m c (Pipeline.arrRef spec8 (2 : Fin 3)) :=
  (Vpost8_out m c).symm

/-- At region 8's exit each of its arrays holds what the contents after item 79 say. -/
theorem hF8 (c : Dev nD) : ∀ w : Fin 3, (pdats m 8 c).arrAt w cfg8.N = Vpost8 m c (Pipeline.arrRef spec8 w)
  | 0 => hF8_in m c 0 (by decide) rfl
  | 1 => hF8_in m c 1 (by decide) rfl
  | 2 => hF8_out m c
  | ⟨_ + 3, h⟩ => absurd h (Nat.not_lt.2 (Nat.le_add_left _ _))

/-! ## The region as a segment -/

-- a library lemma stated over the pinned configuration unifies with the printed one only when unification may unfold
-- plain definitions in a metavariable's type
set_option backward.isDefEq.respectTransparency.types false in
/-- REGION 8 (custom_call 8) over the thread state: entered from every unscoped buffer at the contents after item 78,
    left at the contents after item 79.  Its arrays are split out of the unscoped buffers at entry and put back at their
    exit contents; the unscoped rest and the generator register bypass it; the invariant is fed from the scoped rest alone
    and returns it; nothing is owed at the pipeline's cells; the kernel has no semaphore of its own. -/
def reg8 : RegionSeg (pcfgs (F := F)) Gen.adm (pdats m) () defs₀ 𝒱₀ L lv 8 where
  win := launch8.win.to₀
  block_pos := launch8.block_pos
  stage_whole := launch8.stage_whole
  K := PEmpty
  osem k := k.elim
  ho := Pipeline.OwnSemFacts.none _
  hbody c := (Reg8.body_obligation8 (Vin8 m) c).loose
  hwaits := Pipeline.hwaits_of_owed_zero _ _ _ _ L lv 8 fun _ _ => rfl
  pre c := iprop(StableHlo.held (c : Thread nD τ) (Pipeline.ucRefs τ sig) (V79 m (outs m) c) ∗ E (F := F) 8 c)
  post c := iprop(StableHlo.held (c : Thread nD τ) (Pipeline.ucRefs τ sig) (V80 m (outs m) c) ∗ E (F := F) 9 c)
  X c := BI.emp
  Y c := BI.emp
  Z c := iprop((∃ r, prngReg c r)
    ∗ Pipeline.unscopedRest (Ix := Unit) (Name := ℕ) (U := UR sig nD τ) (Lvl := ℕ) spec8 c (Vpre8 m c))
  hentry c := by
    rw [Pipeline.ownSems0_none]
    have hsplit := Pipeline.arrays_of_unscopedBufs (p := 8) (pcfgs (F := F)) Gen.adm (pdats m) launch8.win launch8.arr_whole c
      ((pdats m 8 c).share_full fun _ => rfl) (Vpre8 m c) (hA8 m c)
    rw [Pipeline.unscopedBufs_held c (V79 m (outs m) c)] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    isplitl [Hp]; · iexact Hp
    iexact Hrest
  hin c := by
    refine BIBase.Entails.trans ?_ (Reg8.Phi8_in (Vin8 m) c)
    iintro ⟨-, -, Hr⟩
    iexact Hr
  hout c := by
    rw [Pipeline.ownSems0_none]
    refine (Reg8.Phi8_out (Vin8 m) c).trans ?_
    iintro Hr
    isplitr; · iempintro
    isplitr; · iempintro
    iexact Hr
  hexit c := by
    have hjoin := Pipeline.unscopedBufs_of_arrays (p := 8) (pcfgs (F := F)) Gen.adm (Ix := Unit) (Name := ℕ) (U := UR sig nD τ) (Lvl := ℕ)
      launch8.win launch8.arr_whole c (pdats m) ((pdats m 8 c).share_full fun _ => rfl)
      (Vpre8 m c) (Vpost8 m c) ((pdats m 8 c).arrAt · cfg8.N) (hF8 m c) (hrest8 m c)
    rw [Pipeline.unscopedBufs_held c (V80 m (outs m) c)] at hjoin
    iintro ⟨Ha, HO, -, Hp, Hrest⟩
    imodintro
    isplitl [Ha Hrest]
    · iapply hjoin; isplitl [Ha] <;> iassumption
    isplitl [Hp]; · iexact Hp
    unfold Pipeline.Dat.owesAt Pipeline.owesWithin
    icases HO with ⟨%W, -, HO⟩; iexists W; iexact HO

/-- The thread state before item 79 is the one region 8 is entered from, -/
theorem hpre8 (c : Dev nD) :
    iprop(StableHlo.held (c : Thread nD τ) (Pipeline.ucRefs τ sig) (V79 m (outs m) c) ∗ E (F := F) 8 c) ⊢ (reg8 m).pre c := .rfl
/-- and the one it leaves is the thread state after item 79. -/
theorem hpost8 (c : Dev nD) :
    (reg8 m).post c ⊢ iprop(StableHlo.held (c : Thread nD τ) (Pipeline.ucRefs τ sig) (V80 m (outs m) c) ∗ E (F := F) 9 c) := .rfl

end Cert.Kernel.Run

end
-- ==== Proof.KI.Reg0Runs.lean ====
/- Region 0 (custom_call 0, `cc0_kernel`, grid ![10, 20]): the segment sum's body in each of its three control
   cases. The body keeps an accumulator (its last operand, a whole scratch buffer of shape 1024x300): at the first edge
   block of a node block (grid coordinate 1 equal to 0) it stores zeros into it; at every point it adds the one-hot
   product of the point's two input blocks to it; at the last edge block (coordinate 1 equal to 19) it copies it to
   the output's staging buffer, which it otherwise does not touch. Each case is a triple whose post names the
   accumulator's new contents as the payload `k0_pay2` of the input blocks and the contents found (zeros after a
   reset). -/
import proofs.«411400_j9251359555630_1_alg».proof.Proof.Gen.KernelIdeal.Launch
import proofs.«411400_j9251359555630_1_alg».proof.Proof.Gen.KernelIdeal.Skeleton
import proofs.«411400_j9251359555630_1_alg».proof.Proof.Gen.KernelIdeal.Points
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.KernelIdeal.Reg0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The branch conditions, in closed form over the grid -/

/-- The condition of the body's first `scf.if` (the accumulator's reset), from the grid coordinates. -/
abbrev cond0_0 (i : grid0.Coords) : Prop :=
  (Scalar.cmpi .ne (Scalar.extui (Scalar.cmpi .eq (BitVec.ofNat 32 (i 1).val) 0#32)) 0#32) = 1#1
/-- It holds at the points whose position is 0 modulo 20: the first edge block of each node block. -/
theorem hcond0_0 : ∀ t : Fin cfg0.N, cond0_0 (grid0.coords t) ↔ t.val % 20 = 0 :=
  (by decide +kernel : ∀ t : Fin grid0.N, cond0_0 (grid0.coords t) ↔ t.val % 20 = 0)

/-- The condition of the body's second `scf.if` (the copy to the output), from the grid coordinates. -/
abbrev cond0_1 (i : grid0.Coords) : Prop := k0_cond2 i = 1#1
/-- It holds at the points whose position is 19 modulo 20: the last edge block of each node block. -/
theorem hcond0_1 : ∀ t : Fin cfg0.N, cond0_1 (grid0.coords t) ↔ t.val % 20 = 19 :=
  (by decide +kernel : ∀ t : Fin grid0.N, cond0_1 (grid0.coords t) ↔ t.val % 20 = 19)

/-! ## Where the windows are idle -/

/-- The two input windows are never idle. -/
theorem liveAt0_0 (t : Fin cfg0.N) : cfg0.idle 0 (grid0.coords t) = false := rfl
theorem liveAt0_1 (t : Fin cfg0.N) : cfg0.idle 1 (grid0.coords t) = false := rfl
/-- The output window is idle exactly where the second condition fails: the body stores into it only under it. -/
theorem idleAt0_2 (i : grid0.Coords) (h : ¬cond0_1 i) : cfg0.idle 2 i = true := by
  show (!(k0_cond2 i == 1#1)) = true
  cases hb : (k0_cond2 i == 1#1) with
  | false => rfl
  | true => exact absurd (eq_of_beq hb) h
theorem liveAt0_2 (i : grid0.Coords) (h : cond0_1 i) : cfg0.idle 2 i = false := by
  show (!(k0_cond2 i == 1#1)) = false
  rw [show k0_cond2 i = 1#1 from h]; rfl
/-- Off the last edge block the output's block is not written back. -/
theorem noFlush0_2 (t : Fin cfg0.N) (h : ¬t.val % 20 = 19) : (cfg0.win 2).flush t = false :=
  Bool.eq_false_iff.mpr fun hf => h ((flush0_2 t).mp hf)

/-! ## Whole-buffer accesses -/

/-- The offsets of every access of the body: zero on both axes. -/
theorem hz0 : (![0, 0] : Fin 2 → Nat) = fun _ => 0 := funext fun a => by fin_cases a <;> rfl

/-- A store through the whole-shape rectangle at zero offsets, made last, is what the buffer then reads, whatever
    was stored before and whatever the buffer held. -/
theorem read_writes_whole0 {S : Shape} {e : EltTy} {sp : Space} (v : View sig .tc sp S e) (f : v.ty.Contents (Elt F))
    {off : Fin S.rank → Nat} (h : off = fun _ => 0) (inb : ∀ a, off a + S.size a ≤ S.size a)
    (w : S.Idx → Elt F e) (L : List (View.Piece (Elt F) S e)) :
    v.read (Elt F) (v.writes (Elt F) f ((⟨Rect.unit off S.size inb, w⟩ : View.Piece (Elt F) S e) :: L)) = w := by
  refine (View.read_writes_eq_canon v f _ fun y =>
    ⟨⟨Rect.unit off S.size inb, w⟩, List.mem_cons_self, View.mem_set_unit_zero h inb y⟩).trans ?_
  exact View.canon_cons_unit_zero h inb w L

/-! ## The body's triple, case by case -/

set_option maxHeartbeats 1000000 in
/-- CASE A, the first edge block of a node block (first condition true, second false): on whole memrefs, the inputs' at
    contents `x0`, `x1`, the output's at `xo`, the accumulator at anything, the body runs to the continuation holding
    the first three as they were and the accumulator at the payload of the input blocks over zeros. -/
theorem run0_A (c : Dev nD) (i : grid0.Coords)
    (arg2 : Memref sig .tc .vmem S8000x1 .i32) (harg2 : arg2.IsWhole)
    (arg3 : Memref sig .tc .vmem S8000x128 .bf16) (harg3 : arg3.IsWhole)
    (arg4 : Memref sig .tc .vmem S1024x128 .f32) (harg4 : arg4.IsWhole)
    (arg5 : Memref sig .tc .vmem S1024x128 .f32) (harg5 : arg5.IsWhole)
    (hc0 : cond0_0 i) (hc1 : ¬cond0_1 i)
    (x0 : Vec F S8000x1 .i32) (x1 : Vec F S8000x128 .bf16) (xo : Vec F S1024x128 .f32)
    (E : Set ℕ) (K : PUnit → sProp 𝕄) :
    iprop(owns (c : Thread nD τ) arg2 fullShare x0 ∗ owns (c : Thread nD τ) arg3 fullShare x1
        ∗ owns (c : Thread nD τ) arg4 fullShare xo ∗ (∃ d, owns (c : Thread nD τ) arg5 fullShare d)
        ∗ (iprop(owns (c : Thread nD τ) arg2 fullShare x0 ∗ owns (c : Thread nD τ) arg3 fullShare x1
            ∗ owns (c : Thread nD τ) arg4 fullShare xo
            ∗ owns (c : Thread nD τ) arg5 fullShare (k0_pay2 (F := F) i x0 x1 (k0_pay1 (F := F)))) -∗ K ⟨⟩))
      ⊢ wp frame (wpE (defs₀ (F := F)) Variants.none c none) E (cc0_kernel i arg2 harg2 arg3 harg3 arg4 harg4 arg5 harg5) K := by
  simp only [cc0_kernel_eq_skeleton]; unfold cc0_kernel_skel
  unfold owns
  iintro ⟨⟨%f0, %hf0, H0⟩, ⟨%f1, %hf1, H1⟩, ⟨%f2, %hf2, H2⟩, ⟨%ds, %fs, -, HS⟩, Hk⟩
  subst hf0; subst hf1; subst hf2
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact HS
  ipureintro
  sl_unfold_run_names
  rw [read_writes_whole0 _ _ hz0]
  simp only [View.readAt_eq_ld, View.ld_unit_zero (S := S8000x1) hz0, View.ld_unit_zero (S := S8000x128) hz0,
    View.readCov_unit_zero (S := S1024x128) _ hz0]

set_option maxHeartbeats 1000000 in
/-- CASE B, an edge block that is neither the first nor the last (both conditions false): the accumulator, found at
    `xs`, is left at the payload of the input blocks over `xs`; the output's buffer is not touched. -/
theorem run0_B (c : Dev nD) (i : grid0.Coords)
    (arg2 : Memref sig .tc .vmem S8000x1 .i32) (harg2 : arg2.IsWhole)
    (arg3 : Memref sig .tc .vmem S8000x128 .bf16) (harg3 : arg3.IsWhole)
    (arg4 : Memref sig .tc .vmem S1024x128 .f32) (harg4 : arg4.IsWhole)
    (arg5 : Memref sig .tc .vmem S1024x128 .f32) (harg5 : arg5.IsWhole)
    (hc0 : ¬cond0_0 i) (hc1 : ¬cond0_1 i)
    (x0 : Vec F S8000x1 .i32) (x1 : Vec F S8000x128 .bf16) (xo : Vec F S1024x128 .f32) (xs : Vec F S1024x128 .f32)
    (E : Set ℕ) (K : PUnit → sProp 𝕄) :
    iprop(owns (c : Thread nD τ) arg2 fullShare x0 ∗ owns (c : Thread nD τ) arg3 fullShare x1
        ∗ owns (c : Thread nD τ) arg4 fullShare xo ∗ owns (c : Thread nD τ) arg5 fullShare xs
        ∗ (iprop(owns (c : Thread nD τ) arg2 fullShare x0 ∗ owns (c : Thread nD τ) arg3 fullShare x1
            ∗ owns (c : Thread nD τ) arg4 fullShare xo
            ∗ owns (c : Thread nD τ) arg5 fullShare (k0_pay2 (F := F) i x0 x1 xs)) -∗ K ⟨⟩))
      ⊢ wp frame (wpE (defs₀ (F := F)) Variants.none c none) E (cc0_kernel i arg2 harg2 arg3 harg3 arg4 harg4 arg5 harg5) K := by
  simp only [cc0_kernel_eq_skeleton]; unfold cc0_kernel_skel
  unfold owns
  iintro ⟨⟨%f0, %hf0, H0⟩, ⟨%f1, %hf1, H1⟩, ⟨%f2, %hf2, H2⟩, ⟨%fs, %hfs, HS⟩, Hk⟩
  subst hf0; subst hf1; subst hf2; subst hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact HS
  ipureintro
  sl_unfold_run_names
  rw [read_writes_whole0 _ _ hz0]
  simp only [View.readAt_eq_ld, View.ld_unit_zero (S := S8000x1) hz0, View.ld_unit_zero (S := S8000x128) hz0,
    View.ld_unit_zero (S := S1024x128) hz0]

set_option maxHeartbeats 1000000 in
/-- CASE C, the last edge block of a node block (first condition false, second true): the accumulator, found at `xs`,
    is left at the payload of the input blocks over `xs`, and the output's buffer, found at anything, takes the same. -/
theorem run0_C (c : Dev nD) (i : grid0.Coords)
    (arg2 : Memref sig .tc .vmem S8000x1 .i32) (harg2 : arg2.IsWhole)
    (arg3 : Memref sig .tc .vmem S8000x128 .bf16) (harg3 : arg3.IsWhole)
    (arg4 : Memref sig .tc .vmem S1024x128 .f32) (harg4 : arg4.IsWhole)
    (arg5 : Memref sig .tc .vmem S1024x128 .f32) (harg5 : arg5.IsWhole)
    (hc0 : ¬cond0_0 i) (hc1 : cond0_1 i)
    (x0 : Vec F S8000x1 .i32) (x1 : Vec F S8000x128 .bf16) (xs : Vec F S1024x128 .f32)
    (E : Set ℕ) (K : PUnit → sProp 𝕄) :
    iprop(owns (c : Thread nD τ) arg2 fullShare x0 ∗ owns (c : Thread nD τ) arg3 fullShare x1
        ∗ (∃ d, owns (c : Thread nD τ) arg4 fullShare d) ∗ owns (c : Thread nD τ) arg5 fullShare xs
        ∗ (iprop(owns (c : Thread nD τ) arg2 fullShare x0 ∗ owns (c : Thread nD τ) arg3 fullShare x1
            ∗ owns (c : Thread nD τ) arg4 fullShare (k0_pay2 (F := F) i x0 x1 xs)
            ∗ owns (c : Thread nD τ) arg5 fullShare (k0_pay2 (F := F) i x0 x1 xs)) -∗ K ⟨⟩))
      ⊢ wp frame (wpE (defs₀ (F := F)) Variants.none c none) E (cc0_kernel i arg2 harg2 arg3 harg3 arg4 harg4 arg5 harg5) K := by
  simp only [cc0_kernel_eq_skeleton]; unfold cc0_kernel_skel
  unfold owns
  iintro ⟨⟨%f0, %hf0, H0⟩, ⟨%f1, %hf1, H1⟩, ⟨%d2, %f2, -, H2⟩, ⟨%fs, %hfs, HS⟩, Hk⟩
  subst hf0; subst hf1; subst hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    sl_unfold_run_names
    rw [read_writes_whole0 _ _ hz0]
    simp only [View.readAt_eq_ld, View.ld_unit_zero (S := S8000x1) hz0, View.ld_unit_zero (S := S8000x128) hz0,
      View.ld_unit_zero (S := S1024x128) hz0, View.readCov_unit_zero (S := S1024x128) _ hz0]
  iexists _; isplitr
  swap; · iexact HS
  ipureintro
  sl_unfold_run_names
  rw [read_writes_whole0 _ _ hz0]
  simp only [View.readAt_eq_ld, View.ld_unit_zero (S := S8000x1) hz0, View.ld_unit_zero (S := S8000x128) hz0,
    View.ld_unit_zero (S := S1024x128) hz0]

end Cert.KernelIdeal.Reg0

end
-- ==== Proof.KI.Reg0.lean ====
/- Region 0 (custom_call 0, `cc0_kernel`, grid ![10, 20]) at the buffer contents `V` the region is entered with: the
   windows' blocks, what the accumulator and the output's staging buffer hold after each grid point, the pipeline's proof
   data, and the body obligation. The accumulator is the kernel's own scratch buffer (shape 1024x300): the invariant
   hands it to the body out of the scoped buffers no window stages, at anything before the first point and afterwards at
   what the point before left in it. -/
import proofs.«411400_j9251359555630_1_alg».proof.Proof.KI.Reg0Runs

set_option maxRecDepth 16384

noncomputable section

namespace Cert.KernelIdeal.Reg0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region
-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! ## The memrefs the body is called with -/

/-- Each window's current staging memref at point `t`, as the pipeline passes it, and its wholeness. -/
abbrev ms0_0 (t : Fin cfg0.N) : Memref sig .tc .vmem S8000x1 .i32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S8000x128 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x128 .f32 := win0_2.stage (cfg0.slots t 2)
abbrev hs0_2 (t : Fin cfg0.N) : (ms0_2 t).IsWhole := hstage0_2 ((cfg0.slots t 2).cast nbuf0_2)
/-- The accumulator: a whole scoped buffer of the kernel's own, passed beside the windows. -/
abbrev scM0_0 : Memref sig .tc .vmem S1024x128 .f32 := Memref.whole cc0_scratch0

/-! ## What the accumulator and the output hold after each point -/

/-- (output staging buffer, accumulator) after the body at position `n`. The accumulator is the payload `k0_pay2` of the
    point's two input blocks over zeros (`k0_pay1`) where `n % 20 = 0` and over what the point before left elsewhere.
    The output's buffer takes the accumulator where `n % 20 = 19`; elsewhere the body leaves it as found (the component
    there repeats the previous one, and at position 0 the accumulator: a placeholder nothing reads). -/
def outsAt0 (c : Dev nD) : (n : ℕ) → n < cfg0.N → Vec F S1024x128 .f32 × Vec F S1024x128 .f32
  | 0, hn =>
    (k0_pay2 (F := F) (grid0.coords ⟨0, hn⟩) (iblk0 V c 0 ⟨0, hn⟩) (iblk0 V c 1 ⟨0, hn⟩) (k0_pay1 (F := F)),
     k0_pay2 (F := F) (grid0.coords ⟨0, hn⟩) (iblk0 V c 0 ⟨0, hn⟩) (iblk0 V c 1 ⟨0, hn⟩) (k0_pay1 (F := F)))
  | n + 1, hn =>
    (if (n + 1) % 20 = 19 then
        k0_pay2 (F := F) (grid0.coords ⟨n + 1, hn⟩) (iblk0 V c 0 ⟨n + 1, hn⟩) (iblk0 V c 1 ⟨n + 1, hn⟩)
          (if (n + 1) % 20 = 0 then k0_pay1 (F := F) else (outsAt0 c n (Nat.lt_of_succ_lt hn)).2)
      else (outsAt0 c n (Nat.lt_of_succ_lt hn)).1,
     k0_pay2 (F := F) (grid0.coords ⟨n + 1, hn⟩) (iblk0 V c 0 ⟨n + 1, hn⟩) (iblk0 V c 1 ⟨n + 1, hn⟩)
       (if (n + 1) % 20 = 0 then k0_pay1 (F := F) else (outsAt0 c n (Nat.lt_of_succ_lt hn)).2))

/-- The accumulator's step: the payload of the point's blocks over zeros at the first edge block of a node block, over
    the previous accumulator elsewhere. -/
theorem scratch_step0 (c : Dev nD) (t : Fin cfg0.N) :
    (outsAt0 V c t.val t.isLt).2 = k0_pay2 (F := F) (grid0.coords t) (iblk0 V c 0 t) (iblk0 V c 1 t)
      (if t.val % 20 = 0 then k0_pay1 (F := F) else (outsAt0 V c (t.val - 1) (Nat.lt_of_le_of_lt (Nat.sub_le _ _) t.isLt)).2) := by
  obtain ⟨n, hn⟩ := t
  cases n with
  | zero => exact congrArg (k0_pay2 (F := F) (grid0.coords ⟨0, hn⟩) (iblk0 V c 0 ⟨0, hn⟩) (iblk0 V c 1 ⟨0, hn⟩)) (if_pos (Nat.zero_mod 20)).symm
  | succ n => rfl

/-- At the last edge block of a node block the output's buffer is the accumulator. -/
theorem out_flush0 (c : Dev nD) (t : Fin cfg0.N) (h : t.val % 20 = 19) :
    (outsAt0 V c t.val t.isLt).1 = (outsAt0 V c t.val t.isLt).2 := by
  obtain ⟨n, hn⟩ := t
  cases n with
  | zero => rfl
  | succ n => exact if_pos h

/-! ## The invariant -/

/-- The region invariant before position `n`: before the first point the scoped buffers no window stages, each at
    anything (the accumulator among them); afterwards the accumulator at what the point before left in it, beside the
    others, unopened. -/
def PhiS0 (c : Dev nD) : (n : ℕ) → n ≤ cfg0.N → sProp 𝕄
  | 0, _ => Pipeline.scopedRest (Ix := Unit) (Name := ℕ) (U := UR sig nD τ) (Lvl := ℕ) (Val := Elt F) spec0 c
  | n + 1, hn => iprop(owns (c : Thread nD τ) scM0_0 fullShare ((outsAt0 V c n hn).2) ∗ Pipeline.scopedRestBut (Ix := Unit) (Name := ℕ) (U := UR sig nD τ) (Lvl := ℕ) (Val := Elt F) spec0 c [cc0_scratch0])

theorem PhiS0_zero (c : Dev nD) (n : ℕ) (h : n ≤ cfg0.N) (hz : n = 0) : PhiS0 V c n h = Pipeline.scopedRest (Ix := Unit) (Name := ℕ) (U := UR sig nD τ) (Lvl := ℕ) (Val := Elt F) spec0 c := by
  subst hz; rfl

theorem PhiS0_succ (c : Dev nD) (n : ℕ) (hn : n < cfg0.N) :
    PhiS0 V c (n + 1) hn = iprop(owns (c : Thread nD τ) scM0_0 fullShare ((outsAt0 V c n hn).2) ∗ Pipeline.scopedRestBut (Ix := Unit) (Name := ℕ) (U := UR sig nD τ) (Lvl := ℕ) (Val := Elt F) spec0 c [cc0_scratch0]) := rfl

theorem PhiS0_pos (c : Dev nD) (n : ℕ) (h : n ≤ cfg0.N) (hz : n ≠ 0) :
    PhiS0 V c n h = iprop(owns (c : Thread nD τ) scM0_0 fullShare ((outsAt0 V c (n - 1) (by omega)).2) ∗ Pipeline.scopedRestBut (Ix := Unit) (Name := ℕ) (U := UR sig nD τ) (Lvl := ℕ) (Val := Elt F) spec0 c [cc0_scratch0]) := by
  cases n with
  | zero => exact absurd rfl hz
  | succ n => rfl

/-- The scoped buffers no window stages, with the accumulator taken out as a memref owned at some contents. -/
theorem scopedRest0_acc (c : Dev nD) :
    (Pipeline.scopedRest (Ix := Unit) (Name := ℕ) (U := UR sig nD τ) (Lvl := ℕ) (Val := Elt F) spec0 c : sProp 𝕄)
      = iprop(iprop(∃ d, owns (c : Thread nD τ) scM0_0 fullShare d) ∗ Pipeline.scopedRestBut (Ix := Unit) (Name := ℕ) (U := UR sig nD τ) (Lvl := ℕ) (Val := Elt F) spec0 c [cc0_scratch0]) := by
  rw [scopedRest0_split]; simp only [scM0_0, owns_whole]; try rfl

/-! ## The pipeline's proof data -/

/-- The proof data of pipeline 0 on core `c`: the arrays as the region finds them; after the body at point `t` each
    input's buffer at its block and the output's at `outsAt0`'s first component; the invariant `PhiS0`; nothing owed;
    full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => (outsAt0 V c t.val t.isLt).1
  Φ t := PhiS0 V c t.val (Nat.le_of_lt_succ t.isLt)
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = (outsAt0 V c t.val t.isLt).1 := by dsimp only [dat0]

/-- The invariant at a point's start, restated at the point's position. -/
theorem PhiS0_castSucc (c : Dev nD) (t : Fin cfg0.N) :
    (dat0 V c).Φ t.castSucc = PhiS0 V c t.val (Nat.le_of_lt t.isLt) := by
  dsimp only [dat0]; simp only [Fin.coe_castSucc]

/-- Each input's current staging buffer holds its block at every point: both are fetched at every point, and neither
    window is cut, so the fetch fills the whole buffer with the array's block. -/
theorem before0_0 (c : Dev nD) (t : Fin cfg0.N) (d) : (dat0 V c).before 0 t d = iblk0 V c 0 t := by
  unfold Dat.before; rw [fetch0_0 t, if_pos rfl]; unfold Dat.fetched Dat.blockOf iblk0; rw [A_eq0]; rfl
theorem before0_1 (c : Dev nD) (t : Fin cfg0.N) (d) : (dat0 V c).before 1 t d = iblk0 V c 1 t := by
  unfold Dat.before; rw [fetch0_1 t, if_pos rfl]; unfold Dat.fetched Dat.blockOf iblk0; rw [A_eq0]; rfl

/-- The inputs' buffers are handed back at their blocks (the windows are never idle). -/
theorem leaves0_0 (c : Dev nD) (t : Fin cfg0.N) :
    (dat0 V c).leavesExact 0 t = owns (c : Thread nD τ) (ms0_0 t) fullShare (iblk0 V c 0 t) := by
  unfold Dat.leavesExact; rw [liveAt0_0 t, after0_0]
theorem leaves0_1 (c : Dev nD) (t : Fin cfg0.N) :
    (dat0 V c).leavesExact 1 t = owns (c : Thread nD τ) (ms0_1 t) fullShare (iblk0 V c 1 t) := by
  unfold Dat.leavesExact; rw [liveAt0_1 t, after0_1]

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

set_option maxHeartbeats 4800000 in
/-- The body at any point. The inputs' memrefs hold their blocks; the position modulo 20 says which case the point is
    in. The invariant hands the body the accumulator (at anything before the first point, else at what the point before
    left) and takes it back at this point's contents (`scratch_step0`). Off the last edge block the output's buffer goes
    back as found; at it, the buffer takes the accumulator (`out_flush0`). The core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = PhiS0 V c (t.val + 1) t.isLt from rfl, PhiS0_succ]
  rw [leaves0_0, leaves0_1]
  have hN : t.val < 200 := lt_of_lt_of_eq t.isLt (show cfg0.N = 200 from N_0)
  by_cases h0 : t.val % 20 = 0
  · have h1 : ¬t.val % 20 = 19 := by omega
    rw [Dat.leavesExact_idle (dat0 V c) 2 t (idleAt0_2 _ (fun h => h1 ((hcond0_1 t).mp h))) (noFlush0_2 t h1)]
    rw [scratch_step0 V c t, if_pos h0]
    by_cases hz : t.val = 0
    · rw [PhiS0_castSucc V c t, PhiS0_zero V c _ _ hz, scopedRest0_acc]
      iintro ⟨⟨HS, HR⟩, Ho, ⟨%d0, H0⟩, ⟨%d1, H1⟩, ⟨%d2, H2⟩⟩
      iapply (run0_A c (grid0.coords t) _ _ _ _ _ _ _ _ ((hcond0_0 t).mpr h0) (fun h => h1 ((hcond0_1 t).mp h)) (iblk0 V c 0 t) (iblk0 V c 1 t) _ Set.univ _)
      isplitl [H0]; · iexact H0
      isplitl [H1]; · iexact H1
      isplitl [H2]; · iexact H2
      isplitl [HS]; · iexact HS
      iintro ⟨H0, H1, H2, HS⟩
      isplitl [HS HR]
      · isplitl [HS]; · iexact HS
        iexact HR
      isplitl [Ho]; · iexact Ho
      isplitl [H0]; · iexact H0
      isplitl [H1]; · iexact H1
      iexists _; iexact H2
    · rw [PhiS0_castSucc V c t, PhiS0_pos V c _ _ hz]
      iintro ⟨⟨HS, HR⟩, Ho, ⟨%d0, H0⟩, ⟨%d1, H1⟩, ⟨%d2, H2⟩⟩
      iapply (run0_A c (grid0.coords t) _ _ _ _ _ _ _ _ ((hcond0_0 t).mpr h0) (fun h => h1 ((hcond0_1 t).mp h)) (iblk0 V c 0 t) (iblk0 V c 1 t) _ Set.univ _)
      isplitl [H0]; · iexact H0
      isplitl [H1]; · iexact H1
      isplitl [H2]; · iexact H2
      isplitl [HS]; · iexists _; iexact HS
      iintro ⟨H0, H1, H2, HS⟩
      isplitl [HS HR]
      · isplitl [HS]; · iexact HS
        iexact HR
      isplitl [Ho]; · iexact Ho
      isplitl [H0]; · iexact H0
      isplitl [H1]; · iexact H1
      iexists _; iexact H2
  · have hz : t.val ≠ 0 := fun hz => h0 (by omega)
    rw [PhiS0_castSucc V c t, PhiS0_pos V c _ _ hz]
    by_cases h1 : t.val % 20 = 19
    · rw [show (dat0 V c).leavesExact 2 t = owns (c : Thread nD τ) (ms0_2 t) fullShare ((dat0 V c).after 2 t) from by
        unfold Dat.leavesExact; rw [liveAt0_2 (grid0.coords t) ((hcond0_1 t).mpr h1)], after0_2, out_flush0 V c t h1]
      rw [scratch_step0 V c t, if_neg h0]
      iintro ⟨⟨HS, HR⟩, Ho, ⟨%d0, H0⟩, ⟨%d1, H1⟩, ⟨%d2, H2⟩⟩
      iapply (run0_C c (grid0.coords t) _ _ _ _ _ _ _ _ (fun h => h0 ((hcond0_0 t).mp h)) ((hcond0_1 t).mpr h1) (iblk0 V c 0 t) (iblk0 V c 1 t) _ Set.univ _)
      isplitl [H0]; · iexact H0
      isplitl [H1]; · iexact H1
      isplitl [H2]; · iexists _; iexact H2
      isplitl [HS]; · iexact HS
      iintro ⟨H0, H1, H2, HS⟩
      isplitl [HS HR]
      · isplitl [HS]; · iexact HS
        iexact HR
      isplitl [Ho]; · iexact Ho
      isplitl [H0]; · iexact H0
      isplitl [H1]; · iexact H1
      iexact H2
    · rw [Dat.leavesExact_idle (dat0 V c) 2 t (idleAt0_2 _ (fun h => h1 ((hcond0_1 t).mp h))) (noFlush0_2 t h1)]
      rw [scratch_step0 V c t, if_neg h0]
      iintro ⟨⟨HS, HR⟩, Ho, ⟨%d0, H0⟩, ⟨%d1, H1⟩, ⟨%d2, H2⟩⟩
      iapply (run0_B c (grid0.coords t) _ _ _ _ _ _ _ _ (fun h => h0 ((hcond0_0 t).mp h)) (fun h => h1 ((hcond0_1 t).mp h)) (iblk0 V c 0 t) (iblk0 V c 1 t) _ _ Set.univ _)
      isplitl [H0]; · iexact H0
      isplitl [H1]; · iexact H1
      isplitl [H2]; · iexact H2
      isplitl [HS]; · iexact HS
      iintro ⟨H0, H1, H2, HS⟩
      isplitl [HS HR]
      · isplitl [HS]; · iexact HS
        iexact HR
      isplitl [Ho]; · iexact Ho
      isplitl [H0]; · iexact H0
      isplitl [H1]; · iexact H1
      iexists _; iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

/-! ## The invariant at the region's two ends -/

/-- The scoped buffers no window stages are the invariant before the first point. -/
theorem Phi0_in (c : Dev nD) : (Pipeline.scopedRest (Ix := Unit) (Name := ℕ) (U := UR sig nD τ) (Lvl := ℕ) (Val := Elt F) spec0 c : sProp 𝕄) ⊢ (dat0 V c).Φ 0 := by
  rw [show (dat0 V c).Φ 0 = PhiS0 V c 0 (Nat.zero_le _) from rfl, PhiS0_zero V c 0 _ rfl]

/-- After the last point the invariant gives them back: the accumulator's named contents are forgotten. -/
theorem Phi0_out (c : Dev nD) : (dat0 V c).Φ (Fin.last cfg0.N) ⊢ (Pipeline.scopedRest (Ix := Unit) (Name := ℕ) (U := UR sig nD τ) (Lvl := ℕ) (Val := Elt F) spec0 c : sProp 𝕄) := by
  rw [show (dat0 V c).Φ (Fin.last cfg0.N) = PhiS0 V c (Fin.last cfg0.N).val (Nat.le_of_lt_succ (Fin.last cfg0.N).isLt) from rfl,
    PhiS0_pos V c _ _ (by rw [Fin.val_last]; have : cfg0.N = 200 := N_0; omega), scopedRest0_acc]
  iintro ⟨HS, HR⟩
  isplitl [HS]; · iexists _; iexact HS
  iexact HR

end Region

end Cert.KernelIdeal.Reg0

end
-- ==== Proof.KI.Reg1Runs.lean ====
/- Region 1 (custom_call 1, `cc1_kernel`, grid ![10, 20]): the segment sum's body in each of its three control
   cases. The body keeps an accumulator (its last operand, a whole scratch buffer of shape 1024x300): at the first edge
   block of a node block (grid coordinate 1 equal to 0) it stores zeros into it; at every point it adds the one-hot
   product of the point's two input blocks to it; at the last edge block (coordinate 1 equal to 19) it copies it to
   the output's staging buffer, which it otherwise does not touch. Each case is a triple whose post names the
   accumulator's new contents as the payload `k1_pay2` of the input blocks and the contents found (zeros after a
   reset). -/
import proofs.«411400_j9251359555630_1_alg».proof.Proof.Gen.KernelIdeal.Launch
import proofs.«411400_j9251359555630_1_alg».proof.Proof.Gen.KernelIdeal.Skeleton
import proofs.«411400_j9251359555630_1_alg».proof.Proof.Gen.KernelIdeal.Points
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.KernelIdeal.Reg1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The branch conditions, in closed form over the grid -/

/-- The condition of the body's first `scf.if` (the accumulator's reset), from the grid coordinates. -/
abbrev cond1_0 (i : grid1.Coords) : Prop :=
  (Scalar.cmpi .ne (Scalar.extui (Scalar.cmpi .eq (BitVec.ofNat 32 (i 1).val) 0#32)) 0#32) = 1#1
/-- It holds at the points whose position is 0 modulo 20: the first edge block of each node block. -/
theorem hcond1_0 : ∀ t : Fin cfg1.N, cond1_0 (grid1.coords t) ↔ t.val % 20 = 0 :=
  (by decide +kernel : ∀ t : Fin grid1.N, cond1_0 (grid1.coords t) ↔ t.val % 20 = 0)

/-- The condition of the body's second `scf.if` (the copy to the output), from the grid coordinates. -/
abbrev cond1_1 (i : grid1.Coords) : Prop := k1_cond2 i = 1#1
/-- It holds at the points whose position is 19 modulo 20: the last edge block of each node block. -/
theorem hcond1_1 : ∀ t : Fin cfg1.N, cond1_1 (grid1.coords t) ↔ t.val % 20 = 19 :=
  (by decide +kernel : ∀ t : Fin grid1.N, cond1_1 (grid1.coords t) ↔ t.val % 20 = 19)

/-! ## Where the windows are idle -/

/-- The two input windows are never idle. -/
theorem liveAt1_0 (t : Fin cfg1.N) : cfg1.idle 0 (grid1.coords t) = false := rfl
theorem liveAt1_1 (t : Fin cfg1.N) : cfg1.idle 1 (grid1.coords t) = false := rfl
/-- The output window is idle exactly where the second condition fails: the body stores into it only under it. -/
theorem idleAt1_2 (i : grid1.Coords) (h : ¬cond1_1 i) : cfg1.idle 2 i = true := by
  show (!(k1_cond2 i == 1#1)) = true
  cases hb : (k1_cond2 i == 1#1) with
  | false => rfl
  | true => exact absurd (eq_of_beq hb) h
theorem liveAt1_2 (i : grid1.Coords) (h : cond1_1 i) : cfg1.idle 2 i = false := by
  show (!(k1_cond2 i == 1#1)) = false
  rw [show k1_cond2 i = 1#1 from h]; rfl
/-- Off the last edge block the output's block is not written back. -/
theorem noFlush1_2 (t : Fin cfg1.N) (h : ¬t.val % 20 = 19) : (cfg1.win 2).flush t = false :=
  Bool.eq_false_iff.mpr fun hf => h ((flush1_2 t).mp hf)

/-! ## Whole-buffer accesses -/

/-- The offsets of every access of the body: zero on both axes. -/
theorem hz1 : (![0, 0] : Fin 2 → Nat) = fun _ => 0 := funext fun a => by fin_cases a <;> rfl

/-- A store through the whole-shape rectangle at zero offsets, made last, is what the buffer then reads, whatever
    was stored before and whatever the buffer held. -/
theorem read_writes_whole1 {S : Shape} {e : EltTy} {sp : Space} (v : View sig .tc sp S e) (f : v.ty.Contents (Elt F))
    {off : Fin S.rank → Nat} (h : off = fun _ => 0) (inb : ∀ a, off a + S.size a ≤ S.size a)
    (w : S.Idx → Elt F e) (L : List (View.Piece (Elt F) S e)) :
    v.read (Elt F) (v.writes (Elt F) f ((⟨Rect.unit off S.size inb, w⟩ : View.Piece (Elt F) S e) :: L)) = w := by
  refine (View.read_writes_eq_canon v f _ fun y =>
    ⟨⟨Rect.unit off S.size inb, w⟩, List.mem_cons_self, View.mem_set_unit_zero h inb y⟩).trans ?_
  exact View.canon_cons_unit_zero h inb w L

/-! ## The body's triple, case by case -/

set_option maxHeartbeats 1000000 in
/-- CASE A, the first edge block of a node block (first condition true, second false): on whole memrefs, the inputs' at
    contents `x0`, `x1`, the output's at `xo`, the accumulator at anything, the body runs to the continuation holding
    the first three as they were and the accumulator at the payload of the input blocks over zeros. -/
theorem run1_A (c : Dev nD) (i : grid1.Coords)
    (arg2 : Memref sig .tc .vmem S8000x1 .i32) (harg2 : arg2.IsWhole)
    (arg3 : Memref sig .tc .vmem S8000x300 .bf16) (harg3 : arg3.IsWhole)
    (arg4 : Memref sig .tc .vmem S1024x300 .f32) (harg4 : arg4.IsWhole)
    (arg5 : Memref sig .tc .vmem S1024x300 .f32) (harg5 : arg5.IsWhole)
    (hc0 : cond1_0 i) (hc1 : ¬cond1_1 i)
    (x0 : Vec F S8000x1 .i32) (x1 : Vec F S8000x300 .bf16) (xo : Vec F S1024x300 .f32)
    (E : Set ℕ) (K : PUnit → sProp 𝕄) :
    iprop(owns (c : Thread nD τ) arg2 fullShare x0 ∗ owns (c : Thread nD τ) arg3 fullShare x1
        ∗ owns (c : Thread nD τ) arg4 fullShare xo ∗ (∃ d, owns (c : Thread nD τ) arg5 fullShare d)
        ∗ (iprop(owns (c : Thread nD τ) arg2 fullShare x0 ∗ owns (c : Thread nD τ) arg3 fullShare x1
            ∗ owns (c : Thread nD τ) arg4 fullShare xo
            ∗ owns (c : Thread nD τ) arg5 fullShare (k1_pay2 (F := F) i x0 x1 (k1_pay1 (F := F)))) -∗ K ⟨⟩))
      ⊢ wp frame (wpE (defs₀ (F := F)) Variants.none c none) E (cc1_kernel i arg2 harg2 arg3 harg3 arg4 harg4 arg5 harg5) K := by
  simp only [cc1_kernel_eq_skeleton]; unfold cc1_kernel_skel
  unfold owns
  iintro ⟨⟨%f0, %hf0, H0⟩, ⟨%f1, %hf1, H1⟩, ⟨%f2, %hf2, H2⟩, ⟨%ds, %fs, -, HS⟩, Hk⟩
  subst hf0; subst hf1; subst hf2
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact HS
  ipureintro
  sl_unfold_run_names
  rw [read_writes_whole1 _ _ hz1]
  simp only [View.readAt_eq_ld, View.ld_unit_zero (S := S8000x1) hz1, View.ld_unit_zero (S := S8000x300) hz1,
    View.readCov_unit_zero (S := S1024x300) _ hz1]

set_option maxHeartbeats 1000000 in
/-- CASE B, an edge block that is neither the first nor the last (both conditions false): the accumulator, found at
    `xs`, is left at the payload of the input blocks over `xs`; the output's buffer is not touched. -/
theorem run1_B (c : Dev nD) (i : grid1.Coords)
    (arg2 : Memref sig .tc .vmem S8000x1 .i32) (harg2 : arg2.IsWhole)
    (arg3 : Memref sig .tc .vmem S8000x300 .bf16) (harg3 : arg3.IsWhole)
    (arg4 : Memref sig .tc .vmem S1024x300 .f32) (harg4 : arg4.IsWhole)
    (arg5 : Memref sig .tc .vmem S1024x300 .f32) (harg5 : arg5.IsWhole)
    (hc0 : ¬cond1_0 i) (hc1 : ¬cond1_1 i)
    (x0 : Vec F S8000x1 .i32) (x1 : Vec F S8000x300 .bf16) (xo : Vec F S1024x300 .f32) (xs : Vec F S1024x300 .f32)
    (E : Set ℕ) (K : PUnit → sProp 𝕄) :
    iprop(owns (c : Thread nD τ) arg2 fullShare x0 ∗ owns (c : Thread nD τ) arg3 fullShare x1
        ∗ owns (c : Thread nD τ) arg4 fullShare xo ∗ owns (c : Thread nD τ) arg5 fullShare xs
        ∗ (iprop(owns (c : Thread nD τ) arg2 fullShare x0 ∗ owns (c : Thread nD τ) arg3 fullShare x1
            ∗ owns (c : Thread nD τ) arg4 fullShare xo
            ∗ owns (c : Thread nD τ) arg5 fullShare (k1_pay2 (F := F) i x0 x1 xs)) -∗ K ⟨⟩))
      ⊢ wp frame (wpE (defs₀ (F := F)) Variants.none c none) E (cc1_kernel i arg2 harg2 arg3 harg3 arg4 harg4 arg5 harg5) K := by
  simp only [cc1_kernel_eq_skeleton]; unfold cc1_kernel_skel
  unfold owns
  iintro ⟨⟨%f0, %hf0, H0⟩, ⟨%f1, %hf1, H1⟩, ⟨%f2, %hf2, H2⟩, ⟨%fs, %hfs, HS⟩, Hk⟩
  subst hf0; subst hf1; subst hf2; subst hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact HS
  ipureintro
  sl_unfold_run_names
  rw [read_writes_whole1 _ _ hz1]
  simp only [View.readAt_eq_ld, View.ld_unit_zero (S := S8000x1) hz1, View.ld_unit_zero (S := S8000x300) hz1,
    View.ld_unit_zero (S := S1024x300) hz1]

set_option maxHeartbeats 1000000 in
/-- CASE C, the last edge block of a node block (first condition false, second true): the accumulator, found at `xs`,
    is left at the payload of the input blocks over `xs`, and the output's buffer, found at anything, takes the same. -/
theorem run1_C (c : Dev nD) (i : grid1.Coords)
    (arg2 : Memref sig .tc .vmem S8000x1 .i32) (harg2 : arg2.IsWhole)
    (arg3 : Memref sig .tc .vmem S8000x300 .bf16) (harg3 : arg3.IsWhole)
    (arg4 : Memref sig .tc .vmem S1024x300 .f32) (harg4 : arg4.IsWhole)
    (arg5 : Memref sig .tc .vmem S1024x300 .f32) (harg5 : arg5.IsWhole)
    (hc0 : ¬cond1_0 i) (hc1 : cond1_1 i)
    (x0 : Vec F S8000x1 .i32) (x1 : Vec F S8000x300 .bf16) (xs : Vec F S1024x300 .f32)
    (E : Set ℕ) (K : PUnit → sProp 𝕄) :
    iprop(owns (c : Thread nD τ) arg2 fullShare x0 ∗ owns (c : Thread nD τ) arg3 fullShare x1
        ∗ (∃ d, owns (c : Thread nD τ) arg4 fullShare d) ∗ owns (c : Thread nD τ) arg5 fullShare xs
        ∗ (iprop(owns (c : Thread nD τ) arg2 fullShare x0 ∗ owns (c : Thread nD τ) arg3 fullShare x1
            ∗ owns (c : Thread nD τ) arg4 fullShare (k1_pay2 (F := F) i x0 x1 xs)
            ∗ owns (c : Thread nD τ) arg5 fullShare (k1_pay2 (F := F) i x0 x1 xs)) -∗ K ⟨⟩))
      ⊢ wp frame (wpE (defs₀ (F := F)) Variants.none c none) E (cc1_kernel i arg2 harg2 arg3 harg3 arg4 harg4 arg5 harg5) K := by
  simp only [cc1_kernel_eq_skeleton]; unfold cc1_kernel_skel
  unfold owns
  iintro ⟨⟨%f0, %hf0, H0⟩, ⟨%f1, %hf1, H1⟩, ⟨%d2, %f2, -, H2⟩, ⟨%fs, %hfs, HS⟩, Hk⟩
  subst hf0; subst hf1; subst hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    sl_unfold_run_names
    rw [read_writes_whole1 _ _ hz1]
    simp only [View.readAt_eq_ld, View.ld_unit_zero (S := S8000x1) hz1, View.ld_unit_zero (S := S8000x300) hz1,
      View.ld_unit_zero (S := S1024x300) hz1, View.readCov_unit_zero (S := S1024x300) _ hz1]
  iexists _; isplitr
  swap; · iexact HS
  ipureintro
  sl_unfold_run_names
  rw [read_writes_whole1 _ _ hz1]
  simp only [View.readAt_eq_ld, View.ld_unit_zero (S := S8000x1) hz1, View.ld_unit_zero (S := S8000x300) hz1,
    View.ld_unit_zero (S := S1024x300) hz1]

end Cert.KernelIdeal.Reg1

end
-- ==== Proof.KI.Reg1.lean ====
/- Region 1 (custom_call 1, `cc1_kernel`, grid ![10, 20]) at the buffer contents `V` the region is entered with: the
   windows' blocks, what the accumulator and the output's staging buffer hold after each grid point, the pipeline's proof
   data, and the body obligation. The accumulator is the kernel's own scratch buffer (shape 1024x300): the invariant
   hands it to the body out of the scoped buffers no window stages, at anything before the first point and afterwards at
   what the point before left in it. -/
import proofs.«411400_j9251359555630_1_alg».proof.Proof.KI.Reg1Runs

set_option maxRecDepth 16384

noncomputable section

namespace Cert.KernelIdeal.Reg1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region
-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! ## The memrefs the body is called with -/

/-- Each window's current staging memref at point `t`, as the pipeline passes it, and its wholeness. -/
abbrev ms1_0 (t : Fin cfg1.N) : Memref sig .tc .vmem S8000x1 .i32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S8000x300 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1024x300 .f32 := win1_2.stage (cfg1.slots t 2)
abbrev hs1_2 (t : Fin cfg1.N) : (ms1_2 t).IsWhole := hstage1_2 ((cfg1.slots t 2).cast nbuf1_2)
/-- The accumulator: a whole scoped buffer of the kernel's own, passed beside the windows. -/
abbrev scM1_0 : Memref sig .tc .vmem S1024x300 .f32 := Memref.whole cc1_scratch0

/-! ## What the accumulator and the output hold after each point -/

/-- (output staging buffer, accumulator) after the body at position `n`. The accumulator is the payload `k1_pay2` of the
    point's two input blocks over zeros (`k1_pay1`) where `n % 20 = 0` and over what the point before left elsewhere.
    The output's buffer takes the accumulator where `n % 20 = 19`; elsewhere the body leaves it as found (the component
    there repeats the previous one, and at position 0 the accumulator: a placeholder nothing reads). -/
def outsAt1 (c : Dev nD) : (n : ℕ) → n < cfg1.N → Vec F S1024x300 .f32 × Vec F S1024x300 .f32
  | 0, hn =>
    (k1_pay2 (F := F) (grid1.coords ⟨0, hn⟩) (iblk1 V c 0 ⟨0, hn⟩) (iblk1 V c 1 ⟨0, hn⟩) (k1_pay1 (F := F)),
     k1_pay2 (F := F) (grid1.coords ⟨0, hn⟩) (iblk1 V c 0 ⟨0, hn⟩) (iblk1 V c 1 ⟨0, hn⟩) (k1_pay1 (F := F)))
  | n + 1, hn =>
    (if (n + 1) % 20 = 19 then
        k1_pay2 (F := F) (grid1.coords ⟨n + 1, hn⟩) (iblk1 V c 0 ⟨n + 1, hn⟩) (iblk1 V c 1 ⟨n + 1, hn⟩)
          (if (n + 1) % 20 = 0 then k1_pay1 (F := F) else (outsAt1 c n (Nat.lt_of_succ_lt hn)).2)
      else (outsAt1 c n (Nat.lt_of_succ_lt hn)).1,
     k1_pay2 (F := F) (grid1.coords ⟨n + 1, hn⟩) (iblk1 V c 0 ⟨n + 1, hn⟩) (iblk1 V c 1 ⟨n + 1, hn⟩)
       (if (n + 1) % 20 = 0 then k1_pay1 (F := F) else (outsAt1 c n (Nat.lt_of_succ_lt hn)).2))

/-- The accumulator's step: the payload of the point's blocks over zeros at the first edge block of a node block, over
    the previous accumulator elsewhere. -/
theorem scratch_step1 (c : Dev nD) (t : Fin cfg1.N) :
    (outsAt1 V c t.val t.isLt).2 = k1_pay2 (F := F) (grid1.coords t) (iblk1 V c 0 t) (iblk1 V c 1 t)
      (if t.val % 20 = 0 then k1_pay1 (F := F) else (outsAt1 V c (t.val - 1) (Nat.lt_of_le_of_lt (Nat.sub_le _ _) t.isLt)).2) := by
  obtain ⟨n, hn⟩ := t
  cases n with
  | zero => exact congrArg (k1_pay2 (F := F) (grid1.coords ⟨0, hn⟩) (iblk1 V c 0 ⟨0, hn⟩) (iblk1 V c 1 ⟨0, hn⟩)) (if_pos (Nat.zero_mod 20)).symm
  | succ n => rfl

/-- At the last edge block of a node block the output's buffer is the accumulator. -/
theorem out_flush1 (c : Dev nD) (t : Fin cfg1.N) (h : t.val % 20 = 19) :
    (outsAt1 V c t.val t.isLt).1 = (outsAt1 V c t.val t.isLt).2 := by
  obtain ⟨n, hn⟩ := t
  cases n with
  | zero => rfl
  | succ n => exact if_pos h

/-! ## The invariant -/

/-- The region invariant before position `n`: before the first point the scoped buffers no window stages, each at
    anything (the accumulator among them); afterwards the accumulator at what the point before left in it, beside the
    others, unopened. -/
def PhiS1 (c : Dev nD) : (n : ℕ) → n ≤ cfg1.N → sProp 𝕄
  | 0, _ => Pipeline.scopedRest (Ix := Unit) (Name := ℕ) (U := UR sig nD τ) (Lvl := ℕ) (Val := Elt F) spec1 c
  | n + 1, hn => iprop(owns (c : Thread nD τ) scM1_0 fullShare ((outsAt1 V c n hn).2) ∗ Pipeline.scopedRestBut (Ix := Unit) (Name := ℕ) (U := UR sig nD τ) (Lvl := ℕ) (Val := Elt F) spec1 c [cc1_scratch0])

theorem PhiS1_zero (c : Dev nD) (n : ℕ) (h : n ≤ cfg1.N) (hz : n = 0) : PhiS1 V c n h = Pipeline.scopedRest (Ix := Unit) (Name := ℕ) (U := UR sig nD τ) (Lvl := ℕ) (Val := Elt F) spec1 c := by
  subst hz; rfl

theorem PhiS1_succ (c : Dev nD) (n : ℕ) (hn : n < cfg1.N) :
    PhiS1 V c (n + 1) hn = iprop(owns (c : Thread nD τ) scM1_0 fullShare ((outsAt1 V c n hn).2) ∗ Pipeline.scopedRestBut (Ix := Unit) (Name := ℕ) (U := UR sig nD τ) (Lvl := ℕ) (Val := Elt F) spec1 c [cc1_scratch0]) := rfl

theorem PhiS1_pos (c : Dev nD) (n : ℕ) (h : n ≤ cfg1.N) (hz : n ≠ 0) :
    PhiS1 V c n h = iprop(owns (c : Thread nD τ) scM1_0 fullShare ((outsAt1 V c (n - 1) (by omega)).2) ∗ Pipeline.scopedRestBut (Ix := Unit) (Name := ℕ) (U := UR sig nD τ) (Lvl := ℕ) (Val := Elt F) spec1 c [cc1_scratch0]) := by
  cases n with
  | zero => exact absurd rfl hz
  | succ n => rfl

/-- The scoped buffers no window stages, with the accumulator taken out as a memref owned at some contents. -/
theorem scopedRest1_acc (c : Dev nD) :
    (Pipeline.scopedRest (Ix := Unit) (Name := ℕ) (U := UR sig nD τ) (Lvl := ℕ) (Val := Elt F) spec1 c : sProp 𝕄)
      = iprop(iprop(∃ d, owns (c : Thread nD τ) scM1_0 fullShare d) ∗ Pipeline.scopedRestBut (Ix := Unit) (Name := ℕ) (U := UR sig nD τ) (Lvl := ℕ) (Val := Elt F) spec1 c [cc1_scratch0]) := by
  rw [scopedRest1_split]; simp only [scM1_0, owns_whole]; try rfl

/-! ## The pipeline's proof data -/

/-- The proof data of pipeline 1 on core `c`: the arrays as the region finds them; after the body at point `t` each
    input's buffer at its block and the output's at `outsAt1`'s first component; the invariant `PhiS1`; nothing owed;
    full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => (outsAt1 V c t.val t.isLt).1
  Φ t := PhiS1 V c t.val (Nat.le_of_lt_succ t.isLt)
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = (outsAt1 V c t.val t.isLt).1 := by dsimp only [dat1]

/-- The invariant at a point's start, restated at the point's position. -/
theorem PhiS1_castSucc (c : Dev nD) (t : Fin cfg1.N) :
    (dat1 V c).Φ t.castSucc = PhiS1 V c t.val (Nat.le_of_lt t.isLt) := by
  dsimp only [dat1]; simp only [Fin.coe_castSucc]

/-- Each input's current staging buffer holds its block at every point: both are fetched at every point, and neither
    window is cut, so the fetch fills the whole buffer with the array's block. -/
theorem before1_0 (c : Dev nD) (t : Fin cfg1.N) (d) : (dat1 V c).before 0 t d = iblk1 V c 0 t := by
  unfold Dat.before; rw [fetch1_0 t, if_pos rfl]; unfold Dat.fetched Dat.blockOf iblk1; rw [A_eq1]; rfl
theorem before1_1 (c : Dev nD) (t : Fin cfg1.N) (d) : (dat1 V c).before 1 t d = iblk1 V c 1 t := by
  unfold Dat.before; rw [fetch1_1 t, if_pos rfl]; unfold Dat.fetched Dat.blockOf iblk1; rw [A_eq1]; rfl

/-- The inputs' buffers are handed back at their blocks (the windows are never idle). -/
theorem leaves1_0 (c : Dev nD) (t : Fin cfg1.N) :
    (dat1 V c).leavesExact 0 t = owns (c : Thread nD τ) (ms1_0 t) fullShare (iblk1 V c 0 t) := by
  unfold Dat.leavesExact; rw [liveAt1_0 t, after1_0]
theorem leaves1_1 (c : Dev nD) (t : Fin cfg1.N) :
    (dat1 V c).leavesExact 1 t = owns (c : Thread nD τ) (ms1_1 t) fullShare (iblk1 V c 1 t) := by
  unfold Dat.leavesExact; rw [liveAt1_1 t, after1_1]

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 4800000 in
/-- The body at any point. The inputs' memrefs hold their blocks; the position modulo 20 says which case the point is
    in. The invariant hands the body the accumulator (at anything before the first point, else at what the point before
    left) and takes it back at this point's contents (`scratch_step1`). Off the last edge block the output's buffer goes
    back as found; at it, the buffer takes the accumulator (`out_flush1`). The core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = PhiS1 V c (t.val + 1) t.isLt from rfl, PhiS1_succ]
  rw [leaves1_0, leaves1_1]
  have hN : t.val < 200 := lt_of_lt_of_eq t.isLt (show cfg1.N = 200 from N_1)
  by_cases h0 : t.val % 20 = 0
  · have h1 : ¬t.val % 20 = 19 := by omega
    rw [Dat.leavesExact_idle (dat1 V c) 2 t (idleAt1_2 _ (fun h => h1 ((hcond1_1 t).mp h))) (noFlush1_2 t h1)]
    rw [scratch_step1 V c t, if_pos h0]
    by_cases hz : t.val = 0
    · rw [PhiS1_castSucc V c t, PhiS1_zero V c _ _ hz, scopedRest1_acc]
      iintro ⟨⟨HS, HR⟩, Ho, ⟨%d0, H0⟩, ⟨%d1, H1⟩, ⟨%d2, H2⟩⟩
      iapply (run1_A c (grid1.coords t) _ _ _ _ _ _ _ _ ((hcond1_0 t).mpr h0) (fun h => h1 ((hcond1_1 t).mp h)) (iblk1 V c 0 t) (iblk1 V c 1 t) _ Set.univ _)
      isplitl [H0]; · iexact H0
      isplitl [H1]; · iexact H1
      isplitl [H2]; · iexact H2
      isplitl [HS]; · iexact HS
      iintro ⟨H0, H1, H2, HS⟩
      isplitl [HS HR]
      · isplitl [HS]; · iexact HS
        iexact HR
      isplitl [Ho]; · iexact Ho
      isplitl [H0]; · iexact H0
      isplitl [H1]; · iexact H1
      iexists _; iexact H2
    · rw [PhiS1_castSucc V c t, PhiS1_pos V c _ _ hz]
      iintro ⟨⟨HS, HR⟩, Ho, ⟨%d0, H0⟩, ⟨%d1, H1⟩, ⟨%d2, H2⟩⟩
      iapply (run1_A c (grid1.coords t) _ _ _ _ _ _ _ _ ((hcond1_0 t).mpr h0) (fun h => h1 ((hcond1_1 t).mp h)) (iblk1 V c 0 t) (iblk1 V c 1 t) _ Set.univ _)
      isplitl [H0]; · iexact H0
      isplitl [H1]; · iexact H1
      isplitl [H2]; · iexact H2
      isplitl [HS]; · iexists _; iexact HS
      iintro ⟨H0, H1, H2, HS⟩
      isplitl [HS HR]
      · isplitl [HS]; · iexact HS
        iexact HR
      isplitl [Ho]; · iexact Ho
      isplitl [H0]; · iexact H0
      isplitl [H1]; · iexact H1
      iexists _; iexact H2
  · have hz : t.val ≠ 0 := fun hz => h0 (by omega)
    rw [PhiS1_castSucc V c t, PhiS1_pos V c _ _ hz]
    by_cases h1 : t.val % 20 = 19
    · rw [show (dat1 V c).leavesExact 2 t = owns (c : Thread nD τ) (ms1_2 t) fullShare ((dat1 V c).after 2 t) from by
        unfold Dat.leavesExact; rw [liveAt1_2 (grid1.coords t) ((hcond1_1 t).mpr h1)], after1_2, out_flush1 V c t h1]
      rw [scratch_step1 V c t, if_neg h0]
      iintro ⟨⟨HS, HR⟩, Ho, ⟨%d0, H0⟩, ⟨%d1, H1⟩, ⟨%d2, H2⟩⟩
      iapply (run1_C c (grid1.coords t) _ _ _ _ _ _ _ _ (fun h => h0 ((hcond1_0 t).mp h)) ((hcond1_1 t).mpr h1) (iblk1 V c 0 t) (iblk1 V c 1 t) _ Set.univ _)
      isplitl [H0]; · iexact H0
      isplitl [H1]; · iexact H1
      isplitl [H2]; · iexists _; iexact H2
      isplitl [HS]; · iexact HS
      iintro ⟨H0, H1, H2, HS⟩
      isplitl [HS HR]
      · isplitl [HS]; · iexact HS
        iexact HR
      isplitl [Ho]; · iexact Ho
      isplitl [H0]; · iexact H0
      isplitl [H1]; · iexact H1
      iexact H2
    · rw [Dat.leavesExact_idle (dat1 V c) 2 t (idleAt1_2 _ (fun h => h1 ((hcond1_1 t).mp h))) (noFlush1_2 t h1)]
      rw [scratch_step1 V c t, if_neg h0]
      iintro ⟨⟨HS, HR⟩, Ho, ⟨%d0, H0⟩, ⟨%d1, H1⟩, ⟨%d2, H2⟩⟩
      iapply (run1_B c (grid1.coords t) _ _ _ _ _ _ _ _ (fun h => h0 ((hcond1_0 t).mp h)) (fun h => h1 ((hcond1_1 t).mp h)) (iblk1 V c 0 t) (iblk1 V c 1 t) _ _ Set.univ _)
      isplitl [H0]; · iexact H0
      isplitl [H1]; · iexact H1
      isplitl [H2]; · iexact H2
      isplitl [HS]; · iexact HS
      iintro ⟨H0, H1, H2, HS⟩
      isplitl [HS HR]
      · isplitl [HS]; · iexact HS
        iexact HR
      isplitl [Ho]; · iexact Ho
      isplitl [H0]; · iexact H0
      isplitl [H1]; · iexact H1
      iexists _; iexact H2

/-- The library's body obligation, at every point. -/
theorem body_obligation1 (c : Dev nD) : BodyObligation (dat1 (F := F) V c) (defs₀ (F := F)) Variants.none () Set.univ := fun t => by
  rw [bigSep_W1, bigSep_W1]
  exact sound_body1 V c t

/-! ## The invariant at the region's two ends -/

/-- The scoped buffers no window stages are the invariant before the first point. -/
theorem Phi1_in (c : Dev nD) : (Pipeline.scopedRest (Ix := Unit) (Name := ℕ) (U := UR sig nD τ) (Lvl := ℕ) (Val := Elt F) spec1 c : sProp 𝕄) ⊢ (dat1 V c).Φ 0 := by
  rw [show (dat1 V c).Φ 0 = PhiS1 V c 0 (Nat.zero_le _) from rfl, PhiS1_zero V c 0 _ rfl]

/-- After the last point the invariant gives them back: the accumulator's named contents are forgotten. -/
theorem Phi1_out (c : Dev nD) : (dat1 V c).Φ (Fin.last cfg1.N) ⊢ (Pipeline.scopedRest (Ix := Unit) (Name := ℕ) (U := UR sig nD τ) (Lvl := ℕ) (Val := Elt F) spec1 c : sProp 𝕄) := by
  rw [show (dat1 V c).Φ (Fin.last cfg1.N) = PhiS1 V c (Fin.last cfg1.N).val (Nat.le_of_lt_succ (Fin.last cfg1.N).isLt) from rfl,
    PhiS1_pos V c _ _ (by rw [Fin.val_last]; have : cfg1.N = 200 := N_1; omega), scopedRest1_acc]
  iintro ⟨HS, HR⟩
  isplitl [HS]; · iexists _; iexact HS
  iexact HR

end Region

end Cert.KernelIdeal.Reg1

end
-- ==== Proof.KI.Reg2Runs.lean ====
/- Region 2 (custom_call 2, `cc2_kernel`, grid ![1, 5]): the segment sum's body in each of its three control
   cases. The body keeps an accumulator (its last operand, a whole scratch buffer of shape 1024x300): at the first edge
   block of a node block (grid coordinate 1 equal to 0) it stores zeros into it; at every point it adds the one-hot
   product of the point's two input blocks to it; at the last edge block (coordinate 1 equal to 4) it copies it to
   the output's staging buffer, which it otherwise does not touch. Each case is a triple whose post names the
   accumulator's new contents as the payload `k2_pay2` of the input blocks and the contents found (zeros after a
   reset). -/
import proofs.«411400_j9251359555630_1_alg».proof.Proof.Gen.KernelIdeal.Launch
import proofs.«411400_j9251359555630_1_alg».proof.Proof.Gen.KernelIdeal.Skeleton
import proofs.«411400_j9251359555630_1_alg».proof.Proof.Gen.KernelIdeal.Points
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.KernelIdeal.Reg2

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The branch conditions, in closed form over the grid -/

/-- The condition of the body's first `scf.if` (the accumulator's reset), from the grid coordinates. -/
abbrev cond2_0 (i : grid2.Coords) : Prop :=
  (Scalar.cmpi .ne (Scalar.extui (Scalar.cmpi .eq (BitVec.ofNat 32 (i 1).val) 0#32)) 0#32) = 1#1
/-- It holds at the points whose position is 0 modulo 5: the first edge block of each node block. -/
theorem hcond2_0 : ∀ t : Fin cfg2.N, cond2_0 (grid2.coords t) ↔ t.val % 5 = 0 :=
  (by decide +kernel : ∀ t : Fin grid2.N, cond2_0 (grid2.coords t) ↔ t.val % 5 = 0)

/-- The condition of the body's second `scf.if` (the copy to the output), from the grid coordinates. -/
abbrev cond2_1 (i : grid2.Coords) : Prop := k2_cond2 i = 1#1
/-- It holds at the points whose position is 4 modulo 5: the last edge block of each node block. -/
theorem hcond2_1 : ∀ t : Fin cfg2.N, cond2_1 (grid2.coords t) ↔ t.val % 5 = 4 :=
  (by decide +kernel : ∀ t : Fin grid2.N, cond2_1 (grid2.coords t) ↔ t.val % 5 = 4)

/-! ## Where the windows are idle -/

/-- The two input windows are never idle. -/
theorem liveAt2_0 (t : Fin cfg2.N) : cfg2.idle 0 (grid2.coords t) = false := rfl
theorem liveAt2_1 (t : Fin cfg2.N) : cfg2.idle 1 (grid2.coords t) = false := rfl
/-- The output window is idle exactly where the second condition fails: the body stores into it only under it. -/
theorem idleAt2_2 (i : grid2.Coords) (h : ¬cond2_1 i) : cfg2.idle 2 i = true := by
  show (!(k2_cond2 i == 1#1)) = true
  cases hb : (k2_cond2 i == 1#1) with
  | false => rfl
  | true => exact absurd (eq_of_beq hb) h
theorem liveAt2_2 (i : grid2.Coords) (h : cond2_1 i) : cfg2.idle 2 i = false := by
  show (!(k2_cond2 i == 1#1)) = false
  rw [show k2_cond2 i = 1#1 from h]; rfl
/-- Off the last edge block the output's block is not written back. -/
theorem noFlush2_2 (t : Fin cfg2.N) (h : ¬t.val % 5 = 4) : (cfg2.win 2).flush t = false :=
  Bool.eq_false_iff.mpr fun hf => h ((flush2_2 t).mp hf)

/-! ## Whole-buffer accesses -/

/-- The offsets of every access of the body: zero on both axes. -/
theorem hz2 : (![0, 0] : Fin 2 → Nat) = fun _ => 0 := funext fun a => by fin_cases a <;> rfl

/-- A store through the whole-shape rectangle at zero offsets, made last, is what the buffer then reads, whatever
    was stored before and whatever the buffer held. -/
theorem read_writes_whole2 {S : Shape} {e : EltTy} {sp : Space} (v : View sig .tc sp S e) (f : v.ty.Contents (Elt F))
    {off : Fin S.rank → Nat} (h : off = fun _ => 0) (inb : ∀ a, off a + S.size a ≤ S.size a)
    (w : S.Idx → Elt F e) (L : List (View.Piece (Elt F) S e)) :
    v.read (Elt F) (v.writes (Elt F) f ((⟨Rect.unit off S.size inb, w⟩ : View.Piece (Elt F) S e) :: L)) = w := by
  refine (View.read_writes_eq_canon v f _ fun y =>
    ⟨⟨Rect.unit off S.size inb, w⟩, List.mem_cons_self, View.mem_set_unit_zero h inb y⟩).trans ?_
  exact View.canon_cons_unit_zero h inb w L

/-! ## The body's triple, case by case -/

set_option maxHeartbeats 1000000 in
/-- CASE A, the first edge block of a node block (first condition true, second false): on whole memrefs, the inputs' at
    contents `x0`, `x1`, the output's at `xo`, the accumulator at anything, the body runs to the continuation holding
    the first three as they were and the accumulator at the payload of the input blocks over zeros. -/
theorem run2_A (c : Dev nD) (i : grid2.Coords)
    (arg2 : Memref sig .tc .vmem S2000x1 .i32) (harg2 : arg2.IsWhole)
    (arg3 : Memref sig .tc .vmem S2000x300 .bf16) (harg3 : arg3.IsWhole)
    (arg4 : Memref sig .tc .vmem S64x300 .f32) (harg4 : arg4.IsWhole)
    (arg5 : Memref sig .tc .vmem S64x300 .f32) (harg5 : arg5.IsWhole)
    (hc0 : cond2_0 i) (hc1 : ¬cond2_1 i)
    (x0 : Vec F S2000x1 .i32) (x1 : Vec F S2000x300 .bf16) (xo : Vec F S64x300 .f32)
    (E : Set ℕ) (K : PUnit → sProp 𝕄) :
    iprop(owns (c : Thread nD τ) arg2 fullShare x0 ∗ owns (c : Thread nD τ) arg3 fullShare x1
        ∗ owns (c : Thread nD τ) arg4 fullShare xo ∗ (∃ d, owns (c : Thread nD τ) arg5 fullShare d)
        ∗ (iprop(owns (c : Thread nD τ) arg2 fullShare x0 ∗ owns (c : Thread nD τ) arg3 fullShare x1
            ∗ owns (c : Thread nD τ) arg4 fullShare xo
            ∗ owns (c : Thread nD τ) arg5 fullShare (k2_pay2 (F := F) i x0 x1 (k2_pay1 (F := F)))) -∗ K ⟨⟩))
      ⊢ wp frame (wpE (defs₀ (F := F)) Variants.none c none) E (cc2_kernel i arg2 harg2 arg3 harg3 arg4 harg4 arg5 harg5) K := by
  simp only [cc2_kernel_eq_skeleton]; unfold cc2_kernel_skel
  unfold owns
  iintro ⟨⟨%f0, %hf0, H0⟩, ⟨%f1, %hf1, H1⟩, ⟨%f2, %hf2, H2⟩, ⟨%ds, %fs, -, HS⟩, Hk⟩
  subst hf0; subst hf1; subst hf2
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact HS
  ipureintro
  sl_unfold_run_names
  rw [read_writes_whole2 _ _ hz2]
  simp only [View.readAt_eq_ld, View.ld_unit_zero (S := S2000x1) hz2, View.ld_unit_zero (S := S2000x300) hz2,
    View.readCov_unit_zero (S := S64x300) _ hz2]

set_option maxHeartbeats 1000000 in
/-- CASE B, an edge block that is neither the first nor the last (both conditions false): the accumulator, found at
    `xs`, is left at the payload of the input blocks over `xs`; the output's buffer is not touched. -/
theorem run2_B (c : Dev nD) (i : grid2.Coords)
    (arg2 : Memref sig .tc .vmem S2000x1 .i32) (harg2 : arg2.IsWhole)
    (arg3 : Memref sig .tc .vmem S2000x300 .bf16) (harg3 : arg3.IsWhole)
    (arg4 : Memref sig .tc .vmem S64x300 .f32) (harg4 : arg4.IsWhole)
    (arg5 : Memref sig .tc .vmem S64x300 .f32) (harg5 : arg5.IsWhole)
    (hc0 : ¬cond2_0 i) (hc1 : ¬cond2_1 i)
    (x0 : Vec F S2000x1 .i32) (x1 : Vec F S2000x300 .bf16) (xo : Vec F S64x300 .f32) (xs : Vec F S64x300 .f32)
    (E : Set ℕ) (K : PUnit → sProp 𝕄) :
    iprop(owns (c : Thread nD τ) arg2 fullShare x0 ∗ owns (c : Thread nD τ) arg3 fullShare x1
        ∗ owns (c : Thread nD τ) arg4 fullShare xo ∗ owns (c : Thread nD τ) arg5 fullShare xs
        ∗ (iprop(owns (c : Thread nD τ) arg2 fullShare x0 ∗ owns (c : Thread nD τ) arg3 fullShare x1
            ∗ owns (c : Thread nD τ) arg4 fullShare xo
            ∗ owns (c : Thread nD τ) arg5 fullShare (k2_pay2 (F := F) i x0 x1 xs)) -∗ K ⟨⟩))
      ⊢ wp frame (wpE (defs₀ (F := F)) Variants.none c none) E (cc2_kernel i arg2 harg2 arg3 harg3 arg4 harg4 arg5 harg5) K := by
  simp only [cc2_kernel_eq_skeleton]; unfold cc2_kernel_skel
  unfold owns
  iintro ⟨⟨%f0, %hf0, H0⟩, ⟨%f1, %hf1, H1⟩, ⟨%f2, %hf2, H2⟩, ⟨%fs, %hfs, HS⟩, Hk⟩
  subst hf0; subst hf1; subst hf2; subst hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact HS
  ipureintro
  sl_unfold_run_names
  rw [read_writes_whole2 _ _ hz2]
  simp only [View.readAt_eq_ld, View.ld_unit_zero (S := S2000x1) hz2, View.ld_unit_zero (S := S2000x300) hz2,
    View.ld_unit_zero (S := S64x300) hz2]

set_option maxHeartbeats 1000000 in
/-- CASE C, the last edge block of a node block (first condition false, second true): the accumulator, found at `xs`,
    is left at the payload of the input blocks over `xs`, and the output's buffer, found at anything, takes the same. -/
theorem run2_C (c : Dev nD) (i : grid2.Coords)
    (arg2 : Memref sig .tc .vmem S2000x1 .i32) (harg2 : arg2.IsWhole)
    (arg3 : Memref sig .tc .vmem S2000x300 .bf16) (harg3 : arg3.IsWhole)
    (arg4 : Memref sig .tc .vmem S64x300 .f32) (harg4 : arg4.IsWhole)
    (arg5 : Memref sig .tc .vmem S64x300 .f32) (harg5 : arg5.IsWhole)
    (hc0 : ¬cond2_0 i) (hc1 : cond2_1 i)
    (x0 : Vec F S2000x1 .i32) (x1 : Vec F S2000x300 .bf16) (xs : Vec F S64x300 .f32)
    (E : Set ℕ) (K : PUnit → sProp 𝕄) :
    iprop(owns (c : Thread nD τ) arg2 fullShare x0 ∗ owns (c : Thread nD τ) arg3 fullShare x1
        ∗ (∃ d, owns (c : Thread nD τ) arg4 fullShare d) ∗ owns (c : Thread nD τ) arg5 fullShare xs
        ∗ (iprop(owns (c : Thread nD τ) arg2 fullShare x0 ∗ owns (c : Thread nD τ) arg3 fullShare x1
            ∗ owns (c : Thread nD τ) arg4 fullShare (k2_pay2 (F := F) i x0 x1 xs)
            ∗ owns (c : Thread nD τ) arg5 fullShare (k2_pay2 (F := F) i x0 x1 xs)) -∗ K ⟨⟩))
      ⊢ wp frame (wpE (defs₀ (F := F)) Variants.none c none) E (cc2_kernel i arg2 harg2 arg3 harg3 arg4 harg4 arg5 harg5) K := by
  simp only [cc2_kernel_eq_skeleton]; unfold cc2_kernel_skel
  unfold owns
  iintro ⟨⟨%f0, %hf0, H0⟩, ⟨%f1, %hf1, H1⟩, ⟨%d2, %f2, -, H2⟩, ⟨%fs, %hfs, HS⟩, Hk⟩
  subst hf0; subst hf1; subst hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    sl_unfold_run_names
    rw [read_writes_whole2 _ _ hz2]
    simp only [View.readAt_eq_ld, View.ld_unit_zero (S := S2000x1) hz2, View.ld_unit_zero (S := S2000x300) hz2,
      View.ld_unit_zero (S := S64x300) hz2, View.readCov_unit_zero (S := S64x300) _ hz2]
  iexists _; isplitr
  swap; · iexact HS
  ipureintro
  sl_unfold_run_names
  rw [read_writes_whole2 _ _ hz2]
  simp only [View.readAt_eq_ld, View.ld_unit_zero (S := S2000x1) hz2, View.ld_unit_zero (S := S2000x300) hz2,
    View.ld_unit_zero (S := S64x300) hz2]

end Cert.KernelIdeal.Reg2

end
-- ==== Proof.KI.Reg2.lean ====
/- Region 2 (custom_call 2, `cc2_kernel`, grid ![1, 5]) at the buffer contents `V` the region is entered with: the
   windows' blocks, what the accumulator and the output's staging buffer hold after each grid point, the pipeline's proof
   data, and the body obligation. The accumulator is the kernel's own scratch buffer (shape 1024x300): the invariant
   hands it to the body out of the scoped buffers no window stages, at anything before the first point and afterwards at
   what the point before left in it. -/
import proofs.«411400_j9251359555630_1_alg».proof.Proof.KI.Reg2Runs

set_option maxRecDepth 16384

noncomputable section

namespace Cert.KernelIdeal.Reg2

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region
-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-! ## The memrefs the body is called with -/

/-- Each window's current staging memref at point `t`, as the pipeline passes it, and its wholeness. -/
abbrev ms2_0 (t : Fin cfg2.N) : Memref sig .tc .vmem S2000x1 .i32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S2000x300 .bf16 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S64x300 .f32 := win2_2.stage (cfg2.slots t 2)
abbrev hs2_2 (t : Fin cfg2.N) : (ms2_2 t).IsWhole := hstage2_2 ((cfg2.slots t 2).cast nbuf2_2)
/-- The accumulator: a whole scoped buffer of the kernel's own, passed beside the windows. -/
abbrev scM2_0 : Memref sig .tc .vmem S64x300 .f32 := Memref.whole cc2_scratch0

/-! ## What the accumulator and the output hold after each point -/

/-- (output staging buffer, accumulator) after the body at position `n`. The accumulator is the payload `k2_pay2` of the
    point's two input blocks over zeros (`k2_pay1`) where `n % 5 = 0` and over what the point before left elsewhere.
    The output's buffer takes the accumulator where `n % 5 = 4`; elsewhere the body leaves it as found (the component
    there repeats the previous one, and at position 0 the accumulator: a placeholder nothing reads). -/
def outsAt2 (c : Dev nD) : (n : ℕ) → n < cfg2.N → Vec F S64x300 .f32 × Vec F S64x300 .f32
  | 0, hn =>
    (k2_pay2 (F := F) (grid2.coords ⟨0, hn⟩) (iblk2 V c 0 ⟨0, hn⟩) (iblk2 V c 1 ⟨0, hn⟩) (k2_pay1 (F := F)),
     k2_pay2 (F := F) (grid2.coords ⟨0, hn⟩) (iblk2 V c 0 ⟨0, hn⟩) (iblk2 V c 1 ⟨0, hn⟩) (k2_pay1 (F := F)))
  | n + 1, hn =>
    (if (n + 1) % 5 = 4 then
        k2_pay2 (F := F) (grid2.coords ⟨n + 1, hn⟩) (iblk2 V c 0 ⟨n + 1, hn⟩) (iblk2 V c 1 ⟨n + 1, hn⟩)
          (if (n + 1) % 5 = 0 then k2_pay1 (F := F) else (outsAt2 c n (Nat.lt_of_succ_lt hn)).2)
      else (outsAt2 c n (Nat.lt_of_succ_lt hn)).1,
     k2_pay2 (F := F) (grid2.coords ⟨n + 1, hn⟩) (iblk2 V c 0 ⟨n + 1, hn⟩) (iblk2 V c 1 ⟨n + 1, hn⟩)
       (if (n + 1) % 5 = 0 then k2_pay1 (F := F) else (outsAt2 c n (Nat.lt_of_succ_lt hn)).2))

/-- The accumulator's step: the payload of the point's blocks over zeros at the first edge block of a node block, over
    the previous accumulator elsewhere. -/
theorem scratch_step2 (c : Dev nD) (t : Fin cfg2.N) :
    (outsAt2 V c t.val t.isLt).2 = k2_pay2 (F := F) (grid2.coords t) (iblk2 V c 0 t) (iblk2 V c 1 t)
      (if t.val % 5 = 0 then k2_pay1 (F := F) else (outsAt2 V c (t.val - 1) (Nat.lt_of_le_of_lt (Nat.sub_le _ _) t.isLt)).2) := by
  obtain ⟨n, hn⟩ := t
  cases n with
  | zero => exact congrArg (k2_pay2 (F := F) (grid2.coords ⟨0, hn⟩) (iblk2 V c 0 ⟨0, hn⟩) (iblk2 V c 1 ⟨0, hn⟩)) (if_pos (Nat.zero_mod 5)).symm
  | succ n => rfl

/-- At the last edge block of a node block the output's buffer is the accumulator. -/
theorem out_flush2 (c : Dev nD) (t : Fin cfg2.N) (h : t.val % 5 = 4) :
    (outsAt2 V c t.val t.isLt).1 = (outsAt2 V c t.val t.isLt).2 := by
  obtain ⟨n, hn⟩ := t
  cases n with
  | zero => rfl
  | succ n => exact if_pos h

/-! ## The invariant -/

/-- The region invariant before position `n`: before the first point the scoped buffers no window stages, each at
    anything (the accumulator among them); afterwards the accumulator at what the point before left in it, beside the
    others, unopened. -/
def PhiS2 (c : Dev nD) : (n : ℕ) → n ≤ cfg2.N → sProp 𝕄
  | 0, _ => Pipeline.scopedRest (Ix := Unit) (Name := ℕ) (U := UR sig nD τ) (Lvl := ℕ) (Val := Elt F) spec2 c
  | n + 1, hn => iprop(owns (c : Thread nD τ) scM2_0 fullShare ((outsAt2 V c n hn).2) ∗ Pipeline.scopedRestBut (Ix := Unit) (Name := ℕ) (U := UR sig nD τ) (Lvl := ℕ) (Val := Elt F) spec2 c [cc2_scratch0])

theorem PhiS2_zero (c : Dev nD) (n : ℕ) (h : n ≤ cfg2.N) (hz : n = 0) : PhiS2 V c n h = Pipeline.scopedRest (Ix := Unit) (Name := ℕ) (U := UR sig nD τ) (Lvl := ℕ) (Val := Elt F) spec2 c := by
  subst hz; rfl

theorem PhiS2_succ (c : Dev nD) (n : ℕ) (hn : n < cfg2.N) :
    PhiS2 V c (n + 1) hn = iprop(owns (c : Thread nD τ) scM2_0 fullShare ((outsAt2 V c n hn).2) ∗ Pipeline.scopedRestBut (Ix := Unit) (Name := ℕ) (U := UR sig nD τ) (Lvl := ℕ) (Val := Elt F) spec2 c [cc2_scratch0]) := rfl

theorem PhiS2_pos (c : Dev nD) (n : ℕ) (h : n ≤ cfg2.N) (hz : n ≠ 0) :
    PhiS2 V c n h = iprop(owns (c : Thread nD τ) scM2_0 fullShare ((outsAt2 V c (n - 1) (by omega)).2) ∗ Pipeline.scopedRestBut (Ix := Unit) (Name := ℕ) (U := UR sig nD τ) (Lvl := ℕ) (Val := Elt F) spec2 c [cc2_scratch0]) := by
  cases n with
  | zero => exact absurd rfl hz
  | succ n => rfl

/-- The scoped buffers no window stages, with the accumulator taken out as a memref owned at some contents. -/
theorem scopedRest2_acc (c : Dev nD) :
    (Pipeline.scopedRest (Ix := Unit) (Name := ℕ) (U := UR sig nD τ) (Lvl := ℕ) (Val := Elt F) spec2 c : sProp 𝕄)
      = iprop(iprop(∃ d, owns (c : Thread nD τ) scM2_0 fullShare d) ∗ Pipeline.scopedRestBut (Ix := Unit) (Name := ℕ) (U := UR sig nD τ) (Lvl := ℕ) (Val := Elt F) spec2 c [cc2_scratch0]) := by
  rw [scopedRest2_split]; simp only [scM2_0, owns_whole]; try rfl

/-! ## The pipeline's proof data -/

/-- The proof data of pipeline 2 on core `c`: the arrays as the region finds them; after the body at point `t` each
    input's buffer at its block and the output's at `outsAt2`'s first component; the invariant `PhiS2`; nothing owed;
    full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => (outsAt2 V c t.val t.isLt).1
  Φ t := PhiS2 V c t.val (Nat.le_of_lt_succ t.isLt)
  q _ := fullShare
  owed _ := 0

/-- The proof data's arrays are the region-entry contents. -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = (outsAt2 V c t.val t.isLt).1 := by dsimp only [dat2]

/-- The invariant at a point's start, restated at the point's position. -/
theorem PhiS2_castSucc (c : Dev nD) (t : Fin cfg2.N) :
    (dat2 V c).Φ t.castSucc = PhiS2 V c t.val (Nat.le_of_lt t.isLt) := by
  dsimp only [dat2]; simp only [Fin.coe_castSucc]

/-- Each input's current staging buffer holds its block at every point: both are fetched at every point, and neither
    window is cut, so the fetch fills the whole buffer with the array's block. -/
theorem before2_0 (c : Dev nD) (t : Fin cfg2.N) (d) : (dat2 V c).before 0 t d = iblk2 V c 0 t := by
  unfold Dat.before; rw [fetch2_0 t, if_pos rfl]; unfold Dat.fetched Dat.blockOf iblk2; rw [A_eq2]; rfl
theorem before2_1 (c : Dev nD) (t : Fin cfg2.N) (d) : (dat2 V c).before 1 t d = iblk2 V c 1 t := by
  unfold Dat.before; rw [fetch2_1 t, if_pos rfl]; unfold Dat.fetched Dat.blockOf iblk2; rw [A_eq2]; rfl

/-- The inputs' buffers are handed back at their blocks (the windows are never idle). -/
theorem leaves2_0 (c : Dev nD) (t : Fin cfg2.N) :
    (dat2 V c).leavesExact 0 t = owns (c : Thread nD τ) (ms2_0 t) fullShare (iblk2 V c 0 t) := by
  unfold Dat.leavesExact; rw [liveAt2_0 t, after2_0]
theorem leaves2_1 (c : Dev nD) (t : Fin cfg2.N) :
    (dat2 V c).leavesExact 1 t = owns (c : Thread nD τ) (ms2_1 t) fullShare (iblk2 V c 1 t) := by
  unfold Dat.leavesExact; rw [liveAt2_1 t, after2_1]

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d)))

/-- and what it returns. -/
def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t)

set_option maxHeartbeats 4800000 in
/-- The body at any point. The inputs' memrefs hold their blocks; the position modulo 5 says which case the point is
    in. The invariant hands the body the accumulator (at anything before the first point, else at what the point before
    left) and takes it back at this point's contents (`scratch_step2`). Off the last edge block the output's buffer goes
    back as found; at it, the buffer takes the accumulator (`out_flush2`). The core owes nothing throughout. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).owesAt () t.succ = (dat2 V c).owesAt () t.castSucc from rfl]
  rw [show (dat2 V c).Φ t.succ = PhiS2 V c (t.val + 1) t.isLt from rfl, PhiS2_succ]
  rw [leaves2_0, leaves2_1]
  have hN : t.val < 5 := lt_of_lt_of_eq t.isLt (show cfg2.N = 5 from N_2)
  by_cases h0 : t.val % 5 = 0
  · have h1 : ¬t.val % 5 = 4 := by omega
    rw [Dat.leavesExact_idle (dat2 V c) 2 t (idleAt2_2 _ (fun h => h1 ((hcond2_1 t).mp h))) (noFlush2_2 t h1)]
    rw [scratch_step2 V c t, if_pos h0]
    by_cases hz : t.val = 0
    · rw [PhiS2_castSucc V c t, PhiS2_zero V c _ _ hz, scopedRest2_acc]
      iintro ⟨⟨HS, HR⟩, Ho, ⟨%d0, H0⟩, ⟨%d1, H1⟩, ⟨%d2, H2⟩⟩
      iapply (run2_A c (grid2.coords t) _ _ _ _ _ _ _ _ ((hcond2_0 t).mpr h0) (fun h => h1 ((hcond2_1 t).mp h)) (iblk2 V c 0 t) (iblk2 V c 1 t) _ Set.univ _)
      isplitl [H0]; · iexact H0
      isplitl [H1]; · iexact H1
      isplitl [H2]; · iexact H2
      isplitl [HS]; · iexact HS
      iintro ⟨H0, H1, H2, HS⟩
      isplitl [HS HR]
      · isplitl [HS]; · iexact HS
        iexact HR
      isplitl [Ho]; · iexact Ho
      isplitl [H0]; · iexact H0
      isplitl [H1]; · iexact H1
      iexists _; iexact H2
    · rw [PhiS2_castSucc V c t, PhiS2_pos V c _ _ hz]
      iintro ⟨⟨HS, HR⟩, Ho, ⟨%d0, H0⟩, ⟨%d1, H1⟩, ⟨%d2, H2⟩⟩
      iapply (run2_A c (grid2.coords t) _ _ _ _ _ _ _ _ ((hcond2_0 t).mpr h0) (fun h => h1 ((hcond2_1 t).mp h)) (iblk2 V c 0 t) (iblk2 V c 1 t) _ Set.univ _)
      isplitl [H0]; · iexact H0
      isplitl [H1]; · iexact H1
      isplitl [H2]; · iexact H2
      isplitl [HS]; · iexists _; iexact HS
      iintro ⟨H0, H1, H2, HS⟩
      isplitl [HS HR]
      · isplitl [HS]; · iexact HS
        iexact HR
      isplitl [Ho]; · iexact Ho
      isplitl [H0]; · iexact H0
      isplitl [H1]; · iexact H1
      iexists _; iexact H2
  · have hz : t.val ≠ 0 := fun hz => h0 (by omega)
    rw [PhiS2_castSucc V c t, PhiS2_pos V c _ _ hz]
    by_cases h1 : t.val % 5 = 4
    · rw [show (dat2 V c).leavesExact 2 t = owns (c : Thread nD τ) (ms2_2 t) fullShare ((dat2 V c).after 2 t) from by
        unfold Dat.leavesExact; rw [liveAt2_2 (grid2.coords t) ((hcond2_1 t).mpr h1)], after2_2, out_flush2 V c t h1]
      rw [scratch_step2 V c t, if_neg h0]
      iintro ⟨⟨HS, HR⟩, Ho, ⟨%d0, H0⟩, ⟨%d1, H1⟩, ⟨%d2, H2⟩⟩
      iapply (run2_C c (grid2.coords t) _ _ _ _ _ _ _ _ (fun h => h0 ((hcond2_0 t).mp h)) ((hcond2_1 t).mpr h1) (iblk2 V c 0 t) (iblk2 V c 1 t) _ Set.univ _)
      isplitl [H0]; · iexact H0
      isplitl [H1]; · iexact H1
      isplitl [H2]; · iexists _; iexact H2
      isplitl [HS]; · iexact HS
      iintro ⟨H0, H1, H2, HS⟩
      isplitl [HS HR]
      · isplitl [HS]; · iexact HS
        iexact HR
      isplitl [Ho]; · iexact Ho
      isplitl [H0]; · iexact H0
      isplitl [H1]; · iexact H1
      iexact H2
    · rw [Dat.leavesExact_idle (dat2 V c) 2 t (idleAt2_2 _ (fun h => h1 ((hcond2_1 t).mp h))) (noFlush2_2 t h1)]
      rw [scratch_step2 V c t, if_neg h0]
      iintro ⟨⟨HS, HR⟩, Ho, ⟨%d0, H0⟩, ⟨%d1, H1⟩, ⟨%d2, H2⟩⟩
      iapply (run2_B c (grid2.coords t) _ _ _ _ _ _ _ _ (fun h => h0 ((hcond2_0 t).mp h)) (fun h => h1 ((hcond2_1 t).mp h)) (iblk2 V c 0 t) (iblk2 V c 1 t) _ _ Set.univ _)
      isplitl [H0]; · iexact H0
      isplitl [H1]; · iexact H1
      isplitl [H2]; · iexact H2
      isplitl [HS]; · iexact HS
      iintro ⟨H0, H1, H2, HS⟩
      isplitl [HS HR]
      · isplitl [HS]; · iexact HS
        iexact HR
      isplitl [Ho]; · iexact Ho
      isplitl [H0]; · iexact H0
      isplitl [H1]; · iexact H1
      iexists _; iexact H2

/-- The library's body obligation, at every point. -/
theorem body_obligation2 (c : Dev nD) : BodyObligation (dat2 (F := F) V c) (defs₀ (F := F)) Variants.none () Set.univ := fun t => by
  rw [bigSep_W2, bigSep_W2]
  exact sound_body2 V c t

/-! ## The invariant at the region's two ends -/

/-- The scoped buffers no window stages are the invariant before the first point. -/
theorem Phi2_in (c : Dev nD) : (Pipeline.scopedRest (Ix := Unit) (Name := ℕ) (U := UR sig nD τ) (Lvl := ℕ) (Val := Elt F) spec2 c : sProp 𝕄) ⊢ (dat2 V c).Φ 0 := by
  rw [show (dat2 V c).Φ 0 = PhiS2 V c 0 (Nat.zero_le _) from rfl, PhiS2_zero V c 0 _ rfl]

/-- After the last point the invariant gives them back: the accumulator's named contents are forgotten. -/
theorem Phi2_out (c : Dev nD) : (dat2 V c).Φ (Fin.last cfg2.N) ⊢ (Pipeline.scopedRest (Ix := Unit) (Name := ℕ) (U := UR sig nD τ) (Lvl := ℕ) (Val := Elt F) spec2 c : sProp 𝕄) := by
  rw [show (dat2 V c).Φ (Fin.last cfg2.N) = PhiS2 V c (Fin.last cfg2.N).val (Nat.le_of_lt_succ (Fin.last cfg2.N).isLt) from rfl,
    PhiS2_pos V c _ _ (by rw [Fin.val_last]; have : cfg2.N = 5 := N_2; omega), scopedRest2_acc]
  iintro ⟨HS, HR⟩
  isplitl [HS]; · iexists _; iexact HS
  iexact HR

end Region

end Cert.KernelIdeal.Reg2

end
-- ==== Proof.KI.Reg3Runs.lean ====
/- Region 3 (custom_call 3, `cc3_kernel`, grid ![10, 20]): the segment sum's body in each of its three control
   cases. The body keeps an accumulator (its last operand, a whole scratch buffer of shape 1024x300): at the first edge
   block of a node block (grid coordinate 1 equal to 0) it stores zeros into it; at every point it adds the one-hot
   product of the point's two input blocks to it; at the last edge block (coordinate 1 equal to 19) it copies it to
   the output's staging buffer, which it otherwise does not touch. Each case is a triple whose post names the
   accumulator's new contents as the payload `k3_pay2` of the input blocks and the contents found (zeros after a
   reset). -/
import proofs.«411400_j9251359555630_1_alg».proof.Proof.Gen.KernelIdeal.Launch
import proofs.«411400_j9251359555630_1_alg».proof.Proof.Gen.KernelIdeal.Skeleton
import proofs.«411400_j9251359555630_1_alg».proof.Proof.Gen.KernelIdeal.Points
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.KernelIdeal.Reg3

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The branch conditions, in closed form over the grid -/

/-- The condition of the body's first `scf.if` (the accumulator's reset), from the grid coordinates. -/
abbrev cond3_0 (i : grid3.Coords) : Prop :=
  (Scalar.cmpi .ne (Scalar.extui (Scalar.cmpi .eq (BitVec.ofNat 32 (i 1).val) 0#32)) 0#32) = 1#1
/-- It holds at the points whose position is 0 modulo 20: the first edge block of each node block. -/
theorem hcond3_0 : ∀ t : Fin cfg3.N, cond3_0 (grid3.coords t) ↔ t.val % 20 = 0 :=
  (by decide +kernel : ∀ t : Fin grid3.N, cond3_0 (grid3.coords t) ↔ t.val % 20 = 0)

/-- The condition of the body's second `scf.if` (the copy to the output), from the grid coordinates. -/
abbrev cond3_1 (i : grid3.Coords) : Prop := k3_cond2 i = 1#1
/-- It holds at the points whose position is 19 modulo 20: the last edge block of each node block. -/
theorem hcond3_1 : ∀ t : Fin cfg3.N, cond3_1 (grid3.coords t) ↔ t.val % 20 = 19 :=
  (by decide +kernel : ∀ t : Fin grid3.N, cond3_1 (grid3.coords t) ↔ t.val % 20 = 19)

/-! ## Where the windows are idle -/

/-- The two input windows are never idle. -/
theorem liveAt3_0 (t : Fin cfg3.N) : cfg3.idle 0 (grid3.coords t) = false := rfl
theorem liveAt3_1 (t : Fin cfg3.N) : cfg3.idle 1 (grid3.coords t) = false := rfl
/-- The output window is idle exactly where the second condition fails: the body stores into it only under it. -/
theorem idleAt3_2 (i : grid3.Coords) (h : ¬cond3_1 i) : cfg3.idle 2 i = true := by
  show (!(k3_cond2 i == 1#1)) = true
  cases hb : (k3_cond2 i == 1#1) with
  | false => rfl
  | true => exact absurd (eq_of_beq hb) h
theorem liveAt3_2 (i : grid3.Coords) (h : cond3_1 i) : cfg3.idle 2 i = false := by
  show (!(k3_cond2 i == 1#1)) = false
  rw [show k3_cond2 i = 1#1 from h]; rfl
/-- Off the last edge block the output's block is not written back. -/
theorem noFlush3_2 (t : Fin cfg3.N) (h : ¬t.val % 20 = 19) : (cfg3.win 2).flush t = false :=
  Bool.eq_false_iff.mpr fun hf => h ((flush3_2 t).mp hf)

/-! ## Whole-buffer accesses -/

/-- The offsets of every access of the body: zero on both axes. -/
theorem hz3 : (![0, 0] : Fin 2 → Nat) = fun _ => 0 := funext fun a => by fin_cases a <;> rfl

/-- A store through the whole-shape rectangle at zero offsets, made last, is what the buffer then reads, whatever
    was stored before and whatever the buffer held. -/
theorem read_writes_whole3 {S : Shape} {e : EltTy} {sp : Space} (v : View sig .tc sp S e) (f : v.ty.Contents (Elt F))
    {off : Fin S.rank → Nat} (h : off = fun _ => 0) (inb : ∀ a, off a + S.size a ≤ S.size a)
    (w : S.Idx → Elt F e) (L : List (View.Piece (Elt F) S e)) :
    v.read (Elt F) (v.writes (Elt F) f ((⟨Rect.unit off S.size inb, w⟩ : View.Piece (Elt F) S e) :: L)) = w := by
  refine (View.read_writes_eq_canon v f _ fun y =>
    ⟨⟨Rect.unit off S.size inb, w⟩, List.mem_cons_self, View.mem_set_unit_zero h inb y⟩).trans ?_
  exact View.canon_cons_unit_zero h inb w L

/-! ## The body's triple, case by case -/

set_option maxHeartbeats 1000000 in
/-- CASE A, the first edge block of a node block (first condition true, second false): on whole memrefs, the inputs' at
    contents `x0`, `x1`, the output's at `xo`, the accumulator at anything, the body runs to the continuation holding
    the first three as they were and the accumulator at the payload of the input blocks over zeros. -/
theorem run3_A (c : Dev nD) (i : grid3.Coords)
    (arg2 : Memref sig .tc .vmem S8000x1 .i32) (harg2 : arg2.IsWhole)
    (arg3 : Memref sig .tc .vmem S8000x300 .bf16) (harg3 : arg3.IsWhole)
    (arg4 : Memref sig .tc .vmem S1024x300 .f32) (harg4 : arg4.IsWhole)
    (arg5 : Memref sig .tc .vmem S1024x300 .f32) (harg5 : arg5.IsWhole)
    (hc0 : cond3_0 i) (hc1 : ¬cond3_1 i)
    (x0 : Vec F S8000x1 .i32) (x1 : Vec F S8000x300 .bf16) (xo : Vec F S1024x300 .f32)
    (E : Set ℕ) (K : PUnit → sProp 𝕄) :
    iprop(owns (c : Thread nD τ) arg2 fullShare x0 ∗ owns (c : Thread nD τ) arg3 fullShare x1
        ∗ owns (c : Thread nD τ) arg4 fullShare xo ∗ (∃ d, owns (c : Thread nD τ) arg5 fullShare d)
        ∗ (iprop(owns (c : Thread nD τ) arg2 fullShare x0 ∗ owns (c : Thread nD τ) arg3 fullShare x1
            ∗ owns (c : Thread nD τ) arg4 fullShare xo
            ∗ owns (c : Thread nD τ) arg5 fullShare (k3_pay2 (F := F) i x0 x1 (k3_pay1 (F := F)))) -∗ K ⟨⟩))
      ⊢ wp frame (wpE (defs₀ (F := F)) Variants.none c none) E (cc3_kernel i arg2 harg2 arg3 harg3 arg4 harg4 arg5 harg5) K := by
  simp only [cc3_kernel_eq_skeleton]; unfold cc3_kernel_skel
  unfold owns
  iintro ⟨⟨%f0, %hf0, H0⟩, ⟨%f1, %hf1, H1⟩, ⟨%f2, %hf2, H2⟩, ⟨%ds, %fs, -, HS⟩, Hk⟩
  subst hf0; subst hf1; subst hf2
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact HS
  ipureintro
  sl_unfold_run_names
  rw [read_writes_whole3 _ _ hz3]
  simp only [View.readAt_eq_ld, View.ld_unit_zero (S := S8000x1) hz3, View.ld_unit_zero (S := S8000x300) hz3,
    View.readCov_unit_zero (S := S1024x300) _ hz3]

set_option maxHeartbeats 1000000 in
/-- CASE B, an edge block that is neither the first nor the last (both conditions false): the accumulator, found at
    `xs`, is left at the payload of the input blocks over `xs`; the output's buffer is not touched. -/
theorem run3_B (c : Dev nD) (i : grid3.Coords)
    (arg2 : Memref sig .tc .vmem S8000x1 .i32) (harg2 : arg2.IsWhole)
    (arg3 : Memref sig .tc .vmem S8000x300 .bf16) (harg3 : arg3.IsWhole)
    (arg4 : Memref sig .tc .vmem S1024x300 .f32) (harg4 : arg4.IsWhole)
    (arg5 : Memref sig .tc .vmem S1024x300 .f32) (harg5 : arg5.IsWhole)
    (hc0 : ¬cond3_0 i) (hc1 : ¬cond3_1 i)
    (x0 : Vec F S8000x1 .i32) (x1 : Vec F S8000x300 .bf16) (xo : Vec F S1024x300 .f32) (xs : Vec F S1024x300 .f32)
    (E : Set ℕ) (K : PUnit → sProp 𝕄) :
    iprop(owns (c : Thread nD τ) arg2 fullShare x0 ∗ owns (c : Thread nD τ) arg3 fullShare x1
        ∗ owns (c : Thread nD τ) arg4 fullShare xo ∗ owns (c : Thread nD τ) arg5 fullShare xs
        ∗ (iprop(owns (c : Thread nD τ) arg2 fullShare x0 ∗ owns (c : Thread nD τ) arg3 fullShare x1
            ∗ owns (c : Thread nD τ) arg4 fullShare xo
            ∗ owns (c : Thread nD τ) arg5 fullShare (k3_pay2 (F := F) i x0 x1 xs)) -∗ K ⟨⟩))
      ⊢ wp frame (wpE (defs₀ (F := F)) Variants.none c none) E (cc3_kernel i arg2 harg2 arg3 harg3 arg4 harg4 arg5 harg5) K := by
  simp only [cc3_kernel_eq_skeleton]; unfold cc3_kernel_skel
  unfold owns
  iintro ⟨⟨%f0, %hf0, H0⟩, ⟨%f1, %hf1, H1⟩, ⟨%f2, %hf2, H2⟩, ⟨%fs, %hfs, HS⟩, Hk⟩
  subst hf0; subst hf1; subst hf2; subst hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact HS
  ipureintro
  sl_unfold_run_names
  rw [read_writes_whole3 _ _ hz3]
  simp only [View.readAt_eq_ld, View.ld_unit_zero (S := S8000x1) hz3, View.ld_unit_zero (S := S8000x300) hz3,
    View.ld_unit_zero (S := S1024x300) hz3]

set_option maxHeartbeats 1000000 in
/-- CASE C, the last edge block of a node block (first condition false, second true): the accumulator, found at `xs`,
    is left at the payload of the input blocks over `xs`, and the output's buffer, found at anything, takes the same. -/
theorem run3_C (c : Dev nD) (i : grid3.Coords)
    (arg2 : Memref sig .tc .vmem S8000x1 .i32) (harg2 : arg2.IsWhole)
    (arg3 : Memref sig .tc .vmem S8000x300 .bf16) (harg3 : arg3.IsWhole)
    (arg4 : Memref sig .tc .vmem S1024x300 .f32) (harg4 : arg4.IsWhole)
    (arg5 : Memref sig .tc .vmem S1024x300 .f32) (harg5 : arg5.IsWhole)
    (hc0 : ¬cond3_0 i) (hc1 : cond3_1 i)
    (x0 : Vec F S8000x1 .i32) (x1 : Vec F S8000x300 .bf16) (xs : Vec F S1024x300 .f32)
    (E : Set ℕ) (K : PUnit → sProp 𝕄) :
    iprop(owns (c : Thread nD τ) arg2 fullShare x0 ∗ owns (c : Thread nD τ) arg3 fullShare x1
        ∗ (∃ d, owns (c : Thread nD τ) arg4 fullShare d) ∗ owns (c : Thread nD τ) arg5 fullShare xs
        ∗ (iprop(owns (c : Thread nD τ) arg2 fullShare x0 ∗ owns (c : Thread nD τ) arg3 fullShare x1
            ∗ owns (c : Thread nD τ) arg4 fullShare (k3_pay2 (F := F) i x0 x1 xs)
            ∗ owns (c : Thread nD τ) arg5 fullShare (k3_pay2 (F := F) i x0 x1 xs)) -∗ K ⟨⟩))
      ⊢ wp frame (wpE (defs₀ (F := F)) Variants.none c none) E (cc3_kernel i arg2 harg2 arg3 harg3 arg4 harg4 arg5 harg5) K := by
  simp only [cc3_kernel_eq_skeleton]; unfold cc3_kernel_skel
  unfold owns
  iintro ⟨⟨%f0, %hf0, H0⟩, ⟨%f1, %hf1, H1⟩, ⟨%d2, %f2, -, H2⟩, ⟨%fs, %hfs, HS⟩, Hk⟩
  subst hf0; subst hf1; subst hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    sl_unfold_run_names
    rw [read_writes_whole3 _ _ hz3]
    simp only [View.readAt_eq_ld, View.ld_unit_zero (S := S8000x1) hz3, View.ld_unit_zero (S := S8000x300) hz3,
      View.ld_unit_zero (S := S1024x300) hz3, View.readCov_unit_zero (S := S1024x300) _ hz3]
  iexists _; isplitr
  swap; · iexact HS
  ipureintro
  sl_unfold_run_names
  rw [read_writes_whole3 _ _ hz3]
  simp only [View.readAt_eq_ld, View.ld_unit_zero (S := S8000x1) hz3, View.ld_unit_zero (S := S8000x300) hz3,
    View.ld_unit_zero (S := S1024x300) hz3]

end Cert.KernelIdeal.Reg3

end
-- ==== Proof.KI.Reg3.lean ====
/- Region 3 (custom_call 3, `cc3_kernel`, grid ![10, 20]) at the buffer contents `V` the region is entered with: the
   windows' blocks, what the accumulator and the output's staging buffer hold after each grid point, the pipeline's proof
   data, and the body obligation. The accumulator is the kernel's own scratch buffer (shape 1024x300): the invariant
   hands it to the body out of the scoped buffers no window stages, at anything before the first point and afterwards at
   what the point before left in it. -/
import proofs.«411400_j9251359555630_1_alg».proof.Proof.KI.Reg3Runs

set_option maxRecDepth 16384

noncomputable section

namespace Cert.KernelIdeal.Reg3

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region
-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-! ## The memrefs the body is called with -/

/-- Each window's current staging memref at point `t`, as the pipeline passes it, and its wholeness. -/
abbrev ms3_0 (t : Fin cfg3.N) : Memref sig .tc .vmem S8000x1 .i32 := win3_0.stage (cfg3.slots t 0)
abbrev hs3_0 (t : Fin cfg3.N) : (ms3_0 t).IsWhole := hstage3_0 ((cfg3.slots t 0).cast nbuf3_0)
abbrev ms3_1 (t : Fin cfg3.N) : Memref sig .tc .vmem S8000x300 .bf16 := win3_1.stage (cfg3.slots t 1)
abbrev hs3_1 (t : Fin cfg3.N) : (ms3_1 t).IsWhole := hstage3_1 ((cfg3.slots t 1).cast nbuf3_1)
abbrev ms3_2 (t : Fin cfg3.N) : Memref sig .tc .vmem S1024x300 .f32 := win3_2.stage (cfg3.slots t 2)
abbrev hs3_2 (t : Fin cfg3.N) : (ms3_2 t).IsWhole := hstage3_2 ((cfg3.slots t 2).cast nbuf3_2)
/-- The accumulator: a whole scoped buffer of the kernel's own, passed beside the windows. -/
abbrev scM3_0 : Memref sig .tc .vmem S1024x300 .f32 := Memref.whole cc3_scratch0

/-! ## What the accumulator and the output hold after each point -/

/-- (output staging buffer, accumulator) after the body at position `n`. The accumulator is the payload `k3_pay2` of the
    point's two input blocks over zeros (`k3_pay1`) where `n % 20 = 0` and over what the point before left elsewhere.
    The output's buffer takes the accumulator where `n % 20 = 19`; elsewhere the body leaves it as found (the component
    there repeats the previous one, and at position 0 the accumulator: a placeholder nothing reads). -/
def outsAt3 (c : Dev nD) : (n : ℕ) → n < cfg3.N → Vec F S1024x300 .f32 × Vec F S1024x300 .f32
  | 0, hn =>
    (k3_pay2 (F := F) (grid3.coords ⟨0, hn⟩) (iblk3 V c 0 ⟨0, hn⟩) (iblk3 V c 1 ⟨0, hn⟩) (k3_pay1 (F := F)),
     k3_pay2 (F := F) (grid3.coords ⟨0, hn⟩) (iblk3 V c 0 ⟨0, hn⟩) (iblk3 V c 1 ⟨0, hn⟩) (k3_pay1 (F := F)))
  | n + 1, hn =>
    (if (n + 1) % 20 = 19 then
        k3_pay2 (F := F) (grid3.coords ⟨n + 1, hn⟩) (iblk3 V c 0 ⟨n + 1, hn⟩) (iblk3 V c 1 ⟨n + 1, hn⟩)
          (if (n + 1) % 20 = 0 then k3_pay1 (F := F) else (outsAt3 c n (Nat.lt_of_succ_lt hn)).2)
      else (outsAt3 c n (Nat.lt_of_succ_lt hn)).1,
     k3_pay2 (F := F) (grid3.coords ⟨n + 1, hn⟩) (iblk3 V c 0 ⟨n + 1, hn⟩) (iblk3 V c 1 ⟨n + 1, hn⟩)
       (if (n + 1) % 20 = 0 then k3_pay1 (F := F) else (outsAt3 c n (Nat.lt_of_succ_lt hn)).2))

/-- The accumulator's step: the payload of the point's blocks over zeros at the first edge block of a node block, over
    the previous accumulator elsewhere. -/
theorem scratch_step3 (c : Dev nD) (t : Fin cfg3.N) :
    (outsAt3 V c t.val t.isLt).2 = k3_pay2 (F := F) (grid3.coords t) (iblk3 V c 0 t) (iblk3 V c 1 t)
      (if t.val % 20 = 0 then k3_pay1 (F := F) else (outsAt3 V c (t.val - 1) (Nat.lt_of_le_of_lt (Nat.sub_le _ _) t.isLt)).2) := by
  obtain ⟨n, hn⟩ := t
  cases n with
  | zero => exact congrArg (k3_pay2 (F := F) (grid3.coords ⟨0, hn⟩) (iblk3 V c 0 ⟨0, hn⟩) (iblk3 V c 1 ⟨0, hn⟩)) (if_pos (Nat.zero_mod 20)).symm
  | succ n => rfl

/-- At the last edge block of a node block the output's buffer is the accumulator. -/
theorem out_flush3 (c : Dev nD) (t : Fin cfg3.N) (h : t.val % 20 = 19) :
    (outsAt3 V c t.val t.isLt).1 = (outsAt3 V c t.val t.isLt).2 := by
  obtain ⟨n, hn⟩ := t
  cases n with
  | zero => rfl
  | succ n => exact if_pos h

/-! ## The invariant -/

/-- The region invariant before position `n`: before the first point the scoped buffers no window stages, each at
    anything (the accumulator among them); afterwards the accumulator at what the point before left in it, beside the
    others, unopened. -/
def PhiS3 (c : Dev nD) : (n : ℕ) → n ≤ cfg3.N → sProp 𝕄
  | 0, _ => Pipeline.scopedRest (Ix := Unit) (Name := ℕ) (U := UR sig nD τ) (Lvl := ℕ) (Val := Elt F) spec3 c
  | n + 1, hn => iprop(owns (c : Thread nD τ) scM3_0 fullShare ((outsAt3 V c n hn).2) ∗ Pipeline.scopedRestBut (Ix := Unit) (Name := ℕ) (U := UR sig nD τ) (Lvl := ℕ) (Val := Elt F) spec3 c [cc3_scratch0])

theorem PhiS3_zero (c : Dev nD) (n : ℕ) (h : n ≤ cfg3.N) (hz : n = 0) : PhiS3 V c n h = Pipeline.scopedRest (Ix := Unit) (Name := ℕ) (U := UR sig nD τ) (Lvl := ℕ) (Val := Elt F) spec3 c := by
  subst hz; rfl

theorem PhiS3_succ (c : Dev nD) (n : ℕ) (hn : n < cfg3.N) :
    PhiS3 V c (n + 1) hn = iprop(owns (c : Thread nD τ) scM3_0 fullShare ((outsAt3 V c n hn).2) ∗ Pipeline.scopedRestBut (Ix := Unit) (Name := ℕ) (U := UR sig nD τ) (Lvl := ℕ) (Val := Elt F) spec3 c [cc3_scratch0]) := rfl

theorem PhiS3_pos (c : Dev nD) (n : ℕ) (h : n ≤ cfg3.N) (hz : n ≠ 0) :
    PhiS3 V c n h = iprop(owns (c : Thread nD τ) scM3_0 fullShare ((outsAt3 V c (n - 1) (by omega)).2) ∗ Pipeline.scopedRestBut (Ix := Unit) (Name := ℕ) (U := UR sig nD τ) (Lvl := ℕ) (Val := Elt F) spec3 c [cc3_scratch0]) := by
  cases n with
  | zero => exact absurd rfl hz
  | succ n => rfl

/-- The scoped buffers no window stages, with the accumulator taken out as a memref owned at some contents. -/
theorem scopedRest3_acc (c : Dev nD) :
    (Pipeline.scopedRest (Ix := Unit) (Name := ℕ) (U := UR sig nD τ) (Lvl := ℕ) (Val := Elt F) spec3 c : sProp 𝕄)
      = iprop(iprop(∃ d, owns (c : Thread nD τ) scM3_0 fullShare d) ∗ Pipeline.scopedRestBut (Ix := Unit) (Name := ℕ) (U := UR sig nD τ) (Lvl := ℕ) (Val := Elt F) spec3 c [cc3_scratch0]) := by
  rw [scopedRest3_split]; simp only [scM3_0, owns_whole]; try rfl

/-! ## The pipeline's proof data -/

/-- The proof data of pipeline 3 on core `c`: the arrays as the region finds them; after the body at point `t` each
    input's buffer at its block and the output's at `outsAt3`'s first component; the invariant `PhiS3`; nothing owed;
    full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => (outsAt3 V c t.val t.isLt).1
  Φ t := PhiS3 V c t.val (Nat.le_of_lt_succ t.isLt)
  q _ := fullShare
  owed _ := 0

/-- The proof data's arrays are the region-entry contents. -/
theorem A_eq3 (c : Dev nD) (w : Fin cfg3.W) : (dat3 V c).A w = V c (Pipeline.arrRef spec3 w) := by
  dsimp only [dat3]

/-- What the body leaves, window by window. -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = (outsAt3 V c t.val t.isLt).1 := by dsimp only [dat3]

/-- The invariant at a point's start, restated at the point's position. -/
theorem PhiS3_castSucc (c : Dev nD) (t : Fin cfg3.N) :
    (dat3 V c).Φ t.castSucc = PhiS3 V c t.val (Nat.le_of_lt t.isLt) := by
  dsimp only [dat3]; simp only [Fin.coe_castSucc]

/-- Each input's current staging buffer holds its block at every point: both are fetched at every point, and neither
    window is cut, so the fetch fills the whole buffer with the array's block. -/
theorem before3_0 (c : Dev nD) (t : Fin cfg3.N) (d) : (dat3 V c).before 0 t d = iblk3 V c 0 t := by
  unfold Dat.before; rw [fetch3_0 t, if_pos rfl]; unfold Dat.fetched Dat.blockOf iblk3; rw [A_eq3]; rfl
theorem before3_1 (c : Dev nD) (t : Fin cfg3.N) (d) : (dat3 V c).before 1 t d = iblk3 V c 1 t := by
  unfold Dat.before; rw [fetch3_1 t, if_pos rfl]; unfold Dat.fetched Dat.blockOf iblk3; rw [A_eq3]; rfl

/-- The inputs' buffers are handed back at their blocks (the windows are never idle). -/
theorem leaves3_0 (c : Dev nD) (t : Fin cfg3.N) :
    (dat3 V c).leavesExact 0 t = owns (c : Thread nD τ) (ms3_0 t) fullShare (iblk3 V c 0 t) := by
  unfold Dat.leavesExact; rw [liveAt3_0 t, after3_0]
theorem leaves3_1 (c : Dev nD) (t : Fin cfg3.N) :
    (dat3 V c).leavesExact 1 t = owns (c : Thread nD τ) (ms3_1 t) fullShare (iblk3 V c 1 t) := by
  unfold Dat.leavesExact; rw [liveAt3_1 t, after3_1]

/-! ## The body obligation, at a generic point -/

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (ms3_0 t) fullShare ((dat3 V c).before 0 t d))
    ∗ (∃ d, owns (c : Thread nD τ) (ms3_1 t) fullShare ((dat3 V c).before 1 t d))
    ∗ (∃ d, owns (c : Thread nD τ) (ms3_2 t) fullShare ((dat3 V c).before 2 t d)))

/-- and what it returns. -/
def bodyPost3 (c : Dev nD) (t : Fin cfg3.N) : sProp 𝕄 :=
  iprop((dat3 V c).Φ t.succ ∗ (dat3 V c).owesAt () t.succ
    ∗ (dat3 V c).leavesExact 0 t
    ∗ (dat3 V c).leavesExact 1 t
    ∗ (dat3 V c).leavesExact 2 t)

set_option maxHeartbeats 4800000 in
/-- The body at any point. The inputs' memrefs hold their blocks; the position modulo 20 says which case the point is
    in. The invariant hands the body the accumulator (at anything before the first point, else at what the point before
    left) and takes it back at this point's contents (`scratch_step3`). Off the last edge block the output's buffer goes
    back as found; at it, the buffer takes the accumulator (`out_flush3`). The core owes nothing throughout. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1]
  rw [show (dat3 V c).owesAt () t.succ = (dat3 V c).owesAt () t.castSucc from rfl]
  rw [show (dat3 V c).Φ t.succ = PhiS3 V c (t.val + 1) t.isLt from rfl, PhiS3_succ]
  rw [leaves3_0, leaves3_1]
  have hN : t.val < 200 := lt_of_lt_of_eq t.isLt (show cfg3.N = 200 from N_3)
  by_cases h0 : t.val % 20 = 0
  · have h1 : ¬t.val % 20 = 19 := by omega
    rw [Dat.leavesExact_idle (dat3 V c) 2 t (idleAt3_2 _ (fun h => h1 ((hcond3_1 t).mp h))) (noFlush3_2 t h1)]
    rw [scratch_step3 V c t, if_pos h0]
    by_cases hz : t.val = 0
    · rw [PhiS3_castSucc V c t, PhiS3_zero V c _ _ hz, scopedRest3_acc]
      iintro ⟨⟨HS, HR⟩, Ho, ⟨%d0, H0⟩, ⟨%d1, H1⟩, ⟨%d2, H2⟩⟩
      iapply (run3_A c (grid3.coords t) _ _ _ _ _ _ _ _ ((hcond3_0 t).mpr h0) (fun h => h1 ((hcond3_1 t).mp h)) (iblk3 V c 0 t) (iblk3 V c 1 t) _ Set.univ _)
      isplitl [H0]; · iexact H0
      isplitl [H1]; · iexact H1
      isplitl [H2]; · iexact H2
      isplitl [HS]; · iexact HS
      iintro ⟨H0, H1, H2, HS⟩
      isplitl [HS HR]
      · isplitl [HS]; · iexact HS
        iexact HR
      isplitl [Ho]; · iexact Ho
      isplitl [H0]; · iexact H0
      isplitl [H1]; · iexact H1
      iexists _; iexact H2
    · rw [PhiS3_castSucc V c t, PhiS3_pos V c _ _ hz]
      iintro ⟨⟨HS, HR⟩, Ho, ⟨%d0, H0⟩, ⟨%d1, H1⟩, ⟨%d2, H2⟩⟩
      iapply (run3_A c (grid3.coords t) _ _ _ _ _ _ _ _ ((hcond3_0 t).mpr h0) (fun h => h1 ((hcond3_1 t).mp h)) (iblk3 V c 0 t) (iblk3 V c 1 t) _ Set.univ _)
      isplitl [H0]; · iexact H0
      isplitl [H1]; · iexact H1
      isplitl [H2]; · iexact H2
      isplitl [HS]; · iexists _; iexact HS
      iintro ⟨H0, H1, H2, HS⟩
      isplitl [HS HR]
      · isplitl [HS]; · iexact HS
        iexact HR
      isplitl [Ho]; · iexact Ho
      isplitl [H0]; · iexact H0
      isplitl [H1]; · iexact H1
      iexists _; iexact H2
  · have hz : t.val ≠ 0 := fun hz => h0 (by omega)
    rw [PhiS3_castSucc V c t, PhiS3_pos V c _ _ hz]
    by_cases h1 : t.val % 20 = 19
    · rw [show (dat3 V c).leavesExact 2 t = owns (c : Thread nD τ) (ms3_2 t) fullShare ((dat3 V c).after 2 t) from by
        unfold Dat.leavesExact; rw [liveAt3_2 (grid3.coords t) ((hcond3_1 t).mpr h1)], after3_2, out_flush3 V c t h1]
      rw [scratch_step3 V c t, if_neg h0]
      iintro ⟨⟨HS, HR⟩, Ho, ⟨%d0, H0⟩, ⟨%d1, H1⟩, ⟨%d2, H2⟩⟩
      iapply (run3_C c (grid3.coords t) _ _ _ _ _ _ _ _ (fun h => h0 ((hcond3_0 t).mp h)) ((hcond3_1 t).mpr h1) (iblk3 V c 0 t) (iblk3 V c 1 t) _ Set.univ _)
      isplitl [H0]; · iexact H0
      isplitl [H1]; · iexact H1
      isplitl [H2]; · iexists _; iexact H2
      isplitl [HS]; · iexact HS
      iintro ⟨H0, H1, H2, HS⟩
      isplitl [HS HR]
      · isplitl [HS]; · iexact HS
        iexact HR
      isplitl [Ho]; · iexact Ho
      isplitl [H0]; · iexact H0
      isplitl [H1]; · iexact H1
      iexact H2
    · rw [Dat.leavesExact_idle (dat3 V c) 2 t (idleAt3_2 _ (fun h => h1 ((hcond3_1 t).mp h))) (noFlush3_2 t h1)]
      rw [scratch_step3 V c t, if_neg h0]
      iintro ⟨⟨HS, HR⟩, Ho, ⟨%d0, H0⟩, ⟨%d1, H1⟩, ⟨%d2, H2⟩⟩
      iapply (run3_B c (grid3.coords t) _ _ _ _ _ _ _ _ (fun h => h0 ((hcond3_0 t).mp h)) (fun h => h1 ((hcond3_1 t).mp h)) (iblk3 V c 0 t) (iblk3 V c 1 t) _ _ Set.univ _)
      isplitl [H0]; · iexact H0
      isplitl [H1]; · iexact H1
      isplitl [H2]; · iexact H2
      isplitl [HS]; · iexact HS
      iintro ⟨H0, H1, H2, HS⟩
      isplitl [HS HR]
      · isplitl [HS]; · iexact HS
        iexact HR
      isplitl [Ho]; · iexact Ho
      isplitl [H0]; · iexact H0
      isplitl [H1]; · iexact H1
      iexists _; iexact H2

/-- The library's body obligation, at every point. -/
theorem body_obligation3 (c : Dev nD) : BodyObligation (dat3 (F := F) V c) (defs₀ (F := F)) Variants.none () Set.univ := fun t => by
  rw [bigSep_W3, bigSep_W3]
  exact sound_body3 V c t

/-! ## The invariant at the region's two ends -/

/-- The scoped buffers no window stages are the invariant before the first point. -/
theorem Phi3_in (c : Dev nD) : (Pipeline.scopedRest (Ix := Unit) (Name := ℕ) (U := UR sig nD τ) (Lvl := ℕ) (Val := Elt F) spec3 c : sProp 𝕄) ⊢ (dat3 V c).Φ 0 := by
  rw [show (dat3 V c).Φ 0 = PhiS3 V c 0 (Nat.zero_le _) from rfl, PhiS3_zero V c 0 _ rfl]

/-- After the last point the invariant gives them back: the accumulator's named contents are forgotten. -/
theorem Phi3_out (c : Dev nD) : (dat3 V c).Φ (Fin.last cfg3.N) ⊢ (Pipeline.scopedRest (Ix := Unit) (Name := ℕ) (U := UR sig nD τ) (Lvl := ℕ) (Val := Elt F) spec3 c : sProp 𝕄) := by
  rw [show (dat3 V c).Φ (Fin.last cfg3.N) = PhiS3 V c (Fin.last cfg3.N).val (Nat.le_of_lt_succ (Fin.last cfg3.N).isLt) from rfl,
    PhiS3_pos V c _ _ (by rw [Fin.val_last]; have : cfg3.N = 200 := N_3; omega), scopedRest3_acc]
  iintro ⟨HS, HR⟩
  isplitl [HS]; · iexists _; iexact HS
  iexact HR

end Region

end Cert.KernelIdeal.Reg3

end
-- ==== Proof.KI.Reg4Runs.lean ====
/- Region 4 (custom_call 4, `cc4_kernel`, grid ![1, 5]): the segment sum's body in each of its three control
   cases. The body keeps an accumulator (its last operand, a whole scratch buffer of shape 1024x300): at the first edge
   block of a node block (grid coordinate 1 equal to 0) it stores zeros into it; at every point it adds the one-hot
   product of the point's two input blocks to it; at the last edge block (coordinate 1 equal to 4) it copies it to
   the output's staging buffer, which it otherwise does not touch. Each case is a triple whose post names the
   accumulator's new contents as the payload `k4_pay2` of the input blocks and the contents found (zeros after a
   reset). -/
import proofs.«411400_j9251359555630_1_alg».proof.Proof.Gen.KernelIdeal.Launch
import proofs.«411400_j9251359555630_1_alg».proof.Proof.Gen.KernelIdeal.Skeleton
import proofs.«411400_j9251359555630_1_alg».proof.Proof.Gen.KernelIdeal.Points
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.KernelIdeal.Reg4

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The branch conditions, in closed form over the grid -/

/-- The condition of the body's first `scf.if` (the accumulator's reset), from the grid coordinates. -/
abbrev cond4_0 (i : grid4.Coords) : Prop :=
  (Scalar.cmpi .ne (Scalar.extui (Scalar.cmpi .eq (BitVec.ofNat 32 (i 1).val) 0#32)) 0#32) = 1#1
/-- It holds at the points whose position is 0 modulo 5: the first edge block of each node block. -/
theorem hcond4_0 : ∀ t : Fin cfg4.N, cond4_0 (grid4.coords t) ↔ t.val % 5 = 0 :=
  (by decide +kernel : ∀ t : Fin grid4.N, cond4_0 (grid4.coords t) ↔ t.val % 5 = 0)

/-- The condition of the body's second `scf.if` (the copy to the output), from the grid coordinates. -/
abbrev cond4_1 (i : grid4.Coords) : Prop := k4_cond2 i = 1#1
/-- It holds at the points whose position is 4 modulo 5: the last edge block of each node block. -/
theorem hcond4_1 : ∀ t : Fin cfg4.N, cond4_1 (grid4.coords t) ↔ t.val % 5 = 4 :=
  (by decide +kernel : ∀ t : Fin grid4.N, cond4_1 (grid4.coords t) ↔ t.val % 5 = 4)

/-! ## Where the windows are idle -/

/-- The two input windows are never idle. -/
theorem liveAt4_0 (t : Fin cfg4.N) : cfg4.idle 0 (grid4.coords t) = false := rfl
theorem liveAt4_1 (t : Fin cfg4.N) : cfg4.idle 1 (grid4.coords t) = false := rfl
/-- The output window is idle exactly where the second condition fails: the body stores into it only under it. -/
theorem idleAt4_2 (i : grid4.Coords) (h : ¬cond4_1 i) : cfg4.idle 2 i = true := by
  show (!(k4_cond2 i == 1#1)) = true
  cases hb : (k4_cond2 i == 1#1) with
  | false => rfl
  | true => exact absurd (eq_of_beq hb) h
theorem liveAt4_2 (i : grid4.Coords) (h : cond4_1 i) : cfg4.idle 2 i = false := by
  show (!(k4_cond2 i == 1#1)) = false
  rw [show k4_cond2 i = 1#1 from h]; rfl
/-- Off the last edge block the output's block is not written back. -/
theorem noFlush4_2 (t : Fin cfg4.N) (h : ¬t.val % 5 = 4) : (cfg4.win 2).flush t = false :=
  Bool.eq_false_iff.mpr fun hf => h ((flush4_2 t).mp hf)

/-! ## Whole-buffer accesses -/

/-- The offsets of every access of the body: zero on both axes. -/
theorem hz4 : (![0, 0] : Fin 2 → Nat) = fun _ => 0 := funext fun a => by fin_cases a <;> rfl

/-- A store through the whole-shape rectangle at zero offsets, made last, is what the buffer then reads, whatever
    was stored before and whatever the buffer held. -/
theorem read_writes_whole4 {S : Shape} {e : EltTy} {sp : Space} (v : View sig .tc sp S e) (f : v.ty.Contents (Elt F))
    {off : Fin S.rank → Nat} (h : off = fun _ => 0) (inb : ∀ a, off a + S.size a ≤ S.size a)
    (w : S.Idx → Elt F e) (L : List (View.Piece (Elt F) S e)) :
    v.read (Elt F) (v.writes (Elt F) f ((⟨Rect.unit off S.size inb, w⟩ : View.Piece (Elt F) S e) :: L)) = w := by
  refine (View.read_writes_eq_canon v f _ fun y =>
    ⟨⟨Rect.unit off S.size inb, w⟩, List.mem_cons_self, View.mem_set_unit_zero h inb y⟩).trans ?_
  exact View.canon_cons_unit_zero h inb w L

/-! ## The body's triple, case by case -/

set_option maxHeartbeats 1000000 in
/-- CASE A, the first edge block of a node block (first condition true, second false): on whole memrefs, the inputs' at
    contents `x0`, `x1`, the output's at `xo`, the accumulator at anything, the body runs to the continuation holding
    the first three as they were and the accumulator at the payload of the input blocks over zeros. -/
theorem run4_A (c : Dev nD) (i : grid4.Coords)
    (arg2 : Memref sig .tc .vmem S2000x1 .i32) (harg2 : arg2.IsWhole)
    (arg3 : Memref sig .tc .vmem S2000x300 .bf16) (harg3 : arg3.IsWhole)
    (arg4 : Memref sig .tc .vmem S64x300 .f32) (harg4 : arg4.IsWhole)
    (arg5 : Memref sig .tc .vmem S64x300 .f32) (harg5 : arg5.IsWhole)
    (hc0 : cond4_0 i) (hc1 : ¬cond4_1 i)
    (x0 : Vec F S2000x1 .i32) (x1 : Vec F S2000x300 .bf16) (xo : Vec F S64x300 .f32)
    (E : Set ℕ) (K : PUnit → sProp 𝕄) :
    iprop(owns (c : Thread nD τ) arg2 fullShare x0 ∗ owns (c : Thread nD τ) arg3 fullShare x1
        ∗ owns (c : Thread nD τ) arg4 fullShare xo ∗ (∃ d, owns (c : Thread nD τ) arg5 fullShare d)
        ∗ (iprop(owns (c : Thread nD τ) arg2 fullShare x0 ∗ owns (c : Thread nD τ) arg3 fullShare x1
            ∗ owns (c : Thread nD τ) arg4 fullShare xo
            ∗ owns (c : Thread nD τ) arg5 fullShare (k4_pay2 (F := F) i x0 x1 (k4_pay1 (F := F)))) -∗ K ⟨⟩))
      ⊢ wp frame (wpE (defs₀ (F := F)) Variants.none c none) E (cc4_kernel i arg2 harg2 arg3 harg3 arg4 harg4 arg5 harg5) K := by
  simp only [cc4_kernel_eq_skeleton]; unfold cc4_kernel_skel
  unfold owns
  iintro ⟨⟨%f0, %hf0, H0⟩, ⟨%f1, %hf1, H1⟩, ⟨%f2, %hf2, H2⟩, ⟨%ds, %fs, -, HS⟩, Hk⟩
  subst hf0; subst hf1; subst hf2
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact HS
  ipureintro
  sl_unfold_run_names
  rw [read_writes_whole4 _ _ hz4]
  simp only [View.readAt_eq_ld, View.ld_unit_zero (S := S2000x1) hz4, View.ld_unit_zero (S := S2000x300) hz4,
    View.readCov_unit_zero (S := S64x300) _ hz4]

set_option maxHeartbeats 1000000 in
/-- CASE B, an edge block that is neither the first nor the last (both conditions false): the accumulator, found at
    `xs`, is left at the payload of the input blocks over `xs`; the output's buffer is not touched. -/
theorem run4_B (c : Dev nD) (i : grid4.Coords)
    (arg2 : Memref sig .tc .vmem S2000x1 .i32) (harg2 : arg2.IsWhole)
    (arg3 : Memref sig .tc .vmem S2000x300 .bf16) (harg3 : arg3.IsWhole)
    (arg4 : Memref sig .tc .vmem S64x300 .f32) (harg4 : arg4.IsWhole)
    (arg5 : Memref sig .tc .vmem S64x300 .f32) (harg5 : arg5.IsWhole)
    (hc0 : ¬cond4_0 i) (hc1 : ¬cond4_1 i)
    (x0 : Vec F S2000x1 .i32) (x1 : Vec F S2000x300 .bf16) (xo : Vec F S64x300 .f32) (xs : Vec F S64x300 .f32)
    (E : Set ℕ) (K : PUnit → sProp 𝕄) :
    iprop(owns (c : Thread nD τ) arg2 fullShare x0 ∗ owns (c : Thread nD τ) arg3 fullShare x1
        ∗ owns (c : Thread nD τ) arg4 fullShare xo ∗ owns (c : Thread nD τ) arg5 fullShare xs
        ∗ (iprop(owns (c : Thread nD τ) arg2 fullShare x0 ∗ owns (c : Thread nD τ) arg3 fullShare x1
            ∗ owns (c : Thread nD τ) arg4 fullShare xo
            ∗ owns (c : Thread nD τ) arg5 fullShare (k4_pay2 (F := F) i x0 x1 xs)) -∗ K ⟨⟩))
      ⊢ wp frame (wpE (defs₀ (F := F)) Variants.none c none) E (cc4_kernel i arg2 harg2 arg3 harg3 arg4 harg4 arg5 harg5) K := by
  simp only [cc4_kernel_eq_skeleton]; unfold cc4_kernel_skel
  unfold owns
  iintro ⟨⟨%f0, %hf0, H0⟩, ⟨%f1, %hf1, H1⟩, ⟨%f2, %hf2, H2⟩, ⟨%fs, %hfs, HS⟩, Hk⟩
  subst hf0; subst hf1; subst hf2; subst hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact HS
  ipureintro
  sl_unfold_run_names
  rw [read_writes_whole4 _ _ hz4]
  simp only [View.readAt_eq_ld, View.ld_unit_zero (S := S2000x1) hz4, View.ld_unit_zero (S := S2000x300) hz4,
    View.ld_unit_zero (S := S64x300) hz4]

set_option maxHeartbeats 1000000 in
/-- CASE C, the last edge block of a node block (first condition false, second true): the accumulator, found at `xs`,
    is left at the payload of the input blocks over `xs`, and the output's buffer, found at anything, takes the same. -/
theorem run4_C (c : Dev nD) (i : grid4.Coords)
    (arg2 : Memref sig .tc .vmem S2000x1 .i32) (harg2 : arg2.IsWhole)
    (arg3 : Memref sig .tc .vmem S2000x300 .bf16) (harg3 : arg3.IsWhole)
    (arg4 : Memref sig .tc .vmem S64x300 .f32) (harg4 : arg4.IsWhole)
    (arg5 : Memref sig .tc .vmem S64x300 .f32) (harg5 : arg5.IsWhole)
    (hc0 : ¬cond4_0 i) (hc1 : cond4_1 i)
    (x0 : Vec F S2000x1 .i32) (x1 : Vec F S2000x300 .bf16) (xs : Vec F S64x300 .f32)
    (E : Set ℕ) (K : PUnit → sProp 𝕄) :
    iprop(owns (c : Thread nD τ) arg2 fullShare x0 ∗ owns (c : Thread nD τ) arg3 fullShare x1
        ∗ (∃ d, owns (c : Thread nD τ) arg4 fullShare d) ∗ owns (c : Thread nD τ) arg5 fullShare xs
        ∗ (iprop(owns (c : Thread nD τ) arg2 fullShare x0 ∗ owns (c : Thread nD τ) arg3 fullShare x1
            ∗ owns (c : Thread nD τ) arg4 fullShare (k4_pay2 (F := F) i x0 x1 xs)
            ∗ owns (c : Thread nD τ) arg5 fullShare (k4_pay2 (F := F) i x0 x1 xs)) -∗ K ⟨⟩))
      ⊢ wp frame (wpE (defs₀ (F := F)) Variants.none c none) E (cc4_kernel i arg2 harg2 arg3 harg3 arg4 harg4 arg5 harg5) K := by
  simp only [cc4_kernel_eq_skeleton]; unfold cc4_kernel_skel
  unfold owns
  iintro ⟨⟨%f0, %hf0, H0⟩, ⟨%f1, %hf1, H1⟩, ⟨%d2, %f2, -, H2⟩, ⟨%fs, %hfs, HS⟩, Hk⟩
  subst hf0; subst hf1; subst hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    sl_unfold_run_names
    rw [read_writes_whole4 _ _ hz4]
    simp only [View.readAt_eq_ld, View.ld_unit_zero (S := S2000x1) hz4, View.ld_unit_zero (S := S2000x300) hz4,
      View.ld_unit_zero (S := S64x300) hz4, View.readCov_unit_zero (S := S64x300) _ hz4]
  iexists _; isplitr
  swap; · iexact HS
  ipureintro
  sl_unfold_run_names
  rw [read_writes_whole4 _ _ hz4]
  simp only [View.readAt_eq_ld, View.ld_unit_zero (S := S2000x1) hz4, View.ld_unit_zero (S := S2000x300) hz4,
    View.ld_unit_zero (S := S64x300) hz4]

end Cert.KernelIdeal.Reg4

end
-- ==== Proof.KI.Reg4.lean ====
/- Region 4 (custom_call 4, `cc4_kernel`, grid ![1, 5]) at the buffer contents `V` the region is entered with: the
   windows' blocks, what the accumulator and the output's staging buffer hold after each grid point, the pipeline's proof
   data, and the body obligation. The accumulator is the kernel's own scratch buffer (shape 1024x300): the invariant
   hands it to the body out of the scoped buffers no window stages, at anything before the first point and afterwards at
   what the point before left in it. -/
import proofs.«411400_j9251359555630_1_alg».proof.Proof.KI.Reg4Runs

set_option maxRecDepth 16384

noncomputable section

namespace Cert.KernelIdeal.Reg4

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region
-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-! ## The memrefs the body is called with -/

/-- Each window's current staging memref at point `t`, as the pipeline passes it, and its wholeness. -/
abbrev ms4_0 (t : Fin cfg4.N) : Memref sig .tc .vmem S2000x1 .i32 := win4_0.stage (cfg4.slots t 0)
abbrev hs4_0 (t : Fin cfg4.N) : (ms4_0 t).IsWhole := hstage4_0 ((cfg4.slots t 0).cast nbuf4_0)
abbrev ms4_1 (t : Fin cfg4.N) : Memref sig .tc .vmem S2000x300 .bf16 := win4_1.stage (cfg4.slots t 1)
abbrev hs4_1 (t : Fin cfg4.N) : (ms4_1 t).IsWhole := hstage4_1 ((cfg4.slots t 1).cast nbuf4_1)
abbrev ms4_2 (t : Fin cfg4.N) : Memref sig .tc .vmem S64x300 .f32 := win4_2.stage (cfg4.slots t 2)
abbrev hs4_2 (t : Fin cfg4.N) : (ms4_2 t).IsWhole := hstage4_2 ((cfg4.slots t 2).cast nbuf4_2)
/-- The accumulator: a whole scoped buffer of the kernel's own, passed beside the windows. -/
abbrev scM4_0 : Memref sig .tc .vmem S64x300 .f32 := Memref.whole cc4_scratch0

/-! ## What the accumulator and the output hold after each point -/

/-- (output staging buffer, accumulator) after the body at position `n`. The accumulator is the payload `k4_pay2` of the
    point's two input blocks over zeros (`k4_pay1`) where `n % 5 = 0` and over what the point before left elsewhere.
    The output's buffer takes the accumulator where `n % 5 = 4`; elsewhere the body leaves it as found (the component
    there repeats the previous one, and at position 0 the accumulator: a placeholder nothing reads). -/
def outsAt4 (c : Dev nD) : (n : ℕ) → n < cfg4.N → Vec F S64x300 .f32 × Vec F S64x300 .f32
  | 0, hn =>
    (k4_pay2 (F := F) (grid4.coords ⟨0, hn⟩) (iblk4 V c 0 ⟨0, hn⟩) (iblk4 V c 1 ⟨0, hn⟩) (k4_pay1 (F := F)),
     k4_pay2 (F := F) (grid4.coords ⟨0, hn⟩) (iblk4 V c 0 ⟨0, hn⟩) (iblk4 V c 1 ⟨0, hn⟩) (k4_pay1 (F := F)))
  | n + 1, hn =>
    (if (n + 1) % 5 = 4 then
        k4_pay2 (F := F) (grid4.coords ⟨n + 1, hn⟩) (iblk4 V c 0 ⟨n + 1, hn⟩) (iblk4 V c 1 ⟨n + 1, hn⟩)
          (if (n + 1) % 5 = 0 then k4_pay1 (F := F) else (outsAt4 c n (Nat.lt_of_succ_lt hn)).2)
      else (outsAt4 c n (Nat.lt_of_succ_lt hn)).1,
     k4_pay2 (F := F) (grid4.coords ⟨n + 1, hn⟩) (iblk4 V c 0 ⟨n + 1, hn⟩) (iblk4 V c 1 ⟨n + 1, hn⟩)
       (if (n + 1) % 5 = 0 then k4_pay1 (F := F) else (outsAt4 c n (Nat.lt_of_succ_lt hn)).2))

/-- The accumulator's step: the payload of the point's blocks over zeros at the first edge block of a node block, over
    the previous accumulator elsewhere. -/
theorem scratch_step4 (c : Dev nD) (t : Fin cfg4.N) :
    (outsAt4 V c t.val t.isLt).2 = k4_pay2 (F := F) (grid4.coords t) (iblk4 V c 0 t) (iblk4 V c 1 t)
      (if t.val % 5 = 0 then k4_pay1 (F := F) else (outsAt4 V c (t.val - 1) (Nat.lt_of_le_of_lt (Nat.sub_le _ _) t.isLt)).2) := by
  obtain ⟨n, hn⟩ := t
  cases n with
  | zero => exact congrArg (k4_pay2 (F := F) (grid4.coords ⟨0, hn⟩) (iblk4 V c 0 ⟨0, hn⟩) (iblk4 V c 1 ⟨0, hn⟩)) (if_pos (Nat.zero_mod 5)).symm
  | succ n => rfl

/-- At the last edge block of a node block the output's buffer is the accumulator. -/
theorem out_flush4 (c : Dev nD) (t : Fin cfg4.N) (h : t.val % 5 = 4) :
    (outsAt4 V c t.val t.isLt).1 = (outsAt4 V c t.val t.isLt).2 := by
  obtain ⟨n, hn⟩ := t
  cases n with
  | zero => rfl
  | succ n => exact if_pos h

/-! ## The invariant -/

/-- The region invariant before position `n`: before the first point the scoped buffers no window stages, each at
    anything (the accumulator among them); afterwards the accumulator at what the point before left in it, beside the
    others, unopened. -/
def PhiS4 (c : Dev nD) : (n : ℕ) → n ≤ cfg4.N → sProp 𝕄
  | 0, _ => Pipeline.scopedRest (Ix := Unit) (Name := ℕ) (U := UR sig nD τ) (Lvl := ℕ) (Val := Elt F) spec4 c
  | n + 1, hn => iprop(owns (c : Thread nD τ) scM4_0 fullShare ((outsAt4 V c n hn).2) ∗ Pipeline.scopedRestBut (Ix := Unit) (Name := ℕ) (U := UR sig nD τ) (Lvl := ℕ) (Val := Elt F) spec4 c [cc4_scratch0])

theorem PhiS4_zero (c : Dev nD) (n : ℕ) (h : n ≤ cfg4.N) (hz : n = 0) : PhiS4 V c n h = Pipeline.scopedRest (Ix := Unit) (Name := ℕ) (U := UR sig nD τ) (Lvl := ℕ) (Val := Elt F) spec4 c := by
  subst hz; rfl

theorem PhiS4_succ (c : Dev nD) (n : ℕ) (hn : n < cfg4.N) :
    PhiS4 V c (n + 1) hn = iprop(owns (c : Thread nD τ) scM4_0 fullShare ((outsAt4 V c n hn).2) ∗ Pipeline.scopedRestBut (Ix := Unit) (Name := ℕ) (U := UR sig nD τ) (Lvl := ℕ) (Val := Elt F) spec4 c [cc4_scratch0]) := rfl

theorem PhiS4_pos (c : Dev nD) (n : ℕ) (h : n ≤ cfg4.N) (hz : n ≠ 0) :
    PhiS4 V c n h = iprop(owns (c : Thread nD τ) scM4_0 fullShare ((outsAt4 V c (n - 1) (by omega)).2) ∗ Pipeline.scopedRestBut (Ix := Unit) (Name := ℕ) (U := UR sig nD τ) (Lvl := ℕ) (Val := Elt F) spec4 c [cc4_scratch0]) := by
  cases n with
  | zero => exact absurd rfl hz
  | succ n => rfl

/-- The scoped buffers no window stages, with the accumulator taken out as a memref owned at some contents. -/
theorem scopedRest4_acc (c : Dev nD) :
    (Pipeline.scopedRest (Ix := Unit) (Name := ℕ) (U := UR sig nD τ) (Lvl := ℕ) (Val := Elt F) spec4 c : sProp 𝕄)
      = iprop(iprop(∃ d, owns (c : Thread nD τ) scM4_0 fullShare d) ∗ Pipeline.scopedRestBut (Ix := Unit) (Name := ℕ) (U := UR sig nD τ) (Lvl := ℕ) (Val := Elt F) spec4 c [cc4_scratch0]) := by
  rw [scopedRest4_split]; simp only [scM4_0, owns_whole]; try rfl

/-! ## The pipeline's proof data -/

/-- The proof data of pipeline 4 on core `c`: the arrays as the region finds them; after the body at point `t` each
    input's buffer at its block and the output's at `outsAt4`'s first component; the invariant `PhiS4`; nothing owed;
    full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => (outsAt4 V c t.val t.isLt).1
  Φ t := PhiS4 V c t.val (Nat.le_of_lt_succ t.isLt)
  q _ := fullShare
  owed _ := 0

/-- The proof data's arrays are the region-entry contents. -/
theorem A_eq4 (c : Dev nD) (w : Fin cfg4.W) : (dat4 V c).A w = V c (Pipeline.arrRef spec4 w) := by
  dsimp only [dat4]

/-- What the body leaves, window by window. -/
theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = (outsAt4 V c t.val t.isLt).1 := by dsimp only [dat4]

/-- The invariant at a point's start, restated at the point's position. -/
theorem PhiS4_castSucc (c : Dev nD) (t : Fin cfg4.N) :
    (dat4 V c).Φ t.castSucc = PhiS4 V c t.val (Nat.le_of_lt t.isLt) := by
  dsimp only [dat4]; simp only [Fin.coe_castSucc]

/-- Each input's current staging buffer holds its block at every point: both are fetched at every point, and neither
    window is cut, so the fetch fills the whole buffer with the array's block. -/
theorem before4_0 (c : Dev nD) (t : Fin cfg4.N) (d) : (dat4 V c).before 0 t d = iblk4 V c 0 t := by
  unfold Dat.before; rw [fetch4_0 t, if_pos rfl]; unfold Dat.fetched Dat.blockOf iblk4; rw [A_eq4]; rfl
theorem before4_1 (c : Dev nD) (t : Fin cfg4.N) (d) : (dat4 V c).before 1 t d = iblk4 V c 1 t := by
  unfold Dat.before; rw [fetch4_1 t, if_pos rfl]; unfold Dat.fetched Dat.blockOf iblk4; rw [A_eq4]; rfl

/-- The inputs' buffers are handed back at their blocks (the windows are never idle). -/
theorem leaves4_0 (c : Dev nD) (t : Fin cfg4.N) :
    (dat4 V c).leavesExact 0 t = owns (c : Thread nD τ) (ms4_0 t) fullShare (iblk4 V c 0 t) := by
  unfold Dat.leavesExact; rw [liveAt4_0 t, after4_0]
theorem leaves4_1 (c : Dev nD) (t : Fin cfg4.N) :
    (dat4 V c).leavesExact 1 t = owns (c : Thread nD τ) (ms4_1 t) fullShare (iblk4 V c 1 t) := by
  unfold Dat.leavesExact; rw [liveAt4_1 t, after4_1]

/-! ## The body obligation, at a generic point -/

/-- What the body is called with at point `t`, the windows one by one, -/
def bodyPre4 (c : Dev nD) (t : Fin cfg4.N) : sProp 𝕄 :=
  iprop((dat4 V c).Φ t.castSucc ∗ (dat4 V c).owesAt () t.castSucc
    ∗ (∃ d, owns (c : Thread nD τ) (ms4_0 t) fullShare ((dat4 V c).before 0 t d))
    ∗ (∃ d, owns (c : Thread nD τ) (ms4_1 t) fullShare ((dat4 V c).before 1 t d))
    ∗ (∃ d, owns (c : Thread nD τ) (ms4_2 t) fullShare ((dat4 V c).before 2 t d)))

/-- and what it returns. -/
def bodyPost4 (c : Dev nD) (t : Fin cfg4.N) : sProp 𝕄 :=
  iprop((dat4 V c).Φ t.succ ∗ (dat4 V c).owesAt () t.succ
    ∗ (dat4 V c).leavesExact 0 t
    ∗ (dat4 V c).leavesExact 1 t
    ∗ (dat4 V c).leavesExact 2 t)

set_option maxHeartbeats 4800000 in
/-- The body at any point. The inputs' memrefs hold their blocks; the position modulo 5 says which case the point is
    in. The invariant hands the body the accumulator (at anything before the first point, else at what the point before
    left) and takes it back at this point's contents (`scratch_step4`). Off the last edge block the output's buffer goes
    back as found; at it, the buffer takes the accumulator (`out_flush4`). The core owes nothing throughout. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1]
  rw [show (dat4 V c).owesAt () t.succ = (dat4 V c).owesAt () t.castSucc from rfl]
  rw [show (dat4 V c).Φ t.succ = PhiS4 V c (t.val + 1) t.isLt from rfl, PhiS4_succ]
  rw [leaves4_0, leaves4_1]
  have hN : t.val < 5 := lt_of_lt_of_eq t.isLt (show cfg4.N = 5 from N_4)
  by_cases h0 : t.val % 5 = 0
  · have h1 : ¬t.val % 5 = 4 := by omega
    rw [Dat.leavesExact_idle (dat4 V c) 2 t (idleAt4_2 _ (fun h => h1 ((hcond4_1 t).mp h))) (noFlush4_2 t h1)]
    rw [scratch_step4 V c t, if_pos h0]
    by_cases hz : t.val = 0
    · rw [PhiS4_castSucc V c t, PhiS4_zero V c _ _ hz, scopedRest4_acc]
      iintro ⟨⟨HS, HR⟩, Ho, ⟨%d0, H0⟩, ⟨%d1, H1⟩, ⟨%d2, H2⟩⟩
      iapply (run4_A c (grid4.coords t) _ _ _ _ _ _ _ _ ((hcond4_0 t).mpr h0) (fun h => h1 ((hcond4_1 t).mp h)) (iblk4 V c 0 t) (iblk4 V c 1 t) _ Set.univ _)
      isplitl [H0]; · iexact H0
      isplitl [H1]; · iexact H1
      isplitl [H2]; · iexact H2
      isplitl [HS]; · iexact HS
      iintro ⟨H0, H1, H2, HS⟩
      isplitl [HS HR]
      · isplitl [HS]; · iexact HS
        iexact HR
      isplitl [Ho]; · iexact Ho
      isplitl [H0]; · iexact H0
      isplitl [H1]; · iexact H1
      iexists _; iexact H2
    · rw [PhiS4_castSucc V c t, PhiS4_pos V c _ _ hz]
      iintro ⟨⟨HS, HR⟩, Ho, ⟨%d0, H0⟩, ⟨%d1, H1⟩, ⟨%d2, H2⟩⟩
      iapply (run4_A c (grid4.coords t) _ _ _ _ _ _ _ _ ((hcond4_0 t).mpr h0) (fun h => h1 ((hcond4_1 t).mp h)) (iblk4 V c 0 t) (iblk4 V c 1 t) _ Set.univ _)
      isplitl [H0]; · iexact H0
      isplitl [H1]; · iexact H1
      isplitl [H2]; · iexact H2
      isplitl [HS]; · iexists _; iexact HS
      iintro ⟨H0, H1, H2, HS⟩
      isplitl [HS HR]
      · isplitl [HS]; · iexact HS
        iexact HR
      isplitl [Ho]; · iexact Ho
      isplitl [H0]; · iexact H0
      isplitl [H1]; · iexact H1
      iexists _; iexact H2
  · have hz : t.val ≠ 0 := fun hz => h0 (by omega)
    rw [PhiS4_castSucc V c t, PhiS4_pos V c _ _ hz]
    by_cases h1 : t.val % 5 = 4
    · rw [show (dat4 V c).leavesExact 2 t = owns (c : Thread nD τ) (ms4_2 t) fullShare ((dat4 V c).after 2 t) from by
        unfold Dat.leavesExact; rw [liveAt4_2 (grid4.coords t) ((hcond4_1 t).mpr h1)], after4_2, out_flush4 V c t h1]
      rw [scratch_step4 V c t, if_neg h0]
      iintro ⟨⟨HS, HR⟩, Ho, ⟨%d0, H0⟩, ⟨%d1, H1⟩, ⟨%d2, H2⟩⟩
      iapply (run4_C c (grid4.coords t) _ _ _ _ _ _ _ _ (fun h => h0 ((hcond4_0 t).mp h)) ((hcond4_1 t).mpr h1) (iblk4 V c 0 t) (iblk4 V c 1 t) _ Set.univ _)
      isplitl [H0]; · iexact H0
      isplitl [H1]; · iexact H1
      isplitl [H2]; · iexists _; iexact H2
      isplitl [HS]; · iexact HS
      iintro ⟨H0, H1, H2, HS⟩
      isplitl [HS HR]
      · isplitl [HS]; · iexact HS
        iexact HR
      isplitl [Ho]; · iexact Ho
      isplitl [H0]; · iexact H0
      isplitl [H1]; · iexact H1
      iexact H2
    · rw [Dat.leavesExact_idle (dat4 V c) 2 t (idleAt4_2 _ (fun h => h1 ((hcond4_1 t).mp h))) (noFlush4_2 t h1)]
      rw [scratch_step4 V c t, if_neg h0]
      iintro ⟨⟨HS, HR⟩, Ho, ⟨%d0, H0⟩, ⟨%d1, H1⟩, ⟨%d2, H2⟩⟩
      iapply (run4_B c (grid4.coords t) _ _ _ _ _ _ _ _ (fun h => h0 ((hcond4_0 t).mp h)) (fun h => h1 ((hcond4_1 t).mp h)) (iblk4 V c 0 t) (iblk4 V c 1 t) _ _ Set.univ _)
      isplitl [H0]; · iexact H0
      isplitl [H1]; · iexact H1
      isplitl [H2]; · iexact H2
      isplitl [HS]; · iexact HS
      iintro ⟨H0, H1, H2, HS⟩
      isplitl [HS HR]
      · isplitl [HS]; · iexact HS
        iexact HR
      isplitl [Ho]; · iexact Ho
      isplitl [H0]; · iexact H0
      isplitl [H1]; · iexact H1
      iexists _; iexact H2

/-- The library's body obligation, at every point. -/
theorem body_obligation4 (c : Dev nD) : BodyObligation (dat4 (F := F) V c) (defs₀ (F := F)) Variants.none () Set.univ := fun t => by
  rw [bigSep_W4, bigSep_W4]
  exact sound_body4 V c t

/-! ## The invariant at the region's two ends -/

/-- The scoped buffers no window stages are the invariant before the first point. -/
theorem Phi4_in (c : Dev nD) : (Pipeline.scopedRest (Ix := Unit) (Name := ℕ) (U := UR sig nD τ) (Lvl := ℕ) (Val := Elt F) spec4 c : sProp 𝕄) ⊢ (dat4 V c).Φ 0 := by
  rw [show (dat4 V c).Φ 0 = PhiS4 V c 0 (Nat.zero_le _) from rfl, PhiS4_zero V c 0 _ rfl]

/-- After the last point the invariant gives them back: the accumulator's named contents are forgotten. -/
theorem Phi4_out (c : Dev nD) : (dat4 V c).Φ (Fin.last cfg4.N) ⊢ (Pipeline.scopedRest (Ix := Unit) (Name := ℕ) (U := UR sig nD τ) (Lvl := ℕ) (Val := Elt F) spec4 c : sProp 𝕄) := by
  rw [show (dat4 V c).Φ (Fin.last cfg4.N) = PhiS4 V c (Fin.last cfg4.N).val (Nat.le_of_lt_succ (Fin.last cfg4.N).isLt) from rfl,
    PhiS4_pos V c _ _ (by rw [Fin.val_last]; have : cfg4.N = 5 := N_4; omega), scopedRest4_acc]
  iintro ⟨HS, HR⟩
  isplitl [HS]; · iexists _; iexact HS
  iexact HR

end Region

end Cert.KernelIdeal.Reg4

end
-- ==== Proof.KI.Reg5Runs.lean ====
/- Region 5 (custom_call 5, `cc5_kernel`, grid ![10, 20]): the segment sum's body in each of its three control
   cases. The body keeps an accumulator (its last operand, a whole scratch buffer of shape 1024x300): at the first edge
   block of a node block (grid coordinate 1 equal to 0) it stores zeros into it; at every point it adds the one-hot
   product of the point's two input blocks to it; at the last edge block (coordinate 1 equal to 19) it copies it to
   the output's staging buffer, which it otherwise does not touch. Each case is a triple whose post names the
   accumulator's new contents as the payload `k5_pay2` of the input blocks and the contents found (zeros after a
   reset). -/
import proofs.«411400_j9251359555630_1_alg».proof.Proof.Gen.KernelIdeal.Launch
import proofs.«411400_j9251359555630_1_alg».proof.Proof.Gen.KernelIdeal.Skeleton
import proofs.«411400_j9251359555630_1_alg».proof.Proof.Gen.KernelIdeal.Points
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.KernelIdeal.Reg5

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The branch conditions, in closed form over the grid -/

/-- The condition of the body's first `scf.if` (the accumulator's reset), from the grid coordinates. -/
abbrev cond5_0 (i : grid5.Coords) : Prop :=
  (Scalar.cmpi .ne (Scalar.extui (Scalar.cmpi .eq (BitVec.ofNat 32 (i 1).val) 0#32)) 0#32) = 1#1
/-- It holds at the points whose position is 0 modulo 20: the first edge block of each node block. -/
theorem hcond5_0 : ∀ t : Fin cfg5.N, cond5_0 (grid5.coords t) ↔ t.val % 20 = 0 :=
  (by decide +kernel : ∀ t : Fin grid5.N, cond5_0 (grid5.coords t) ↔ t.val % 20 = 0)

/-- The condition of the body's second `scf.if` (the copy to the output), from the grid coordinates. -/
abbrev cond5_1 (i : grid5.Coords) : Prop := k5_cond2 i = 1#1
/-- It holds at the points whose position is 19 modulo 20: the last edge block of each node block. -/
theorem hcond5_1 : ∀ t : Fin cfg5.N, cond5_1 (grid5.coords t) ↔ t.val % 20 = 19 :=
  (by decide +kernel : ∀ t : Fin grid5.N, cond5_1 (grid5.coords t) ↔ t.val % 20 = 19)

/-! ## Where the windows are idle -/

/-- The two input windows are never idle. -/
theorem liveAt5_0 (t : Fin cfg5.N) : cfg5.idle 0 (grid5.coords t) = false := rfl
theorem liveAt5_1 (t : Fin cfg5.N) : cfg5.idle 1 (grid5.coords t) = false := rfl
/-- The output window is idle exactly where the second condition fails: the body stores into it only under it. -/
theorem idleAt5_2 (i : grid5.Coords) (h : ¬cond5_1 i) : cfg5.idle 2 i = true := by
  show (!(k5_cond2 i == 1#1)) = true
  cases hb : (k5_cond2 i == 1#1) with
  | false => rfl
  | true => exact absurd (eq_of_beq hb) h
theorem liveAt5_2 (i : grid5.Coords) (h : cond5_1 i) : cfg5.idle 2 i = false := by
  show (!(k5_cond2 i == 1#1)) = false
  rw [show k5_cond2 i = 1#1 from h]; rfl
/-- Off the last edge block the output's block is not written back. -/
theorem noFlush5_2 (t : Fin cfg5.N) (h : ¬t.val % 20 = 19) : (cfg5.win 2).flush t = false :=
  Bool.eq_false_iff.mpr fun hf => h ((flush5_2 t).mp hf)

/-! ## Whole-buffer accesses -/

/-- The offsets of every access of the body: zero on both axes. -/
theorem hz5 : (![0, 0] : Fin 2 → Nat) = fun _ => 0 := funext fun a => by fin_cases a <;> rfl

/-- A store through the whole-shape rectangle at zero offsets, made last, is what the buffer then reads, whatever
    was stored before and whatever the buffer held. -/
theorem read_writes_whole5 {S : Shape} {e : EltTy} {sp : Space} (v : View sig .tc sp S e) (f : v.ty.Contents (Elt F))
    {off : Fin S.rank → Nat} (h : off = fun _ => 0) (inb : ∀ a, off a + S.size a ≤ S.size a)
    (w : S.Idx → Elt F e) (L : List (View.Piece (Elt F) S e)) :
    v.read (Elt F) (v.writes (Elt F) f ((⟨Rect.unit off S.size inb, w⟩ : View.Piece (Elt F) S e) :: L)) = w := by
  refine (View.read_writes_eq_canon v f _ fun y =>
    ⟨⟨Rect.unit off S.size inb, w⟩, List.mem_cons_self, View.mem_set_unit_zero h inb y⟩).trans ?_
  exact View.canon_cons_unit_zero h inb w L

/-! ## The body's triple, case by case -/

set_option maxHeartbeats 1000000 in
/-- CASE A, the first edge block of a node block (first condition true, second false): on whole memrefs, the inputs' at
    contents `x0`, `x1`, the output's at `xo`, the accumulator at anything, the body runs to the continuation holding
    the first three as they were and the accumulator at the payload of the input blocks over zeros. -/
theorem run5_A (c : Dev nD) (i : grid5.Coords)
    (arg2 : Memref sig .tc .vmem S8000x1 .i32) (harg2 : arg2.IsWhole)
    (arg3 : Memref sig .tc .vmem S8000x300 .bf16) (harg3 : arg3.IsWhole)
    (arg4 : Memref sig .tc .vmem S1024x300 .f32) (harg4 : arg4.IsWhole)
    (arg5 : Memref sig .tc .vmem S1024x300 .f32) (harg5 : arg5.IsWhole)
    (hc0 : cond5_0 i) (hc1 : ¬cond5_1 i)
    (x0 : Vec F S8000x1 .i32) (x1 : Vec F S8000x300 .bf16) (xo : Vec F S1024x300 .f32)
    (E : Set ℕ) (K : PUnit → sProp 𝕄) :
    iprop(owns (c : Thread nD τ) arg2 fullShare x0 ∗ owns (c : Thread nD τ) arg3 fullShare x1
        ∗ owns (c : Thread nD τ) arg4 fullShare xo ∗ (∃ d, owns (c : Thread nD τ) arg5 fullShare d)
        ∗ (iprop(owns (c : Thread nD τ) arg2 fullShare x0 ∗ owns (c : Thread nD τ) arg3 fullShare x1
            ∗ owns (c : Thread nD τ) arg4 fullShare xo
            ∗ owns (c : Thread nD τ) arg5 fullShare (k5_pay2 (F := F) i x0 x1 (k5_pay1 (F := F)))) -∗ K ⟨⟩))
      ⊢ wp frame (wpE (defs₀ (F := F)) Variants.none c none) E (cc5_kernel i arg2 harg2 arg3 harg3 arg4 harg4 arg5 harg5) K := by
  simp only [cc5_kernel_eq_skeleton]; unfold cc5_kernel_skel
  unfold owns
  iintro ⟨⟨%f0, %hf0, H0⟩, ⟨%f1, %hf1, H1⟩, ⟨%f2, %hf2, H2⟩, ⟨%ds, %fs, -, HS⟩, Hk⟩
  subst hf0; subst hf1; subst hf2
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact HS
  ipureintro
  sl_unfold_run_names
  rw [read_writes_whole5 _ _ hz5]
  simp only [View.readAt_eq_ld, View.ld_unit_zero (S := S8000x1) hz5, View.ld_unit_zero (S := S8000x300) hz5,
    View.readCov_unit_zero (S := S1024x300) _ hz5]

set_option maxHeartbeats 1000000 in
/-- CASE B, an edge block that is neither the first nor the last (both conditions false): the accumulator, found at
    `xs`, is left at the payload of the input blocks over `xs`; the output's buffer is not touched. -/
theorem run5_B (c : Dev nD) (i : grid5.Coords)
    (arg2 : Memref sig .tc .vmem S8000x1 .i32) (harg2 : arg2.IsWhole)
    (arg3 : Memref sig .tc .vmem S8000x300 .bf16) (harg3 : arg3.IsWhole)
    (arg4 : Memref sig .tc .vmem S1024x300 .f32) (harg4 : arg4.IsWhole)
    (arg5 : Memref sig .tc .vmem S1024x300 .f32) (harg5 : arg5.IsWhole)
    (hc0 : ¬cond5_0 i) (hc1 : ¬cond5_1 i)
    (x0 : Vec F S8000x1 .i32) (x1 : Vec F S8000x300 .bf16) (xo : Vec F S1024x300 .f32) (xs : Vec F S1024x300 .f32)
    (E : Set ℕ) (K : PUnit → sProp 𝕄) :
    iprop(owns (c : Thread nD τ) arg2 fullShare x0 ∗ owns (c : Thread nD τ) arg3 fullShare x1
        ∗ owns (c : Thread nD τ) arg4 fullShare xo ∗ owns (c : Thread nD τ) arg5 fullShare xs
        ∗ (iprop(owns (c : Thread nD τ) arg2 fullShare x0 ∗ owns (c : Thread nD τ) arg3 fullShare x1
            ∗ owns (c : Thread nD τ) arg4 fullShare xo
            ∗ owns (c : Thread nD τ) arg5 fullShare (k5_pay2 (F := F) i x0 x1 xs)) -∗ K ⟨⟩))
      ⊢ wp frame (wpE (defs₀ (F := F)) Variants.none c none) E (cc5_kernel i arg2 harg2 arg3 harg3 arg4 harg4 arg5 harg5) K := by
  simp only [cc5_kernel_eq_skeleton]; unfold cc5_kernel_skel
  unfold owns
  iintro ⟨⟨%f0, %hf0, H0⟩, ⟨%f1, %hf1, H1⟩, ⟨%f2, %hf2, H2⟩, ⟨%fs, %hfs, HS⟩, Hk⟩
  subst hf0; subst hf1; subst hf2; subst hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact HS
  ipureintro
  sl_unfold_run_names
  rw [read_writes_whole5 _ _ hz5]
  simp only [View.readAt_eq_ld, View.ld_unit_zero (S := S8000x1) hz5, View.ld_unit_zero (S := S8000x300) hz5,
    View.ld_unit_zero (S := S1024x300) hz5]

set_option maxHeartbeats 1000000 in
/-- CASE C, the last edge block of a node block (first condition false, second true): the accumulator, found at `xs`,
    is left at the payload of the input blocks over `xs`, and the output's buffer, found at anything, takes the same. -/
theorem run5_C (c : Dev nD) (i : grid5.Coords)
    (arg2 : Memref sig .tc .vmem S8000x1 .i32) (harg2 : arg2.IsWhole)
    (arg3 : Memref sig .tc .vmem S8000x300 .bf16) (harg3 : arg3.IsWhole)
    (arg4 : Memref sig .tc .vmem S1024x300 .f32) (harg4 : arg4.IsWhole)
    (arg5 : Memref sig .tc .vmem S1024x300 .f32) (harg5 : arg5.IsWhole)
    (hc0 : ¬cond5_0 i) (hc1 : cond5_1 i)
    (x0 : Vec F S8000x1 .i32) (x1 : Vec F S8000x300 .bf16) (xs : Vec F S1024x300 .f32)
    (E : Set ℕ) (K : PUnit → sProp 𝕄) :
    iprop(owns (c : Thread nD τ) arg2 fullShare x0 ∗ owns (c : Thread nD τ) arg3 fullShare x1
        ∗ (∃ d, owns (c : Thread nD τ) arg4 fullShare d) ∗ owns (c : Thread nD τ) arg5 fullShare xs
        ∗ (iprop(owns (c : Thread nD τ) arg2 fullShare x0 ∗ owns (c : Thread nD τ) arg3 fullShare x1
            ∗ owns (c : Thread nD τ) arg4 fullShare (k5_pay2 (F := F) i x0 x1 xs)
            ∗ owns (c : Thread nD τ) arg5 fullShare (k5_pay2 (F := F) i x0 x1 xs)) -∗ K ⟨⟩))
      ⊢ wp frame (wpE (defs₀ (F := F)) Variants.none c none) E (cc5_kernel i arg2 harg2 arg3 harg3 arg4 harg4 arg5 harg5) K := by
  simp only [cc5_kernel_eq_skeleton]; unfold cc5_kernel_skel
  unfold owns
  iintro ⟨⟨%f0, %hf0, H0⟩, ⟨%f1, %hf1, H1⟩, ⟨%d2, %f2, -, H2⟩, ⟨%fs, %hfs, HS⟩, Hk⟩
  subst hf0; subst hf1; subst hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    sl_unfold_run_names
    rw [read_writes_whole5 _ _ hz5]
    simp only [View.readAt_eq_ld, View.ld_unit_zero (S := S8000x1) hz5, View.ld_unit_zero (S := S8000x300) hz5,
      View.ld_unit_zero (S := S1024x300) hz5, View.readCov_unit_zero (S := S1024x300) _ hz5]
  iexists _; isplitr
  swap; · iexact HS
  ipureintro
  sl_unfold_run_names
  rw [read_writes_whole5 _ _ hz5]
  simp only [View.readAt_eq_ld, View.ld_unit_zero (S := S8000x1) hz5, View.ld_unit_zero (S := S8000x300) hz5,
    View.ld_unit_zero (S := S1024x300) hz5]

end Cert.KernelIdeal.Reg5

end
-- ==== Proof.KI.Reg5.lean ====
/- Region 5 (custom_call 5, `cc5_kernel`, grid ![10, 20]) at the buffer contents `V` the region is entered with: the
   windows' blocks, what the accumulator and the output's staging buffer hold after each grid point, the pipeline's proof
   data, and the body obligation. The accumulator is the kernel's own scratch buffer (shape 1024x300): the invariant
   hands it to the body out of the scoped buffers no window stages, at anything before the first point and afterwards at
   what the point before left in it. -/
import proofs.«411400_j9251359555630_1_alg».proof.Proof.KI.Reg5Runs

set_option maxRecDepth 16384

noncomputable section

namespace Cert.KernelIdeal.Reg5

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region
-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-! ## The memrefs the body is called with -/

/-- Each window's current staging memref at point `t`, as the pipeline passes it, and its wholeness. -/
abbrev ms5_0 (t : Fin cfg5.N) : Memref sig .tc .vmem S8000x1 .i32 := win5_0.stage (cfg5.slots t 0)
abbrev hs5_0 (t : Fin cfg5.N) : (ms5_0 t).IsWhole := hstage5_0 ((cfg5.slots t 0).cast nbuf5_0)
abbrev ms5_1 (t : Fin cfg5.N) : Memref sig .tc .vmem S8000x300 .bf16 := win5_1.stage (cfg5.slots t 1)
abbrev hs5_1 (t : Fin cfg5.N) : (ms5_1 t).IsWhole := hstage5_1 ((cfg5.slots t 1).cast nbuf5_1)
abbrev ms5_2 (t : Fin cfg5.N) : Memref sig .tc .vmem S1024x300 .f32 := win5_2.stage (cfg5.slots t 2)
abbrev hs5_2 (t : Fin cfg5.N) : (ms5_2 t).IsWhole := hstage5_2 ((cfg5.slots t 2).cast nbuf5_2)
/-- The accumulator: a whole scoped buffer of the kernel's own, passed beside the windows. -/
abbrev scM5_0 : Memref sig .tc .vmem S1024x300 .f32 := Memref.whole cc5_scratch0

/-! ## What the accumulator and the output hold after each point -/

/-- (output staging buffer, accumulator) after the body at position `n`. The accumulator is the payload `k5_pay2` of the
    point's two input blocks over zeros (`k5_pay1`) where `n % 20 = 0` and over what the point before left elsewhere.
    The output's buffer takes the accumulator where `n % 20 = 19`; elsewhere the body leaves it as found (the component
    there repeats the previous one, and at position 0 the accumulator: a placeholder nothing reads). -/
def outsAt5 (c : Dev nD) : (n : ℕ) → n < cfg5.N → Vec F S1024x300 .f32 × Vec F S1024x300 .f32
  | 0, hn =>
    (k5_pay2 (F := F) (grid5.coords ⟨0, hn⟩) (iblk5 V c 0 ⟨0, hn⟩) (iblk5 V c 1 ⟨0, hn⟩) (k5_pay1 (F := F)),
     k5_pay2 (F := F) (grid5.coords ⟨0, hn⟩) (iblk5 V c 0 ⟨0, hn⟩) (iblk5 V c 1 ⟨0, hn⟩) (k5_pay1 (F := F)))
  | n + 1, hn =>
    (if (n + 1) % 20 = 19 then
        k5_pay2 (F := F) (grid5.coords ⟨n + 1, hn⟩) (iblk5 V c 0 ⟨n + 1, hn⟩) (iblk5 V c 1 ⟨n + 1, hn⟩)
          (if (n + 1) % 20 = 0 then k5_pay1 (F := F) else (outsAt5 c n (Nat.lt_of_succ_lt hn)).2)
      else (outsAt5 c n (Nat.lt_of_succ_lt hn)).1,
     k5_pay2 (F := F) (grid5.coords ⟨n + 1, hn⟩) (iblk5 V c 0 ⟨n + 1, hn⟩) (iblk5 V c 1 ⟨n + 1, hn⟩)
       (if (n + 1) % 20 = 0 then k5_pay1 (F := F) else (outsAt5 c n (Nat.lt_of_succ_lt hn)).2))

/-- The accumulator's step: the payload of the point's blocks over zeros at the first edge block of a node block, over
    the previous accumulator elsewhere. -/
theorem scratch_step5 (c : Dev nD) (t : Fin cfg5.N) :
    (outsAt5 V c t.val t.isLt).2 = k5_pay2 (F := F) (grid5.coords t) (iblk5 V c 0 t) (iblk5 V c 1 t)
      (if t.val % 20 = 0 then k5_pay1 (F := F) else (outsAt5 V c (t.val - 1) (Nat.lt_of_le_of_lt (Nat.sub_le _ _) t.isLt)).2) := by
  obtain ⟨n, hn⟩ := t
  cases n with
  | zero => exact congrArg (k5_pay2 (F := F) (grid5.coords ⟨0, hn⟩) (iblk5 V c 0 ⟨0, hn⟩) (iblk5 V c 1 ⟨0, hn⟩)) (if_pos (Nat.zero_mod 20)).symm
  | succ n => rfl

/-- At the last edge block of a node block the output's buffer is the accumulator. -/
theorem out_flush5 (c : Dev nD) (t : Fin cfg5.N) (h : t.val % 20 = 19) :
    (outsAt5 V c t.val t.isLt).1 = (outsAt5 V c t.val t.isLt).2 := by
  obtain ⟨n, hn⟩ := t
  cases n with
  | zero => rfl
  | succ n => exact if_pos h

/-! ## The invariant -/

/-- The region invariant before position `n`: before the first point the scoped buffers no window stages, each at
    anything (the accumulator among them); afterwards the accumulator at what the point before left in it, beside the
    others, unopened. -/
def PhiS5 (c : Dev nD) : (n : ℕ) → n ≤ cfg5.N → sProp 𝕄
  | 0, _ => Pipeline.scopedRest (Ix := Unit) (Name := ℕ) (U := UR sig nD τ) (Lvl := ℕ) (Val := Elt F) spec5 c
  | n + 1, hn => iprop(owns (c : Thread nD τ) scM5_0 fullShare ((outsAt5 V c n hn).2) ∗ Pipeline.scopedRestBut (Ix := Unit) (Name := ℕ) (U := UR sig nD τ) (Lvl := ℕ) (Val := Elt F) spec5 c [cc5_scratch0])

theorem PhiS5_zero (c : Dev nD) (n : ℕ) (h : n ≤ cfg5.N) (hz : n = 0) : PhiS5 V c n h = Pipeline.scopedRest (Ix := Unit) (Name := ℕ) (U := UR sig nD τ) (Lvl := ℕ) (Val := Elt F) spec5 c := by
  subst hz; rfl

theorem PhiS5_succ (c : Dev nD) (n : ℕ) (hn : n < cfg5.N) :
    PhiS5 V c (n + 1) hn = iprop(owns (c : Thread nD τ) scM5_0 fullShare ((outsAt5 V c n hn).2) ∗ Pipeline.scopedRestBut (Ix := Unit) (Name := ℕ) (U := UR sig nD τ) (Lvl := ℕ) (Val := Elt F) spec5 c [cc5_scratch0]) := rfl

theorem PhiS5_pos (c : Dev nD) (n : ℕ) (h : n ≤ cfg5.N) (hz : n ≠ 0) :
    PhiS5 V c n h = iprop(owns (c : Thread nD τ) scM5_0 fullShare ((outsAt5 V c (n - 1) (by omega)).2) ∗ Pipeline.scopedRestBut (Ix := Unit) (Name := ℕ) (U := UR sig nD τ) (Lvl := ℕ) (Val := Elt F) spec5 c [cc5_scratch0]) := by
  cases n with
  | zero => exact absurd rfl hz
  | succ n => rfl

/-- The scoped buffers no window stages, with the accumulator taken out as a memref owned at some contents. -/
theorem scopedRest5_acc (c : Dev nD) :
    (Pipeline.scopedRest (Ix := Unit) (Name := ℕ) (U := UR sig nD τ) (Lvl := ℕ) (Val := Elt F) spec5 c : sProp 𝕄)
      = iprop(iprop(∃ d, owns (c : Thread nD τ) scM5_0 fullShare d) ∗ Pipeline.scopedRestBut (Ix := Unit) (Name := ℕ) (U := UR sig nD τ) (Lvl := ℕ) (Val := Elt F) spec5 c [cc5_scratch0]) := by
  rw [scopedRest5_split]; simp only [scM5_0, owns_whole]; try rfl

/-! ## The pipeline's proof data -/

/-- The proof data of pipeline 5 on core `c`: the arrays as the region finds them; after the body at point `t` each
    input's buffer at its block and the output's at `outsAt5`'s first component; the invariant `PhiS5`; nothing owed;
    full shares. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => (outsAt5 V c t.val t.isLt).1
  Φ t := PhiS5 V c t.val (Nat.le_of_lt_succ t.isLt)
  q _ := fullShare
  owed _ := 0

/-- The proof data's arrays are the region-entry contents. -/
theorem A_eq5 (c : Dev nD) (w : Fin cfg5.W) : (dat5 V c).A w = V c (Pipeline.arrRef spec5 w) := by
  dsimp only [dat5]

/-- What the body leaves, window by window. -/
theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = (outsAt5 V c t.val t.isLt).1 := by dsimp only [dat5]

/-- The invariant at a point's start, restated at the point's position. -/
theorem PhiS5_castSucc (c : Dev nD) (t : Fin cfg5.N) :
    (dat5 V c).Φ t.castSucc = PhiS5 V c t.val (Nat.le_of_lt t.isLt) := by
  dsimp only [dat5]; simp only [Fin.coe_castSucc]

/-- Each input's current staging buffer holds its block at every point: both are fetched at every point, and neither
    window is cut, so the fetch fills the whole buffer with the array's block. -/
theorem before5_0 (c : Dev nD) (t : Fin cfg5.N) (d) : (dat5 V c).before 0 t d = iblk5 V c 0 t := by
  unfold Dat.before; rw [fetch5_0 t, if_pos rfl]; unfold Dat.fetched Dat.blockOf iblk5; rw [A_eq5]; rfl
theorem before5_1 (c : Dev nD) (t : Fin cfg5.N) (d) : (dat5 V c).before 1 t d = iblk5 V c 1 t := by
  unfold Dat.before; rw [fetch5_1 t, if_pos rfl]; unfold Dat.fetched Dat.blockOf iblk5; rw [A_eq5]; rfl

/-- The inputs' buffers are handed back at their blocks (the windows are never idle). -/
theorem leaves5_0 (c : Dev nD) (t : Fin cfg5.N) :
    (dat5 V c).leavesExact 0 t = owns (c : Thread nD τ) (ms5_0 t) fullShare (iblk5 V c 0 t) := by
  unfold Dat.leavesExact; rw [liveAt5_0 t, after5_0]
theorem leaves5_1 (c : Dev nD) (t : Fin cfg5.N) :
    (dat5 V c).leavesExact 1 t = owns (c : Thread nD τ) (ms5_1 t) fullShare (iblk5 V c 1 t) := by
  unfold Dat.leavesExact; rw [liveAt5_1 t, after5_1]

/-! ## The body obligation, at a generic point -/

/-- What the body is called with at point `t`, the windows one by one, -/
def bodyPre5 (c : Dev nD) (t : Fin cfg5.N) : sProp 𝕄 :=
  iprop((dat5 V c).Φ t.castSucc ∗ (dat5 V c).owesAt () t.castSucc
    ∗ (∃ d, owns (c : Thread nD τ) (ms5_0 t) fullShare ((dat5 V c).before 0 t d))
    ∗ (∃ d, owns (c : Thread nD τ) (ms5_1 t) fullShare ((dat5 V c).before 1 t d))
    ∗ (∃ d, owns (c : Thread nD τ) (ms5_2 t) fullShare ((dat5 V c).before 2 t d)))

/-- and what it returns. -/
def bodyPost5 (c : Dev nD) (t : Fin cfg5.N) : sProp 𝕄 :=
  iprop((dat5 V c).Φ t.succ ∗ (dat5 V c).owesAt () t.succ
    ∗ (dat5 V c).leavesExact 0 t
    ∗ (dat5 V c).leavesExact 1 t
    ∗ (dat5 V c).leavesExact 2 t)

set_option maxHeartbeats 4800000 in
/-- The body at any point. The inputs' memrefs hold their blocks; the position modulo 20 says which case the point is
    in. The invariant hands the body the accumulator (at anything before the first point, else at what the point before
    left) and takes it back at this point's contents (`scratch_step5`). Off the last edge block the output's buffer goes
    back as found; at it, the buffer takes the accumulator (`out_flush5`). The core owes nothing throughout. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1]
  rw [show (dat5 V c).owesAt () t.succ = (dat5 V c).owesAt () t.castSucc from rfl]
  rw [show (dat5 V c).Φ t.succ = PhiS5 V c (t.val + 1) t.isLt from rfl, PhiS5_succ]
  rw [leaves5_0, leaves5_1]
  have hN : t.val < 200 := lt_of_lt_of_eq t.isLt (show cfg5.N = 200 from N_5)
  by_cases h0 : t.val % 20 = 0
  · have h1 : ¬t.val % 20 = 19 := by omega
    rw [Dat.leavesExact_idle (dat5 V c) 2 t (idleAt5_2 _ (fun h => h1 ((hcond5_1 t).mp h))) (noFlush5_2 t h1)]
    rw [scratch_step5 V c t, if_pos h0]
    by_cases hz : t.val = 0
    · rw [PhiS5_castSucc V c t, PhiS5_zero V c _ _ hz, scopedRest5_acc]
      iintro ⟨⟨HS, HR⟩, Ho, ⟨%d0, H0⟩, ⟨%d1, H1⟩, ⟨%d2, H2⟩⟩
      iapply (run5_A c (grid5.coords t) _ _ _ _ _ _ _ _ ((hcond5_0 t).mpr h0) (fun h => h1 ((hcond5_1 t).mp h)) (iblk5 V c 0 t) (iblk5 V c 1 t) _ Set.univ _)
      isplitl [H0]; · iexact H0
      isplitl [H1]; · iexact H1
      isplitl [H2]; · iexact H2
      isplitl [HS]; · iexact HS
      iintro ⟨H0, H1, H2, HS⟩
      isplitl [HS HR]
      · isplitl [HS]; · iexact HS
        iexact HR
      isplitl [Ho]; · iexact Ho
      isplitl [H0]; · iexact H0
      isplitl [H1]; · iexact H1
      iexists _; iexact H2
    · rw [PhiS5_castSucc V c t, PhiS5_pos V c _ _ hz]
      iintro ⟨⟨HS, HR⟩, Ho, ⟨%d0, H0⟩, ⟨%d1, H1⟩, ⟨%d2, H2⟩⟩
      iapply (run5_A c (grid5.coords t) _ _ _ _ _ _ _ _ ((hcond5_0 t).mpr h0) (fun h => h1 ((hcond5_1 t).mp h)) (iblk5 V c 0 t) (iblk5 V c 1 t) _ Set.univ _)
      isplitl [H0]; · iexact H0
      isplitl [H1]; · iexact H1
      isplitl [H2]; · iexact H2
      isplitl [HS]; · iexists _; iexact HS
      iintro ⟨H0, H1, H2, HS⟩
      isplitl [HS HR]
      · isplitl [HS]; · iexact HS
        iexact HR
      isplitl [Ho]; · iexact Ho
      isplitl [H0]; · iexact H0
      isplitl [H1]; · iexact H1
      iexists _; iexact H2
  · have hz : t.val ≠ 0 := fun hz => h0 (by omega)
    rw [PhiS5_castSucc V c t, PhiS5_pos V c _ _ hz]
    by_cases h1 : t.val % 20 = 19
    · rw [show (dat5 V c).leavesExact 2 t = owns (c : Thread nD τ) (ms5_2 t) fullShare ((dat5 V c).after 2 t) from by
        unfold Dat.leavesExact; rw [liveAt5_2 (grid5.coords t) ((hcond5_1 t).mpr h1)], after5_2, out_flush5 V c t h1]
      rw [scratch_step5 V c t, if_neg h0]
      iintro ⟨⟨HS, HR⟩, Ho, ⟨%d0, H0⟩, ⟨%d1, H1⟩, ⟨%d2, H2⟩⟩
      iapply (run5_C c (grid5.coords t) _ _ _ _ _ _ _ _ (fun h => h0 ((hcond5_0 t).mp h)) ((hcond5_1 t).mpr h1) (iblk5 V c 0 t) (iblk5 V c 1 t) _ Set.univ _)
      isplitl [H0]; · iexact H0
      isplitl [H1]; · iexact H1
      isplitl [H2]; · iexists _; iexact H2
      isplitl [HS]; · iexact HS
      iintro ⟨H0, H1, H2, HS⟩
      isplitl [HS HR]
      · isplitl [HS]; · iexact HS
        iexact HR
      isplitl [Ho]; · iexact Ho
      isplitl [H0]; · iexact H0
      isplitl [H1]; · iexact H1
      iexact H2
    · rw [Dat.leavesExact_idle (dat5 V c) 2 t (idleAt5_2 _ (fun h => h1 ((hcond5_1 t).mp h))) (noFlush5_2 t h1)]
      rw [scratch_step5 V c t, if_neg h0]
      iintro ⟨⟨HS, HR⟩, Ho, ⟨%d0, H0⟩, ⟨%d1, H1⟩, ⟨%d2, H2⟩⟩
      iapply (run5_B c (grid5.coords t) _ _ _ _ _ _ _ _ (fun h => h0 ((hcond5_0 t).mp h)) (fun h => h1 ((hcond5_1 t).mp h)) (iblk5 V c 0 t) (iblk5 V c 1 t) _ _ Set.univ _)
      isplitl [H0]; · iexact H0
      isplitl [H1]; · iexact H1
      isplitl [H2]; · iexact H2
      isplitl [HS]; · iexact HS
      iintro ⟨H0, H1, H2, HS⟩
      isplitl [HS HR]
      · isplitl [HS]; · iexact HS
        iexact HR
      isplitl [Ho]; · iexact Ho
      isplitl [H0]; · iexact H0
      isplitl [H1]; · iexact H1
      iexists _; iexact H2

/-- The library's body obligation, at every point. -/
theorem body_obligation5 (c : Dev nD) : BodyObligation (dat5 (F := F) V c) (defs₀ (F := F)) Variants.none () Set.univ := fun t => by
  rw [bigSep_W5, bigSep_W5]
  exact sound_body5 V c t

/-! ## The invariant at the region's two ends -/

/-- The scoped buffers no window stages are the invariant before the first point. -/
theorem Phi5_in (c : Dev nD) : (Pipeline.scopedRest (Ix := Unit) (Name := ℕ) (U := UR sig nD τ) (Lvl := ℕ) (Val := Elt F) spec5 c : sProp 𝕄) ⊢ (dat5 V c).Φ 0 := by
  rw [show (dat5 V c).Φ 0 = PhiS5 V c 0 (Nat.zero_le _) from rfl, PhiS5_zero V c 0 _ rfl]

/-- After the last point the invariant gives them back: the accumulator's named contents are forgotten. -/
theorem Phi5_out (c : Dev nD) : (dat5 V c).Φ (Fin.last cfg5.N) ⊢ (Pipeline.scopedRest (Ix := Unit) (Name := ℕ) (U := UR sig nD τ) (Lvl := ℕ) (Val := Elt F) spec5 c : sProp 𝕄) := by
  rw [show (dat5 V c).Φ (Fin.last cfg5.N) = PhiS5 V c (Fin.last cfg5.N).val (Nat.le_of_lt_succ (Fin.last cfg5.N).isLt) from rfl,
    PhiS5_pos V c _ _ (by rw [Fin.val_last]; have : cfg5.N = 200 := N_5; omega), scopedRest5_acc]
  iintro ⟨HS, HR⟩
  isplitl [HS]; · iexists _; iexact HS
  iexact HR

end Region

end Cert.KernelIdeal.Reg5

end
-- ==== Proof.KI.Reg6Runs.lean ====
/- Region 6 (custom_call 6, `cc6_kernel`, grid ![1, 5]): the segment sum's body in each of its three control
   cases. The body keeps an accumulator (its last operand, a whole scratch buffer of shape 1024x300): at the first edge
   block of a node block (grid coordinate 1 equal to 0) it stores zeros into it; at every point it adds the one-hot
   product of the point's two input blocks to it; at the last edge block (coordinate 1 equal to 4) it copies it to
   the output's staging buffer, which it otherwise does not touch. Each case is a triple whose post names the
   accumulator's new contents as the payload `k6_pay2` of the input blocks and the contents found (zeros after a
   reset). -/
import proofs.«411400_j9251359555630_1_alg».proof.Proof.Gen.KernelIdeal.Launch
import proofs.«411400_j9251359555630_1_alg».proof.Proof.Gen.KernelIdeal.Skeleton
import proofs.«411400_j9251359555630_1_alg».proof.Proof.Gen.KernelIdeal.Points
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.KernelIdeal.Reg6

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The branch conditions, in closed form over the grid -/

/-- The condition of the body's first `scf.if` (the accumulator's reset), from the grid coordinates. -/
abbrev cond6_0 (i : grid6.Coords) : Prop :=
  (Scalar.cmpi .ne (Scalar.extui (Scalar.cmpi .eq (BitVec.ofNat 32 (i 1).val) 0#32)) 0#32) = 1#1
/-- It holds at the points whose position is 0 modulo 5: the first edge block of each node block. -/
theorem hcond6_0 : ∀ t : Fin cfg6.N, cond6_0 (grid6.coords t) ↔ t.val % 5 = 0 :=
  (by decide +kernel : ∀ t : Fin grid6.N, cond6_0 (grid6.coords t) ↔ t.val % 5 = 0)

/-- The condition of the body's second `scf.if` (the copy to the output), from the grid coordinates. -/
abbrev cond6_1 (i : grid6.Coords) : Prop := k6_cond2 i = 1#1
/-- It holds at the points whose position is 4 modulo 5: the last edge block of each node block. -/
theorem hcond6_1 : ∀ t : Fin cfg6.N, cond6_1 (grid6.coords t) ↔ t.val % 5 = 4 :=
  (by decide +kernel : ∀ t : Fin grid6.N, cond6_1 (grid6.coords t) ↔ t.val % 5 = 4)

/-! ## Where the windows are idle -/

/-- The two input windows are never idle. -/
theorem liveAt6_0 (t : Fin cfg6.N) : cfg6.idle 0 (grid6.coords t) = false := rfl
theorem liveAt6_1 (t : Fin cfg6.N) : cfg6.idle 1 (grid6.coords t) = false := rfl
/-- The output window is idle exactly where the second condition fails: the body stores into it only under it. -/
theorem idleAt6_2 (i : grid6.Coords) (h : ¬cond6_1 i) : cfg6.idle 2 i = true := by
  show (!(k6_cond2 i == 1#1)) = true
  cases hb : (k6_cond2 i == 1#1) with
  | false => rfl
  | true => exact absurd (eq_of_beq hb) h
theorem liveAt6_2 (i : grid6.Coords) (h : cond6_1 i) : cfg6.idle 2 i = false := by
  show (!(k6_cond2 i == 1#1)) = false
  rw [show k6_cond2 i = 1#1 from h]; rfl
/-- Off the last edge block the output's block is not written back. -/
theorem noFlush6_2 (t : Fin cfg6.N) (h : ¬t.val % 5 = 4) : (cfg6.win 2).flush t = false :=
  Bool.eq_false_iff.mpr fun hf => h ((flush6_2 t).mp hf)

/-! ## Whole-buffer accesses -/

/-- The offsets of every access of the body: zero on both axes. -/
theorem hz6 : (![0, 0] : Fin 2 → Nat) = fun _ => 0 := funext fun a => by fin_cases a <;> rfl

/-- A store through the whole-shape rectangle at zero offsets, made last, is what the buffer then reads, whatever
    was stored before and whatever the buffer held. -/
theorem read_writes_whole6 {S : Shape} {e : EltTy} {sp : Space} (v : View sig .tc sp S e) (f : v.ty.Contents (Elt F))
    {off : Fin S.rank → Nat} (h : off = fun _ => 0) (inb : ∀ a, off a + S.size a ≤ S.size a)
    (w : S.Idx → Elt F e) (L : List (View.Piece (Elt F) S e)) :
    v.read (Elt F) (v.writes (Elt F) f ((⟨Rect.unit off S.size inb, w⟩ : View.Piece (Elt F) S e) :: L)) = w := by
  refine (View.read_writes_eq_canon v f _ fun y =>
    ⟨⟨Rect.unit off S.size inb, w⟩, List.mem_cons_self, View.mem_set_unit_zero h inb y⟩).trans ?_
  exact View.canon_cons_unit_zero h inb w L

/-! ## The body's triple, case by case -/

set_option maxHeartbeats 1000000 in
/-- CASE A, the first edge block of a node block (first condition true, second false): on whole memrefs, the inputs' at
    contents `x0`, `x1`, the output's at `xo`, the accumulator at anything, the body runs to the continuation holding
    the first three as they were and the accumulator at the payload of the input blocks over zeros. -/
theorem run6_A (c : Dev nD) (i : grid6.Coords)
    (arg2 : Memref sig .tc .vmem S2000x1 .i32) (harg2 : arg2.IsWhole)
    (arg3 : Memref sig .tc .vmem S2000x300 .bf16) (harg3 : arg3.IsWhole)
    (arg4 : Memref sig .tc .vmem S64x300 .f32) (harg4 : arg4.IsWhole)
    (arg5 : Memref sig .tc .vmem S64x300 .f32) (harg5 : arg5.IsWhole)
    (hc0 : cond6_0 i) (hc1 : ¬cond6_1 i)
    (x0 : Vec F S2000x1 .i32) (x1 : Vec F S2000x300 .bf16) (xo : Vec F S64x300 .f32)
    (E : Set ℕ) (K : PUnit → sProp 𝕄) :
    iprop(owns (c : Thread nD τ) arg2 fullShare x0 ∗ owns (c : Thread nD τ) arg3 fullShare x1
        ∗ owns (c : Thread nD τ) arg4 fullShare xo ∗ (∃ d, owns (c : Thread nD τ) arg5 fullShare d)
        ∗ (iprop(owns (c : Thread nD τ) arg2 fullShare x0 ∗ owns (c : Thread nD τ) arg3 fullShare x1
            ∗ owns (c : Thread nD τ) arg4 fullShare xo
            ∗ owns (c : Thread nD τ) arg5 fullShare (k6_pay2 (F := F) i x0 x1 (k6_pay1 (F := F)))) -∗ K ⟨⟩))
      ⊢ wp frame (wpE (defs₀ (F := F)) Variants.none c none) E (cc6_kernel i arg2 harg2 arg3 harg3 arg4 harg4 arg5 harg5) K := by
  simp only [cc6_kernel_eq_skeleton]; unfold cc6_kernel_skel
  unfold owns
  iintro ⟨⟨%f0, %hf0, H0⟩, ⟨%f1, %hf1, H1⟩, ⟨%f2, %hf2, H2⟩, ⟨%ds, %fs, -, HS⟩, Hk⟩
  subst hf0; subst hf1; subst hf2
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact HS
  ipureintro
  sl_unfold_run_names
  rw [read_writes_whole6 _ _ hz6]
  simp only [View.readAt_eq_ld, View.ld_unit_zero (S := S2000x1) hz6, View.ld_unit_zero (S := S2000x300) hz6,
    View.readCov_unit_zero (S := S64x300) _ hz6]

set_option maxHeartbeats 1000000 in
/-- CASE B, an edge block that is neither the first nor the last (both conditions false): the accumulator, found at
    `xs`, is left at the payload of the input blocks over `xs`; the output's buffer is not touched. -/
theorem run6_B (c : Dev nD) (i : grid6.Coords)
    (arg2 : Memref sig .tc .vmem S2000x1 .i32) (harg2 : arg2.IsWhole)
    (arg3 : Memref sig .tc .vmem S2000x300 .bf16) (harg3 : arg3.IsWhole)
    (arg4 : Memref sig .tc .vmem S64x300 .f32) (harg4 : arg4.IsWhole)
    (arg5 : Memref sig .tc .vmem S64x300 .f32) (harg5 : arg5.IsWhole)
    (hc0 : ¬cond6_0 i) (hc1 : ¬cond6_1 i)
    (x0 : Vec F S2000x1 .i32) (x1 : Vec F S2000x300 .bf16) (xo : Vec F S64x300 .f32) (xs : Vec F S64x300 .f32)
    (E : Set ℕ) (K : PUnit → sProp 𝕄) :
    iprop(owns (c : Thread nD τ) arg2 fullShare x0 ∗ owns (c : Thread nD τ) arg3 fullShare x1
        ∗ owns (c : Thread nD τ) arg4 fullShare xo ∗ owns (c : Thread nD τ) arg5 fullShare xs
        ∗ (iprop(owns (c : Thread nD τ) arg2 fullShare x0 ∗ owns (c : Thread nD τ) arg3 fullShare x1
            ∗ owns (c : Thread nD τ) arg4 fullShare xo
            ∗ owns (c : Thread nD τ) arg5 fullShare (k6_pay2 (F := F) i x0 x1 xs)) -∗ K ⟨⟩))
      ⊢ wp frame (wpE (defs₀ (F := F)) Variants.none c none) E (cc6_kernel i arg2 harg2 arg3 harg3 arg4 harg4 arg5 harg5) K := by
  simp only [cc6_kernel_eq_skeleton]; unfold cc6_kernel_skel
  unfold owns
  iintro ⟨⟨%f0, %hf0, H0⟩, ⟨%f1, %hf1, H1⟩, ⟨%f2, %hf2, H2⟩, ⟨%fs, %hfs, HS⟩, Hk⟩
  subst hf0; subst hf1; subst hf2; subst hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact HS
  ipureintro
  sl_unfold_run_names
  rw [read_writes_whole6 _ _ hz6]
  simp only [View.readAt_eq_ld, View.ld_unit_zero (S := S2000x1) hz6, View.ld_unit_zero (S := S2000x300) hz6,
    View.ld_unit_zero (S := S64x300) hz6]

set_option maxHeartbeats 1000000 in
/-- CASE C, the last edge block of a node block (first condition false, second true): the accumulator, found at `xs`,
    is left at the payload of the input blocks over `xs`, and the output's buffer, found at anything, takes the same. -/
theorem run6_C (c : Dev nD) (i : grid6.Coords)
    (arg2 : Memref sig .tc .vmem S2000x1 .i32) (harg2 : arg2.IsWhole)
    (arg3 : Memref sig .tc .vmem S2000x300 .bf16) (harg3 : arg3.IsWhole)
    (arg4 : Memref sig .tc .vmem S64x300 .f32) (harg4 : arg4.IsWhole)
    (arg5 : Memref sig .tc .vmem S64x300 .f32) (harg5 : arg5.IsWhole)
    (hc0 : ¬cond6_0 i) (hc1 : cond6_1 i)
    (x0 : Vec F S2000x1 .i32) (x1 : Vec F S2000x300 .bf16) (xs : Vec F S64x300 .f32)
    (E : Set ℕ) (K : PUnit → sProp 𝕄) :
    iprop(owns (c : Thread nD τ) arg2 fullShare x0 ∗ owns (c : Thread nD τ) arg3 fullShare x1
        ∗ (∃ d, owns (c : Thread nD τ) arg4 fullShare d) ∗ owns (c : Thread nD τ) arg5 fullShare xs
        ∗ (iprop(owns (c : Thread nD τ) arg2 fullShare x0 ∗ owns (c : Thread nD τ) arg3 fullShare x1
            ∗ owns (c : Thread nD τ) arg4 fullShare (k6_pay2 (F := F) i x0 x1 xs)
            ∗ owns (c : Thread nD τ) arg5 fullShare (k6_pay2 (F := F) i x0 x1 xs)) -∗ K ⟨⟩))
      ⊢ wp frame (wpE (defs₀ (F := F)) Variants.none c none) E (cc6_kernel i arg2 harg2 arg3 harg3 arg4 harg4 arg5 harg5) K := by
  simp only [cc6_kernel_eq_skeleton]; unfold cc6_kernel_skel
  unfold owns
  iintro ⟨⟨%f0, %hf0, H0⟩, ⟨%f1, %hf1, H1⟩, ⟨%d2, %f2, -, H2⟩, ⟨%fs, %hfs, HS⟩, Hk⟩
  subst hf0; subst hf1; subst hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    sl_unfold_run_names
    rw [read_writes_whole6 _ _ hz6]
    simp only [View.readAt_eq_ld, View.ld_unit_zero (S := S2000x1) hz6, View.ld_unit_zero (S := S2000x300) hz6,
      View.ld_unit_zero (S := S64x300) hz6, View.readCov_unit_zero (S := S64x300) _ hz6]
  iexists _; isplitr
  swap; · iexact HS
  ipureintro
  sl_unfold_run_names
  rw [read_writes_whole6 _ _ hz6]
  simp only [View.readAt_eq_ld, View.ld_unit_zero (S := S2000x1) hz6, View.ld_unit_zero (S := S2000x300) hz6,
    View.ld_unit_zero (S := S64x300) hz6]

end Cert.KernelIdeal.Reg6

end
-- ==== Proof.KI.Reg6.lean ====
/- Region 6 (custom_call 6, `cc6_kernel`, grid ![1, 5]) at the buffer contents `V` the region is entered with: the
   windows' blocks, what the accumulator and the output's staging buffer hold after each grid point, the pipeline's proof
   data, and the body obligation. The accumulator is the kernel's own scratch buffer (shape 1024x300): the invariant
   hands it to the body out of the scoped buffers no window stages, at anything before the first point and afterwards at
   what the point before left in it. -/
import proofs.«411400_j9251359555630_1_alg».proof.Proof.KI.Reg6Runs

set_option maxRecDepth 16384

noncomputable section

namespace Cert.KernelIdeal.Reg6

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region
-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-! ## The memrefs the body is called with -/

/-- Each window's current staging memref at point `t`, as the pipeline passes it, and its wholeness. -/
abbrev ms6_0 (t : Fin cfg6.N) : Memref sig .tc .vmem S2000x1 .i32 := win6_0.stage (cfg6.slots t 0)
abbrev hs6_0 (t : Fin cfg6.N) : (ms6_0 t).IsWhole := hstage6_0 ((cfg6.slots t 0).cast nbuf6_0)
abbrev ms6_1 (t : Fin cfg6.N) : Memref sig .tc .vmem S2000x300 .bf16 := win6_1.stage (cfg6.slots t 1)
abbrev hs6_1 (t : Fin cfg6.N) : (ms6_1 t).IsWhole := hstage6_1 ((cfg6.slots t 1).cast nbuf6_1)
abbrev ms6_2 (t : Fin cfg6.N) : Memref sig .tc .vmem S64x300 .f32 := win6_2.stage (cfg6.slots t 2)
abbrev hs6_2 (t : Fin cfg6.N) : (ms6_2 t).IsWhole := hstage6_2 ((cfg6.slots t 2).cast nbuf6_2)
/-- The accumulator: a whole scoped buffer of the kernel's own, passed beside the windows. -/
abbrev scM6_0 : Memref sig .tc .vmem S64x300 .f32 := Memref.whole cc6_scratch0

/-! ## What the accumulator and the output hold after each point -/

/-- (output staging buffer, accumulator) after the body at position `n`. The accumulator is the payload `k6_pay2` of the
    point's two input blocks over zeros (`k6_pay1`) where `n % 5 = 0` and over what the point before left elsewhere.
    The output's buffer takes the accumulator where `n % 5 = 4`; elsewhere the body leaves it as found (the component
    there repeats the previous one, and at position 0 the accumulator: a placeholder nothing reads). -/
def outsAt6 (c : Dev nD) : (n : ℕ) → n < cfg6.N → Vec F S64x300 .f32 × Vec F S64x300 .f32
  | 0, hn =>
    (k6_pay2 (F := F) (grid6.coords ⟨0, hn⟩) (iblk6 V c 0 ⟨0, hn⟩) (iblk6 V c 1 ⟨0, hn⟩) (k6_pay1 (F := F)),
     k6_pay2 (F := F) (grid6.coords ⟨0, hn⟩) (iblk6 V c 0 ⟨0, hn⟩) (iblk6 V c 1 ⟨0, hn⟩) (k6_pay1 (F := F)))
  | n + 1, hn =>
    (if (n + 1) % 5 = 4 then
        k6_pay2 (F := F) (grid6.coords ⟨n + 1, hn⟩) (iblk6 V c 0 ⟨n + 1, hn⟩) (iblk6 V c 1 ⟨n + 1, hn⟩)
          (if (n + 1) % 5 = 0 then k6_pay1 (F := F) else (outsAt6 c n (Nat.lt_of_succ_lt hn)).2)
      else (outsAt6 c n (Nat.lt_of_succ_lt hn)).1,
     k6_pay2 (F := F) (grid6.coords ⟨n + 1, hn⟩) (iblk6 V c 0 ⟨n + 1, hn⟩) (iblk6 V c 1 ⟨n + 1, hn⟩)
       (if (n + 1) % 5 = 0 then k6_pay1 (F := F) else (outsAt6 c n (Nat.lt_of_succ_lt hn)).2))

/-- The accumulator's step: the payload of the point's blocks over zeros at the first edge block of a node block, over
    the previous accumulator elsewhere. -/
theorem scratch_step6 (c : Dev nD) (t : Fin cfg6.N) :
    (outsAt6 V c t.val t.isLt).2 = k6_pay2 (F := F) (grid6.coords t) (iblk6 V c 0 t) (iblk6 V c 1 t)
      (if t.val % 5 = 0 then k6_pay1 (F := F) else (outsAt6 V c (t.val - 1) (Nat.lt_of_le_of_lt (Nat.sub_le _ _) t.isLt)).2) := by
  obtain ⟨n, hn⟩ := t
  cases n with
  | zero => exact congrArg (k6_pay2 (F := F) (grid6.coords ⟨0, hn⟩) (iblk6 V c 0 ⟨0, hn⟩) (iblk6 V c 1 ⟨0, hn⟩)) (if_pos (Nat.zero_mod 5)).symm
  | succ n => rfl

/-- At the last edge block of a node block the output's buffer is the accumulator. -/
theorem out_flush6 (c : Dev nD) (t : Fin cfg6.N) (h : t.val % 5 = 4) :
    (outsAt6 V c t.val t.isLt).1 = (outsAt6 V c t.val t.isLt).2 := by
  obtain ⟨n, hn⟩ := t
  cases n with
  | zero => rfl
  | succ n => exact if_pos h

/-! ## The invariant -/

/-- The region invariant before position `n`: before the first point the scoped buffers no window stages, each at
    anything (the accumulator among them); afterwards the accumulator at what the point before left in it, beside the
    others, unopened. -/
def PhiS6 (c : Dev nD) : (n : ℕ) → n ≤ cfg6.N → sProp 𝕄
  | 0, _ => Pipeline.scopedRest (Ix := Unit) (Name := ℕ) (U := UR sig nD τ) (Lvl := ℕ) (Val := Elt F) spec6 c
  | n + 1, hn => iprop(owns (c : Thread nD τ) scM6_0 fullShare ((outsAt6 V c n hn).2) ∗ Pipeline.scopedRestBut (Ix := Unit) (Name := ℕ) (U := UR sig nD τ) (Lvl := ℕ) (Val := Elt F) spec6 c [cc6_scratch0])

theorem PhiS6_zero (c : Dev nD) (n : ℕ) (h : n ≤ cfg6.N) (hz : n = 0) : PhiS6 V c n h = Pipeline.scopedRest (Ix := Unit) (Name := ℕ) (U := UR sig nD τ) (Lvl := ℕ) (Val := Elt F) spec6 c := by
  subst hz; rfl

theorem PhiS6_succ (c : Dev nD) (n : ℕ) (hn : n < cfg6.N) :
    PhiS6 V c (n + 1) hn = iprop(owns (c : Thread nD τ) scM6_0 fullShare ((outsAt6 V c n hn).2) ∗ Pipeline.scopedRestBut (Ix := Unit) (Name := ℕ) (U := UR sig nD τ) (Lvl := ℕ) (Val := Elt F) spec6 c [cc6_scratch0]) := rfl

theorem PhiS6_pos (c : Dev nD) (n : ℕ) (h : n ≤ cfg6.N) (hz : n ≠ 0) :
    PhiS6 V c n h = iprop(owns (c : Thread nD τ) scM6_0 fullShare ((outsAt6 V c (n - 1) (by omega)).2) ∗ Pipeline.scopedRestBut (Ix := Unit) (Name := ℕ) (U := UR sig nD τ) (Lvl := ℕ) (Val := Elt F) spec6 c [cc6_scratch0]) := by
  cases n with
  | zero => exact absurd rfl hz
  | succ n => rfl

/-- The scoped buffers no window stages, with the accumulator taken out as a memref owned at some contents. -/
theorem scopedRest6_acc (c : Dev nD) :
    (Pipeline.scopedRest (Ix := Unit) (Name := ℕ) (U := UR sig nD τ) (Lvl := ℕ) (Val := Elt F) spec6 c : sProp 𝕄)
      = iprop(iprop(∃ d, owns (c : Thread nD τ) scM6_0 fullShare d) ∗ Pipeline.scopedRestBut (Ix := Unit) (Name := ℕ) (U := UR sig nD τ) (Lvl := ℕ) (Val := Elt F) spec6 c [cc6_scratch0]) := by
  rw [scopedRest6_split]; simp only [scM6_0, owns_whole]; try rfl

/-! ## The pipeline's proof data -/

/-- The proof data of pipeline 6 on core `c`: the arrays as the region finds them; after the body at point `t` each
    input's buffer at its block and the output's at `outsAt6`'s first component; the invariant `PhiS6`; nothing owed;
    full shares. -/
def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => (outsAt6 V c t.val t.isLt).1
  Φ t := PhiS6 V c t.val (Nat.le_of_lt_succ t.isLt)
  q _ := fullShare
  owed _ := 0

/-- The proof data's arrays are the region-entry contents. -/
theorem A_eq6 (c : Dev nD) (w : Fin cfg6.W) : (dat6 V c).A w = V c (Pipeline.arrRef spec6 w) := by
  dsimp only [dat6]

/-- What the body leaves, window by window. -/
theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = (outsAt6 V c t.val t.isLt).1 := by dsimp only [dat6]

/-- The invariant at a point's start, restated at the point's position. -/
theorem PhiS6_castSucc (c : Dev nD) (t : Fin cfg6.N) :
    (dat6 V c).Φ t.castSucc = PhiS6 V c t.val (Nat.le_of_lt t.isLt) := by
  dsimp only [dat6]; simp only [Fin.coe_castSucc]

/-- Each input's current staging buffer holds its block at every point: both are fetched at every point, and neither
    window is cut, so the fetch fills the whole buffer with the array's block. -/
theorem before6_0 (c : Dev nD) (t : Fin cfg6.N) (d) : (dat6 V c).before 0 t d = iblk6 V c 0 t := by
  unfold Dat.before; rw [fetch6_0 t, if_pos rfl]; unfold Dat.fetched Dat.blockOf iblk6; rw [A_eq6]; rfl
theorem before6_1 (c : Dev nD) (t : Fin cfg6.N) (d) : (dat6 V c).before 1 t d = iblk6 V c 1 t := by
  unfold Dat.before; rw [fetch6_1 t, if_pos rfl]; unfold Dat.fetched Dat.blockOf iblk6; rw [A_eq6]; rfl

/-- The inputs' buffers are handed back at their blocks (the windows are never idle). -/
theorem leaves6_0 (c : Dev nD) (t : Fin cfg6.N) :
    (dat6 V c).leavesExact 0 t = owns (c : Thread nD τ) (ms6_0 t) fullShare (iblk6 V c 0 t) := by
  unfold Dat.leavesExact; rw [liveAt6_0 t, after6_0]
theorem leaves6_1 (c : Dev nD) (t : Fin cfg6.N) :
    (dat6 V c).leavesExact 1 t = owns (c : Thread nD τ) (ms6_1 t) fullShare (iblk6 V c 1 t) := by
  unfold Dat.leavesExact; rw [liveAt6_1 t, after6_1]

/-! ## The body obligation, at a generic point -/

/-- What the body is called with at point `t`, the windows one by one, -/
def bodyPre6 (c : Dev nD) (t : Fin cfg6.N) : sProp 𝕄 :=
  iprop((dat6 V c).Φ t.castSucc ∗ (dat6 V c).owesAt () t.castSucc
    ∗ (∃ d, owns (c : Thread nD τ) (ms6_0 t) fullShare ((dat6 V c).before 0 t d))
    ∗ (∃ d, owns (c : Thread nD τ) (ms6_1 t) fullShare ((dat6 V c).before 1 t d))
    ∗ (∃ d, owns (c : Thread nD τ) (ms6_2 t) fullShare ((dat6 V c).before 2 t d)))

/-- and what it returns. -/
def bodyPost6 (c : Dev nD) (t : Fin cfg6.N) : sProp 𝕄 :=
  iprop((dat6 V c).Φ t.succ ∗ (dat6 V c).owesAt () t.succ
    ∗ (dat6 V c).leavesExact 0 t
    ∗ (dat6 V c).leavesExact 1 t
    ∗ (dat6 V c).leavesExact 2 t)

set_option maxHeartbeats 4800000 in
/-- The body at any point. The inputs' memrefs hold their blocks; the position modulo 5 says which case the point is
    in. The invariant hands the body the accumulator (at anything before the first point, else at what the point before
    left) and takes it back at this point's contents (`scratch_step6`). Off the last edge block the output's buffer goes
    back as found; at it, the buffer takes the accumulator (`out_flush6`). The core owes nothing throughout. -/
theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1]
  rw [show (dat6 V c).owesAt () t.succ = (dat6 V c).owesAt () t.castSucc from rfl]
  rw [show (dat6 V c).Φ t.succ = PhiS6 V c (t.val + 1) t.isLt from rfl, PhiS6_succ]
  rw [leaves6_0, leaves6_1]
  have hN : t.val < 5 := lt_of_lt_of_eq t.isLt (show cfg6.N = 5 from N_6)
  by_cases h0 : t.val % 5 = 0
  · have h1 : ¬t.val % 5 = 4 := by omega
    rw [Dat.leavesExact_idle (dat6 V c) 2 t (idleAt6_2 _ (fun h => h1 ((hcond6_1 t).mp h))) (noFlush6_2 t h1)]
    rw [scratch_step6 V c t, if_pos h0]
    by_cases hz : t.val = 0
    · rw [PhiS6_castSucc V c t, PhiS6_zero V c _ _ hz, scopedRest6_acc]
      iintro ⟨⟨HS, HR⟩, Ho, ⟨%d0, H0⟩, ⟨%d1, H1⟩, ⟨%d2, H2⟩⟩
      iapply (run6_A c (grid6.coords t) _ _ _ _ _ _ _ _ ((hcond6_0 t).mpr h0) (fun h => h1 ((hcond6_1 t).mp h)) (iblk6 V c 0 t) (iblk6 V c 1 t) _ Set.univ _)
      isplitl [H0]; · iexact H0
      isplitl [H1]; · iexact H1
      isplitl [H2]; · iexact H2
      isplitl [HS]; · iexact HS
      iintro ⟨H0, H1, H2, HS⟩
      isplitl [HS HR]
      · isplitl [HS]; · iexact HS
        iexact HR
      isplitl [Ho]; · iexact Ho
      isplitl [H0]; · iexact H0
      isplitl [H1]; · iexact H1
      iexists _; iexact H2
    · rw [PhiS6_castSucc V c t, PhiS6_pos V c _ _ hz]
      iintro ⟨⟨HS, HR⟩, Ho, ⟨%d0, H0⟩, ⟨%d1, H1⟩, ⟨%d2, H2⟩⟩
      iapply (run6_A c (grid6.coords t) _ _ _ _ _ _ _ _ ((hcond6_0 t).mpr h0) (fun h => h1 ((hcond6_1 t).mp h)) (iblk6 V c 0 t) (iblk6 V c 1 t) _ Set.univ _)
      isplitl [H0]; · iexact H0
      isplitl [H1]; · iexact H1
      isplitl [H2]; · iexact H2
      isplitl [HS]; · iexists _; iexact HS
      iintro ⟨H0, H1, H2, HS⟩
      isplitl [HS HR]
      · isplitl [HS]; · iexact HS
        iexact HR
      isplitl [Ho]; · iexact Ho
      isplitl [H0]; · iexact H0
      isplitl [H1]; · iexact H1
      iexists _; iexact H2
  · have hz : t.val ≠ 0 := fun hz => h0 (by omega)
    rw [PhiS6_castSucc V c t, PhiS6_pos V c _ _ hz]
    by_cases h1 : t.val % 5 = 4
    · rw [show (dat6 V c).leavesExact 2 t = owns (c : Thread nD τ) (ms6_2 t) fullShare ((dat6 V c).after 2 t) from by
        unfold Dat.leavesExact; rw [liveAt6_2 (grid6.coords t) ((hcond6_1 t).mpr h1)], after6_2, out_flush6 V c t h1]
      rw [scratch_step6 V c t, if_neg h0]
      iintro ⟨⟨HS, HR⟩, Ho, ⟨%d0, H0⟩, ⟨%d1, H1⟩, ⟨%d2, H2⟩⟩
      iapply (run6_C c (grid6.coords t) _ _ _ _ _ _ _ _ (fun h => h0 ((hcond6_0 t).mp h)) ((hcond6_1 t).mpr h1) (iblk6 V c 0 t) (iblk6 V c 1 t) _ Set.univ _)
      isplitl [H0]; · iexact H0
      isplitl [H1]; · iexact H1
      isplitl [H2]; · iexists _; iexact H2
      isplitl [HS]; · iexact HS
      iintro ⟨H0, H1, H2, HS⟩
      isplitl [HS HR]
      · isplitl [HS]; · iexact HS
        iexact HR
      isplitl [Ho]; · iexact Ho
      isplitl [H0]; · iexact H0
      isplitl [H1]; · iexact H1
      iexact H2
    · rw [Dat.leavesExact_idle (dat6 V c) 2 t (idleAt6_2 _ (fun h => h1 ((hcond6_1 t).mp h))) (noFlush6_2 t h1)]
      rw [scratch_step6 V c t, if_neg h0]
      iintro ⟨⟨HS, HR⟩, Ho, ⟨%d0, H0⟩, ⟨%d1, H1⟩, ⟨%d2, H2⟩⟩
      iapply (run6_B c (grid6.coords t) _ _ _ _ _ _ _ _ (fun h => h0 ((hcond6_0 t).mp h)) (fun h => h1 ((hcond6_1 t).mp h)) (iblk6 V c 0 t) (iblk6 V c 1 t) _ _ Set.univ _)
      isplitl [H0]; · iexact H0
      isplitl [H1]; · iexact H1
      isplitl [H2]; · iexact H2
      isplitl [HS]; · iexact HS
      iintro ⟨H0, H1, H2, HS⟩
      isplitl [HS HR]
      · isplitl [HS]; · iexact HS
        iexact HR
      isplitl [Ho]; · iexact Ho
      isplitl [H0]; · iexact H0
      isplitl [H1]; · iexact H1
      iexists _; iexact H2

/-- The library's body obligation, at every point. -/
theorem body_obligation6 (c : Dev nD) : BodyObligation (dat6 (F := F) V c) (defs₀ (F := F)) Variants.none () Set.univ := fun t => by
  rw [bigSep_W6, bigSep_W6]
  exact sound_body6 V c t

/-! ## The invariant at the region's two ends -/

/-- The scoped buffers no window stages are the invariant before the first point. -/
theorem Phi6_in (c : Dev nD) : (Pipeline.scopedRest (Ix := Unit) (Name := ℕ) (U := UR sig nD τ) (Lvl := ℕ) (Val := Elt F) spec6 c : sProp 𝕄) ⊢ (dat6 V c).Φ 0 := by
  rw [show (dat6 V c).Φ 0 = PhiS6 V c 0 (Nat.zero_le _) from rfl, PhiS6_zero V c 0 _ rfl]

/-- After the last point the invariant gives them back: the accumulator's named contents are forgotten. -/
theorem Phi6_out (c : Dev nD) : (dat6 V c).Φ (Fin.last cfg6.N) ⊢ (Pipeline.scopedRest (Ix := Unit) (Name := ℕ) (U := UR sig nD τ) (Lvl := ℕ) (Val := Elt F) spec6 c : sProp 𝕄) := by
  rw [show (dat6 V c).Φ (Fin.last cfg6.N) = PhiS6 V c (Fin.last cfg6.N).val (Nat.le_of_lt_succ (Fin.last cfg6.N).isLt) from rfl,
    PhiS6_pos V c _ _ (by rw [Fin.val_last]; have : cfg6.N = 5 := N_6; omega), scopedRest6_acc]
  iintro ⟨HS, HR⟩
  isplitl [HS]; · iexists _; iexact HS
  iexact HR

end Region

end Cert.KernelIdeal.Reg6

end
-- ==== Proof.KI.Reg7Runs.lean ====
/- Region 7 (custom_call 7, `cc7_kernel`, grid ![10, 20]): the segment sum's body in each of its three control
   cases. The body keeps an accumulator (its last operand, a whole scratch buffer of shape 1024x300): at the first edge
   block of a node block (grid coordinate 1 equal to 0) it stores zeros into it; at every point it adds the one-hot
   product of the point's two input blocks to it; at the last edge block (coordinate 1 equal to 19) it copies it to
   the output's staging buffer, which it otherwise does not touch. Each case is a triple whose post names the
   accumulator's new contents as the payload `k7_pay2` of the input blocks and the contents found (zeros after a
   reset). -/
import proofs.«411400_j9251359555630_1_alg».proof.Proof.Gen.KernelIdeal.Launch
import proofs.«411400_j9251359555630_1_alg».proof.Proof.Gen.KernelIdeal.Skeleton
import proofs.«411400_j9251359555630_1_alg».proof.Proof.Gen.KernelIdeal.Points
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.KernelIdeal.Reg7

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The branch conditions, in closed form over the grid -/

/-- The condition of the body's first `scf.if` (the accumulator's reset), from the grid coordinates. -/
abbrev cond7_0 (i : grid7.Coords) : Prop :=
  (Scalar.cmpi .ne (Scalar.extui (Scalar.cmpi .eq (BitVec.ofNat 32 (i 1).val) 0#32)) 0#32) = 1#1
/-- It holds at the points whose position is 0 modulo 20: the first edge block of each node block. -/
theorem hcond7_0 : ∀ t : Fin cfg7.N, cond7_0 (grid7.coords t) ↔ t.val % 20 = 0 :=
  (by decide +kernel : ∀ t : Fin grid7.N, cond7_0 (grid7.coords t) ↔ t.val % 20 = 0)

/-- The condition of the body's second `scf.if` (the copy to the output), from the grid coordinates. -/
abbrev cond7_1 (i : grid7.Coords) : Prop := k7_cond2 i = 1#1
/-- It holds at the points whose position is 19 modulo 20: the last edge block of each node block. -/
theorem hcond7_1 : ∀ t : Fin cfg7.N, cond7_1 (grid7.coords t) ↔ t.val % 20 = 19 :=
  (by decide +kernel : ∀ t : Fin grid7.N, cond7_1 (grid7.coords t) ↔ t.val % 20 = 19)

/-! ## Where the windows are idle -/

/-- The two input windows are never idle. -/
theorem liveAt7_0 (t : Fin cfg7.N) : cfg7.idle 0 (grid7.coords t) = false := rfl
theorem liveAt7_1 (t : Fin cfg7.N) : cfg7.idle 1 (grid7.coords t) = false := rfl
/-- The output window is idle exactly where the second condition fails: the body stores into it only under it. -/
theorem idleAt7_2 (i : grid7.Coords) (h : ¬cond7_1 i) : cfg7.idle 2 i = true := by
  show (!(k7_cond2 i == 1#1)) = true
  cases hb : (k7_cond2 i == 1#1) with
  | false => rfl
  | true => exact absurd (eq_of_beq hb) h
theorem liveAt7_2 (i : grid7.Coords) (h : cond7_1 i) : cfg7.idle 2 i = false := by
  show (!(k7_cond2 i == 1#1)) = false
  rw [show k7_cond2 i = 1#1 from h]; rfl
/-- Off the last edge block the output's block is not written back. -/
theorem noFlush7_2 (t : Fin cfg7.N) (h : ¬t.val % 20 = 19) : (cfg7.win 2).flush t = false :=
  Bool.eq_false_iff.mpr fun hf => h ((flush7_2 t).mp hf)

/-! ## Whole-buffer accesses -/

/-- The offsets of every access of the body: zero on both axes. -/
theorem hz7 : (![0, 0] : Fin 2 → Nat) = fun _ => 0 := funext fun a => by fin_cases a <;> rfl

/-- A store through the whole-shape rectangle at zero offsets, made last, is what the buffer then reads, whatever
    was stored before and whatever the buffer held. -/
theorem read_writes_whole7 {S : Shape} {e : EltTy} {sp : Space} (v : View sig .tc sp S e) (f : v.ty.Contents (Elt F))
    {off : Fin S.rank → Nat} (h : off = fun _ => 0) (inb : ∀ a, off a + S.size a ≤ S.size a)
    (w : S.Idx → Elt F e) (L : List (View.Piece (Elt F) S e)) :
    v.read (Elt F) (v.writes (Elt F) f ((⟨Rect.unit off S.size inb, w⟩ : View.Piece (Elt F) S e) :: L)) = w := by
  refine (View.read_writes_eq_canon v f _ fun y =>
    ⟨⟨Rect.unit off S.size inb, w⟩, List.mem_cons_self, View.mem_set_unit_zero h inb y⟩).trans ?_
  exact View.canon_cons_unit_zero h inb w L

/-! ## The body's triple, case by case -/

set_option maxHeartbeats 1000000 in
/-- CASE A, the first edge block of a node block (first condition true, second false): on whole memrefs, the inputs' at
    contents `x0`, `x1`, the output's at `xo`, the accumulator at anything, the body runs to the continuation holding
    the first three as they were and the accumulator at the payload of the input blocks over zeros. -/
theorem run7_A (c : Dev nD) (i : grid7.Coords)
    (arg2 : Memref sig .tc .vmem S8000x1 .i32) (harg2 : arg2.IsWhole)
    (arg3 : Memref sig .tc .vmem S8000x300 .bf16) (harg3 : arg3.IsWhole)
    (arg4 : Memref sig .tc .vmem S1024x300 .f32) (harg4 : arg4.IsWhole)
    (arg5 : Memref sig .tc .vmem S1024x300 .f32) (harg5 : arg5.IsWhole)
    (hc0 : cond7_0 i) (hc1 : ¬cond7_1 i)
    (x0 : Vec F S8000x1 .i32) (x1 : Vec F S8000x300 .bf16) (xo : Vec F S1024x300 .f32)
    (E : Set ℕ) (K : PUnit → sProp 𝕄) :
    iprop(owns (c : Thread nD τ) arg2 fullShare x0 ∗ owns (c : Thread nD τ) arg3 fullShare x1
        ∗ owns (c : Thread nD τ) arg4 fullShare xo ∗ (∃ d, owns (c : Thread nD τ) arg5 fullShare d)
        ∗ (iprop(owns (c : Thread nD τ) arg2 fullShare x0 ∗ owns (c : Thread nD τ) arg3 fullShare x1
            ∗ owns (c : Thread nD τ) arg4 fullShare xo
            ∗ owns (c : Thread nD τ) arg5 fullShare (k7_pay2 (F := F) i x0 x1 (k7_pay1 (F := F)))) -∗ K ⟨⟩))
      ⊢ wp frame (wpE (defs₀ (F := F)) Variants.none c none) E (cc7_kernel i arg2 harg2 arg3 harg3 arg4 harg4 arg5 harg5) K := by
  simp only [cc7_kernel_eq_skeleton]; unfold cc7_kernel_skel
  unfold owns
  iintro ⟨⟨%f0, %hf0, H0⟩, ⟨%f1, %hf1, H1⟩, ⟨%f2, %hf2, H2⟩, ⟨%ds, %fs, -, HS⟩, Hk⟩
  subst hf0; subst hf1; subst hf2
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact HS
  ipureintro
  sl_unfold_run_names
  rw [read_writes_whole7 _ _ hz7]
  simp only [View.readAt_eq_ld, View.ld_unit_zero (S := S8000x1) hz7, View.ld_unit_zero (S := S8000x300) hz7,
    View.readCov_unit_zero (S := S1024x300) _ hz7]

set_option maxHeartbeats 1000000 in
/-- CASE B, an edge block that is neither the first nor the last (both conditions false): the accumulator, found at
    `xs`, is left at the payload of the input blocks over `xs`; the output's buffer is not touched. -/
theorem run7_B (c : Dev nD) (i : grid7.Coords)
    (arg2 : Memref sig .tc .vmem S8000x1 .i32) (harg2 : arg2.IsWhole)
    (arg3 : Memref sig .tc .vmem S8000x300 .bf16) (harg3 : arg3.IsWhole)
    (arg4 : Memref sig .tc .vmem S1024x300 .f32) (harg4 : arg4.IsWhole)
    (arg5 : Memref sig .tc .vmem S1024x300 .f32) (harg5 : arg5.IsWhole)
    (hc0 : ¬cond7_0 i) (hc1 : ¬cond7_1 i)
    (x0 : Vec F S8000x1 .i32) (x1 : Vec F S8000x300 .bf16) (xo : Vec F S1024x300 .f32) (xs : Vec F S1024x300 .f32)
    (E : Set ℕ) (K : PUnit → sProp 𝕄) :
    iprop(owns (c : Thread nD τ) arg2 fullShare x0 ∗ owns (c : Thread nD τ) arg3 fullShare x1
        ∗ owns (c : Thread nD τ) arg4 fullShare xo ∗ owns (c : Thread nD τ) arg5 fullShare xs
        ∗ (iprop(owns (c : Thread nD τ) arg2 fullShare x0 ∗ owns (c : Thread nD τ) arg3 fullShare x1
            ∗ owns (c : Thread nD τ) arg4 fullShare xo
            ∗ owns (c : Thread nD τ) arg5 fullShare (k7_pay2 (F := F) i x0 x1 xs)) -∗ K ⟨⟩))
      ⊢ wp frame (wpE (defs₀ (F := F)) Variants.none c none) E (cc7_kernel i arg2 harg2 arg3 harg3 arg4 harg4 arg5 harg5) K := by
  simp only [cc7_kernel_eq_skeleton]; unfold cc7_kernel_skel
  unfold owns
  iintro ⟨⟨%f0, %hf0, H0⟩, ⟨%f1, %hf1, H1⟩, ⟨%f2, %hf2, H2⟩, ⟨%fs, %hfs, HS⟩, Hk⟩
  subst hf0; subst hf1; subst hf2; subst hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact HS
  ipureintro
  sl_unfold_run_names
  rw [read_writes_whole7 _ _ hz7]
  simp only [View.readAt_eq_ld, View.ld_unit_zero (S := S8000x1) hz7, View.ld_unit_zero (S := S8000x300) hz7,
    View.ld_unit_zero (S := S1024x300) hz7]

set_option maxHeartbeats 1000000 in
/-- CASE C, the last edge block of a node block (first condition false, second true): the accumulator, found at `xs`,
    is left at the payload of the input blocks over `xs`, and the output's buffer, found at anything, takes the same. -/
theorem run7_C (c : Dev nD) (i : grid7.Coords)
    (arg2 : Memref sig .tc .vmem S8000x1 .i32) (harg2 : arg2.IsWhole)
    (arg3 : Memref sig .tc .vmem S8000x300 .bf16) (harg3 : arg3.IsWhole)
    (arg4 : Memref sig .tc .vmem S1024x300 .f32) (harg4 : arg4.IsWhole)
    (arg5 : Memref sig .tc .vmem S1024x300 .f32) (harg5 : arg5.IsWhole)
    (hc0 : ¬cond7_0 i) (hc1 : cond7_1 i)
    (x0 : Vec F S8000x1 .i32) (x1 : Vec F S8000x300 .bf16) (xs : Vec F S1024x300 .f32)
    (E : Set ℕ) (K : PUnit → sProp 𝕄) :
    iprop(owns (c : Thread nD τ) arg2 fullShare x0 ∗ owns (c : Thread nD τ) arg3 fullShare x1
        ∗ (∃ d, owns (c : Thread nD τ) arg4 fullShare d) ∗ owns (c : Thread nD τ) arg5 fullShare xs
        ∗ (iprop(owns (c : Thread nD τ) arg2 fullShare x0 ∗ owns (c : Thread nD τ) arg3 fullShare x1
            ∗ owns (c : Thread nD τ) arg4 fullShare (k7_pay2 (F := F) i x0 x1 xs)
            ∗ owns (c : Thread nD τ) arg5 fullShare (k7_pay2 (F := F) i x0 x1 xs)) -∗ K ⟨⟩))
      ⊢ wp frame (wpE (defs₀ (F := F)) Variants.none c none) E (cc7_kernel i arg2 harg2 arg3 harg3 arg4 harg4 arg5 harg5) K := by
  simp only [cc7_kernel_eq_skeleton]; unfold cc7_kernel_skel
  unfold owns
  iintro ⟨⟨%f0, %hf0, H0⟩, ⟨%f1, %hf1, H1⟩, ⟨%d2, %f2, -, H2⟩, ⟨%fs, %hfs, HS⟩, Hk⟩
  subst hf0; subst hf1; subst hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    sl_unfold_run_names
    rw [read_writes_whole7 _ _ hz7]
    simp only [View.readAt_eq_ld, View.ld_unit_zero (S := S8000x1) hz7, View.ld_unit_zero (S := S8000x300) hz7,
      View.ld_unit_zero (S := S1024x300) hz7, View.readCov_unit_zero (S := S1024x300) _ hz7]
  iexists _; isplitr
  swap; · iexact HS
  ipureintro
  sl_unfold_run_names
  rw [read_writes_whole7 _ _ hz7]
  simp only [View.readAt_eq_ld, View.ld_unit_zero (S := S8000x1) hz7, View.ld_unit_zero (S := S8000x300) hz7,
    View.ld_unit_zero (S := S1024x300) hz7]

end Cert.KernelIdeal.Reg7

end
-- ==== Proof.KI.Reg7.lean ====
/- Region 7 (custom_call 7, `cc7_kernel`, grid ![10, 20]) at the buffer contents `V` the region is entered with: the
   windows' blocks, what the accumulator and the output's staging buffer hold after each grid point, the pipeline's proof
   data, and the body obligation. The accumulator is the kernel's own scratch buffer (shape 1024x300): the invariant
   hands it to the body out of the scoped buffers no window stages, at anything before the first point and afterwards at
   what the point before left in it. -/
import proofs.«411400_j9251359555630_1_alg».proof.Proof.KI.Reg7Runs

set_option maxRecDepth 16384

noncomputable section

namespace Cert.KernelIdeal.Reg7

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region
-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

/-! ## The memrefs the body is called with -/

/-- Each window's current staging memref at point `t`, as the pipeline passes it, and its wholeness. -/
abbrev ms7_0 (t : Fin cfg7.N) : Memref sig .tc .vmem S8000x1 .i32 := win7_0.stage (cfg7.slots t 0)
abbrev hs7_0 (t : Fin cfg7.N) : (ms7_0 t).IsWhole := hstage7_0 ((cfg7.slots t 0).cast nbuf7_0)
abbrev ms7_1 (t : Fin cfg7.N) : Memref sig .tc .vmem S8000x300 .bf16 := win7_1.stage (cfg7.slots t 1)
abbrev hs7_1 (t : Fin cfg7.N) : (ms7_1 t).IsWhole := hstage7_1 ((cfg7.slots t 1).cast nbuf7_1)
abbrev ms7_2 (t : Fin cfg7.N) : Memref sig .tc .vmem S1024x300 .f32 := win7_2.stage (cfg7.slots t 2)
abbrev hs7_2 (t : Fin cfg7.N) : (ms7_2 t).IsWhole := hstage7_2 ((cfg7.slots t 2).cast nbuf7_2)
/-- The accumulator: a whole scoped buffer of the kernel's own, passed beside the windows. -/
abbrev scM7_0 : Memref sig .tc .vmem S1024x300 .f32 := Memref.whole cc7_scratch0

/-! ## What the accumulator and the output hold after each point -/

/-- (output staging buffer, accumulator) after the body at position `n`. The accumulator is the payload `k7_pay2` of the
    point's two input blocks over zeros (`k7_pay1`) where `n % 20 = 0` and over what the point before left elsewhere.
    The output's buffer takes the accumulator where `n % 20 = 19`; elsewhere the body leaves it as found (the component
    there repeats the previous one, and at position 0 the accumulator: a placeholder nothing reads). -/
def outsAt7 (c : Dev nD) : (n : ℕ) → n < cfg7.N → Vec F S1024x300 .f32 × Vec F S1024x300 .f32
  | 0, hn =>
    (k7_pay2 (F := F) (grid7.coords ⟨0, hn⟩) (iblk7 V c 0 ⟨0, hn⟩) (iblk7 V c 1 ⟨0, hn⟩) (k7_pay1 (F := F)),
     k7_pay2 (F := F) (grid7.coords ⟨0, hn⟩) (iblk7 V c 0 ⟨0, hn⟩) (iblk7 V c 1 ⟨0, hn⟩) (k7_pay1 (F := F)))
  | n + 1, hn =>
    (if (n + 1) % 20 = 19 then
        k7_pay2 (F := F) (grid7.coords ⟨n + 1, hn⟩) (iblk7 V c 0 ⟨n + 1, hn⟩) (iblk7 V c 1 ⟨n + 1, hn⟩)
          (if (n + 1) % 20 = 0 then k7_pay1 (F := F) else (outsAt7 c n (Nat.lt_of_succ_lt hn)).2)
      else (outsAt7 c n (Nat.lt_of_succ_lt hn)).1,
     k7_pay2 (F := F) (grid7.coords ⟨n + 1, hn⟩) (iblk7 V c 0 ⟨n + 1, hn⟩) (iblk7 V c 1 ⟨n + 1, hn⟩)
       (if (n + 1) % 20 = 0 then k7_pay1 (F := F) else (outsAt7 c n (Nat.lt_of_succ_lt hn)).2))

/-- The accumulator's step: the payload of the point's blocks over zeros at the first edge block of a node block, over
    the previous accumulator elsewhere. -/
theorem scratch_step7 (c : Dev nD) (t : Fin cfg7.N) :
    (outsAt7 V c t.val t.isLt).2 = k7_pay2 (F := F) (grid7.coords t) (iblk7 V c 0 t) (iblk7 V c 1 t)
      (if t.val % 20 = 0 then k7_pay1 (F := F) else (outsAt7 V c (t.val - 1) (Nat.lt_of_le_of_lt (Nat.sub_le _ _) t.isLt)).2) := by
  obtain ⟨n, hn⟩ := t
  cases n with
  | zero => exact congrArg (k7_pay2 (F := F) (grid7.coords ⟨0, hn⟩) (iblk7 V c 0 ⟨0, hn⟩) (iblk7 V c 1 ⟨0, hn⟩)) (if_pos (Nat.zero_mod 20)).symm
  | succ n => rfl

/-- At the last edge block of a node block the output's buffer is the accumulator. -/
theorem out_flush7 (c : Dev nD) (t : Fin cfg7.N) (h : t.val % 20 = 19) :
    (outsAt7 V c t.val t.isLt).1 = (outsAt7 V c t.val t.isLt).2 := by
  obtain ⟨n, hn⟩ := t
  cases n with
  | zero => rfl
  | succ n => exact if_pos h

/-! ## The invariant -/

/-- The region invariant before position `n`: before the first point the scoped buffers no window stages, each at
    anything (the accumulator among them); afterwards the accumulator at what the point before left in it, beside the
    others, unopened. -/
def PhiS7 (c : Dev nD) : (n : ℕ) → n ≤ cfg7.N → sProp 𝕄
  | 0, _ => Pipeline.scopedRest (Ix := Unit) (Name := ℕ) (U := UR sig nD τ) (Lvl := ℕ) (Val := Elt F) spec7 c
  | n + 1, hn => iprop(owns (c : Thread nD τ) scM7_0 fullShare ((outsAt7 V c n hn).2) ∗ Pipeline.scopedRestBut (Ix := Unit) (Name := ℕ) (U := UR sig nD τ) (Lvl := ℕ) (Val := Elt F) spec7 c [cc7_scratch0])

theorem PhiS7_zero (c : Dev nD) (n : ℕ) (h : n ≤ cfg7.N) (hz : n = 0) : PhiS7 V c n h = Pipeline.scopedRest (Ix := Unit) (Name := ℕ) (U := UR sig nD τ) (Lvl := ℕ) (Val := Elt F) spec7 c := by
  subst hz; rfl

theorem PhiS7_succ (c : Dev nD) (n : ℕ) (hn : n < cfg7.N) :
    PhiS7 V c (n + 1) hn = iprop(owns (c : Thread nD τ) scM7_0 fullShare ((outsAt7 V c n hn).2) ∗ Pipeline.scopedRestBut (Ix := Unit) (Name := ℕ) (U := UR sig nD τ) (Lvl := ℕ) (Val := Elt F) spec7 c [cc7_scratch0]) := rfl

theorem PhiS7_pos (c : Dev nD) (n : ℕ) (h : n ≤ cfg7.N) (hz : n ≠ 0) :
    PhiS7 V c n h = iprop(owns (c : Thread nD τ) scM7_0 fullShare ((outsAt7 V c (n - 1) (by omega)).2) ∗ Pipeline.scopedRestBut (Ix := Unit) (Name := ℕ) (U := UR sig nD τ) (Lvl := ℕ) (Val := Elt F) spec7 c [cc7_scratch0]) := by
  cases n with
  | zero => exact absurd rfl hz
  | succ n => rfl

/-- The scoped buffers no window stages, with the accumulator taken out as a memref owned at some contents. -/
theorem scopedRest7_acc (c : Dev nD) :
    (Pipeline.scopedRest (Ix := Unit) (Name := ℕ) (U := UR sig nD τ) (Lvl := ℕ) (Val := Elt F) spec7 c : sProp 𝕄)
      = iprop(iprop(∃ d, owns (c : Thread nD τ) scM7_0 fullShare d) ∗ Pipeline.scopedRestBut (Ix := Unit) (Name := ℕ) (U := UR sig nD τ) (Lvl := ℕ) (Val := Elt F) spec7 c [cc7_scratch0]) := by
  rw [scopedRest7_split]; simp only [scM7_0, owns_whole]; try rfl

/-! ## The pipeline's proof data -/

/-- The proof data of pipeline 7 on core `c`: the arrays as the region finds them; after the body at point `t` each
    input's buffer at its block and the output's at `outsAt7`'s first component; the invariant `PhiS7`; nothing owed;
    full shares. -/
def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => (outsAt7 V c t.val t.isLt).1
  Φ t := PhiS7 V c t.val (Nat.le_of_lt_succ t.isLt)
  q _ := fullShare
  owed _ := 0

/-- The proof data's arrays are the region-entry contents. -/
theorem A_eq7 (c : Dev nD) (w : Fin cfg7.W) : (dat7 V c).A w = V c (Pipeline.arrRef spec7 w) := by
  dsimp only [dat7]

/-- What the body leaves, window by window. -/
theorem after7_0 (c : Dev nD) (t : Fin cfg7.N) : (dat7 V c).after 0 t = iblk7 V c 0 t := by dsimp only [dat7]
theorem after7_1 (c : Dev nD) (t : Fin cfg7.N) : (dat7 V c).after 1 t = iblk7 V c 1 t := by dsimp only [dat7]
theorem after7_2 (c : Dev nD) (t : Fin cfg7.N) : (dat7 V c).after 2 t = (outsAt7 V c t.val t.isLt).1 := by dsimp only [dat7]

/-- The invariant at a point's start, restated at the point's position. -/
theorem PhiS7_castSucc (c : Dev nD) (t : Fin cfg7.N) :
    (dat7 V c).Φ t.castSucc = PhiS7 V c t.val (Nat.le_of_lt t.isLt) := by
  dsimp only [dat7]; simp only [Fin.coe_castSucc]

/-- Each input's current staging buffer holds its block at every point: both are fetched at every point, and neither
    window is cut, so the fetch fills the whole buffer with the array's block. -/
theorem before7_0 (c : Dev nD) (t : Fin cfg7.N) (d) : (dat7 V c).before 0 t d = iblk7 V c 0 t := by
  unfold Dat.before; rw [fetch7_0 t, if_pos rfl]; unfold Dat.fetched Dat.blockOf iblk7; rw [A_eq7]; rfl
theorem before7_1 (c : Dev nD) (t : Fin cfg7.N) (d) : (dat7 V c).before 1 t d = iblk7 V c 1 t := by
  unfold Dat.before; rw [fetch7_1 t, if_pos rfl]; unfold Dat.fetched Dat.blockOf iblk7; rw [A_eq7]; rfl

/-- The inputs' buffers are handed back at their blocks (the windows are never idle). -/
theorem leaves7_0 (c : Dev nD) (t : Fin cfg7.N) :
    (dat7 V c).leavesExact 0 t = owns (c : Thread nD τ) (ms7_0 t) fullShare (iblk7 V c 0 t) := by
  unfold Dat.leavesExact; rw [liveAt7_0 t, after7_0]
theorem leaves7_1 (c : Dev nD) (t : Fin cfg7.N) :
    (dat7 V c).leavesExact 1 t = owns (c : Thread nD τ) (ms7_1 t) fullShare (iblk7 V c 1 t) := by
  unfold Dat.leavesExact; rw [liveAt7_1 t, after7_1]

/-! ## The body obligation, at a generic point -/

/-- What the body is called with at point `t`, the windows one by one, -/
def bodyPre7 (c : Dev nD) (t : Fin cfg7.N) : sProp 𝕄 :=
  iprop((dat7 V c).Φ t.castSucc ∗ (dat7 V c).owesAt () t.castSucc
    ∗ (∃ d, owns (c : Thread nD τ) (ms7_0 t) fullShare ((dat7 V c).before 0 t d))
    ∗ (∃ d, owns (c : Thread nD τ) (ms7_1 t) fullShare ((dat7 V c).before 1 t d))
    ∗ (∃ d, owns (c : Thread nD τ) (ms7_2 t) fullShare ((dat7 V c).before 2 t d)))

/-- and what it returns. -/
def bodyPost7 (c : Dev nD) (t : Fin cfg7.N) : sProp 𝕄 :=
  iprop((dat7 V c).Φ t.succ ∗ (dat7 V c).owesAt () t.succ
    ∗ (dat7 V c).leavesExact 0 t
    ∗ (dat7 V c).leavesExact 1 t
    ∗ (dat7 V c).leavesExact 2 t)

set_option maxHeartbeats 4800000 in
/-- The body at any point. The inputs' memrefs hold their blocks; the position modulo 20 says which case the point is
    in. The invariant hands the body the accumulator (at anything before the first point, else at what the point before
    left) and takes it back at this point's contents (`scratch_step7`). Off the last edge block the output's buffer goes
    back as found; at it, the buffer takes the accumulator (`out_flush7`). The core owes nothing throughout. -/
theorem sound_body7 (c : Dev nD) (t : Fin cfg7.N) :
    bodyPre7 V c t ⊢ wp frame (wpE (defs₀ (F := F)) Variants.none c none) Set.univ (bodyAt7 t) (fun _ => bodyPost7 V c t) := by
  unfold bodyPre7 bodyPost7 bodyAt7
  simp only [before7_0, before7_1]
  rw [show (dat7 V c).owesAt () t.succ = (dat7 V c).owesAt () t.castSucc from rfl]
  rw [show (dat7 V c).Φ t.succ = PhiS7 V c (t.val + 1) t.isLt from rfl, PhiS7_succ]
  rw [leaves7_0, leaves7_1]
  have hN : t.val < 200 := lt_of_lt_of_eq t.isLt (show cfg7.N = 200 from N_7)
  by_cases h0 : t.val % 20 = 0
  · have h1 : ¬t.val % 20 = 19 := by omega
    rw [Dat.leavesExact_idle (dat7 V c) 2 t (idleAt7_2 _ (fun h => h1 ((hcond7_1 t).mp h))) (noFlush7_2 t h1)]
    rw [scratch_step7 V c t, if_pos h0]
    by_cases hz : t.val = 0
    · rw [PhiS7_castSucc V c t, PhiS7_zero V c _ _ hz, scopedRest7_acc]
      iintro ⟨⟨HS, HR⟩, Ho, ⟨%d0, H0⟩, ⟨%d1, H1⟩, ⟨%d2, H2⟩⟩
      iapply (run7_A c (grid7.coords t) _ _ _ _ _ _ _ _ ((hcond7_0 t).mpr h0) (fun h => h1 ((hcond7_1 t).mp h)) (iblk7 V c 0 t) (iblk7 V c 1 t) _ Set.univ _)
      isplitl [H0]; · iexact H0
      isplitl [H1]; · iexact H1
      isplitl [H2]; · iexact H2
      isplitl [HS]; · iexact HS
      iintro ⟨H0, H1, H2, HS⟩
      isplitl [HS HR]
      · isplitl [HS]; · iexact HS
        iexact HR
      isplitl [Ho]; · iexact Ho
      isplitl [H0]; · iexact H0
      isplitl [H1]; · iexact H1
      iexists _; iexact H2
    · rw [PhiS7_castSucc V c t, PhiS7_pos V c _ _ hz]
      iintro ⟨⟨HS, HR⟩, Ho, ⟨%d0, H0⟩, ⟨%d1, H1⟩, ⟨%d2, H2⟩⟩
      iapply (run7_A c (grid7.coords t) _ _ _ _ _ _ _ _ ((hcond7_0 t).mpr h0) (fun h => h1 ((hcond7_1 t).mp h)) (iblk7 V c 0 t) (iblk7 V c 1 t) _ Set.univ _)
      isplitl [H0]; · iexact H0
      isplitl [H1]; · iexact H1
      isplitl [H2]; · iexact H2
      isplitl [HS]; · iexists _; iexact HS
      iintro ⟨H0, H1, H2, HS⟩
      isplitl [HS HR]
      · isplitl [HS]; · iexact HS
        iexact HR
      isplitl [Ho]; · iexact Ho
      isplitl [H0]; · iexact H0
      isplitl [H1]; · iexact H1
      iexists _; iexact H2
  · have hz : t.val ≠ 0 := fun hz => h0 (by omega)
    rw [PhiS7_castSucc V c t, PhiS7_pos V c _ _ hz]
    by_cases h1 : t.val % 20 = 19
    · rw [show (dat7 V c).leavesExact 2 t = owns (c : Thread nD τ) (ms7_2 t) fullShare ((dat7 V c).after 2 t) from by
        unfold Dat.leavesExact; rw [liveAt7_2 (grid7.coords t) ((hcond7_1 t).mpr h1)], after7_2, out_flush7 V c t h1]
      rw [scratch_step7 V c t, if_neg h0]
      iintro ⟨⟨HS, HR⟩, Ho, ⟨%d0, H0⟩, ⟨%d1, H1⟩, ⟨%d2, H2⟩⟩
      iapply (run7_C c (grid7.coords t) _ _ _ _ _ _ _ _ (fun h => h0 ((hcond7_0 t).mp h)) ((hcond7_1 t).mpr h1) (iblk7 V c 0 t) (iblk7 V c 1 t) _ Set.univ _)
      isplitl [H0]; · iexact H0
      isplitl [H1]; · iexact H1
      isplitl [H2]; · iexists _; iexact H2
      isplitl [HS]; · iexact HS
      iintro ⟨H0, H1, H2, HS⟩
      isplitl [HS HR]
      · isplitl [HS]; · iexact HS
        iexact HR
      isplitl [Ho]; · iexact Ho
      isplitl [H0]; · iexact H0
      isplitl [H1]; · iexact H1
      iexact H2
    · rw [Dat.leavesExact_idle (dat7 V c) 2 t (idleAt7_2 _ (fun h => h1 ((hcond7_1 t).mp h))) (noFlush7_2 t h1)]
      rw [scratch_step7 V c t, if_neg h0]
      iintro ⟨⟨HS, HR⟩, Ho, ⟨%d0, H0⟩, ⟨%d1, H1⟩, ⟨%d2, H2⟩⟩
      iapply (run7_B c (grid7.coords t) _ _ _ _ _ _ _ _ (fun h => h0 ((hcond7_0 t).mp h)) (fun h => h1 ((hcond7_1 t).mp h)) (iblk7 V c 0 t) (iblk7 V c 1 t) _ _ Set.univ _)
      isplitl [H0]; · iexact H0
      isplitl [H1]; · iexact H1
      isplitl [H2]; · iexact H2
      isplitl [HS]; · iexact HS
      iintro ⟨H0, H1, H2, HS⟩
      isplitl [HS HR]
      · isplitl [HS]; · iexact HS
        iexact HR
      isplitl [Ho]; · iexact Ho
      isplitl [H0]; · iexact H0
      isplitl [H1]; · iexact H1
      iexists _; iexact H2

/-- The library's body obligation, at every point. -/
theorem body_obligation7 (c : Dev nD) : BodyObligation (dat7 (F := F) V c) (defs₀ (F := F)) Variants.none () Set.univ := fun t => by
  rw [bigSep_W7, bigSep_W7]
  exact sound_body7 V c t

/-! ## The invariant at the region's two ends -/

/-- The scoped buffers no window stages are the invariant before the first point. -/
theorem Phi7_in (c : Dev nD) : (Pipeline.scopedRest (Ix := Unit) (Name := ℕ) (U := UR sig nD τ) (Lvl := ℕ) (Val := Elt F) spec7 c : sProp 𝕄) ⊢ (dat7 V c).Φ 0 := by
  rw [show (dat7 V c).Φ 0 = PhiS7 V c 0 (Nat.zero_le _) from rfl, PhiS7_zero V c 0 _ rfl]

/-- After the last point the invariant gives them back: the accumulator's named contents are forgotten. -/
theorem Phi7_out (c : Dev nD) : (dat7 V c).Φ (Fin.last cfg7.N) ⊢ (Pipeline.scopedRest (Ix := Unit) (Name := ℕ) (U := UR sig nD τ) (Lvl := ℕ) (Val := Elt F) spec7 c : sProp 𝕄) := by
  rw [show (dat7 V c).Φ (Fin.last cfg7.N) = PhiS7 V c (Fin.last cfg7.N).val (Nat.le_of_lt_succ (Fin.last cfg7.N).isLt) from rfl,
    PhiS7_pos V c _ _ (by rw [Fin.val_last]; have : cfg7.N = 200 := N_7; omega), scopedRest7_acc]
  iintro ⟨HS, HR⟩
  isplitl [HS]; · iexists _; iexact HS
  iexact HR

end Region

end Cert.KernelIdeal.Reg7

end
-- ==== Proof.KI.Reg8Runs.lean ====
/- Region 8 (custom_call 8, `cc8_kernel`, grid ![1, 5]): the segment sum's body in each of its three control
   cases. The body keeps an accumulator (its last operand, a whole scratch buffer of shape 1024x300): at the first edge
   block of a node block (grid coordinate 1 equal to 0) it stores zeros into it; at every point it adds the one-hot
   product of the point's two input blocks to it; at the last edge block (coordinate 1 equal to 4) it copies it to
   the output's staging buffer, which it otherwise does not touch. Each case is a triple whose post names the
   accumulator's new contents as the payload `k8_pay2` of the input blocks and the contents found (zeros after a
   reset). -/
import proofs.«411400_j9251359555630_1_alg».proof.Proof.Gen.KernelIdeal.Launch
import proofs.«411400_j9251359555630_1_alg».proof.Proof.Gen.KernelIdeal.Skeleton
import proofs.«411400_j9251359555630_1_alg».proof.Proof.Gen.KernelIdeal.Points
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.KernelIdeal.Reg8

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The branch conditions, in closed form over the grid -/

/-- The condition of the body's first `scf.if` (the accumulator's reset), from the grid coordinates. -/
abbrev cond8_0 (i : grid8.Coords) : Prop :=
  (Scalar.cmpi .ne (Scalar.extui (Scalar.cmpi .eq (BitVec.ofNat 32 (i 1).val) 0#32)) 0#32) = 1#1
/-- It holds at the points whose position is 0 modulo 5: the first edge block of each node block. -/
theorem hcond8_0 : ∀ t : Fin cfg8.N, cond8_0 (grid8.coords t) ↔ t.val % 5 = 0 :=
  (by decide +kernel : ∀ t : Fin grid8.N, cond8_0 (grid8.coords t) ↔ t.val % 5 = 0)

/-- The condition of the body's second `scf.if` (the copy to the output), from the grid coordinates. -/
abbrev cond8_1 (i : grid8.Coords) : Prop := k8_cond2 i = 1#1
/-- It holds at the points whose position is 4 modulo 5: the last edge block of each node block. -/
theorem hcond8_1 : ∀ t : Fin cfg8.N, cond8_1 (grid8.coords t) ↔ t.val % 5 = 4 :=
  (by decide +kernel : ∀ t : Fin grid8.N, cond8_1 (grid8.coords t) ↔ t.val % 5 = 4)

/-! ## Where the windows are idle -/

/-- The two input windows are never idle. -/
theorem liveAt8_0 (t : Fin cfg8.N) : cfg8.idle 0 (grid8.coords t) = false := rfl
theorem liveAt8_1 (t : Fin cfg8.N) : cfg8.idle 1 (grid8.coords t) = false := rfl
/-- The output window is idle exactly where the second condition fails: the body stores into it only under it. -/
theorem idleAt8_2 (i : grid8.Coords) (h : ¬cond8_1 i) : cfg8.idle 2 i = true := by
  show (!(k8_cond2 i == 1#1)) = true
  cases hb : (k8_cond2 i == 1#1) with
  | false => rfl
  | true => exact absurd (eq_of_beq hb) h
theorem liveAt8_2 (i : grid8.Coords) (h : cond8_1 i) : cfg8.idle 2 i = false := by
  show (!(k8_cond2 i == 1#1)) = false
  rw [show k8_cond2 i = 1#1 from h]; rfl
/-- Off the last edge block the output's block is not written back. -/
theorem noFlush8_2 (t : Fin cfg8.N) (h : ¬t.val % 5 = 4) : (cfg8.win 2).flush t = false :=
  Bool.eq_false_iff.mpr fun hf => h ((flush8_2 t).mp hf)

/-! ## Whole-buffer accesses -/

/-- The offsets of every access of the body: zero on both axes. -/
theorem hz8 : (![0, 0] : Fin 2 → Nat) = fun _ => 0 := funext fun a => by fin_cases a <;> rfl

/-- A store through the whole-shape rectangle at zero offsets, made last, is what the buffer then reads, whatever
    was stored before and whatever the buffer held. -/
theorem read_writes_whole8 {S : Shape} {e : EltTy} {sp : Space} (v : View sig .tc sp S e) (f : v.ty.Contents (Elt F))
    {off : Fin S.rank → Nat} (h : off = fun _ => 0) (inb : ∀ a, off a + S.size a ≤ S.size a)
    (w : S.Idx → Elt F e) (L : List (View.Piece (Elt F) S e)) :
    v.read (Elt F) (v.writes (Elt F) f ((⟨Rect.unit off S.size inb, w⟩ : View.Piece (Elt F) S e) :: L)) = w := by
  refine (View.read_writes_eq_canon v f _ fun y =>
    ⟨⟨Rect.unit off S.size inb, w⟩, List.mem_cons_self, View.mem_set_unit_zero h inb y⟩).trans ?_
  exact View.canon_cons_unit_zero h inb w L

/-! ## The body's triple, case by case -/

set_option maxHeartbeats 1000000 in
/-- CASE A, the first edge block of a node block (first condition true, second false): on whole memrefs, the inputs' at
    contents `x0`, `x1`, the output's at `xo`, the accumulator at anything, the body runs to the continuation holding
    the first three as they were and the accumulator at the payload of the input blocks over zeros. -/
theorem run8_A (c : Dev nD) (i : grid8.Coords)
    (arg2 : Memref sig .tc .vmem S2000x1 .i32) (harg2 : arg2.IsWhole)
    (arg3 : Memref sig .tc .vmem S2000x300 .bf16) (harg3 : arg3.IsWhole)
    (arg4 : Memref sig .tc .vmem S64x300 .f32) (harg4 : arg4.IsWhole)
    (arg5 : Memref sig .tc .vmem S64x300 .f32) (harg5 : arg5.IsWhole)
    (hc0 : cond8_0 i) (hc1 : ¬cond8_1 i)
    (x0 : Vec F S2000x1 .i32) (x1 : Vec F S2000x300 .bf16) (xo : Vec F S64x300 .f32)
    (E : Set ℕ) (K : PUnit → sProp 𝕄) :
    iprop(owns (c : Thread nD τ) arg2 fullShare x0 ∗ owns (c : Thread nD τ) arg3 fullShare x1
        ∗ owns (c : Thread nD τ) arg4 fullShare xo ∗ (∃ d, owns (c : Thread nD τ) arg5 fullShare d)
        ∗ (iprop(owns (c : Thread nD τ) arg2 fullShare x0 ∗ owns (c : Thread nD τ) arg3 fullShare x1
            ∗ owns (c : Thread nD τ) arg4 fullShare xo
            ∗ owns (c : Thread nD τ) arg5 fullShare (k8_pay2 (F := F) i x0 x1 (k8_pay1 (F := F)))) -∗ K ⟨⟩))
      ⊢ wp frame (wpE (defs₀ (F := F)) Variants.none c none) E (cc8_kernel i arg2 harg2 arg3 harg3 arg4 harg4 arg5 harg5) K := by
  simp only [cc8_kernel_eq_skeleton]; unfold cc8_kernel_skel
  unfold owns
  iintro ⟨⟨%f0, %hf0, H0⟩, ⟨%f1, %hf1, H1⟩, ⟨%f2, %hf2, H2⟩, ⟨%ds, %fs, -, HS⟩, Hk⟩
  subst hf0; subst hf1; subst hf2
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact HS
  ipureintro
  sl_unfold_run_names
  rw [read_writes_whole8 _ _ hz8]
  simp only [View.readAt_eq_ld, View.ld_unit_zero (S := S2000x1) hz8, View.ld_unit_zero (S := S2000x300) hz8,
    View.readCov_unit_zero (S := S64x300) _ hz8]

set_option maxHeartbeats 1000000 in
/-- CASE B, an edge block that is neither the first nor the last (both conditions false): the accumulator, found at
    `xs`, is left at the payload of the input blocks over `xs`; the output's buffer is not touched. -/
theorem run8_B (c : Dev nD) (i : grid8.Coords)
    (arg2 : Memref sig .tc .vmem S2000x1 .i32) (harg2 : arg2.IsWhole)
    (arg3 : Memref sig .tc .vmem S2000x300 .bf16) (harg3 : arg3.IsWhole)
    (arg4 : Memref sig .tc .vmem S64x300 .f32) (harg4 : arg4.IsWhole)
    (arg5 : Memref sig .tc .vmem S64x300 .f32) (harg5 : arg5.IsWhole)
    (hc0 : ¬cond8_0 i) (hc1 : ¬cond8_1 i)
    (x0 : Vec F S2000x1 .i32) (x1 : Vec F S2000x300 .bf16) (xo : Vec F S64x300 .f32) (xs : Vec F S64x300 .f32)
    (E : Set ℕ) (K : PUnit → sProp 𝕄) :
    iprop(owns (c : Thread nD τ) arg2 fullShare x0 ∗ owns (c : Thread nD τ) arg3 fullShare x1
        ∗ owns (c : Thread nD τ) arg4 fullShare xo ∗ owns (c : Thread nD τ) arg5 fullShare xs
        ∗ (iprop(owns (c : Thread nD τ) arg2 fullShare x0 ∗ owns (c : Thread nD τ) arg3 fullShare x1
            ∗ owns (c : Thread nD τ) arg4 fullShare xo
            ∗ owns (c : Thread nD τ) arg5 fullShare (k8_pay2 (F := F) i x0 x1 xs)) -∗ K ⟨⟩))
      ⊢ wp frame (wpE (defs₀ (F := F)) Variants.none c none) E (cc8_kernel i arg2 harg2 arg3 harg3 arg4 harg4 arg5 harg5) K := by
  simp only [cc8_kernel_eq_skeleton]; unfold cc8_kernel_skel
  unfold owns
  iintro ⟨⟨%f0, %hf0, H0⟩, ⟨%f1, %hf1, H1⟩, ⟨%f2, %hf2, H2⟩, ⟨%fs, %hfs, HS⟩, Hk⟩
  subst hf0; subst hf1; subst hf2; subst hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact HS
  ipureintro
  sl_unfold_run_names
  rw [read_writes_whole8 _ _ hz8]
  simp only [View.readAt_eq_ld, View.ld_unit_zero (S := S2000x1) hz8, View.ld_unit_zero (S := S2000x300) hz8,
    View.ld_unit_zero (S := S64x300) hz8]

set_option maxHeartbeats 1000000 in
/-- CASE C, the last edge block of a node block (first condition false, second true): the accumulator, found at `xs`,
    is left at the payload of the input blocks over `xs`, and the output's buffer, found at anything, takes the same. -/
theorem run8_C (c : Dev nD) (i : grid8.Coords)
    (arg2 : Memref sig .tc .vmem S2000x1 .i32) (harg2 : arg2.IsWhole)
    (arg3 : Memref sig .tc .vmem S2000x300 .bf16) (harg3 : arg3.IsWhole)
    (arg4 : Memref sig .tc .vmem S64x300 .f32) (harg4 : arg4.IsWhole)
    (arg5 : Memref sig .tc .vmem S64x300 .f32) (harg5 : arg5.IsWhole)
    (hc0 : ¬cond8_0 i) (hc1 : cond8_1 i)
    (x0 : Vec F S2000x1 .i32) (x1 : Vec F S2000x300 .bf16) (xs : Vec F S64x300 .f32)
    (E : Set ℕ) (K : PUnit → sProp 𝕄) :
    iprop(owns (c : Thread nD τ) arg2 fullShare x0 ∗ owns (c : Thread nD τ) arg3 fullShare x1
        ∗ (∃ d, owns (c : Thread nD τ) arg4 fullShare d) ∗ owns (c : Thread nD τ) arg5 fullShare xs
        ∗ (iprop(owns (c : Thread nD τ) arg2 fullShare x0 ∗ owns (c : Thread nD τ) arg3 fullShare x1
            ∗ owns (c : Thread nD τ) arg4 fullShare (k8_pay2 (F := F) i x0 x1 xs)
            ∗ owns (c : Thread nD τ) arg5 fullShare (k8_pay2 (F := F) i x0 x1 xs)) -∗ K ⟨⟩))
      ⊢ wp frame (wpE (defs₀ (F := F)) Variants.none c none) E (cc8_kernel i arg2 harg2 arg3 harg3 arg4 harg4 arg5 harg5) K := by
  simp only [cc8_kernel_eq_skeleton]; unfold cc8_kernel_skel
  unfold owns
  iintro ⟨⟨%f0, %hf0, H0⟩, ⟨%f1, %hf1, H1⟩, ⟨%d2, %f2, -, H2⟩, ⟨%fs, %hfs, HS⟩, Hk⟩
  subst hf0; subst hf1; subst hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    sl_unfold_run_names
    rw [read_writes_whole8 _ _ hz8]
    simp only [View.readAt_eq_ld, View.ld_unit_zero (S := S2000x1) hz8, View.ld_unit_zero (S := S2000x300) hz8,
      View.ld_unit_zero (S := S64x300) hz8, View.readCov_unit_zero (S := S64x300) _ hz8]
  iexists _; isplitr
  swap; · iexact HS
  ipureintro
  sl_unfold_run_names
  rw [read_writes_whole8 _ _ hz8]
  simp only [View.readAt_eq_ld, View.ld_unit_zero (S := S2000x1) hz8, View.ld_unit_zero (S := S2000x300) hz8,
    View.ld_unit_zero (S := S64x300) hz8]

end Cert.KernelIdeal.Reg8

end
-- ==== Proof.KI.Reg8.lean ====
/- Region 8 (custom_call 8, `cc8_kernel`, grid ![1, 5]) at the buffer contents `V` the region is entered with: the
   windows' blocks, what the accumulator and the output's staging buffer hold after each grid point, the pipeline's proof
   data, and the body obligation. The accumulator is the kernel's own scratch buffer (shape 1024x300): the invariant
   hands it to the body out of the scoped buffers no window stages, at anything before the first point and afterwards at
   what the point before left in it. -/
import proofs.«411400_j9251359555630_1_alg».proof.Proof.KI.Reg8Runs

set_option maxRecDepth 16384

noncomputable section

namespace Cert.KernelIdeal.Reg8

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region
-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk8 (c : Dev nD) (w : Fin cfg8.W) (t : Fin cfg8.N) : ((cfg8.win w).xblock (cfg8.grid.coords t)).Idx → Elt F (cfg8.win w).elt :=
  ((cfg8.win w).blk t).view.read (Elt F) (V c (Pipeline.arrRef spec8 w))

/-! ## The memrefs the body is called with -/

/-- Each window's current staging memref at point `t`, as the pipeline passes it, and its wholeness. -/
abbrev ms8_0 (t : Fin cfg8.N) : Memref sig .tc .vmem S2000x1 .i32 := win8_0.stage (cfg8.slots t 0)
abbrev hs8_0 (t : Fin cfg8.N) : (ms8_0 t).IsWhole := hstage8_0 ((cfg8.slots t 0).cast nbuf8_0)
abbrev ms8_1 (t : Fin cfg8.N) : Memref sig .tc .vmem S2000x300 .bf16 := win8_1.stage (cfg8.slots t 1)
abbrev hs8_1 (t : Fin cfg8.N) : (ms8_1 t).IsWhole := hstage8_1 ((cfg8.slots t 1).cast nbuf8_1)
abbrev ms8_2 (t : Fin cfg8.N) : Memref sig .tc .vmem S64x300 .f32 := win8_2.stage (cfg8.slots t 2)
abbrev hs8_2 (t : Fin cfg8.N) : (ms8_2 t).IsWhole := hstage8_2 ((cfg8.slots t 2).cast nbuf8_2)
/-- The accumulator: a whole scoped buffer of the kernel's own, passed beside the windows. -/
abbrev scM8_0 : Memref sig .tc .vmem S64x300 .f32 := Memref.whole cc8_scratch0

/-! ## What the accumulator and the output hold after each point -/

/-- (output staging buffer, accumulator) after the body at position `n`. The accumulator is the payload `k8_pay2` of the
    point's two input blocks over zeros (`k8_pay1`) where `n % 5 = 0` and over what the point before left elsewhere.
    The output's buffer takes the accumulator where `n % 5 = 4`; elsewhere the body leaves it as found (the component
    there repeats the previous one, and at position 0 the accumulator: a placeholder nothing reads). -/
def outsAt8 (c : Dev nD) : (n : ℕ) → n < cfg8.N → Vec F S64x300 .f32 × Vec F S64x300 .f32
  | 0, hn =>
    (k8_pay2 (F := F) (grid8.coords ⟨0, hn⟩) (iblk8 V c 0 ⟨0, hn⟩) (iblk8 V c 1 ⟨0, hn⟩) (k8_pay1 (F := F)),
     k8_pay2 (F := F) (grid8.coords ⟨0, hn⟩) (iblk8 V c 0 ⟨0, hn⟩) (iblk8 V c 1 ⟨0, hn⟩) (k8_pay1 (F := F)))
  | n + 1, hn =>
    (if (n + 1) % 5 = 4 then
        k8_pay2 (F := F) (grid8.coords ⟨n + 1, hn⟩) (iblk8 V c 0 ⟨n + 1, hn⟩) (iblk8 V c 1 ⟨n + 1, hn⟩)
          (if (n + 1) % 5 = 0 then k8_pay1 (F := F) else (outsAt8 c n (Nat.lt_of_succ_lt hn)).2)
      else (outsAt8 c n (Nat.lt_of_succ_lt hn)).1,
     k8_pay2 (F := F) (grid8.coords ⟨n + 1, hn⟩) (iblk8 V c 0 ⟨n + 1, hn⟩) (iblk8 V c 1 ⟨n + 1, hn⟩)
       (if (n + 1) % 5 = 0 then k8_pay1 (F := F) else (outsAt8 c n (Nat.lt_of_succ_lt hn)).2))

/-- The accumulator's step: the payload of the point's blocks over zeros at the first edge block of a node block, over
    the previous accumulator elsewhere. -/
theorem scratch_step8 (c : Dev nD) (t : Fin cfg8.N) :
    (outsAt8 V c t.val t.isLt).2 = k8_pay2 (F := F) (grid8.coords t) (iblk8 V c 0 t) (iblk8 V c 1 t)
      (if t.val % 5 = 0 then k8_pay1 (F := F) else (outsAt8 V c (t.val - 1) (Nat.lt_of_le_of_lt (Nat.sub_le _ _) t.isLt)).2) := by
  obtain ⟨n, hn⟩ := t
  cases n with
  | zero => exact congrArg (k8_pay2 (F := F) (grid8.coords ⟨0, hn⟩) (iblk8 V c 0 ⟨0, hn⟩) (iblk8 V c 1 ⟨0, hn⟩)) (if_pos (Nat.zero_mod 5)).symm
  | succ n => rfl

/-- At the last edge block of a node block the output's buffer is the accumulator. -/
theorem out_flush8 (c : Dev nD) (t : Fin cfg8.N) (h : t.val % 5 = 4) :
    (outsAt8 V c t.val t.isLt).1 = (outsAt8 V c t.val t.isLt).2 := by
  obtain ⟨n, hn⟩ := t
  cases n with
  | zero => rfl
  | succ n => exact if_pos h

/-! ## The invariant -/

/-- The region invariant before position `n`: before the first point the scoped buffers no window stages, each at
    anything (the accumulator among them); afterwards the accumulator at what the point before left in it, beside the
    others, unopened. -/
def PhiS8 (c : Dev nD) : (n : ℕ) → n ≤ cfg8.N → sProp 𝕄
  | 0, _ => Pipeline.scopedRest (Ix := Unit) (Name := ℕ) (U := UR sig nD τ) (Lvl := ℕ) (Val := Elt F) spec8 c
  | n + 1, hn => iprop(owns (c : Thread nD τ) scM8_0 fullShare ((outsAt8 V c n hn).2) ∗ Pipeline.scopedRestBut (Ix := Unit) (Name := ℕ) (U := UR sig nD τ) (Lvl := ℕ) (Val := Elt F) spec8 c [cc8_scratch0])

theorem PhiS8_zero (c : Dev nD) (n : ℕ) (h : n ≤ cfg8.N) (hz : n = 0) : PhiS8 V c n h = Pipeline.scopedRest (Ix := Unit) (Name := ℕ) (U := UR sig nD τ) (Lvl := ℕ) (Val := Elt F) spec8 c := by
  subst hz; rfl

theorem PhiS8_succ (c : Dev nD) (n : ℕ) (hn : n < cfg8.N) :
    PhiS8 V c (n + 1) hn = iprop(owns (c : Thread nD τ) scM8_0 fullShare ((outsAt8 V c n hn).2) ∗ Pipeline.scopedRestBut (Ix := Unit) (Name := ℕ) (U := UR sig nD τ) (Lvl := ℕ) (Val := Elt F) spec8 c [cc8_scratch0]) := rfl

theorem PhiS8_pos (c : Dev nD) (n : ℕ) (h : n ≤ cfg8.N) (hz : n ≠ 0) :
    PhiS8 V c n h = iprop(owns (c : Thread nD τ) scM8_0 fullShare ((outsAt8 V c (n - 1) (by omega)).2) ∗ Pipeline.scopedRestBut (Ix := Unit) (Name := ℕ) (U := UR sig nD τ) (Lvl := ℕ) (Val := Elt F) spec8 c [cc8_scratch0]) := by
  cases n with
  | zero => exact absurd rfl hz
  | succ n => rfl

/-- The scoped buffers no window stages, with the accumulator taken out as a memref owned at some contents. -/
theorem scopedRest8_acc (c : Dev nD) :
    (Pipeline.scopedRest (Ix := Unit) (Name := ℕ) (U := UR sig nD τ) (Lvl := ℕ) (Val := Elt F) spec8 c : sProp 𝕄)
      = iprop(iprop(∃ d, owns (c : Thread nD τ) scM8_0 fullShare d) ∗ Pipeline.scopedRestBut (Ix := Unit) (Name := ℕ) (U := UR sig nD τ) (Lvl := ℕ) (Val := Elt F) spec8 c [cc8_scratch0]) := by
  rw [scopedRest8_split]; simp only [scM8_0, owns_whole]; try rfl

/-! ## The pipeline's proof data -/

/-- The proof data of pipeline 8 on core `c`: the arrays as the region finds them; after the body at point `t` each
    input's buffer at its block and the output's at `outsAt8`'s first component; the invariant `PhiS8`; nothing owed;
    full shares. -/
def dat8 (c : Dev nD) : Dat τ (Elt F) Unit ℕ (UR sig nD τ) ℕ cfg8 c where
  A w := V c (Pipeline.arrRef spec8 w)
  after w t := match w with
    | ⟨0, _⟩ => iblk8 V c 0 t
    | ⟨1, _⟩ => iblk8 V c 1 t
    | ⟨2, _⟩ => (outsAt8 V c t.val t.isLt).1
  Φ t := PhiS8 V c t.val (Nat.le_of_lt_succ t.isLt)
  q _ := fullShare
  owed _ := 0

/-- The proof data's arrays are the region-entry contents. -/
theorem A_eq8 (c : Dev nD) (w : Fin cfg8.W) : (dat8 V c).A w = V c (Pipeline.arrRef spec8 w) := by
  dsimp only [dat8]

/-- What the body leaves, window by window. -/
theorem after8_0 (c : Dev nD) (t : Fin cfg8.N) : (dat8 V c).after 0 t = iblk8 V c 0 t := by dsimp only [dat8]
theorem after8_1 (c : Dev nD) (t : Fin cfg8.N) : (dat8 V c).after 1 t = iblk8 V c 1 t := by dsimp only [dat8]
theorem after8_2 (c : Dev nD) (t : Fin cfg8.N) : (dat8 V c).after 2 t = (outsAt8 V c t.val t.isLt).1 := by dsimp only [dat8]

/-- The invariant at a point's start, restated at the point's position. -/
theorem PhiS8_castSucc (c : Dev nD) (t : Fin cfg8.N) :
    (dat8 V c).Φ t.castSucc = PhiS8 V c t.val (Nat.le_of_lt t.isLt) := by
  dsimp only [dat8]; simp only [Fin.coe_castSucc]

/-- Each input's current staging buffer holds its block at every point: both are fetched at every point, and neither
    window is cut, so the fetch fills the whole buffer with the array's block. -/
theorem before8_0 (c : Dev nD) (t : Fin cfg8.N) (d) : (dat8 V c).before 0 t d = iblk8 V c 0 t := by
  unfold Dat.before; rw [fetch8_0 t, if_pos rfl]; unfold Dat.fetched Dat.blockOf iblk8; rw [A_eq8]; rfl
theorem before8_1 (c : Dev nD) (t : Fin cfg8.N) (d) : (dat8 V c).before 1 t d = iblk8 V c 1 t := by
  unfold Dat.before; rw [fetch8_1 t, if_pos rfl]; unfold Dat.fetched Dat.blockOf iblk8; rw [A_eq8]; rfl

/-- The inputs' buffers are handed back at their blocks (the windows are never idle). -/
theorem leaves8_0 (c : Dev nD) (t : Fin cfg8.N) :
    (dat8 V c).leavesExact 0 t = owns (c : Thread nD τ) (ms8_0 t) fullShare (iblk8 V c 0 t) := by
  unfold Dat.leavesExact; rw [liveAt8_0 t, after8_0]
theorem leaves8_1 (c : Dev nD) (t : Fin cfg8.N) :
    (dat8 V c).leavesExact 1 t = owns (c : Thread nD τ) (ms8_1 t) fullShare (iblk8 V c 1 t) := by
  unfold Dat.leavesExact; rw [liveAt8_1 t, after8_1]

/-! ## The body obligation, at a generic point -/

/-- What the body is called with at point `t`, the windows one by one, -/
def bodyPre8 (c : Dev nD) (t : Fin cfg8.N) : sProp 𝕄 :=
  iprop((dat8 V c).Φ t.castSucc ∗ (dat8 V c).owesAt () t.castSucc
    ∗ (∃ d, owns (c : Thread nD τ) (ms8_0 t) fullShare ((dat8 V c).before 0 t d))
    ∗ (∃ d, owns (c : Thread nD τ) (ms8_1 t) fullShare ((dat8 V c).before 1 t d))
    ∗ (∃ d, owns (c : Thread nD τ) (ms8_2 t) fullShare ((dat8 V c).before 2 t d)))

/-- and what it returns. -/
def bodyPost8 (c : Dev nD) (t : Fin cfg8.N) : sProp 𝕄 :=
  iprop((dat8 V c).Φ t.succ ∗ (dat8 V c).owesAt () t.succ
    ∗ (dat8 V c).leavesExact 0 t
    ∗ (dat8 V c).leavesExact 1 t
    ∗ (dat8 V c).leavesExact 2 t)

set_option maxHeartbeats 4800000 in
/-- The body at any point. The inputs' memrefs hold their blocks; the position modulo 5 says which case the point is
    in. The invariant hands the body the accumulator (at anything before the first point, else at what the point before
    left) and takes it back at this point's contents (`scratch_step8`). Off the last edge block the output's buffer goes
    back as found; at it, the buffer takes the accumulator (`out_flush8`). The core owes nothing throughout. -/
theorem sound_body8 (c : Dev nD) (t : Fin cfg8.N) :
    bodyPre8 V c t ⊢ wp frame (wpE (defs₀ (F := F)) Variants.none c none) Set.univ (bodyAt8 t) (fun _ => bodyPost8 V c t) := by
  unfold bodyPre8 bodyPost8 bodyAt8
  simp only [before8_0, before8_1]
  rw [show (dat8 V c).owesAt () t.succ = (dat8 V c).owesAt () t.castSucc from rfl]
  rw [show (dat8 V c).Φ t.succ = PhiS8 V c (t.val + 1) t.isLt from rfl, PhiS8_succ]
  rw [leaves8_0, leaves8_1]
  have hN : t.val < 5 := lt_of_lt_of_eq t.isLt (show cfg8.N = 5 from N_8)
  by_cases h0 : t.val % 5 = 0
  · have h1 : ¬t.val % 5 = 4 := by omega
    rw [Dat.leavesExact_idle (dat8 V c) 2 t (idleAt8_2 _ (fun h => h1 ((hcond8_1 t).mp h))) (noFlush8_2 t h1)]
    rw [scratch_step8 V c t, if_pos h0]
    by_cases hz : t.val = 0
    · rw [PhiS8_castSucc V c t, PhiS8_zero V c _ _ hz, scopedRest8_acc]
      iintro ⟨⟨HS, HR⟩, Ho, ⟨%d0, H0⟩, ⟨%d1, H1⟩, ⟨%d2, H2⟩⟩
      iapply (run8_A c (grid8.coords t) _ _ _ _ _ _ _ _ ((hcond8_0 t).mpr h0) (fun h => h1 ((hcond8_1 t).mp h)) (iblk8 V c 0 t) (iblk8 V c 1 t) _ Set.univ _)
      isplitl [H0]; · iexact H0
      isplitl [H1]; · iexact H1
      isplitl [H2]; · iexact H2
      isplitl [HS]; · iexact HS
      iintro ⟨H0, H1, H2, HS⟩
      isplitl [HS HR]
      · isplitl [HS]; · iexact HS
        iexact HR
      isplitl [Ho]; · iexact Ho
      isplitl [H0]; · iexact H0
      isplitl [H1]; · iexact H1
      iexists _; iexact H2
    · rw [PhiS8_castSucc V c t, PhiS8_pos V c _ _ hz]
      iintro ⟨⟨HS, HR⟩, Ho, ⟨%d0, H0⟩, ⟨%d1, H1⟩, ⟨%d2, H2⟩⟩
      iapply (run8_A c (grid8.coords t) _ _ _ _ _ _ _ _ ((hcond8_0 t).mpr h0) (fun h => h1 ((hcond8_1 t).mp h)) (iblk8 V c 0 t) (iblk8 V c 1 t) _ Set.univ _)
      isplitl [H0]; · iexact H0
      isplitl [H1]; · iexact H1
      isplitl [H2]; · iexact H2
      isplitl [HS]; · iexists _; iexact HS
      iintro ⟨H0, H1, H2, HS⟩
      isplitl [HS HR]
      · isplitl [HS]; · iexact HS
        iexact HR
      isplitl [Ho]; · iexact Ho
      isplitl [H0]; · iexact H0
      isplitl [H1]; · iexact H1
      iexists _; iexact H2
  · have hz : t.val ≠ 0 := fun hz => h0 (by omega)
    rw [PhiS8_castSucc V c t, PhiS8_pos V c _ _ hz]
    by_cases h1 : t.val % 5 = 4
    · rw [show (dat8 V c).leavesExact 2 t = owns (c : Thread nD τ) (ms8_2 t) fullShare ((dat8 V c).after 2 t) from by
        unfold Dat.leavesExact; rw [liveAt8_2 (grid8.coords t) ((hcond8_1 t).mpr h1)], after8_2, out_flush8 V c t h1]
      rw [scratch_step8 V c t, if_neg h0]
      iintro ⟨⟨HS, HR⟩, Ho, ⟨%d0, H0⟩, ⟨%d1, H1⟩, ⟨%d2, H2⟩⟩
      iapply (run8_C c (grid8.coords t) _ _ _ _ _ _ _ _ (fun h => h0 ((hcond8_0 t).mp h)) ((hcond8_1 t).mpr h1) (iblk8 V c 0 t) (iblk8 V c 1 t) _ Set.univ _)
      isplitl [H0]; · iexact H0
      isplitl [H1]; · iexact H1
      isplitl [H2]; · iexists _; iexact H2
      isplitl [HS]; · iexact HS
      iintro ⟨H0, H1, H2, HS⟩
      isplitl [HS HR]
      · isplitl [HS]; · iexact HS
        iexact HR
      isplitl [Ho]; · iexact Ho
      isplitl [H0]; · iexact H0
      isplitl [H1]; · iexact H1
      iexact H2
    · rw [Dat.leavesExact_idle (dat8 V c) 2 t (idleAt8_2 _ (fun h => h1 ((hcond8_1 t).mp h))) (noFlush8_2 t h1)]
      rw [scratch_step8 V c t, if_neg h0]
      iintro ⟨⟨HS, HR⟩, Ho, ⟨%d0, H0⟩, ⟨%d1, H1⟩, ⟨%d2, H2⟩⟩
      iapply (run8_B c (grid8.coords t) _ _ _ _ _ _ _ _ (fun h => h0 ((hcond8_0 t).mp h)) (fun h => h1 ((hcond8_1 t).mp h)) (iblk8 V c 0 t) (iblk8 V c 1 t) _ _ Set.univ _)
      isplitl [H0]; · iexact H0
      isplitl [H1]; · iexact H1
      isplitl [H2]; · iexact H2
      isplitl [HS]; · iexact HS
      iintro ⟨H0, H1, H2, HS⟩
      isplitl [HS HR]
      · isplitl [HS]; · iexact HS
        iexact HR
      isplitl [Ho]; · iexact Ho
      isplitl [H0]; · iexact H0
      isplitl [H1]; · iexact H1
      iexists _; iexact H2

/-- The library's body obligation, at every point. -/
theorem body_obligation8 (c : Dev nD) : BodyObligation (dat8 (F := F) V c) (defs₀ (F := F)) Variants.none () Set.univ := fun t => by
  rw [bigSep_W8, bigSep_W8]
  exact sound_body8 V c t

/-! ## The invariant at the region's two ends -/

/-- The scoped buffers no window stages are the invariant before the first point. -/
theorem Phi8_in (c : Dev nD) : (Pipeline.scopedRest (Ix := Unit) (Name := ℕ) (U := UR sig nD τ) (Lvl := ℕ) (Val := Elt F) spec8 c : sProp 𝕄) ⊢ (dat8 V c).Φ 0 := by
  rw [show (dat8 V c).Φ 0 = PhiS8 V c 0 (Nat.zero_le _) from rfl, PhiS8_zero V c 0 _ rfl]

/-- After the last point the invariant gives them back: the accumulator's named contents are forgotten. -/
theorem Phi8_out (c : Dev nD) : (dat8 V c).Φ (Fin.last cfg8.N) ⊢ (Pipeline.scopedRest (Ix := Unit) (Name := ℕ) (U := UR sig nD τ) (Lvl := ℕ) (Val := Elt F) spec8 c : sProp 𝕄) := by
  rw [show (dat8 V c).Φ (Fin.last cfg8.N) = PhiS8 V c (Fin.last cfg8.N).val (Nat.le_of_lt_succ (Fin.last cfg8.N).isLt) from rfl,
    PhiS8_pos V c _ _ (by rw [Fin.val_last]; have : cfg8.N = 5 := N_8; omega), scopedRest8_acc]
  iintro ⟨HS, HR⟩
  isplitl [HS]; · iexists _; iexact HS
  iexact HR

end Region

end Cert.KernelIdeal.Reg8

end
-- ==== Proof.KI.Vals.lean ====
/-
  The buffer contents between the items of the kernel program's @main, with every region's output named.

  `W j` is the contents after item j-1: a host stretch applies its operations to the contents before it; a region
  replaces its output array by what its pipeline's proof data fold from the write-backs (`Dat.arrAt 2 N` of the region's
  data at the contents the region is entered from) and changes nothing else.  The family `outs` hands the generated
  valuations each region's output, and then those valuations ARE the `W j` (`Veq_j`, one step at a time).
-/
import proofs.«411400_j9251359555630_1_alg».proof.Proof.KI.RegionsP
import proofs.«411400_j9251359555630_1_alg».proof.Proof.KI.Reg0
import proofs.«411400_j9251359555630_1_alg».proof.Proof.KI.Reg1
import proofs.«411400_j9251359555630_1_alg».proof.Proof.KI.Reg2
import proofs.«411400_j9251359555630_1_alg».proof.Proof.KI.Reg3
import proofs.«411400_j9251359555630_1_alg».proof.Proof.KI.Reg4
import proofs.«411400_j9251359555630_1_alg».proof.Proof.KI.Reg5
import proofs.«411400_j9251359555630_1_alg».proof.Proof.KI.Reg6
import proofs.«411400_j9251359555630_1_alg».proof.Proof.KI.Reg7
import proofs.«411400_j9251359555630_1_alg».proof.Proof.KI.Reg8

noncomputable section

namespace Cert.KernelIdeal.Run

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)
open Cert.KernelIdeal Cert.KernelIdeal.Gen

variable {F : FTy → Type} [FloatOps F]
variable (m : (ℓ : Loc nD τ sig) → Buf (Elt F) ℓ)

/-! ## The contents after each item -/

/-- The launch contents. -/
def W0 (c : Dev nD) : Valuation τ sig (Elt F) := V0 m c
/-- After item 0, the host stretch `hostOps0`. -/
def W1 (c : Dev nD) : Valuation τ sig (Elt F) := StableHlo.after hostOps0 (W0 m c)
/-- What region 0 is entered from. -/
abbrev Vin0 (c : Dev nD) (b : Ref sig .tc) : Buf (Elt F) ((c : Thread nD τ).loc b) := W1 m c b
/-- What region 0 leaves in its output array `main_v15`. -/
def o0 (c : Dev nD) : Buf (Elt F) ((c : Thread nD τ).loc main_v15) := (Reg0.dat0 (Vin0 m) c).arrAt 2 cfg0.N
/-- After item 1, region 0: its output array replaced, nothing else changed. -/
def W2 (c : Dev nD) : Valuation τ sig (Elt F) := Function.update (W1 m c) main_v15 (o0 m c)
/-- After item 2, the host stretch `hostOps1`. -/
def W3 (c : Dev nD) : Valuation τ sig (Elt F) := StableHlo.after hostOps1 (W2 m c)
/-- After item 3, the host stretch `hostOps1_1`. -/
def W4 (c : Dev nD) : Valuation τ sig (Elt F) := StableHlo.after hostOps1_1 (W3 m c)
/-- After item 4, the host stretch `hostOps1_2`. -/
def W5 (c : Dev nD) : Valuation τ sig (Elt F) := StableHlo.after hostOps1_2 (W4 m c)
/-- After item 5, the host stretch `hostOps1_3`. -/
def W6 (c : Dev nD) : Valuation τ sig (Elt F) := StableHlo.after hostOps1_3 (W5 m c)
/-- After item 6, the host stretch `hostOps1_4`. -/
def W7 (c : Dev nD) : Valuation τ sig (Elt F) := StableHlo.after hostOps1_4 (W6 m c)
/-- After item 7, the host stretch `hostOps1_5`. -/
def W8 (c : Dev nD) : Valuation τ sig (Elt F) := StableHlo.after hostOps1_5 (W7 m c)
/-- After item 8, the host stretch `hostOps1_6`. -/
def W9 (c : Dev nD) : Valuation τ sig (Elt F) := StableHlo.after hostOps1_6 (W8 m c)
/-- After item 9, the host stretch `hostOps1_7`. -/
def W10 (c : Dev nD) : Valuation τ sig (Elt F) := StableHlo.after hostOps1_7 (W9 m c)
/-- After item 10, the host stretch `hostOps1_8`. -/
def W11 (c : Dev nD) : Valuation τ sig (Elt F) := StableHlo.after hostOps1_8 (W10 m c)
/-- What region 1 is entered from. -/
abbrev Vin1 (c : Dev nD) (b : Ref sig .tc) : Buf (Elt F) ((c : Thread nD τ).loc b) := W11 m c b
/-- What region 1 leaves in its output array `main_v95`. -/
def o1 (c : Dev nD) : Buf (Elt F) ((c : Thread nD τ).loc main_v95) := (Reg1.dat1 (Vin1 m) c).arrAt 2 cfg1.N
/-- After item 11, region 1: its output array replaced, nothing else changed. -/
def W12 (c : Dev nD) : Valuation τ sig (Elt F) := Function.update (W11 m c) main_v95 (o1 m c)
/-- After item 12, the host stretch `hostOps2`. -/
def W13 (c : Dev nD) : Valuation τ sig (Elt F) := StableHlo.after hostOps2 (W12 m c)
/-- After item 13, the host stretch `hostOps2_1`. -/
def W14 (c : Dev nD) : Valuation τ sig (Elt F) := StableHlo.after hostOps2_1 (W13 m c)
/-- After item 14, the host stretch `hostOps2_2`. -/
def W15 (c : Dev nD) : Valuation τ sig (Elt F) := StableHlo.after hostOps2_2 (W14 m c)
/-- After item 15, the host stretch `hostOps2_3`. -/
def W16 (c : Dev nD) : Valuation τ sig (Elt F) := StableHlo.after hostOps2_3 (W15 m c)
/-- After item 16, the host stretch `hostOps2_4`. -/
def W17 (c : Dev nD) : Valuation τ sig (Elt F) := StableHlo.after hostOps2_4 (W16 m c)
/-- After item 17, the host stretch `hostOps2_5`. -/
def W18 (c : Dev nD) : Valuation τ sig (Elt F) := StableHlo.after hostOps2_5 (W17 m c)
/-- After item 18, the host stretch `hostOps2_6`. -/
def W19 (c : Dev nD) : Valuation τ sig (Elt F) := StableHlo.after hostOps2_6 (W18 m c)
/-- After item 19, the host stretch `hostOps2_7`. -/
def W20 (c : Dev nD) : Valuation τ sig (Elt F) := StableHlo.after hostOps2_7 (W19 m c)
/-- After item 20, the host stretch `hostOps2_8`. -/
def W21 (c : Dev nD) : Valuation τ sig (Elt F) := StableHlo.after hostOps2_8 (W20 m c)
/-- What region 2 is entered from. -/
abbrev Vin2 (c : Dev nD) (b : Ref sig .tc) : Buf (Elt F) ((c : Thread nD τ).loc b) := W21 m c b
/-- What region 2 leaves in its output array `main_v152`. -/
def o2 (c : Dev nD) : Buf (Elt F) ((c : Thread nD τ).loc main_v152) := (Reg2.dat2 (Vin2 m) c).arrAt 2 cfg2.N
/-- After item 21, region 2: its output array replaced, nothing else changed. -/
def W22 (c : Dev nD) : Valuation τ sig (Elt F) := Function.update (W21 m c) main_v152 (o2 m c)
/-- After item 22, the host stretch `hostOps3`. -/
def W23 (c : Dev nD) : Valuation τ sig (Elt F) := StableHlo.after hostOps3 (W22 m c)
/-- After item 23, the host stretch `hostOps3_1`. -/
def W24 (c : Dev nD) : Valuation τ sig (Elt F) := StableHlo.after hostOps3_1 (W23 m c)
/-- After item 24, the host stretch `hostOps3_2`. -/
def W25 (c : Dev nD) : Valuation τ sig (Elt F) := StableHlo.after hostOps3_2 (W24 m c)
/-- After item 25, the host stretch `hostOps3_3`. -/
def W26 (c : Dev nD) : Valuation τ sig (Elt F) := StableHlo.after hostOps3_3 (W25 m c)
/-- After item 26, the host stretch `hostOps3_4`. -/
def W27 (c : Dev nD) : Valuation τ sig (Elt F) := StableHlo.after hostOps3_4 (W26 m c)
/-- After item 27, the host stretch `hostOps3_5`. -/
def W28 (c : Dev nD) : Valuation τ sig (Elt F) := StableHlo.after hostOps3_5 (W27 m c)
/-- After item 28, the host stretch `hostOps3_6`. -/
def W29 (c : Dev nD) : Valuation τ sig (Elt F) := StableHlo.after hostOps3_6 (W28 m c)
/-- After item 29, the host stretch `hostOps3_7`. -/
def W30 (c : Dev nD) : Valuation τ sig (Elt F) := StableHlo.after hostOps3_7 (W29 m c)
/-- After item 30, the host stretch `hostOps3_8`. -/
def W31 (c : Dev nD) : Valuation τ sig (Elt F) := StableHlo.after hostOps3_8 (W30 m c)
/-- What region 3 is entered from. -/
abbrev Vin3 (c : Dev nD) (b : Ref sig .tc) : Buf (Elt F) ((c : Thread nD τ).loc b) := W31 m c b
/-- What region 3 leaves in its output array `main_v231`. -/
def o3 (c : Dev nD) : Buf (Elt F) ((c : Thread nD τ).loc main_v231) := (Reg3.dat3 (Vin3 m) c).arrAt 2 cfg3.N
/-- After item 31, region 3: its output array replaced, nothing else changed. -/
def W32 (c : Dev nD) : Valuation τ sig (Elt F) := Function.update (W31 m c) main_v231 (o3 m c)
/-- After item 32, the host stretch `hostOps4`. -/
def W33 (c : Dev nD) : Valuation τ sig (Elt F) := StableHlo.after hostOps4 (W32 m c)
/-- After item 33, the host stretch `hostOps4_1`. -/
def W34 (c : Dev nD) : Valuation τ sig (Elt F) := StableHlo.after hostOps4_1 (W33 m c)
/-- After item 34, the host stretch `hostOps4_2`. -/
def W35 (c : Dev nD) : Valuation τ sig (Elt F) := StableHlo.after hostOps4_2 (W34 m c)
/-- After item 35, the host stretch `hostOps4_3`. -/
def W36 (c : Dev nD) : Valuation τ sig (Elt F) := StableHlo.after hostOps4_3 (W35 m c)
/-- After item 36, the host stretch `hostOps4_4`. -/
def W37 (c : Dev nD) : Valuation τ sig (Elt F) := StableHlo.after hostOps4_4 (W36 m c)
/-- After item 37, the host stretch `hostOps4_5`. -/
def W38 (c : Dev nD) : Valuation τ sig (Elt F) := StableHlo.after hostOps4_5 (W37 m c)
/-- After item 38, the host stretch `hostOps4_6`. -/
def W39 (c : Dev nD) : Valuation τ sig (Elt F) := StableHlo.after hostOps4_6 (W38 m c)
/-- After item 39, the host stretch `hostOps4_7`. -/
def W40 (c : Dev nD) : Valuation τ sig (Elt F) := StableHlo.after hostOps4_7 (W39 m c)
/-- After item 40, the host stretch `hostOps4_8`. -/
def W41 (c : Dev nD) : Valuation τ sig (Elt F) := StableHlo.after hostOps4_8 (W40 m c)
/-- What region 4 is entered from. -/
abbrev Vin4 (c : Dev nD) (b : Ref sig .tc) : Buf (Elt F) ((c : Thread nD τ).loc b) := W41 m c b
/-- What region 4 leaves in its output array `main_v288`. -/
def o4 (c : Dev nD) : Buf (Elt F) ((c : Thread nD τ).loc main_v288) := (Reg4.dat4 (Vin4 m) c).arrAt 2 cfg4.N
/-- After item 41, region 4: its output array replaced, nothing else changed. -/
def W42 (c : Dev nD) : Valuation τ sig (Elt F) := Function.update (W41 m c) main_v288 (o4 m c)
/-- After item 42, the host stretch `hostOps5`. -/
def W43 (c : Dev nD) : Valuation τ sig (Elt F) := StableHlo.after hostOps5 (W42 m c)
/-- After item 43, the host stretch `hostOps5_1`. -/
def W44 (c : Dev nD) : Valuation τ sig (Elt F) := StableHlo.after hostOps5_1 (W43 m c)
/-- After item 44, the host stretch `hostOps5_2`. -/
def W45 (c : Dev nD) : Valuation τ sig (Elt F) := StableHlo.after hostOps5_2 (W44 m c)
/-- After item 45, the host stretch `hostOps5_3`. -/
def W46 (c : Dev nD) : Valuation τ sig (Elt F) := StableHlo.after hostOps5_3 (W45 m c)
/-- After item 46, the host stretch `hostOps5_4`. -/
def W47 (c : Dev nD) : Valuation τ sig (Elt F) := StableHlo.after hostOps5_4 (W46 m c)
/-- After item 47, the host stretch `hostOps5_5`. -/
def W48 (c : Dev nD) : Valuation τ sig (Elt F) := StableHlo.after hostOps5_5 (W47 m c)
/-- After item 48, the host stretch `hostOps5_6`. -/
def W49 (c : Dev nD) : Valuation τ sig (Elt F) := StableHlo.after hostOps5_6 (W48 m c)
/-- After item 49, the host stretch `hostOps5_7`. -/
def W50 (c : Dev nD) : Valuation τ sig (Elt F) := StableHlo.after hostOps5_7 (W49 m c)
/-- After item 50, the host stretch `hostOps5_8`. -/
def W51 (c : Dev nD) : Valuation τ sig (Elt F) := StableHlo.after hostOps5_8 (W50 m c)
/-- What region 5 is entered from. -/
abbrev Vin5 (c : Dev nD) (b : Ref sig .tc) : Buf (Elt F) ((c : Thread nD τ).loc b) := W51 m c b
/-- What region 5 leaves in its output array `main_v367`. -/
def o5 (c : Dev nD) : Buf (Elt F) ((c : Thread nD τ).loc main_v367) := (Reg5.dat5 (Vin5 m) c).arrAt 2 cfg5.N
/-- After item 51, region 5: its output array replaced, nothing else changed. -/
def W52 (c : Dev nD) : Valuation τ sig (Elt F) := Function.update (W51 m c) main_v367 (o5 m c)
/-- After item 52, the host stretch `hostOps6`. -/
def W53 (c : Dev nD) : Valuation τ sig (Elt F) := StableHlo.after hostOps6 (W52 m c)
/-- After item 53, the host stretch `hostOps6_1`. -/
def W54 (c : Dev nD) : Valuation τ sig (Elt F) := StableHlo.after hostOps6_1 (W53 m c)
/-- After item 54, the host stretch `hostOps6_2`. -/
def W55 (c : Dev nD) : Valuation τ sig (Elt F) := StableHlo.after hostOps6_2 (W54 m c)
/-- After item 55, the host stretch `hostOps6_3`. -/
def W56 (c : Dev nD) : Valuation τ sig (Elt F) := StableHlo.after hostOps6_3 (W55 m c)
/-- After item 56, the host stretch `hostOps6_4`. -/
def W57 (c : Dev nD) : Valuation τ sig (Elt F) := StableHlo.after hostOps6_4 (W56 m c)
/-- After item 57, the host stretch `hostOps6_5`. -/
def W58 (c : Dev nD) : Valuation τ sig (Elt F) := StableHlo.after hostOps6_5 (W57 m c)
/-- After item 58, the host stretch `hostOps6_6`. -/
def W59 (c : Dev nD) : Valuation τ sig (Elt F) := StableHlo.after hostOps6_6 (W58 m c)
/-- After item 59, the host stretch `hostOps6_7`. -/
def W60 (c : Dev nD) : Valuation τ sig (Elt F) := StableHlo.after hostOps6_7 (W59 m c)
/-- After item 60, the host stretch `hostOps6_8`. -/
def W61 (c : Dev nD) : Valuation τ sig (Elt F) := StableHlo.after hostOps6_8 (W60 m c)
/-- What region 6 is entered from. -/
abbrev Vin6 (c : Dev nD) (b : Ref sig .tc) : Buf (Elt F) ((c : Thread nD τ).loc b) := W61 m c b
/-- What region 6 leaves in its output array `main_v424`. -/
def o6 (c : Dev nD) : Buf (Elt F) ((c : Thread nD τ).loc main_v424) := (Reg6.dat6 (Vin6 m) c).arrAt 2 cfg6.N
/-- After item 61, region 6: its output array replaced, nothing else changed. -/
def W62 (c : Dev nD) : Valuation τ sig (Elt F) := Function.update (W61 m c) main_v424 (o6 m c)
/-- After item 62, the host stretch `hostOps7`. -/
def W63 (c : Dev nD) : Valuation τ sig (Elt F) := StableHlo.after hostOps7 (W62 m c)
/-- After item 63, the host stretch `hostOps7_1`. -/
def W64 (c : Dev nD) : Valuation τ sig (Elt F) := StableHlo.after hostOps7_1 (W63 m c)
/-- After item 64, the host stretch `hostOps7_2`. -/
def W65 (c : Dev nD) : Valuation τ sig (Elt F) := StableHlo.after hostOps7_2 (W64 m c)
/-- After item 65, the host stretch `hostOps7_3`. -/
def W66 (c : Dev nD) : Valuation τ sig (Elt F) := StableHlo.after hostOps7_3 (W65 m c)
/-- After item 66, the host stretch `hostOps7_4`. -/
def W67 (c : Dev nD) : Valuation τ sig (Elt F) := StableHlo.after hostOps7_4 (W66 m c)
/-- After item 67, the host stretch `hostOps7_5`. -/
def W68 (c : Dev nD) : Valuation τ sig (Elt F) := StableHlo.after hostOps7_5 (W67 m c)
/-- After item 68, the host stretch `hostOps7_6`. -/
def W69 (c : Dev nD) : Valuation τ sig (Elt F) := StableHlo.after hostOps7_6 (W68 m c)
/-- After item 69, the host stretch `hostOps7_7`. -/
def W70 (c : Dev nD) : Valuation τ sig (Elt F) := StableHlo.after hostOps7_7 (W69 m c)
/-- After item 70, the host stretch `hostOps7_8`. -/
def W71 (c : Dev nD) : Valuation τ sig (Elt F) := StableHlo.after hostOps7_8 (W70 m c)
/-- What region 7 is entered from. -/
abbrev Vin7 (c : Dev nD) (b : Ref sig .tc) : Buf (Elt F) ((c : Thread nD τ).loc b) := W71 m c b
/-- What region 7 leaves in its output array `main_v503`. -/
def o7 (c : Dev nD) : Buf (Elt F) ((c : Thread nD τ).loc main_v503) := (Reg7.dat7 (Vin7 m) c).arrAt 2 cfg7.N
/-- After item 71, region 7: its output array replaced, nothing else changed. -/
def W72 (c : Dev nD) : Valuation τ sig (Elt F) := Function.update (W71 m c) main_v503 (o7 m c)
/-- After item 72, the host stretch `hostOps8`. -/
def W73 (c : Dev nD) : Valuation τ sig (Elt F) := StableHlo.after hostOps8 (W72 m c)
/-- After item 73, the host stretch `hostOps8_1`. -/
def W74 (c : Dev nD) : Valuation τ sig (Elt F) := StableHlo.after hostOps8_1 (W73 m c)
/-- After item 74, the host stretch `hostOps8_2`. -/
def W75 (c : Dev nD) : Valuation τ sig (Elt F) := StableHlo.after hostOps8_2 (W74 m c)
/-- After item 75, the host stretch `hostOps8_3`. -/
def W76 (c : Dev nD) : Valuation τ sig (Elt F) := StableHlo.after hostOps8_3 (W75 m c)
/-- After item 76, the host stretch `hostOps8_4`. -/
def W77 (c : Dev nD) : Valuation τ sig (Elt F) := StableHlo.after hostOps8_4 (W76 m c)
/-- After item 77, the host stretch `hostOps8_5`. -/
def W78 (c : Dev nD) : Valuation τ sig (Elt F) := StableHlo.after hostOps8_5 (W77 m c)
/-- After item 78, the host stretch `hostOps8_6`. -/
def W79 (c : Dev nD) : Valuation τ sig (Elt F) := StableHlo.after hostOps8_6 (W78 m c)
/-- What region 8 is entered from. -/
abbrev Vin8 (c : Dev nD) (b : Ref sig .tc) : Buf (Elt F) ((c : Thread nD τ).loc b) := W79 m c b
/-- What region 8 leaves in its output array `main_v568`. -/
def o8 (c : Dev nD) : Buf (Elt F) ((c : Thread nD τ).loc main_v568) := (Reg8.dat8 (Vin8 m) c).arrAt 2 cfg8.N
/-- After item 79, region 8: its output array replaced, nothing else changed. -/
def W80 (c : Dev nD) : Valuation τ sig (Elt F) := Function.update (W79 m c) main_v568 (o8 m c)
/-- After item 80, the host stretch `hostOps9`. -/
def W81 (c : Dev nD) : Valuation τ sig (Elt F) := StableHlo.after hostOps9 (W80 m c)

/-- Every region's output named: at item J the contents after the region, read at the reference. -/
def outs : Outs (F := F) := fun J r c =>
  if J = 2 then W2 m c r else
  if J = 12 then W12 m c r else
  if J = 22 then W22 m c r else
  if J = 32 then W32 m c r else
  if J = 42 then W42 m c r else
  if J = 52 then W52 m c r else
  if J = 62 then W62 m c r else
  if J = 72 then W72 m c r else
  if J = 80 then W80 m c r else
  m (c, r)

/-- The contents after the last item: the result `main_v577` is read off it. -/
abbrev Vend (c : Dev nD) : Valuation τ sig (Elt F) := V81 m (outs m) c

/-! ## The family reads each region's output where the generated valuations read it -/
theorem outs_2 (c : Dev nD) : outs m 2 main_v15 c = o0 m c := by
  have h : outs m 2 main_v15 c = W2 m c main_v15 := by
    unfold outs
    rw [if_pos rfl]
  rw [h]; unfold W2; exact Function.update_self _ _ _
theorem outs_12 (c : Dev nD) : outs m 12 main_v95 c = o1 m c := by
  have h : outs m 12 main_v95 c = W12 m c main_v95 := by
    unfold outs
    rw [if_neg (by decide : ¬ ((12 : ℕ) = 2)), if_pos rfl]
  rw [h]; unfold W12; exact Function.update_self _ _ _
theorem outs_22 (c : Dev nD) : outs m 22 main_v152 c = o2 m c := by
  have h : outs m 22 main_v152 c = W22 m c main_v152 := by
    unfold outs
    rw [if_neg (by decide : ¬ ((22 : ℕ) = 2)), if_neg (by decide : ¬ ((22 : ℕ) = 12)), if_pos rfl]
  rw [h]; unfold W22; exact Function.update_self _ _ _
theorem outs_32 (c : Dev nD) : outs m 32 main_v231 c = o3 m c := by
  have h : outs m 32 main_v231 c = W32 m c main_v231 := by
    unfold outs
    rw [if_neg (by decide : ¬ ((32 : ℕ) = 2)), if_neg (by decide : ¬ ((32 : ℕ) = 12)), if_neg (by decide : ¬ ((32 : ℕ) = 22)), if_pos rfl]
  rw [h]; unfold W32; exact Function.update_self _ _ _
theorem outs_42 (c : Dev nD) : outs m 42 main_v288 c = o4 m c := by
  have h : outs m 42 main_v288 c = W42 m c main_v288 := by
    unfold outs
    rw [if_neg (by decide : ¬ ((42 : ℕ) = 2)), if_neg (by decide : ¬ ((42 : ℕ) = 12)), if_neg (by decide : ¬ ((42 : ℕ) = 22)), if_neg (by decide : ¬ ((42 : ℕ) = 32)), if_pos rfl]
  rw [h]; unfold W42; exact Function.update_self _ _ _
theorem outs_52 (c : Dev nD) : outs m 52 main_v367 c = o5 m c := by
  have h : outs m 52 main_v367 c = W52 m c main_v367 := by
    unfold outs
    rw [if_neg (by decide : ¬ ((52 : ℕ) = 2)), if_neg (by decide : ¬ ((52 : ℕ) = 12)), if_neg (by decide : ¬ ((52 : ℕ) = 22)), if_neg (by decide : ¬ ((52 : ℕ) = 32)), if_neg (by decide : ¬ ((52 : ℕ) = 42)), if_pos rfl]
  rw [h]; unfold W52; exact Function.update_self _ _ _
theorem outs_62 (c : Dev nD) : outs m 62 main_v424 c = o6 m c := by
  have h : outs m 62 main_v424 c = W62 m c main_v424 := by
    unfold outs
    rw [if_neg (by decide : ¬ ((62 : ℕ) = 2)), if_neg (by decide : ¬ ((62 : ℕ) = 12)), if_neg (by decide : ¬ ((62 : ℕ) = 22)), if_neg (by decide : ¬ ((62 : ℕ) = 32)), if_neg (by decide : ¬ ((62 : ℕ) = 42)), if_neg (by decide : ¬ ((62 : ℕ) = 52)), if_pos rfl]
  rw [h]; unfold W62; exact Function.update_self _ _ _
theorem outs_72 (c : Dev nD) : outs m 72 main_v503 c = o7 m c := by
  have h : outs m 72 main_v503 c = W72 m c main_v503 := by
    unfold outs
    rw [if_neg (by decide : ¬ ((72 : ℕ) = 2)), if_neg (by decide : ¬ ((72 : ℕ) = 12)), if_neg (by decide : ¬ ((72 : ℕ) = 22)), if_neg (by decide : ¬ ((72 : ℕ) = 32)), if_neg (by decide : ¬ ((72 : ℕ) = 42)), if_neg (by decide : ¬ ((72 : ℕ) = 52)), if_neg (by decide : ¬ ((72 : ℕ) = 62)), if_pos rfl]
  rw [h]; unfold W72; exact Function.update_self _ _ _
theorem outs_80 (c : Dev nD) : outs m 80 main_v568 c = o8 m c := by
  have h : outs m 80 main_v568 c = W80 m c main_v568 := by
    unfold outs
    rw [if_neg (by decide : ¬ ((80 : ℕ) = 2)), if_neg (by decide : ¬ ((80 : ℕ) = 12)), if_neg (by decide : ¬ ((80 : ℕ) = 22)), if_neg (by decide : ¬ ((80 : ℕ) = 32)), if_neg (by decide : ¬ ((80 : ℕ) = 42)), if_neg (by decide : ¬ ((80 : ℕ) = 52)), if_neg (by decide : ¬ ((80 : ℕ) = 62)), if_neg (by decide : ¬ ((80 : ℕ) = 72)), if_pos rfl]
  rw [h]; unfold W80; exact Function.update_self _ _ _

/-! ## The generated valuations at this family are the contents above, one item at a time -/
theorem Veq_0 (c : Dev nD) : V0 m c = W0 m c := rfl
theorem Veq_1 (c : Dev nD) : V1 m c = W1 m c := by
  show StableHlo.after hostOps0 (V0 m c) = W1 m c
  rw [Veq_0]; rfl
theorem Veq_2 (c : Dev nD) : V2 m (outs m) c = W2 m c := by
  show Function.update (V1 m c) main_v15 (outs m 2 main_v15 c) = W2 m c
  rw [Veq_1, outs_2]; rfl
theorem Veq_3 (c : Dev nD) : V3 m (outs m) c = W3 m c := by
  show StableHlo.after hostOps1 (V2 m (outs m) c) = W3 m c
  rw [Veq_2]; rfl
theorem Veq_4 (c : Dev nD) : V4 m (outs m) c = W4 m c := by
  show StableHlo.after hostOps1_1 (V3 m (outs m) c) = W4 m c
  rw [Veq_3]; rfl
theorem Veq_5 (c : Dev nD) : V5 m (outs m) c = W5 m c := by
  show StableHlo.after hostOps1_2 (V4 m (outs m) c) = W5 m c
  rw [Veq_4]; rfl
theorem Veq_6 (c : Dev nD) : V6 m (outs m) c = W6 m c := by
  show StableHlo.after hostOps1_3 (V5 m (outs m) c) = W6 m c
  rw [Veq_5]; rfl
theorem Veq_7 (c : Dev nD) : V7 m (outs m) c = W7 m c := by
  show StableHlo.after hostOps1_4 (V6 m (outs m) c) = W7 m c
  rw [Veq_6]; rfl
theorem Veq_8 (c : Dev nD) : V8 m (outs m) c = W8 m c := by
  show StableHlo.after hostOps1_5 (V7 m (outs m) c) = W8 m c
  rw [Veq_7]; rfl
theorem Veq_9 (c : Dev nD) : V9 m (outs m) c = W9 m c := by
  show StableHlo.after hostOps1_6 (V8 m (outs m) c) = W9 m c
  rw [Veq_8]; rfl
theorem Veq_10 (c : Dev nD) : V10 m (outs m) c = W10 m c := by
  show StableHlo.after hostOps1_7 (V9 m (outs m) c) = W10 m c
  rw [Veq_9]; rfl
theorem Veq_11 (c : Dev nD) : V11 m (outs m) c = W11 m c := by
  show StableHlo.after hostOps1_8 (V10 m (outs m) c) = W11 m c
  rw [Veq_10]; rfl
theorem Veq_12 (c : Dev nD) : V12 m (outs m) c = W12 m c := by
  show Function.update (V11 m (outs m) c) main_v95 (outs m 12 main_v95 c) = W12 m c
  rw [Veq_11, outs_12]; rfl
theorem Veq_13 (c : Dev nD) : V13 m (outs m) c = W13 m c := by
  show StableHlo.after hostOps2 (V12 m (outs m) c) = W13 m c
  rw [Veq_12]; rfl
theorem Veq_14 (c : Dev nD) : V14 m (outs m) c = W14 m c := by
  show StableHlo.after hostOps2_1 (V13 m (outs m) c) = W14 m c
  rw [Veq_13]; rfl
theorem Veq_15 (c : Dev nD) : V15 m (outs m) c = W15 m c := by
  show StableHlo.after hostOps2_2 (V14 m (outs m) c) = W15 m c
  rw [Veq_14]; rfl
theorem Veq_16 (c : Dev nD) : V16 m (outs m) c = W16 m c := by
  show StableHlo.after hostOps2_3 (V15 m (outs m) c) = W16 m c
  rw [Veq_15]; rfl
theorem Veq_17 (c : Dev nD) : V17 m (outs m) c = W17 m c := by
  show StableHlo.after hostOps2_4 (V16 m (outs m) c) = W17 m c
  rw [Veq_16]; rfl
theorem Veq_18 (c : Dev nD) : V18 m (outs m) c = W18 m c := by
  show StableHlo.after hostOps2_5 (V17 m (outs m) c) = W18 m c
  rw [Veq_17]; rfl
theorem Veq_19 (c : Dev nD) : V19 m (outs m) c = W19 m c := by
  show StableHlo.after hostOps2_6 (V18 m (outs m) c) = W19 m c
  rw [Veq_18]; rfl
theorem Veq_20 (c : Dev nD) : V20 m (outs m) c = W20 m c := by
  show StableHlo.after hostOps2_7 (V19 m (outs m) c) = W20 m c
  rw [Veq_19]; rfl
theorem Veq_21 (c : Dev nD) : V21 m (outs m) c = W21 m c := by
  show StableHlo.after hostOps2_8 (V20 m (outs m) c) = W21 m c
  rw [Veq_20]; rfl
theorem Veq_22 (c : Dev nD) : V22 m (outs m) c = W22 m c := by
  show Function.update (V21 m (outs m) c) main_v152 (outs m 22 main_v152 c) = W22 m c
  rw [Veq_21, outs_22]; rfl
theorem Veq_23 (c : Dev nD) : V23 m (outs m) c = W23 m c := by
  show StableHlo.after hostOps3 (V22 m (outs m) c) = W23 m c
  rw [Veq_22]; rfl
theorem Veq_24 (c : Dev nD) : V24 m (outs m) c = W24 m c := by
  show StableHlo.after hostOps3_1 (V23 m (outs m) c) = W24 m c
  rw [Veq_23]; rfl
theorem Veq_25 (c : Dev nD) : V25 m (outs m) c = W25 m c := by
  show StableHlo.after hostOps3_2 (V24 m (outs m) c) = W25 m c
  rw [Veq_24]; rfl
theorem Veq_26 (c : Dev nD) : V26 m (outs m) c = W26 m c := by
  show StableHlo.after hostOps3_3 (V25 m (outs m) c) = W26 m c
  rw [Veq_25]; rfl
theorem Veq_27 (c : Dev nD) : V27 m (outs m) c = W27 m c := by
  show StableHlo.after hostOps3_4 (V26 m (outs m) c) = W27 m c
  rw [Veq_26]; rfl
theorem Veq_28 (c : Dev nD) : V28 m (outs m) c = W28 m c := by
  show StableHlo.after hostOps3_5 (V27 m (outs m) c) = W28 m c
  rw [Veq_27]; rfl
theorem Veq_29 (c : Dev nD) : V29 m (outs m) c = W29 m c := by
  show StableHlo.after hostOps3_6 (V28 m (outs m) c) = W29 m c
  rw [Veq_28]; rfl
theorem Veq_30 (c : Dev nD) : V30 m (outs m) c = W30 m c := by
  show StableHlo.after hostOps3_7 (V29 m (outs m) c) = W30 m c
  rw [Veq_29]; rfl
theorem Veq_31 (c : Dev nD) : V31 m (outs m) c = W31 m c := by
  show StableHlo.after hostOps3_8 (V30 m (outs m) c) = W31 m c
  rw [Veq_30]; rfl
theorem Veq_32 (c : Dev nD) : V32 m (outs m) c = W32 m c := by
  show Function.update (V31 m (outs m) c) main_v231 (outs m 32 main_v231 c) = W32 m c
  rw [Veq_31, outs_32]; rfl
theorem Veq_33 (c : Dev nD) : V33 m (outs m) c = W33 m c := by
  show StableHlo.after hostOps4 (V32 m (outs m) c) = W33 m c
  rw [Veq_32]; rfl
theorem Veq_34 (c : Dev nD) : V34 m (outs m) c = W34 m c := by
  show StableHlo.after hostOps4_1 (V33 m (outs m) c) = W34 m c
  rw [Veq_33]; rfl
theorem Veq_35 (c : Dev nD) : V35 m (outs m) c = W35 m c := by
  show StableHlo.after hostOps4_2 (V34 m (outs m) c) = W35 m c
  rw [Veq_34]; rfl
theorem Veq_36 (c : Dev nD) : V36 m (outs m) c = W36 m c := by
  show StableHlo.after hostOps4_3 (V35 m (outs m) c) = W36 m c
  rw [Veq_35]; rfl
theorem Veq_37 (c : Dev nD) : V37 m (outs m) c = W37 m c := by
  show StableHlo.after hostOps4_4 (V36 m (outs m) c) = W37 m c
  rw [Veq_36]; rfl
theorem Veq_38 (c : Dev nD) : V38 m (outs m) c = W38 m c := by
  show StableHlo.after hostOps4_5 (V37 m (outs m) c) = W38 m c
  rw [Veq_37]; rfl
theorem Veq_39 (c : Dev nD) : V39 m (outs m) c = W39 m c := by
  show StableHlo.after hostOps4_6 (V38 m (outs m) c) = W39 m c
  rw [Veq_38]; rfl
theorem Veq_40 (c : Dev nD) : V40 m (outs m) c = W40 m c := by
  show StableHlo.after hostOps4_7 (V39 m (outs m) c) = W40 m c
  rw [Veq_39]; rfl
theorem Veq_41 (c : Dev nD) : V41 m (outs m) c = W41 m c := by
  show StableHlo.after hostOps4_8 (V40 m (outs m) c) = W41 m c
  rw [Veq_40]; rfl
theorem Veq_42 (c : Dev nD) : V42 m (outs m) c = W42 m c := by
  show Function.update (V41 m (outs m) c) main_v288 (outs m 42 main_v288 c) = W42 m c
  rw [Veq_41, outs_42]; rfl
theorem Veq_43 (c : Dev nD) : V43 m (outs m) c = W43 m c := by
  show StableHlo.after hostOps5 (V42 m (outs m) c) = W43 m c
  rw [Veq_42]; rfl
theorem Veq_44 (c : Dev nD) : V44 m (outs m) c = W44 m c := by
  show StableHlo.after hostOps5_1 (V43 m (outs m) c) = W44 m c
  rw [Veq_43]; rfl
theorem Veq_45 (c : Dev nD) : V45 m (outs m) c = W45 m c := by
  show StableHlo.after hostOps5_2 (V44 m (outs m) c) = W45 m c
  rw [Veq_44]; rfl
theorem Veq_46 (c : Dev nD) : V46 m (outs m) c = W46 m c := by
  show StableHlo.after hostOps5_3 (V45 m (outs m) c) = W46 m c
  rw [Veq_45]; rfl
theorem Veq_47 (c : Dev nD) : V47 m (outs m) c = W47 m c := by
  show StableHlo.after hostOps5_4 (V46 m (outs m) c) = W47 m c
  rw [Veq_46]; rfl
theorem Veq_48 (c : Dev nD) : V48 m (outs m) c = W48 m c := by
  show StableHlo.after hostOps5_5 (V47 m (outs m) c) = W48 m c
  rw [Veq_47]; rfl
theorem Veq_49 (c : Dev nD) : V49 m (outs m) c = W49 m c := by
  show StableHlo.after hostOps5_6 (V48 m (outs m) c) = W49 m c
  rw [Veq_48]; rfl
theorem Veq_50 (c : Dev nD) : V50 m (outs m) c = W50 m c := by
  show StableHlo.after hostOps5_7 (V49 m (outs m) c) = W50 m c
  rw [Veq_49]; rfl
theorem Veq_51 (c : Dev nD) : V51 m (outs m) c = W51 m c := by
  show StableHlo.after hostOps5_8 (V50 m (outs m) c) = W51 m c
  rw [Veq_50]; rfl
theorem Veq_52 (c : Dev nD) : V52 m (outs m) c = W52 m c := by
  show Function.update (V51 m (outs m) c) main_v367 (outs m 52 main_v367 c) = W52 m c
  rw [Veq_51, outs_52]; rfl
theorem Veq_53 (c : Dev nD) : V53 m (outs m) c = W53 m c := by
  show StableHlo.after hostOps6 (V52 m (outs m) c) = W53 m c
  rw [Veq_52]; rfl
theorem Veq_54 (c : Dev nD) : V54 m (outs m) c = W54 m c := by
  show StableHlo.after hostOps6_1 (V53 m (outs m) c) = W54 m c
  rw [Veq_53]; rfl
theorem Veq_55 (c : Dev nD) : V55 m (outs m) c = W55 m c := by
  show StableHlo.after hostOps6_2 (V54 m (outs m) c) = W55 m c
  rw [Veq_54]; rfl
theorem Veq_56 (c : Dev nD) : V56 m (outs m) c = W56 m c := by
  show StableHlo.after hostOps6_3 (V55 m (outs m) c) = W56 m c
  rw [Veq_55]; rfl
theorem Veq_57 (c : Dev nD) : V57 m (outs m) c = W57 m c := by
  show StableHlo.after hostOps6_4 (V56 m (outs m) c) = W57 m c
  rw [Veq_56]; rfl
theorem Veq_58 (c : Dev nD) : V58 m (outs m) c = W58 m c := by
  show StableHlo.after hostOps6_5 (V57 m (outs m) c) = W58 m c
  rw [Veq_57]; rfl
theorem Veq_59 (c : Dev nD) : V59 m (outs m) c = W59 m c := by
  show StableHlo.after hostOps6_6 (V58 m (outs m) c) = W59 m c
  rw [Veq_58]; rfl
theorem Veq_60 (c : Dev nD) : V60 m (outs m) c = W60 m c := by
  show StableHlo.after hostOps6_7 (V59 m (outs m) c) = W60 m c
  rw [Veq_59]; rfl
theorem Veq_61 (c : Dev nD) : V61 m (outs m) c = W61 m c := by
  show StableHlo.after hostOps6_8 (V60 m (outs m) c) = W61 m c
  rw [Veq_60]; rfl
theorem Veq_62 (c : Dev nD) : V62 m (outs m) c = W62 m c := by
  show Function.update (V61 m (outs m) c) main_v424 (outs m 62 main_v424 c) = W62 m c
  rw [Veq_61, outs_62]; rfl
theorem Veq_63 (c : Dev nD) : V63 m (outs m) c = W63 m c := by
  show StableHlo.after hostOps7 (V62 m (outs m) c) = W63 m c
  rw [Veq_62]; rfl
theorem Veq_64 (c : Dev nD) : V64 m (outs m) c = W64 m c := by
  show StableHlo.after hostOps7_1 (V63 m (outs m) c) = W64 m c
  rw [Veq_63]; rfl
theorem Veq_65 (c : Dev nD) : V65 m (outs m) c = W65 m c := by
  show StableHlo.after hostOps7_2 (V64 m (outs m) c) = W65 m c
  rw [Veq_64]; rfl
theorem Veq_66 (c : Dev nD) : V66 m (outs m) c = W66 m c := by
  show StableHlo.after hostOps7_3 (V65 m (outs m) c) = W66 m c
  rw [Veq_65]; rfl
theorem Veq_67 (c : Dev nD) : V67 m (outs m) c = W67 m c := by
  show StableHlo.after hostOps7_4 (V66 m (outs m) c) = W67 m c
  rw [Veq_66]; rfl
theorem Veq_68 (c : Dev nD) : V68 m (outs m) c = W68 m c := by
  show StableHlo.after hostOps7_5 (V67 m (outs m) c) = W68 m c
  rw [Veq_67]; rfl
theorem Veq_69 (c : Dev nD) : V69 m (outs m) c = W69 m c := by
  show StableHlo.after hostOps7_6 (V68 m (outs m) c) = W69 m c
  rw [Veq_68]; rfl
theorem Veq_70 (c : Dev nD) : V70 m (outs m) c = W70 m c := by
  show StableHlo.after hostOps7_7 (V69 m (outs m) c) = W70 m c
  rw [Veq_69]; rfl
theorem Veq_71 (c : Dev nD) : V71 m (outs m) c = W71 m c := by
  show StableHlo.after hostOps7_8 (V70 m (outs m) c) = W71 m c
  rw [Veq_70]; rfl
theorem Veq_72 (c : Dev nD) : V72 m (outs m) c = W72 m c := by
  show Function.update (V71 m (outs m) c) main_v503 (outs m 72 main_v503 c) = W72 m c
  rw [Veq_71, outs_72]; rfl
theorem Veq_73 (c : Dev nD) : V73 m (outs m) c = W73 m c := by
  show StableHlo.after hostOps8 (V72 m (outs m) c) = W73 m c
  rw [Veq_72]; rfl
theorem Veq_74 (c : Dev nD) : V74 m (outs m) c = W74 m c := by
  show StableHlo.after hostOps8_1 (V73 m (outs m) c) = W74 m c
  rw [Veq_73]; rfl
theorem Veq_75 (c : Dev nD) : V75 m (outs m) c = W75 m c := by
  show StableHlo.after hostOps8_2 (V74 m (outs m) c) = W75 m c
  rw [Veq_74]; rfl
theorem Veq_76 (c : Dev nD) : V76 m (outs m) c = W76 m c := by
  show StableHlo.after hostOps8_3 (V75 m (outs m) c) = W76 m c
  rw [Veq_75]; rfl
theorem Veq_77 (c : Dev nD) : V77 m (outs m) c = W77 m c := by
  show StableHlo.after hostOps8_4 (V76 m (outs m) c) = W77 m c
  rw [Veq_76]; rfl
theorem Veq_78 (c : Dev nD) : V78 m (outs m) c = W78 m c := by
  show StableHlo.after hostOps8_5 (V77 m (outs m) c) = W78 m c
  rw [Veq_77]; rfl
theorem Veq_79 (c : Dev nD) : V79 m (outs m) c = W79 m c := by
  show StableHlo.after hostOps8_6 (V78 m (outs m) c) = W79 m c
  rw [Veq_78]; rfl
theorem Veq_80 (c : Dev nD) : V80 m (outs m) c = W80 m c := by
  show Function.update (V79 m (outs m) c) main_v568 (outs m 80 main_v568 c) = W80 m c
  rw [Veq_79, outs_80]; rfl
theorem Veq_81 (c : Dev nD) : V81 m (outs m) c = W81 m c := by
  show StableHlo.after hostOps9 (V80 m (outs m) c) = W81 m c
  rw [Veq_80]; rfl

/-! ## Each region is entered from the generated valuation before it -/
theorem Vin0_eq (c : Dev nD) (b : Ref sig .tc) : V1 m c b = Vin0 m c b := by
  rw [Veq_1]
theorem Vin1_eq (c : Dev nD) (b : Ref sig .tc) : V11 m (outs m) c b = Vin1 m c b := by
  rw [Veq_11]
theorem Vin2_eq (c : Dev nD) (b : Ref sig .tc) : V21 m (outs m) c b = Vin2 m c b := by
  rw [Veq_21]
theorem Vin3_eq (c : Dev nD) (b : Ref sig .tc) : V31 m (outs m) c b = Vin3 m c b := by
  rw [Veq_31]
theorem Vin4_eq (c : Dev nD) (b : Ref sig .tc) : V41 m (outs m) c b = Vin4 m c b := by
  rw [Veq_41]
theorem Vin5_eq (c : Dev nD) (b : Ref sig .tc) : V51 m (outs m) c b = Vin5 m c b := by
  rw [Veq_51]
theorem Vin6_eq (c : Dev nD) (b : Ref sig .tc) : V61 m (outs m) c b = Vin6 m c b := by
  rw [Veq_61]
theorem Vin7_eq (c : Dev nD) (b : Ref sig .tc) : V71 m (outs m) c b = Vin7 m c b := by
  rw [Veq_71]
theorem Vin8_eq (c : Dev nD) (b : Ref sig .tc) : V79 m (outs m) c b = Vin8 m c b := by
  rw [Veq_79]

/-! ## The proof data family, the levels, what rides beside the buffers -/

/-- Every pipeline's proof data, each at its region's entry contents: a literal match on the pipeline. -/
def pdats : (p : Fin 9) → (c : Dev nD) → Dat τ (Elt F) Unit ℕ (UR sig nD τ) ℕ (cfgs p) c
  | ⟨0, _⟩ => fun c => Reg0.dat0 (Vin0 m) c
  | ⟨1, _⟩ => fun c => Reg1.dat1 (Vin1 m) c
  | ⟨2, _⟩ => fun c => Reg2.dat2 (Vin2 m) c
  | ⟨3, _⟩ => fun c => Reg3.dat3 (Vin3 m) c
  | ⟨4, _⟩ => fun c => Reg4.dat4 (Vin4 m) c
  | ⟨5, _⟩ => fun c => Reg5.dat5 (Vin5 m) c
  | ⟨6, _⟩ => fun c => Reg6.dat6 (Vin6 m) c
  | ⟨7, _⟩ => fun c => Reg7.dat7 (Vin7 m) c
  | ⟨8, _⟩ => fun c => Reg8.dat8 (Vin8 m) c

abbrev 𝒱₀ : Variants := Variants.none
/-- No core owes another anything: no level is assigned. -/
abbrev L : GSem nD τ sig → Finset Unit := fun _ => ∅
abbrev lv : GSem nD τ sig → Unit → ℕ := fun _ _ => 0

local notation "𝕄" => MT nD τ sig Unit (Elt F) ℕ (UR sig nD τ) ℕ

/-- What rides beside the unscoped buffers through every item: the generator register at some state and the core
    owing nothing. -/
abbrev R (c : Dev nD) : sProp 𝕄 := iprop((∃ r, prngReg c r) ∗ ∃ W, owes (c : Thread nD τ) (0 : CellTallies nD τ sig Unit) W)
/-- The rest beside the buffers, the same between any two items. -/
abbrev E : Fin 10 → Dev nD → sProp 𝕄 := fun _ c => R (F := F) c

end Cert.KernelIdeal.Run

end
-- ==== Proof.KI.Launch.lean ====
/-
  The launch's own choices for the program's @main, and the shape of the nine regions' records.

  The user algebra is the pipeline library's component alone, its launch element the library's initial element over
  the nine pipelines' staging cells; there are no ghost resources and no core owes anything at launch.  What the
  launch deals a core beside its buffers yields the rest that rides beside the buffers through every item (the
  generator register at its launch state, the empty debt), and that rest ends owing nothing because it never owed.

  A region's record is entered from the contents before the region and left at the contents after it, the rest
  beside them; the nine are gathered in one structure.
-/
import proofs.«411400_j9251359555630_1_alg».proof.Proof.KI.Vals

set_option maxRecDepth 4992

noncomputable section

namespace Cert.KernelIdeal.Run

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)
open Cert.KernelIdeal Cert.KernelIdeal.Gen

variable {F : FTy → Type} [FloatOps F]
variable (m : (ℓ : Loc nD τ sig) → Buf (Elt F) ℓ)

/-! ## The launch's own choices -/

local notation "𝕄" => MT nD τ sig Unit (Elt F) ℕ (UR sig nD τ) ℕ

/-- The pipeline library's component is the whole user algebra. -/
abbrev EP : Emb (UR sig nD τ) 𝕄 := emb₁

instance EP_landsIn : (EP (F := F)).LandsIn (upEmb : UEmb _ 𝕄) := emb₁_landsIn

/-- The launch element: the library's initial element over the nine pipelines' staging cells. -/
abbrev u₀ : UR sig nD τ := initOf (Pipeline.cells cfgs cellOf_inj) (Pipeline.launchToks cfgs cellOf_inj)

/-- No ghost resources beside the library's. -/
abbrev G : Dev nD → sProp 𝕄 := fun _ => iprop(emp)

/-- No core owes anything at launch. -/
abbrev O₀ : Dev nD → CellTallies nD τ sig Unit := 0

/-- No level is assigned anywhere, so none off the TensorCores. -/
theorem hL : ∀ g : GSem nD τ sig, g.1.2 ≠ .tc → L g = ∅ := fun _ _ => rfl

/-- Owning the launch element is owning the library's initial element through the embedding; the ghost resources
    are empty on every core. -/
theorem hu₀ : (ownU u₀ : sProp 𝕄)
    ⊢ |={Set.univ}=> iprop(BI.own (EP (F := F) (initOf (Pipeline.cells cfgs cellOf_inj) (Pipeline.launchToks cfgs cellOf_inj))) ∗ bigSep Finset.univ (G (F := F))) := by
  iintro Hu; imodintro
  isplitl [Hu]
  · iapply (show (ownU (initOf (Pipeline.cells cfgs cellOf_inj) (Pipeline.launchToks cfgs cellOf_inj)) : sProp 𝕄)
        ⊢ BI.own (emb₁ (initOf (Pipeline.cells cfgs cellOf_inj) (Pipeline.launchToks cfgs cellOf_inj))) from .rfl)
    iexact Hu
  iapply (show (BI.emp : sProp 𝕄) ⊢ bigSep Finset.univ (fun _ : Dev nD => (BI.emp : sProp 𝕄)) from by rw [BI.bigSep_emp_const])
  iempintro

/-- What the launch deals a core beside its buffers yields the rest: the register at its launch state, the empty
    debt with nothing waited for. -/
theorem hE0 (ρ : Dev nD → PrngReg) :
    iprop((bigSep Finset.univ fun c : Dev nD => iprop(unscopedSems0 c ∗ owes (c : Thread nD τ) (O₀ c) ∅ ∗ Pipeline.launchCred O₀ c ∗ prngReg c (ρ c) ∗ G (F := F) c)) ∗ levAts L lv)
      ⊢ (|={Set.univ}=> bigSep Finset.univ (E (F := F) 0) : sProp 𝕄) :=
  Pipeline.initEach L lv
    (T₀ := fun c => iprop((∃ r, prngReg c r) ∗ ∃ W, owes (c : Thread nD τ) (0 : CellTallies nD τ sig Unit) W)) fun c => by
    iintro ⟨⟨-, HO, -, Hp, -⟩, -⟩
    imodintro
    isplitl [Hp]; · iexists _; iexact Hp
    iexists ∅; iexact HO

/-- The rest ends owing nothing: it never owed. -/
theorem hE9 (c : Dev nD) : E (F := F) 9 c ⊢ (iprop(∃ W, owes (c : Thread nD τ) (0 : CellTallies nD τ sig Unit) W) : sProp 𝕄) := by
  show (iprop((∃ r, prngReg c r) ∗ ∃ W, owes (c : Thread nD τ) (0 : CellTallies nD τ sig Unit) W) : sProp 𝕄) ⊢ _
  iintro ⟨-, HO⟩
  iexact HO

/-! ## The nine regions' records -/

/-- The nine regions' records at the staged family: region K entered from the contents before it and left at the
    contents after it, the rest beside them. -/
structure Regs where
  reg0 : RegionSeg (pcfgs (F := F)) adm (pdats m) () defs₀ 𝒱₀ L lv 0
  hpre0 : ∀ c : Dev nD, iprop(StableHlo.held (c : Thread nD τ) (Pipeline.ucRefs τ sig) (V1 m c) ∗ E (F := F) 0 c) ⊢ reg0.pre c
  hpost0 : ∀ c : Dev nD, reg0.post c ⊢ iprop(StableHlo.held (c : Thread nD τ) (Pipeline.ucRefs τ sig) (V2 m (outs m) c) ∗ E (F := F) 1 c)
  reg1 : RegionSeg (pcfgs (F := F)) adm (pdats m) () defs₀ 𝒱₀ L lv 1
  hpre1 : ∀ c : Dev nD, iprop(StableHlo.held (c : Thread nD τ) (Pipeline.ucRefs τ sig) (V11 m (outs m) c) ∗ E (F := F) 1 c) ⊢ reg1.pre c
  hpost1 : ∀ c : Dev nD, reg1.post c ⊢ iprop(StableHlo.held (c : Thread nD τ) (Pipeline.ucRefs τ sig) (V12 m (outs m) c) ∗ E (F := F) 2 c)
  reg2 : RegionSeg (pcfgs (F := F)) adm (pdats m) () defs₀ 𝒱₀ L lv 2
  hpre2 : ∀ c : Dev nD, iprop(StableHlo.held (c : Thread nD τ) (Pipeline.ucRefs τ sig) (V21 m (outs m) c) ∗ E (F := F) 2 c) ⊢ reg2.pre c
  hpost2 : ∀ c : Dev nD, reg2.post c ⊢ iprop(StableHlo.held (c : Thread nD τ) (Pipeline.ucRefs τ sig) (V22 m (outs m) c) ∗ E (F := F) 3 c)
  reg3 : RegionSeg (pcfgs (F := F)) adm (pdats m) () defs₀ 𝒱₀ L lv 3
  hpre3 : ∀ c : Dev nD, iprop(StableHlo.held (c : Thread nD τ) (Pipeline.ucRefs τ sig) (V31 m (outs m) c) ∗ E (F := F) 3 c) ⊢ reg3.pre c
  hpost3 : ∀ c : Dev nD, reg3.post c ⊢ iprop(StableHlo.held (c : Thread nD τ) (Pipeline.ucRefs τ sig) (V32 m (outs m) c) ∗ E (F := F) 4 c)
  reg4 : RegionSeg (pcfgs (F := F)) adm (pdats m) () defs₀ 𝒱₀ L lv 4
  hpre4 : ∀ c : Dev nD, iprop(StableHlo.held (c : Thread nD τ) (Pipeline.ucRefs τ sig) (V41 m (outs m) c) ∗ E (F := F) 4 c) ⊢ reg4.pre c
  hpost4 : ∀ c : Dev nD, reg4.post c ⊢ iprop(StableHlo.held (c : Thread nD τ) (Pipeline.ucRefs τ sig) (V42 m (outs m) c) ∗ E (F := F) 5 c)
  reg5 : RegionSeg (pcfgs (F := F)) adm (pdats m) () defs₀ 𝒱₀ L lv 5
  hpre5 : ∀ c : Dev nD, iprop(StableHlo.held (c : Thread nD τ) (Pipeline.ucRefs τ sig) (V51 m (outs m) c) ∗ E (F := F) 5 c) ⊢ reg5.pre c
  hpost5 : ∀ c : Dev nD, reg5.post c ⊢ iprop(StableHlo.held (c : Thread nD τ) (Pipeline.ucRefs τ sig) (V52 m (outs m) c) ∗ E (F := F) 6 c)
  reg6 : RegionSeg (pcfgs (F := F)) adm (pdats m) () defs₀ 𝒱₀ L lv 6
  hpre6 : ∀ c : Dev nD, iprop(StableHlo.held (c : Thread nD τ) (Pipeline.ucRefs τ sig) (V61 m (outs m) c) ∗ E (F := F) 6 c) ⊢ reg6.pre c
  hpost6 : ∀ c : Dev nD, reg6.post c ⊢ iprop(StableHlo.held (c : Thread nD τ) (Pipeline.ucRefs τ sig) (V62 m (outs m) c) ∗ E (F := F) 7 c)
  reg7 : RegionSeg (pcfgs (F := F)) adm (pdats m) () defs₀ 𝒱₀ L lv 7
  hpre7 : ∀ c : Dev nD, iprop(StableHlo.held (c : Thread nD τ) (Pipeline.ucRefs τ sig) (V71 m (outs m) c) ∗ E (F := F) 7 c) ⊢ reg7.pre c
  hpost7 : ∀ c : Dev nD, reg7.post c ⊢ iprop(StableHlo.held (c : Thread nD τ) (Pipeline.ucRefs τ sig) (V72 m (outs m) c) ∗ E (F := F) 8 c)
  reg8 : RegionSeg (pcfgs (F := F)) adm (pdats m) () defs₀ 𝒱₀ L lv 8
  hpre8 : ∀ c : Dev nD, iprop(StableHlo.held (c : Thread nD τ) (Pipeline.ucRefs τ sig) (V79 m (outs m) c) ∗ E (F := F) 8 c) ⊢ reg8.pre c
  hpost8 : ∀ c : Dev nD, reg8.post c ⊢ iprop(StableHlo.held (c : Thread nD τ) (Pipeline.ucRefs τ sig) (V80 m (outs m) c) ∗ E (F := F) 9 c)

end Cert.KernelIdeal.Run

end
-- ==== Proof.KI.Frame.lean ====
/-
  The frame of the program's @main: every weakly fair execution from any memory with zero counters terminates, and
  every final memory holds each argument array as launched — the conditional frame at the launch's choices and the
  nine regions' records.
-/
import proofs.«411400_j9251359555630_1_alg».proof.Proof.KI.Launch

set_option maxRecDepth 4992

noncomputable section

namespace Cert.KernelIdeal.Run

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)
open Cert.KernelIdeal Cert.KernelIdeal.Gen

variable {F : FTy → Type} [FloatOps F]
variable (m : (ℓ : Loc nD τ sig) → Buf (Elt F) ℓ)

/-- THE FRAME: every weakly fair execution of @main from memory m with zero counters terminates, and every final
    memory holds each argument as launched. -/
theorem frame_main (ρ : Dev nD → PrngReg) (S : Regs (F := F) m) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)
      ∧ r.2.mem ((c.tc : Thread nD τ).loc main_arg28) = m ((c.tc : Thread nD τ).loc main_arg28)
      ∧ r.2.mem ((c.tc : Thread nD τ).loc main_arg29) = m ((c.tc : Thread nD τ).loc main_arg29)) :=
  frame_cond m EP () 𝒱₀ L lv hL ρ (outs m) (pdats m) O₀ G u₀ hu₀ E (hE0 ρ) hE9
    S.reg0 S.hpre0 S.hpost0 S.reg1 S.hpre1 S.hpost1 S.reg2 S.hpre2 S.hpost2 S.reg3 S.hpre3 S.hpost3 S.reg4 S.hpre4 S.hpost4
    S.reg5 S.hpre5 S.hpost5 S.reg6 S.hpre6 S.hpost6 S.reg7 S.hpre7 S.hpost7 S.reg8 S.hpre8 S.hpost8

end Cert.KernelIdeal.Run

end
-- ==== Proof.KI.Seg0.lean ====
/-
  Region 0 of the kernel program's @main as a segment between the buffer contents after item 0 and after item 1.

  Entering, the core holds every unscoped buffer at the contents after item 0.  The region's three windowed arrays
  (the segment ids, the edge rows, the node sums) are split out of them at the proof data's entry contents; every other
  unscoped buffer passes the region by, and so does the generator register.  The pipeline's invariant starts as the
  scoped buffers no window stages (the accumulator is one of them) and gives them back at the last point.

  Leaving, an input window's array is never written, so the two input arrays hold what they held at entry; the output
  array holds the fold of the write-backs, which is the value the contents after item 1 name at that array.  The
  contents after item 1 differ from those after item 0 at that one array only, so the arrays at their final contents
  together with the bypassing buffers are every unscoped buffer at the contents after item 1.
-/
import proofs.«411400_j9251359555630_1_alg».proof.Proof.KI.Vals
import Idealize.ShloMosaic.Lib.Pipeline.RegionsLoop
import Idealize.ShloMosaic.Lib.Pipeline.Cells
import Idealize.ShloMosaic.Lib.Pipeline.Kit

-- memberships decided among the program's 1120 references recurse past the default depth
set_option maxRecDepth 4992

noncomputable section

namespace Cert.KernelIdeal.Run

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)
open Cert.KernelIdeal Cert.KernelIdeal.Gen

variable {F : FTy → Type} [FloatOps F]
variable (m : (ℓ : Loc nD τ sig) → Buf (Elt F) ℓ)

local notation "𝕄" => MT nD τ sig Unit (Elt F) ℕ (UR sig nD τ) ℕ

/-! ## Region 0's arrays at its exit -/

/-- The contents after item 0, read at the TensorCore's references: what region 0 is entered from. -/
abbrev Vpre0 (c : Dev nD) : (b : Ref sig .tc) → Buf (Elt F) ((c : Thread nD τ).loc b) := fun b => V1 m c b
/-- The contents after item 1, read at the TensorCore's references: what region 0 leaves. -/
abbrev Vpost0 (c : Dev nD) : (b : Ref sig .tc) → Buf (Elt F) ((c : Thread nD τ).loc b) := fun b => V2 m (outs m) c b

/-- The output window's array is `main_v15`. -/
theorem arrRef0_out : Pipeline.arrRef spec0 (2 : Fin 3) = main_v15 := rfl

/-- An input window's array is not the output array: the windows' arrays are distinct buffers. -/
theorem arrRef0_ne_out (w : Fin 3) (hw : w ≠ 2) : Pipeline.arrRef spec0 w ≠ main_v15 :=
  fun e => hw (launch0.win.arr_inj (e.trans arrRef0_out.symm))

/-- The proof data are entered from the contents after item 0: each array's entry contents read off them. -/
theorem hA0 (c : Dev nD) (w : Fin cfg0.W) : (pdats m 0 c).A w = Vpre0 m c (Pipeline.arrRef spec0 w) :=
  (Reg0.A_eq0 (Vin0 m) c w).trans (Vin0_eq m c (Pipeline.arrRef spec0 w)).symm

/-- The contents after item 1 agree with those after item 0 at every reference but the output array. -/
theorem Vpost0_of_ne (c : Dev nD) (b : Ref sig .tc) (hb : b ≠ main_v15) : Vpost0 m c b = Vpre0 m c b :=
  V2_of m (outs m) c b fun h => hb (List.mem_singleton.mp h)

/-- At the output array they hold what region 0 leaves there. -/
theorem Vpost0_out (c : Dev nD) : Vpost0 m c main_v15 = o0 m c :=
  (Function.update_self _ _ _).trans (outs_2 m c)

/-- The contents after item 1 agree with those after item 0 off region 0's arrays: they differ at the output array only. -/
theorem hrest0 (c : Dev nD) : ∀ b, b ∉ Finset.univ.image (Pipeline.arrRef spec0) → Vpost0 m c b = Vpre0 m c b :=
  fun b hb => Vpost0_of_ne m c b fun e => hb (Finset.mem_image.mpr ⟨(2 : Fin 3), Finset.mem_univ _, arrRef0_out.trans e.symm⟩)

/-- At region 0's exit an input array holds what it held at entry: no write-back ever touches it, and the two contents
    agree there. -/
theorem hF0_in (c : Dev nD) (w : Fin 3) (hw : w ≠ 2) (hin : (cfg0.win w).isOut = false) :
    (pdats m 0 c).arrAt w cfg0.N = Vpost0 m c (Pipeline.arrRef spec0 w) :=
  ((pdats m 0 c).arrAt_in w hin cfg0.N).trans <| (hA0 m c w).trans (Vpost0_of_ne m c _ (arrRef0_ne_out w hw)).symm

/-- The output array holds the fold of the write-backs, the value the contents after item 1 name there. -/
theorem hF0_out (c : Dev nD) : (pdats m 0 c).arrAt (2 : Fin 3) cfg0.N = Vpost0 m c (Pipeline.arrRef spec0 (2 : Fin 3)) :=
  (Vpost0_out m c).symm

/-- At region 0's exit each of its arrays holds what the contents after item 1 say. -/
theorem hF0 (c : Dev nD) : ∀ w : Fin 3, (pdats m 0 c).arrAt w cfg0.N = Vpost0 m c (Pipeline.arrRef spec0 w)
  | 0 => hF0_in m c 0 (by decide) rfl
  | 1 => hF0_in m c 1 (by decide) rfl
  | 2 => hF0_out m c
  | ⟨_ + 3, h⟩ => absurd h (Nat.not_lt.2 (Nat.le_add_left _ _))

/-! ## The region as a segment -/

-- a library lemma stated over the pinned configuration unifies with the printed one only when unification may unfold
-- plain definitions in a metavariable's type
set_option backward.isDefEq.respectTransparency.types false in
/-- REGION 0 (custom_call 0) over the thread state: entered from every unscoped buffer at the contents after item 0,
    left at the contents after item 1.  Its arrays are split out of the unscoped buffers at entry and put back at their
    exit contents; the unscoped rest and the generator register bypass it; the invariant is fed from the scoped rest alone
    and returns it; nothing is owed at the pipeline's cells; the kernel has no semaphore of its own. -/
def reg0 : RegionSeg (pcfgs (F := F)) Gen.adm (pdats m) () defs₀ 𝒱₀ L lv 0 where
  win := launch0.win.to₀
  block_pos := launch0.block_pos
  stage_whole := launch0.stage_whole
  K := PEmpty
  osem k := k.elim
  ho := Pipeline.OwnSemFacts.none _
  hbody c := (Reg0.body_obligation0 (Vin0 m) c).loose
  hwaits := Pipeline.hwaits_of_owed_zero _ _ _ _ L lv 0 fun _ _ => rfl
  pre c := iprop(StableHlo.held (c : Thread nD τ) (Pipeline.ucRefs τ sig) (V1 m c) ∗ E (F := F) 0 c)
  post c := iprop(StableHlo.held (c : Thread nD τ) (Pipeline.ucRefs τ sig) (V2 m (outs m) c) ∗ E (F := F) 1 c)
  X c := BI.emp
  Y c := BI.emp
  Z c := iprop((∃ r, prngReg c r)
    ∗ Pipeline.unscopedRest (Ix := Unit) (Name := ℕ) (U := UR sig nD τ) (Lvl := ℕ) spec0 c (Vpre0 m c))
  hentry c := by
    rw [Pipeline.ownSems0_none]
    have hsplit := Pipeline.arrays_of_unscopedBufs (p := 0) (pcfgs (F := F)) Gen.adm (pdats m) launch0.win launch0.arr_whole c
      ((pdats m 0 c).share_full fun _ => rfl) (Vpre0 m c) (hA0 m c)
    rw [Pipeline.unscopedBufs_held c (V1 m c)] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    isplitl [Hp]; · iexact Hp
    iexact Hrest
  hin c := by
    refine BIBase.Entails.trans ?_ (Reg0.Phi0_in (Vin0 m) c)
    iintro ⟨-, -, Hr⟩
    iexact Hr
  hout c := by
    rw [Pipeline.ownSems0_none]
    refine (Reg0.Phi0_out (Vin0 m) c).trans ?_
    iintro Hr
    isplitr; · iempintro
    isplitr; · iempintro
    iexact Hr
  hexit c := by
    have hjoin := Pipeline.unscopedBufs_of_arrays (p := 0) (pcfgs (F := F)) Gen.adm (Ix := Unit) (Name := ℕ) (U := UR sig nD τ) (Lvl := ℕ)
      launch0.win launch0.arr_whole c (pdats m) ((pdats m 0 c).share_full fun _ => rfl)
      (Vpre0 m c) (Vpost0 m c) ((pdats m 0 c).arrAt · cfg0.N) (hF0 m c) (hrest0 m c)
    rw [Pipeline.unscopedBufs_held c (V2 m (outs m) c)] at hjoin
    iintro ⟨Ha, HO, -, Hp, Hrest⟩
    imodintro
    isplitl [Ha Hrest]
    · iapply hjoin; isplitl [Ha] <;> iassumption
    isplitl [Hp]; · iexact Hp
    unfold Pipeline.Dat.owesAt Pipeline.owesWithin
    icases HO with ⟨%W, -, HO⟩; iexists W; iexact HO

/-- The thread state before item 1 is the one region 0 is entered from, -/
theorem hpre0 (c : Dev nD) :
    iprop(StableHlo.held (c : Thread nD τ) (Pipeline.ucRefs τ sig) (V1 m c) ∗ E (F := F) 0 c) ⊢ (reg0 m).pre c := .rfl
/-- and the one it leaves is the thread state after item 1. -/
theorem hpost0 (c : Dev nD) :
    (reg0 m).post c ⊢ iprop(StableHlo.held (c : Thread nD τ) (Pipeline.ucRefs τ sig) (V2 m (outs m) c) ∗ E (F := F) 1 c) := .rfl

end Cert.KernelIdeal.Run

end
-- ==== Proof.KI.Seg1.lean ====
/-
  Region 1 of the kernel program's @main as a segment between the buffer contents after item 10 and after item 11.

  Entering, the core holds every unscoped buffer at the contents after item 10.  The region's three windowed arrays
  (the segment ids, the edge rows, the node sums) are split out of them at the proof data's entry contents; every other
  unscoped buffer passes the region by, and so does the generator register.  The pipeline's invariant starts as the
  scoped buffers no window stages (the accumulator is one of them) and gives them back at the last point.

  Leaving, an input window's array is never written, so the two input arrays hold what they held at entry; the output
  array holds the fold of the write-backs, which is the value the contents after item 11 name at that array.  The
  contents after item 11 differ from those after item 10 at that one array only, so the arrays at their final contents
  together with the bypassing buffers are every unscoped buffer at the contents after item 11.
-/
import proofs.«411400_j9251359555630_1_alg».proof.Proof.KI.Vals
import Idealize.ShloMosaic.Lib.Pipeline.RegionsLoop
import Idealize.ShloMosaic.Lib.Pipeline.Cells
import Idealize.ShloMosaic.Lib.Pipeline.Kit

-- memberships decided among the program's 1120 references recurse past the default depth
set_option maxRecDepth 4992

noncomputable section

namespace Cert.KernelIdeal.Run

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)
open Cert.KernelIdeal Cert.KernelIdeal.Gen

variable {F : FTy → Type} [FloatOps F]
variable (m : (ℓ : Loc nD τ sig) → Buf (Elt F) ℓ)

local notation "𝕄" => MT nD τ sig Unit (Elt F) ℕ (UR sig nD τ) ℕ

/-! ## Region 1's arrays at its exit -/

/-- The contents after item 10, read at the TensorCore's references: what region 1 is entered from. -/
abbrev Vpre1 (c : Dev nD) : (b : Ref sig .tc) → Buf (Elt F) ((c : Thread nD τ).loc b) := fun b => V11 m (outs m) c b
/-- The contents after item 11, read at the TensorCore's references: what region 1 leaves. -/
abbrev Vpost1 (c : Dev nD) : (b : Ref sig .tc) → Buf (Elt F) ((c : Thread nD τ).loc b) := fun b => V12 m (outs m) c b

/-- The output window's array is `main_v95`. -/
theorem arrRef1_out : Pipeline.arrRef spec1 (2 : Fin 3) = main_v95 := rfl

/-- An input window's array is not the output array: the windows' arrays are distinct buffers. -/
theorem arrRef1_ne_out (w : Fin 3) (hw : w ≠ 2) : Pipeline.arrRef spec1 w ≠ main_v95 :=
  fun e => hw (launch1.win.arr_inj (e.trans arrRef1_out.symm))

/-- The proof data are entered from the contents after item 10: each array's entry contents read off them. -/
theorem hA1 (c : Dev nD) (w : Fin cfg1.W) : (pdats m 1 c).A w = Vpre1 m c (Pipeline.arrRef spec1 w) :=
  (Reg1.A_eq1 (Vin1 m) c w).trans (Vin1_eq m c (Pipeline.arrRef spec1 w)).symm

/-- The contents after item 11 agree with those after item 10 at every reference but the output array. -/
theorem Vpost1_of_ne (c : Dev nD) (b : Ref sig .tc) (hb : b ≠ main_v95) : Vpost1 m c b = Vpre1 m c b :=
  V12_of m (outs m) c b fun h => hb (List.mem_singleton.mp h)

/-- At the output array they hold what region 1 leaves there. -/
theorem Vpost1_out (c : Dev nD) : Vpost1 m c main_v95 = o1 m c :=
  (Function.update_self _ _ _).trans (outs_12 m c)

/-- The contents after item 11 agree with those after item 10 off region 1's arrays: they differ at the output array only. -/
theorem hrest1 (c : Dev nD) : ∀ b, b ∉ Finset.univ.image (Pipeline.arrRef spec1) → Vpost1 m c b = Vpre1 m c b :=
  fun b hb => Vpost1_of_ne m c b fun e => hb (Finset.mem_image.mpr ⟨(2 : Fin 3), Finset.mem_univ _, arrRef1_out.trans e.symm⟩)

/-- At region 1's exit an input array holds what it held at entry: no write-back ever touches it, and the two contents
    agree there. -/
theorem hF1_in (c : Dev nD) (w : Fin 3) (hw : w ≠ 2) (hin : (cfg1.win w).isOut = false) :
    (pdats m 1 c).arrAt w cfg1.N = Vpost1 m c (Pipeline.arrRef spec1 w) :=
  ((pdats m 1 c).arrAt_in w hin cfg1.N).trans <| (hA1 m c w).trans (Vpost1_of_ne m c _ (arrRef1_ne_out w hw)).symm

/-- The output array holds the fold of the write-backs, the value the contents after item 11 name there. -/
theorem hF1_out (c : Dev nD) : (pdats m 1 c).arrAt (2 : Fin 3) cfg1.N = Vpost1 m c (Pipeline.arrRef spec1 (2 : Fin 3)) :=
  (Vpost1_out m c).symm

/-- At region 1's exit each of its arrays holds what the contents after item 11 say. -/
theorem hF1 (c : Dev nD) : ∀ w : Fin 3, (pdats m 1 c).arrAt w cfg1.N = Vpost1 m c (Pipeline.arrRef spec1 w)
  | 0 => hF1_in m c 0 (by decide) rfl
  | 1 => hF1_in m c 1 (by decide) rfl
  | 2 => hF1_out m c
  | ⟨_ + 3, h⟩ => absurd h (Nat.not_lt.2 (Nat.le_add_left _ _))

/-! ## The region as a segment -/

-- a library lemma stated over the pinned configuration unifies with the printed one only when unification may unfold
-- plain definitions in a metavariable's type
set_option backward.isDefEq.respectTransparency.types false in
/-- REGION 1 (custom_call 1) over the thread state: entered from every unscoped buffer at the contents after item 10,
    left at the contents after item 11.  Its arrays are split out of the unscoped buffers at entry and put back at their
    exit contents; the unscoped rest and the generator register bypass it; the invariant is fed from the scoped rest alone
    and returns it; nothing is owed at the pipeline's cells; the kernel has no semaphore of its own. -/
def reg1 : RegionSeg (pcfgs (F := F)) Gen.adm (pdats m) () defs₀ 𝒱₀ L lv 1 where
  win := launch1.win.to₀
  block_pos := launch1.block_pos
  stage_whole := launch1.stage_whole
  K := PEmpty
  osem k := k.elim
  ho := Pipeline.OwnSemFacts.none _
  hbody c := (Reg1.body_obligation1 (Vin1 m) c).loose
  hwaits := Pipeline.hwaits_of_owed_zero _ _ _ _ L lv 1 fun _ _ => rfl
  pre c := iprop(StableHlo.held (c : Thread nD τ) (Pipeline.ucRefs τ sig) (V11 m (outs m) c) ∗ E (F := F) 1 c)
  post c := iprop(StableHlo.held (c : Thread nD τ) (Pipeline.ucRefs τ sig) (V12 m (outs m) c) ∗ E (F := F) 2 c)
  X c := BI.emp
  Y c := BI.emp
  Z c := iprop((∃ r, prngReg c r)
    ∗ Pipeline.unscopedRest (Ix := Unit) (Name := ℕ) (U := UR sig nD τ) (Lvl := ℕ) spec1 c (Vpre1 m c))
  hentry c := by
    rw [Pipeline.ownSems0_none]
    have hsplit := Pipeline.arrays_of_unscopedBufs (p := 1) (pcfgs (F := F)) Gen.adm (pdats m) launch1.win launch1.arr_whole c
      ((pdats m 1 c).share_full fun _ => rfl) (Vpre1 m c) (hA1 m c)
    rw [Pipeline.unscopedBufs_held c (V11 m (outs m) c)] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    isplitl [Hp]; · iexact Hp
    iexact Hrest
  hin c := by
    refine BIBase.Entails.trans ?_ (Reg1.Phi1_in (Vin1 m) c)
    iintro ⟨-, -, Hr⟩
    iexact Hr
  hout c := by
    rw [Pipeline.ownSems0_none]
    refine (Reg1.Phi1_out (Vin1 m) c).trans ?_
    iintro Hr
    isplitr; · iempintro
    isplitr; · iempintro
    iexact Hr
  hexit c := by
    have hjoin := Pipeline.unscopedBufs_of_arrays (p := 1) (pcfgs (F := F)) Gen.adm (Ix := Unit) (Name := ℕ) (U := UR sig nD τ) (Lvl := ℕ)
      launch1.win launch1.arr_whole c (pdats m) ((pdats m 1 c).share_full fun _ => rfl)
      (Vpre1 m c) (Vpost1 m c) ((pdats m 1 c).arrAt · cfg1.N) (hF1 m c) (hrest1 m c)
    rw [Pipeline.unscopedBufs_held c (V12 m (outs m) c)] at hjoin
    iintro ⟨Ha, HO, -, Hp, Hrest⟩
    imodintro
    isplitl [Ha Hrest]
    · iapply hjoin; isplitl [Ha] <;> iassumption
    isplitl [Hp]; · iexact Hp
    unfold Pipeline.Dat.owesAt Pipeline.owesWithin
    icases HO with ⟨%W, -, HO⟩; iexists W; iexact HO

/-- The thread state before item 11 is the one region 1 is entered from, -/
theorem hpre1 (c : Dev nD) :
    iprop(StableHlo.held (c : Thread nD τ) (Pipeline.ucRefs τ sig) (V11 m (outs m) c) ∗ E (F := F) 1 c) ⊢ (reg1 m).pre c := .rfl
/-- and the one it leaves is the thread state after item 11. -/
theorem hpost1 (c : Dev nD) :
    (reg1 m).post c ⊢ iprop(StableHlo.held (c : Thread nD τ) (Pipeline.ucRefs τ sig) (V12 m (outs m) c) ∗ E (F := F) 2 c) := .rfl

end Cert.KernelIdeal.Run

end
-- ==== Proof.KI.Seg2.lean ====
/-
  Region 2 of the kernel program's @main as a segment between the buffer contents after item 20 and after item 21.

  Entering, the core holds every unscoped buffer at the contents after item 20.  The region's three windowed arrays
  (the segment ids, the edge rows, the node sums) are split out of them at the proof data's entry contents; every other
  unscoped buffer passes the region by, and so does the generator register.  The pipeline's invariant starts as the
  scoped buffers no window stages (the accumulator is one of them) and gives them back at the last point.

  Leaving, an input window's array is never written, so the two input arrays hold what they held at entry; the output
  array holds the fold of the write-backs, which is the value the contents after item 21 name at that array.  The
  contents after item 21 differ from those after item 20 at that one array only, so the arrays at their final contents
  together with the bypassing buffers are every unscoped buffer at the contents after item 21.
-/
import proofs.«411400_j9251359555630_1_alg».proof.Proof.KI.Vals
import Idealize.ShloMosaic.Lib.Pipeline.RegionsLoop
import Idealize.ShloMosaic.Lib.Pipeline.Cells
import Idealize.ShloMosaic.Lib.Pipeline.Kit

-- memberships decided among the program's 1120 references recurse past the default depth
set_option maxRecDepth 4992

noncomputable section

namespace Cert.KernelIdeal.Run

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)
open Cert.KernelIdeal Cert.KernelIdeal.Gen

variable {F : FTy → Type} [FloatOps F]
variable (m : (ℓ : Loc nD τ sig) → Buf (Elt F) ℓ)

local notation "𝕄" => MT nD τ sig Unit (Elt F) ℕ (UR sig nD τ) ℕ

/-! ## Region 2's arrays at its exit -/

/-- The contents after item 20, read at the TensorCore's references: what region 2 is entered from. -/
abbrev Vpre2 (c : Dev nD) : (b : Ref sig .tc) → Buf (Elt F) ((c : Thread nD τ).loc b) := fun b => V21 m (outs m) c b
/-- The contents after item 21, read at the TensorCore's references: what region 2 leaves. -/
abbrev Vpost2 (c : Dev nD) : (b : Ref sig .tc) → Buf (Elt F) ((c : Thread nD τ).loc b) := fun b => V22 m (outs m) c b

/-- The output window's array is `main_v152`. -/
theorem arrRef2_out : Pipeline.arrRef spec2 (2 : Fin 3) = main_v152 := rfl

/-- An input window's array is not the output array: the windows' arrays are distinct buffers. -/
theorem arrRef2_ne_out (w : Fin 3) (hw : w ≠ 2) : Pipeline.arrRef spec2 w ≠ main_v152 :=
  fun e => hw (launch2.win.arr_inj (e.trans arrRef2_out.symm))

/-- The proof data are entered from the contents after item 20: each array's entry contents read off them. -/
theorem hA2 (c : Dev nD) (w : Fin cfg2.W) : (pdats m 2 c).A w = Vpre2 m c (Pipeline.arrRef spec2 w) :=
  (Reg2.A_eq2 (Vin2 m) c w).trans (Vin2_eq m c (Pipeline.arrRef spec2 w)).symm

/-- The contents after item 21 agree with those after item 20 at every reference but the output array. -/
theorem Vpost2_of_ne (c : Dev nD) (b : Ref sig .tc) (hb : b ≠ main_v152) : Vpost2 m c b = Vpre2 m c b :=
  V22_of m (outs m) c b fun h => hb (List.mem_singleton.mp h)

/-- At the output array they hold what region 2 leaves there. -/
theorem Vpost2_out (c : Dev nD) : Vpost2 m c main_v152 = o2 m c :=
  (Function.update_self _ _ _).trans (outs_22 m c)

/-- The contents after item 21 agree with those after item 20 off region 2's arrays: they differ at the output array only. -/
theorem hrest2 (c : Dev nD) : ∀ b, b ∉ Finset.univ.image (Pipeline.arrRef spec2) → Vpost2 m c b = Vpre2 m c b :=
  fun b hb => Vpost2_of_ne m c b fun e => hb (Finset.mem_image.mpr ⟨(2 : Fin 3), Finset.mem_univ _, arrRef2_out.trans e.symm⟩)

/-- At region 2's exit an input array holds what it held at entry: no write-back ever touches it, and the two contents
    agree there. -/
theorem hF2_in (c : Dev nD) (w : Fin 3) (hw : w ≠ 2) (hin : (cfg2.win w).isOut = false) :
    (pdats m 2 c).arrAt w cfg2.N = Vpost2 m c (Pipeline.arrRef spec2 w) :=
  ((pdats m 2 c).arrAt_in w hin cfg2.N).trans <| (hA2 m c w).trans (Vpost2_of_ne m c _ (arrRef2_ne_out w hw)).symm

/-- The output array holds the fold of the write-backs, the value the contents after item 21 name there. -/
theorem hF2_out (c : Dev nD) : (pdats m 2 c).arrAt (2 : Fin 3) cfg2.N = Vpost2 m c (Pipeline.arrRef spec2 (2 : Fin 3)) :=
  (Vpost2_out m c).symm

/-- At region 2's exit each of its arrays holds what the contents after item 21 say. -/
theorem hF2 (c : Dev nD) : ∀ w : Fin 3, (pdats m 2 c).arrAt w cfg2.N = Vpost2 m c (Pipeline.arrRef spec2 w)
  | 0 => hF2_in m c 0 (by decide) rfl
  | 1 => hF2_in m c 1 (by decide) rfl
  | 2 => hF2_out m c
  | ⟨_ + 3, h⟩ => absurd h (Nat.not_lt.2 (Nat.le_add_left _ _))

/-! ## The region as a segment -/

-- a library lemma stated over the pinned configuration unifies with the printed one only when unification may unfold
-- plain definitions in a metavariable's type
set_option backward.isDefEq.respectTransparency.types false in
/-- REGION 2 (custom_call 2) over the thread state: entered from every unscoped buffer at the contents after item 20,
    left at the contents after item 21.  Its arrays are split out of the unscoped buffers at entry and put back at their
    exit contents; the unscoped rest and the generator register bypass it; the invariant is fed from the scoped rest alone
    and returns it; nothing is owed at the pipeline's cells; the kernel has no semaphore of its own. -/
def reg2 : RegionSeg (pcfgs (F := F)) Gen.adm (pdats m) () defs₀ 𝒱₀ L lv 2 where
  win := launch2.win.to₀
  block_pos := launch2.block_pos
  stage_whole := launch2.stage_whole
  K := PEmpty
  osem k := k.elim
  ho := Pipeline.OwnSemFacts.none _
  hbody c := (Reg2.body_obligation2 (Vin2 m) c).loose
  hwaits := Pipeline.hwaits_of_owed_zero _ _ _ _ L lv 2 fun _ _ => rfl
  pre c := iprop(StableHlo.held (c : Thread nD τ) (Pipeline.ucRefs τ sig) (V21 m (outs m) c) ∗ E (F := F) 2 c)
  post c := iprop(StableHlo.held (c : Thread nD τ) (Pipeline.ucRefs τ sig) (V22 m (outs m) c) ∗ E (F := F) 3 c)
  X c := BI.emp
  Y c := BI.emp
  Z c := iprop((∃ r, prngReg c r)
    ∗ Pipeline.unscopedRest (Ix := Unit) (Name := ℕ) (U := UR sig nD τ) (Lvl := ℕ) spec2 c (Vpre2 m c))
  hentry c := by
    rw [Pipeline.ownSems0_none]
    have hsplit := Pipeline.arrays_of_unscopedBufs (p := 2) (pcfgs (F := F)) Gen.adm (pdats m) launch2.win launch2.arr_whole c
      ((pdats m 2 c).share_full fun _ => rfl) (Vpre2 m c) (hA2 m c)
    rw [Pipeline.unscopedBufs_held c (V21 m (outs m) c)] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    isplitl [Hp]; · iexact Hp
    iexact Hrest
  hin c := by
    refine BIBase.Entails.trans ?_ (Reg2.Phi2_in (Vin2 m) c)
    iintro ⟨-, -, Hr⟩
    iexact Hr
  hout c := by
    rw [Pipeline.ownSems0_none]
    refine (Reg2.Phi2_out (Vin2 m) c).trans ?_
    iintro Hr
    isplitr; · iempintro
    isplitr; · iempintro
    iexact Hr
  hexit c := by
    have hjoin := Pipeline.unscopedBufs_of_arrays (p := 2) (pcfgs (F := F)) Gen.adm (Ix := Unit) (Name := ℕ) (U := UR sig nD τ) (Lvl := ℕ)
      launch2.win launch2.arr_whole c (pdats m) ((pdats m 2 c).share_full fun _ => rfl)
      (Vpre2 m c) (Vpost2 m c) ((pdats m 2 c).arrAt · cfg2.N) (hF2 m c) (hrest2 m c)
    rw [Pipeline.unscopedBufs_held c (V22 m (outs m) c)] at hjoin
    iintro ⟨Ha, HO, -, Hp, Hrest⟩
    imodintro
    isplitl [Ha Hrest]
    · iapply hjoin; isplitl [Ha] <;> iassumption
    isplitl [Hp]; · iexact Hp
    unfold Pipeline.Dat.owesAt Pipeline.owesWithin
    icases HO with ⟨%W, -, HO⟩; iexists W; iexact HO

/-- The thread state before item 21 is the one region 2 is entered from, -/
theorem hpre2 (c : Dev nD) :
    iprop(StableHlo.held (c : Thread nD τ) (Pipeline.ucRefs τ sig) (V21 m (outs m) c) ∗ E (F := F) 2 c) ⊢ (reg2 m).pre c := .rfl
/-- and the one it leaves is the thread state after item 21. -/
theorem hpost2 (c : Dev nD) :
    (reg2 m).post c ⊢ iprop(StableHlo.held (c : Thread nD τ) (Pipeline.ucRefs τ sig) (V22 m (outs m) c) ∗ E (F := F) 3 c) := .rfl

end Cert.KernelIdeal.Run

end
-- ==== Proof.KI.Seg3.lean ====
/-
  Region 3 of the kernel program's @main as a segment between the buffer contents after item 30 and after item 31.

  Entering, the core holds every unscoped buffer at the contents after item 30.  The region's three windowed arrays
  (the segment ids, the edge rows, the node sums) are split out of them at the proof data's entry contents; every other
  unscoped buffer passes the region by, and so does the generator register.  The pipeline's invariant starts as the
  scoped buffers no window stages (the accumulator is one of them) and gives them back at the last point.

  Leaving, an input window's array is never written, so the two input arrays hold what they held at entry; the output
  array holds the fold of the write-backs, which is the value the contents after item 31 name at that array.  The
  contents after item 31 differ from those after item 30 at that one array only, so the arrays at their final contents
  together with the bypassing buffers are every unscoped buffer at the contents after item 31.
-/
import proofs.«411400_j9251359555630_1_alg».proof.Proof.KI.Vals
import Idealize.ShloMosaic.Lib.Pipeline.RegionsLoop
import Idealize.ShloMosaic.Lib.Pipeline.Cells
import Idealize.ShloMosaic.Lib.Pipeline.Kit

-- memberships decided among the program's 1120 references recurse past the default depth
set_option maxRecDepth 4992

noncomputable section

namespace Cert.KernelIdeal.Run

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)
open Cert.KernelIdeal Cert.KernelIdeal.Gen

variable {F : FTy → Type} [FloatOps F]
variable (m : (ℓ : Loc nD τ sig) → Buf (Elt F) ℓ)

local notation "𝕄" => MT nD τ sig Unit (Elt F) ℕ (UR sig nD τ) ℕ

/-! ## Region 3's arrays at its exit -/

/-- The contents after item 30, read at the TensorCore's references: what region 3 is entered from. -/
abbrev Vpre3 (c : Dev nD) : (b : Ref sig .tc) → Buf (Elt F) ((c : Thread nD τ).loc b) := fun b => V31 m (outs m) c b
/-- The contents after item 31, read at the TensorCore's references: what region 3 leaves. -/
abbrev Vpost3 (c : Dev nD) : (b : Ref sig .tc) → Buf (Elt F) ((c : Thread nD τ).loc b) := fun b => V32 m (outs m) c b

/-- The output window's array is `main_v231`. -/
theorem arrRef3_out : Pipeline.arrRef spec3 (2 : Fin 3) = main_v231 := rfl

/-- An input window's array is not the output array: the windows' arrays are distinct buffers. -/
theorem arrRef3_ne_out (w : Fin 3) (hw : w ≠ 2) : Pipeline.arrRef spec3 w ≠ main_v231 :=
  fun e => hw (launch3.win.arr_inj (e.trans arrRef3_out.symm))

/-- The proof data are entered from the contents after item 30: each array's entry contents read off them. -/
theorem hA3 (c : Dev nD) (w : Fin cfg3.W) : (pdats m 3 c).A w = Vpre3 m c (Pipeline.arrRef spec3 w) :=
  (Reg3.A_eq3 (Vin3 m) c w).trans (Vin3_eq m c (Pipeline.arrRef spec3 w)).symm

/-- The contents after item 31 agree with those after item 30 at every reference but the output array. -/
theorem Vpost3_of_ne (c : Dev nD) (b : Ref sig .tc) (hb : b ≠ main_v231) : Vpost3 m c b = Vpre3 m c b :=
  V32_of m (outs m) c b fun h => hb (List.mem_singleton.mp h)

/-- At the output array they hold what region 3 leaves there. -/
theorem Vpost3_out (c : Dev nD) : Vpost3 m c main_v231 = o3 m c :=
  (Function.update_self _ _ _).trans (outs_32 m c)

/-- The contents after item 31 agree with those after item 30 off region 3's arrays: they differ at the output array only. -/
theorem hrest3 (c : Dev nD) : ∀ b, b ∉ Finset.univ.image (Pipeline.arrRef spec3) → Vpost3 m c b = Vpre3 m c b :=
  fun b hb => Vpost3_of_ne m c b fun e => hb (Finset.mem_image.mpr ⟨(2 : Fin 3), Finset.mem_univ _, arrRef3_out.trans e.symm⟩)

/-- At region 3's exit an input array holds what it held at entry: no write-back ever touches it, and the two contents
    agree there. -/
theorem hF3_in (c : Dev nD) (w : Fin 3) (hw : w ≠ 2) (hin : (cfg3.win w).isOut = false) :
    (pdats m 3 c).arrAt w cfg3.N = Vpost3 m c (Pipeline.arrRef spec3 w) :=
  ((pdats m 3 c).arrAt_in w hin cfg3.N).trans <| (hA3 m c w).trans (Vpost3_of_ne m c _ (arrRef3_ne_out w hw)).symm

/-- The output array holds the fold of the write-backs, the value the contents after item 31 name there. -/
theorem hF3_out (c : Dev nD) : (pdats m 3 c).arrAt (2 : Fin 3) cfg3.N = Vpost3 m c (Pipeline.arrRef spec3 (2 : Fin 3)) :=
  (Vpost3_out m c).symm

/-- At region 3's exit each of its arrays holds what the contents after item 31 say. -/
theorem hF3 (c : Dev nD) : ∀ w : Fin 3, (pdats m 3 c).arrAt w cfg3.N = Vpost3 m c (Pipeline.arrRef spec3 w)
  | 0 => hF3_in m c 0 (by decide) rfl
  | 1 => hF3_in m c 1 (by decide) rfl
  | 2 => hF3_out m c
  | ⟨_ + 3, h⟩ => absurd h (Nat.not_lt.2 (Nat.le_add_left _ _))

/-! ## The region as a segment -/

-- a library lemma stated over the pinned configuration unifies with the printed one only when unification may unfold
-- plain definitions in a metavariable's type
set_option backward.isDefEq.respectTransparency.types false in
/-- REGION 3 (custom_call 3) over the thread state: entered from every unscoped buffer at the contents after item 30,
    left at the contents after item 31.  Its arrays are split out of the unscoped buffers at entry and put back at their
    exit contents; the unscoped rest and the generator register bypass it; the invariant is fed from the scoped rest alone
    and returns it; nothing is owed at the pipeline's cells; the kernel has no semaphore of its own. -/
def reg3 : RegionSeg (pcfgs (F := F)) Gen.adm (pdats m) () defs₀ 𝒱₀ L lv 3 where
  win := launch3.win.to₀
  block_pos := launch3.block_pos
  stage_whole := launch3.stage_whole
  K := PEmpty
  osem k := k.elim
  ho := Pipeline.OwnSemFacts.none _
  hbody c := (Reg3.body_obligation3 (Vin3 m) c).loose
  hwaits := Pipeline.hwaits_of_owed_zero _ _ _ _ L lv 3 fun _ _ => rfl
  pre c := iprop(StableHlo.held (c : Thread nD τ) (Pipeline.ucRefs τ sig) (V31 m (outs m) c) ∗ E (F := F) 3 c)
  post c := iprop(StableHlo.held (c : Thread nD τ) (Pipeline.ucRefs τ sig) (V32 m (outs m) c) ∗ E (F := F) 4 c)
  X c := BI.emp
  Y c := BI.emp
  Z c := iprop((∃ r, prngReg c r)
    ∗ Pipeline.unscopedRest (Ix := Unit) (Name := ℕ) (U := UR sig nD τ) (Lvl := ℕ) spec3 c (Vpre3 m c))
  hentry c := by
    rw [Pipeline.ownSems0_none]
    have hsplit := Pipeline.arrays_of_unscopedBufs (p := 3) (pcfgs (F := F)) Gen.adm (pdats m) launch3.win launch3.arr_whole c
      ((pdats m 3 c).share_full fun _ => rfl) (Vpre3 m c) (hA3 m c)
    rw [Pipeline.unscopedBufs_held c (V31 m (outs m) c)] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    isplitl [Hp]; · iexact Hp
    iexact Hrest
  hin c := by
    refine BIBase.Entails.trans ?_ (Reg3.Phi3_in (Vin3 m) c)
    iintro ⟨-, -, Hr⟩
    iexact Hr
  hout c := by
    rw [Pipeline.ownSems0_none]
    refine (Reg3.Phi3_out (Vin3 m) c).trans ?_
    iintro Hr
    isplitr; · iempintro
    isplitr; · iempintro
    iexact Hr
  hexit c := by
    have hjoin := Pipeline.unscopedBufs_of_arrays (p := 3) (pcfgs (F := F)) Gen.adm (Ix := Unit) (Name := ℕ) (U := UR sig nD τ) (Lvl := ℕ)
      launch3.win launch3.arr_whole c (pdats m) ((pdats m 3 c).share_full fun _ => rfl)
      (Vpre3 m c) (Vpost3 m c) ((pdats m 3 c).arrAt · cfg3.N) (hF3 m c) (hrest3 m c)
    rw [Pipeline.unscopedBufs_held c (V32 m (outs m) c)] at hjoin
    iintro ⟨Ha, HO, -, Hp, Hrest⟩
    imodintro
    isplitl [Ha Hrest]
    · iapply hjoin; isplitl [Ha] <;> iassumption
    isplitl [Hp]; · iexact Hp
    unfold Pipeline.Dat.owesAt Pipeline.owesWithin
    icases HO with ⟨%W, -, HO⟩; iexists W; iexact HO

/-- The thread state before item 31 is the one region 3 is entered from, -/
theorem hpre3 (c : Dev nD) :
    iprop(StableHlo.held (c : Thread nD τ) (Pipeline.ucRefs τ sig) (V31 m (outs m) c) ∗ E (F := F) 3 c) ⊢ (reg3 m).pre c := .rfl
/-- and the one it leaves is the thread state after item 31. -/
theorem hpost3 (c : Dev nD) :
    (reg3 m).post c ⊢ iprop(StableHlo.held (c : Thread nD τ) (Pipeline.ucRefs τ sig) (V32 m (outs m) c) ∗ E (F := F) 4 c) := .rfl

end Cert.KernelIdeal.Run

end
-- ==== Proof.KI.Seg4.lean ====
/-
  Region 4 of the kernel program's @main as a segment between the buffer contents after item 40 and after item 41.

  Entering, the core holds every unscoped buffer at the contents after item 40.  The region's three windowed arrays
  (the segment ids, the edge rows, the node sums) are split out of them at the proof data's entry contents; every other
  unscoped buffer passes the region by, and so does the generator register.  The pipeline's invariant starts as the
  scoped buffers no window stages (the accumulator is one of them) and gives them back at the last point.

  Leaving, an input window's array is never written, so the two input arrays hold what they held at entry; the output
  array holds the fold of the write-backs, which is the value the contents after item 41 name at that array.  The
  contents after item 41 differ from those after item 40 at that one array only, so the arrays at their final contents
  together with the bypassing buffers are every unscoped buffer at the contents after item 41.
-/
import proofs.«411400_j9251359555630_1_alg».proof.Proof.KI.Vals
import Idealize.ShloMosaic.Lib.Pipeline.RegionsLoop
import Idealize.ShloMosaic.Lib.Pipeline.Cells
import Idealize.ShloMosaic.Lib.Pipeline.Kit

-- memberships decided among the program's 1120 references recurse past the default depth
set_option maxRecDepth 4992

noncomputable section

namespace Cert.KernelIdeal.Run

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)
open Cert.KernelIdeal Cert.KernelIdeal.Gen

variable {F : FTy → Type} [FloatOps F]
variable (m : (ℓ : Loc nD τ sig) → Buf (Elt F) ℓ)

local notation "𝕄" => MT nD τ sig Unit (Elt F) ℕ (UR sig nD τ) ℕ

/-! ## Region 4's arrays at its exit -/

/-- The contents after item 40, read at the TensorCore's references: what region 4 is entered from. -/
abbrev Vpre4 (c : Dev nD) : (b : Ref sig .tc) → Buf (Elt F) ((c : Thread nD τ).loc b) := fun b => V41 m (outs m) c b
/-- The contents after item 41, read at the TensorCore's references: what region 4 leaves. -/
abbrev Vpost4 (c : Dev nD) : (b : Ref sig .tc) → Buf (Elt F) ((c : Thread nD τ).loc b) := fun b => V42 m (outs m) c b

/-- The output window's array is `main_v288`. -/
theorem arrRef4_out : Pipeline.arrRef spec4 (2 : Fin 3) = main_v288 := rfl

/-- An input window's array is not the output array: the windows' arrays are distinct buffers. -/
theorem arrRef4_ne_out (w : Fin 3) (hw : w ≠ 2) : Pipeline.arrRef spec4 w ≠ main_v288 :=
  fun e => hw (launch4.win.arr_inj (e.trans arrRef4_out.symm))

/-- The proof data are entered from the contents after item 40: each array's entry contents read off them. -/
theorem hA4 (c : Dev nD) (w : Fin cfg4.W) : (pdats m 4 c).A w = Vpre4 m c (Pipeline.arrRef spec4 w) :=
  (Reg4.A_eq4 (Vin4 m) c w).trans (Vin4_eq m c (Pipeline.arrRef spec4 w)).symm

/-- The contents after item 41 agree with those after item 40 at every reference but the output array. -/
theorem Vpost4_of_ne (c : Dev nD) (b : Ref sig .tc) (hb : b ≠ main_v288) : Vpost4 m c b = Vpre4 m c b :=
  V42_of m (outs m) c b fun h => hb (List.mem_singleton.mp h)

/-- At the output array they hold what region 4 leaves there. -/
theorem Vpost4_out (c : Dev nD) : Vpost4 m c main_v288 = o4 m c :=
  (Function.update_self _ _ _).trans (outs_42 m c)

/-- The contents after item 41 agree with those after item 40 off region 4's arrays: they differ at the output array only. -/
theorem hrest4 (c : Dev nD) : ∀ b, b ∉ Finset.univ.image (Pipeline.arrRef spec4) → Vpost4 m c b = Vpre4 m c b :=
  fun b hb => Vpost4_of_ne m c b fun e => hb (Finset.mem_image.mpr ⟨(2 : Fin 3), Finset.mem_univ _, arrRef4_out.trans e.symm⟩)

/-- At region 4's exit an input array holds what it held at entry: no write-back ever touches it, and the two contents
    agree there. -/
theorem hF4_in (c : Dev nD) (w : Fin 3) (hw : w ≠ 2) (hin : (cfg4.win w).isOut = false) :
    (pdats m 4 c).arrAt w cfg4.N = Vpost4 m c (Pipeline.arrRef spec4 w) :=
  ((pdats m 4 c).arrAt_in w hin cfg4.N).trans <| (hA4 m c w).trans (Vpost4_of_ne m c _ (arrRef4_ne_out w hw)).symm

/-- The output array holds the fold of the write-backs, the value the contents after item 41 name there. -/
theorem hF4_out (c : Dev nD) : (pdats m 4 c).arrAt (2 : Fin 3) cfg4.N = Vpost4 m c (Pipeline.arrRef spec4 (2 : Fin 3)) :=
  (Vpost4_out m c).symm

/-- At region 4's exit each of its arrays holds what the contents after item 41 say. -/
theorem hF4 (c : Dev nD) : ∀ w : Fin 3, (pdats m 4 c).arrAt w cfg4.N = Vpost4 m c (Pipeline.arrRef spec4 w)
  | 0 => hF4_in m c 0 (by decide) rfl
  | 1 => hF4_in m c 1 (by decide) rfl
  | 2 => hF4_out m c
  | ⟨_ + 3, h⟩ => absurd h (Nat.not_lt.2 (Nat.le_add_left _ _))

/-! ## The region as a segment -/

-- a library lemma stated over the pinned configuration unifies with the printed one only when unification may unfold
-- plain definitions in a metavariable's type
set_option backward.isDefEq.respectTransparency.types false in
/-- REGION 4 (custom_call 4) over the thread state: entered from every unscoped buffer at the contents after item 40,
    left at the contents after item 41.  Its arrays are split out of the unscoped buffers at entry and put back at their
    exit contents; the unscoped rest and the generator register bypass it; the invariant is fed from the scoped rest alone
    and returns it; nothing is owed at the pipeline's cells; the kernel has no semaphore of its own. -/
def reg4 : RegionSeg (pcfgs (F := F)) Gen.adm (pdats m) () defs₀ 𝒱₀ L lv 4 where
  win := launch4.win.to₀
  block_pos := launch4.block_pos
  stage_whole := launch4.stage_whole
  K := PEmpty
  osem k := k.elim
  ho := Pipeline.OwnSemFacts.none _
  hbody c := (Reg4.body_obligation4 (Vin4 m) c).loose
  hwaits := Pipeline.hwaits_of_owed_zero _ _ _ _ L lv 4 fun _ _ => rfl
  pre c := iprop(StableHlo.held (c : Thread nD τ) (Pipeline.ucRefs τ sig) (V41 m (outs m) c) ∗ E (F := F) 4 c)
  post c := iprop(StableHlo.held (c : Thread nD τ) (Pipeline.ucRefs τ sig) (V42 m (outs m) c) ∗ E (F := F) 5 c)
  X c := BI.emp
  Y c := BI.emp
  Z c := iprop((∃ r, prngReg c r)
    ∗ Pipeline.unscopedRest (Ix := Unit) (Name := ℕ) (U := UR sig nD τ) (Lvl := ℕ) spec4 c (Vpre4 m c))
  hentry c := by
    rw [Pipeline.ownSems0_none]
    have hsplit := Pipeline.arrays_of_unscopedBufs (p := 4) (pcfgs (F := F)) Gen.adm (pdats m) launch4.win launch4.arr_whole c
      ((pdats m 4 c).share_full fun _ => rfl) (Vpre4 m c) (hA4 m c)
    rw [Pipeline.unscopedBufs_held c (V41 m (outs m) c)] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    isplitl [Hp]; · iexact Hp
    iexact Hrest
  hin c := by
    refine BIBase.Entails.trans ?_ (Reg4.Phi4_in (Vin4 m) c)
    iintro ⟨-, -, Hr⟩
    iexact Hr
  hout c := by
    rw [Pipeline.ownSems0_none]
    refine (Reg4.Phi4_out (Vin4 m) c).trans ?_
    iintro Hr
    isplitr; · iempintro
    isplitr; · iempintro
    iexact Hr
  hexit c := by
    have hjoin := Pipeline.unscopedBufs_of_arrays (p := 4) (pcfgs (F := F)) Gen.adm (Ix := Unit) (Name := ℕ) (U := UR sig nD τ) (Lvl := ℕ)
      launch4.win launch4.arr_whole c (pdats m) ((pdats m 4 c).share_full fun _ => rfl)
      (Vpre4 m c) (Vpost4 m c) ((pdats m 4 c).arrAt · cfg4.N) (hF4 m c) (hrest4 m c)
    rw [Pipeline.unscopedBufs_held c (V42 m (outs m) c)] at hjoin
    iintro ⟨Ha, HO, -, Hp, Hrest⟩
    imodintro
    isplitl [Ha Hrest]
    · iapply hjoin; isplitl [Ha] <;> iassumption
    isplitl [Hp]; · iexact Hp
    unfold Pipeline.Dat.owesAt Pipeline.owesWithin
    icases HO with ⟨%W, -, HO⟩; iexists W; iexact HO

/-- The thread state before item 41 is the one region 4 is entered from, -/
theorem hpre4 (c : Dev nD) :
    iprop(StableHlo.held (c : Thread nD τ) (Pipeline.ucRefs τ sig) (V41 m (outs m) c) ∗ E (F := F) 4 c) ⊢ (reg4 m).pre c := .rfl
/-- and the one it leaves is the thread state after item 41. -/
theorem hpost4 (c : Dev nD) :
    (reg4 m).post c ⊢ iprop(StableHlo.held (c : Thread nD τ) (Pipeline.ucRefs τ sig) (V42 m (outs m) c) ∗ E (F := F) 5 c) := .rfl

end Cert.KernelIdeal.Run

end
-- ==== Proof.KI.Seg5.lean ====
/-
  Region 5 of the kernel program's @main as a segment between the buffer contents after item 50 and after item 51.

  Entering, the core holds every unscoped buffer at the contents after item 50.  The region's three windowed arrays
  (the segment ids, the edge rows, the node sums) are split out of them at the proof data's entry contents; every other
  unscoped buffer passes the region by, and so does the generator register.  The pipeline's invariant starts as the
  scoped buffers no window stages (the accumulator is one of them) and gives them back at the last point.

  Leaving, an input window's array is never written, so the two input arrays hold what they held at entry; the output
  array holds the fold of the write-backs, which is the value the contents after item 51 name at that array.  The
  contents after item 51 differ from those after item 50 at that one array only, so the arrays at their final contents
  together with the bypassing buffers are every unscoped buffer at the contents after item 51.
-/
import proofs.«411400_j9251359555630_1_alg».proof.Proof.KI.Vals
import Idealize.ShloMosaic.Lib.Pipeline.RegionsLoop
import Idealize.ShloMosaic.Lib.Pipeline.Cells
import Idealize.ShloMosaic.Lib.Pipeline.Kit

-- memberships decided among the program's 1120 references recurse past the default depth
set_option maxRecDepth 4992

noncomputable section

namespace Cert.KernelIdeal.Run

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)
open Cert.KernelIdeal Cert.KernelIdeal.Gen

variable {F : FTy → Type} [FloatOps F]
variable (m : (ℓ : Loc nD τ sig) → Buf (Elt F) ℓ)

local notation "𝕄" => MT nD τ sig Unit (Elt F) ℕ (UR sig nD τ) ℕ

/-! ## Region 5's arrays at its exit -/

/-- The contents after item 50, read at the TensorCore's references: what region 5 is entered from. -/
abbrev Vpre5 (c : Dev nD) : (b : Ref sig .tc) → Buf (Elt F) ((c : Thread nD τ).loc b) := fun b => V51 m (outs m) c b
/-- The contents after item 51, read at the TensorCore's references: what region 5 leaves. -/
abbrev Vpost5 (c : Dev nD) : (b : Ref sig .tc) → Buf (Elt F) ((c : Thread nD τ).loc b) := fun b => V52 m (outs m) c b

/-- The output window's array is `main_v367`. -/
theorem arrRef5_out : Pipeline.arrRef spec5 (2 : Fin 3) = main_v367 := rfl

/-- An input window's array is not the output array: the windows' arrays are distinct buffers. -/
theorem arrRef5_ne_out (w : Fin 3) (hw : w ≠ 2) : Pipeline.arrRef spec5 w ≠ main_v367 :=
  fun e => hw (launch5.win.arr_inj (e.trans arrRef5_out.symm))

/-- The proof data are entered from the contents after item 50: each array's entry contents read off them. -/
theorem hA5 (c : Dev nD) (w : Fin cfg5.W) : (pdats m 5 c).A w = Vpre5 m c (Pipeline.arrRef spec5 w) :=
  (Reg5.A_eq5 (Vin5 m) c w).trans (Vin5_eq m c (Pipeline.arrRef spec5 w)).symm

/-- The contents after item 51 agree with those after item 50 at every reference but the output array. -/
theorem Vpost5_of_ne (c : Dev nD) (b : Ref sig .tc) (hb : b ≠ main_v367) : Vpost5 m c b = Vpre5 m c b :=
  V52_of m (outs m) c b fun h => hb (List.mem_singleton.mp h)

/-- At the output array they hold what region 5 leaves there. -/
theorem Vpost5_out (c : Dev nD) : Vpost5 m c main_v367 = o5 m c :=
  (Function.update_self _ _ _).trans (outs_52 m c)

/-- The contents after item 51 agree with those after item 50 off region 5's arrays: they differ at the output array only. -/
theorem hrest5 (c : Dev nD) : ∀ b, b ∉ Finset.univ.image (Pipeline.arrRef spec5) → Vpost5 m c b = Vpre5 m c b :=
  fun b hb => Vpost5_of_ne m c b fun e => hb (Finset.mem_image.mpr ⟨(2 : Fin 3), Finset.mem_univ _, arrRef5_out.trans e.symm⟩)

/-- At region 5's exit an input array holds what it held at entry: no write-back ever touches it, and the two contents
    agree there. -/
theorem hF5_in (c : Dev nD) (w : Fin 3) (hw : w ≠ 2) (hin : (cfg5.win w).isOut = false) :
    (pdats m 5 c).arrAt w cfg5.N = Vpost5 m c (Pipeline.arrRef spec5 w) :=
  ((pdats m 5 c).arrAt_in w hin cfg5.N).trans <| (hA5 m c w).trans (Vpost5_of_ne m c _ (arrRef5_ne_out w hw)).symm

/-- The output array holds the fold of the write-backs, the value the contents after item 51 name there. -/
theorem hF5_out (c : Dev nD) : (pdats m 5 c).arrAt (2 : Fin 3) cfg5.N = Vpost5 m c (Pipeline.arrRef spec5 (2 : Fin 3)) :=
  (Vpost5_out m c).symm

/-- At region 5's exit each of its arrays holds what the contents after item 51 say. -/
theorem hF5 (c : Dev nD) : ∀ w : Fin 3, (pdats m 5 c).arrAt w cfg5.N = Vpost5 m c (Pipeline.arrRef spec5 w)
  | 0 => hF5_in m c 0 (by decide) rfl
  | 1 => hF5_in m c 1 (by decide) rfl
  | 2 => hF5_out m c
  | ⟨_ + 3, h⟩ => absurd h (Nat.not_lt.2 (Nat.le_add_left _ _))

/-! ## The region as a segment -/

-- a library lemma stated over the pinned configuration unifies with the printed one only when unification may unfold
-- plain definitions in a metavariable's type
set_option backward.isDefEq.respectTransparency.types false in
/-- REGION 5 (custom_call 5) over the thread state: entered from every unscoped buffer at the contents after item 50,
    left at the contents after item 51.  Its arrays are split out of the unscoped buffers at entry and put back at their
    exit contents; the unscoped rest and the generator register bypass it; the invariant is fed from the scoped rest alone
    and returns it; nothing is owed at the pipeline's cells; the kernel has no semaphore of its own. -/
def reg5 : RegionSeg (pcfgs (F := F)) Gen.adm (pdats m) () defs₀ 𝒱₀ L lv 5 where
  win := launch5.win.to₀
  block_pos := launch5.block_pos
  stage_whole := launch5.stage_whole
  K := PEmpty
  osem k := k.elim
  ho := Pipeline.OwnSemFacts.none _
  hbody c := (Reg5.body_obligation5 (Vin5 m) c).loose
  hwaits := Pipeline.hwaits_of_owed_zero _ _ _ _ L lv 5 fun _ _ => rfl
  pre c := iprop(StableHlo.held (c : Thread nD τ) (Pipeline.ucRefs τ sig) (V51 m (outs m) c) ∗ E (F := F) 5 c)
  post c := iprop(StableHlo.held (c : Thread nD τ) (Pipeline.ucRefs τ sig) (V52 m (outs m) c) ∗ E (F := F) 6 c)
  X c := BI.emp
  Y c := BI.emp
  Z c := iprop((∃ r, prngReg c r)
    ∗ Pipeline.unscopedRest (Ix := Unit) (Name := ℕ) (U := UR sig nD τ) (Lvl := ℕ) spec5 c (Vpre5 m c))
  hentry c := by
    rw [Pipeline.ownSems0_none]
    have hsplit := Pipeline.arrays_of_unscopedBufs (p := 5) (pcfgs (F := F)) Gen.adm (pdats m) launch5.win launch5.arr_whole c
      ((pdats m 5 c).share_full fun _ => rfl) (Vpre5 m c) (hA5 m c)
    rw [Pipeline.unscopedBufs_held c (V51 m (outs m) c)] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    isplitl [Hp]; · iexact Hp
    iexact Hrest
  hin c := by
    refine BIBase.Entails.trans ?_ (Reg5.Phi5_in (Vin5 m) c)
    iintro ⟨-, -, Hr⟩
    iexact Hr
  hout c := by
    rw [Pipeline.ownSems0_none]
    refine (Reg5.Phi5_out (Vin5 m) c).trans ?_
    iintro Hr
    isplitr; · iempintro
    isplitr; · iempintro
    iexact Hr
  hexit c := by
    have hjoin := Pipeline.unscopedBufs_of_arrays (p := 5) (pcfgs (F := F)) Gen.adm (Ix := Unit) (Name := ℕ) (U := UR sig nD τ) (Lvl := ℕ)
      launch5.win launch5.arr_whole c (pdats m) ((pdats m 5 c).share_full fun _ => rfl)
      (Vpre5 m c) (Vpost5 m c) ((pdats m 5 c).arrAt · cfg5.N) (hF5 m c) (hrest5 m c)
    rw [Pipeline.unscopedBufs_held c (V52 m (outs m) c)] at hjoin
    iintro ⟨Ha, HO, -, Hp, Hrest⟩
    imodintro
    isplitl [Ha Hrest]
    · iapply hjoin; isplitl [Ha] <;> iassumption
    isplitl [Hp]; · iexact Hp
    unfold Pipeline.Dat.owesAt Pipeline.owesWithin
    icases HO with ⟨%W, -, HO⟩; iexists W; iexact HO

/-- The thread state before item 51 is the one region 5 is entered from, -/
theorem hpre5 (c : Dev nD) :
    iprop(StableHlo.held (c : Thread nD τ) (Pipeline.ucRefs τ sig) (V51 m (outs m) c) ∗ E (F := F) 5 c) ⊢ (reg5 m).pre c := .rfl
/-- and the one it leaves is the thread state after item 51. -/
theorem hpost5 (c : Dev nD) :
    (reg5 m).post c ⊢ iprop(StableHlo.held (c : Thread nD τ) (Pipeline.ucRefs τ sig) (V52 m (outs m) c) ∗ E (F := F) 6 c) := .rfl

end Cert.KernelIdeal.Run

end
-- ==== Proof.KI.Seg6.lean ====
/-
  Region 6 of the kernel program's @main as a segment between the buffer contents after item 60 and after item 61.

  Entering, the core holds every unscoped buffer at the contents after item 60.  The region's three windowed arrays
  (the segment ids, the edge rows, the node sums) are split out of them at the proof data's entry contents; every other
  unscoped buffer passes the region by, and so does the generator register.  The pipeline's invariant starts as the
  scoped buffers no window stages (the accumulator is one of them) and gives them back at the last point.

  Leaving, an input window's array is never written, so the two input arrays hold what they held at entry; the output
  array holds the fold of the write-backs, which is the value the contents after item 61 name at that array.  The
  contents after item 61 differ from those after item 60 at that one array only, so the arrays at their final contents
  together with the bypassing buffers are every unscoped buffer at the contents after item 61.
-/
import proofs.«411400_j9251359555630_1_alg».proof.Proof.KI.Vals
import Idealize.ShloMosaic.Lib.Pipeline.RegionsLoop
import Idealize.ShloMosaic.Lib.Pipeline.Cells
import Idealize.ShloMosaic.Lib.Pipeline.Kit

-- memberships decided among the program's 1120 references recurse past the default depth
set_option maxRecDepth 4992

noncomputable section

namespace Cert.KernelIdeal.Run

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)
open Cert.KernelIdeal Cert.KernelIdeal.Gen

variable {F : FTy → Type} [FloatOps F]
variable (m : (ℓ : Loc nD τ sig) → Buf (Elt F) ℓ)

local notation "𝕄" => MT nD τ sig Unit (Elt F) ℕ (UR sig nD τ) ℕ

/-! ## Region 6's arrays at its exit -/

/-- The contents after item 60, read at the TensorCore's references: what region 6 is entered from. -/
abbrev Vpre6 (c : Dev nD) : (b : Ref sig .tc) → Buf (Elt F) ((c : Thread nD τ).loc b) := fun b => V61 m (outs m) c b
/-- The contents after item 61, read at the TensorCore's references: what region 6 leaves. -/
abbrev Vpost6 (c : Dev nD) : (b : Ref sig .tc) → Buf (Elt F) ((c : Thread nD τ).loc b) := fun b => V62 m (outs m) c b

/-- The output window's array is `main_v424`. -/
theorem arrRef6_out : Pipeline.arrRef spec6 (2 : Fin 3) = main_v424 := rfl

/-- An input window's array is not the output array: the windows' arrays are distinct buffers. -/
theorem arrRef6_ne_out (w : Fin 3) (hw : w ≠ 2) : Pipeline.arrRef spec6 w ≠ main_v424 :=
  fun e => hw (launch6.win.arr_inj (e.trans arrRef6_out.symm))

/-- The proof data are entered from the contents after item 60: each array's entry contents read off them. -/
theorem hA6 (c : Dev nD) (w : Fin cfg6.W) : (pdats m 6 c).A w = Vpre6 m c (Pipeline.arrRef spec6 w) :=
  (Reg6.A_eq6 (Vin6 m) c w).trans (Vin6_eq m c (Pipeline.arrRef spec6 w)).symm

/-- The contents after item 61 agree with those after item 60 at every reference but the output array. -/
theorem Vpost6_of_ne (c : Dev nD) (b : Ref sig .tc) (hb : b ≠ main_v424) : Vpost6 m c b = Vpre6 m c b :=
  V62_of m (outs m) c b fun h => hb (List.mem_singleton.mp h)

/-- At the output array they hold what region 6 leaves there. -/
theorem Vpost6_out (c : Dev nD) : Vpost6 m c main_v424 = o6 m c :=
  (Function.update_self _ _ _).trans (outs_62 m c)

/-- The contents after item 61 agree with those after item 60 off region 6's arrays: they differ at the output array only. -/
theorem hrest6 (c : Dev nD) : ∀ b, b ∉ Finset.univ.image (Pipeline.arrRef spec6) → Vpost6 m c b = Vpre6 m c b :=
  fun b hb => Vpost6_of_ne m c b fun e => hb (Finset.mem_image.mpr ⟨(2 : Fin 3), Finset.mem_univ _, arrRef6_out.trans e.symm⟩)

/-- At region 6's exit an input array holds what it held at entry: no write-back ever touches it, and the two contents
    agree there. -/
theorem hF6_in (c : Dev nD) (w : Fin 3) (hw : w ≠ 2) (hin : (cfg6.win w).isOut = false) :
    (pdats m 6 c).arrAt w cfg6.N = Vpost6 m c (Pipeline.arrRef spec6 w) :=
  ((pdats m 6 c).arrAt_in w hin cfg6.N).trans <| (hA6 m c w).trans (Vpost6_of_ne m c _ (arrRef6_ne_out w hw)).symm

/-- The output array holds the fold of the write-backs, the value the contents after item 61 name there. -/
theorem hF6_out (c : Dev nD) : (pdats m 6 c).arrAt (2 : Fin 3) cfg6.N = Vpost6 m c (Pipeline.arrRef spec6 (2 : Fin 3)) :=
  (Vpost6_out m c).symm

/-- At region 6's exit each of its arrays holds what the contents after item 61 say. -/
theorem hF6 (c : Dev nD) : ∀ w : Fin 3, (pdats m 6 c).arrAt w cfg6.N = Vpost6 m c (Pipeline.arrRef spec6 w)
  | 0 => hF6_in m c 0 (by decide) rfl
  | 1 => hF6_in m c 1 (by decide) rfl
  | 2 => hF6_out m c
  | ⟨_ + 3, h⟩ => absurd h (Nat.not_lt.2 (Nat.le_add_left _ _))

/-! ## The region as a segment -/

-- a library lemma stated over the pinned configuration unifies with the printed one only when unification may unfold
-- plain definitions in a metavariable's type
set_option backward.isDefEq.respectTransparency.types false in
/-- REGION 6 (custom_call 6) over the thread state: entered from every unscoped buffer at the contents after item 60,
    left at the contents after item 61.  Its arrays are split out of the unscoped buffers at entry and put back at their
    exit contents; the unscoped rest and the generator register bypass it; the invariant is fed from the scoped rest alone
    and returns it; nothing is owed at the pipeline's cells; the kernel has no semaphore of its own. -/
def reg6 : RegionSeg (pcfgs (F := F)) Gen.adm (pdats m) () defs₀ 𝒱₀ L lv 6 where
  win := launch6.win.to₀
  block_pos := launch6.block_pos
  stage_whole := launch6.stage_whole
  K := PEmpty
  osem k := k.elim
  ho := Pipeline.OwnSemFacts.none _
  hbody c := (Reg6.body_obligation6 (Vin6 m) c).loose
  hwaits := Pipeline.hwaits_of_owed_zero _ _ _ _ L lv 6 fun _ _ => rfl
  pre c := iprop(StableHlo.held (c : Thread nD τ) (Pipeline.ucRefs τ sig) (V61 m (outs m) c) ∗ E (F := F) 6 c)
  post c := iprop(StableHlo.held (c : Thread nD τ) (Pipeline.ucRefs τ sig) (V62 m (outs m) c) ∗ E (F := F) 7 c)
  X c := BI.emp
  Y c := BI.emp
  Z c := iprop((∃ r, prngReg c r)
    ∗ Pipeline.unscopedRest (Ix := Unit) (Name := ℕ) (U := UR sig nD τ) (Lvl := ℕ) spec6 c (Vpre6 m c))
  hentry c := by
    rw [Pipeline.ownSems0_none]
    have hsplit := Pipeline.arrays_of_unscopedBufs (p := 6) (pcfgs (F := F)) Gen.adm (pdats m) launch6.win launch6.arr_whole c
      ((pdats m 6 c).share_full fun _ => rfl) (Vpre6 m c) (hA6 m c)
    rw [Pipeline.unscopedBufs_held c (V61 m (outs m) c)] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    isplitl [Hp]; · iexact Hp
    iexact Hrest
  hin c := by
    refine BIBase.Entails.trans ?_ (Reg6.Phi6_in (Vin6 m) c)
    iintro ⟨-, -, Hr⟩
    iexact Hr
  hout c := by
    rw [Pipeline.ownSems0_none]
    refine (Reg6.Phi6_out (Vin6 m) c).trans ?_
    iintro Hr
    isplitr; · iempintro
    isplitr; · iempintro
    iexact Hr
  hexit c := by
    have hjoin := Pipeline.unscopedBufs_of_arrays (p := 6) (pcfgs (F := F)) Gen.adm (Ix := Unit) (Name := ℕ) (U := UR sig nD τ) (Lvl := ℕ)
      launch6.win launch6.arr_whole c (pdats m) ((pdats m 6 c).share_full fun _ => rfl)
      (Vpre6 m c) (Vpost6 m c) ((pdats m 6 c).arrAt · cfg6.N) (hF6 m c) (hrest6 m c)
    rw [Pipeline.unscopedBufs_held c (V62 m (outs m) c)] at hjoin
    iintro ⟨Ha, HO, -, Hp, Hrest⟩
    imodintro
    isplitl [Ha Hrest]
    · iapply hjoin; isplitl [Ha] <;> iassumption
    isplitl [Hp]; · iexact Hp
    unfold Pipeline.Dat.owesAt Pipeline.owesWithin
    icases HO with ⟨%W, -, HO⟩; iexists W; iexact HO

/-- The thread state before item 61 is the one region 6 is entered from, -/
theorem hpre6 (c : Dev nD) :
    iprop(StableHlo.held (c : Thread nD τ) (Pipeline.ucRefs τ sig) (V61 m (outs m) c) ∗ E (F := F) 6 c) ⊢ (reg6 m).pre c := .rfl
/-- and the one it leaves is the thread state after item 61. -/
theorem hpost6 (c : Dev nD) :
    (reg6 m).post c ⊢ iprop(StableHlo.held (c : Thread nD τ) (Pipeline.ucRefs τ sig) (V62 m (outs m) c) ∗ E (F := F) 7 c) := .rfl

end Cert.KernelIdeal.Run

end
-- ==== Proof.KI.Seg7.lean ====
/-
  Region 7 of the kernel program's @main as a segment between the buffer contents after item 70 and after item 71.

  Entering, the core holds every unscoped buffer at the contents after item 70.  The region's three windowed arrays
  (the segment ids, the edge rows, the node sums) are split out of them at the proof data's entry contents; every other
  unscoped buffer passes the region by, and so does the generator register.  The pipeline's invariant starts as the
  scoped buffers no window stages (the accumulator is one of them) and gives them back at the last point.

  Leaving, an input window's array is never written, so the two input arrays hold what they held at entry; the output
  array holds the fold of the write-backs, which is the value the contents after item 71 name at that array.  The
  contents after item 71 differ from those after item 70 at that one array only, so the arrays at their final contents
  together with the bypassing buffers are every unscoped buffer at the contents after item 71.
-/
import proofs.«411400_j9251359555630_1_alg».proof.Proof.KI.Vals
import Idealize.ShloMosaic.Lib.Pipeline.RegionsLoop
import Idealize.ShloMosaic.Lib.Pipeline.Cells
import Idealize.ShloMosaic.Lib.Pipeline.Kit

-- memberships decided among the program's 1120 references recurse past the default depth
set_option maxRecDepth 4992

noncomputable section

namespace Cert.KernelIdeal.Run

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)
open Cert.KernelIdeal Cert.KernelIdeal.Gen

variable {F : FTy → Type} [FloatOps F]
variable (m : (ℓ : Loc nD τ sig) → Buf (Elt F) ℓ)

local notation "𝕄" => MT nD τ sig Unit (Elt F) ℕ (UR sig nD τ) ℕ

/-! ## Region 7's arrays at its exit -/

/-- The contents after item 70, read at the TensorCore's references: what region 7 is entered from. -/
abbrev Vpre7 (c : Dev nD) : (b : Ref sig .tc) → Buf (Elt F) ((c : Thread nD τ).loc b) := fun b => V71 m (outs m) c b
/-- The contents after item 71, read at the TensorCore's references: what region 7 leaves. -/
abbrev Vpost7 (c : Dev nD) : (b : Ref sig .tc) → Buf (Elt F) ((c : Thread nD τ).loc b) := fun b => V72 m (outs m) c b

/-- The output window's array is `main_v503`. -/
theorem arrRef7_out : Pipeline.arrRef spec7 (2 : Fin 3) = main_v503 := rfl

/-- An input window's array is not the output array: the windows' arrays are distinct buffers. -/
theorem arrRef7_ne_out (w : Fin 3) (hw : w ≠ 2) : Pipeline.arrRef spec7 w ≠ main_v503 :=
  fun e => hw (launch7.win.arr_inj (e.trans arrRef7_out.symm))

/-- The proof data are entered from the contents after item 70: each array's entry contents read off them. -/
theorem hA7 (c : Dev nD) (w : Fin cfg7.W) : (pdats m 7 c).A w = Vpre7 m c (Pipeline.arrRef spec7 w) :=
  (Reg7.A_eq7 (Vin7 m) c w).trans (Vin7_eq m c (Pipeline.arrRef spec7 w)).symm

/-- The contents after item 71 agree with those after item 70 at every reference but the output array. -/
theorem Vpost7_of_ne (c : Dev nD) (b : Ref sig .tc) (hb : b ≠ main_v503) : Vpost7 m c b = Vpre7 m c b :=
  V72_of m (outs m) c b fun h => hb (List.mem_singleton.mp h)

/-- At the output array they hold what region 7 leaves there. -/
theorem Vpost7_out (c : Dev nD) : Vpost7 m c main_v503 = o7 m c :=
  (Function.update_self _ _ _).trans (outs_72 m c)

/-- The contents after item 71 agree with those after item 70 off region 7's arrays: they differ at the output array only. -/
theorem hrest7 (c : Dev nD) : ∀ b, b ∉ Finset.univ.image (Pipeline.arrRef spec7) → Vpost7 m c b = Vpre7 m c b :=
  fun b hb => Vpost7_of_ne m c b fun e => hb (Finset.mem_image.mpr ⟨(2 : Fin 3), Finset.mem_univ _, arrRef7_out.trans e.symm⟩)

/-- At region 7's exit an input array holds what it held at entry: no write-back ever touches it, and the two contents
    agree there. -/
theorem hF7_in (c : Dev nD) (w : Fin 3) (hw : w ≠ 2) (hin : (cfg7.win w).isOut = false) :
    (pdats m 7 c).arrAt w cfg7.N = Vpost7 m c (Pipeline.arrRef spec7 w) :=
  ((pdats m 7 c).arrAt_in w hin cfg7.N).trans <| (hA7 m c w).trans (Vpost7_of_ne m c _ (arrRef7_ne_out w hw)).symm

/-- The output array holds the fold of the write-backs, the value the contents after item 71 name there. -/
theorem hF7_out (c : Dev nD) : (pdats m 7 c).arrAt (2 : Fin 3) cfg7.N = Vpost7 m c (Pipeline.arrRef spec7 (2 : Fin 3)) :=
  (Vpost7_out m c).symm

/-- At region 7's exit each of its arrays holds what the contents after item 71 say. -/
theorem hF7 (c : Dev nD) : ∀ w : Fin 3, (pdats m 7 c).arrAt w cfg7.N = Vpost7 m c (Pipeline.arrRef spec7 w)
  | 0 => hF7_in m c 0 (by decide) rfl
  | 1 => hF7_in m c 1 (by decide) rfl
  | 2 => hF7_out m c
  | ⟨_ + 3, h⟩ => absurd h (Nat.not_lt.2 (Nat.le_add_left _ _))

/-! ## The region as a segment -/

-- a library lemma stated over the pinned configuration unifies with the printed one only when unification may unfold
-- plain definitions in a metavariable's type
set_option backward.isDefEq.respectTransparency.types false in
/-- REGION 7 (custom_call 7) over the thread state: entered from every unscoped buffer at the contents after item 70,
    left at the contents after item 71.  Its arrays are split out of the unscoped buffers at entry and put back at their
    exit contents; the unscoped rest and the generator register bypass it; the invariant is fed from the scoped rest alone
    and returns it; nothing is owed at the pipeline's cells; the kernel has no semaphore of its own. -/
def reg7 : RegionSeg (pcfgs (F := F)) Gen.adm (pdats m) () defs₀ 𝒱₀ L lv 7 where
  win := launch7.win.to₀
  block_pos := launch7.block_pos
  stage_whole := launch7.stage_whole
  K := PEmpty
  osem k := k.elim
  ho := Pipeline.OwnSemFacts.none _
  hbody c := (Reg7.body_obligation7 (Vin7 m) c).loose
  hwaits := Pipeline.hwaits_of_owed_zero _ _ _ _ L lv 7 fun _ _ => rfl
  pre c := iprop(StableHlo.held (c : Thread nD τ) (Pipeline.ucRefs τ sig) (V71 m (outs m) c) ∗ E (F := F) 7 c)
  post c := iprop(StableHlo.held (c : Thread nD τ) (Pipeline.ucRefs τ sig) (V72 m (outs m) c) ∗ E (F := F) 8 c)
  X c := BI.emp
  Y c := BI.emp
  Z c := iprop((∃ r, prngReg c r)
    ∗ Pipeline.unscopedRest (Ix := Unit) (Name := ℕ) (U := UR sig nD τ) (Lvl := ℕ) spec7 c (Vpre7 m c))
  hentry c := by
    rw [Pipeline.ownSems0_none]
    have hsplit := Pipeline.arrays_of_unscopedBufs (p := 7) (pcfgs (F := F)) Gen.adm (pdats m) launch7.win launch7.arr_whole c
      ((pdats m 7 c).share_full fun _ => rfl) (Vpre7 m c) (hA7 m c)
    rw [Pipeline.unscopedBufs_held c (V71 m (outs m) c)] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    isplitl [Hp]; · iexact Hp
    iexact Hrest
  hin c := by
    refine BIBase.Entails.trans ?_ (Reg7.Phi7_in (Vin7 m) c)
    iintro ⟨-, -, Hr⟩
    iexact Hr
  hout c := by
    rw [Pipeline.ownSems0_none]
    refine (Reg7.Phi7_out (Vin7 m) c).trans ?_
    iintro Hr
    isplitr; · iempintro
    isplitr; · iempintro
    iexact Hr
  hexit c := by
    have hjoin := Pipeline.unscopedBufs_of_arrays (p := 7) (pcfgs (F := F)) Gen.adm (Ix := Unit) (Name := ℕ) (U := UR sig nD τ) (Lvl := ℕ)
      launch7.win launch7.arr_whole c (pdats m) ((pdats m 7 c).share_full fun _ => rfl)
      (Vpre7 m c) (Vpost7 m c) ((pdats m 7 c).arrAt · cfg7.N) (hF7 m c) (hrest7 m c)
    rw [Pipeline.unscopedBufs_held c (V72 m (outs m) c)] at hjoin
    iintro ⟨Ha, HO, -, Hp, Hrest⟩
    imodintro
    isplitl [Ha Hrest]
    · iapply hjoin; isplitl [Ha] <;> iassumption
    isplitl [Hp]; · iexact Hp
    unfold Pipeline.Dat.owesAt Pipeline.owesWithin
    icases HO with ⟨%W, -, HO⟩; iexists W; iexact HO

/-- The thread state before item 71 is the one region 7 is entered from, -/
theorem hpre7 (c : Dev nD) :
    iprop(StableHlo.held (c : Thread nD τ) (Pipeline.ucRefs τ sig) (V71 m (outs m) c) ∗ E (F := F) 7 c) ⊢ (reg7 m).pre c := .rfl
/-- and the one it leaves is the thread state after item 71. -/
theorem hpost7 (c : Dev nD) :
    (reg7 m).post c ⊢ iprop(StableHlo.held (c : Thread nD τ) (Pipeline.ucRefs τ sig) (V72 m (outs m) c) ∗ E (F := F) 8 c) := .rfl

end Cert.KernelIdeal.Run

end
-- ==== Proof.KI.Seg8.lean ====
/-
  Region 8 of the kernel program's @main as a segment between the buffer contents after item 78 and after item 79.

  Entering, the core holds every unscoped buffer at the contents after item 78.  The region's three windowed arrays
  (the segment ids, the edge rows, the node sums) are split out of them at the proof data's entry contents; every other
  unscoped buffer passes the region by, and so does the generator register.  The pipeline's invariant starts as the
  scoped buffers no window stages (the accumulator is one of them) and gives them back at the last point.

  Leaving, an input window's array is never written, so the two input arrays hold what they held at entry; the output
  array holds the fold of the write-backs, which is the value the contents after item 79 name at that array.  The
  contents after item 79 differ from those after item 78 at that one array only, so the arrays at their final contents
  together with the bypassing buffers are every unscoped buffer at the contents after item 79.
-/
import proofs.«411400_j9251359555630_1_alg».proof.Proof.KI.Vals
import Idealize.ShloMosaic.Lib.Pipeline.RegionsLoop
import Idealize.ShloMosaic.Lib.Pipeline.Cells
import Idealize.ShloMosaic.Lib.Pipeline.Kit

-- memberships decided among the program's 1120 references recurse past the default depth
set_option maxRecDepth 4992

noncomputable section

namespace Cert.KernelIdeal.Run

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)
open Cert.KernelIdeal Cert.KernelIdeal.Gen

variable {F : FTy → Type} [FloatOps F]
variable (m : (ℓ : Loc nD τ sig) → Buf (Elt F) ℓ)

local notation "𝕄" => MT nD τ sig Unit (Elt F) ℕ (UR sig nD τ) ℕ

/-! ## Region 8's arrays at its exit -/

/-- The contents after item 78, read at the TensorCore's references: what region 8 is entered from. -/
abbrev Vpre8 (c : Dev nD) : (b : Ref sig .tc) → Buf (Elt F) ((c : Thread nD τ).loc b) := fun b => V79 m (outs m) c b
/-- The contents after item 79, read at the TensorCore's references: what region 8 leaves. -/
abbrev Vpost8 (c : Dev nD) : (b : Ref sig .tc) → Buf (Elt F) ((c : Thread nD τ).loc b) := fun b => V80 m (outs m) c b

/-- The output window's array is `main_v568`. -/
theorem arrRef8_out : Pipeline.arrRef spec8 (2 : Fin 3) = main_v568 := rfl

/-- An input window's array is not the output array: the windows' arrays are distinct buffers. -/
theorem arrRef8_ne_out (w : Fin 3) (hw : w ≠ 2) : Pipeline.arrRef spec8 w ≠ main_v568 :=
  fun e => hw (launch8.win.arr_inj (e.trans arrRef8_out.symm))

/-- The proof data are entered from the contents after item 78: each array's entry contents read off them. -/
theorem hA8 (c : Dev nD) (w : Fin cfg8.W) : (pdats m 8 c).A w = Vpre8 m c (Pipeline.arrRef spec8 w) :=
  (Reg8.A_eq8 (Vin8 m) c w).trans (Vin8_eq m c (Pipeline.arrRef spec8 w)).symm

/-- The contents after item 79 agree with those after item 78 at every reference but the output array. -/
theorem Vpost8_of_ne (c : Dev nD) (b : Ref sig .tc) (hb : b ≠ main_v568) : Vpost8 m c b = Vpre8 m c b :=
  V80_of m (outs m) c b fun h => hb (List.mem_singleton.mp h)

/-- At the output array they hold what region 8 leaves there. -/
theorem Vpost8_out (c : Dev nD) : Vpost8 m c main_v568 = o8 m c :=
  (Function.update_self _ _ _).trans (outs_80 m c)

/-- The contents after item 79 agree with those after item 78 off region 8's arrays: they differ at the output array only. -/
theorem hrest8 (c : Dev nD) : ∀ b, b ∉ Finset.univ.image (Pipeline.arrRef spec8) → Vpost8 m c b = Vpre8 m c b :=
  fun b hb => Vpost8_of_ne m c b fun e => hb (Finset.mem_image.mpr ⟨(2 : Fin 3), Finset.mem_univ _, arrRef8_out.trans e.symm⟩)

/-- At region 8's exit an input array holds what it held at entry: no write-back ever touches it, and the two contents
    agree there. -/
theorem hF8_in (c : Dev nD) (w : Fin 3) (hw : w ≠ 2) (hin : (cfg8.win w).isOut = false) :
    (pdats m 8 c).arrAt w cfg8.N = Vpost8 m c (Pipeline.arrRef spec8 w) :=
  ((pdats m 8 c).arrAt_in w hin cfg8.N).trans <| (hA8 m c w).trans (Vpost8_of_ne m c _ (arrRef8_ne_out w hw)).symm

/-- The output array holds the fold of the write-backs, the value the contents after item 79 name there. -/
theorem hF8_out (c : Dev nD) : (pdats m 8 c).arrAt (2 : Fin 3) cfg8.N = Vpost8 m c (Pipeline.arrRef spec8 (2 : Fin 3)) :=
  (Vpost8_out m c).symm

/-- At region 8's exit each of its arrays holds what the contents after item 79 say. -/
theorem hF8 (c : Dev nD) : ∀ w : Fin 3, (pdats m 8 c).arrAt w cfg8.N = Vpost8 m c (Pipeline.arrRef spec8 w)
  | 0 => hF8_in m c 0 (by decide) rfl
  | 1 => hF8_in m c 1 (by decide) rfl
  | 2 => hF8_out m c
  | ⟨_ + 3, h⟩ => absurd h (Nat.not_lt.2 (Nat.le_add_left _ _))

/-! ## The region as a segment -/

-- a library lemma stated over the pinned configuration unifies with the printed one only when unification may unfold
-- plain definitions in a metavariable's type
set_option backward.isDefEq.respectTransparency.types false in
/-- REGION 8 (custom_call 8) over the thread state: entered from every unscoped buffer at the contents after item 78,
    left at the contents after item 79.  Its arrays are split out of the unscoped buffers at entry and put back at their
    exit contents; the unscoped rest and the generator register bypass it; the invariant is fed from the scoped rest alone
    and returns it; nothing is owed at the pipeline's cells; the kernel has no semaphore of its own. -/
def reg8 : RegionSeg (pcfgs (F := F)) Gen.adm (pdats m) () defs₀ 𝒱₀ L lv 8 where
  win := launch8.win.to₀
  block_pos := launch8.block_pos
  stage_whole := launch8.stage_whole
  K := PEmpty
  osem k := k.elim
  ho := Pipeline.OwnSemFacts.none _
  hbody c := (Reg8.body_obligation8 (Vin8 m) c).loose
  hwaits := Pipeline.hwaits_of_owed_zero _ _ _ _ L lv 8 fun _ _ => rfl
  pre c := iprop(StableHlo.held (c : Thread nD τ) (Pipeline.ucRefs τ sig) (V79 m (outs m) c) ∗ E (F := F) 8 c)
  post c := iprop(StableHlo.held (c : Thread nD τ) (Pipeline.ucRefs τ sig) (V80 m (outs m) c) ∗ E (F := F) 9 c)
  X c := BI.emp
  Y c := BI.emp
  Z c := iprop((∃ r, prngReg c r)
    ∗ Pipeline.unscopedRest (Ix := Unit) (Name := ℕ) (U := UR sig nD τ) (Lvl := ℕ) spec8 c (Vpre8 m c))
  hentry c := by
    rw [Pipeline.ownSems0_none]
    have hsplit := Pipeline.arrays_of_unscopedBufs (p := 8) (pcfgs (F := F)) Gen.adm (pdats m) launch8.win launch8.arr_whole c
      ((pdats m 8 c).share_full fun _ => rfl) (Vpre8 m c) (hA8 m c)
    rw [Pipeline.unscopedBufs_held c (V79 m (outs m) c)] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    isplitl [Hp]; · iexact Hp
    iexact Hrest
  hin c := by
    refine BIBase.Entails.trans ?_ (Reg8.Phi8_in (Vin8 m) c)
    iintro ⟨-, -, Hr⟩
    iexact Hr
  hout c := by
    rw [Pipeline.ownSems0_none]
    refine (Reg8.Phi8_out (Vin8 m) c).trans ?_
    iintro Hr
    isplitr; · iempintro
    isplitr; · iempintro
    iexact Hr
  hexit c := by
    have hjoin := Pipeline.unscopedBufs_of_arrays (p := 8) (pcfgs (F := F)) Gen.adm (Ix := Unit) (Name := ℕ) (U := UR sig nD τ) (Lvl := ℕ)
      launch8.win launch8.arr_whole c (pdats m) ((pdats m 8 c).share_full fun _ => rfl)
      (Vpre8 m c) (Vpost8 m c) ((pdats m 8 c).arrAt · cfg8.N) (hF8 m c) (hrest8 m c)
    rw [Pipeline.unscopedBufs_held c (V80 m (outs m) c)] at hjoin
    iintro ⟨Ha, HO, -, Hp, Hrest⟩
    imodintro
    isplitl [Ha Hrest]
    · iapply hjoin; isplitl [Ha] <;> iassumption
    isplitl [Hp]; · iexact Hp
    unfold Pipeline.Dat.owesAt Pipeline.owesWithin
    icases HO with ⟨%W, -, HO⟩; iexists W; iexact HO

/-- The thread state before item 79 is the one region 8 is entered from, -/
theorem hpre8 (c : Dev nD) :
    iprop(StableHlo.held (c : Thread nD τ) (Pipeline.ucRefs τ sig) (V79 m (outs m) c) ∗ E (F := F) 8 c) ⊢ (reg8 m).pre c := .rfl
/-- and the one it leaves is the thread state after item 79. -/
theorem hpost8 (c : Dev nD) :
    (reg8 m).post c ⊢ iprop(StableHlo.held (c : Thread nD τ) (Pipeline.ucRefs τ sig) (V80 m (outs m) c) ∗ E (F := F) 9 c) := .rfl

end Cert.KernelIdeal.Run

end
-- ==== Proof.Ref.Common.lean ====
import proofs.«411400_j9251359555630_1_alg».proof.ReferenceIdeal
import Idealize.ShloMosaic.Lib.StableHlo.Run

noncomputable section

namespace Cert.ReferenceIdeal.RefRun

open Cert.ReferenceIdeal Idealize.ShloMosaic Idealize.ShloMosaic.TcCoe Idealize.SL.Sem Idealize.ShloMosaic.StableHlo
open Cert.ReferenceIdeal.Facts₀ Cert.ReferenceIdeal.Facts

variable {F : FTy → Type} [FloatOps F] [Facts]

/-- The thirty argument buffers of @main. -/
abbrev argRefs : List (Ref sig .tc) :=
  [main_arg0, main_arg1, main_arg2, main_arg3, main_arg4, main_arg5, main_arg6, main_arg7, main_arg8, main_arg9, main_arg10, main_arg11, main_arg12, main_arg13, main_arg14, main_arg15, main_arg16, main_arg17, main_arg18, main_arg19, main_arg20, main_arg21, main_arg22, main_arg23, main_arg24, main_arg25, main_arg26, main_arg27, main_arg28, main_arg29]

/-- The fold over a concatenation is the fold over the second list from the fold over the first. -/
theorem after_app : ∀ (l₁ l₂ : List (HloOp τ sig (Elt F))) (V : Valuation τ sig (Elt F)),
    after (l₁ ++ l₂) V = after l₂ (after l₁ V)
  | [], _, _ => rfl
  | op :: l₁, l₂, V => by rw [List.cons_append, after_cons, after_cons, after_app l₁ l₂]

/-- Two lists over the TensorCore's buffers concatenate to one over them. -/
theorem sub_app {l₁ l₂ : List (HloOp τ sig (Elt F))} (h₁ : l₁.Forall fun op => op.bufs ⊆ tcRefs τ sig)
    (h₂ : l₂.Forall fun op => op.bufs ⊆ tcRefs τ sig) : (l₁ ++ l₂).Forall fun op => op.bufs ⊆ tcRefs τ sig :=
  List.forall_iff_forall_mem.mpr fun op h => (List.mem_append.mp h).elim
    (List.forall_iff_forall_mem.mp h₁ op) (List.forall_iff_forall_mem.mp h₂ op)

/-- Two lists of operations that determine their results concatenate to one of them. -/
theorem fresh_app {l₁ l₂ : List (HloOp τ sig (Elt F))} (h₁ : ∀ op ∈ l₁, op.fresh = ∅) (h₂ : ∀ op ∈ l₂, op.fresh = ∅) :
    ∀ op ∈ l₁ ++ l₂, op.fresh = ∅ :=
  fun op h => (List.mem_append.mp h).elim (h₁ op) (h₂ op)

end Cert.ReferenceIdeal.RefRun

end
-- ==== Proof.Ref.OpsW0.lean ====
import proofs.«411400_j9251359555630_1_alg».proof.ReferenceIdeal
import Idealize.ShloMosaic.Lib.StableHlo.Run
import proofs.«411400_j9251359555630_1_alg».proof.Proof.Ref.Common

noncomputable section

namespace Cert.ReferenceIdeal.RefRun

open Cert.ReferenceIdeal Idealize.ShloMosaic Idealize.ShloMosaic.TcCoe Idealize.SL.Sem Idealize.ShloMosaic.StableHlo
open Cert.ReferenceIdeal.Facts₀ Cert.ReferenceIdeal.Facts

variable {F : FTy → Type} [FloatOps F] [Facts]

/-- The reference's operations 1 … 18 of 1028 (in window main_part0), a call's body listed
    at the call over the call's buffer record. -/
abbrev ops0 : List (HloOp τ sig (Elt F)) :=
  [ StableHlo.unary main_arg1 main_v0 ((extractStridedSlice S1x160000 ![0, 0] · slices_S2x160000_S1x160000_0_0) : (⟨S2x160000, .i32⟩ : BufTy).Contents (Elt F) → (⟨S1x160000, .i32⟩ : BufTy).Contents (Elt F)),
    StableHlo.reshape main_v0 main_v1 rfl shapeCasts_S1x160000_S160000,
    StableHlo.unary main_arg1 main_v2 ((extractStridedSlice S1x160000 ![1, 0] · slices_S2x160000_S1x160000_1_0) : (⟨S2x160000, .i32⟩ : BufTy).Contents (Elt F) → (⟨S1x160000, .i32⟩ : BufTy).Contents (Elt F)),
    StableHlo.reshape main_v2 main_v3 rfl shapeCasts_S1x160000_S160000,
    StableHlo.reshape main_arg3 main_v4 rfl shapeCasts_S1x300_S300,
    StableHlo.unary main_v4 main_v5 (broadcastInDim S64x300 ![1] bcast_S300_S64x300_1 : (⟨S300, .f32⟩ : BufTy).Contents (Elt F) → (⟨S64x300, .f32⟩ : BufTy).Contents (Elt F)),
    StableHlo.nullary main_c (constantI S_ 32 0#32),
    StableHlo.unary main_c main_v6 (broadcastInDim S160000 ![] bcast_S_S160000 : (⟨S_, .i32⟩ : BufTy).Contents (Elt F) → (⟨S160000, .i32⟩ : BufTy).Contents (Elt F)),
    StableHlo.binary main_v1 main_v6 main_v7 (cmpi .slt : (⟨S160000, .i32⟩ : BufTy).Contents (Elt F) → (⟨S160000, .i32⟩ : BufTy).Contents (Elt F) → (⟨S160000, .i1⟩ : BufTy).Contents (Elt F)),
    StableHlo.nullary main_c_0 (constantI S_ 32 10000#32),
    StableHlo.unary main_c_0 main_v8 (broadcastInDim S160000 ![] bcast_S_S160000 : (⟨S_, .i32⟩ : BufTy).Contents (Elt F) → (⟨S160000, .i32⟩ : BufTy).Contents (Elt F)),
    StableHlo.binary main_v1 main_v8 main_v9 (addi : (⟨S160000, .i32⟩ : BufTy).Contents (Elt F) → (⟨S160000, .i32⟩ : BufTy).Contents (Elt F) → (⟨S160000, .i32⟩ : BufTy).Contents (Elt F)),
    StableHlo.ternary main_v7 main_v9 main_v1 main_v10 (select : (⟨S160000, .i1⟩ : BufTy).Contents (Elt F) → (⟨S160000, .i32⟩ : BufTy).Contents (Elt F) → (⟨S160000, .i32⟩ : BufTy).Contents (Elt F) → (⟨S160000, .i32⟩ : BufTy).Contents (Elt F)),
    StableHlo.unary main_v10 main_v11 (broadcastInDim S160000x1 ![0] bcast_S160000_S160000x1_0 : (⟨S160000, .i32⟩ : BufTy).Contents (Elt F) → (⟨S160000x1, .i32⟩ : BufTy).Contents (Elt F)),
    StableHlo.binary main_arg0 main_v11 main_v12 ((fun x i => Host.gather gather_S10000x128_S160000x1_S160000x128_1_0_n_n_0_1_1128 x i) : (⟨S10000x128, .f32⟩ : BufTy).Contents (Elt F) → (⟨S160000x1, .i32⟩ : BufTy).Contents (Elt F) → (⟨S160000x128, .f32⟩ : BufTy).Contents (Elt F)),
    StableHlo.nullary main_cst (constant S_ .f32 0x00000000#32),
    StableHlo.unary main_cst main_v13 (broadcastInDim S10000x128 ![] bcast_S_S10000x128 : (⟨S_, .f32⟩ : BufTy).Contents (Elt F) → (⟨S10000x128, .f32⟩ : BufTy).Contents (Elt F)),
    StableHlo.unary main_v3 main_v14 (broadcastInDim S160000x1 ![0] bcast_S160000_S160000x1_0 : (⟨S160000, .i32⟩ : BufTy).Contents (Elt F) → (⟨S160000x1, .i32⟩ : BufTy).Contents (Elt F)) ]

/-- The buffers those operations write. -/
abbrev ops0_W : List (Ref sig .tc) :=
  [main_v0, main_v1, main_v2, main_v3, main_v4, main_v5, main_c, main_v6, main_v7, main_c_0, main_v8, main_v9, main_v10, main_v11, main_v12, main_cst, main_v13, main_v14]

set_option maxRecDepth 8192 in
theorem ops0_sub : (ops0 : List (HloOp τ sig (Elt F))).Forall fun op => op.bufs ⊆ tcRefs τ sig :=
  ⟨unary_bufs_sub .., reshape_bufs_sub .., unary_bufs_sub .., reshape_bufs_sub .., reshape_bufs_sub .., unary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub ..⟩

set_option maxRecDepth 8192 in
theorem ops0_writes : (ops0 : List (HloOp τ sig (Elt F))).Forall fun op =>
    op.writes ⊆ (ops0_W.map (Proc.devRef (τ := τ) .tc)).toFinset := by
  simp only [List.Forall]
  exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

set_option maxRecDepth 8192 in
/-- Every operation determines its results. -/
theorem ops0_fresh : ∀ op ∈ (ops0 : List (HloOp τ sig (Elt F))), op.fresh = ∅ := by
  intro _ h; (repeat (cases h with | head => rfl | tail _ h => ?_)); exact nomatch h

set_option maxRecDepth 8192 in
/-- None of them writes an argument of @main. -/
theorem ops0_keepArgs : ∀ r ∈ argRefs, r ∉ ops0_W := by decide

/-- The reference's operations 19 … 78 of 1028 (in window main_part0), a call's body listed
    at the call over the call's buffer record. -/
abbrev ops1 : List (HloOp τ sig (Elt F)) :=
  [ StableHlo.ternary main_v13 main_v14 main_v12 main_v15 ((fun x i u => Host.scatterAdd scatter_S10000x128_S160000x1_S160000x128_1_0_0_1 x i u) : (⟨S10000x128, .f32⟩ : BufTy).Contents (Elt F) → (⟨S160000x1, .i32⟩ : BufTy).Contents (Elt F) → (⟨S160000x128, .f32⟩ : BufTy).Contents (Elt F) → (⟨S10000x128, .f32⟩ : BufTy).Contents (Elt F)),
    StableHlo.binary main_arg0 main_v15 main_v16 (addf : (⟨S10000x128, .f32⟩ : BufTy).Contents (Elt F) → (⟨S10000x128, .f32⟩ : BufTy).Contents (Elt F) → (⟨S10000x128, .f32⟩ : BufTy).Contents (Elt F)),
    StableHlo.binary main_v16 main_arg4 main_v17 ((fun l r => Host.dotGeneral dot_S10000x128_S128x600_S10000x600_1_0_0_1_n_n none l r) : (⟨S10000x128, .f32⟩ : BufTy).Contents (Elt F) → (⟨S128x600, .f32⟩ : BufTy).Contents (Elt F) → (⟨S10000x600, .f32⟩ : BufTy).Contents (Elt F)),
    StableHlo.unary main_arg5 main_v18 (broadcastInDim S1x600 ![1] bcast_S600_S1x600_1 : (⟨S600, .f32⟩ : BufTy).Contents (Elt F) → (⟨S1x600, .f32⟩ : BufTy).Contents (Elt F)),
    StableHlo.unary main_v18 main_v19 (broadcastInDim S10000x600 ![0, 1] bcast_S1x600_S10000x600_0_1 : (⟨S1x600, .f32⟩ : BufTy).Contents (Elt F) → (⟨S10000x600, .f32⟩ : BufTy).Contents (Elt F)),
    StableHlo.binary main_v17 main_v19 main_v20 (addf : (⟨S10000x600, .f32⟩ : BufTy).Contents (Elt F) → (⟨S10000x600, .f32⟩ : BufTy).Contents (Elt F) → (⟨S10000x600, .f32⟩ : BufTy).Contents (Elt F)),
    StableHlo.nullary main_cst_1 (constant S_ .f32 0x00000000#32),
    StableHlo.binary main_v20 main_cst_1 main_v21 ((fun x v => Host.reduceAdd x v reducesTo_S10000x600_S600_d0 h_S_) : (⟨S10000x600, .f32⟩ : BufTy).Contents (Elt F) → (⟨S_, .f32⟩ : BufTy).Contents (Elt F) → (⟨S600, .f32⟩ : BufTy).Contents (Elt F)),
    StableHlo.nullary main_cst_2 (constant S_ .f32 0x461C4000#32),
    StableHlo.unary main_cst_2 main_v22 (broadcastInDim S600 ![] bcast_S_S600 : (⟨S_, .f32⟩ : BufTy).Contents (Elt F) → (⟨S600, .f32⟩ : BufTy).Contents (Elt F)),
    StableHlo.binary main_v21 main_v22 main_v23 (Host.divf : (⟨S600, .f32⟩ : BufTy).Contents (Elt F) → (⟨S600, .f32⟩ : BufTy).Contents (Elt F) → (⟨S600, .f32⟩ : BufTy).Contents (Elt F)),
    StableHlo.nullary main_c_3 (constantI S_ 32 0#32),
    StableHlo.TRef.nullary main_call0.cst (constant S_ .f32 0x00000000#32),
    StableHlo.TRef.binary (StableHlo.TRef.of main_v20 : StableHlo.TRef sig ⟨S10000x600, .f32⟩) main_call0.cst main_call0.v0 (fun x v => Host.reduceAdd x v reducesTo_S10000x600_S600_d0 h_S_),
    StableHlo.TRef.unary main_call0.v0 main_call0.v1 (broadcastInDim S1x600 ![1] bcast_S600_S1x600_1),
    StableHlo.TRef.nullary main_call0.cst_0 (constant S_ .f32 0x461C4000#32),
    StableHlo.TRef.unary main_call0.cst_0 main_call0.v2 (broadcastInDim S1x600 ![] bcast_S_S1x600),
    StableHlo.TRef.binary main_call0.v1 main_call0.v2 main_call0.v3 Host.divf,
    StableHlo.TRef.unary main_call0.v3 main_call0.v4 (broadcastInDim S10000x600 ![0, 1] bcast_S1x600_S10000x600_0_1),
    StableHlo.TRef.binary (StableHlo.TRef.of main_v20 : StableHlo.TRef sig ⟨S10000x600, .f32⟩) main_call0.v4 main_call0.v5 subf,
    StableHlo.TRef.binary main_call0.v5 main_call0.v5 main_call0.v6 mulf,
    StableHlo.TRef.unary (StableHlo.TRef.of main_c_3 : StableHlo.TRef sig ⟨S_, .i32⟩) main_call0.v7 (sitofp .f32),
    StableHlo.TRef.nullary main_call0.cst_1 (constant S_ .f32 0x461C4000#32),
    StableHlo.TRef.binary main_call0.cst_1 main_call0.v7 main_call0.v8 subf,
    StableHlo.TRef.nullary main_call0.cst_2 (constant S_ .f32 0x00000000#32),
    StableHlo.TRef.binary main_call0.v6 main_call0.cst_2 main_call0.v9 (fun x v => Host.reduceAdd x v reducesTo_S10000x600_S600_d0 h_S_),
    StableHlo.TRef.unary main_call0.v8 main_call0.v10 (broadcastInDim S600 ![] bcast_S_S600),
    StableHlo.TRef.binary main_call0.v9 main_call0.v10 main_call0.v11 Host.divf,
    StableHlo.TRef.nullary main_call0.cst_3 (constant S_ .f32 0x00000000#32),
    StableHlo.TRef.binary main_call0.v8 main_call0.cst_3 main_call0.v12 (cmpf .ogt),
    StableHlo.TRef.nullary main_call0.cst_4 (constant S_ .f32 0x7FC00000#32),
    StableHlo.TRef.unary main_call0.cst_4 main_call0.call0.v0 id,
    StableHlo.TRef.unary main_call0.call0.v0 main_call0.call0.v1 (broadcastInDim S600 ![] bcast_S_S600),
    StableHlo.TRef.ternary main_call0.v12 main_call0.v11 main_call0.call0.v1 main_call0.call0.v2 (fun p a b => select (broadcastInDim S600 ![] bcast_S_S600 p) a b),
    StableHlo.unary main_v23 main_v25 (broadcastInDim S1x600 ![1] bcast_S600_S1x600_1 : (⟨S600, .f32⟩ : BufTy).Contents (Elt F) → (⟨S1x600, .f32⟩ : BufTy).Contents (Elt F)),
    StableHlo.unary main_v25 main_v26 (broadcastInDim S10000x600 ![0, 1] bcast_S1x600_S10000x600_0_1 : (⟨S1x600, .f32⟩ : BufTy).Contents (Elt F) → (⟨S10000x600, .f32⟩ : BufTy).Contents (Elt F)),
    StableHlo.binary main_v20 main_v26 main_v27 (subf : (⟨S10000x600, .f32⟩ : BufTy).Contents (Elt F) → (⟨S10000x600, .f32⟩ : BufTy).Contents (Elt F) → (⟨S10000x600, .f32⟩ : BufTy).Contents (Elt F)),
    StableHlo.nullary main_cst_4 (constant S_ .f32 0x3727C5AC#32),
    StableHlo.unary main_cst_4 main_v28 (broadcastInDim S600 ![] bcast_S_S600 : (⟨S_, .f32⟩ : BufTy).Contents (Elt F) → (⟨S600, .f32⟩ : BufTy).Contents (Elt F)),
    StableHlo.binary main_v24 main_v28 main_v29 (addf : (⟨S600, .f32⟩ : BufTy).Contents (Elt F) → (⟨S600, .f32⟩ : BufTy).Contents (Elt F) → (⟨S600, .f32⟩ : BufTy).Contents (Elt F)),
    StableHlo.unary main_v29 main_v30 (Host.rsqrt : (⟨S600, .f32⟩ : BufTy).Contents (Elt F) → (⟨S600, .f32⟩ : BufTy).Contents (Elt F)),
    StableHlo.unary main_v30 main_v31 (broadcastInDim S1x600 ![1] bcast_S600_S1x600_1 : (⟨S600, .f32⟩ : BufTy).Contents (Elt F) → (⟨S1x600, .f32⟩ : BufTy).Contents (Elt F)),
    StableHlo.unary main_v31 main_v32 (broadcastInDim S10000x600 ![0, 1] bcast_S1x600_S10000x600_0_1 : (⟨S1x600, .f32⟩ : BufTy).Contents (Elt F) → (⟨S10000x600, .f32⟩ : BufTy).Contents (Elt F)),
    StableHlo.binary main_v27 main_v32 main_v33 (mulf : (⟨S10000x600, .f32⟩ : BufTy).Contents (Elt F) → (⟨S10000x600, .f32⟩ : BufTy).Contents (Elt F) → (⟨S10000x600, .f32⟩ : BufTy).Contents (Elt F)),
    StableHlo.unary main_arg6 main_v34 (broadcastInDim S1x600 ![1] bcast_S600_S1x600_1 : (⟨S600, .f32⟩ : BufTy).Contents (Elt F) → (⟨S1x600, .f32⟩ : BufTy).Contents (Elt F)),
    StableHlo.unary main_v34 main_v35 (broadcastInDim S10000x600 ![0, 1] bcast_S1x600_S10000x600_0_1 : (⟨S1x600, .f32⟩ : BufTy).Contents (Elt F) → (⟨S10000x600, .f32⟩ : BufTy).Contents (Elt F)),
    StableHlo.binary main_v33 main_v35 main_v36 (mulf : (⟨S10000x600, .f32⟩ : BufTy).Contents (Elt F) → (⟨S10000x600, .f32⟩ : BufTy).Contents (Elt F) → (⟨S10000x600, .f32⟩ : BufTy).Contents (Elt F)),
    StableHlo.unary main_arg7 main_v37 (broadcastInDim S1x600 ![1] bcast_S600_S1x600_1 : (⟨S600, .f32⟩ : BufTy).Contents (Elt F) → (⟨S1x600, .f32⟩ : BufTy).Contents (Elt F)),
    StableHlo.unary main_v37 main_v38 (broadcastInDim S10000x600 ![0, 1] bcast_S1x600_S10000x600_0_1 : (⟨S1x600, .f32⟩ : BufTy).Contents (Elt F) → (⟨S10000x600, .f32⟩ : BufTy).Contents (Elt F)),
    StableHlo.binary main_v36 main_v38 main_v39 (addf : (⟨S10000x600, .f32⟩ : BufTy).Contents (Elt F) → (⟨S10000x600, .f32⟩ : BufTy).Contents (Elt F) → (⟨S10000x600, .f32⟩ : BufTy).Contents (Elt F)),
    StableHlo.TRef.nullary main_call1.cst (constant S_ .f32 0x00000000#32),
    StableHlo.TRef.unary main_call1.cst main_call1.v0 (broadcastInDim S10000x600 ![] bcast_S_S10000x600),
    StableHlo.TRef.binary (StableHlo.TRef.of main_v39 : StableHlo.TRef sig ⟨S10000x600, .f32⟩) main_call1.v0 main_call1.v1 maximumf,
    StableHlo.binary main_v40 main_arg8 main_v41 ((fun l r => Host.dotGeneral dot_S10000x600_S600x300_S10000x300_1_0_0_1_n_n none l r) : (⟨S10000x600, .f32⟩ : BufTy).Contents (Elt F) → (⟨S600x300, .f32⟩ : BufTy).Contents (Elt F) → (⟨S10000x300, .f32⟩ : BufTy).Contents (Elt F)),
    StableHlo.unary main_arg9 main_v42 (broadcastInDim S1x300 ![1] bcast_S300_S1x300_1 : (⟨S300, .f32⟩ : BufTy).Contents (Elt F) → (⟨S1x300, .f32⟩ : BufTy).Contents (Elt F)),
    StableHlo.unary main_v42 main_v43 (broadcastInDim S10000x300 ![0, 1] bcast_S1x300_S10000x300_0_1 : (⟨S1x300, .f32⟩ : BufTy).Contents (Elt F) → (⟨S10000x300, .f32⟩ : BufTy).Contents (Elt F)),
    StableHlo.binary main_v41 main_v43 main_v44 (addf : (⟨S10000x300, .f32⟩ : BufTy).Contents (Elt F) → (⟨S10000x300, .f32⟩ : BufTy).Contents (Elt F) → (⟨S10000x300, .f32⟩ : BufTy).Contents (Elt F)),
    StableHlo.nullary main_cst_5 (constant S_ .f32 0x00000000#32),
    StableHlo.binary main_v44 main_cst_5 main_v45 ((fun x v => Host.reduceAdd x v reducesTo_S10000x300_S300_d0 h_S_) : (⟨S10000x300, .f32⟩ : BufTy).Contents (Elt F) → (⟨S_, .f32⟩ : BufTy).Contents (Elt F) → (⟨S300, .f32⟩ : BufTy).Contents (Elt F)),
    StableHlo.nullary main_cst_6 (constant S_ .f32 0x461C4000#32) ]

/-- The buffers those operations write. -/
abbrev ops1_W : List (Ref sig .tc) :=
  [main_v15, main_v16, main_v17, main_v18, main_v19, main_v20, main_cst_1, main_v21, main_cst_2, main_v22, main_v23, main_c_3, main_call0_cst, main_call0_v0, main_call0_v1, main_call0_cst_0, main_call0_v2, main_call0_v3, main_call0_v4, main_call0_v5, main_call0_v6, main_call0_v7, main_call0_cst_1, main_call0_v8, main_call0_cst_2, main_call0_v9, main_call0_v10, main_call0_v11, main_call0_cst_3, main_call0_v12, main_call0_cst_4, main_call0_call0_v0, main_call0_call0_v1, main_v24, main_v25, main_v26, main_v27, main_cst_4, main_v28, main_v29, main_v30, main_v31, main_v32, main_v33, main_v34, main_v35, main_v36, main_v37, main_v38, main_v39, main_call1_cst, main_call1_v0, main_v40, main_v41, main_v42, main_v43, main_v44, main_cst_5, main_v45, main_cst_6]

set_option maxRecDepth 8192 in
theorem ops1_sub : (ops1 : List (HloOp τ sig (Elt F))).Forall fun op => op.bufs ⊆ tcRefs τ sig :=
  ⟨ternary_bufs_sub .., binary_bufs_sub .., binary_bufs_sub .., unary_bufs_sub .., unary_bufs_sub .., binary_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., nullary_bufs_sub .., binary_bufs_sub .., nullary_bufs_sub ..⟩

set_option maxRecDepth 8192 in
theorem ops1_writes : (ops1 : List (HloOp τ sig (Elt F))).Forall fun op =>
    op.writes ⊆ (ops1_W.map (Proc.devRef (τ := τ) .tc)).toFinset := by
  simp only [List.Forall]
  exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

set_option maxRecDepth 8192 in
/-- Every operation determines its results. -/
theorem ops1_fresh : ∀ op ∈ (ops1 : List (HloOp τ sig (Elt F))), op.fresh = ∅ := by
  intro _ h; (repeat (cases h with | head => rfl | tail _ h => ?_)); exact nomatch h

set_option maxRecDepth 8192 in
/-- None of them writes an argument of @main. -/
theorem ops1_keepArgs : ∀ r ∈ argRefs, r ∉ ops1_W := by decide

/-- The reference's operations 79 … 104 of 1028 (in window main_part0), a call's body listed
    at the call over the call's buffer record. -/
abbrev ops2 : List (HloOp τ sig (Elt F)) :=
  [ StableHlo.unary main_cst_6 main_v46 (broadcastInDim S300 ![] bcast_S_S300 : (⟨S_, .f32⟩ : BufTy).Contents (Elt F) → (⟨S300, .f32⟩ : BufTy).Contents (Elt F)),
    StableHlo.binary main_v45 main_v46 main_v47 (Host.divf : (⟨S300, .f32⟩ : BufTy).Contents (Elt F) → (⟨S300, .f32⟩ : BufTy).Contents (Elt F) → (⟨S300, .f32⟩ : BufTy).Contents (Elt F)),
    StableHlo.nullary main_c_7 (constantI S_ 32 0#32),
    StableHlo.TRef.nullary main_call2.cst (constant S_ .f32 0x00000000#32),
    StableHlo.TRef.binary (StableHlo.TRef.of main_v44 : StableHlo.TRef sig ⟨S10000x300, .f32⟩) main_call2.cst main_call2.v0 (fun x v => Host.reduceAdd x v reducesTo_S10000x300_S300_d0 h_S_),
    StableHlo.TRef.unary main_call2.v0 main_call2.v1 (broadcastInDim S1x300 ![1] bcast_S300_S1x300_1),
    StableHlo.TRef.nullary main_call2.cst_0 (constant S_ .f32 0x461C4000#32),
    StableHlo.TRef.unary main_call2.cst_0 main_call2.v2 (broadcastInDim S1x300 ![] bcast_S_S1x300),
    StableHlo.TRef.binary main_call2.v1 main_call2.v2 main_call2.v3 Host.divf,
    StableHlo.TRef.unary main_call2.v3 main_call2.v4 (broadcastInDim S10000x300 ![0, 1] bcast_S1x300_S10000x300_0_1),
    StableHlo.TRef.binary (StableHlo.TRef.of main_v44 : StableHlo.TRef sig ⟨S10000x300, .f32⟩) main_call2.v4 main_call2.v5 subf,
    StableHlo.TRef.binary main_call2.v5 main_call2.v5 main_call2.v6 mulf,
    StableHlo.TRef.unary (StableHlo.TRef.of main_c_7 : StableHlo.TRef sig ⟨S_, .i32⟩) main_call2.v7 (sitofp .f32),
    StableHlo.TRef.nullary main_call2.cst_1 (constant S_ .f32 0x461C4000#32),
    StableHlo.TRef.binary main_call2.cst_1 main_call2.v7 main_call2.v8 subf,
    StableHlo.TRef.nullary main_call2.cst_2 (constant S_ .f32 0x00000000#32),
    StableHlo.TRef.binary main_call2.v6 main_call2.cst_2 main_call2.v9 (fun x v => Host.reduceAdd x v reducesTo_S10000x300_S300_d0 h_S_),
    StableHlo.TRef.unary main_call2.v8 main_call2.v10 (broadcastInDim S300 ![] bcast_S_S300),
    StableHlo.TRef.binary main_call2.v9 main_call2.v10 main_call2.v11 Host.divf,
    StableHlo.TRef.nullary main_call2.cst_3 (constant S_ .f32 0x00000000#32),
    StableHlo.TRef.binary main_call2.v8 main_call2.cst_3 main_call2.v12 (cmpf .ogt),
    StableHlo.TRef.nullary main_call2.cst_4 (constant S_ .f32 0x7FC00000#32),
    StableHlo.TRef.unary main_call2.cst_4 main_call2.call0.v0 id,
    StableHlo.TRef.unary main_call2.call0.v0 main_call2.call0.v1 (broadcastInDim S300 ![] bcast_S_S300),
    StableHlo.TRef.ternary main_call2.v12 main_call2.v11 main_call2.call0.v1 main_call2.call0.v2 (fun p a b => select (broadcastInDim S300 ![] bcast_S_S300 p) a b),
    StableHlo.unary main_v47 main_v49 (broadcastInDim S1x300 ![1] bcast_S300_S1x300_1 : (⟨S300, .f32⟩ : BufTy).Contents (Elt F) → (⟨S1x300, .f32⟩ : BufTy).Contents (Elt F)) ]

/-- The buffers those operations write. -/
abbrev ops2_W : List (Ref sig .tc) :=
  [main_v46, main_v47, main_c_7, main_call2_cst, main_call2_v0, main_call2_v1, main_call2_cst_0, main_call2_v2, main_call2_v3, main_call2_v4, main_call2_v5, main_call2_v6, main_call2_v7, main_call2_cst_1, main_call2_v8, main_call2_cst_2, main_call2_v9, main_call2_v10, main_call2_v11, main_call2_cst_3, main_call2_v12, main_call2_cst_4, main_call2_call0_v0, main_call2_call0_v1, main_v48, main_v49]

set_option maxRecDepth 8192 in
theorem ops2_sub : (ops2 : List (HloOp τ sig (Elt F))).Forall fun op => op.bufs ⊆ tcRefs τ sig :=
  ⟨unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub ..⟩

set_option maxRecDepth 8192 in
theorem ops2_writes : (ops2 : List (HloOp τ sig (Elt F))).Forall fun op =>
    op.writes ⊆ (ops2_W.map (Proc.devRef (τ := τ) .tc)).toFinset := by
  simp only [List.Forall]
  exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

set_option maxRecDepth 8192 in
/-- Every operation determines its results. -/
theorem ops2_fresh : ∀ op ∈ (ops2 : List (HloOp τ sig (Elt F))), op.fresh = ∅ := by
  intro _ h; (repeat (cases h with | head => rfl | tail _ h => ?_)); exact nomatch h

set_option maxRecDepth 8192 in
/-- None of them writes an argument of @main. -/
theorem ops2_keepArgs : ∀ r ∈ argRefs, r ∉ ops2_W := by decide

set_option maxRecDepth 16384 in
set_option maxHeartbeats 4000000 in
/-- The window is the straight line of its operations: the called functions unfolded at their calls. -/
theorem main_part0_eq (c : Dev nD) : main_part0 (F := F) c = seq (ops0 ++ (ops1 ++ (ops2))) := by
  first
  | rfl
  | (simp only [main_part0, fn_relu.body, fn_var.body, fn_var_0.body, fn_where.body, fn_where_1.body, List.cons_append, List.nil_append, seq, bind_assoc, pure_bind]; try rfl)

end Cert.ReferenceIdeal.RefRun

end
-- ==== Proof.Ref.OpsW1.lean ====
import proofs.«411400_j9251359555630_1_alg».proof.ReferenceIdeal
import Idealize.ShloMosaic.Lib.StableHlo.Run
import proofs.«411400_j9251359555630_1_alg».proof.Proof.Ref.Common

noncomputable section

namespace Cert.ReferenceIdeal.RefRun

open Cert.ReferenceIdeal Idealize.ShloMosaic Idealize.ShloMosaic.TcCoe Idealize.SL.Sem Idealize.ShloMosaic.StableHlo
open Cert.ReferenceIdeal.Facts₀ Cert.ReferenceIdeal.Facts

variable {F : FTy → Type} [FloatOps F] [Facts]

/-- The reference's operations 105 … 156 of 1028 (in window main_part1), a call's body listed
    at the call over the call's buffer record. -/
abbrev ops3 : List (HloOp τ sig (Elt F)) :=
  [ StableHlo.unary main_v49 main_v50 (broadcastInDim S10000x300 ![0, 1] bcast_S1x300_S10000x300_0_1 : (⟨S1x300, .f32⟩ : BufTy).Contents (Elt F) → (⟨S10000x300, .f32⟩ : BufTy).Contents (Elt F)),
    StableHlo.binary main_v44 main_v50 main_v51 (subf : (⟨S10000x300, .f32⟩ : BufTy).Contents (Elt F) → (⟨S10000x300, .f32⟩ : BufTy).Contents (Elt F) → (⟨S10000x300, .f32⟩ : BufTy).Contents (Elt F)),
    StableHlo.nullary main_cst_8 (constant S_ .f32 0x3727C5AC#32),
    StableHlo.unary main_cst_8 main_v52 (broadcastInDim S300 ![] bcast_S_S300 : (⟨S_, .f32⟩ : BufTy).Contents (Elt F) → (⟨S300, .f32⟩ : BufTy).Contents (Elt F)),
    StableHlo.binary main_v48 main_v52 main_v53 (addf : (⟨S300, .f32⟩ : BufTy).Contents (Elt F) → (⟨S300, .f32⟩ : BufTy).Contents (Elt F) → (⟨S300, .f32⟩ : BufTy).Contents (Elt F)),
    StableHlo.unary main_v53 main_v54 (Host.rsqrt : (⟨S300, .f32⟩ : BufTy).Contents (Elt F) → (⟨S300, .f32⟩ : BufTy).Contents (Elt F)),
    StableHlo.unary main_v54 main_v55 (broadcastInDim S1x300 ![1] bcast_S300_S1x300_1 : (⟨S300, .f32⟩ : BufTy).Contents (Elt F) → (⟨S1x300, .f32⟩ : BufTy).Contents (Elt F)),
    StableHlo.unary main_v55 main_v56 (broadcastInDim S10000x300 ![0, 1] bcast_S1x300_S10000x300_0_1 : (⟨S1x300, .f32⟩ : BufTy).Contents (Elt F) → (⟨S10000x300, .f32⟩ : BufTy).Contents (Elt F)),
    StableHlo.binary main_v51 main_v56 main_v57 (mulf : (⟨S10000x300, .f32⟩ : BufTy).Contents (Elt F) → (⟨S10000x300, .f32⟩ : BufTy).Contents (Elt F) → (⟨S10000x300, .f32⟩ : BufTy).Contents (Elt F)),
    StableHlo.unary main_arg16 main_v58 (broadcastInDim S1x300 ![1] bcast_S300_S1x300_1 : (⟨S300, .f32⟩ : BufTy).Contents (Elt F) → (⟨S1x300, .f32⟩ : BufTy).Contents (Elt F)),
    StableHlo.unary main_v58 main_v59 (broadcastInDim S10000x300 ![0, 1] bcast_S1x300_S10000x300_0_1 : (⟨S1x300, .f32⟩ : BufTy).Contents (Elt F) → (⟨S10000x300, .f32⟩ : BufTy).Contents (Elt F)),
    StableHlo.binary main_v57 main_v59 main_v60 (mulf : (⟨S10000x300, .f32⟩ : BufTy).Contents (Elt F) → (⟨S10000x300, .f32⟩ : BufTy).Contents (Elt F) → (⟨S10000x300, .f32⟩ : BufTy).Contents (Elt F)),
    StableHlo.unary main_arg17 main_v61 (broadcastInDim S1x300 ![1] bcast_S300_S1x300_1 : (⟨S300, .f32⟩ : BufTy).Contents (Elt F) → (⟨S1x300, .f32⟩ : BufTy).Contents (Elt F)),
    StableHlo.unary main_v61 main_v62 (broadcastInDim S10000x300 ![0, 1] bcast_S1x300_S10000x300_0_1 : (⟨S1x300, .f32⟩ : BufTy).Contents (Elt F) → (⟨S10000x300, .f32⟩ : BufTy).Contents (Elt F)),
    StableHlo.binary main_v60 main_v62 main_v63 (addf : (⟨S10000x300, .f32⟩ : BufTy).Contents (Elt F) → (⟨S10000x300, .f32⟩ : BufTy).Contents (Elt F) → (⟨S10000x300, .f32⟩ : BufTy).Contents (Elt F)),
    StableHlo.TRef.nullary main_call3.cst (constant S_ .f32 0x00000000#32),
    StableHlo.TRef.unary main_call3.cst main_call3.v0 (broadcastInDim S10000x300 ![] bcast_S_S10000x300),
    StableHlo.TRef.binary (StableHlo.TRef.of main_v63 : StableHlo.TRef sig ⟨S10000x300, .f32⟩) main_call3.v0 main_call3.v1 maximumf,
    StableHlo.nullary main_c_9 (constantI S_ 32 0#32),
    StableHlo.unary main_c_9 main_v65 (broadcastInDim S10000 ![] bcast_S_S10000 : (⟨S_, .i32⟩ : BufTy).Contents (Elt F) → (⟨S10000, .i32⟩ : BufTy).Contents (Elt F)),
    StableHlo.binary main_arg2 main_v65 main_v66 (cmpi .slt : (⟨S10000, .i32⟩ : BufTy).Contents (Elt F) → (⟨S10000, .i32⟩ : BufTy).Contents (Elt F) → (⟨S10000, .i1⟩ : BufTy).Contents (Elt F)),
    StableHlo.nullary main_c_10 (constantI S_ 32 64#32),
    StableHlo.unary main_c_10 main_v67 (broadcastInDim S10000 ![] bcast_S_S10000 : (⟨S_, .i32⟩ : BufTy).Contents (Elt F) → (⟨S10000, .i32⟩ : BufTy).Contents (Elt F)),
    StableHlo.binary main_arg2 main_v67 main_v68 (addi : (⟨S10000, .i32⟩ : BufTy).Contents (Elt F) → (⟨S10000, .i32⟩ : BufTy).Contents (Elt F) → (⟨S10000, .i32⟩ : BufTy).Contents (Elt F)),
    StableHlo.ternary main_v66 main_v68 main_arg2 main_v69 (select : (⟨S10000, .i1⟩ : BufTy).Contents (Elt F) → (⟨S10000, .i32⟩ : BufTy).Contents (Elt F) → (⟨S10000, .i32⟩ : BufTy).Contents (Elt F) → (⟨S10000, .i32⟩ : BufTy).Contents (Elt F)),
    StableHlo.unary main_v69 main_v70 (broadcastInDim S10000x1 ![0] bcast_S10000_S10000x1_0 : (⟨S10000, .i32⟩ : BufTy).Contents (Elt F) → (⟨S10000x1, .i32⟩ : BufTy).Contents (Elt F)),
    StableHlo.binary main_v5 main_v70 main_v71 ((fun x i => Host.gather gather_S64x300_S10000x1_S10000x300_1_0_n_n_0_1_1300 x i) : (⟨S64x300, .f32⟩ : BufTy).Contents (Elt F) → (⟨S10000x1, .i32⟩ : BufTy).Contents (Elt F) → (⟨S10000x300, .f32⟩ : BufTy).Contents (Elt F)),
    StableHlo.binary main_v64 main_v71 main_v72 (addf : (⟨S10000x300, .f32⟩ : BufTy).Contents (Elt F) → (⟨S10000x300, .f32⟩ : BufTy).Contents (Elt F) → (⟨S10000x300, .f32⟩ : BufTy).Contents (Elt F)),
    StableHlo.unary main_arg10 main_v73 ((extractStridedSlice S1x300x600 ![0, 0, 0] · slices_S4x300x600_S1x300x600_0_0_0) : (⟨S4x300x600, .f32⟩ : BufTy).Contents (Elt F) → (⟨S1x300x600, .f32⟩ : BufTy).Contents (Elt F)),
    StableHlo.reshape main_v73 main_v74 rfl shapeCasts_S1x300x600_S300x600,
    StableHlo.unary main_arg11 main_v75 ((extractStridedSlice S1x600 ![0, 0] · slices_S4x600_S1x600_0_0) : (⟨S4x600, .f32⟩ : BufTy).Contents (Elt F) → (⟨S1x600, .f32⟩ : BufTy).Contents (Elt F)),
    StableHlo.reshape main_v75 main_v76 rfl shapeCasts_S1x600_S600,
    StableHlo.unary main_arg12 main_v77 ((extractStridedSlice S1x600 ![0, 0] · slices_S4x600_S1x600_0_0) : (⟨S4x600, .f32⟩ : BufTy).Contents (Elt F) → (⟨S1x600, .f32⟩ : BufTy).Contents (Elt F)),
    StableHlo.reshape main_v77 main_v78 rfl shapeCasts_S1x600_S600,
    StableHlo.unary main_arg13 main_v79 ((extractStridedSlice S1x600 ![0, 0] · slices_S4x600_S1x600_0_0) : (⟨S4x600, .f32⟩ : BufTy).Contents (Elt F) → (⟨S1x600, .f32⟩ : BufTy).Contents (Elt F)),
    StableHlo.reshape main_v79 main_v80 rfl shapeCasts_S1x600_S600,
    StableHlo.unary main_arg14 main_v81 ((extractStridedSlice S1x600x300 ![0, 0, 0] · slices_S4x600x300_S1x600x300_0_0_0) : (⟨S4x600x300, .f32⟩ : BufTy).Contents (Elt F) → (⟨S1x600x300, .f32⟩ : BufTy).Contents (Elt F)),
    StableHlo.reshape main_v81 main_v82 rfl shapeCasts_S1x600x300_S600x300,
    StableHlo.unary main_arg15 main_v83 ((extractStridedSlice S1x300 ![0, 0] · slices_S4x300_S1x300_0_0) : (⟨S4x300, .f32⟩ : BufTy).Contents (Elt F) → (⟨S1x300, .f32⟩ : BufTy).Contents (Elt F)),
    StableHlo.reshape main_v83 main_v84 rfl shapeCasts_S1x300_S300,
    StableHlo.nullary main_c_11 (constantI S_ 32 0#32),
    StableHlo.unary main_c_11 main_v85 (broadcastInDim S160000 ![] bcast_S_S160000 : (⟨S_, .i32⟩ : BufTy).Contents (Elt F) → (⟨S160000, .i32⟩ : BufTy).Contents (Elt F)),
    StableHlo.binary main_v1 main_v85 main_v86 (cmpi .slt : (⟨S160000, .i32⟩ : BufTy).Contents (Elt F) → (⟨S160000, .i32⟩ : BufTy).Contents (Elt F) → (⟨S160000, .i1⟩ : BufTy).Contents (Elt F)),
    StableHlo.nullary main_c_12 (constantI S_ 32 10000#32),
    StableHlo.unary main_c_12 main_v87 (broadcastInDim S160000 ![] bcast_S_S160000 : (⟨S_, .i32⟩ : BufTy).Contents (Elt F) → (⟨S160000, .i32⟩ : BufTy).Contents (Elt F)),
    StableHlo.binary main_v1 main_v87 main_v88 (addi : (⟨S160000, .i32⟩ : BufTy).Contents (Elt F) → (⟨S160000, .i32⟩ : BufTy).Contents (Elt F) → (⟨S160000, .i32⟩ : BufTy).Contents (Elt F)),
    StableHlo.ternary main_v86 main_v88 main_v1 main_v89 (select : (⟨S160000, .i1⟩ : BufTy).Contents (Elt F) → (⟨S160000, .i32⟩ : BufTy).Contents (Elt F) → (⟨S160000, .i32⟩ : BufTy).Contents (Elt F) → (⟨S160000, .i32⟩ : BufTy).Contents (Elt F)),
    StableHlo.unary main_v89 main_v90 (broadcastInDim S160000x1 ![0] bcast_S160000_S160000x1_0 : (⟨S160000, .i32⟩ : BufTy).Contents (Elt F) → (⟨S160000x1, .i32⟩ : BufTy).Contents (Elt F)),
    StableHlo.binary main_v72 main_v90 main_v91 ((fun x i => Host.gather gather_S10000x300_S160000x1_S160000x300_1_0_n_n_0_1_1300 x i) : (⟨S10000x300, .f32⟩ : BufTy).Contents (Elt F) → (⟨S160000x1, .i32⟩ : BufTy).Contents (Elt F) → (⟨S160000x300, .f32⟩ : BufTy).Contents (Elt F)),
    StableHlo.nullary main_cst_13 (constant S_ .f32 0x00000000#32),
    StableHlo.unary main_cst_13 main_v92 (broadcastInDim S10000x300 ![] bcast_S_S10000x300 : (⟨S_, .f32⟩ : BufTy).Contents (Elt F) → (⟨S10000x300, .f32⟩ : BufTy).Contents (Elt F)),
    StableHlo.unary main_v3 main_v93 (broadcastInDim S160000x1 ![0] bcast_S160000_S160000x1_0 : (⟨S160000, .i32⟩ : BufTy).Contents (Elt F) → (⟨S160000x1, .i32⟩ : BufTy).Contents (Elt F)) ]

/-- The buffers those operations write. -/
abbrev ops3_W : List (Ref sig .tc) :=
  [main_v50, main_v51, main_cst_8, main_v52, main_v53, main_v54, main_v55, main_v56, main_v57, main_v58, main_v59, main_v60, main_v61, main_v62, main_v63, main_call3_cst, main_call3_v0, main_v64, main_c_9, main_v65, main_v66, main_c_10, main_v67, main_v68, main_v69, main_v70, main_v71, main_v72, main_v73, main_v74, main_v75, main_v76, main_v77, main_v78, main_v79, main_v80, main_v81, main_v82, main_v83, main_v84, main_c_11, main_v85, main_v86, main_c_12, main_v87, main_v88, main_v89, main_v90, main_v91, main_cst_13, main_v92, main_v93]

set_option maxRecDepth 8192 in
theorem ops3_sub : (ops3 : List (HloOp τ sig (Elt F))).Forall fun op => op.bufs ⊆ tcRefs τ sig :=
  ⟨unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub ..⟩

set_option maxRecDepth 8192 in
theorem ops3_writes : (ops3 : List (HloOp τ sig (Elt F))).Forall fun op =>
    op.writes ⊆ (ops3_W.map (Proc.devRef (τ := τ) .tc)).toFinset := by
  simp only [List.Forall]
  exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

set_option maxRecDepth 8192 in
/-- Every operation determines its results. -/
theorem ops3_fresh : ∀ op ∈ (ops3 : List (HloOp τ sig (Elt F))), op.fresh = ∅ := by
  intro _ h; (repeat (cases h with | head => rfl | tail _ h => ?_)); exact nomatch h

set_option maxRecDepth 8192 in
/-- None of them writes an argument of @main. -/
theorem ops3_keepArgs : ∀ r ∈ argRefs, r ∉ ops3_W := by decide

/-- The reference's operations 157 … 166 of 1028 (in window main_part1), a call's body listed
    at the call over the call's buffer record. -/
abbrev ops4 : List (HloOp τ sig (Elt F)) :=
  [ StableHlo.ternary main_v92 main_v93 main_v91 main_v94 ((fun x i u => Host.scatterAdd scatter_S10000x300_S160000x1_S160000x300_1_0_0_1 x i u) : (⟨S10000x300, .f32⟩ : BufTy).Contents (Elt F) → (⟨S160000x1, .i32⟩ : BufTy).Contents (Elt F) → (⟨S160000x300, .f32⟩ : BufTy).Contents (Elt F) → (⟨S10000x300, .f32⟩ : BufTy).Contents (Elt F)),
    StableHlo.binary main_v72 main_v94 main_v95 (addf : (⟨S10000x300, .f32⟩ : BufTy).Contents (Elt F) → (⟨S10000x300, .f32⟩ : BufTy).Contents (Elt F) → (⟨S10000x300, .f32⟩ : BufTy).Contents (Elt F)),
    StableHlo.binary main_v95 main_v74 main_v96 ((fun l r => Host.dotGeneral dot_S10000x300_S300x600_S10000x600_1_0_0_1_n_n none l r) : (⟨S10000x300, .f32⟩ : BufTy).Contents (Elt F) → (⟨S300x600, .f32⟩ : BufTy).Contents (Elt F) → (⟨S10000x600, .f32⟩ : BufTy).Contents (Elt F)),
    StableHlo.unary main_v76 main_v97 (broadcastInDim S1x600 ![1] bcast_S600_S1x600_1 : (⟨S600, .f32⟩ : BufTy).Contents (Elt F) → (⟨S1x600, .f32⟩ : BufTy).Contents (Elt F)),
    StableHlo.unary main_v97 main_v98 (broadcastInDim S10000x600 ![0, 1] bcast_S1x600_S10000x600_0_1 : (⟨S1x600, .f32⟩ : BufTy).Contents (Elt F) → (⟨S10000x600, .f32⟩ : BufTy).Contents (Elt F)),
    StableHlo.binary main_v96 main_v98 main_v99 (addf : (⟨S10000x600, .f32⟩ : BufTy).Contents (Elt F) → (⟨S10000x600, .f32⟩ : BufTy).Contents (Elt F) → (⟨S10000x600, .f32⟩ : BufTy).Contents (Elt F)),
    StableHlo.nullary main_cst_14 (constant S_ .f32 0x00000000#32),
    StableHlo.binary main_v99 main_cst_14 main_v100 ((fun x v => Host.reduceAdd x v reducesTo_S10000x600_S600_d0 h_S_) : (⟨S10000x600, .f32⟩ : BufTy).Contents (Elt F) → (⟨S_, .f32⟩ : BufTy).Contents (Elt F) → (⟨S600, .f32⟩ : BufTy).Contents (Elt F)),
    StableHlo.nullary main_cst_15 (constant S_ .f32 0x461C4000#32),
    StableHlo.unary main_cst_15 main_v101 (broadcastInDim S600 ![] bcast_S_S600 : (⟨S_, .f32⟩ : BufTy).Contents (Elt F) → (⟨S600, .f32⟩ : BufTy).Contents (Elt F)) ]

/-- The buffers those operations write. -/
abbrev ops4_W : List (Ref sig .tc) :=
  [main_v94, main_v95, main_v96, main_v97, main_v98, main_v99, main_cst_14, main_v100, main_cst_15, main_v101]

set_option maxRecDepth 8192 in
theorem ops4_sub : (ops4 : List (HloOp τ sig (Elt F))).Forall fun op => op.bufs ⊆ tcRefs τ sig :=
  ⟨ternary_bufs_sub .., binary_bufs_sub .., binary_bufs_sub .., unary_bufs_sub .., unary_bufs_sub .., binary_bufs_sub .., nullary_bufs_sub .., binary_bufs_sub .., nullary_bufs_sub .., unary_bufs_sub ..⟩

set_option maxRecDepth 8192 in
theorem ops4_writes : (ops4 : List (HloOp τ sig (Elt F))).Forall fun op =>
    op.writes ⊆ (ops4_W.map (Proc.devRef (τ := τ) .tc)).toFinset := by
  simp only [List.Forall]
  exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

set_option maxRecDepth 8192 in
/-- Every operation determines its results. -/
theorem ops4_fresh : ∀ op ∈ (ops4 : List (HloOp τ sig (Elt F))), op.fresh = ∅ := by
  intro _ h; (repeat (cases h with | head => rfl | tail _ h => ?_)); exact nomatch h

set_option maxRecDepth 8192 in
/-- None of them writes an argument of @main. -/
theorem ops4_keepArgs : ∀ r ∈ argRefs, r ∉ ops4_W := by decide

set_option maxRecDepth 16384 in
set_option maxHeartbeats 4000000 in
/-- The window is the straight line of its operations: the called functions unfolded at their calls. -/
theorem main_part1_eq (c : Dev nD) : main_part1 (F := F) c = seq (ops3 ++ (ops4)) := by
  first
  | rfl
  | (simp only [main_part1, fn_relu_2.body, List.cons_append, List.nil_append, seq, bind_assoc, pure_bind]; try rfl)

end Cert.ReferenceIdeal.RefRun

end
-- ==== Proof.Ref.OpsW2.lean ====
import proofs.«411400_j9251359555630_1_alg».proof.ReferenceIdeal
import Idealize.ShloMosaic.Lib.StableHlo.Run
import proofs.«411400_j9251359555630_1_alg».proof.Proof.Ref.Common

noncomputable section

namespace Cert.ReferenceIdeal.RefRun

open Cert.ReferenceIdeal Idealize.ShloMosaic Idealize.ShloMosaic.TcCoe Idealize.SL.Sem Idealize.ShloMosaic.StableHlo
open Cert.ReferenceIdeal.Facts₀ Cert.ReferenceIdeal.Facts

variable {F : FTy → Type} [FloatOps F] [Facts]

/-- The reference's operations 167 … 223 of 1028 (in window main_part2), a call's body listed
    at the call over the call's buffer record. -/
abbrev ops5 : List (HloOp τ sig (Elt F)) :=
  [ StableHlo.binary main_v100 main_v101 main_v102 (Host.divf : (⟨S600, .f32⟩ : BufTy).Contents (Elt F) → (⟨S600, .f32⟩ : BufTy).Contents (Elt F) → (⟨S600, .f32⟩ : BufTy).Contents (Elt F)),
    StableHlo.nullary main_c_16 (constantI S_ 32 0#32),
    StableHlo.TRef.nullary main_call4.cst (constant S_ .f32 0x00000000#32),
    StableHlo.TRef.binary (StableHlo.TRef.of main_v99 : StableHlo.TRef sig ⟨S10000x600, .f32⟩) main_call4.cst main_call4.v0 (fun x v => Host.reduceAdd x v reducesTo_S10000x600_S600_d0 h_S_),
    StableHlo.TRef.unary main_call4.v0 main_call4.v1 (broadcastInDim S1x600 ![1] bcast_S600_S1x600_1),
    StableHlo.TRef.nullary main_call4.cst_0 (constant S_ .f32 0x461C4000#32),
    StableHlo.TRef.unary main_call4.cst_0 main_call4.v2 (broadcastInDim S1x600 ![] bcast_S_S1x600),
    StableHlo.TRef.binary main_call4.v1 main_call4.v2 main_call4.v3 Host.divf,
    StableHlo.TRef.unary main_call4.v3 main_call4.v4 (broadcastInDim S10000x600 ![0, 1] bcast_S1x600_S10000x600_0_1),
    StableHlo.TRef.binary (StableHlo.TRef.of main_v99 : StableHlo.TRef sig ⟨S10000x600, .f32⟩) main_call4.v4 main_call4.v5 subf,
    StableHlo.TRef.binary main_call4.v5 main_call4.v5 main_call4.v6 mulf,
    StableHlo.TRef.unary (StableHlo.TRef.of main_c_16 : StableHlo.TRef sig ⟨S_, .i32⟩) main_call4.v7 (sitofp .f32),
    StableHlo.TRef.nullary main_call4.cst_1 (constant S_ .f32 0x461C4000#32),
    StableHlo.TRef.binary main_call4.cst_1 main_call4.v7 main_call4.v8 subf,
    StableHlo.TRef.nullary main_call4.cst_2 (constant S_ .f32 0x00000000#32),
    StableHlo.TRef.binary main_call4.v6 main_call4.cst_2 main_call4.v9 (fun x v => Host.reduceAdd x v reducesTo_S10000x600_S600_d0 h_S_),
    StableHlo.TRef.unary main_call4.v8 main_call4.v10 (broadcastInDim S600 ![] bcast_S_S600),
    StableHlo.TRef.binary main_call4.v9 main_call4.v10 main_call4.v11 Host.divf,
    StableHlo.TRef.nullary main_call4.cst_3 (constant S_ .f32 0x00000000#32),
    StableHlo.TRef.binary main_call4.v8 main_call4.cst_3 main_call4.v12 (cmpf .ogt),
    StableHlo.TRef.nullary main_call4.cst_4 (constant S_ .f32 0x7FC00000#32),
    StableHlo.TRef.unary main_call4.cst_4 main_call4.call0.v0 id,
    StableHlo.TRef.unary main_call4.call0.v0 main_call4.call0.v1 (broadcastInDim S600 ![] bcast_S_S600),
    StableHlo.TRef.ternary main_call4.v12 main_call4.v11 main_call4.call0.v1 main_call4.call0.v2 (fun p a b => select (broadcastInDim S600 ![] bcast_S_S600 p) a b),
    StableHlo.unary main_v102 main_v104 (broadcastInDim S1x600 ![1] bcast_S600_S1x600_1 : (⟨S600, .f32⟩ : BufTy).Contents (Elt F) → (⟨S1x600, .f32⟩ : BufTy).Contents (Elt F)),
    StableHlo.unary main_v104 main_v105 (broadcastInDim S10000x600 ![0, 1] bcast_S1x600_S10000x600_0_1 : (⟨S1x600, .f32⟩ : BufTy).Contents (Elt F) → (⟨S10000x600, .f32⟩ : BufTy).Contents (Elt F)),
    StableHlo.binary main_v99 main_v105 main_v106 (subf : (⟨S10000x600, .f32⟩ : BufTy).Contents (Elt F) → (⟨S10000x600, .f32⟩ : BufTy).Contents (Elt F) → (⟨S10000x600, .f32⟩ : BufTy).Contents (Elt F)),
    StableHlo.nullary main_cst_17 (constant S_ .f32 0x3727C5AC#32),
    StableHlo.unary main_cst_17 main_v107 (broadcastInDim S600 ![] bcast_S_S600 : (⟨S_, .f32⟩ : BufTy).Contents (Elt F) → (⟨S600, .f32⟩ : BufTy).Contents (Elt F)),
    StableHlo.binary main_v103 main_v107 main_v108 (addf : (⟨S600, .f32⟩ : BufTy).Contents (Elt F) → (⟨S600, .f32⟩ : BufTy).Contents (Elt F) → (⟨S600, .f32⟩ : BufTy).Contents (Elt F)),
    StableHlo.unary main_v108 main_v109 (Host.rsqrt : (⟨S600, .f32⟩ : BufTy).Contents (Elt F) → (⟨S600, .f32⟩ : BufTy).Contents (Elt F)),
    StableHlo.unary main_v109 main_v110 (broadcastInDim S1x600 ![1] bcast_S600_S1x600_1 : (⟨S600, .f32⟩ : BufTy).Contents (Elt F) → (⟨S1x600, .f32⟩ : BufTy).Contents (Elt F)),
    StableHlo.unary main_v110 main_v111 (broadcastInDim S10000x600 ![0, 1] bcast_S1x600_S10000x600_0_1 : (⟨S1x600, .f32⟩ : BufTy).Contents (Elt F) → (⟨S10000x600, .f32⟩ : BufTy).Contents (Elt F)),
    StableHlo.binary main_v106 main_v111 main_v112 (mulf : (⟨S10000x600, .f32⟩ : BufTy).Contents (Elt F) → (⟨S10000x600, .f32⟩ : BufTy).Contents (Elt F) → (⟨S10000x600, .f32⟩ : BufTy).Contents (Elt F)),
    StableHlo.unary main_v78 main_v113 (broadcastInDim S1x600 ![1] bcast_S600_S1x600_1 : (⟨S600, .f32⟩ : BufTy).Contents (Elt F) → (⟨S1x600, .f32⟩ : BufTy).Contents (Elt F)),
    StableHlo.unary main_v113 main_v114 (broadcastInDim S10000x600 ![0, 1] bcast_S1x600_S10000x600_0_1 : (⟨S1x600, .f32⟩ : BufTy).Contents (Elt F) → (⟨S10000x600, .f32⟩ : BufTy).Contents (Elt F)),
    StableHlo.binary main_v112 main_v114 main_v115 (mulf : (⟨S10000x600, .f32⟩ : BufTy).Contents (Elt F) → (⟨S10000x600, .f32⟩ : BufTy).Contents (Elt F) → (⟨S10000x600, .f32⟩ : BufTy).Contents (Elt F)),
    StableHlo.unary main_v80 main_v116 (broadcastInDim S1x600 ![1] bcast_S600_S1x600_1 : (⟨S600, .f32⟩ : BufTy).Contents (Elt F) → (⟨S1x600, .f32⟩ : BufTy).Contents (Elt F)),
    StableHlo.unary main_v116 main_v117 (broadcastInDim S10000x600 ![0, 1] bcast_S1x600_S10000x600_0_1 : (⟨S1x600, .f32⟩ : BufTy).Contents (Elt F) → (⟨S10000x600, .f32⟩ : BufTy).Contents (Elt F)),
    StableHlo.binary main_v115 main_v117 main_v118 (addf : (⟨S10000x600, .f32⟩ : BufTy).Contents (Elt F) → (⟨S10000x600, .f32⟩ : BufTy).Contents (Elt F) → (⟨S10000x600, .f32⟩ : BufTy).Contents (Elt F)),
    StableHlo.TRef.nullary main_call5.cst (constant S_ .f32 0x00000000#32),
    StableHlo.TRef.unary main_call5.cst main_call5.v0 (broadcastInDim S10000x600 ![] bcast_S_S10000x600),
    StableHlo.TRef.binary (StableHlo.TRef.of main_v118 : StableHlo.TRef sig ⟨S10000x600, .f32⟩) main_call5.v0 main_call5.v1 maximumf,
    StableHlo.binary main_v119 main_v82 main_v120 ((fun l r => Host.dotGeneral dot_S10000x600_S600x300_S10000x300_1_0_0_1_n_n none l r) : (⟨S10000x600, .f32⟩ : BufTy).Contents (Elt F) → (⟨S600x300, .f32⟩ : BufTy).Contents (Elt F) → (⟨S10000x300, .f32⟩ : BufTy).Contents (Elt F)),
    StableHlo.unary main_v84 main_v121 (broadcastInDim S1x300 ![1] bcast_S300_S1x300_1 : (⟨S300, .f32⟩ : BufTy).Contents (Elt F) → (⟨S1x300, .f32⟩ : BufTy).Contents (Elt F)),
    StableHlo.unary main_v121 main_v122 (broadcastInDim S10000x300 ![0, 1] bcast_S1x300_S10000x300_0_1 : (⟨S1x300, .f32⟩ : BufTy).Contents (Elt F) → (⟨S10000x300, .f32⟩ : BufTy).Contents (Elt F)),
    StableHlo.binary main_v120 main_v122 main_v123 (addf : (⟨S10000x300, .f32⟩ : BufTy).Contents (Elt F) → (⟨S10000x300, .f32⟩ : BufTy).Contents (Elt F) → (⟨S10000x300, .f32⟩ : BufTy).Contents (Elt F)),
    StableHlo.unary main_arg18 main_v124 ((extractStridedSlice S1x300 ![0, 0] · slices_S4x300_S1x300_0_0) : (⟨S4x300, .f32⟩ : BufTy).Contents (Elt F) → (⟨S1x300, .f32⟩ : BufTy).Contents (Elt F)),
    StableHlo.reshape main_v124 main_v125 rfl shapeCasts_S1x300_S300,
    StableHlo.unary main_arg19 main_v126 ((extractStridedSlice S1x300 ![0, 0] · slices_S4x300_S1x300_0_0) : (⟨S4x300, .f32⟩ : BufTy).Contents (Elt F) → (⟨S1x300, .f32⟩ : BufTy).Contents (Elt F)),
    StableHlo.reshape main_v126 main_v127 rfl shapeCasts_S1x300_S300,
    StableHlo.nullary main_cst_18 (constant S_ .f32 0x00000000#32),
    StableHlo.binary main_v123 main_cst_18 main_v128 ((fun x v => Host.reduceAdd x v reducesTo_S10000x300_S300_d0 h_S_) : (⟨S10000x300, .f32⟩ : BufTy).Contents (Elt F) → (⟨S_, .f32⟩ : BufTy).Contents (Elt F) → (⟨S300, .f32⟩ : BufTy).Contents (Elt F)),
    StableHlo.nullary main_cst_19 (constant S_ .f32 0x461C4000#32),
    StableHlo.unary main_cst_19 main_v129 (broadcastInDim S300 ![] bcast_S_S300 : (⟨S_, .f32⟩ : BufTy).Contents (Elt F) → (⟨S300, .f32⟩ : BufTy).Contents (Elt F)),
    StableHlo.binary main_v128 main_v129 main_v130 (Host.divf : (⟨S300, .f32⟩ : BufTy).Contents (Elt F) → (⟨S300, .f32⟩ : BufTy).Contents (Elt F) → (⟨S300, .f32⟩ : BufTy).Contents (Elt F)),
    StableHlo.nullary main_c_20 (constantI S_ 32 0#32) ]

/-- The buffers those operations write. -/
abbrev ops5_W : List (Ref sig .tc) :=
  [main_v102, main_c_16, main_call4_cst, main_call4_v0, main_call4_v1, main_call4_cst_0, main_call4_v2, main_call4_v3, main_call4_v4, main_call4_v5, main_call4_v6, main_call4_v7, main_call4_cst_1, main_call4_v8, main_call4_cst_2, main_call4_v9, main_call4_v10, main_call4_v11, main_call4_cst_3, main_call4_v12, main_call4_cst_4, main_call4_call0_v0, main_call4_call0_v1, main_v103, main_v104, main_v105, main_v106, main_cst_17, main_v107, main_v108, main_v109, main_v110, main_v111, main_v112, main_v113, main_v114, main_v115, main_v116, main_v117, main_v118, main_call5_cst, main_call5_v0, main_v119, main_v120, main_v121, main_v122, main_v123, main_v124, main_v125, main_v126, main_v127, main_cst_18, main_v128, main_cst_19, main_v129, main_v130, main_c_20]

set_option maxRecDepth 8192 in
theorem ops5_sub : (ops5 : List (HloOp τ sig (Elt F))).Forall fun op => op.bufs ⊆ tcRefs τ sig :=
  ⟨binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., unary_bufs_sub .., reshape_bufs_sub .., unary_bufs_sub .., reshape_bufs_sub .., nullary_bufs_sub .., binary_bufs_sub .., nullary_bufs_sub .., unary_bufs_sub .., binary_bufs_sub .., nullary_bufs_sub ..⟩

set_option maxRecDepth 8192 in
theorem ops5_writes : (ops5 : List (HloOp τ sig (Elt F))).Forall fun op =>
    op.writes ⊆ (ops5_W.map (Proc.devRef (τ := τ) .tc)).toFinset := by
  simp only [List.Forall]
  exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

set_option maxRecDepth 8192 in
/-- Every operation determines its results. -/
theorem ops5_fresh : ∀ op ∈ (ops5 : List (HloOp τ sig (Elt F))), op.fresh = ∅ := by
  intro _ h; (repeat (cases h with | head => rfl | tail _ h => ?_)); exact nomatch h

set_option maxRecDepth 8192 in
/-- None of them writes an argument of @main. -/
theorem ops5_keepArgs : ∀ r ∈ argRefs, r ∉ ops5_W := by decide

/-- The reference's operations 224 … 267 of 1028 (in window main_part2), a call's body listed
    at the call over the call's buffer record. -/
abbrev ops6 : List (HloOp τ sig (Elt F)) :=
  [ StableHlo.TRef.nullary main_call6.cst (constant S_ .f32 0x00000000#32),
    StableHlo.TRef.binary (StableHlo.TRef.of main_v123 : StableHlo.TRef sig ⟨S10000x300, .f32⟩) main_call6.cst main_call6.v0 (fun x v => Host.reduceAdd x v reducesTo_S10000x300_S300_d0 h_S_),
    StableHlo.TRef.unary main_call6.v0 main_call6.v1 (broadcastInDim S1x300 ![1] bcast_S300_S1x300_1),
    StableHlo.TRef.nullary main_call6.cst_0 (constant S_ .f32 0x461C4000#32),
    StableHlo.TRef.unary main_call6.cst_0 main_call6.v2 (broadcastInDim S1x300 ![] bcast_S_S1x300),
    StableHlo.TRef.binary main_call6.v1 main_call6.v2 main_call6.v3 Host.divf,
    StableHlo.TRef.unary main_call6.v3 main_call6.v4 (broadcastInDim S10000x300 ![0, 1] bcast_S1x300_S10000x300_0_1),
    StableHlo.TRef.binary (StableHlo.TRef.of main_v123 : StableHlo.TRef sig ⟨S10000x300, .f32⟩) main_call6.v4 main_call6.v5 subf,
    StableHlo.TRef.binary main_call6.v5 main_call6.v5 main_call6.v6 mulf,
    StableHlo.TRef.unary (StableHlo.TRef.of main_c_20 : StableHlo.TRef sig ⟨S_, .i32⟩) main_call6.v7 (sitofp .f32),
    StableHlo.TRef.nullary main_call6.cst_1 (constant S_ .f32 0x461C4000#32),
    StableHlo.TRef.binary main_call6.cst_1 main_call6.v7 main_call6.v8 subf,
    StableHlo.TRef.nullary main_call6.cst_2 (constant S_ .f32 0x00000000#32),
    StableHlo.TRef.binary main_call6.v6 main_call6.cst_2 main_call6.v9 (fun x v => Host.reduceAdd x v reducesTo_S10000x300_S300_d0 h_S_),
    StableHlo.TRef.unary main_call6.v8 main_call6.v10 (broadcastInDim S300 ![] bcast_S_S300),
    StableHlo.TRef.binary main_call6.v9 main_call6.v10 main_call6.v11 Host.divf,
    StableHlo.TRef.nullary main_call6.cst_3 (constant S_ .f32 0x00000000#32),
    StableHlo.TRef.binary main_call6.v8 main_call6.cst_3 main_call6.v12 (cmpf .ogt),
    StableHlo.TRef.nullary main_call6.cst_4 (constant S_ .f32 0x7FC00000#32),
    StableHlo.TRef.unary main_call6.cst_4 main_call6.call0.v0 id,
    StableHlo.TRef.unary main_call6.call0.v0 main_call6.call0.v1 (broadcastInDim S300 ![] bcast_S_S300),
    StableHlo.TRef.ternary main_call6.v12 main_call6.v11 main_call6.call0.v1 main_call6.call0.v2 (fun p a b => select (broadcastInDim S300 ![] bcast_S_S300 p) a b),
    StableHlo.unary main_v130 main_v132 (broadcastInDim S1x300 ![1] bcast_S300_S1x300_1 : (⟨S300, .f32⟩ : BufTy).Contents (Elt F) → (⟨S1x300, .f32⟩ : BufTy).Contents (Elt F)),
    StableHlo.unary main_v132 main_v133 (broadcastInDim S10000x300 ![0, 1] bcast_S1x300_S10000x300_0_1 : (⟨S1x300, .f32⟩ : BufTy).Contents (Elt F) → (⟨S10000x300, .f32⟩ : BufTy).Contents (Elt F)),
    StableHlo.binary main_v123 main_v133 main_v134 (subf : (⟨S10000x300, .f32⟩ : BufTy).Contents (Elt F) → (⟨S10000x300, .f32⟩ : BufTy).Contents (Elt F) → (⟨S10000x300, .f32⟩ : BufTy).Contents (Elt F)),
    StableHlo.nullary main_cst_21 (constant S_ .f32 0x3727C5AC#32),
    StableHlo.unary main_cst_21 main_v135 (broadcastInDim S300 ![] bcast_S_S300 : (⟨S_, .f32⟩ : BufTy).Contents (Elt F) → (⟨S300, .f32⟩ : BufTy).Contents (Elt F)),
    StableHlo.binary main_v131 main_v135 main_v136 (addf : (⟨S300, .f32⟩ : BufTy).Contents (Elt F) → (⟨S300, .f32⟩ : BufTy).Contents (Elt F) → (⟨S300, .f32⟩ : BufTy).Contents (Elt F)),
    StableHlo.unary main_v136 main_v137 (Host.rsqrt : (⟨S300, .f32⟩ : BufTy).Contents (Elt F) → (⟨S300, .f32⟩ : BufTy).Contents (Elt F)),
    StableHlo.unary main_v137 main_v138 (broadcastInDim S1x300 ![1] bcast_S300_S1x300_1 : (⟨S300, .f32⟩ : BufTy).Contents (Elt F) → (⟨S1x300, .f32⟩ : BufTy).Contents (Elt F)),
    StableHlo.unary main_v138 main_v139 (broadcastInDim S10000x300 ![0, 1] bcast_S1x300_S10000x300_0_1 : (⟨S1x300, .f32⟩ : BufTy).Contents (Elt F) → (⟨S10000x300, .f32⟩ : BufTy).Contents (Elt F)),
    StableHlo.binary main_v134 main_v139 main_v140 (mulf : (⟨S10000x300, .f32⟩ : BufTy).Contents (Elt F) → (⟨S10000x300, .f32⟩ : BufTy).Contents (Elt F) → (⟨S10000x300, .f32⟩ : BufTy).Contents (Elt F)),
    StableHlo.unary main_v125 main_v141 (broadcastInDim S1x300 ![1] bcast_S300_S1x300_1 : (⟨S300, .f32⟩ : BufTy).Contents (Elt F) → (⟨S1x300, .f32⟩ : BufTy).Contents (Elt F)),
    StableHlo.unary main_v141 main_v142 (broadcastInDim S10000x300 ![0, 1] bcast_S1x300_S10000x300_0_1 : (⟨S1x300, .f32⟩ : BufTy).Contents (Elt F) → (⟨S10000x300, .f32⟩ : BufTy).Contents (Elt F)),
    StableHlo.binary main_v140 main_v142 main_v143 (mulf : (⟨S10000x300, .f32⟩ : BufTy).Contents (Elt F) → (⟨S10000x300, .f32⟩ : BufTy).Contents (Elt F) → (⟨S10000x300, .f32⟩ : BufTy).Contents (Elt F)),
    StableHlo.unary main_v127 main_v144 (broadcastInDim S1x300 ![1] bcast_S300_S1x300_1 : (⟨S300, .f32⟩ : BufTy).Contents (Elt F) → (⟨S1x300, .f32⟩ : BufTy).Contents (Elt F)),
    StableHlo.unary main_v144 main_v145 (broadcastInDim S10000x300 ![0, 1] bcast_S1x300_S10000x300_0_1 : (⟨S1x300, .f32⟩ : BufTy).Contents (Elt F) → (⟨S10000x300, .f32⟩ : BufTy).Contents (Elt F)),
    StableHlo.binary main_v143 main_v145 main_v146 (addf : (⟨S10000x300, .f32⟩ : BufTy).Contents (Elt F) → (⟨S10000x300, .f32⟩ : BufTy).Contents (Elt F) → (⟨S10000x300, .f32⟩ : BufTy).Contents (Elt F)),
    StableHlo.TRef.nullary main_call7.cst (constant S_ .f32 0x00000000#32),
    StableHlo.TRef.unary main_call7.cst main_call7.v0 (broadcastInDim S10000x300 ![] bcast_S_S10000x300),
    StableHlo.TRef.binary (StableHlo.TRef.of main_v146 : StableHlo.TRef sig ⟨S10000x300, .f32⟩) main_call7.v0 main_call7.v1 maximumf,
    StableHlo.nullary main_cst_22 (constant S_ .f32 0x00000000#32),
    StableHlo.unary main_cst_22 main_v148 (broadcastInDim S64x300 ![] bcast_S_S64x300 : (⟨S_, .f32⟩ : BufTy).Contents (Elt F) → (⟨S64x300, .f32⟩ : BufTy).Contents (Elt F)),
    StableHlo.unary main_arg2 main_v149 (broadcastInDim S10000x1 ![0] bcast_S10000_S10000x1_0 : (⟨S10000, .i32⟩ : BufTy).Contents (Elt F) → (⟨S10000x1, .i32⟩ : BufTy).Contents (Elt F)) ]

/-- The buffers those operations write. -/
abbrev ops6_W : List (Ref sig .tc) :=
  [main_call6_cst, main_call6_v0, main_call6_v1, main_call6_cst_0, main_call6_v2, main_call6_v3, main_call6_v4, main_call6_v5, main_call6_v6, main_call6_v7, main_call6_cst_1, main_call6_v8, main_call6_cst_2, main_call6_v9, main_call6_v10, main_call6_v11, main_call6_cst_3, main_call6_v12, main_call6_cst_4, main_call6_call0_v0, main_call6_call0_v1, main_v131, main_v132, main_v133, main_v134, main_cst_21, main_v135, main_v136, main_v137, main_v138, main_v139, main_v140, main_v141, main_v142, main_v143, main_v144, main_v145, main_v146, main_call7_cst, main_call7_v0, main_v147, main_cst_22, main_v148, main_v149]

set_option maxRecDepth 8192 in
theorem ops6_sub : (ops6 : List (HloOp τ sig (Elt F))).Forall fun op => op.bufs ⊆ tcRefs τ sig :=
  ⟨nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., nullary_bufs_sub .., unary_bufs_sub .., unary_bufs_sub ..⟩

set_option maxRecDepth 8192 in
theorem ops6_writes : (ops6 : List (HloOp τ sig (Elt F))).Forall fun op =>
    op.writes ⊆ (ops6_W.map (Proc.devRef (τ := τ) .tc)).toFinset := by
  simp only [List.Forall]
  exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

set_option maxRecDepth 8192 in
/-- Every operation determines its results. -/
theorem ops6_fresh : ∀ op ∈ (ops6 : List (HloOp τ sig (Elt F))), op.fresh = ∅ := by
  intro _ h; (repeat (cases h with | head => rfl | tail _ h => ?_)); exact nomatch h

set_option maxRecDepth 8192 in
/-- None of them writes an argument of @main. -/
theorem ops6_keepArgs : ∀ r ∈ argRefs, r ∉ ops6_W := by decide

/-- The reference's operations 268 … 272 of 1028 (in window main_part2), a call's body listed
    at the call over the call's buffer record. -/
abbrev ops7 : List (HloOp τ sig (Elt F)) :=
  [ StableHlo.ternary main_v148 main_v149 main_v147 main_v150 ((fun x i u => Host.scatterAdd scatter_S64x300_S10000x1_S10000x300_1_0_0_1 x i u) : (⟨S64x300, .f32⟩ : BufTy).Contents (Elt F) → (⟨S10000x1, .i32⟩ : BufTy).Contents (Elt F) → (⟨S10000x300, .f32⟩ : BufTy).Contents (Elt F) → (⟨S64x300, .f32⟩ : BufTy).Contents (Elt F)),
    StableHlo.binary main_v150 main_v5 main_v151 (addf : (⟨S64x300, .f32⟩ : BufTy).Contents (Elt F) → (⟨S64x300, .f32⟩ : BufTy).Contents (Elt F) → (⟨S64x300, .f32⟩ : BufTy).Contents (Elt F)),
    StableHlo.binary main_v151 main_arg20 main_v152 ((fun l r => Host.dotGeneral dot_S64x300_S300x600_S64x600_1_0_0_1_n_n none l r) : (⟨S64x300, .f32⟩ : BufTy).Contents (Elt F) → (⟨S300x600, .f32⟩ : BufTy).Contents (Elt F) → (⟨S64x600, .f32⟩ : BufTy).Contents (Elt F)),
    StableHlo.unary main_arg21 main_v153 (broadcastInDim S1x600 ![1] bcast_S600_S1x600_1 : (⟨S600, .f32⟩ : BufTy).Contents (Elt F) → (⟨S1x600, .f32⟩ : BufTy).Contents (Elt F)),
    StableHlo.unary main_v153 main_v154 (broadcastInDim S64x600 ![0, 1] bcast_S1x600_S64x600_0_1 : (⟨S1x600, .f32⟩ : BufTy).Contents (Elt F) → (⟨S64x600, .f32⟩ : BufTy).Contents (Elt F)) ]

/-- The buffers those operations write. -/
abbrev ops7_W : List (Ref sig .tc) :=
  [main_v150, main_v151, main_v152, main_v153, main_v154]

set_option maxRecDepth 8192 in
theorem ops7_sub : (ops7 : List (HloOp τ sig (Elt F))).Forall fun op => op.bufs ⊆ tcRefs τ sig :=
  ⟨ternary_bufs_sub .., binary_bufs_sub .., binary_bufs_sub .., unary_bufs_sub .., unary_bufs_sub ..⟩

set_option maxRecDepth 8192 in
theorem ops7_writes : (ops7 : List (HloOp τ sig (Elt F))).Forall fun op =>
    op.writes ⊆ (ops7_W.map (Proc.devRef (τ := τ) .tc)).toFinset := by
  simp only [List.Forall]
  exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

set_option maxRecDepth 8192 in
/-- Every operation determines its results. -/
theorem ops7_fresh : ∀ op ∈ (ops7 : List (HloOp τ sig (Elt F))), op.fresh = ∅ := by
  intro _ h; (repeat (cases h with | head => rfl | tail _ h => ?_)); exact nomatch h

set_option maxRecDepth 8192 in
/-- None of them writes an argument of @main. -/
theorem ops7_keepArgs : ∀ r ∈ argRefs, r ∉ ops7_W := by decide

set_option maxRecDepth 16384 in
set_option maxHeartbeats 4000000 in
/-- The window is the straight line of its operations: the called functions unfolded at their calls. -/
theorem main_part2_eq (c : Dev nD) : main_part2 (F := F) c = seq (ops5 ++ (ops6 ++ (ops7))) := by
  first
  | rfl
  | (simp only [main_part2, fn_relu.body, fn_relu_2.body, fn_var.body, fn_var_0.body, fn_where.body, fn_where_1.body, List.cons_append, List.nil_append, seq, bind_assoc, pure_bind]; try rfl)

end Cert.ReferenceIdeal.RefRun

end
-- ==== Proof.Ref.OpsW3.lean ====
import proofs.«411400_j9251359555630_1_alg».proof.ReferenceIdeal
import Idealize.ShloMosaic.Lib.StableHlo.Run
import proofs.«411400_j9251359555630_1_alg».proof.Proof.Ref.Common

noncomputable section

namespace Cert.ReferenceIdeal.RefRun

open Cert.ReferenceIdeal Idealize.ShloMosaic Idealize.ShloMosaic.TcCoe Idealize.SL.Sem Idealize.ShloMosaic.StableHlo
open Cert.ReferenceIdeal.Facts₀ Cert.ReferenceIdeal.Facts

variable {F : FTy → Type} [FloatOps F] [Facts]

/-- The reference's operations 273 … 330 of 1028 (in window main_part3), a call's body listed
    at the call over the call's buffer record. -/
abbrev ops8 : List (HloOp τ sig (Elt F)) :=
  [ StableHlo.binary main_v152 main_v154 main_v155 (addf : (⟨S64x600, .f32⟩ : BufTy).Contents (Elt F) → (⟨S64x600, .f32⟩ : BufTy).Contents (Elt F) → (⟨S64x600, .f32⟩ : BufTy).Contents (Elt F)),
    StableHlo.nullary main_cst_23 (constant S_ .f32 0x00000000#32),
    StableHlo.binary main_v155 main_cst_23 main_v156 ((fun x v => Host.reduceAdd x v reducesTo_S64x600_S600_d0 h_S_) : (⟨S64x600, .f32⟩ : BufTy).Contents (Elt F) → (⟨S_, .f32⟩ : BufTy).Contents (Elt F) → (⟨S600, .f32⟩ : BufTy).Contents (Elt F)),
    StableHlo.nullary main_cst_24 (constant S_ .f32 0x42800000#32),
    StableHlo.unary main_cst_24 main_v157 (broadcastInDim S600 ![] bcast_S_S600 : (⟨S_, .f32⟩ : BufTy).Contents (Elt F) → (⟨S600, .f32⟩ : BufTy).Contents (Elt F)),
    StableHlo.binary main_v156 main_v157 main_v158 (Host.divf : (⟨S600, .f32⟩ : BufTy).Contents (Elt F) → (⟨S600, .f32⟩ : BufTy).Contents (Elt F) → (⟨S600, .f32⟩ : BufTy).Contents (Elt F)),
    StableHlo.nullary main_c_25 (constantI S_ 32 0#32),
    StableHlo.TRef.nullary main_call8.cst (constant S_ .f32 0x00000000#32),
    StableHlo.TRef.binary (StableHlo.TRef.of main_v155 : StableHlo.TRef sig ⟨S64x600, .f32⟩) main_call8.cst main_call8.v0 (fun x v => Host.reduceAdd x v reducesTo_S64x600_S600_d0 h_S_),
    StableHlo.TRef.unary main_call8.v0 main_call8.v1 (broadcastInDim S1x600 ![1] bcast_S600_S1x600_1),
    StableHlo.TRef.nullary main_call8.cst_0 (constant S_ .f32 0x42800000#32),
    StableHlo.TRef.unary main_call8.cst_0 main_call8.v2 (broadcastInDim S1x600 ![] bcast_S_S1x600),
    StableHlo.TRef.binary main_call8.v1 main_call8.v2 main_call8.v3 Host.divf,
    StableHlo.TRef.unary main_call8.v3 main_call8.v4 (broadcastInDim S64x600 ![0, 1] bcast_S1x600_S64x600_0_1),
    StableHlo.TRef.binary (StableHlo.TRef.of main_v155 : StableHlo.TRef sig ⟨S64x600, .f32⟩) main_call8.v4 main_call8.v5 subf,
    StableHlo.TRef.binary main_call8.v5 main_call8.v5 main_call8.v6 mulf,
    StableHlo.TRef.unary (StableHlo.TRef.of main_c_25 : StableHlo.TRef sig ⟨S_, .i32⟩) main_call8.v7 (sitofp .f32),
    StableHlo.TRef.nullary main_call8.cst_1 (constant S_ .f32 0x42800000#32),
    StableHlo.TRef.binary main_call8.cst_1 main_call8.v7 main_call8.v8 subf,
    StableHlo.TRef.nullary main_call8.cst_2 (constant S_ .f32 0x00000000#32),
    StableHlo.TRef.binary main_call8.v6 main_call8.cst_2 main_call8.v9 (fun x v => Host.reduceAdd x v reducesTo_S64x600_S600_d0 h_S_),
    StableHlo.TRef.unary main_call8.v8 main_call8.v10 (broadcastInDim S600 ![] bcast_S_S600),
    StableHlo.TRef.binary main_call8.v9 main_call8.v10 main_call8.v11 Host.divf,
    StableHlo.TRef.nullary main_call8.cst_3 (constant S_ .f32 0x00000000#32),
    StableHlo.TRef.binary main_call8.v8 main_call8.cst_3 main_call8.v12 (cmpf .ogt),
    StableHlo.TRef.nullary main_call8.cst_4 (constant S_ .f32 0x7FC00000#32),
    StableHlo.TRef.unary main_call8.cst_4 main_call8.call0.v0 id,
    StableHlo.TRef.unary main_call8.call0.v0 main_call8.call0.v1 (broadcastInDim S600 ![] bcast_S_S600),
    StableHlo.TRef.ternary main_call8.v12 main_call8.v11 main_call8.call0.v1 main_call8.call0.v2 (fun p a b => select (broadcastInDim S600 ![] bcast_S_S600 p) a b),
    StableHlo.unary main_v158 main_v160 (broadcastInDim S1x600 ![1] bcast_S600_S1x600_1 : (⟨S600, .f32⟩ : BufTy).Contents (Elt F) → (⟨S1x600, .f32⟩ : BufTy).Contents (Elt F)),
    StableHlo.unary main_v160 main_v161 (broadcastInDim S64x600 ![0, 1] bcast_S1x600_S64x600_0_1 : (⟨S1x600, .f32⟩ : BufTy).Contents (Elt F) → (⟨S64x600, .f32⟩ : BufTy).Contents (Elt F)),
    StableHlo.binary main_v155 main_v161 main_v162 (subf : (⟨S64x600, .f32⟩ : BufTy).Contents (Elt F) → (⟨S64x600, .f32⟩ : BufTy).Contents (Elt F) → (⟨S64x600, .f32⟩ : BufTy).Contents (Elt F)),
    StableHlo.nullary main_cst_26 (constant S_ .f32 0x3727C5AC#32),
    StableHlo.unary main_cst_26 main_v163 (broadcastInDim S600 ![] bcast_S_S600 : (⟨S_, .f32⟩ : BufTy).Contents (Elt F) → (⟨S600, .f32⟩ : BufTy).Contents (Elt F)),
    StableHlo.binary main_v159 main_v163 main_v164 (addf : (⟨S600, .f32⟩ : BufTy).Contents (Elt F) → (⟨S600, .f32⟩ : BufTy).Contents (Elt F) → (⟨S600, .f32⟩ : BufTy).Contents (Elt F)),
    StableHlo.unary main_v164 main_v165 (Host.rsqrt : (⟨S600, .f32⟩ : BufTy).Contents (Elt F) → (⟨S600, .f32⟩ : BufTy).Contents (Elt F)),
    StableHlo.unary main_v165 main_v166 (broadcastInDim S1x600 ![1] bcast_S600_S1x600_1 : (⟨S600, .f32⟩ : BufTy).Contents (Elt F) → (⟨S1x600, .f32⟩ : BufTy).Contents (Elt F)),
    StableHlo.unary main_v166 main_v167 (broadcastInDim S64x600 ![0, 1] bcast_S1x600_S64x600_0_1 : (⟨S1x600, .f32⟩ : BufTy).Contents (Elt F) → (⟨S64x600, .f32⟩ : BufTy).Contents (Elt F)),
    StableHlo.binary main_v162 main_v167 main_v168 (mulf : (⟨S64x600, .f32⟩ : BufTy).Contents (Elt F) → (⟨S64x600, .f32⟩ : BufTy).Contents (Elt F) → (⟨S64x600, .f32⟩ : BufTy).Contents (Elt F)),
    StableHlo.unary main_arg22 main_v169 (broadcastInDim S1x600 ![1] bcast_S600_S1x600_1 : (⟨S600, .f32⟩ : BufTy).Contents (Elt F) → (⟨S1x600, .f32⟩ : BufTy).Contents (Elt F)),
    StableHlo.unary main_v169 main_v170 (broadcastInDim S64x600 ![0, 1] bcast_S1x600_S64x600_0_1 : (⟨S1x600, .f32⟩ : BufTy).Contents (Elt F) → (⟨S64x600, .f32⟩ : BufTy).Contents (Elt F)),
    StableHlo.binary main_v168 main_v170 main_v171 (mulf : (⟨S64x600, .f32⟩ : BufTy).Contents (Elt F) → (⟨S64x600, .f32⟩ : BufTy).Contents (Elt F) → (⟨S64x600, .f32⟩ : BufTy).Contents (Elt F)),
    StableHlo.unary main_arg23 main_v172 (broadcastInDim S1x600 ![1] bcast_S600_S1x600_1 : (⟨S600, .f32⟩ : BufTy).Contents (Elt F) → (⟨S1x600, .f32⟩ : BufTy).Contents (Elt F)),
    StableHlo.unary main_v172 main_v173 (broadcastInDim S64x600 ![0, 1] bcast_S1x600_S64x600_0_1 : (⟨S1x600, .f32⟩ : BufTy).Contents (Elt F) → (⟨S64x600, .f32⟩ : BufTy).Contents (Elt F)),
    StableHlo.binary main_v171 main_v173 main_v174 (addf : (⟨S64x600, .f32⟩ : BufTy).Contents (Elt F) → (⟨S64x600, .f32⟩ : BufTy).Contents (Elt F) → (⟨S64x600, .f32⟩ : BufTy).Contents (Elt F)),
    StableHlo.TRef.nullary main_call9.cst (constant S_ .f32 0x00000000#32),
    StableHlo.TRef.unary main_call9.cst main_call9.v0 (broadcastInDim S64x600 ![] bcast_S_S64x600),
    StableHlo.TRef.binary (StableHlo.TRef.of main_v174 : StableHlo.TRef sig ⟨S64x600, .f32⟩) main_call9.v0 main_call9.v1 maximumf,
    StableHlo.binary main_v175 main_arg24 main_v176 ((fun l r => Host.dotGeneral dot_S64x600_S600x300_S64x300_1_0_0_1_n_n none l r) : (⟨S64x600, .f32⟩ : BufTy).Contents (Elt F) → (⟨S600x300, .f32⟩ : BufTy).Contents (Elt F) → (⟨S64x300, .f32⟩ : BufTy).Contents (Elt F)),
    StableHlo.unary main_arg25 main_v177 (broadcastInDim S1x300 ![1] bcast_S300_S1x300_1 : (⟨S300, .f32⟩ : BufTy).Contents (Elt F) → (⟨S1x300, .f32⟩ : BufTy).Contents (Elt F)),
    StableHlo.unary main_v177 main_v178 (broadcastInDim S64x300 ![0, 1] bcast_S1x300_S64x300_0_1 : (⟨S1x300, .f32⟩ : BufTy).Contents (Elt F) → (⟨S64x300, .f32⟩ : BufTy).Contents (Elt F)),
    StableHlo.binary main_v176 main_v178 main_v179 (addf : (⟨S64x300, .f32⟩ : BufTy).Contents (Elt F) → (⟨S64x300, .f32⟩ : BufTy).Contents (Elt F) → (⟨S64x300, .f32⟩ : BufTy).Contents (Elt F)),
    StableHlo.nullary main_cst_27 (constant S_ .f32 0x00000000#32),
    StableHlo.binary main_v179 main_cst_27 main_v180 ((fun x v => Host.reduceAdd x v reducesTo_S64x300_S300_d0 h_S_) : (⟨S64x300, .f32⟩ : BufTy).Contents (Elt F) → (⟨S_, .f32⟩ : BufTy).Contents (Elt F) → (⟨S300, .f32⟩ : BufTy).Contents (Elt F)),
    StableHlo.nullary main_cst_28 (constant S_ .f32 0x42800000#32),
    StableHlo.unary main_cst_28 main_v181 (broadcastInDim S300 ![] bcast_S_S300 : (⟨S_, .f32⟩ : BufTy).Contents (Elt F) → (⟨S300, .f32⟩ : BufTy).Contents (Elt F)),
    StableHlo.binary main_v180 main_v181 main_v182 (Host.divf : (⟨S300, .f32⟩ : BufTy).Contents (Elt F) → (⟨S300, .f32⟩ : BufTy).Contents (Elt F) → (⟨S300, .f32⟩ : BufTy).Contents (Elt F)),
    StableHlo.nullary main_c_29 (constantI S_ 32 0#32) ]

/-- The buffers those operations write. -/
abbrev ops8_W : List (Ref sig .tc) :=
  [main_v155, main_cst_23, main_v156, main_cst_24, main_v157, main_v158, main_c_25, main_call8_cst, main_call8_v0, main_call8_v1, main_call8_cst_0, main_call8_v2, main_call8_v3, main_call8_v4, main_call8_v5, main_call8_v6, main_call8_v7, main_call8_cst_1, main_call8_v8, main_call8_cst_2, main_call8_v9, main_call8_v10, main_call8_v11, main_call8_cst_3, main_call8_v12, main_call8_cst_4, main_call8_call0_v0, main_call8_call0_v1, main_v159, main_v160, main_v161, main_v162, main_cst_26, main_v163, main_v164, main_v165, main_v166, main_v167, main_v168, main_v169, main_v170, main_v171, main_v172, main_v173, main_v174, main_call9_cst, main_call9_v0, main_v175, main_v176, main_v177, main_v178, main_v179, main_cst_27, main_v180, main_cst_28, main_v181, main_v182, main_c_29]

set_option maxRecDepth 8192 in
theorem ops8_sub : (ops8 : List (HloOp τ sig (Elt F))).Forall fun op => op.bufs ⊆ tcRefs τ sig :=
  ⟨binary_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., nullary_bufs_sub .., binary_bufs_sub .., nullary_bufs_sub .., unary_bufs_sub .., binary_bufs_sub .., nullary_bufs_sub ..⟩

set_option maxRecDepth 8192 in
theorem ops8_writes : (ops8 : List (HloOp τ sig (Elt F))).Forall fun op =>
    op.writes ⊆ (ops8_W.map (Proc.devRef (τ := τ) .tc)).toFinset := by
  simp only [List.Forall]
  exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

set_option maxRecDepth 8192 in
/-- Every operation determines its results. -/
theorem ops8_fresh : ∀ op ∈ (ops8 : List (HloOp τ sig (Elt F))), op.fresh = ∅ := by
  intro _ h; (repeat (cases h with | head => rfl | tail _ h => ?_)); exact nomatch h

set_option maxRecDepth 8192 in
/-- None of them writes an argument of @main. -/
theorem ops8_keepArgs : ∀ r ∈ argRefs, r ∉ ops8_W := by decide

/-- The reference's operations 331 … 378 of 1028 (in window main_part3), a call's body listed
    at the call over the call's buffer record. -/
abbrev ops9 : List (HloOp τ sig (Elt F)) :=
  [ StableHlo.TRef.nullary main_call10.cst (constant S_ .f32 0x00000000#32),
    StableHlo.TRef.binary (StableHlo.TRef.of main_v179 : StableHlo.TRef sig ⟨S64x300, .f32⟩) main_call10.cst main_call10.v0 (fun x v => Host.reduceAdd x v reducesTo_S64x300_S300_d0 h_S_),
    StableHlo.TRef.unary main_call10.v0 main_call10.v1 (broadcastInDim S1x300 ![1] bcast_S300_S1x300_1),
    StableHlo.TRef.nullary main_call10.cst_0 (constant S_ .f32 0x42800000#32),
    StableHlo.TRef.unary main_call10.cst_0 main_call10.v2 (broadcastInDim S1x300 ![] bcast_S_S1x300),
    StableHlo.TRef.binary main_call10.v1 main_call10.v2 main_call10.v3 Host.divf,
    StableHlo.TRef.unary main_call10.v3 main_call10.v4 (broadcastInDim S64x300 ![0, 1] bcast_S1x300_S64x300_0_1),
    StableHlo.TRef.binary (StableHlo.TRef.of main_v179 : StableHlo.TRef sig ⟨S64x300, .f32⟩) main_call10.v4 main_call10.v5 subf,
    StableHlo.TRef.binary main_call10.v5 main_call10.v5 main_call10.v6 mulf,
    StableHlo.TRef.unary (StableHlo.TRef.of main_c_29 : StableHlo.TRef sig ⟨S_, .i32⟩) main_call10.v7 (sitofp .f32),
    StableHlo.TRef.nullary main_call10.cst_1 (constant S_ .f32 0x42800000#32),
    StableHlo.TRef.binary main_call10.cst_1 main_call10.v7 main_call10.v8 subf,
    StableHlo.TRef.nullary main_call10.cst_2 (constant S_ .f32 0x00000000#32),
    StableHlo.TRef.binary main_call10.v6 main_call10.cst_2 main_call10.v9 (fun x v => Host.reduceAdd x v reducesTo_S64x300_S300_d0 h_S_),
    StableHlo.TRef.unary main_call10.v8 main_call10.v10 (broadcastInDim S300 ![] bcast_S_S300),
    StableHlo.TRef.binary main_call10.v9 main_call10.v10 main_call10.v11 Host.divf,
    StableHlo.TRef.nullary main_call10.cst_3 (constant S_ .f32 0x00000000#32),
    StableHlo.TRef.binary main_call10.v8 main_call10.cst_3 main_call10.v12 (cmpf .ogt),
    StableHlo.TRef.nullary main_call10.cst_4 (constant S_ .f32 0x7FC00000#32),
    StableHlo.TRef.unary main_call10.cst_4 main_call10.call0.v0 id,
    StableHlo.TRef.unary main_call10.call0.v0 main_call10.call0.v1 (broadcastInDim S300 ![] bcast_S_S300),
    StableHlo.TRef.ternary main_call10.v12 main_call10.v11 main_call10.call0.v1 main_call10.call0.v2 (fun p a b => select (broadcastInDim S300 ![] bcast_S_S300 p) a b),
    StableHlo.unary main_v182 main_v184 (broadcastInDim S1x300 ![1] bcast_S300_S1x300_1 : (⟨S300, .f32⟩ : BufTy).Contents (Elt F) → (⟨S1x300, .f32⟩ : BufTy).Contents (Elt F)),
    StableHlo.unary main_v184 main_v185 (broadcastInDim S64x300 ![0, 1] bcast_S1x300_S64x300_0_1 : (⟨S1x300, .f32⟩ : BufTy).Contents (Elt F) → (⟨S64x300, .f32⟩ : BufTy).Contents (Elt F)),
    StableHlo.binary main_v179 main_v185 main_v186 (subf : (⟨S64x300, .f32⟩ : BufTy).Contents (Elt F) → (⟨S64x300, .f32⟩ : BufTy).Contents (Elt F) → (⟨S64x300, .f32⟩ : BufTy).Contents (Elt F)),
    StableHlo.nullary main_cst_30 (constant S_ .f32 0x3727C5AC#32),
    StableHlo.unary main_cst_30 main_v187 (broadcastInDim S300 ![] bcast_S_S300 : (⟨S_, .f32⟩ : BufTy).Contents (Elt F) → (⟨S300, .f32⟩ : BufTy).Contents (Elt F)),
    StableHlo.binary main_v183 main_v187 main_v188 (addf : (⟨S300, .f32⟩ : BufTy).Contents (Elt F) → (⟨S300, .f32⟩ : BufTy).Contents (Elt F) → (⟨S300, .f32⟩ : BufTy).Contents (Elt F)),
    StableHlo.unary main_v188 main_v189 (Host.rsqrt : (⟨S300, .f32⟩ : BufTy).Contents (Elt F) → (⟨S300, .f32⟩ : BufTy).Contents (Elt F)),
    StableHlo.unary main_v189 main_v190 (broadcastInDim S1x300 ![1] bcast_S300_S1x300_1 : (⟨S300, .f32⟩ : BufTy).Contents (Elt F) → (⟨S1x300, .f32⟩ : BufTy).Contents (Elt F)),
    StableHlo.unary main_v190 main_v191 (broadcastInDim S64x300 ![0, 1] bcast_S1x300_S64x300_0_1 : (⟨S1x300, .f32⟩ : BufTy).Contents (Elt F) → (⟨S64x300, .f32⟩ : BufTy).Contents (Elt F)),
    StableHlo.binary main_v186 main_v191 main_v192 (mulf : (⟨S64x300, .f32⟩ : BufTy).Contents (Elt F) → (⟨S64x300, .f32⟩ : BufTy).Contents (Elt F) → (⟨S64x300, .f32⟩ : BufTy).Contents (Elt F)),
    StableHlo.unary main_arg26 main_v193 (broadcastInDim S1x300 ![1] bcast_S300_S1x300_1 : (⟨S300, .f32⟩ : BufTy).Contents (Elt F) → (⟨S1x300, .f32⟩ : BufTy).Contents (Elt F)),
    StableHlo.unary main_v193 main_v194 (broadcastInDim S64x300 ![0, 1] bcast_S1x300_S64x300_0_1 : (⟨S1x300, .f32⟩ : BufTy).Contents (Elt F) → (⟨S64x300, .f32⟩ : BufTy).Contents (Elt F)),
    StableHlo.binary main_v192 main_v194 main_v195 (mulf : (⟨S64x300, .f32⟩ : BufTy).Contents (Elt F) → (⟨S64x300, .f32⟩ : BufTy).Contents (Elt F) → (⟨S64x300, .f32⟩ : BufTy).Contents (Elt F)),
    StableHlo.unary main_arg27 main_v196 (broadcastInDim S1x300 ![1] bcast_S300_S1x300_1 : (⟨S300, .f32⟩ : BufTy).Contents (Elt F) → (⟨S1x300, .f32⟩ : BufTy).Contents (Elt F)),
    StableHlo.unary main_v196 main_v197 (broadcastInDim S64x300 ![0, 1] bcast_S1x300_S64x300_0_1 : (⟨S1x300, .f32⟩ : BufTy).Contents (Elt F) → (⟨S64x300, .f32⟩ : BufTy).Contents (Elt F)),
    StableHlo.binary main_v195 main_v197 main_v198 (addf : (⟨S64x300, .f32⟩ : BufTy).Contents (Elt F) → (⟨S64x300, .f32⟩ : BufTy).Contents (Elt F) → (⟨S64x300, .f32⟩ : BufTy).Contents (Elt F)),
    StableHlo.TRef.nullary main_call11.cst (constant S_ .f32 0x00000000#32),
    StableHlo.TRef.unary main_call11.cst main_call11.v0 (broadcastInDim S64x300 ![] bcast_S_S64x300),
    StableHlo.TRef.binary (StableHlo.TRef.of main_v198 : StableHlo.TRef sig ⟨S64x300, .f32⟩) main_call11.v0 main_call11.v1 maximumf,
    StableHlo.nullary main_c_31 (constantI S_ 32 0#32),
    StableHlo.unary main_c_31 main_v200 (broadcastInDim S10000 ![] bcast_S_S10000 : (⟨S_, .i32⟩ : BufTy).Contents (Elt F) → (⟨S10000, .i32⟩ : BufTy).Contents (Elt F)),
    StableHlo.binary main_arg2 main_v200 main_v201 (cmpi .slt : (⟨S10000, .i32⟩ : BufTy).Contents (Elt F) → (⟨S10000, .i32⟩ : BufTy).Contents (Elt F) → (⟨S10000, .i1⟩ : BufTy).Contents (Elt F)),
    StableHlo.nullary main_c_32 (constantI S_ 32 64#32),
    StableHlo.unary main_c_32 main_v202 (broadcastInDim S10000 ![] bcast_S_S10000 : (⟨S_, .i32⟩ : BufTy).Contents (Elt F) → (⟨S10000, .i32⟩ : BufTy).Contents (Elt F)),
    StableHlo.binary main_arg2 main_v202 main_v203 (addi : (⟨S10000, .i32⟩ : BufTy).Contents (Elt F) → (⟨S10000, .i32⟩ : BufTy).Contents (Elt F) → (⟨S10000, .i32⟩ : BufTy).Contents (Elt F)),
    StableHlo.ternary main_v201 main_v203 main_arg2 main_v204 (select : (⟨S10000, .i1⟩ : BufTy).Contents (Elt F) → (⟨S10000, .i32⟩ : BufTy).Contents (Elt F) → (⟨S10000, .i32⟩ : BufTy).Contents (Elt F) → (⟨S10000, .i32⟩ : BufTy).Contents (Elt F)) ]

/-- The buffers those operations write. -/
abbrev ops9_W : List (Ref sig .tc) :=
  [main_call10_cst, main_call10_v0, main_call10_v1, main_call10_cst_0, main_call10_v2, main_call10_v3, main_call10_v4, main_call10_v5, main_call10_v6, main_call10_v7, main_call10_cst_1, main_call10_v8, main_call10_cst_2, main_call10_v9, main_call10_v10, main_call10_v11, main_call10_cst_3, main_call10_v12, main_call10_cst_4, main_call10_call0_v0, main_call10_call0_v1, main_v183, main_v184, main_v185, main_v186, main_cst_30, main_v187, main_v188, main_v189, main_v190, main_v191, main_v192, main_v193, main_v194, main_v195, main_v196, main_v197, main_v198, main_call11_cst, main_call11_v0, main_v199, main_c_31, main_v200, main_v201, main_c_32, main_v202, main_v203, main_v204]

set_option maxRecDepth 8192 in
theorem ops9_sub : (ops9 : List (HloOp τ sig (Elt F))).Forall fun op => op.bufs ⊆ tcRefs τ sig :=
  ⟨nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., ternary_bufs_sub ..⟩

set_option maxRecDepth 8192 in
theorem ops9_writes : (ops9 : List (HloOp τ sig (Elt F))).Forall fun op =>
    op.writes ⊆ (ops9_W.map (Proc.devRef (τ := τ) .tc)).toFinset := by
  simp only [List.Forall]
  exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

set_option maxRecDepth 8192 in
/-- Every operation determines its results. -/
theorem ops9_fresh : ∀ op ∈ (ops9 : List (HloOp τ sig (Elt F))), op.fresh = ∅ := by
  intro _ h; (repeat (cases h with | head => rfl | tail _ h => ?_)); exact nomatch h

set_option maxRecDepth 8192 in
/-- None of them writes an argument of @main. -/
theorem ops9_keepArgs : ∀ r ∈ argRefs, r ∉ ops9_W := by decide

set_option maxRecDepth 16384 in
set_option maxHeartbeats 4000000 in
/-- The window is the straight line of its operations: the called functions unfolded at their calls. -/
theorem main_part3_eq (c : Dev nD) : main_part3 (F := F) c = seq (ops8 ++ (ops9)) := by
  first
  | rfl
  | (simp only [main_part3, fn_relu_4.body, fn_relu_6.body, fn_var_3.body, fn_var_5.body, fn_where.body, fn_where_1.body, List.cons_append, List.nil_append, seq, bind_assoc, pure_bind]; try rfl)

end Cert.ReferenceIdeal.RefRun

end
-- ==== Proof.Ref.OpsW4.lean ====
import proofs.«411400_j9251359555630_1_alg».proof.ReferenceIdeal
import Idealize.ShloMosaic.Lib.StableHlo.Run
import proofs.«411400_j9251359555630_1_alg».proof.Proof.Ref.Common

noncomputable section

namespace Cert.ReferenceIdeal.RefRun

open Cert.ReferenceIdeal Idealize.ShloMosaic Idealize.ShloMosaic.TcCoe Idealize.SL.Sem Idealize.ShloMosaic.StableHlo
open Cert.ReferenceIdeal.Facts₀ Cert.ReferenceIdeal.Facts

variable {F : FTy → Type} [FloatOps F] [Facts]

/-- The reference's operations 379 … 405 of 1028 (in window main_part4), a call's body listed
    at the call over the call's buffer record. -/
abbrev ops10 : List (HloOp τ sig (Elt F)) :=
  [ StableHlo.unary main_v204 main_v205 (broadcastInDim S10000x1 ![0] bcast_S10000_S10000x1_0 : (⟨S10000, .i32⟩ : BufTy).Contents (Elt F) → (⟨S10000x1, .i32⟩ : BufTy).Contents (Elt F)),
    StableHlo.binary main_v199 main_v205 main_v206 ((fun x i => Host.gather gather_S64x300_S10000x1_S10000x300_1_0_n_n_0_1_1300 x i) : (⟨S64x300, .f32⟩ : BufTy).Contents (Elt F) → (⟨S10000x1, .i32⟩ : BufTy).Contents (Elt F) → (⟨S10000x300, .f32⟩ : BufTy).Contents (Elt F)),
    StableHlo.binary main_v147 main_v206 main_v207 (addf : (⟨S10000x300, .f32⟩ : BufTy).Contents (Elt F) → (⟨S10000x300, .f32⟩ : BufTy).Contents (Elt F) → (⟨S10000x300, .f32⟩ : BufTy).Contents (Elt F)),
    StableHlo.unary main_arg10 main_v208 ((extractStridedSlice S1x300x600 ![1, 0, 0] · slices_S4x300x600_S1x300x600_1_0_0) : (⟨S4x300x600, .f32⟩ : BufTy).Contents (Elt F) → (⟨S1x300x600, .f32⟩ : BufTy).Contents (Elt F)),
    StableHlo.reshape main_v208 main_v209 rfl shapeCasts_S1x300x600_S300x600,
    StableHlo.unary main_arg11 main_v210 ((extractStridedSlice S1x600 ![1, 0] · slices_S4x600_S1x600_1_0) : (⟨S4x600, .f32⟩ : BufTy).Contents (Elt F) → (⟨S1x600, .f32⟩ : BufTy).Contents (Elt F)),
    StableHlo.reshape main_v210 main_v211 rfl shapeCasts_S1x600_S600,
    StableHlo.unary main_arg12 main_v212 ((extractStridedSlice S1x600 ![1, 0] · slices_S4x600_S1x600_1_0) : (⟨S4x600, .f32⟩ : BufTy).Contents (Elt F) → (⟨S1x600, .f32⟩ : BufTy).Contents (Elt F)),
    StableHlo.reshape main_v212 main_v213 rfl shapeCasts_S1x600_S600,
    StableHlo.unary main_arg13 main_v214 ((extractStridedSlice S1x600 ![1, 0] · slices_S4x600_S1x600_1_0) : (⟨S4x600, .f32⟩ : BufTy).Contents (Elt F) → (⟨S1x600, .f32⟩ : BufTy).Contents (Elt F)),
    StableHlo.reshape main_v214 main_v215 rfl shapeCasts_S1x600_S600,
    StableHlo.unary main_arg14 main_v216 ((extractStridedSlice S1x600x300 ![1, 0, 0] · slices_S4x600x300_S1x600x300_1_0_0) : (⟨S4x600x300, .f32⟩ : BufTy).Contents (Elt F) → (⟨S1x600x300, .f32⟩ : BufTy).Contents (Elt F)),
    StableHlo.reshape main_v216 main_v217 rfl shapeCasts_S1x600x300_S600x300,
    StableHlo.unary main_arg15 main_v218 ((extractStridedSlice S1x300 ![1, 0] · slices_S4x300_S1x300_1_0) : (⟨S4x300, .f32⟩ : BufTy).Contents (Elt F) → (⟨S1x300, .f32⟩ : BufTy).Contents (Elt F)),
    StableHlo.reshape main_v218 main_v219 rfl shapeCasts_S1x300_S300,
    StableHlo.nullary main_c_33 (constantI S_ 32 0#32),
    StableHlo.unary main_c_33 main_v220 (broadcastInDim S160000 ![] bcast_S_S160000 : (⟨S_, .i32⟩ : BufTy).Contents (Elt F) → (⟨S160000, .i32⟩ : BufTy).Contents (Elt F)),
    StableHlo.binary main_v1 main_v220 main_v221 (cmpi .slt : (⟨S160000, .i32⟩ : BufTy).Contents (Elt F) → (⟨S160000, .i32⟩ : BufTy).Contents (Elt F) → (⟨S160000, .i1⟩ : BufTy).Contents (Elt F)),
    StableHlo.nullary main_c_34 (constantI S_ 32 10000#32),
    StableHlo.unary main_c_34 main_v222 (broadcastInDim S160000 ![] bcast_S_S160000 : (⟨S_, .i32⟩ : BufTy).Contents (Elt F) → (⟨S160000, .i32⟩ : BufTy).Contents (Elt F)),
    StableHlo.binary main_v1 main_v222 main_v223 (addi : (⟨S160000, .i32⟩ : BufTy).Contents (Elt F) → (⟨S160000, .i32⟩ : BufTy).Contents (Elt F) → (⟨S160000, .i32⟩ : BufTy).Contents (Elt F)),
    StableHlo.ternary main_v221 main_v223 main_v1 main_v224 (select : (⟨S160000, .i1⟩ : BufTy).Contents (Elt F) → (⟨S160000, .i32⟩ : BufTy).Contents (Elt F) → (⟨S160000, .i32⟩ : BufTy).Contents (Elt F) → (⟨S160000, .i32⟩ : BufTy).Contents (Elt F)),
    StableHlo.unary main_v224 main_v225 (broadcastInDim S160000x1 ![0] bcast_S160000_S160000x1_0 : (⟨S160000, .i32⟩ : BufTy).Contents (Elt F) → (⟨S160000x1, .i32⟩ : BufTy).Contents (Elt F)),
    StableHlo.binary main_v207 main_v225 main_v226 ((fun x i => Host.gather gather_S10000x300_S160000x1_S160000x300_1_0_n_n_0_1_1300 x i) : (⟨S10000x300, .f32⟩ : BufTy).Contents (Elt F) → (⟨S160000x1, .i32⟩ : BufTy).Contents (Elt F) → (⟨S160000x300, .f32⟩ : BufTy).Contents (Elt F)),
    StableHlo.nullary main_cst_35 (constant S_ .f32 0x00000000#32),
    StableHlo.unary main_cst_35 main_v227 (broadcastInDim S10000x300 ![] bcast_S_S10000x300 : (⟨S_, .f32⟩ : BufTy).Contents (Elt F) → (⟨S10000x300, .f32⟩ : BufTy).Contents (Elt F)),
    StableHlo.unary main_v3 main_v228 (broadcastInDim S160000x1 ![0] bcast_S160000_S160000x1_0 : (⟨S160000, .i32⟩ : BufTy).Contents (Elt F) → (⟨S160000x1, .i32⟩ : BufTy).Contents (Elt F)) ]

/-- The buffers those operations write. -/
abbrev ops10_W : List (Ref sig .tc) :=
  [main_v205, main_v206, main_v207, main_v208, main_v209, main_v210, main_v211, main_v212, main_v213, main_v214, main_v215, main_v216, main_v217, main_v218, main_v219, main_c_33, main_v220, main_v221, main_c_34, main_v222, main_v223, main_v224, main_v225, main_v226, main_cst_35, main_v227, main_v228]

set_option maxRecDepth 8192 in
theorem ops10_sub : (ops10 : List (HloOp τ sig (Elt F))).Forall fun op => op.bufs ⊆ tcRefs τ sig :=
  ⟨unary_bufs_sub .., binary_bufs_sub .., binary_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub ..⟩

set_option maxRecDepth 8192 in
theorem ops10_writes : (ops10 : List (HloOp τ sig (Elt F))).Forall fun op =>
    op.writes ⊆ (ops10_W.map (Proc.devRef (τ := τ) .tc)).toFinset := by
  simp only [List.Forall]
  exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

set_option maxRecDepth 8192 in
/-- Every operation determines its results. -/
theorem ops10_fresh : ∀ op ∈ (ops10 : List (HloOp τ sig (Elt F))), op.fresh = ∅ := by
  intro _ h; (repeat (cases h with | head => rfl | tail _ h => ?_)); exact nomatch h

set_option maxRecDepth 8192 in
/-- None of them writes an argument of @main. -/
theorem ops10_keepArgs : ∀ r ∈ argRefs, r ∉ ops10_W := by decide

/-- The reference's operations 406 … 461 of 1028 (in window main_part4), a call's body listed
    at the call over the call's buffer record. -/
abbrev ops11 : List (HloOp τ sig (Elt F)) :=
  [ StableHlo.ternary main_v227 main_v228 main_v226 main_v229 ((fun x i u => Host.scatterAdd scatter_S10000x300_S160000x1_S160000x300_1_0_0_1 x i u) : (⟨S10000x300, .f32⟩ : BufTy).Contents (Elt F) → (⟨S160000x1, .i32⟩ : BufTy).Contents (Elt F) → (⟨S160000x300, .f32⟩ : BufTy).Contents (Elt F) → (⟨S10000x300, .f32⟩ : BufTy).Contents (Elt F)),
    StableHlo.binary main_v207 main_v229 main_v230 (addf : (⟨S10000x300, .f32⟩ : BufTy).Contents (Elt F) → (⟨S10000x300, .f32⟩ : BufTy).Contents (Elt F) → (⟨S10000x300, .f32⟩ : BufTy).Contents (Elt F)),
    StableHlo.binary main_v230 main_v209 main_v231 ((fun l r => Host.dotGeneral dot_S10000x300_S300x600_S10000x600_1_0_0_1_n_n none l r) : (⟨S10000x300, .f32⟩ : BufTy).Contents (Elt F) → (⟨S300x600, .f32⟩ : BufTy).Contents (Elt F) → (⟨S10000x600, .f32⟩ : BufTy).Contents (Elt F)),
    StableHlo.unary main_v211 main_v232 (broadcastInDim S1x600 ![1] bcast_S600_S1x600_1 : (⟨S600, .f32⟩ : BufTy).Contents (Elt F) → (⟨S1x600, .f32⟩ : BufTy).Contents (Elt F)),
    StableHlo.unary main_v232 main_v233 (broadcastInDim S10000x600 ![0, 1] bcast_S1x600_S10000x600_0_1 : (⟨S1x600, .f32⟩ : BufTy).Contents (Elt F) → (⟨S10000x600, .f32⟩ : BufTy).Contents (Elt F)),
    StableHlo.binary main_v231 main_v233 main_v234 (addf : (⟨S10000x600, .f32⟩ : BufTy).Contents (Elt F) → (⟨S10000x600, .f32⟩ : BufTy).Contents (Elt F) → (⟨S10000x600, .f32⟩ : BufTy).Contents (Elt F)),
    StableHlo.nullary main_cst_36 (constant S_ .f32 0x00000000#32),
    StableHlo.binary main_v234 main_cst_36 main_v235 ((fun x v => Host.reduceAdd x v reducesTo_S10000x600_S600_d0 h_S_) : (⟨S10000x600, .f32⟩ : BufTy).Contents (Elt F) → (⟨S_, .f32⟩ : BufTy).Contents (Elt F) → (⟨S600, .f32⟩ : BufTy).Contents (Elt F)),
    StableHlo.nullary main_cst_37 (constant S_ .f32 0x461C4000#32),
    StableHlo.unary main_cst_37 main_v236 (broadcastInDim S600 ![] bcast_S_S600 : (⟨S_, .f32⟩ : BufTy).Contents (Elt F) → (⟨S600, .f32⟩ : BufTy).Contents (Elt F)),
    StableHlo.binary main_v235 main_v236 main_v237 (Host.divf : (⟨S600, .f32⟩ : BufTy).Contents (Elt F) → (⟨S600, .f32⟩ : BufTy).Contents (Elt F) → (⟨S600, .f32⟩ : BufTy).Contents (Elt F)),
    StableHlo.nullary main_c_38 (constantI S_ 32 0#32),
    StableHlo.TRef.nullary main_call12.cst (constant S_ .f32 0x00000000#32),
    StableHlo.TRef.binary (StableHlo.TRef.of main_v234 : StableHlo.TRef sig ⟨S10000x600, .f32⟩) main_call12.cst main_call12.v0 (fun x v => Host.reduceAdd x v reducesTo_S10000x600_S600_d0 h_S_),
    StableHlo.TRef.unary main_call12.v0 main_call12.v1 (broadcastInDim S1x600 ![1] bcast_S600_S1x600_1),
    StableHlo.TRef.nullary main_call12.cst_0 (constant S_ .f32 0x461C4000#32),
    StableHlo.TRef.unary main_call12.cst_0 main_call12.v2 (broadcastInDim S1x600 ![] bcast_S_S1x600),
    StableHlo.TRef.binary main_call12.v1 main_call12.v2 main_call12.v3 Host.divf,
    StableHlo.TRef.unary main_call12.v3 main_call12.v4 (broadcastInDim S10000x600 ![0, 1] bcast_S1x600_S10000x600_0_1),
    StableHlo.TRef.binary (StableHlo.TRef.of main_v234 : StableHlo.TRef sig ⟨S10000x600, .f32⟩) main_call12.v4 main_call12.v5 subf,
    StableHlo.TRef.binary main_call12.v5 main_call12.v5 main_call12.v6 mulf,
    StableHlo.TRef.unary (StableHlo.TRef.of main_c_38 : StableHlo.TRef sig ⟨S_, .i32⟩) main_call12.v7 (sitofp .f32),
    StableHlo.TRef.nullary main_call12.cst_1 (constant S_ .f32 0x461C4000#32),
    StableHlo.TRef.binary main_call12.cst_1 main_call12.v7 main_call12.v8 subf,
    StableHlo.TRef.nullary main_call12.cst_2 (constant S_ .f32 0x00000000#32),
    StableHlo.TRef.binary main_call12.v6 main_call12.cst_2 main_call12.v9 (fun x v => Host.reduceAdd x v reducesTo_S10000x600_S600_d0 h_S_),
    StableHlo.TRef.unary main_call12.v8 main_call12.v10 (broadcastInDim S600 ![] bcast_S_S600),
    StableHlo.TRef.binary main_call12.v9 main_call12.v10 main_call12.v11 Host.divf,
    StableHlo.TRef.nullary main_call12.cst_3 (constant S_ .f32 0x00000000#32),
    StableHlo.TRef.binary main_call12.v8 main_call12.cst_3 main_call12.v12 (cmpf .ogt),
    StableHlo.TRef.nullary main_call12.cst_4 (constant S_ .f32 0x7FC00000#32),
    StableHlo.TRef.unary main_call12.cst_4 main_call12.call0.v0 id,
    StableHlo.TRef.unary main_call12.call0.v0 main_call12.call0.v1 (broadcastInDim S600 ![] bcast_S_S600),
    StableHlo.TRef.ternary main_call12.v12 main_call12.v11 main_call12.call0.v1 main_call12.call0.v2 (fun p a b => select (broadcastInDim S600 ![] bcast_S_S600 p) a b),
    StableHlo.unary main_v237 main_v239 (broadcastInDim S1x600 ![1] bcast_S600_S1x600_1 : (⟨S600, .f32⟩ : BufTy).Contents (Elt F) → (⟨S1x600, .f32⟩ : BufTy).Contents (Elt F)),
    StableHlo.unary main_v239 main_v240 (broadcastInDim S10000x600 ![0, 1] bcast_S1x600_S10000x600_0_1 : (⟨S1x600, .f32⟩ : BufTy).Contents (Elt F) → (⟨S10000x600, .f32⟩ : BufTy).Contents (Elt F)),
    StableHlo.binary main_v234 main_v240 main_v241 (subf : (⟨S10000x600, .f32⟩ : BufTy).Contents (Elt F) → (⟨S10000x600, .f32⟩ : BufTy).Contents (Elt F) → (⟨S10000x600, .f32⟩ : BufTy).Contents (Elt F)),
    StableHlo.nullary main_cst_39 (constant S_ .f32 0x3727C5AC#32),
    StableHlo.unary main_cst_39 main_v242 (broadcastInDim S600 ![] bcast_S_S600 : (⟨S_, .f32⟩ : BufTy).Contents (Elt F) → (⟨S600, .f32⟩ : BufTy).Contents (Elt F)),
    StableHlo.binary main_v238 main_v242 main_v243 (addf : (⟨S600, .f32⟩ : BufTy).Contents (Elt F) → (⟨S600, .f32⟩ : BufTy).Contents (Elt F) → (⟨S600, .f32⟩ : BufTy).Contents (Elt F)),
    StableHlo.unary main_v243 main_v244 (Host.rsqrt : (⟨S600, .f32⟩ : BufTy).Contents (Elt F) → (⟨S600, .f32⟩ : BufTy).Contents (Elt F)),
    StableHlo.unary main_v244 main_v245 (broadcastInDim S1x600 ![1] bcast_S600_S1x600_1 : (⟨S600, .f32⟩ : BufTy).Contents (Elt F) → (⟨S1x600, .f32⟩ : BufTy).Contents (Elt F)),
    StableHlo.unary main_v245 main_v246 (broadcastInDim S10000x600 ![0, 1] bcast_S1x600_S10000x600_0_1 : (⟨S1x600, .f32⟩ : BufTy).Contents (Elt F) → (⟨S10000x600, .f32⟩ : BufTy).Contents (Elt F)),
    StableHlo.binary main_v241 main_v246 main_v247 (mulf : (⟨S10000x600, .f32⟩ : BufTy).Contents (Elt F) → (⟨S10000x600, .f32⟩ : BufTy).Contents (Elt F) → (⟨S10000x600, .f32⟩ : BufTy).Contents (Elt F)),
    StableHlo.unary main_v213 main_v248 (broadcastInDim S1x600 ![1] bcast_S600_S1x600_1 : (⟨S600, .f32⟩ : BufTy).Contents (Elt F) → (⟨S1x600, .f32⟩ : BufTy).Contents (Elt F)),
    StableHlo.unary main_v248 main_v249 (broadcastInDim S10000x600 ![0, 1] bcast_S1x600_S10000x600_0_1 : (⟨S1x600, .f32⟩ : BufTy).Contents (Elt F) → (⟨S10000x600, .f32⟩ : BufTy).Contents (Elt F)),
    StableHlo.binary main_v247 main_v249 main_v250 (mulf : (⟨S10000x600, .f32⟩ : BufTy).Contents (Elt F) → (⟨S10000x600, .f32⟩ : BufTy).Contents (Elt F) → (⟨S10000x600, .f32⟩ : BufTy).Contents (Elt F)),
    StableHlo.unary main_v215 main_v251 (broadcastInDim S1x600 ![1] bcast_S600_S1x600_1 : (⟨S600, .f32⟩ : BufTy).Contents (Elt F) → (⟨S1x600, .f32⟩ : BufTy).Contents (Elt F)),
    StableHlo.unary main_v251 main_v252 (broadcastInDim S10000x600 ![0, 1] bcast_S1x600_S10000x600_0_1 : (⟨S1x600, .f32⟩ : BufTy).Contents (Elt F) → (⟨S10000x600, .f32⟩ : BufTy).Contents (Elt F)),
    StableHlo.binary main_v250 main_v252 main_v253 (addf : (⟨S10000x600, .f32⟩ : BufTy).Contents (Elt F) → (⟨S10000x600, .f32⟩ : BufTy).Contents (Elt F) → (⟨S10000x600, .f32⟩ : BufTy).Contents (Elt F)),
    StableHlo.TRef.nullary main_call13.cst (constant S_ .f32 0x00000000#32),
    StableHlo.TRef.unary main_call13.cst main_call13.v0 (broadcastInDim S10000x600 ![] bcast_S_S10000x600),
    StableHlo.TRef.binary (StableHlo.TRef.of main_v253 : StableHlo.TRef sig ⟨S10000x600, .f32⟩) main_call13.v0 main_call13.v1 maximumf,
    StableHlo.binary main_v254 main_v217 main_v255 ((fun l r => Host.dotGeneral dot_S10000x600_S600x300_S10000x300_1_0_0_1_n_n none l r) : (⟨S10000x600, .f32⟩ : BufTy).Contents (Elt F) → (⟨S600x300, .f32⟩ : BufTy).Contents (Elt F) → (⟨S10000x300, .f32⟩ : BufTy).Contents (Elt F)),
    StableHlo.unary main_v219 main_v256 (broadcastInDim S1x300 ![1] bcast_S300_S1x300_1 : (⟨S300, .f32⟩ : BufTy).Contents (Elt F) → (⟨S1x300, .f32⟩ : BufTy).Contents (Elt F)),
    StableHlo.unary main_v256 main_v257 (broadcastInDim S10000x300 ![0, 1] bcast_S1x300_S10000x300_0_1 : (⟨S1x300, .f32⟩ : BufTy).Contents (Elt F) → (⟨S10000x300, .f32⟩ : BufTy).Contents (Elt F)) ]

/-- The buffers those operations write. -/
abbrev ops11_W : List (Ref sig .tc) :=
  [main_v229, main_v230, main_v231, main_v232, main_v233, main_v234, main_cst_36, main_v235, main_cst_37, main_v236, main_v237, main_c_38, main_call12_cst, main_call12_v0, main_call12_v1, main_call12_cst_0, main_call12_v2, main_call12_v3, main_call12_v4, main_call12_v5, main_call12_v6, main_call12_v7, main_call12_cst_1, main_call12_v8, main_call12_cst_2, main_call12_v9, main_call12_v10, main_call12_v11, main_call12_cst_3, main_call12_v12, main_call12_cst_4, main_call12_call0_v0, main_call12_call0_v1, main_v238, main_v239, main_v240, main_v241, main_cst_39, main_v242, main_v243, main_v244, main_v245, main_v246, main_v247, main_v248, main_v249, main_v250, main_v251, main_v252, main_v253, main_call13_cst, main_call13_v0, main_v254, main_v255, main_v256, main_v257]

set_option maxRecDepth 8192 in
theorem ops11_sub : (ops11 : List (HloOp τ sig (Elt F))).Forall fun op => op.bufs ⊆ tcRefs τ sig :=
  ⟨ternary_bufs_sub .., binary_bufs_sub .., binary_bufs_sub .., unary_bufs_sub .., unary_bufs_sub .., binary_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., binary_bufs_sub .., unary_bufs_sub .., unary_bufs_sub ..⟩

set_option maxRecDepth 8192 in
theorem ops11_writes : (ops11 : List (HloOp τ sig (Elt F))).Forall fun op =>
    op.writes ⊆ (ops11_W.map (Proc.devRef (τ := τ) .tc)).toFinset := by
  simp only [List.Forall]
  exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

set_option maxRecDepth 8192 in
/-- Every operation determines its results. -/
theorem ops11_fresh : ∀ op ∈ (ops11 : List (HloOp τ sig (Elt F))), op.fresh = ∅ := by
  intro _ h; (repeat (cases h with | head => rfl | tail _ h => ?_)); exact nomatch h

set_option maxRecDepth 8192 in
/-- None of them writes an argument of @main. -/
theorem ops11_keepArgs : ∀ r ∈ argRefs, r ∉ ops11_W := by decide

set_option maxRecDepth 16384 in
set_option maxHeartbeats 4000000 in
/-- The window is the straight line of its operations: the called functions unfolded at their calls. -/
theorem main_part4_eq (c : Dev nD) : main_part4 (F := F) c = seq (ops10 ++ (ops11)) := by
  first
  | rfl
  | (simp only [main_part4, fn_relu.body, fn_var.body, fn_where.body, List.cons_append, List.nil_append, seq, bind_assoc, pure_bind]; try rfl)

end Cert.ReferenceIdeal.RefRun

end
-- ==== Proof.Ref.OpsW5.lean ====
import proofs.«411400_j9251359555630_1_alg».proof.ReferenceIdeal
import Idealize.ShloMosaic.Lib.StableHlo.Run
import proofs.«411400_j9251359555630_1_alg».proof.Proof.Ref.Common

noncomputable section

namespace Cert.ReferenceIdeal.RefRun

open Cert.ReferenceIdeal Idealize.ShloMosaic Idealize.ShloMosaic.TcCoe Idealize.SL.Sem Idealize.ShloMosaic.StableHlo
open Cert.ReferenceIdeal.Facts₀ Cert.ReferenceIdeal.Facts

variable {F : FTy → Type} [FloatOps F] [Facts]

/-- The reference's operations 462 … 516 of 1028 (in window main_part5), a call's body listed
    at the call over the call's buffer record. -/
abbrev ops12 : List (HloOp τ sig (Elt F)) :=
  [ StableHlo.binary main_v255 main_v257 main_v258 (addf : (⟨S10000x300, .f32⟩ : BufTy).Contents (Elt F) → (⟨S10000x300, .f32⟩ : BufTy).Contents (Elt F) → (⟨S10000x300, .f32⟩ : BufTy).Contents (Elt F)),
    StableHlo.unary main_arg18 main_v259 ((extractStridedSlice S1x300 ![1, 0] · slices_S4x300_S1x300_1_0) : (⟨S4x300, .f32⟩ : BufTy).Contents (Elt F) → (⟨S1x300, .f32⟩ : BufTy).Contents (Elt F)),
    StableHlo.reshape main_v259 main_v260 rfl shapeCasts_S1x300_S300,
    StableHlo.unary main_arg19 main_v261 ((extractStridedSlice S1x300 ![1, 0] · slices_S4x300_S1x300_1_0) : (⟨S4x300, .f32⟩ : BufTy).Contents (Elt F) → (⟨S1x300, .f32⟩ : BufTy).Contents (Elt F)),
    StableHlo.reshape main_v261 main_v262 rfl shapeCasts_S1x300_S300,
    StableHlo.nullary main_cst_40 (constant S_ .f32 0x00000000#32),
    StableHlo.binary main_v258 main_cst_40 main_v263 ((fun x v => Host.reduceAdd x v reducesTo_S10000x300_S300_d0 h_S_) : (⟨S10000x300, .f32⟩ : BufTy).Contents (Elt F) → (⟨S_, .f32⟩ : BufTy).Contents (Elt F) → (⟨S300, .f32⟩ : BufTy).Contents (Elt F)),
    StableHlo.nullary main_cst_41 (constant S_ .f32 0x461C4000#32),
    StableHlo.unary main_cst_41 main_v264 (broadcastInDim S300 ![] bcast_S_S300 : (⟨S_, .f32⟩ : BufTy).Contents (Elt F) → (⟨S300, .f32⟩ : BufTy).Contents (Elt F)),
    StableHlo.binary main_v263 main_v264 main_v265 (Host.divf : (⟨S300, .f32⟩ : BufTy).Contents (Elt F) → (⟨S300, .f32⟩ : BufTy).Contents (Elt F) → (⟨S300, .f32⟩ : BufTy).Contents (Elt F)),
    StableHlo.nullary main_c_42 (constantI S_ 32 0#32),
    StableHlo.TRef.nullary main_call14.cst (constant S_ .f32 0x00000000#32),
    StableHlo.TRef.binary (StableHlo.TRef.of main_v258 : StableHlo.TRef sig ⟨S10000x300, .f32⟩) main_call14.cst main_call14.v0 (fun x v => Host.reduceAdd x v reducesTo_S10000x300_S300_d0 h_S_),
    StableHlo.TRef.unary main_call14.v0 main_call14.v1 (broadcastInDim S1x300 ![1] bcast_S300_S1x300_1),
    StableHlo.TRef.nullary main_call14.cst_0 (constant S_ .f32 0x461C4000#32),
    StableHlo.TRef.unary main_call14.cst_0 main_call14.v2 (broadcastInDim S1x300 ![] bcast_S_S1x300),
    StableHlo.TRef.binary main_call14.v1 main_call14.v2 main_call14.v3 Host.divf,
    StableHlo.TRef.unary main_call14.v3 main_call14.v4 (broadcastInDim S10000x300 ![0, 1] bcast_S1x300_S10000x300_0_1),
    StableHlo.TRef.binary (StableHlo.TRef.of main_v258 : StableHlo.TRef sig ⟨S10000x300, .f32⟩) main_call14.v4 main_call14.v5 subf,
    StableHlo.TRef.binary main_call14.v5 main_call14.v5 main_call14.v6 mulf,
    StableHlo.TRef.unary (StableHlo.TRef.of main_c_42 : StableHlo.TRef sig ⟨S_, .i32⟩) main_call14.v7 (sitofp .f32),
    StableHlo.TRef.nullary main_call14.cst_1 (constant S_ .f32 0x461C4000#32),
    StableHlo.TRef.binary main_call14.cst_1 main_call14.v7 main_call14.v8 subf,
    StableHlo.TRef.nullary main_call14.cst_2 (constant S_ .f32 0x00000000#32),
    StableHlo.TRef.binary main_call14.v6 main_call14.cst_2 main_call14.v9 (fun x v => Host.reduceAdd x v reducesTo_S10000x300_S300_d0 h_S_),
    StableHlo.TRef.unary main_call14.v8 main_call14.v10 (broadcastInDim S300 ![] bcast_S_S300),
    StableHlo.TRef.binary main_call14.v9 main_call14.v10 main_call14.v11 Host.divf,
    StableHlo.TRef.nullary main_call14.cst_3 (constant S_ .f32 0x00000000#32),
    StableHlo.TRef.binary main_call14.v8 main_call14.cst_3 main_call14.v12 (cmpf .ogt),
    StableHlo.TRef.nullary main_call14.cst_4 (constant S_ .f32 0x7FC00000#32),
    StableHlo.TRef.unary main_call14.cst_4 main_call14.call0.v0 id,
    StableHlo.TRef.unary main_call14.call0.v0 main_call14.call0.v1 (broadcastInDim S300 ![] bcast_S_S300),
    StableHlo.TRef.ternary main_call14.v12 main_call14.v11 main_call14.call0.v1 main_call14.call0.v2 (fun p a b => select (broadcastInDim S300 ![] bcast_S_S300 p) a b),
    StableHlo.unary main_v265 main_v267 (broadcastInDim S1x300 ![1] bcast_S300_S1x300_1 : (⟨S300, .f32⟩ : BufTy).Contents (Elt F) → (⟨S1x300, .f32⟩ : BufTy).Contents (Elt F)),
    StableHlo.unary main_v267 main_v268 (broadcastInDim S10000x300 ![0, 1] bcast_S1x300_S10000x300_0_1 : (⟨S1x300, .f32⟩ : BufTy).Contents (Elt F) → (⟨S10000x300, .f32⟩ : BufTy).Contents (Elt F)),
    StableHlo.binary main_v258 main_v268 main_v269 (subf : (⟨S10000x300, .f32⟩ : BufTy).Contents (Elt F) → (⟨S10000x300, .f32⟩ : BufTy).Contents (Elt F) → (⟨S10000x300, .f32⟩ : BufTy).Contents (Elt F)),
    StableHlo.nullary main_cst_43 (constant S_ .f32 0x3727C5AC#32),
    StableHlo.unary main_cst_43 main_v270 (broadcastInDim S300 ![] bcast_S_S300 : (⟨S_, .f32⟩ : BufTy).Contents (Elt F) → (⟨S300, .f32⟩ : BufTy).Contents (Elt F)),
    StableHlo.binary main_v266 main_v270 main_v271 (addf : (⟨S300, .f32⟩ : BufTy).Contents (Elt F) → (⟨S300, .f32⟩ : BufTy).Contents (Elt F) → (⟨S300, .f32⟩ : BufTy).Contents (Elt F)),
    StableHlo.unary main_v271 main_v272 (Host.rsqrt : (⟨S300, .f32⟩ : BufTy).Contents (Elt F) → (⟨S300, .f32⟩ : BufTy).Contents (Elt F)),
    StableHlo.unary main_v272 main_v273 (broadcastInDim S1x300 ![1] bcast_S300_S1x300_1 : (⟨S300, .f32⟩ : BufTy).Contents (Elt F) → (⟨S1x300, .f32⟩ : BufTy).Contents (Elt F)),
    StableHlo.unary main_v273 main_v274 (broadcastInDim S10000x300 ![0, 1] bcast_S1x300_S10000x300_0_1 : (⟨S1x300, .f32⟩ : BufTy).Contents (Elt F) → (⟨S10000x300, .f32⟩ : BufTy).Contents (Elt F)),
    StableHlo.binary main_v269 main_v274 main_v275 (mulf : (⟨S10000x300, .f32⟩ : BufTy).Contents (Elt F) → (⟨S10000x300, .f32⟩ : BufTy).Contents (Elt F) → (⟨S10000x300, .f32⟩ : BufTy).Contents (Elt F)),
    StableHlo.unary main_v260 main_v276 (broadcastInDim S1x300 ![1] bcast_S300_S1x300_1 : (⟨S300, .f32⟩ : BufTy).Contents (Elt F) → (⟨S1x300, .f32⟩ : BufTy).Contents (Elt F)),
    StableHlo.unary main_v276 main_v277 (broadcastInDim S10000x300 ![0, 1] bcast_S1x300_S10000x300_0_1 : (⟨S1x300, .f32⟩ : BufTy).Contents (Elt F) → (⟨S10000x300, .f32⟩ : BufTy).Contents (Elt F)),
    StableHlo.binary main_v275 main_v277 main_v278 (mulf : (⟨S10000x300, .f32⟩ : BufTy).Contents (Elt F) → (⟨S10000x300, .f32⟩ : BufTy).Contents (Elt F) → (⟨S10000x300, .f32⟩ : BufTy).Contents (Elt F)),
    StableHlo.unary main_v262 main_v279 (broadcastInDim S1x300 ![1] bcast_S300_S1x300_1 : (⟨S300, .f32⟩ : BufTy).Contents (Elt F) → (⟨S1x300, .f32⟩ : BufTy).Contents (Elt F)),
    StableHlo.unary main_v279 main_v280 (broadcastInDim S10000x300 ![0, 1] bcast_S1x300_S10000x300_0_1 : (⟨S1x300, .f32⟩ : BufTy).Contents (Elt F) → (⟨S10000x300, .f32⟩ : BufTy).Contents (Elt F)),
    StableHlo.binary main_v278 main_v280 main_v281 (addf : (⟨S10000x300, .f32⟩ : BufTy).Contents (Elt F) → (⟨S10000x300, .f32⟩ : BufTy).Contents (Elt F) → (⟨S10000x300, .f32⟩ : BufTy).Contents (Elt F)),
    StableHlo.TRef.nullary main_call15.cst (constant S_ .f32 0x00000000#32),
    StableHlo.TRef.unary main_call15.cst main_call15.v0 (broadcastInDim S10000x300 ![] bcast_S_S10000x300),
    StableHlo.TRef.binary (StableHlo.TRef.of main_v281 : StableHlo.TRef sig ⟨S10000x300, .f32⟩) main_call15.v0 main_call15.v1 maximumf,
    StableHlo.nullary main_cst_44 (constant S_ .f32 0x00000000#32),
    StableHlo.unary main_cst_44 main_v283 (broadcastInDim S64x300 ![] bcast_S_S64x300 : (⟨S_, .f32⟩ : BufTy).Contents (Elt F) → (⟨S64x300, .f32⟩ : BufTy).Contents (Elt F)),
    StableHlo.unary main_arg2 main_v284 (broadcastInDim S10000x1 ![0] bcast_S10000_S10000x1_0 : (⟨S10000, .i32⟩ : BufTy).Contents (Elt F) → (⟨S10000x1, .i32⟩ : BufTy).Contents (Elt F)) ]

/-- The buffers those operations write. -/
abbrev ops12_W : List (Ref sig .tc) :=
  [main_v258, main_v259, main_v260, main_v261, main_v262, main_cst_40, main_v263, main_cst_41, main_v264, main_v265, main_c_42, main_call14_cst, main_call14_v0, main_call14_v1, main_call14_cst_0, main_call14_v2, main_call14_v3, main_call14_v4, main_call14_v5, main_call14_v6, main_call14_v7, main_call14_cst_1, main_call14_v8, main_call14_cst_2, main_call14_v9, main_call14_v10, main_call14_v11, main_call14_cst_3, main_call14_v12, main_call14_cst_4, main_call14_call0_v0, main_call14_call0_v1, main_v266, main_v267, main_v268, main_v269, main_cst_43, main_v270, main_v271, main_v272, main_v273, main_v274, main_v275, main_v276, main_v277, main_v278, main_v279, main_v280, main_v281, main_call15_cst, main_call15_v0, main_v282, main_cst_44, main_v283, main_v284]

set_option maxRecDepth 8192 in
theorem ops12_sub : (ops12 : List (HloOp τ sig (Elt F))).Forall fun op => op.bufs ⊆ tcRefs τ sig :=
  ⟨binary_bufs_sub .., unary_bufs_sub .., reshape_bufs_sub .., unary_bufs_sub .., reshape_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., nullary_bufs_sub .., unary_bufs_sub .., unary_bufs_sub ..⟩

set_option maxRecDepth 8192 in
theorem ops12_writes : (ops12 : List (HloOp τ sig (Elt F))).Forall fun op =>
    op.writes ⊆ (ops12_W.map (Proc.devRef (τ := τ) .tc)).toFinset := by
  simp only [List.Forall]
  exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

set_option maxRecDepth 8192 in
/-- Every operation determines its results. -/
theorem ops12_fresh : ∀ op ∈ (ops12 : List (HloOp τ sig (Elt F))), op.fresh = ∅ := by
  intro _ h; (repeat (cases h with | head => rfl | tail _ h => ?_)); exact nomatch h

set_option maxRecDepth 8192 in
/-- None of them writes an argument of @main. -/
theorem ops12_keepArgs : ∀ r ∈ argRefs, r ∉ ops12_W := by decide

/-- The reference's operations 517 … 565 of 1028 (in window main_part5), a call's body listed
    at the call over the call's buffer record. -/
abbrev ops13 : List (HloOp τ sig (Elt F)) :=
  [ StableHlo.ternary main_v283 main_v284 main_v282 main_v285 ((fun x i u => Host.scatterAdd scatter_S64x300_S10000x1_S10000x300_1_0_0_1 x i u) : (⟨S64x300, .f32⟩ : BufTy).Contents (Elt F) → (⟨S10000x1, .i32⟩ : BufTy).Contents (Elt F) → (⟨S10000x300, .f32⟩ : BufTy).Contents (Elt F) → (⟨S64x300, .f32⟩ : BufTy).Contents (Elt F)),
    StableHlo.binary main_v285 main_v199 main_v286 (addf : (⟨S64x300, .f32⟩ : BufTy).Contents (Elt F) → (⟨S64x300, .f32⟩ : BufTy).Contents (Elt F) → (⟨S64x300, .f32⟩ : BufTy).Contents (Elt F)),
    StableHlo.binary main_v286 main_arg20 main_v287 ((fun l r => Host.dotGeneral dot_S64x300_S300x600_S64x600_1_0_0_1_n_n none l r) : (⟨S64x300, .f32⟩ : BufTy).Contents (Elt F) → (⟨S300x600, .f32⟩ : BufTy).Contents (Elt F) → (⟨S64x600, .f32⟩ : BufTy).Contents (Elt F)),
    StableHlo.unary main_arg21 main_v288 (broadcastInDim S1x600 ![1] bcast_S600_S1x600_1 : (⟨S600, .f32⟩ : BufTy).Contents (Elt F) → (⟨S1x600, .f32⟩ : BufTy).Contents (Elt F)),
    StableHlo.unary main_v288 main_v289 (broadcastInDim S64x600 ![0, 1] bcast_S1x600_S64x600_0_1 : (⟨S1x600, .f32⟩ : BufTy).Contents (Elt F) → (⟨S64x600, .f32⟩ : BufTy).Contents (Elt F)),
    StableHlo.binary main_v287 main_v289 main_v290 (addf : (⟨S64x600, .f32⟩ : BufTy).Contents (Elt F) → (⟨S64x600, .f32⟩ : BufTy).Contents (Elt F) → (⟨S64x600, .f32⟩ : BufTy).Contents (Elt F)),
    StableHlo.nullary main_cst_45 (constant S_ .f32 0x00000000#32),
    StableHlo.binary main_v290 main_cst_45 main_v291 ((fun x v => Host.reduceAdd x v reducesTo_S64x600_S600_d0 h_S_) : (⟨S64x600, .f32⟩ : BufTy).Contents (Elt F) → (⟨S_, .f32⟩ : BufTy).Contents (Elt F) → (⟨S600, .f32⟩ : BufTy).Contents (Elt F)),
    StableHlo.nullary main_cst_46 (constant S_ .f32 0x42800000#32),
    StableHlo.unary main_cst_46 main_v292 (broadcastInDim S600 ![] bcast_S_S600 : (⟨S_, .f32⟩ : BufTy).Contents (Elt F) → (⟨S600, .f32⟩ : BufTy).Contents (Elt F)),
    StableHlo.binary main_v291 main_v292 main_v293 (Host.divf : (⟨S600, .f32⟩ : BufTy).Contents (Elt F) → (⟨S600, .f32⟩ : BufTy).Contents (Elt F) → (⟨S600, .f32⟩ : BufTy).Contents (Elt F)),
    StableHlo.nullary main_c_47 (constantI S_ 32 0#32),
    StableHlo.TRef.nullary main_call16.cst (constant S_ .f32 0x00000000#32),
    StableHlo.TRef.binary (StableHlo.TRef.of main_v290 : StableHlo.TRef sig ⟨S64x600, .f32⟩) main_call16.cst main_call16.v0 (fun x v => Host.reduceAdd x v reducesTo_S64x600_S600_d0 h_S_),
    StableHlo.TRef.unary main_call16.v0 main_call16.v1 (broadcastInDim S1x600 ![1] bcast_S600_S1x600_1),
    StableHlo.TRef.nullary main_call16.cst_0 (constant S_ .f32 0x42800000#32),
    StableHlo.TRef.unary main_call16.cst_0 main_call16.v2 (broadcastInDim S1x600 ![] bcast_S_S1x600),
    StableHlo.TRef.binary main_call16.v1 main_call16.v2 main_call16.v3 Host.divf,
    StableHlo.TRef.unary main_call16.v3 main_call16.v4 (broadcastInDim S64x600 ![0, 1] bcast_S1x600_S64x600_0_1),
    StableHlo.TRef.binary (StableHlo.TRef.of main_v290 : StableHlo.TRef sig ⟨S64x600, .f32⟩) main_call16.v4 main_call16.v5 subf,
    StableHlo.TRef.binary main_call16.v5 main_call16.v5 main_call16.v6 mulf,
    StableHlo.TRef.unary (StableHlo.TRef.of main_c_47 : StableHlo.TRef sig ⟨S_, .i32⟩) main_call16.v7 (sitofp .f32),
    StableHlo.TRef.nullary main_call16.cst_1 (constant S_ .f32 0x42800000#32),
    StableHlo.TRef.binary main_call16.cst_1 main_call16.v7 main_call16.v8 subf,
    StableHlo.TRef.nullary main_call16.cst_2 (constant S_ .f32 0x00000000#32),
    StableHlo.TRef.binary main_call16.v6 main_call16.cst_2 main_call16.v9 (fun x v => Host.reduceAdd x v reducesTo_S64x600_S600_d0 h_S_),
    StableHlo.TRef.unary main_call16.v8 main_call16.v10 (broadcastInDim S600 ![] bcast_S_S600),
    StableHlo.TRef.binary main_call16.v9 main_call16.v10 main_call16.v11 Host.divf,
    StableHlo.TRef.nullary main_call16.cst_3 (constant S_ .f32 0x00000000#32),
    StableHlo.TRef.binary main_call16.v8 main_call16.cst_3 main_call16.v12 (cmpf .ogt),
    StableHlo.TRef.nullary main_call16.cst_4 (constant S_ .f32 0x7FC00000#32),
    StableHlo.TRef.unary main_call16.cst_4 main_call16.call0.v0 id,
    StableHlo.TRef.unary main_call16.call0.v0 main_call16.call0.v1 (broadcastInDim S600 ![] bcast_S_S600),
    StableHlo.TRef.ternary main_call16.v12 main_call16.v11 main_call16.call0.v1 main_call16.call0.v2 (fun p a b => select (broadcastInDim S600 ![] bcast_S_S600 p) a b),
    StableHlo.unary main_v293 main_v295 (broadcastInDim S1x600 ![1] bcast_S600_S1x600_1 : (⟨S600, .f32⟩ : BufTy).Contents (Elt F) → (⟨S1x600, .f32⟩ : BufTy).Contents (Elt F)),
    StableHlo.unary main_v295 main_v296 (broadcastInDim S64x600 ![0, 1] bcast_S1x600_S64x600_0_1 : (⟨S1x600, .f32⟩ : BufTy).Contents (Elt F) → (⟨S64x600, .f32⟩ : BufTy).Contents (Elt F)),
    StableHlo.binary main_v290 main_v296 main_v297 (subf : (⟨S64x600, .f32⟩ : BufTy).Contents (Elt F) → (⟨S64x600, .f32⟩ : BufTy).Contents (Elt F) → (⟨S64x600, .f32⟩ : BufTy).Contents (Elt F)),
    StableHlo.nullary main_cst_48 (constant S_ .f32 0x3727C5AC#32),
    StableHlo.unary main_cst_48 main_v298 (broadcastInDim S600 ![] bcast_S_S600 : (⟨S_, .f32⟩ : BufTy).Contents (Elt F) → (⟨S600, .f32⟩ : BufTy).Contents (Elt F)),
    StableHlo.binary main_v294 main_v298 main_v299 (addf : (⟨S600, .f32⟩ : BufTy).Contents (Elt F) → (⟨S600, .f32⟩ : BufTy).Contents (Elt F) → (⟨S600, .f32⟩ : BufTy).Contents (Elt F)),
    StableHlo.unary main_v299 main_v300 (Host.rsqrt : (⟨S600, .f32⟩ : BufTy).Contents (Elt F) → (⟨S600, .f32⟩ : BufTy).Contents (Elt F)),
    StableHlo.unary main_v300 main_v301 (broadcastInDim S1x600 ![1] bcast_S600_S1x600_1 : (⟨S600, .f32⟩ : BufTy).Contents (Elt F) → (⟨S1x600, .f32⟩ : BufTy).Contents (Elt F)),
    StableHlo.unary main_v301 main_v302 (broadcastInDim S64x600 ![0, 1] bcast_S1x600_S64x600_0_1 : (⟨S1x600, .f32⟩ : BufTy).Contents (Elt F) → (⟨S64x600, .f32⟩ : BufTy).Contents (Elt F)),
    StableHlo.binary main_v297 main_v302 main_v303 (mulf : (⟨S64x600, .f32⟩ : BufTy).Contents (Elt F) → (⟨S64x600, .f32⟩ : BufTy).Contents (Elt F) → (⟨S64x600, .f32⟩ : BufTy).Contents (Elt F)),
    StableHlo.unary main_arg22 main_v304 (broadcastInDim S1x600 ![1] bcast_S600_S1x600_1 : (⟨S600, .f32⟩ : BufTy).Contents (Elt F) → (⟨S1x600, .f32⟩ : BufTy).Contents (Elt F)),
    StableHlo.unary main_v304 main_v305 (broadcastInDim S64x600 ![0, 1] bcast_S1x600_S64x600_0_1 : (⟨S1x600, .f32⟩ : BufTy).Contents (Elt F) → (⟨S64x600, .f32⟩ : BufTy).Contents (Elt F)),
    StableHlo.binary main_v303 main_v305 main_v306 (mulf : (⟨S64x600, .f32⟩ : BufTy).Contents (Elt F) → (⟨S64x600, .f32⟩ : BufTy).Contents (Elt F) → (⟨S64x600, .f32⟩ : BufTy).Contents (Elt F)),
    StableHlo.unary main_arg23 main_v307 (broadcastInDim S1x600 ![1] bcast_S600_S1x600_1 : (⟨S600, .f32⟩ : BufTy).Contents (Elt F) → (⟨S1x600, .f32⟩ : BufTy).Contents (Elt F)),
    StableHlo.unary main_v307 main_v308 (broadcastInDim S64x600 ![0, 1] bcast_S1x600_S64x600_0_1 : (⟨S1x600, .f32⟩ : BufTy).Contents (Elt F) → (⟨S64x600, .f32⟩ : BufTy).Contents (Elt F)) ]

/-- The buffers those operations write. -/
abbrev ops13_W : List (Ref sig .tc) :=
  [main_v285, main_v286, main_v287, main_v288, main_v289, main_v290, main_cst_45, main_v291, main_cst_46, main_v292, main_v293, main_c_47, main_call16_cst, main_call16_v0, main_call16_v1, main_call16_cst_0, main_call16_v2, main_call16_v3, main_call16_v4, main_call16_v5, main_call16_v6, main_call16_v7, main_call16_cst_1, main_call16_v8, main_call16_cst_2, main_call16_v9, main_call16_v10, main_call16_v11, main_call16_cst_3, main_call16_v12, main_call16_cst_4, main_call16_call0_v0, main_call16_call0_v1, main_v294, main_v295, main_v296, main_v297, main_cst_48, main_v298, main_v299, main_v300, main_v301, main_v302, main_v303, main_v304, main_v305, main_v306, main_v307, main_v308]

set_option maxRecDepth 8192 in
theorem ops13_sub : (ops13 : List (HloOp τ sig (Elt F))).Forall fun op => op.bufs ⊆ tcRefs τ sig :=
  ⟨ternary_bufs_sub .., binary_bufs_sub .., binary_bufs_sub .., unary_bufs_sub .., unary_bufs_sub .., binary_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub ..⟩

set_option maxRecDepth 8192 in
theorem ops13_writes : (ops13 : List (HloOp τ sig (Elt F))).Forall fun op =>
    op.writes ⊆ (ops13_W.map (Proc.devRef (τ := τ) .tc)).toFinset := by
  simp only [List.Forall]
  exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

set_option maxRecDepth 8192 in
/-- Every operation determines its results. -/
theorem ops13_fresh : ∀ op ∈ (ops13 : List (HloOp τ sig (Elt F))), op.fresh = ∅ := by
  intro _ h; (repeat (cases h with | head => rfl | tail _ h => ?_)); exact nomatch h

set_option maxRecDepth 8192 in
/-- None of them writes an argument of @main. -/
theorem ops13_keepArgs : ∀ r ∈ argRefs, r ∉ ops13_W := by decide

set_option maxRecDepth 16384 in
set_option maxHeartbeats 4000000 in
/-- The window is the straight line of its operations: the called functions unfolded at their calls. -/
theorem main_part5_eq (c : Dev nD) : main_part5 (F := F) c = seq (ops12 ++ (ops13)) := by
  first
  | rfl
  | (simp only [main_part5, fn_relu_2.body, fn_var_0.body, fn_var_3.body, fn_where.body, fn_where_1.body, List.cons_append, List.nil_append, seq, bind_assoc, pure_bind]; try rfl)

end Cert.ReferenceIdeal.RefRun

end
-- ==== Proof.Ref.OpsW6.lean ====
import proofs.«411400_j9251359555630_1_alg».proof.ReferenceIdeal
import Idealize.ShloMosaic.Lib.StableHlo.Run
import proofs.«411400_j9251359555630_1_alg».proof.Proof.Ref.Common

noncomputable section

namespace Cert.ReferenceIdeal.RefRun

open Cert.ReferenceIdeal Idealize.ShloMosaic Idealize.ShloMosaic.TcCoe Idealize.SL.Sem Idealize.ShloMosaic.StableHlo
open Cert.ReferenceIdeal.Facts₀ Cert.ReferenceIdeal.Facts

variable {F : FTy → Type} [FloatOps F] [Facts]

/-- The reference's operations 566 … 625 of 1028 (in window main_part6), a call's body listed
    at the call over the call's buffer record. -/
abbrev ops14 : List (HloOp τ sig (Elt F)) :=
  [ StableHlo.binary main_v306 main_v308 main_v309 (addf : (⟨S64x600, .f32⟩ : BufTy).Contents (Elt F) → (⟨S64x600, .f32⟩ : BufTy).Contents (Elt F) → (⟨S64x600, .f32⟩ : BufTy).Contents (Elt F)),
    StableHlo.TRef.nullary main_call17.cst (constant S_ .f32 0x00000000#32),
    StableHlo.TRef.unary main_call17.cst main_call17.v0 (broadcastInDim S64x600 ![] bcast_S_S64x600),
    StableHlo.TRef.binary (StableHlo.TRef.of main_v309 : StableHlo.TRef sig ⟨S64x600, .f32⟩) main_call17.v0 main_call17.v1 maximumf,
    StableHlo.binary main_v310 main_arg24 main_v311 ((fun l r => Host.dotGeneral dot_S64x600_S600x300_S64x300_1_0_0_1_n_n none l r) : (⟨S64x600, .f32⟩ : BufTy).Contents (Elt F) → (⟨S600x300, .f32⟩ : BufTy).Contents (Elt F) → (⟨S64x300, .f32⟩ : BufTy).Contents (Elt F)),
    StableHlo.unary main_arg25 main_v312 (broadcastInDim S1x300 ![1] bcast_S300_S1x300_1 : (⟨S300, .f32⟩ : BufTy).Contents (Elt F) → (⟨S1x300, .f32⟩ : BufTy).Contents (Elt F)),
    StableHlo.unary main_v312 main_v313 (broadcastInDim S64x300 ![0, 1] bcast_S1x300_S64x300_0_1 : (⟨S1x300, .f32⟩ : BufTy).Contents (Elt F) → (⟨S64x300, .f32⟩ : BufTy).Contents (Elt F)),
    StableHlo.binary main_v311 main_v313 main_v314 (addf : (⟨S64x300, .f32⟩ : BufTy).Contents (Elt F) → (⟨S64x300, .f32⟩ : BufTy).Contents (Elt F) → (⟨S64x300, .f32⟩ : BufTy).Contents (Elt F)),
    StableHlo.nullary main_cst_49 (constant S_ .f32 0x00000000#32),
    StableHlo.binary main_v314 main_cst_49 main_v315 ((fun x v => Host.reduceAdd x v reducesTo_S64x300_S300_d0 h_S_) : (⟨S64x300, .f32⟩ : BufTy).Contents (Elt F) → (⟨S_, .f32⟩ : BufTy).Contents (Elt F) → (⟨S300, .f32⟩ : BufTy).Contents (Elt F)),
    StableHlo.nullary main_cst_50 (constant S_ .f32 0x42800000#32),
    StableHlo.unary main_cst_50 main_v316 (broadcastInDim S300 ![] bcast_S_S300 : (⟨S_, .f32⟩ : BufTy).Contents (Elt F) → (⟨S300, .f32⟩ : BufTy).Contents (Elt F)),
    StableHlo.binary main_v315 main_v316 main_v317 (Host.divf : (⟨S300, .f32⟩ : BufTy).Contents (Elt F) → (⟨S300, .f32⟩ : BufTy).Contents (Elt F) → (⟨S300, .f32⟩ : BufTy).Contents (Elt F)),
    StableHlo.nullary main_c_51 (constantI S_ 32 0#32),
    StableHlo.TRef.nullary main_call18.cst (constant S_ .f32 0x00000000#32),
    StableHlo.TRef.binary (StableHlo.TRef.of main_v314 : StableHlo.TRef sig ⟨S64x300, .f32⟩) main_call18.cst main_call18.v0 (fun x v => Host.reduceAdd x v reducesTo_S64x300_S300_d0 h_S_),
    StableHlo.TRef.unary main_call18.v0 main_call18.v1 (broadcastInDim S1x300 ![1] bcast_S300_S1x300_1),
    StableHlo.TRef.nullary main_call18.cst_0 (constant S_ .f32 0x42800000#32),
    StableHlo.TRef.unary main_call18.cst_0 main_call18.v2 (broadcastInDim S1x300 ![] bcast_S_S1x300),
    StableHlo.TRef.binary main_call18.v1 main_call18.v2 main_call18.v3 Host.divf,
    StableHlo.TRef.unary main_call18.v3 main_call18.v4 (broadcastInDim S64x300 ![0, 1] bcast_S1x300_S64x300_0_1),
    StableHlo.TRef.binary (StableHlo.TRef.of main_v314 : StableHlo.TRef sig ⟨S64x300, .f32⟩) main_call18.v4 main_call18.v5 subf,
    StableHlo.TRef.binary main_call18.v5 main_call18.v5 main_call18.v6 mulf,
    StableHlo.TRef.unary (StableHlo.TRef.of main_c_51 : StableHlo.TRef sig ⟨S_, .i32⟩) main_call18.v7 (sitofp .f32),
    StableHlo.TRef.nullary main_call18.cst_1 (constant S_ .f32 0x42800000#32),
    StableHlo.TRef.binary main_call18.cst_1 main_call18.v7 main_call18.v8 subf,
    StableHlo.TRef.nullary main_call18.cst_2 (constant S_ .f32 0x00000000#32),
    StableHlo.TRef.binary main_call18.v6 main_call18.cst_2 main_call18.v9 (fun x v => Host.reduceAdd x v reducesTo_S64x300_S300_d0 h_S_),
    StableHlo.TRef.unary main_call18.v8 main_call18.v10 (broadcastInDim S300 ![] bcast_S_S300),
    StableHlo.TRef.binary main_call18.v9 main_call18.v10 main_call18.v11 Host.divf,
    StableHlo.TRef.nullary main_call18.cst_3 (constant S_ .f32 0x00000000#32),
    StableHlo.TRef.binary main_call18.v8 main_call18.cst_3 main_call18.v12 (cmpf .ogt),
    StableHlo.TRef.nullary main_call18.cst_4 (constant S_ .f32 0x7FC00000#32),
    StableHlo.TRef.unary main_call18.cst_4 main_call18.call0.v0 id,
    StableHlo.TRef.unary main_call18.call0.v0 main_call18.call0.v1 (broadcastInDim S300 ![] bcast_S_S300),
    StableHlo.TRef.ternary main_call18.v12 main_call18.v11 main_call18.call0.v1 main_call18.call0.v2 (fun p a b => select (broadcastInDim S300 ![] bcast_S_S300 p) a b),
    StableHlo.unary main_v317 main_v319 (broadcastInDim S1x300 ![1] bcast_S300_S1x300_1 : (⟨S300, .f32⟩ : BufTy).Contents (Elt F) → (⟨S1x300, .f32⟩ : BufTy).Contents (Elt F)),
    StableHlo.unary main_v319 main_v320 (broadcastInDim S64x300 ![0, 1] bcast_S1x300_S64x300_0_1 : (⟨S1x300, .f32⟩ : BufTy).Contents (Elt F) → (⟨S64x300, .f32⟩ : BufTy).Contents (Elt F)),
    StableHlo.binary main_v314 main_v320 main_v321 (subf : (⟨S64x300, .f32⟩ : BufTy).Contents (Elt F) → (⟨S64x300, .f32⟩ : BufTy).Contents (Elt F) → (⟨S64x300, .f32⟩ : BufTy).Contents (Elt F)),
    StableHlo.nullary main_cst_52 (constant S_ .f32 0x3727C5AC#32),
    StableHlo.unary main_cst_52 main_v322 (broadcastInDim S300 ![] bcast_S_S300 : (⟨S_, .f32⟩ : BufTy).Contents (Elt F) → (⟨S300, .f32⟩ : BufTy).Contents (Elt F)),
    StableHlo.binary main_v318 main_v322 main_v323 (addf : (⟨S300, .f32⟩ : BufTy).Contents (Elt F) → (⟨S300, .f32⟩ : BufTy).Contents (Elt F) → (⟨S300, .f32⟩ : BufTy).Contents (Elt F)),
    StableHlo.unary main_v323 main_v324 (Host.rsqrt : (⟨S300, .f32⟩ : BufTy).Contents (Elt F) → (⟨S300, .f32⟩ : BufTy).Contents (Elt F)),
    StableHlo.unary main_v324 main_v325 (broadcastInDim S1x300 ![1] bcast_S300_S1x300_1 : (⟨S300, .f32⟩ : BufTy).Contents (Elt F) → (⟨S1x300, .f32⟩ : BufTy).Contents (Elt F)),
    StableHlo.unary main_v325 main_v326 (broadcastInDim S64x300 ![0, 1] bcast_S1x300_S64x300_0_1 : (⟨S1x300, .f32⟩ : BufTy).Contents (Elt F) → (⟨S64x300, .f32⟩ : BufTy).Contents (Elt F)),
    StableHlo.binary main_v321 main_v326 main_v327 (mulf : (⟨S64x300, .f32⟩ : BufTy).Contents (Elt F) → (⟨S64x300, .f32⟩ : BufTy).Contents (Elt F) → (⟨S64x300, .f32⟩ : BufTy).Contents (Elt F)),
    StableHlo.unary main_arg26 main_v328 (broadcastInDim S1x300 ![1] bcast_S300_S1x300_1 : (⟨S300, .f32⟩ : BufTy).Contents (Elt F) → (⟨S1x300, .f32⟩ : BufTy).Contents (Elt F)),
    StableHlo.unary main_v328 main_v329 (broadcastInDim S64x300 ![0, 1] bcast_S1x300_S64x300_0_1 : (⟨S1x300, .f32⟩ : BufTy).Contents (Elt F) → (⟨S64x300, .f32⟩ : BufTy).Contents (Elt F)),
    StableHlo.binary main_v327 main_v329 main_v330 (mulf : (⟨S64x300, .f32⟩ : BufTy).Contents (Elt F) → (⟨S64x300, .f32⟩ : BufTy).Contents (Elt F) → (⟨S64x300, .f32⟩ : BufTy).Contents (Elt F)),
    StableHlo.unary main_arg27 main_v331 (broadcastInDim S1x300 ![1] bcast_S300_S1x300_1 : (⟨S300, .f32⟩ : BufTy).Contents (Elt F) → (⟨S1x300, .f32⟩ : BufTy).Contents (Elt F)),
    StableHlo.unary main_v331 main_v332 (broadcastInDim S64x300 ![0, 1] bcast_S1x300_S64x300_0_1 : (⟨S1x300, .f32⟩ : BufTy).Contents (Elt F) → (⟨S64x300, .f32⟩ : BufTy).Contents (Elt F)),
    StableHlo.binary main_v330 main_v332 main_v333 (addf : (⟨S64x300, .f32⟩ : BufTy).Contents (Elt F) → (⟨S64x300, .f32⟩ : BufTy).Contents (Elt F) → (⟨S64x300, .f32⟩ : BufTy).Contents (Elt F)),
    StableHlo.TRef.nullary main_call19.cst (constant S_ .f32 0x00000000#32),
    StableHlo.TRef.unary main_call19.cst main_call19.v0 (broadcastInDim S64x300 ![] bcast_S_S64x300),
    StableHlo.TRef.binary (StableHlo.TRef.of main_v333 : StableHlo.TRef sig ⟨S64x300, .f32⟩) main_call19.v0 main_call19.v1 maximumf,
    StableHlo.nullary main_c_53 (constantI S_ 32 0#32),
    StableHlo.unary main_c_53 main_v335 (broadcastInDim S10000 ![] bcast_S_S10000 : (⟨S_, .i32⟩ : BufTy).Contents (Elt F) → (⟨S10000, .i32⟩ : BufTy).Contents (Elt F)),
    StableHlo.binary main_arg2 main_v335 main_v336 (cmpi .slt : (⟨S10000, .i32⟩ : BufTy).Contents (Elt F) → (⟨S10000, .i32⟩ : BufTy).Contents (Elt F) → (⟨S10000, .i1⟩ : BufTy).Contents (Elt F)),
    StableHlo.nullary main_c_54 (constantI S_ 32 64#32),
    StableHlo.unary main_c_54 main_v337 (broadcastInDim S10000 ![] bcast_S_S10000 : (⟨S_, .i32⟩ : BufTy).Contents (Elt F) → (⟨S10000, .i32⟩ : BufTy).Contents (Elt F)) ]

/-- The buffers those operations write. -/
abbrev ops14_W : List (Ref sig .tc) :=
  [main_v309, main_call17_cst, main_call17_v0, main_v310, main_v311, main_v312, main_v313, main_v314, main_cst_49, main_v315, main_cst_50, main_v316, main_v317, main_c_51, main_call18_cst, main_call18_v0, main_call18_v1, main_call18_cst_0, main_call18_v2, main_call18_v3, main_call18_v4, main_call18_v5, main_call18_v6, main_call18_v7, main_call18_cst_1, main_call18_v8, main_call18_cst_2, main_call18_v9, main_call18_v10, main_call18_v11, main_call18_cst_3, main_call18_v12, main_call18_cst_4, main_call18_call0_v0, main_call18_call0_v1, main_v318, main_v319, main_v320, main_v321, main_cst_52, main_v322, main_v323, main_v324, main_v325, main_v326, main_v327, main_v328, main_v329, main_v330, main_v331, main_v332, main_v333, main_call19_cst, main_call19_v0, main_v334, main_c_53, main_v335, main_v336, main_c_54, main_v337]

set_option maxRecDepth 8192 in
theorem ops14_sub : (ops14 : List (HloOp τ sig (Elt F))).Forall fun op => op.bufs ⊆ tcRefs τ sig :=
  ⟨binary_bufs_sub .., nullary_bufs_sub .., unary_bufs_sub .., binary_bufs_sub .., binary_bufs_sub .., unary_bufs_sub .., unary_bufs_sub .., binary_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., nullary_bufs_sub .., unary_bufs_sub .., binary_bufs_sub .., nullary_bufs_sub .., unary_bufs_sub ..⟩

set_option maxRecDepth 8192 in
theorem ops14_writes : (ops14 : List (HloOp τ sig (Elt F))).Forall fun op =>
    op.writes ⊆ (ops14_W.map (Proc.devRef (τ := τ) .tc)).toFinset := by
  simp only [List.Forall]
  exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

set_option maxRecDepth 8192 in
/-- Every operation determines its results. -/
theorem ops14_fresh : ∀ op ∈ (ops14 : List (HloOp τ sig (Elt F))), op.fresh = ∅ := by
  intro _ h; (repeat (cases h with | head => rfl | tail _ h => ?_)); exact nomatch h

set_option maxRecDepth 8192 in
/-- None of them writes an argument of @main. -/
theorem ops14_keepArgs : ∀ r ∈ argRefs, r ∉ ops14_W := by decide

/-- The reference's operations 626 … 650 of 1028 (in window main_part6), a call's body listed
    at the call over the call's buffer record. -/
abbrev ops15 : List (HloOp τ sig (Elt F)) :=
  [ StableHlo.binary main_arg2 main_v337 main_v338 (addi : (⟨S10000, .i32⟩ : BufTy).Contents (Elt F) → (⟨S10000, .i32⟩ : BufTy).Contents (Elt F) → (⟨S10000, .i32⟩ : BufTy).Contents (Elt F)),
    StableHlo.ternary main_v336 main_v338 main_arg2 main_v339 (select : (⟨S10000, .i1⟩ : BufTy).Contents (Elt F) → (⟨S10000, .i32⟩ : BufTy).Contents (Elt F) → (⟨S10000, .i32⟩ : BufTy).Contents (Elt F) → (⟨S10000, .i32⟩ : BufTy).Contents (Elt F)),
    StableHlo.unary main_v339 main_v340 (broadcastInDim S10000x1 ![0] bcast_S10000_S10000x1_0 : (⟨S10000, .i32⟩ : BufTy).Contents (Elt F) → (⟨S10000x1, .i32⟩ : BufTy).Contents (Elt F)),
    StableHlo.binary main_v334 main_v340 main_v341 ((fun x i => Host.gather gather_S64x300_S10000x1_S10000x300_1_0_n_n_0_1_1300 x i) : (⟨S64x300, .f32⟩ : BufTy).Contents (Elt F) → (⟨S10000x1, .i32⟩ : BufTy).Contents (Elt F) → (⟨S10000x300, .f32⟩ : BufTy).Contents (Elt F)),
    StableHlo.binary main_v282 main_v341 main_v342 (addf : (⟨S10000x300, .f32⟩ : BufTy).Contents (Elt F) → (⟨S10000x300, .f32⟩ : BufTy).Contents (Elt F) → (⟨S10000x300, .f32⟩ : BufTy).Contents (Elt F)),
    StableHlo.unary main_arg10 main_v343 ((extractStridedSlice S1x300x600 ![2, 0, 0] · slices_S4x300x600_S1x300x600_2_0_0) : (⟨S4x300x600, .f32⟩ : BufTy).Contents (Elt F) → (⟨S1x300x600, .f32⟩ : BufTy).Contents (Elt F)),
    StableHlo.reshape main_v343 main_v344 rfl shapeCasts_S1x300x600_S300x600,
    StableHlo.unary main_arg11 main_v345 ((extractStridedSlice S1x600 ![2, 0] · slices_S4x600_S1x600_2_0) : (⟨S4x600, .f32⟩ : BufTy).Contents (Elt F) → (⟨S1x600, .f32⟩ : BufTy).Contents (Elt F)),
    StableHlo.reshape main_v345 main_v346 rfl shapeCasts_S1x600_S600,
    StableHlo.unary main_arg12 main_v347 ((extractStridedSlice S1x600 ![2, 0] · slices_S4x600_S1x600_2_0) : (⟨S4x600, .f32⟩ : BufTy).Contents (Elt F) → (⟨S1x600, .f32⟩ : BufTy).Contents (Elt F)),
    StableHlo.reshape main_v347 main_v348 rfl shapeCasts_S1x600_S600,
    StableHlo.unary main_arg13 main_v349 ((extractStridedSlice S1x600 ![2, 0] · slices_S4x600_S1x600_2_0) : (⟨S4x600, .f32⟩ : BufTy).Contents (Elt F) → (⟨S1x600, .f32⟩ : BufTy).Contents (Elt F)),
    StableHlo.reshape main_v349 main_v350 rfl shapeCasts_S1x600_S600,
    StableHlo.unary main_arg14 main_v351 ((extractStridedSlice S1x600x300 ![2, 0, 0] · slices_S4x600x300_S1x600x300_2_0_0) : (⟨S4x600x300, .f32⟩ : BufTy).Contents (Elt F) → (⟨S1x600x300, .f32⟩ : BufTy).Contents (Elt F)),
    StableHlo.reshape main_v351 main_v352 rfl shapeCasts_S1x600x300_S600x300,
    StableHlo.unary main_arg15 main_v353 ((extractStridedSlice S1x300 ![2, 0] · slices_S4x300_S1x300_2_0) : (⟨S4x300, .f32⟩ : BufTy).Contents (Elt F) → (⟨S1x300, .f32⟩ : BufTy).Contents (Elt F)),
    StableHlo.reshape main_v353 main_v354 rfl shapeCasts_S1x300_S300,
    StableHlo.nullary main_c_55 (constantI S_ 32 0#32),
    StableHlo.unary main_c_55 main_v355 (broadcastInDim S160000 ![] bcast_S_S160000 : (⟨S_, .i32⟩ : BufTy).Contents (Elt F) → (⟨S160000, .i32⟩ : BufTy).Contents (Elt F)),
    StableHlo.binary main_v1 main_v355 main_v356 (cmpi .slt : (⟨S160000, .i32⟩ : BufTy).Contents (Elt F) → (⟨S160000, .i32⟩ : BufTy).Contents (Elt F) → (⟨S160000, .i1⟩ : BufTy).Contents (Elt F)),
    StableHlo.nullary main_c_56 (constantI S_ 32 10000#32),
    StableHlo.unary main_c_56 main_v357 (broadcastInDim S160000 ![] bcast_S_S160000 : (⟨S_, .i32⟩ : BufTy).Contents (Elt F) → (⟨S160000, .i32⟩ : BufTy).Contents (Elt F)),
    StableHlo.binary main_v1 main_v357 main_v358 (addi : (⟨S160000, .i32⟩ : BufTy).Contents (Elt F) → (⟨S160000, .i32⟩ : BufTy).Contents (Elt F) → (⟨S160000, .i32⟩ : BufTy).Contents (Elt F)),
    StableHlo.ternary main_v356 main_v358 main_v1 main_v359 (select : (⟨S160000, .i1⟩ : BufTy).Contents (Elt F) → (⟨S160000, .i32⟩ : BufTy).Contents (Elt F) → (⟨S160000, .i32⟩ : BufTy).Contents (Elt F) → (⟨S160000, .i32⟩ : BufTy).Contents (Elt F)),
    StableHlo.unary main_v359 main_v360 (broadcastInDim S160000x1 ![0] bcast_S160000_S160000x1_0 : (⟨S160000, .i32⟩ : BufTy).Contents (Elt F) → (⟨S160000x1, .i32⟩ : BufTy).Contents (Elt F)) ]

/-- The buffers those operations write. -/
abbrev ops15_W : List (Ref sig .tc) :=
  [main_v338, main_v339, main_v340, main_v341, main_v342, main_v343, main_v344, main_v345, main_v346, main_v347, main_v348, main_v349, main_v350, main_v351, main_v352, main_v353, main_v354, main_c_55, main_v355, main_v356, main_c_56, main_v357, main_v358, main_v359, main_v360]

set_option maxRecDepth 8192 in
theorem ops15_sub : (ops15 : List (HloOp τ sig (Elt F))).Forall fun op => op.bufs ⊆ tcRefs τ sig :=
  ⟨binary_bufs_sub .., ternary_bufs_sub .., unary_bufs_sub .., binary_bufs_sub .., binary_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub ..⟩

set_option maxRecDepth 8192 in
theorem ops15_writes : (ops15 : List (HloOp τ sig (Elt F))).Forall fun op =>
    op.writes ⊆ (ops15_W.map (Proc.devRef (τ := τ) .tc)).toFinset := by
  simp only [List.Forall]
  exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

set_option maxRecDepth 8192 in
/-- Every operation determines its results. -/
theorem ops15_fresh : ∀ op ∈ (ops15 : List (HloOp τ sig (Elt F))), op.fresh = ∅ := by
  intro _ h; (repeat (cases h with | head => rfl | tail _ h => ?_)); exact nomatch h

set_option maxRecDepth 8192 in
/-- None of them writes an argument of @main. -/
theorem ops15_keepArgs : ∀ r ∈ argRefs, r ∉ ops15_W := by decide

set_option maxRecDepth 16384 in
set_option maxHeartbeats 4000000 in
/-- The window is the straight line of its operations: the called functions unfolded at their calls. -/
theorem main_part6_eq (c : Dev nD) : main_part6 (F := F) c = seq (ops14 ++ (ops15)) := by
  first
  | rfl
  | (simp only [main_part6, fn_relu_4.body, fn_relu_6.body, fn_var_5.body, fn_where_1.body, List.cons_append, List.nil_append, seq, bind_assoc, pure_bind]; try rfl)

end Cert.ReferenceIdeal.RefRun

end
-- ==== Proof.Ref.OpsW7.lean ====
import proofs.«411400_j9251359555630_1_alg».proof.ReferenceIdeal
import Idealize.ShloMosaic.Lib.StableHlo.Run
import proofs.«411400_j9251359555630_1_alg».proof.Proof.Ref.Common

noncomputable section

namespace Cert.ReferenceIdeal.RefRun

open Cert.ReferenceIdeal Idealize.ShloMosaic Idealize.ShloMosaic.TcCoe Idealize.SL.Sem Idealize.ShloMosaic.StableHlo
open Cert.ReferenceIdeal.Facts₀ Cert.ReferenceIdeal.Facts

variable {F : FTy → Type} [FloatOps F] [Facts]

/-- The reference's operations 651 … 654 of 1028 (in window main_part7), a call's body listed
    at the call over the call's buffer record. -/
abbrev ops16 : List (HloOp τ sig (Elt F)) :=
  [ StableHlo.binary main_v342 main_v360 main_v361 ((fun x i => Host.gather gather_S10000x300_S160000x1_S160000x300_1_0_n_n_0_1_1300 x i) : (⟨S10000x300, .f32⟩ : BufTy).Contents (Elt F) → (⟨S160000x1, .i32⟩ : BufTy).Contents (Elt F) → (⟨S160000x300, .f32⟩ : BufTy).Contents (Elt F)),
    StableHlo.nullary main_cst_57 (constant S_ .f32 0x00000000#32),
    StableHlo.unary main_cst_57 main_v362 (broadcastInDim S10000x300 ![] bcast_S_S10000x300 : (⟨S_, .f32⟩ : BufTy).Contents (Elt F) → (⟨S10000x300, .f32⟩ : BufTy).Contents (Elt F)),
    StableHlo.unary main_v3 main_v363 (broadcastInDim S160000x1 ![0] bcast_S160000_S160000x1_0 : (⟨S160000, .i32⟩ : BufTy).Contents (Elt F) → (⟨S160000x1, .i32⟩ : BufTy).Contents (Elt F)) ]

/-- The buffers those operations write. -/
abbrev ops16_W : List (Ref sig .tc) :=
  [main_v361, main_cst_57, main_v362, main_v363]

set_option maxRecDepth 8192 in
theorem ops16_sub : (ops16 : List (HloOp τ sig (Elt F))).Forall fun op => op.bufs ⊆ tcRefs τ sig :=
  ⟨binary_bufs_sub .., nullary_bufs_sub .., unary_bufs_sub .., unary_bufs_sub ..⟩

set_option maxRecDepth 8192 in
theorem ops16_writes : (ops16 : List (HloOp τ sig (Elt F))).Forall fun op =>
    op.writes ⊆ (ops16_W.map (Proc.devRef (τ := τ) .tc)).toFinset := by
  simp only [List.Forall]
  exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

set_option maxRecDepth 8192 in
/-- Every operation determines its results. -/
theorem ops16_fresh : ∀ op ∈ (ops16 : List (HloOp τ sig (Elt F))), op.fresh = ∅ := by
  intro _ h; (repeat (cases h with | head => rfl | tail _ h => ?_)); exact nomatch h

set_option maxRecDepth 8192 in
/-- None of them writes an argument of @main. -/
theorem ops16_keepArgs : ∀ r ∈ argRefs, r ∉ ops16_W := by decide

/-- The reference's operations 655 … 714 of 1028 (in window main_part7), a call's body listed
    at the call over the call's buffer record. -/
abbrev ops17 : List (HloOp τ sig (Elt F)) :=
  [ StableHlo.ternary main_v362 main_v363 main_v361 main_v364 ((fun x i u => Host.scatterAdd scatter_S10000x300_S160000x1_S160000x300_1_0_0_1 x i u) : (⟨S10000x300, .f32⟩ : BufTy).Contents (Elt F) → (⟨S160000x1, .i32⟩ : BufTy).Contents (Elt F) → (⟨S160000x300, .f32⟩ : BufTy).Contents (Elt F) → (⟨S10000x300, .f32⟩ : BufTy).Contents (Elt F)),
    StableHlo.binary main_v342 main_v364 main_v365 (addf : (⟨S10000x300, .f32⟩ : BufTy).Contents (Elt F) → (⟨S10000x300, .f32⟩ : BufTy).Contents (Elt F) → (⟨S10000x300, .f32⟩ : BufTy).Contents (Elt F)),
    StableHlo.binary main_v365 main_v344 main_v366 ((fun l r => Host.dotGeneral dot_S10000x300_S300x600_S10000x600_1_0_0_1_n_n none l r) : (⟨S10000x300, .f32⟩ : BufTy).Contents (Elt F) → (⟨S300x600, .f32⟩ : BufTy).Contents (Elt F) → (⟨S10000x600, .f32⟩ : BufTy).Contents (Elt F)),
    StableHlo.unary main_v346 main_v367 (broadcastInDim S1x600 ![1] bcast_S600_S1x600_1 : (⟨S600, .f32⟩ : BufTy).Contents (Elt F) → (⟨S1x600, .f32⟩ : BufTy).Contents (Elt F)),
    StableHlo.unary main_v367 main_v368 (broadcastInDim S10000x600 ![0, 1] bcast_S1x600_S10000x600_0_1 : (⟨S1x600, .f32⟩ : BufTy).Contents (Elt F) → (⟨S10000x600, .f32⟩ : BufTy).Contents (Elt F)),
    StableHlo.binary main_v366 main_v368 main_v369 (addf : (⟨S10000x600, .f32⟩ : BufTy).Contents (Elt F) → (⟨S10000x600, .f32⟩ : BufTy).Contents (Elt F) → (⟨S10000x600, .f32⟩ : BufTy).Contents (Elt F)),
    StableHlo.nullary main_cst_58 (constant S_ .f32 0x00000000#32),
    StableHlo.binary main_v369 main_cst_58 main_v370 ((fun x v => Host.reduceAdd x v reducesTo_S10000x600_S600_d0 h_S_) : (⟨S10000x600, .f32⟩ : BufTy).Contents (Elt F) → (⟨S_, .f32⟩ : BufTy).Contents (Elt F) → (⟨S600, .f32⟩ : BufTy).Contents (Elt F)),
    StableHlo.nullary main_cst_59 (constant S_ .f32 0x461C4000#32),
    StableHlo.unary main_cst_59 main_v371 (broadcastInDim S600 ![] bcast_S_S600 : (⟨S_, .f32⟩ : BufTy).Contents (Elt F) → (⟨S600, .f32⟩ : BufTy).Contents (Elt F)),
    StableHlo.binary main_v370 main_v371 main_v372 (Host.divf : (⟨S600, .f32⟩ : BufTy).Contents (Elt F) → (⟨S600, .f32⟩ : BufTy).Contents (Elt F) → (⟨S600, .f32⟩ : BufTy).Contents (Elt F)),
    StableHlo.nullary main_c_60 (constantI S_ 32 0#32),
    StableHlo.TRef.nullary main_call20.cst (constant S_ .f32 0x00000000#32),
    StableHlo.TRef.binary (StableHlo.TRef.of main_v369 : StableHlo.TRef sig ⟨S10000x600, .f32⟩) main_call20.cst main_call20.v0 (fun x v => Host.reduceAdd x v reducesTo_S10000x600_S600_d0 h_S_),
    StableHlo.TRef.unary main_call20.v0 main_call20.v1 (broadcastInDim S1x600 ![1] bcast_S600_S1x600_1),
    StableHlo.TRef.nullary main_call20.cst_0 (constant S_ .f32 0x461C4000#32),
    StableHlo.TRef.unary main_call20.cst_0 main_call20.v2 (broadcastInDim S1x600 ![] bcast_S_S1x600),
    StableHlo.TRef.binary main_call20.v1 main_call20.v2 main_call20.v3 Host.divf,
    StableHlo.TRef.unary main_call20.v3 main_call20.v4 (broadcastInDim S10000x600 ![0, 1] bcast_S1x600_S10000x600_0_1),
    StableHlo.TRef.binary (StableHlo.TRef.of main_v369 : StableHlo.TRef sig ⟨S10000x600, .f32⟩) main_call20.v4 main_call20.v5 subf,
    StableHlo.TRef.binary main_call20.v5 main_call20.v5 main_call20.v6 mulf,
    StableHlo.TRef.unary (StableHlo.TRef.of main_c_60 : StableHlo.TRef sig ⟨S_, .i32⟩) main_call20.v7 (sitofp .f32),
    StableHlo.TRef.nullary main_call20.cst_1 (constant S_ .f32 0x461C4000#32),
    StableHlo.TRef.binary main_call20.cst_1 main_call20.v7 main_call20.v8 subf,
    StableHlo.TRef.nullary main_call20.cst_2 (constant S_ .f32 0x00000000#32),
    StableHlo.TRef.binary main_call20.v6 main_call20.cst_2 main_call20.v9 (fun x v => Host.reduceAdd x v reducesTo_S10000x600_S600_d0 h_S_),
    StableHlo.TRef.unary main_call20.v8 main_call20.v10 (broadcastInDim S600 ![] bcast_S_S600),
    StableHlo.TRef.binary main_call20.v9 main_call20.v10 main_call20.v11 Host.divf,
    StableHlo.TRef.nullary main_call20.cst_3 (constant S_ .f32 0x00000000#32),
    StableHlo.TRef.binary main_call20.v8 main_call20.cst_3 main_call20.v12 (cmpf .ogt),
    StableHlo.TRef.nullary main_call20.cst_4 (constant S_ .f32 0x7FC00000#32),
    StableHlo.TRef.unary main_call20.cst_4 main_call20.call0.v0 id,
    StableHlo.TRef.unary main_call20.call0.v0 main_call20.call0.v1 (broadcastInDim S600 ![] bcast_S_S600),
    StableHlo.TRef.ternary main_call20.v12 main_call20.v11 main_call20.call0.v1 main_call20.call0.v2 (fun p a b => select (broadcastInDim S600 ![] bcast_S_S600 p) a b),
    StableHlo.unary main_v372 main_v374 (broadcastInDim S1x600 ![1] bcast_S600_S1x600_1 : (⟨S600, .f32⟩ : BufTy).Contents (Elt F) → (⟨S1x600, .f32⟩ : BufTy).Contents (Elt F)),
    StableHlo.unary main_v374 main_v375 (broadcastInDim S10000x600 ![0, 1] bcast_S1x600_S10000x600_0_1 : (⟨S1x600, .f32⟩ : BufTy).Contents (Elt F) → (⟨S10000x600, .f32⟩ : BufTy).Contents (Elt F)),
    StableHlo.binary main_v369 main_v375 main_v376 (subf : (⟨S10000x600, .f32⟩ : BufTy).Contents (Elt F) → (⟨S10000x600, .f32⟩ : BufTy).Contents (Elt F) → (⟨S10000x600, .f32⟩ : BufTy).Contents (Elt F)),
    StableHlo.nullary main_cst_61 (constant S_ .f32 0x3727C5AC#32),
    StableHlo.unary main_cst_61 main_v377 (broadcastInDim S600 ![] bcast_S_S600 : (⟨S_, .f32⟩ : BufTy).Contents (Elt F) → (⟨S600, .f32⟩ : BufTy).Contents (Elt F)),
    StableHlo.binary main_v373 main_v377 main_v378 (addf : (⟨S600, .f32⟩ : BufTy).Contents (Elt F) → (⟨S600, .f32⟩ : BufTy).Contents (Elt F) → (⟨S600, .f32⟩ : BufTy).Contents (Elt F)),
    StableHlo.unary main_v378 main_v379 (Host.rsqrt : (⟨S600, .f32⟩ : BufTy).Contents (Elt F) → (⟨S600, .f32⟩ : BufTy).Contents (Elt F)),
    StableHlo.unary main_v379 main_v380 (broadcastInDim S1x600 ![1] bcast_S600_S1x600_1 : (⟨S600, .f32⟩ : BufTy).Contents (Elt F) → (⟨S1x600, .f32⟩ : BufTy).Contents (Elt F)),
    StableHlo.unary main_v380 main_v381 (broadcastInDim S10000x600 ![0, 1] bcast_S1x600_S10000x600_0_1 : (⟨S1x600, .f32⟩ : BufTy).Contents (Elt F) → (⟨S10000x600, .f32⟩ : BufTy).Contents (Elt F)),
    StableHlo.binary main_v376 main_v381 main_v382 (mulf : (⟨S10000x600, .f32⟩ : BufTy).Contents (Elt F) → (⟨S10000x600, .f32⟩ : BufTy).Contents (Elt F) → (⟨S10000x600, .f32⟩ : BufTy).Contents (Elt F)),
    StableHlo.unary main_v348 main_v383 (broadcastInDim S1x600 ![1] bcast_S600_S1x600_1 : (⟨S600, .f32⟩ : BufTy).Contents (Elt F) → (⟨S1x600, .f32⟩ : BufTy).Contents (Elt F)),
    StableHlo.unary main_v383 main_v384 (broadcastInDim S10000x600 ![0, 1] bcast_S1x600_S10000x600_0_1 : (⟨S1x600, .f32⟩ : BufTy).Contents (Elt F) → (⟨S10000x600, .f32⟩ : BufTy).Contents (Elt F)),
    StableHlo.binary main_v382 main_v384 main_v385 (mulf : (⟨S10000x600, .f32⟩ : BufTy).Contents (Elt F) → (⟨S10000x600, .f32⟩ : BufTy).Contents (Elt F) → (⟨S10000x600, .f32⟩ : BufTy).Contents (Elt F)),
    StableHlo.unary main_v350 main_v386 (broadcastInDim S1x600 ![1] bcast_S600_S1x600_1 : (⟨S600, .f32⟩ : BufTy).Contents (Elt F) → (⟨S1x600, .f32⟩ : BufTy).Contents (Elt F)),
    StableHlo.unary main_v386 main_v387 (broadcastInDim S10000x600 ![0, 1] bcast_S1x600_S10000x600_0_1 : (⟨S1x600, .f32⟩ : BufTy).Contents (Elt F) → (⟨S10000x600, .f32⟩ : BufTy).Contents (Elt F)),
    StableHlo.binary main_v385 main_v387 main_v388 (addf : (⟨S10000x600, .f32⟩ : BufTy).Contents (Elt F) → (⟨S10000x600, .f32⟩ : BufTy).Contents (Elt F) → (⟨S10000x600, .f32⟩ : BufTy).Contents (Elt F)),
    StableHlo.TRef.nullary main_call21.cst (constant S_ .f32 0x00000000#32),
    StableHlo.TRef.unary main_call21.cst main_call21.v0 (broadcastInDim S10000x600 ![] bcast_S_S10000x600),
    StableHlo.TRef.binary (StableHlo.TRef.of main_v388 : StableHlo.TRef sig ⟨S10000x600, .f32⟩) main_call21.v0 main_call21.v1 maximumf,
    StableHlo.binary main_v389 main_v352 main_v390 ((fun l r => Host.dotGeneral dot_S10000x600_S600x300_S10000x300_1_0_0_1_n_n none l r) : (⟨S10000x600, .f32⟩ : BufTy).Contents (Elt F) → (⟨S600x300, .f32⟩ : BufTy).Contents (Elt F) → (⟨S10000x300, .f32⟩ : BufTy).Contents (Elt F)),
    StableHlo.unary main_v354 main_v391 (broadcastInDim S1x300 ![1] bcast_S300_S1x300_1 : (⟨S300, .f32⟩ : BufTy).Contents (Elt F) → (⟨S1x300, .f32⟩ : BufTy).Contents (Elt F)),
    StableHlo.unary main_v391 main_v392 (broadcastInDim S10000x300 ![0, 1] bcast_S1x300_S10000x300_0_1 : (⟨S1x300, .f32⟩ : BufTy).Contents (Elt F) → (⟨S10000x300, .f32⟩ : BufTy).Contents (Elt F)),
    StableHlo.binary main_v390 main_v392 main_v393 (addf : (⟨S10000x300, .f32⟩ : BufTy).Contents (Elt F) → (⟨S10000x300, .f32⟩ : BufTy).Contents (Elt F) → (⟨S10000x300, .f32⟩ : BufTy).Contents (Elt F)),
    StableHlo.unary main_arg18 main_v394 ((extractStridedSlice S1x300 ![2, 0] · slices_S4x300_S1x300_2_0) : (⟨S4x300, .f32⟩ : BufTy).Contents (Elt F) → (⟨S1x300, .f32⟩ : BufTy).Contents (Elt F)),
    StableHlo.reshape main_v394 main_v395 rfl shapeCasts_S1x300_S300,
    StableHlo.unary main_arg19 main_v396 ((extractStridedSlice S1x300 ![2, 0] · slices_S4x300_S1x300_2_0) : (⟨S4x300, .f32⟩ : BufTy).Contents (Elt F) → (⟨S1x300, .f32⟩ : BufTy).Contents (Elt F)) ]

/-- The buffers those operations write. -/
abbrev ops17_W : List (Ref sig .tc) :=
  [main_v364, main_v365, main_v366, main_v367, main_v368, main_v369, main_cst_58, main_v370, main_cst_59, main_v371, main_v372, main_c_60, main_call20_cst, main_call20_v0, main_call20_v1, main_call20_cst_0, main_call20_v2, main_call20_v3, main_call20_v4, main_call20_v5, main_call20_v6, main_call20_v7, main_call20_cst_1, main_call20_v8, main_call20_cst_2, main_call20_v9, main_call20_v10, main_call20_v11, main_call20_cst_3, main_call20_v12, main_call20_cst_4, main_call20_call0_v0, main_call20_call0_v1, main_v373, main_v374, main_v375, main_v376, main_cst_61, main_v377, main_v378, main_v379, main_v380, main_v381, main_v382, main_v383, main_v384, main_v385, main_v386, main_v387, main_v388, main_call21_cst, main_call21_v0, main_v389, main_v390, main_v391, main_v392, main_v393, main_v394, main_v395, main_v396]

set_option maxRecDepth 8192 in
theorem ops17_sub : (ops17 : List (HloOp τ sig (Elt F))).Forall fun op => op.bufs ⊆ tcRefs τ sig :=
  ⟨ternary_bufs_sub .., binary_bufs_sub .., binary_bufs_sub .., unary_bufs_sub .., unary_bufs_sub .., binary_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., unary_bufs_sub .., reshape_bufs_sub .., unary_bufs_sub ..⟩

set_option maxRecDepth 8192 in
theorem ops17_writes : (ops17 : List (HloOp τ sig (Elt F))).Forall fun op =>
    op.writes ⊆ (ops17_W.map (Proc.devRef (τ := τ) .tc)).toFinset := by
  simp only [List.Forall]
  exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

set_option maxRecDepth 8192 in
/-- Every operation determines its results. -/
theorem ops17_fresh : ∀ op ∈ (ops17 : List (HloOp τ sig (Elt F))), op.fresh = ∅ := by
  intro _ h; (repeat (cases h with | head => rfl | tail _ h => ?_)); exact nomatch h

set_option maxRecDepth 8192 in
/-- None of them writes an argument of @main. -/
theorem ops17_keepArgs : ∀ r ∈ argRefs, r ∉ ops17_W := by decide

/-- The reference's operations 715 … 754 of 1028 (in window main_part7), a call's body listed
    at the call over the call's buffer record. -/
abbrev ops18 : List (HloOp τ sig (Elt F)) :=
  [ StableHlo.reshape main_v396 main_v397 rfl shapeCasts_S1x300_S300,
    StableHlo.nullary main_cst_62 (constant S_ .f32 0x00000000#32),
    StableHlo.binary main_v393 main_cst_62 main_v398 ((fun x v => Host.reduceAdd x v reducesTo_S10000x300_S300_d0 h_S_) : (⟨S10000x300, .f32⟩ : BufTy).Contents (Elt F) → (⟨S_, .f32⟩ : BufTy).Contents (Elt F) → (⟨S300, .f32⟩ : BufTy).Contents (Elt F)),
    StableHlo.nullary main_cst_63 (constant S_ .f32 0x461C4000#32),
    StableHlo.unary main_cst_63 main_v399 (broadcastInDim S300 ![] bcast_S_S300 : (⟨S_, .f32⟩ : BufTy).Contents (Elt F) → (⟨S300, .f32⟩ : BufTy).Contents (Elt F)),
    StableHlo.binary main_v398 main_v399 main_v400 (Host.divf : (⟨S300, .f32⟩ : BufTy).Contents (Elt F) → (⟨S300, .f32⟩ : BufTy).Contents (Elt F) → (⟨S300, .f32⟩ : BufTy).Contents (Elt F)),
    StableHlo.nullary main_c_64 (constantI S_ 32 0#32),
    StableHlo.TRef.nullary main_call22.cst (constant S_ .f32 0x00000000#32),
    StableHlo.TRef.binary (StableHlo.TRef.of main_v393 : StableHlo.TRef sig ⟨S10000x300, .f32⟩) main_call22.cst main_call22.v0 (fun x v => Host.reduceAdd x v reducesTo_S10000x300_S300_d0 h_S_),
    StableHlo.TRef.unary main_call22.v0 main_call22.v1 (broadcastInDim S1x300 ![1] bcast_S300_S1x300_1),
    StableHlo.TRef.nullary main_call22.cst_0 (constant S_ .f32 0x461C4000#32),
    StableHlo.TRef.unary main_call22.cst_0 main_call22.v2 (broadcastInDim S1x300 ![] bcast_S_S1x300),
    StableHlo.TRef.binary main_call22.v1 main_call22.v2 main_call22.v3 Host.divf,
    StableHlo.TRef.unary main_call22.v3 main_call22.v4 (broadcastInDim S10000x300 ![0, 1] bcast_S1x300_S10000x300_0_1),
    StableHlo.TRef.binary (StableHlo.TRef.of main_v393 : StableHlo.TRef sig ⟨S10000x300, .f32⟩) main_call22.v4 main_call22.v5 subf,
    StableHlo.TRef.binary main_call22.v5 main_call22.v5 main_call22.v6 mulf,
    StableHlo.TRef.unary (StableHlo.TRef.of main_c_64 : StableHlo.TRef sig ⟨S_, .i32⟩) main_call22.v7 (sitofp .f32),
    StableHlo.TRef.nullary main_call22.cst_1 (constant S_ .f32 0x461C4000#32),
    StableHlo.TRef.binary main_call22.cst_1 main_call22.v7 main_call22.v8 subf,
    StableHlo.TRef.nullary main_call22.cst_2 (constant S_ .f32 0x00000000#32),
    StableHlo.TRef.binary main_call22.v6 main_call22.cst_2 main_call22.v9 (fun x v => Host.reduceAdd x v reducesTo_S10000x300_S300_d0 h_S_),
    StableHlo.TRef.unary main_call22.v8 main_call22.v10 (broadcastInDim S300 ![] bcast_S_S300),
    StableHlo.TRef.binary main_call22.v9 main_call22.v10 main_call22.v11 Host.divf,
    StableHlo.TRef.nullary main_call22.cst_3 (constant S_ .f32 0x00000000#32),
    StableHlo.TRef.binary main_call22.v8 main_call22.cst_3 main_call22.v12 (cmpf .ogt),
    StableHlo.TRef.nullary main_call22.cst_4 (constant S_ .f32 0x7FC00000#32),
    StableHlo.TRef.unary main_call22.cst_4 main_call22.call0.v0 id,
    StableHlo.TRef.unary main_call22.call0.v0 main_call22.call0.v1 (broadcastInDim S300 ![] bcast_S_S300),
    StableHlo.TRef.ternary main_call22.v12 main_call22.v11 main_call22.call0.v1 main_call22.call0.v2 (fun p a b => select (broadcastInDim S300 ![] bcast_S_S300 p) a b),
    StableHlo.unary main_v400 main_v402 (broadcastInDim S1x300 ![1] bcast_S300_S1x300_1 : (⟨S300, .f32⟩ : BufTy).Contents (Elt F) → (⟨S1x300, .f32⟩ : BufTy).Contents (Elt F)),
    StableHlo.unary main_v402 main_v403 (broadcastInDim S10000x300 ![0, 1] bcast_S1x300_S10000x300_0_1 : (⟨S1x300, .f32⟩ : BufTy).Contents (Elt F) → (⟨S10000x300, .f32⟩ : BufTy).Contents (Elt F)),
    StableHlo.binary main_v393 main_v403 main_v404 (subf : (⟨S10000x300, .f32⟩ : BufTy).Contents (Elt F) → (⟨S10000x300, .f32⟩ : BufTy).Contents (Elt F) → (⟨S10000x300, .f32⟩ : BufTy).Contents (Elt F)),
    StableHlo.nullary main_cst_65 (constant S_ .f32 0x3727C5AC#32),
    StableHlo.unary main_cst_65 main_v405 (broadcastInDim S300 ![] bcast_S_S300 : (⟨S_, .f32⟩ : BufTy).Contents (Elt F) → (⟨S300, .f32⟩ : BufTy).Contents (Elt F)),
    StableHlo.binary main_v401 main_v405 main_v406 (addf : (⟨S300, .f32⟩ : BufTy).Contents (Elt F) → (⟨S300, .f32⟩ : BufTy).Contents (Elt F) → (⟨S300, .f32⟩ : BufTy).Contents (Elt F)),
    StableHlo.unary main_v406 main_v407 (Host.rsqrt : (⟨S300, .f32⟩ : BufTy).Contents (Elt F) → (⟨S300, .f32⟩ : BufTy).Contents (Elt F)),
    StableHlo.unary main_v407 main_v408 (broadcastInDim S1x300 ![1] bcast_S300_S1x300_1 : (⟨S300, .f32⟩ : BufTy).Contents (Elt F) → (⟨S1x300, .f32⟩ : BufTy).Contents (Elt F)),
    StableHlo.unary main_v408 main_v409 (broadcastInDim S10000x300 ![0, 1] bcast_S1x300_S10000x300_0_1 : (⟨S1x300, .f32⟩ : BufTy).Contents (Elt F) → (⟨S10000x300, .f32⟩ : BufTy).Contents (Elt F)),
    StableHlo.binary main_v404 main_v409 main_v410 (mulf : (⟨S10000x300, .f32⟩ : BufTy).Contents (Elt F) → (⟨S10000x300, .f32⟩ : BufTy).Contents (Elt F) → (⟨S10000x300, .f32⟩ : BufTy).Contents (Elt F)),
    StableHlo.unary main_v395 main_v411 (broadcastInDim S1x300 ![1] bcast_S300_S1x300_1 : (⟨S300, .f32⟩ : BufTy).Contents (Elt F) → (⟨S1x300, .f32⟩ : BufTy).Contents (Elt F)) ]

/-- The buffers those operations write. -/
abbrev ops18_W : List (Ref sig .tc) :=
  [main_v397, main_cst_62, main_v398, main_cst_63, main_v399, main_v400, main_c_64, main_call22_cst, main_call22_v0, main_call22_v1, main_call22_cst_0, main_call22_v2, main_call22_v3, main_call22_v4, main_call22_v5, main_call22_v6, main_call22_v7, main_call22_cst_1, main_call22_v8, main_call22_cst_2, main_call22_v9, main_call22_v10, main_call22_v11, main_call22_cst_3, main_call22_v12, main_call22_cst_4, main_call22_call0_v0, main_call22_call0_v1, main_v401, main_v402, main_v403, main_v404, main_cst_65, main_v405, main_v406, main_v407, main_v408, main_v409, main_v410, main_v411]

set_option maxRecDepth 8192 in
theorem ops18_sub : (ops18 : List (HloOp τ sig (Elt F))).Forall fun op => op.bufs ⊆ tcRefs τ sig :=
  ⟨reshape_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub ..⟩

set_option maxRecDepth 8192 in
theorem ops18_writes : (ops18 : List (HloOp τ sig (Elt F))).Forall fun op =>
    op.writes ⊆ (ops18_W.map (Proc.devRef (τ := τ) .tc)).toFinset := by
  simp only [List.Forall]
  exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

set_option maxRecDepth 8192 in
/-- Every operation determines its results. -/
theorem ops18_fresh : ∀ op ∈ (ops18 : List (HloOp τ sig (Elt F))), op.fresh = ∅ := by
  intro _ h; (repeat (cases h with | head => rfl | tail _ h => ?_)); exact nomatch h

set_option maxRecDepth 8192 in
/-- None of them writes an argument of @main. -/
theorem ops18_keepArgs : ∀ r ∈ argRefs, r ∉ ops18_W := by decide

set_option maxRecDepth 16384 in
set_option maxHeartbeats 4000000 in
/-- The window is the straight line of its operations: the called functions unfolded at their calls. -/
theorem main_part7_eq (c : Dev nD) : main_part7 (F := F) c = seq (ops16 ++ (ops17 ++ (ops18))) := by
  first
  | rfl
  | (simp only [main_part7, fn_relu.body, fn_var.body, fn_var_0.body, fn_where.body, fn_where_1.body, List.cons_append, List.nil_append, seq, bind_assoc, pure_bind]; try rfl)

end Cert.ReferenceIdeal.RefRun

end
-- ==== Proof.Ref.OpsW8.lean ====
import proofs.«411400_j9251359555630_1_alg».proof.ReferenceIdeal
import Idealize.ShloMosaic.Lib.StableHlo.Run
import proofs.«411400_j9251359555630_1_alg».proof.Proof.Ref.Common

noncomputable section

namespace Cert.ReferenceIdeal.RefRun

open Cert.ReferenceIdeal Idealize.ShloMosaic Idealize.ShloMosaic.TcCoe Idealize.SL.Sem Idealize.ShloMosaic.StableHlo
open Cert.ReferenceIdeal.Facts₀ Cert.ReferenceIdeal.Facts

variable {F : FTy → Type} [FloatOps F] [Facts]

/-- The reference's operations 755 … 765 of 1028 (in window main_part8), a call's body listed
    at the call over the call's buffer record. -/
abbrev ops19 : List (HloOp τ sig (Elt F)) :=
  [ StableHlo.unary main_v411 main_v412 (broadcastInDim S10000x300 ![0, 1] bcast_S1x300_S10000x300_0_1 : (⟨S1x300, .f32⟩ : BufTy).Contents (Elt F) → (⟨S10000x300, .f32⟩ : BufTy).Contents (Elt F)),
    StableHlo.binary main_v410 main_v412 main_v413 (mulf : (⟨S10000x300, .f32⟩ : BufTy).Contents (Elt F) → (⟨S10000x300, .f32⟩ : BufTy).Contents (Elt F) → (⟨S10000x300, .f32⟩ : BufTy).Contents (Elt F)),
    StableHlo.unary main_v397 main_v414 (broadcastInDim S1x300 ![1] bcast_S300_S1x300_1 : (⟨S300, .f32⟩ : BufTy).Contents (Elt F) → (⟨S1x300, .f32⟩ : BufTy).Contents (Elt F)),
    StableHlo.unary main_v414 main_v415 (broadcastInDim S10000x300 ![0, 1] bcast_S1x300_S10000x300_0_1 : (⟨S1x300, .f32⟩ : BufTy).Contents (Elt F) → (⟨S10000x300, .f32⟩ : BufTy).Contents (Elt F)),
    StableHlo.binary main_v413 main_v415 main_v416 (addf : (⟨S10000x300, .f32⟩ : BufTy).Contents (Elt F) → (⟨S10000x300, .f32⟩ : BufTy).Contents (Elt F) → (⟨S10000x300, .f32⟩ : BufTy).Contents (Elt F)),
    StableHlo.TRef.nullary main_call23.cst (constant S_ .f32 0x00000000#32),
    StableHlo.TRef.unary main_call23.cst main_call23.v0 (broadcastInDim S10000x300 ![] bcast_S_S10000x300),
    StableHlo.TRef.binary (StableHlo.TRef.of main_v416 : StableHlo.TRef sig ⟨S10000x300, .f32⟩) main_call23.v0 main_call23.v1 maximumf,
    StableHlo.nullary main_cst_66 (constant S_ .f32 0x00000000#32),
    StableHlo.unary main_cst_66 main_v418 (broadcastInDim S64x300 ![] bcast_S_S64x300 : (⟨S_, .f32⟩ : BufTy).Contents (Elt F) → (⟨S64x300, .f32⟩ : BufTy).Contents (Elt F)),
    StableHlo.unary main_arg2 main_v419 (broadcastInDim S10000x1 ![0] bcast_S10000_S10000x1_0 : (⟨S10000, .i32⟩ : BufTy).Contents (Elt F) → (⟨S10000x1, .i32⟩ : BufTy).Contents (Elt F)) ]

/-- The buffers those operations write. -/
abbrev ops19_W : List (Ref sig .tc) :=
  [main_v412, main_v413, main_v414, main_v415, main_v416, main_call23_cst, main_call23_v0, main_v417, main_cst_66, main_v418, main_v419]

set_option maxRecDepth 8192 in
theorem ops19_sub : (ops19 : List (HloOp τ sig (Elt F))).Forall fun op => op.bufs ⊆ tcRefs τ sig :=
  ⟨unary_bufs_sub .., binary_bufs_sub .., unary_bufs_sub .., unary_bufs_sub .., binary_bufs_sub .., nullary_bufs_sub .., unary_bufs_sub .., binary_bufs_sub .., nullary_bufs_sub .., unary_bufs_sub .., unary_bufs_sub ..⟩

set_option maxRecDepth 8192 in
theorem ops19_writes : (ops19 : List (HloOp τ sig (Elt F))).Forall fun op =>
    op.writes ⊆ (ops19_W.map (Proc.devRef (τ := τ) .tc)).toFinset := by
  simp only [List.Forall]
  exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

set_option maxRecDepth 8192 in
/-- Every operation determines its results. -/
theorem ops19_fresh : ∀ op ∈ (ops19 : List (HloOp τ sig (Elt F))), op.fresh = ∅ := by
  intro _ h; (repeat (cases h with | head => rfl | tail _ h => ?_)); exact nomatch h

set_option maxRecDepth 8192 in
/-- None of them writes an argument of @main. -/
theorem ops19_keepArgs : ∀ r ∈ argRefs, r ∉ ops19_W := by decide

/-- The reference's operations 766 … 825 of 1028 (in window main_part8), a call's body listed
    at the call over the call's buffer record. -/
abbrev ops20 : List (HloOp τ sig (Elt F)) :=
  [ StableHlo.ternary main_v418 main_v419 main_v417 main_v420 ((fun x i u => Host.scatterAdd scatter_S64x300_S10000x1_S10000x300_1_0_0_1 x i u) : (⟨S64x300, .f32⟩ : BufTy).Contents (Elt F) → (⟨S10000x1, .i32⟩ : BufTy).Contents (Elt F) → (⟨S10000x300, .f32⟩ : BufTy).Contents (Elt F) → (⟨S64x300, .f32⟩ : BufTy).Contents (Elt F)),
    StableHlo.binary main_v420 main_v334 main_v421 (addf : (⟨S64x300, .f32⟩ : BufTy).Contents (Elt F) → (⟨S64x300, .f32⟩ : BufTy).Contents (Elt F) → (⟨S64x300, .f32⟩ : BufTy).Contents (Elt F)),
    StableHlo.binary main_v421 main_arg20 main_v422 ((fun l r => Host.dotGeneral dot_S64x300_S300x600_S64x600_1_0_0_1_n_n none l r) : (⟨S64x300, .f32⟩ : BufTy).Contents (Elt F) → (⟨S300x600, .f32⟩ : BufTy).Contents (Elt F) → (⟨S64x600, .f32⟩ : BufTy).Contents (Elt F)),
    StableHlo.unary main_arg21 main_v423 (broadcastInDim S1x600 ![1] bcast_S600_S1x600_1 : (⟨S600, .f32⟩ : BufTy).Contents (Elt F) → (⟨S1x600, .f32⟩ : BufTy).Contents (Elt F)),
    StableHlo.unary main_v423 main_v424 (broadcastInDim S64x600 ![0, 1] bcast_S1x600_S64x600_0_1 : (⟨S1x600, .f32⟩ : BufTy).Contents (Elt F) → (⟨S64x600, .f32⟩ : BufTy).Contents (Elt F)),
    StableHlo.binary main_v422 main_v424 main_v425 (addf : (⟨S64x600, .f32⟩ : BufTy).Contents (Elt F) → (⟨S64x600, .f32⟩ : BufTy).Contents (Elt F) → (⟨S64x600, .f32⟩ : BufTy).Contents (Elt F)),
    StableHlo.nullary main_cst_67 (constant S_ .f32 0x00000000#32),
    StableHlo.binary main_v425 main_cst_67 main_v426 ((fun x v => Host.reduceAdd x v reducesTo_S64x600_S600_d0 h_S_) : (⟨S64x600, .f32⟩ : BufTy).Contents (Elt F) → (⟨S_, .f32⟩ : BufTy).Contents (Elt F) → (⟨S600, .f32⟩ : BufTy).Contents (Elt F)),
    StableHlo.nullary main_cst_68 (constant S_ .f32 0x42800000#32),
    StableHlo.unary main_cst_68 main_v427 (broadcastInDim S600 ![] bcast_S_S600 : (⟨S_, .f32⟩ : BufTy).Contents (Elt F) → (⟨S600, .f32⟩ : BufTy).Contents (Elt F)),
    StableHlo.binary main_v426 main_v427 main_v428 (Host.divf : (⟨S600, .f32⟩ : BufTy).Contents (Elt F) → (⟨S600, .f32⟩ : BufTy).Contents (Elt F) → (⟨S600, .f32⟩ : BufTy).Contents (Elt F)),
    StableHlo.nullary main_c_69 (constantI S_ 32 0#32),
    StableHlo.TRef.nullary main_call24.cst (constant S_ .f32 0x00000000#32),
    StableHlo.TRef.binary (StableHlo.TRef.of main_v425 : StableHlo.TRef sig ⟨S64x600, .f32⟩) main_call24.cst main_call24.v0 (fun x v => Host.reduceAdd x v reducesTo_S64x600_S600_d0 h_S_),
    StableHlo.TRef.unary main_call24.v0 main_call24.v1 (broadcastInDim S1x600 ![1] bcast_S600_S1x600_1),
    StableHlo.TRef.nullary main_call24.cst_0 (constant S_ .f32 0x42800000#32),
    StableHlo.TRef.unary main_call24.cst_0 main_call24.v2 (broadcastInDim S1x600 ![] bcast_S_S1x600),
    StableHlo.TRef.binary main_call24.v1 main_call24.v2 main_call24.v3 Host.divf,
    StableHlo.TRef.unary main_call24.v3 main_call24.v4 (broadcastInDim S64x600 ![0, 1] bcast_S1x600_S64x600_0_1),
    StableHlo.TRef.binary (StableHlo.TRef.of main_v425 : StableHlo.TRef sig ⟨S64x600, .f32⟩) main_call24.v4 main_call24.v5 subf,
    StableHlo.TRef.binary main_call24.v5 main_call24.v5 main_call24.v6 mulf,
    StableHlo.TRef.unary (StableHlo.TRef.of main_c_69 : StableHlo.TRef sig ⟨S_, .i32⟩) main_call24.v7 (sitofp .f32),
    StableHlo.TRef.nullary main_call24.cst_1 (constant S_ .f32 0x42800000#32),
    StableHlo.TRef.binary main_call24.cst_1 main_call24.v7 main_call24.v8 subf,
    StableHlo.TRef.nullary main_call24.cst_2 (constant S_ .f32 0x00000000#32),
    StableHlo.TRef.binary main_call24.v6 main_call24.cst_2 main_call24.v9 (fun x v => Host.reduceAdd x v reducesTo_S64x600_S600_d0 h_S_),
    StableHlo.TRef.unary main_call24.v8 main_call24.v10 (broadcastInDim S600 ![] bcast_S_S600),
    StableHlo.TRef.binary main_call24.v9 main_call24.v10 main_call24.v11 Host.divf,
    StableHlo.TRef.nullary main_call24.cst_3 (constant S_ .f32 0x00000000#32),
    StableHlo.TRef.binary main_call24.v8 main_call24.cst_3 main_call24.v12 (cmpf .ogt),
    StableHlo.TRef.nullary main_call24.cst_4 (constant S_ .f32 0x7FC00000#32),
    StableHlo.TRef.unary main_call24.cst_4 main_call24.call0.v0 id,
    StableHlo.TRef.unary main_call24.call0.v0 main_call24.call0.v1 (broadcastInDim S600 ![] bcast_S_S600),
    StableHlo.TRef.ternary main_call24.v12 main_call24.v11 main_call24.call0.v1 main_call24.call0.v2 (fun p a b => select (broadcastInDim S600 ![] bcast_S_S600 p) a b),
    StableHlo.unary main_v428 main_v430 (broadcastInDim S1x600 ![1] bcast_S600_S1x600_1 : (⟨S600, .f32⟩ : BufTy).Contents (Elt F) → (⟨S1x600, .f32⟩ : BufTy).Contents (Elt F)),
    StableHlo.unary main_v430 main_v431 (broadcastInDim S64x600 ![0, 1] bcast_S1x600_S64x600_0_1 : (⟨S1x600, .f32⟩ : BufTy).Contents (Elt F) → (⟨S64x600, .f32⟩ : BufTy).Contents (Elt F)),
    StableHlo.binary main_v425 main_v431 main_v432 (subf : (⟨S64x600, .f32⟩ : BufTy).Contents (Elt F) → (⟨S64x600, .f32⟩ : BufTy).Contents (Elt F) → (⟨S64x600, .f32⟩ : BufTy).Contents (Elt F)),
    StableHlo.nullary main_cst_70 (constant S_ .f32 0x3727C5AC#32),
    StableHlo.unary main_cst_70 main_v433 (broadcastInDim S600 ![] bcast_S_S600 : (⟨S_, .f32⟩ : BufTy).Contents (Elt F) → (⟨S600, .f32⟩ : BufTy).Contents (Elt F)),
    StableHlo.binary main_v429 main_v433 main_v434 (addf : (⟨S600, .f32⟩ : BufTy).Contents (Elt F) → (⟨S600, .f32⟩ : BufTy).Contents (Elt F) → (⟨S600, .f32⟩ : BufTy).Contents (Elt F)),
    StableHlo.unary main_v434 main_v435 (Host.rsqrt : (⟨S600, .f32⟩ : BufTy).Contents (Elt F) → (⟨S600, .f32⟩ : BufTy).Contents (Elt F)),
    StableHlo.unary main_v435 main_v436 (broadcastInDim S1x600 ![1] bcast_S600_S1x600_1 : (⟨S600, .f32⟩ : BufTy).Contents (Elt F) → (⟨S1x600, .f32⟩ : BufTy).Contents (Elt F)),
    StableHlo.unary main_v436 main_v437 (broadcastInDim S64x600 ![0, 1] bcast_S1x600_S64x600_0_1 : (⟨S1x600, .f32⟩ : BufTy).Contents (Elt F) → (⟨S64x600, .f32⟩ : BufTy).Contents (Elt F)),
    StableHlo.binary main_v432 main_v437 main_v438 (mulf : (⟨S64x600, .f32⟩ : BufTy).Contents (Elt F) → (⟨S64x600, .f32⟩ : BufTy).Contents (Elt F) → (⟨S64x600, .f32⟩ : BufTy).Contents (Elt F)),
    StableHlo.unary main_arg22 main_v439 (broadcastInDim S1x600 ![1] bcast_S600_S1x600_1 : (⟨S600, .f32⟩ : BufTy).Contents (Elt F) → (⟨S1x600, .f32⟩ : BufTy).Contents (Elt F)),
    StableHlo.unary main_v439 main_v440 (broadcastInDim S64x600 ![0, 1] bcast_S1x600_S64x600_0_1 : (⟨S1x600, .f32⟩ : BufTy).Contents (Elt F) → (⟨S64x600, .f32⟩ : BufTy).Contents (Elt F)),
    StableHlo.binary main_v438 main_v440 main_v441 (mulf : (⟨S64x600, .f32⟩ : BufTy).Contents (Elt F) → (⟨S64x600, .f32⟩ : BufTy).Contents (Elt F) → (⟨S64x600, .f32⟩ : BufTy).Contents (Elt F)),
    StableHlo.unary main_arg23 main_v442 (broadcastInDim S1x600 ![1] bcast_S600_S1x600_1 : (⟨S600, .f32⟩ : BufTy).Contents (Elt F) → (⟨S1x600, .f32⟩ : BufTy).Contents (Elt F)),
    StableHlo.unary main_v442 main_v443 (broadcastInDim S64x600 ![0, 1] bcast_S1x600_S64x600_0_1 : (⟨S1x600, .f32⟩ : BufTy).Contents (Elt F) → (⟨S64x600, .f32⟩ : BufTy).Contents (Elt F)),
    StableHlo.binary main_v441 main_v443 main_v444 (addf : (⟨S64x600, .f32⟩ : BufTy).Contents (Elt F) → (⟨S64x600, .f32⟩ : BufTy).Contents (Elt F) → (⟨S64x600, .f32⟩ : BufTy).Contents (Elt F)),
    StableHlo.TRef.nullary main_call25.cst (constant S_ .f32 0x00000000#32),
    StableHlo.TRef.unary main_call25.cst main_call25.v0 (broadcastInDim S64x600 ![] bcast_S_S64x600),
    StableHlo.TRef.binary (StableHlo.TRef.of main_v444 : StableHlo.TRef sig ⟨S64x600, .f32⟩) main_call25.v0 main_call25.v1 maximumf,
    StableHlo.binary main_v445 main_arg24 main_v446 ((fun l r => Host.dotGeneral dot_S64x600_S600x300_S64x300_1_0_0_1_n_n none l r) : (⟨S64x600, .f32⟩ : BufTy).Contents (Elt F) → (⟨S600x300, .f32⟩ : BufTy).Contents (Elt F) → (⟨S64x300, .f32⟩ : BufTy).Contents (Elt F)),
    StableHlo.unary main_arg25 main_v447 (broadcastInDim S1x300 ![1] bcast_S300_S1x300_1 : (⟨S300, .f32⟩ : BufTy).Contents (Elt F) → (⟨S1x300, .f32⟩ : BufTy).Contents (Elt F)),
    StableHlo.unary main_v447 main_v448 (broadcastInDim S64x300 ![0, 1] bcast_S1x300_S64x300_0_1 : (⟨S1x300, .f32⟩ : BufTy).Contents (Elt F) → (⟨S64x300, .f32⟩ : BufTy).Contents (Elt F)),
    StableHlo.binary main_v446 main_v448 main_v449 (addf : (⟨S64x300, .f32⟩ : BufTy).Contents (Elt F) → (⟨S64x300, .f32⟩ : BufTy).Contents (Elt F) → (⟨S64x300, .f32⟩ : BufTy).Contents (Elt F)),
    StableHlo.nullary main_cst_71 (constant S_ .f32 0x00000000#32),
    StableHlo.binary main_v449 main_cst_71 main_v450 ((fun x v => Host.reduceAdd x v reducesTo_S64x300_S300_d0 h_S_) : (⟨S64x300, .f32⟩ : BufTy).Contents (Elt F) → (⟨S_, .f32⟩ : BufTy).Contents (Elt F) → (⟨S300, .f32⟩ : BufTy).Contents (Elt F)),
    StableHlo.nullary main_cst_72 (constant S_ .f32 0x42800000#32) ]

/-- The buffers those operations write. -/
abbrev ops20_W : List (Ref sig .tc) :=
  [main_v420, main_v421, main_v422, main_v423, main_v424, main_v425, main_cst_67, main_v426, main_cst_68, main_v427, main_v428, main_c_69, main_call24_cst, main_call24_v0, main_call24_v1, main_call24_cst_0, main_call24_v2, main_call24_v3, main_call24_v4, main_call24_v5, main_call24_v6, main_call24_v7, main_call24_cst_1, main_call24_v8, main_call24_cst_2, main_call24_v9, main_call24_v10, main_call24_v11, main_call24_cst_3, main_call24_v12, main_call24_cst_4, main_call24_call0_v0, main_call24_call0_v1, main_v429, main_v430, main_v431, main_v432, main_cst_70, main_v433, main_v434, main_v435, main_v436, main_v437, main_v438, main_v439, main_v440, main_v441, main_v442, main_v443, main_v444, main_call25_cst, main_call25_v0, main_v445, main_v446, main_v447, main_v448, main_v449, main_cst_71, main_v450, main_cst_72]

set_option maxRecDepth 8192 in
theorem ops20_sub : (ops20 : List (HloOp τ sig (Elt F))).Forall fun op => op.bufs ⊆ tcRefs τ sig :=
  ⟨ternary_bufs_sub .., binary_bufs_sub .., binary_bufs_sub .., unary_bufs_sub .., unary_bufs_sub .., binary_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., nullary_bufs_sub .., binary_bufs_sub .., nullary_bufs_sub ..⟩

set_option maxRecDepth 8192 in
theorem ops20_writes : (ops20 : List (HloOp τ sig (Elt F))).Forall fun op =>
    op.writes ⊆ (ops20_W.map (Proc.devRef (τ := τ) .tc)).toFinset := by
  simp only [List.Forall]
  exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

set_option maxRecDepth 8192 in
/-- Every operation determines its results. -/
theorem ops20_fresh : ∀ op ∈ (ops20 : List (HloOp τ sig (Elt F))), op.fresh = ∅ := by
  intro _ h; (repeat (cases h with | head => rfl | tail _ h => ?_)); exact nomatch h

set_option maxRecDepth 8192 in
/-- None of them writes an argument of @main. -/
theorem ops20_keepArgs : ∀ r ∈ argRefs, r ∉ ops20_W := by decide

/-- The reference's operations 826 … 860 of 1028 (in window main_part8), a call's body listed
    at the call over the call's buffer record. -/
abbrev ops21 : List (HloOp τ sig (Elt F)) :=
  [ StableHlo.unary main_cst_72 main_v451 (broadcastInDim S300 ![] bcast_S_S300 : (⟨S_, .f32⟩ : BufTy).Contents (Elt F) → (⟨S300, .f32⟩ : BufTy).Contents (Elt F)),
    StableHlo.binary main_v450 main_v451 main_v452 (Host.divf : (⟨S300, .f32⟩ : BufTy).Contents (Elt F) → (⟨S300, .f32⟩ : BufTy).Contents (Elt F) → (⟨S300, .f32⟩ : BufTy).Contents (Elt F)),
    StableHlo.nullary main_c_73 (constantI S_ 32 0#32),
    StableHlo.TRef.nullary main_call26.cst (constant S_ .f32 0x00000000#32),
    StableHlo.TRef.binary (StableHlo.TRef.of main_v449 : StableHlo.TRef sig ⟨S64x300, .f32⟩) main_call26.cst main_call26.v0 (fun x v => Host.reduceAdd x v reducesTo_S64x300_S300_d0 h_S_),
    StableHlo.TRef.unary main_call26.v0 main_call26.v1 (broadcastInDim S1x300 ![1] bcast_S300_S1x300_1),
    StableHlo.TRef.nullary main_call26.cst_0 (constant S_ .f32 0x42800000#32),
    StableHlo.TRef.unary main_call26.cst_0 main_call26.v2 (broadcastInDim S1x300 ![] bcast_S_S1x300),
    StableHlo.TRef.binary main_call26.v1 main_call26.v2 main_call26.v3 Host.divf,
    StableHlo.TRef.unary main_call26.v3 main_call26.v4 (broadcastInDim S64x300 ![0, 1] bcast_S1x300_S64x300_0_1),
    StableHlo.TRef.binary (StableHlo.TRef.of main_v449 : StableHlo.TRef sig ⟨S64x300, .f32⟩) main_call26.v4 main_call26.v5 subf,
    StableHlo.TRef.binary main_call26.v5 main_call26.v5 main_call26.v6 mulf,
    StableHlo.TRef.unary (StableHlo.TRef.of main_c_73 : StableHlo.TRef sig ⟨S_, .i32⟩) main_call26.v7 (sitofp .f32),
    StableHlo.TRef.nullary main_call26.cst_1 (constant S_ .f32 0x42800000#32),
    StableHlo.TRef.binary main_call26.cst_1 main_call26.v7 main_call26.v8 subf,
    StableHlo.TRef.nullary main_call26.cst_2 (constant S_ .f32 0x00000000#32),
    StableHlo.TRef.binary main_call26.v6 main_call26.cst_2 main_call26.v9 (fun x v => Host.reduceAdd x v reducesTo_S64x300_S300_d0 h_S_),
    StableHlo.TRef.unary main_call26.v8 main_call26.v10 (broadcastInDim S300 ![] bcast_S_S300),
    StableHlo.TRef.binary main_call26.v9 main_call26.v10 main_call26.v11 Host.divf,
    StableHlo.TRef.nullary main_call26.cst_3 (constant S_ .f32 0x00000000#32),
    StableHlo.TRef.binary main_call26.v8 main_call26.cst_3 main_call26.v12 (cmpf .ogt),
    StableHlo.TRef.nullary main_call26.cst_4 (constant S_ .f32 0x7FC00000#32),
    StableHlo.TRef.unary main_call26.cst_4 main_call26.call0.v0 id,
    StableHlo.TRef.unary main_call26.call0.v0 main_call26.call0.v1 (broadcastInDim S300 ![] bcast_S_S300),
    StableHlo.TRef.ternary main_call26.v12 main_call26.v11 main_call26.call0.v1 main_call26.call0.v2 (fun p a b => select (broadcastInDim S300 ![] bcast_S_S300 p) a b),
    StableHlo.unary main_v452 main_v454 (broadcastInDim S1x300 ![1] bcast_S300_S1x300_1 : (⟨S300, .f32⟩ : BufTy).Contents (Elt F) → (⟨S1x300, .f32⟩ : BufTy).Contents (Elt F)),
    StableHlo.unary main_v454 main_v455 (broadcastInDim S64x300 ![0, 1] bcast_S1x300_S64x300_0_1 : (⟨S1x300, .f32⟩ : BufTy).Contents (Elt F) → (⟨S64x300, .f32⟩ : BufTy).Contents (Elt F)),
    StableHlo.binary main_v449 main_v455 main_v456 (subf : (⟨S64x300, .f32⟩ : BufTy).Contents (Elt F) → (⟨S64x300, .f32⟩ : BufTy).Contents (Elt F) → (⟨S64x300, .f32⟩ : BufTy).Contents (Elt F)),
    StableHlo.nullary main_cst_74 (constant S_ .f32 0x3727C5AC#32),
    StableHlo.unary main_cst_74 main_v457 (broadcastInDim S300 ![] bcast_S_S300 : (⟨S_, .f32⟩ : BufTy).Contents (Elt F) → (⟨S300, .f32⟩ : BufTy).Contents (Elt F)),
    StableHlo.binary main_v453 main_v457 main_v458 (addf : (⟨S300, .f32⟩ : BufTy).Contents (Elt F) → (⟨S300, .f32⟩ : BufTy).Contents (Elt F) → (⟨S300, .f32⟩ : BufTy).Contents (Elt F)),
    StableHlo.unary main_v458 main_v459 (Host.rsqrt : (⟨S300, .f32⟩ : BufTy).Contents (Elt F) → (⟨S300, .f32⟩ : BufTy).Contents (Elt F)),
    StableHlo.unary main_v459 main_v460 (broadcastInDim S1x300 ![1] bcast_S300_S1x300_1 : (⟨S300, .f32⟩ : BufTy).Contents (Elt F) → (⟨S1x300, .f32⟩ : BufTy).Contents (Elt F)),
    StableHlo.unary main_v460 main_v461 (broadcastInDim S64x300 ![0, 1] bcast_S1x300_S64x300_0_1 : (⟨S1x300, .f32⟩ : BufTy).Contents (Elt F) → (⟨S64x300, .f32⟩ : BufTy).Contents (Elt F)),
    StableHlo.binary main_v456 main_v461 main_v462 (mulf : (⟨S64x300, .f32⟩ : BufTy).Contents (Elt F) → (⟨S64x300, .f32⟩ : BufTy).Contents (Elt F) → (⟨S64x300, .f32⟩ : BufTy).Contents (Elt F)) ]

/-- The buffers those operations write. -/
abbrev ops21_W : List (Ref sig .tc) :=
  [main_v451, main_v452, main_c_73, main_call26_cst, main_call26_v0, main_call26_v1, main_call26_cst_0, main_call26_v2, main_call26_v3, main_call26_v4, main_call26_v5, main_call26_v6, main_call26_v7, main_call26_cst_1, main_call26_v8, main_call26_cst_2, main_call26_v9, main_call26_v10, main_call26_v11, main_call26_cst_3, main_call26_v12, main_call26_cst_4, main_call26_call0_v0, main_call26_call0_v1, main_v453, main_v454, main_v455, main_v456, main_cst_74, main_v457, main_v458, main_v459, main_v460, main_v461, main_v462]

set_option maxRecDepth 8192 in
theorem ops21_sub : (ops21 : List (HloOp τ sig (Elt F))).Forall fun op => op.bufs ⊆ tcRefs τ sig :=
  ⟨unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., unary_bufs_sub .., unary_bufs_sub .., unary_bufs_sub .., binary_bufs_sub ..⟩

set_option maxRecDepth 8192 in
theorem ops21_writes : (ops21 : List (HloOp τ sig (Elt F))).Forall fun op =>
    op.writes ⊆ (ops21_W.map (Proc.devRef (τ := τ) .tc)).toFinset := by
  simp only [List.Forall]
  exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

set_option maxRecDepth 8192 in
/-- Every operation determines its results. -/
theorem ops21_fresh : ∀ op ∈ (ops21 : List (HloOp τ sig (Elt F))), op.fresh = ∅ := by
  intro _ h; (repeat (cases h with | head => rfl | tail _ h => ?_)); exact nomatch h

set_option maxRecDepth 8192 in
/-- None of them writes an argument of @main. -/
theorem ops21_keepArgs : ∀ r ∈ argRefs, r ∉ ops21_W := by decide

set_option maxRecDepth 16384 in
set_option maxHeartbeats 4000000 in
/-- The window is the straight line of its operations: the called functions unfolded at their calls. -/
theorem main_part8_eq (c : Dev nD) : main_part8 (F := F) c = seq (ops19 ++ (ops20 ++ (ops21))) := by
  first
  | rfl
  | (simp only [main_part8, fn_relu_2.body, fn_relu_4.body, fn_var_3.body, fn_var_5.body, fn_where.body, fn_where_1.body, List.cons_append, List.nil_append, seq, bind_assoc, pure_bind]; try rfl)

end Cert.ReferenceIdeal.RefRun

end
-- ==== Proof.Ref.OpsW9.lean ====
import proofs.«411400_j9251359555630_1_alg».proof.ReferenceIdeal
import Idealize.ShloMosaic.Lib.StableHlo.Run
import proofs.«411400_j9251359555630_1_alg».proof.Proof.Ref.Common

noncomputable section

namespace Cert.ReferenceIdeal.RefRun

open Cert.ReferenceIdeal Idealize.ShloMosaic Idealize.ShloMosaic.TcCoe Idealize.SL.Sem Idealize.ShloMosaic.StableHlo
open Cert.ReferenceIdeal.Facts₀ Cert.ReferenceIdeal.Facts

variable {F : FTy → Type} [FloatOps F] [Facts]

/-- The reference's operations 861 … 903 of 1028 (in window main_part9), a call's body listed
    at the call over the call's buffer record. -/
abbrev ops22 : List (HloOp τ sig (Elt F)) :=
  [ StableHlo.unary main_arg26 main_v463 (broadcastInDim S1x300 ![1] bcast_S300_S1x300_1 : (⟨S300, .f32⟩ : BufTy).Contents (Elt F) → (⟨S1x300, .f32⟩ : BufTy).Contents (Elt F)),
    StableHlo.unary main_v463 main_v464 (broadcastInDim S64x300 ![0, 1] bcast_S1x300_S64x300_0_1 : (⟨S1x300, .f32⟩ : BufTy).Contents (Elt F) → (⟨S64x300, .f32⟩ : BufTy).Contents (Elt F)),
    StableHlo.binary main_v462 main_v464 main_v465 (mulf : (⟨S64x300, .f32⟩ : BufTy).Contents (Elt F) → (⟨S64x300, .f32⟩ : BufTy).Contents (Elt F) → (⟨S64x300, .f32⟩ : BufTy).Contents (Elt F)),
    StableHlo.unary main_arg27 main_v466 (broadcastInDim S1x300 ![1] bcast_S300_S1x300_1 : (⟨S300, .f32⟩ : BufTy).Contents (Elt F) → (⟨S1x300, .f32⟩ : BufTy).Contents (Elt F)),
    StableHlo.unary main_v466 main_v467 (broadcastInDim S64x300 ![0, 1] bcast_S1x300_S64x300_0_1 : (⟨S1x300, .f32⟩ : BufTy).Contents (Elt F) → (⟨S64x300, .f32⟩ : BufTy).Contents (Elt F)),
    StableHlo.binary main_v465 main_v467 main_v468 (addf : (⟨S64x300, .f32⟩ : BufTy).Contents (Elt F) → (⟨S64x300, .f32⟩ : BufTy).Contents (Elt F) → (⟨S64x300, .f32⟩ : BufTy).Contents (Elt F)),
    StableHlo.TRef.nullary main_call27.cst (constant S_ .f32 0x00000000#32),
    StableHlo.TRef.unary main_call27.cst main_call27.v0 (broadcastInDim S64x300 ![] bcast_S_S64x300),
    StableHlo.TRef.binary (StableHlo.TRef.of main_v468 : StableHlo.TRef sig ⟨S64x300, .f32⟩) main_call27.v0 main_call27.v1 maximumf,
    StableHlo.nullary main_c_75 (constantI S_ 32 0#32),
    StableHlo.unary main_c_75 main_v470 (broadcastInDim S10000 ![] bcast_S_S10000 : (⟨S_, .i32⟩ : BufTy).Contents (Elt F) → (⟨S10000, .i32⟩ : BufTy).Contents (Elt F)),
    StableHlo.binary main_arg2 main_v470 main_v471 (cmpi .slt : (⟨S10000, .i32⟩ : BufTy).Contents (Elt F) → (⟨S10000, .i32⟩ : BufTy).Contents (Elt F) → (⟨S10000, .i1⟩ : BufTy).Contents (Elt F)),
    StableHlo.nullary main_c_76 (constantI S_ 32 64#32),
    StableHlo.unary main_c_76 main_v472 (broadcastInDim S10000 ![] bcast_S_S10000 : (⟨S_, .i32⟩ : BufTy).Contents (Elt F) → (⟨S10000, .i32⟩ : BufTy).Contents (Elt F)),
    StableHlo.binary main_arg2 main_v472 main_v473 (addi : (⟨S10000, .i32⟩ : BufTy).Contents (Elt F) → (⟨S10000, .i32⟩ : BufTy).Contents (Elt F) → (⟨S10000, .i32⟩ : BufTy).Contents (Elt F)),
    StableHlo.ternary main_v471 main_v473 main_arg2 main_v474 (select : (⟨S10000, .i1⟩ : BufTy).Contents (Elt F) → (⟨S10000, .i32⟩ : BufTy).Contents (Elt F) → (⟨S10000, .i32⟩ : BufTy).Contents (Elt F) → (⟨S10000, .i32⟩ : BufTy).Contents (Elt F)),
    StableHlo.unary main_v474 main_v475 (broadcastInDim S10000x1 ![0] bcast_S10000_S10000x1_0 : (⟨S10000, .i32⟩ : BufTy).Contents (Elt F) → (⟨S10000x1, .i32⟩ : BufTy).Contents (Elt F)),
    StableHlo.binary main_v469 main_v475 main_v476 ((fun x i => Host.gather gather_S64x300_S10000x1_S10000x300_1_0_n_n_0_1_1300 x i) : (⟨S64x300, .f32⟩ : BufTy).Contents (Elt F) → (⟨S10000x1, .i32⟩ : BufTy).Contents (Elt F) → (⟨S10000x300, .f32⟩ : BufTy).Contents (Elt F)),
    StableHlo.binary main_v417 main_v476 main_v477 (addf : (⟨S10000x300, .f32⟩ : BufTy).Contents (Elt F) → (⟨S10000x300, .f32⟩ : BufTy).Contents (Elt F) → (⟨S10000x300, .f32⟩ : BufTy).Contents (Elt F)),
    StableHlo.unary main_arg10 main_v478 ((extractStridedSlice S1x300x600 ![3, 0, 0] · slices_S4x300x600_S1x300x600_3_0_0) : (⟨S4x300x600, .f32⟩ : BufTy).Contents (Elt F) → (⟨S1x300x600, .f32⟩ : BufTy).Contents (Elt F)),
    StableHlo.reshape main_v478 main_v479 rfl shapeCasts_S1x300x600_S300x600,
    StableHlo.unary main_arg11 main_v480 ((extractStridedSlice S1x600 ![3, 0] · slices_S4x600_S1x600_3_0) : (⟨S4x600, .f32⟩ : BufTy).Contents (Elt F) → (⟨S1x600, .f32⟩ : BufTy).Contents (Elt F)),
    StableHlo.reshape main_v480 main_v481 rfl shapeCasts_S1x600_S600,
    StableHlo.unary main_arg12 main_v482 ((extractStridedSlice S1x600 ![3, 0] · slices_S4x600_S1x600_3_0) : (⟨S4x600, .f32⟩ : BufTy).Contents (Elt F) → (⟨S1x600, .f32⟩ : BufTy).Contents (Elt F)),
    StableHlo.reshape main_v482 main_v483 rfl shapeCasts_S1x600_S600,
    StableHlo.unary main_arg13 main_v484 ((extractStridedSlice S1x600 ![3, 0] · slices_S4x600_S1x600_3_0) : (⟨S4x600, .f32⟩ : BufTy).Contents (Elt F) → (⟨S1x600, .f32⟩ : BufTy).Contents (Elt F)),
    StableHlo.reshape main_v484 main_v485 rfl shapeCasts_S1x600_S600,
    StableHlo.unary main_arg14 main_v486 ((extractStridedSlice S1x600x300 ![3, 0, 0] · slices_S4x600x300_S1x600x300_3_0_0) : (⟨S4x600x300, .f32⟩ : BufTy).Contents (Elt F) → (⟨S1x600x300, .f32⟩ : BufTy).Contents (Elt F)),
    StableHlo.reshape main_v486 main_v487 rfl shapeCasts_S1x600x300_S600x300,
    StableHlo.unary main_arg15 main_v488 ((extractStridedSlice S1x300 ![3, 0] · slices_S4x300_S1x300_3_0) : (⟨S4x300, .f32⟩ : BufTy).Contents (Elt F) → (⟨S1x300, .f32⟩ : BufTy).Contents (Elt F)),
    StableHlo.reshape main_v488 main_v489 rfl shapeCasts_S1x300_S300,
    StableHlo.nullary main_c_77 (constantI S_ 32 0#32),
    StableHlo.unary main_c_77 main_v490 (broadcastInDim S160000 ![] bcast_S_S160000 : (⟨S_, .i32⟩ : BufTy).Contents (Elt F) → (⟨S160000, .i32⟩ : BufTy).Contents (Elt F)),
    StableHlo.binary main_v1 main_v490 main_v491 (cmpi .slt : (⟨S160000, .i32⟩ : BufTy).Contents (Elt F) → (⟨S160000, .i32⟩ : BufTy).Contents (Elt F) → (⟨S160000, .i1⟩ : BufTy).Contents (Elt F)),
    StableHlo.nullary main_c_78 (constantI S_ 32 10000#32),
    StableHlo.unary main_c_78 main_v492 (broadcastInDim S160000 ![] bcast_S_S160000 : (⟨S_, .i32⟩ : BufTy).Contents (Elt F) → (⟨S160000, .i32⟩ : BufTy).Contents (Elt F)),
    StableHlo.binary main_v1 main_v492 main_v493 (addi : (⟨S160000, .i32⟩ : BufTy).Contents (Elt F) → (⟨S160000, .i32⟩ : BufTy).Contents (Elt F) → (⟨S160000, .i32⟩ : BufTy).Contents (Elt F)),
    StableHlo.ternary main_v491 main_v493 main_v1 main_v494 (select : (⟨S160000, .i1⟩ : BufTy).Contents (Elt F) → (⟨S160000, .i32⟩ : BufTy).Contents (Elt F) → (⟨S160000, .i32⟩ : BufTy).Contents (Elt F) → (⟨S160000, .i32⟩ : BufTy).Contents (Elt F)),
    StableHlo.unary main_v494 main_v495 (broadcastInDim S160000x1 ![0] bcast_S160000_S160000x1_0 : (⟨S160000, .i32⟩ : BufTy).Contents (Elt F) → (⟨S160000x1, .i32⟩ : BufTy).Contents (Elt F)),
    StableHlo.binary main_v477 main_v495 main_v496 ((fun x i => Host.gather gather_S10000x300_S160000x1_S160000x300_1_0_n_n_0_1_1300 x i) : (⟨S10000x300, .f32⟩ : BufTy).Contents (Elt F) → (⟨S160000x1, .i32⟩ : BufTy).Contents (Elt F) → (⟨S160000x300, .f32⟩ : BufTy).Contents (Elt F)),
    StableHlo.nullary main_cst_79 (constant S_ .f32 0x00000000#32),
    StableHlo.unary main_cst_79 main_v497 (broadcastInDim S10000x300 ![] bcast_S_S10000x300 : (⟨S_, .f32⟩ : BufTy).Contents (Elt F) → (⟨S10000x300, .f32⟩ : BufTy).Contents (Elt F)),
    StableHlo.unary main_v3 main_v498 (broadcastInDim S160000x1 ![0] bcast_S160000_S160000x1_0 : (⟨S160000, .i32⟩ : BufTy).Contents (Elt F) → (⟨S160000x1, .i32⟩ : BufTy).Contents (Elt F)) ]

/-- The buffers those operations write. -/
abbrev ops22_W : List (Ref sig .tc) :=
  [main_v463, main_v464, main_v465, main_v466, main_v467, main_v468, main_call27_cst, main_call27_v0, main_v469, main_c_75, main_v470, main_v471, main_c_76, main_v472, main_v473, main_v474, main_v475, main_v476, main_v477, main_v478, main_v479, main_v480, main_v481, main_v482, main_v483, main_v484, main_v485, main_v486, main_v487, main_v488, main_v489, main_c_77, main_v490, main_v491, main_c_78, main_v492, main_v493, main_v494, main_v495, main_v496, main_cst_79, main_v497, main_v498]

set_option maxRecDepth 8192 in
theorem ops22_sub : (ops22 : List (HloOp τ sig (Elt F))).Forall fun op => op.bufs ⊆ tcRefs τ sig :=
  ⟨unary_bufs_sub .., unary_bufs_sub .., binary_bufs_sub .., unary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub ..⟩

set_option maxRecDepth 8192 in
theorem ops22_writes : (ops22 : List (HloOp τ sig (Elt F))).Forall fun op =>
    op.writes ⊆ (ops22_W.map (Proc.devRef (τ := τ) .tc)).toFinset := by
  simp only [List.Forall]
  exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

set_option maxRecDepth 8192 in
/-- Every operation determines its results. -/
theorem ops22_fresh : ∀ op ∈ (ops22 : List (HloOp τ sig (Elt F))), op.fresh = ∅ := by
  intro _ h; (repeat (cases h with | head => rfl | tail _ h => ?_)); exact nomatch h

set_option maxRecDepth 8192 in
/-- None of them writes an argument of @main. -/
theorem ops22_keepArgs : ∀ r ∈ argRefs, r ∉ ops22_W := by decide

/-- The reference's operations 904 … 943 of 1028 (in window main_part9), a call's body listed
    at the call over the call's buffer record. -/
abbrev ops23 : List (HloOp τ sig (Elt F)) :=
  [ StableHlo.ternary main_v497 main_v498 main_v496 main_v499 ((fun x i u => Host.scatterAdd scatter_S10000x300_S160000x1_S160000x300_1_0_0_1 x i u) : (⟨S10000x300, .f32⟩ : BufTy).Contents (Elt F) → (⟨S160000x1, .i32⟩ : BufTy).Contents (Elt F) → (⟨S160000x300, .f32⟩ : BufTy).Contents (Elt F) → (⟨S10000x300, .f32⟩ : BufTy).Contents (Elt F)),
    StableHlo.binary main_v477 main_v499 main_v500 (addf : (⟨S10000x300, .f32⟩ : BufTy).Contents (Elt F) → (⟨S10000x300, .f32⟩ : BufTy).Contents (Elt F) → (⟨S10000x300, .f32⟩ : BufTy).Contents (Elt F)),
    StableHlo.binary main_v500 main_v479 main_v501 ((fun l r => Host.dotGeneral dot_S10000x300_S300x600_S10000x600_1_0_0_1_n_n none l r) : (⟨S10000x300, .f32⟩ : BufTy).Contents (Elt F) → (⟨S300x600, .f32⟩ : BufTy).Contents (Elt F) → (⟨S10000x600, .f32⟩ : BufTy).Contents (Elt F)),
    StableHlo.unary main_v481 main_v502 (broadcastInDim S1x600 ![1] bcast_S600_S1x600_1 : (⟨S600, .f32⟩ : BufTy).Contents (Elt F) → (⟨S1x600, .f32⟩ : BufTy).Contents (Elt F)),
    StableHlo.unary main_v502 main_v503 (broadcastInDim S10000x600 ![0, 1] bcast_S1x600_S10000x600_0_1 : (⟨S1x600, .f32⟩ : BufTy).Contents (Elt F) → (⟨S10000x600, .f32⟩ : BufTy).Contents (Elt F)),
    StableHlo.binary main_v501 main_v503 main_v504 (addf : (⟨S10000x600, .f32⟩ : BufTy).Contents (Elt F) → (⟨S10000x600, .f32⟩ : BufTy).Contents (Elt F) → (⟨S10000x600, .f32⟩ : BufTy).Contents (Elt F)),
    StableHlo.nullary main_cst_80 (constant S_ .f32 0x00000000#32),
    StableHlo.binary main_v504 main_cst_80 main_v505 ((fun x v => Host.reduceAdd x v reducesTo_S10000x600_S600_d0 h_S_) : (⟨S10000x600, .f32⟩ : BufTy).Contents (Elt F) → (⟨S_, .f32⟩ : BufTy).Contents (Elt F) → (⟨S600, .f32⟩ : BufTy).Contents (Elt F)),
    StableHlo.nullary main_cst_81 (constant S_ .f32 0x461C4000#32),
    StableHlo.unary main_cst_81 main_v506 (broadcastInDim S600 ![] bcast_S_S600 : (⟨S_, .f32⟩ : BufTy).Contents (Elt F) → (⟨S600, .f32⟩ : BufTy).Contents (Elt F)),
    StableHlo.binary main_v505 main_v506 main_v507 (Host.divf : (⟨S600, .f32⟩ : BufTy).Contents (Elt F) → (⟨S600, .f32⟩ : BufTy).Contents (Elt F) → (⟨S600, .f32⟩ : BufTy).Contents (Elt F)),
    StableHlo.nullary main_c_82 (constantI S_ 32 0#32),
    StableHlo.TRef.nullary main_call28.cst (constant S_ .f32 0x00000000#32),
    StableHlo.TRef.binary (StableHlo.TRef.of main_v504 : StableHlo.TRef sig ⟨S10000x600, .f32⟩) main_call28.cst main_call28.v0 (fun x v => Host.reduceAdd x v reducesTo_S10000x600_S600_d0 h_S_),
    StableHlo.TRef.unary main_call28.v0 main_call28.v1 (broadcastInDim S1x600 ![1] bcast_S600_S1x600_1),
    StableHlo.TRef.nullary main_call28.cst_0 (constant S_ .f32 0x461C4000#32),
    StableHlo.TRef.unary main_call28.cst_0 main_call28.v2 (broadcastInDim S1x600 ![] bcast_S_S1x600),
    StableHlo.TRef.binary main_call28.v1 main_call28.v2 main_call28.v3 Host.divf,
    StableHlo.TRef.unary main_call28.v3 main_call28.v4 (broadcastInDim S10000x600 ![0, 1] bcast_S1x600_S10000x600_0_1),
    StableHlo.TRef.binary (StableHlo.TRef.of main_v504 : StableHlo.TRef sig ⟨S10000x600, .f32⟩) main_call28.v4 main_call28.v5 subf,
    StableHlo.TRef.binary main_call28.v5 main_call28.v5 main_call28.v6 mulf,
    StableHlo.TRef.unary (StableHlo.TRef.of main_c_82 : StableHlo.TRef sig ⟨S_, .i32⟩) main_call28.v7 (sitofp .f32),
    StableHlo.TRef.nullary main_call28.cst_1 (constant S_ .f32 0x461C4000#32),
    StableHlo.TRef.binary main_call28.cst_1 main_call28.v7 main_call28.v8 subf,
    StableHlo.TRef.nullary main_call28.cst_2 (constant S_ .f32 0x00000000#32),
    StableHlo.TRef.binary main_call28.v6 main_call28.cst_2 main_call28.v9 (fun x v => Host.reduceAdd x v reducesTo_S10000x600_S600_d0 h_S_),
    StableHlo.TRef.unary main_call28.v8 main_call28.v10 (broadcastInDim S600 ![] bcast_S_S600),
    StableHlo.TRef.binary main_call28.v9 main_call28.v10 main_call28.v11 Host.divf,
    StableHlo.TRef.nullary main_call28.cst_3 (constant S_ .f32 0x00000000#32),
    StableHlo.TRef.binary main_call28.v8 main_call28.cst_3 main_call28.v12 (cmpf .ogt),
    StableHlo.TRef.nullary main_call28.cst_4 (constant S_ .f32 0x7FC00000#32),
    StableHlo.TRef.unary main_call28.cst_4 main_call28.call0.v0 id,
    StableHlo.TRef.unary main_call28.call0.v0 main_call28.call0.v1 (broadcastInDim S600 ![] bcast_S_S600),
    StableHlo.TRef.ternary main_call28.v12 main_call28.v11 main_call28.call0.v1 main_call28.call0.v2 (fun p a b => select (broadcastInDim S600 ![] bcast_S_S600 p) a b),
    StableHlo.unary main_v507 main_v509 (broadcastInDim S1x600 ![1] bcast_S600_S1x600_1 : (⟨S600, .f32⟩ : BufTy).Contents (Elt F) → (⟨S1x600, .f32⟩ : BufTy).Contents (Elt F)),
    StableHlo.unary main_v509 main_v510 (broadcastInDim S10000x600 ![0, 1] bcast_S1x600_S10000x600_0_1 : (⟨S1x600, .f32⟩ : BufTy).Contents (Elt F) → (⟨S10000x600, .f32⟩ : BufTy).Contents (Elt F)),
    StableHlo.binary main_v504 main_v510 main_v511 (subf : (⟨S10000x600, .f32⟩ : BufTy).Contents (Elt F) → (⟨S10000x600, .f32⟩ : BufTy).Contents (Elt F) → (⟨S10000x600, .f32⟩ : BufTy).Contents (Elt F)),
    StableHlo.nullary main_cst_83 (constant S_ .f32 0x3727C5AC#32),
    StableHlo.unary main_cst_83 main_v512 (broadcastInDim S600 ![] bcast_S_S600 : (⟨S_, .f32⟩ : BufTy).Contents (Elt F) → (⟨S600, .f32⟩ : BufTy).Contents (Elt F)),
    StableHlo.binary main_v508 main_v512 main_v513 (addf : (⟨S600, .f32⟩ : BufTy).Contents (Elt F) → (⟨S600, .f32⟩ : BufTy).Contents (Elt F) → (⟨S600, .f32⟩ : BufTy).Contents (Elt F)) ]

/-- The buffers those operations write. -/
abbrev ops23_W : List (Ref sig .tc) :=
  [main_v499, main_v500, main_v501, main_v502, main_v503, main_v504, main_cst_80, main_v505, main_cst_81, main_v506, main_v507, main_c_82, main_call28_cst, main_call28_v0, main_call28_v1, main_call28_cst_0, main_call28_v2, main_call28_v3, main_call28_v4, main_call28_v5, main_call28_v6, main_call28_v7, main_call28_cst_1, main_call28_v8, main_call28_cst_2, main_call28_v9, main_call28_v10, main_call28_v11, main_call28_cst_3, main_call28_v12, main_call28_cst_4, main_call28_call0_v0, main_call28_call0_v1, main_v508, main_v509, main_v510, main_v511, main_cst_83, main_v512, main_v513]

set_option maxRecDepth 8192 in
theorem ops23_sub : (ops23 : List (HloOp τ sig (Elt F))).Forall fun op => op.bufs ⊆ tcRefs τ sig :=
  ⟨ternary_bufs_sub .., binary_bufs_sub .., binary_bufs_sub .., unary_bufs_sub .., unary_bufs_sub .., binary_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub ..⟩

set_option maxRecDepth 8192 in
theorem ops23_writes : (ops23 : List (HloOp τ sig (Elt F))).Forall fun op =>
    op.writes ⊆ (ops23_W.map (Proc.devRef (τ := τ) .tc)).toFinset := by
  simp only [List.Forall]
  exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

set_option maxRecDepth 8192 in
/-- Every operation determines its results. -/
theorem ops23_fresh : ∀ op ∈ (ops23 : List (HloOp τ sig (Elt F))), op.fresh = ∅ := by
  intro _ h; (repeat (cases h with | head => rfl | tail _ h => ?_)); exact nomatch h

set_option maxRecDepth 8192 in
/-- None of them writes an argument of @main. -/
theorem ops23_keepArgs : ∀ r ∈ argRefs, r ∉ ops23_W := by decide

set_option maxRecDepth 16384 in
set_option maxHeartbeats 4000000 in
/-- The window is the straight line of its operations: the called functions unfolded at their calls. -/
theorem main_part9_eq (c : Dev nD) : main_part9 (F := F) c = seq (ops22 ++ (ops23)) := by
  first
  | rfl
  | (simp only [main_part9, fn_relu_6.body, fn_var.body, fn_where.body, List.cons_append, List.nil_append, seq, bind_assoc, pure_bind]; try rfl)

end Cert.ReferenceIdeal.RefRun

end
-- ==== Proof.Ref.OpsW10.lean ====
import proofs.«411400_j9251359555630_1_alg».proof.ReferenceIdeal
import Idealize.ShloMosaic.Lib.StableHlo.Run
import proofs.«411400_j9251359555630_1_alg».proof.Proof.Ref.Common

noncomputable section

namespace Cert.ReferenceIdeal.RefRun

open Cert.ReferenceIdeal Idealize.ShloMosaic Idealize.ShloMosaic.TcCoe Idealize.SL.Sem Idealize.ShloMosaic.StableHlo
open Cert.ReferenceIdeal.Facts₀ Cert.ReferenceIdeal.Facts

variable {F : FTy → Type} [FloatOps F] [Facts]

/-- The reference's operations 944 … 1003 of 1028 (in window main_part10), a call's body listed
    at the call over the call's buffer record. -/
abbrev ops24 : List (HloOp τ sig (Elt F)) :=
  [ StableHlo.unary main_v513 main_v514 (Host.rsqrt : (⟨S600, .f32⟩ : BufTy).Contents (Elt F) → (⟨S600, .f32⟩ : BufTy).Contents (Elt F)),
    StableHlo.unary main_v514 main_v515 (broadcastInDim S1x600 ![1] bcast_S600_S1x600_1 : (⟨S600, .f32⟩ : BufTy).Contents (Elt F) → (⟨S1x600, .f32⟩ : BufTy).Contents (Elt F)),
    StableHlo.unary main_v515 main_v516 (broadcastInDim S10000x600 ![0, 1] bcast_S1x600_S10000x600_0_1 : (⟨S1x600, .f32⟩ : BufTy).Contents (Elt F) → (⟨S10000x600, .f32⟩ : BufTy).Contents (Elt F)),
    StableHlo.binary main_v511 main_v516 main_v517 (mulf : (⟨S10000x600, .f32⟩ : BufTy).Contents (Elt F) → (⟨S10000x600, .f32⟩ : BufTy).Contents (Elt F) → (⟨S10000x600, .f32⟩ : BufTy).Contents (Elt F)),
    StableHlo.unary main_v483 main_v518 (broadcastInDim S1x600 ![1] bcast_S600_S1x600_1 : (⟨S600, .f32⟩ : BufTy).Contents (Elt F) → (⟨S1x600, .f32⟩ : BufTy).Contents (Elt F)),
    StableHlo.unary main_v518 main_v519 (broadcastInDim S10000x600 ![0, 1] bcast_S1x600_S10000x600_0_1 : (⟨S1x600, .f32⟩ : BufTy).Contents (Elt F) → (⟨S10000x600, .f32⟩ : BufTy).Contents (Elt F)),
    StableHlo.binary main_v517 main_v519 main_v520 (mulf : (⟨S10000x600, .f32⟩ : BufTy).Contents (Elt F) → (⟨S10000x600, .f32⟩ : BufTy).Contents (Elt F) → (⟨S10000x600, .f32⟩ : BufTy).Contents (Elt F)),
    StableHlo.unary main_v485 main_v521 (broadcastInDim S1x600 ![1] bcast_S600_S1x600_1 : (⟨S600, .f32⟩ : BufTy).Contents (Elt F) → (⟨S1x600, .f32⟩ : BufTy).Contents (Elt F)),
    StableHlo.unary main_v521 main_v522 (broadcastInDim S10000x600 ![0, 1] bcast_S1x600_S10000x600_0_1 : (⟨S1x600, .f32⟩ : BufTy).Contents (Elt F) → (⟨S10000x600, .f32⟩ : BufTy).Contents (Elt F)),
    StableHlo.binary main_v520 main_v522 main_v523 (addf : (⟨S10000x600, .f32⟩ : BufTy).Contents (Elt F) → (⟨S10000x600, .f32⟩ : BufTy).Contents (Elt F) → (⟨S10000x600, .f32⟩ : BufTy).Contents (Elt F)),
    StableHlo.TRef.nullary main_call29.cst (constant S_ .f32 0x00000000#32),
    StableHlo.TRef.unary main_call29.cst main_call29.v0 (broadcastInDim S10000x600 ![] bcast_S_S10000x600),
    StableHlo.TRef.binary (StableHlo.TRef.of main_v523 : StableHlo.TRef sig ⟨S10000x600, .f32⟩) main_call29.v0 main_call29.v1 maximumf,
    StableHlo.binary main_v524 main_v487 main_v525 ((fun l r => Host.dotGeneral dot_S10000x600_S600x300_S10000x300_1_0_0_1_n_n none l r) : (⟨S10000x600, .f32⟩ : BufTy).Contents (Elt F) → (⟨S600x300, .f32⟩ : BufTy).Contents (Elt F) → (⟨S10000x300, .f32⟩ : BufTy).Contents (Elt F)),
    StableHlo.unary main_v489 main_v526 (broadcastInDim S1x300 ![1] bcast_S300_S1x300_1 : (⟨S300, .f32⟩ : BufTy).Contents (Elt F) → (⟨S1x300, .f32⟩ : BufTy).Contents (Elt F)),
    StableHlo.unary main_v526 main_v527 (broadcastInDim S10000x300 ![0, 1] bcast_S1x300_S10000x300_0_1 : (⟨S1x300, .f32⟩ : BufTy).Contents (Elt F) → (⟨S10000x300, .f32⟩ : BufTy).Contents (Elt F)),
    StableHlo.binary main_v525 main_v527 main_v528 (addf : (⟨S10000x300, .f32⟩ : BufTy).Contents (Elt F) → (⟨S10000x300, .f32⟩ : BufTy).Contents (Elt F) → (⟨S10000x300, .f32⟩ : BufTy).Contents (Elt F)),
    StableHlo.unary main_arg18 main_v529 ((extractStridedSlice S1x300 ![3, 0] · slices_S4x300_S1x300_3_0) : (⟨S4x300, .f32⟩ : BufTy).Contents (Elt F) → (⟨S1x300, .f32⟩ : BufTy).Contents (Elt F)),
    StableHlo.reshape main_v529 main_v530 rfl shapeCasts_S1x300_S300,
    StableHlo.unary main_arg19 main_v531 ((extractStridedSlice S1x300 ![3, 0] · slices_S4x300_S1x300_3_0) : (⟨S4x300, .f32⟩ : BufTy).Contents (Elt F) → (⟨S1x300, .f32⟩ : BufTy).Contents (Elt F)),
    StableHlo.reshape main_v531 main_v532 rfl shapeCasts_S1x300_S300,
    StableHlo.nullary main_cst_84 (constant S_ .f32 0x00000000#32),
    StableHlo.binary main_v528 main_cst_84 main_v533 ((fun x v => Host.reduceAdd x v reducesTo_S10000x300_S300_d0 h_S_) : (⟨S10000x300, .f32⟩ : BufTy).Contents (Elt F) → (⟨S_, .f32⟩ : BufTy).Contents (Elt F) → (⟨S300, .f32⟩ : BufTy).Contents (Elt F)),
    StableHlo.nullary main_cst_85 (constant S_ .f32 0x461C4000#32),
    StableHlo.unary main_cst_85 main_v534 (broadcastInDim S300 ![] bcast_S_S300 : (⟨S_, .f32⟩ : BufTy).Contents (Elt F) → (⟨S300, .f32⟩ : BufTy).Contents (Elt F)),
    StableHlo.binary main_v533 main_v534 main_v535 (Host.divf : (⟨S300, .f32⟩ : BufTy).Contents (Elt F) → (⟨S300, .f32⟩ : BufTy).Contents (Elt F) → (⟨S300, .f32⟩ : BufTy).Contents (Elt F)),
    StableHlo.nullary main_c_86 (constantI S_ 32 0#32),
    StableHlo.TRef.nullary main_call30.cst (constant S_ .f32 0x00000000#32),
    StableHlo.TRef.binary (StableHlo.TRef.of main_v528 : StableHlo.TRef sig ⟨S10000x300, .f32⟩) main_call30.cst main_call30.v0 (fun x v => Host.reduceAdd x v reducesTo_S10000x300_S300_d0 h_S_),
    StableHlo.TRef.unary main_call30.v0 main_call30.v1 (broadcastInDim S1x300 ![1] bcast_S300_S1x300_1),
    StableHlo.TRef.nullary main_call30.cst_0 (constant S_ .f32 0x461C4000#32),
    StableHlo.TRef.unary main_call30.cst_0 main_call30.v2 (broadcastInDim S1x300 ![] bcast_S_S1x300),
    StableHlo.TRef.binary main_call30.v1 main_call30.v2 main_call30.v3 Host.divf,
    StableHlo.TRef.unary main_call30.v3 main_call30.v4 (broadcastInDim S10000x300 ![0, 1] bcast_S1x300_S10000x300_0_1),
    StableHlo.TRef.binary (StableHlo.TRef.of main_v528 : StableHlo.TRef sig ⟨S10000x300, .f32⟩) main_call30.v4 main_call30.v5 subf,
    StableHlo.TRef.binary main_call30.v5 main_call30.v5 main_call30.v6 mulf,
    StableHlo.TRef.unary (StableHlo.TRef.of main_c_86 : StableHlo.TRef sig ⟨S_, .i32⟩) main_call30.v7 (sitofp .f32),
    StableHlo.TRef.nullary main_call30.cst_1 (constant S_ .f32 0x461C4000#32),
    StableHlo.TRef.binary main_call30.cst_1 main_call30.v7 main_call30.v8 subf,
    StableHlo.TRef.nullary main_call30.cst_2 (constant S_ .f32 0x00000000#32),
    StableHlo.TRef.binary main_call30.v6 main_call30.cst_2 main_call30.v9 (fun x v => Host.reduceAdd x v reducesTo_S10000x300_S300_d0 h_S_),
    StableHlo.TRef.unary main_call30.v8 main_call30.v10 (broadcastInDim S300 ![] bcast_S_S300),
    StableHlo.TRef.binary main_call30.v9 main_call30.v10 main_call30.v11 Host.divf,
    StableHlo.TRef.nullary main_call30.cst_3 (constant S_ .f32 0x00000000#32),
    StableHlo.TRef.binary main_call30.v8 main_call30.cst_3 main_call30.v12 (cmpf .ogt),
    StableHlo.TRef.nullary main_call30.cst_4 (constant S_ .f32 0x7FC00000#32),
    StableHlo.TRef.unary main_call30.cst_4 main_call30.call0.v0 id,
    StableHlo.TRef.unary main_call30.call0.v0 main_call30.call0.v1 (broadcastInDim S300 ![] bcast_S_S300),
    StableHlo.TRef.ternary main_call30.v12 main_call30.v11 main_call30.call0.v1 main_call30.call0.v2 (fun p a b => select (broadcastInDim S300 ![] bcast_S_S300 p) a b),
    StableHlo.unary main_v535 main_v537 (broadcastInDim S1x300 ![1] bcast_S300_S1x300_1 : (⟨S300, .f32⟩ : BufTy).Contents (Elt F) → (⟨S1x300, .f32⟩ : BufTy).Contents (Elt F)),
    StableHlo.unary main_v537 main_v538 (broadcastInDim S10000x300 ![0, 1] bcast_S1x300_S10000x300_0_1 : (⟨S1x300, .f32⟩ : BufTy).Contents (Elt F) → (⟨S10000x300, .f32⟩ : BufTy).Contents (Elt F)),
    StableHlo.binary main_v528 main_v538 main_v539 (subf : (⟨S10000x300, .f32⟩ : BufTy).Contents (Elt F) → (⟨S10000x300, .f32⟩ : BufTy).Contents (Elt F) → (⟨S10000x300, .f32⟩ : BufTy).Contents (Elt F)),
    StableHlo.nullary main_cst_87 (constant S_ .f32 0x3727C5AC#32),
    StableHlo.unary main_cst_87 main_v540 (broadcastInDim S300 ![] bcast_S_S300 : (⟨S_, .f32⟩ : BufTy).Contents (Elt F) → (⟨S300, .f32⟩ : BufTy).Contents (Elt F)),
    StableHlo.binary main_v536 main_v540 main_v541 (addf : (⟨S300, .f32⟩ : BufTy).Contents (Elt F) → (⟨S300, .f32⟩ : BufTy).Contents (Elt F) → (⟨S300, .f32⟩ : BufTy).Contents (Elt F)),
    StableHlo.unary main_v541 main_v542 (Host.rsqrt : (⟨S300, .f32⟩ : BufTy).Contents (Elt F) → (⟨S300, .f32⟩ : BufTy).Contents (Elt F)),
    StableHlo.unary main_v542 main_v543 (broadcastInDim S1x300 ![1] bcast_S300_S1x300_1 : (⟨S300, .f32⟩ : BufTy).Contents (Elt F) → (⟨S1x300, .f32⟩ : BufTy).Contents (Elt F)),
    StableHlo.unary main_v543 main_v544 (broadcastInDim S10000x300 ![0, 1] bcast_S1x300_S10000x300_0_1 : (⟨S1x300, .f32⟩ : BufTy).Contents (Elt F) → (⟨S10000x300, .f32⟩ : BufTy).Contents (Elt F)),
    StableHlo.binary main_v539 main_v544 main_v545 (mulf : (⟨S10000x300, .f32⟩ : BufTy).Contents (Elt F) → (⟨S10000x300, .f32⟩ : BufTy).Contents (Elt F) → (⟨S10000x300, .f32⟩ : BufTy).Contents (Elt F)),
    StableHlo.unary main_v530 main_v546 (broadcastInDim S1x300 ![1] bcast_S300_S1x300_1 : (⟨S300, .f32⟩ : BufTy).Contents (Elt F) → (⟨S1x300, .f32⟩ : BufTy).Contents (Elt F)) ]

/-- The buffers those operations write. -/
abbrev ops24_W : List (Ref sig .tc) :=
  [main_v514, main_v515, main_v516, main_v517, main_v518, main_v519, main_v520, main_v521, main_v522, main_v523, main_call29_cst, main_call29_v0, main_v524, main_v525, main_v526, main_v527, main_v528, main_v529, main_v530, main_v531, main_v532, main_cst_84, main_v533, main_cst_85, main_v534, main_v535, main_c_86, main_call30_cst, main_call30_v0, main_call30_v1, main_call30_cst_0, main_call30_v2, main_call30_v3, main_call30_v4, main_call30_v5, main_call30_v6, main_call30_v7, main_call30_cst_1, main_call30_v8, main_call30_cst_2, main_call30_v9, main_call30_v10, main_call30_v11, main_call30_cst_3, main_call30_v12, main_call30_cst_4, main_call30_call0_v0, main_call30_call0_v1, main_v536, main_v537, main_v538, main_v539, main_cst_87, main_v540, main_v541, main_v542, main_v543, main_v544, main_v545, main_v546]

set_option maxRecDepth 8192 in
theorem ops24_sub : (ops24 : List (HloOp τ sig (Elt F))).Forall fun op => op.bufs ⊆ tcRefs τ sig :=
  ⟨unary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., unary_bufs_sub .., reshape_bufs_sub .., unary_bufs_sub .., reshape_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub ..⟩

set_option maxRecDepth 8192 in
theorem ops24_writes : (ops24 : List (HloOp τ sig (Elt F))).Forall fun op =>
    op.writes ⊆ (ops24_W.map (Proc.devRef (τ := τ) .tc)).toFinset := by
  simp only [List.Forall]
  exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

set_option maxRecDepth 8192 in
/-- Every operation determines its results. -/
theorem ops24_fresh : ∀ op ∈ (ops24 : List (HloOp τ sig (Elt F))), op.fresh = ∅ := by
  intro _ h; (repeat (cases h with | head => rfl | tail _ h => ?_)); exact nomatch h

set_option maxRecDepth 8192 in
/-- None of them writes an argument of @main. -/
theorem ops24_keepArgs : ∀ r ∈ argRefs, r ∉ ops24_W := by decide

/-- The reference's operations 1004 … 1013 of 1028 (in window main_part10), a call's body listed
    at the call over the call's buffer record. -/
abbrev ops25 : List (HloOp τ sig (Elt F)) :=
  [ StableHlo.unary main_v546 main_v547 (broadcastInDim S10000x300 ![0, 1] bcast_S1x300_S10000x300_0_1 : (⟨S1x300, .f32⟩ : BufTy).Contents (Elt F) → (⟨S10000x300, .f32⟩ : BufTy).Contents (Elt F)),
    StableHlo.binary main_v545 main_v547 main_v548 (mulf : (⟨S10000x300, .f32⟩ : BufTy).Contents (Elt F) → (⟨S10000x300, .f32⟩ : BufTy).Contents (Elt F) → (⟨S10000x300, .f32⟩ : BufTy).Contents (Elt F)),
    StableHlo.unary main_v532 main_v549 (broadcastInDim S1x300 ![1] bcast_S300_S1x300_1 : (⟨S300, .f32⟩ : BufTy).Contents (Elt F) → (⟨S1x300, .f32⟩ : BufTy).Contents (Elt F)),
    StableHlo.unary main_v549 main_v550 (broadcastInDim S10000x300 ![0, 1] bcast_S1x300_S10000x300_0_1 : (⟨S1x300, .f32⟩ : BufTy).Contents (Elt F) → (⟨S10000x300, .f32⟩ : BufTy).Contents (Elt F)),
    StableHlo.binary main_v548 main_v550 main_v551 (addf : (⟨S10000x300, .f32⟩ : BufTy).Contents (Elt F) → (⟨S10000x300, .f32⟩ : BufTy).Contents (Elt F) → (⟨S10000x300, .f32⟩ : BufTy).Contents (Elt F)),
    StableHlo.nullary main_cst_88 (constant S_ .f32 0x3F800000#32),
    StableHlo.unary main_cst_88 main_v552 (broadcastInDim S10000 ![] bcast_S_S10000 : (⟨S_, .f32⟩ : BufTy).Contents (Elt F) → (⟨S10000, .f32⟩ : BufTy).Contents (Elt F)),
    StableHlo.nullary main_cst_89 (constant S_ .f32 0x00000000#32),
    StableHlo.unary main_cst_89 main_v553 (broadcastInDim S64 ![] bcast_S_S64 : (⟨S_, .f32⟩ : BufTy).Contents (Elt F) → (⟨S64, .f32⟩ : BufTy).Contents (Elt F)),
    StableHlo.unary main_arg2 main_v554 (broadcastInDim S10000x1 ![0] bcast_S10000_S10000x1_0 : (⟨S10000, .i32⟩ : BufTy).Contents (Elt F) → (⟨S10000x1, .i32⟩ : BufTy).Contents (Elt F)) ]

/-- The buffers those operations write. -/
abbrev ops25_W : List (Ref sig .tc) :=
  [main_v547, main_v548, main_v549, main_v550, main_v551, main_cst_88, main_v552, main_cst_89, main_v553, main_v554]

set_option maxRecDepth 8192 in
theorem ops25_sub : (ops25 : List (HloOp τ sig (Elt F))).Forall fun op => op.bufs ⊆ tcRefs τ sig :=
  ⟨unary_bufs_sub .., binary_bufs_sub .., unary_bufs_sub .., unary_bufs_sub .., binary_bufs_sub .., nullary_bufs_sub .., unary_bufs_sub .., nullary_bufs_sub .., unary_bufs_sub .., unary_bufs_sub ..⟩

set_option maxRecDepth 8192 in
theorem ops25_writes : (ops25 : List (HloOp τ sig (Elt F))).Forall fun op =>
    op.writes ⊆ (ops25_W.map (Proc.devRef (τ := τ) .tc)).toFinset := by
  simp only [List.Forall]
  exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

set_option maxRecDepth 8192 in
/-- Every operation determines its results. -/
theorem ops25_fresh : ∀ op ∈ (ops25 : List (HloOp τ sig (Elt F))), op.fresh = ∅ := by
  intro _ h; (repeat (cases h with | head => rfl | tail _ h => ?_)); exact nomatch h

set_option maxRecDepth 8192 in
/-- None of them writes an argument of @main. -/
theorem ops25_keepArgs : ∀ r ∈ argRefs, r ∉ ops25_W := by decide

/-- The reference's operations 1014 … 1017 of 1028 (in window main_part10), a call's body listed
    at the call over the call's buffer record. -/
abbrev ops26 : List (HloOp τ sig (Elt F)) :=
  [ StableHlo.ternary main_v553 main_v554 main_v552 main_v555 ((fun x i u => Host.scatterAdd scatter_S64_S10000x1_S10000_n_0_0_1 x i u) : (⟨S64, .f32⟩ : BufTy).Contents (Elt F) → (⟨S10000x1, .i32⟩ : BufTy).Contents (Elt F) → (⟨S10000, .f32⟩ : BufTy).Contents (Elt F) → (⟨S64, .f32⟩ : BufTy).Contents (Elt F)),
    StableHlo.nullary main_cst_90 (constant S_ .f32 0x00000000#32),
    StableHlo.unary main_cst_90 main_v556 (broadcastInDim S64x300 ![] bcast_S_S64x300 : (⟨S_, .f32⟩ : BufTy).Contents (Elt F) → (⟨S64x300, .f32⟩ : BufTy).Contents (Elt F)),
    StableHlo.unary main_arg2 main_v557 (broadcastInDim S10000x1 ![0] bcast_S10000_S10000x1_0 : (⟨S10000, .i32⟩ : BufTy).Contents (Elt F) → (⟨S10000x1, .i32⟩ : BufTy).Contents (Elt F)) ]

/-- The buffers those operations write. -/
abbrev ops26_W : List (Ref sig .tc) :=
  [main_v555, main_cst_90, main_v556, main_v557]

set_option maxRecDepth 8192 in
theorem ops26_sub : (ops26 : List (HloOp τ sig (Elt F))).Forall fun op => op.bufs ⊆ tcRefs τ sig :=
  ⟨ternary_bufs_sub .., nullary_bufs_sub .., unary_bufs_sub .., unary_bufs_sub ..⟩

set_option maxRecDepth 8192 in
theorem ops26_writes : (ops26 : List (HloOp τ sig (Elt F))).Forall fun op =>
    op.writes ⊆ (ops26_W.map (Proc.devRef (τ := τ) .tc)).toFinset := by
  simp only [List.Forall]
  exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

set_option maxRecDepth 8192 in
/-- Every operation determines its results. -/
theorem ops26_fresh : ∀ op ∈ (ops26 : List (HloOp τ sig (Elt F))), op.fresh = ∅ := by
  intro _ h; (repeat (cases h with | head => rfl | tail _ h => ?_)); exact nomatch h

set_option maxRecDepth 8192 in
/-- None of them writes an argument of @main. -/
theorem ops26_keepArgs : ∀ r ∈ argRefs, r ∉ ops26_W := by decide

/-- The reference's operations 1018 … 1026 of 1028 (in window main_part10), a call's body listed
    at the call over the call's buffer record. -/
abbrev ops27 : List (HloOp τ sig (Elt F)) :=
  [ StableHlo.ternary main_v556 main_v557 main_v551 main_v558 ((fun x i u => Host.scatterAdd scatter_S64x300_S10000x1_S10000x300_1_0_0_1 x i u) : (⟨S64x300, .f32⟩ : BufTy).Contents (Elt F) → (⟨S10000x1, .i32⟩ : BufTy).Contents (Elt F) → (⟨S10000x300, .f32⟩ : BufTy).Contents (Elt F) → (⟨S64x300, .f32⟩ : BufTy).Contents (Elt F)),
    StableHlo.nullary main_cst_91 (constant S_ .f32 0x3F800000#32),
    StableHlo.unary main_cst_91 main_v559 (broadcastInDim S64 ![] bcast_S_S64 : (⟨S_, .f32⟩ : BufTy).Contents (Elt F) → (⟨S64, .f32⟩ : BufTy).Contents (Elt F)),
    StableHlo.binary main_v555 main_v559 main_v560 (maximumf : (⟨S64, .f32⟩ : BufTy).Contents (Elt F) → (⟨S64, .f32⟩ : BufTy).Contents (Elt F) → (⟨S64, .f32⟩ : BufTy).Contents (Elt F)),
    StableHlo.unary main_v560 main_v561 (broadcastInDim S64x1 ![0] bcast_S64_S64x1_0 : (⟨S64, .f32⟩ : BufTy).Contents (Elt F) → (⟨S64x1, .f32⟩ : BufTy).Contents (Elt F)),
    StableHlo.unary main_v561 main_v562 (broadcastInDim S64x300 ![0, 1] bcast_S64x1_S64x300_0_1 : (⟨S64x1, .f32⟩ : BufTy).Contents (Elt F) → (⟨S64x300, .f32⟩ : BufTy).Contents (Elt F)),
    StableHlo.binary main_v558 main_v562 main_v563 (Host.divf : (⟨S64x300, .f32⟩ : BufTy).Contents (Elt F) → (⟨S64x300, .f32⟩ : BufTy).Contents (Elt F) → (⟨S64x300, .f32⟩ : BufTy).Contents (Elt F)),
    StableHlo.binary main_v563 main_arg28 main_v564 ((fun l r => Host.dotGeneral dot_S64x300_S300x10_S64x10_1_0_0_1_n_n none l r) : (⟨S64x300, .f32⟩ : BufTy).Contents (Elt F) → (⟨S300x10, .f32⟩ : BufTy).Contents (Elt F) → (⟨S64x10, .f32⟩ : BufTy).Contents (Elt F)),
    StableHlo.unary main_arg29 main_v565 (broadcastInDim S1x10 ![1] bcast_S10_S1x10_1 : (⟨S10, .f32⟩ : BufTy).Contents (Elt F) → (⟨S1x10, .f32⟩ : BufTy).Contents (Elt F)) ]

/-- The buffers those operations write. -/
abbrev ops27_W : List (Ref sig .tc) :=
  [main_v558, main_cst_91, main_v559, main_v560, main_v561, main_v562, main_v563, main_v564, main_v565]

set_option maxRecDepth 8192 in
theorem ops27_sub : (ops27 : List (HloOp τ sig (Elt F))).Forall fun op => op.bufs ⊆ tcRefs τ sig :=
  ⟨ternary_bufs_sub .., nullary_bufs_sub .., unary_bufs_sub .., binary_bufs_sub .., unary_bufs_sub .., unary_bufs_sub .., binary_bufs_sub .., binary_bufs_sub .., unary_bufs_sub ..⟩

set_option maxRecDepth 8192 in
theorem ops27_writes : (ops27 : List (HloOp τ sig (Elt F))).Forall fun op =>
    op.writes ⊆ (ops27_W.map (Proc.devRef (τ := τ) .tc)).toFinset := by
  simp only [List.Forall]
  exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

set_option maxRecDepth 8192 in
/-- Every operation determines its results. -/
theorem ops27_fresh : ∀ op ∈ (ops27 : List (HloOp τ sig (Elt F))), op.fresh = ∅ := by
  intro _ h; (repeat (cases h with | head => rfl | tail _ h => ?_)); exact nomatch h

set_option maxRecDepth 8192 in
/-- None of them writes an argument of @main. -/
theorem ops27_keepArgs : ∀ r ∈ argRefs, r ∉ ops27_W := by decide

set_option maxRecDepth 16384 in
set_option maxHeartbeats 4000000 in
/-- The window is the straight line of its operations: the called functions unfolded at their calls. -/
theorem main_part10_eq (c : Dev nD) : main_part10 (F := F) c = seq (ops24 ++ (ops25 ++ (ops26 ++ (ops27)))) := by
  first
  | rfl
  | (simp only [main_part10, fn_relu.body, fn_var_0.body, fn_where_1.body, List.cons_append, List.nil_append, seq, bind_assoc, pure_bind]; try rfl)

end Cert.ReferenceIdeal.RefRun

end
-- ==== Proof.Ref.OpsW11.lean ====
import proofs.«411400_j9251359555630_1_alg».proof.ReferenceIdeal
import Idealize.ShloMosaic.Lib.StableHlo.Run
import proofs.«411400_j9251359555630_1_alg».proof.Proof.Ref.Common

noncomputable section

namespace Cert.ReferenceIdeal.RefRun

open Cert.ReferenceIdeal Idealize.ShloMosaic Idealize.ShloMosaic.TcCoe Idealize.SL.Sem Idealize.ShloMosaic.StableHlo
open Cert.ReferenceIdeal.Facts₀ Cert.ReferenceIdeal.Facts

variable {F : FTy → Type} [FloatOps F] [Facts]

/-- The reference's operations 1027 … 1028 of 1028 (in window main_part11), a call's body listed
    at the call over the call's buffer record. -/
abbrev ops28 : List (HloOp τ sig (Elt F)) :=
  [ StableHlo.unary main_v565 main_v566 (broadcastInDim S64x10 ![0, 1] bcast_S1x10_S64x10_0_1 : (⟨S1x10, .f32⟩ : BufTy).Contents (Elt F) → (⟨S64x10, .f32⟩ : BufTy).Contents (Elt F)),
    StableHlo.binary main_v564 main_v566 main_v567 (addf : (⟨S64x10, .f32⟩ : BufTy).Contents (Elt F) → (⟨S64x10, .f32⟩ : BufTy).Contents (Elt F) → (⟨S64x10, .f32⟩ : BufTy).Contents (Elt F)) ]

/-- The buffers those operations write. -/
abbrev ops28_W : List (Ref sig .tc) :=
  [main_v566, main_v567]

set_option maxRecDepth 8192 in
theorem ops28_sub : (ops28 : List (HloOp τ sig (Elt F))).Forall fun op => op.bufs ⊆ tcRefs τ sig :=
  ⟨unary_bufs_sub .., binary_bufs_sub ..⟩

set_option maxRecDepth 8192 in
theorem ops28_writes : (ops28 : List (HloOp τ sig (Elt F))).Forall fun op =>
    op.writes ⊆ (ops28_W.map (Proc.devRef (τ := τ) .tc)).toFinset := by
  simp only [List.Forall]
  exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

set_option maxRecDepth 8192 in
/-- Every operation determines its results. -/
theorem ops28_fresh : ∀ op ∈ (ops28 : List (HloOp τ sig (Elt F))), op.fresh = ∅ := by
  intro _ h; (repeat (cases h with | head => rfl | tail _ h => ?_)); exact nomatch h

set_option maxRecDepth 8192 in
/-- None of them writes an argument of @main. -/
theorem ops28_keepArgs : ∀ r ∈ argRefs, r ∉ ops28_W := by decide

set_option maxRecDepth 16384 in
set_option maxHeartbeats 4000000 in
/-- The window is the straight line of its operations: the called functions unfolded at their calls. -/
theorem main_part11_eq (c : Dev nD) : main_part11 (F := F) c = seq (ops28) := by
  first
  | rfl
  | (simp only [main_part11, List.cons_append, List.nil_append, seq, bind_assoc, pure_bind]; try rfl)

end Cert.ReferenceIdeal.RefRun

end
-- ==== Proof.Ref.Run.lean ====
import proofs.«411400_j9251359555630_1_alg».proof.ReferenceIdeal
import Idealize.ShloMosaic.Lib.StableHlo.Run
import proofs.«411400_j9251359555630_1_alg».proof.Proof.Ref.OpsW0
import proofs.«411400_j9251359555630_1_alg».proof.Proof.Ref.OpsW1
import proofs.«411400_j9251359555630_1_alg».proof.Proof.Ref.OpsW2
import proofs.«411400_j9251359555630_1_alg».proof.Proof.Ref.OpsW3
import proofs.«411400_j9251359555630_1_alg».proof.Proof.Ref.OpsW4
import proofs.«411400_j9251359555630_1_alg».proof.Proof.Ref.OpsW5
import proofs.«411400_j9251359555630_1_alg».proof.Proof.Ref.OpsW6
import proofs.«411400_j9251359555630_1_alg».proof.Proof.Ref.OpsW7
import proofs.«411400_j9251359555630_1_alg».proof.Proof.Ref.OpsW8
import proofs.«411400_j9251359555630_1_alg».proof.Proof.Ref.OpsW9
import proofs.«411400_j9251359555630_1_alg».proof.Proof.Ref.OpsW10
import proofs.«411400_j9251359555630_1_alg».proof.Proof.Ref.OpsW11

noncomputable section

namespace Cert.ReferenceIdeal.RefRun

open Cert.ReferenceIdeal Idealize.ShloMosaic Idealize.ShloMosaic.TcCoe Idealize.SL.Sem Idealize.ShloMosaic.StableHlo
open Cert.ReferenceIdeal.Facts₀ Cert.ReferenceIdeal.Facts

variable {F : FTy → Type} [FloatOps F] [Facts]

/-- The device's buffer contents at launch. -/
abbrev R0 (m : (ℓ : Loc nD τ sig) → Buf (Elt F) ℓ) (c : Dev nD) : Valuation τ sig (Elt F) := fun b => m (c, b)

/-- The device's buffer contents after the first 1 of the 29 operation lists. -/
def R1 (m : (ℓ : Loc nD τ sig) → Buf (Elt F) ℓ) (c : Dev nD) : Valuation τ sig (Elt F) := after ops0 (R0 m c)
theorem R1_eq (m : (ℓ : Loc nD τ sig) → Buf (Elt F) ℓ) (c : Dev nD) : R1 m c = after ops0 (R0 m c) := rfl
/-- A buffer that list 0 does not write keeps its contents through it. -/
theorem R1_keep (m : (ℓ : Loc nD τ sig) → Buf (Elt F) ℓ) (c : Dev nD) (r : Ref sig .tc) (h : r ∉ ops0_W) :
    R1 m c (Proc.devRef .tc r) = R0 m c (Proc.devRef .tc r) :=
  after_of_writes_sub ops0 _ ops0_writes h

/-- The device's buffer contents after the first 2 of the 29 operation lists. -/
def R2 (m : (ℓ : Loc nD τ sig) → Buf (Elt F) ℓ) (c : Dev nD) : Valuation τ sig (Elt F) := after ops1 (R1 m c)
theorem R2_eq (m : (ℓ : Loc nD τ sig) → Buf (Elt F) ℓ) (c : Dev nD) : R2 m c = after ops1 (R1 m c) := rfl
/-- A buffer that list 1 does not write keeps its contents through it. -/
theorem R2_keep (m : (ℓ : Loc nD τ sig) → Buf (Elt F) ℓ) (c : Dev nD) (r : Ref sig .tc) (h : r ∉ ops1_W) :
    R2 m c (Proc.devRef .tc r) = R1 m c (Proc.devRef .tc r) :=
  after_of_writes_sub ops1 _ ops1_writes h

/-- The device's buffer contents after the first 3 of the 29 operation lists. -/
def R3 (m : (ℓ : Loc nD τ sig) → Buf (Elt F) ℓ) (c : Dev nD) : Valuation τ sig (Elt F) := after ops2 (R2 m c)
theorem R3_eq (m : (ℓ : Loc nD τ sig) → Buf (Elt F) ℓ) (c : Dev nD) : R3 m c = after ops2 (R2 m c) := rfl
/-- A buffer that list 2 does not write keeps its contents through it. -/
theorem R3_keep (m : (ℓ : Loc nD τ sig) → Buf (Elt F) ℓ) (c : Dev nD) (r : Ref sig .tc) (h : r ∉ ops2_W) :
    R3 m c (Proc.devRef .tc r) = R2 m c (Proc.devRef .tc r) :=
  after_of_writes_sub ops2 _ ops2_writes h

/-- The device's buffer contents after the first 4 of the 29 operation lists. -/
def R4 (m : (ℓ : Loc nD τ sig) → Buf (Elt F) ℓ) (c : Dev nD) : Valuation τ sig (Elt F) := after ops3 (R3 m c)
theorem R4_eq (m : (ℓ : Loc nD τ sig) → Buf (Elt F) ℓ) (c : Dev nD) : R4 m c = after ops3 (R3 m c) := rfl
/-- A buffer that list 3 does not write keeps its contents through it. -/
theorem R4_keep (m : (ℓ : Loc nD τ sig) → Buf (Elt F) ℓ) (c : Dev nD) (r : Ref sig .tc) (h : r ∉ ops3_W) :
    R4 m c (Proc.devRef .tc r) = R3 m c (Proc.devRef .tc r) :=
  after_of_writes_sub ops3 _ ops3_writes h

/-- The device's buffer contents after the first 5 of the 29 operation lists. -/
def R5 (m : (ℓ : Loc nD τ sig) → Buf (Elt F) ℓ) (c : Dev nD) : Valuation τ sig (Elt F) := after ops4 (R4 m c)
theorem R5_eq (m : (ℓ : Loc nD τ sig) → Buf (Elt F) ℓ) (c : Dev nD) : R5 m c = after ops4 (R4 m c) := rfl
/-- A buffer that list 4 does not write keeps its contents through it. -/
theorem R5_keep (m : (ℓ : Loc nD τ sig) → Buf (Elt F) ℓ) (c : Dev nD) (r : Ref sig .tc) (h : r ∉ ops4_W) :
    R5 m c (Proc.devRef .tc r) = R4 m c (Proc.devRef .tc r) :=
  after_of_writes_sub ops4 _ ops4_writes h

/-- The device's buffer contents after the first 6 of the 29 operation lists. -/
def R6 (m : (ℓ : Loc nD τ sig) → Buf (Elt F) ℓ) (c : Dev nD) : Valuation τ sig (Elt F) := after ops5 (R5 m c)
theorem R6_eq (m : (ℓ : Loc nD τ sig) → Buf (Elt F) ℓ) (c : Dev nD) : R6 m c = after ops5 (R5 m c) := rfl
/-- A buffer that list 5 does not write keeps its contents through it. -/
theorem R6_keep (m : (ℓ : Loc nD τ sig) → Buf (Elt F) ℓ) (c : Dev nD) (r : Ref sig .tc) (h : r ∉ ops5_W) :
    R6 m c (Proc.devRef .tc r) = R5 m c (Proc.devRef .tc r) :=
  after_of_writes_sub ops5 _ ops5_writes h

/-- The device's buffer contents after the first 7 of the 29 operation lists. -/
def R7 (m : (ℓ : Loc nD τ sig) → Buf (Elt F) ℓ) (c : Dev nD) : Valuation τ sig (Elt F) := after ops6 (R6 m c)
theorem R7_eq (m : (ℓ : Loc nD τ sig) → Buf (Elt F) ℓ) (c : Dev nD) : R7 m c = after ops6 (R6 m c) := rfl
/-- A buffer that list 6 does not write keeps its contents through it. -/
theorem R7_keep (m : (ℓ : Loc nD τ sig) → Buf (Elt F) ℓ) (c : Dev nD) (r : Ref sig .tc) (h : r ∉ ops6_W) :
    R7 m c (Proc.devRef .tc r) = R6 m c (Proc.devRef .tc r) :=
  after_of_writes_sub ops6 _ ops6_writes h

/-- The device's buffer contents after the first 8 of the 29 operation lists. -/
def R8 (m : (ℓ : Loc nD τ sig) → Buf (Elt F) ℓ) (c : Dev nD) : Valuation τ sig (Elt F) := after ops7 (R7 m c)
theorem R8_eq (m : (ℓ : Loc nD τ sig) → Buf (Elt F) ℓ) (c : Dev nD) : R8 m c = after ops7 (R7 m c) := rfl
/-- A buffer that list 7 does not write keeps its contents through it. -/
theorem R8_keep (m : (ℓ : Loc nD τ sig) → Buf (Elt F) ℓ) (c : Dev nD) (r : Ref sig .tc) (h : r ∉ ops7_W) :
    R8 m c (Proc.devRef .tc r) = R7 m c (Proc.devRef .tc r) :=
  after_of_writes_sub ops7 _ ops7_writes h

/-- The device's buffer contents after the first 9 of the 29 operation lists. -/
def R9 (m : (ℓ : Loc nD τ sig) → Buf (Elt F) ℓ) (c : Dev nD) : Valuation τ sig (Elt F) := after ops8 (R8 m c)
theorem R9_eq (m : (ℓ : Loc nD τ sig) → Buf (Elt F) ℓ) (c : Dev nD) : R9 m c = after ops8 (R8 m c) := rfl
/-- A buffer that list 8 does not write keeps its contents through it. -/
theorem R9_keep (m : (ℓ : Loc nD τ sig) → Buf (Elt F) ℓ) (c : Dev nD) (r : Ref sig .tc) (h : r ∉ ops8_W) :
    R9 m c (Proc.devRef .tc r) = R8 m c (Proc.devRef .tc r) :=
  after_of_writes_sub ops8 _ ops8_writes h

/-- The device's buffer contents after the first 10 of the 29 operation lists. -/
def R10 (m : (ℓ : Loc nD τ sig) → Buf (Elt F) ℓ) (c : Dev nD) : Valuation τ sig (Elt F) := after ops9 (R9 m c)
theorem R10_eq (m : (ℓ : Loc nD τ sig) → Buf (Elt F) ℓ) (c : Dev nD) : R10 m c = after ops9 (R9 m c) := rfl
/-- A buffer that list 9 does not write keeps its contents through it. -/
theorem R10_keep (m : (ℓ : Loc nD τ sig) → Buf (Elt F) ℓ) (c : Dev nD) (r : Ref sig .tc) (h : r ∉ ops9_W) :
    R10 m c (Proc.devRef .tc r) = R9 m c (Proc.devRef .tc r) :=
  after_of_writes_sub ops9 _ ops9_writes h

/-- The device's buffer contents after the first 11 of the 29 operation lists. -/
def R11 (m : (ℓ : Loc nD τ sig) → Buf (Elt F) ℓ) (c : Dev nD) : Valuation τ sig (Elt F) := after ops10 (R10 m c)
theorem R11_eq (m : (ℓ : Loc nD τ sig) → Buf (Elt F) ℓ) (c : Dev nD) : R11 m c = after ops10 (R10 m c) := rfl
/-- A buffer that list 10 does not write keeps its contents through it. -/
theorem R11_keep (m : (ℓ : Loc nD τ sig) → Buf (Elt F) ℓ) (c : Dev nD) (r : Ref sig .tc) (h : r ∉ ops10_W) :
    R11 m c (Proc.devRef .tc r) = R10 m c (Proc.devRef .tc r) :=
  after_of_writes_sub ops10 _ ops10_writes h

/-- The device's buffer contents after the first 12 of the 29 operation lists. -/
def R12 (m : (ℓ : Loc nD τ sig) → Buf (Elt F) ℓ) (c : Dev nD) : Valuation τ sig (Elt F) := after ops11 (R11 m c)
theorem R12_eq (m : (ℓ : Loc nD τ sig) → Buf (Elt F) ℓ) (c : Dev nD) : R12 m c = after ops11 (R11 m c) := rfl
/-- A buffer that list 11 does not write keeps its contents through it. -/
theorem R12_keep (m : (ℓ : Loc nD τ sig) → Buf (Elt F) ℓ) (c : Dev nD) (r : Ref sig .tc) (h : r ∉ ops11_W) :
    R12 m c (Proc.devRef .tc r) = R11 m c (Proc.devRef .tc r) :=
  after_of_writes_sub ops11 _ ops11_writes h

/-- The device's buffer contents after the first 13 of the 29 operation lists. -/
def R13 (m : (ℓ : Loc nD τ sig) → Buf (Elt F) ℓ) (c : Dev nD) : Valuation τ sig (Elt F) := after ops12 (R12 m c)
theorem R13_eq (m : (ℓ : Loc nD τ sig) → Buf (Elt F) ℓ) (c : Dev nD) : R13 m c = after ops12 (R12 m c) := rfl
/-- A buffer that list 12 does not write keeps its contents through it. -/
theorem R13_keep (m : (ℓ : Loc nD τ sig) → Buf (Elt F) ℓ) (c : Dev nD) (r : Ref sig .tc) (h : r ∉ ops12_W) :
    R13 m c (Proc.devRef .tc r) = R12 m c (Proc.devRef .tc r) :=
  after_of_writes_sub ops12 _ ops12_writes h

/-- The device's buffer contents after the first 14 of the 29 operation lists. -/
def R14 (m : (ℓ : Loc nD τ sig) → Buf (Elt F) ℓ) (c : Dev nD) : Valuation τ sig (Elt F) := after ops13 (R13 m c)
theorem R14_eq (m : (ℓ : Loc nD τ sig) → Buf (Elt F) ℓ) (c : Dev nD) : R14 m c = after ops13 (R13 m c) := rfl
/-- A buffer that list 13 does not write keeps its contents through it. -/
theorem R14_keep (m : (ℓ : Loc nD τ sig) → Buf (Elt F) ℓ) (c : Dev nD) (r : Ref sig .tc) (h : r ∉ ops13_W) :
    R14 m c (Proc.devRef .tc r) = R13 m c (Proc.devRef .tc r) :=
  after_of_writes_sub ops13 _ ops13_writes h

/-- The device's buffer contents after the first 15 of the 29 operation lists. -/
def R15 (m : (ℓ : Loc nD τ sig) → Buf (Elt F) ℓ) (c : Dev nD) : Valuation τ sig (Elt F) := after ops14 (R14 m c)
theorem R15_eq (m : (ℓ : Loc nD τ sig) → Buf (Elt F) ℓ) (c : Dev nD) : R15 m c = after ops14 (R14 m c) := rfl
/-- A buffer that list 14 does not write keeps its contents through it. -/
theorem R15_keep (m : (ℓ : Loc nD τ sig) → Buf (Elt F) ℓ) (c : Dev nD) (r : Ref sig .tc) (h : r ∉ ops14_W) :
    R15 m c (Proc.devRef .tc r) = R14 m c (Proc.devRef .tc r) :=
  after_of_writes_sub ops14 _ ops14_writes h

/-- The device's buffer contents after the first 16 of the 29 operation lists. -/
def R16 (m : (ℓ : Loc nD τ sig) → Buf (Elt F) ℓ) (c : Dev nD) : Valuation τ sig (Elt F) := after ops15 (R15 m c)
theorem R16_eq (m : (ℓ : Loc nD τ sig) → Buf (Elt F) ℓ) (c : Dev nD) : R16 m c = after ops15 (R15 m c) := rfl
/-- A buffer that list 15 does not write keeps its contents through it. -/
theorem R16_keep (m : (ℓ : Loc nD τ sig) → Buf (Elt F) ℓ) (c : Dev nD) (r : Ref sig .tc) (h : r ∉ ops15_W) :
    R16 m c (Proc.devRef .tc r) = R15 m c (Proc.devRef .tc r) :=
  after_of_writes_sub ops15 _ ops15_writes h

/-- The device's buffer contents after the first 17 of the 29 operation lists. -/
def R17 (m : (ℓ : Loc nD τ sig) → Buf (Elt F) ℓ) (c : Dev nD) : Valuation τ sig (Elt F) := after ops16 (R16 m c)
theorem R17_eq (m : (ℓ : Loc nD τ sig) → Buf (Elt F) ℓ) (c : Dev nD) : R17 m c = after ops16 (R16 m c) := rfl
/-- A buffer that list 16 does not write keeps its contents through it. -/
theorem R17_keep (m : (ℓ : Loc nD τ sig) → Buf (Elt F) ℓ) (c : Dev nD) (r : Ref sig .tc) (h : r ∉ ops16_W) :
    R17 m c (Proc.devRef .tc r) = R16 m c (Proc.devRef .tc r) :=
  after_of_writes_sub ops16 _ ops16_writes h

/-- The device's buffer contents after the first 18 of the 29 operation lists. -/
def R18 (m : (ℓ : Loc nD τ sig) → Buf (Elt F) ℓ) (c : Dev nD) : Valuation τ sig (Elt F) := after ops17 (R17 m c)
theorem R18_eq (m : (ℓ : Loc nD τ sig) → Buf (Elt F) ℓ) (c : Dev nD) : R18 m c = after ops17 (R17 m c) := rfl
/-- A buffer that list 17 does not write keeps its contents through it. -/
theorem R18_keep (m : (ℓ : Loc nD τ sig) → Buf (Elt F) ℓ) (c : Dev nD) (r : Ref sig .tc) (h : r ∉ ops17_W) :
    R18 m c (Proc.devRef .tc r) = R17 m c (Proc.devRef .tc r) :=
  after_of_writes_sub ops17 _ ops17_writes h

/-- The device's buffer contents after the first 19 of the 29 operation lists. -/
def R19 (m : (ℓ : Loc nD τ sig) → Buf (Elt F) ℓ) (c : Dev nD) : Valuation τ sig (Elt F) := after ops18 (R18 m c)
theorem R19_eq (m : (ℓ : Loc nD τ sig) → Buf (Elt F) ℓ) (c : Dev nD) : R19 m c = after ops18 (R18 m c) := rfl
/-- A buffer that list 18 does not write keeps its contents through it. -/
theorem R19_keep (m : (ℓ : Loc nD τ sig) → Buf (Elt F) ℓ) (c : Dev nD) (r : Ref sig .tc) (h : r ∉ ops18_W) :
    R19 m c (Proc.devRef .tc r) = R18 m c (Proc.devRef .tc r) :=
  after_of_writes_sub ops18 _ ops18_writes h

/-- The device's buffer contents after the first 20 of the 29 operation lists. -/
def R20 (m : (ℓ : Loc nD τ sig) → Buf (Elt F) ℓ) (c : Dev nD) : Valuation τ sig (Elt F) := after ops19 (R19 m c)
theorem R20_eq (m : (ℓ : Loc nD τ sig) → Buf (Elt F) ℓ) (c : Dev nD) : R20 m c = after ops19 (R19 m c) := rfl
/-- A buffer that list 19 does not write keeps its contents through it. -/
theorem R20_keep (m : (ℓ : Loc nD τ sig) → Buf (Elt F) ℓ) (c : Dev nD) (r : Ref sig .tc) (h : r ∉ ops19_W) :
    R20 m c (Proc.devRef .tc r) = R19 m c (Proc.devRef .tc r) :=
  after_of_writes_sub ops19 _ ops19_writes h

/-- The device's buffer contents after the first 21 of the 29 operation lists. -/
def R21 (m : (ℓ : Loc nD τ sig) → Buf (Elt F) ℓ) (c : Dev nD) : Valuation τ sig (Elt F) := after ops20 (R20 m c)
theorem R21_eq (m : (ℓ : Loc nD τ sig) → Buf (Elt F) ℓ) (c : Dev nD) : R21 m c = after ops20 (R20 m c) := rfl
/-- A buffer that list 20 does not write keeps its contents through it. -/
theorem R21_keep (m : (ℓ : Loc nD τ sig) → Buf (Elt F) ℓ) (c : Dev nD) (r : Ref sig .tc) (h : r ∉ ops20_W) :
    R21 m c (Proc.devRef .tc r) = R20 m c (Proc.devRef .tc r) :=
  after_of_writes_sub ops20 _ ops20_writes h

/-- The device's buffer contents after the first 22 of the 29 operation lists. -/
def R22 (m : (ℓ : Loc nD τ sig) → Buf (Elt F) ℓ) (c : Dev nD) : Valuation τ sig (Elt F) := after ops21 (R21 m c)
theorem R22_eq (m : (ℓ : Loc nD τ sig) → Buf (Elt F) ℓ) (c : Dev nD) : R22 m c = after ops21 (R21 m c) := rfl
/-- A buffer that list 21 does not write keeps its contents through it. -/
theorem R22_keep (m : (ℓ : Loc nD τ sig) → Buf (Elt F) ℓ) (c : Dev nD) (r : Ref sig .tc) (h : r ∉ ops21_W) :
    R22 m c (Proc.devRef .tc r) = R21 m c (Proc.devRef .tc r) :=
  after_of_writes_sub ops21 _ ops21_writes h

/-- The device's buffer contents after the first 23 of the 29 operation lists. -/
def R23 (m : (ℓ : Loc nD τ sig) → Buf (Elt F) ℓ) (c : Dev nD) : Valuation τ sig (Elt F) := after ops22 (R22 m c)
theorem R23_eq (m : (ℓ : Loc nD τ sig) → Buf (Elt F) ℓ) (c : Dev nD) : R23 m c = after ops22 (R22 m c) := rfl
/-- A buffer that list 22 does not write keeps its contents through it. -/
theorem R23_keep (m : (ℓ : Loc nD τ sig) → Buf (Elt F) ℓ) (c : Dev nD) (r : Ref sig .tc) (h : r ∉ ops22_W) :
    R23 m c (Proc.devRef .tc r) = R22 m c (Proc.devRef .tc r) :=
  after_of_writes_sub ops22 _ ops22_writes h

/-- The device's buffer contents after the first 24 of the 29 operation lists. -/
def R24 (m : (ℓ : Loc nD τ sig) → Buf (Elt F) ℓ) (c : Dev nD) : Valuation τ sig (Elt F) := after ops23 (R23 m c)
theorem R24_eq (m : (ℓ : Loc nD τ sig) → Buf (Elt F) ℓ) (c : Dev nD) : R24 m c = after ops23 (R23 m c) := rfl
/-- A buffer that list 23 does not write keeps its contents through it. -/
theorem R24_keep (m : (ℓ : Loc nD τ sig) → Buf (Elt F) ℓ) (c : Dev nD) (r : Ref sig .tc) (h : r ∉ ops23_W) :
    R24 m c (Proc.devRef .tc r) = R23 m c (Proc.devRef .tc r) :=
  after_of_writes_sub ops23 _ ops23_writes h

/-- The device's buffer contents after the first 25 of the 29 operation lists. -/
def R25 (m : (ℓ : Loc nD τ sig) → Buf (Elt F) ℓ) (c : Dev nD) : Valuation τ sig (Elt F) := after ops24 (R24 m c)
theorem R25_eq (m : (ℓ : Loc nD τ sig) → Buf (Elt F) ℓ) (c : Dev nD) : R25 m c = after ops24 (R24 m c) := rfl
/-- A buffer that list 24 does not write keeps its contents through it. -/
theorem R25_keep (m : (ℓ : Loc nD τ sig) → Buf (Elt F) ℓ) (c : Dev nD) (r : Ref sig .tc) (h : r ∉ ops24_W) :
    R25 m c (Proc.devRef .tc r) = R24 m c (Proc.devRef .tc r) :=
  after_of_writes_sub ops24 _ ops24_writes h

/-- The device's buffer contents after the first 26 of the 29 operation lists. -/
def R26 (m : (ℓ : Loc nD τ sig) → Buf (Elt F) ℓ) (c : Dev nD) : Valuation τ sig (Elt F) := after ops25 (R25 m c)
theorem R26_eq (m : (ℓ : Loc nD τ sig) → Buf (Elt F) ℓ) (c : Dev nD) : R26 m c = after ops25 (R25 m c) := rfl
/-- A buffer that list 25 does not write keeps its contents through it. -/
theorem R26_keep (m : (ℓ : Loc nD τ sig) → Buf (Elt F) ℓ) (c : Dev nD) (r : Ref sig .tc) (h : r ∉ ops25_W) :
    R26 m c (Proc.devRef .tc r) = R25 m c (Proc.devRef .tc r) :=
  after_of_writes_sub ops25 _ ops25_writes h

/-- The device's buffer contents after the first 27 of the 29 operation lists. -/
def R27 (m : (ℓ : Loc nD τ sig) → Buf (Elt F) ℓ) (c : Dev nD) : Valuation τ sig (Elt F) := after ops26 (R26 m c)
theorem R27_eq (m : (ℓ : Loc nD τ sig) → Buf (Elt F) ℓ) (c : Dev nD) : R27 m c = after ops26 (R26 m c) := rfl
/-- A buffer that list 26 does not write keeps its contents through it. -/
theorem R27_keep (m : (ℓ : Loc nD τ sig) → Buf (Elt F) ℓ) (c : Dev nD) (r : Ref sig .tc) (h : r ∉ ops26_W) :
    R27 m c (Proc.devRef .tc r) = R26 m c (Proc.devRef .tc r) :=
  after_of_writes_sub ops26 _ ops26_writes h

/-- The device's buffer contents after the first 28 of the 29 operation lists. -/
def R28 (m : (ℓ : Loc nD τ sig) → Buf (Elt F) ℓ) (c : Dev nD) : Valuation τ sig (Elt F) := after ops27 (R27 m c)
theorem R28_eq (m : (ℓ : Loc nD τ sig) → Buf (Elt F) ℓ) (c : Dev nD) : R28 m c = after ops27 (R27 m c) := rfl
/-- A buffer that list 27 does not write keeps its contents through it. -/
theorem R28_keep (m : (ℓ : Loc nD τ sig) → Buf (Elt F) ℓ) (c : Dev nD) (r : Ref sig .tc) (h : r ∉ ops27_W) :
    R28 m c (Proc.devRef .tc r) = R27 m c (Proc.devRef .tc r) :=
  after_of_writes_sub ops27 _ ops27_writes h

/-- The device's buffer contents after the first 29 of the 29 operation lists. -/
def R29 (m : (ℓ : Loc nD τ sig) → Buf (Elt F) ℓ) (c : Dev nD) : Valuation τ sig (Elt F) := after ops28 (R28 m c)
theorem R29_eq (m : (ℓ : Loc nD τ sig) → Buf (Elt F) ℓ) (c : Dev nD) : R29 m c = after ops28 (R28 m c) := rfl
/-- A buffer that list 28 does not write keeps its contents through it. -/
theorem R29_keep (m : (ℓ : Loc nD τ sig) → Buf (Elt F) ℓ) (c : Dev nD) (r : Ref sig .tc) (h : r ∉ ops28_W) :
    R29 m c (Proc.devRef .tc r) = R28 m c (Proc.devRef .tc r) :=
  after_of_writes_sub ops28 _ ops28_writes h

/-- The reference's 1028 operations, in order: the 29 lists concatenated. -/
abbrev allOps : List (HloOp τ sig (Elt F)) :=
  ops0 ++ (ops1 ++ (ops2 ++ (ops3 ++ (ops4 ++ (ops5 ++ (ops6 ++ (ops7 ++ (ops8 ++ (ops9 ++ (ops10 ++ (ops11 ++ (ops12 ++ (ops13 ++ (ops14 ++ (ops15 ++ (ops16 ++ (ops17 ++ (ops18 ++ (ops19 ++ (ops20 ++ (ops21 ++ (ops22 ++ (ops23 ++ (ops24 ++ (ops25 ++ (ops26 ++ (ops27 ++ (ops28))))))))))))))))))))))))))))

/-- The fold over all of them is the last of the named contents. -/
theorem after_allOps (m : (ℓ : Loc nD τ sig) → Buf (Elt F) ℓ) (c : Dev nD) : after allOps (R0 m c) = R29 m c :=
  ((after_app ops0 _ _).trans
    ((after_app ops1 _ _).trans
    ((after_app ops2 _ _).trans
    ((after_app ops3 _ _).trans
    ((after_app ops4 _ _).trans
    ((after_app ops5 _ _).trans
    ((after_app ops6 _ _).trans
    ((after_app ops7 _ _).trans
    ((after_app ops8 _ _).trans
    ((after_app ops9 _ _).trans
    ((after_app ops10 _ _).trans
    ((after_app ops11 _ _).trans
    ((after_app ops12 _ _).trans
    ((after_app ops13 _ _).trans
    ((after_app ops14 _ _).trans
    ((after_app ops15 _ _).trans
    ((after_app ops16 _ _).trans
    ((after_app ops17 _ _).trans
    ((after_app ops18 _ _).trans
    ((after_app ops19 _ _).trans
    ((after_app ops20 _ _).trans
    ((after_app ops21 _ _).trans
    ((after_app ops22 _ _).trans
    ((after_app ops23 _ _).trans
    ((after_app ops24 _ _).trans
    ((after_app ops25 _ _).trans
    ((after_app ops26 _ _).trans
    ((after_app ops27 _ _).trans rfl))))))))))))))))))))))))))))

set_option maxRecDepth 8192 in
/-- @main is the straight line of all the operations: window by window, the lines joined. -/
theorem main_eq (c : Dev nD) : main (F := F) c = seq allOps := by
  simp only [main, main_part0_eq c, main_part1_eq c, main_part2_eq c, main_part3_eq c, main_part4_eq c, main_part5_eq c, main_part6_eq c, main_part7_eq c, main_part8_eq c, main_part9_eq c, main_part10_eq c, main_part11_eq c, allOps, seq_append, bind_assoc]

theorem scopedRefs_eq : (Finset.univ.filter fun b : Ref sig .tc => b.isScoped) = ∅ := by decide
theorem scopedSems_eq : (Finset.univ.filter fun sm : SemLoc sig => sm.isScoped .tc) = ∅ := by decide

theorem allOps_sub : (allOps : List (HloOp τ sig (Elt F))).Forall fun op => op.bufs ⊆ tcRefs τ sig :=
  sub_app ops0_sub (sub_app ops1_sub (sub_app ops2_sub (sub_app ops3_sub (sub_app ops4_sub (sub_app ops5_sub (sub_app ops6_sub (sub_app ops7_sub (sub_app ops8_sub (sub_app ops9_sub (sub_app ops10_sub (sub_app ops11_sub (sub_app ops12_sub (sub_app ops13_sub (sub_app ops14_sub (sub_app ops15_sub (sub_app ops16_sub (sub_app ops17_sub (sub_app ops18_sub (sub_app ops19_sub (sub_app ops20_sub (sub_app ops21_sub (sub_app ops22_sub (sub_app ops23_sub (sub_app ops24_sub (sub_app ops25_sub (sub_app ops26_sub (sub_app ops27_sub (ops28_sub))))))))))))))))))))))))))))

theorem allOps_fresh : ∀ op ∈ (allOps : List (HloOp τ sig (Elt F))), op.fresh = ∅ :=
  fresh_app ops0_fresh (fresh_app ops1_fresh (fresh_app ops2_fresh (fresh_app ops3_fresh (fresh_app ops4_fresh (fresh_app ops5_fresh (fresh_app ops6_fresh (fresh_app ops7_fresh (fresh_app ops8_fresh (fresh_app ops9_fresh (fresh_app ops10_fresh (fresh_app ops11_fresh (fresh_app ops12_fresh (fresh_app ops13_fresh (fresh_app ops14_fresh (fresh_app ops15_fresh (fresh_app ops16_fresh (fresh_app ops17_fresh (fresh_app ops18_fresh (fresh_app ops19_fresh (fresh_app ops20_fresh (fresh_app ops21_fresh (fresh_app ops22_fresh (fresh_app ops23_fresh (fresh_app ops24_fresh (fresh_app ops25_fresh (fresh_app ops26_fresh (fresh_app ops27_fresh (ops28_fresh))))))))))))))))))))))))))))

/-- An argument of @main holds its launch contents after all the operations. -/
theorem arg_kept (m : (ℓ : Loc nD τ sig) → Buf (Elt F) ℓ) (c : Dev nD) (r : Ref sig .tc) (hr : r ∈ argRefs) :
    R29 m c (Proc.devRef .tc r) = m (c, Proc.devRef .tc r) :=
  ((R29_keep m c r (ops28_keepArgs r hr)).trans
    ((R28_keep m c r (ops27_keepArgs r hr)).trans
    ((R27_keep m c r (ops26_keepArgs r hr)).trans
    ((R26_keep m c r (ops25_keepArgs r hr)).trans
    ((R25_keep m c r (ops24_keepArgs r hr)).trans
    ((R24_keep m c r (ops23_keepArgs r hr)).trans
    ((R23_keep m c r (ops22_keepArgs r hr)).trans
    ((R22_keep m c r (ops21_keepArgs r hr)).trans
    ((R21_keep m c r (ops20_keepArgs r hr)).trans
    ((R20_keep m c r (ops19_keepArgs r hr)).trans
    ((R19_keep m c r (ops18_keepArgs r hr)).trans
    ((R18_keep m c r (ops17_keepArgs r hr)).trans
    ((R17_keep m c r (ops16_keepArgs r hr)).trans
    ((R16_keep m c r (ops15_keepArgs r hr)).trans
    ((R15_keep m c r (ops14_keepArgs r hr)).trans
    ((R14_keep m c r (ops13_keepArgs r hr)).trans
    ((R13_keep m c r (ops12_keepArgs r hr)).trans
    ((R12_keep m c r (ops11_keepArgs r hr)).trans
    ((R11_keep m c r (ops10_keepArgs r hr)).trans
    ((R10_keep m c r (ops9_keepArgs r hr)).trans
    ((R9_keep m c r (ops8_keepArgs r hr)).trans
    ((R8_keep m c r (ops7_keepArgs r hr)).trans
    ((R7_keep m c r (ops6_keepArgs r hr)).trans
    ((R6_keep m c r (ops5_keepArgs r hr)).trans
    ((R5_keep m c r (ops4_keepArgs r hr)).trans
    ((R4_keep m c r (ops3_keepArgs r hr)).trans
    ((R3_keep m c r (ops2_keepArgs r hr)).trans
    ((R2_keep m c r (ops1_keepArgs r hr)).trans
    ((R1_keep m c r (ops0_keepArgs r hr)).trans rfl)))))))))))))))))))))))))))))

/-- The reference's result on a device, as the fold of its operations over the launch contents (not expanded). -/
def resVal (m : (ℓ : Loc nD τ sig) → Buf (Elt F) ℓ) (c : Dev nD) := R29 m c (Proc.devRef .tc main_v567)

/-- On every device, for any float values, from any memory with zero counters: every weakly fair execution of @main
    terminates with the result buffer at the fold of the operations over the launch contents and every argument unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v567) = resVal m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)
      ∧ r.2.mem ((c.tc : Thread nD τ).loc main_arg28) = m ((c.tc : Thread nD τ).loc main_arg28)
      ∧ r.2.mem ((c.tc : Thread nD τ).loc main_arg29) = m ((c.tc : Thread nD τ).loc main_arg29) :=
  (θ_run defs _ _).mono (fun _ h c => by
      have h := fun b => (h c b).trans (congrFun (after_allOps m c) (Proc.devRef .tc b))
      exact ⟨h main_v567,
        (h main_arg0).trans (arg_kept m c main_arg0 (by decide)),
        (h main_arg1).trans (arg_kept m c main_arg1 (by decide)),
        (h main_arg2).trans (arg_kept m c main_arg2 (by decide)),
        (h main_arg3).trans (arg_kept m c main_arg3 (by decide)),
        (h main_arg4).trans (arg_kept m c main_arg4 (by decide)),
        (h main_arg5).trans (arg_kept m c main_arg5 (by decide)),
        (h main_arg6).trans (arg_kept m c main_arg6 (by decide)),
        (h main_arg7).trans (arg_kept m c main_arg7 (by decide)),
        (h main_arg8).trans (arg_kept m c main_arg8 (by decide)),
        (h main_arg9).trans (arg_kept m c main_arg9 (by decide)),
        (h main_arg10).trans (arg_kept m c main_arg10 (by decide)),
        (h main_arg11).trans (arg_kept m c main_arg11 (by decide)),
        (h main_arg12).trans (arg_kept m c main_arg12 (by decide)),
        (h main_arg13).trans (arg_kept m c main_arg13 (by decide)),
        (h main_arg14).trans (arg_kept m c main_arg14 (by decide)),
        (h main_arg15).trans (arg_kept m c main_arg15 (by decide)),
        (h main_arg16).trans (arg_kept m c main_arg16 (by decide)),
        (h main_arg17).trans (arg_kept m c main_arg17 (by decide)),
        (h main_arg18).trans (arg_kept m c main_arg18 (by decide)),
        (h main_arg19).trans (arg_kept m c main_arg19 (by decide)),
        (h main_arg20).trans (arg_kept m c main_arg20 (by decide)),
        (h main_arg21).trans (arg_kept m c main_arg21 (by decide)),
        (h main_arg22).trans (arg_kept m c main_arg22 (by decide)),
        (h main_arg23).trans (arg_kept m c main_arg23 (by decide)),
        (h main_arg24).trans (arg_kept m c main_arg24 (by decide)),
        (h main_arg25).trans (arg_kept m c main_arg25 (by decide)),
        (h main_arg26).trans (arg_kept m c main_arg26 (by decide)),
        (h main_arg27).trans (arg_kept m c main_arg27 (by decide)),
        (h main_arg28).trans (arg_kept m c main_arg28 (by decide)),
        (h main_arg29).trans (arg_kept m c main_arg29 (by decide))⟩)
    (run_seq scopedRefs_eq scopedSems_eq defs main (fun _ => allOps) main_eq (fun _ => allOps_sub) m ρ (fun _ => allOps_fresh))

end Cert.ReferenceIdeal.RefRun

end
-- ==== Proof.ClaimsFrames.lean ====
/-
  The frames of the three programs and the idealization's claim.

  Each program runs to the end, nothing faulting, with its arguments unchanged.  For the kernel program (at the
  bit-level floats and at the extended reals alike) this is the composition of the nine regions' records along the
  program's items: a region's record is entered from the contents before the region and left at the contents after it,
  and the items between two regions are run on those contents.  For the reference it is the run of its operations one
  after another, the statement about the result dropped.  None of this needs the precondition.

  The idealization rewrote no operation (the idealized program is the printed text read at the extended reals), so its
  claim is trivially true.
-/
import proofs.«411400_j9251359555630_1_alg».proof.Defs
import proofs.«411400_j9251359555630_1_alg».proof.Proof.Gen.Kernel
import proofs.«411400_j9251359555630_1_alg».proof.Proof.Gen.KernelIdeal
import proofs.«411400_j9251359555630_1_alg».proof.Proof.Gen.ReferenceIdeal
import proofs.«411400_j9251359555630_1_alg».proof.Proof.Gen.Pre_finite_inputs
import proofs.«411400_j9251359555630_1_alg».proof.Proof.K.Frame
import proofs.«411400_j9251359555630_1_alg».proof.Proof.K.Seg0
import proofs.«411400_j9251359555630_1_alg».proof.Proof.K.Seg1
import proofs.«411400_j9251359555630_1_alg».proof.Proof.K.Seg2
import proofs.«411400_j9251359555630_1_alg».proof.Proof.K.Seg3
import proofs.«411400_j9251359555630_1_alg».proof.Proof.K.Seg4
import proofs.«411400_j9251359555630_1_alg».proof.Proof.K.Seg5
import proofs.«411400_j9251359555630_1_alg».proof.Proof.K.Seg6
import proofs.«411400_j9251359555630_1_alg».proof.Proof.K.Seg7
import proofs.«411400_j9251359555630_1_alg».proof.Proof.K.Seg8
import proofs.«411400_j9251359555630_1_alg».proof.Proof.KI.Frame
import proofs.«411400_j9251359555630_1_alg».proof.Proof.KI.Seg0
import proofs.«411400_j9251359555630_1_alg».proof.Proof.KI.Seg1
import proofs.«411400_j9251359555630_1_alg».proof.Proof.KI.Seg2
import proofs.«411400_j9251359555630_1_alg».proof.Proof.KI.Seg3
import proofs.«411400_j9251359555630_1_alg».proof.Proof.KI.Seg4
import proofs.«411400_j9251359555630_1_alg».proof.Proof.KI.Seg5
import proofs.«411400_j9251359555630_1_alg».proof.Proof.KI.Seg6
import proofs.«411400_j9251359555630_1_alg».proof.Proof.KI.Seg7
import proofs.«411400_j9251359555630_1_alg».proof.Proof.KI.Seg8
import proofs.«411400_j9251359555630_1_alg».proof.Proof.Ref.Run

noncomputable section

namespace Cert.Proof.Claims

open Idealize.ShloMosaic Idealize.ShloMosaic.TcCoe Idealize.SL.Sem

/-! ## The nine regions' records, gathered -/

/-- The nine regions' records of the program as printed (bit-level floats). -/
def regsK (m : (ℓ : Loc Cert.Kernel.nD Cert.Kernel.τ Cert.Kernel.sig) → Buf (Elt Bits) ℓ) :
    Cert.Kernel.Run.Regs (F := Bits) m :=
  {
    reg0 := Cert.Kernel.Run.reg0 m, hpre0 := Cert.Kernel.Run.hpre0 m, hpost0 := Cert.Kernel.Run.hpost0 m,
    reg1 := Cert.Kernel.Run.reg1 m, hpre1 := Cert.Kernel.Run.hpre1 m, hpost1 := Cert.Kernel.Run.hpost1 m,
    reg2 := Cert.Kernel.Run.reg2 m, hpre2 := Cert.Kernel.Run.hpre2 m, hpost2 := Cert.Kernel.Run.hpost2 m,
    reg3 := Cert.Kernel.Run.reg3 m, hpre3 := Cert.Kernel.Run.hpre3 m, hpost3 := Cert.Kernel.Run.hpost3 m,
    reg4 := Cert.Kernel.Run.reg4 m, hpre4 := Cert.Kernel.Run.hpre4 m, hpost4 := Cert.Kernel.Run.hpost4 m,
    reg5 := Cert.Kernel.Run.reg5 m, hpre5 := Cert.Kernel.Run.hpre5 m, hpost5 := Cert.Kernel.Run.hpost5 m,
    reg6 := Cert.Kernel.Run.reg6 m, hpre6 := Cert.Kernel.Run.hpre6 m, hpost6 := Cert.Kernel.Run.hpost6 m,
    reg7 := Cert.Kernel.Run.reg7 m, hpre7 := Cert.Kernel.Run.hpre7 m, hpost7 := Cert.Kernel.Run.hpost7 m,
    reg8 := Cert.Kernel.Run.reg8 m, hpre8 := Cert.Kernel.Run.hpre8 m, hpost8 := Cert.Kernel.Run.hpost8 m }

/-- The nine regions' records of the idealized program (floats the extended reals). -/
def regsKI (m : (ℓ : Loc Cert.KernelIdeal.nD Cert.KernelIdeal.τ Cert.KernelIdeal.sig) → Buf (Elt Ideal) ℓ) :
    Cert.KernelIdeal.Run.Regs (F := Ideal) m :=
  {
    reg0 := Cert.KernelIdeal.Run.reg0 m, hpre0 := Cert.KernelIdeal.Run.hpre0 m, hpost0 := Cert.KernelIdeal.Run.hpost0 m,
    reg1 := Cert.KernelIdeal.Run.reg1 m, hpre1 := Cert.KernelIdeal.Run.hpre1 m, hpost1 := Cert.KernelIdeal.Run.hpost1 m,
    reg2 := Cert.KernelIdeal.Run.reg2 m, hpre2 := Cert.KernelIdeal.Run.hpre2 m, hpost2 := Cert.KernelIdeal.Run.hpost2 m,
    reg3 := Cert.KernelIdeal.Run.reg3 m, hpre3 := Cert.KernelIdeal.Run.hpre3 m, hpost3 := Cert.KernelIdeal.Run.hpost3 m,
    reg4 := Cert.KernelIdeal.Run.reg4 m, hpre4 := Cert.KernelIdeal.Run.hpre4 m, hpost4 := Cert.KernelIdeal.Run.hpost4 m,
    reg5 := Cert.KernelIdeal.Run.reg5 m, hpre5 := Cert.KernelIdeal.Run.hpre5 m, hpost5 := Cert.KernelIdeal.Run.hpost5 m,
    reg6 := Cert.KernelIdeal.Run.reg6 m, hpre6 := Cert.KernelIdeal.Run.hpre6 m, hpost6 := Cert.KernelIdeal.Run.hpost6 m,
    reg7 := Cert.KernelIdeal.Run.reg7 m, hpre7 := Cert.KernelIdeal.Run.hpre7 m, hpost7 := Cert.KernelIdeal.Run.hpost7 m,
    reg8 := Cert.KernelIdeal.Run.reg8 m, hpre8 := Cert.KernelIdeal.Run.hpre8 m, hpost8 := Cert.KernelIdeal.Run.hpost8 m }

/-! ## The frames -/

/-- The program as printed runs to the end and leaves its arguments as launched: the nine regions' records composed
    along the program's items.  (The precondition is not needed for this.) -/
theorem frame_K : Cert.frame_Kernel := fun m ρ _ => Cert.Kernel.Run.frame_main m ρ (regsK m)

/-- The same for the idealized program. -/
theorem frame_KI : Cert.frame_KernelIdeal := fun m ρ _ => Cert.KernelIdeal.Run.frame_main m ρ (regsKI m)

/-- The reference runs to the end and leaves its arguments as launched: the run of its operations, the statement
    about the result dropped. -/
theorem frame_R : Cert.frame_ReferenceIdeal := fun m ρ _ =>
  (θ_run Cert.ReferenceIdeal.defs _ _).mono (fun _ h c => (h c).2) (Cert.ReferenceIdeal.RefRun.run (F := Ideal) m ρ)

/-- The idealization rewrote no operation: nothing to preserve. -/
theorem preserves : Cert.preserves_Kernel_KernelIdeal := trivial

end Cert.Proof.Claims

end
-- ==== Proof.KI.Run.lean ====
/-
  The run of the program's @main with the result named: every weakly fair execution from any memory with zero
  counters terminates; every final memory holds in main_v577 what the contents after the last item give it, and each
  argument array as launched — the conditional run at the launch's choices and the nine regions' records.
-/
import proofs.«411400_j9251359555630_1_alg».proof.Proof.KI.Launch
import proofs.«411400_j9251359555630_1_alg».proof.Proof.KI.RunCond

set_option maxRecDepth 4992

noncomputable section

namespace Cert.KernelIdeal.Run

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)
open Cert.KernelIdeal Cert.KernelIdeal.Gen

variable {F : FTy → Type} [FloatOps F]
variable (m : (ℓ : Loc nD τ sig) → Buf (Elt F) ℓ)

/-- THE RUN: every weakly fair execution of @main from memory m with zero counters terminates; every final memory
    holds in main_v577 what the contents after the last item give it, and each argument as launched. -/
theorem run_main (ρ : Dev nD → PrngReg) (S : Regs (F := F) m) :
    θ_run defs (onTc (τ := τ) (main (F := F))) ⟨m, fun _ => 0, ρ⟩ (fun r => ∀ c : Dev nD,
      r.2.mem ((c.tc : Thread nD τ).loc main_v577) = Vend m c main_v577
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)
      ∧ r.2.mem ((c.tc : Thread nD τ).loc main_arg28) = m ((c.tc : Thread nD τ).loc main_arg28)
      ∧ r.2.mem ((c.tc : Thread nD τ).loc main_arg29) = m ((c.tc : Thread nD τ).loc main_arg29)) :=
  run_cond m EP () 𝒱₀ L lv hL ρ (outs m) (pdats m) O₀ G u₀ hu₀ E (hE0 ρ) hE9
    S.reg0 S.hpre0 S.hpost0 S.reg1 S.hpre1 S.hpost1 S.reg2 S.hpre2 S.hpost2 S.reg3 S.hpre3 S.hpost3 S.reg4 S.hpre4 S.hpost4
    S.reg5 S.hpre5 S.hpost5 S.reg6 S.hpre6 S.hpost6 S.reg7 S.hpre7 S.hpost7 S.reg8 S.hpre8 S.hpost8

end Cert.KernelIdeal.Run

end
-- ==== Proof.Math.OneHotMatmul.lean ====
/-
  A segment sum computed on the matrix unit: the one-hot matrix of a column of index words against a row of
  consecutive row numbers, transposed and multiplied into a block of data rows, then added to an accumulator.
  Read at an index, at the ideal values, the result is the accumulator plus the sum, over the rows of the block, of
  (1 where the row's index word is the row number, 0 elsewhere) times the data entry.  Every statement is over
  literal-rank shapes of arbitrary extents.
-/
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value

noncomputable section

namespace Cert.Math

open Idealize.ShloMosaic Idealize.ShloMosaic.ValueIdx
open scoped BigOperators

/-! ## Layout and word facts -/

/-- A column [a,1] replicated along the second axis to [a,b] reads, at (p, c), the column's entry p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · rename_i h1; have := p.isLt; omega
    · rfl
  | ⟨1, _⟩ => rfl

/-- The comparison bit of two words, widened unsigned to 32 bits and read as a signed integer at the ideal
    values, is 1 where the words agree and 0 elsewhere. -/
theorem onehot_entry (x y : BitVec 32) :
    FloatOps.sitofp (F := Ideal) .f32 ((IntOp.cmpi .eq x y).setWidth 32) = if x = y then (1 : EReal) else 0 := by
  show (((((IntOp.cmpi .eq x y).setWidth 32).toInt : ℝ)) : EReal) = _
  by_cases h : x = y
  · have hc : IntOp.cmpi .eq x y = 1#1 := by subst h; simp [IntOp.cmpi]
    have hi : ((1#1 : BitVec 1).setWidth 32).toInt = 1 := by decide
    rw [hc, hi, if_pos h]; simp
  · have hne : (x == y) = false := beq_eq_false_iff_ne.mpr h
    have hc : IntOp.cmpi .eq x y = 0#1 := by simp [IntOp.cmpi, hne]
    have hi : ((0#1 : BitVec 1).setWidth 32).toInt = 0 := by decide
    rw [hc, hi, if_neg h]; simp

/-- Word arithmetic wraps the same way on both sides: a block's base word (block number times rows per block) plus
    a lane's word is the word of the row number. -/
theorem base_add_lane (b m j : ℕ) :
    IntOp.addi (Scalar.muli (BitVec.ofNat 32 b) (BitVec.ofNat 32 m)) (BitVec.ofNat 32 j) = BitVec.ofNat 32 (b * m + j) := by
  show BitVec.ofNat 32 b * BitVec.ofNat 32 m + BitVec.ofNat 32 j = _
  rw [← BitVec.ofNat_mul, ← BitVec.ofNat_add]

/-! ## The product that contracts the FIRST axis of both operands -/

section Transposed
variable {K M N : ℕ} (d : DotDims (⟨2, ![K, M]⟩ : Shape) ⟨2, ![K, N]⟩ ⟨2, ![M, N]⟩)

/-- The left operand is read, on its contracted first axis, at the contraction position. -/
theorem dotT_lhs_0 (hlc : d.lhsContracting = [0]) (j : (⟨2, ![M, N]⟩ : Shape).Idx) (k : d.contr.Idx) :
    (d.lhsIdx j k 0).val = (k ⟨0, by rw [d.rank_contr, hlc]; exact Nat.one_pos⟩).val :=
  d.lhsIdx_val_of_single hlc j k

/-- The right operand is read, on its contracted first axis, at the contraction position. -/
theorem dotT_rhs_0 (hlc : d.lhsContracting = [0]) (hrc : d.rhsContracting = [0]) (j : (⟨2, ![M, N]⟩ : Shape).Idx)
    (k : d.contr.Idx) :
    (d.rhsIdx j k 0).val = (k ⟨0, by rw [d.rank_contr, hlc]; exact Nat.one_pos⟩).val :=
  d.rhsIdx_val_of_single hrc j k

/-- The left operand is read, on its free second axis, at the result's row. -/
theorem dotT_lhs_1 (hln : d.lhsNonContracting = [1]) (hlb : d.lhsBatch = []) (j : (⟨2, ![M, N]⟩ : Shape).Idx)
    (k : d.contr.Idx) : (d.lhsIdx j k 1).val = (j 0).val := by
  obtain ⟨lc, rc, ln, rn, lb, rb, wf⟩ := d
  subst hln hlb
  simp [DotDims.lhsIdx] <;> rfl

/-- The right operand is read, on its free second axis, at the result's column. -/
theorem dotT_rhs_1 (hln : d.lhsNonContracting = [1]) (hrn : d.rhsNonContracting = [1]) (hlb : d.lhsBatch = [])
    (hrb : d.rhsBatch = []) (j : (⟨2, ![M, N]⟩ : Shape).Idx) (k : d.contr.Idx) : (d.rhsIdx j k 1).val = (j 1).val := by
  obtain ⟨lc, rc, ln, rn, lb, rb, wf⟩ := d
  subst hln hrn hlb hrb
  simp [DotDims.rhsIdx] <;> rfl

/-- Into a zero accumulator, the product that contracts the first axis of both operands reads, at (j, q), the sum over
    the contracted rows k of left(k, j) times right(k, q). -/
theorem matmulT_zero_apply {φ₁ φ₂ : FTy} (hlc : d.lhsContracting = [0]) (hrc : d.rhsContracting = [0])
    (hln : d.lhsNonContracting = [1]) (hrn : d.rhsNonContracting = [1]) (hlb : d.lhsBatch = []) (hrb : d.rhsBatch = [])
    (prec : Option ContractPrecision) (lhs : FVec Ideal ⟨2, ![K, M]⟩ φ₁) (rhs : FVec Ideal ⟨2, ![K, N]⟩ φ₂)
    (j : Fin M) (q : Fin N) :
    FloatOps.matmul d prec lhs rhs (constant (F := Ideal) ⟨2, ![M, N]⟩ .f32 0x00000000#32) (ix2 j q)
      = ∑ k : Fin K, lhs (ix2 k j) * rhs (ix2 k q) := by
  rw [Ideal.matmul_constant_zero_apply]
  have hr : d.contr.rank = 1 := by rw [d.rank_contr, hlc]; rfl
  have hs : d.contr.size ⟨0, by omega⟩ = K := by
    have h0 := d.size_contr 0 (by rw [hlc]; exact Nat.one_pos)
    rw [h0]
    simp [hlc]
  rw [← Equiv.sum_comp (contrEquiv1 d K hr hs).symm]
  refine Finset.sum_congr rfl fun k _ => ?_
  have hk : (((contrEquiv1 d K hr hs).symm k) ⟨0, by omega⟩ : ℕ) = k.val := contrEquiv1_symm_val d K hr hs k
  have hl : d.lhsIdx (ix2 j q) ((contrEquiv1 d K hr hs).symm k) = ix2 k j := by
    funext a
    apply Fin.ext
    match a with
    | ⟨0, _⟩ => exact (dotT_lhs_0 d hlc _ _).trans hk
    | ⟨1, _⟩ => exact dotT_lhs_1 d hln hlb _ _
  have hrr : d.rhsIdx (ix2 j q) ((contrEquiv1 d K hr hs).symm k) = ix2 k q := by
    funext a
    apply Fin.ext
    match a with
    | ⟨0, _⟩ => exact (dotT_rhs_0 d hlc hrc _ _).trans hk
    | ⟨1, _⟩ => exact dotT_rhs_1 d hln hrn hlb hrb _ _
  rw [hl, hrr]

end Transposed

/-! ## The payload -/

/-- The accumulator plus the transposed one-hot matrix of the index column `ids` (against the row numbers
    `base + 0, base + 1, …`) times the data block `hb`. -/
def segPay {F : FTy → Type} [FloatOps F] {K M N : ℕ}
    (d : DotDims (⟨2, ![K, M]⟩ : Shape) ⟨2, ![K, N]⟩ ⟨2, ![M, N]⟩)
    (hI : (⟨2, ![1, M]⟩ : Shape).Iotas .tc 32 [1])
    (hB1 : (⟨2, ![K, 1]⟩ : Shape).Broadcasts ⟨2, ![K, M]⟩) (hB2 : (⟨2, ![1, M]⟩ : Shape).Broadcasts ⟨2, ![K, M]⟩)
    (h1 : 1 < 32) (hbf : FTy.bits .bf16 < FTy.bits .f32)
    (base : BitVec 32) (ids : IVec ⟨2, ![K, 1]⟩ 32) (hb : FVec F ⟨2, ![K, N]⟩ .bf16)
    (acc : FVec F ⟨2, ![M, N]⟩ .f32) : FVec F ⟨2, ![M, N]⟩ .f32 :=
  addf acc
    (matmul d none
      (truncf .bf16
        (sitofp .f32
          (extui 32
            (cmpi .eq (broadcastTo ⟨2, ![K, M]⟩ ids hB1)
              (broadcastTo ⟨2, ![K, M]⟩ (addi (broadcast ⟨2, ![1, M]⟩ base) (iota .tc ⟨2, ![1, M]⟩ 32 [1] hI)) hB2))
            h1))
        hbf)
      hb (constant ⟨2, ![M, N]⟩ .f32 0x00000000#32))

/-- The payload at an index, at the ideal values. -/
theorem segPay_apply {K M N : ℕ} (d : DotDims (⟨2, ![K, M]⟩ : Shape) ⟨2, ![K, N]⟩ ⟨2, ![M, N]⟩)
    (hlc : d.lhsContracting = [0]) (hrc : d.rhsContracting = [0])
    (hln : d.lhsNonContracting = [1]) (hrn : d.rhsNonContracting = [1]) (hlb : d.lhsBatch = []) (hrb : d.rhsBatch = [])
    (hI : (⟨2, ![1, M]⟩ : Shape).Iotas .tc 32 [1])
    (hB1 : (⟨2, ![K, 1]⟩ : Shape).Broadcasts ⟨2, ![K, M]⟩) (hB2 : (⟨2, ![1, M]⟩ : Shape).Broadcasts ⟨2, ![K, M]⟩)
    (h1 : 1 < 32) (hbf : FTy.bits .bf16 < FTy.bits .f32)
    (base : BitVec 32) (ids : IVec ⟨2, ![K, 1]⟩ 32) (hb : FVec Ideal ⟨2, ![K, N]⟩ .bf16)
    (acc : FVec Ideal ⟨2, ![M, N]⟩ .f32) (j : Fin M) (q : Fin N) :
    segPay (F := Ideal) d hI hB1 hB2 h1 hbf base ids hb acc (ix2 j q)
      = acc (ix2 j q) + ∑ k : Fin K,
          (if ids (ix2 k (0 : Fin 1)) = IntOp.addi base (BitVec.ofNat 32 j.val) then (1 : EReal) else 0) * hb (ix2 k q) := by
  unfold segPay
  rw [addf_apply]
  congr 1
  simp only [matmul]
  rw [matmulT_zero_apply d hlc hrc hln hrn hlb hrb]
  refine Finset.sum_congr rfl fun k _ => ?_
  congr 1
  rw [truncf_apply, sitofp_apply, extui_apply]
  show FloatOps.sitofp (F := Ideal) .f32
      ((IntOp.cmpi .eq (broadcastTo ⟨2, ![K, M]⟩ ids hB1 (ix2 k j))
        (broadcastTo ⟨2, ![K, M]⟩ (addi (broadcast ⟨2, ![1, M]⟩ base) (iota .tc ⟨2, ![1, M]⟩ 32 [1] hI)) hB2 (ix2 k j))).setWidth 32) = _
  rw [onehot_entry, broadcastTo_a1_ab_apply, broadcastTo_1b_ab_apply]
  show (if ids (ix2 k (0 : Fin 1)) = IntOp.addi base (iota .tc ⟨2, ![1, M]⟩ 32 [1] hI (ix2 (0 : Fin 1) j)) then (1 : EReal) else 0) = _
  rw [iota_single_apply]
  rfl

end Cert.Math
-- ==== Proof.KI.Reg0Payload.lean ====
/-
  The region's accumulator payload read at an index, at the ideal values: the accumulator there plus the sum, over the
  8000 rows of the point's edge block, of (1 where the row's index word is the node's row number, 0 elsewhere) times
  the data entry.  The payload is the one-hot segment-sum product of Math/OneHotMatmul.lean at this region's sizes.
-/
import proofs.«411400_j9251359555630_1_alg».proof.Proof.Gen.KernelIdeal.Skeleton
import proofs.«411400_j9251359555630_1_alg».proof.Proof.Math.OneHotMatmul

noncomputable section

namespace Cert.KernelIdeal.Reg0

open Cert.KernelIdeal Cert.KernelIdeal.Gen
open Idealize.ShloMosaic Idealize.ShloMosaic.ValueIdx Idealize.SL.Sem
open scoped BigOperators

/-- The payload is the accumulator plus the transposed one-hot matrix of the index block (against the rows
    `1024 * i₀ + 0, 1024 * i₀ + 1, …` of node block `i₀`) times the data block: the shape casts are identities. -/
theorem k0_pay2_eq_segPay {F : FTy → Type} [FloatOps F] (i : grid0.Coords) (v7 : Vec F S8000x1 .i32)
    (v15 : Vec F S8000x128 .bf16) (v18 : Vec F S1024x128 .f32) :
    k0_pay2 (F := F) i v7 v15 v18
      = Cert.Math.segPay dot_S8000x1024_S8000x128_S1024x128_0_0_1_1_n_n iota_S1x1024_d1_w32
          broadcasts_S8000x1_S8000x1024 broadcasts_S1x1024_S8000x1024 natLt_1_32 bitsLt_bf16_f32
          (Scalar.muli (BitVec.ofNat 32 (i 0).val) 1024#32) v7 v15 v18 := by
  unfold k0_pay2 Cert.Math.segPay
  simp only [shapeCast_self] <;> rfl

/-- The payload at entry (j, q) of the node block. -/
theorem k0_pay2_apply (i : grid0.Coords) (ids : IVec S8000x1 32) (hb : FVec Ideal S8000x128 .bf16)
    (acc : FVec Ideal S1024x128 .f32) (j : Fin 1024) (q : Fin 128) :
    k0_pay2 (F := Ideal) i ids hb acc (ix2 j q)
      = acc (ix2 j q) + ∑ k : Fin 8000,
          (if ids (ix2 k (0 : Fin 1)) = BitVec.ofNat 32 ((i 0).val * 1024 + j.val) then (1 : EReal) else 0) * hb (ix2 k q) := by
  rw [k0_pay2_eq_segPay, Cert.Math.segPay_apply dot_S8000x1024_S8000x128_S1024x128_0_0_1_1_n_n rfl rfl rfl rfl rfl rfl]
  rw [show IntOp.addi (Scalar.muli (BitVec.ofNat 32 (i 0).val) 1024#32) (BitVec.ofNat 32 j.val)
      = BitVec.ofNat 32 ((i 0).val * 1024 + j.val) from Cert.Math.base_add_lane _ _ _]

end Cert.KernelIdeal.Reg0
-- ==== Proof.Math.SegSum.lean ====
/-
  Pure facts about sums of extended reals that turn a sum of one-hot products, accumulated block by
  block, into a sum over all rows guarded by a signed comparison of the index word.

  Nothing here assumes finiteness: `1 * x = x`, `0 * x = 0` and `0 + x = x` hold for EVERY extended
  real, the two infinities included (the extended reals are a commutative additive monoid and a
  monoid with zero under multiplication), so an indicator times a value is the guarded value exactly.
-/
import Idealize.ShloMosaic.PureOps.Ideal
import Idealize.ShloMosaic.PureOps.Ideal.Laws
import Idealize.ShloMosaic.Lib.ValueIdx
import Mathlib.Data.EReal.Basic
import Mathlib.Logic.Equiv.Fin.Basic
import Mathlib.Algebra.BigOperators.Fin
import Mathlib.Data.Fintype.BigOperators
import Mathlib.Algebra.BigOperators.Group.Finset.Basic

namespace Cert.Math

open scoped BigOperators

/-- An indicator (1 where the predicate holds, 0 elsewhere) times a value is the value where the
predicate holds and 0 elsewhere; summed over a finite index type. No finiteness of `h` is needed. -/
theorem indicator_mul_sum {E : Type*} [Fintype E] (ind : E → Prop) [DecidablePred ind] (h : E → EReal) :
    ∑ e, (if ind e then (1 : EReal) else 0) * h e = ∑ e, if ind e then h e else 0 := by
  refine Finset.sum_congr rfl fun e _ => ?_
  by_cases he : ind e
  · simp [he]
  · simp [he]

/-- Row `k` of block `b` (blocks of `K` rows, block-major) is a row of the whole. -/
theorem block_lt {B K : ℕ} (b : Fin B) (k : Fin K) : b.val * K + k.val < B * K := by
  have hb : b.val + 1 ≤ B := b.isLt
  have hk : k.val < K := k.isLt
  calc b.val * K + k.val < b.val * K + K := by omega
    _ = (b.val + 1) * K := by ring
    _ ≤ B * K := Nat.mul_le_mul_right K hb

/-- A sum over `B` blocks of `K` rows each, block `b` holding rows `b*K .. b*K+K-1`, is the sum over
all `B*K` rows. -/
theorem block_sum (B K : ℕ) (f : Fin (B * K) → EReal) :
    ∑ b : Fin B, ∑ k : Fin K, f ⟨b.val * K + k.val, block_lt b k⟩ = ∑ e : Fin (B * K), f e := by
  rw [← finProdFinEquiv.sum_comp f, Fintype.sum_prod_type]
  refine Finset.sum_congr rfl fun b _ => Finset.sum_congr rfl fun k _ => ?_
  congr 1
  apply Fin.ext
  show b.val * K + k.val = k.val + K * b.val
  ring

/-- An accumulator that starts as `0 + p 0` and adds `p (k+1)` at step `k+1` holds, after step `k`,
the sum of the first `k+1` partial terms. -/
theorem fold_add {α : Type*} (p : ℕ → α → EReal) (accF : ℕ → α → EReal)
    (h0 : accF 0 = fun j => 0 + p 0 j)
    (hs : ∀ k, accF (k + 1) = fun j => accF k j + p (k + 1) j) (k : ℕ) (j : α) :
    accF k j = ∑ i ∈ Finset.range (k + 1), p i j := by
  induction k with
  | zero => simp [h0]
  | succ k ih => rw [hs, Finset.sum_range_succ _ (k + 1), ← ih]

/-- A 32-bit word equals the word of a natural number below `2^31` exactly when its SIGNED reading is
that number. -/
theorem eq_ofNat_iff_toInt (s : BitVec 32) (n : ℕ) (hn : n < 2 ^ 31) :
    s = BitVec.ofNat 32 n ↔ s.toInt = (n : Int) := by
  have h : (BitVec.ofNat 32 n).toInt = (n : Int) := by
    rw [BitVec.toInt_ofNat']
    apply Int.bmod_eq_of_le <;> omega
  constructor
  · rintro rfl; exact h
  · intro hs; exact BitVec.eq_of_toInt_eq (hs.trans h.symm)

/-- The commuted form: a value times an indicator. -/
theorem mul_indicator_sum {E : Type*} [Fintype E] (ind : E → Prop) [DecidablePred ind] (h : E → EReal) :
    ∑ e, h e * (if ind e then (1 : EReal) else 0) = ∑ e, if ind e then h e else 0 := by
  refine Finset.sum_congr rfl fun e _ => ?_
  by_cases he : ind e
  · simp [he]
  · simp [he]

/-- `fold_add` when the step law is known only below a bound `B` (the number of blocks). -/
theorem fold_add_lt {α : Type*} (B : ℕ) (p : ℕ → α → EReal) (accF : ℕ → α → EReal)
    (h0 : accF 0 = fun j => 0 + p 0 j)
    (hs : ∀ k, k + 1 < B → accF (k + 1) = fun j => accF k j + p (k + 1) j) (k : ℕ) (hk : k < B) (j : α) :
    accF k j = ∑ i ∈ Finset.range (k + 1), p i j := by
  induction k with
  | zero => simp [h0]
  | succ k ih => rw [hs k hk, Finset.sum_range_succ _ (k + 1), ← ih (by omega)]

/-- THE ASSEMBLED LAW. Over `B` blocks of `K` rows: the sum of (one-hot of "index word of the row equals the
word of `m`") times (the row's entry in column `q`) is the sum over ALL rows of the entries whose index word,
read signed, is `m`. Holds for every `m < 2^31` (so for `m = nb * Nb + j` a global node number). -/
theorem onehot_block_sum {B K D : ℕ} (ids : Fin (B * K) → BitVec 32) (h : Fin (B * K) → Fin D → EReal)
    (m : ℕ) (hm : m < 2 ^ 31) (q : Fin D) :
    ∑ b : Fin B, ∑ k : Fin K,
        (if ids ⟨b.val * K + k.val, block_lt b k⟩ = BitVec.ofNat 32 m then (1 : EReal) else 0)
          * h ⟨b.val * K + k.val, block_lt b k⟩ q
      = ∑ e : Fin (B * K), if (ids e).toInt = (m : Int) then h e q else 0 := by
  have h1 := block_sum B K (fun e => (if ids e = BitVec.ofNat 32 m then (1 : EReal) else 0) * h e q)
  have h2 := indicator_mul_sum (fun e : Fin (B * K) => ids e = BitVec.ofNat 32 m) (fun e => h e q)
  refine h1.trans (h2.trans ?_)
  refine Finset.sum_congr rfl fun e _ => ?_
  exact if_congr (eq_ofNat_iff_toInt (ids e) m hm) rfl rfl

/-- The assembled law with the node number written `nb * Nb + j` (node block `nb`, row `j` of it). -/
theorem onehot_block_sum_node {B K D : ℕ} (ids : Fin (B * K) → BitVec 32) (h : Fin (B * K) → Fin D → EReal)
    (nb Nb j : ℕ) (hm : nb * Nb + j < 2 ^ 31) (q : Fin D) :
    ∑ b : Fin B, ∑ k : Fin K,
        (if ids ⟨b.val * K + k.val, block_lt b k⟩ = BitVec.ofNat 32 (nb * Nb + j) then (1 : EReal) else 0)
          * h ⟨b.val * K + k.val, block_lt b k⟩ q
      = ∑ e : Fin (B * K), if (ids e).toInt = ((nb * Nb + j : ℕ) : Int) then h e q else 0 :=
  onehot_block_sum ids h (nb * Nb + j) hm q

/-- The assembled law for partial sums given as a sequence over the naturals (as `fold_add` produces):
if the `b`-th partial, `b < B`, is block `b`'s sum of one-hot products, the first `B` partials add up to the
guarded sum over all rows. -/
theorem onehot_range_sum {B K D : ℕ} (ids : Fin (B * K) → BitVec 32) (h : Fin (B * K) → Fin D → EReal)
    (m : ℕ) (hm : m < 2 ^ 31) (q : Fin D) (p : ℕ → EReal)
    (hp : ∀ b : Fin B, p b.val = ∑ k : Fin K,
        (if ids ⟨b.val * K + k.val, block_lt b k⟩ = BitVec.ofNat 32 m then (1 : EReal) else 0)
          * h ⟨b.val * K + k.val, block_lt b k⟩ q) :
    ∑ b ∈ Finset.range B, p b = ∑ e : Fin (B * K), if (ids e).toInt = (m : Int) then h e q else 0 := by
  rw [Finset.sum_range, Finset.sum_congr rfl (fun b _ => hp b)]
  exact onehot_block_sum ids h m hm q

/-- Fold and assembled law together: an accumulator over an index type `α` (an index of the output block),
each index `a` having a node number `m a < 2^31` and a column `col a`; it starts as `0 + p 0`, adds `p (k+1)`
at step `k+1 < B`, and `p b a` is block `b`'s sum of one-hot products for node `m a`, column `col a`.
After the last step, `B - 1`, it holds the guarded sum over all rows. -/
theorem segsum_of_fold {α : Type*} {B K D : ℕ} (hB : 0 < B)
    (ids : Fin (B * K) → BitVec 32) (h : Fin (B * K) → Fin D → EReal)
    (m : α → ℕ) (hm : ∀ a, m a < 2 ^ 31) (col : α → Fin D)
    (p : ℕ → α → EReal) (accF : ℕ → α → EReal)
    (h0 : accF 0 = fun a => 0 + p 0 a)
    (hs : ∀ k, k + 1 < B → accF (k + 1) = fun a => accF k a + p (k + 1) a)
    (hp : ∀ (b : Fin B) (a : α), p b.val a = ∑ k : Fin K,
        (if ids ⟨b.val * K + k.val, block_lt b k⟩ = BitVec.ofNat 32 (m a) then (1 : EReal) else 0)
          * h ⟨b.val * K + k.val, block_lt b k⟩ (col a)) (a : α) :
    accF (B - 1) a = ∑ e : Fin (B * K), if (ids e).toInt = (m a : Int) then h e (col a) else 0 := by
  rw [fold_add_lt B p accF h0 hs (B - 1) (by omega) a, Nat.sub_add_cancel hB]
  exact onehot_range_sum ids h (m a) (hm a) (col a) (fun b => p b a) (fun b => hp b a)

end Cert.Math
-- ==== Proof.KI.Reg0Value.lean ====
/-
  What this region leaves in its output array, at the ideal values: entry (n, q) is 0 plus the sum, over all 160000 edge
  rows p, of the data entry (p, q) where the index word of row p, read signed, is n, and of 0 elsewhere.

  The accumulator of node block b starts from zeros at the block's first edge block and adds, at edge block e, the
  one-hot product of that block's 8000 rows; after the 20 edge blocks it holds the sum over all 20 * 8000 rows, and that
  is what the last of the 20 points writes back as the 1024 rows from row 1024 b on of the array.  The 10 node blocks
  tile the array's 10240 rows.
-/
import proofs.«411400_j9251359555630_1_alg».proof.Proof.Gen.KernelIdeal.Points
import proofs.«411400_j9251359555630_1_alg».proof.Proof.Gen.KernelIdeal.Launch
import proofs.«411400_j9251359555630_1_alg».proof.Proof.KI.Reg0
import proofs.«411400_j9251359555630_1_alg».proof.Proof.KI.Reg0Payload
import proofs.«411400_j9251359555630_1_alg».proof.Proof.Math.SegSum
import Idealize.ShloMosaic.Lib.Pipeline.Value
import Idealize.ShloMosaic.Lib.ValueIdx

set_option maxRecDepth 16384

noncomputable section

namespace Cert.KernelIdeal.Reg0

open Cert.KernelIdeal Cert.KernelIdeal.Gen
open Idealize.ShloMosaic Idealize.ShloMosaic.TcCoe Idealize.SL.Sem Idealize.ShloMosaic.ValueIdx
open Idealize.ShloMosaic.Pipeline (Dat)
open scoped BigOperators

/-! ## The printed index maps over the grid -/

/-- Point t = 20 b + e reads edge block e of the index column and of the data rows and holds node block b of the
    output; its first grid coordinate is b. -/
theorem idx_facts0 : ∀ t : Fin cfg0.N,
    win0_0.index t (0 : Fin 2) = t.val % 20 ∧ win0_0.index t (1 : Fin 2) = 0
    ∧ win0_1.index t (0 : Fin 2) = t.val % 20 ∧ win0_1.index t (1 : Fin 2) = 0
    ∧ win0_2.index t (0 : Fin 2) = t.val / 20 ∧ win0_2.index t (1 : Fin 2) = 0
    ∧ (grid0.coords t 0).val = t.val / 20 :=
  (by decide +kernel : ∀ t : Fin grid0.N, _)

/-- Point 20 b + e is a point of the grid. -/
theorem lt_N0 {b e : ℕ} (hb : b < 10) (he : e < 20) : b * 20 + e < cfg0.N := by
  rw [show cfg0.N = 200 from N_0]; omega

/-- Row k of edge block e is a row of the edge arrays. -/
theorem row_lt0 {e : ℕ} (he : e < 20) (k : Fin 8000) : e * 8000 + k.val < 160000 := by
  have := k.isLt; omega

/-! ## The sums -/

/-- What edge block `e` adds to the entry of node row `r` and column `q`: the sum over the block's rows of the one-hot
    entry times the data entry. -/
def part0 (ids : IVec S160000x1 32) (hs : FVec Ideal S160000x128 .bf16) (r : ℕ) (q : Fin 128) (e : ℕ) : EReal :=
  if he : e < 20 then
    ∑ k : Fin 8000, (if ids (ix2 ⟨e * 8000 + k.val, row_lt0 he k⟩ (0 : Fin 1)) = BitVec.ofNat 32 r then (1 : EReal) else 0)
      * hs (ix2 ⟨e * 8000 + k.val, row_lt0 he k⟩ q)
  else 0

/-- The array the region leaves: entry (n, q) is 0 plus the sum of the data rows whose index word, read signed, is n. -/
def segOut0 (ids : IVec S160000x1 32) (hs : FVec Ideal S160000x128 .bf16) : FVec Ideal S10240x128 .f32 := fun x =>
  0 + ∑ p : Fin 160000, if (ids (ix2 p (0 : Fin 1))).toInt = ((x 0).val : Int) then hs (ix2 p (x 1)) else 0

theorem segOut0_apply (ids : IVec S160000x1 32) (hs : FVec Ideal S160000x128 .bf16) (x : S10240x128.Idx) (r : ℕ)
    (q : Fin 128) (h0 : (x 0).val = r) (h1 : x 1 = q) :
    segOut0 ids hs x
      = 0 + ∑ p : Fin 160000, if (ids (ix2 p (0 : Fin 1))).toInt = (r : Int) then hs (ix2 p q) else 0 := by
  subst h1
  subst h0
  rfl

/-- The 20 edge blocks' parts add up to the sum over all rows, the one-hot entry read as the signed comparison: a row
    number below 2^31 is the word's signed reading exactly when the word is the row number's word. -/
theorem parts_sum0 (ids : IVec S160000x1 32) (hs : FVec Ideal S160000x128 .bf16) (r : ℕ) (hr : r < 2 ^ 31)
    (q : Fin 128) :
    ∑ e ∈ Finset.range 20, part0 ids hs r q e
      = ∑ p : Fin 160000, if (ids (ix2 p (0 : Fin 1))).toInt = (r : Int) then hs (ix2 p q) else 0 := by
  have hb := Cert.Math.block_sum 20 8000
    (fun p : Fin 160000 => (if ids (ix2 p (0 : Fin 1)) = BitVec.ofNat 32 r then (1 : EReal) else 0) * hs (ix2 p q))
  rw [Finset.sum_range]
  calc ∑ b : Fin 20, part0 ids hs r q b.val
      = ∑ b : Fin 20, ∑ k : Fin 8000,
          (fun p : Fin 160000 => (if ids (ix2 p (0 : Fin 1)) = BitVec.ofNat 32 r then (1 : EReal) else 0) * hs (ix2 p q))
            ⟨b.val * 8000 + k.val, Cert.Math.block_lt b k⟩ := by
        refine Finset.sum_congr rfl fun b _ => ?_
        unfold part0
        rw [dif_pos b.isLt] <;> rfl
    _ = ∑ p : Fin 160000, (if ids (ix2 p (0 : Fin 1)) = BitVec.ofNat 32 r then (1 : EReal) else 0) * hs (ix2 p q) := hb
    _ = _ := by
        refine Finset.sum_congr rfl fun p _ => ?_
        by_cases h : ids (ix2 p (0 : Fin 1)) = BitVec.ofNat 32 r
        · rw [if_pos h, if_pos ((Cert.Math.eq_ofNat_iff_toInt _ r hr).mp h), one_mul]
        · rw [if_neg h, if_neg (fun h' => h ((Cert.Math.eq_ofNat_iff_toInt _ r hr).mpr h')), zero_mul]

section Value
-- the TensorCore's buffer contents when the region is entered
variable (V : (c : Dev nD) → (b : Ref sig .tc) → Buf (Elt Ideal) ((c : Thread nD τ).loc b))

/-- The index column and the data rows as the region finds them. -/
abbrev idsOf0 (c : Dev nD) : IVec S160000x1 32 := V c (Pipeline.arrRef spec0 0)
abbrev rowsOf0 (c : Dev nD) : FVec Ideal S160000x128 .bf16 := V c (Pipeline.arrRef spec0 1)

/-! ## The input blocks, read off their arrays -/

/-- Row k of the index block at point t is row (t % 20) * 8000 + k of the index column. -/
theorem iblk0_0_apply (c : Dev nD) (t : Fin cfg0.N) (k : Fin 8000) :
    (iblk0 V c 0 t : IVec S8000x1 32) (ix2 k (0 : Fin 1))
      = idsOf0 V c (ix2 ⟨t.val % 20 * 8000 + k.val, row_lt0 (Nat.mod_lt _ (by decide)) k⟩ (0 : Fin 1)) := by
  obtain ⟨e0, e1, -⟩ := idx_facts0 t
  show V c (Pipeline.arrRef spec0 0) (((cfg0.win 0).blk t).view.emb (ix2 k (0 : Fin 1))) = V c (Pipeline.arrRef spec0 0) _
  refine congrArg (V c (Pipeline.arrRef spec0 0)) (funext fun a => Fin.ext ?_)
  match a with
  | ⟨0, _⟩ =>
    show win0_0.index t (0 : Fin 2) * 8000 + 1 * k.val = t.val % 20 * 8000 + k.val
    omega
  | ⟨1, _⟩ =>
    show win0_0.index t (1 : Fin 2) * 1 + 1 * 0 = 0
    omega

/-- Entry (k, q) of the data block at point t is entry ((t % 20) * 8000 + k, q) of the data rows. -/
theorem iblk0_1_apply (c : Dev nD) (t : Fin cfg0.N) (k : Fin 8000) (q : Fin 128) :
    (iblk0 V c 1 t : FVec Ideal S8000x128 .bf16) (ix2 k q)
      = rowsOf0 V c (ix2 ⟨t.val % 20 * 8000 + k.val, row_lt0 (Nat.mod_lt _ (by decide)) k⟩ q) := by
  obtain ⟨-, -, e2, e3, -⟩ := idx_facts0 t
  show V c (Pipeline.arrRef spec0 1) (((cfg0.win 1).blk t).view.emb (ix2 k q)) = V c (Pipeline.arrRef spec0 1) _
  refine congrArg (V c (Pipeline.arrRef spec0 1)) (funext fun a => Fin.ext ?_)
  match a with
  | ⟨0, _⟩ =>
    show win0_1.index t (0 : Fin 2) * 8000 + 1 * k.val = t.val % 20 * 8000 + k.val
    omega
  | ⟨1, _⟩ =>
    show win0_1.index t (1 : Fin 2) * 128 + 1 * q.val = q.val
    omega

/-! ## The accumulator -/

/-- The accumulator's reset value is zero everywhere. -/
theorem pay0_apply (x : S1024x128.Idx) : k0_pay1 (F := Ideal) x = 0 := by
  unfold k0_pay1
  simp only [shapeCast_self]
  exact Ideal.ofBits_zero_f32

/-- The accumulator after two positions that are the same number is the same. -/
theorem outsAt0_congr (c : Dev nD) {a b : ℕ} (hab : a = b) (ha : a < cfg0.N) (hb : b < cfg0.N) :
    outsAt0 V c a ha = outsAt0 V c b hb := by
  subst hab; rfl

/-- One point's step at an entry: zero at a node block's first edge block, the previous accumulator elsewhere, plus
    the point's edge block's part. -/
theorem acc0_point (c : Dev nD) (a : ℕ) (ha : a < cfg0.N) (j : Fin 1024) (q : Fin 128) :
    (outsAt0 V c a ha).2 (ix2 j q)
      = (if a % 20 = 0 then (0 : EReal)
          else (outsAt0 V c (a - 1) (Nat.lt_of_le_of_lt (Nat.sub_le _ _) ha)).2 (ix2 j q))
        + part0 (idsOf0 V c) (rowsOf0 V c) (a / 20 * 1024 + j.val) q (a % 20) := by
  have hstep := scratch_step0 V c ⟨a, ha⟩
  obtain ⟨-, -, -, -, -, -, e6⟩ := idx_facts0 ⟨a, ha⟩
  -- the point's one-hot product, read off the arrays, is the point's edge block's part
  have hpart : ∑ k : Fin 8000,
        (if (iblk0 V c 0 ⟨a, ha⟩ : IVec S8000x1 32) (ix2 k (0 : Fin 1))
            = BitVec.ofNat 32 ((grid0.coords ⟨a, ha⟩ 0).val * 1024 + j.val) then (1 : EReal) else 0)
          * (iblk0 V c 1 ⟨a, ha⟩ : FVec Ideal S8000x128 .bf16) (ix2 k q)
      = part0 (idsOf0 V c) (rowsOf0 V c) (a / 20 * 1024 + j.val) q (a % 20) := by
    unfold part0
    rw [dif_pos (Nat.mod_lt a (by decide : 0 < 20))]
    refine Finset.sum_congr rfl fun k _ => ?_
    rw [iblk0_0_apply V c ⟨a, ha⟩ k, iblk0_1_apply V c ⟨a, ha⟩ k q, e6] <;> rfl
  by_cases h : a % 20 = 0
  · rw [if_pos h]
    rw [if_pos h] at hstep
    rw [show (outsAt0 V c a ha).2 = _ from hstep, k0_pay2_apply, pay0_apply, hpart]
  · rw [if_neg h]
    rw [if_neg h] at hstep
    rw [show (outsAt0 V c a ha).2 = _ from hstep, k0_pay2_apply, hpart] <;> rfl

/-- After edge block e of node block b (position a = 20 b + e) the accumulator holds 0 plus the parts of edge blocks
    0 … e. -/
theorem acc0_fold (c : Dev nD) (b : ℕ) (hb : b < 10) (j : Fin 1024) (q : Fin 128) :
    ∀ (e : ℕ) (he : e < 20) (a : ℕ) (ha : a < cfg0.N), a = b * 20 + e →
      (outsAt0 V c a ha).2 (ix2 j q)
        = 0 + ∑ e' ∈ Finset.range (e + 1), part0 (idsOf0 V c) (rowsOf0 V c) (b * 1024 + j.val) q e'
  | 0, he, a, ha, hab => by
    have h1 : a / 20 = b := by omega
    have h2 : a % 20 = 0 := by omega
    rw [acc0_point, if_pos h2, h1, h2]
    simp only [Finset.sum_range_succ, Finset.sum_range_zero, zero_add]
  | e + 1, he, a, ha, hab => by
    have h1 : a / 20 = b := by omega
    have h2 : a % 20 = e + 1 := by omega
    rw [acc0_point, if_neg (show ¬ a % 20 = 0 by omega), h1, h2,
      acc0_fold c b hb j q e (by omega) (a - 1) _ (by omega), Finset.sum_range_succ _ (e + 1), add_assoc]

/-! ## What a flushing point writes back -/

/-- The last point of node block b writes back the 1024 rows from row 1024 b on of `segOut0`. -/
theorem flushed0_eq (c : Dev nD) (t : Fin cfg0.N) (hf : (cfg0.win 2).flush t = true) :
    (dat0 V c).flushed 2 t
      = ((cfg0.win 2).blk t).view.read (Elt Ideal) (segOut0 (idsOf0 V c) (rowsOf0 V c)) := by
  have h19 : t.val % 20 = 19 := (flush0_2 t).mp hf
  obtain ⟨-, -, -, -, e4, e5, -⟩ := idx_facts0 t
  have hN : t.val < 200 := by
    have h200 : cfg0.N = 200 := N_0
    have := t.isLt
    omega
  have hn : t.val / 20 < 10 := by omega
  show (cfg0.win 2).cut (grid0.coords t) ((dat0 V c).after 2 t) = _
  rw [after0_2, out_flush0 V c t h19]
  funext x
  obtain ⟨j, q, rfl⟩ : ∃ (j : Fin 1024) (q : Fin 128), x = ix2 j q := ⟨x 0, x 1, eq_ix2 x⟩
  show (outsAt0 V c t.val t.isLt).2 (ix2 j q)
    = segOut0 (idsOf0 V c) (rowsOf0 V c) (((cfg0.win 2).blk t).view.emb (ix2 j q))
  have hx0 : ((((cfg0.win 2).blk t).view.emb (ix2 j q)) 0).val = t.val / 20 * 1024 + j.val := by
    show win0_2.index t (0 : Fin 2) * 1024 + 1 * j.val = _
    omega
  have hx1 : (((cfg0.win 2).blk t).view.emb (ix2 j q)) 1 = q := by
    apply Fin.ext
    show win0_2.index t (1 : Fin 2) * 128 + 1 * q.val = q.val
    omega
  have hr : t.val / 20 * 1024 + j.val < 2 ^ 31 := by have := j.isLt; omega
  rw [segOut0_apply _ _ _ (t.val / 20 * 1024 + j.val) q hx0 hx1,
    acc0_fold V c (t.val / 20) hn j q 19 (by decide) t.val t.isLt (by omega)]
  show (0 : EReal) + ∑ e ∈ Finset.range 20, part0 (idsOf0 V c) (rowsOf0 V c) (t.val / 20 * 1024 + j.val) q e = _
  rw [parts_sum0 (idsOf0 V c) (rowsOf0 V c) (t.val / 20 * 1024 + j.val) hr q]

/-! ## The 10 node blocks tile the array -/

/-- An index of the array is in point `t`'s block iff each coordinate is in the block's range on its axis. -/
theorem mem_blk0 (t : Fin cfg0.N) (i : S10240x128.Idx) :
    i ∈ ((cfg0.win 2).blk t).view.set ↔ ∀ a : Fin 2, win0_2.index t a * S1024x128.size a ≤ (i a).val
      ∧ (i a).val < win0_2.index t a * S1024x128.size a + S1024x128.size a := by
  show i ∈ ((View.whole main_v15).slice (win0_2.rect t)).set ↔ _
  rw [View.set_slice_whole, Rect.mem_set_unit]
  exact Iff.rfl

/-- Row r of the array is in the block the last point of node block r / 1024 writes back. -/
theorem cover0 (i : S10240x128.Idx) :
    ∃ t : Fin cfg0.N, (cfg0.win 2).flush t = true ∧ i ∈ ((cfg0.win 2).blk t).view.set := by
  have hi0 : (i 0).val < 10240 := idx2_lt0 i
  have hi1 : (i 1).val < 128 := idx2_lt1 i
  have hn : (i 0).val / 1024 < 10 := by omega
  obtain ⟨t, ht⟩ : ∃ t : Fin cfg0.N, t.val = (i 0).val / 1024 * 20 + 19 := ⟨⟨_, lt_N0 hn (by decide)⟩, rfl⟩
  refine ⟨t, (flush0_2 t).mpr (by omega), ?_⟩
  rw [mem_blk0]
  obtain ⟨-, -, -, -, e4, e5, -⟩ := idx_facts0 t
  intro a
  match a with
  | ⟨0, _⟩ =>
    show win0_2.index t (0 : Fin 2) * 1024 ≤ (i 0).val ∧ (i 0).val < win0_2.index t (0 : Fin 2) * 1024 + 1024
    omega
  | ⟨1, _⟩ =>
    show win0_2.index t (1 : Fin 2) * 128 ≤ (i 1).val ∧ (i 1).val < win0_2.index t (1 : Fin 2) * 128 + 128
    omega

/-! ## The array after the region -/

/-- THE ARRAY after the region: the segment sum of the data rows by the index column. -/
theorem out0_val (c : Dev nD) :
    (dat0 (F := Ideal) V c).arrAt 2 cfg0.N = segOut0 (idsOf0 V c) (rowsOf0 V c) :=
  (dat0 V c).arrAt_eq_of_cover 2 (segOut0 (idsOf0 V c) (rowsOf0 V c)) (fun t hf => flushed0_eq V c t hf) cover0

/-- The output array after the region, at its element type. -/
abbrev outOf0 (c : Dev nD) : FVec Ideal S10240x128 .f32 := (dat0 (F := Ideal) V c).arrAt 2 cfg0.N

/-- Entry (n, q) of the array after the region: 0 plus the sum of the data rows whose index word, read signed, is n. -/
theorem val0 (c : Dev nD) (n : Fin 10240) (q : Fin 128) :
    outOf0 V c (ix2 n q)
      = 0 + ∑ p : Fin 160000,
          if (idsOf0 V c (ix2 p (0 : Fin 1))).toInt = (n.val : Int) then rowsOf0 V c (ix2 p q) else 0 :=
  (congrFun (out0_val V c) (ix2 n q)).trans
    (segOut0_apply (idsOf0 V c) (rowsOf0 V c) (ix2 n q) n.val q rfl rfl)

end Value

end Cert.KernelIdeal.Reg0
-- ==== Proof.KI.Reg1Payload.lean ====
/-
  The region's accumulator payload read at an index, at the ideal values: the accumulator there plus the sum, over the
  8000 rows of the point's edge block, of (1 where the row's index word is the node's row number, 0 elsewhere) times
  the data entry.  The payload is the one-hot segment-sum product of Math/OneHotMatmul.lean at this region's sizes.
-/
import proofs.«411400_j9251359555630_1_alg».proof.Proof.Gen.KernelIdeal.Skeleton
import proofs.«411400_j9251359555630_1_alg».proof.Proof.Math.OneHotMatmul

noncomputable section

namespace Cert.KernelIdeal.Reg1

open Cert.KernelIdeal Cert.KernelIdeal.Gen
open Idealize.ShloMosaic Idealize.ShloMosaic.ValueIdx Idealize.SL.Sem
open scoped BigOperators

/-- The payload is the accumulator plus the transposed one-hot matrix of the index block (against the rows
    `1024 * i₀ + 0, 1024 * i₀ + 1, …` of node block `i₀`) times the data block: the shape casts are identities. -/
theorem k1_pay2_eq_segPay {F : FTy → Type} [FloatOps F] (i : grid1.Coords) (v7 : Vec F S8000x1 .i32)
    (v15 : Vec F S8000x300 .bf16) (v18 : Vec F S1024x300 .f32) :
    k1_pay2 (F := F) i v7 v15 v18
      = Cert.Math.segPay dot_S8000x1024_S8000x300_S1024x300_0_0_1_1_n_n iota_S1x1024_d1_w32
          broadcasts_S8000x1_S8000x1024 broadcasts_S1x1024_S8000x1024 natLt_1_32 bitsLt_bf16_f32
          (Scalar.muli (BitVec.ofNat 32 (i 0).val) 1024#32) v7 v15 v18 := by
  unfold k1_pay2 Cert.Math.segPay
  simp only [shapeCast_self] <;> rfl

/-- The payload at entry (j, q) of the node block. -/
theorem k1_pay2_apply (i : grid1.Coords) (ids : IVec S8000x1 32) (hb : FVec Ideal S8000x300 .bf16)
    (acc : FVec Ideal S1024x300 .f32) (j : Fin 1024) (q : Fin 300) :
    k1_pay2 (F := Ideal) i ids hb acc (ix2 j q)
      = acc (ix2 j q) + ∑ k : Fin 8000,
          (if ids (ix2 k (0 : Fin 1)) = BitVec.ofNat 32 ((i 0).val * 1024 + j.val) then (1 : EReal) else 0) * hb (ix2 k q) := by
  rw [k1_pay2_eq_segPay, Cert.Math.segPay_apply dot_S8000x1024_S8000x300_S1024x300_0_0_1_1_n_n rfl rfl rfl rfl rfl rfl]
  rw [show IntOp.addi (Scalar.muli (BitVec.ofNat 32 (i 0).val) 1024#32) (BitVec.ofNat 32 j.val)
      = BitVec.ofNat 32 ((i 0).val * 1024 + j.val) from Cert.Math.base_add_lane _ _ _]

end Cert.KernelIdeal.Reg1
-- ==== Proof.KI.Reg1Value.lean ====
/-
  What this region leaves in its output array, at the ideal values: entry (n, q) is 0 plus the sum, over all 160000 edge
  rows p, of the data entry (p, q) where the index word of row p, read signed, is n, and of 0 elsewhere.

  The accumulator of node block b starts from zeros at the block's first edge block and adds, at edge block e, the
  one-hot product of that block's 8000 rows; after the 20 edge blocks it holds the sum over all 20 * 8000 rows, and that
  is what the last of the 20 points writes back as the 1024 rows from row 1024 b on of the array.  The 10 node blocks
  tile the array's 10240 rows.
-/
import proofs.«411400_j9251359555630_1_alg».proof.Proof.Gen.KernelIdeal.Points
import proofs.«411400_j9251359555630_1_alg».proof.Proof.Gen.KernelIdeal.Launch
import proofs.«411400_j9251359555630_1_alg».proof.Proof.KI.Reg1
import proofs.«411400_j9251359555630_1_alg».proof.Proof.KI.Reg1Payload
import proofs.«411400_j9251359555630_1_alg».proof.Proof.Math.SegSum
import Idealize.ShloMosaic.Lib.Pipeline.Value
import Idealize.ShloMosaic.Lib.ValueIdx

set_option maxRecDepth 16384

noncomputable section

namespace Cert.KernelIdeal.Reg1

open Cert.KernelIdeal Cert.KernelIdeal.Gen
open Idealize.ShloMosaic Idealize.ShloMosaic.TcCoe Idealize.SL.Sem Idealize.ShloMosaic.ValueIdx
open Idealize.ShloMosaic.Pipeline (Dat)
open scoped BigOperators

/-! ## The printed index maps over the grid -/

/-- Point t = 20 b + e reads edge block e of the index column and of the data rows and holds node block b of the
    output; its first grid coordinate is b. -/
theorem idx_facts1 : ∀ t : Fin cfg1.N,
    win1_0.index t (0 : Fin 2) = t.val % 20 ∧ win1_0.index t (1 : Fin 2) = 0
    ∧ win1_1.index t (0 : Fin 2) = t.val % 20 ∧ win1_1.index t (1 : Fin 2) = 0
    ∧ win1_2.index t (0 : Fin 2) = t.val / 20 ∧ win1_2.index t (1 : Fin 2) = 0
    ∧ (grid1.coords t 0).val = t.val / 20 :=
  (by decide +kernel : ∀ t : Fin grid1.N, _)

/-- Point 20 b + e is a point of the grid. -/
theorem lt_N1 {b e : ℕ} (hb : b < 10) (he : e < 20) : b * 20 + e < cfg1.N := by
  rw [show cfg1.N = 200 from N_1]; omega

/-- Row k of edge block e is a row of the edge arrays. -/
theorem row_lt1 {e : ℕ} (he : e < 20) (k : Fin 8000) : e * 8000 + k.val < 160000 := by
  have := k.isLt; omega

/-! ## The sums -/

/-- What edge block `e` adds to the entry of node row `r` and column `q`: the sum over the block's rows of the one-hot
    entry times the data entry. -/
def part1 (ids : IVec S160000x1 32) (hs : FVec Ideal S160000x300 .bf16) (r : ℕ) (q : Fin 300) (e : ℕ) : EReal :=
  if he : e < 20 then
    ∑ k : Fin 8000, (if ids (ix2 ⟨e * 8000 + k.val, row_lt1 he k⟩ (0 : Fin 1)) = BitVec.ofNat 32 r then (1 : EReal) else 0)
      * hs (ix2 ⟨e * 8000 + k.val, row_lt1 he k⟩ q)
  else 0

/-- The array the region leaves: entry (n, q) is 0 plus the sum of the data rows whose index word, read signed, is n. -/
def segOut1 (ids : IVec S160000x1 32) (hs : FVec Ideal S160000x300 .bf16) : FVec Ideal S10240x300 .f32 := fun x =>
  0 + ∑ p : Fin 160000, if (ids (ix2 p (0 : Fin 1))).toInt = ((x 0).val : Int) then hs (ix2 p (x 1)) else 0

theorem segOut1_apply (ids : IVec S160000x1 32) (hs : FVec Ideal S160000x300 .bf16) (x : S10240x300.Idx) (r : ℕ)
    (q : Fin 300) (h0 : (x 0).val = r) (h1 : x 1 = q) :
    segOut1 ids hs x
      = 0 + ∑ p : Fin 160000, if (ids (ix2 p (0 : Fin 1))).toInt = (r : Int) then hs (ix2 p q) else 0 := by
  subst h1
  subst h0
  rfl

/-- The 20 edge blocks' parts add up to the sum over all rows, the one-hot entry read as the signed comparison: a row
    number below 2^31 is the word's signed reading exactly when the word is the row number's word. -/
theorem parts_sum1 (ids : IVec S160000x1 32) (hs : FVec Ideal S160000x300 .bf16) (r : ℕ) (hr : r < 2 ^ 31)
    (q : Fin 300) :
    ∑ e ∈ Finset.range 20, part1 ids hs r q e
      = ∑ p : Fin 160000, if (ids (ix2 p (0 : Fin 1))).toInt = (r : Int) then hs (ix2 p q) else 0 := by
  have hb := Cert.Math.block_sum 20 8000
    (fun p : Fin 160000 => (if ids (ix2 p (0 : Fin 1)) = BitVec.ofNat 32 r then (1 : EReal) else 0) * hs (ix2 p q))
  rw [Finset.sum_range]
  calc ∑ b : Fin 20, part1 ids hs r q b.val
      = ∑ b : Fin 20, ∑ k : Fin 8000,
          (fun p : Fin 160000 => (if ids (ix2 p (0 : Fin 1)) = BitVec.ofNat 32 r then (1 : EReal) else 0) * hs (ix2 p q))
            ⟨b.val * 8000 + k.val, Cert.Math.block_lt b k⟩ := by
        refine Finset.sum_congr rfl fun b _ => ?_
        unfold part1
        rw [dif_pos b.isLt] <;> rfl
    _ = ∑ p : Fin 160000, (if ids (ix2 p (0 : Fin 1)) = BitVec.ofNat 32 r then (1 : EReal) else 0) * hs (ix2 p q) := hb
    _ = _ := by
        refine Finset.sum_congr rfl fun p _ => ?_
        by_cases h : ids (ix2 p (0 : Fin 1)) = BitVec.ofNat 32 r
        · rw [if_pos h, if_pos ((Cert.Math.eq_ofNat_iff_toInt _ r hr).mp h), one_mul]
        · rw [if_neg h, if_neg (fun h' => h ((Cert.Math.eq_ofNat_iff_toInt _ r hr).mpr h')), zero_mul]

section Value
-- the TensorCore's buffer contents when the region is entered
variable (V : (c : Dev nD) → (b : Ref sig .tc) → Buf (Elt Ideal) ((c : Thread nD τ).loc b))

/-- The index column and the data rows as the region finds them. -/
abbrev idsOf1 (c : Dev nD) : IVec S160000x1 32 := V c (Pipeline.arrRef spec1 0)
abbrev rowsOf1 (c : Dev nD) : FVec Ideal S160000x300 .bf16 := V c (Pipeline.arrRef spec1 1)

/-! ## The input blocks, read off their arrays -/

/-- Row k of the index block at point t is row (t % 20) * 8000 + k of the index column. -/
theorem iblk1_0_apply (c : Dev nD) (t : Fin cfg1.N) (k : Fin 8000) :
    (iblk1 V c 0 t : IVec S8000x1 32) (ix2 k (0 : Fin 1))
      = idsOf1 V c (ix2 ⟨t.val % 20 * 8000 + k.val, row_lt1 (Nat.mod_lt _ (by decide)) k⟩ (0 : Fin 1)) := by
  obtain ⟨e0, e1, -⟩ := idx_facts1 t
  show V c (Pipeline.arrRef spec1 0) (((cfg1.win 0).blk t).view.emb (ix2 k (0 : Fin 1))) = V c (Pipeline.arrRef spec1 0) _
  refine congrArg (V c (Pipeline.arrRef spec1 0)) (funext fun a => Fin.ext ?_)
  match a with
  | ⟨0, _⟩ =>
    show win1_0.index t (0 : Fin 2) * 8000 + 1 * k.val = t.val % 20 * 8000 + k.val
    omega
  | ⟨1, _⟩ =>
    show win1_0.index t (1 : Fin 2) * 1 + 1 * 0 = 0
    omega

/-- Entry (k, q) of the data block at point t is entry ((t % 20) * 8000 + k, q) of the data rows. -/
theorem iblk1_1_apply (c : Dev nD) (t : Fin cfg1.N) (k : Fin 8000) (q : Fin 300) :
    (iblk1 V c 1 t : FVec Ideal S8000x300 .bf16) (ix2 k q)
      = rowsOf1 V c (ix2 ⟨t.val % 20 * 8000 + k.val, row_lt1 (Nat.mod_lt _ (by decide)) k⟩ q) := by
  obtain ⟨-, -, e2, e3, -⟩ := idx_facts1 t
  show V c (Pipeline.arrRef spec1 1) (((cfg1.win 1).blk t).view.emb (ix2 k q)) = V c (Pipeline.arrRef spec1 1) _
  refine congrArg (V c (Pipeline.arrRef spec1 1)) (funext fun a => Fin.ext ?_)
  match a with
  | ⟨0, _⟩ =>
    show win1_1.index t (0 : Fin 2) * 8000 + 1 * k.val = t.val % 20 * 8000 + k.val
    omega
  | ⟨1, _⟩ =>
    show win1_1.index t (1 : Fin 2) * 300 + 1 * q.val = q.val
    omega

/-! ## The accumulator -/

/-- The accumulator's reset value is zero everywhere. -/
theorem pay1_apply (x : S1024x300.Idx) : k1_pay1 (F := Ideal) x = 0 := by
  unfold k1_pay1
  simp only [shapeCast_self]
  exact Ideal.ofBits_zero_f32

/-- The accumulator after two positions that are the same number is the same. -/
theorem outsAt1_congr (c : Dev nD) {a b : ℕ} (hab : a = b) (ha : a < cfg1.N) (hb : b < cfg1.N) :
    outsAt1 V c a ha = outsAt1 V c b hb := by
  subst hab; rfl

/-- One point's step at an entry: zero at a node block's first edge block, the previous accumulator elsewhere, plus
    the point's edge block's part. -/
theorem acc1_point (c : Dev nD) (a : ℕ) (ha : a < cfg1.N) (j : Fin 1024) (q : Fin 300) :
    (outsAt1 V c a ha).2 (ix2 j q)
      = (if a % 20 = 0 then (0 : EReal)
          else (outsAt1 V c (a - 1) (Nat.lt_of_le_of_lt (Nat.sub_le _ _) ha)).2 (ix2 j q))
        + part1 (idsOf1 V c) (rowsOf1 V c) (a / 20 * 1024 + j.val) q (a % 20) := by
  have hstep := scratch_step1 V c ⟨a, ha⟩
  obtain ⟨-, -, -, -, -, -, e6⟩ := idx_facts1 ⟨a, ha⟩
  -- the point's one-hot product, read off the arrays, is the point's edge block's part
  have hpart : ∑ k : Fin 8000,
        (if (iblk1 V c 0 ⟨a, ha⟩ : IVec S8000x1 32) (ix2 k (0 : Fin 1))
            = BitVec.ofNat 32 ((grid1.coords ⟨a, ha⟩ 0).val * 1024 + j.val) then (1 : EReal) else 0)
          * (iblk1 V c 1 ⟨a, ha⟩ : FVec Ideal S8000x300 .bf16) (ix2 k q)
      = part1 (idsOf1 V c) (rowsOf1 V c) (a / 20 * 1024 + j.val) q (a % 20) := by
    unfold part1
    rw [dif_pos (Nat.mod_lt a (by decide : 0 < 20))]
    refine Finset.sum_congr rfl fun k _ => ?_
    rw [iblk1_0_apply V c ⟨a, ha⟩ k, iblk1_1_apply V c ⟨a, ha⟩ k q, e6] <;> rfl
  by_cases h : a % 20 = 0
  · rw [if_pos h]
    rw [if_pos h] at hstep
    rw [show (outsAt1 V c a ha).2 = _ from hstep, k1_pay2_apply, pay1_apply, hpart]
  · rw [if_neg h]
    rw [if_neg h] at hstep
    rw [show (outsAt1 V c a ha).2 = _ from hstep, k1_pay2_apply, hpart] <;> rfl

/-- After edge block e of node block b (position a = 20 b + e) the accumulator holds 0 plus the parts of edge blocks
    0 … e. -/
theorem acc1_fold (c : Dev nD) (b : ℕ) (hb : b < 10) (j : Fin 1024) (q : Fin 300) :
    ∀ (e : ℕ) (he : e < 20) (a : ℕ) (ha : a < cfg1.N), a = b * 20 + e →
      (outsAt1 V c a ha).2 (ix2 j q)
        = 0 + ∑ e' ∈ Finset.range (e + 1), part1 (idsOf1 V c) (rowsOf1 V c) (b * 1024 + j.val) q e'
  | 0, he, a, ha, hab => by
    have h1 : a / 20 = b := by omega
    have h2 : a % 20 = 0 := by omega
    rw [acc1_point, if_pos h2, h1, h2]
    simp only [Finset.sum_range_succ, Finset.sum_range_zero, zero_add]
  | e + 1, he, a, ha, hab => by
    have h1 : a / 20 = b := by omega
    have h2 : a % 20 = e + 1 := by omega
    rw [acc1_point, if_neg (show ¬ a % 20 = 0 by omega), h1, h2,
      acc1_fold c b hb j q e (by omega) (a - 1) _ (by omega), Finset.sum_range_succ _ (e + 1), add_assoc]

/-! ## What a flushing point writes back -/

/-- The last point of node block b writes back the 1024 rows from row 1024 b on of `segOut1`. -/
theorem flushed1_eq (c : Dev nD) (t : Fin cfg1.N) (hf : (cfg1.win 2).flush t = true) :
    (dat1 V c).flushed 2 t
      = ((cfg1.win 2).blk t).view.read (Elt Ideal) (segOut1 (idsOf1 V c) (rowsOf1 V c)) := by
  have h19 : t.val % 20 = 19 := (flush1_2 t).mp hf
  obtain ⟨-, -, -, -, e4, e5, -⟩ := idx_facts1 t
  have hN : t.val < 200 := by
    have h200 : cfg1.N = 200 := N_1
    have := t.isLt
    omega
  have hn : t.val / 20 < 10 := by omega
  show (cfg1.win 2).cut (grid1.coords t) ((dat1 V c).after 2 t) = _
  rw [after1_2, out_flush1 V c t h19]
  funext x
  obtain ⟨j, q, rfl⟩ : ∃ (j : Fin 1024) (q : Fin 300), x = ix2 j q := ⟨x 0, x 1, eq_ix2 x⟩
  show (outsAt1 V c t.val t.isLt).2 (ix2 j q)
    = segOut1 (idsOf1 V c) (rowsOf1 V c) (((cfg1.win 2).blk t).view.emb (ix2 j q))
  have hx0 : ((((cfg1.win 2).blk t).view.emb (ix2 j q)) 0).val = t.val / 20 * 1024 + j.val := by
    show win1_2.index t (0 : Fin 2) * 1024 + 1 * j.val = _
    omega
  have hx1 : (((cfg1.win 2).blk t).view.emb (ix2 j q)) 1 = q := by
    apply Fin.ext
    show win1_2.index t (1 : Fin 2) * 300 + 1 * q.val = q.val
    omega
  have hr : t.val / 20 * 1024 + j.val < 2 ^ 31 := by have := j.isLt; omega
  rw [segOut1_apply _ _ _ (t.val / 20 * 1024 + j.val) q hx0 hx1,
    acc1_fold V c (t.val / 20) hn j q 19 (by decide) t.val t.isLt (by omega)]
  show (0 : EReal) + ∑ e ∈ Finset.range 20, part1 (idsOf1 V c) (rowsOf1 V c) (t.val / 20 * 1024 + j.val) q e = _
  rw [parts_sum1 (idsOf1 V c) (rowsOf1 V c) (t.val / 20 * 1024 + j.val) hr q]

/-! ## The 10 node blocks tile the array -/

/-- An index of the array is in point `t`'s block iff each coordinate is in the block's range on its axis. -/
theorem mem_blk1 (t : Fin cfg1.N) (i : S10240x300.Idx) :
    i ∈ ((cfg1.win 2).blk t).view.set ↔ ∀ a : Fin 2, win1_2.index t a * S1024x300.size a ≤ (i a).val
      ∧ (i a).val < win1_2.index t a * S1024x300.size a + S1024x300.size a := by
  show i ∈ ((View.whole main_v95).slice (win1_2.rect t)).set ↔ _
  rw [View.set_slice_whole, Rect.mem_set_unit]
  exact Iff.rfl

/-- Row r of the array is in the block the last point of node block r / 1024 writes back. -/
theorem cover1 (i : S10240x300.Idx) :
    ∃ t : Fin cfg1.N, (cfg1.win 2).flush t = true ∧ i ∈ ((cfg1.win 2).blk t).view.set := by
  have hi0 : (i 0).val < 10240 := idx2_lt0 i
  have hi1 : (i 1).val < 300 := idx2_lt1 i
  have hn : (i 0).val / 1024 < 10 := by omega
  obtain ⟨t, ht⟩ : ∃ t : Fin cfg1.N, t.val = (i 0).val / 1024 * 20 + 19 := ⟨⟨_, lt_N1 hn (by decide)⟩, rfl⟩
  refine ⟨t, (flush1_2 t).mpr (by omega), ?_⟩
  rw [mem_blk1]
  obtain ⟨-, -, -, -, e4, e5, -⟩ := idx_facts1 t
  intro a
  match a with
  | ⟨0, _⟩ =>
    show win1_2.index t (0 : Fin 2) * 1024 ≤ (i 0).val ∧ (i 0).val < win1_2.index t (0 : Fin 2) * 1024 + 1024
    omega
  | ⟨1, _⟩ =>
    show win1_2.index t (1 : Fin 2) * 300 ≤ (i 1).val ∧ (i 1).val < win1_2.index t (1 : Fin 2) * 300 + 300
    omega

/-! ## The array after the region -/

/-- THE ARRAY after the region: the segment sum of the data rows by the index column. -/
theorem out1_val (c : Dev nD) :
    (dat1 (F := Ideal) V c).arrAt 2 cfg1.N = segOut1 (idsOf1 V c) (rowsOf1 V c) :=
  (dat1 V c).arrAt_eq_of_cover 2 (segOut1 (idsOf1 V c) (rowsOf1 V c)) (fun t hf => flushed1_eq V c t hf) cover1

/-- The output array after the region, at its element type. -/
abbrev outOf1 (c : Dev nD) : FVec Ideal S10240x300 .f32 := (dat1 (F := Ideal) V c).arrAt 2 cfg1.N

/-- Entry (n, q) of the array after the region: 0 plus the sum of the data rows whose index word, read signed, is n. -/
theorem val1 (c : Dev nD) (n : Fin 10240) (q : Fin 300) :
    outOf1 V c (ix2 n q)
      = 0 + ∑ p : Fin 160000,
          if (idsOf1 V c (ix2 p (0 : Fin 1))).toInt = (n.val : Int) then rowsOf1 V c (ix2 p q) else 0 :=
  (congrFun (out1_val V c) (ix2 n q)).trans
    (segOut1_apply (idsOf1 V c) (rowsOf1 V c) (ix2 n q) n.val q rfl rfl)

end Value

end Cert.KernelIdeal.Reg1
-- ==== Proof.KI.Reg2Payload.lean ====
/-
  The region's accumulator payload read at an index, at the ideal values: the accumulator there plus the sum, over the
  2000 rows of the point's edge block, of (1 where the row's index word is the node's row number, 0 elsewhere) times
  the data entry.  The payload is the one-hot segment-sum product of Math/OneHotMatmul.lean at this region's sizes.
-/
import proofs.«411400_j9251359555630_1_alg».proof.Proof.Gen.KernelIdeal.Skeleton
import proofs.«411400_j9251359555630_1_alg».proof.Proof.Math.OneHotMatmul

noncomputable section

namespace Cert.KernelIdeal.Reg2

open Cert.KernelIdeal Cert.KernelIdeal.Gen
open Idealize.ShloMosaic Idealize.ShloMosaic.ValueIdx Idealize.SL.Sem
open scoped BigOperators

/-- The payload is the accumulator plus the transposed one-hot matrix of the index block (against the rows
    `64 * i₀ + 0, 64 * i₀ + 1, …` of node block `i₀`) times the data block: the shape casts are identities. -/
theorem k2_pay2_eq_segPay {F : FTy → Type} [FloatOps F] (i : grid2.Coords) (v7 : Vec F S2000x1 .i32)
    (v15 : Vec F S2000x300 .bf16) (v18 : Vec F S64x300 .f32) :
    k2_pay2 (F := F) i v7 v15 v18
      = Cert.Math.segPay dot_S2000x64_S2000x300_S64x300_0_0_1_1_n_n iota_S1x64_d1_w32
          broadcasts_S2000x1_S2000x64 broadcasts_S1x64_S2000x64 natLt_1_32 bitsLt_bf16_f32
          (Scalar.muli (BitVec.ofNat 32 (i 0).val) 64#32) v7 v15 v18 := by
  unfold k2_pay2 Cert.Math.segPay
  simp only [shapeCast_self] <;> rfl

/-- The payload at entry (j, q) of the node block. -/
theorem k2_pay2_apply (i : grid2.Coords) (ids : IVec S2000x1 32) (hb : FVec Ideal S2000x300 .bf16)
    (acc : FVec Ideal S64x300 .f32) (j : Fin 64) (q : Fin 300) :
    k2_pay2 (F := Ideal) i ids hb acc (ix2 j q)
      = acc (ix2 j q) + ∑ k : Fin 2000,
          (if ids (ix2 k (0 : Fin 1)) = BitVec.ofNat 32 ((i 0).val * 64 + j.val) then (1 : EReal) else 0) * hb (ix2 k q) := by
  rw [k2_pay2_eq_segPay, Cert.Math.segPay_apply dot_S2000x64_S2000x300_S64x300_0_0_1_1_n_n rfl rfl rfl rfl rfl rfl]
  rw [show IntOp.addi (Scalar.muli (BitVec.ofNat 32 (i 0).val) 64#32) (BitVec.ofNat 32 j.val)
      = BitVec.ofNat 32 ((i 0).val * 64 + j.val) from Cert.Math.base_add_lane _ _ _]

end Cert.KernelIdeal.Reg2
-- ==== Proof.KI.Reg2Value.lean ====
/-
  What this region leaves in its output array, at the ideal values: entry (n, q) is 0 plus the sum, over all 10000 edge
  rows p, of the data entry (p, q) where the index word of row p, read signed, is n, and of 0 elsewhere.

  The accumulator of node block b starts from zeros at the block's first edge block and adds, at edge block e, the
  one-hot product of that block's 2000 rows; after the 5 edge blocks it holds the sum over all 5 * 2000 rows, and that
  is what the last of the 5 points writes back as the 64 rows from row 64 b on of the array.  The 1 node blocks
  tile the array's 64 rows.
-/
import proofs.«411400_j9251359555630_1_alg».proof.Proof.Gen.KernelIdeal.Points
import proofs.«411400_j9251359555630_1_alg».proof.Proof.Gen.KernelIdeal.Launch
import proofs.«411400_j9251359555630_1_alg».proof.Proof.KI.Reg2
import proofs.«411400_j9251359555630_1_alg».proof.Proof.KI.Reg2Payload
import proofs.«411400_j9251359555630_1_alg».proof.Proof.Math.SegSum
import Idealize.ShloMosaic.Lib.Pipeline.Value
import Idealize.ShloMosaic.Lib.ValueIdx

set_option maxRecDepth 16384

noncomputable section

namespace Cert.KernelIdeal.Reg2

open Cert.KernelIdeal Cert.KernelIdeal.Gen
open Idealize.ShloMosaic Idealize.ShloMosaic.TcCoe Idealize.SL.Sem Idealize.ShloMosaic.ValueIdx
open Idealize.ShloMosaic.Pipeline (Dat)
open scoped BigOperators

/-! ## The printed index maps over the grid -/

/-- Point t = 5 b + e reads edge block e of the index column and of the data rows and holds node block b of the
    output; its first grid coordinate is b. -/
theorem idx_facts2 : ∀ t : Fin cfg2.N,
    win2_0.index t (0 : Fin 2) = t.val % 5 ∧ win2_0.index t (1 : Fin 2) = 0
    ∧ win2_1.index t (0 : Fin 2) = t.val % 5 ∧ win2_1.index t (1 : Fin 2) = 0
    ∧ win2_2.index t (0 : Fin 2) = t.val / 5 ∧ win2_2.index t (1 : Fin 2) = 0
    ∧ (grid2.coords t 0).val = t.val / 5 :=
  (by decide +kernel : ∀ t : Fin grid2.N, _)

/-- Point 5 b + e is a point of the grid. -/
theorem lt_N2 {b e : ℕ} (hb : b < 1) (he : e < 5) : b * 5 + e < cfg2.N := by
  rw [show cfg2.N = 5 from N_2]; omega

/-- Row k of edge block e is a row of the edge arrays. -/
theorem row_lt2 {e : ℕ} (he : e < 5) (k : Fin 2000) : e * 2000 + k.val < 10000 := by
  have := k.isLt; omega

/-! ## The sums -/

/-- What edge block `e` adds to the entry of node row `r` and column `q`: the sum over the block's rows of the one-hot
    entry times the data entry. -/
def part2 (ids : IVec S10000x1 32) (hs : FVec Ideal S10000x300 .bf16) (r : ℕ) (q : Fin 300) (e : ℕ) : EReal :=
  if he : e < 5 then
    ∑ k : Fin 2000, (if ids (ix2 ⟨e * 2000 + k.val, row_lt2 he k⟩ (0 : Fin 1)) = BitVec.ofNat 32 r then (1 : EReal) else 0)
      * hs (ix2 ⟨e * 2000 + k.val, row_lt2 he k⟩ q)
  else 0

/-- The array the region leaves: entry (n, q) is 0 plus the sum of the data rows whose index word, read signed, is n. -/
def segOut2 (ids : IVec S10000x1 32) (hs : FVec Ideal S10000x300 .bf16) : FVec Ideal S64x300 .f32 := fun x =>
  0 + ∑ p : Fin 10000, if (ids (ix2 p (0 : Fin 1))).toInt = ((x 0).val : Int) then hs (ix2 p (x 1)) else 0

theorem segOut2_apply (ids : IVec S10000x1 32) (hs : FVec Ideal S10000x300 .bf16) (x : S64x300.Idx) (r : ℕ)
    (q : Fin 300) (h0 : (x 0).val = r) (h1 : x 1 = q) :
    segOut2 ids hs x
      = 0 + ∑ p : Fin 10000, if (ids (ix2 p (0 : Fin 1))).toInt = (r : Int) then hs (ix2 p q) else 0 := by
  subst h1
  subst h0
  rfl

/-- The 5 edge blocks' parts add up to the sum over all rows, the one-hot entry read as the signed comparison: a row
    number below 2^31 is the word's signed reading exactly when the word is the row number's word. -/
theorem parts_sum2 (ids : IVec S10000x1 32) (hs : FVec Ideal S10000x300 .bf16) (r : ℕ) (hr : r < 2 ^ 31)
    (q : Fin 300) :
    ∑ e ∈ Finset.range 5, part2 ids hs r q e
      = ∑ p : Fin 10000, if (ids (ix2 p (0 : Fin 1))).toInt = (r : Int) then hs (ix2 p q) else 0 := by
  have hb := Cert.Math.block_sum 5 2000
    (fun p : Fin 10000 => (if ids (ix2 p (0 : Fin 1)) = BitVec.ofNat 32 r then (1 : EReal) else 0) * hs (ix2 p q))
  rw [Finset.sum_range]
  calc ∑ b : Fin 5, part2 ids hs r q b.val
      = ∑ b : Fin 5, ∑ k : Fin 2000,
          (fun p : Fin 10000 => (if ids (ix2 p (0 : Fin 1)) = BitVec.ofNat 32 r then (1 : EReal) else 0) * hs (ix2 p q))
            ⟨b.val * 2000 + k.val, Cert.Math.block_lt b k⟩ := by
        refine Finset.sum_congr rfl fun b _ => ?_
        unfold part2
        rw [dif_pos b.isLt] <;> rfl
    _ = ∑ p : Fin 10000, (if ids (ix2 p (0 : Fin 1)) = BitVec.ofNat 32 r then (1 : EReal) else 0) * hs (ix2 p q) := hb
    _ = _ := by
        refine Finset.sum_congr rfl fun p _ => ?_
        by_cases h : ids (ix2 p (0 : Fin 1)) = BitVec.ofNat 32 r
        · rw [if_pos h, if_pos ((Cert.Math.eq_ofNat_iff_toInt _ r hr).mp h), one_mul]
        · rw [if_neg h, if_neg (fun h' => h ((Cert.Math.eq_ofNat_iff_toInt _ r hr).mpr h')), zero_mul]

section Value
-- the TensorCore's buffer contents when the region is entered
variable (V : (c : Dev nD) → (b : Ref sig .tc) → Buf (Elt Ideal) ((c : Thread nD τ).loc b))

/-- The index column and the data rows as the region finds them. -/
abbrev idsOf2 (c : Dev nD) : IVec S10000x1 32 := V c (Pipeline.arrRef spec2 0)
abbrev rowsOf2 (c : Dev nD) : FVec Ideal S10000x300 .bf16 := V c (Pipeline.arrRef spec2 1)

/-! ## The input blocks, read off their arrays -/

/-- Row k of the index block at point t is row (t % 5) * 2000 + k of the index column. -/
theorem iblk2_0_apply (c : Dev nD) (t : Fin cfg2.N) (k : Fin 2000) :
    (iblk2 V c 0 t : IVec S2000x1 32) (ix2 k (0 : Fin 1))
      = idsOf2 V c (ix2 ⟨t.val % 5 * 2000 + k.val, row_lt2 (Nat.mod_lt _ (by decide)) k⟩ (0 : Fin 1)) := by
  obtain ⟨e0, e1, -⟩ := idx_facts2 t
  show V c (Pipeline.arrRef spec2 0) (((cfg2.win 0).blk t).view.emb (ix2 k (0 : Fin 1))) = V c (Pipeline.arrRef spec2 0) _
  refine congrArg (V c (Pipeline.arrRef spec2 0)) (funext fun a => Fin.ext ?_)
  match a with
  | ⟨0, _⟩ =>
    show win2_0.index t (0 : Fin 2) * 2000 + 1 * k.val = t.val % 5 * 2000 + k.val
    omega
  | ⟨1, _⟩ =>
    show win2_0.index t (1 : Fin 2) * 1 + 1 * 0 = 0
    omega

/-- Entry (k, q) of the data block at point t is entry ((t % 5) * 2000 + k, q) of the data rows. -/
theorem iblk2_1_apply (c : Dev nD) (t : Fin cfg2.N) (k : Fin 2000) (q : Fin 300) :
    (iblk2 V c 1 t : FVec Ideal S2000x300 .bf16) (ix2 k q)
      = rowsOf2 V c (ix2 ⟨t.val % 5 * 2000 + k.val, row_lt2 (Nat.mod_lt _ (by decide)) k⟩ q) := by
  obtain ⟨-, -, e2, e3, -⟩ := idx_facts2 t
  show V c (Pipeline.arrRef spec2 1) (((cfg2.win 1).blk t).view.emb (ix2 k q)) = V c (Pipeline.arrRef spec2 1) _
  refine congrArg (V c (Pipeline.arrRef spec2 1)) (funext fun a => Fin.ext ?_)
  match a with
  | ⟨0, _⟩ =>
    show win2_1.index t (0 : Fin 2) * 2000 + 1 * k.val = t.val % 5 * 2000 + k.val
    omega
  | ⟨1, _⟩ =>
    show win2_1.index t (1 : Fin 2) * 300 + 1 * q.val = q.val
    omega

/-! ## The accumulator -/

/-- The accumulator's reset value is zero everywhere. -/
theorem pay2_apply (x : S64x300.Idx) : k2_pay1 (F := Ideal) x = 0 := by
  unfold k2_pay1
  simp only [shapeCast_self]
  exact Ideal.ofBits_zero_f32

/-- The accumulator after two positions that are the same number is the same. -/
theorem outsAt2_congr (c : Dev nD) {a b : ℕ} (hab : a = b) (ha : a < cfg2.N) (hb : b < cfg2.N) :
    outsAt2 V c a ha = outsAt2 V c b hb := by
  subst hab; rfl

/-- One point's step at an entry: zero at a node block's first edge block, the previous accumulator elsewhere, plus
    the point's edge block's part. -/
theorem acc2_point (c : Dev nD) (a : ℕ) (ha : a < cfg2.N) (j : Fin 64) (q : Fin 300) :
    (outsAt2 V c a ha).2 (ix2 j q)
      = (if a % 5 = 0 then (0 : EReal)
          else (outsAt2 V c (a - 1) (Nat.lt_of_le_of_lt (Nat.sub_le _ _) ha)).2 (ix2 j q))
        + part2 (idsOf2 V c) (rowsOf2 V c) (a / 5 * 64 + j.val) q (a % 5) := by
  have hstep := scratch_step2 V c ⟨a, ha⟩
  obtain ⟨-, -, -, -, -, -, e6⟩ := idx_facts2 ⟨a, ha⟩
  -- the point's one-hot product, read off the arrays, is the point's edge block's part
  have hpart : ∑ k : Fin 2000,
        (if (iblk2 V c 0 ⟨a, ha⟩ : IVec S2000x1 32) (ix2 k (0 : Fin 1))
            = BitVec.ofNat 32 ((grid2.coords ⟨a, ha⟩ 0).val * 64 + j.val) then (1 : EReal) else 0)
          * (iblk2 V c 1 ⟨a, ha⟩ : FVec Ideal S2000x300 .bf16) (ix2 k q)
      = part2 (idsOf2 V c) (rowsOf2 V c) (a / 5 * 64 + j.val) q (a % 5) := by
    unfold part2
    rw [dif_pos (Nat.mod_lt a (by decide : 0 < 5))]
    refine Finset.sum_congr rfl fun k _ => ?_
    rw [iblk2_0_apply V c ⟨a, ha⟩ k, iblk2_1_apply V c ⟨a, ha⟩ k q, e6] <;> rfl
  by_cases h : a % 5 = 0
  · rw [if_pos h]
    rw [if_pos h] at hstep
    rw [show (outsAt2 V c a ha).2 = _ from hstep, k2_pay2_apply, pay2_apply, hpart]
  · rw [if_neg h]
    rw [if_neg h] at hstep
    rw [show (outsAt2 V c a ha).2 = _ from hstep, k2_pay2_apply, hpart] <;> rfl

/-- After edge block e of node block b (position a = 5 b + e) the accumulator holds 0 plus the parts of edge blocks
    0 … e. -/
theorem acc2_fold (c : Dev nD) (b : ℕ) (hb : b < 1) (j : Fin 64) (q : Fin 300) :
    ∀ (e : ℕ) (he : e < 5) (a : ℕ) (ha : a < cfg2.N), a = b * 5 + e →
      (outsAt2 V c a ha).2 (ix2 j q)
        = 0 + ∑ e' ∈ Finset.range (e + 1), part2 (idsOf2 V c) (rowsOf2 V c) (b * 64 + j.val) q e'
  | 0, he, a, ha, hab => by
    have h1 : a / 5 = b := by omega
    have h2 : a % 5 = 0 := by omega
    rw [acc2_point, if_pos h2, h1, h2]
    simp only [Finset.sum_range_succ, Finset.sum_range_zero, zero_add]
  | e + 1, he, a, ha, hab => by
    have h1 : a / 5 = b := by omega
    have h2 : a % 5 = e + 1 := by omega
    rw [acc2_point, if_neg (show ¬ a % 5 = 0 by omega), h1, h2,
      acc2_fold c b hb j q e (by omega) (a - 1) _ (by omega), Finset.sum_range_succ _ (e + 1), add_assoc]

/-! ## What a flushing point writes back -/

/-- The last point of node block b writes back the 64 rows from row 64 b on of `segOut2`. -/
theorem flushed2_eq (c : Dev nD) (t : Fin cfg2.N) (hf : (cfg2.win 2).flush t = true) :
    (dat2 V c).flushed 2 t
      = ((cfg2.win 2).blk t).view.read (Elt Ideal) (segOut2 (idsOf2 V c) (rowsOf2 V c)) := by
  have h19 : t.val % 5 = 4 := (flush2_2 t).mp hf
  obtain ⟨-, -, -, -, e4, e5, -⟩ := idx_facts2 t
  have hN : t.val < 5 := by
    have h200 : cfg2.N = 5 := N_2
    have := t.isLt
    omega
  have hn : t.val / 5 < 1 := by omega
  show (cfg2.win 2).cut (grid2.coords t) ((dat2 V c).after 2 t) = _
  rw [after2_2, out_flush2 V c t h19]
  funext x
  obtain ⟨j, q, rfl⟩ : ∃ (j : Fin 64) (q : Fin 300), x = ix2 j q := ⟨x 0, x 1, eq_ix2 x⟩
  show (outsAt2 V c t.val t.isLt).2 (ix2 j q)
    = segOut2 (idsOf2 V c) (rowsOf2 V c) (((cfg2.win 2).blk t).view.emb (ix2 j q))
  have hx0 : ((((cfg2.win 2).blk t).view.emb (ix2 j q)) 0).val = t.val / 5 * 64 + j.val := by
    show win2_2.index t (0 : Fin 2) * 64 + 1 * j.val = _
    omega
  have hx1 : (((cfg2.win 2).blk t).view.emb (ix2 j q)) 1 = q := by
    apply Fin.ext
    show win2_2.index t (1 : Fin 2) * 300 + 1 * q.val = q.val
    omega
  have hr : t.val / 5 * 64 + j.val < 2 ^ 31 := by have := j.isLt; omega
  rw [segOut2_apply _ _ _ (t.val / 5 * 64 + j.val) q hx0 hx1,
    acc2_fold V c (t.val / 5) hn j q 4 (by decide) t.val t.isLt (by omega)]
  show (0 : EReal) + ∑ e ∈ Finset.range 5, part2 (idsOf2 V c) (rowsOf2 V c) (t.val / 5 * 64 + j.val) q e = _
  rw [parts_sum2 (idsOf2 V c) (rowsOf2 V c) (t.val / 5 * 64 + j.val) hr q]

/-! ## The 1 node blocks tile the array -/

/-- An index of the array is in point `t`'s block iff each coordinate is in the block's range on its axis. -/
theorem mem_blk2 (t : Fin cfg2.N) (i : S64x300.Idx) :
    i ∈ ((cfg2.win 2).blk t).view.set ↔ ∀ a : Fin 2, win2_2.index t a * S64x300.size a ≤ (i a).val
      ∧ (i a).val < win2_2.index t a * S64x300.size a + S64x300.size a := by
  show i ∈ ((View.whole main_v152).slice (win2_2.rect t)).set ↔ _
  rw [View.set_slice_whole, Rect.mem_set_unit]
  exact Iff.rfl

/-- Row r of the array is in the block the last point of node block r / 64 writes back. -/
theorem cover2 (i : S64x300.Idx) :
    ∃ t : Fin cfg2.N, (cfg2.win 2).flush t = true ∧ i ∈ ((cfg2.win 2).blk t).view.set := by
  have hi0 : (i 0).val < 64 := idx2_lt0 i
  have hi1 : (i 1).val < 300 := idx2_lt1 i
  have hn : (i 0).val / 64 < 1 := by omega
  obtain ⟨t, ht⟩ : ∃ t : Fin cfg2.N, t.val = (i 0).val / 64 * 5 + 4 := ⟨⟨_, lt_N2 hn (by decide)⟩, rfl⟩
  refine ⟨t, (flush2_2 t).mpr (by omega), ?_⟩
  rw [mem_blk2]
  obtain ⟨-, -, -, -, e4, e5, -⟩ := idx_facts2 t
  intro a
  match a with
  | ⟨0, _⟩ =>
    show win2_2.index t (0 : Fin 2) * 64 ≤ (i 0).val ∧ (i 0).val < win2_2.index t (0 : Fin 2) * 64 + 64
    omega
  | ⟨1, _⟩ =>
    show win2_2.index t (1 : Fin 2) * 300 ≤ (i 1).val ∧ (i 1).val < win2_2.index t (1 : Fin 2) * 300 + 300
    omega

/-! ## The array after the region -/

/-- THE ARRAY after the region: the segment sum of the data rows by the index column. -/
theorem out2_val (c : Dev nD) :
    (dat2 (F := Ideal) V c).arrAt 2 cfg2.N = segOut2 (idsOf2 V c) (rowsOf2 V c) :=
  (dat2 V c).arrAt_eq_of_cover 2 (segOut2 (idsOf2 V c) (rowsOf2 V c)) (fun t hf => flushed2_eq V c t hf) cover2

/-- The output array after the region, at its element type. -/
abbrev outOf2 (c : Dev nD) : FVec Ideal S64x300 .f32 := (dat2 (F := Ideal) V c).arrAt 2 cfg2.N

/-- Entry (n, q) of the array after the region: 0 plus the sum of the data rows whose index word, read signed, is n. -/
theorem val2 (c : Dev nD) (n : Fin 64) (q : Fin 300) :
    outOf2 V c (ix2 n q)
      = 0 + ∑ p : Fin 10000,
          if (idsOf2 V c (ix2 p (0 : Fin 1))).toInt = (n.val : Int) then rowsOf2 V c (ix2 p q) else 0 :=
  (congrFun (out2_val V c) (ix2 n q)).trans
    (segOut2_apply (idsOf2 V c) (rowsOf2 V c) (ix2 n q) n.val q rfl rfl)

end Value

end Cert.KernelIdeal.Reg2
-- ==== Proof.KI.Reg3Payload.lean ====
/-
  The region's accumulator payload read at an index, at the ideal values: the accumulator there plus the sum, over the
  8000 rows of the point's edge block, of (1 where the row's index word is the node's row number, 0 elsewhere) times
  the data entry.  The payload is the one-hot segment-sum product of Math/OneHotMatmul.lean at this region's sizes.
-/
import proofs.«411400_j9251359555630_1_alg».proof.Proof.Gen.KernelIdeal.Skeleton
import proofs.«411400_j9251359555630_1_alg».proof.Proof.Math.OneHotMatmul

noncomputable section

namespace Cert.KernelIdeal.Reg3

open Cert.KernelIdeal Cert.KernelIdeal.Gen
open Idealize.ShloMosaic Idealize.ShloMosaic.ValueIdx Idealize.SL.Sem
open scoped BigOperators

/-- The payload is the accumulator plus the transposed one-hot matrix of the index block (against the rows
    `1024 * i₀ + 0, 1024 * i₀ + 1, …` of node block `i₀`) times the data block: the shape casts are identities. -/
theorem k3_pay2_eq_segPay {F : FTy → Type} [FloatOps F] (i : grid3.Coords) (v7 : Vec F S8000x1 .i32)
    (v15 : Vec F S8000x300 .bf16) (v18 : Vec F S1024x300 .f32) :
    k3_pay2 (F := F) i v7 v15 v18
      = Cert.Math.segPay dot_S8000x1024_S8000x300_S1024x300_0_0_1_1_n_n iota_S1x1024_d1_w32
          broadcasts_S8000x1_S8000x1024 broadcasts_S1x1024_S8000x1024 natLt_1_32 bitsLt_bf16_f32
          (Scalar.muli (BitVec.ofNat 32 (i 0).val) 1024#32) v7 v15 v18 := by
  unfold k3_pay2 Cert.Math.segPay
  simp only [shapeCast_self] <;> rfl

/-- The payload at entry (j, q) of the node block. -/
theorem k3_pay2_apply (i : grid3.Coords) (ids : IVec S8000x1 32) (hb : FVec Ideal S8000x300 .bf16)
    (acc : FVec Ideal S1024x300 .f32) (j : Fin 1024) (q : Fin 300) :
    k3_pay2 (F := Ideal) i ids hb acc (ix2 j q)
      = acc (ix2 j q) + ∑ k : Fin 8000,
          (if ids (ix2 k (0 : Fin 1)) = BitVec.ofNat 32 ((i 0).val * 1024 + j.val) then (1 : EReal) else 0) * hb (ix2 k q) := by
  rw [k3_pay2_eq_segPay, Cert.Math.segPay_apply dot_S8000x1024_S8000x300_S1024x300_0_0_1_1_n_n rfl rfl rfl rfl rfl rfl]
  rw [show IntOp.addi (Scalar.muli (BitVec.ofNat 32 (i 0).val) 1024#32) (BitVec.ofNat 32 j.val)
      = BitVec.ofNat 32 ((i 0).val * 1024 + j.val) from Cert.Math.base_add_lane _ _ _]

end Cert.KernelIdeal.Reg3
-- ==== Proof.KI.Reg3Value.lean ====
/-
  What this region leaves in its output array, at the ideal values: entry (n, q) is 0 plus the sum, over all 160000 edge
  rows p, of the data entry (p, q) where the index word of row p, read signed, is n, and of 0 elsewhere.

  The accumulator of node block b starts from zeros at the block's first edge block and adds, at edge block e, the
  one-hot product of that block's 8000 rows; after the 20 edge blocks it holds the sum over all 20 * 8000 rows, and that
  is what the last of the 20 points writes back as the 1024 rows from row 1024 b on of the array.  The 10 node blocks
  tile the array's 10240 rows.
-/
import proofs.«411400_j9251359555630_1_alg».proof.Proof.Gen.KernelIdeal.Points
import proofs.«411400_j9251359555630_1_alg».proof.Proof.Gen.KernelIdeal.Launch
import proofs.«411400_j9251359555630_1_alg».proof.Proof.KI.Reg3
import proofs.«411400_j9251359555630_1_alg».proof.Proof.KI.Reg3Payload
import proofs.«411400_j9251359555630_1_alg».proof.Proof.Math.SegSum
import Idealize.ShloMosaic.Lib.Pipeline.Value
import Idealize.ShloMosaic.Lib.ValueIdx

set_option maxRecDepth 16384

noncomputable section

namespace Cert.KernelIdeal.Reg3

open Cert.KernelIdeal Cert.KernelIdeal.Gen
open Idealize.ShloMosaic Idealize.ShloMosaic.TcCoe Idealize.SL.Sem Idealize.ShloMosaic.ValueIdx
open Idealize.ShloMosaic.Pipeline (Dat)
open scoped BigOperators

/-! ## The printed index maps over the grid -/

/-- Point t = 20 b + e reads edge block e of the index column and of the data rows and holds node block b of the
    output; its first grid coordinate is b. -/
theorem idx_facts3 : ∀ t : Fin cfg3.N,
    win3_0.index t (0 : Fin 2) = t.val % 20 ∧ win3_0.index t (1 : Fin 2) = 0
    ∧ win3_1.index t (0 : Fin 2) = t.val % 20 ∧ win3_1.index t (1 : Fin 2) = 0
    ∧ win3_2.index t (0 : Fin 2) = t.val / 20 ∧ win3_2.index t (1 : Fin 2) = 0
    ∧ (grid3.coords t 0).val = t.val / 20 :=
  (by decide +kernel : ∀ t : Fin grid3.N, _)

/-- Point 20 b + e is a point of the grid. -/
theorem lt_N3 {b e : ℕ} (hb : b < 10) (he : e < 20) : b * 20 + e < cfg3.N := by
  rw [show cfg3.N = 200 from N_3]; omega

/-- Row k of edge block e is a row of the edge arrays. -/
theorem row_lt3 {e : ℕ} (he : e < 20) (k : Fin 8000) : e * 8000 + k.val < 160000 := by
  have := k.isLt; omega

/-! ## The sums -/

/-- What edge block `e` adds to the entry of node row `r` and column `q`: the sum over the block's rows of the one-hot
    entry times the data entry. -/
def part3 (ids : IVec S160000x1 32) (hs : FVec Ideal S160000x300 .bf16) (r : ℕ) (q : Fin 300) (e : ℕ) : EReal :=
  if he : e < 20 then
    ∑ k : Fin 8000, (if ids (ix2 ⟨e * 8000 + k.val, row_lt3 he k⟩ (0 : Fin 1)) = BitVec.ofNat 32 r then (1 : EReal) else 0)
      * hs (ix2 ⟨e * 8000 + k.val, row_lt3 he k⟩ q)
  else 0

/-- The array the region leaves: entry (n, q) is 0 plus the sum of the data rows whose index word, read signed, is n. -/
def segOut3 (ids : IVec S160000x1 32) (hs : FVec Ideal S160000x300 .bf16) : FVec Ideal S10240x300 .f32 := fun x =>
  0 + ∑ p : Fin 160000, if (ids (ix2 p (0 : Fin 1))).toInt = ((x 0).val : Int) then hs (ix2 p (x 1)) else 0

theorem segOut3_apply (ids : IVec S160000x1 32) (hs : FVec Ideal S160000x300 .bf16) (x : S10240x300.Idx) (r : ℕ)
    (q : Fin 300) (h0 : (x 0).val = r) (h1 : x 1 = q) :
    segOut3 ids hs x
      = 0 + ∑ p : Fin 160000, if (ids (ix2 p (0 : Fin 1))).toInt = (r : Int) then hs (ix2 p q) else 0 := by
  subst h1
  subst h0
  rfl

/-- The 20 edge blocks' parts add up to the sum over all rows, the one-hot entry read as the signed comparison: a row
    number below 2^31 is the word's signed reading exactly when the word is the row number's word. -/
theorem parts_sum3 (ids : IVec S160000x1 32) (hs : FVec Ideal S160000x300 .bf16) (r : ℕ) (hr : r < 2 ^ 31)
    (q : Fin 300) :
    ∑ e ∈ Finset.range 20, part3 ids hs r q e
      = ∑ p : Fin 160000, if (ids (ix2 p (0 : Fin 1))).toInt = (r : Int) then hs (ix2 p q) else 0 := by
  have hb := Cert.Math.block_sum 20 8000
    (fun p : Fin 160000 => (if ids (ix2 p (0 : Fin 1)) = BitVec.ofNat 32 r then (1 : EReal) else 0) * hs (ix2 p q))
  rw [Finset.sum_range]
  calc ∑ b : Fin 20, part3 ids hs r q b.val
      = ∑ b : Fin 20, ∑ k : Fin 8000,
          (fun p : Fin 160000 => (if ids (ix2 p (0 : Fin 1)) = BitVec.ofNat 32 r then (1 : EReal) else 0) * hs (ix2 p q))
            ⟨b.val * 8000 + k.val, Cert.Math.block_lt b k⟩ := by
        refine Finset.sum_congr rfl fun b _ => ?_
        unfold part3
        rw [dif_pos b.isLt] <;> rfl
    _ = ∑ p : Fin 160000, (if ids (ix2 p (0 : Fin 1)) = BitVec.ofNat 32 r then (1 : EReal) else 0) * hs (ix2 p q) := hb
    _ = _ := by
        refine Finset.sum_congr rfl fun p _ => ?_
        by_cases h : ids (ix2 p (0 : Fin 1)) = BitVec.ofNat 32 r
        · rw [if_pos h, if_pos ((Cert.Math.eq_ofNat_iff_toInt _ r hr).mp h), one_mul]
        · rw [if_neg h, if_neg (fun h' => h ((Cert.Math.eq_ofNat_iff_toInt _ r hr).mpr h')), zero_mul]

section Value
-- the TensorCore's buffer contents when the region is entered
variable (V : (c : Dev nD) → (b : Ref sig .tc) → Buf (Elt Ideal) ((c : Thread nD τ).loc b))

/-- The index column and the data rows as the region finds them. -/
abbrev idsOf3 (c : Dev nD) : IVec S160000x1 32 := V c (Pipeline.arrRef spec3 0)
abbrev rowsOf3 (c : Dev nD) : FVec Ideal S160000x300 .bf16 := V c (Pipeline.arrRef spec3 1)

/-! ## The input blocks, read off their arrays -/

/-- Row k of the index block at point t is row (t % 20) * 8000 + k of the index column. -/
theorem iblk3_0_apply (c : Dev nD) (t : Fin cfg3.N) (k : Fin 8000) :
    (iblk3 V c 0 t : IVec S8000x1 32) (ix2 k (0 : Fin 1))
      = idsOf3 V c (ix2 ⟨t.val % 20 * 8000 + k.val, row_lt3 (Nat.mod_lt _ (by decide)) k⟩ (0 : Fin 1)) := by
  obtain ⟨e0, e1, -⟩ := idx_facts3 t
  show V c (Pipeline.arrRef spec3 0) (((cfg3.win 0).blk t).view.emb (ix2 k (0 : Fin 1))) = V c (Pipeline.arrRef spec3 0) _
  refine congrArg (V c (Pipeline.arrRef spec3 0)) (funext fun a => Fin.ext ?_)
  match a with
  | ⟨0, _⟩ =>
    show win3_0.index t (0 : Fin 2) * 8000 + 1 * k.val = t.val % 20 * 8000 + k.val
    omega
  | ⟨1, _⟩ =>
    show win3_0.index t (1 : Fin 2) * 1 + 1 * 0 = 0
    omega

/-- Entry (k, q) of the data block at point t is entry ((t % 20) * 8000 + k, q) of the data rows. -/
theorem iblk3_1_apply (c : Dev nD) (t : Fin cfg3.N) (k : Fin 8000) (q : Fin 300) :
    (iblk3 V c 1 t : FVec Ideal S8000x300 .bf16) (ix2 k q)
      = rowsOf3 V c (ix2 ⟨t.val % 20 * 8000 + k.val, row_lt3 (Nat.mod_lt _ (by decide)) k⟩ q) := by
  obtain ⟨-, -, e2, e3, -⟩ := idx_facts3 t
  show V c (Pipeline.arrRef spec3 1) (((cfg3.win 1).blk t).view.emb (ix2 k q)) = V c (Pipeline.arrRef spec3 1) _
  refine congrArg (V c (Pipeline.arrRef spec3 1)) (funext fun a => Fin.ext ?_)
  match a with
  | ⟨0, _⟩ =>
    show win3_1.index t (0 : Fin 2) * 8000 + 1 * k.val = t.val % 20 * 8000 + k.val
    omega
  | ⟨1, _⟩ =>
    show win3_1.index t (1 : Fin 2) * 300 + 1 * q.val = q.val
    omega

/-! ## The accumulator -/

/-- The accumulator's reset value is zero everywhere. -/
theorem pay3_apply (x : S1024x300.Idx) : k3_pay1 (F := Ideal) x = 0 := by
  unfold k3_pay1
  simp only [shapeCast_self]
  exact Ideal.ofBits_zero_f32

/-- The accumulator after two positions that are the same number is the same. -/
theorem outsAt3_congr (c : Dev nD) {a b : ℕ} (hab : a = b) (ha : a < cfg3.N) (hb : b < cfg3.N) :
    outsAt3 V c a ha = outsAt3 V c b hb := by
  subst hab; rfl

/-- One point's step at an entry: zero at a node block's first edge block, the previous accumulator elsewhere, plus
    the point's edge block's part. -/
theorem acc3_point (c : Dev nD) (a : ℕ) (ha : a < cfg3.N) (j : Fin 1024) (q : Fin 300) :
    (outsAt3 V c a ha).2 (ix2 j q)
      = (if a % 20 = 0 then (0 : EReal)
          else (outsAt3 V c (a - 1) (Nat.lt_of_le_of_lt (Nat.sub_le _ _) ha)).2 (ix2 j q))
        + part3 (idsOf3 V c) (rowsOf3 V c) (a / 20 * 1024 + j.val) q (a % 20) := by
  have hstep := scratch_step3 V c ⟨a, ha⟩
  obtain ⟨-, -, -, -, -, -, e6⟩ := idx_facts3 ⟨a, ha⟩
  -- the point's one-hot product, read off the arrays, is the point's edge block's part
  have hpart : ∑ k : Fin 8000,
        (if (iblk3 V c 0 ⟨a, ha⟩ : IVec S8000x1 32) (ix2 k (0 : Fin 1))
            = BitVec.ofNat 32 ((grid3.coords ⟨a, ha⟩ 0).val * 1024 + j.val) then (1 : EReal) else 0)
          * (iblk3 V c 1 ⟨a, ha⟩ : FVec Ideal S8000x300 .bf16) (ix2 k q)
      = part3 (idsOf3 V c) (rowsOf3 V c) (a / 20 * 1024 + j.val) q (a % 20) := by
    unfold part3
    rw [dif_pos (Nat.mod_lt a (by decide : 0 < 20))]
    refine Finset.sum_congr rfl fun k _ => ?_
    rw [iblk3_0_apply V c ⟨a, ha⟩ k, iblk3_1_apply V c ⟨a, ha⟩ k q, e6] <;> rfl
  by_cases h : a % 20 = 0
  · rw [if_pos h]
    rw [if_pos h] at hstep
    rw [show (outsAt3 V c a ha).2 = _ from hstep, k3_pay2_apply, pay3_apply, hpart]
  · rw [if_neg h]
    rw [if_neg h] at hstep
    rw [show (outsAt3 V c a ha).2 = _ from hstep, k3_pay2_apply, hpart] <;> rfl

/-- After edge block e of node block b (position a = 20 b + e) the accumulator holds 0 plus the parts of edge blocks
    0 … e. -/
theorem acc3_fold (c : Dev nD) (b : ℕ) (hb : b < 10) (j : Fin 1024) (q : Fin 300) :
    ∀ (e : ℕ) (he : e < 20) (a : ℕ) (ha : a < cfg3.N), a = b * 20 + e →
      (outsAt3 V c a ha).2 (ix2 j q)
        = 0 + ∑ e' ∈ Finset.range (e + 1), part3 (idsOf3 V c) (rowsOf3 V c) (b * 1024 + j.val) q e'
  | 0, he, a, ha, hab => by
    have h1 : a / 20 = b := by omega
    have h2 : a % 20 = 0 := by omega
    rw [acc3_point, if_pos h2, h1, h2]
    simp only [Finset.sum_range_succ, Finset.sum_range_zero, zero_add]
  | e + 1, he, a, ha, hab => by
    have h1 : a / 20 = b := by omega
    have h2 : a % 20 = e + 1 := by omega
    rw [acc3_point, if_neg (show ¬ a % 20 = 0 by omega), h1, h2,
      acc3_fold c b hb j q e (by omega) (a - 1) _ (by omega), Finset.sum_range_succ _ (e + 1), add_assoc]

/-! ## What a flushing point writes back -/

/-- The last point of node block b writes back the 1024 rows from row 1024 b on of `segOut3`. -/
theorem flushed3_eq (c : Dev nD) (t : Fin cfg3.N) (hf : (cfg3.win 2).flush t = true) :
    (dat3 V c).flushed 2 t
      = ((cfg3.win 2).blk t).view.read (Elt Ideal) (segOut3 (idsOf3 V c) (rowsOf3 V c)) := by
  have h19 : t.val % 20 = 19 := (flush3_2 t).mp hf
  obtain ⟨-, -, -, -, e4, e5, -⟩ := idx_facts3 t
  have hN : t.val < 200 := by
    have h200 : cfg3.N = 200 := N_3
    have := t.isLt
    omega
  have hn : t.val / 20 < 10 := by omega
  show (cfg3.win 2).cut (grid3.coords t) ((dat3 V c).after 2 t) = _
  rw [after3_2, out_flush3 V c t h19]
  funext x
  obtain ⟨j, q, rfl⟩ : ∃ (j : Fin 1024) (q : Fin 300), x = ix2 j q := ⟨x 0, x 1, eq_ix2 x⟩
  show (outsAt3 V c t.val t.isLt).2 (ix2 j q)
    = segOut3 (idsOf3 V c) (rowsOf3 V c) (((cfg3.win 2).blk t).view.emb (ix2 j q))
  have hx0 : ((((cfg3.win 2).blk t).view.emb (ix2 j q)) 0).val = t.val / 20 * 1024 + j.val := by
    show win3_2.index t (0 : Fin 2) * 1024 + 1 * j.val = _
    omega
  have hx1 : (((cfg3.win 2).blk t).view.emb (ix2 j q)) 1 = q := by
    apply Fin.ext
    show win3_2.index t (1 : Fin 2) * 300 + 1 * q.val = q.val
    omega
  have hr : t.val / 20 * 1024 + j.val < 2 ^ 31 := by have := j.isLt; omega
  rw [segOut3_apply _ _ _ (t.val / 20 * 1024 + j.val) q hx0 hx1,
    acc3_fold V c (t.val / 20) hn j q 19 (by decide) t.val t.isLt (by omega)]
  show (0 : EReal) + ∑ e ∈ Finset.range 20, part3 (idsOf3 V c) (rowsOf3 V c) (t.val / 20 * 1024 + j.val) q e = _
  rw [parts_sum3 (idsOf3 V c) (rowsOf3 V c) (t.val / 20 * 1024 + j.val) hr q]

/-! ## The 10 node blocks tile the array -/

/-- An index of the array is in point `t`'s block iff each coordinate is in the block's range on its axis. -/
theorem mem_blk3 (t : Fin cfg3.N) (i : S10240x300.Idx) :
    i ∈ ((cfg3.win 2).blk t).view.set ↔ ∀ a : Fin 2, win3_2.index t a * S1024x300.size a ≤ (i a).val
      ∧ (i a).val < win3_2.index t a * S1024x300.size a + S1024x300.size a := by
  show i ∈ ((View.whole main_v231).slice (win3_2.rect t)).set ↔ _
  rw [View.set_slice_whole, Rect.mem_set_unit]
  exact Iff.rfl

/-- Row r of the array is in the block the last point of node block r / 1024 writes back. -/
theorem cover3 (i : S10240x300.Idx) :
    ∃ t : Fin cfg3.N, (cfg3.win 2).flush t = true ∧ i ∈ ((cfg3.win 2).blk t).view.set := by
  have hi0 : (i 0).val < 10240 := idx2_lt0 i
  have hi1 : (i 1).val < 300 := idx2_lt1 i
  have hn : (i 0).val / 1024 < 10 := by omega
  obtain ⟨t, ht⟩ : ∃ t : Fin cfg3.N, t.val = (i 0).val / 1024 * 20 + 19 := ⟨⟨_, lt_N3 hn (by decide)⟩, rfl⟩
  refine ⟨t, (flush3_2 t).mpr (by omega), ?_⟩
  rw [mem_blk3]
  obtain ⟨-, -, -, -, e4, e5, -⟩ := idx_facts3 t
  intro a
  match a with
  | ⟨0, _⟩ =>
    show win3_2.index t (0 : Fin 2) * 1024 ≤ (i 0).val ∧ (i 0).val < win3_2.index t (0 : Fin 2) * 1024 + 1024
    omega
  | ⟨1, _⟩ =>
    show win3_2.index t (1 : Fin 2) * 300 ≤ (i 1).val ∧ (i 1).val < win3_2.index t (1 : Fin 2) * 300 + 300
    omega

/-! ## The array after the region -/

/-- THE ARRAY after the region: the segment sum of the data rows by the index column. -/
theorem out3_val (c : Dev nD) :
    (dat3 (F := Ideal) V c).arrAt 2 cfg3.N = segOut3 (idsOf3 V c) (rowsOf3 V c) :=
  (dat3 V c).arrAt_eq_of_cover 2 (segOut3 (idsOf3 V c) (rowsOf3 V c)) (fun t hf => flushed3_eq V c t hf) cover3

/-- The output array after the region, at its element type. -/
abbrev outOf3 (c : Dev nD) : FVec Ideal S10240x300 .f32 := (dat3 (F := Ideal) V c).arrAt 2 cfg3.N

/-- Entry (n, q) of the array after the region: 0 plus the sum of the data rows whose index word, read signed, is n. -/
theorem val3 (c : Dev nD) (n : Fin 10240) (q : Fin 300) :
    outOf3 V c (ix2 n q)
      = 0 + ∑ p : Fin 160000,
          if (idsOf3 V c (ix2 p (0 : Fin 1))).toInt = (n.val : Int) then rowsOf3 V c (ix2 p q) else 0 :=
  (congrFun (out3_val V c) (ix2 n q)).trans
    (segOut3_apply (idsOf3 V c) (rowsOf3 V c) (ix2 n q) n.val q rfl rfl)

end Value

end Cert.KernelIdeal.Reg3
-- ==== Proof.KI.Reg4Payload.lean ====
/-
  The region's accumulator payload read at an index, at the ideal values: the accumulator there plus the sum, over the
  2000 rows of the point's edge block, of (1 where the row's index word is the node's row number, 0 elsewhere) times
  the data entry.  The payload is the one-hot segment-sum product of Math/OneHotMatmul.lean at this region's sizes.
-/
import proofs.«411400_j9251359555630_1_alg».proof.Proof.Gen.KernelIdeal.Skeleton
import proofs.«411400_j9251359555630_1_alg».proof.Proof.Math.OneHotMatmul

noncomputable section

namespace Cert.KernelIdeal.Reg4

open Cert.KernelIdeal Cert.KernelIdeal.Gen
open Idealize.ShloMosaic Idealize.ShloMosaic.ValueIdx Idealize.SL.Sem
open scoped BigOperators

/-- The payload is the accumulator plus the transposed one-hot matrix of the index block (against the rows
    `64 * i₀ + 0, 64 * i₀ + 1, …` of node block `i₀`) times the data block: the shape casts are identities. -/
theorem k4_pay2_eq_segPay {F : FTy → Type} [FloatOps F] (i : grid4.Coords) (v7 : Vec F S2000x1 .i32)
    (v15 : Vec F S2000x300 .bf16) (v18 : Vec F S64x300 .f32) :
    k4_pay2 (F := F) i v7 v15 v18
      = Cert.Math.segPay dot_S2000x64_S2000x300_S64x300_0_0_1_1_n_n iota_S1x64_d1_w32
          broadcasts_S2000x1_S2000x64 broadcasts_S1x64_S2000x64 natLt_1_32 bitsLt_bf16_f32
          (Scalar.muli (BitVec.ofNat 32 (i 0).val) 64#32) v7 v15 v18 := by
  unfold k4_pay2 Cert.Math.segPay
  simp only [shapeCast_self] <;> rfl

/-- The payload at entry (j, q) of the node block. -/
theorem k4_pay2_apply (i : grid4.Coords) (ids : IVec S2000x1 32) (hb : FVec Ideal S2000x300 .bf16)
    (acc : FVec Ideal S64x300 .f32) (j : Fin 64) (q : Fin 300) :
    k4_pay2 (F := Ideal) i ids hb acc (ix2 j q)
      = acc (ix2 j q) + ∑ k : Fin 2000,
          (if ids (ix2 k (0 : Fin 1)) = BitVec.ofNat 32 ((i 0).val * 64 + j.val) then (1 : EReal) else 0) * hb (ix2 k q) := by
  rw [k4_pay2_eq_segPay, Cert.Math.segPay_apply dot_S2000x64_S2000x300_S64x300_0_0_1_1_n_n rfl rfl rfl rfl rfl rfl]
  rw [show IntOp.addi (Scalar.muli (BitVec.ofNat 32 (i 0).val) 64#32) (BitVec.ofNat 32 j.val)
      = BitVec.ofNat 32 ((i 0).val * 64 + j.val) from Cert.Math.base_add_lane _ _ _]

end Cert.KernelIdeal.Reg4
-- ==== Proof.KI.Reg4Value.lean ====
/-
  What this region leaves in its output array, at the ideal values: entry (n, q) is 0 plus the sum, over all 10000 edge
  rows p, of the data entry (p, q) where the index word of row p, read signed, is n, and of 0 elsewhere.

  The accumulator of node block b starts from zeros at the block's first edge block and adds, at edge block e, the
  one-hot product of that block's 2000 rows; after the 5 edge blocks it holds the sum over all 5 * 2000 rows, and that
  is what the last of the 5 points writes back as the 64 rows from row 64 b on of the array.  The 1 node blocks
  tile the array's 64 rows.
-/
import proofs.«411400_j9251359555630_1_alg».proof.Proof.Gen.KernelIdeal.Points
import proofs.«411400_j9251359555630_1_alg».proof.Proof.Gen.KernelIdeal.Launch
import proofs.«411400_j9251359555630_1_alg».proof.Proof.KI.Reg4
import proofs.«411400_j9251359555630_1_alg».proof.Proof.KI.Reg4Payload
import proofs.«411400_j9251359555630_1_alg».proof.Proof.Math.SegSum
import Idealize.ShloMosaic.Lib.Pipeline.Value
import Idealize.ShloMosaic.Lib.ValueIdx

set_option maxRecDepth 16384

noncomputable section

namespace Cert.KernelIdeal.Reg4

open Cert.KernelIdeal Cert.KernelIdeal.Gen
open Idealize.ShloMosaic Idealize.ShloMosaic.TcCoe Idealize.SL.Sem Idealize.ShloMosaic.ValueIdx
open Idealize.ShloMosaic.Pipeline (Dat)
open scoped BigOperators

/-! ## The printed index maps over the grid -/

/-- Point t = 5 b + e reads edge block e of the index column and of the data rows and holds node block b of the
    output; its first grid coordinate is b. -/
theorem idx_facts4 : ∀ t : Fin cfg4.N,
    win4_0.index t (0 : Fin 2) = t.val % 5 ∧ win4_0.index t (1 : Fin 2) = 0
    ∧ win4_1.index t (0 : Fin 2) = t.val % 5 ∧ win4_1.index t (1 : Fin 2) = 0
    ∧ win4_2.index t (0 : Fin 2) = t.val / 5 ∧ win4_2.index t (1 : Fin 2) = 0
    ∧ (grid4.coords t 0).val = t.val / 5 :=
  (by decide +kernel : ∀ t : Fin grid4.N, _)

/-- Point 5 b + e is a point of the grid. -/
theorem lt_N4 {b e : ℕ} (hb : b < 1) (he : e < 5) : b * 5 + e < cfg4.N := by
  rw [show cfg4.N = 5 from N_4]; omega

/-- Row k of edge block e is a row of the edge arrays. -/
theorem row_lt4 {e : ℕ} (he : e < 5) (k : Fin 2000) : e * 2000 + k.val < 10000 := by
  have := k.isLt; omega

/-! ## The sums -/

/-- What edge block `e` adds to the entry of node row `r` and column `q`: the sum over the block's rows of the one-hot
    entry times the data entry. -/
def part4 (ids : IVec S10000x1 32) (hs : FVec Ideal S10000x300 .bf16) (r : ℕ) (q : Fin 300) (e : ℕ) : EReal :=
  if he : e < 5 then
    ∑ k : Fin 2000, (if ids (ix2 ⟨e * 2000 + k.val, row_lt4 he k⟩ (0 : Fin 1)) = BitVec.ofNat 32 r then (1 : EReal) else 0)
      * hs (ix2 ⟨e * 2000 + k.val, row_lt4 he k⟩ q)
  else 0

/-- The array the region leaves: entry (n, q) is 0 plus the sum of the data rows whose index word, read signed, is n. -/
def segOut4 (ids : IVec S10000x1 32) (hs : FVec Ideal S10000x300 .bf16) : FVec Ideal S64x300 .f32 := fun x =>
  0 + ∑ p : Fin 10000, if (ids (ix2 p (0 : Fin 1))).toInt = ((x 0).val : Int) then hs (ix2 p (x 1)) else 0

theorem segOut4_apply (ids : IVec S10000x1 32) (hs : FVec Ideal S10000x300 .bf16) (x : S64x300.Idx) (r : ℕ)
    (q : Fin 300) (h0 : (x 0).val = r) (h1 : x 1 = q) :
    segOut4 ids hs x
      = 0 + ∑ p : Fin 10000, if (ids (ix2 p (0 : Fin 1))).toInt = (r : Int) then hs (ix2 p q) else 0 := by
  subst h1
  subst h0
  rfl

/-- The 5 edge blocks' parts add up to the sum over all rows, the one-hot entry read as the signed comparison: a row
    number below 2^31 is the word's signed reading exactly when the word is the row number's word. -/
theorem parts_sum4 (ids : IVec S10000x1 32) (hs : FVec Ideal S10000x300 .bf16) (r : ℕ) (hr : r < 2 ^ 31)
    (q : Fin 300) :
    ∑ e ∈ Finset.range 5, part4 ids hs r q e
      = ∑ p : Fin 10000, if (ids (ix2 p (0 : Fin 1))).toInt = (r : Int) then hs (ix2 p q) else 0 := by
  have hb := Cert.Math.block_sum 5 2000
    (fun p : Fin 10000 => (if ids (ix2 p (0 : Fin 1)) = BitVec.ofNat 32 r then (1 : EReal) else 0) * hs (ix2 p q))
  rw [Finset.sum_range]
  calc ∑ b : Fin 5, part4 ids hs r q b.val
      = ∑ b : Fin 5, ∑ k : Fin 2000,
          (fun p : Fin 10000 => (if ids (ix2 p (0 : Fin 1)) = BitVec.ofNat 32 r then (1 : EReal) else 0) * hs (ix2 p q))
            ⟨b.val * 2000 + k.val, Cert.Math.block_lt b k⟩ := by
        refine Finset.sum_congr rfl fun b _ => ?_
        unfold part4
        rw [dif_pos b.isLt] <;> rfl
    _ = ∑ p : Fin 10000, (if ids (ix2 p (0 : Fin 1)) = BitVec.ofNat 32 r then (1 : EReal) else 0) * hs (ix2 p q) := hb
    _ = _ := by
        refine Finset.sum_congr rfl fun p _ => ?_
        by_cases h : ids (ix2 p (0 : Fin 1)) = BitVec.ofNat 32 r
        · rw [if_pos h, if_pos ((Cert.Math.eq_ofNat_iff_toInt _ r hr).mp h), one_mul]
        · rw [if_neg h, if_neg (fun h' => h ((Cert.Math.eq_ofNat_iff_toInt _ r hr).mpr h')), zero_mul]

section Value
-- the TensorCore's buffer contents when the region is entered
variable (V : (c : Dev nD) → (b : Ref sig .tc) → Buf (Elt Ideal) ((c : Thread nD τ).loc b))

/-- The index column and the data rows as the region finds them. -/
abbrev idsOf4 (c : Dev nD) : IVec S10000x1 32 := V c (Pipeline.arrRef spec4 0)
abbrev rowsOf4 (c : Dev nD) : FVec Ideal S10000x300 .bf16 := V c (Pipeline.arrRef spec4 1)

/-! ## The input blocks, read off their arrays -/

/-- Row k of the index block at point t is row (t % 5) * 2000 + k of the index column. -/
theorem iblk4_0_apply (c : Dev nD) (t : Fin cfg4.N) (k : Fin 2000) :
    (iblk4 V c 0 t : IVec S2000x1 32) (ix2 k (0 : Fin 1))
      = idsOf4 V c (ix2 ⟨t.val % 5 * 2000 + k.val, row_lt4 (Nat.mod_lt _ (by decide)) k⟩ (0 : Fin 1)) := by
  obtain ⟨e0, e1, -⟩ := idx_facts4 t
  show V c (Pipeline.arrRef spec4 0) (((cfg4.win 0).blk t).view.emb (ix2 k (0 : Fin 1))) = V c (Pipeline.arrRef spec4 0) _
  refine congrArg (V c (Pipeline.arrRef spec4 0)) (funext fun a => Fin.ext ?_)
  match a with
  | ⟨0, _⟩ =>
    show win4_0.index t (0 : Fin 2) * 2000 + 1 * k.val = t.val % 5 * 2000 + k.val
    omega
  | ⟨1, _⟩ =>
    show win4_0.index t (1 : Fin 2) * 1 + 1 * 0 = 0
    omega

/-- Entry (k, q) of the data block at point t is entry ((t % 5) * 2000 + k, q) of the data rows. -/
theorem iblk4_1_apply (c : Dev nD) (t : Fin cfg4.N) (k : Fin 2000) (q : Fin 300) :
    (iblk4 V c 1 t : FVec Ideal S2000x300 .bf16) (ix2 k q)
      = rowsOf4 V c (ix2 ⟨t.val % 5 * 2000 + k.val, row_lt4 (Nat.mod_lt _ (by decide)) k⟩ q) := by
  obtain ⟨-, -, e2, e3, -⟩ := idx_facts4 t
  show V c (Pipeline.arrRef spec4 1) (((cfg4.win 1).blk t).view.emb (ix2 k q)) = V c (Pipeline.arrRef spec4 1) _
  refine congrArg (V c (Pipeline.arrRef spec4 1)) (funext fun a => Fin.ext ?_)
  match a with
  | ⟨0, _⟩ =>
    show win4_1.index t (0 : Fin 2) * 2000 + 1 * k.val = t.val % 5 * 2000 + k.val
    omega
  | ⟨1, _⟩ =>
    show win4_1.index t (1 : Fin 2) * 300 + 1 * q.val = q.val
    omega

/-! ## The accumulator -/

/-- The accumulator's reset value is zero everywhere. -/
theorem pay4_apply (x : S64x300.Idx) : k4_pay1 (F := Ideal) x = 0 := by
  unfold k4_pay1
  simp only [shapeCast_self]
  exact Ideal.ofBits_zero_f32

/-- The accumulator after two positions that are the same number is the same. -/
theorem outsAt4_congr (c : Dev nD) {a b : ℕ} (hab : a = b) (ha : a < cfg4.N) (hb : b < cfg4.N) :
    outsAt4 V c a ha = outsAt4 V c b hb := by
  subst hab; rfl

/-- One point's step at an entry: zero at a node block's first edge block, the previous accumulator elsewhere, plus
    the point's edge block's part. -/
theorem acc4_point (c : Dev nD) (a : ℕ) (ha : a < cfg4.N) (j : Fin 64) (q : Fin 300) :
    (outsAt4 V c a ha).2 (ix2 j q)
      = (if a % 5 = 0 then (0 : EReal)
          else (outsAt4 V c (a - 1) (Nat.lt_of_le_of_lt (Nat.sub_le _ _) ha)).2 (ix2 j q))
        + part4 (idsOf4 V c) (rowsOf4 V c) (a / 5 * 64 + j.val) q (a % 5) := by
  have hstep := scratch_step4 V c ⟨a, ha⟩
  obtain ⟨-, -, -, -, -, -, e6⟩ := idx_facts4 ⟨a, ha⟩
  -- the point's one-hot product, read off the arrays, is the point's edge block's part
  have hpart : ∑ k : Fin 2000,
        (if (iblk4 V c 0 ⟨a, ha⟩ : IVec S2000x1 32) (ix2 k (0 : Fin 1))
            = BitVec.ofNat 32 ((grid4.coords ⟨a, ha⟩ 0).val * 64 + j.val) then (1 : EReal) else 0)
          * (iblk4 V c 1 ⟨a, ha⟩ : FVec Ideal S2000x300 .bf16) (ix2 k q)
      = part4 (idsOf4 V c) (rowsOf4 V c) (a / 5 * 64 + j.val) q (a % 5) := by
    unfold part4
    rw [dif_pos (Nat.mod_lt a (by decide : 0 < 5))]
    refine Finset.sum_congr rfl fun k _ => ?_
    rw [iblk4_0_apply V c ⟨a, ha⟩ k, iblk4_1_apply V c ⟨a, ha⟩ k q, e6] <;> rfl
  by_cases h : a % 5 = 0
  · rw [if_pos h]
    rw [if_pos h] at hstep
    rw [show (outsAt4 V c a ha).2 = _ from hstep, k4_pay2_apply, pay4_apply, hpart]
  · rw [if_neg h]
    rw [if_neg h] at hstep
    rw [show (outsAt4 V c a ha).2 = _ from hstep, k4_pay2_apply, hpart] <;> rfl

/-- After edge block e of node block b (position a = 5 b + e) the accumulator holds 0 plus the parts of edge blocks
    0 … e. -/
theorem acc4_fold (c : Dev nD) (b : ℕ) (hb : b < 1) (j : Fin 64) (q : Fin 300) :
    ∀ (e : ℕ) (he : e < 5) (a : ℕ) (ha : a < cfg4.N), a = b * 5 + e →
      (outsAt4 V c a ha).2 (ix2 j q)
        = 0 + ∑ e' ∈ Finset.range (e + 1), part4 (idsOf4 V c) (rowsOf4 V c) (b * 64 + j.val) q e'
  | 0, he, a, ha, hab => by
    have h1 : a / 5 = b := by omega
    have h2 : a % 5 = 0 := by omega
    rw [acc4_point, if_pos h2, h1, h2]
    simp only [Finset.sum_range_succ, Finset.sum_range_zero, zero_add]
  | e + 1, he, a, ha, hab => by
    have h1 : a / 5 = b := by omega
    have h2 : a % 5 = e + 1 := by omega
    rw [acc4_point, if_neg (show ¬ a % 5 = 0 by omega), h1, h2,
      acc4_fold c b hb j q e (by omega) (a - 1) _ (by omega), Finset.sum_range_succ _ (e + 1), add_assoc]

/-! ## What a flushing point writes back -/

/-- The last point of node block b writes back the 64 rows from row 64 b on of `segOut4`. -/
theorem flushed4_eq (c : Dev nD) (t : Fin cfg4.N) (hf : (cfg4.win 2).flush t = true) :
    (dat4 V c).flushed 2 t
      = ((cfg4.win 2).blk t).view.read (Elt Ideal) (segOut4 (idsOf4 V c) (rowsOf4 V c)) := by
  have h19 : t.val % 5 = 4 := (flush4_2 t).mp hf
  obtain ⟨-, -, -, -, e4, e5, -⟩ := idx_facts4 t
  have hN : t.val < 5 := by
    have h200 : cfg4.N = 5 := N_4
    have := t.isLt
    omega
  have hn : t.val / 5 < 1 := by omega
  show (cfg4.win 2).cut (grid4.coords t) ((dat4 V c).after 2 t) = _
  rw [after4_2, out_flush4 V c t h19]
  funext x
  obtain ⟨j, q, rfl⟩ : ∃ (j : Fin 64) (q : Fin 300), x = ix2 j q := ⟨x 0, x 1, eq_ix2 x⟩
  show (outsAt4 V c t.val t.isLt).2 (ix2 j q)
    = segOut4 (idsOf4 V c) (rowsOf4 V c) (((cfg4.win 2).blk t).view.emb (ix2 j q))
  have hx0 : ((((cfg4.win 2).blk t).view.emb (ix2 j q)) 0).val = t.val / 5 * 64 + j.val := by
    show win4_2.index t (0 : Fin 2) * 64 + 1 * j.val = _
    omega
  have hx1 : (((cfg4.win 2).blk t).view.emb (ix2 j q)) 1 = q := by
    apply Fin.ext
    show win4_2.index t (1 : Fin 2) * 300 + 1 * q.val = q.val
    omega
  have hr : t.val / 5 * 64 + j.val < 2 ^ 31 := by have := j.isLt; omega
  rw [segOut4_apply _ _ _ (t.val / 5 * 64 + j.val) q hx0 hx1,
    acc4_fold V c (t.val / 5) hn j q 4 (by decide) t.val t.isLt (by omega)]
  show (0 : EReal) + ∑ e ∈ Finset.range 5, part4 (idsOf4 V c) (rowsOf4 V c) (t.val / 5 * 64 + j.val) q e = _
  rw [parts_sum4 (idsOf4 V c) (rowsOf4 V c) (t.val / 5 * 64 + j.val) hr q]

/-! ## The 1 node blocks tile the array -/

/-- An index of the array is in point `t`'s block iff each coordinate is in the block's range on its axis. -/
theorem mem_blk4 (t : Fin cfg4.N) (i : S64x300.Idx) :
    i ∈ ((cfg4.win 2).blk t).view.set ↔ ∀ a : Fin 2, win4_2.index t a * S64x300.size a ≤ (i a).val
      ∧ (i a).val < win4_2.index t a * S64x300.size a + S64x300.size a := by
  show i ∈ ((View.whole main_v288).slice (win4_2.rect t)).set ↔ _
  rw [View.set_slice_whole, Rect.mem_set_unit]
  exact Iff.rfl

/-- Row r of the array is in the block the last point of node block r / 64 writes back. -/
theorem cover4 (i : S64x300.Idx) :
    ∃ t : Fin cfg4.N, (cfg4.win 2).flush t = true ∧ i ∈ ((cfg4.win 2).blk t).view.set := by
  have hi0 : (i 0).val < 64 := idx2_lt0 i
  have hi1 : (i 1).val < 300 := idx2_lt1 i
  have hn : (i 0).val / 64 < 1 := by omega
  obtain ⟨t, ht⟩ : ∃ t : Fin cfg4.N, t.val = (i 0).val / 64 * 5 + 4 := ⟨⟨_, lt_N4 hn (by decide)⟩, rfl⟩
  refine ⟨t, (flush4_2 t).mpr (by omega), ?_⟩
  rw [mem_blk4]
  obtain ⟨-, -, -, -, e4, e5, -⟩ := idx_facts4 t
  intro a
  match a with
  | ⟨0, _⟩ =>
    show win4_2.index t (0 : Fin 2) * 64 ≤ (i 0).val ∧ (i 0).val < win4_2.index t (0 : Fin 2) * 64 + 64
    omega
  | ⟨1, _⟩ =>
    show win4_2.index t (1 : Fin 2) * 300 ≤ (i 1).val ∧ (i 1).val < win4_2.index t (1 : Fin 2) * 300 + 300
    omega

/-! ## The array after the region -/

/-- THE ARRAY after the region: the segment sum of the data rows by the index column. -/
theorem out4_val (c : Dev nD) :
    (dat4 (F := Ideal) V c).arrAt 2 cfg4.N = segOut4 (idsOf4 V c) (rowsOf4 V c) :=
  (dat4 V c).arrAt_eq_of_cover 2 (segOut4 (idsOf4 V c) (rowsOf4 V c)) (fun t hf => flushed4_eq V c t hf) cover4

/-- The output array after the region, at its element type. -/
abbrev outOf4 (c : Dev nD) : FVec Ideal S64x300 .f32 := (dat4 (F := Ideal) V c).arrAt 2 cfg4.N

/-- Entry (n, q) of the array after the region: 0 plus the sum of the data rows whose index word, read signed, is n. -/
theorem val4 (c : Dev nD) (n : Fin 64) (q : Fin 300) :
    outOf4 V c (ix2 n q)
      = 0 + ∑ p : Fin 10000,
          if (idsOf4 V c (ix2 p (0 : Fin 1))).toInt = (n.val : Int) then rowsOf4 V c (ix2 p q) else 0 :=
  (congrFun (out4_val V c) (ix2 n q)).trans
    (segOut4_apply (idsOf4 V c) (rowsOf4 V c) (ix2 n q) n.val q rfl rfl)

end Value

end Cert.KernelIdeal.Reg4
-- ==== Proof.KI.Reg5Payload.lean ====
/-
  The region's accumulator payload read at an index, at the ideal values: the accumulator there plus the sum, over the
  8000 rows of the point's edge block, of (1 where the row's index word is the node's row number, 0 elsewhere) times
  the data entry.  The payload is the one-hot segment-sum product of Math/OneHotMatmul.lean at this region's sizes.
-/
import proofs.«411400_j9251359555630_1_alg».proof.Proof.Gen.KernelIdeal.Skeleton
import proofs.«411400_j9251359555630_1_alg».proof.Proof.Math.OneHotMatmul

noncomputable section

namespace Cert.KernelIdeal.Reg5

open Cert.KernelIdeal Cert.KernelIdeal.Gen
open Idealize.ShloMosaic Idealize.ShloMosaic.ValueIdx Idealize.SL.Sem
open scoped BigOperators

/-- The payload is the accumulator plus the transposed one-hot matrix of the index block (against the rows
    `1024 * i₀ + 0, 1024 * i₀ + 1, …` of node block `i₀`) times the data block: the shape casts are identities. -/
theorem k5_pay2_eq_segPay {F : FTy → Type} [FloatOps F] (i : grid5.Coords) (v7 : Vec F S8000x1 .i32)
    (v15 : Vec F S8000x300 .bf16) (v18 : Vec F S1024x300 .f32) :
    k5_pay2 (F := F) i v7 v15 v18
      = Cert.Math.segPay dot_S8000x1024_S8000x300_S1024x300_0_0_1_1_n_n iota_S1x1024_d1_w32
          broadcasts_S8000x1_S8000x1024 broadcasts_S1x1024_S8000x1024 natLt_1_32 bitsLt_bf16_f32
          (Scalar.muli (BitVec.ofNat 32 (i 0).val) 1024#32) v7 v15 v18 := by
  unfold k5_pay2 Cert.Math.segPay
  simp only [shapeCast_self] <;> rfl

/-- The payload at entry (j, q) of the node block. -/
theorem k5_pay2_apply (i : grid5.Coords) (ids : IVec S8000x1 32) (hb : FVec Ideal S8000x300 .bf16)
    (acc : FVec Ideal S1024x300 .f32) (j : Fin 1024) (q : Fin 300) :
    k5_pay2 (F := Ideal) i ids hb acc (ix2 j q)
      = acc (ix2 j q) + ∑ k : Fin 8000,
          (if ids (ix2 k (0 : Fin 1)) = BitVec.ofNat 32 ((i 0).val * 1024 + j.val) then (1 : EReal) else 0) * hb (ix2 k q) := by
  rw [k5_pay2_eq_segPay, Cert.Math.segPay_apply dot_S8000x1024_S8000x300_S1024x300_0_0_1_1_n_n rfl rfl rfl rfl rfl rfl]
  rw [show IntOp.addi (Scalar.muli (BitVec.ofNat 32 (i 0).val) 1024#32) (BitVec.ofNat 32 j.val)
      = BitVec.ofNat 32 ((i 0).val * 1024 + j.val) from Cert.Math.base_add_lane _ _ _]

end Cert.KernelIdeal.Reg5
-- ==== Proof.KI.Reg5Value.lean ====
/-
  What this region leaves in its output array, at the ideal values: entry (n, q) is 0 plus the sum, over all 160000 edge
  rows p, of the data entry (p, q) where the index word of row p, read signed, is n, and of 0 elsewhere.

  The accumulator of node block b starts from zeros at the block's first edge block and adds, at edge block e, the
  one-hot product of that block's 8000 rows; after the 20 edge blocks it holds the sum over all 20 * 8000 rows, and that
  is what the last of the 20 points writes back as the 1024 rows from row 1024 b on of the array.  The 10 node blocks
  tile the array's 10240 rows.
-/
import proofs.«411400_j9251359555630_1_alg».proof.Proof.Gen.KernelIdeal.Points
import proofs.«411400_j9251359555630_1_alg».proof.Proof.Gen.KernelIdeal.Launch
import proofs.«411400_j9251359555630_1_alg».proof.Proof.KI.Reg5
import proofs.«411400_j9251359555630_1_alg».proof.Proof.KI.Reg5Payload
import proofs.«411400_j9251359555630_1_alg».proof.Proof.Math.SegSum
import Idealize.ShloMosaic.Lib.Pipeline.Value
import Idealize.ShloMosaic.Lib.ValueIdx

set_option maxRecDepth 16384

noncomputable section

namespace Cert.KernelIdeal.Reg5

open Cert.KernelIdeal Cert.KernelIdeal.Gen
open Idealize.ShloMosaic Idealize.ShloMosaic.TcCoe Idealize.SL.Sem Idealize.ShloMosaic.ValueIdx
open Idealize.ShloMosaic.Pipeline (Dat)
open scoped BigOperators

/-! ## The printed index maps over the grid -/

/-- Point t = 20 b + e reads edge block e of the index column and of the data rows and holds node block b of the
    output; its first grid coordinate is b. -/
theorem idx_facts5 : ∀ t : Fin cfg5.N,
    win5_0.index t (0 : Fin 2) = t.val % 20 ∧ win5_0.index t (1 : Fin 2) = 0
    ∧ win5_1.index t (0 : Fin 2) = t.val % 20 ∧ win5_1.index t (1 : Fin 2) = 0
    ∧ win5_2.index t (0 : Fin 2) = t.val / 20 ∧ win5_2.index t (1 : Fin 2) = 0
    ∧ (grid5.coords t 0).val = t.val / 20 :=
  (by decide +kernel : ∀ t : Fin grid5.N, _)

/-- Point 20 b + e is a point of the grid. -/
theorem lt_N5 {b e : ℕ} (hb : b < 10) (he : e < 20) : b * 20 + e < cfg5.N := by
  rw [show cfg5.N = 200 from N_5]; omega

/-- Row k of edge block e is a row of the edge arrays. -/
theorem row_lt5 {e : ℕ} (he : e < 20) (k : Fin 8000) : e * 8000 + k.val < 160000 := by
  have := k.isLt; omega

/-! ## The sums -/

/-- What edge block `e` adds to the entry of node row `r` and column `q`: the sum over the block's rows of the one-hot
    entry times the data entry. -/
def part5 (ids : IVec S160000x1 32) (hs : FVec Ideal S160000x300 .bf16) (r : ℕ) (q : Fin 300) (e : ℕ) : EReal :=
  if he : e < 20 then
    ∑ k : Fin 8000, (if ids (ix2 ⟨e * 8000 + k.val, row_lt5 he k⟩ (0 : Fin 1)) = BitVec.ofNat 32 r then (1 : EReal) else 0)
      * hs (ix2 ⟨e * 8000 + k.val, row_lt5 he k⟩ q)
  else 0

/-- The array the region leaves: entry (n, q) is 0 plus the sum of the data rows whose index word, read signed, is n. -/
def segOut5 (ids : IVec S160000x1 32) (hs : FVec Ideal S160000x300 .bf16) : FVec Ideal S10240x300 .f32 := fun x =>
  0 + ∑ p : Fin 160000, if (ids (ix2 p (0 : Fin 1))).toInt = ((x 0).val : Int) then hs (ix2 p (x 1)) else 0

theorem segOut5_apply (ids : IVec S160000x1 32) (hs : FVec Ideal S160000x300 .bf16) (x : S10240x300.Idx) (r : ℕ)
    (q : Fin 300) (h0 : (x 0).val = r) (h1 : x 1 = q) :
    segOut5 ids hs x
      = 0 + ∑ p : Fin 160000, if (ids (ix2 p (0 : Fin 1))).toInt = (r : Int) then hs (ix2 p q) else 0 := by
  subst h1
  subst h0
  rfl

/-- The 20 edge blocks' parts add up to the sum over all rows, the one-hot entry read as the signed comparison: a row
    number below 2^31 is the word's signed reading exactly when the word is the row number's word. -/
theorem parts_sum5 (ids : IVec S160000x1 32) (hs : FVec Ideal S160000x300 .bf16) (r : ℕ) (hr : r < 2 ^ 31)
    (q : Fin 300) :
    ∑ e ∈ Finset.range 20, part5 ids hs r q e
      = ∑ p : Fin 160000, if (ids (ix2 p (0 : Fin 1))).toInt = (r : Int) then hs (ix2 p q) else 0 := by
  have hb := Cert.Math.block_sum 20 8000
    (fun p : Fin 160000 => (if ids (ix2 p (0 : Fin 1)) = BitVec.ofNat 32 r then (1 : EReal) else 0) * hs (ix2 p q))
  rw [Finset.sum_range]
  calc ∑ b : Fin 20, part5 ids hs r q b.val
      = ∑ b : Fin 20, ∑ k : Fin 8000,
          (fun p : Fin 160000 => (if ids (ix2 p (0 : Fin 1)) = BitVec.ofNat 32 r then (1 : EReal) else 0) * hs (ix2 p q))
            ⟨b.val * 8000 + k.val, Cert.Math.block_lt b k⟩ := by
        refine Finset.sum_congr rfl fun b _ => ?_
        unfold part5
        rw [dif_pos b.isLt] <;> rfl
    _ = ∑ p : Fin 160000, (if ids (ix2 p (0 : Fin 1)) = BitVec.ofNat 32 r then (1 : EReal) else 0) * hs (ix2 p q) := hb
    _ = _ := by
        refine Finset.sum_congr rfl fun p _ => ?_
        by_cases h : ids (ix2 p (0 : Fin 1)) = BitVec.ofNat 32 r
        · rw [if_pos h, if_pos ((Cert.Math.eq_ofNat_iff_toInt _ r hr).mp h), one_mul]
        · rw [if_neg h, if_neg (fun h' => h ((Cert.Math.eq_ofNat_iff_toInt _ r hr).mpr h')), zero_mul]

section Value
-- the TensorCore's buffer contents when the region is entered
variable (V : (c : Dev nD) → (b : Ref sig .tc) → Buf (Elt Ideal) ((c : Thread nD τ).loc b))

/-- The index column and the data rows as the region finds them. -/
abbrev idsOf5 (c : Dev nD) : IVec S160000x1 32 := V c (Pipeline.arrRef spec5 0)
abbrev rowsOf5 (c : Dev nD) : FVec Ideal S160000x300 .bf16 := V c (Pipeline.arrRef spec5 1)

/-! ## The input blocks, read off their arrays -/

/-- Row k of the index block at point t is row (t % 20) * 8000 + k of the index column. -/
theorem iblk5_0_apply (c : Dev nD) (t : Fin cfg5.N) (k : Fin 8000) :
    (iblk5 V c 0 t : IVec S8000x1 32) (ix2 k (0 : Fin 1))
      = idsOf5 V c (ix2 ⟨t.val % 20 * 8000 + k.val, row_lt5 (Nat.mod_lt _ (by decide)) k⟩ (0 : Fin 1)) := by
  obtain ⟨e0, e1, -⟩ := idx_facts5 t
  show V c (Pipeline.arrRef spec5 0) (((cfg5.win 0).blk t).view.emb (ix2 k (0 : Fin 1))) = V c (Pipeline.arrRef spec5 0) _
  refine congrArg (V c (Pipeline.arrRef spec5 0)) (funext fun a => Fin.ext ?_)
  match a with
  | ⟨0, _⟩ =>
    show win5_0.index t (0 : Fin 2) * 8000 + 1 * k.val = t.val % 20 * 8000 + k.val
    omega
  | ⟨1, _⟩ =>
    show win5_0.index t (1 : Fin 2) * 1 + 1 * 0 = 0
    omega

/-- Entry (k, q) of the data block at point t is entry ((t % 20) * 8000 + k, q) of the data rows. -/
theorem iblk5_1_apply (c : Dev nD) (t : Fin cfg5.N) (k : Fin 8000) (q : Fin 300) :
    (iblk5 V c 1 t : FVec Ideal S8000x300 .bf16) (ix2 k q)
      = rowsOf5 V c (ix2 ⟨t.val % 20 * 8000 + k.val, row_lt5 (Nat.mod_lt _ (by decide)) k⟩ q) := by
  obtain ⟨-, -, e2, e3, -⟩ := idx_facts5 t
  show V c (Pipeline.arrRef spec5 1) (((cfg5.win 1).blk t).view.emb (ix2 k q)) = V c (Pipeline.arrRef spec5 1) _
  refine congrArg (V c (Pipeline.arrRef spec5 1)) (funext fun a => Fin.ext ?_)
  match a with
  | ⟨0, _⟩ =>
    show win5_1.index t (0 : Fin 2) * 8000 + 1 * k.val = t.val % 20 * 8000 + k.val
    omega
  | ⟨1, _⟩ =>
    show win5_1.index t (1 : Fin 2) * 300 + 1 * q.val = q.val
    omega

/-! ## The accumulator -/

/-- The accumulator's reset value is zero everywhere. -/
theorem pay5_apply (x : S1024x300.Idx) : k5_pay1 (F := Ideal) x = 0 := by
  unfold k5_pay1
  simp only [shapeCast_self]
  exact Ideal.ofBits_zero_f32

/-- The accumulator after two positions that are the same number is the same. -/
theorem outsAt5_congr (c : Dev nD) {a b : ℕ} (hab : a = b) (ha : a < cfg5.N) (hb : b < cfg5.N) :
    outsAt5 V c a ha = outsAt5 V c b hb := by
  subst hab; rfl

/-- One point's step at an entry: zero at a node block's first edge block, the previous accumulator elsewhere, plus
    the point's edge block's part. -/
theorem acc5_point (c : Dev nD) (a : ℕ) (ha : a < cfg5.N) (j : Fin 1024) (q : Fin 300) :
    (outsAt5 V c a ha).2 (ix2 j q)
      = (if a % 20 = 0 then (0 : EReal)
          else (outsAt5 V c (a - 1) (Nat.lt_of_le_of_lt (Nat.sub_le _ _) ha)).2 (ix2 j q))
        + part5 (idsOf5 V c) (rowsOf5 V c) (a / 20 * 1024 + j.val) q (a % 20) := by
  have hstep := scratch_step5 V c ⟨a, ha⟩
  obtain ⟨-, -, -, -, -, -, e6⟩ := idx_facts5 ⟨a, ha⟩
  -- the point's one-hot product, read off the arrays, is the point's edge block's part
  have hpart : ∑ k : Fin 8000,
        (if (iblk5 V c 0 ⟨a, ha⟩ : IVec S8000x1 32) (ix2 k (0 : Fin 1))
            = BitVec.ofNat 32 ((grid5.coords ⟨a, ha⟩ 0).val * 1024 + j.val) then (1 : EReal) else 0)
          * (iblk5 V c 1 ⟨a, ha⟩ : FVec Ideal S8000x300 .bf16) (ix2 k q)
      = part5 (idsOf5 V c) (rowsOf5 V c) (a / 20 * 1024 + j.val) q (a % 20) := by
    unfold part5
    rw [dif_pos (Nat.mod_lt a (by decide : 0 < 20))]
    refine Finset.sum_congr rfl fun k _ => ?_
    rw [iblk5_0_apply V c ⟨a, ha⟩ k, iblk5_1_apply V c ⟨a, ha⟩ k q, e6] <;> rfl
  by_cases h : a % 20 = 0
  · rw [if_pos h]
    rw [if_pos h] at hstep
    rw [show (outsAt5 V c a ha).2 = _ from hstep, k5_pay2_apply, pay5_apply, hpart]
  · rw [if_neg h]
    rw [if_neg h] at hstep
    rw [show (outsAt5 V c a ha).2 = _ from hstep, k5_pay2_apply, hpart] <;> rfl

/-- After edge block e of node block b (position a = 20 b + e) the accumulator holds 0 plus the parts of edge blocks
    0 … e. -/
theorem acc5_fold (c : Dev nD) (b : ℕ) (hb : b < 10) (j : Fin 1024) (q : Fin 300) :
    ∀ (e : ℕ) (he : e < 20) (a : ℕ) (ha : a < cfg5.N), a = b * 20 + e →
      (outsAt5 V c a ha).2 (ix2 j q)
        = 0 + ∑ e' ∈ Finset.range (e + 1), part5 (idsOf5 V c) (rowsOf5 V c) (b * 1024 + j.val) q e'
  | 0, he, a, ha, hab => by
    have h1 : a / 20 = b := by omega
    have h2 : a % 20 = 0 := by omega
    rw [acc5_point, if_pos h2, h1, h2]
    simp only [Finset.sum_range_succ, Finset.sum_range_zero, zero_add]
  | e + 1, he, a, ha, hab => by
    have h1 : a / 20 = b := by omega
    have h2 : a % 20 = e + 1 := by omega
    rw [acc5_point, if_neg (show ¬ a % 20 = 0 by omega), h1, h2,
      acc5_fold c b hb j q e (by omega) (a - 1) _ (by omega), Finset.sum_range_succ _ (e + 1), add_assoc]

/-! ## What a flushing point writes back -/

/-- The last point of node block b writes back the 1024 rows from row 1024 b on of `segOut5`. -/
theorem flushed5_eq (c : Dev nD) (t : Fin cfg5.N) (hf : (cfg5.win 2).flush t = true) :
    (dat5 V c).flushed 2 t
      = ((cfg5.win 2).blk t).view.read (Elt Ideal) (segOut5 (idsOf5 V c) (rowsOf5 V c)) := by
  have h19 : t.val % 20 = 19 := (flush5_2 t).mp hf
  obtain ⟨-, -, -, -, e4, e5, -⟩ := idx_facts5 t
  have hN : t.val < 200 := by
    have h200 : cfg5.N = 200 := N_5
    have := t.isLt
    omega
  have hn : t.val / 20 < 10 := by omega
  show (cfg5.win 2).cut (grid5.coords t) ((dat5 V c).after 2 t) = _
  rw [after5_2, out_flush5 V c t h19]
  funext x
  obtain ⟨j, q, rfl⟩ : ∃ (j : Fin 1024) (q : Fin 300), x = ix2 j q := ⟨x 0, x 1, eq_ix2 x⟩
  show (outsAt5 V c t.val t.isLt).2 (ix2 j q)
    = segOut5 (idsOf5 V c) (rowsOf5 V c) (((cfg5.win 2).blk t).view.emb (ix2 j q))
  have hx0 : ((((cfg5.win 2).blk t).view.emb (ix2 j q)) 0).val = t.val / 20 * 1024 + j.val := by
    show win5_2.index t (0 : Fin 2) * 1024 + 1 * j.val = _
    omega
  have hx1 : (((cfg5.win 2).blk t).view.emb (ix2 j q)) 1 = q := by
    apply Fin.ext
    show win5_2.index t (1 : Fin 2) * 300 + 1 * q.val = q.val
    omega
  have hr : t.val / 20 * 1024 + j.val < 2 ^ 31 := by have := j.isLt; omega
  rw [segOut5_apply _ _ _ (t.val / 20 * 1024 + j.val) q hx0 hx1,
    acc5_fold V c (t.val / 20) hn j q 19 (by decide) t.val t.isLt (by omega)]
  show (0 : EReal) + ∑ e ∈ Finset.range 20, part5 (idsOf5 V c) (rowsOf5 V c) (t.val / 20 * 1024 + j.val) q e = _
  rw [parts_sum5 (idsOf5 V c) (rowsOf5 V c) (t.val / 20 * 1024 + j.val) hr q]

/-! ## The 10 node blocks tile the array -/

/-- An index of the array is in point `t`'s block iff each coordinate is in the block's range on its axis. -/
theorem mem_blk5 (t : Fin cfg5.N) (i : S10240x300.Idx) :
    i ∈ ((cfg5.win 2).blk t).view.set ↔ ∀ a : Fin 2, win5_2.index t a * S1024x300.size a ≤ (i a).val
      ∧ (i a).val < win5_2.index t a * S1024x300.size a + S1024x300.size a := by
  show i ∈ ((View.whole main_v367).slice (win5_2.rect t)).set ↔ _
  rw [View.set_slice_whole, Rect.mem_set_unit]
  exact Iff.rfl

/-- Row r of the array is in the block the last point of node block r / 1024 writes back. -/
theorem cover5 (i : S10240x300.Idx) :
    ∃ t : Fin cfg5.N, (cfg5.win 2).flush t = true ∧ i ∈ ((cfg5.win 2).blk t).view.set := by
  have hi0 : (i 0).val < 10240 := idx2_lt0 i
  have hi1 : (i 1).val < 300 := idx2_lt1 i
  have hn : (i 0).val / 1024 < 10 := by omega
  obtain ⟨t, ht⟩ : ∃ t : Fin cfg5.N, t.val = (i 0).val / 1024 * 20 + 19 := ⟨⟨_, lt_N5 hn (by decide)⟩, rfl⟩
  refine ⟨t, (flush5_2 t).mpr (by omega), ?_⟩
  rw [mem_blk5]
  obtain ⟨-, -, -, -, e4, e5, -⟩ := idx_facts5 t
  intro a
  match a with
  | ⟨0, _⟩ =>
    show win5_2.index t (0 : Fin 2) * 1024 ≤ (i 0).val ∧ (i 0).val < win5_2.index t (0 : Fin 2) * 1024 + 1024
    omega
  | ⟨1, _⟩ =>
    show win5_2.index t (1 : Fin 2) * 300 ≤ (i 1).val ∧ (i 1).val < win5_2.index t (1 : Fin 2) * 300 + 300
    omega

/-! ## The array after the region -/

/-- THE ARRAY after the region: the segment sum of the data rows by the index column. -/
theorem out5_val (c : Dev nD) :
    (dat5 (F := Ideal) V c).arrAt 2 cfg5.N = segOut5 (idsOf5 V c) (rowsOf5 V c) :=
  (dat5 V c).arrAt_eq_of_cover 2 (segOut5 (idsOf5 V c) (rowsOf5 V c)) (fun t hf => flushed5_eq V c t hf) cover5

/-- The output array after the region, at its element type. -/
abbrev outOf5 (c : Dev nD) : FVec Ideal S10240x300 .f32 := (dat5 (F := Ideal) V c).arrAt 2 cfg5.N

/-- Entry (n, q) of the array after the region: 0 plus the sum of the data rows whose index word, read signed, is n. -/
theorem val5 (c : Dev nD) (n : Fin 10240) (q : Fin 300) :
    outOf5 V c (ix2 n q)
      = 0 + ∑ p : Fin 160000,
          if (idsOf5 V c (ix2 p (0 : Fin 1))).toInt = (n.val : Int) then rowsOf5 V c (ix2 p q) else 0 :=
  (congrFun (out5_val V c) (ix2 n q)).trans
    (segOut5_apply (idsOf5 V c) (rowsOf5 V c) (ix2 n q) n.val q rfl rfl)

end Value

end Cert.KernelIdeal.Reg5
-- ==== Proof.KI.Reg6Payload.lean ====
/-
  The region's accumulator payload read at an index, at the ideal values: the accumulator there plus the sum, over the
  2000 rows of the point's edge block, of (1 where the row's index word is the node's row number, 0 elsewhere) times
  the data entry.  The payload is the one-hot segment-sum product of Math/OneHotMatmul.lean at this region's sizes.
-/
import proofs.«411400_j9251359555630_1_alg».proof.Proof.Gen.KernelIdeal.Skeleton
import proofs.«411400_j9251359555630_1_alg».proof.Proof.Math.OneHotMatmul

noncomputable section

namespace Cert.KernelIdeal.Reg6

open Cert.KernelIdeal Cert.KernelIdeal.Gen
open Idealize.ShloMosaic Idealize.ShloMosaic.ValueIdx Idealize.SL.Sem
open scoped BigOperators

/-- The payload is the accumulator plus the transposed one-hot matrix of the index block (against the rows
    `64 * i₀ + 0, 64 * i₀ + 1, …` of node block `i₀`) times the data block: the shape casts are identities. -/
theorem k6_pay2_eq_segPay {F : FTy → Type} [FloatOps F] (i : grid6.Coords) (v7 : Vec F S2000x1 .i32)
    (v15 : Vec F S2000x300 .bf16) (v18 : Vec F S64x300 .f32) :
    k6_pay2 (F := F) i v7 v15 v18
      = Cert.Math.segPay dot_S2000x64_S2000x300_S64x300_0_0_1_1_n_n iota_S1x64_d1_w32
          broadcasts_S2000x1_S2000x64 broadcasts_S1x64_S2000x64 natLt_1_32 bitsLt_bf16_f32
          (Scalar.muli (BitVec.ofNat 32 (i 0).val) 64#32) v7 v15 v18 := by
  unfold k6_pay2 Cert.Math.segPay
  simp only [shapeCast_self] <;> rfl

/-- The payload at entry (j, q) of the node block. -/
theorem k6_pay2_apply (i : grid6.Coords) (ids : IVec S2000x1 32) (hb : FVec Ideal S2000x300 .bf16)
    (acc : FVec Ideal S64x300 .f32) (j : Fin 64) (q : Fin 300) :
    k6_pay2 (F := Ideal) i ids hb acc (ix2 j q)
      = acc (ix2 j q) + ∑ k : Fin 2000,
          (if ids (ix2 k (0 : Fin 1)) = BitVec.ofNat 32 ((i 0).val * 64 + j.val) then (1 : EReal) else 0) * hb (ix2 k q) := by
  rw [k6_pay2_eq_segPay, Cert.Math.segPay_apply dot_S2000x64_S2000x300_S64x300_0_0_1_1_n_n rfl rfl rfl rfl rfl rfl]
  rw [show IntOp.addi (Scalar.muli (BitVec.ofNat 32 (i 0).val) 64#32) (BitVec.ofNat 32 j.val)
      = BitVec.ofNat 32 ((i 0).val * 64 + j.val) from Cert.Math.base_add_lane _ _ _]

end Cert.KernelIdeal.Reg6
-- ==== Proof.KI.Reg6Value.lean ====
/-
  What this region leaves in its output array, at the ideal values: entry (n, q) is 0 plus the sum, over all 10000 edge
  rows p, of the data entry (p, q) where the index word of row p, read signed, is n, and of 0 elsewhere.

  The accumulator of node block b starts from zeros at the block's first edge block and adds, at edge block e, the
  one-hot product of that block's 2000 rows; after the 5 edge blocks it holds the sum over all 5 * 2000 rows, and that
  is what the last of the 5 points writes back as the 64 rows from row 64 b on of the array.  The 1 node blocks
  tile the array's 64 rows.
-/
import proofs.«411400_j9251359555630_1_alg».proof.Proof.Gen.KernelIdeal.Points
import proofs.«411400_j9251359555630_1_alg».proof.Proof.Gen.KernelIdeal.Launch
import proofs.«411400_j9251359555630_1_alg».proof.Proof.KI.Reg6
import proofs.«411400_j9251359555630_1_alg».proof.Proof.KI.Reg6Payload
import proofs.«411400_j9251359555630_1_alg».proof.Proof.Math.SegSum
import Idealize.ShloMosaic.Lib.Pipeline.Value
import Idealize.ShloMosaic.Lib.ValueIdx

set_option maxRecDepth 16384

noncomputable section

namespace Cert.KernelIdeal.Reg6

open Cert.KernelIdeal Cert.KernelIdeal.Gen
open Idealize.ShloMosaic Idealize.ShloMosaic.TcCoe Idealize.SL.Sem Idealize.ShloMosaic.ValueIdx
open Idealize.ShloMosaic.Pipeline (Dat)
open scoped BigOperators

/-! ## The printed index maps over the grid -/

/-- Point t = 5 b + e reads edge block e of the index column and of the data rows and holds node block b of the
    output; its first grid coordinate is b. -/
theorem idx_facts6 : ∀ t : Fin cfg6.N,
    win6_0.index t (0 : Fin 2) = t.val % 5 ∧ win6_0.index t (1 : Fin 2) = 0
    ∧ win6_1.index t (0 : Fin 2) = t.val % 5 ∧ win6_1.index t (1 : Fin 2) = 0
    ∧ win6_2.index t (0 : Fin 2) = t.val / 5 ∧ win6_2.index t (1 : Fin 2) = 0
    ∧ (grid6.coords t 0).val = t.val / 5 :=
  (by decide +kernel : ∀ t : Fin grid6.N, _)

/-- Point 5 b + e is a point of the grid. -/
theorem lt_N6 {b e : ℕ} (hb : b < 1) (he : e < 5) : b * 5 + e < cfg6.N := by
  rw [show cfg6.N = 5 from N_6]; omega

/-- Row k of edge block e is a row of the edge arrays. -/
theorem row_lt6 {e : ℕ} (he : e < 5) (k : Fin 2000) : e * 2000 + k.val < 10000 := by
  have := k.isLt; omega

/-! ## The sums -/

/-- What edge block `e` adds to the entry of node row `r` and column `q`: the sum over the block's rows of the one-hot
    entry times the data entry. -/
def part6 (ids : IVec S10000x1 32) (hs : FVec Ideal S10000x300 .bf16) (r : ℕ) (q : Fin 300) (e : ℕ) : EReal :=
  if he : e < 5 then
    ∑ k : Fin 2000, (if ids (ix2 ⟨e * 2000 + k.val, row_lt6 he k⟩ (0 : Fin 1)) = BitVec.ofNat 32 r then (1 : EReal) else 0)
      * hs (ix2 ⟨e * 2000 + k.val, row_lt6 he k⟩ q)
  else 0

/-- The array the region leaves: entry (n, q) is 0 plus the sum of the data rows whose index word, read signed, is n. -/
def segOut6 (ids : IVec S10000x1 32) (hs : FVec Ideal S10000x300 .bf16) : FVec Ideal S64x300 .f32 := fun x =>
  0 + ∑ p : Fin 10000, if (ids (ix2 p (0 : Fin 1))).toInt = ((x 0).val : Int) then hs (ix2 p (x 1)) else 0

theorem segOut6_apply (ids : IVec S10000x1 32) (hs : FVec Ideal S10000x300 .bf16) (x : S64x300.Idx) (r : ℕ)
    (q : Fin 300) (h0 : (x 0).val = r) (h1 : x 1 = q) :
    segOut6 ids hs x
      = 0 + ∑ p : Fin 10000, if (ids (ix2 p (0 : Fin 1))).toInt = (r : Int) then hs (ix2 p q) else 0 := by
  subst h1
  subst h0
  rfl

/-- The 5 edge blocks' parts add up to the sum over all rows, the one-hot entry read as the signed comparison: a row
    number below 2^31 is the word's signed reading exactly when the word is the row number's word. -/
theorem parts_sum6 (ids : IVec S10000x1 32) (hs : FVec Ideal S10000x300 .bf16) (r : ℕ) (hr : r < 2 ^ 31)
    (q : Fin 300) :
    ∑ e ∈ Finset.range 5, part6 ids hs r q e
      = ∑ p : Fin 10000, if (ids (ix2 p (0 : Fin 1))).toInt = (r : Int) then hs (ix2 p q) else 0 := by
  have hb := Cert.Math.block_sum 5 2000
    (fun p : Fin 10000 => (if ids (ix2 p (0 : Fin 1)) = BitVec.ofNat 32 r then (1 : EReal) else 0) * hs (ix2 p q))
  rw [Finset.sum_range]
  calc ∑ b : Fin 5, part6 ids hs r q b.val
      = ∑ b : Fin 5, ∑ k : Fin 2000,
          (fun p : Fin 10000 => (if ids (ix2 p (0 : Fin 1)) = BitVec.ofNat 32 r then (1 : EReal) else 0) * hs (ix2 p q))
            ⟨b.val * 2000 + k.val, Cert.Math.block_lt b k⟩ := by
        refine Finset.sum_congr rfl fun b _ => ?_
        unfold part6
        rw [dif_pos b.isLt] <;> rfl
    _ = ∑ p : Fin 10000, (if ids (ix2 p (0 : Fin 1)) = BitVec.ofNat 32 r then (1 : EReal) else 0) * hs (ix2 p q) := hb
    _ = _ := by
        refine Finset.sum_congr rfl fun p _ => ?_
        by_cases h : ids (ix2 p (0 : Fin 1)) = BitVec.ofNat 32 r
        · rw [if_pos h, if_pos ((Cert.Math.eq_ofNat_iff_toInt _ r hr).mp h), one_mul]
        · rw [if_neg h, if_neg (fun h' => h ((Cert.Math.eq_ofNat_iff_toInt _ r hr).mpr h')), zero_mul]

section Value
-- the TensorCore's buffer contents when the region is entered
variable (V : (c : Dev nD) → (b : Ref sig .tc) → Buf (Elt Ideal) ((c : Thread nD τ).loc b))

/-- The index column and the data rows as the region finds them. -/
abbrev idsOf6 (c : Dev nD) : IVec S10000x1 32 := V c (Pipeline.arrRef spec6 0)
abbrev rowsOf6 (c : Dev nD) : FVec Ideal S10000x300 .bf16 := V c (Pipeline.arrRef spec6 1)

/-! ## The input blocks, read off their arrays -/

/-- Row k of the index block at point t is row (t % 5) * 2000 + k of the index column. -/
theorem iblk6_0_apply (c : Dev nD) (t : Fin cfg6.N) (k : Fin 2000) :
    (iblk6 V c 0 t : IVec S2000x1 32) (ix2 k (0 : Fin 1))
      = idsOf6 V c (ix2 ⟨t.val % 5 * 2000 + k.val, row_lt6 (Nat.mod_lt _ (by decide)) k⟩ (0 : Fin 1)) := by
  obtain ⟨e0, e1, -⟩ := idx_facts6 t
  show V c (Pipeline.arrRef spec6 0) (((cfg6.win 0).blk t).view.emb (ix2 k (0 : Fin 1))) = V c (Pipeline.arrRef spec6 0) _
  refine congrArg (V c (Pipeline.arrRef spec6 0)) (funext fun a => Fin.ext ?_)
  match a with
  | ⟨0, _⟩ =>
    show win6_0.index t (0 : Fin 2) * 2000 + 1 * k.val = t.val % 5 * 2000 + k.val
    omega
  | ⟨1, _⟩ =>
    show win6_0.index t (1 : Fin 2) * 1 + 1 * 0 = 0
    omega

/-- Entry (k, q) of the data block at point t is entry ((t % 5) * 2000 + k, q) of the data rows. -/
theorem iblk6_1_apply (c : Dev nD) (t : Fin cfg6.N) (k : Fin 2000) (q : Fin 300) :
    (iblk6 V c 1 t : FVec Ideal S2000x300 .bf16) (ix2 k q)
      = rowsOf6 V c (ix2 ⟨t.val % 5 * 2000 + k.val, row_lt6 (Nat.mod_lt _ (by decide)) k⟩ q) := by
  obtain ⟨-, -, e2, e3, -⟩ := idx_facts6 t
  show V c (Pipeline.arrRef spec6 1) (((cfg6.win 1).blk t).view.emb (ix2 k q)) = V c (Pipeline.arrRef spec6 1) _
  refine congrArg (V c (Pipeline.arrRef spec6 1)) (funext fun a => Fin.ext ?_)
  match a with
  | ⟨0, _⟩ =>
    show win6_1.index t (0 : Fin 2) * 2000 + 1 * k.val = t.val % 5 * 2000 + k.val
    omega
  | ⟨1, _⟩ =>
    show win6_1.index t (1 : Fin 2) * 300 + 1 * q.val = q.val
    omega

/-! ## The accumulator -/

/-- The accumulator's reset value is zero everywhere. -/
theorem pay6_apply (x : S64x300.Idx) : k6_pay1 (F := Ideal) x = 0 := by
  unfold k6_pay1
  simp only [shapeCast_self]
  exact Ideal.ofBits_zero_f32

/-- The accumulator after two positions that are the same number is the same. -/
theorem outsAt6_congr (c : Dev nD) {a b : ℕ} (hab : a = b) (ha : a < cfg6.N) (hb : b < cfg6.N) :
    outsAt6 V c a ha = outsAt6 V c b hb := by
  subst hab; rfl

/-- One point's step at an entry: zero at a node block's first edge block, the previous accumulator elsewhere, plus
    the point's edge block's part. -/
theorem acc6_point (c : Dev nD) (a : ℕ) (ha : a < cfg6.N) (j : Fin 64) (q : Fin 300) :
    (outsAt6 V c a ha).2 (ix2 j q)
      = (if a % 5 = 0 then (0 : EReal)
          else (outsAt6 V c (a - 1) (Nat.lt_of_le_of_lt (Nat.sub_le _ _) ha)).2 (ix2 j q))
        + part6 (idsOf6 V c) (rowsOf6 V c) (a / 5 * 64 + j.val) q (a % 5) := by
  have hstep := scratch_step6 V c ⟨a, ha⟩
  obtain ⟨-, -, -, -, -, -, e6⟩ := idx_facts6 ⟨a, ha⟩
  -- the point's one-hot product, read off the arrays, is the point's edge block's part
  have hpart : ∑ k : Fin 2000,
        (if (iblk6 V c 0 ⟨a, ha⟩ : IVec S2000x1 32) (ix2 k (0 : Fin 1))
            = BitVec.ofNat 32 ((grid6.coords ⟨a, ha⟩ 0).val * 64 + j.val) then (1 : EReal) else 0)
          * (iblk6 V c 1 ⟨a, ha⟩ : FVec Ideal S2000x300 .bf16) (ix2 k q)
      = part6 (idsOf6 V c) (rowsOf6 V c) (a / 5 * 64 + j.val) q (a % 5) := by
    unfold part6
    rw [dif_pos (Nat.mod_lt a (by decide : 0 < 5))]
    refine Finset.sum_congr rfl fun k _ => ?_
    rw [iblk6_0_apply V c ⟨a, ha⟩ k, iblk6_1_apply V c ⟨a, ha⟩ k q, e6] <;> rfl
  by_cases h : a % 5 = 0
  · rw [if_pos h]
    rw [if_pos h] at hstep
    rw [show (outsAt6 V c a ha).2 = _ from hstep, k6_pay2_apply, pay6_apply, hpart]
  · rw [if_neg h]
    rw [if_neg h] at hstep
    rw [show (outsAt6 V c a ha).2 = _ from hstep, k6_pay2_apply, hpart] <;> rfl

/-- After edge block e of node block b (position a = 5 b + e) the accumulator holds 0 plus the parts of edge blocks
    0 … e. -/
theorem acc6_fold (c : Dev nD) (b : ℕ) (hb : b < 1) (j : Fin 64) (q : Fin 300) :
    ∀ (e : ℕ) (he : e < 5) (a : ℕ) (ha : a < cfg6.N), a = b * 5 + e →
      (outsAt6 V c a ha).2 (ix2 j q)
        = 0 + ∑ e' ∈ Finset.range (e + 1), part6 (idsOf6 V c) (rowsOf6 V c) (b * 64 + j.val) q e'
  | 0, he, a, ha, hab => by
    have h1 : a / 5 = b := by omega
    have h2 : a % 5 = 0 := by omega
    rw [acc6_point, if_pos h2, h1, h2]
    simp only [Finset.sum_range_succ, Finset.sum_range_zero, zero_add]
  | e + 1, he, a, ha, hab => by
    have h1 : a / 5 = b := by omega
    have h2 : a % 5 = e + 1 := by omega
    rw [acc6_point, if_neg (show ¬ a % 5 = 0 by omega), h1, h2,
      acc6_fold c b hb j q e (by omega) (a - 1) _ (by omega), Finset.sum_range_succ _ (e + 1), add_assoc]

/-! ## What a flushing point writes back -/

/-- The last point of node block b writes back the 64 rows from row 64 b on of `segOut6`. -/
theorem flushed6_eq (c : Dev nD) (t : Fin cfg6.N) (hf : (cfg6.win 2).flush t = true) :
    (dat6 V c).flushed 2 t
      = ((cfg6.win 2).blk t).view.read (Elt Ideal) (segOut6 (idsOf6 V c) (rowsOf6 V c)) := by
  have h19 : t.val % 5 = 4 := (flush6_2 t).mp hf
  obtain ⟨-, -, -, -, e4, e5, -⟩ := idx_facts6 t
  have hN : t.val < 5 := by
    have h200 : cfg6.N = 5 := N_6
    have := t.isLt
    omega
  have hn : t.val / 5 < 1 := by omega
  show (cfg6.win 2).cut (grid6.coords t) ((dat6 V c).after 2 t) = _
  rw [after6_2, out_flush6 V c t h19]
  funext x
  obtain ⟨j, q, rfl⟩ : ∃ (j : Fin 64) (q : Fin 300), x = ix2 j q := ⟨x 0, x 1, eq_ix2 x⟩
  show (outsAt6 V c t.val t.isLt).2 (ix2 j q)
    = segOut6 (idsOf6 V c) (rowsOf6 V c) (((cfg6.win 2).blk t).view.emb (ix2 j q))
  have hx0 : ((((cfg6.win 2).blk t).view.emb (ix2 j q)) 0).val = t.val / 5 * 64 + j.val := by
    show win6_2.index t (0 : Fin 2) * 64 + 1 * j.val = _
    omega
  have hx1 : (((cfg6.win 2).blk t).view.emb (ix2 j q)) 1 = q := by
    apply Fin.ext
    show win6_2.index t (1 : Fin 2) * 300 + 1 * q.val = q.val
    omega
  have hr : t.val / 5 * 64 + j.val < 2 ^ 31 := by have := j.isLt; omega
  rw [segOut6_apply _ _ _ (t.val / 5 * 64 + j.val) q hx0 hx1,
    acc6_fold V c (t.val / 5) hn j q 4 (by decide) t.val t.isLt (by omega)]
  show (0 : EReal) + ∑ e ∈ Finset.range 5, part6 (idsOf6 V c) (rowsOf6 V c) (t.val / 5 * 64 + j.val) q e = _
  rw [parts_sum6 (idsOf6 V c) (rowsOf6 V c) (t.val / 5 * 64 + j.val) hr q]

/-! ## The 1 node blocks tile the array -/

/-- An index of the array is in point `t`'s block iff each coordinate is in the block's range on its axis. -/
theorem mem_blk6 (t : Fin cfg6.N) (i : S64x300.Idx) :
    i ∈ ((cfg6.win 2).blk t).view.set ↔ ∀ a : Fin 2, win6_2.index t a * S64x300.size a ≤ (i a).val
      ∧ (i a).val < win6_2.index t a * S64x300.size a + S64x300.size a := by
  show i ∈ ((View.whole main_v424).slice (win6_2.rect t)).set ↔ _
  rw [View.set_slice_whole, Rect.mem_set_unit]
  exact Iff.rfl

/-- Row r of the array is in the block the last point of node block r / 64 writes back. -/
theorem cover6 (i : S64x300.Idx) :
    ∃ t : Fin cfg6.N, (cfg6.win 2).flush t = true ∧ i ∈ ((cfg6.win 2).blk t).view.set := by
  have hi0 : (i 0).val < 64 := idx2_lt0 i
  have hi1 : (i 1).val < 300 := idx2_lt1 i
  have hn : (i 0).val / 64 < 1 := by omega
  obtain ⟨t, ht⟩ : ∃ t : Fin cfg6.N, t.val = (i 0).val / 64 * 5 + 4 := ⟨⟨_, lt_N6 hn (by decide)⟩, rfl⟩
  refine ⟨t, (flush6_2 t).mpr (by omega), ?_⟩
  rw [mem_blk6]
  obtain ⟨-, -, -, -, e4, e5, -⟩ := idx_facts6 t
  intro a
  match a with
  | ⟨0, _⟩ =>
    show win6_2.index t (0 : Fin 2) * 64 ≤ (i 0).val ∧ (i 0).val < win6_2.index t (0 : Fin 2) * 64 + 64
    omega
  | ⟨1, _⟩ =>
    show win6_2.index t (1 : Fin 2) * 300 ≤ (i 1).val ∧ (i 1).val < win6_2.index t (1 : Fin 2) * 300 + 300
    omega

/-! ## The array after the region -/

/-- THE ARRAY after the region: the segment sum of the data rows by the index column. -/
theorem out6_val (c : Dev nD) :
    (dat6 (F := Ideal) V c).arrAt 2 cfg6.N = segOut6 (idsOf6 V c) (rowsOf6 V c) :=
  (dat6 V c).arrAt_eq_of_cover 2 (segOut6 (idsOf6 V c) (rowsOf6 V c)) (fun t hf => flushed6_eq V c t hf) cover6

/-- The output array after the region, at its element type. -/
abbrev outOf6 (c : Dev nD) : FVec Ideal S64x300 .f32 := (dat6 (F := Ideal) V c).arrAt 2 cfg6.N

/-- Entry (n, q) of the array after the region: 0 plus the sum of the data rows whose index word, read signed, is n. -/
theorem val6 (c : Dev nD) (n : Fin 64) (q : Fin 300) :
    outOf6 V c (ix2 n q)
      = 0 + ∑ p : Fin 10000,
          if (idsOf6 V c (ix2 p (0 : Fin 1))).toInt = (n.val : Int) then rowsOf6 V c (ix2 p q) else 0 :=
  (congrFun (out6_val V c) (ix2 n q)).trans
    (segOut6_apply (idsOf6 V c) (rowsOf6 V c) (ix2 n q) n.val q rfl rfl)

end Value

end Cert.KernelIdeal.Reg6
-- ==== Proof.KI.Reg7Payload.lean ====
/-
  The region's accumulator payload read at an index, at the ideal values: the accumulator there plus the sum, over the
  8000 rows of the point's edge block, of (1 where the row's index word is the node's row number, 0 elsewhere) times
  the data entry.  The payload is the one-hot segment-sum product of Math/OneHotMatmul.lean at this region's sizes.
-/
import proofs.«411400_j9251359555630_1_alg».proof.Proof.Gen.KernelIdeal.Skeleton
import proofs.«411400_j9251359555630_1_alg».proof.Proof.Math.OneHotMatmul

noncomputable section

namespace Cert.KernelIdeal.Reg7

open Cert.KernelIdeal Cert.KernelIdeal.Gen
open Idealize.ShloMosaic Idealize.ShloMosaic.ValueIdx Idealize.SL.Sem
open scoped BigOperators

/-- The payload is the accumulator plus the transposed one-hot matrix of the index block (against the rows
    `1024 * i₀ + 0, 1024 * i₀ + 1, …` of node block `i₀`) times the data block: the shape casts are identities. -/
theorem k7_pay2_eq_segPay {F : FTy → Type} [FloatOps F] (i : grid7.Coords) (v7 : Vec F S8000x1 .i32)
    (v15 : Vec F S8000x300 .bf16) (v18 : Vec F S1024x300 .f32) :
    k7_pay2 (F := F) i v7 v15 v18
      = Cert.Math.segPay dot_S8000x1024_S8000x300_S1024x300_0_0_1_1_n_n iota_S1x1024_d1_w32
          broadcasts_S8000x1_S8000x1024 broadcasts_S1x1024_S8000x1024 natLt_1_32 bitsLt_bf16_f32
          (Scalar.muli (BitVec.ofNat 32 (i 0).val) 1024#32) v7 v15 v18 := by
  unfold k7_pay2 Cert.Math.segPay
  simp only [shapeCast_self] <;> rfl

/-- The payload at entry (j, q) of the node block. -/
theorem k7_pay2_apply (i : grid7.Coords) (ids : IVec S8000x1 32) (hb : FVec Ideal S8000x300 .bf16)
    (acc : FVec Ideal S1024x300 .f32) (j : Fin 1024) (q : Fin 300) :
    k7_pay2 (F := Ideal) i ids hb acc (ix2 j q)
      = acc (ix2 j q) + ∑ k : Fin 8000,
          (if ids (ix2 k (0 : Fin 1)) = BitVec.ofNat 32 ((i 0).val * 1024 + j.val) then (1 : EReal) else 0) * hb (ix2 k q) := by
  rw [k7_pay2_eq_segPay, Cert.Math.segPay_apply dot_S8000x1024_S8000x300_S1024x300_0_0_1_1_n_n rfl rfl rfl rfl rfl rfl]
  rw [show IntOp.addi (Scalar.muli (BitVec.ofNat 32 (i 0).val) 1024#32) (BitVec.ofNat 32 j.val)
      = BitVec.ofNat 32 ((i 0).val * 1024 + j.val) from Cert.Math.base_add_lane _ _ _]

end Cert.KernelIdeal.Reg7
-- ==== Proof.KI.Reg7Value.lean ====
/-
  What this region leaves in its output array, at the ideal values: entry (n, q) is 0 plus the sum, over all 160000 edge
  rows p, of the data entry (p, q) where the index word of row p, read signed, is n, and of 0 elsewhere.

  The accumulator of node block b starts from zeros at the block's first edge block and adds, at edge block e, the
  one-hot product of that block's 8000 rows; after the 20 edge blocks it holds the sum over all 20 * 8000 rows, and that
  is what the last of the 20 points writes back as the 1024 rows from row 1024 b on of the array.  The 10 node blocks
  tile the array's 10240 rows.
-/
import proofs.«411400_j9251359555630_1_alg».proof.Proof.Gen.KernelIdeal.Points
import proofs.«411400_j9251359555630_1_alg».proof.Proof.Gen.KernelIdeal.Launch
import proofs.«411400_j9251359555630_1_alg».proof.Proof.KI.Reg7
import proofs.«411400_j9251359555630_1_alg».proof.Proof.KI.Reg7Payload
import proofs.«411400_j9251359555630_1_alg».proof.Proof.Math.SegSum
import Idealize.ShloMosaic.Lib.Pipeline.Value
import Idealize.ShloMosaic.Lib.ValueIdx

set_option maxRecDepth 16384

noncomputable section

namespace Cert.KernelIdeal.Reg7

open Cert.KernelIdeal Cert.KernelIdeal.Gen
open Idealize.ShloMosaic Idealize.ShloMosaic.TcCoe Idealize.SL.Sem Idealize.ShloMosaic.ValueIdx
open Idealize.ShloMosaic.Pipeline (Dat)
open scoped BigOperators

/-! ## The printed index maps over the grid -/

/-- Point t = 20 b + e reads edge block e of the index column and of the data rows and holds node block b of the
    output; its first grid coordinate is b. -/
theorem idx_facts7 : ∀ t : Fin cfg7.N,
    win7_0.index t (0 : Fin 2) = t.val % 20 ∧ win7_0.index t (1 : Fin 2) = 0
    ∧ win7_1.index t (0 : Fin 2) = t.val % 20 ∧ win7_1.index t (1 : Fin 2) = 0
    ∧ win7_2.index t (0 : Fin 2) = t.val / 20 ∧ win7_2.index t (1 : Fin 2) = 0
    ∧ (grid7.coords t 0).val = t.val / 20 :=
  (by decide +kernel : ∀ t : Fin grid7.N, _)

/-- Point 20 b + e is a point of the grid. -/
theorem lt_N7 {b e : ℕ} (hb : b < 10) (he : e < 20) : b * 20 + e < cfg7.N := by
  rw [show cfg7.N = 200 from N_7]; omega

/-- Row k of edge block e is a row of the edge arrays. -/
theorem row_lt7 {e : ℕ} (he : e < 20) (k : Fin 8000) : e * 8000 + k.val < 160000 := by
  have := k.isLt; omega

/-! ## The sums -/

/-- What edge block `e` adds to the entry of node row `r` and column `q`: the sum over the block's rows of the one-hot
    entry times the data entry. -/
def part7 (ids : IVec S160000x1 32) (hs : FVec Ideal S160000x300 .bf16) (r : ℕ) (q : Fin 300) (e : ℕ) : EReal :=
  if he : e < 20 then
    ∑ k : Fin 8000, (if ids (ix2 ⟨e * 8000 + k.val, row_lt7 he k⟩ (0 : Fin 1)) = BitVec.ofNat 32 r then (1 : EReal) else 0)
      * hs (ix2 ⟨e * 8000 + k.val, row_lt7 he k⟩ q)
  else 0

/-- The array the region leaves: entry (n, q) is 0 plus the sum of the data rows whose index word, read signed, is n. -/
def segOut7 (ids : IVec S160000x1 32) (hs : FVec Ideal S160000x300 .bf16) : FVec Ideal S10240x300 .f32 := fun x =>
  0 + ∑ p : Fin 160000, if (ids (ix2 p (0 : Fin 1))).toInt = ((x 0).val : Int) then hs (ix2 p (x 1)) else 0

theorem segOut7_apply (ids : IVec S160000x1 32) (hs : FVec Ideal S160000x300 .bf16) (x : S10240x300.Idx) (r : ℕ)
    (q : Fin 300) (h0 : (x 0).val = r) (h1 : x 1 = q) :
    segOut7 ids hs x
      = 0 + ∑ p : Fin 160000, if (ids (ix2 p (0 : Fin 1))).toInt = (r : Int) then hs (ix2 p q) else 0 := by
  subst h1
  subst h0
  rfl

/-- The 20 edge blocks' parts add up to the sum over all rows, the one-hot entry read as the signed comparison: a row
    number below 2^31 is the word's signed reading exactly when the word is the row number's word. -/
theorem parts_sum7 (ids : IVec S160000x1 32) (hs : FVec Ideal S160000x300 .bf16) (r : ℕ) (hr : r < 2 ^ 31)
    (q : Fin 300) :
    ∑ e ∈ Finset.range 20, part7 ids hs r q e
      = ∑ p : Fin 160000, if (ids (ix2 p (0 : Fin 1))).toInt = (r : Int) then hs (ix2 p q) else 0 := by
  have hb := Cert.Math.block_sum 20 8000
    (fun p : Fin 160000 => (if ids (ix2 p (0 : Fin 1)) = BitVec.ofNat 32 r then (1 : EReal) else 0) * hs (ix2 p q))
  rw [Finset.sum_range]
  calc ∑ b : Fin 20, part7 ids hs r q b.val
      = ∑ b : Fin 20, ∑ k : Fin 8000,
          (fun p : Fin 160000 => (if ids (ix2 p (0 : Fin 1)) = BitVec.ofNat 32 r then (1 : EReal) else 0) * hs (ix2 p q))
            ⟨b.val * 8000 + k.val, Cert.Math.block_lt b k⟩ := by
        refine Finset.sum_congr rfl fun b _ => ?_
        unfold part7
        rw [dif_pos b.isLt] <;> rfl
    _ = ∑ p : Fin 160000, (if ids (ix2 p (0 : Fin 1)) = BitVec.ofNat 32 r then (1 : EReal) else 0) * hs (ix2 p q) := hb
    _ = _ := by
        refine Finset.sum_congr rfl fun p _ => ?_
        by_cases h : ids (ix2 p (0 : Fin 1)) = BitVec.ofNat 32 r
        · rw [if_pos h, if_pos ((Cert.Math.eq_ofNat_iff_toInt _ r hr).mp h), one_mul]
        · rw [if_neg h, if_neg (fun h' => h ((Cert.Math.eq_ofNat_iff_toInt _ r hr).mpr h')), zero_mul]

section Value
-- the TensorCore's buffer contents when the region is entered
variable (V : (c : Dev nD) → (b : Ref sig .tc) → Buf (Elt Ideal) ((c : Thread nD τ).loc b))

/-- The index column and the data rows as the region finds them. -/
abbrev idsOf7 (c : Dev nD) : IVec S160000x1 32 := V c (Pipeline.arrRef spec7 0)
abbrev rowsOf7 (c : Dev nD) : FVec Ideal S160000x300 .bf16 := V c (Pipeline.arrRef spec7 1)

/-! ## The input blocks, read off their arrays -/

/-- Row k of the index block at point t is row (t % 20) * 8000 + k of the index column. -/
theorem iblk7_0_apply (c : Dev nD) (t : Fin cfg7.N) (k : Fin 8000) :
    (iblk7 V c 0 t : IVec S8000x1 32) (ix2 k (0 : Fin 1))
      = idsOf7 V c (ix2 ⟨t.val % 20 * 8000 + k.val, row_lt7 (Nat.mod_lt _ (by decide)) k⟩ (0 : Fin 1)) := by
  obtain ⟨e0, e1, -⟩ := idx_facts7 t
  show V c (Pipeline.arrRef spec7 0) (((cfg7.win 0).blk t).view.emb (ix2 k (0 : Fin 1))) = V c (Pipeline.arrRef spec7 0) _
  refine congrArg (V c (Pipeline.arrRef spec7 0)) (funext fun a => Fin.ext ?_)
  match a with
  | ⟨0, _⟩ =>
    show win7_0.index t (0 : Fin 2) * 8000 + 1 * k.val = t.val % 20 * 8000 + k.val
    omega
  | ⟨1, _⟩ =>
    show win7_0.index t (1 : Fin 2) * 1 + 1 * 0 = 0
    omega

/-- Entry (k, q) of the data block at point t is entry ((t % 20) * 8000 + k, q) of the data rows. -/
theorem iblk7_1_apply (c : Dev nD) (t : Fin cfg7.N) (k : Fin 8000) (q : Fin 300) :
    (iblk7 V c 1 t : FVec Ideal S8000x300 .bf16) (ix2 k q)
      = rowsOf7 V c (ix2 ⟨t.val % 20 * 8000 + k.val, row_lt7 (Nat.mod_lt _ (by decide)) k⟩ q) := by
  obtain ⟨-, -, e2, e3, -⟩ := idx_facts7 t
  show V c (Pipeline.arrRef spec7 1) (((cfg7.win 1).blk t).view.emb (ix2 k q)) = V c (Pipeline.arrRef spec7 1) _
  refine congrArg (V c (Pipeline.arrRef spec7 1)) (funext fun a => Fin.ext ?_)
  match a with
  | ⟨0, _⟩ =>
    show win7_1.index t (0 : Fin 2) * 8000 + 1 * k.val = t.val % 20 * 8000 + k.val
    omega
  | ⟨1, _⟩ =>
    show win7_1.index t (1 : Fin 2) * 300 + 1 * q.val = q.val
    omega

/-! ## The accumulator -/

/-- The accumulator's reset value is zero everywhere. -/
theorem pay7_apply (x : S1024x300.Idx) : k7_pay1 (F := Ideal) x = 0 := by
  unfold k7_pay1
  simp only [shapeCast_self]
  exact Ideal.ofBits_zero_f32

/-- The accumulator after two positions that are the same number is the same. -/
theorem outsAt7_congr (c : Dev nD) {a b : ℕ} (hab : a = b) (ha : a < cfg7.N) (hb : b < cfg7.N) :
    outsAt7 V c a ha = outsAt7 V c b hb := by
  subst hab; rfl

/-- One point's step at an entry: zero at a node block's first edge block, the previous accumulator elsewhere, plus
    the point's edge block's part. -/
theorem acc7_point (c : Dev nD) (a : ℕ) (ha : a < cfg7.N) (j : Fin 1024) (q : Fin 300) :
    (outsAt7 V c a ha).2 (ix2 j q)
      = (if a % 20 = 0 then (0 : EReal)
          else (outsAt7 V c (a - 1) (Nat.lt_of_le_of_lt (Nat.sub_le _ _) ha)).2 (ix2 j q))
        + part7 (idsOf7 V c) (rowsOf7 V c) (a / 20 * 1024 + j.val) q (a % 20) := by
  have hstep := scratch_step7 V c ⟨a, ha⟩
  obtain ⟨-, -, -, -, -, -, e6⟩ := idx_facts7 ⟨a, ha⟩
  -- the point's one-hot product, read off the arrays, is the point's edge block's part
  have hpart : ∑ k : Fin 8000,
        (if (iblk7 V c 0 ⟨a, ha⟩ : IVec S8000x1 32) (ix2 k (0 : Fin 1))
            = BitVec.ofNat 32 ((grid7.coords ⟨a, ha⟩ 0).val * 1024 + j.val) then (1 : EReal) else 0)
          * (iblk7 V c 1 ⟨a, ha⟩ : FVec Ideal S8000x300 .bf16) (ix2 k q)
      = part7 (idsOf7 V c) (rowsOf7 V c) (a / 20 * 1024 + j.val) q (a % 20) := by
    unfold part7
    rw [dif_pos (Nat.mod_lt a (by decide : 0 < 20))]
    refine Finset.sum_congr rfl fun k _ => ?_
    rw [iblk7_0_apply V c ⟨a, ha⟩ k, iblk7_1_apply V c ⟨a, ha⟩ k q, e6] <;> rfl
  by_cases h : a % 20 = 0
  · rw [if_pos h]
    rw [if_pos h] at hstep
    rw [show (outsAt7 V c a ha).2 = _ from hstep, k7_pay2_apply, pay7_apply, hpart]
  · rw [if_neg h]
    rw [if_neg h] at hstep
    rw [show (outsAt7 V c a ha).2 = _ from hstep, k7_pay2_apply, hpart] <;> rfl

/-- After edge block e of node block b (position a = 20 b + e) the accumulator holds 0 plus the parts of edge blocks
    0 … e. -/
theorem acc7_fold (c : Dev nD) (b : ℕ) (hb : b < 10) (j : Fin 1024) (q : Fin 300) :
    ∀ (e : ℕ) (he : e < 20) (a : ℕ) (ha : a < cfg7.N), a = b * 20 + e →
      (outsAt7 V c a ha).2 (ix2 j q)
        = 0 + ∑ e' ∈ Finset.range (e + 1), part7 (idsOf7 V c) (rowsOf7 V c) (b * 1024 + j.val) q e'
  | 0, he, a, ha, hab => by
    have h1 : a / 20 = b := by omega
    have h2 : a % 20 = 0 := by omega
    rw [acc7_point, if_pos h2, h1, h2]
    simp only [Finset.sum_range_succ, Finset.sum_range_zero, zero_add]
  | e + 1, he, a, ha, hab => by
    have h1 : a / 20 = b := by omega
    have h2 : a % 20 = e + 1 := by omega
    rw [acc7_point, if_neg (show ¬ a % 20 = 0 by omega), h1, h2,
      acc7_fold c b hb j q e (by omega) (a - 1) _ (by omega), Finset.sum_range_succ _ (e + 1), add_assoc]

/-! ## What a flushing point writes back -/

/-- The last point of node block b writes back the 1024 rows from row 1024 b on of `segOut7`. -/
theorem flushed7_eq (c : Dev nD) (t : Fin cfg7.N) (hf : (cfg7.win 2).flush t = true) :
    (dat7 V c).flushed 2 t
      = ((cfg7.win 2).blk t).view.read (Elt Ideal) (segOut7 (idsOf7 V c) (rowsOf7 V c)) := by
  have h19 : t.val % 20 = 19 := (flush7_2 t).mp hf
  obtain ⟨-, -, -, -, e4, e5, -⟩ := idx_facts7 t
  have hN : t.val < 200 := by
    have h200 : cfg7.N = 200 := N_7
    have := t.isLt
    omega
  have hn : t.val / 20 < 10 := by omega
  show (cfg7.win 2).cut (grid7.coords t) ((dat7 V c).after 2 t) = _
  rw [after7_2, out_flush7 V c t h19]
  funext x
  obtain ⟨j, q, rfl⟩ : ∃ (j : Fin 1024) (q : Fin 300), x = ix2 j q := ⟨x 0, x 1, eq_ix2 x⟩
  show (outsAt7 V c t.val t.isLt).2 (ix2 j q)
    = segOut7 (idsOf7 V c) (rowsOf7 V c) (((cfg7.win 2).blk t).view.emb (ix2 j q))
  have hx0 : ((((cfg7.win 2).blk t).view.emb (ix2 j q)) 0).val = t.val / 20 * 1024 + j.val := by
    show win7_2.index t (0 : Fin 2) * 1024 + 1 * j.val = _
    omega
  have hx1 : (((cfg7.win 2).blk t).view.emb (ix2 j q)) 1 = q := by
    apply Fin.ext
    show win7_2.index t (1 : Fin 2) * 300 + 1 * q.val = q.val
    omega
  have hr : t.val / 20 * 1024 + j.val < 2 ^ 31 := by have := j.isLt; omega
  rw [segOut7_apply _ _ _ (t.val / 20 * 1024 + j.val) q hx0 hx1,
    acc7_fold V c (t.val / 20) hn j q 19 (by decide) t.val t.isLt (by omega)]
  show (0 : EReal) + ∑ e ∈ Finset.range 20, part7 (idsOf7 V c) (rowsOf7 V c) (t.val / 20 * 1024 + j.val) q e = _
  rw [parts_sum7 (idsOf7 V c) (rowsOf7 V c) (t.val / 20 * 1024 + j.val) hr q]

/-! ## The 10 node blocks tile the array -/

/-- An index of the array is in point `t`'s block iff each coordinate is in the block's range on its axis. -/
theorem mem_blk7 (t : Fin cfg7.N) (i : S10240x300.Idx) :
    i ∈ ((cfg7.win 2).blk t).view.set ↔ ∀ a : Fin 2, win7_2.index t a * S1024x300.size a ≤ (i a).val
      ∧ (i a).val < win7_2.index t a * S1024x300.size a + S1024x300.size a := by
  show i ∈ ((View.whole main_v503).slice (win7_2.rect t)).set ↔ _
  rw [View.set_slice_whole, Rect.mem_set_unit]
  exact Iff.rfl

/-- Row r of the array is in the block the last point of node block r / 1024 writes back. -/
theorem cover7 (i : S10240x300.Idx) :
    ∃ t : Fin cfg7.N, (cfg7.win 2).flush t = true ∧ i ∈ ((cfg7.win 2).blk t).view.set := by
  have hi0 : (i 0).val < 10240 := idx2_lt0 i
  have hi1 : (i 1).val < 300 := idx2_lt1 i
  have hn : (i 0).val / 1024 < 10 := by omega
  obtain ⟨t, ht⟩ : ∃ t : Fin cfg7.N, t.val = (i 0).val / 1024 * 20 + 19 := ⟨⟨_, lt_N7 hn (by decide)⟩, rfl⟩
  refine ⟨t, (flush7_2 t).mpr (by omega), ?_⟩
  rw [mem_blk7]
  obtain ⟨-, -, -, -, e4, e5, -⟩ := idx_facts7 t
  intro a
  match a with
  | ⟨0, _⟩ =>
    show win7_2.index t (0 : Fin 2) * 1024 ≤ (i 0).val ∧ (i 0).val < win7_2.index t (0 : Fin 2) * 1024 + 1024
    omega
  | ⟨1, _⟩ =>
    show win7_2.index t (1 : Fin 2) * 300 ≤ (i 1).val ∧ (i 1).val < win7_2.index t (1 : Fin 2) * 300 + 300
    omega

/-! ## The array after the region -/

/-- THE ARRAY after the region: the segment sum of the data rows by the index column. -/
theorem out7_val (c : Dev nD) :
    (dat7 (F := Ideal) V c).arrAt 2 cfg7.N = segOut7 (idsOf7 V c) (rowsOf7 V c) :=
  (dat7 V c).arrAt_eq_of_cover 2 (segOut7 (idsOf7 V c) (rowsOf7 V c)) (fun t hf => flushed7_eq V c t hf) cover7

/-- The output array after the region, at its element type. -/
abbrev outOf7 (c : Dev nD) : FVec Ideal S10240x300 .f32 := (dat7 (F := Ideal) V c).arrAt 2 cfg7.N

/-- Entry (n, q) of the array after the region: 0 plus the sum of the data rows whose index word, read signed, is n. -/
theorem val7 (c : Dev nD) (n : Fin 10240) (q : Fin 300) :
    outOf7 V c (ix2 n q)
      = 0 + ∑ p : Fin 160000,
          if (idsOf7 V c (ix2 p (0 : Fin 1))).toInt = (n.val : Int) then rowsOf7 V c (ix2 p q) else 0 :=
  (congrFun (out7_val V c) (ix2 n q)).trans
    (segOut7_apply (idsOf7 V c) (rowsOf7 V c) (ix2 n q) n.val q rfl rfl)

end Value

end Cert.KernelIdeal.Reg7
-- ==== Proof.KI.Reg8Payload.lean ====
/-
  The region's accumulator payload read at an index, at the ideal values: the accumulator there plus the sum, over the
  2000 rows of the point's edge block, of (1 where the row's index word is the node's row number, 0 elsewhere) times
  the data entry.  The payload is the one-hot segment-sum product of Math/OneHotMatmul.lean at this region's sizes.
-/
import proofs.«411400_j9251359555630_1_alg».proof.Proof.Gen.KernelIdeal.Skeleton
import proofs.«411400_j9251359555630_1_alg».proof.Proof.Math.OneHotMatmul

noncomputable section

namespace Cert.KernelIdeal.Reg8

open Cert.KernelIdeal Cert.KernelIdeal.Gen
open Idealize.ShloMosaic Idealize.ShloMosaic.ValueIdx Idealize.SL.Sem
open scoped BigOperators

/-- The payload is the accumulator plus the transposed one-hot matrix of the index block (against the rows
    `64 * i₀ + 0, 64 * i₀ + 1, …` of node block `i₀`) times the data block: the shape casts are identities. -/
theorem k8_pay2_eq_segPay {F : FTy → Type} [FloatOps F] (i : grid8.Coords) (v7 : Vec F S2000x1 .i32)
    (v15 : Vec F S2000x300 .bf16) (v18 : Vec F S64x300 .f32) :
    k8_pay2 (F := F) i v7 v15 v18
      = Cert.Math.segPay dot_S2000x64_S2000x300_S64x300_0_0_1_1_n_n iota_S1x64_d1_w32
          broadcasts_S2000x1_S2000x64 broadcasts_S1x64_S2000x64 natLt_1_32 bitsLt_bf16_f32
          (Scalar.muli (BitVec.ofNat 32 (i 0).val) 64#32) v7 v15 v18 := by
  unfold k8_pay2 Cert.Math.segPay
  simp only [shapeCast_self] <;> rfl

/-- The payload at entry (j, q) of the node block. -/
theorem k8_pay2_apply (i : grid8.Coords) (ids : IVec S2000x1 32) (hb : FVec Ideal S2000x300 .bf16)
    (acc : FVec Ideal S64x300 .f32) (j : Fin 64) (q : Fin 300) :
    k8_pay2 (F := Ideal) i ids hb acc (ix2 j q)
      = acc (ix2 j q) + ∑ k : Fin 2000,
          (if ids (ix2 k (0 : Fin 1)) = BitVec.ofNat 32 ((i 0).val * 64 + j.val) then (1 : EReal) else 0) * hb (ix2 k q) := by
  rw [k8_pay2_eq_segPay, Cert.Math.segPay_apply dot_S2000x64_S2000x300_S64x300_0_0_1_1_n_n rfl rfl rfl rfl rfl rfl]
  rw [show IntOp.addi (Scalar.muli (BitVec.ofNat 32 (i 0).val) 64#32) (BitVec.ofNat 32 j.val)
      = BitVec.ofNat 32 ((i 0).val * 64 + j.val) from Cert.Math.base_add_lane _ _ _]

end Cert.KernelIdeal.Reg8
-- ==== Proof.KI.Reg8Value.lean ====
/-
  What this region leaves in its output array, at the ideal values: entry (n, q) is 0 plus the sum, over all 10000 edge
  rows p, of the data entry (p, q) where the index word of row p, read signed, is n, and of 0 elsewhere.

  The accumulator of node block b starts from zeros at the block's first edge block and adds, at edge block e, the
  one-hot product of that block's 2000 rows; after the 5 edge blocks it holds the sum over all 5 * 2000 rows, and that
  is what the last of the 5 points writes back as the 64 rows from row 64 b on of the array.  The 1 node blocks
  tile the array's 64 rows.
-/
import proofs.«411400_j9251359555630_1_alg».proof.Proof.Gen.KernelIdeal.Points
import proofs.«411400_j9251359555630_1_alg».proof.Proof.Gen.KernelIdeal.Launch
import proofs.«411400_j9251359555630_1_alg».proof.Proof.KI.Reg8
import proofs.«411400_j9251359555630_1_alg».proof.Proof.KI.Reg8Payload
import proofs.«411400_j9251359555630_1_alg».proof.Proof.Math.SegSum
import Idealize.ShloMosaic.Lib.Pipeline.Value
import Idealize.ShloMosaic.Lib.ValueIdx

set_option maxRecDepth 16384

noncomputable section

namespace Cert.KernelIdeal.Reg8

open Cert.KernelIdeal Cert.KernelIdeal.Gen
open Idealize.ShloMosaic Idealize.ShloMosaic.TcCoe Idealize.SL.Sem Idealize.ShloMosaic.ValueIdx
open Idealize.ShloMosaic.Pipeline (Dat)
open scoped BigOperators

/-! ## The printed index maps over the grid -/

/-- Point t = 5 b + e reads edge block e of the index column and of the data rows and holds node block b of the
    output; its first grid coordinate is b. -/
theorem idx_facts8 : ∀ t : Fin cfg8.N,
    win8_0.index t (0 : Fin 2) = t.val % 5 ∧ win8_0.index t (1 : Fin 2) = 0
    ∧ win8_1.index t (0 : Fin 2) = t.val % 5 ∧ win8_1.index t (1 : Fin 2) = 0
    ∧ win8_2.index t (0 : Fin 2) = t.val / 5 ∧ win8_2.index t (1 : Fin 2) = 0
    ∧ (grid8.coords t 0).val = t.val / 5 :=
  (by decide +kernel : ∀ t : Fin grid8.N, _)

/-- Point 5 b + e is a point of the grid. -/
theorem lt_N8 {b e : ℕ} (hb : b < 1) (he : e < 5) : b * 5 + e < cfg8.N := by
  rw [show cfg8.N = 5 from N_8]; omega

/-- Row k of edge block e is a row of the edge arrays. -/
theorem row_lt8 {e : ℕ} (he : e < 5) (k : Fin 2000) : e * 2000 + k.val < 10000 := by
  have := k.isLt; omega

/-! ## The sums -/

/-- What edge block `e` adds to the entry of node row `r` and column `q`: the sum over the block's rows of the one-hot
    entry times the data entry. -/
def part8 (ids : IVec S10000x1 32) (hs : FVec Ideal S10000x300 .bf16) (r : ℕ) (q : Fin 300) (e : ℕ) : EReal :=
  if he : e < 5 then
    ∑ k : Fin 2000, (if ids (ix2 ⟨e * 2000 + k.val, row_lt8 he k⟩ (0 : Fin 1)) = BitVec.ofNat 32 r then (1 : EReal) else 0)
      * hs (ix2 ⟨e * 2000 + k.val, row_lt8 he k⟩ q)
  else 0

/-- The array the region leaves: entry (n, q) is 0 plus the sum of the data rows whose index word, read signed, is n. -/
def segOut8 (ids : IVec S10000x1 32) (hs : FVec Ideal S10000x300 .bf16) : FVec Ideal S64x300 .f32 := fun x =>
  0 + ∑ p : Fin 10000, if (ids (ix2 p (0 : Fin 1))).toInt = ((x 0).val : Int) then hs (ix2 p (x 1)) else 0

theorem segOut8_apply (ids : IVec S10000x1 32) (hs : FVec Ideal S10000x300 .bf16) (x : S64x300.Idx) (r : ℕ)
    (q : Fin 300) (h0 : (x 0).val = r) (h1 : x 1 = q) :
    segOut8 ids hs x
      = 0 + ∑ p : Fin 10000, if (ids (ix2 p (0 : Fin 1))).toInt = (r : Int) then hs (ix2 p q) else 0 := by
  subst h1
  subst h0
  rfl

/-- The 5 edge blocks' parts add up to the sum over all rows, the one-hot entry read as the signed comparison: a row
    number below 2^31 is the word's signed reading exactly when the word is the row number's word. -/
theorem parts_sum8 (ids : IVec S10000x1 32) (hs : FVec Ideal S10000x300 .bf16) (r : ℕ) (hr : r < 2 ^ 31)
    (q : Fin 300) :
    ∑ e ∈ Finset.range 5, part8 ids hs r q e
      = ∑ p : Fin 10000, if (ids (ix2 p (0 : Fin 1))).toInt = (r : Int) then hs (ix2 p q) else 0 := by
  have hb := Cert.Math.block_sum 5 2000
    (fun p : Fin 10000 => (if ids (ix2 p (0 : Fin 1)) = BitVec.ofNat 32 r then (1 : EReal) else 0) * hs (ix2 p q))
  rw [Finset.sum_range]
  calc ∑ b : Fin 5, part8 ids hs r q b.val
      = ∑ b : Fin 5, ∑ k : Fin 2000,
          (fun p : Fin 10000 => (if ids (ix2 p (0 : Fin 1)) = BitVec.ofNat 32 r then (1 : EReal) else 0) * hs (ix2 p q))
            ⟨b.val * 2000 + k.val, Cert.Math.block_lt b k⟩ := by
        refine Finset.sum_congr rfl fun b _ => ?_
        unfold part8
        rw [dif_pos b.isLt] <;> rfl
    _ = ∑ p : Fin 10000, (if ids (ix2 p (0 : Fin 1)) = BitVec.ofNat 32 r then (1 : EReal) else 0) * hs (ix2 p q) := hb
    _ = _ := by
        refine Finset.sum_congr rfl fun p _ => ?_
        by_cases h : ids (ix2 p (0 : Fin 1)) = BitVec.ofNat 32 r
        · rw [if_pos h, if_pos ((Cert.Math.eq_ofNat_iff_toInt _ r hr).mp h), one_mul]
        · rw [if_neg h, if_neg (fun h' => h ((Cert.Math.eq_ofNat_iff_toInt _ r hr).mpr h')), zero_mul]

section Value
-- the TensorCore's buffer contents when the region is entered
variable (V : (c : Dev nD) → (b : Ref sig .tc) → Buf (Elt Ideal) ((c : Thread nD τ).loc b))

/-- The index column and the data rows as the region finds them. -/
abbrev idsOf8 (c : Dev nD) : IVec S10000x1 32 := V c (Pipeline.arrRef spec8 0)
abbrev rowsOf8 (c : Dev nD) : FVec Ideal S10000x300 .bf16 := V c (Pipeline.arrRef spec8 1)

/-! ## The input blocks, read off their arrays -/

/-- Row k of the index block at point t is row (t % 5) * 2000 + k of the index column. -/
theorem iblk8_0_apply (c : Dev nD) (t : Fin cfg8.N) (k : Fin 2000) :
    (iblk8 V c 0 t : IVec S2000x1 32) (ix2 k (0 : Fin 1))
      = idsOf8 V c (ix2 ⟨t.val % 5 * 2000 + k.val, row_lt8 (Nat.mod_lt _ (by decide)) k⟩ (0 : Fin 1)) := by
  obtain ⟨e0, e1, -⟩ := idx_facts8 t
  show V c (Pipeline.arrRef spec8 0) (((cfg8.win 0).blk t).view.emb (ix2 k (0 : Fin 1))) = V c (Pipeline.arrRef spec8 0) _
  refine congrArg (V c (Pipeline.arrRef spec8 0)) (funext fun a => Fin.ext ?_)
  match a with
  | ⟨0, _⟩ =>
    show win8_0.index t (0 : Fin 2) * 2000 + 1 * k.val = t.val % 5 * 2000 + k.val
    omega
  | ⟨1, _⟩ =>
    show win8_0.index t (1 : Fin 2) * 1 + 1 * 0 = 0
    omega

/-- Entry (k, q) of the data block at point t is entry ((t % 5) * 2000 + k, q) of the data rows. -/
theorem iblk8_1_apply (c : Dev nD) (t : Fin cfg8.N) (k : Fin 2000) (q : Fin 300) :
    (iblk8 V c 1 t : FVec Ideal S2000x300 .bf16) (ix2 k q)
      = rowsOf8 V c (ix2 ⟨t.val % 5 * 2000 + k.val, row_lt8 (Nat.mod_lt _ (by decide)) k⟩ q) := by
  obtain ⟨-, -, e2, e3, -⟩ := idx_facts8 t
  show V c (Pipeline.arrRef spec8 1) (((cfg8.win 1).blk t).view.emb (ix2 k q)) = V c (Pipeline.arrRef spec8 1) _
  refine congrArg (V c (Pipeline.arrRef spec8 1)) (funext fun a => Fin.ext ?_)
  match a with
  | ⟨0, _⟩ =>
    show win8_1.index t (0 : Fin 2) * 2000 + 1 * k.val = t.val % 5 * 2000 + k.val
    omega
  | ⟨1, _⟩ =>
    show win8_1.index t (1 : Fin 2) * 300 + 1 * q.val = q.val
    omega

/-! ## The accumulator -/

/-- The accumulator's reset value is zero everywhere. -/
theorem pay8_apply (x : S64x300.Idx) : k8_pay1 (F := Ideal) x = 0 := by
  unfold k8_pay1
  simp only [shapeCast_self]
  exact Ideal.ofBits_zero_f32

/-- The accumulator after two positions that are the same number is the same. -/
theorem outsAt8_congr (c : Dev nD) {a b : ℕ} (hab : a = b) (ha : a < cfg8.N) (hb : b < cfg8.N) :
    outsAt8 V c a ha = outsAt8 V c b hb := by
  subst hab; rfl

/-- One point's step at an entry: zero at a node block's first edge block, the previous accumulator elsewhere, plus
    the point's edge block's part. -/
theorem acc8_point (c : Dev nD) (a : ℕ) (ha : a < cfg8.N) (j : Fin 64) (q : Fin 300) :
    (outsAt8 V c a ha).2 (ix2 j q)
      = (if a % 5 = 0 then (0 : EReal)
          else (outsAt8 V c (a - 1) (Nat.lt_of_le_of_lt (Nat.sub_le _ _) ha)).2 (ix2 j q))
        + part8 (idsOf8 V c) (rowsOf8 V c) (a / 5 * 64 + j.val) q (a % 5) := by
  have hstep := scratch_step8 V c ⟨a, ha⟩
  obtain ⟨-, -, -, -, -, -, e6⟩ := idx_facts8 ⟨a, ha⟩
  -- the point's one-hot product, read off the arrays, is the point's edge block's part
  have hpart : ∑ k : Fin 2000,
        (if (iblk8 V c 0 ⟨a, ha⟩ : IVec S2000x1 32) (ix2 k (0 : Fin 1))
            = BitVec.ofNat 32 ((grid8.coords ⟨a, ha⟩ 0).val * 64 + j.val) then (1 : EReal) else 0)
          * (iblk8 V c 1 ⟨a, ha⟩ : FVec Ideal S2000x300 .bf16) (ix2 k q)
      = part8 (idsOf8 V c) (rowsOf8 V c) (a / 5 * 64 + j.val) q (a % 5) := by
    unfold part8
    rw [dif_pos (Nat.mod_lt a (by decide : 0 < 5))]
    refine Finset.sum_congr rfl fun k _ => ?_
    rw [iblk8_0_apply V c ⟨a, ha⟩ k, iblk8_1_apply V c ⟨a, ha⟩ k q, e6] <;> rfl
  by_cases h : a % 5 = 0
  · rw [if_pos h]
    rw [if_pos h] at hstep
    rw [show (outsAt8 V c a ha).2 = _ from hstep, k8_pay2_apply, pay8_apply, hpart]
  · rw [if_neg h]
    rw [if_neg h] at hstep
    rw [show (outsAt8 V c a ha).2 = _ from hstep, k8_pay2_apply, hpart] <;> rfl

/-- After edge block e of node block b (position a = 5 b + e) the accumulator holds 0 plus the parts of edge blocks
    0 … e. -/
theorem acc8_fold (c : Dev nD) (b : ℕ) (hb : b < 1) (j : Fin 64) (q : Fin 300) :
    ∀ (e : ℕ) (he : e < 5) (a : ℕ) (ha : a < cfg8.N), a = b * 5 + e →
      (outsAt8 V c a ha).2 (ix2 j q)
        = 0 + ∑ e' ∈ Finset.range (e + 1), part8 (idsOf8 V c) (rowsOf8 V c) (b * 64 + j.val) q e'
  | 0, he, a, ha, hab => by
    have h1 : a / 5 = b := by omega
    have h2 : a % 5 = 0 := by omega
    rw [acc8_point, if_pos h2, h1, h2]
    simp only [Finset.sum_range_succ, Finset.sum_range_zero, zero_add]
  | e + 1, he, a, ha, hab => by
    have h1 : a / 5 = b := by omega
    have h2 : a % 5 = e + 1 := by omega
    rw [acc8_point, if_neg (show ¬ a % 5 = 0 by omega), h1, h2,
      acc8_fold c b hb j q e (by omega) (a - 1) _ (by omega), Finset.sum_range_succ _ (e + 1), add_assoc]

/-! ## What a flushing point writes back -/

/-- The last point of node block b writes back the 64 rows from row 64 b on of `segOut8`. -/
theorem flushed8_eq (c : Dev nD) (t : Fin cfg8.N) (hf : (cfg8.win 2).flush t = true) :
    (dat8 V c).flushed 2 t
      = ((cfg8.win 2).blk t).view.read (Elt Ideal) (segOut8 (idsOf8 V c) (rowsOf8 V c)) := by
  have h19 : t.val % 5 = 4 := (flush8_2 t).mp hf
  obtain ⟨-, -, -, -, e4, e5, -⟩ := idx_facts8 t
  have hN : t.val < 5 := by
    have h200 : cfg8.N = 5 := N_8
    have := t.isLt
    omega
  have hn : t.val / 5 < 1 := by omega
  show (cfg8.win 2).cut (grid8.coords t) ((dat8 V c).after 2 t) = _
  rw [after8_2, out_flush8 V c t h19]
  funext x
  obtain ⟨j, q, rfl⟩ : ∃ (j : Fin 64) (q : Fin 300), x = ix2 j q := ⟨x 0, x 1, eq_ix2 x⟩
  show (outsAt8 V c t.val t.isLt).2 (ix2 j q)
    = segOut8 (idsOf8 V c) (rowsOf8 V c) (((cfg8.win 2).blk t).view.emb (ix2 j q))
  have hx0 : ((((cfg8.win 2).blk t).view.emb (ix2 j q)) 0).val = t.val / 5 * 64 + j.val := by
    show win8_2.index t (0 : Fin 2) * 64 + 1 * j.val = _
    omega
  have hx1 : (((cfg8.win 2).blk t).view.emb (ix2 j q)) 1 = q := by
    apply Fin.ext
    show win8_2.index t (1 : Fin 2) * 300 + 1 * q.val = q.val
    omega
  have hr : t.val / 5 * 64 + j.val < 2 ^ 31 := by have := j.isLt; omega
  rw [segOut8_apply _ _ _ (t.val / 5 * 64 + j.val) q hx0 hx1,
    acc8_fold V c (t.val / 5) hn j q 4 (by decide) t.val t.isLt (by omega)]
  show (0 : EReal) + ∑ e ∈ Finset.range 5, part8 (idsOf8 V c) (rowsOf8 V c) (t.val / 5 * 64 + j.val) q e = _
  rw [parts_sum8 (idsOf8 V c) (rowsOf8 V c) (t.val / 5 * 64 + j.val) hr q]

/-! ## The 1 node blocks tile the array -/

/-- An index of the array is in point `t`'s block iff each coordinate is in the block's range on its axis. -/
theorem mem_blk8 (t : Fin cfg8.N) (i : S64x300.Idx) :
    i ∈ ((cfg8.win 2).blk t).view.set ↔ ∀ a : Fin 2, win8_2.index t a * S64x300.size a ≤ (i a).val
      ∧ (i a).val < win8_2.index t a * S64x300.size a + S64x300.size a := by
  show i ∈ ((View.whole main_v568).slice (win8_2.rect t)).set ↔ _
  rw [View.set_slice_whole, Rect.mem_set_unit]
  exact Iff.rfl

/-- Row r of the array is in the block the last point of node block r / 64 writes back. -/
theorem cover8 (i : S64x300.Idx) :
    ∃ t : Fin cfg8.N, (cfg8.win 2).flush t = true ∧ i ∈ ((cfg8.win 2).blk t).view.set := by
  have hi0 : (i 0).val < 64 := idx2_lt0 i
  have hi1 : (i 1).val < 300 := idx2_lt1 i
  have hn : (i 0).val / 64 < 1 := by omega
  obtain ⟨t, ht⟩ : ∃ t : Fin cfg8.N, t.val = (i 0).val / 64 * 5 + 4 := ⟨⟨_, lt_N8 hn (by decide)⟩, rfl⟩
  refine ⟨t, (flush8_2 t).mpr (by omega), ?_⟩
  rw [mem_blk8]
  obtain ⟨-, -, -, -, e4, e5, -⟩ := idx_facts8 t
  intro a
  match a with
  | ⟨0, _⟩ =>
    show win8_2.index t (0 : Fin 2) * 64 ≤ (i 0).val ∧ (i 0).val < win8_2.index t (0 : Fin 2) * 64 + 64
    omega
  | ⟨1, _⟩ =>
    show win8_2.index t (1 : Fin 2) * 300 ≤ (i 1).val ∧ (i 1).val < win8_2.index t (1 : Fin 2) * 300 + 300
    omega

/-! ## The array after the region -/

/-- THE ARRAY after the region: the segment sum of the data rows by the index column. -/
theorem out8_val (c : Dev nD) :
    (dat8 (F := Ideal) V c).arrAt 2 cfg8.N = segOut8 (idsOf8 V c) (rowsOf8 V c) :=
  (dat8 V c).arrAt_eq_of_cover 2 (segOut8 (idsOf8 V c) (rowsOf8 V c)) (fun t hf => flushed8_eq V c t hf) cover8

/-- The output array after the region, at its element type. -/
abbrev outOf8 (c : Dev nD) : FVec Ideal S64x300 .f32 := (dat8 (F := Ideal) V c).arrAt 2 cfg8.N

/-- Entry (n, q) of the array after the region: 0 plus the sum of the data rows whose index word, read signed, is n. -/
theorem val8 (c : Dev nD) (n : Fin 64) (q : Fin 300) :
    outOf8 V c (ix2 n q)
      = 0 + ∑ p : Fin 10000,
          if (idsOf8 V c (ix2 p (0 : Fin 1))).toInt = (n.val : Int) then rowsOf8 V c (ix2 p q) else 0 :=
  (congrFun (out8_val V c) (ix2 n q)).trans
    (segOut8_apply (idsOf8 V c) (rowsOf8 V c) (ix2 n q) n.val q rfl rfl)

end Value

end Cert.KernelIdeal.Reg8
-- ==== Proof.Bridge.AgreeArgs.lean ====
import proofs.«411400_j9251359555630_1_alg».proof.KernelIdeal
import proofs.«411400_j9251359555630_1_alg».proof.ReferenceIdeal
import Idealize.ShloMosaic.PureOps.Ideal

-- the two programs give a buffer its array type through their signature tables: each side of an equation is checked
-- against the closed array type by evaluating one table at one index, and a structure's fields share one budget
set_option maxHeartbeats 4000000
set_option maxRecDepth 8192

noncomputable section

namespace Cert.Bridge

open Idealize.ShloMosaic Idealize.ShloMosaic.TcCoe Idealize.SL.Sem

variable [Cert.KernelIdeal.Facts] [Cert.ReferenceIdeal.Facts]
variable (m : (ℓ : Loc Cert.KernelIdeal.nD Cert.KernelIdeal.τ Cert.KernelIdeal.sig) → Buf (Elt Ideal) ℓ)
variable (m' : (ℓ : Loc Cert.ReferenceIdeal.nD Cert.ReferenceIdeal.τ Cert.ReferenceIdeal.sig) → Buf (Elt Ideal) ℓ)
variable (c : Dev Cert.KernelIdeal.nD)

/-- The two memories hold the same contents in every argument array. -/
structure Args : Prop where
  a0 : @Eq ((⟨2, ![10000, 128]⟩ : Shape).Idx → EReal) (m' ((c.tc : Thread Cert.ReferenceIdeal.nD Cert.ReferenceIdeal.τ).loc Cert.ReferenceIdeal.main_arg0)) (m ((c.tc : Thread Cert.KernelIdeal.nD Cert.KernelIdeal.τ).loc Cert.KernelIdeal.main_arg0))
  a1 : @Eq ((⟨2, ![2, 160000]⟩ : Shape).Idx → BitVec 32) (m' ((c.tc : Thread Cert.ReferenceIdeal.nD Cert.ReferenceIdeal.τ).loc Cert.ReferenceIdeal.main_arg1)) (m ((c.tc : Thread Cert.KernelIdeal.nD Cert.KernelIdeal.τ).loc Cert.KernelIdeal.main_arg1))
  a2 : @Eq ((⟨1, ![10000]⟩ : Shape).Idx → BitVec 32) (m' ((c.tc : Thread Cert.ReferenceIdeal.nD Cert.ReferenceIdeal.τ).loc Cert.ReferenceIdeal.main_arg2)) (m ((c.tc : Thread Cert.KernelIdeal.nD Cert.KernelIdeal.τ).loc Cert.KernelIdeal.main_arg2))
  a3 : @Eq ((⟨2, ![1, 300]⟩ : Shape).Idx → EReal) (m' ((c.tc : Thread Cert.ReferenceIdeal.nD Cert.ReferenceIdeal.τ).loc Cert.ReferenceIdeal.main_arg3)) (m ((c.tc : Thread Cert.KernelIdeal.nD Cert.KernelIdeal.τ).loc Cert.KernelIdeal.main_arg3))
  a4 : @Eq ((⟨2, ![128, 600]⟩ : Shape).Idx → EReal) (m' ((c.tc : Thread Cert.ReferenceIdeal.nD Cert.ReferenceIdeal.τ).loc Cert.ReferenceIdeal.main_arg4)) (m ((c.tc : Thread Cert.KernelIdeal.nD Cert.KernelIdeal.τ).loc Cert.KernelIdeal.main_arg4))
  a5 : @Eq ((⟨1, ![600]⟩ : Shape).Idx → EReal) (m' ((c.tc : Thread Cert.ReferenceIdeal.nD Cert.ReferenceIdeal.τ).loc Cert.ReferenceIdeal.main_arg5)) (m ((c.tc : Thread Cert.KernelIdeal.nD Cert.KernelIdeal.τ).loc Cert.KernelIdeal.main_arg5))
  a6 : @Eq ((⟨1, ![600]⟩ : Shape).Idx → EReal) (m' ((c.tc : Thread Cert.ReferenceIdeal.nD Cert.ReferenceIdeal.τ).loc Cert.ReferenceIdeal.main_arg6)) (m ((c.tc : Thread Cert.KernelIdeal.nD Cert.KernelIdeal.τ).loc Cert.KernelIdeal.main_arg6))
  a7 : @Eq ((⟨1, ![600]⟩ : Shape).Idx → EReal) (m' ((c.tc : Thread Cert.ReferenceIdeal.nD Cert.ReferenceIdeal.τ).loc Cert.ReferenceIdeal.main_arg7)) (m ((c.tc : Thread Cert.KernelIdeal.nD Cert.KernelIdeal.τ).loc Cert.KernelIdeal.main_arg7))
  a8 : @Eq ((⟨2, ![600, 300]⟩ : Shape).Idx → EReal) (m' ((c.tc : Thread Cert.ReferenceIdeal.nD Cert.ReferenceIdeal.τ).loc Cert.ReferenceIdeal.main_arg8)) (m ((c.tc : Thread Cert.KernelIdeal.nD Cert.KernelIdeal.τ).loc Cert.KernelIdeal.main_arg8))
  a9 : @Eq ((⟨1, ![300]⟩ : Shape).Idx → EReal) (m' ((c.tc : Thread Cert.ReferenceIdeal.nD Cert.ReferenceIdeal.τ).loc Cert.ReferenceIdeal.main_arg9)) (m ((c.tc : Thread Cert.KernelIdeal.nD Cert.KernelIdeal.τ).loc Cert.KernelIdeal.main_arg9))
  a10 : @Eq ((⟨3, ![4, 300, 600]⟩ : Shape).Idx → EReal) (m' ((c.tc : Thread Cert.ReferenceIdeal.nD Cert.ReferenceIdeal.τ).loc Cert.ReferenceIdeal.main_arg10)) (m ((c.tc : Thread Cert.KernelIdeal.nD Cert.KernelIdeal.τ).loc Cert.KernelIdeal.main_arg10))
  a11 : @Eq ((⟨2, ![4, 600]⟩ : Shape).Idx → EReal) (m' ((c.tc : Thread Cert.ReferenceIdeal.nD Cert.ReferenceIdeal.τ).loc Cert.ReferenceIdeal.main_arg11)) (m ((c.tc : Thread Cert.KernelIdeal.nD Cert.KernelIdeal.τ).loc Cert.KernelIdeal.main_arg11))
  a12 : @Eq ((⟨2, ![4, 600]⟩ : Shape).Idx → EReal) (m' ((c.tc : Thread Cert.ReferenceIdeal.nD Cert.ReferenceIdeal.τ).loc Cert.ReferenceIdeal.main_arg12)) (m ((c.tc : Thread Cert.KernelIdeal.nD Cert.KernelIdeal.τ).loc Cert.KernelIdeal.main_arg12))
  a13 : @Eq ((⟨2, ![4, 600]⟩ : Shape).Idx → EReal) (m' ((c.tc : Thread Cert.ReferenceIdeal.nD Cert.ReferenceIdeal.τ).loc Cert.ReferenceIdeal.main_arg13)) (m ((c.tc : Thread Cert.KernelIdeal.nD Cert.KernelIdeal.τ).loc Cert.KernelIdeal.main_arg13))
  a14 : @Eq ((⟨3, ![4, 600, 300]⟩ : Shape).Idx → EReal) (m' ((c.tc : Thread Cert.ReferenceIdeal.nD Cert.ReferenceIdeal.τ).loc Cert.ReferenceIdeal.main_arg14)) (m ((c.tc : Thread Cert.KernelIdeal.nD Cert.KernelIdeal.τ).loc Cert.KernelIdeal.main_arg14))
  a15 : @Eq ((⟨2, ![4, 300]⟩ : Shape).Idx → EReal) (m' ((c.tc : Thread Cert.ReferenceIdeal.nD Cert.ReferenceIdeal.τ).loc Cert.ReferenceIdeal.main_arg15)) (m ((c.tc : Thread Cert.KernelIdeal.nD Cert.KernelIdeal.τ).loc Cert.KernelIdeal.main_arg15))
  a16 : @Eq ((⟨1, ![300]⟩ : Shape).Idx → EReal) (m' ((c.tc : Thread Cert.ReferenceIdeal.nD Cert.ReferenceIdeal.τ).loc Cert.ReferenceIdeal.main_arg16)) (m ((c.tc : Thread Cert.KernelIdeal.nD Cert.KernelIdeal.τ).loc Cert.KernelIdeal.main_arg16))
  a17 : @Eq ((⟨1, ![300]⟩ : Shape).Idx → EReal) (m' ((c.tc : Thread Cert.ReferenceIdeal.nD Cert.ReferenceIdeal.τ).loc Cert.ReferenceIdeal.main_arg17)) (m ((c.tc : Thread Cert.KernelIdeal.nD Cert.KernelIdeal.τ).loc Cert.KernelIdeal.main_arg17))
  a18 : @Eq ((⟨2, ![4, 300]⟩ : Shape).Idx → EReal) (m' ((c.tc : Thread Cert.ReferenceIdeal.nD Cert.ReferenceIdeal.τ).loc Cert.ReferenceIdeal.main_arg18)) (m ((c.tc : Thread Cert.KernelIdeal.nD Cert.KernelIdeal.τ).loc Cert.KernelIdeal.main_arg18))
  a19 : @Eq ((⟨2, ![4, 300]⟩ : Shape).Idx → EReal) (m' ((c.tc : Thread Cert.ReferenceIdeal.nD Cert.ReferenceIdeal.τ).loc Cert.ReferenceIdeal.main_arg19)) (m ((c.tc : Thread Cert.KernelIdeal.nD Cert.KernelIdeal.τ).loc Cert.KernelIdeal.main_arg19))
  a20 : @Eq ((⟨2, ![300, 600]⟩ : Shape).Idx → EReal) (m' ((c.tc : Thread Cert.ReferenceIdeal.nD Cert.ReferenceIdeal.τ).loc Cert.ReferenceIdeal.main_arg20)) (m ((c.tc : Thread Cert.KernelIdeal.nD Cert.KernelIdeal.τ).loc Cert.KernelIdeal.main_arg20))
  a21 : @Eq ((⟨1, ![600]⟩ : Shape).Idx → EReal) (m' ((c.tc : Thread Cert.ReferenceIdeal.nD Cert.ReferenceIdeal.τ).loc Cert.ReferenceIdeal.main_arg21)) (m ((c.tc : Thread Cert.KernelIdeal.nD Cert.KernelIdeal.τ).loc Cert.KernelIdeal.main_arg21))
  a22 : @Eq ((⟨1, ![600]⟩ : Shape).Idx → EReal) (m' ((c.tc : Thread Cert.ReferenceIdeal.nD Cert.ReferenceIdeal.τ).loc Cert.ReferenceIdeal.main_arg22)) (m ((c.tc : Thread Cert.KernelIdeal.nD Cert.KernelIdeal.τ).loc Cert.KernelIdeal.main_arg22))
  a23 : @Eq ((⟨1, ![600]⟩ : Shape).Idx → EReal) (m' ((c.tc : Thread Cert.ReferenceIdeal.nD Cert.ReferenceIdeal.τ).loc Cert.ReferenceIdeal.main_arg23)) (m ((c.tc : Thread Cert.KernelIdeal.nD Cert.KernelIdeal.τ).loc Cert.KernelIdeal.main_arg23))
  a24 : @Eq ((⟨2, ![600, 300]⟩ : Shape).Idx → EReal) (m' ((c.tc : Thread Cert.ReferenceIdeal.nD Cert.ReferenceIdeal.τ).loc Cert.ReferenceIdeal.main_arg24)) (m ((c.tc : Thread Cert.KernelIdeal.nD Cert.KernelIdeal.τ).loc Cert.KernelIdeal.main_arg24))
  a25 : @Eq ((⟨1, ![300]⟩ : Shape).Idx → EReal) (m' ((c.tc : Thread Cert.ReferenceIdeal.nD Cert.ReferenceIdeal.τ).loc Cert.ReferenceIdeal.main_arg25)) (m ((c.tc : Thread Cert.KernelIdeal.nD Cert.KernelIdeal.τ).loc Cert.KernelIdeal.main_arg25))
  a26 : @Eq ((⟨1, ![300]⟩ : Shape).Idx → EReal) (m' ((c.tc : Thread Cert.ReferenceIdeal.nD Cert.ReferenceIdeal.τ).loc Cert.ReferenceIdeal.main_arg26)) (m ((c.tc : Thread Cert.KernelIdeal.nD Cert.KernelIdeal.τ).loc Cert.KernelIdeal.main_arg26))
  a27 : @Eq ((⟨1, ![300]⟩ : Shape).Idx → EReal) (m' ((c.tc : Thread Cert.ReferenceIdeal.nD Cert.ReferenceIdeal.τ).loc Cert.ReferenceIdeal.main_arg27)) (m ((c.tc : Thread Cert.KernelIdeal.nD Cert.KernelIdeal.τ).loc Cert.KernelIdeal.main_arg27))
  a28 : @Eq ((⟨2, ![300, 10]⟩ : Shape).Idx → EReal) (m' ((c.tc : Thread Cert.ReferenceIdeal.nD Cert.ReferenceIdeal.τ).loc Cert.ReferenceIdeal.main_arg28)) (m ((c.tc : Thread Cert.KernelIdeal.nD Cert.KernelIdeal.τ).loc Cert.KernelIdeal.main_arg28))
  a29 : @Eq ((⟨1, ![10]⟩ : Shape).Idx → EReal) (m' ((c.tc : Thread Cert.ReferenceIdeal.nD Cert.ReferenceIdeal.τ).loc Cert.ReferenceIdeal.main_arg29)) (m ((c.tc : Thread Cert.KernelIdeal.nD Cert.KernelIdeal.τ).loc Cert.KernelIdeal.main_arg29))

end Cert.Bridge

end
-- ==== Proof.Bridge.AgreeEntryA.lean ====
import proofs.«411400_j9251359555630_1_alg».proof.Proof.KI.RegionsP
import proofs.«411400_j9251359555630_1_alg».proof.Proof.Ref.Run
import Idealize.ShloMosaic.PureOps.Ideal

-- the two programs give a buffer its array type through their signature tables: each side of an equation is checked
-- against the closed array type by evaluating one table at one index, and a structure's fields share one budget
set_option maxHeartbeats 4000000
set_option maxRecDepth 8192

noncomputable section

namespace Cert.Bridge

open Idealize.ShloMosaic Idealize.ShloMosaic.TcCoe Idealize.SL.Sem

variable [Cert.KernelIdeal.Facts] [Cert.ReferenceIdeal.Facts]
variable (m : (ℓ : Loc Cert.KernelIdeal.nD Cert.KernelIdeal.τ Cert.KernelIdeal.sig) → Buf (Elt Ideal) ℓ)
variable (m' : (ℓ : Loc Cert.ReferenceIdeal.nD Cert.ReferenceIdeal.τ Cert.ReferenceIdeal.sig) → Buf (Elt Ideal) ℓ)
variable (outs : Cert.KernelIdeal.Gen.Outs (F := Ideal)) (c : Dev Cert.KernelIdeal.nD)

/-- Where kernel region 0 is entered, and right before the matching accumulating scatter of the reference, these buffers
    hold the same contents (an array of a narrower float format against one of a wider format is still an equation
    between arrays of extended reals), and the scatter's operand is the zero array. -/
structure Entry0 : Prop where
  v1 : @Eq ((⟨1, ![160000]⟩ : Shape).Idx → BitVec 32) (Cert.KernelIdeal.Gen.V1 m c (Proc.devRef .tc Cert.KernelIdeal.main_v1)) (Cert.ReferenceIdeal.RefRun.R1 m' c (Proc.devRef .tc Cert.ReferenceIdeal.main_v1))
  v3 : @Eq ((⟨1, ![160000]⟩ : Shape).Idx → BitVec 32) (Cert.KernelIdeal.Gen.V1 m c (Proc.devRef .tc Cert.KernelIdeal.main_v3)) (Cert.ReferenceIdeal.RefRun.R1 m' c (Proc.devRef .tc Cert.ReferenceIdeal.main_v3))
  v5 : @Eq ((⟨2, ![64, 300]⟩ : Shape).Idx → EReal) (Cert.KernelIdeal.Gen.V1 m c (Proc.devRef .tc Cert.KernelIdeal.main_v5)) (Cert.ReferenceIdeal.RefRun.R1 m' c (Proc.devRef .tc Cert.ReferenceIdeal.main_v5))
  v13 : @Eq ((⟨2, ![160000, 128]⟩ : Shape).Idx → EReal) (Cert.KernelIdeal.Gen.V1 m c (Proc.devRef .tc Cert.KernelIdeal.main_v13)) (Cert.ReferenceIdeal.RefRun.R1 m' c (Proc.devRef .tc Cert.ReferenceIdeal.main_v12))
  v14 : @Eq ((⟨2, ![160000, 1]⟩ : Shape).Idx → BitVec 32) (Cert.KernelIdeal.Gen.V1 m c (Proc.devRef .tc Cert.KernelIdeal.main_v14)) (Cert.ReferenceIdeal.RefRun.R1 m' c (Proc.devRef .tc Cert.ReferenceIdeal.main_v14))
  zero : @Eq ((⟨2, ![10000, 128]⟩ : Shape).Idx → EReal) (Cert.ReferenceIdeal.RefRun.R1 m' c (Proc.devRef .tc Cert.ReferenceIdeal.main_v13)) (fun _ => (0 : EReal))

/-- Where kernel region 1 is entered, and right before the matching accumulating scatter of the reference, these buffers
    hold the same contents (an array of a narrower float format against one of a wider format is still an equation
    between arrays of extended reals), and the scatter's operand is the zero array. -/
structure Entry1 : Prop where
  v1 : @Eq ((⟨1, ![160000]⟩ : Shape).Idx → BitVec 32) (Cert.KernelIdeal.Gen.V11 m outs c (Proc.devRef .tc Cert.KernelIdeal.main_v1)) (Cert.ReferenceIdeal.RefRun.R4 m' c (Proc.devRef .tc Cert.ReferenceIdeal.main_v1))
  v3 : @Eq ((⟨1, ![160000]⟩ : Shape).Idx → BitVec 32) (Cert.KernelIdeal.Gen.V11 m outs c (Proc.devRef .tc Cert.KernelIdeal.main_v3)) (Cert.ReferenceIdeal.RefRun.R4 m' c (Proc.devRef .tc Cert.ReferenceIdeal.main_v3))
  v5 : @Eq ((⟨2, ![64, 300]⟩ : Shape).Idx → EReal) (Cert.KernelIdeal.Gen.V11 m outs c (Proc.devRef .tc Cert.KernelIdeal.main_v5)) (Cert.ReferenceIdeal.RefRun.R4 m' c (Proc.devRef .tc Cert.ReferenceIdeal.main_v5))
  v73 : @Eq ((⟨2, ![10000, 300]⟩ : Shape).Idx → EReal) (Cert.KernelIdeal.Gen.V11 m outs c (Proc.devRef .tc Cert.KernelIdeal.main_v73)) (Cert.ReferenceIdeal.RefRun.R4 m' c (Proc.devRef .tc Cert.ReferenceIdeal.main_v72))
  v75 : @Eq ((⟨2, ![300, 600]⟩ : Shape).Idx → EReal) (Cert.KernelIdeal.Gen.V11 m outs c (Proc.devRef .tc Cert.KernelIdeal.main_v75)) (Cert.ReferenceIdeal.RefRun.R4 m' c (Proc.devRef .tc Cert.ReferenceIdeal.main_v74))
  v77 : @Eq ((⟨1, ![600]⟩ : Shape).Idx → EReal) (Cert.KernelIdeal.Gen.V11 m outs c (Proc.devRef .tc Cert.KernelIdeal.main_v77)) (Cert.ReferenceIdeal.RefRun.R4 m' c (Proc.devRef .tc Cert.ReferenceIdeal.main_v76))
  v79 : @Eq ((⟨1, ![600]⟩ : Shape).Idx → EReal) (Cert.KernelIdeal.Gen.V11 m outs c (Proc.devRef .tc Cert.KernelIdeal.main_v79)) (Cert.ReferenceIdeal.RefRun.R4 m' c (Proc.devRef .tc Cert.ReferenceIdeal.main_v78))
  v81 : @Eq ((⟨1, ![600]⟩ : Shape).Idx → EReal) (Cert.KernelIdeal.Gen.V11 m outs c (Proc.devRef .tc Cert.KernelIdeal.main_v81)) (Cert.ReferenceIdeal.RefRun.R4 m' c (Proc.devRef .tc Cert.ReferenceIdeal.main_v80))
  v83 : @Eq ((⟨2, ![600, 300]⟩ : Shape).Idx → EReal) (Cert.KernelIdeal.Gen.V11 m outs c (Proc.devRef .tc Cert.KernelIdeal.main_v83)) (Cert.ReferenceIdeal.RefRun.R4 m' c (Proc.devRef .tc Cert.ReferenceIdeal.main_v82))
  v85 : @Eq ((⟨1, ![300]⟩ : Shape).Idx → EReal) (Cert.KernelIdeal.Gen.V11 m outs c (Proc.devRef .tc Cert.KernelIdeal.main_v85)) (Cert.ReferenceIdeal.RefRun.R4 m' c (Proc.devRef .tc Cert.ReferenceIdeal.main_v84))
  v93 : @Eq ((⟨2, ![160000, 300]⟩ : Shape).Idx → EReal) (Cert.KernelIdeal.Gen.V11 m outs c (Proc.devRef .tc Cert.KernelIdeal.main_v93)) (Cert.ReferenceIdeal.RefRun.R4 m' c (Proc.devRef .tc Cert.ReferenceIdeal.main_v91))
  v94 : @Eq ((⟨2, ![160000, 1]⟩ : Shape).Idx → BitVec 32) (Cert.KernelIdeal.Gen.V11 m outs c (Proc.devRef .tc Cert.KernelIdeal.main_v94)) (Cert.ReferenceIdeal.RefRun.R4 m' c (Proc.devRef .tc Cert.ReferenceIdeal.main_v93))
  zero : @Eq ((⟨2, ![10000, 300]⟩ : Shape).Idx → EReal) (Cert.ReferenceIdeal.RefRun.R4 m' c (Proc.devRef .tc Cert.ReferenceIdeal.main_v92)) (fun _ => (0 : EReal))

/-- Where kernel region 2 is entered, and right before the matching accumulating scatter of the reference, these buffers
    hold the same contents (an array of a narrower float format against one of a wider format is still an equation
    between arrays of extended reals), and the scatter's operand is the zero array. -/
structure Entry2 : Prop where
  v1 : @Eq ((⟨1, ![160000]⟩ : Shape).Idx → BitVec 32) (Cert.KernelIdeal.Gen.V21 m outs c (Proc.devRef .tc Cert.KernelIdeal.main_v1)) (Cert.ReferenceIdeal.RefRun.R7 m' c (Proc.devRef .tc Cert.ReferenceIdeal.main_v1))
  v3 : @Eq ((⟨1, ![160000]⟩ : Shape).Idx → BitVec 32) (Cert.KernelIdeal.Gen.V21 m outs c (Proc.devRef .tc Cert.KernelIdeal.main_v3)) (Cert.ReferenceIdeal.RefRun.R7 m' c (Proc.devRef .tc Cert.ReferenceIdeal.main_v3))
  v5 : @Eq ((⟨2, ![64, 300]⟩ : Shape).Idx → EReal) (Cert.KernelIdeal.Gen.V21 m outs c (Proc.devRef .tc Cert.KernelIdeal.main_v5)) (Cert.ReferenceIdeal.RefRun.R7 m' c (Proc.devRef .tc Cert.ReferenceIdeal.main_v5))
  v149 : @Eq ((⟨2, ![10000, 300]⟩ : Shape).Idx → EReal) (Cert.KernelIdeal.Gen.V21 m outs c (Proc.devRef .tc Cert.KernelIdeal.main_v149)) (Cert.ReferenceIdeal.RefRun.R7 m' c (Proc.devRef .tc Cert.ReferenceIdeal.main_v147))
  v150 : @Eq ((⟨2, ![10000, 1]⟩ : Shape).Idx → BitVec 32) (Cert.KernelIdeal.Gen.V21 m outs c (Proc.devRef .tc Cert.KernelIdeal.main_v150)) (Cert.ReferenceIdeal.RefRun.R7 m' c (Proc.devRef .tc Cert.ReferenceIdeal.main_v149))
  v151 : @Eq ((⟨2, ![10000, 300]⟩ : Shape).Idx → EReal) (Cert.KernelIdeal.Gen.V21 m outs c (Proc.devRef .tc Cert.KernelIdeal.main_v151)) (Cert.ReferenceIdeal.RefRun.R7 m' c (Proc.devRef .tc Cert.ReferenceIdeal.main_v147))
  zero : @Eq ((⟨2, ![64, 300]⟩ : Shape).Idx → EReal) (Cert.ReferenceIdeal.RefRun.R7 m' c (Proc.devRef .tc Cert.ReferenceIdeal.main_v148)) (fun _ => (0 : EReal))

end Cert.Bridge

end
-- ==== Proof.Bridge.AgreeEntryB.lean ====
import proofs.«411400_j9251359555630_1_alg».proof.Proof.KI.RegionsP
import proofs.«411400_j9251359555630_1_alg».proof.Proof.Ref.Run
import Idealize.ShloMosaic.PureOps.Ideal

-- the two programs give a buffer its array type through their signature tables: each side of an equation is checked
-- against the closed array type by evaluating one table at one index, and a structure's fields share one budget
set_option maxHeartbeats 4000000
set_option maxRecDepth 8192

noncomputable section

namespace Cert.Bridge

open Idealize.ShloMosaic Idealize.ShloMosaic.TcCoe Idealize.SL.Sem

variable [Cert.KernelIdeal.Facts] [Cert.ReferenceIdeal.Facts]
variable (m : (ℓ : Loc Cert.KernelIdeal.nD Cert.KernelIdeal.τ Cert.KernelIdeal.sig) → Buf (Elt Ideal) ℓ)
variable (m' : (ℓ : Loc Cert.ReferenceIdeal.nD Cert.ReferenceIdeal.τ Cert.ReferenceIdeal.sig) → Buf (Elt Ideal) ℓ)
variable (outs : Cert.KernelIdeal.Gen.Outs (F := Ideal)) (c : Dev Cert.KernelIdeal.nD)

/-- Where kernel region 3 is entered, and right before the matching accumulating scatter of the reference, these buffers
    hold the same contents (an array of a narrower float format against one of a wider format is still an equation
    between arrays of extended reals), and the scatter's operand is the zero array. -/
structure Entry3 : Prop where
  v1 : @Eq ((⟨1, ![160000]⟩ : Shape).Idx → BitVec 32) (Cert.KernelIdeal.Gen.V31 m outs c (Proc.devRef .tc Cert.KernelIdeal.main_v1)) (Cert.ReferenceIdeal.RefRun.R11 m' c (Proc.devRef .tc Cert.ReferenceIdeal.main_v1))
  v3 : @Eq ((⟨1, ![160000]⟩ : Shape).Idx → BitVec 32) (Cert.KernelIdeal.Gen.V31 m outs c (Proc.devRef .tc Cert.KernelIdeal.main_v3)) (Cert.ReferenceIdeal.RefRun.R11 m' c (Proc.devRef .tc Cert.ReferenceIdeal.main_v3))
  v201 : @Eq ((⟨2, ![64, 300]⟩ : Shape).Idx → EReal) (Cert.KernelIdeal.Gen.V31 m outs c (Proc.devRef .tc Cert.KernelIdeal.main_v201)) (Cert.ReferenceIdeal.RefRun.R11 m' c (Proc.devRef .tc Cert.ReferenceIdeal.main_v199))
  v209 : @Eq ((⟨2, ![10000, 300]⟩ : Shape).Idx → EReal) (Cert.KernelIdeal.Gen.V31 m outs c (Proc.devRef .tc Cert.KernelIdeal.main_v209)) (Cert.ReferenceIdeal.RefRun.R11 m' c (Proc.devRef .tc Cert.ReferenceIdeal.main_v207))
  v211 : @Eq ((⟨2, ![300, 600]⟩ : Shape).Idx → EReal) (Cert.KernelIdeal.Gen.V31 m outs c (Proc.devRef .tc Cert.KernelIdeal.main_v211)) (Cert.ReferenceIdeal.RefRun.R11 m' c (Proc.devRef .tc Cert.ReferenceIdeal.main_v209))
  v213 : @Eq ((⟨1, ![600]⟩ : Shape).Idx → EReal) (Cert.KernelIdeal.Gen.V31 m outs c (Proc.devRef .tc Cert.KernelIdeal.main_v213)) (Cert.ReferenceIdeal.RefRun.R11 m' c (Proc.devRef .tc Cert.ReferenceIdeal.main_v211))
  v215 : @Eq ((⟨1, ![600]⟩ : Shape).Idx → EReal) (Cert.KernelIdeal.Gen.V31 m outs c (Proc.devRef .tc Cert.KernelIdeal.main_v215)) (Cert.ReferenceIdeal.RefRun.R11 m' c (Proc.devRef .tc Cert.ReferenceIdeal.main_v213))
  v217 : @Eq ((⟨1, ![600]⟩ : Shape).Idx → EReal) (Cert.KernelIdeal.Gen.V31 m outs c (Proc.devRef .tc Cert.KernelIdeal.main_v217)) (Cert.ReferenceIdeal.RefRun.R11 m' c (Proc.devRef .tc Cert.ReferenceIdeal.main_v215))
  v219 : @Eq ((⟨2, ![600, 300]⟩ : Shape).Idx → EReal) (Cert.KernelIdeal.Gen.V31 m outs c (Proc.devRef .tc Cert.KernelIdeal.main_v219)) (Cert.ReferenceIdeal.RefRun.R11 m' c (Proc.devRef .tc Cert.ReferenceIdeal.main_v217))
  v221 : @Eq ((⟨1, ![300]⟩ : Shape).Idx → EReal) (Cert.KernelIdeal.Gen.V31 m outs c (Proc.devRef .tc Cert.KernelIdeal.main_v221)) (Cert.ReferenceIdeal.RefRun.R11 m' c (Proc.devRef .tc Cert.ReferenceIdeal.main_v219))
  v229 : @Eq ((⟨2, ![160000, 300]⟩ : Shape).Idx → EReal) (Cert.KernelIdeal.Gen.V31 m outs c (Proc.devRef .tc Cert.KernelIdeal.main_v229)) (Cert.ReferenceIdeal.RefRun.R11 m' c (Proc.devRef .tc Cert.ReferenceIdeal.main_v226))
  v230 : @Eq ((⟨2, ![160000, 1]⟩ : Shape).Idx → BitVec 32) (Cert.KernelIdeal.Gen.V31 m outs c (Proc.devRef .tc Cert.KernelIdeal.main_v230)) (Cert.ReferenceIdeal.RefRun.R11 m' c (Proc.devRef .tc Cert.ReferenceIdeal.main_v228))
  zero : @Eq ((⟨2, ![10000, 300]⟩ : Shape).Idx → EReal) (Cert.ReferenceIdeal.RefRun.R11 m' c (Proc.devRef .tc Cert.ReferenceIdeal.main_v227)) (fun _ => (0 : EReal))

/-- Where kernel region 4 is entered, and right before the matching accumulating scatter of the reference, these buffers
    hold the same contents (an array of a narrower float format against one of a wider format is still an equation
    between arrays of extended reals), and the scatter's operand is the zero array. -/
structure Entry4 : Prop where
  v1 : @Eq ((⟨1, ![160000]⟩ : Shape).Idx → BitVec 32) (Cert.KernelIdeal.Gen.V41 m outs c (Proc.devRef .tc Cert.KernelIdeal.main_v1)) (Cert.ReferenceIdeal.RefRun.R13 m' c (Proc.devRef .tc Cert.ReferenceIdeal.main_v1))
  v3 : @Eq ((⟨1, ![160000]⟩ : Shape).Idx → BitVec 32) (Cert.KernelIdeal.Gen.V41 m outs c (Proc.devRef .tc Cert.KernelIdeal.main_v3)) (Cert.ReferenceIdeal.RefRun.R13 m' c (Proc.devRef .tc Cert.ReferenceIdeal.main_v3))
  v201 : @Eq ((⟨2, ![64, 300]⟩ : Shape).Idx → EReal) (Cert.KernelIdeal.Gen.V41 m outs c (Proc.devRef .tc Cert.KernelIdeal.main_v201)) (Cert.ReferenceIdeal.RefRun.R13 m' c (Proc.devRef .tc Cert.ReferenceIdeal.main_v199))
  v285 : @Eq ((⟨2, ![10000, 300]⟩ : Shape).Idx → EReal) (Cert.KernelIdeal.Gen.V41 m outs c (Proc.devRef .tc Cert.KernelIdeal.main_v285)) (Cert.ReferenceIdeal.RefRun.R13 m' c (Proc.devRef .tc Cert.ReferenceIdeal.main_v282))
  v286 : @Eq ((⟨2, ![10000, 1]⟩ : Shape).Idx → BitVec 32) (Cert.KernelIdeal.Gen.V41 m outs c (Proc.devRef .tc Cert.KernelIdeal.main_v286)) (Cert.ReferenceIdeal.RefRun.R13 m' c (Proc.devRef .tc Cert.ReferenceIdeal.main_v284))
  v287 : @Eq ((⟨2, ![10000, 300]⟩ : Shape).Idx → EReal) (Cert.KernelIdeal.Gen.V41 m outs c (Proc.devRef .tc Cert.KernelIdeal.main_v287)) (Cert.ReferenceIdeal.RefRun.R13 m' c (Proc.devRef .tc Cert.ReferenceIdeal.main_v282))
  zero : @Eq ((⟨2, ![64, 300]⟩ : Shape).Idx → EReal) (Cert.ReferenceIdeal.RefRun.R13 m' c (Proc.devRef .tc Cert.ReferenceIdeal.main_v283)) (fun _ => (0 : EReal))

/-- Where kernel region 5 is entered, and right before the matching accumulating scatter of the reference, these buffers
    hold the same contents (an array of a narrower float format against one of a wider format is still an equation
    between arrays of extended reals), and the scatter's operand is the zero array. -/
structure Entry5 : Prop where
  v1 : @Eq ((⟨1, ![160000]⟩ : Shape).Idx → BitVec 32) (Cert.KernelIdeal.Gen.V51 m outs c (Proc.devRef .tc Cert.KernelIdeal.main_v1)) (Cert.ReferenceIdeal.RefRun.R17 m' c (Proc.devRef .tc Cert.ReferenceIdeal.main_v1))
  v3 : @Eq ((⟨1, ![160000]⟩ : Shape).Idx → BitVec 32) (Cert.KernelIdeal.Gen.V51 m outs c (Proc.devRef .tc Cert.KernelIdeal.main_v3)) (Cert.ReferenceIdeal.RefRun.R17 m' c (Proc.devRef .tc Cert.ReferenceIdeal.main_v3))
  v337 : @Eq ((⟨2, ![64, 300]⟩ : Shape).Idx → EReal) (Cert.KernelIdeal.Gen.V51 m outs c (Proc.devRef .tc Cert.KernelIdeal.main_v337)) (Cert.ReferenceIdeal.RefRun.R17 m' c (Proc.devRef .tc Cert.ReferenceIdeal.main_v334))
  v345 : @Eq ((⟨2, ![10000, 300]⟩ : Shape).Idx → EReal) (Cert.KernelIdeal.Gen.V51 m outs c (Proc.devRef .tc Cert.KernelIdeal.main_v345)) (Cert.ReferenceIdeal.RefRun.R17 m' c (Proc.devRef .tc Cert.ReferenceIdeal.main_v342))
  v347 : @Eq ((⟨2, ![300, 600]⟩ : Shape).Idx → EReal) (Cert.KernelIdeal.Gen.V51 m outs c (Proc.devRef .tc Cert.KernelIdeal.main_v347)) (Cert.ReferenceIdeal.RefRun.R17 m' c (Proc.devRef .tc Cert.ReferenceIdeal.main_v344))
  v349 : @Eq ((⟨1, ![600]⟩ : Shape).Idx → EReal) (Cert.KernelIdeal.Gen.V51 m outs c (Proc.devRef .tc Cert.KernelIdeal.main_v349)) (Cert.ReferenceIdeal.RefRun.R17 m' c (Proc.devRef .tc Cert.ReferenceIdeal.main_v346))
  v351 : @Eq ((⟨1, ![600]⟩ : Shape).Idx → EReal) (Cert.KernelIdeal.Gen.V51 m outs c (Proc.devRef .tc Cert.KernelIdeal.main_v351)) (Cert.ReferenceIdeal.RefRun.R17 m' c (Proc.devRef .tc Cert.ReferenceIdeal.main_v348))
  v353 : @Eq ((⟨1, ![600]⟩ : Shape).Idx → EReal) (Cert.KernelIdeal.Gen.V51 m outs c (Proc.devRef .tc Cert.KernelIdeal.main_v353)) (Cert.ReferenceIdeal.RefRun.R17 m' c (Proc.devRef .tc Cert.ReferenceIdeal.main_v350))
  v355 : @Eq ((⟨2, ![600, 300]⟩ : Shape).Idx → EReal) (Cert.KernelIdeal.Gen.V51 m outs c (Proc.devRef .tc Cert.KernelIdeal.main_v355)) (Cert.ReferenceIdeal.RefRun.R17 m' c (Proc.devRef .tc Cert.ReferenceIdeal.main_v352))
  v357 : @Eq ((⟨1, ![300]⟩ : Shape).Idx → EReal) (Cert.KernelIdeal.Gen.V51 m outs c (Proc.devRef .tc Cert.KernelIdeal.main_v357)) (Cert.ReferenceIdeal.RefRun.R17 m' c (Proc.devRef .tc Cert.ReferenceIdeal.main_v354))
  v365 : @Eq ((⟨2, ![160000, 300]⟩ : Shape).Idx → EReal) (Cert.KernelIdeal.Gen.V51 m outs c (Proc.devRef .tc Cert.KernelIdeal.main_v365)) (Cert.ReferenceIdeal.RefRun.R17 m' c (Proc.devRef .tc Cert.ReferenceIdeal.main_v361))
  v366 : @Eq ((⟨2, ![160000, 1]⟩ : Shape).Idx → BitVec 32) (Cert.KernelIdeal.Gen.V51 m outs c (Proc.devRef .tc Cert.KernelIdeal.main_v366)) (Cert.ReferenceIdeal.RefRun.R17 m' c (Proc.devRef .tc Cert.ReferenceIdeal.main_v363))
  zero : @Eq ((⟨2, ![10000, 300]⟩ : Shape).Idx → EReal) (Cert.ReferenceIdeal.RefRun.R17 m' c (Proc.devRef .tc Cert.ReferenceIdeal.main_v362)) (fun _ => (0 : EReal))

end Cert.Bridge

end
-- ==== Proof.Bridge.AgreeEntryC.lean ====
import proofs.«411400_j9251359555630_1_alg».proof.Proof.KI.RegionsP
import proofs.«411400_j9251359555630_1_alg».proof.Proof.Ref.Run
import Idealize.ShloMosaic.PureOps.Ideal

-- the two programs give a buffer its array type through their signature tables: each side of an equation is checked
-- against the closed array type by evaluating one table at one index, and a structure's fields share one budget
set_option maxHeartbeats 4000000
set_option maxRecDepth 8192

noncomputable section

namespace Cert.Bridge

open Idealize.ShloMosaic Idealize.ShloMosaic.TcCoe Idealize.SL.Sem

variable [Cert.KernelIdeal.Facts] [Cert.ReferenceIdeal.Facts]
variable (m : (ℓ : Loc Cert.KernelIdeal.nD Cert.KernelIdeal.τ Cert.KernelIdeal.sig) → Buf (Elt Ideal) ℓ)
variable (m' : (ℓ : Loc Cert.ReferenceIdeal.nD Cert.ReferenceIdeal.τ Cert.ReferenceIdeal.sig) → Buf (Elt Ideal) ℓ)
variable (outs : Cert.KernelIdeal.Gen.Outs (F := Ideal)) (c : Dev Cert.KernelIdeal.nD)

/-- Where kernel region 6 is entered, and right before the matching accumulating scatter of the reference, these buffers
    hold the same contents (an array of a narrower float format against one of a wider format is still an equation
    between arrays of extended reals), and the scatter's operand is the zero array. -/
structure Entry6 : Prop where
  v1 : @Eq ((⟨1, ![160000]⟩ : Shape).Idx → BitVec 32) (Cert.KernelIdeal.Gen.V61 m outs c (Proc.devRef .tc Cert.KernelIdeal.main_v1)) (Cert.ReferenceIdeal.RefRun.R20 m' c (Proc.devRef .tc Cert.ReferenceIdeal.main_v1))
  v3 : @Eq ((⟨1, ![160000]⟩ : Shape).Idx → BitVec 32) (Cert.KernelIdeal.Gen.V61 m outs c (Proc.devRef .tc Cert.KernelIdeal.main_v3)) (Cert.ReferenceIdeal.RefRun.R20 m' c (Proc.devRef .tc Cert.ReferenceIdeal.main_v3))
  v337 : @Eq ((⟨2, ![64, 300]⟩ : Shape).Idx → EReal) (Cert.KernelIdeal.Gen.V61 m outs c (Proc.devRef .tc Cert.KernelIdeal.main_v337)) (Cert.ReferenceIdeal.RefRun.R20 m' c (Proc.devRef .tc Cert.ReferenceIdeal.main_v334))
  v421 : @Eq ((⟨2, ![10000, 300]⟩ : Shape).Idx → EReal) (Cert.KernelIdeal.Gen.V61 m outs c (Proc.devRef .tc Cert.KernelIdeal.main_v421)) (Cert.ReferenceIdeal.RefRun.R20 m' c (Proc.devRef .tc Cert.ReferenceIdeal.main_v417))
  v422 : @Eq ((⟨2, ![10000, 1]⟩ : Shape).Idx → BitVec 32) (Cert.KernelIdeal.Gen.V61 m outs c (Proc.devRef .tc Cert.KernelIdeal.main_v422)) (Cert.ReferenceIdeal.RefRun.R20 m' c (Proc.devRef .tc Cert.ReferenceIdeal.main_v419))
  v423 : @Eq ((⟨2, ![10000, 300]⟩ : Shape).Idx → EReal) (Cert.KernelIdeal.Gen.V61 m outs c (Proc.devRef .tc Cert.KernelIdeal.main_v423)) (Cert.ReferenceIdeal.RefRun.R20 m' c (Proc.devRef .tc Cert.ReferenceIdeal.main_v417))
  zero : @Eq ((⟨2, ![64, 300]⟩ : Shape).Idx → EReal) (Cert.ReferenceIdeal.RefRun.R20 m' c (Proc.devRef .tc Cert.ReferenceIdeal.main_v418)) (fun _ => (0 : EReal))

/-- Where kernel region 7 is entered, and right before the matching accumulating scatter of the reference, these buffers
    hold the same contents (an array of a narrower float format against one of a wider format is still an equation
    between arrays of extended reals), and the scatter's operand is the zero array. -/
structure Entry7 : Prop where
  v481 : @Eq ((⟨2, ![10000, 300]⟩ : Shape).Idx → EReal) (Cert.KernelIdeal.Gen.V71 m outs c (Proc.devRef .tc Cert.KernelIdeal.main_v481)) (Cert.ReferenceIdeal.RefRun.R23 m' c (Proc.devRef .tc Cert.ReferenceIdeal.main_v477))
  v483 : @Eq ((⟨2, ![300, 600]⟩ : Shape).Idx → EReal) (Cert.KernelIdeal.Gen.V71 m outs c (Proc.devRef .tc Cert.KernelIdeal.main_v483)) (Cert.ReferenceIdeal.RefRun.R23 m' c (Proc.devRef .tc Cert.ReferenceIdeal.main_v479))
  v485 : @Eq ((⟨1, ![600]⟩ : Shape).Idx → EReal) (Cert.KernelIdeal.Gen.V71 m outs c (Proc.devRef .tc Cert.KernelIdeal.main_v485)) (Cert.ReferenceIdeal.RefRun.R23 m' c (Proc.devRef .tc Cert.ReferenceIdeal.main_v481))
  v487 : @Eq ((⟨1, ![600]⟩ : Shape).Idx → EReal) (Cert.KernelIdeal.Gen.V71 m outs c (Proc.devRef .tc Cert.KernelIdeal.main_v487)) (Cert.ReferenceIdeal.RefRun.R23 m' c (Proc.devRef .tc Cert.ReferenceIdeal.main_v483))
  v489 : @Eq ((⟨1, ![600]⟩ : Shape).Idx → EReal) (Cert.KernelIdeal.Gen.V71 m outs c (Proc.devRef .tc Cert.KernelIdeal.main_v489)) (Cert.ReferenceIdeal.RefRun.R23 m' c (Proc.devRef .tc Cert.ReferenceIdeal.main_v485))
  v491 : @Eq ((⟨2, ![600, 300]⟩ : Shape).Idx → EReal) (Cert.KernelIdeal.Gen.V71 m outs c (Proc.devRef .tc Cert.KernelIdeal.main_v491)) (Cert.ReferenceIdeal.RefRun.R23 m' c (Proc.devRef .tc Cert.ReferenceIdeal.main_v487))
  v493 : @Eq ((⟨1, ![300]⟩ : Shape).Idx → EReal) (Cert.KernelIdeal.Gen.V71 m outs c (Proc.devRef .tc Cert.KernelIdeal.main_v493)) (Cert.ReferenceIdeal.RefRun.R23 m' c (Proc.devRef .tc Cert.ReferenceIdeal.main_v489))
  v501 : @Eq ((⟨2, ![160000, 300]⟩ : Shape).Idx → EReal) (Cert.KernelIdeal.Gen.V71 m outs c (Proc.devRef .tc Cert.KernelIdeal.main_v501)) (Cert.ReferenceIdeal.RefRun.R23 m' c (Proc.devRef .tc Cert.ReferenceIdeal.main_v496))
  v502 : @Eq ((⟨2, ![160000, 1]⟩ : Shape).Idx → BitVec 32) (Cert.KernelIdeal.Gen.V71 m outs c (Proc.devRef .tc Cert.KernelIdeal.main_v502)) (Cert.ReferenceIdeal.RefRun.R23 m' c (Proc.devRef .tc Cert.ReferenceIdeal.main_v498))
  zero : @Eq ((⟨2, ![10000, 300]⟩ : Shape).Idx → EReal) (Cert.ReferenceIdeal.RefRun.R23 m' c (Proc.devRef .tc Cert.ReferenceIdeal.main_v497)) (fun _ => (0 : EReal))

/-- Where kernel region 8 is entered, and right before the matching accumulating scatter of the reference, these buffers
    hold the same contents (an array of a narrower float format against one of a wider format is still an equation
    between arrays of extended reals), and the scatter's operand is the zero array. -/
structure Entry8 : Prop where
  v565 : @Eq ((⟨1, ![64]⟩ : Shape).Idx → EReal) (Cert.KernelIdeal.Gen.V79 m outs c (Proc.devRef .tc Cert.KernelIdeal.main_v565)) (Cert.ReferenceIdeal.RefRun.R27 m' c (Proc.devRef .tc Cert.ReferenceIdeal.main_v555))
  v566 : @Eq ((⟨2, ![10000, 1]⟩ : Shape).Idx → BitVec 32) (Cert.KernelIdeal.Gen.V79 m outs c (Proc.devRef .tc Cert.KernelIdeal.main_v566)) (Cert.ReferenceIdeal.RefRun.R27 m' c (Proc.devRef .tc Cert.ReferenceIdeal.main_v557))
  v567 : @Eq ((⟨2, ![10000, 300]⟩ : Shape).Idx → EReal) (Cert.KernelIdeal.Gen.V79 m outs c (Proc.devRef .tc Cert.KernelIdeal.main_v567)) (Cert.ReferenceIdeal.RefRun.R27 m' c (Proc.devRef .tc Cert.ReferenceIdeal.main_v551))
  zero : @Eq ((⟨2, ![64, 300]⟩ : Shape).Idx → EReal) (Cert.ReferenceIdeal.RefRun.R27 m' c (Proc.devRef .tc Cert.ReferenceIdeal.main_v556)) (fun _ => (0 : EReal))

end Cert.Bridge

end
-- ==== Proof.Bridge.AgreeVal.lean ====
import proofs.«411400_j9251359555630_1_alg».proof.Proof.KI.RegionsP
import Idealize.ShloMosaic.PureOps.Ideal
import Idealize.ShloMosaic.Lib.ValueIdx

-- the two programs give a buffer its array type through their signature tables: each side of an equation is checked
-- against the closed array type by evaluating one table at one index, and a structure's fields share one budget
set_option maxHeartbeats 4000000
set_option maxRecDepth 8192

noncomputable section

namespace Cert.Bridge

open Idealize.ShloMosaic Idealize.ShloMosaic.TcCoe Idealize.SL.Sem Idealize.ShloMosaic.ValueIdx

open scoped BigOperators

variable [Cert.KernelIdeal.Facts]
variable (m : (ℓ : Loc Cert.KernelIdeal.nD Cert.KernelIdeal.τ Cert.KernelIdeal.sig) → Buf (Elt Ideal) ℓ)
variable (outs : Cert.KernelIdeal.Gen.Outs (F := Ideal)) (c : Dev Cert.KernelIdeal.nD)

/-- What kernel region 0 leaves in its output array: entry (n, q) is the sum of the data rows whose index word, read
    signed, is n. -/
def Val0 : Prop := ∀ (n : Fin 10240) (q : Fin 128),
  (show (⟨2, ![10240, 128]⟩ : Shape).Idx → EReal from outs 2 Cert.KernelIdeal.main_v15 c) (ix2 n q)
    = 0 + ∑ p : Fin 160000, if ((show IVec ⟨2, ![160000, 1]⟩ 32 from Cert.KernelIdeal.Gen.V1 m c (Proc.devRef .tc Cert.KernelIdeal.main_v14)) (ix2 p 0)).toInt = (n.val : Int)
        then (show (⟨2, ![160000, 128]⟩ : Shape).Idx → EReal from Cert.KernelIdeal.Gen.V1 m c (Proc.devRef .tc Cert.KernelIdeal.main_v13)) (ix2 p q) else 0

/-- What kernel region 1 leaves in its output array: entry (n, q) is the sum of the data rows whose index word, read
    signed, is n. -/
def Val1 : Prop := ∀ (n : Fin 10240) (q : Fin 300),
  (show (⟨2, ![10240, 300]⟩ : Shape).Idx → EReal from outs 12 Cert.KernelIdeal.main_v95 c) (ix2 n q)
    = 0 + ∑ p : Fin 160000, if ((show IVec ⟨2, ![160000, 1]⟩ 32 from Cert.KernelIdeal.Gen.V11 m outs c (Proc.devRef .tc Cert.KernelIdeal.main_v94)) (ix2 p 0)).toInt = (n.val : Int)
        then (show (⟨2, ![160000, 300]⟩ : Shape).Idx → EReal from Cert.KernelIdeal.Gen.V11 m outs c (Proc.devRef .tc Cert.KernelIdeal.main_v93)) (ix2 p q) else 0

/-- What kernel region 2 leaves in its output array: entry (n, q) is the sum of the data rows whose index word, read
    signed, is n. -/
def Val2 : Prop := ∀ (n : Fin 64) (q : Fin 300),
  (show (⟨2, ![64, 300]⟩ : Shape).Idx → EReal from outs 22 Cert.KernelIdeal.main_v152 c) (ix2 n q)
    = 0 + ∑ p : Fin 10000, if ((show IVec ⟨2, ![10000, 1]⟩ 32 from Cert.KernelIdeal.Gen.V21 m outs c (Proc.devRef .tc Cert.KernelIdeal.main_v150)) (ix2 p 0)).toInt = (n.val : Int)
        then (show (⟨2, ![10000, 300]⟩ : Shape).Idx → EReal from Cert.KernelIdeal.Gen.V21 m outs c (Proc.devRef .tc Cert.KernelIdeal.main_v151)) (ix2 p q) else 0

/-- What kernel region 3 leaves in its output array: entry (n, q) is the sum of the data rows whose index word, read
    signed, is n. -/
def Val3 : Prop := ∀ (n : Fin 10240) (q : Fin 300),
  (show (⟨2, ![10240, 300]⟩ : Shape).Idx → EReal from outs 32 Cert.KernelIdeal.main_v231 c) (ix2 n q)
    = 0 + ∑ p : Fin 160000, if ((show IVec ⟨2, ![160000, 1]⟩ 32 from Cert.KernelIdeal.Gen.V31 m outs c (Proc.devRef .tc Cert.KernelIdeal.main_v230)) (ix2 p 0)).toInt = (n.val : Int)
        then (show (⟨2, ![160000, 300]⟩ : Shape).Idx → EReal from Cert.KernelIdeal.Gen.V31 m outs c (Proc.devRef .tc Cert.KernelIdeal.main_v229)) (ix2 p q) else 0

/-- What kernel region 4 leaves in its output array: entry (n, q) is the sum of the data rows whose index word, read
    signed, is n. -/
def Val4 : Prop := ∀ (n : Fin 64) (q : Fin 300),
  (show (⟨2, ![64, 300]⟩ : Shape).Idx → EReal from outs 42 Cert.KernelIdeal.main_v288 c) (ix2 n q)
    = 0 + ∑ p : Fin 10000, if ((show IVec ⟨2, ![10000, 1]⟩ 32 from Cert.KernelIdeal.Gen.V41 m outs c (Proc.devRef .tc Cert.KernelIdeal.main_v286)) (ix2 p 0)).toInt = (n.val : Int)
        then (show (⟨2, ![10000, 300]⟩ : Shape).Idx → EReal from Cert.KernelIdeal.Gen.V41 m outs c (Proc.devRef .tc Cert.KernelIdeal.main_v287)) (ix2 p q) else 0

/-- What kernel region 5 leaves in its output array: entry (n, q) is the sum of the data rows whose index word, read
    signed, is n. -/
def Val5 : Prop := ∀ (n : Fin 10240) (q : Fin 300),
  (show (⟨2, ![10240, 300]⟩ : Shape).Idx → EReal from outs 52 Cert.KernelIdeal.main_v367 c) (ix2 n q)
    = 0 + ∑ p : Fin 160000, if ((show IVec ⟨2, ![160000, 1]⟩ 32 from Cert.KernelIdeal.Gen.V51 m outs c (Proc.devRef .tc Cert.KernelIdeal.main_v366)) (ix2 p 0)).toInt = (n.val : Int)
        then (show (⟨2, ![160000, 300]⟩ : Shape).Idx → EReal from Cert.KernelIdeal.Gen.V51 m outs c (Proc.devRef .tc Cert.KernelIdeal.main_v365)) (ix2 p q) else 0

/-- What kernel region 6 leaves in its output array: entry (n, q) is the sum of the data rows whose index word, read
    signed, is n. -/
def Val6 : Prop := ∀ (n : Fin 64) (q : Fin 300),
  (show (⟨2, ![64, 300]⟩ : Shape).Idx → EReal from outs 62 Cert.KernelIdeal.main_v424 c) (ix2 n q)
    = 0 + ∑ p : Fin 10000, if ((show IVec ⟨2, ![10000, 1]⟩ 32 from Cert.KernelIdeal.Gen.V61 m outs c (Proc.devRef .tc Cert.KernelIdeal.main_v422)) (ix2 p 0)).toInt = (n.val : Int)
        then (show (⟨2, ![10000, 300]⟩ : Shape).Idx → EReal from Cert.KernelIdeal.Gen.V61 m outs c (Proc.devRef .tc Cert.KernelIdeal.main_v423)) (ix2 p q) else 0

/-- What kernel region 7 leaves in its output array: entry (n, q) is the sum of the data rows whose index word, read
    signed, is n. -/
def Val7 : Prop := ∀ (n : Fin 10240) (q : Fin 300),
  (show (⟨2, ![10240, 300]⟩ : Shape).Idx → EReal from outs 72 Cert.KernelIdeal.main_v503 c) (ix2 n q)
    = 0 + ∑ p : Fin 160000, if ((show IVec ⟨2, ![160000, 1]⟩ 32 from Cert.KernelIdeal.Gen.V71 m outs c (Proc.devRef .tc Cert.KernelIdeal.main_v502)) (ix2 p 0)).toInt = (n.val : Int)
        then (show (⟨2, ![160000, 300]⟩ : Shape).Idx → EReal from Cert.KernelIdeal.Gen.V71 m outs c (Proc.devRef .tc Cert.KernelIdeal.main_v501)) (ix2 p q) else 0

/-- What kernel region 8 leaves in its output array: entry (n, q) is the sum of the data rows whose index word, read
    signed, is n. -/
def Val8 : Prop := ∀ (n : Fin 64) (q : Fin 300),
  (show (⟨2, ![64, 300]⟩ : Shape).Idx → EReal from outs 80 Cert.KernelIdeal.main_v568 c) (ix2 n q)
    = 0 + ∑ p : Fin 10000, if ((show IVec ⟨2, ![10000, 1]⟩ 32 from Cert.KernelIdeal.Gen.V79 m outs c (Proc.devRef .tc Cert.KernelIdeal.main_v566)) (ix2 p 0)).toInt = (n.val : Int)
        then (show (⟨2, ![10000, 300]⟩ : Shape).Idx → EReal from Cert.KernelIdeal.Gen.V79 m outs c (Proc.devRef .tc Cert.KernelIdeal.main_v567)) (ix2 p q) else 0

end Cert.Bridge

end
-- ==== Proof.Bridge.Agree.lean ====
import proofs.«411400_j9251359555630_1_alg».proof.Proof.Bridge.AgreeArgs
import proofs.«411400_j9251359555630_1_alg».proof.Proof.Bridge.AgreeEntryA
import proofs.«411400_j9251359555630_1_alg».proof.Proof.Bridge.AgreeEntryB
import proofs.«411400_j9251359555630_1_alg».proof.Proof.Bridge.AgreeEntryC
import proofs.«411400_j9251359555630_1_alg».proof.Proof.Bridge.AgreeVal
-- ==== Proof.Bridge.Lemmas.lean ====
/-
  Three facts about single printed operations, used where the two programs spell the same array differently:
  a select on `b < 0` over nonnegative words, rows 0..9999 of a padded [10240 × D] array, and a [n] array taken to
  [n, 1] by a reshape against a broadcast along axis 0.
-/
import Idealize.ShloMosaic.PureOps
import Idealize.ShloMosaic.PureOps.Ideal
import Idealize.ShloMosaic.Lib.Affine
import Idealize.ShloMosaic.Lib.ValueIdx

noncomputable section

namespace Cert.Bridge

open Idealize.ShloMosaic Idealize.ShloMosaic.ValueIdx

/-- A word that is nonnegative read signed is not below zero, so selecting on `b < 0` keeps `b`:
    `select (b < z) (b + k) b = b` whenever `z` is all zeros and every word of `b` is at least 0. -/
theorem select_of_nonneg {s : Shape} (b z k : IVec s 32) (hz : ∀ i, z i = 0#32) (hb : ∀ i, 0 ≤ (b i).toInt) :
    select (cmpi .slt b z) (addi b k) b = b := by
  funext i
  have hc : ¬ (cmpi .slt b z i = 1#1) := by
    show ¬ (IntOp.cmpi .slt (b i) (z i) = 1#1)
    rw [IntOp.cmpi_slt, hz i]
    have h0 : (0#32 : BitVec 32).toInt = 0 := by decide
    have := hb i
    omega
  show Scalar.select (cmpi .slt b z i) (addi b k i) (b i) = b i
  exact if_neg hc

/-- Rows 0..9999 of a [10240 × D] array: entry (n, q) of the slice at offset (0, 0) is entry (n, q) of the array. -/
theorem slice_rows_apply {D : Nat} (x : (⟨2, ![10240, D]⟩ : Shape).Idx → EReal)
    (h : (⟨2, ![10240, D]⟩ : Shape).Slices ![0, 0] ⟨2, ![10000, D]⟩) (n : Fin 10000) (q : Fin D) :
    extractStridedSlice ⟨2, ![10000, D]⟩ ![0, 0] x h (ix2 n q) = x (ix2 ⟨n.val, by omega⟩ q) := by
  simp only [extractStridedSlice]
  congr 1
  funext a
  match a with
  | ⟨0, _⟩ => first | exact Fin.ext (Nat.zero_add _) | exact Fin.ext (by simp)
  | ⟨1, _⟩ => first | exact Fin.ext (Nat.zero_add _) | exact Fin.ext (by simp)

/-- Reshaping a [n] array to [n, 1] and broadcasting it along axis 0 into [n, 1] are the same array: entry (p, 0) is
    entry p of the operand. -/
theorem reshape_col_eq_bcast {α : Type} {n : Nat} (x : (⟨1, ![n]⟩ : Shape).Idx → α)
    (hc : (⟨1, ![n]⟩ : Shape).ShapeCasts ⟨2, ![n, 1]⟩)
    (hb : (⟨1, ![n]⟩ : Shape).BroadcastsInDim ⟨2, ![n, 1]⟩ ![0]) :
    shapeCast ⟨2, ![n, 1]⟩ x hc = broadcastInDim ⟨2, ![n, 1]⟩ ![0] hb x := by
  funext j
  unfold shapeCast broadcastInDim
  congr 1
  refine Shape.reshapeEquiv_eq_of_rowMajor hc ?_
  rw [Shape.rowMajor_val_one, Shape.rowMajor_val_two]
  -- the column coordinate of a [n, 1] index is 0, and where n = 1 the row coordinate is 0 too
  have h1 : (j 1).val = 0 := by have := idx2_lt1 j; omega
  have h0 : (j 0).val < n := idx2_lt0 j
  by_cases hn : (⟨1, ![n]⟩ : Shape).size 0 = 1
  · have hn' : n = 1 := hn
    simp only [dif_pos hn, h1]
    show 0 = (j 0).val * 1 + 0
    omega
  · simp only [dif_neg hn, h1]
    show (j (![0] 0)).val = (j 0).val * 1 + 0
    show (j 0).val = (j 0).val * 1 + 0
    omega

end Cert.Bridge

end
-- ==== Proof.Bridge.G01.lean ====
/-
  A fact shared by the first two host stretches: over the extended reals a change of float format leaves an array as
  it is.
-/
import Idealize.ShloMosaic.PureOps.Ideal
import Idealize.ShloMosaic.Lib.ValueIdx

noncomputable section

namespace Cert.Bridge

open Idealize.ShloMosaic Idealize.ShloMosaic.ValueIdx

/-- Over the extended reals, narrowing an array's float format leaves the array as it is. -/
theorem g01_truncf_bf16_id {s : Shape} (x : FVec Ideal s .f32) (h : FTy.bits .bf16 < FTy.bits .f32) :
    (truncf .bf16 x h : s.Idx → EReal) = x :=
  funext fun i => truncf_apply x h i

end Cert.Bridge

end
-- ==== Proof.Bridge.Gap0.lean ====
/-
  The host operations before the first kernel region.

  Both programs begin with the same preparation of their inputs: the two rows of the edge list, the virtual node's
  embedding laid out once per graph, the source rows of the node features gathered along the edges, and the
  destination row laid out as a column of index words.  The kernel program first narrows the node features to a
  16-bit float format; over the extended reals a change of float format is the identity, so the gathered rows are the
  same arrays.  The kernel program lays the destination row out as a column by a reshape, the reference by
  broadcasting along a new unit axis: the same column.  The reference alone also prepares the zero array its
  accumulating scatter starts from.
-/
import proofs.«411400_j9251359555630_1_alg».proof.Proof.Bridge.Agree
import proofs.«411400_j9251359555630_1_alg».proof.Proof.Bridge.Lemmas
import proofs.«411400_j9251359555630_1_alg».proof.Proof.Bridge.G01
import Idealize.ShloMosaic.PureOps.Ideal.Laws
import Idealize.ShloMosaic.Lib.StableHlo.Run
import Idealize.ShloMosaic.Lib.ValueIdx

noncomputable section

namespace Cert.Bridge

open Idealize.ShloMosaic Idealize.ShloMosaic.TcCoe Idealize.SL.Sem Idealize.ShloMosaic.ValueIdx
open Idealize.ShloMosaic.StableHlo

variable [Cert.KernelIdeal.Facts] [Cert.ReferenceIdeal.Facts]

/-! ## The preparation, over any two valuations that agree on the arguments it reads -/

section Chain

variable (VK : Valuation Cert.KernelIdeal.τ Cert.KernelIdeal.sig (Elt Ideal))
variable (VR : Valuation Cert.ReferenceIdeal.τ Cert.ReferenceIdeal.sig (Elt Ideal))

set_option maxRecDepth 16384 in
/-- Row 0 of the edge list (the source words), as a vector: the same cut and reshape of the same argument. -/
theorem gap0_v1
    (ha1 : (VK (Proc.devRef .tc Cert.KernelIdeal.main_arg1) : (⟨2, ![2, 160000]⟩ : Shape).Idx → BitVec 32) = VR (Proc.devRef .tc Cert.ReferenceIdeal.main_arg1)) :
    (after Cert.KernelIdeal.Gen.hostOps0 VK (Proc.devRef .tc Cert.KernelIdeal.main_v1) : (⟨1, ![160000]⟩ : Shape).Idx → BitVec 32)
      = after Cert.ReferenceIdeal.RefRun.ops0 VR (Proc.devRef .tc Cert.ReferenceIdeal.main_v1) := by
  simp only [Cert.KernelIdeal.Gen.hostOps0, Cert.ReferenceIdeal.RefRun.ops0]
  after_results_simp
  rw [ha1]
  all_goals try simp only [TRef.ofBuf, TRef.toBuf, cast_eq]
  all_goals rfl

set_option maxRecDepth 16384 in
/-- Row 1 of the edge list (the destination words), as a vector. -/
theorem gap0_v3
    (ha1 : (VK (Proc.devRef .tc Cert.KernelIdeal.main_arg1) : (⟨2, ![2, 160000]⟩ : Shape).Idx → BitVec 32) = VR (Proc.devRef .tc Cert.ReferenceIdeal.main_arg1)) :
    (after Cert.KernelIdeal.Gen.hostOps0 VK (Proc.devRef .tc Cert.KernelIdeal.main_v3) : (⟨1, ![160000]⟩ : Shape).Idx → BitVec 32)
      = after Cert.ReferenceIdeal.RefRun.ops0 VR (Proc.devRef .tc Cert.ReferenceIdeal.main_v3) := by
  simp only [Cert.KernelIdeal.Gen.hostOps0, Cert.ReferenceIdeal.RefRun.ops0]
  after_results_simp
  rw [ha1]
  all_goals try simp only [TRef.ofBuf, TRef.toBuf, cast_eq]
  all_goals rfl

set_option maxRecDepth 16384 in
/-- The virtual node's embedding, one copy per graph: the same reshape and broadcast of the same argument. -/
theorem gap0_v5
    (ha3 : (VK (Proc.devRef .tc Cert.KernelIdeal.main_arg3) : (⟨2, ![1, 300]⟩ : Shape).Idx → EReal) = VR (Proc.devRef .tc Cert.ReferenceIdeal.main_arg3)) :
    (after Cert.KernelIdeal.Gen.hostOps0 VK (Proc.devRef .tc Cert.KernelIdeal.main_v5) : (⟨2, ![64, 300]⟩ : Shape).Idx → EReal)
      = after Cert.ReferenceIdeal.RefRun.ops0 VR (Proc.devRef .tc Cert.ReferenceIdeal.main_v5) := by
  simp only [Cert.KernelIdeal.Gen.hostOps0, Cert.ReferenceIdeal.RefRun.ops0]
  after_results_simp
  rw [ha3]
  all_goals try simp only [TRef.ofBuf, TRef.toBuf, cast_eq]
  all_goals rfl

set_option maxRecDepth 16384 in
set_option maxHeartbeats 4000000 in
/-- The node features gathered at the source words.  The kernel program's narrowing of the features leaves the array of
    extended reals as it is, and the source words (negative ones wrapped by the number of nodes) are computed alike from
    the same edge row. -/
theorem gap0_v13
    (ha0 : (VK (Proc.devRef .tc Cert.KernelIdeal.main_arg0) : (⟨2, ![10000, 128]⟩ : Shape).Idx → EReal) = VR (Proc.devRef .tc Cert.ReferenceIdeal.main_arg0))
    (ha1 : (VK (Proc.devRef .tc Cert.KernelIdeal.main_arg1) : (⟨2, ![2, 160000]⟩ : Shape).Idx → BitVec 32) = VR (Proc.devRef .tc Cert.ReferenceIdeal.main_arg1)) :
    (after Cert.KernelIdeal.Gen.hostOps0 VK (Proc.devRef .tc Cert.KernelIdeal.main_v13) : (⟨2, ![160000, 128]⟩ : Shape).Idx → EReal)
      = after Cert.ReferenceIdeal.RefRun.ops0 VR (Proc.devRef .tc Cert.ReferenceIdeal.main_v12) := by
  simp only [Cert.KernelIdeal.Gen.hostOps0, Cert.ReferenceIdeal.RefRun.ops0]
  after_results_simp
  rw [g01_truncf_bf16_id]
  rw [ha0, ha1]
  all_goals try simp only [TRef.ofBuf, TRef.toBuf, cast_eq]
  all_goals rfl

set_option maxRecDepth 16384 in
/-- The destination row as a column.  The kernel program reshapes the row, the reference broadcasts it along the new
    axis of extent one: the same column (both rows being the same cut of the same argument). -/
theorem gap0_v14
    (ha1 : (VK (Proc.devRef .tc Cert.KernelIdeal.main_arg1) : (⟨2, ![2, 160000]⟩ : Shape).Idx → BitVec 32) = VR (Proc.devRef .tc Cert.ReferenceIdeal.main_arg1)) :
    (after Cert.KernelIdeal.Gen.hostOps0 VK (Proc.devRef .tc Cert.KernelIdeal.main_v14) : (⟨2, ![160000, 1]⟩ : Shape).Idx → BitVec 32)
      = after Cert.ReferenceIdeal.RefRun.ops0 VR (Proc.devRef .tc Cert.ReferenceIdeal.main_v14) := by
  simp only [Cert.KernelIdeal.Gen.hostOps0, Cert.ReferenceIdeal.RefRun.ops0]
  after_results_simp
  rw [ha1]
  exact reshape_col_eq_bcast (n := 160000) _
    Cert.KernelIdeal.Facts₀.shapeCasts_S160000_S160000x1 Cert.ReferenceIdeal.Facts₀.bcast_S160000_S160000x1_0

set_option maxRecDepth 16384 in
/-- The operand the reference's first scatter accumulates into: the zero constant spread over the array. -/
theorem gap0_zero :
    (after Cert.ReferenceIdeal.RefRun.ops0 VR (Proc.devRef .tc Cert.ReferenceIdeal.main_v13) : (⟨2, ![10000, 128]⟩ : Shape).Idx → EReal)
      = fun _ => (0 : EReal) := by
  simp only [Cert.ReferenceIdeal.RefRun.ops0]
  after_results_simp
  funext j
  exact Idealize.ShloMosaic.Ideal.ofBits_zero_f32

end Chain

/-! ## From the launch to the entry of region 0 -/

section Gap

variable (m : (ℓ : Loc Cert.KernelIdeal.nD Cert.KernelIdeal.τ Cert.KernelIdeal.sig) → Buf (Elt Ideal) ℓ)
variable (m' : (ℓ : Loc Cert.ReferenceIdeal.nD Cert.ReferenceIdeal.τ Cert.ReferenceIdeal.sig) → Buf (Elt Ideal) ℓ)
variable (outs : Cert.KernelIdeal.Gen.Outs (F := Ideal)) (c : Dev Cert.KernelIdeal.nD)

/-- From memories that agree on the arguments, the two programs reach their first accumulation with the same edge
    rows, the same per-graph embedding, the same gathered source rows and the same column of destination words. -/
theorem gap0 (hA : Args m m' c) : Entry0 m m' c := by
  -- at launch a buffer holds what the memory holds there, on either side; the two memories hold the same in the arguments
  have l0 : @Eq ((⟨2, ![10000, 128]⟩ : Shape).Idx → EReal) (Cert.KernelIdeal.Gen.V0 m c (Proc.devRef .tc Cert.KernelIdeal.main_arg0)) (Cert.ReferenceIdeal.RefRun.R0 m' c (Proc.devRef .tc Cert.ReferenceIdeal.main_arg0)) := hA.a0.symm
  have l1 : @Eq ((⟨2, ![2, 160000]⟩ : Shape).Idx → BitVec 32) (Cert.KernelIdeal.Gen.V0 m c (Proc.devRef .tc Cert.KernelIdeal.main_arg1)) (Cert.ReferenceIdeal.RefRun.R0 m' c (Proc.devRef .tc Cert.ReferenceIdeal.main_arg1)) := hA.a1.symm
  have l3 : @Eq ((⟨2, ![1, 300]⟩ : Shape).Idx → EReal) (Cert.KernelIdeal.Gen.V0 m c (Proc.devRef .tc Cert.KernelIdeal.main_arg3)) (Cert.ReferenceIdeal.RefRun.R0 m' c (Proc.devRef .tc Cert.ReferenceIdeal.main_arg3)) := hA.a3.symm
  exact
    { v1 := by rw [Cert.ReferenceIdeal.RefRun.R1_eq]; exact gap0_v1 (Cert.KernelIdeal.Gen.V0 m c) (Cert.ReferenceIdeal.RefRun.R0 m' c) l1
      v3 := by rw [Cert.ReferenceIdeal.RefRun.R1_eq]; exact gap0_v3 (Cert.KernelIdeal.Gen.V0 m c) (Cert.ReferenceIdeal.RefRun.R0 m' c) l1
      v5 := by rw [Cert.ReferenceIdeal.RefRun.R1_eq]; exact gap0_v5 (Cert.KernelIdeal.Gen.V0 m c) (Cert.ReferenceIdeal.RefRun.R0 m' c) l3
      v13 := by rw [Cert.ReferenceIdeal.RefRun.R1_eq]; exact gap0_v13 (Cert.KernelIdeal.Gen.V0 m c) (Cert.ReferenceIdeal.RefRun.R0 m' c) l0 l1
      v14 := by rw [Cert.ReferenceIdeal.RefRun.R1_eq]; exact gap0_v14 (Cert.KernelIdeal.Gen.V0 m c) (Cert.ReferenceIdeal.RefRun.R0 m' c) l1
      zero := by rw [Cert.ReferenceIdeal.RefRun.R1_eq]; exact gap0_zero (Cert.ReferenceIdeal.RefRun.R0 m' c) }

end Gap

end Cert.Bridge

end
-- ==== Proof.Bridge.ArgsKeptR.lean ====
/- Every argument buffer holds its launch contents after each operation list of the reference: no host operation
   writes an argument.  One step per list, each from the step before. -/
import proofs.«411400_j9251359555630_1_alg».proof.Proof.Ref.Run

noncomputable section

namespace Cert.Bridge

open Idealize.ShloMosaic Idealize.ShloMosaic.TcCoe Idealize.SL.Sem Idealize.ShloMosaic.StableHlo
open Cert.ReferenceIdeal Cert.ReferenceIdeal.RefRun

variable {F : FTy → Type} [FloatOps F] [Facts]
variable (m : (ℓ : Loc nD τ sig) → Buf (Elt F) ℓ) (c : Dev nD)

/-- At launch every buffer holds what the memory holds. -/
theorem Rkept_0 : ∀ r ∈ argRefs, R0 m c (Proc.devRef .tc r) = m (c, Proc.devRef .tc r) := fun _ _ => rfl
/-- No argument is written by the operations of list 0. -/
theorem Rkept_1 : ∀ r ∈ argRefs, R1 m c (Proc.devRef .tc r) = m (c, Proc.devRef .tc r) := fun r hr =>
  (R1_keep m c r (ops0_keepArgs r hr)).trans (Rkept_0 m c r hr)
/-- No argument is written by the operations of list 1. -/
theorem Rkept_2 : ∀ r ∈ argRefs, R2 m c (Proc.devRef .tc r) = m (c, Proc.devRef .tc r) := fun r hr =>
  (R2_keep m c r (ops1_keepArgs r hr)).trans (Rkept_1 m c r hr)
/-- No argument is written by the operations of list 2. -/
theorem Rkept_3 : ∀ r ∈ argRefs, R3 m c (Proc.devRef .tc r) = m (c, Proc.devRef .tc r) := fun r hr =>
  (R3_keep m c r (ops2_keepArgs r hr)).trans (Rkept_2 m c r hr)
/-- No argument is written by the operations of list 3. -/
theorem Rkept_4 : ∀ r ∈ argRefs, R4 m c (Proc.devRef .tc r) = m (c, Proc.devRef .tc r) := fun r hr =>
  (R4_keep m c r (ops3_keepArgs r hr)).trans (Rkept_3 m c r hr)
/-- No argument is written by the operations of list 4. -/
theorem Rkept_5 : ∀ r ∈ argRefs, R5 m c (Proc.devRef .tc r) = m (c, Proc.devRef .tc r) := fun r hr =>
  (R5_keep m c r (ops4_keepArgs r hr)).trans (Rkept_4 m c r hr)
/-- No argument is written by the operations of list 5. -/
theorem Rkept_6 : ∀ r ∈ argRefs, R6 m c (Proc.devRef .tc r) = m (c, Proc.devRef .tc r) := fun r hr =>
  (R6_keep m c r (ops5_keepArgs r hr)).trans (Rkept_5 m c r hr)
/-- No argument is written by the operations of list 6. -/
theorem Rkept_7 : ∀ r ∈ argRefs, R7 m c (Proc.devRef .tc r) = m (c, Proc.devRef .tc r) := fun r hr =>
  (R7_keep m c r (ops6_keepArgs r hr)).trans (Rkept_6 m c r hr)
/-- No argument is written by the operations of list 7. -/
theorem Rkept_8 : ∀ r ∈ argRefs, R8 m c (Proc.devRef .tc r) = m (c, Proc.devRef .tc r) := fun r hr =>
  (R8_keep m c r (ops7_keepArgs r hr)).trans (Rkept_7 m c r hr)
/-- No argument is written by the operations of list 8. -/
theorem Rkept_9 : ∀ r ∈ argRefs, R9 m c (Proc.devRef .tc r) = m (c, Proc.devRef .tc r) := fun r hr =>
  (R9_keep m c r (ops8_keepArgs r hr)).trans (Rkept_8 m c r hr)
/-- No argument is written by the operations of list 9. -/
theorem Rkept_10 : ∀ r ∈ argRefs, R10 m c (Proc.devRef .tc r) = m (c, Proc.devRef .tc r) := fun r hr =>
  (R10_keep m c r (ops9_keepArgs r hr)).trans (Rkept_9 m c r hr)
/-- No argument is written by the operations of list 10. -/
theorem Rkept_11 : ∀ r ∈ argRefs, R11 m c (Proc.devRef .tc r) = m (c, Proc.devRef .tc r) := fun r hr =>
  (R11_keep m c r (ops10_keepArgs r hr)).trans (Rkept_10 m c r hr)
/-- No argument is written by the operations of list 11. -/
theorem Rkept_12 : ∀ r ∈ argRefs, R12 m c (Proc.devRef .tc r) = m (c, Proc.devRef .tc r) := fun r hr =>
  (R12_keep m c r (ops11_keepArgs r hr)).trans (Rkept_11 m c r hr)
/-- No argument is written by the operations of list 12. -/
theorem Rkept_13 : ∀ r ∈ argRefs, R13 m c (Proc.devRef .tc r) = m (c, Proc.devRef .tc r) := fun r hr =>
  (R13_keep m c r (ops12_keepArgs r hr)).trans (Rkept_12 m c r hr)
/-- No argument is written by the operations of list 13. -/
theorem Rkept_14 : ∀ r ∈ argRefs, R14 m c (Proc.devRef .tc r) = m (c, Proc.devRef .tc r) := fun r hr =>
  (R14_keep m c r (ops13_keepArgs r hr)).trans (Rkept_13 m c r hr)
/-- No argument is written by the operations of list 14. -/
theorem Rkept_15 : ∀ r ∈ argRefs, R15 m c (Proc.devRef .tc r) = m (c, Proc.devRef .tc r) := fun r hr =>
  (R15_keep m c r (ops14_keepArgs r hr)).trans (Rkept_14 m c r hr)
/-- No argument is written by the operations of list 15. -/
theorem Rkept_16 : ∀ r ∈ argRefs, R16 m c (Proc.devRef .tc r) = m (c, Proc.devRef .tc r) := fun r hr =>
  (R16_keep m c r (ops15_keepArgs r hr)).trans (Rkept_15 m c r hr)
/-- No argument is written by the operations of list 16. -/
theorem Rkept_17 : ∀ r ∈ argRefs, R17 m c (Proc.devRef .tc r) = m (c, Proc.devRef .tc r) := fun r hr =>
  (R17_keep m c r (ops16_keepArgs r hr)).trans (Rkept_16 m c r hr)
/-- No argument is written by the operations of list 17. -/
theorem Rkept_18 : ∀ r ∈ argRefs, R18 m c (Proc.devRef .tc r) = m (c, Proc.devRef .tc r) := fun r hr =>
  (R18_keep m c r (ops17_keepArgs r hr)).trans (Rkept_17 m c r hr)
/-- No argument is written by the operations of list 18. -/
theorem Rkept_19 : ∀ r ∈ argRefs, R19 m c (Proc.devRef .tc r) = m (c, Proc.devRef .tc r) := fun r hr =>
  (R19_keep m c r (ops18_keepArgs r hr)).trans (Rkept_18 m c r hr)
/-- No argument is written by the operations of list 19. -/
theorem Rkept_20 : ∀ r ∈ argRefs, R20 m c (Proc.devRef .tc r) = m (c, Proc.devRef .tc r) := fun r hr =>
  (R20_keep m c r (ops19_keepArgs r hr)).trans (Rkept_19 m c r hr)
/-- No argument is written by the operations of list 20. -/
theorem Rkept_21 : ∀ r ∈ argRefs, R21 m c (Proc.devRef .tc r) = m (c, Proc.devRef .tc r) := fun r hr =>
  (R21_keep m c r (ops20_keepArgs r hr)).trans (Rkept_20 m c r hr)
/-- No argument is written by the operations of list 21. -/
theorem Rkept_22 : ∀ r ∈ argRefs, R22 m c (Proc.devRef .tc r) = m (c, Proc.devRef .tc r) := fun r hr =>
  (R22_keep m c r (ops21_keepArgs r hr)).trans (Rkept_21 m c r hr)
/-- No argument is written by the operations of list 22. -/
theorem Rkept_23 : ∀ r ∈ argRefs, R23 m c (Proc.devRef .tc r) = m (c, Proc.devRef .tc r) := fun r hr =>
  (R23_keep m c r (ops22_keepArgs r hr)).trans (Rkept_22 m c r hr)
/-- No argument is written by the operations of list 23. -/
theorem Rkept_24 : ∀ r ∈ argRefs, R24 m c (Proc.devRef .tc r) = m (c, Proc.devRef .tc r) := fun r hr =>
  (R24_keep m c r (ops23_keepArgs r hr)).trans (Rkept_23 m c r hr)
/-- No argument is written by the operations of list 24. -/
theorem Rkept_25 : ∀ r ∈ argRefs, R25 m c (Proc.devRef .tc r) = m (c, Proc.devRef .tc r) := fun r hr =>
  (R25_keep m c r (ops24_keepArgs r hr)).trans (Rkept_24 m c r hr)
/-- No argument is written by the operations of list 25. -/
theorem Rkept_26 : ∀ r ∈ argRefs, R26 m c (Proc.devRef .tc r) = m (c, Proc.devRef .tc r) := fun r hr =>
  (R26_keep m c r (ops25_keepArgs r hr)).trans (Rkept_25 m c r hr)
/-- No argument is written by the operations of list 26. -/
theorem Rkept_27 : ∀ r ∈ argRefs, R27 m c (Proc.devRef .tc r) = m (c, Proc.devRef .tc r) := fun r hr =>
  (R27_keep m c r (ops26_keepArgs r hr)).trans (Rkept_26 m c r hr)
/-- No argument is written by the operations of list 27. -/
theorem Rkept_28 : ∀ r ∈ argRefs, R28 m c (Proc.devRef .tc r) = m (c, Proc.devRef .tc r) := fun r hr =>
  (R28_keep m c r (ops27_keepArgs r hr)).trans (Rkept_27 m c r hr)
/-- No argument is written by the operations of list 28. -/
theorem Rkept_29 : ∀ r ∈ argRefs, R29 m c (Proc.devRef .tc r) = m (c, Proc.devRef .tc r) := fun r hr =>
  (R29_keep m c r (ops28_keepArgs r hr)).trans (Rkept_28 m c r hr)

end Cert.Bridge

end
-- ==== Proof.LibHostRead.lean ====
/- Host operations of the two programs read at an index, at the ideal instance: a gather of whole rows by a column
   of index words, the accumulating scatter of whole rows (and of single entries) by a column of index words, the
   concatenation of two vectors, the host's column sum and matrix product.  Every statement is over literal-rank
   shapes of arbitrary extents, so both programs (edge lists of 1600000 and of 1700000 entries) use the same lemma. -/
import Idealize.ShloMosaic.PureOps.Ideal
import Idealize.ShloMosaic.PureOps.Ideal.Laws
import Idealize.ShloMosaic.Lib.ValueIdx
import Idealize.ShloMosaic.Lib.StableHlo.Predicate
import Idealize.ShloMosaic.Lib.Pipeline.Value

noncomputable section

namespace Cert.HostRead

open Idealize.ShloMosaic Idealize.ShloMosaic.ValueIdx
open scoped BigOperators

/-- A gather of whole rows of an [N × D] table by an [M × 1] column of index words (jnp's `table[idx]`): row `p` of
    the result is the table's row at the word read signed and clamped into [0, N-1]. -/
theorem rowGather_apply {α : Type} {N M D w : Nat} (d : GatherDims ⟨2, ![N, D]⟩ ⟨2, ![M, 1]⟩ ⟨2, ![M, D]⟩)
    (hoff : d.offsetDims = [1]) (hcoll : d.collapsedSliceDims = [0]) (hob : d.operandBatchingDims = [])
    (hsb : d.startIndicesBatchingDims = []) (hsim : d.startIndexMap = [0]) (hivd : d.indexVectorDim = 1)
    (x : (⟨2, ![N, D]⟩ : Shape).Idx → α) (idx : IVec ⟨2, ![M, 1]⟩ w) (p : Fin M) (q : Fin D) (hN : 0 < N) :
    Host.gather d x idx (ix2 p q) = x (ix2 ⟨min (idx (ix2 p 0)).toInt.toNat (N - 1), by omega⟩ q) := by
  obtain ⟨od, cd, ob, sb, sm, ivd, ss, wf⟩ := d
  subst hoff hcoll hob hsb hsim hivd
  set d : GatherDims ⟨2, ![N, D]⟩ ⟨2, ![M, 1]⟩ ⟨2, ![M, D]⟩ := ⟨[1], [0], [], [], [0], 1, ss, wf⟩ with hd
  have hsl : ss 0 = 1 := d.slice_collapsed 0 (List.mem_singleton.mpr rfl)
  have hb : ∀ a : Fin 2, a ∉ d.operandBatchingDims := fun a => List.not_mem_nil
  unfold Host.gather
  congr 1
  funext a
  refine Fin.ext ?_
  match a with
  | ⟨0, _⟩ =>
    show d.start (ix2 p q) idx 0 + d.batchCoord (ix2 p q) 0 + d.offCoord (ix2 p q) 0 = min (idx (ix2 p 0)).toInt.toNat (N - 1)
    rw [GatherDims.batchCoord_eq_zero _ _ _ (hb 0),
      GatherDims.offCoord_eq_zero _ _ _ (fun h => ((GatherDims.mem_sKept _ _).mp h).1 (List.mem_singleton.mpr rfl))]
    simp only [Nat.add_zero]
    unfold GatherDims.start
    rw [dif_pos (show (0 : Fin 2) ∈ d.startIndexMap from List.mem_singleton.mpr rfl)]
    have hsi : d.siIdx (ix2 p q) ⟨List.idxOf (0 : Fin 2) d.startIndexMap,
        List.idxOf_lt_length_iff.2 (List.mem_singleton.mpr rfl)⟩ = ix2 p 0 := by
      funext b; refine Fin.ext ?_
      match b with
      | ⟨0, _⟩ => rfl
      | ⟨1, _⟩ => rfl
    rw [hsi]
    show min (idx (ix2 p 0)).toInt.toNat (N - ss 0) = _
    rw [hsl]
  | ⟨1, _⟩ =>
    show d.start (ix2 p q) idx 1 + d.batchCoord (ix2 p q) 1 + d.offCoord (ix2 p q) 1 = q.val
    rw [GatherDims.batchCoord_eq_zero _ _ _ (hb 1)]
    have hst : d.start (ix2 p q) idx 1 = 0 := by
      unfold GatherDims.start
      rw [dif_neg (show (1 : Fin 2) ∉ [(0 : Fin 2)] by decide)]
    rw [hst]
    unfold GatherDims.offCoord
    have hk : (1 : Fin 2) ∈ d.sKept := (by decide : (1 : Fin 2) ∈ (List.finRange 2).filter (· ∉ [(0 : Fin 2)] ++ []))
    rw [dif_pos hk]
    simp only [Nat.zero_add]
    rfl

/-- Where an update entry (p, q') of the row scatter lands: on operand axis 0 the start is the index word of row `p`
    read signed and the window coordinate is 0 (the axis is inserted); on axis 1 the start is 0 and the window
    coordinate is `q'`. So it lands at (n, q) exactly when the word is `n` and `q' = q`. -/
theorem row_resultIdx_iff {N M D w : Nat}
    (wf : ScatterDims.WF ⟨2, ![N, D]⟩ ⟨2, ![M, 1]⟩ ⟨2, ![M, D]⟩ [1] [0] [0] 1)
    (idx : IVec ⟨2, ![M, 1]⟩ w) (p : Fin M) (q' : Fin D) (n : Fin N) (q : Fin D) :
    (⟨[1], [0], [0], 1, wf⟩ : ScatterDims ⟨2, ![N, D]⟩ ⟨2, ![M, 1]⟩ ⟨2, ![M, D]⟩).resultIdx? (ix2 p q') idx = some (ix2 n q)
      ↔ (idx (ix2 p 0)).toInt = (n.val : Int) ∧ q' = q := by
  set d : ScatterDims ⟨2, ![N, D]⟩ ⟨2, ![M, 1]⟩ ⟨2, ![M, D]⟩ := ⟨[1], [0], [0], 1, wf⟩ with hd
  have hs0 : d.start (ix2 p q') idx 0 = (idx (ix2 p 0)).toInt := by
    unfold ScatterDims.start
    rw [dif_pos (show (0 : Fin 2) ∈ d.scatterDimsToOperandDims from List.mem_singleton.mpr rfl)]
    congr 2
    funext b; refine Fin.ext ?_
    match b with
    | ⟨0, _⟩ => rfl
    | ⟨1, _⟩ => rfl
  have hs1 : d.start (ix2 p q') idx 1 = 0 := by
    unfold ScatterDims.start
    rw [dif_neg (show (1 : Fin 2) ∉ [(0 : Fin 2)] by decide)]
  have hw0 : d.window (ix2 p q') 0 = 0 := by
    unfold ScatterDims.window
    have hk : (0 : Fin 2) ∉ d.sKept := (by decide : (0 : Fin 2) ∉ (List.finRange 2).filter (· ∉ [(0 : Fin 2)]))
    rw [dif_neg hk]
  have hw1 : d.window (ix2 p q') 1 = q'.val := by
    unfold ScatterDims.window
    have hk : (1 : Fin 2) ∈ d.sKept := (by decide : (1 : Fin 2) ∈ (List.finRange 2).filter (· ∉ [(0 : Fin 2)]))
    rw [dif_pos hk]
    rfl
  unfold ScatterDims.resultIdx?
  split
  · rename_i h
    rw [Option.some.injEq, funext_iff, Fin.forall_fin_two]
    have h0 := h 0
    have h1 := h 1
    rw [hs0, hw0] at h0
    rw [hs1, hw1] at h1
    simp only [Fin.ext_iff, hs0, hs1, hw0, hw1]
    show ((idx (ix2 p 0)).toInt + ((0 : Nat) : Int)).toNat = n.val ∧ ((0 : Int) + (q'.val : Int)).toNat = q.val ↔ _
    constructor
    · rintro ⟨a, b⟩; constructor <;> omega
    · rintro ⟨a, b⟩; constructor <;> omega
  · rename_i h
    constructor
    · intro hh; exact absurd hh (by simp)
    · rintro ⟨a, b⟩
      exfalso; apply h
      rw [Fin.forall_fin_two, hs0, hs1, hw0, hw1]
      have hn : n.val < N := n.isLt
      have hq : q'.val < D := q'.isLt
      refine ⟨⟨by omega, ?_⟩, ⟨by omega, ?_⟩⟩
      · show (idx (ix2 p 0)).toInt + ((0 : Nat) : Int) < (N : Int); omega
      · show (0 : Int) + (q'.val : Int) < (D : Int); omega

/-- The accumulating scatter of the rows of an [M × D] update into an [N × D] operand by an [M × 1] column of index
    words: entry (n, q) gains every update entry (p, q) whose word, read signed, is `n`. -/
theorem rowScatterAdd_apply {N M D w : Nat} (d : ScatterDims ⟨2, ![N, D]⟩ ⟨2, ![M, 1]⟩ ⟨2, ![M, D]⟩)
    (huw : d.updateWindowDims = [1]) (hiw : d.insertedWindowDims = [0]) (hsd : d.scatterDimsToOperandDims = [0])
    (hivd : d.indexVectorDim = 1)
    (x : (⟨2, ![N, D]⟩ : Shape).Idx → EReal) (idx : IVec ⟨2, ![M, 1]⟩ w) (upd : (⟨2, ![M, D]⟩ : Shape).Idx → EReal)
    (n : Fin N) (q : Fin D) :
    Ideal.hostScatterAdd d x idx upd (ix2 n q)
      = x (ix2 n q) + ∑ p : Fin M, if (idx (ix2 p 0)).toInt = (n.val : Int) then upd (ix2 p q) else 0 := by
  obtain ⟨uw, iw, sd, ivd, wf⟩ := d
  subst huw hiw hsd hivd
  unfold Ideal.hostScatterAdd
  congr 1
  rw [Finset.sum_filter, sum_idx2]
  refine Finset.sum_congr rfl fun p _ => ?_
  rw [Finset.sum_congr rfl (fun b _ => if_congr (row_resultIdx_iff wf idx p b n q) rfl rfl)]
  by_cases hI : (idx (ix2 p 0)).toInt = (n.val : Int)
  · simp [hI]
  · simp [hI]

/-- A rank-1 index set is its one coordinate range … -/
def idxEquiv1 {n : Nat} : (⟨1, ![n]⟩ : Shape).Idx ≃ Fin n where
  toFun i := i 0
  invFun p := ix1 p
  left_inv i := (eq_ix1 i).symm
  right_inv _ := rfl
/-- … so a sum over it is the sum over the coordinate. -/
theorem sum_idx1 {R : Type*} [AddCommMonoid R] {n : Nat} (f : (⟨1, ![n]⟩ : Shape).Idx → R) :
    ∑ i, f i = ∑ a : Fin n, f (ix1 a) := by
  rw [← Equiv.sum_comp (idxEquiv1 (n := n)).symm f]
  rfl

/-- Where update entry `p` of the vector scatter lands: the start on the operand's one axis is the index word of row
    `p` read signed, the window coordinate 0. So it lands at `n` exactly when the word is `n`. -/
theorem vec_resultIdx_iff {N M w : Nat}
    (wf : ScatterDims.WF ⟨1, ![N]⟩ ⟨2, ![M, 1]⟩ ⟨1, ![M]⟩ [] [0] [0] 1)
    (idx : IVec ⟨2, ![M, 1]⟩ w) (p : Fin M) (n : Fin N) :
    (⟨[], [0], [0], 1, wf⟩ : ScatterDims ⟨1, ![N]⟩ ⟨2, ![M, 1]⟩ ⟨1, ![M]⟩).resultIdx? (ix1 p) idx = some (ix1 n)
      ↔ (idx (ix2 p 0)).toInt = (n.val : Int) := by
  set d : ScatterDims ⟨1, ![N]⟩ ⟨2, ![M, 1]⟩ ⟨1, ![M]⟩ := ⟨[], [0], [0], 1, wf⟩ with hd
  have hs0 : d.start (ix1 p) idx 0 = (idx (ix2 p 0)).toInt := by
    unfold ScatterDims.start
    rw [dif_pos (show (0 : Fin 1) ∈ d.scatterDimsToOperandDims from List.mem_singleton.mpr rfl)]
    congr 2
    funext b; refine Fin.ext ?_
    match b with
    | ⟨0, _⟩ => rfl
    | ⟨1, _⟩ => rfl
  have hw0 : d.window (ix1 p) 0 = 0 := by
    unfold ScatterDims.window
    have hk : (0 : Fin 1) ∉ d.sKept := (by decide : (0 : Fin 1) ∉ (List.finRange 1).filter (· ∉ [(0 : Fin 1)]))
    rw [dif_neg hk]
  unfold ScatterDims.resultIdx?
  split
  · rename_i h
    rw [Option.some.injEq, funext_iff, Fin.forall_fin_one]
    have h0 := h 0
    rw [hs0, hw0] at h0
    simp only [Fin.ext_iff, hs0, hw0]
    show ((idx (ix2 p 0)).toInt + ((0 : Nat) : Int)).toNat = n.val ↔ _
    constructor
    · intro a; omega
    · intro a; omega
  · rename_i h
    constructor
    · intro hh; exact absurd hh (by simp)
    · intro a
      exfalso; apply h
      rw [Fin.forall_fin_one, hs0, hw0]
      have hn : n.val < N := n.isLt
      refine ⟨by omega, ?_⟩
      show (idx (ix2 p 0)).toInt + ((0 : Nat) : Int) < (N : Int); omega

/-- The same for a vector operand and a vector of updates. -/
theorem vecScatterAdd_apply {N M w : Nat} (d : ScatterDims ⟨1, ![N]⟩ ⟨2, ![M, 1]⟩ ⟨1, ![M]⟩)
    (huw : d.updateWindowDims = []) (hiw : d.insertedWindowDims = [0]) (hsd : d.scatterDimsToOperandDims = [0])
    (hivd : d.indexVectorDim = 1)
    (x : (⟨1, ![N]⟩ : Shape).Idx → EReal) (idx : IVec ⟨2, ![M, 1]⟩ w) (upd : (⟨1, ![M]⟩ : Shape).Idx → EReal)
    (n : Fin N) :
    Ideal.hostScatterAdd d x idx upd (ix1 n)
      = x (ix1 n) + ∑ p : Fin M, if (idx (ix2 p 0)).toInt = (n.val : Int) then upd (ix1 p) else 0 := by
  obtain ⟨uw, iw, sd, ivd, wf⟩ := d
  subst huw hiw hsd hivd
  unfold Ideal.hostScatterAdd
  congr 1
  rw [Finset.sum_filter, sum_idx1]
  exact Finset.sum_congr rfl fun p _ => if_congr (vec_resultIdx_iff wf idx p n) rfl rfl

/-- Two vectors laid end to end, read at a position: the first below its length, the second from there on. -/
theorem concat2_apply {α : Type} {A B : Nat} (a : (⟨1, ![A]⟩ : Shape).Idx → α) (b : (⟨1, ![B]⟩ : Shape).Idx → α)
    (h : Shape.Concatenates [(⟨1, ![A]⟩ : Shape), ⟨1, ![B]⟩] ⟨1, ![A + B]⟩ 0) (j : Fin (A + B)) :
    concatenate (⟨1, ![A + B]⟩ : Shape) 0 [⟨⟨1, ![A]⟩, a⟩, ⟨⟨1, ![B]⟩, b⟩] h (ix1 j)
      = if hj : j.val < A then a (ix1 ⟨j.val, hj⟩) else b (ix1 ⟨j.val - A, by omega⟩) := by
  split
  · rename_i hj
    exact concatenate_pair_apply_left 0 a b h (ix1 j) rfl (ix1 ⟨j.val, hj⟩) (fun c => by
      match c with
      | ⟨0, _⟩ => rfl)
  · rename_i hj
    exact concatenate_pair_apply_right 0 a b h (ix1 j) rfl rfl (ix1 ⟨j.val - A, by omega⟩)
      (fun c hc => absurd (Subsingleton.elim _ _) hc) (by show j.val - A + A = j.val; omega)

/-- The host's sum of an [N × D] array over its first axis, from the initial value `init`. -/
theorem colReduceAdd_apply {N D : Nat} (h' : (⟨2, ![N, D]⟩ : Shape).ReducesTo [0] ⟨1, ![D]⟩)
    (x : (⟨2, ![N, D]⟩ : Shape).Idx → EReal) (init : EReal) (q : Fin D) :
    Ideal.hostReduceAdd h' x init (ix1 q) = init + ∑ n : Fin N, x (ix2 n q) := by
  have h : (⟨2, ![N, D]⟩ : Shape).Reduces [0] ⟨1, ![D]⟩ := ⟨h'.1, Nat.one_pos, h'.2⟩
  rw [Ideal.hostReduceAdd_single h' h]
  show init + ∑ k : Fin N, x (h.lift (ix1 q) k) = _
  congr 1
  refine Finset.sum_congr rfl fun k _ => ?_
  congr 1
  funext c; refine Fin.ext ?_
  match c with
  | ⟨0, _⟩ => rfl
  | ⟨1, _⟩ => rfl

/-- The host's product of an [N × K] by a [K × D] array (contracting the first's axis 1 with the second's axis 0). -/
theorem dot_apply {N K D : Nat} (d : DotDims ⟨2, ![N, K]⟩ ⟨2, ![K, D]⟩ ⟨2, ![N, D]⟩)
    (hlc : d.lhsContracting = [1]) (hrc : d.rhsContracting = [0]) (hln : d.lhsNonContracting = [0])
    (hrn : d.rhsNonContracting = [1]) (hlb : d.lhsBatch = []) (hrb : d.rhsBatch = [])
    (l : (⟨2, ![N, K]⟩ : Shape).Idx → EReal) (r : (⟨2, ![K, D]⟩ : Shape).Idx → EReal) (n : Fin N) (q : Fin D) :
    (∑ k : d.contr.Idx, l (d.lhsIdx (ix2 n q) k) * r (d.rhsIdx (ix2 n q) k)) = ∑ k : Fin K, l (ix2 n k) * r (ix2 k q) := by
  obtain ⟨lc, rc, ln, rn, lb, rb, wf⟩ := d
  subst hlc hrc hln hrn hlb hrb
  set d : DotDims ⟨2, ![N, K]⟩ ⟨2, ![K, D]⟩ ⟨2, ![N, D]⟩ := ⟨[1], [0], [0], [1], [], [], wf⟩ with hd
  have hr : d.contr.rank = 1 := rfl
  have hs : d.contr.size ⟨0, by omega⟩ = K := rfl
  rw [← Equiv.sum_comp (contrEquiv1 d K hr hs).symm]
  refine Finset.sum_congr rfl fun k _ => ?_
  have hl : d.lhsIdx (ix2 n q) ((contrEquiv1 d K hr hs).symm k) = ix2 n k := by
    funext a; refine Fin.ext ?_
    match a with
    | ⟨0, _⟩ => rfl
    | ⟨1, _⟩ => rfl
  have hr' : d.rhsIdx (ix2 n q) ((contrEquiv1 d K hr hs).symm k) = ix2 k q := by
    funext a; refine Fin.ext ?_
    match a with
    | ⟨0, _⟩ => rfl
    | ⟨1, _⟩ => rfl
  rw [hl, hr']

end Cert.HostRead

end
-- ==== Proof.Bridge.Gap1.lean ====
/-
  The host operations between the first and the second kernel region: the first graph-convolution layer after its
  edge aggregation, and the preparation of the second aggregation's operands.

  The kernel program cuts the leading ten thousand rows out of its padded region output; the reference has the
  scatter's result of that size directly.  From there on the two programs apply the same operations in the same order:
  the node features plus the aggregate, a linear map with bias, a normalisation over the nodes (mean, variance with the
  guarded divisor, scale and shift), the positive part, a second linear map with bias, the outer normalisation, the
  positive part again, and the virtual node's embedding of each node's graph added on.  Then the next layer's
  parameters are cut out of the stacked arguments, and the new node features are gathered along the edges — the kernel
  program narrowing them to a 16-bit float format first, which over the extended reals changes nothing — beside the
  destination row laid out as a column of index words.
-/
import proofs.«411400_j9251359555630_1_alg».proof.Proof.Bridge.Agree
import proofs.«411400_j9251359555630_1_alg».proof.Proof.Bridge.ArgsKeptR
import proofs.«411400_j9251359555630_1_alg».proof.Proof.Bridge.Lemmas
import proofs.«411400_j9251359555630_1_alg».proof.Proof.Bridge.G01
import proofs.«411400_j9251359555630_1_alg».proof.Proof.LibHostRead
import Idealize.ShloMosaic.PureOps.Ideal.Laws
import Idealize.ShloMosaic.Lib.StableHlo.Run
import Idealize.ShloMosaic.Lib.ValueIdx

noncomputable section

namespace Cert.Bridge

open Idealize.ShloMosaic Idealize.ShloMosaic.TcCoe Idealize.SL.Sem Idealize.ShloMosaic.ValueIdx
open Idealize.ShloMosaic.StableHlo
open scoped BigOperators

variable [Cert.KernelIdeal.Facts] [Cert.ReferenceIdeal.Facts]

/-! ## The layer, over any two valuations that agree on what it reads -/

section Chain

variable (VK : Valuation Cert.KernelIdeal.τ Cert.KernelIdeal.sig (Elt Ideal))
variable (VR : Valuation Cert.ReferenceIdeal.τ Cert.ReferenceIdeal.sig (Elt Ideal))

set_option maxRecDepth 16384 in
set_option maxHeartbeats 8000000 in
/-- The layer's output.  From valuations that hold the same aggregate (the kernel program's cut of its padded region
    output, the reference's scatter), the same node features, weights, biases, scales, shifts, graph ids and virtual-node
    embedding, both lines of operations leave the same array in the buffer of the new node features. -/
theorem gap1_chain
    (hagg : (extractStridedSlice Cert.KernelIdeal.S10000x128 ![0, 0]
              (VK (Proc.devRef .tc Cert.KernelIdeal.main_v15) : (⟨Cert.KernelIdeal.S10240x128, .f32⟩ : BufTy).Contents (Elt Ideal))
              Cert.KernelIdeal.Facts₀.slices_S10240x128_S10000x128_0_0 : (⟨2, ![10000, 128]⟩ : Shape).Idx → EReal)
            = Host.scatterAdd (F := Ideal) (φ := .f32) Cert.ReferenceIdeal.scatter_S10000x128_S160000x1_S160000x128_1_0_0_1
                (VR (Proc.devRef .tc Cert.ReferenceIdeal.main_v13)) (VR (Proc.devRef .tc Cert.ReferenceIdeal.main_v14))
                (VR (Proc.devRef .tc Cert.ReferenceIdeal.main_v12)))
    (ha0 : (VK (Proc.devRef .tc Cert.KernelIdeal.main_arg0) : (⟨2, ![10000, 128]⟩ : Shape).Idx → EReal) = VR (Proc.devRef .tc Cert.ReferenceIdeal.main_arg0))
    (ha4 : (VK (Proc.devRef .tc Cert.KernelIdeal.main_arg4) : (⟨2, ![128, 600]⟩ : Shape).Idx → EReal) = VR (Proc.devRef .tc Cert.ReferenceIdeal.main_arg4))
    (ha5 : (VK (Proc.devRef .tc Cert.KernelIdeal.main_arg5) : (⟨1, ![600]⟩ : Shape).Idx → EReal) = VR (Proc.devRef .tc Cert.ReferenceIdeal.main_arg5))
    (ha6 : (VK (Proc.devRef .tc Cert.KernelIdeal.main_arg6) : (⟨1, ![600]⟩ : Shape).Idx → EReal) = VR (Proc.devRef .tc Cert.ReferenceIdeal.main_arg6))
    (ha7 : (VK (Proc.devRef .tc Cert.KernelIdeal.main_arg7) : (⟨1, ![600]⟩ : Shape).Idx → EReal) = VR (Proc.devRef .tc Cert.ReferenceIdeal.main_arg7))
    (ha8 : (VK (Proc.devRef .tc Cert.KernelIdeal.main_arg8) : (⟨2, ![600, 300]⟩ : Shape).Idx → EReal) = VR (Proc.devRef .tc Cert.ReferenceIdeal.main_arg8))
    (ha9 : (VK (Proc.devRef .tc Cert.KernelIdeal.main_arg9) : (⟨1, ![300]⟩ : Shape).Idx → EReal) = VR (Proc.devRef .tc Cert.ReferenceIdeal.main_arg9))
    (ha16 : (VK (Proc.devRef .tc Cert.KernelIdeal.main_arg16) : (⟨1, ![300]⟩ : Shape).Idx → EReal) = VR (Proc.devRef .tc Cert.ReferenceIdeal.main_arg16))
    (ha17 : (VK (Proc.devRef .tc Cert.KernelIdeal.main_arg17) : (⟨1, ![300]⟩ : Shape).Idx → EReal) = VR (Proc.devRef .tc Cert.ReferenceIdeal.main_arg17))
    (ha2 : (VK (Proc.devRef .tc Cert.KernelIdeal.main_arg2) : (⟨1, ![10000]⟩ : Shape).Idx → BitVec 32) = VR (Proc.devRef .tc Cert.ReferenceIdeal.main_arg2))
    (h5 : (VK (Proc.devRef .tc Cert.KernelIdeal.main_v5) : (⟨2, ![64, 300]⟩ : Shape).Idx → EReal) = VR (Proc.devRef .tc Cert.ReferenceIdeal.main_v5)) :
    (after Cert.KernelIdeal.Gen.hostOps1_8 (after Cert.KernelIdeal.Gen.hostOps1_7 (after Cert.KernelIdeal.Gen.hostOps1_6 (after Cert.KernelIdeal.Gen.hostOps1_5
      (after Cert.KernelIdeal.Gen.hostOps1_4 (after Cert.KernelIdeal.Gen.hostOps1_3 (after Cert.KernelIdeal.Gen.hostOps1_2 (after Cert.KernelIdeal.Gen.hostOps1_1
        (after Cert.KernelIdeal.Gen.hostOps1 VK))))))))
        (Proc.devRef .tc Cert.KernelIdeal.main_v73) : (⟨2, ![10000, 300]⟩ : Shape).Idx → EReal)
      = after Cert.ReferenceIdeal.RefRun.ops3 (after Cert.ReferenceIdeal.RefRun.ops2 (after Cert.ReferenceIdeal.RefRun.ops1 VR)) (Proc.devRef .tc Cert.ReferenceIdeal.main_v72) := by
  simp only [Cert.KernelIdeal.Gen.hostOps1, Cert.KernelIdeal.Gen.hostOps1_1, Cert.KernelIdeal.Gen.hostOps1_2, Cert.KernelIdeal.Gen.hostOps1_3, Cert.KernelIdeal.Gen.hostOps1_4,
    Cert.KernelIdeal.Gen.hostOps1_5, Cert.KernelIdeal.Gen.hostOps1_6, Cert.KernelIdeal.Gen.hostOps1_7, Cert.KernelIdeal.Gen.hostOps1_8,
    Cert.ReferenceIdeal.RefRun.ops1, Cert.ReferenceIdeal.RefRun.ops2, Cert.ReferenceIdeal.RefRun.ops3]
  after_results_simp
  rw [hagg, ha0, ha4, ha5, ha6, ha7, ha8, ha9, ha16, ha17, ha2, h5]
  all_goals try simp only [TRef.ofBuf, TRef.toBuf, cast_eq]
  all_goals rfl

set_option maxRecDepth 16384 in
set_option maxHeartbeats 8000000 in
/-- The new node features gathered at the source words.  The kernel program narrows the features' float format before
    the gather, which leaves the array of extended reals as it is; the source words (negative ones wrapped by the number
    of nodes) are computed alike from the same edge row. -/
theorem gap1_gather
    (hagg : (extractStridedSlice Cert.KernelIdeal.S10000x128 ![0, 0]
              (VK (Proc.devRef .tc Cert.KernelIdeal.main_v15) : (⟨Cert.KernelIdeal.S10240x128, .f32⟩ : BufTy).Contents (Elt Ideal))
              Cert.KernelIdeal.Facts₀.slices_S10240x128_S10000x128_0_0 : (⟨2, ![10000, 128]⟩ : Shape).Idx → EReal)
            = Host.scatterAdd (F := Ideal) (φ := .f32) Cert.ReferenceIdeal.scatter_S10000x128_S160000x1_S160000x128_1_0_0_1
                (VR (Proc.devRef .tc Cert.ReferenceIdeal.main_v13)) (VR (Proc.devRef .tc Cert.ReferenceIdeal.main_v14))
                (VR (Proc.devRef .tc Cert.ReferenceIdeal.main_v12)))
    (ha0 : (VK (Proc.devRef .tc Cert.KernelIdeal.main_arg0) : (⟨2, ![10000, 128]⟩ : Shape).Idx → EReal) = VR (Proc.devRef .tc Cert.ReferenceIdeal.main_arg0))
    (ha4 : (VK (Proc.devRef .tc Cert.KernelIdeal.main_arg4) : (⟨2, ![128, 600]⟩ : Shape).Idx → EReal) = VR (Proc.devRef .tc Cert.ReferenceIdeal.main_arg4))
    (ha5 : (VK (Proc.devRef .tc Cert.KernelIdeal.main_arg5) : (⟨1, ![600]⟩ : Shape).Idx → EReal) = VR (Proc.devRef .tc Cert.ReferenceIdeal.main_arg5))
    (ha6 : (VK (Proc.devRef .tc Cert.KernelIdeal.main_arg6) : (⟨1, ![600]⟩ : Shape).Idx → EReal) = VR (Proc.devRef .tc Cert.ReferenceIdeal.main_arg6))
    (ha7 : (VK (Proc.devRef .tc Cert.KernelIdeal.main_arg7) : (⟨1, ![600]⟩ : Shape).Idx → EReal) = VR (Proc.devRef .tc Cert.ReferenceIdeal.main_arg7))
    (ha8 : (VK (Proc.devRef .tc Cert.KernelIdeal.main_arg8) : (⟨2, ![600, 300]⟩ : Shape).Idx → EReal) = VR (Proc.devRef .tc Cert.ReferenceIdeal.main_arg8))
    (ha9 : (VK (Proc.devRef .tc Cert.KernelIdeal.main_arg9) : (⟨1, ![300]⟩ : Shape).Idx → EReal) = VR (Proc.devRef .tc Cert.ReferenceIdeal.main_arg9))
    (ha16 : (VK (Proc.devRef .tc Cert.KernelIdeal.main_arg16) : (⟨1, ![300]⟩ : Shape).Idx → EReal) = VR (Proc.devRef .tc Cert.ReferenceIdeal.main_arg16))
    (ha17 : (VK (Proc.devRef .tc Cert.KernelIdeal.main_arg17) : (⟨1, ![300]⟩ : Shape).Idx → EReal) = VR (Proc.devRef .tc Cert.ReferenceIdeal.main_arg17))
    (ha2 : (VK (Proc.devRef .tc Cert.KernelIdeal.main_arg2) : (⟨1, ![10000]⟩ : Shape).Idx → BitVec 32) = VR (Proc.devRef .tc Cert.ReferenceIdeal.main_arg2))
    (h5 : (VK (Proc.devRef .tc Cert.KernelIdeal.main_v5) : (⟨2, ![64, 300]⟩ : Shape).Idx → EReal) = VR (Proc.devRef .tc Cert.ReferenceIdeal.main_v5))
    (h1 : (VK (Proc.devRef .tc Cert.KernelIdeal.main_v1) : (⟨1, ![160000]⟩ : Shape).Idx → BitVec 32) = VR (Proc.devRef .tc Cert.ReferenceIdeal.main_v1)) :
    (after Cert.KernelIdeal.Gen.hostOps1_8 (after Cert.KernelIdeal.Gen.hostOps1_7 (after Cert.KernelIdeal.Gen.hostOps1_6 (after Cert.KernelIdeal.Gen.hostOps1_5
      (after Cert.KernelIdeal.Gen.hostOps1_4 (after Cert.KernelIdeal.Gen.hostOps1_3 (after Cert.KernelIdeal.Gen.hostOps1_2 (after Cert.KernelIdeal.Gen.hostOps1_1
        (after Cert.KernelIdeal.Gen.hostOps1 VK))))))))
        (Proc.devRef .tc Cert.KernelIdeal.main_v93) : (⟨2, ![160000, 300]⟩ : Shape).Idx → EReal)
      = after Cert.ReferenceIdeal.RefRun.ops3 (after Cert.ReferenceIdeal.RefRun.ops2 (after Cert.ReferenceIdeal.RefRun.ops1 VR)) (Proc.devRef .tc Cert.ReferenceIdeal.main_v91) := by
  simp only [Cert.KernelIdeal.Gen.hostOps1, Cert.KernelIdeal.Gen.hostOps1_1, Cert.KernelIdeal.Gen.hostOps1_2, Cert.KernelIdeal.Gen.hostOps1_3, Cert.KernelIdeal.Gen.hostOps1_4,
    Cert.KernelIdeal.Gen.hostOps1_5, Cert.KernelIdeal.Gen.hostOps1_6, Cert.KernelIdeal.Gen.hostOps1_7, Cert.KernelIdeal.Gen.hostOps1_8,
    Cert.ReferenceIdeal.RefRun.ops1, Cert.ReferenceIdeal.RefRun.ops2, Cert.ReferenceIdeal.RefRun.ops3]
  after_results_simp
  rw [g01_truncf_bf16_id]
  rw [hagg, ha0, ha4, ha5, ha6, ha7, ha8, ha9, ha16, ha17, ha2, h5, h1]
  all_goals try simp only [TRef.ofBuf, TRef.toBuf, cast_eq]
  all_goals rfl

set_option maxRecDepth 16384 in
set_option maxHeartbeats 4000000 in
/-- The destination row as a column.  The kernel program reshapes the row, the reference broadcasts it along the new
    axis of extent one: the same column. -/
theorem gap1_ids
    (h3 : (VK (Proc.devRef .tc Cert.KernelIdeal.main_v3) : (⟨1, ![160000]⟩ : Shape).Idx → BitVec 32) = VR (Proc.devRef .tc Cert.ReferenceIdeal.main_v3)) :
    (after Cert.KernelIdeal.Gen.hostOps1_8 VK (Proc.devRef .tc Cert.KernelIdeal.main_v94) : (⟨2, ![160000, 1]⟩ : Shape).Idx → BitVec 32)
      = after Cert.ReferenceIdeal.RefRun.ops3 VR (Proc.devRef .tc Cert.ReferenceIdeal.main_v93) := by
  simp only [Cert.KernelIdeal.Gen.hostOps1_8, Cert.ReferenceIdeal.RefRun.ops3]
  after_results_simp
  rw [← h3]
  exact reshape_col_eq_bcast (n := 160000) (VK (Proc.devRef .tc Cert.KernelIdeal.main_v3))
    Cert.KernelIdeal.Facts₀.shapeCasts_S160000_S160000x1 Cert.ReferenceIdeal.Facts₀.bcast_S160000_S160000x1_0

set_option maxRecDepth 16384 in
set_option maxHeartbeats 4000000 in
/-- The next layer's parameters, the first linear map's weights: layer 0 of the stacked argument, cut out and reshaped alike. -/
theorem gap1_w75
    (ha10 : (VK (Proc.devRef .tc Cert.KernelIdeal.main_arg10) : (⟨3, ![4, 300, 600]⟩ : Shape).Idx → EReal) = VR (Proc.devRef .tc Cert.ReferenceIdeal.main_arg10)) :
    (after Cert.KernelIdeal.Gen.hostOps1_8 VK (Proc.devRef .tc Cert.KernelIdeal.main_v75) : (⟨2, ![300, 600]⟩ : Shape).Idx → EReal)
      = after Cert.ReferenceIdeal.RefRun.ops3 VR (Proc.devRef .tc Cert.ReferenceIdeal.main_v74) := by
  simp only [Cert.KernelIdeal.Gen.hostOps1_8, Cert.ReferenceIdeal.RefRun.ops3]
  after_results_simp
  rw [ha10]
  all_goals try simp only [TRef.ofBuf, TRef.toBuf, cast_eq]
  all_goals rfl

set_option maxRecDepth 16384 in
set_option maxHeartbeats 4000000 in
/-- The next layer's parameters, the first linear map's bias: layer 0 of the stacked argument, cut out and reshaped alike. -/
theorem gap1_w77
    (ha11 : (VK (Proc.devRef .tc Cert.KernelIdeal.main_arg11) : (⟨2, ![4, 600]⟩ : Shape).Idx → EReal) = VR (Proc.devRef .tc Cert.ReferenceIdeal.main_arg11)) :
    (after Cert.KernelIdeal.Gen.hostOps1_8 VK (Proc.devRef .tc Cert.KernelIdeal.main_v77) : (⟨1, ![600]⟩ : Shape).Idx → EReal)
      = after Cert.ReferenceIdeal.RefRun.ops3 VR (Proc.devRef .tc Cert.ReferenceIdeal.main_v76) := by
  simp only [Cert.KernelIdeal.Gen.hostOps1_8, Cert.ReferenceIdeal.RefRun.ops3]
  after_results_simp
  rw [ha11]
  all_goals try simp only [TRef.ofBuf, TRef.toBuf, cast_eq]
  all_goals rfl

set_option maxRecDepth 16384 in
set_option maxHeartbeats 4000000 in
/-- The next layer's parameters, the inner normalisation's scale: layer 0 of the stacked argument, cut out and reshaped alike. -/
theorem gap1_w79
    (ha12 : (VK (Proc.devRef .tc Cert.KernelIdeal.main_arg12) : (⟨2, ![4, 600]⟩ : Shape).Idx → EReal) = VR (Proc.devRef .tc Cert.ReferenceIdeal.main_arg12)) :
    (after Cert.KernelIdeal.Gen.hostOps1_8 VK (Proc.devRef .tc Cert.KernelIdeal.main_v79) : (⟨1, ![600]⟩ : Shape).Idx → EReal)
      = after Cert.ReferenceIdeal.RefRun.ops3 VR (Proc.devRef .tc Cert.ReferenceIdeal.main_v78) := by
  simp only [Cert.KernelIdeal.Gen.hostOps1_8, Cert.ReferenceIdeal.RefRun.ops3]
  after_results_simp
  rw [ha12]
  all_goals try simp only [TRef.ofBuf, TRef.toBuf, cast_eq]
  all_goals rfl

set_option maxRecDepth 16384 in
set_option maxHeartbeats 4000000 in
/-- The next layer's parameters, the inner normalisation's shift: layer 0 of the stacked argument, cut out and reshaped alike. -/
theorem gap1_w81
    (ha13 : (VK (Proc.devRef .tc Cert.KernelIdeal.main_arg13) : (⟨2, ![4, 600]⟩ : Shape).Idx → EReal) = VR (Proc.devRef .tc Cert.ReferenceIdeal.main_arg13)) :
    (after Cert.KernelIdeal.Gen.hostOps1_8 VK (Proc.devRef .tc Cert.KernelIdeal.main_v81) : (⟨1, ![600]⟩ : Shape).Idx → EReal)
      = after Cert.ReferenceIdeal.RefRun.ops3 VR (Proc.devRef .tc Cert.ReferenceIdeal.main_v80) := by
  simp only [Cert.KernelIdeal.Gen.hostOps1_8, Cert.ReferenceIdeal.RefRun.ops3]
  after_results_simp
  rw [ha13]
  all_goals try simp only [TRef.ofBuf, TRef.toBuf, cast_eq]
  all_goals rfl

set_option maxRecDepth 16384 in
set_option maxHeartbeats 4000000 in
/-- The next layer's parameters, the second linear map's weights: layer 0 of the stacked argument, cut out and reshaped alike. -/
theorem gap1_w83
    (ha14 : (VK (Proc.devRef .tc Cert.KernelIdeal.main_arg14) : (⟨3, ![4, 600, 300]⟩ : Shape).Idx → EReal) = VR (Proc.devRef .tc Cert.ReferenceIdeal.main_arg14)) :
    (after Cert.KernelIdeal.Gen.hostOps1_8 VK (Proc.devRef .tc Cert.KernelIdeal.main_v83) : (⟨2, ![600, 300]⟩ : Shape).Idx → EReal)
      = after Cert.ReferenceIdeal.RefRun.ops3 VR (Proc.devRef .tc Cert.ReferenceIdeal.main_v82) := by
  simp only [Cert.KernelIdeal.Gen.hostOps1_8, Cert.ReferenceIdeal.RefRun.ops3]
  after_results_simp
  rw [ha14]
  all_goals try simp only [TRef.ofBuf, TRef.toBuf, cast_eq]
  all_goals rfl

set_option maxRecDepth 16384 in
set_option maxHeartbeats 4000000 in
/-- The next layer's parameters, the second linear map's bias: layer 0 of the stacked argument, cut out and reshaped alike. -/
theorem gap1_w85
    (ha15 : (VK (Proc.devRef .tc Cert.KernelIdeal.main_arg15) : (⟨2, ![4, 300]⟩ : Shape).Idx → EReal) = VR (Proc.devRef .tc Cert.ReferenceIdeal.main_arg15)) :
    (after Cert.KernelIdeal.Gen.hostOps1_8 VK (Proc.devRef .tc Cert.KernelIdeal.main_v85) : (⟨1, ![300]⟩ : Shape).Idx → EReal)
      = after Cert.ReferenceIdeal.RefRun.ops3 VR (Proc.devRef .tc Cert.ReferenceIdeal.main_v84) := by
  simp only [Cert.KernelIdeal.Gen.hostOps1_8, Cert.ReferenceIdeal.RefRun.ops3]
  after_results_simp
  rw [ha15]
  all_goals try simp only [TRef.ofBuf, TRef.toBuf, cast_eq]
  all_goals rfl

set_option maxRecDepth 16384 in
set_option maxHeartbeats 4000000 in
/-- The operand the reference's next scatter accumulates into: the zero constant spread over the array. -/
theorem gap1_zero :
    (after Cert.ReferenceIdeal.RefRun.ops3 VR (Proc.devRef .tc Cert.ReferenceIdeal.main_v92) : (⟨2, ![10000, 300]⟩ : Shape).Idx → EReal)
      = fun _ => (0 : EReal) := by
  simp only [Cert.ReferenceIdeal.RefRun.ops3]
  after_results_simp
  funext j
  exact Idealize.ShloMosaic.Ideal.ofBits_zero_f32

end Chain

/-! ## The aggregate -/

section Gap

variable (m : (ℓ : Loc Cert.KernelIdeal.nD Cert.KernelIdeal.τ Cert.KernelIdeal.sig) → Buf (Elt Ideal) ℓ)
variable (m' : (ℓ : Loc Cert.ReferenceIdeal.nD Cert.ReferenceIdeal.τ Cert.ReferenceIdeal.sig) → Buf (Elt Ideal) ℓ)
variable (outs : Cert.KernelIdeal.Gen.Outs (F := Ideal)) (c : Dev Cert.KernelIdeal.nD)

/-- The leading ten thousand rows of region 0's padded output are the reference's scatter of the same gathered rows by
    the same destination words into the zero array: entry (n, q) of either is the sum, over the edges whose destination
    is n, of the source row's entry q. -/
theorem gap1_agg (hE : Entry0 m m' c) (hV : Val0 m outs c) :
    (extractStridedSlice Cert.KernelIdeal.S10000x128 ![0, 0]
        (Cert.KernelIdeal.Gen.V2 m outs c (Proc.devRef .tc Cert.KernelIdeal.main_v15) : (⟨Cert.KernelIdeal.S10240x128, .f32⟩ : BufTy).Contents (Elt Ideal))
        Cert.KernelIdeal.Facts₀.slices_S10240x128_S10000x128_0_0 : (⟨2, ![10000, 128]⟩ : Shape).Idx → EReal)
      = Host.scatterAdd (F := Ideal) (φ := .f32) Cert.ReferenceIdeal.scatter_S10000x128_S160000x1_S160000x128_1_0_0_1
          (Cert.ReferenceIdeal.RefRun.R1 m' c (Proc.devRef .tc Cert.ReferenceIdeal.main_v13))
          (Cert.ReferenceIdeal.RefRun.R1 m' c (Proc.devRef .tc Cert.ReferenceIdeal.main_v14))
          (Cert.ReferenceIdeal.RefRun.R1 m' c (Proc.devRef .tc Cert.ReferenceIdeal.main_v12)) := by
  have h15 : Cert.KernelIdeal.Gen.V2 m outs c (Proc.devRef .tc Cert.KernelIdeal.main_v15) = outs 2 Cert.KernelIdeal.main_v15 c := by
    simp only [Cert.KernelIdeal.Gen.V2, Function.update_self]
  rw [h15, Host.scatterAdd, Idealize.ShloMosaic.Ideal.hostScatterAdd_def]
  funext j
  obtain ⟨n, q, rfl⟩ : ∃ n q, j = ix2 n q := ⟨j 0, j 1, eq_ix2 j⟩
  refine (slice_rows_apply (D := 128) (outs 2 Cert.KernelIdeal.main_v15 c) _ n q).trans ?_
  refine ((hV ⟨n.val, by have := n.isLt; omega⟩ q).trans ?_).trans
    (Cert.HostRead.rowScatterAdd_apply (N := 10000) (M := 160000) (D := 128) (w := 32)
      Cert.ReferenceIdeal.scatter_S10000x128_S160000x1_S160000x128_1_0_0_1 rfl rfl rfl rfl _ _ _ n q).symm
  rw [hE.zero, ← hE.v13, ← hE.v14]

/-! ## From the entry of region 0 to the entry of region 1 -/

theorem gap1 (hA : Args m m' c) (hE : Entry0 m m' c) (hV : Val0 m outs c) : Entry1 m m' outs c := by
  -- what the stretch does not write is carried: on the kernel side from before region 0, whose output is another buffer
  have kcar10 : ∀ r : Ref Cert.KernelIdeal.sig .tc,
      r ∉ Cert.KernelIdeal.Gen.hostOps1_7_W → r ∉ Cert.KernelIdeal.Gen.hostOps1_6_W → r ∉ Cert.KernelIdeal.Gen.hostOps1_5_W → r ∉ Cert.KernelIdeal.Gen.hostOps1_4_W →
      r ∉ Cert.KernelIdeal.Gen.hostOps1_3_W → r ∉ Cert.KernelIdeal.Gen.hostOps1_2_W → r ∉ Cert.KernelIdeal.Gen.hostOps1_1_W → r ∉ Cert.KernelIdeal.Gen.hostOps1_W →
      r ∉ ([Cert.KernelIdeal.main_v15] : List (Ref Cert.KernelIdeal.sig .tc)) →
      Cert.KernelIdeal.Gen.V10 m outs c r = Cert.KernelIdeal.Gen.V1 m c r :=
    fun r h7 h6 h5 h4 h3 h2 h1 h0 hu =>
      (Cert.KernelIdeal.Gen.V10_of m outs c r h7).trans <| (Cert.KernelIdeal.Gen.V9_of m outs c r h6).trans <|
      (Cert.KernelIdeal.Gen.V8_of m outs c r h5).trans <| (Cert.KernelIdeal.Gen.V7_of m outs c r h4).trans <|
      (Cert.KernelIdeal.Gen.V6_of m outs c r h3).trans <| (Cert.KernelIdeal.Gen.V5_of m outs c r h2).trans <|
      (Cert.KernelIdeal.Gen.V4_of m outs c r h1).trans <| (Cert.KernelIdeal.Gen.V3_of m outs c r h0).trans <| Cert.KernelIdeal.Gen.V2_of m outs c r hu
  have kcar : ∀ r : Ref Cert.KernelIdeal.sig .tc,
      r ∉ Cert.KernelIdeal.Gen.hostOps1_8_W → r ∉ Cert.KernelIdeal.Gen.hostOps1_7_W → r ∉ Cert.KernelIdeal.Gen.hostOps1_6_W → r ∉ Cert.KernelIdeal.Gen.hostOps1_5_W →
      r ∉ Cert.KernelIdeal.Gen.hostOps1_4_W → r ∉ Cert.KernelIdeal.Gen.hostOps1_3_W → r ∉ Cert.KernelIdeal.Gen.hostOps1_2_W → r ∉ Cert.KernelIdeal.Gen.hostOps1_1_W →
      r ∉ Cert.KernelIdeal.Gen.hostOps1_W → r ∉ ([Cert.KernelIdeal.main_v15] : List (Ref Cert.KernelIdeal.sig .tc)) →
      Cert.KernelIdeal.Gen.V11 m outs c r = Cert.KernelIdeal.Gen.V1 m c r :=
    fun r h8 h7 h6 h5 h4 h3 h2 h1 h0 hu =>
      (Cert.KernelIdeal.Gen.V11_of m outs c r h8).trans (kcar10 r h7 h6 h5 h4 h3 h2 h1 h0 hu)
  -- an argument array is the memory's at launch, and no stretch up to here writes it
  have karg1 : ∀ r : Ref Cert.KernelIdeal.sig .tc, r ∉ Cert.KernelIdeal.Gen.hostOps0_W →
      Cert.KernelIdeal.Gen.V1 m c r = m ((c.tc : Thread Cert.KernelIdeal.nD Cert.KernelIdeal.τ).loc r) :=
    fun r h => (Cert.KernelIdeal.Gen.V1_of m c r h).trans rfl
  have karg2 : ∀ r : Ref Cert.KernelIdeal.sig .tc, r ∉ ([Cert.KernelIdeal.main_v15] : List (Ref Cert.KernelIdeal.sig .tc)) → r ∉ Cert.KernelIdeal.Gen.hostOps0_W →
      Cert.KernelIdeal.Gen.V2 m outs c r = m ((c.tc : Thread Cert.KernelIdeal.nD Cert.KernelIdeal.τ).loc r) :=
    fun r hu h => (Cert.KernelIdeal.Gen.V2_of m outs c r hu).trans (karg1 r h)
  have karg10 : ∀ r : Ref Cert.KernelIdeal.sig .tc,
      r ∉ Cert.KernelIdeal.Gen.hostOps1_7_W → r ∉ Cert.KernelIdeal.Gen.hostOps1_6_W → r ∉ Cert.KernelIdeal.Gen.hostOps1_5_W → r ∉ Cert.KernelIdeal.Gen.hostOps1_4_W →
      r ∉ Cert.KernelIdeal.Gen.hostOps1_3_W → r ∉ Cert.KernelIdeal.Gen.hostOps1_2_W → r ∉ Cert.KernelIdeal.Gen.hostOps1_1_W → r ∉ Cert.KernelIdeal.Gen.hostOps1_W →
      r ∉ ([Cert.KernelIdeal.main_v15] : List (Ref Cert.KernelIdeal.sig .tc)) → r ∉ Cert.KernelIdeal.Gen.hostOps0_W →
      Cert.KernelIdeal.Gen.V10 m outs c r = m ((c.tc : Thread Cert.KernelIdeal.nD Cert.KernelIdeal.τ).loc r) :=
    fun r h7 h6 h5 h4 h3 h2 h1 h0 hu h => (kcar10 r h7 h6 h5 h4 h3 h2 h1 h0 hu).trans (karg1 r h)
  have rcar3 : ∀ r : Ref Cert.ReferenceIdeal.sig .tc, r ∉ Cert.ReferenceIdeal.RefRun.ops2_W → r ∉ Cert.ReferenceIdeal.RefRun.ops1_W →
      Cert.ReferenceIdeal.RefRun.R3 m' c (Proc.devRef .tc r) = Cert.ReferenceIdeal.RefRun.R1 m' c (Proc.devRef .tc r) :=
    fun r h2 h1 => by
      -- spell the later valuation out as the lists applied to the earlier one, so that nothing has to be unfolded to see it
      rw [Cert.ReferenceIdeal.RefRun.R3_eq, Cert.ReferenceIdeal.RefRun.R2_eq]
      exact (after_of_writes_sub Cert.ReferenceIdeal.RefRun.ops2 _ Cert.ReferenceIdeal.RefRun.ops2_writes h2).trans
        (after_of_writes_sub Cert.ReferenceIdeal.RefRun.ops1 _ Cert.ReferenceIdeal.RefRun.ops1_writes h1)
  have rcar : ∀ r : Ref Cert.ReferenceIdeal.sig .tc, r ∉ Cert.ReferenceIdeal.RefRun.ops3_W → r ∉ Cert.ReferenceIdeal.RefRun.ops2_W → r ∉ Cert.ReferenceIdeal.RefRun.ops1_W →
      Cert.ReferenceIdeal.RefRun.R4 m' c (Proc.devRef .tc r) = Cert.ReferenceIdeal.RefRun.R1 m' c (Proc.devRef .tc r) :=
    fun r h3 h2 h1 => by
      rw [Cert.ReferenceIdeal.RefRun.R4_eq, Cert.ReferenceIdeal.RefRun.R3_eq, Cert.ReferenceIdeal.RefRun.R2_eq]
      exact (after_of_writes_sub Cert.ReferenceIdeal.RefRun.ops3 _ Cert.ReferenceIdeal.RefRun.ops3_writes h3).trans
        ((after_of_writes_sub Cert.ReferenceIdeal.RefRun.ops2 _ Cert.ReferenceIdeal.RefRun.ops2_writes h2).trans
          (after_of_writes_sub Cert.ReferenceIdeal.RefRun.ops1 _ Cert.ReferenceIdeal.RefRun.ops1_writes h1))
  exact
    { v1 := (kcar Cert.KernelIdeal.main_v1 (by decide) (by decide) (by decide) (by decide) (by decide) (by decide) (by decide) (by decide) (by decide) (by decide)).trans (hE.v1.trans (rcar Cert.ReferenceIdeal.main_v1 (by decide) (by decide) (by decide)).symm)
      v3 := (kcar Cert.KernelIdeal.main_v3 (by decide) (by decide) (by decide) (by decide) (by decide) (by decide) (by decide) (by decide) (by decide) (by decide)).trans (hE.v3.trans (rcar Cert.ReferenceIdeal.main_v3 (by decide) (by decide) (by decide)).symm)
      v5 := (kcar Cert.KernelIdeal.main_v5 (by decide) (by decide) (by decide) (by decide) (by decide) (by decide) (by decide) (by decide) (by decide) (by decide)).trans (hE.v5.trans (rcar Cert.ReferenceIdeal.main_v5 (by decide) (by decide) (by decide)).symm)
      v73 := by
        rw [Cert.ReferenceIdeal.RefRun.R4_eq, Cert.ReferenceIdeal.RefRun.R3_eq, Cert.ReferenceIdeal.RefRun.R2_eq]
        exact gap1_chain (Cert.KernelIdeal.Gen.V2 m outs c) (Cert.ReferenceIdeal.RefRun.R1 m' c) (gap1_agg m m' outs c hE hV)
          ((karg2 Cert.KernelIdeal.main_arg0 (by decide) (by decide)).trans (hA.a0.symm.trans (Rkept_1 m' c Cert.ReferenceIdeal.main_arg0 (by decide)).symm))
          ((karg2 Cert.KernelIdeal.main_arg4 (by decide) (by decide)).trans (hA.a4.symm.trans (Rkept_1 m' c Cert.ReferenceIdeal.main_arg4 (by decide)).symm))
          ((karg2 Cert.KernelIdeal.main_arg5 (by decide) (by decide)).trans (hA.a5.symm.trans (Rkept_1 m' c Cert.ReferenceIdeal.main_arg5 (by decide)).symm))
          ((karg2 Cert.KernelIdeal.main_arg6 (by decide) (by decide)).trans (hA.a6.symm.trans (Rkept_1 m' c Cert.ReferenceIdeal.main_arg6 (by decide)).symm))
          ((karg2 Cert.KernelIdeal.main_arg7 (by decide) (by decide)).trans (hA.a7.symm.trans (Rkept_1 m' c Cert.ReferenceIdeal.main_arg7 (by decide)).symm))
          ((karg2 Cert.KernelIdeal.main_arg8 (by decide) (by decide)).trans (hA.a8.symm.trans (Rkept_1 m' c Cert.ReferenceIdeal.main_arg8 (by decide)).symm))
          ((karg2 Cert.KernelIdeal.main_arg9 (by decide) (by decide)).trans (hA.a9.symm.trans (Rkept_1 m' c Cert.ReferenceIdeal.main_arg9 (by decide)).symm))
          ((karg2 Cert.KernelIdeal.main_arg16 (by decide) (by decide)).trans (hA.a16.symm.trans (Rkept_1 m' c Cert.ReferenceIdeal.main_arg16 (by decide)).symm))
          ((karg2 Cert.KernelIdeal.main_arg17 (by decide) (by decide)).trans (hA.a17.symm.trans (Rkept_1 m' c Cert.ReferenceIdeal.main_arg17 (by decide)).symm))
          ((karg2 Cert.KernelIdeal.main_arg2 (by decide) (by decide)).trans (hA.a2.symm.trans (Rkept_1 m' c Cert.ReferenceIdeal.main_arg2 (by decide)).symm))
          ((Cert.KernelIdeal.Gen.V2_of m outs c Cert.KernelIdeal.main_v5 (by decide)).trans hE.v5)
      v93 := by
        rw [Cert.ReferenceIdeal.RefRun.R4_eq, Cert.ReferenceIdeal.RefRun.R3_eq, Cert.ReferenceIdeal.RefRun.R2_eq]
        exact gap1_gather (Cert.KernelIdeal.Gen.V2 m outs c) (Cert.ReferenceIdeal.RefRun.R1 m' c) (gap1_agg m m' outs c hE hV)
          ((karg2 Cert.KernelIdeal.main_arg0 (by decide) (by decide)).trans (hA.a0.symm.trans (Rkept_1 m' c Cert.ReferenceIdeal.main_arg0 (by decide)).symm))
          ((karg2 Cert.KernelIdeal.main_arg4 (by decide) (by decide)).trans (hA.a4.symm.trans (Rkept_1 m' c Cert.ReferenceIdeal.main_arg4 (by decide)).symm))
          ((karg2 Cert.KernelIdeal.main_arg5 (by decide) (by decide)).trans (hA.a5.symm.trans (Rkept_1 m' c Cert.ReferenceIdeal.main_arg5 (by decide)).symm))
          ((karg2 Cert.KernelIdeal.main_arg6 (by decide) (by decide)).trans (hA.a6.symm.trans (Rkept_1 m' c Cert.ReferenceIdeal.main_arg6 (by decide)).symm))
          ((karg2 Cert.KernelIdeal.main_arg7 (by decide) (by decide)).trans (hA.a7.symm.trans (Rkept_1 m' c Cert.ReferenceIdeal.main_arg7 (by decide)).symm))
          ((karg2 Cert.KernelIdeal.main_arg8 (by decide) (by decide)).trans (hA.a8.symm.trans (Rkept_1 m' c Cert.ReferenceIdeal.main_arg8 (by decide)).symm))
          ((karg2 Cert.KernelIdeal.main_arg9 (by decide) (by decide)).trans (hA.a9.symm.trans (Rkept_1 m' c Cert.ReferenceIdeal.main_arg9 (by decide)).symm))
          ((karg2 Cert.KernelIdeal.main_arg16 (by decide) (by decide)).trans (hA.a16.symm.trans (Rkept_1 m' c Cert.ReferenceIdeal.main_arg16 (by decide)).symm))
          ((karg2 Cert.KernelIdeal.main_arg17 (by decide) (by decide)).trans (hA.a17.symm.trans (Rkept_1 m' c Cert.ReferenceIdeal.main_arg17 (by decide)).symm))
          ((karg2 Cert.KernelIdeal.main_arg2 (by decide) (by decide)).trans (hA.a2.symm.trans (Rkept_1 m' c Cert.ReferenceIdeal.main_arg2 (by decide)).symm))
          ((Cert.KernelIdeal.Gen.V2_of m outs c Cert.KernelIdeal.main_v5 (by decide)).trans hE.v5)
          ((Cert.KernelIdeal.Gen.V2_of m outs c Cert.KernelIdeal.main_v1 (by decide)).trans hE.v1)
      v94 := by
        rw [Cert.ReferenceIdeal.RefRun.R4_eq]
        exact gap1_ids (Cert.KernelIdeal.Gen.V10 m outs c) (Cert.ReferenceIdeal.RefRun.R3 m' c)
          ((kcar10 Cert.KernelIdeal.main_v3 (by decide) (by decide) (by decide) (by decide) (by decide) (by decide) (by decide) (by decide) (by decide)).trans (hE.v3.trans (rcar3 Cert.ReferenceIdeal.main_v3 (by decide) (by decide)).symm))
      v75 := by
        rw [Cert.ReferenceIdeal.RefRun.R4_eq]
        exact gap1_w75 (Cert.KernelIdeal.Gen.V10 m outs c) (Cert.ReferenceIdeal.RefRun.R3 m' c) ((karg10 Cert.KernelIdeal.main_arg10 (by decide) (by decide) (by decide) (by decide) (by decide) (by decide) (by decide) (by decide) (by decide) (by decide)).trans (hA.a10.symm.trans (Rkept_3 m' c Cert.ReferenceIdeal.main_arg10 (by decide)).symm))
      v77 := by
        rw [Cert.ReferenceIdeal.RefRun.R4_eq]
        exact gap1_w77 (Cert.KernelIdeal.Gen.V10 m outs c) (Cert.ReferenceIdeal.RefRun.R3 m' c) ((karg10 Cert.KernelIdeal.main_arg11 (by decide) (by decide) (by decide) (by decide) (by decide) (by decide) (by decide) (by decide) (by decide) (by decide)).trans (hA.a11.symm.trans (Rkept_3 m' c Cert.ReferenceIdeal.main_arg11 (by decide)).symm))
      v79 := by
        rw [Cert.ReferenceIdeal.RefRun.R4_eq]
        exact gap1_w79 (Cert.KernelIdeal.Gen.V10 m outs c) (Cert.ReferenceIdeal.RefRun.R3 m' c) ((karg10 Cert.KernelIdeal.main_arg12 (by decide) (by decide) (by decide) (by decide) (by decide) (by decide) (by decide) (by decide) (by decide) (by decide)).trans (hA.a12.symm.trans (Rkept_3 m' c Cert.ReferenceIdeal.main_arg12 (by decide)).symm))
      v81 := by
        rw [Cert.ReferenceIdeal.RefRun.R4_eq]
        exact gap1_w81 (Cert.KernelIdeal.Gen.V10 m outs c) (Cert.ReferenceIdeal.RefRun.R3 m' c) ((karg10 Cert.KernelIdeal.main_arg13 (by decide) (by decide) (by decide) (by decide) (by decide) (by decide) (by decide) (by decide) (by decide) (by decide)).trans (hA.a13.symm.trans (Rkept_3 m' c Cert.ReferenceIdeal.main_arg13 (by decide)).symm))
      v83 := by
        rw [Cert.ReferenceIdeal.RefRun.R4_eq]
        exact gap1_w83 (Cert.KernelIdeal.Gen.V10 m outs c) (Cert.ReferenceIdeal.RefRun.R3 m' c) ((karg10 Cert.KernelIdeal.main_arg14 (by decide) (by decide) (by decide) (by decide) (by decide) (by decide) (by decide) (by decide) (by decide) (by decide)).trans (hA.a14.symm.trans (Rkept_3 m' c Cert.ReferenceIdeal.main_arg14 (by decide)).symm))
      v85 := by
        rw [Cert.ReferenceIdeal.RefRun.R4_eq]
        exact gap1_w85 (Cert.KernelIdeal.Gen.V10 m outs c) (Cert.ReferenceIdeal.RefRun.R3 m' c) ((karg10 Cert.KernelIdeal.main_arg15 (by decide) (by decide) (by decide) (by decide) (by decide) (by decide) (by decide) (by decide) (by decide) (by decide)).trans (hA.a15.symm.trans (Rkept_3 m' c Cert.ReferenceIdeal.main_arg15 (by decide)).symm))
      zero := by
        rw [Cert.ReferenceIdeal.RefRun.R4_eq]
        exact gap1_zero (Cert.ReferenceIdeal.RefRun.R3 m' c) }

end Gap

end Cert.Bridge

end
-- ==== Proof.Bridge.Gap2.lean ====
/-
  The stretch of host operations between an edge aggregation and the pooling that follows it: one layer's two affine maps,
  each followed by a batch normalisation and a rectifier.  Both programs apply the same operations, one after the other,
  to arrays that hold the same contents; they differ only at the ends: the kernel program reads the aggregated array
  off the leading rows of its padded region output where the reference reads its accumulating scatter, it reshapes the
  segment ids where the reference broadcasts them, and it narrows the layer's output to a shorter float format, which
  leaves an array of extended reals as it is.

  The statements about the shared operations hold for arbitrary contents of the two programs' buffers that agree on
  what the operations read, at any float instance: the operations are never opened.  Only the ends are read at the
  ideal instance.
-/
import proofs.«411400_j9251359555630_1_alg».proof.Proof.Bridge.Agree
import proofs.«411400_j9251359555630_1_alg».proof.Proof.Bridge.ArgsKeptR
import proofs.«411400_j9251359555630_1_alg».proof.Proof.Bridge.Lemmas
import proofs.«411400_j9251359555630_1_alg».proof.Proof.LibHostRead
import Idealize.ShloMosaic.PureOps.Ideal.Laws

set_option maxRecDepth 16384
set_option maxHeartbeats 8000000

noncomputable section

namespace Cert.Bridge

open Idealize.ShloMosaic Idealize.ShloMosaic.TcCoe Idealize.SL.Sem Idealize.ShloMosaic.ValueIdx
open Idealize.ShloMosaic.StableHlo
open scoped BigOperators

variable [Cert.KernelIdeal.Facts] [Cert.ReferenceIdeal.Facts]

/-! ## The shared operations, over any two valuations that agree on what they read -/

section Chain

variable {F : FTy → Type} [FloatOps F]
variable (VK : Valuation Cert.KernelIdeal.τ Cert.KernelIdeal.sig (Elt F))
variable (VR : Valuation Cert.ReferenceIdeal.τ Cert.ReferenceIdeal.sig (Elt F))

/-- The layer's output.  From valuations that leave the same aggregated array (the kernel program's slice of its padded
    region output, the reference's scatter) after their first lists, the same node features, weights, biases, scales and shifts, both lines of
    operations leave the same array in the layer's output buffer: they are the same operations in the same order. -/
theorem gap2_chain
    (hagg : (after Cert.KernelIdeal.Gen.hostOps2 VK (Proc.devRef .tc Cert.KernelIdeal.main_v96) : (⟨Cert.KernelIdeal.S10000x300, .f32⟩ : BufTy).Contents (Elt F))
            = after Cert.ReferenceIdeal.RefRun.ops4 VR (Proc.devRef .tc Cert.ReferenceIdeal.main_v94))
    (hx : (VK (Proc.devRef .tc Cert.KernelIdeal.main_v73) : (⟨Cert.KernelIdeal.S10000x300, .f32⟩ : BufTy).Contents (Elt F)) = VR (Proc.devRef .tc Cert.ReferenceIdeal.main_v72))
    (hW1 : (VK (Proc.devRef .tc Cert.KernelIdeal.main_v75) : (⟨Cert.KernelIdeal.S300x600, .f32⟩ : BufTy).Contents (Elt F)) = VR (Proc.devRef .tc Cert.ReferenceIdeal.main_v74))
    (hb1 : (VK (Proc.devRef .tc Cert.KernelIdeal.main_v77) : (⟨Cert.KernelIdeal.S600, .f32⟩ : BufTy).Contents (Elt F)) = VR (Proc.devRef .tc Cert.ReferenceIdeal.main_v76))
    (hg1 : (VK (Proc.devRef .tc Cert.KernelIdeal.main_v79) : (⟨Cert.KernelIdeal.S600, .f32⟩ : BufTy).Contents (Elt F)) = VR (Proc.devRef .tc Cert.ReferenceIdeal.main_v78))
    (hs1 : (VK (Proc.devRef .tc Cert.KernelIdeal.main_v81) : (⟨Cert.KernelIdeal.S600, .f32⟩ : BufTy).Contents (Elt F)) = VR (Proc.devRef .tc Cert.ReferenceIdeal.main_v80))
    (hW2 : (VK (Proc.devRef .tc Cert.KernelIdeal.main_v83) : (⟨Cert.KernelIdeal.S600x300, .f32⟩ : BufTy).Contents (Elt F)) = VR (Proc.devRef .tc Cert.ReferenceIdeal.main_v82))
    (hb2 : (VK (Proc.devRef .tc Cert.KernelIdeal.main_v85) : (⟨Cert.KernelIdeal.S300, .f32⟩ : BufTy).Contents (Elt F)) = VR (Proc.devRef .tc Cert.ReferenceIdeal.main_v84))
    (ha18 : (VK (Proc.devRef .tc Cert.KernelIdeal.main_arg18) : (⟨Cert.KernelIdeal.S4x300, .f32⟩ : BufTy).Contents (Elt F)) = VR (Proc.devRef .tc Cert.ReferenceIdeal.main_arg18))
    (ha19 : (VK (Proc.devRef .tc Cert.KernelIdeal.main_arg19) : (⟨Cert.KernelIdeal.S4x300, .f32⟩ : BufTy).Contents (Elt F)) = VR (Proc.devRef .tc Cert.ReferenceIdeal.main_arg19)) :
    (after Cert.KernelIdeal.Gen.hostOps2_7 (after Cert.KernelIdeal.Gen.hostOps2_6 (after Cert.KernelIdeal.Gen.hostOps2_5
      (after Cert.KernelIdeal.Gen.hostOps2_4 (after Cert.KernelIdeal.Gen.hostOps2_3 (after Cert.KernelIdeal.Gen.hostOps2_2
        (after Cert.KernelIdeal.Gen.hostOps2_1 (after Cert.KernelIdeal.Gen.hostOps2 VK)))))))
        (Proc.devRef .tc Cert.KernelIdeal.main_v149) : (⟨Cert.KernelIdeal.S10000x300, .f32⟩ : BufTy).Contents (Elt F))
      = after Cert.ReferenceIdeal.RefRun.ops6 (after Cert.ReferenceIdeal.RefRun.ops5 (after Cert.ReferenceIdeal.RefRun.ops4 VR))
          (Proc.devRef .tc Cert.ReferenceIdeal.main_v147) := by
  simp only [Cert.KernelIdeal.Gen.hostOps2, Cert.KernelIdeal.Gen.hostOps2_1, Cert.KernelIdeal.Gen.hostOps2_2, Cert.KernelIdeal.Gen.hostOps2_3, Cert.KernelIdeal.Gen.hostOps2_4, Cert.KernelIdeal.Gen.hostOps2_5, Cert.KernelIdeal.Gen.hostOps2_6, Cert.KernelIdeal.Gen.hostOps2_7,
    Cert.ReferenceIdeal.RefRun.ops4, Cert.ReferenceIdeal.RefRun.ops5, Cert.ReferenceIdeal.RefRun.ops6] at hagg ⊢
  simp (disch := decide) only [after_cons, after_nil,
    nullary_result', unary_result', binary_result', ternary_result', quaternary_result', reshape_result', nary4_result', nary_result',
    unaryIndexed_result', binaryIndexed_result',
    nullary_result_ne', unary_result_ne', binary_result_ne', ternary_result_ne', quaternary_result_ne', reshape_result_ne',
    nary_result_ne', unaryIndexed_result_ne', binaryIndexed_result_ne'] at hagg ⊢
  rw [hagg, hx, hW1, hb1, hg1, hs1, hW2, hb2, ha18, ha19]
  all_goals try simp only [TRef.ofBuf, TRef.toBuf, cast_eq]
  all_goals rfl

/-- The segment ids as a column.  The kernel program reshapes the vector of ids, the reference broadcasts it along the new
    axis of extent one: the same column. -/
theorem gap2_ids
    (ha2 : (VK (Proc.devRef .tc Cert.KernelIdeal.main_arg2) : (⟨Cert.KernelIdeal.S10000, .i32⟩ : BufTy).Contents (Elt F)) = VR (Proc.devRef .tc Cert.ReferenceIdeal.main_arg2)) :
    (after Cert.KernelIdeal.Gen.hostOps2_8 VK (Proc.devRef .tc Cert.KernelIdeal.main_v150) : (⟨Cert.KernelIdeal.S10000x1, .i32⟩ : BufTy).Contents (Elt F))
      = after Cert.ReferenceIdeal.RefRun.ops6 VR (Proc.devRef .tc Cert.ReferenceIdeal.main_v149) := by
  simp only [Cert.KernelIdeal.Gen.hostOps2_8, Cert.ReferenceIdeal.RefRun.ops6]
  after_results_simp
  rw [← ha2]
  exact reshape_col_eq_bcast (n := 10000) (VK (Proc.devRef .tc Cert.KernelIdeal.main_arg2))
    Cert.KernelIdeal.Facts₀.shapeCasts_S10000_S10000x1 Cert.ReferenceIdeal.Facts₀.bcast_S10000_S10000x1_0

end Chain

/-! ## The ends, at the ideal instance -/

section Ends

variable (VK : Valuation Cert.KernelIdeal.τ Cert.KernelIdeal.sig (Elt Ideal))
variable (VR : Valuation Cert.ReferenceIdeal.τ Cert.ReferenceIdeal.sig (Elt Ideal))

/-- The layer's output narrowed to the shorter float format: as an array of extended reals, the output itself. -/
theorem gap2_narrow :
    (after (Cert.KernelIdeal.Gen.hostOps2_8 (F := Ideal)) VK (Proc.devRef .tc Cert.KernelIdeal.main_v151) : (⟨2, ![10000, 300]⟩ : Shape).Idx → EReal)
      = VK (Proc.devRef .tc Cert.KernelIdeal.main_v149) := by
  simp only [Cert.KernelIdeal.Gen.hostOps2_8]
  after_results_simp
  rfl

/-- The operand the reference's pooling scatter accumulates into: the zero constant spread over the array. -/
theorem gap2_zero :
    (after (Cert.ReferenceIdeal.RefRun.ops6 (F := Ideal)) VR (Proc.devRef .tc Cert.ReferenceIdeal.main_v148) : (⟨2, ![64, 300]⟩ : Shape).Idx → EReal)
      = fun _ => (0 : EReal) := by
  simp only [Cert.ReferenceIdeal.RefRun.ops6]
  after_results_simp
  funext j
  exact Idealize.ShloMosaic.Ideal.ofBits_zero_f32

end Ends

/-! ## The aggregated array -/

section Gap

variable (m : (ℓ : Loc Cert.KernelIdeal.nD Cert.KernelIdeal.τ Cert.KernelIdeal.sig) → Buf (Elt Ideal) ℓ)
variable (m' : (ℓ : Loc Cert.ReferenceIdeal.nD Cert.ReferenceIdeal.τ Cert.ReferenceIdeal.sig) → Buf (Elt Ideal) ℓ)
variable (outs : Cert.KernelIdeal.Gen.Outs (F := Ideal)) (c : Dev Cert.KernelIdeal.nD)

/-! ## The argument arrays the stretch reads, on the kernel side -/

/-- The argument array `arg18` is still the memory's where the stretch reads it: no item before that point writes it. -/
theorem gap2_ka18 :
    Cert.KernelIdeal.Gen.V12 m outs c (Proc.devRef .tc Cert.KernelIdeal.main_arg18) = m ((c.tc : Thread Cert.KernelIdeal.nD Cert.KernelIdeal.τ).loc Cert.KernelIdeal.main_arg18) :=
  (Cert.KernelIdeal.Gen.V12_of m outs c Cert.KernelIdeal.main_arg18 (by decide)).trans <|
    (Cert.KernelIdeal.Gen.V11_of m outs c Cert.KernelIdeal.main_arg18 (by decide)).trans <|
    (Cert.KernelIdeal.Gen.V10_of m outs c Cert.KernelIdeal.main_arg18 (by decide)).trans <|
    (Cert.KernelIdeal.Gen.V9_of m outs c Cert.KernelIdeal.main_arg18 (by decide)).trans <|
    (Cert.KernelIdeal.Gen.V8_of m outs c Cert.KernelIdeal.main_arg18 (by decide)).trans <|
    (Cert.KernelIdeal.Gen.V7_of m outs c Cert.KernelIdeal.main_arg18 (by decide)).trans <|
    (Cert.KernelIdeal.Gen.V6_of m outs c Cert.KernelIdeal.main_arg18 (by decide)).trans <|
    (Cert.KernelIdeal.Gen.V5_of m outs c Cert.KernelIdeal.main_arg18 (by decide)).trans <|
    (Cert.KernelIdeal.Gen.V4_of m outs c Cert.KernelIdeal.main_arg18 (by decide)).trans <|
    (Cert.KernelIdeal.Gen.V3_of m outs c Cert.KernelIdeal.main_arg18 (by decide)).trans <|
    (Cert.KernelIdeal.Gen.V2_of m outs c Cert.KernelIdeal.main_arg18 (by decide)).trans <|
    (Cert.KernelIdeal.Gen.V1_of m c Cert.KernelIdeal.main_arg18 (by decide))

/-- The argument array `arg19` is still the memory's where the stretch reads it: no item before that point writes it. -/
theorem gap2_ka19 :
    Cert.KernelIdeal.Gen.V12 m outs c (Proc.devRef .tc Cert.KernelIdeal.main_arg19) = m ((c.tc : Thread Cert.KernelIdeal.nD Cert.KernelIdeal.τ).loc Cert.KernelIdeal.main_arg19) :=
  (Cert.KernelIdeal.Gen.V12_of m outs c Cert.KernelIdeal.main_arg19 (by decide)).trans <|
    (Cert.KernelIdeal.Gen.V11_of m outs c Cert.KernelIdeal.main_arg19 (by decide)).trans <|
    (Cert.KernelIdeal.Gen.V10_of m outs c Cert.KernelIdeal.main_arg19 (by decide)).trans <|
    (Cert.KernelIdeal.Gen.V9_of m outs c Cert.KernelIdeal.main_arg19 (by decide)).trans <|
    (Cert.KernelIdeal.Gen.V8_of m outs c Cert.KernelIdeal.main_arg19 (by decide)).trans <|
    (Cert.KernelIdeal.Gen.V7_of m outs c Cert.KernelIdeal.main_arg19 (by decide)).trans <|
    (Cert.KernelIdeal.Gen.V6_of m outs c Cert.KernelIdeal.main_arg19 (by decide)).trans <|
    (Cert.KernelIdeal.Gen.V5_of m outs c Cert.KernelIdeal.main_arg19 (by decide)).trans <|
    (Cert.KernelIdeal.Gen.V4_of m outs c Cert.KernelIdeal.main_arg19 (by decide)).trans <|
    (Cert.KernelIdeal.Gen.V3_of m outs c Cert.KernelIdeal.main_arg19 (by decide)).trans <|
    (Cert.KernelIdeal.Gen.V2_of m outs c Cert.KernelIdeal.main_arg19 (by decide)).trans <|
    (Cert.KernelIdeal.Gen.V1_of m c Cert.KernelIdeal.main_arg19 (by decide))

/-- The argument array `arg2` is still the memory's where the stretch reads it: no item before that point writes it. -/
theorem gap2_ka2 :
    Cert.KernelIdeal.Gen.V20 m outs c (Proc.devRef .tc Cert.KernelIdeal.main_arg2) = m ((c.tc : Thread Cert.KernelIdeal.nD Cert.KernelIdeal.τ).loc Cert.KernelIdeal.main_arg2) :=
  (Cert.KernelIdeal.Gen.V20_of m outs c Cert.KernelIdeal.main_arg2 (by decide)).trans <|
    (Cert.KernelIdeal.Gen.V19_of m outs c Cert.KernelIdeal.main_arg2 (by decide)).trans <|
    (Cert.KernelIdeal.Gen.V18_of m outs c Cert.KernelIdeal.main_arg2 (by decide)).trans <|
    (Cert.KernelIdeal.Gen.V17_of m outs c Cert.KernelIdeal.main_arg2 (by decide)).trans <|
    (Cert.KernelIdeal.Gen.V16_of m outs c Cert.KernelIdeal.main_arg2 (by decide)).trans <|
    (Cert.KernelIdeal.Gen.V15_of m outs c Cert.KernelIdeal.main_arg2 (by decide)).trans <|
    (Cert.KernelIdeal.Gen.V14_of m outs c Cert.KernelIdeal.main_arg2 (by decide)).trans <|
    (Cert.KernelIdeal.Gen.V13_of m outs c Cert.KernelIdeal.main_arg2 (by decide)).trans <|
    (Cert.KernelIdeal.Gen.V12_of m outs c Cert.KernelIdeal.main_arg2 (by decide)).trans <|
    (Cert.KernelIdeal.Gen.V11_of m outs c Cert.KernelIdeal.main_arg2 (by decide)).trans <|
    (Cert.KernelIdeal.Gen.V10_of m outs c Cert.KernelIdeal.main_arg2 (by decide)).trans <|
    (Cert.KernelIdeal.Gen.V9_of m outs c Cert.KernelIdeal.main_arg2 (by decide)).trans <|
    (Cert.KernelIdeal.Gen.V8_of m outs c Cert.KernelIdeal.main_arg2 (by decide)).trans <|
    (Cert.KernelIdeal.Gen.V7_of m outs c Cert.KernelIdeal.main_arg2 (by decide)).trans <|
    (Cert.KernelIdeal.Gen.V6_of m outs c Cert.KernelIdeal.main_arg2 (by decide)).trans <|
    (Cert.KernelIdeal.Gen.V5_of m outs c Cert.KernelIdeal.main_arg2 (by decide)).trans <|
    (Cert.KernelIdeal.Gen.V4_of m outs c Cert.KernelIdeal.main_arg2 (by decide)).trans <|
    (Cert.KernelIdeal.Gen.V3_of m outs c Cert.KernelIdeal.main_arg2 (by decide)).trans <|
    (Cert.KernelIdeal.Gen.V2_of m outs c Cert.KernelIdeal.main_arg2 (by decide)).trans <|
    (Cert.KernelIdeal.Gen.V1_of m c Cert.KernelIdeal.main_arg2 (by decide))

/-- The leading ten thousand rows of the region's padded output are the reference's scatter of the same data rows by
    the same ids into the zero array: entry (n, q) of either is the sum of the rows whose id is n, at column q. -/
theorem gap2_agg (hE : Entry1 m m' outs c) (hV : Val1 m outs c) :
    (after (Cert.KernelIdeal.Gen.hostOps2 (F := Ideal)) (Cert.KernelIdeal.Gen.V12 m outs c) (Proc.devRef .tc Cert.KernelIdeal.main_v96) : (⟨Cert.KernelIdeal.S10000x300, .f32⟩ : BufTy).Contents (Elt Ideal))
      = after (Cert.ReferenceIdeal.RefRun.ops4 (F := Ideal)) (Cert.ReferenceIdeal.RefRun.R4 m' c) (Proc.devRef .tc Cert.ReferenceIdeal.main_v94) := by
  have hout : Cert.KernelIdeal.Gen.V12 m outs c (Proc.devRef .tc Cert.KernelIdeal.main_v95) = outs 12 Cert.KernelIdeal.main_v95 c := by
    simp only [Cert.KernelIdeal.Gen.V12, Function.update_self]
  simp only [Cert.KernelIdeal.Gen.hostOps2, Cert.ReferenceIdeal.RefRun.ops4]
  after_results_simp
  rw [Host.scatterAdd, Idealize.ShloMosaic.Ideal.hostScatterAdd_def]
  show (_ : (⟨2, ![10000, 300]⟩ : Shape).Idx → EReal) = _
  funext j
  obtain ⟨n, q, rfl⟩ : ∃ n q, j = ix2 n q := ⟨_, _, eq_ix2 j⟩
  refine (slice_rows_apply (D := 300) (Cert.KernelIdeal.Gen.V12 m outs c (Proc.devRef .tc Cert.KernelIdeal.main_v95)) _ n q).trans ?_
  refine ((congrFun hout _).trans ((hV ⟨n.val, by have := n.isLt; omega⟩ q).trans ?_)).trans
    (Cert.HostRead.rowScatterAdd_apply (N := 10000) (M := 160000) (D := 300) (w := 32)
      Cert.ReferenceIdeal.scatter_S10000x300_S160000x1_S160000x300_1_0_0_1 rfl rfl rfl rfl _ _ _ n q).symm
  rw [congrFun hE.zero (ix2 n q)]
  refine congrArg (0 + ·) (Finset.sum_congr rfl fun p _ => ?_)
  exact if_congr (Iff.of_eq (congrArg (fun w : BitVec 32 => w.toInt = (n.val : Int)) (congrFun hE.v94 (ix2 p 0))))
    (congrFun hE.v93 (ix2 p q)) rfl

/-! ## From the entry of one region to the entry of the next -/

theorem gap2 (hA : Args m m' c) (hE : Entry1 m m' outs c) (hV : Val1 m outs c) : Entry2 m m' outs c := by
  -- what neither stretch writes is carried
  have kcar : ∀ r : Ref Cert.KernelIdeal.sig .tc,
      r ∉ Cert.KernelIdeal.Gen.hostOps2_8_W → r ∉ Cert.KernelIdeal.Gen.hostOps2_7_W → r ∉ Cert.KernelIdeal.Gen.hostOps2_6_W →
      r ∉ Cert.KernelIdeal.Gen.hostOps2_5_W → r ∉ Cert.KernelIdeal.Gen.hostOps2_4_W → r ∉ Cert.KernelIdeal.Gen.hostOps2_3_W →
      r ∉ Cert.KernelIdeal.Gen.hostOps2_2_W → r ∉ Cert.KernelIdeal.Gen.hostOps2_1_W → r ∉ Cert.KernelIdeal.Gen.hostOps2_W →
      r ∉ ([Cert.KernelIdeal.main_v95] : List (Ref Cert.KernelIdeal.sig .tc)) →
      Cert.KernelIdeal.Gen.V21 m outs c r = Cert.KernelIdeal.Gen.V11 m outs c r :=
    fun r h8 h7 h6 h5 h4 h3 h2 h1 h0 hu =>
      (Cert.KernelIdeal.Gen.V21_of m outs c r h8).trans <| (Cert.KernelIdeal.Gen.V20_of m outs c r h7).trans <|
      (Cert.KernelIdeal.Gen.V19_of m outs c r h6).trans <| (Cert.KernelIdeal.Gen.V18_of m outs c r h5).trans <|
      (Cert.KernelIdeal.Gen.V17_of m outs c r h4).trans <| (Cert.KernelIdeal.Gen.V16_of m outs c r h3).trans <|
      (Cert.KernelIdeal.Gen.V15_of m outs c r h2).trans <| (Cert.KernelIdeal.Gen.V14_of m outs c r h1).trans <|
      (Cert.KernelIdeal.Gen.V13_of m outs c r h0).trans <| Cert.KernelIdeal.Gen.V12_of m outs c r hu
  have rcar : ∀ r : Ref Cert.ReferenceIdeal.sig .tc,
      r ∉ Cert.ReferenceIdeal.RefRun.ops6_W → r ∉ Cert.ReferenceIdeal.RefRun.ops5_W → r ∉ Cert.ReferenceIdeal.RefRun.ops4_W →
      Cert.ReferenceIdeal.RefRun.R7 m' c (Proc.devRef .tc r) = Cert.ReferenceIdeal.RefRun.R4 m' c (Proc.devRef .tc r) := by
    intro r h6 h5 h4
    rw [Cert.ReferenceIdeal.RefRun.R7_eq, after_of_writes_sub Cert.ReferenceIdeal.RefRun.ops6 _ Cert.ReferenceIdeal.RefRun.ops6_writes h6,
      Cert.ReferenceIdeal.RefRun.R6_eq, after_of_writes_sub Cert.ReferenceIdeal.RefRun.ops5 _ Cert.ReferenceIdeal.RefRun.ops5_writes h5,
      Cert.ReferenceIdeal.RefRun.R5_eq, after_of_writes_sub Cert.ReferenceIdeal.RefRun.ops4 _ Cert.ReferenceIdeal.RefRun.ops4_writes h4]
  -- the layer's output
  have hh : (Cert.KernelIdeal.Gen.V20 m outs c (Proc.devRef .tc Cert.KernelIdeal.main_v149) : (⟨2, ![10000, 300]⟩ : Shape).Idx → EReal)
      = Cert.ReferenceIdeal.RefRun.R7 m' c (Proc.devRef .tc Cert.ReferenceIdeal.main_v147) := by
    rw [Cert.ReferenceIdeal.RefRun.R7_eq, Cert.ReferenceIdeal.RefRun.R6_eq, Cert.ReferenceIdeal.RefRun.R5_eq]
    exact gap2_chain (Cert.KernelIdeal.Gen.V12 m outs c) (Cert.ReferenceIdeal.RefRun.R4 m' c) (gap2_agg m m' outs c hE hV)
      ((Cert.KernelIdeal.Gen.V12_of m outs c Cert.KernelIdeal.main_v73 (by decide)).trans hE.v73)
      ((Cert.KernelIdeal.Gen.V12_of m outs c Cert.KernelIdeal.main_v75 (by decide)).trans hE.v75)
      ((Cert.KernelIdeal.Gen.V12_of m outs c Cert.KernelIdeal.main_v77 (by decide)).trans hE.v77)
      ((Cert.KernelIdeal.Gen.V12_of m outs c Cert.KernelIdeal.main_v79 (by decide)).trans hE.v79)
      ((Cert.KernelIdeal.Gen.V12_of m outs c Cert.KernelIdeal.main_v81 (by decide)).trans hE.v81)
      ((Cert.KernelIdeal.Gen.V12_of m outs c Cert.KernelIdeal.main_v83 (by decide)).trans hE.v83)
      ((Cert.KernelIdeal.Gen.V12_of m outs c Cert.KernelIdeal.main_v85 (by decide)).trans hE.v85)
      ((gap2_ka18 m outs c).trans (hA.a18.symm.trans (Rkept_4 m' c Cert.ReferenceIdeal.main_arg18 (by decide)).symm))
      ((gap2_ka19 m outs c).trans (hA.a19.symm.trans (Rkept_4 m' c Cert.ReferenceIdeal.main_arg19 (by decide)).symm))
  refine ⟨?_, ?_, ?_, ?_, ?_, ?_, ?_⟩
  · exact (kcar Cert.KernelIdeal.main_v1 (by decide) (by decide) (by decide) (by decide) (by decide) (by decide) (by decide) (by decide) (by decide) (by decide)).trans
      (hE.v1.trans (rcar Cert.ReferenceIdeal.main_v1 (by decide) (by decide) (by decide)).symm)
  · exact (kcar Cert.KernelIdeal.main_v3 (by decide) (by decide) (by decide) (by decide) (by decide) (by decide) (by decide) (by decide) (by decide) (by decide)).trans
      (hE.v3.trans (rcar Cert.ReferenceIdeal.main_v3 (by decide) (by decide) (by decide)).symm)
  · exact (kcar Cert.KernelIdeal.main_v5 (by decide) (by decide) (by decide) (by decide) (by decide) (by decide) (by decide) (by decide) (by decide) (by decide)).trans
      (hE.v5.trans (rcar Cert.ReferenceIdeal.main_v5 (by decide) (by decide) (by decide)).symm)
  · exact (Cert.KernelIdeal.Gen.V21_of m outs c Cert.KernelIdeal.main_v149 (by decide)).trans hh
  · rw [Cert.ReferenceIdeal.RefRun.R7_eq]
    exact gap2_ids (Cert.KernelIdeal.Gen.V20 m outs c) (Cert.ReferenceIdeal.RefRun.R6 m' c)
      ((gap2_ka2 m outs c).trans
        (hA.a2.symm.trans (Rkept_6 m' c Cert.ReferenceIdeal.main_arg2 (by decide)).symm))
  · exact (gap2_narrow (Cert.KernelIdeal.Gen.V20 m outs c)).trans hh
  · rw [Cert.ReferenceIdeal.RefRun.R7_eq]
    exact gap2_zero (Cert.ReferenceIdeal.RefRun.R6 m' c)

end Gap

end Cert.Bridge

end
-- ==== Proof.Bridge.ArgsKeptK1.lean ====
/- Arguments 0 to 9 of the kernel program hold their launch contents after every item of @main: no host operation
   writes an argument and no kernel region may change one.  One step per item, each from the step before. -/
import proofs.«411400_j9251359555630_1_alg».proof.Proof.KI.RegionsP

set_option maxRecDepth 8192

noncomputable section

namespace Cert.Bridge

open Idealize.ShloMosaic Idealize.ShloMosaic.TcCoe Idealize.SL.Sem
open Cert.KernelIdeal Cert.KernelIdeal.Gen

variable {F : FTy → Type} [FloatOps F]
variable (m : (ℓ : Loc nD τ sig) → Buf (Elt F) ℓ) (outs : Outs (F := F)) (c : Dev nD)

/-! ### main_arg0 -/
theorem Karg0_0 : V0 m c main_arg0 = m ((c : Thread nD τ).loc main_arg0) := rfl
theorem Karg0_1 : V1 m c main_arg0 = m ((c : Thread nD τ).loc main_arg0) :=
  (V1_of m c main_arg0 (by decide)).trans (Karg0_0 m c)
theorem Karg0_2 : V2 m outs c main_arg0 = m ((c : Thread nD τ).loc main_arg0) :=
  (V2_of m outs c main_arg0 (by decide)).trans (Karg0_1 m c)
theorem Karg0_3 : V3 m outs c main_arg0 = m ((c : Thread nD τ).loc main_arg0) :=
  (V3_of m outs c main_arg0 (by decide)).trans (Karg0_2 m outs c)
theorem Karg0_4 : V4 m outs c main_arg0 = m ((c : Thread nD τ).loc main_arg0) :=
  (V4_of m outs c main_arg0 (by decide)).trans (Karg0_3 m outs c)
theorem Karg0_5 : V5 m outs c main_arg0 = m ((c : Thread nD τ).loc main_arg0) :=
  (V5_of m outs c main_arg0 (by decide)).trans (Karg0_4 m outs c)
theorem Karg0_6 : V6 m outs c main_arg0 = m ((c : Thread nD τ).loc main_arg0) :=
  (V6_of m outs c main_arg0 (by decide)).trans (Karg0_5 m outs c)
theorem Karg0_7 : V7 m outs c main_arg0 = m ((c : Thread nD τ).loc main_arg0) :=
  (V7_of m outs c main_arg0 (by decide)).trans (Karg0_6 m outs c)
theorem Karg0_8 : V8 m outs c main_arg0 = m ((c : Thread nD τ).loc main_arg0) :=
  (V8_of m outs c main_arg0 (by decide)).trans (Karg0_7 m outs c)
theorem Karg0_9 : V9 m outs c main_arg0 = m ((c : Thread nD τ).loc main_arg0) :=
  (V9_of m outs c main_arg0 (by decide)).trans (Karg0_8 m outs c)
theorem Karg0_10 : V10 m outs c main_arg0 = m ((c : Thread nD τ).loc main_arg0) :=
  (V10_of m outs c main_arg0 (by decide)).trans (Karg0_9 m outs c)
theorem Karg0_11 : V11 m outs c main_arg0 = m ((c : Thread nD τ).loc main_arg0) :=
  (V11_of m outs c main_arg0 (by decide)).trans (Karg0_10 m outs c)
theorem Karg0_12 : V12 m outs c main_arg0 = m ((c : Thread nD τ).loc main_arg0) :=
  (V12_of m outs c main_arg0 (by decide)).trans (Karg0_11 m outs c)
theorem Karg0_13 : V13 m outs c main_arg0 = m ((c : Thread nD τ).loc main_arg0) :=
  (V13_of m outs c main_arg0 (by decide)).trans (Karg0_12 m outs c)
theorem Karg0_14 : V14 m outs c main_arg0 = m ((c : Thread nD τ).loc main_arg0) :=
  (V14_of m outs c main_arg0 (by decide)).trans (Karg0_13 m outs c)
theorem Karg0_15 : V15 m outs c main_arg0 = m ((c : Thread nD τ).loc main_arg0) :=
  (V15_of m outs c main_arg0 (by decide)).trans (Karg0_14 m outs c)
theorem Karg0_16 : V16 m outs c main_arg0 = m ((c : Thread nD τ).loc main_arg0) :=
  (V16_of m outs c main_arg0 (by decide)).trans (Karg0_15 m outs c)
theorem Karg0_17 : V17 m outs c main_arg0 = m ((c : Thread nD τ).loc main_arg0) :=
  (V17_of m outs c main_arg0 (by decide)).trans (Karg0_16 m outs c)
theorem Karg0_18 : V18 m outs c main_arg0 = m ((c : Thread nD τ).loc main_arg0) :=
  (V18_of m outs c main_arg0 (by decide)).trans (Karg0_17 m outs c)
theorem Karg0_19 : V19 m outs c main_arg0 = m ((c : Thread nD τ).loc main_arg0) :=
  (V19_of m outs c main_arg0 (by decide)).trans (Karg0_18 m outs c)
theorem Karg0_20 : V20 m outs c main_arg0 = m ((c : Thread nD τ).loc main_arg0) :=
  (V20_of m outs c main_arg0 (by decide)).trans (Karg0_19 m outs c)
theorem Karg0_21 : V21 m outs c main_arg0 = m ((c : Thread nD τ).loc main_arg0) :=
  (V21_of m outs c main_arg0 (by decide)).trans (Karg0_20 m outs c)
theorem Karg0_22 : V22 m outs c main_arg0 = m ((c : Thread nD τ).loc main_arg0) :=
  (V22_of m outs c main_arg0 (by decide)).trans (Karg0_21 m outs c)
theorem Karg0_23 : V23 m outs c main_arg0 = m ((c : Thread nD τ).loc main_arg0) :=
  (V23_of m outs c main_arg0 (by decide)).trans (Karg0_22 m outs c)
theorem Karg0_24 : V24 m outs c main_arg0 = m ((c : Thread nD τ).loc main_arg0) :=
  (V24_of m outs c main_arg0 (by decide)).trans (Karg0_23 m outs c)
theorem Karg0_25 : V25 m outs c main_arg0 = m ((c : Thread nD τ).loc main_arg0) :=
  (V25_of m outs c main_arg0 (by decide)).trans (Karg0_24 m outs c)
theorem Karg0_26 : V26 m outs c main_arg0 = m ((c : Thread nD τ).loc main_arg0) :=
  (V26_of m outs c main_arg0 (by decide)).trans (Karg0_25 m outs c)
theorem Karg0_27 : V27 m outs c main_arg0 = m ((c : Thread nD τ).loc main_arg0) :=
  (V27_of m outs c main_arg0 (by decide)).trans (Karg0_26 m outs c)
theorem Karg0_28 : V28 m outs c main_arg0 = m ((c : Thread nD τ).loc main_arg0) :=
  (V28_of m outs c main_arg0 (by decide)).trans (Karg0_27 m outs c)
theorem Karg0_29 : V29 m outs c main_arg0 = m ((c : Thread nD τ).loc main_arg0) :=
  (V29_of m outs c main_arg0 (by decide)).trans (Karg0_28 m outs c)
theorem Karg0_30 : V30 m outs c main_arg0 = m ((c : Thread nD τ).loc main_arg0) :=
  (V30_of m outs c main_arg0 (by decide)).trans (Karg0_29 m outs c)
theorem Karg0_31 : V31 m outs c main_arg0 = m ((c : Thread nD τ).loc main_arg0) :=
  (V31_of m outs c main_arg0 (by decide)).trans (Karg0_30 m outs c)
theorem Karg0_32 : V32 m outs c main_arg0 = m ((c : Thread nD τ).loc main_arg0) :=
  (V32_of m outs c main_arg0 (by decide)).trans (Karg0_31 m outs c)
theorem Karg0_33 : V33 m outs c main_arg0 = m ((c : Thread nD τ).loc main_arg0) :=
  (V33_of m outs c main_arg0 (by decide)).trans (Karg0_32 m outs c)
theorem Karg0_34 : V34 m outs c main_arg0 = m ((c : Thread nD τ).loc main_arg0) :=
  (V34_of m outs c main_arg0 (by decide)).trans (Karg0_33 m outs c)
theorem Karg0_35 : V35 m outs c main_arg0 = m ((c : Thread nD τ).loc main_arg0) :=
  (V35_of m outs c main_arg0 (by decide)).trans (Karg0_34 m outs c)
theorem Karg0_36 : V36 m outs c main_arg0 = m ((c : Thread nD τ).loc main_arg0) :=
  (V36_of m outs c main_arg0 (by decide)).trans (Karg0_35 m outs c)
theorem Karg0_37 : V37 m outs c main_arg0 = m ((c : Thread nD τ).loc main_arg0) :=
  (V37_of m outs c main_arg0 (by decide)).trans (Karg0_36 m outs c)
theorem Karg0_38 : V38 m outs c main_arg0 = m ((c : Thread nD τ).loc main_arg0) :=
  (V38_of m outs c main_arg0 (by decide)).trans (Karg0_37 m outs c)
theorem Karg0_39 : V39 m outs c main_arg0 = m ((c : Thread nD τ).loc main_arg0) :=
  (V39_of m outs c main_arg0 (by decide)).trans (Karg0_38 m outs c)
theorem Karg0_40 : V40 m outs c main_arg0 = m ((c : Thread nD τ).loc main_arg0) :=
  (V40_of m outs c main_arg0 (by decide)).trans (Karg0_39 m outs c)
theorem Karg0_41 : V41 m outs c main_arg0 = m ((c : Thread nD τ).loc main_arg0) :=
  (V41_of m outs c main_arg0 (by decide)).trans (Karg0_40 m outs c)
theorem Karg0_42 : V42 m outs c main_arg0 = m ((c : Thread nD τ).loc main_arg0) :=
  (V42_of m outs c main_arg0 (by decide)).trans (Karg0_41 m outs c)
theorem Karg0_43 : V43 m outs c main_arg0 = m ((c : Thread nD τ).loc main_arg0) :=
  (V43_of m outs c main_arg0 (by decide)).trans (Karg0_42 m outs c)
theorem Karg0_44 : V44 m outs c main_arg0 = m ((c : Thread nD τ).loc main_arg0) :=
  (V44_of m outs c main_arg0 (by decide)).trans (Karg0_43 m outs c)
theorem Karg0_45 : V45 m outs c main_arg0 = m ((c : Thread nD τ).loc main_arg0) :=
  (V45_of m outs c main_arg0 (by decide)).trans (Karg0_44 m outs c)
theorem Karg0_46 : V46 m outs c main_arg0 = m ((c : Thread nD τ).loc main_arg0) :=
  (V46_of m outs c main_arg0 (by decide)).trans (Karg0_45 m outs c)
theorem Karg0_47 : V47 m outs c main_arg0 = m ((c : Thread nD τ).loc main_arg0) :=
  (V47_of m outs c main_arg0 (by decide)).trans (Karg0_46 m outs c)
theorem Karg0_48 : V48 m outs c main_arg0 = m ((c : Thread nD τ).loc main_arg0) :=
  (V48_of m outs c main_arg0 (by decide)).trans (Karg0_47 m outs c)
theorem Karg0_49 : V49 m outs c main_arg0 = m ((c : Thread nD τ).loc main_arg0) :=
  (V49_of m outs c main_arg0 (by decide)).trans (Karg0_48 m outs c)
theorem Karg0_50 : V50 m outs c main_arg0 = m ((c : Thread nD τ).loc main_arg0) :=
  (V50_of m outs c main_arg0 (by decide)).trans (Karg0_49 m outs c)
theorem Karg0_51 : V51 m outs c main_arg0 = m ((c : Thread nD τ).loc main_arg0) :=
  (V51_of m outs c main_arg0 (by decide)).trans (Karg0_50 m outs c)
theorem Karg0_52 : V52 m outs c main_arg0 = m ((c : Thread nD τ).loc main_arg0) :=
  (V52_of m outs c main_arg0 (by decide)).trans (Karg0_51 m outs c)
theorem Karg0_53 : V53 m outs c main_arg0 = m ((c : Thread nD τ).loc main_arg0) :=
  (V53_of m outs c main_arg0 (by decide)).trans (Karg0_52 m outs c)
theorem Karg0_54 : V54 m outs c main_arg0 = m ((c : Thread nD τ).loc main_arg0) :=
  (V54_of m outs c main_arg0 (by decide)).trans (Karg0_53 m outs c)
theorem Karg0_55 : V55 m outs c main_arg0 = m ((c : Thread nD τ).loc main_arg0) :=
  (V55_of m outs c main_arg0 (by decide)).trans (Karg0_54 m outs c)
theorem Karg0_56 : V56 m outs c main_arg0 = m ((c : Thread nD τ).loc main_arg0) :=
  (V56_of m outs c main_arg0 (by decide)).trans (Karg0_55 m outs c)
theorem Karg0_57 : V57 m outs c main_arg0 = m ((c : Thread nD τ).loc main_arg0) :=
  (V57_of m outs c main_arg0 (by decide)).trans (Karg0_56 m outs c)
theorem Karg0_58 : V58 m outs c main_arg0 = m ((c : Thread nD τ).loc main_arg0) :=
  (V58_of m outs c main_arg0 (by decide)).trans (Karg0_57 m outs c)
theorem Karg0_59 : V59 m outs c main_arg0 = m ((c : Thread nD τ).loc main_arg0) :=
  (V59_of m outs c main_arg0 (by decide)).trans (Karg0_58 m outs c)
theorem Karg0_60 : V60 m outs c main_arg0 = m ((c : Thread nD τ).loc main_arg0) :=
  (V60_of m outs c main_arg0 (by decide)).trans (Karg0_59 m outs c)
theorem Karg0_61 : V61 m outs c main_arg0 = m ((c : Thread nD τ).loc main_arg0) :=
  (V61_of m outs c main_arg0 (by decide)).trans (Karg0_60 m outs c)
theorem Karg0_62 : V62 m outs c main_arg0 = m ((c : Thread nD τ).loc main_arg0) :=
  (V62_of m outs c main_arg0 (by decide)).trans (Karg0_61 m outs c)
theorem Karg0_63 : V63 m outs c main_arg0 = m ((c : Thread nD τ).loc main_arg0) :=
  (V63_of m outs c main_arg0 (by decide)).trans (Karg0_62 m outs c)
theorem Karg0_64 : V64 m outs c main_arg0 = m ((c : Thread nD τ).loc main_arg0) :=
  (V64_of m outs c main_arg0 (by decide)).trans (Karg0_63 m outs c)
theorem Karg0_65 : V65 m outs c main_arg0 = m ((c : Thread nD τ).loc main_arg0) :=
  (V65_of m outs c main_arg0 (by decide)).trans (Karg0_64 m outs c)
theorem Karg0_66 : V66 m outs c main_arg0 = m ((c : Thread nD τ).loc main_arg0) :=
  (V66_of m outs c main_arg0 (by decide)).trans (Karg0_65 m outs c)
theorem Karg0_67 : V67 m outs c main_arg0 = m ((c : Thread nD τ).loc main_arg0) :=
  (V67_of m outs c main_arg0 (by decide)).trans (Karg0_66 m outs c)
theorem Karg0_68 : V68 m outs c main_arg0 = m ((c : Thread nD τ).loc main_arg0) :=
  (V68_of m outs c main_arg0 (by decide)).trans (Karg0_67 m outs c)
theorem Karg0_69 : V69 m outs c main_arg0 = m ((c : Thread nD τ).loc main_arg0) :=
  (V69_of m outs c main_arg0 (by decide)).trans (Karg0_68 m outs c)
theorem Karg0_70 : V70 m outs c main_arg0 = m ((c : Thread nD τ).loc main_arg0) :=
  (V70_of m outs c main_arg0 (by decide)).trans (Karg0_69 m outs c)
theorem Karg0_71 : V71 m outs c main_arg0 = m ((c : Thread nD τ).loc main_arg0) :=
  (V71_of m outs c main_arg0 (by decide)).trans (Karg0_70 m outs c)
theorem Karg0_72 : V72 m outs c main_arg0 = m ((c : Thread nD τ).loc main_arg0) :=
  (V72_of m outs c main_arg0 (by decide)).trans (Karg0_71 m outs c)
theorem Karg0_73 : V73 m outs c main_arg0 = m ((c : Thread nD τ).loc main_arg0) :=
  (V73_of m outs c main_arg0 (by decide)).trans (Karg0_72 m outs c)
theorem Karg0_74 : V74 m outs c main_arg0 = m ((c : Thread nD τ).loc main_arg0) :=
  (V74_of m outs c main_arg0 (by decide)).trans (Karg0_73 m outs c)
theorem Karg0_75 : V75 m outs c main_arg0 = m ((c : Thread nD τ).loc main_arg0) :=
  (V75_of m outs c main_arg0 (by decide)).trans (Karg0_74 m outs c)
theorem Karg0_76 : V76 m outs c main_arg0 = m ((c : Thread nD τ).loc main_arg0) :=
  (V76_of m outs c main_arg0 (by decide)).trans (Karg0_75 m outs c)
theorem Karg0_77 : V77 m outs c main_arg0 = m ((c : Thread nD τ).loc main_arg0) :=
  (V77_of m outs c main_arg0 (by decide)).trans (Karg0_76 m outs c)
theorem Karg0_78 : V78 m outs c main_arg0 = m ((c : Thread nD τ).loc main_arg0) :=
  (V78_of m outs c main_arg0 (by decide)).trans (Karg0_77 m outs c)
theorem Karg0_79 : V79 m outs c main_arg0 = m ((c : Thread nD τ).loc main_arg0) :=
  (V79_of m outs c main_arg0 (by decide)).trans (Karg0_78 m outs c)
theorem Karg0_80 : V80 m outs c main_arg0 = m ((c : Thread nD τ).loc main_arg0) :=
  (V80_of m outs c main_arg0 (by decide)).trans (Karg0_79 m outs c)
theorem Karg0_81 : V81 m outs c main_arg0 = m ((c : Thread nD τ).loc main_arg0) :=
  (V81_of m outs c main_arg0 (by decide)).trans (Karg0_80 m outs c)
/-! ### main_arg1 -/
theorem Karg1_0 : V0 m c main_arg1 = m ((c : Thread nD τ).loc main_arg1) := rfl
theorem Karg1_1 : V1 m c main_arg1 = m ((c : Thread nD τ).loc main_arg1) :=
  (V1_of m c main_arg1 (by decide)).trans (Karg1_0 m c)
theorem Karg1_2 : V2 m outs c main_arg1 = m ((c : Thread nD τ).loc main_arg1) :=
  (V2_of m outs c main_arg1 (by decide)).trans (Karg1_1 m c)
theorem Karg1_3 : V3 m outs c main_arg1 = m ((c : Thread nD τ).loc main_arg1) :=
  (V3_of m outs c main_arg1 (by decide)).trans (Karg1_2 m outs c)
theorem Karg1_4 : V4 m outs c main_arg1 = m ((c : Thread nD τ).loc main_arg1) :=
  (V4_of m outs c main_arg1 (by decide)).trans (Karg1_3 m outs c)
theorem Karg1_5 : V5 m outs c main_arg1 = m ((c : Thread nD τ).loc main_arg1) :=
  (V5_of m outs c main_arg1 (by decide)).trans (Karg1_4 m outs c)
theorem Karg1_6 : V6 m outs c main_arg1 = m ((c : Thread nD τ).loc main_arg1) :=
  (V6_of m outs c main_arg1 (by decide)).trans (Karg1_5 m outs c)
theorem Karg1_7 : V7 m outs c main_arg1 = m ((c : Thread nD τ).loc main_arg1) :=
  (V7_of m outs c main_arg1 (by decide)).trans (Karg1_6 m outs c)
theorem Karg1_8 : V8 m outs c main_arg1 = m ((c : Thread nD τ).loc main_arg1) :=
  (V8_of m outs c main_arg1 (by decide)).trans (Karg1_7 m outs c)
theorem Karg1_9 : V9 m outs c main_arg1 = m ((c : Thread nD τ).loc main_arg1) :=
  (V9_of m outs c main_arg1 (by decide)).trans (Karg1_8 m outs c)
theorem Karg1_10 : V10 m outs c main_arg1 = m ((c : Thread nD τ).loc main_arg1) :=
  (V10_of m outs c main_arg1 (by decide)).trans (Karg1_9 m outs c)
theorem Karg1_11 : V11 m outs c main_arg1 = m ((c : Thread nD τ).loc main_arg1) :=
  (V11_of m outs c main_arg1 (by decide)).trans (Karg1_10 m outs c)
theorem Karg1_12 : V12 m outs c main_arg1 = m ((c : Thread nD τ).loc main_arg1) :=
  (V12_of m outs c main_arg1 (by decide)).trans (Karg1_11 m outs c)
theorem Karg1_13 : V13 m outs c main_arg1 = m ((c : Thread nD τ).loc main_arg1) :=
  (V13_of m outs c main_arg1 (by decide)).trans (Karg1_12 m outs c)
theorem Karg1_14 : V14 m outs c main_arg1 = m ((c : Thread nD τ).loc main_arg1) :=
  (V14_of m outs c main_arg1 (by decide)).trans (Karg1_13 m outs c)
theorem Karg1_15 : V15 m outs c main_arg1 = m ((c : Thread nD τ).loc main_arg1) :=
  (V15_of m outs c main_arg1 (by decide)).trans (Karg1_14 m outs c)
theorem Karg1_16 : V16 m outs c main_arg1 = m ((c : Thread nD τ).loc main_arg1) :=
  (V16_of m outs c main_arg1 (by decide)).trans (Karg1_15 m outs c)
theorem Karg1_17 : V17 m outs c main_arg1 = m ((c : Thread nD τ).loc main_arg1) :=
  (V17_of m outs c main_arg1 (by decide)).trans (Karg1_16 m outs c)
theorem Karg1_18 : V18 m outs c main_arg1 = m ((c : Thread nD τ).loc main_arg1) :=
  (V18_of m outs c main_arg1 (by decide)).trans (Karg1_17 m outs c)
theorem Karg1_19 : V19 m outs c main_arg1 = m ((c : Thread nD τ).loc main_arg1) :=
  (V19_of m outs c main_arg1 (by decide)).trans (Karg1_18 m outs c)
theorem Karg1_20 : V20 m outs c main_arg1 = m ((c : Thread nD τ).loc main_arg1) :=
  (V20_of m outs c main_arg1 (by decide)).trans (Karg1_19 m outs c)
theorem Karg1_21 : V21 m outs c main_arg1 = m ((c : Thread nD τ).loc main_arg1) :=
  (V21_of m outs c main_arg1 (by decide)).trans (Karg1_20 m outs c)
theorem Karg1_22 : V22 m outs c main_arg1 = m ((c : Thread nD τ).loc main_arg1) :=
  (V22_of m outs c main_arg1 (by decide)).trans (Karg1_21 m outs c)
theorem Karg1_23 : V23 m outs c main_arg1 = m ((c : Thread nD τ).loc main_arg1) :=
  (V23_of m outs c main_arg1 (by decide)).trans (Karg1_22 m outs c)
theorem Karg1_24 : V24 m outs c main_arg1 = m ((c : Thread nD τ).loc main_arg1) :=
  (V24_of m outs c main_arg1 (by decide)).trans (Karg1_23 m outs c)
theorem Karg1_25 : V25 m outs c main_arg1 = m ((c : Thread nD τ).loc main_arg1) :=
  (V25_of m outs c main_arg1 (by decide)).trans (Karg1_24 m outs c)
theorem Karg1_26 : V26 m outs c main_arg1 = m ((c : Thread nD τ).loc main_arg1) :=
  (V26_of m outs c main_arg1 (by decide)).trans (Karg1_25 m outs c)
theorem Karg1_27 : V27 m outs c main_arg1 = m ((c : Thread nD τ).loc main_arg1) :=
  (V27_of m outs c main_arg1 (by decide)).trans (Karg1_26 m outs c)
theorem Karg1_28 : V28 m outs c main_arg1 = m ((c : Thread nD τ).loc main_arg1) :=
  (V28_of m outs c main_arg1 (by decide)).trans (Karg1_27 m outs c)
theorem Karg1_29 : V29 m outs c main_arg1 = m ((c : Thread nD τ).loc main_arg1) :=
  (V29_of m outs c main_arg1 (by decide)).trans (Karg1_28 m outs c)
theorem Karg1_30 : V30 m outs c main_arg1 = m ((c : Thread nD τ).loc main_arg1) :=
  (V30_of m outs c main_arg1 (by decide)).trans (Karg1_29 m outs c)
theorem Karg1_31 : V31 m outs c main_arg1 = m ((c : Thread nD τ).loc main_arg1) :=
  (V31_of m outs c main_arg1 (by decide)).trans (Karg1_30 m outs c)
theorem Karg1_32 : V32 m outs c main_arg1 = m ((c : Thread nD τ).loc main_arg1) :=
  (V32_of m outs c main_arg1 (by decide)).trans (Karg1_31 m outs c)
theorem Karg1_33 : V33 m outs c main_arg1 = m ((c : Thread nD τ).loc main_arg1) :=
  (V33_of m outs c main_arg1 (by decide)).trans (Karg1_32 m outs c)
theorem Karg1_34 : V34 m outs c main_arg1 = m ((c : Thread nD τ).loc main_arg1) :=
  (V34_of m outs c main_arg1 (by decide)).trans (Karg1_33 m outs c)
theorem Karg1_35 : V35 m outs c main_arg1 = m ((c : Thread nD τ).loc main_arg1) :=
  (V35_of m outs c main_arg1 (by decide)).trans (Karg1_34 m outs c)
theorem Karg1_36 : V36 m outs c main_arg1 = m ((c : Thread nD τ).loc main_arg1) :=
  (V36_of m outs c main_arg1 (by decide)).trans (Karg1_35 m outs c)
theorem Karg1_37 : V37 m outs c main_arg1 = m ((c : Thread nD τ).loc main_arg1) :=
  (V37_of m outs c main_arg1 (by decide)).trans (Karg1_36 m outs c)
theorem Karg1_38 : V38 m outs c main_arg1 = m ((c : Thread nD τ).loc main_arg1) :=
  (V38_of m outs c main_arg1 (by decide)).trans (Karg1_37 m outs c)
theorem Karg1_39 : V39 m outs c main_arg1 = m ((c : Thread nD τ).loc main_arg1) :=
  (V39_of m outs c main_arg1 (by decide)).trans (Karg1_38 m outs c)
theorem Karg1_40 : V40 m outs c main_arg1 = m ((c : Thread nD τ).loc main_arg1) :=
  (V40_of m outs c main_arg1 (by decide)).trans (Karg1_39 m outs c)
theorem Karg1_41 : V41 m outs c main_arg1 = m ((c : Thread nD τ).loc main_arg1) :=
  (V41_of m outs c main_arg1 (by decide)).trans (Karg1_40 m outs c)
theorem Karg1_42 : V42 m outs c main_arg1 = m ((c : Thread nD τ).loc main_arg1) :=
  (V42_of m outs c main_arg1 (by decide)).trans (Karg1_41 m outs c)
theorem Karg1_43 : V43 m outs c main_arg1 = m ((c : Thread nD τ).loc main_arg1) :=
  (V43_of m outs c main_arg1 (by decide)).trans (Karg1_42 m outs c)
theorem Karg1_44 : V44 m outs c main_arg1 = m ((c : Thread nD τ).loc main_arg1) :=
  (V44_of m outs c main_arg1 (by decide)).trans (Karg1_43 m outs c)
theorem Karg1_45 : V45 m outs c main_arg1 = m ((c : Thread nD τ).loc main_arg1) :=
  (V45_of m outs c main_arg1 (by decide)).trans (Karg1_44 m outs c)
theorem Karg1_46 : V46 m outs c main_arg1 = m ((c : Thread nD τ).loc main_arg1) :=
  (V46_of m outs c main_arg1 (by decide)).trans (Karg1_45 m outs c)
theorem Karg1_47 : V47 m outs c main_arg1 = m ((c : Thread nD τ).loc main_arg1) :=
  (V47_of m outs c main_arg1 (by decide)).trans (Karg1_46 m outs c)
theorem Karg1_48 : V48 m outs c main_arg1 = m ((c : Thread nD τ).loc main_arg1) :=
  (V48_of m outs c main_arg1 (by decide)).trans (Karg1_47 m outs c)
theorem Karg1_49 : V49 m outs c main_arg1 = m ((c : Thread nD τ).loc main_arg1) :=
  (V49_of m outs c main_arg1 (by decide)).trans (Karg1_48 m outs c)
theorem Karg1_50 : V50 m outs c main_arg1 = m ((c : Thread nD τ).loc main_arg1) :=
  (V50_of m outs c main_arg1 (by decide)).trans (Karg1_49 m outs c)
theorem Karg1_51 : V51 m outs c main_arg1 = m ((c : Thread nD τ).loc main_arg1) :=
  (V51_of m outs c main_arg1 (by decide)).trans (Karg1_50 m outs c)
theorem Karg1_52 : V52 m outs c main_arg1 = m ((c : Thread nD τ).loc main_arg1) :=
  (V52_of m outs c main_arg1 (by decide)).trans (Karg1_51 m outs c)
theorem Karg1_53 : V53 m outs c main_arg1 = m ((c : Thread nD τ).loc main_arg1) :=
  (V53_of m outs c main_arg1 (by decide)).trans (Karg1_52 m outs c)
theorem Karg1_54 : V54 m outs c main_arg1 = m ((c : Thread nD τ).loc main_arg1) :=
  (V54_of m outs c main_arg1 (by decide)).trans (Karg1_53 m outs c)
theorem Karg1_55 : V55 m outs c main_arg1 = m ((c : Thread nD τ).loc main_arg1) :=
  (V55_of m outs c main_arg1 (by decide)).trans (Karg1_54 m outs c)
theorem Karg1_56 : V56 m outs c main_arg1 = m ((c : Thread nD τ).loc main_arg1) :=
  (V56_of m outs c main_arg1 (by decide)).trans (Karg1_55 m outs c)
theorem Karg1_57 : V57 m outs c main_arg1 = m ((c : Thread nD τ).loc main_arg1) :=
  (V57_of m outs c main_arg1 (by decide)).trans (Karg1_56 m outs c)
theorem Karg1_58 : V58 m outs c main_arg1 = m ((c : Thread nD τ).loc main_arg1) :=
  (V58_of m outs c main_arg1 (by decide)).trans (Karg1_57 m outs c)
theorem Karg1_59 : V59 m outs c main_arg1 = m ((c : Thread nD τ).loc main_arg1) :=
  (V59_of m outs c main_arg1 (by decide)).trans (Karg1_58 m outs c)
theorem Karg1_60 : V60 m outs c main_arg1 = m ((c : Thread nD τ).loc main_arg1) :=
  (V60_of m outs c main_arg1 (by decide)).trans (Karg1_59 m outs c)
theorem Karg1_61 : V61 m outs c main_arg1 = m ((c : Thread nD τ).loc main_arg1) :=
  (V61_of m outs c main_arg1 (by decide)).trans (Karg1_60 m outs c)
theorem Karg1_62 : V62 m outs c main_arg1 = m ((c : Thread nD τ).loc main_arg1) :=
  (V62_of m outs c main_arg1 (by decide)).trans (Karg1_61 m outs c)
theorem Karg1_63 : V63 m outs c main_arg1 = m ((c : Thread nD τ).loc main_arg1) :=
  (V63_of m outs c main_arg1 (by decide)).trans (Karg1_62 m outs c)
theorem Karg1_64 : V64 m outs c main_arg1 = m ((c : Thread nD τ).loc main_arg1) :=
  (V64_of m outs c main_arg1 (by decide)).trans (Karg1_63 m outs c)
theorem Karg1_65 : V65 m outs c main_arg1 = m ((c : Thread nD τ).loc main_arg1) :=
  (V65_of m outs c main_arg1 (by decide)).trans (Karg1_64 m outs c)
theorem Karg1_66 : V66 m outs c main_arg1 = m ((c : Thread nD τ).loc main_arg1) :=
  (V66_of m outs c main_arg1 (by decide)).trans (Karg1_65 m outs c)
theorem Karg1_67 : V67 m outs c main_arg1 = m ((c : Thread nD τ).loc main_arg1) :=
  (V67_of m outs c main_arg1 (by decide)).trans (Karg1_66 m outs c)
theorem Karg1_68 : V68 m outs c main_arg1 = m ((c : Thread nD τ).loc main_arg1) :=
  (V68_of m outs c main_arg1 (by decide)).trans (Karg1_67 m outs c)
theorem Karg1_69 : V69 m outs c main_arg1 = m ((c : Thread nD τ).loc main_arg1) :=
  (V69_of m outs c main_arg1 (by decide)).trans (Karg1_68 m outs c)
theorem Karg1_70 : V70 m outs c main_arg1 = m ((c : Thread nD τ).loc main_arg1) :=
  (V70_of m outs c main_arg1 (by decide)).trans (Karg1_69 m outs c)
theorem Karg1_71 : V71 m outs c main_arg1 = m ((c : Thread nD τ).loc main_arg1) :=
  (V71_of m outs c main_arg1 (by decide)).trans (Karg1_70 m outs c)
theorem Karg1_72 : V72 m outs c main_arg1 = m ((c : Thread nD τ).loc main_arg1) :=
  (V72_of m outs c main_arg1 (by decide)).trans (Karg1_71 m outs c)
theorem Karg1_73 : V73 m outs c main_arg1 = m ((c : Thread nD τ).loc main_arg1) :=
  (V73_of m outs c main_arg1 (by decide)).trans (Karg1_72 m outs c)
theorem Karg1_74 : V74 m outs c main_arg1 = m ((c : Thread nD τ).loc main_arg1) :=
  (V74_of m outs c main_arg1 (by decide)).trans (Karg1_73 m outs c)
theorem Karg1_75 : V75 m outs c main_arg1 = m ((c : Thread nD τ).loc main_arg1) :=
  (V75_of m outs c main_arg1 (by decide)).trans (Karg1_74 m outs c)
theorem Karg1_76 : V76 m outs c main_arg1 = m ((c : Thread nD τ).loc main_arg1) :=
  (V76_of m outs c main_arg1 (by decide)).trans (Karg1_75 m outs c)
theorem Karg1_77 : V77 m outs c main_arg1 = m ((c : Thread nD τ).loc main_arg1) :=
  (V77_of m outs c main_arg1 (by decide)).trans (Karg1_76 m outs c)
theorem Karg1_78 : V78 m outs c main_arg1 = m ((c : Thread nD τ).loc main_arg1) :=
  (V78_of m outs c main_arg1 (by decide)).trans (Karg1_77 m outs c)
theorem Karg1_79 : V79 m outs c main_arg1 = m ((c : Thread nD τ).loc main_arg1) :=
  (V79_of m outs c main_arg1 (by decide)).trans (Karg1_78 m outs c)
theorem Karg1_80 : V80 m outs c main_arg1 = m ((c : Thread nD τ).loc main_arg1) :=
  (V80_of m outs c main_arg1 (by decide)).trans (Karg1_79 m outs c)
theorem Karg1_81 : V81 m outs c main_arg1 = m ((c : Thread nD τ).loc main_arg1) :=
  (V81_of m outs c main_arg1 (by decide)).trans (Karg1_80 m outs c)
/-! ### main_arg2 -/
theorem Karg2_0 : V0 m c main_arg2 = m ((c : Thread nD τ).loc main_arg2) := rfl
theorem Karg2_1 : V1 m c main_arg2 = m ((c : Thread nD τ).loc main_arg2) :=
  (V1_of m c main_arg2 (by decide)).trans (Karg2_0 m c)
theorem Karg2_2 : V2 m outs c main_arg2 = m ((c : Thread nD τ).loc main_arg2) :=
  (V2_of m outs c main_arg2 (by decide)).trans (Karg2_1 m c)
theorem Karg2_3 : V3 m outs c main_arg2 = m ((c : Thread nD τ).loc main_arg2) :=
  (V3_of m outs c main_arg2 (by decide)).trans (Karg2_2 m outs c)
theorem Karg2_4 : V4 m outs c main_arg2 = m ((c : Thread nD τ).loc main_arg2) :=
  (V4_of m outs c main_arg2 (by decide)).trans (Karg2_3 m outs c)
theorem Karg2_5 : V5 m outs c main_arg2 = m ((c : Thread nD τ).loc main_arg2) :=
  (V5_of m outs c main_arg2 (by decide)).trans (Karg2_4 m outs c)
theorem Karg2_6 : V6 m outs c main_arg2 = m ((c : Thread nD τ).loc main_arg2) :=
  (V6_of m outs c main_arg2 (by decide)).trans (Karg2_5 m outs c)
theorem Karg2_7 : V7 m outs c main_arg2 = m ((c : Thread nD τ).loc main_arg2) :=
  (V7_of m outs c main_arg2 (by decide)).trans (Karg2_6 m outs c)
theorem Karg2_8 : V8 m outs c main_arg2 = m ((c : Thread nD τ).loc main_arg2) :=
  (V8_of m outs c main_arg2 (by decide)).trans (Karg2_7 m outs c)
theorem Karg2_9 : V9 m outs c main_arg2 = m ((c : Thread nD τ).loc main_arg2) :=
  (V9_of m outs c main_arg2 (by decide)).trans (Karg2_8 m outs c)
theorem Karg2_10 : V10 m outs c main_arg2 = m ((c : Thread nD τ).loc main_arg2) :=
  (V10_of m outs c main_arg2 (by decide)).trans (Karg2_9 m outs c)
theorem Karg2_11 : V11 m outs c main_arg2 = m ((c : Thread nD τ).loc main_arg2) :=
  (V11_of m outs c main_arg2 (by decide)).trans (Karg2_10 m outs c)
theorem Karg2_12 : V12 m outs c main_arg2 = m ((c : Thread nD τ).loc main_arg2) :=
  (V12_of m outs c main_arg2 (by decide)).trans (Karg2_11 m outs c)
theorem Karg2_13 : V13 m outs c main_arg2 = m ((c : Thread nD τ).loc main_arg2) :=
  (V13_of m outs c main_arg2 (by decide)).trans (Karg2_12 m outs c)
theorem Karg2_14 : V14 m outs c main_arg2 = m ((c : Thread nD τ).loc main_arg2) :=
  (V14_of m outs c main_arg2 (by decide)).trans (Karg2_13 m outs c)
theorem Karg2_15 : V15 m outs c main_arg2 = m ((c : Thread nD τ).loc main_arg2) :=
  (V15_of m outs c main_arg2 (by decide)).trans (Karg2_14 m outs c)
theorem Karg2_16 : V16 m outs c main_arg2 = m ((c : Thread nD τ).loc main_arg2) :=
  (V16_of m outs c main_arg2 (by decide)).trans (Karg2_15 m outs c)
theorem Karg2_17 : V17 m outs c main_arg2 = m ((c : Thread nD τ).loc main_arg2) :=
  (V17_of m outs c main_arg2 (by decide)).trans (Karg2_16 m outs c)
theorem Karg2_18 : V18 m outs c main_arg2 = m ((c : Thread nD τ).loc main_arg2) :=
  (V18_of m outs c main_arg2 (by decide)).trans (Karg2_17 m outs c)
theorem Karg2_19 : V19 m outs c main_arg2 = m ((c : Thread nD τ).loc main_arg2) :=
  (V19_of m outs c main_arg2 (by decide)).trans (Karg2_18 m outs c)
theorem Karg2_20 : V20 m outs c main_arg2 = m ((c : Thread nD τ).loc main_arg2) :=
  (V20_of m outs c main_arg2 (by decide)).trans (Karg2_19 m outs c)
theorem Karg2_21 : V21 m outs c main_arg2 = m ((c : Thread nD τ).loc main_arg2) :=
  (V21_of m outs c main_arg2 (by decide)).trans (Karg2_20 m outs c)
theorem Karg2_22 : V22 m outs c main_arg2 = m ((c : Thread nD τ).loc main_arg2) :=
  (V22_of m outs c main_arg2 (by decide)).trans (Karg2_21 m outs c)
theorem Karg2_23 : V23 m outs c main_arg2 = m ((c : Thread nD τ).loc main_arg2) :=
  (V23_of m outs c main_arg2 (by decide)).trans (Karg2_22 m outs c)
theorem Karg2_24 : V24 m outs c main_arg2 = m ((c : Thread nD τ).loc main_arg2) :=
  (V24_of m outs c main_arg2 (by decide)).trans (Karg2_23 m outs c)
theorem Karg2_25 : V25 m outs c main_arg2 = m ((c : Thread nD τ).loc main_arg2) :=
  (V25_of m outs c main_arg2 (by decide)).trans (Karg2_24 m outs c)
theorem Karg2_26 : V26 m outs c main_arg2 = m ((c : Thread nD τ).loc main_arg2) :=
  (V26_of m outs c main_arg2 (by decide)).trans (Karg2_25 m outs c)
theorem Karg2_27 : V27 m outs c main_arg2 = m ((c : Thread nD τ).loc main_arg2) :=
  (V27_of m outs c main_arg2 (by decide)).trans (Karg2_26 m outs c)
theorem Karg2_28 : V28 m outs c main_arg2 = m ((c : Thread nD τ).loc main_arg2) :=
  (V28_of m outs c main_arg2 (by decide)).trans (Karg2_27 m outs c)
theorem Karg2_29 : V29 m outs c main_arg2 = m ((c : Thread nD τ).loc main_arg2) :=
  (V29_of m outs c main_arg2 (by decide)).trans (Karg2_28 m outs c)
theorem Karg2_30 : V30 m outs c main_arg2 = m ((c : Thread nD τ).loc main_arg2) :=
  (V30_of m outs c main_arg2 (by decide)).trans (Karg2_29 m outs c)
theorem Karg2_31 : V31 m outs c main_arg2 = m ((c : Thread nD τ).loc main_arg2) :=
  (V31_of m outs c main_arg2 (by decide)).trans (Karg2_30 m outs c)
theorem Karg2_32 : V32 m outs c main_arg2 = m ((c : Thread nD τ).loc main_arg2) :=
  (V32_of m outs c main_arg2 (by decide)).trans (Karg2_31 m outs c)
theorem Karg2_33 : V33 m outs c main_arg2 = m ((c : Thread nD τ).loc main_arg2) :=
  (V33_of m outs c main_arg2 (by decide)).trans (Karg2_32 m outs c)
theorem Karg2_34 : V34 m outs c main_arg2 = m ((c : Thread nD τ).loc main_arg2) :=
  (V34_of m outs c main_arg2 (by decide)).trans (Karg2_33 m outs c)
theorem Karg2_35 : V35 m outs c main_arg2 = m ((c : Thread nD τ).loc main_arg2) :=
  (V35_of m outs c main_arg2 (by decide)).trans (Karg2_34 m outs c)
theorem Karg2_36 : V36 m outs c main_arg2 = m ((c : Thread nD τ).loc main_arg2) :=
  (V36_of m outs c main_arg2 (by decide)).trans (Karg2_35 m outs c)
theorem Karg2_37 : V37 m outs c main_arg2 = m ((c : Thread nD τ).loc main_arg2) :=
  (V37_of m outs c main_arg2 (by decide)).trans (Karg2_36 m outs c)
theorem Karg2_38 : V38 m outs c main_arg2 = m ((c : Thread nD τ).loc main_arg2) :=
  (V38_of m outs c main_arg2 (by decide)).trans (Karg2_37 m outs c)
theorem Karg2_39 : V39 m outs c main_arg2 = m ((c : Thread nD τ).loc main_arg2) :=
  (V39_of m outs c main_arg2 (by decide)).trans (Karg2_38 m outs c)
theorem Karg2_40 : V40 m outs c main_arg2 = m ((c : Thread nD τ).loc main_arg2) :=
  (V40_of m outs c main_arg2 (by decide)).trans (Karg2_39 m outs c)
theorem Karg2_41 : V41 m outs c main_arg2 = m ((c : Thread nD τ).loc main_arg2) :=
  (V41_of m outs c main_arg2 (by decide)).trans (Karg2_40 m outs c)
theorem Karg2_42 : V42 m outs c main_arg2 = m ((c : Thread nD τ).loc main_arg2) :=
  (V42_of m outs c main_arg2 (by decide)).trans (Karg2_41 m outs c)
theorem Karg2_43 : V43 m outs c main_arg2 = m ((c : Thread nD τ).loc main_arg2) :=
  (V43_of m outs c main_arg2 (by decide)).trans (Karg2_42 m outs c)
theorem Karg2_44 : V44 m outs c main_arg2 = m ((c : Thread nD τ).loc main_arg2) :=
  (V44_of m outs c main_arg2 (by decide)).trans (Karg2_43 m outs c)
theorem Karg2_45 : V45 m outs c main_arg2 = m ((c : Thread nD τ).loc main_arg2) :=
  (V45_of m outs c main_arg2 (by decide)).trans (Karg2_44 m outs c)
theorem Karg2_46 : V46 m outs c main_arg2 = m ((c : Thread nD τ).loc main_arg2) :=
  (V46_of m outs c main_arg2 (by decide)).trans (Karg2_45 m outs c)
theorem Karg2_47 : V47 m outs c main_arg2 = m ((c : Thread nD τ).loc main_arg2) :=
  (V47_of m outs c main_arg2 (by decide)).trans (Karg2_46 m outs c)
theorem Karg2_48 : V48 m outs c main_arg2 = m ((c : Thread nD τ).loc main_arg2) :=
  (V48_of m outs c main_arg2 (by decide)).trans (Karg2_47 m outs c)
theorem Karg2_49 : V49 m outs c main_arg2 = m ((c : Thread nD τ).loc main_arg2) :=
  (V49_of m outs c main_arg2 (by decide)).trans (Karg2_48 m outs c)
theorem Karg2_50 : V50 m outs c main_arg2 = m ((c : Thread nD τ).loc main_arg2) :=
  (V50_of m outs c main_arg2 (by decide)).trans (Karg2_49 m outs c)
theorem Karg2_51 : V51 m outs c main_arg2 = m ((c : Thread nD τ).loc main_arg2) :=
  (V51_of m outs c main_arg2 (by decide)).trans (Karg2_50 m outs c)
theorem Karg2_52 : V52 m outs c main_arg2 = m ((c : Thread nD τ).loc main_arg2) :=
  (V52_of m outs c main_arg2 (by decide)).trans (Karg2_51 m outs c)
theorem Karg2_53 : V53 m outs c main_arg2 = m ((c : Thread nD τ).loc main_arg2) :=
  (V53_of m outs c main_arg2 (by decide)).trans (Karg2_52 m outs c)
theorem Karg2_54 : V54 m outs c main_arg2 = m ((c : Thread nD τ).loc main_arg2) :=
  (V54_of m outs c main_arg2 (by decide)).trans (Karg2_53 m outs c)
theorem Karg2_55 : V55 m outs c main_arg2 = m ((c : Thread nD τ).loc main_arg2) :=
  (V55_of m outs c main_arg2 (by decide)).trans (Karg2_54 m outs c)
theorem Karg2_56 : V56 m outs c main_arg2 = m ((c : Thread nD τ).loc main_arg2) :=
  (V56_of m outs c main_arg2 (by decide)).trans (Karg2_55 m outs c)
theorem Karg2_57 : V57 m outs c main_arg2 = m ((c : Thread nD τ).loc main_arg2) :=
  (V57_of m outs c main_arg2 (by decide)).trans (Karg2_56 m outs c)
theorem Karg2_58 : V58 m outs c main_arg2 = m ((c : Thread nD τ).loc main_arg2) :=
  (V58_of m outs c main_arg2 (by decide)).trans (Karg2_57 m outs c)
theorem Karg2_59 : V59 m outs c main_arg2 = m ((c : Thread nD τ).loc main_arg2) :=
  (V59_of m outs c main_arg2 (by decide)).trans (Karg2_58 m outs c)
theorem Karg2_60 : V60 m outs c main_arg2 = m ((c : Thread nD τ).loc main_arg2) :=
  (V60_of m outs c main_arg2 (by decide)).trans (Karg2_59 m outs c)
theorem Karg2_61 : V61 m outs c main_arg2 = m ((c : Thread nD τ).loc main_arg2) :=
  (V61_of m outs c main_arg2 (by decide)).trans (Karg2_60 m outs c)
theorem Karg2_62 : V62 m outs c main_arg2 = m ((c : Thread nD τ).loc main_arg2) :=
  (V62_of m outs c main_arg2 (by decide)).trans (Karg2_61 m outs c)
theorem Karg2_63 : V63 m outs c main_arg2 = m ((c : Thread nD τ).loc main_arg2) :=
  (V63_of m outs c main_arg2 (by decide)).trans (Karg2_62 m outs c)
theorem Karg2_64 : V64 m outs c main_arg2 = m ((c : Thread nD τ).loc main_arg2) :=
  (V64_of m outs c main_arg2 (by decide)).trans (Karg2_63 m outs c)
theorem Karg2_65 : V65 m outs c main_arg2 = m ((c : Thread nD τ).loc main_arg2) :=
  (V65_of m outs c main_arg2 (by decide)).trans (Karg2_64 m outs c)
theorem Karg2_66 : V66 m outs c main_arg2 = m ((c : Thread nD τ).loc main_arg2) :=
  (V66_of m outs c main_arg2 (by decide)).trans (Karg2_65 m outs c)
theorem Karg2_67 : V67 m outs c main_arg2 = m ((c : Thread nD τ).loc main_arg2) :=
  (V67_of m outs c main_arg2 (by decide)).trans (Karg2_66 m outs c)
theorem Karg2_68 : V68 m outs c main_arg2 = m ((c : Thread nD τ).loc main_arg2) :=
  (V68_of m outs c main_arg2 (by decide)).trans (Karg2_67 m outs c)
theorem Karg2_69 : V69 m outs c main_arg2 = m ((c : Thread nD τ).loc main_arg2) :=
  (V69_of m outs c main_arg2 (by decide)).trans (Karg2_68 m outs c)
theorem Karg2_70 : V70 m outs c main_arg2 = m ((c : Thread nD τ).loc main_arg2) :=
  (V70_of m outs c main_arg2 (by decide)).trans (Karg2_69 m outs c)
theorem Karg2_71 : V71 m outs c main_arg2 = m ((c : Thread nD τ).loc main_arg2) :=
  (V71_of m outs c main_arg2 (by decide)).trans (Karg2_70 m outs c)
theorem Karg2_72 : V72 m outs c main_arg2 = m ((c : Thread nD τ).loc main_arg2) :=
  (V72_of m outs c main_arg2 (by decide)).trans (Karg2_71 m outs c)
theorem Karg2_73 : V73 m outs c main_arg2 = m ((c : Thread nD τ).loc main_arg2) :=
  (V73_of m outs c main_arg2 (by decide)).trans (Karg2_72 m outs c)
theorem Karg2_74 : V74 m outs c main_arg2 = m ((c : Thread nD τ).loc main_arg2) :=
  (V74_of m outs c main_arg2 (by decide)).trans (Karg2_73 m outs c)
theorem Karg2_75 : V75 m outs c main_arg2 = m ((c : Thread nD τ).loc main_arg2) :=
  (V75_of m outs c main_arg2 (by decide)).trans (Karg2_74 m outs c)
theorem Karg2_76 : V76 m outs c main_arg2 = m ((c : Thread nD τ).loc main_arg2) :=
  (V76_of m outs c main_arg2 (by decide)).trans (Karg2_75 m outs c)
theorem Karg2_77 : V77 m outs c main_arg2 = m ((c : Thread nD τ).loc main_arg2) :=
  (V77_of m outs c main_arg2 (by decide)).trans (Karg2_76 m outs c)
theorem Karg2_78 : V78 m outs c main_arg2 = m ((c : Thread nD τ).loc main_arg2) :=
  (V78_of m outs c main_arg2 (by decide)).trans (Karg2_77 m outs c)
theorem Karg2_79 : V79 m outs c main_arg2 = m ((c : Thread nD τ).loc main_arg2) :=
  (V79_of m outs c main_arg2 (by decide)).trans (Karg2_78 m outs c)
theorem Karg2_80 : V80 m outs c main_arg2 = m ((c : Thread nD τ).loc main_arg2) :=
  (V80_of m outs c main_arg2 (by decide)).trans (Karg2_79 m outs c)
theorem Karg2_81 : V81 m outs c main_arg2 = m ((c : Thread nD τ).loc main_arg2) :=
  (V81_of m outs c main_arg2 (by decide)).trans (Karg2_80 m outs c)
/-! ### main_arg3 -/
theorem Karg3_0 : V0 m c main_arg3 = m ((c : Thread nD τ).loc main_arg3) := rfl
theorem Karg3_1 : V1 m c main_arg3 = m ((c : Thread nD τ).loc main_arg3) :=
  (V1_of m c main_arg3 (by decide)).trans (Karg3_0 m c)
theorem Karg3_2 : V2 m outs c main_arg3 = m ((c : Thread nD τ).loc main_arg3) :=
  (V2_of m outs c main_arg3 (by decide)).trans (Karg3_1 m c)
theorem Karg3_3 : V3 m outs c main_arg3 = m ((c : Thread nD τ).loc main_arg3) :=
  (V3_of m outs c main_arg3 (by decide)).trans (Karg3_2 m outs c)
theorem Karg3_4 : V4 m outs c main_arg3 = m ((c : Thread nD τ).loc main_arg3) :=
  (V4_of m outs c main_arg3 (by decide)).trans (Karg3_3 m outs c)
theorem Karg3_5 : V5 m outs c main_arg3 = m ((c : Thread nD τ).loc main_arg3) :=
  (V5_of m outs c main_arg3 (by decide)).trans (Karg3_4 m outs c)
theorem Karg3_6 : V6 m outs c main_arg3 = m ((c : Thread nD τ).loc main_arg3) :=
  (V6_of m outs c main_arg3 (by decide)).trans (Karg3_5 m outs c)
theorem Karg3_7 : V7 m outs c main_arg3 = m ((c : Thread nD τ).loc main_arg3) :=
  (V7_of m outs c main_arg3 (by decide)).trans (Karg3_6 m outs c)
theorem Karg3_8 : V8 m outs c main_arg3 = m ((c : Thread nD τ).loc main_arg3) :=
  (V8_of m outs c main_arg3 (by decide)).trans (Karg3_7 m outs c)
theorem Karg3_9 : V9 m outs c main_arg3 = m ((c : Thread nD τ).loc main_arg3) :=
  (V9_of m outs c main_arg3 (by decide)).trans (Karg3_8 m outs c)
theorem Karg3_10 : V10 m outs c main_arg3 = m ((c : Thread nD τ).loc main_arg3) :=
  (V10_of m outs c main_arg3 (by decide)).trans (Karg3_9 m outs c)
theorem Karg3_11 : V11 m outs c main_arg3 = m ((c : Thread nD τ).loc main_arg3) :=
  (V11_of m outs c main_arg3 (by decide)).trans (Karg3_10 m outs c)
theorem Karg3_12 : V12 m outs c main_arg3 = m ((c : Thread nD τ).loc main_arg3) :=
  (V12_of m outs c main_arg3 (by decide)).trans (Karg3_11 m outs c)
theorem Karg3_13 : V13 m outs c main_arg3 = m ((c : Thread nD τ).loc main_arg3) :=
  (V13_of m outs c main_arg3 (by decide)).trans (Karg3_12 m outs c)
theorem Karg3_14 : V14 m outs c main_arg3 = m ((c : Thread nD τ).loc main_arg3) :=
  (V14_of m outs c main_arg3 (by decide)).trans (Karg3_13 m outs c)
theorem Karg3_15 : V15 m outs c main_arg3 = m ((c : Thread nD τ).loc main_arg3) :=
  (V15_of m outs c main_arg3 (by decide)).trans (Karg3_14 m outs c)
theorem Karg3_16 : V16 m outs c main_arg3 = m ((c : Thread nD τ).loc main_arg3) :=
  (V16_of m outs c main_arg3 (by decide)).trans (Karg3_15 m outs c)
theorem Karg3_17 : V17 m outs c main_arg3 = m ((c : Thread nD τ).loc main_arg3) :=
  (V17_of m outs c main_arg3 (by decide)).trans (Karg3_16 m outs c)
theorem Karg3_18 : V18 m outs c main_arg3 = m ((c : Thread nD τ).loc main_arg3) :=
  (V18_of m outs c main_arg3 (by decide)).trans (Karg3_17 m outs c)
theorem Karg3_19 : V19 m outs c main_arg3 = m ((c : Thread nD τ).loc main_arg3) :=
  (V19_of m outs c main_arg3 (by decide)).trans (Karg3_18 m outs c)
theorem Karg3_20 : V20 m outs c main_arg3 = m ((c : Thread nD τ).loc main_arg3) :=
  (V20_of m outs c main_arg3 (by decide)).trans (Karg3_19 m outs c)
theorem Karg3_21 : V21 m outs c main_arg3 = m ((c : Thread nD τ).loc main_arg3) :=
  (V21_of m outs c main_arg3 (by decide)).trans (Karg3_20 m outs c)
theorem Karg3_22 : V22 m outs c main_arg3 = m ((c : Thread nD τ).loc main_arg3) :=
  (V22_of m outs c main_arg3 (by decide)).trans (Karg3_21 m outs c)
theorem Karg3_23 : V23 m outs c main_arg3 = m ((c : Thread nD τ).loc main_arg3) :=
  (V23_of m outs c main_arg3 (by decide)).trans (Karg3_22 m outs c)
theorem Karg3_24 : V24 m outs c main_arg3 = m ((c : Thread nD τ).loc main_arg3) :=
  (V24_of m outs c main_arg3 (by decide)).trans (Karg3_23 m outs c)
theorem Karg3_25 : V25 m outs c main_arg3 = m ((c : Thread nD τ).loc main_arg3) :=
  (V25_of m outs c main_arg3 (by decide)).trans (Karg3_24 m outs c)
theorem Karg3_26 : V26 m outs c main_arg3 = m ((c : Thread nD τ).loc main_arg3) :=
  (V26_of m outs c main_arg3 (by decide)).trans (Karg3_25 m outs c)
theorem Karg3_27 : V27 m outs c main_arg3 = m ((c : Thread nD τ).loc main_arg3) :=
  (V27_of m outs c main_arg3 (by decide)).trans (Karg3_26 m outs c)
theorem Karg3_28 : V28 m outs c main_arg3 = m ((c : Thread nD τ).loc main_arg3) :=
  (V28_of m outs c main_arg3 (by decide)).trans (Karg3_27 m outs c)
theorem Karg3_29 : V29 m outs c main_arg3 = m ((c : Thread nD τ).loc main_arg3) :=
  (V29_of m outs c main_arg3 (by decide)).trans (Karg3_28 m outs c)
theorem Karg3_30 : V30 m outs c main_arg3 = m ((c : Thread nD τ).loc main_arg3) :=
  (V30_of m outs c main_arg3 (by decide)).trans (Karg3_29 m outs c)
theorem Karg3_31 : V31 m outs c main_arg3 = m ((c : Thread nD τ).loc main_arg3) :=
  (V31_of m outs c main_arg3 (by decide)).trans (Karg3_30 m outs c)
theorem Karg3_32 : V32 m outs c main_arg3 = m ((c : Thread nD τ).loc main_arg3) :=
  (V32_of m outs c main_arg3 (by decide)).trans (Karg3_31 m outs c)
theorem Karg3_33 : V33 m outs c main_arg3 = m ((c : Thread nD τ).loc main_arg3) :=
  (V33_of m outs c main_arg3 (by decide)).trans (Karg3_32 m outs c)
theorem Karg3_34 : V34 m outs c main_arg3 = m ((c : Thread nD τ).loc main_arg3) :=
  (V34_of m outs c main_arg3 (by decide)).trans (Karg3_33 m outs c)
theorem Karg3_35 : V35 m outs c main_arg3 = m ((c : Thread nD τ).loc main_arg3) :=
  (V35_of m outs c main_arg3 (by decide)).trans (Karg3_34 m outs c)
theorem Karg3_36 : V36 m outs c main_arg3 = m ((c : Thread nD τ).loc main_arg3) :=
  (V36_of m outs c main_arg3 (by decide)).trans (Karg3_35 m outs c)
theorem Karg3_37 : V37 m outs c main_arg3 = m ((c : Thread nD τ).loc main_arg3) :=
  (V37_of m outs c main_arg3 (by decide)).trans (Karg3_36 m outs c)
theorem Karg3_38 : V38 m outs c main_arg3 = m ((c : Thread nD τ).loc main_arg3) :=
  (V38_of m outs c main_arg3 (by decide)).trans (Karg3_37 m outs c)
theorem Karg3_39 : V39 m outs c main_arg3 = m ((c : Thread nD τ).loc main_arg3) :=
  (V39_of m outs c main_arg3 (by decide)).trans (Karg3_38 m outs c)
theorem Karg3_40 : V40 m outs c main_arg3 = m ((c : Thread nD τ).loc main_arg3) :=
  (V40_of m outs c main_arg3 (by decide)).trans (Karg3_39 m outs c)
theorem Karg3_41 : V41 m outs c main_arg3 = m ((c : Thread nD τ).loc main_arg3) :=
  (V41_of m outs c main_arg3 (by decide)).trans (Karg3_40 m outs c)
theorem Karg3_42 : V42 m outs c main_arg3 = m ((c : Thread nD τ).loc main_arg3) :=
  (V42_of m outs c main_arg3 (by decide)).trans (Karg3_41 m outs c)
theorem Karg3_43 : V43 m outs c main_arg3 = m ((c : Thread nD τ).loc main_arg3) :=
  (V43_of m outs c main_arg3 (by decide)).trans (Karg3_42 m outs c)
theorem Karg3_44 : V44 m outs c main_arg3 = m ((c : Thread nD τ).loc main_arg3) :=
  (V44_of m outs c main_arg3 (by decide)).trans (Karg3_43 m outs c)
theorem Karg3_45 : V45 m outs c main_arg3 = m ((c : Thread nD τ).loc main_arg3) :=
  (V45_of m outs c main_arg3 (by decide)).trans (Karg3_44 m outs c)
theorem Karg3_46 : V46 m outs c main_arg3 = m ((c : Thread nD τ).loc main_arg3) :=
  (V46_of m outs c main_arg3 (by decide)).trans (Karg3_45 m outs c)
theorem Karg3_47 : V47 m outs c main_arg3 = m ((c : Thread nD τ).loc main_arg3) :=
  (V47_of m outs c main_arg3 (by decide)).trans (Karg3_46 m outs c)
theorem Karg3_48 : V48 m outs c main_arg3 = m ((c : Thread nD τ).loc main_arg3) :=
  (V48_of m outs c main_arg3 (by decide)).trans (Karg3_47 m outs c)
theorem Karg3_49 : V49 m outs c main_arg3 = m ((c : Thread nD τ).loc main_arg3) :=
  (V49_of m outs c main_arg3 (by decide)).trans (Karg3_48 m outs c)
theorem Karg3_50 : V50 m outs c main_arg3 = m ((c : Thread nD τ).loc main_arg3) :=
  (V50_of m outs c main_arg3 (by decide)).trans (Karg3_49 m outs c)
theorem Karg3_51 : V51 m outs c main_arg3 = m ((c : Thread nD τ).loc main_arg3) :=
  (V51_of m outs c main_arg3 (by decide)).trans (Karg3_50 m outs c)
theorem Karg3_52 : V52 m outs c main_arg3 = m ((c : Thread nD τ).loc main_arg3) :=
  (V52_of m outs c main_arg3 (by decide)).trans (Karg3_51 m outs c)
theorem Karg3_53 : V53 m outs c main_arg3 = m ((c : Thread nD τ).loc main_arg3) :=
  (V53_of m outs c main_arg3 (by decide)).trans (Karg3_52 m outs c)
theorem Karg3_54 : V54 m outs c main_arg3 = m ((c : Thread nD τ).loc main_arg3) :=
  (V54_of m outs c main_arg3 (by decide)).trans (Karg3_53 m outs c)
theorem Karg3_55 : V55 m outs c main_arg3 = m ((c : Thread nD τ).loc main_arg3) :=
  (V55_of m outs c main_arg3 (by decide)).trans (Karg3_54 m outs c)
theorem Karg3_56 : V56 m outs c main_arg3 = m ((c : Thread nD τ).loc main_arg3) :=
  (V56_of m outs c main_arg3 (by decide)).trans (Karg3_55 m outs c)
theorem Karg3_57 : V57 m outs c main_arg3 = m ((c : Thread nD τ).loc main_arg3) :=
  (V57_of m outs c main_arg3 (by decide)).trans (Karg3_56 m outs c)
theorem Karg3_58 : V58 m outs c main_arg3 = m ((c : Thread nD τ).loc main_arg3) :=
  (V58_of m outs c main_arg3 (by decide)).trans (Karg3_57 m outs c)
theorem Karg3_59 : V59 m outs c main_arg3 = m ((c : Thread nD τ).loc main_arg3) :=
  (V59_of m outs c main_arg3 (by decide)).trans (Karg3_58 m outs c)
theorem Karg3_60 : V60 m outs c main_arg3 = m ((c : Thread nD τ).loc main_arg3) :=
  (V60_of m outs c main_arg3 (by decide)).trans (Karg3_59 m outs c)
theorem Karg3_61 : V61 m outs c main_arg3 = m ((c : Thread nD τ).loc main_arg3) :=
  (V61_of m outs c main_arg3 (by decide)).trans (Karg3_60 m outs c)
theorem Karg3_62 : V62 m outs c main_arg3 = m ((c : Thread nD τ).loc main_arg3) :=
  (V62_of m outs c main_arg3 (by decide)).trans (Karg3_61 m outs c)
theorem Karg3_63 : V63 m outs c main_arg3 = m ((c : Thread nD τ).loc main_arg3) :=
  (V63_of m outs c main_arg3 (by decide)).trans (Karg3_62 m outs c)
theorem Karg3_64 : V64 m outs c main_arg3 = m ((c : Thread nD τ).loc main_arg3) :=
  (V64_of m outs c main_arg3 (by decide)).trans (Karg3_63 m outs c)
theorem Karg3_65 : V65 m outs c main_arg3 = m ((c : Thread nD τ).loc main_arg3) :=
  (V65_of m outs c main_arg3 (by decide)).trans (Karg3_64 m outs c)
theorem Karg3_66 : V66 m outs c main_arg3 = m ((c : Thread nD τ).loc main_arg3) :=
  (V66_of m outs c main_arg3 (by decide)).trans (Karg3_65 m outs c)
theorem Karg3_67 : V67 m outs c main_arg3 = m ((c : Thread nD τ).loc main_arg3) :=
  (V67_of m outs c main_arg3 (by decide)).trans (Karg3_66 m outs c)
theorem Karg3_68 : V68 m outs c main_arg3 = m ((c : Thread nD τ).loc main_arg3) :=
  (V68_of m outs c main_arg3 (by decide)).trans (Karg3_67 m outs c)
theorem Karg3_69 : V69 m outs c main_arg3 = m ((c : Thread nD τ).loc main_arg3) :=
  (V69_of m outs c main_arg3 (by decide)).trans (Karg3_68 m outs c)
theorem Karg3_70 : V70 m outs c main_arg3 = m ((c : Thread nD τ).loc main_arg3) :=
  (V70_of m outs c main_arg3 (by decide)).trans (Karg3_69 m outs c)
theorem Karg3_71 : V71 m outs c main_arg3 = m ((c : Thread nD τ).loc main_arg3) :=
  (V71_of m outs c main_arg3 (by decide)).trans (Karg3_70 m outs c)
theorem Karg3_72 : V72 m outs c main_arg3 = m ((c : Thread nD τ).loc main_arg3) :=
  (V72_of m outs c main_arg3 (by decide)).trans (Karg3_71 m outs c)
theorem Karg3_73 : V73 m outs c main_arg3 = m ((c : Thread nD τ).loc main_arg3) :=
  (V73_of m outs c main_arg3 (by decide)).trans (Karg3_72 m outs c)
theorem Karg3_74 : V74 m outs c main_arg3 = m ((c : Thread nD τ).loc main_arg3) :=
  (V74_of m outs c main_arg3 (by decide)).trans (Karg3_73 m outs c)
theorem Karg3_75 : V75 m outs c main_arg3 = m ((c : Thread nD τ).loc main_arg3) :=
  (V75_of m outs c main_arg3 (by decide)).trans (Karg3_74 m outs c)
theorem Karg3_76 : V76 m outs c main_arg3 = m ((c : Thread nD τ).loc main_arg3) :=
  (V76_of m outs c main_arg3 (by decide)).trans (Karg3_75 m outs c)
theorem Karg3_77 : V77 m outs c main_arg3 = m ((c : Thread nD τ).loc main_arg3) :=
  (V77_of m outs c main_arg3 (by decide)).trans (Karg3_76 m outs c)
theorem Karg3_78 : V78 m outs c main_arg3 = m ((c : Thread nD τ).loc main_arg3) :=
  (V78_of m outs c main_arg3 (by decide)).trans (Karg3_77 m outs c)
theorem Karg3_79 : V79 m outs c main_arg3 = m ((c : Thread nD τ).loc main_arg3) :=
  (V79_of m outs c main_arg3 (by decide)).trans (Karg3_78 m outs c)
theorem Karg3_80 : V80 m outs c main_arg3 = m ((c : Thread nD τ).loc main_arg3) :=
  (V80_of m outs c main_arg3 (by decide)).trans (Karg3_79 m outs c)
theorem Karg3_81 : V81 m outs c main_arg3 = m ((c : Thread nD τ).loc main_arg3) :=
  (V81_of m outs c main_arg3 (by decide)).trans (Karg3_80 m outs c)
/-! ### main_arg4 -/
theorem Karg4_0 : V0 m c main_arg4 = m ((c : Thread nD τ).loc main_arg4) := rfl
theorem Karg4_1 : V1 m c main_arg4 = m ((c : Thread nD τ).loc main_arg4) :=
  (V1_of m c main_arg4 (by decide)).trans (Karg4_0 m c)
theorem Karg4_2 : V2 m outs c main_arg4 = m ((c : Thread nD τ).loc main_arg4) :=
  (V2_of m outs c main_arg4 (by decide)).trans (Karg4_1 m c)
theorem Karg4_3 : V3 m outs c main_arg4 = m ((c : Thread nD τ).loc main_arg4) :=
  (V3_of m outs c main_arg4 (by decide)).trans (Karg4_2 m outs c)
theorem Karg4_4 : V4 m outs c main_arg4 = m ((c : Thread nD τ).loc main_arg4) :=
  (V4_of m outs c main_arg4 (by decide)).trans (Karg4_3 m outs c)
theorem Karg4_5 : V5 m outs c main_arg4 = m ((c : Thread nD τ).loc main_arg4) :=
  (V5_of m outs c main_arg4 (by decide)).trans (Karg4_4 m outs c)
theorem Karg4_6 : V6 m outs c main_arg4 = m ((c : Thread nD τ).loc main_arg4) :=
  (V6_of m outs c main_arg4 (by decide)).trans (Karg4_5 m outs c)
theorem Karg4_7 : V7 m outs c main_arg4 = m ((c : Thread nD τ).loc main_arg4) :=
  (V7_of m outs c main_arg4 (by decide)).trans (Karg4_6 m outs c)
theorem Karg4_8 : V8 m outs c main_arg4 = m ((c : Thread nD τ).loc main_arg4) :=
  (V8_of m outs c main_arg4 (by decide)).trans (Karg4_7 m outs c)
theorem Karg4_9 : V9 m outs c main_arg4 = m ((c : Thread nD τ).loc main_arg4) :=
  (V9_of m outs c main_arg4 (by decide)).trans (Karg4_8 m outs c)
theorem Karg4_10 : V10 m outs c main_arg4 = m ((c : Thread nD τ).loc main_arg4) :=
  (V10_of m outs c main_arg4 (by decide)).trans (Karg4_9 m outs c)
theorem Karg4_11 : V11 m outs c main_arg4 = m ((c : Thread nD τ).loc main_arg4) :=
  (V11_of m outs c main_arg4 (by decide)).trans (Karg4_10 m outs c)
theorem Karg4_12 : V12 m outs c main_arg4 = m ((c : Thread nD τ).loc main_arg4) :=
  (V12_of m outs c main_arg4 (by decide)).trans (Karg4_11 m outs c)
theorem Karg4_13 : V13 m outs c main_arg4 = m ((c : Thread nD τ).loc main_arg4) :=
  (V13_of m outs c main_arg4 (by decide)).trans (Karg4_12 m outs c)
theorem Karg4_14 : V14 m outs c main_arg4 = m ((c : Thread nD τ).loc main_arg4) :=
  (V14_of m outs c main_arg4 (by decide)).trans (Karg4_13 m outs c)
theorem Karg4_15 : V15 m outs c main_arg4 = m ((c : Thread nD τ).loc main_arg4) :=
  (V15_of m outs c main_arg4 (by decide)).trans (Karg4_14 m outs c)
theorem Karg4_16 : V16 m outs c main_arg4 = m ((c : Thread nD τ).loc main_arg4) :=
  (V16_of m outs c main_arg4 (by decide)).trans (Karg4_15 m outs c)
theorem Karg4_17 : V17 m outs c main_arg4 = m ((c : Thread nD τ).loc main_arg4) :=
  (V17_of m outs c main_arg4 (by decide)).trans (Karg4_16 m outs c)
theorem Karg4_18 : V18 m outs c main_arg4 = m ((c : Thread nD τ).loc main_arg4) :=
  (V18_of m outs c main_arg4 (by decide)).trans (Karg4_17 m outs c)
theorem Karg4_19 : V19 m outs c main_arg4 = m ((c : Thread nD τ).loc main_arg4) :=
  (V19_of m outs c main_arg4 (by decide)).trans (Karg4_18 m outs c)
theorem Karg4_20 : V20 m outs c main_arg4 = m ((c : Thread nD τ).loc main_arg4) :=
  (V20_of m outs c main_arg4 (by decide)).trans (Karg4_19 m outs c)
theorem Karg4_21 : V21 m outs c main_arg4 = m ((c : Thread nD τ).loc main_arg4) :=
  (V21_of m outs c main_arg4 (by decide)).trans (Karg4_20 m outs c)
theorem Karg4_22 : V22 m outs c main_arg4 = m ((c : Thread nD τ).loc main_arg4) :=
  (V22_of m outs c main_arg4 (by decide)).trans (Karg4_21 m outs c)
theorem Karg4_23 : V23 m outs c main_arg4 = m ((c : Thread nD τ).loc main_arg4) :=
  (V23_of m outs c main_arg4 (by decide)).trans (Karg4_22 m outs c)
theorem Karg4_24 : V24 m outs c main_arg4 = m ((c : Thread nD τ).loc main_arg4) :=
  (V24_of m outs c main_arg4 (by decide)).trans (Karg4_23 m outs c)
theorem Karg4_25 : V25 m outs c main_arg4 = m ((c : Thread nD τ).loc main_arg4) :=
  (V25_of m outs c main_arg4 (by decide)).trans (Karg4_24 m outs c)
theorem Karg4_26 : V26 m outs c main_arg4 = m ((c : Thread nD τ).loc main_arg4) :=
  (V26_of m outs c main_arg4 (by decide)).trans (Karg4_25 m outs c)
theorem Karg4_27 : V27 m outs c main_arg4 = m ((c : Thread nD τ).loc main_arg4) :=
  (V27_of m outs c main_arg4 (by decide)).trans (Karg4_26 m outs c)
theorem Karg4_28 : V28 m outs c main_arg4 = m ((c : Thread nD τ).loc main_arg4) :=
  (V28_of m outs c main_arg4 (by decide)).trans (Karg4_27 m outs c)
theorem Karg4_29 : V29 m outs c main_arg4 = m ((c : Thread nD τ).loc main_arg4) :=
  (V29_of m outs c main_arg4 (by decide)).trans (Karg4_28 m outs c)
theorem Karg4_30 : V30 m outs c main_arg4 = m ((c : Thread nD τ).loc main_arg4) :=
  (V30_of m outs c main_arg4 (by decide)).trans (Karg4_29 m outs c)
theorem Karg4_31 : V31 m outs c main_arg4 = m ((c : Thread nD τ).loc main_arg4) :=
  (V31_of m outs c main_arg4 (by decide)).trans (Karg4_30 m outs c)
theorem Karg4_32 : V32 m outs c main_arg4 = m ((c : Thread nD τ).loc main_arg4) :=
  (V32_of m outs c main_arg4 (by decide)).trans (Karg4_31 m outs c)
theorem Karg4_33 : V33 m outs c main_arg4 = m ((c : Thread nD τ).loc main_arg4) :=
  (V33_of m outs c main_arg4 (by decide)).trans (Karg4_32 m outs c)
theorem Karg4_34 : V34 m outs c main_arg4 = m ((c : Thread nD τ).loc main_arg4) :=
  (V34_of m outs c main_arg4 (by decide)).trans (Karg4_33 m outs c)
theorem Karg4_35 : V35 m outs c main_arg4 = m ((c : Thread nD τ).loc main_arg4) :=
  (V35_of m outs c main_arg4 (by decide)).trans (Karg4_34 m outs c)
theorem Karg4_36 : V36 m outs c main_arg4 = m ((c : Thread nD τ).loc main_arg4) :=
  (V36_of m outs c main_arg4 (by decide)).trans (Karg4_35 m outs c)
theorem Karg4_37 : V37 m outs c main_arg4 = m ((c : Thread nD τ).loc main_arg4) :=
  (V37_of m outs c main_arg4 (by decide)).trans (Karg4_36 m outs c)
theorem Karg4_38 : V38 m outs c main_arg4 = m ((c : Thread nD τ).loc main_arg4) :=
  (V38_of m outs c main_arg4 (by decide)).trans (Karg4_37 m outs c)
theorem Karg4_39 : V39 m outs c main_arg4 = m ((c : Thread nD τ).loc main_arg4) :=
  (V39_of m outs c main_arg4 (by decide)).trans (Karg4_38 m outs c)
theorem Karg4_40 : V40 m outs c main_arg4 = m ((c : Thread nD τ).loc main_arg4) :=
  (V40_of m outs c main_arg4 (by decide)).trans (Karg4_39 m outs c)
theorem Karg4_41 : V41 m outs c main_arg4 = m ((c : Thread nD τ).loc main_arg4) :=
  (V41_of m outs c main_arg4 (by decide)).trans (Karg4_40 m outs c)
theorem Karg4_42 : V42 m outs c main_arg4 = m ((c : Thread nD τ).loc main_arg4) :=
  (V42_of m outs c main_arg4 (by decide)).trans (Karg4_41 m outs c)
theorem Karg4_43 : V43 m outs c main_arg4 = m ((c : Thread nD τ).loc main_arg4) :=
  (V43_of m outs c main_arg4 (by decide)).trans (Karg4_42 m outs c)
theorem Karg4_44 : V44 m outs c main_arg4 = m ((c : Thread nD τ).loc main_arg4) :=
  (V44_of m outs c main_arg4 (by decide)).trans (Karg4_43 m outs c)
theorem Karg4_45 : V45 m outs c main_arg4 = m ((c : Thread nD τ).loc main_arg4) :=
  (V45_of m outs c main_arg4 (by decide)).trans (Karg4_44 m outs c)
theorem Karg4_46 : V46 m outs c main_arg4 = m ((c : Thread nD τ).loc main_arg4) :=
  (V46_of m outs c main_arg4 (by decide)).trans (Karg4_45 m outs c)
theorem Karg4_47 : V47 m outs c main_arg4 = m ((c : Thread nD τ).loc main_arg4) :=
  (V47_of m outs c main_arg4 (by decide)).trans (Karg4_46 m outs c)
theorem Karg4_48 : V48 m outs c main_arg4 = m ((c : Thread nD τ).loc main_arg4) :=
  (V48_of m outs c main_arg4 (by decide)).trans (Karg4_47 m outs c)
theorem Karg4_49 : V49 m outs c main_arg4 = m ((c : Thread nD τ).loc main_arg4) :=
  (V49_of m outs c main_arg4 (by decide)).trans (Karg4_48 m outs c)
theorem Karg4_50 : V50 m outs c main_arg4 = m ((c : Thread nD τ).loc main_arg4) :=
  (V50_of m outs c main_arg4 (by decide)).trans (Karg4_49 m outs c)
theorem Karg4_51 : V51 m outs c main_arg4 = m ((c : Thread nD τ).loc main_arg4) :=
  (V51_of m outs c main_arg4 (by decide)).trans (Karg4_50 m outs c)
theorem Karg4_52 : V52 m outs c main_arg4 = m ((c : Thread nD τ).loc main_arg4) :=
  (V52_of m outs c main_arg4 (by decide)).trans (Karg4_51 m outs c)
theorem Karg4_53 : V53 m outs c main_arg4 = m ((c : Thread nD τ).loc main_arg4) :=
  (V53_of m outs c main_arg4 (by decide)).trans (Karg4_52 m outs c)
theorem Karg4_54 : V54 m outs c main_arg4 = m ((c : Thread nD τ).loc main_arg4) :=
  (V54_of m outs c main_arg4 (by decide)).trans (Karg4_53 m outs c)
theorem Karg4_55 : V55 m outs c main_arg4 = m ((c : Thread nD τ).loc main_arg4) :=
  (V55_of m outs c main_arg4 (by decide)).trans (Karg4_54 m outs c)
theorem Karg4_56 : V56 m outs c main_arg4 = m ((c : Thread nD τ).loc main_arg4) :=
  (V56_of m outs c main_arg4 (by decide)).trans (Karg4_55 m outs c)
theorem Karg4_57 : V57 m outs c main_arg4 = m ((c : Thread nD τ).loc main_arg4) :=
  (V57_of m outs c main_arg4 (by decide)).trans (Karg4_56 m outs c)
theorem Karg4_58 : V58 m outs c main_arg4 = m ((c : Thread nD τ).loc main_arg4) :=
  (V58_of m outs c main_arg4 (by decide)).trans (Karg4_57 m outs c)
theorem Karg4_59 : V59 m outs c main_arg4 = m ((c : Thread nD τ).loc main_arg4) :=
  (V59_of m outs c main_arg4 (by decide)).trans (Karg4_58 m outs c)
theorem Karg4_60 : V60 m outs c main_arg4 = m ((c : Thread nD τ).loc main_arg4) :=
  (V60_of m outs c main_arg4 (by decide)).trans (Karg4_59 m outs c)
theorem Karg4_61 : V61 m outs c main_arg4 = m ((c : Thread nD τ).loc main_arg4) :=
  (V61_of m outs c main_arg4 (by decide)).trans (Karg4_60 m outs c)
theorem Karg4_62 : V62 m outs c main_arg4 = m ((c : Thread nD τ).loc main_arg4) :=
  (V62_of m outs c main_arg4 (by decide)).trans (Karg4_61 m outs c)
theorem Karg4_63 : V63 m outs c main_arg4 = m ((c : Thread nD τ).loc main_arg4) :=
  (V63_of m outs c main_arg4 (by decide)).trans (Karg4_62 m outs c)
theorem Karg4_64 : V64 m outs c main_arg4 = m ((c : Thread nD τ).loc main_arg4) :=
  (V64_of m outs c main_arg4 (by decide)).trans (Karg4_63 m outs c)
theorem Karg4_65 : V65 m outs c main_arg4 = m ((c : Thread nD τ).loc main_arg4) :=
  (V65_of m outs c main_arg4 (by decide)).trans (Karg4_64 m outs c)
theorem Karg4_66 : V66 m outs c main_arg4 = m ((c : Thread nD τ).loc main_arg4) :=
  (V66_of m outs c main_arg4 (by decide)).trans (Karg4_65 m outs c)
theorem Karg4_67 : V67 m outs c main_arg4 = m ((c : Thread nD τ).loc main_arg4) :=
  (V67_of m outs c main_arg4 (by decide)).trans (Karg4_66 m outs c)
theorem Karg4_68 : V68 m outs c main_arg4 = m ((c : Thread nD τ).loc main_arg4) :=
  (V68_of m outs c main_arg4 (by decide)).trans (Karg4_67 m outs c)
theorem Karg4_69 : V69 m outs c main_arg4 = m ((c : Thread nD τ).loc main_arg4) :=
  (V69_of m outs c main_arg4 (by decide)).trans (Karg4_68 m outs c)
theorem Karg4_70 : V70 m outs c main_arg4 = m ((c : Thread nD τ).loc main_arg4) :=
  (V70_of m outs c main_arg4 (by decide)).trans (Karg4_69 m outs c)
theorem Karg4_71 : V71 m outs c main_arg4 = m ((c : Thread nD τ).loc main_arg4) :=
  (V71_of m outs c main_arg4 (by decide)).trans (Karg4_70 m outs c)
theorem Karg4_72 : V72 m outs c main_arg4 = m ((c : Thread nD τ).loc main_arg4) :=
  (V72_of m outs c main_arg4 (by decide)).trans (Karg4_71 m outs c)
theorem Karg4_73 : V73 m outs c main_arg4 = m ((c : Thread nD τ).loc main_arg4) :=
  (V73_of m outs c main_arg4 (by decide)).trans (Karg4_72 m outs c)
theorem Karg4_74 : V74 m outs c main_arg4 = m ((c : Thread nD τ).loc main_arg4) :=
  (V74_of m outs c main_arg4 (by decide)).trans (Karg4_73 m outs c)
theorem Karg4_75 : V75 m outs c main_arg4 = m ((c : Thread nD τ).loc main_arg4) :=
  (V75_of m outs c main_arg4 (by decide)).trans (Karg4_74 m outs c)
theorem Karg4_76 : V76 m outs c main_arg4 = m ((c : Thread nD τ).loc main_arg4) :=
  (V76_of m outs c main_arg4 (by decide)).trans (Karg4_75 m outs c)
theorem Karg4_77 : V77 m outs c main_arg4 = m ((c : Thread nD τ).loc main_arg4) :=
  (V77_of m outs c main_arg4 (by decide)).trans (Karg4_76 m outs c)
theorem Karg4_78 : V78 m outs c main_arg4 = m ((c : Thread nD τ).loc main_arg4) :=
  (V78_of m outs c main_arg4 (by decide)).trans (Karg4_77 m outs c)
theorem Karg4_79 : V79 m outs c main_arg4 = m ((c : Thread nD τ).loc main_arg4) :=
  (V79_of m outs c main_arg4 (by decide)).trans (Karg4_78 m outs c)
theorem Karg4_80 : V80 m outs c main_arg4 = m ((c : Thread nD τ).loc main_arg4) :=
  (V80_of m outs c main_arg4 (by decide)).trans (Karg4_79 m outs c)
theorem Karg4_81 : V81 m outs c main_arg4 = m ((c : Thread nD τ).loc main_arg4) :=
  (V81_of m outs c main_arg4 (by decide)).trans (Karg4_80 m outs c)
/-! ### main_arg5 -/
theorem Karg5_0 : V0 m c main_arg5 = m ((c : Thread nD τ).loc main_arg5) := rfl
theorem Karg5_1 : V1 m c main_arg5 = m ((c : Thread nD τ).loc main_arg5) :=
  (V1_of m c main_arg5 (by decide)).trans (Karg5_0 m c)
theorem Karg5_2 : V2 m outs c main_arg5 = m ((c : Thread nD τ).loc main_arg5) :=
  (V2_of m outs c main_arg5 (by decide)).trans (Karg5_1 m c)
theorem Karg5_3 : V3 m outs c main_arg5 = m ((c : Thread nD τ).loc main_arg5) :=
  (V3_of m outs c main_arg5 (by decide)).trans (Karg5_2 m outs c)
theorem Karg5_4 : V4 m outs c main_arg5 = m ((c : Thread nD τ).loc main_arg5) :=
  (V4_of m outs c main_arg5 (by decide)).trans (Karg5_3 m outs c)
theorem Karg5_5 : V5 m outs c main_arg5 = m ((c : Thread nD τ).loc main_arg5) :=
  (V5_of m outs c main_arg5 (by decide)).trans (Karg5_4 m outs c)
theorem Karg5_6 : V6 m outs c main_arg5 = m ((c : Thread nD τ).loc main_arg5) :=
  (V6_of m outs c main_arg5 (by decide)).trans (Karg5_5 m outs c)
theorem Karg5_7 : V7 m outs c main_arg5 = m ((c : Thread nD τ).loc main_arg5) :=
  (V7_of m outs c main_arg5 (by decide)).trans (Karg5_6 m outs c)
theorem Karg5_8 : V8 m outs c main_arg5 = m ((c : Thread nD τ).loc main_arg5) :=
  (V8_of m outs c main_arg5 (by decide)).trans (Karg5_7 m outs c)
theorem Karg5_9 : V9 m outs c main_arg5 = m ((c : Thread nD τ).loc main_arg5) :=
  (V9_of m outs c main_arg5 (by decide)).trans (Karg5_8 m outs c)
theorem Karg5_10 : V10 m outs c main_arg5 = m ((c : Thread nD τ).loc main_arg5) :=
  (V10_of m outs c main_arg5 (by decide)).trans (Karg5_9 m outs c)
theorem Karg5_11 : V11 m outs c main_arg5 = m ((c : Thread nD τ).loc main_arg5) :=
  (V11_of m outs c main_arg5 (by decide)).trans (Karg5_10 m outs c)
theorem Karg5_12 : V12 m outs c main_arg5 = m ((c : Thread nD τ).loc main_arg5) :=
  (V12_of m outs c main_arg5 (by decide)).trans (Karg5_11 m outs c)
theorem Karg5_13 : V13 m outs c main_arg5 = m ((c : Thread nD τ).loc main_arg5) :=
  (V13_of m outs c main_arg5 (by decide)).trans (Karg5_12 m outs c)
theorem Karg5_14 : V14 m outs c main_arg5 = m ((c : Thread nD τ).loc main_arg5) :=
  (V14_of m outs c main_arg5 (by decide)).trans (Karg5_13 m outs c)
theorem Karg5_15 : V15 m outs c main_arg5 = m ((c : Thread nD τ).loc main_arg5) :=
  (V15_of m outs c main_arg5 (by decide)).trans (Karg5_14 m outs c)
theorem Karg5_16 : V16 m outs c main_arg5 = m ((c : Thread nD τ).loc main_arg5) :=
  (V16_of m outs c main_arg5 (by decide)).trans (Karg5_15 m outs c)
theorem Karg5_17 : V17 m outs c main_arg5 = m ((c : Thread nD τ).loc main_arg5) :=
  (V17_of m outs c main_arg5 (by decide)).trans (Karg5_16 m outs c)
theorem Karg5_18 : V18 m outs c main_arg5 = m ((c : Thread nD τ).loc main_arg5) :=
  (V18_of m outs c main_arg5 (by decide)).trans (Karg5_17 m outs c)
theorem Karg5_19 : V19 m outs c main_arg5 = m ((c : Thread nD τ).loc main_arg5) :=
  (V19_of m outs c main_arg5 (by decide)).trans (Karg5_18 m outs c)
theorem Karg5_20 : V20 m outs c main_arg5 = m ((c : Thread nD τ).loc main_arg5) :=
  (V20_of m outs c main_arg5 (by decide)).trans (Karg5_19 m outs c)
theorem Karg5_21 : V21 m outs c main_arg5 = m ((c : Thread nD τ).loc main_arg5) :=
  (V21_of m outs c main_arg5 (by decide)).trans (Karg5_20 m outs c)
theorem Karg5_22 : V22 m outs c main_arg5 = m ((c : Thread nD τ).loc main_arg5) :=
  (V22_of m outs c main_arg5 (by decide)).trans (Karg5_21 m outs c)
theorem Karg5_23 : V23 m outs c main_arg5 = m ((c : Thread nD τ).loc main_arg5) :=
  (V23_of m outs c main_arg5 (by decide)).trans (Karg5_22 m outs c)
theorem Karg5_24 : V24 m outs c main_arg5 = m ((c : Thread nD τ).loc main_arg5) :=
  (V24_of m outs c main_arg5 (by decide)).trans (Karg5_23 m outs c)
theorem Karg5_25 : V25 m outs c main_arg5 = m ((c : Thread nD τ).loc main_arg5) :=
  (V25_of m outs c main_arg5 (by decide)).trans (Karg5_24 m outs c)
theorem Karg5_26 : V26 m outs c main_arg5 = m ((c : Thread nD τ).loc main_arg5) :=
  (V26_of m outs c main_arg5 (by decide)).trans (Karg5_25 m outs c)
theorem Karg5_27 : V27 m outs c main_arg5 = m ((c : Thread nD τ).loc main_arg5) :=
  (V27_of m outs c main_arg5 (by decide)).trans (Karg5_26 m outs c)
theorem Karg5_28 : V28 m outs c main_arg5 = m ((c : Thread nD τ).loc main_arg5) :=
  (V28_of m outs c main_arg5 (by decide)).trans (Karg5_27 m outs c)
theorem Karg5_29 : V29 m outs c main_arg5 = m ((c : Thread nD τ).loc main_arg5) :=
  (V29_of m outs c main_arg5 (by decide)).trans (Karg5_28 m outs c)
theorem Karg5_30 : V30 m outs c main_arg5 = m ((c : Thread nD τ).loc main_arg5) :=
  (V30_of m outs c main_arg5 (by decide)).trans (Karg5_29 m outs c)
theorem Karg5_31 : V31 m outs c main_arg5 = m ((c : Thread nD τ).loc main_arg5) :=
  (V31_of m outs c main_arg5 (by decide)).trans (Karg5_30 m outs c)
theorem Karg5_32 : V32 m outs c main_arg5 = m ((c : Thread nD τ).loc main_arg5) :=
  (V32_of m outs c main_arg5 (by decide)).trans (Karg5_31 m outs c)
theorem Karg5_33 : V33 m outs c main_arg5 = m ((c : Thread nD τ).loc main_arg5) :=
  (V33_of m outs c main_arg5 (by decide)).trans (Karg5_32 m outs c)
theorem Karg5_34 : V34 m outs c main_arg5 = m ((c : Thread nD τ).loc main_arg5) :=
  (V34_of m outs c main_arg5 (by decide)).trans (Karg5_33 m outs c)
theorem Karg5_35 : V35 m outs c main_arg5 = m ((c : Thread nD τ).loc main_arg5) :=
  (V35_of m outs c main_arg5 (by decide)).trans (Karg5_34 m outs c)
theorem Karg5_36 : V36 m outs c main_arg5 = m ((c : Thread nD τ).loc main_arg5) :=
  (V36_of m outs c main_arg5 (by decide)).trans (Karg5_35 m outs c)
theorem Karg5_37 : V37 m outs c main_arg5 = m ((c : Thread nD τ).loc main_arg5) :=
  (V37_of m outs c main_arg5 (by decide)).trans (Karg5_36 m outs c)
theorem Karg5_38 : V38 m outs c main_arg5 = m ((c : Thread nD τ).loc main_arg5) :=
  (V38_of m outs c main_arg5 (by decide)).trans (Karg5_37 m outs c)
theorem Karg5_39 : V39 m outs c main_arg5 = m ((c : Thread nD τ).loc main_arg5) :=
  (V39_of m outs c main_arg5 (by decide)).trans (Karg5_38 m outs c)
theorem Karg5_40 : V40 m outs c main_arg5 = m ((c : Thread nD τ).loc main_arg5) :=
  (V40_of m outs c main_arg5 (by decide)).trans (Karg5_39 m outs c)
theorem Karg5_41 : V41 m outs c main_arg5 = m ((c : Thread nD τ).loc main_arg5) :=
  (V41_of m outs c main_arg5 (by decide)).trans (Karg5_40 m outs c)
theorem Karg5_42 : V42 m outs c main_arg5 = m ((c : Thread nD τ).loc main_arg5) :=
  (V42_of m outs c main_arg5 (by decide)).trans (Karg5_41 m outs c)
theorem Karg5_43 : V43 m outs c main_arg5 = m ((c : Thread nD τ).loc main_arg5) :=
  (V43_of m outs c main_arg5 (by decide)).trans (Karg5_42 m outs c)
theorem Karg5_44 : V44 m outs c main_arg5 = m ((c : Thread nD τ).loc main_arg5) :=
  (V44_of m outs c main_arg5 (by decide)).trans (Karg5_43 m outs c)
theorem Karg5_45 : V45 m outs c main_arg5 = m ((c : Thread nD τ).loc main_arg5) :=
  (V45_of m outs c main_arg5 (by decide)).trans (Karg5_44 m outs c)
theorem Karg5_46 : V46 m outs c main_arg5 = m ((c : Thread nD τ).loc main_arg5) :=
  (V46_of m outs c main_arg5 (by decide)).trans (Karg5_45 m outs c)
theorem Karg5_47 : V47 m outs c main_arg5 = m ((c : Thread nD τ).loc main_arg5) :=
  (V47_of m outs c main_arg5 (by decide)).trans (Karg5_46 m outs c)
theorem Karg5_48 : V48 m outs c main_arg5 = m ((c : Thread nD τ).loc main_arg5) :=
  (V48_of m outs c main_arg5 (by decide)).trans (Karg5_47 m outs c)
theorem Karg5_49 : V49 m outs c main_arg5 = m ((c : Thread nD τ).loc main_arg5) :=
  (V49_of m outs c main_arg5 (by decide)).trans (Karg5_48 m outs c)
theorem Karg5_50 : V50 m outs c main_arg5 = m ((c : Thread nD τ).loc main_arg5) :=
  (V50_of m outs c main_arg5 (by decide)).trans (Karg5_49 m outs c)
theorem Karg5_51 : V51 m outs c main_arg5 = m ((c : Thread nD τ).loc main_arg5) :=
  (V51_of m outs c main_arg5 (by decide)).trans (Karg5_50 m outs c)
theorem Karg5_52 : V52 m outs c main_arg5 = m ((c : Thread nD τ).loc main_arg5) :=
  (V52_of m outs c main_arg5 (by decide)).trans (Karg5_51 m outs c)
theorem Karg5_53 : V53 m outs c main_arg5 = m ((c : Thread nD τ).loc main_arg5) :=
  (V53_of m outs c main_arg5 (by decide)).trans (Karg5_52 m outs c)
theorem Karg5_54 : V54 m outs c main_arg5 = m ((c : Thread nD τ).loc main_arg5) :=
  (V54_of m outs c main_arg5 (by decide)).trans (Karg5_53 m outs c)
theorem Karg5_55 : V55 m outs c main_arg5 = m ((c : Thread nD τ).loc main_arg5) :=
  (V55_of m outs c main_arg5 (by decide)).trans (Karg5_54 m outs c)
theorem Karg5_56 : V56 m outs c main_arg5 = m ((c : Thread nD τ).loc main_arg5) :=
  (V56_of m outs c main_arg5 (by decide)).trans (Karg5_55 m outs c)
theorem Karg5_57 : V57 m outs c main_arg5 = m ((c : Thread nD τ).loc main_arg5) :=
  (V57_of m outs c main_arg5 (by decide)).trans (Karg5_56 m outs c)
theorem Karg5_58 : V58 m outs c main_arg5 = m ((c : Thread nD τ).loc main_arg5) :=
  (V58_of m outs c main_arg5 (by decide)).trans (Karg5_57 m outs c)
theorem Karg5_59 : V59 m outs c main_arg5 = m ((c : Thread nD τ).loc main_arg5) :=
  (V59_of m outs c main_arg5 (by decide)).trans (Karg5_58 m outs c)
theorem Karg5_60 : V60 m outs c main_arg5 = m ((c : Thread nD τ).loc main_arg5) :=
  (V60_of m outs c main_arg5 (by decide)).trans (Karg5_59 m outs c)
theorem Karg5_61 : V61 m outs c main_arg5 = m ((c : Thread nD τ).loc main_arg5) :=
  (V61_of m outs c main_arg5 (by decide)).trans (Karg5_60 m outs c)
theorem Karg5_62 : V62 m outs c main_arg5 = m ((c : Thread nD τ).loc main_arg5) :=
  (V62_of m outs c main_arg5 (by decide)).trans (Karg5_61 m outs c)
theorem Karg5_63 : V63 m outs c main_arg5 = m ((c : Thread nD τ).loc main_arg5) :=
  (V63_of m outs c main_arg5 (by decide)).trans (Karg5_62 m outs c)
theorem Karg5_64 : V64 m outs c main_arg5 = m ((c : Thread nD τ).loc main_arg5) :=
  (V64_of m outs c main_arg5 (by decide)).trans (Karg5_63 m outs c)
theorem Karg5_65 : V65 m outs c main_arg5 = m ((c : Thread nD τ).loc main_arg5) :=
  (V65_of m outs c main_arg5 (by decide)).trans (Karg5_64 m outs c)
theorem Karg5_66 : V66 m outs c main_arg5 = m ((c : Thread nD τ).loc main_arg5) :=
  (V66_of m outs c main_arg5 (by decide)).trans (Karg5_65 m outs c)
theorem Karg5_67 : V67 m outs c main_arg5 = m ((c : Thread nD τ).loc main_arg5) :=
  (V67_of m outs c main_arg5 (by decide)).trans (Karg5_66 m outs c)
theorem Karg5_68 : V68 m outs c main_arg5 = m ((c : Thread nD τ).loc main_arg5) :=
  (V68_of m outs c main_arg5 (by decide)).trans (Karg5_67 m outs c)
theorem Karg5_69 : V69 m outs c main_arg5 = m ((c : Thread nD τ).loc main_arg5) :=
  (V69_of m outs c main_arg5 (by decide)).trans (Karg5_68 m outs c)
theorem Karg5_70 : V70 m outs c main_arg5 = m ((c : Thread nD τ).loc main_arg5) :=
  (V70_of m outs c main_arg5 (by decide)).trans (Karg5_69 m outs c)
theorem Karg5_71 : V71 m outs c main_arg5 = m ((c : Thread nD τ).loc main_arg5) :=
  (V71_of m outs c main_arg5 (by decide)).trans (Karg5_70 m outs c)
theorem Karg5_72 : V72 m outs c main_arg5 = m ((c : Thread nD τ).loc main_arg5) :=
  (V72_of m outs c main_arg5 (by decide)).trans (Karg5_71 m outs c)
theorem Karg5_73 : V73 m outs c main_arg5 = m ((c : Thread nD τ).loc main_arg5) :=
  (V73_of m outs c main_arg5 (by decide)).trans (Karg5_72 m outs c)
theorem Karg5_74 : V74 m outs c main_arg5 = m ((c : Thread nD τ).loc main_arg5) :=
  (V74_of m outs c main_arg5 (by decide)).trans (Karg5_73 m outs c)
theorem Karg5_75 : V75 m outs c main_arg5 = m ((c : Thread nD τ).loc main_arg5) :=
  (V75_of m outs c main_arg5 (by decide)).trans (Karg5_74 m outs c)
theorem Karg5_76 : V76 m outs c main_arg5 = m ((c : Thread nD τ).loc main_arg5) :=
  (V76_of m outs c main_arg5 (by decide)).trans (Karg5_75 m outs c)
theorem Karg5_77 : V77 m outs c main_arg5 = m ((c : Thread nD τ).loc main_arg5) :=
  (V77_of m outs c main_arg5 (by decide)).trans (Karg5_76 m outs c)
theorem Karg5_78 : V78 m outs c main_arg5 = m ((c : Thread nD τ).loc main_arg5) :=
  (V78_of m outs c main_arg5 (by decide)).trans (Karg5_77 m outs c)
theorem Karg5_79 : V79 m outs c main_arg5 = m ((c : Thread nD τ).loc main_arg5) :=
  (V79_of m outs c main_arg5 (by decide)).trans (Karg5_78 m outs c)
theorem Karg5_80 : V80 m outs c main_arg5 = m ((c : Thread nD τ).loc main_arg5) :=
  (V80_of m outs c main_arg5 (by decide)).trans (Karg5_79 m outs c)
theorem Karg5_81 : V81 m outs c main_arg5 = m ((c : Thread nD τ).loc main_arg5) :=
  (V81_of m outs c main_arg5 (by decide)).trans (Karg5_80 m outs c)
/-! ### main_arg6 -/
theorem Karg6_0 : V0 m c main_arg6 = m ((c : Thread nD τ).loc main_arg6) := rfl
theorem Karg6_1 : V1 m c main_arg6 = m ((c : Thread nD τ).loc main_arg6) :=
  (V1_of m c main_arg6 (by decide)).trans (Karg6_0 m c)
theorem Karg6_2 : V2 m outs c main_arg6 = m ((c : Thread nD τ).loc main_arg6) :=
  (V2_of m outs c main_arg6 (by decide)).trans (Karg6_1 m c)
theorem Karg6_3 : V3 m outs c main_arg6 = m ((c : Thread nD τ).loc main_arg6) :=
  (V3_of m outs c main_arg6 (by decide)).trans (Karg6_2 m outs c)
theorem Karg6_4 : V4 m outs c main_arg6 = m ((c : Thread nD τ).loc main_arg6) :=
  (V4_of m outs c main_arg6 (by decide)).trans (Karg6_3 m outs c)
theorem Karg6_5 : V5 m outs c main_arg6 = m ((c : Thread nD τ).loc main_arg6) :=
  (V5_of m outs c main_arg6 (by decide)).trans (Karg6_4 m outs c)
theorem Karg6_6 : V6 m outs c main_arg6 = m ((c : Thread nD τ).loc main_arg6) :=
  (V6_of m outs c main_arg6 (by decide)).trans (Karg6_5 m outs c)
theorem Karg6_7 : V7 m outs c main_arg6 = m ((c : Thread nD τ).loc main_arg6) :=
  (V7_of m outs c main_arg6 (by decide)).trans (Karg6_6 m outs c)
theorem Karg6_8 : V8 m outs c main_arg6 = m ((c : Thread nD τ).loc main_arg6) :=
  (V8_of m outs c main_arg6 (by decide)).trans (Karg6_7 m outs c)
theorem Karg6_9 : V9 m outs c main_arg6 = m ((c : Thread nD τ).loc main_arg6) :=
  (V9_of m outs c main_arg6 (by decide)).trans (Karg6_8 m outs c)
theorem Karg6_10 : V10 m outs c main_arg6 = m ((c : Thread nD τ).loc main_arg6) :=
  (V10_of m outs c main_arg6 (by decide)).trans (Karg6_9 m outs c)
theorem Karg6_11 : V11 m outs c main_arg6 = m ((c : Thread nD τ).loc main_arg6) :=
  (V11_of m outs c main_arg6 (by decide)).trans (Karg6_10 m outs c)
theorem Karg6_12 : V12 m outs c main_arg6 = m ((c : Thread nD τ).loc main_arg6) :=
  (V12_of m outs c main_arg6 (by decide)).trans (Karg6_11 m outs c)
theorem Karg6_13 : V13 m outs c main_arg6 = m ((c : Thread nD τ).loc main_arg6) :=
  (V13_of m outs c main_arg6 (by decide)).trans (Karg6_12 m outs c)
theorem Karg6_14 : V14 m outs c main_arg6 = m ((c : Thread nD τ).loc main_arg6) :=
  (V14_of m outs c main_arg6 (by decide)).trans (Karg6_13 m outs c)
theorem Karg6_15 : V15 m outs c main_arg6 = m ((c : Thread nD τ).loc main_arg6) :=
  (V15_of m outs c main_arg6 (by decide)).trans (Karg6_14 m outs c)
theorem Karg6_16 : V16 m outs c main_arg6 = m ((c : Thread nD τ).loc main_arg6) :=
  (V16_of m outs c main_arg6 (by decide)).trans (Karg6_15 m outs c)
theorem Karg6_17 : V17 m outs c main_arg6 = m ((c : Thread nD τ).loc main_arg6) :=
  (V17_of m outs c main_arg6 (by decide)).trans (Karg6_16 m outs c)
theorem Karg6_18 : V18 m outs c main_arg6 = m ((c : Thread nD τ).loc main_arg6) :=
  (V18_of m outs c main_arg6 (by decide)).trans (Karg6_17 m outs c)
theorem Karg6_19 : V19 m outs c main_arg6 = m ((c : Thread nD τ).loc main_arg6) :=
  (V19_of m outs c main_arg6 (by decide)).trans (Karg6_18 m outs c)
theorem Karg6_20 : V20 m outs c main_arg6 = m ((c : Thread nD τ).loc main_arg6) :=
  (V20_of m outs c main_arg6 (by decide)).trans (Karg6_19 m outs c)
theorem Karg6_21 : V21 m outs c main_arg6 = m ((c : Thread nD τ).loc main_arg6) :=
  (V21_of m outs c main_arg6 (by decide)).trans (Karg6_20 m outs c)
theorem Karg6_22 : V22 m outs c main_arg6 = m ((c : Thread nD τ).loc main_arg6) :=
  (V22_of m outs c main_arg6 (by decide)).trans (Karg6_21 m outs c)
theorem Karg6_23 : V23 m outs c main_arg6 = m ((c : Thread nD τ).loc main_arg6) :=
  (V23_of m outs c main_arg6 (by decide)).trans (Karg6_22 m outs c)
theorem Karg6_24 : V24 m outs c main_arg6 = m ((c : Thread nD τ).loc main_arg6) :=
  (V24_of m outs c main_arg6 (by decide)).trans (Karg6_23 m outs c)
theorem Karg6_25 : V25 m outs c main_arg6 = m ((c : Thread nD τ).loc main_arg6) :=
  (V25_of m outs c main_arg6 (by decide)).trans (Karg6_24 m outs c)
theorem Karg6_26 : V26 m outs c main_arg6 = m ((c : Thread nD τ).loc main_arg6) :=
  (V26_of m outs c main_arg6 (by decide)).trans (Karg6_25 m outs c)
theorem Karg6_27 : V27 m outs c main_arg6 = m ((c : Thread nD τ).loc main_arg6) :=
  (V27_of m outs c main_arg6 (by decide)).trans (Karg6_26 m outs c)
theorem Karg6_28 : V28 m outs c main_arg6 = m ((c : Thread nD τ).loc main_arg6) :=
  (V28_of m outs c main_arg6 (by decide)).trans (Karg6_27 m outs c)
theorem Karg6_29 : V29 m outs c main_arg6 = m ((c : Thread nD τ).loc main_arg6) :=
  (V29_of m outs c main_arg6 (by decide)).trans (Karg6_28 m outs c)
theorem Karg6_30 : V30 m outs c main_arg6 = m ((c : Thread nD τ).loc main_arg6) :=
  (V30_of m outs c main_arg6 (by decide)).trans (Karg6_29 m outs c)
theorem Karg6_31 : V31 m outs c main_arg6 = m ((c : Thread nD τ).loc main_arg6) :=
  (V31_of m outs c main_arg6 (by decide)).trans (Karg6_30 m outs c)
theorem Karg6_32 : V32 m outs c main_arg6 = m ((c : Thread nD τ).loc main_arg6) :=
  (V32_of m outs c main_arg6 (by decide)).trans (Karg6_31 m outs c)
theorem Karg6_33 : V33 m outs c main_arg6 = m ((c : Thread nD τ).loc main_arg6) :=
  (V33_of m outs c main_arg6 (by decide)).trans (Karg6_32 m outs c)
theorem Karg6_34 : V34 m outs c main_arg6 = m ((c : Thread nD τ).loc main_arg6) :=
  (V34_of m outs c main_arg6 (by decide)).trans (Karg6_33 m outs c)
theorem Karg6_35 : V35 m outs c main_arg6 = m ((c : Thread nD τ).loc main_arg6) :=
  (V35_of m outs c main_arg6 (by decide)).trans (Karg6_34 m outs c)
theorem Karg6_36 : V36 m outs c main_arg6 = m ((c : Thread nD τ).loc main_arg6) :=
  (V36_of m outs c main_arg6 (by decide)).trans (Karg6_35 m outs c)
theorem Karg6_37 : V37 m outs c main_arg6 = m ((c : Thread nD τ).loc main_arg6) :=
  (V37_of m outs c main_arg6 (by decide)).trans (Karg6_36 m outs c)
theorem Karg6_38 : V38 m outs c main_arg6 = m ((c : Thread nD τ).loc main_arg6) :=
  (V38_of m outs c main_arg6 (by decide)).trans (Karg6_37 m outs c)
theorem Karg6_39 : V39 m outs c main_arg6 = m ((c : Thread nD τ).loc main_arg6) :=
  (V39_of m outs c main_arg6 (by decide)).trans (Karg6_38 m outs c)
theorem Karg6_40 : V40 m outs c main_arg6 = m ((c : Thread nD τ).loc main_arg6) :=
  (V40_of m outs c main_arg6 (by decide)).trans (Karg6_39 m outs c)
theorem Karg6_41 : V41 m outs c main_arg6 = m ((c : Thread nD τ).loc main_arg6) :=
  (V41_of m outs c main_arg6 (by decide)).trans (Karg6_40 m outs c)
theorem Karg6_42 : V42 m outs c main_arg6 = m ((c : Thread nD τ).loc main_arg6) :=
  (V42_of m outs c main_arg6 (by decide)).trans (Karg6_41 m outs c)
theorem Karg6_43 : V43 m outs c main_arg6 = m ((c : Thread nD τ).loc main_arg6) :=
  (V43_of m outs c main_arg6 (by decide)).trans (Karg6_42 m outs c)
theorem Karg6_44 : V44 m outs c main_arg6 = m ((c : Thread nD τ).loc main_arg6) :=
  (V44_of m outs c main_arg6 (by decide)).trans (Karg6_43 m outs c)
theorem Karg6_45 : V45 m outs c main_arg6 = m ((c : Thread nD τ).loc main_arg6) :=
  (V45_of m outs c main_arg6 (by decide)).trans (Karg6_44 m outs c)
theorem Karg6_46 : V46 m outs c main_arg6 = m ((c : Thread nD τ).loc main_arg6) :=
  (V46_of m outs c main_arg6 (by decide)).trans (Karg6_45 m outs c)
theorem Karg6_47 : V47 m outs c main_arg6 = m ((c : Thread nD τ).loc main_arg6) :=
  (V47_of m outs c main_arg6 (by decide)).trans (Karg6_46 m outs c)
theorem Karg6_48 : V48 m outs c main_arg6 = m ((c : Thread nD τ).loc main_arg6) :=
  (V48_of m outs c main_arg6 (by decide)).trans (Karg6_47 m outs c)
theorem Karg6_49 : V49 m outs c main_arg6 = m ((c : Thread nD τ).loc main_arg6) :=
  (V49_of m outs c main_arg6 (by decide)).trans (Karg6_48 m outs c)
theorem Karg6_50 : V50 m outs c main_arg6 = m ((c : Thread nD τ).loc main_arg6) :=
  (V50_of m outs c main_arg6 (by decide)).trans (Karg6_49 m outs c)
theorem Karg6_51 : V51 m outs c main_arg6 = m ((c : Thread nD τ).loc main_arg6) :=
  (V51_of m outs c main_arg6 (by decide)).trans (Karg6_50 m outs c)
theorem Karg6_52 : V52 m outs c main_arg6 = m ((c : Thread nD τ).loc main_arg6) :=
  (V52_of m outs c main_arg6 (by decide)).trans (Karg6_51 m outs c)
theorem Karg6_53 : V53 m outs c main_arg6 = m ((c : Thread nD τ).loc main_arg6) :=
  (V53_of m outs c main_arg6 (by decide)).trans (Karg6_52 m outs c)
theorem Karg6_54 : V54 m outs c main_arg6 = m ((c : Thread nD τ).loc main_arg6) :=
  (V54_of m outs c main_arg6 (by decide)).trans (Karg6_53 m outs c)
theorem Karg6_55 : V55 m outs c main_arg6 = m ((c : Thread nD τ).loc main_arg6) :=
  (V55_of m outs c main_arg6 (by decide)).trans (Karg6_54 m outs c)
theorem Karg6_56 : V56 m outs c main_arg6 = m ((c : Thread nD τ).loc main_arg6) :=
  (V56_of m outs c main_arg6 (by decide)).trans (Karg6_55 m outs c)
theorem Karg6_57 : V57 m outs c main_arg6 = m ((c : Thread nD τ).loc main_arg6) :=
  (V57_of m outs c main_arg6 (by decide)).trans (Karg6_56 m outs c)
theorem Karg6_58 : V58 m outs c main_arg6 = m ((c : Thread nD τ).loc main_arg6) :=
  (V58_of m outs c main_arg6 (by decide)).trans (Karg6_57 m outs c)
theorem Karg6_59 : V59 m outs c main_arg6 = m ((c : Thread nD τ).loc main_arg6) :=
  (V59_of m outs c main_arg6 (by decide)).trans (Karg6_58 m outs c)
theorem Karg6_60 : V60 m outs c main_arg6 = m ((c : Thread nD τ).loc main_arg6) :=
  (V60_of m outs c main_arg6 (by decide)).trans (Karg6_59 m outs c)
theorem Karg6_61 : V61 m outs c main_arg6 = m ((c : Thread nD τ).loc main_arg6) :=
  (V61_of m outs c main_arg6 (by decide)).trans (Karg6_60 m outs c)
theorem Karg6_62 : V62 m outs c main_arg6 = m ((c : Thread nD τ).loc main_arg6) :=
  (V62_of m outs c main_arg6 (by decide)).trans (Karg6_61 m outs c)
theorem Karg6_63 : V63 m outs c main_arg6 = m ((c : Thread nD τ).loc main_arg6) :=
  (V63_of m outs c main_arg6 (by decide)).trans (Karg6_62 m outs c)
theorem Karg6_64 : V64 m outs c main_arg6 = m ((c : Thread nD τ).loc main_arg6) :=
  (V64_of m outs c main_arg6 (by decide)).trans (Karg6_63 m outs c)
theorem Karg6_65 : V65 m outs c main_arg6 = m ((c : Thread nD τ).loc main_arg6) :=
  (V65_of m outs c main_arg6 (by decide)).trans (Karg6_64 m outs c)
theorem Karg6_66 : V66 m outs c main_arg6 = m ((c : Thread nD τ).loc main_arg6) :=
  (V66_of m outs c main_arg6 (by decide)).trans (Karg6_65 m outs c)
theorem Karg6_67 : V67 m outs c main_arg6 = m ((c : Thread nD τ).loc main_arg6) :=
  (V67_of m outs c main_arg6 (by decide)).trans (Karg6_66 m outs c)
theorem Karg6_68 : V68 m outs c main_arg6 = m ((c : Thread nD τ).loc main_arg6) :=
  (V68_of m outs c main_arg6 (by decide)).trans (Karg6_67 m outs c)
theorem Karg6_69 : V69 m outs c main_arg6 = m ((c : Thread nD τ).loc main_arg6) :=
  (V69_of m outs c main_arg6 (by decide)).trans (Karg6_68 m outs c)
theorem Karg6_70 : V70 m outs c main_arg6 = m ((c : Thread nD τ).loc main_arg6) :=
  (V70_of m outs c main_arg6 (by decide)).trans (Karg6_69 m outs c)
theorem Karg6_71 : V71 m outs c main_arg6 = m ((c : Thread nD τ).loc main_arg6) :=
  (V71_of m outs c main_arg6 (by decide)).trans (Karg6_70 m outs c)
theorem Karg6_72 : V72 m outs c main_arg6 = m ((c : Thread nD τ).loc main_arg6) :=
  (V72_of m outs c main_arg6 (by decide)).trans (Karg6_71 m outs c)
theorem Karg6_73 : V73 m outs c main_arg6 = m ((c : Thread nD τ).loc main_arg6) :=
  (V73_of m outs c main_arg6 (by decide)).trans (Karg6_72 m outs c)
theorem Karg6_74 : V74 m outs c main_arg6 = m ((c : Thread nD τ).loc main_arg6) :=
  (V74_of m outs c main_arg6 (by decide)).trans (Karg6_73 m outs c)
theorem Karg6_75 : V75 m outs c main_arg6 = m ((c : Thread nD τ).loc main_arg6) :=
  (V75_of m outs c main_arg6 (by decide)).trans (Karg6_74 m outs c)
theorem Karg6_76 : V76 m outs c main_arg6 = m ((c : Thread nD τ).loc main_arg6) :=
  (V76_of m outs c main_arg6 (by decide)).trans (Karg6_75 m outs c)
theorem Karg6_77 : V77 m outs c main_arg6 = m ((c : Thread nD τ).loc main_arg6) :=
  (V77_of m outs c main_arg6 (by decide)).trans (Karg6_76 m outs c)
theorem Karg6_78 : V78 m outs c main_arg6 = m ((c : Thread nD τ).loc main_arg6) :=
  (V78_of m outs c main_arg6 (by decide)).trans (Karg6_77 m outs c)
theorem Karg6_79 : V79 m outs c main_arg6 = m ((c : Thread nD τ).loc main_arg6) :=
  (V79_of m outs c main_arg6 (by decide)).trans (Karg6_78 m outs c)
theorem Karg6_80 : V80 m outs c main_arg6 = m ((c : Thread nD τ).loc main_arg6) :=
  (V80_of m outs c main_arg6 (by decide)).trans (Karg6_79 m outs c)
theorem Karg6_81 : V81 m outs c main_arg6 = m ((c : Thread nD τ).loc main_arg6) :=
  (V81_of m outs c main_arg6 (by decide)).trans (Karg6_80 m outs c)
/-! ### main_arg7 -/
theorem Karg7_0 : V0 m c main_arg7 = m ((c : Thread nD τ).loc main_arg7) := rfl
theorem Karg7_1 : V1 m c main_arg7 = m ((c : Thread nD τ).loc main_arg7) :=
  (V1_of m c main_arg7 (by decide)).trans (Karg7_0 m c)
theorem Karg7_2 : V2 m outs c main_arg7 = m ((c : Thread nD τ).loc main_arg7) :=
  (V2_of m outs c main_arg7 (by decide)).trans (Karg7_1 m c)
theorem Karg7_3 : V3 m outs c main_arg7 = m ((c : Thread nD τ).loc main_arg7) :=
  (V3_of m outs c main_arg7 (by decide)).trans (Karg7_2 m outs c)
theorem Karg7_4 : V4 m outs c main_arg7 = m ((c : Thread nD τ).loc main_arg7) :=
  (V4_of m outs c main_arg7 (by decide)).trans (Karg7_3 m outs c)
theorem Karg7_5 : V5 m outs c main_arg7 = m ((c : Thread nD τ).loc main_arg7) :=
  (V5_of m outs c main_arg7 (by decide)).trans (Karg7_4 m outs c)
theorem Karg7_6 : V6 m outs c main_arg7 = m ((c : Thread nD τ).loc main_arg7) :=
  (V6_of m outs c main_arg7 (by decide)).trans (Karg7_5 m outs c)
theorem Karg7_7 : V7 m outs c main_arg7 = m ((c : Thread nD τ).loc main_arg7) :=
  (V7_of m outs c main_arg7 (by decide)).trans (Karg7_6 m outs c)
theorem Karg7_8 : V8 m outs c main_arg7 = m ((c : Thread nD τ).loc main_arg7) :=
  (V8_of m outs c main_arg7 (by decide)).trans (Karg7_7 m outs c)
theorem Karg7_9 : V9 m outs c main_arg7 = m ((c : Thread nD τ).loc main_arg7) :=
  (V9_of m outs c main_arg7 (by decide)).trans (Karg7_8 m outs c)
theorem Karg7_10 : V10 m outs c main_arg7 = m ((c : Thread nD τ).loc main_arg7) :=
  (V10_of m outs c main_arg7 (by decide)).trans (Karg7_9 m outs c)
theorem Karg7_11 : V11 m outs c main_arg7 = m ((c : Thread nD τ).loc main_arg7) :=
  (V11_of m outs c main_arg7 (by decide)).trans (Karg7_10 m outs c)
theorem Karg7_12 : V12 m outs c main_arg7 = m ((c : Thread nD τ).loc main_arg7) :=
  (V12_of m outs c main_arg7 (by decide)).trans (Karg7_11 m outs c)
theorem Karg7_13 : V13 m outs c main_arg7 = m ((c : Thread nD τ).loc main_arg7) :=
  (V13_of m outs c main_arg7 (by decide)).trans (Karg7_12 m outs c)
theorem Karg7_14 : V14 m outs c main_arg7 = m ((c : Thread nD τ).loc main_arg7) :=
  (V14_of m outs c main_arg7 (by decide)).trans (Karg7_13 m outs c)
theorem Karg7_15 : V15 m outs c main_arg7 = m ((c : Thread nD τ).loc main_arg7) :=
  (V15_of m outs c main_arg7 (by decide)).trans (Karg7_14 m outs c)
theorem Karg7_16 : V16 m outs c main_arg7 = m ((c : Thread nD τ).loc main_arg7) :=
  (V16_of m outs c main_arg7 (by decide)).trans (Karg7_15 m outs c)
theorem Karg7_17 : V17 m outs c main_arg7 = m ((c : Thread nD τ).loc main_arg7) :=
  (V17_of m outs c main_arg7 (by decide)).trans (Karg7_16 m outs c)
theorem Karg7_18 : V18 m outs c main_arg7 = m ((c : Thread nD τ).loc main_arg7) :=
  (V18_of m outs c main_arg7 (by decide)).trans (Karg7_17 m outs c)
theorem Karg7_19 : V19 m outs c main_arg7 = m ((c : Thread nD τ).loc main_arg7) :=
  (V19_of m outs c main_arg7 (by decide)).trans (Karg7_18 m outs c)
theorem Karg7_20 : V20 m outs c main_arg7 = m ((c : Thread nD τ).loc main_arg7) :=
  (V20_of m outs c main_arg7 (by decide)).trans (Karg7_19 m outs c)
theorem Karg7_21 : V21 m outs c main_arg7 = m ((c : Thread nD τ).loc main_arg7) :=
  (V21_of m outs c main_arg7 (by decide)).trans (Karg7_20 m outs c)
theorem Karg7_22 : V22 m outs c main_arg7 = m ((c : Thread nD τ).loc main_arg7) :=
  (V22_of m outs c main_arg7 (by decide)).trans (Karg7_21 m outs c)
theorem Karg7_23 : V23 m outs c main_arg7 = m ((c : Thread nD τ).loc main_arg7) :=
  (V23_of m outs c main_arg7 (by decide)).trans (Karg7_22 m outs c)
theorem Karg7_24 : V24 m outs c main_arg7 = m ((c : Thread nD τ).loc main_arg7) :=
  (V24_of m outs c main_arg7 (by decide)).trans (Karg7_23 m outs c)
theorem Karg7_25 : V25 m outs c main_arg7 = m ((c : Thread nD τ).loc main_arg7) :=
  (V25_of m outs c main_arg7 (by decide)).trans (Karg7_24 m outs c)
theorem Karg7_26 : V26 m outs c main_arg7 = m ((c : Thread nD τ).loc main_arg7) :=
  (V26_of m outs c main_arg7 (by decide)).trans (Karg7_25 m outs c)
theorem Karg7_27 : V27 m outs c main_arg7 = m ((c : Thread nD τ).loc main_arg7) :=
  (V27_of m outs c main_arg7 (by decide)).trans (Karg7_26 m outs c)
theorem Karg7_28 : V28 m outs c main_arg7 = m ((c : Thread nD τ).loc main_arg7) :=
  (V28_of m outs c main_arg7 (by decide)).trans (Karg7_27 m outs c)
theorem Karg7_29 : V29 m outs c main_arg7 = m ((c : Thread nD τ).loc main_arg7) :=
  (V29_of m outs c main_arg7 (by decide)).trans (Karg7_28 m outs c)
theorem Karg7_30 : V30 m outs c main_arg7 = m ((c : Thread nD τ).loc main_arg7) :=
  (V30_of m outs c main_arg7 (by decide)).trans (Karg7_29 m outs c)
theorem Karg7_31 : V31 m outs c main_arg7 = m ((c : Thread nD τ).loc main_arg7) :=
  (V31_of m outs c main_arg7 (by decide)).trans (Karg7_30 m outs c)
theorem Karg7_32 : V32 m outs c main_arg7 = m ((c : Thread nD τ).loc main_arg7) :=
  (V32_of m outs c main_arg7 (by decide)).trans (Karg7_31 m outs c)
theorem Karg7_33 : V33 m outs c main_arg7 = m ((c : Thread nD τ).loc main_arg7) :=
  (V33_of m outs c main_arg7 (by decide)).trans (Karg7_32 m outs c)
theorem Karg7_34 : V34 m outs c main_arg7 = m ((c : Thread nD τ).loc main_arg7) :=
  (V34_of m outs c main_arg7 (by decide)).trans (Karg7_33 m outs c)
theorem Karg7_35 : V35 m outs c main_arg7 = m ((c : Thread nD τ).loc main_arg7) :=
  (V35_of m outs c main_arg7 (by decide)).trans (Karg7_34 m outs c)
theorem Karg7_36 : V36 m outs c main_arg7 = m ((c : Thread nD τ).loc main_arg7) :=
  (V36_of m outs c main_arg7 (by decide)).trans (Karg7_35 m outs c)
theorem Karg7_37 : V37 m outs c main_arg7 = m ((c : Thread nD τ).loc main_arg7) :=
  (V37_of m outs c main_arg7 (by decide)).trans (Karg7_36 m outs c)
theorem Karg7_38 : V38 m outs c main_arg7 = m ((c : Thread nD τ).loc main_arg7) :=
  (V38_of m outs c main_arg7 (by decide)).trans (Karg7_37 m outs c)
theorem Karg7_39 : V39 m outs c main_arg7 = m ((c : Thread nD τ).loc main_arg7) :=
  (V39_of m outs c main_arg7 (by decide)).trans (Karg7_38 m outs c)
theorem Karg7_40 : V40 m outs c main_arg7 = m ((c : Thread nD τ).loc main_arg7) :=
  (V40_of m outs c main_arg7 (by decide)).trans (Karg7_39 m outs c)
theorem Karg7_41 : V41 m outs c main_arg7 = m ((c : Thread nD τ).loc main_arg7) :=
  (V41_of m outs c main_arg7 (by decide)).trans (Karg7_40 m outs c)
theorem Karg7_42 : V42 m outs c main_arg7 = m ((c : Thread nD τ).loc main_arg7) :=
  (V42_of m outs c main_arg7 (by decide)).trans (Karg7_41 m outs c)
theorem Karg7_43 : V43 m outs c main_arg7 = m ((c : Thread nD τ).loc main_arg7) :=
  (V43_of m outs c main_arg7 (by decide)).trans (Karg7_42 m outs c)
theorem Karg7_44 : V44 m outs c main_arg7 = m ((c : Thread nD τ).loc main_arg7) :=
  (V44_of m outs c main_arg7 (by decide)).trans (Karg7_43 m outs c)
theorem Karg7_45 : V45 m outs c main_arg7 = m ((c : Thread nD τ).loc main_arg7) :=
  (V45_of m outs c main_arg7 (by decide)).trans (Karg7_44 m outs c)
theorem Karg7_46 : V46 m outs c main_arg7 = m ((c : Thread nD τ).loc main_arg7) :=
  (V46_of m outs c main_arg7 (by decide)).trans (Karg7_45 m outs c)
theorem Karg7_47 : V47 m outs c main_arg7 = m ((c : Thread nD τ).loc main_arg7) :=
  (V47_of m outs c main_arg7 (by decide)).trans (Karg7_46 m outs c)
theorem Karg7_48 : V48 m outs c main_arg7 = m ((c : Thread nD τ).loc main_arg7) :=
  (V48_of m outs c main_arg7 (by decide)).trans (Karg7_47 m outs c)
theorem Karg7_49 : V49 m outs c main_arg7 = m ((c : Thread nD τ).loc main_arg7) :=
  (V49_of m outs c main_arg7 (by decide)).trans (Karg7_48 m outs c)
theorem Karg7_50 : V50 m outs c main_arg7 = m ((c : Thread nD τ).loc main_arg7) :=
  (V50_of m outs c main_arg7 (by decide)).trans (Karg7_49 m outs c)
theorem Karg7_51 : V51 m outs c main_arg7 = m ((c : Thread nD τ).loc main_arg7) :=
  (V51_of m outs c main_arg7 (by decide)).trans (Karg7_50 m outs c)
theorem Karg7_52 : V52 m outs c main_arg7 = m ((c : Thread nD τ).loc main_arg7) :=
  (V52_of m outs c main_arg7 (by decide)).trans (Karg7_51 m outs c)
theorem Karg7_53 : V53 m outs c main_arg7 = m ((c : Thread nD τ).loc main_arg7) :=
  (V53_of m outs c main_arg7 (by decide)).trans (Karg7_52 m outs c)
theorem Karg7_54 : V54 m outs c main_arg7 = m ((c : Thread nD τ).loc main_arg7) :=
  (V54_of m outs c main_arg7 (by decide)).trans (Karg7_53 m outs c)
theorem Karg7_55 : V55 m outs c main_arg7 = m ((c : Thread nD τ).loc main_arg7) :=
  (V55_of m outs c main_arg7 (by decide)).trans (Karg7_54 m outs c)
theorem Karg7_56 : V56 m outs c main_arg7 = m ((c : Thread nD τ).loc main_arg7) :=
  (V56_of m outs c main_arg7 (by decide)).trans (Karg7_55 m outs c)
theorem Karg7_57 : V57 m outs c main_arg7 = m ((c : Thread nD τ).loc main_arg7) :=
  (V57_of m outs c main_arg7 (by decide)).trans (Karg7_56 m outs c)
theorem Karg7_58 : V58 m outs c main_arg7 = m ((c : Thread nD τ).loc main_arg7) :=
  (V58_of m outs c main_arg7 (by decide)).trans (Karg7_57 m outs c)
theorem Karg7_59 : V59 m outs c main_arg7 = m ((c : Thread nD τ).loc main_arg7) :=
  (V59_of m outs c main_arg7 (by decide)).trans (Karg7_58 m outs c)
theorem Karg7_60 : V60 m outs c main_arg7 = m ((c : Thread nD τ).loc main_arg7) :=
  (V60_of m outs c main_arg7 (by decide)).trans (Karg7_59 m outs c)
theorem Karg7_61 : V61 m outs c main_arg7 = m ((c : Thread nD τ).loc main_arg7) :=
  (V61_of m outs c main_arg7 (by decide)).trans (Karg7_60 m outs c)
theorem Karg7_62 : V62 m outs c main_arg7 = m ((c : Thread nD τ).loc main_arg7) :=
  (V62_of m outs c main_arg7 (by decide)).trans (Karg7_61 m outs c)
theorem Karg7_63 : V63 m outs c main_arg7 = m ((c : Thread nD τ).loc main_arg7) :=
  (V63_of m outs c main_arg7 (by decide)).trans (Karg7_62 m outs c)
theorem Karg7_64 : V64 m outs c main_arg7 = m ((c : Thread nD τ).loc main_arg7) :=
  (V64_of m outs c main_arg7 (by decide)).trans (Karg7_63 m outs c)
theorem Karg7_65 : V65 m outs c main_arg7 = m ((c : Thread nD τ).loc main_arg7) :=
  (V65_of m outs c main_arg7 (by decide)).trans (Karg7_64 m outs c)
theorem Karg7_66 : V66 m outs c main_arg7 = m ((c : Thread nD τ).loc main_arg7) :=
  (V66_of m outs c main_arg7 (by decide)).trans (Karg7_65 m outs c)
theorem Karg7_67 : V67 m outs c main_arg7 = m ((c : Thread nD τ).loc main_arg7) :=
  (V67_of m outs c main_arg7 (by decide)).trans (Karg7_66 m outs c)
theorem Karg7_68 : V68 m outs c main_arg7 = m ((c : Thread nD τ).loc main_arg7) :=
  (V68_of m outs c main_arg7 (by decide)).trans (Karg7_67 m outs c)
theorem Karg7_69 : V69 m outs c main_arg7 = m ((c : Thread nD τ).loc main_arg7) :=
  (V69_of m outs c main_arg7 (by decide)).trans (Karg7_68 m outs c)
theorem Karg7_70 : V70 m outs c main_arg7 = m ((c : Thread nD τ).loc main_arg7) :=
  (V70_of m outs c main_arg7 (by decide)).trans (Karg7_69 m outs c)
theorem Karg7_71 : V71 m outs c main_arg7 = m ((c : Thread nD τ).loc main_arg7) :=
  (V71_of m outs c main_arg7 (by decide)).trans (Karg7_70 m outs c)
theorem Karg7_72 : V72 m outs c main_arg7 = m ((c : Thread nD τ).loc main_arg7) :=
  (V72_of m outs c main_arg7 (by decide)).trans (Karg7_71 m outs c)
theorem Karg7_73 : V73 m outs c main_arg7 = m ((c : Thread nD τ).loc main_arg7) :=
  (V73_of m outs c main_arg7 (by decide)).trans (Karg7_72 m outs c)
theorem Karg7_74 : V74 m outs c main_arg7 = m ((c : Thread nD τ).loc main_arg7) :=
  (V74_of m outs c main_arg7 (by decide)).trans (Karg7_73 m outs c)
theorem Karg7_75 : V75 m outs c main_arg7 = m ((c : Thread nD τ).loc main_arg7) :=
  (V75_of m outs c main_arg7 (by decide)).trans (Karg7_74 m outs c)
theorem Karg7_76 : V76 m outs c main_arg7 = m ((c : Thread nD τ).loc main_arg7) :=
  (V76_of m outs c main_arg7 (by decide)).trans (Karg7_75 m outs c)
theorem Karg7_77 : V77 m outs c main_arg7 = m ((c : Thread nD τ).loc main_arg7) :=
  (V77_of m outs c main_arg7 (by decide)).trans (Karg7_76 m outs c)
theorem Karg7_78 : V78 m outs c main_arg7 = m ((c : Thread nD τ).loc main_arg7) :=
  (V78_of m outs c main_arg7 (by decide)).trans (Karg7_77 m outs c)
theorem Karg7_79 : V79 m outs c main_arg7 = m ((c : Thread nD τ).loc main_arg7) :=
  (V79_of m outs c main_arg7 (by decide)).trans (Karg7_78 m outs c)
theorem Karg7_80 : V80 m outs c main_arg7 = m ((c : Thread nD τ).loc main_arg7) :=
  (V80_of m outs c main_arg7 (by decide)).trans (Karg7_79 m outs c)
theorem Karg7_81 : V81 m outs c main_arg7 = m ((c : Thread nD τ).loc main_arg7) :=
  (V81_of m outs c main_arg7 (by decide)).trans (Karg7_80 m outs c)
/-! ### main_arg8 -/
theorem Karg8_0 : V0 m c main_arg8 = m ((c : Thread nD τ).loc main_arg8) := rfl
theorem Karg8_1 : V1 m c main_arg8 = m ((c : Thread nD τ).loc main_arg8) :=
  (V1_of m c main_arg8 (by decide)).trans (Karg8_0 m c)
theorem Karg8_2 : V2 m outs c main_arg8 = m ((c : Thread nD τ).loc main_arg8) :=
  (V2_of m outs c main_arg8 (by decide)).trans (Karg8_1 m c)
theorem Karg8_3 : V3 m outs c main_arg8 = m ((c : Thread nD τ).loc main_arg8) :=
  (V3_of m outs c main_arg8 (by decide)).trans (Karg8_2 m outs c)
theorem Karg8_4 : V4 m outs c main_arg8 = m ((c : Thread nD τ).loc main_arg8) :=
  (V4_of m outs c main_arg8 (by decide)).trans (Karg8_3 m outs c)
theorem Karg8_5 : V5 m outs c main_arg8 = m ((c : Thread nD τ).loc main_arg8) :=
  (V5_of m outs c main_arg8 (by decide)).trans (Karg8_4 m outs c)
theorem Karg8_6 : V6 m outs c main_arg8 = m ((c : Thread nD τ).loc main_arg8) :=
  (V6_of m outs c main_arg8 (by decide)).trans (Karg8_5 m outs c)
theorem Karg8_7 : V7 m outs c main_arg8 = m ((c : Thread nD τ).loc main_arg8) :=
  (V7_of m outs c main_arg8 (by decide)).trans (Karg8_6 m outs c)
theorem Karg8_8 : V8 m outs c main_arg8 = m ((c : Thread nD τ).loc main_arg8) :=
  (V8_of m outs c main_arg8 (by decide)).trans (Karg8_7 m outs c)
theorem Karg8_9 : V9 m outs c main_arg8 = m ((c : Thread nD τ).loc main_arg8) :=
  (V9_of m outs c main_arg8 (by decide)).trans (Karg8_8 m outs c)
theorem Karg8_10 : V10 m outs c main_arg8 = m ((c : Thread nD τ).loc main_arg8) :=
  (V10_of m outs c main_arg8 (by decide)).trans (Karg8_9 m outs c)
theorem Karg8_11 : V11 m outs c main_arg8 = m ((c : Thread nD τ).loc main_arg8) :=
  (V11_of m outs c main_arg8 (by decide)).trans (Karg8_10 m outs c)
theorem Karg8_12 : V12 m outs c main_arg8 = m ((c : Thread nD τ).loc main_arg8) :=
  (V12_of m outs c main_arg8 (by decide)).trans (Karg8_11 m outs c)
theorem Karg8_13 : V13 m outs c main_arg8 = m ((c : Thread nD τ).loc main_arg8) :=
  (V13_of m outs c main_arg8 (by decide)).trans (Karg8_12 m outs c)
theorem Karg8_14 : V14 m outs c main_arg8 = m ((c : Thread nD τ).loc main_arg8) :=
  (V14_of m outs c main_arg8 (by decide)).trans (Karg8_13 m outs c)
theorem Karg8_15 : V15 m outs c main_arg8 = m ((c : Thread nD τ).loc main_arg8) :=
  (V15_of m outs c main_arg8 (by decide)).trans (Karg8_14 m outs c)
theorem Karg8_16 : V16 m outs c main_arg8 = m ((c : Thread nD τ).loc main_arg8) :=
  (V16_of m outs c main_arg8 (by decide)).trans (Karg8_15 m outs c)
theorem Karg8_17 : V17 m outs c main_arg8 = m ((c : Thread nD τ).loc main_arg8) :=
  (V17_of m outs c main_arg8 (by decide)).trans (Karg8_16 m outs c)
theorem Karg8_18 : V18 m outs c main_arg8 = m ((c : Thread nD τ).loc main_arg8) :=
  (V18_of m outs c main_arg8 (by decide)).trans (Karg8_17 m outs c)
theorem Karg8_19 : V19 m outs c main_arg8 = m ((c : Thread nD τ).loc main_arg8) :=
  (V19_of m outs c main_arg8 (by decide)).trans (Karg8_18 m outs c)
theorem Karg8_20 : V20 m outs c main_arg8 = m ((c : Thread nD τ).loc main_arg8) :=
  (V20_of m outs c main_arg8 (by decide)).trans (Karg8_19 m outs c)
theorem Karg8_21 : V21 m outs c main_arg8 = m ((c : Thread nD τ).loc main_arg8) :=
  (V21_of m outs c main_arg8 (by decide)).trans (Karg8_20 m outs c)
theorem Karg8_22 : V22 m outs c main_arg8 = m ((c : Thread nD τ).loc main_arg8) :=
  (V22_of m outs c main_arg8 (by decide)).trans (Karg8_21 m outs c)
theorem Karg8_23 : V23 m outs c main_arg8 = m ((c : Thread nD τ).loc main_arg8) :=
  (V23_of m outs c main_arg8 (by decide)).trans (Karg8_22 m outs c)
theorem Karg8_24 : V24 m outs c main_arg8 = m ((c : Thread nD τ).loc main_arg8) :=
  (V24_of m outs c main_arg8 (by decide)).trans (Karg8_23 m outs c)
theorem Karg8_25 : V25 m outs c main_arg8 = m ((c : Thread nD τ).loc main_arg8) :=
  (V25_of m outs c main_arg8 (by decide)).trans (Karg8_24 m outs c)
theorem Karg8_26 : V26 m outs c main_arg8 = m ((c : Thread nD τ).loc main_arg8) :=
  (V26_of m outs c main_arg8 (by decide)).trans (Karg8_25 m outs c)
theorem Karg8_27 : V27 m outs c main_arg8 = m ((c : Thread nD τ).loc main_arg8) :=
  (V27_of m outs c main_arg8 (by decide)).trans (Karg8_26 m outs c)
theorem Karg8_28 : V28 m outs c main_arg8 = m ((c : Thread nD τ).loc main_arg8) :=
  (V28_of m outs c main_arg8 (by decide)).trans (Karg8_27 m outs c)
theorem Karg8_29 : V29 m outs c main_arg8 = m ((c : Thread nD τ).loc main_arg8) :=
  (V29_of m outs c main_arg8 (by decide)).trans (Karg8_28 m outs c)
theorem Karg8_30 : V30 m outs c main_arg8 = m ((c : Thread nD τ).loc main_arg8) :=
  (V30_of m outs c main_arg8 (by decide)).trans (Karg8_29 m outs c)
theorem Karg8_31 : V31 m outs c main_arg8 = m ((c : Thread nD τ).loc main_arg8) :=
  (V31_of m outs c main_arg8 (by decide)).trans (Karg8_30 m outs c)
theorem Karg8_32 : V32 m outs c main_arg8 = m ((c : Thread nD τ).loc main_arg8) :=
  (V32_of m outs c main_arg8 (by decide)).trans (Karg8_31 m outs c)
theorem Karg8_33 : V33 m outs c main_arg8 = m ((c : Thread nD τ).loc main_arg8) :=
  (V33_of m outs c main_arg8 (by decide)).trans (Karg8_32 m outs c)
theorem Karg8_34 : V34 m outs c main_arg8 = m ((c : Thread nD τ).loc main_arg8) :=
  (V34_of m outs c main_arg8 (by decide)).trans (Karg8_33 m outs c)
theorem Karg8_35 : V35 m outs c main_arg8 = m ((c : Thread nD τ).loc main_arg8) :=
  (V35_of m outs c main_arg8 (by decide)).trans (Karg8_34 m outs c)
theorem Karg8_36 : V36 m outs c main_arg8 = m ((c : Thread nD τ).loc main_arg8) :=
  (V36_of m outs c main_arg8 (by decide)).trans (Karg8_35 m outs c)
theorem Karg8_37 : V37 m outs c main_arg8 = m ((c : Thread nD τ).loc main_arg8) :=
  (V37_of m outs c main_arg8 (by decide)).trans (Karg8_36 m outs c)
theorem Karg8_38 : V38 m outs c main_arg8 = m ((c : Thread nD τ).loc main_arg8) :=
  (V38_of m outs c main_arg8 (by decide)).trans (Karg8_37 m outs c)
theorem Karg8_39 : V39 m outs c main_arg8 = m ((c : Thread nD τ).loc main_arg8) :=
  (V39_of m outs c main_arg8 (by decide)).trans (Karg8_38 m outs c)
theorem Karg8_40 : V40 m outs c main_arg8 = m ((c : Thread nD τ).loc main_arg8) :=
  (V40_of m outs c main_arg8 (by decide)).trans (Karg8_39 m outs c)
theorem Karg8_41 : V41 m outs c main_arg8 = m ((c : Thread nD τ).loc main_arg8) :=
  (V41_of m outs c main_arg8 (by decide)).trans (Karg8_40 m outs c)
theorem Karg8_42 : V42 m outs c main_arg8 = m ((c : Thread nD τ).loc main_arg8) :=
  (V42_of m outs c main_arg8 (by decide)).trans (Karg8_41 m outs c)
theorem Karg8_43 : V43 m outs c main_arg8 = m ((c : Thread nD τ).loc main_arg8) :=
  (V43_of m outs c main_arg8 (by decide)).trans (Karg8_42 m outs c)
theorem Karg8_44 : V44 m outs c main_arg8 = m ((c : Thread nD τ).loc main_arg8) :=
  (V44_of m outs c main_arg8 (by decide)).trans (Karg8_43 m outs c)
theorem Karg8_45 : V45 m outs c main_arg8 = m ((c : Thread nD τ).loc main_arg8) :=
  (V45_of m outs c main_arg8 (by decide)).trans (Karg8_44 m outs c)
theorem Karg8_46 : V46 m outs c main_arg8 = m ((c : Thread nD τ).loc main_arg8) :=
  (V46_of m outs c main_arg8 (by decide)).trans (Karg8_45 m outs c)
theorem Karg8_47 : V47 m outs c main_arg8 = m ((c : Thread nD τ).loc main_arg8) :=
  (V47_of m outs c main_arg8 (by decide)).trans (Karg8_46 m outs c)
theorem Karg8_48 : V48 m outs c main_arg8 = m ((c : Thread nD τ).loc main_arg8) :=
  (V48_of m outs c main_arg8 (by decide)).trans (Karg8_47 m outs c)
theorem Karg8_49 : V49 m outs c main_arg8 = m ((c : Thread nD τ).loc main_arg8) :=
  (V49_of m outs c main_arg8 (by decide)).trans (Karg8_48 m outs c)
theorem Karg8_50 : V50 m outs c main_arg8 = m ((c : Thread nD τ).loc main_arg8) :=
  (V50_of m outs c main_arg8 (by decide)).trans (Karg8_49 m outs c)
theorem Karg8_51 : V51 m outs c main_arg8 = m ((c : Thread nD τ).loc main_arg8) :=
  (V51_of m outs c main_arg8 (by decide)).trans (Karg8_50 m outs c)
theorem Karg8_52 : V52 m outs c main_arg8 = m ((c : Thread nD τ).loc main_arg8) :=
  (V52_of m outs c main_arg8 (by decide)).trans (Karg8_51 m outs c)
theorem Karg8_53 : V53 m outs c main_arg8 = m ((c : Thread nD τ).loc main_arg8) :=
  (V53_of m outs c main_arg8 (by decide)).trans (Karg8_52 m outs c)
theorem Karg8_54 : V54 m outs c main_arg8 = m ((c : Thread nD τ).loc main_arg8) :=
  (V54_of m outs c main_arg8 (by decide)).trans (Karg8_53 m outs c)
theorem Karg8_55 : V55 m outs c main_arg8 = m ((c : Thread nD τ).loc main_arg8) :=
  (V55_of m outs c main_arg8 (by decide)).trans (Karg8_54 m outs c)
theorem Karg8_56 : V56 m outs c main_arg8 = m ((c : Thread nD τ).loc main_arg8) :=
  (V56_of m outs c main_arg8 (by decide)).trans (Karg8_55 m outs c)
theorem Karg8_57 : V57 m outs c main_arg8 = m ((c : Thread nD τ).loc main_arg8) :=
  (V57_of m outs c main_arg8 (by decide)).trans (Karg8_56 m outs c)
theorem Karg8_58 : V58 m outs c main_arg8 = m ((c : Thread nD τ).loc main_arg8) :=
  (V58_of m outs c main_arg8 (by decide)).trans (Karg8_57 m outs c)
theorem Karg8_59 : V59 m outs c main_arg8 = m ((c : Thread nD τ).loc main_arg8) :=
  (V59_of m outs c main_arg8 (by decide)).trans (Karg8_58 m outs c)
theorem Karg8_60 : V60 m outs c main_arg8 = m ((c : Thread nD τ).loc main_arg8) :=
  (V60_of m outs c main_arg8 (by decide)).trans (Karg8_59 m outs c)
theorem Karg8_61 : V61 m outs c main_arg8 = m ((c : Thread nD τ).loc main_arg8) :=
  (V61_of m outs c main_arg8 (by decide)).trans (Karg8_60 m outs c)
theorem Karg8_62 : V62 m outs c main_arg8 = m ((c : Thread nD τ).loc main_arg8) :=
  (V62_of m outs c main_arg8 (by decide)).trans (Karg8_61 m outs c)
theorem Karg8_63 : V63 m outs c main_arg8 = m ((c : Thread nD τ).loc main_arg8) :=
  (V63_of m outs c main_arg8 (by decide)).trans (Karg8_62 m outs c)
theorem Karg8_64 : V64 m outs c main_arg8 = m ((c : Thread nD τ).loc main_arg8) :=
  (V64_of m outs c main_arg8 (by decide)).trans (Karg8_63 m outs c)
theorem Karg8_65 : V65 m outs c main_arg8 = m ((c : Thread nD τ).loc main_arg8) :=
  (V65_of m outs c main_arg8 (by decide)).trans (Karg8_64 m outs c)
theorem Karg8_66 : V66 m outs c main_arg8 = m ((c : Thread nD τ).loc main_arg8) :=
  (V66_of m outs c main_arg8 (by decide)).trans (Karg8_65 m outs c)
theorem Karg8_67 : V67 m outs c main_arg8 = m ((c : Thread nD τ).loc main_arg8) :=
  (V67_of m outs c main_arg8 (by decide)).trans (Karg8_66 m outs c)
theorem Karg8_68 : V68 m outs c main_arg8 = m ((c : Thread nD τ).loc main_arg8) :=
  (V68_of m outs c main_arg8 (by decide)).trans (Karg8_67 m outs c)
theorem Karg8_69 : V69 m outs c main_arg8 = m ((c : Thread nD τ).loc main_arg8) :=
  (V69_of m outs c main_arg8 (by decide)).trans (Karg8_68 m outs c)
theorem Karg8_70 : V70 m outs c main_arg8 = m ((c : Thread nD τ).loc main_arg8) :=
  (V70_of m outs c main_arg8 (by decide)).trans (Karg8_69 m outs c)
theorem Karg8_71 : V71 m outs c main_arg8 = m ((c : Thread nD τ).loc main_arg8) :=
  (V71_of m outs c main_arg8 (by decide)).trans (Karg8_70 m outs c)
theorem Karg8_72 : V72 m outs c main_arg8 = m ((c : Thread nD τ).loc main_arg8) :=
  (V72_of m outs c main_arg8 (by decide)).trans (Karg8_71 m outs c)
theorem Karg8_73 : V73 m outs c main_arg8 = m ((c : Thread nD τ).loc main_arg8) :=
  (V73_of m outs c main_arg8 (by decide)).trans (Karg8_72 m outs c)
theorem Karg8_74 : V74 m outs c main_arg8 = m ((c : Thread nD τ).loc main_arg8) :=
  (V74_of m outs c main_arg8 (by decide)).trans (Karg8_73 m outs c)
theorem Karg8_75 : V75 m outs c main_arg8 = m ((c : Thread nD τ).loc main_arg8) :=
  (V75_of m outs c main_arg8 (by decide)).trans (Karg8_74 m outs c)
theorem Karg8_76 : V76 m outs c main_arg8 = m ((c : Thread nD τ).loc main_arg8) :=
  (V76_of m outs c main_arg8 (by decide)).trans (Karg8_75 m outs c)
theorem Karg8_77 : V77 m outs c main_arg8 = m ((c : Thread nD τ).loc main_arg8) :=
  (V77_of m outs c main_arg8 (by decide)).trans (Karg8_76 m outs c)
theorem Karg8_78 : V78 m outs c main_arg8 = m ((c : Thread nD τ).loc main_arg8) :=
  (V78_of m outs c main_arg8 (by decide)).trans (Karg8_77 m outs c)
theorem Karg8_79 : V79 m outs c main_arg8 = m ((c : Thread nD τ).loc main_arg8) :=
  (V79_of m outs c main_arg8 (by decide)).trans (Karg8_78 m outs c)
theorem Karg8_80 : V80 m outs c main_arg8 = m ((c : Thread nD τ).loc main_arg8) :=
  (V80_of m outs c main_arg8 (by decide)).trans (Karg8_79 m outs c)
theorem Karg8_81 : V81 m outs c main_arg8 = m ((c : Thread nD τ).loc main_arg8) :=
  (V81_of m outs c main_arg8 (by decide)).trans (Karg8_80 m outs c)
/-! ### main_arg9 -/
theorem Karg9_0 : V0 m c main_arg9 = m ((c : Thread nD τ).loc main_arg9) := rfl
theorem Karg9_1 : V1 m c main_arg9 = m ((c : Thread nD τ).loc main_arg9) :=
  (V1_of m c main_arg9 (by decide)).trans (Karg9_0 m c)
theorem Karg9_2 : V2 m outs c main_arg9 = m ((c : Thread nD τ).loc main_arg9) :=
  (V2_of m outs c main_arg9 (by decide)).trans (Karg9_1 m c)
theorem Karg9_3 : V3 m outs c main_arg9 = m ((c : Thread nD τ).loc main_arg9) :=
  (V3_of m outs c main_arg9 (by decide)).trans (Karg9_2 m outs c)
theorem Karg9_4 : V4 m outs c main_arg9 = m ((c : Thread nD τ).loc main_arg9) :=
  (V4_of m outs c main_arg9 (by decide)).trans (Karg9_3 m outs c)
theorem Karg9_5 : V5 m outs c main_arg9 = m ((c : Thread nD τ).loc main_arg9) :=
  (V5_of m outs c main_arg9 (by decide)).trans (Karg9_4 m outs c)
theorem Karg9_6 : V6 m outs c main_arg9 = m ((c : Thread nD τ).loc main_arg9) :=
  (V6_of m outs c main_arg9 (by decide)).trans (Karg9_5 m outs c)
theorem Karg9_7 : V7 m outs c main_arg9 = m ((c : Thread nD τ).loc main_arg9) :=
  (V7_of m outs c main_arg9 (by decide)).trans (Karg9_6 m outs c)
theorem Karg9_8 : V8 m outs c main_arg9 = m ((c : Thread nD τ).loc main_arg9) :=
  (V8_of m outs c main_arg9 (by decide)).trans (Karg9_7 m outs c)
theorem Karg9_9 : V9 m outs c main_arg9 = m ((c : Thread nD τ).loc main_arg9) :=
  (V9_of m outs c main_arg9 (by decide)).trans (Karg9_8 m outs c)
theorem Karg9_10 : V10 m outs c main_arg9 = m ((c : Thread nD τ).loc main_arg9) :=
  (V10_of m outs c main_arg9 (by decide)).trans (Karg9_9 m outs c)
theorem Karg9_11 : V11 m outs c main_arg9 = m ((c : Thread nD τ).loc main_arg9) :=
  (V11_of m outs c main_arg9 (by decide)).trans (Karg9_10 m outs c)
theorem Karg9_12 : V12 m outs c main_arg9 = m ((c : Thread nD τ).loc main_arg9) :=
  (V12_of m outs c main_arg9 (by decide)).trans (Karg9_11 m outs c)
theorem Karg9_13 : V13 m outs c main_arg9 = m ((c : Thread nD τ).loc main_arg9) :=
  (V13_of m outs c main_arg9 (by decide)).trans (Karg9_12 m outs c)
theorem Karg9_14 : V14 m outs c main_arg9 = m ((c : Thread nD τ).loc main_arg9) :=
  (V14_of m outs c main_arg9 (by decide)).trans (Karg9_13 m outs c)
theorem Karg9_15 : V15 m outs c main_arg9 = m ((c : Thread nD τ).loc main_arg9) :=
  (V15_of m outs c main_arg9 (by decide)).trans (Karg9_14 m outs c)
theorem Karg9_16 : V16 m outs c main_arg9 = m ((c : Thread nD τ).loc main_arg9) :=
  (V16_of m outs c main_arg9 (by decide)).trans (Karg9_15 m outs c)
theorem Karg9_17 : V17 m outs c main_arg9 = m ((c : Thread nD τ).loc main_arg9) :=
  (V17_of m outs c main_arg9 (by decide)).trans (Karg9_16 m outs c)
theorem Karg9_18 : V18 m outs c main_arg9 = m ((c : Thread nD τ).loc main_arg9) :=
  (V18_of m outs c main_arg9 (by decide)).trans (Karg9_17 m outs c)
theorem Karg9_19 : V19 m outs c main_arg9 = m ((c : Thread nD τ).loc main_arg9) :=
  (V19_of m outs c main_arg9 (by decide)).trans (Karg9_18 m outs c)
theorem Karg9_20 : V20 m outs c main_arg9 = m ((c : Thread nD τ).loc main_arg9) :=
  (V20_of m outs c main_arg9 (by decide)).trans (Karg9_19 m outs c)
theorem Karg9_21 : V21 m outs c main_arg9 = m ((c : Thread nD τ).loc main_arg9) :=
  (V21_of m outs c main_arg9 (by decide)).trans (Karg9_20 m outs c)
theorem Karg9_22 : V22 m outs c main_arg9 = m ((c : Thread nD τ).loc main_arg9) :=
  (V22_of m outs c main_arg9 (by decide)).trans (Karg9_21 m outs c)
theorem Karg9_23 : V23 m outs c main_arg9 = m ((c : Thread nD τ).loc main_arg9) :=
  (V23_of m outs c main_arg9 (by decide)).trans (Karg9_22 m outs c)
theorem Karg9_24 : V24 m outs c main_arg9 = m ((c : Thread nD τ).loc main_arg9) :=
  (V24_of m outs c main_arg9 (by decide)).trans (Karg9_23 m outs c)
theorem Karg9_25 : V25 m outs c main_arg9 = m ((c : Thread nD τ).loc main_arg9) :=
  (V25_of m outs c main_arg9 (by decide)).trans (Karg9_24 m outs c)
theorem Karg9_26 : V26 m outs c main_arg9 = m ((c : Thread nD τ).loc main_arg9) :=
  (V26_of m outs c main_arg9 (by decide)).trans (Karg9_25 m outs c)
theorem Karg9_27 : V27 m outs c main_arg9 = m ((c : Thread nD τ).loc main_arg9) :=
  (V27_of m outs c main_arg9 (by decide)).trans (Karg9_26 m outs c)
theorem Karg9_28 : V28 m outs c main_arg9 = m ((c : Thread nD τ).loc main_arg9) :=
  (V28_of m outs c main_arg9 (by decide)).trans (Karg9_27 m outs c)
theorem Karg9_29 : V29 m outs c main_arg9 = m ((c : Thread nD τ).loc main_arg9) :=
  (V29_of m outs c main_arg9 (by decide)).trans (Karg9_28 m outs c)
theorem Karg9_30 : V30 m outs c main_arg9 = m ((c : Thread nD τ).loc main_arg9) :=
  (V30_of m outs c main_arg9 (by decide)).trans (Karg9_29 m outs c)
theorem Karg9_31 : V31 m outs c main_arg9 = m ((c : Thread nD τ).loc main_arg9) :=
  (V31_of m outs c main_arg9 (by decide)).trans (Karg9_30 m outs c)
theorem Karg9_32 : V32 m outs c main_arg9 = m ((c : Thread nD τ).loc main_arg9) :=
  (V32_of m outs c main_arg9 (by decide)).trans (Karg9_31 m outs c)
theorem Karg9_33 : V33 m outs c main_arg9 = m ((c : Thread nD τ).loc main_arg9) :=
  (V33_of m outs c main_arg9 (by decide)).trans (Karg9_32 m outs c)
theorem Karg9_34 : V34 m outs c main_arg9 = m ((c : Thread nD τ).loc main_arg9) :=
  (V34_of m outs c main_arg9 (by decide)).trans (Karg9_33 m outs c)
theorem Karg9_35 : V35 m outs c main_arg9 = m ((c : Thread nD τ).loc main_arg9) :=
  (V35_of m outs c main_arg9 (by decide)).trans (Karg9_34 m outs c)
theorem Karg9_36 : V36 m outs c main_arg9 = m ((c : Thread nD τ).loc main_arg9) :=
  (V36_of m outs c main_arg9 (by decide)).trans (Karg9_35 m outs c)
theorem Karg9_37 : V37 m outs c main_arg9 = m ((c : Thread nD τ).loc main_arg9) :=
  (V37_of m outs c main_arg9 (by decide)).trans (Karg9_36 m outs c)
theorem Karg9_38 : V38 m outs c main_arg9 = m ((c : Thread nD τ).loc main_arg9) :=
  (V38_of m outs c main_arg9 (by decide)).trans (Karg9_37 m outs c)
theorem Karg9_39 : V39 m outs c main_arg9 = m ((c : Thread nD τ).loc main_arg9) :=
  (V39_of m outs c main_arg9 (by decide)).trans (Karg9_38 m outs c)
theorem Karg9_40 : V40 m outs c main_arg9 = m ((c : Thread nD τ).loc main_arg9) :=
  (V40_of m outs c main_arg9 (by decide)).trans (Karg9_39 m outs c)
theorem Karg9_41 : V41 m outs c main_arg9 = m ((c : Thread nD τ).loc main_arg9) :=
  (V41_of m outs c main_arg9 (by decide)).trans (Karg9_40 m outs c)
theorem Karg9_42 : V42 m outs c main_arg9 = m ((c : Thread nD τ).loc main_arg9) :=
  (V42_of m outs c main_arg9 (by decide)).trans (Karg9_41 m outs c)
theorem Karg9_43 : V43 m outs c main_arg9 = m ((c : Thread nD τ).loc main_arg9) :=
  (V43_of m outs c main_arg9 (by decide)).trans (Karg9_42 m outs c)
theorem Karg9_44 : V44 m outs c main_arg9 = m ((c : Thread nD τ).loc main_arg9) :=
  (V44_of m outs c main_arg9 (by decide)).trans (Karg9_43 m outs c)
theorem Karg9_45 : V45 m outs c main_arg9 = m ((c : Thread nD τ).loc main_arg9) :=
  (V45_of m outs c main_arg9 (by decide)).trans (Karg9_44 m outs c)
theorem Karg9_46 : V46 m outs c main_arg9 = m ((c : Thread nD τ).loc main_arg9) :=
  (V46_of m outs c main_arg9 (by decide)).trans (Karg9_45 m outs c)
theorem Karg9_47 : V47 m outs c main_arg9 = m ((c : Thread nD τ).loc main_arg9) :=
  (V47_of m outs c main_arg9 (by decide)).trans (Karg9_46 m outs c)
theorem Karg9_48 : V48 m outs c main_arg9 = m ((c : Thread nD τ).loc main_arg9) :=
  (V48_of m outs c main_arg9 (by decide)).trans (Karg9_47 m outs c)
theorem Karg9_49 : V49 m outs c main_arg9 = m ((c : Thread nD τ).loc main_arg9) :=
  (V49_of m outs c main_arg9 (by decide)).trans (Karg9_48 m outs c)
theorem Karg9_50 : V50 m outs c main_arg9 = m ((c : Thread nD τ).loc main_arg9) :=
  (V50_of m outs c main_arg9 (by decide)).trans (Karg9_49 m outs c)
theorem Karg9_51 : V51 m outs c main_arg9 = m ((c : Thread nD τ).loc main_arg9) :=
  (V51_of m outs c main_arg9 (by decide)).trans (Karg9_50 m outs c)
theorem Karg9_52 : V52 m outs c main_arg9 = m ((c : Thread nD τ).loc main_arg9) :=
  (V52_of m outs c main_arg9 (by decide)).trans (Karg9_51 m outs c)
theorem Karg9_53 : V53 m outs c main_arg9 = m ((c : Thread nD τ).loc main_arg9) :=
  (V53_of m outs c main_arg9 (by decide)).trans (Karg9_52 m outs c)
theorem Karg9_54 : V54 m outs c main_arg9 = m ((c : Thread nD τ).loc main_arg9) :=
  (V54_of m outs c main_arg9 (by decide)).trans (Karg9_53 m outs c)
theorem Karg9_55 : V55 m outs c main_arg9 = m ((c : Thread nD τ).loc main_arg9) :=
  (V55_of m outs c main_arg9 (by decide)).trans (Karg9_54 m outs c)
theorem Karg9_56 : V56 m outs c main_arg9 = m ((c : Thread nD τ).loc main_arg9) :=
  (V56_of m outs c main_arg9 (by decide)).trans (Karg9_55 m outs c)
theorem Karg9_57 : V57 m outs c main_arg9 = m ((c : Thread nD τ).loc main_arg9) :=
  (V57_of m outs c main_arg9 (by decide)).trans (Karg9_56 m outs c)
theorem Karg9_58 : V58 m outs c main_arg9 = m ((c : Thread nD τ).loc main_arg9) :=
  (V58_of m outs c main_arg9 (by decide)).trans (Karg9_57 m outs c)
theorem Karg9_59 : V59 m outs c main_arg9 = m ((c : Thread nD τ).loc main_arg9) :=
  (V59_of m outs c main_arg9 (by decide)).trans (Karg9_58 m outs c)
theorem Karg9_60 : V60 m outs c main_arg9 = m ((c : Thread nD τ).loc main_arg9) :=
  (V60_of m outs c main_arg9 (by decide)).trans (Karg9_59 m outs c)
theorem Karg9_61 : V61 m outs c main_arg9 = m ((c : Thread nD τ).loc main_arg9) :=
  (V61_of m outs c main_arg9 (by decide)).trans (Karg9_60 m outs c)
theorem Karg9_62 : V62 m outs c main_arg9 = m ((c : Thread nD τ).loc main_arg9) :=
  (V62_of m outs c main_arg9 (by decide)).trans (Karg9_61 m outs c)
theorem Karg9_63 : V63 m outs c main_arg9 = m ((c : Thread nD τ).loc main_arg9) :=
  (V63_of m outs c main_arg9 (by decide)).trans (Karg9_62 m outs c)
theorem Karg9_64 : V64 m outs c main_arg9 = m ((c : Thread nD τ).loc main_arg9) :=
  (V64_of m outs c main_arg9 (by decide)).trans (Karg9_63 m outs c)
theorem Karg9_65 : V65 m outs c main_arg9 = m ((c : Thread nD τ).loc main_arg9) :=
  (V65_of m outs c main_arg9 (by decide)).trans (Karg9_64 m outs c)
theorem Karg9_66 : V66 m outs c main_arg9 = m ((c : Thread nD τ).loc main_arg9) :=
  (V66_of m outs c main_arg9 (by decide)).trans (Karg9_65 m outs c)
theorem Karg9_67 : V67 m outs c main_arg9 = m ((c : Thread nD τ).loc main_arg9) :=
  (V67_of m outs c main_arg9 (by decide)).trans (Karg9_66 m outs c)
theorem Karg9_68 : V68 m outs c main_arg9 = m ((c : Thread nD τ).loc main_arg9) :=
  (V68_of m outs c main_arg9 (by decide)).trans (Karg9_67 m outs c)
theorem Karg9_69 : V69 m outs c main_arg9 = m ((c : Thread nD τ).loc main_arg9) :=
  (V69_of m outs c main_arg9 (by decide)).trans (Karg9_68 m outs c)
theorem Karg9_70 : V70 m outs c main_arg9 = m ((c : Thread nD τ).loc main_arg9) :=
  (V70_of m outs c main_arg9 (by decide)).trans (Karg9_69 m outs c)
theorem Karg9_71 : V71 m outs c main_arg9 = m ((c : Thread nD τ).loc main_arg9) :=
  (V71_of m outs c main_arg9 (by decide)).trans (Karg9_70 m outs c)
theorem Karg9_72 : V72 m outs c main_arg9 = m ((c : Thread nD τ).loc main_arg9) :=
  (V72_of m outs c main_arg9 (by decide)).trans (Karg9_71 m outs c)
theorem Karg9_73 : V73 m outs c main_arg9 = m ((c : Thread nD τ).loc main_arg9) :=
  (V73_of m outs c main_arg9 (by decide)).trans (Karg9_72 m outs c)
theorem Karg9_74 : V74 m outs c main_arg9 = m ((c : Thread nD τ).loc main_arg9) :=
  (V74_of m outs c main_arg9 (by decide)).trans (Karg9_73 m outs c)
theorem Karg9_75 : V75 m outs c main_arg9 = m ((c : Thread nD τ).loc main_arg9) :=
  (V75_of m outs c main_arg9 (by decide)).trans (Karg9_74 m outs c)
theorem Karg9_76 : V76 m outs c main_arg9 = m ((c : Thread nD τ).loc main_arg9) :=
  (V76_of m outs c main_arg9 (by decide)).trans (Karg9_75 m outs c)
theorem Karg9_77 : V77 m outs c main_arg9 = m ((c : Thread nD τ).loc main_arg9) :=
  (V77_of m outs c main_arg9 (by decide)).trans (Karg9_76 m outs c)
theorem Karg9_78 : V78 m outs c main_arg9 = m ((c : Thread nD τ).loc main_arg9) :=
  (V78_of m outs c main_arg9 (by decide)).trans (Karg9_77 m outs c)
theorem Karg9_79 : V79 m outs c main_arg9 = m ((c : Thread nD τ).loc main_arg9) :=
  (V79_of m outs c main_arg9 (by decide)).trans (Karg9_78 m outs c)
theorem Karg9_80 : V80 m outs c main_arg9 = m ((c : Thread nD τ).loc main_arg9) :=
  (V80_of m outs c main_arg9 (by decide)).trans (Karg9_79 m outs c)
theorem Karg9_81 : V81 m outs c main_arg9 = m ((c : Thread nD τ).loc main_arg9) :=
  (V81_of m outs c main_arg9 (by decide)).trans (Karg9_80 m outs c)

end Cert.Bridge

end
-- ==== Proof.Bridge.ArgsKeptK2.lean ====
/- Arguments 10 to 19 of the kernel program hold their launch contents after every item of @main: no host operation
   writes an argument and no kernel region may change one.  One step per item, each from the step before. -/
import proofs.«411400_j9251359555630_1_alg».proof.Proof.KI.RegionsP

set_option maxRecDepth 8192

noncomputable section

namespace Cert.Bridge

open Idealize.ShloMosaic Idealize.ShloMosaic.TcCoe Idealize.SL.Sem
open Cert.KernelIdeal Cert.KernelIdeal.Gen

variable {F : FTy → Type} [FloatOps F]
variable (m : (ℓ : Loc nD τ sig) → Buf (Elt F) ℓ) (outs : Outs (F := F)) (c : Dev nD)

/-! ### main_arg10 -/
theorem Karg10_0 : V0 m c main_arg10 = m ((c : Thread nD τ).loc main_arg10) := rfl
theorem Karg10_1 : V1 m c main_arg10 = m ((c : Thread nD τ).loc main_arg10) :=
  (V1_of m c main_arg10 (by decide)).trans (Karg10_0 m c)
theorem Karg10_2 : V2 m outs c main_arg10 = m ((c : Thread nD τ).loc main_arg10) :=
  (V2_of m outs c main_arg10 (by decide)).trans (Karg10_1 m c)
theorem Karg10_3 : V3 m outs c main_arg10 = m ((c : Thread nD τ).loc main_arg10) :=
  (V3_of m outs c main_arg10 (by decide)).trans (Karg10_2 m outs c)
theorem Karg10_4 : V4 m outs c main_arg10 = m ((c : Thread nD τ).loc main_arg10) :=
  (V4_of m outs c main_arg10 (by decide)).trans (Karg10_3 m outs c)
theorem Karg10_5 : V5 m outs c main_arg10 = m ((c : Thread nD τ).loc main_arg10) :=
  (V5_of m outs c main_arg10 (by decide)).trans (Karg10_4 m outs c)
theorem Karg10_6 : V6 m outs c main_arg10 = m ((c : Thread nD τ).loc main_arg10) :=
  (V6_of m outs c main_arg10 (by decide)).trans (Karg10_5 m outs c)
theorem Karg10_7 : V7 m outs c main_arg10 = m ((c : Thread nD τ).loc main_arg10) :=
  (V7_of m outs c main_arg10 (by decide)).trans (Karg10_6 m outs c)
theorem Karg10_8 : V8 m outs c main_arg10 = m ((c : Thread nD τ).loc main_arg10) :=
  (V8_of m outs c main_arg10 (by decide)).trans (Karg10_7 m outs c)
theorem Karg10_9 : V9 m outs c main_arg10 = m ((c : Thread nD τ).loc main_arg10) :=
  (V9_of m outs c main_arg10 (by decide)).trans (Karg10_8 m outs c)
theorem Karg10_10 : V10 m outs c main_arg10 = m ((c : Thread nD τ).loc main_arg10) :=
  (V10_of m outs c main_arg10 (by decide)).trans (Karg10_9 m outs c)
theorem Karg10_11 : V11 m outs c main_arg10 = m ((c : Thread nD τ).loc main_arg10) :=
  (V11_of m outs c main_arg10 (by decide)).trans (Karg10_10 m outs c)
theorem Karg10_12 : V12 m outs c main_arg10 = m ((c : Thread nD τ).loc main_arg10) :=
  (V12_of m outs c main_arg10 (by decide)).trans (Karg10_11 m outs c)
theorem Karg10_13 : V13 m outs c main_arg10 = m ((c : Thread nD τ).loc main_arg10) :=
  (V13_of m outs c main_arg10 (by decide)).trans (Karg10_12 m outs c)
theorem Karg10_14 : V14 m outs c main_arg10 = m ((c : Thread nD τ).loc main_arg10) :=
  (V14_of m outs c main_arg10 (by decide)).trans (Karg10_13 m outs c)
theorem Karg10_15 : V15 m outs c main_arg10 = m ((c : Thread nD τ).loc main_arg10) :=
  (V15_of m outs c main_arg10 (by decide)).trans (Karg10_14 m outs c)
theorem Karg10_16 : V16 m outs c main_arg10 = m ((c : Thread nD τ).loc main_arg10) :=
  (V16_of m outs c main_arg10 (by decide)).trans (Karg10_15 m outs c)
theorem Karg10_17 : V17 m outs c main_arg10 = m ((c : Thread nD τ).loc main_arg10) :=
  (V17_of m outs c main_arg10 (by decide)).trans (Karg10_16 m outs c)
theorem Karg10_18 : V18 m outs c main_arg10 = m ((c : Thread nD τ).loc main_arg10) :=
  (V18_of m outs c main_arg10 (by decide)).trans (Karg10_17 m outs c)
theorem Karg10_19 : V19 m outs c main_arg10 = m ((c : Thread nD τ).loc main_arg10) :=
  (V19_of m outs c main_arg10 (by decide)).trans (Karg10_18 m outs c)
theorem Karg10_20 : V20 m outs c main_arg10 = m ((c : Thread nD τ).loc main_arg10) :=
  (V20_of m outs c main_arg10 (by decide)).trans (Karg10_19 m outs c)
theorem Karg10_21 : V21 m outs c main_arg10 = m ((c : Thread nD τ).loc main_arg10) :=
  (V21_of m outs c main_arg10 (by decide)).trans (Karg10_20 m outs c)
theorem Karg10_22 : V22 m outs c main_arg10 = m ((c : Thread nD τ).loc main_arg10) :=
  (V22_of m outs c main_arg10 (by decide)).trans (Karg10_21 m outs c)
theorem Karg10_23 : V23 m outs c main_arg10 = m ((c : Thread nD τ).loc main_arg10) :=
  (V23_of m outs c main_arg10 (by decide)).trans (Karg10_22 m outs c)
theorem Karg10_24 : V24 m outs c main_arg10 = m ((c : Thread nD τ).loc main_arg10) :=
  (V24_of m outs c main_arg10 (by decide)).trans (Karg10_23 m outs c)
theorem Karg10_25 : V25 m outs c main_arg10 = m ((c : Thread nD τ).loc main_arg10) :=
  (V25_of m outs c main_arg10 (by decide)).trans (Karg10_24 m outs c)
theorem Karg10_26 : V26 m outs c main_arg10 = m ((c : Thread nD τ).loc main_arg10) :=
  (V26_of m outs c main_arg10 (by decide)).trans (Karg10_25 m outs c)
theorem Karg10_27 : V27 m outs c main_arg10 = m ((c : Thread nD τ).loc main_arg10) :=
  (V27_of m outs c main_arg10 (by decide)).trans (Karg10_26 m outs c)
theorem Karg10_28 : V28 m outs c main_arg10 = m ((c : Thread nD τ).loc main_arg10) :=
  (V28_of m outs c main_arg10 (by decide)).trans (Karg10_27 m outs c)
theorem Karg10_29 : V29 m outs c main_arg10 = m ((c : Thread nD τ).loc main_arg10) :=
  (V29_of m outs c main_arg10 (by decide)).trans (Karg10_28 m outs c)
theorem Karg10_30 : V30 m outs c main_arg10 = m ((c : Thread nD τ).loc main_arg10) :=
  (V30_of m outs c main_arg10 (by decide)).trans (Karg10_29 m outs c)
theorem Karg10_31 : V31 m outs c main_arg10 = m ((c : Thread nD τ).loc main_arg10) :=
  (V31_of m outs c main_arg10 (by decide)).trans (Karg10_30 m outs c)
theorem Karg10_32 : V32 m outs c main_arg10 = m ((c : Thread nD τ).loc main_arg10) :=
  (V32_of m outs c main_arg10 (by decide)).trans (Karg10_31 m outs c)
theorem Karg10_33 : V33 m outs c main_arg10 = m ((c : Thread nD τ).loc main_arg10) :=
  (V33_of m outs c main_arg10 (by decide)).trans (Karg10_32 m outs c)
theorem Karg10_34 : V34 m outs c main_arg10 = m ((c : Thread nD τ).loc main_arg10) :=
  (V34_of m outs c main_arg10 (by decide)).trans (Karg10_33 m outs c)
theorem Karg10_35 : V35 m outs c main_arg10 = m ((c : Thread nD τ).loc main_arg10) :=
  (V35_of m outs c main_arg10 (by decide)).trans (Karg10_34 m outs c)
theorem Karg10_36 : V36 m outs c main_arg10 = m ((c : Thread nD τ).loc main_arg10) :=
  (V36_of m outs c main_arg10 (by decide)).trans (Karg10_35 m outs c)
theorem Karg10_37 : V37 m outs c main_arg10 = m ((c : Thread nD τ).loc main_arg10) :=
  (V37_of m outs c main_arg10 (by decide)).trans (Karg10_36 m outs c)
theorem Karg10_38 : V38 m outs c main_arg10 = m ((c : Thread nD τ).loc main_arg10) :=
  (V38_of m outs c main_arg10 (by decide)).trans (Karg10_37 m outs c)
theorem Karg10_39 : V39 m outs c main_arg10 = m ((c : Thread nD τ).loc main_arg10) :=
  (V39_of m outs c main_arg10 (by decide)).trans (Karg10_38 m outs c)
theorem Karg10_40 : V40 m outs c main_arg10 = m ((c : Thread nD τ).loc main_arg10) :=
  (V40_of m outs c main_arg10 (by decide)).trans (Karg10_39 m outs c)
theorem Karg10_41 : V41 m outs c main_arg10 = m ((c : Thread nD τ).loc main_arg10) :=
  (V41_of m outs c main_arg10 (by decide)).trans (Karg10_40 m outs c)
theorem Karg10_42 : V42 m outs c main_arg10 = m ((c : Thread nD τ).loc main_arg10) :=
  (V42_of m outs c main_arg10 (by decide)).trans (Karg10_41 m outs c)
theorem Karg10_43 : V43 m outs c main_arg10 = m ((c : Thread nD τ).loc main_arg10) :=
  (V43_of m outs c main_arg10 (by decide)).trans (Karg10_42 m outs c)
theorem Karg10_44 : V44 m outs c main_arg10 = m ((c : Thread nD τ).loc main_arg10) :=
  (V44_of m outs c main_arg10 (by decide)).trans (Karg10_43 m outs c)
theorem Karg10_45 : V45 m outs c main_arg10 = m ((c : Thread nD τ).loc main_arg10) :=
  (V45_of m outs c main_arg10 (by decide)).trans (Karg10_44 m outs c)
theorem Karg10_46 : V46 m outs c main_arg10 = m ((c : Thread nD τ).loc main_arg10) :=
  (V46_of m outs c main_arg10 (by decide)).trans (Karg10_45 m outs c)
theorem Karg10_47 : V47 m outs c main_arg10 = m ((c : Thread nD τ).loc main_arg10) :=
  (V47_of m outs c main_arg10 (by decide)).trans (Karg10_46 m outs c)
theorem Karg10_48 : V48 m outs c main_arg10 = m ((c : Thread nD τ).loc main_arg10) :=
  (V48_of m outs c main_arg10 (by decide)).trans (Karg10_47 m outs c)
theorem Karg10_49 : V49 m outs c main_arg10 = m ((c : Thread nD τ).loc main_arg10) :=
  (V49_of m outs c main_arg10 (by decide)).trans (Karg10_48 m outs c)
theorem Karg10_50 : V50 m outs c main_arg10 = m ((c : Thread nD τ).loc main_arg10) :=
  (V50_of m outs c main_arg10 (by decide)).trans (Karg10_49 m outs c)
theorem Karg10_51 : V51 m outs c main_arg10 = m ((c : Thread nD τ).loc main_arg10) :=
  (V51_of m outs c main_arg10 (by decide)).trans (Karg10_50 m outs c)
theorem Karg10_52 : V52 m outs c main_arg10 = m ((c : Thread nD τ).loc main_arg10) :=
  (V52_of m outs c main_arg10 (by decide)).trans (Karg10_51 m outs c)
theorem Karg10_53 : V53 m outs c main_arg10 = m ((c : Thread nD τ).loc main_arg10) :=
  (V53_of m outs c main_arg10 (by decide)).trans (Karg10_52 m outs c)
theorem Karg10_54 : V54 m outs c main_arg10 = m ((c : Thread nD τ).loc main_arg10) :=
  (V54_of m outs c main_arg10 (by decide)).trans (Karg10_53 m outs c)
theorem Karg10_55 : V55 m outs c main_arg10 = m ((c : Thread nD τ).loc main_arg10) :=
  (V55_of m outs c main_arg10 (by decide)).trans (Karg10_54 m outs c)
theorem Karg10_56 : V56 m outs c main_arg10 = m ((c : Thread nD τ).loc main_arg10) :=
  (V56_of m outs c main_arg10 (by decide)).trans (Karg10_55 m outs c)
theorem Karg10_57 : V57 m outs c main_arg10 = m ((c : Thread nD τ).loc main_arg10) :=
  (V57_of m outs c main_arg10 (by decide)).trans (Karg10_56 m outs c)
theorem Karg10_58 : V58 m outs c main_arg10 = m ((c : Thread nD τ).loc main_arg10) :=
  (V58_of m outs c main_arg10 (by decide)).trans (Karg10_57 m outs c)
theorem Karg10_59 : V59 m outs c main_arg10 = m ((c : Thread nD τ).loc main_arg10) :=
  (V59_of m outs c main_arg10 (by decide)).trans (Karg10_58 m outs c)
theorem Karg10_60 : V60 m outs c main_arg10 = m ((c : Thread nD τ).loc main_arg10) :=
  (V60_of m outs c main_arg10 (by decide)).trans (Karg10_59 m outs c)
theorem Karg10_61 : V61 m outs c main_arg10 = m ((c : Thread nD τ).loc main_arg10) :=
  (V61_of m outs c main_arg10 (by decide)).trans (Karg10_60 m outs c)
theorem Karg10_62 : V62 m outs c main_arg10 = m ((c : Thread nD τ).loc main_arg10) :=
  (V62_of m outs c main_arg10 (by decide)).trans (Karg10_61 m outs c)
theorem Karg10_63 : V63 m outs c main_arg10 = m ((c : Thread nD τ).loc main_arg10) :=
  (V63_of m outs c main_arg10 (by decide)).trans (Karg10_62 m outs c)
theorem Karg10_64 : V64 m outs c main_arg10 = m ((c : Thread nD τ).loc main_arg10) :=
  (V64_of m outs c main_arg10 (by decide)).trans (Karg10_63 m outs c)
theorem Karg10_65 : V65 m outs c main_arg10 = m ((c : Thread nD τ).loc main_arg10) :=
  (V65_of m outs c main_arg10 (by decide)).trans (Karg10_64 m outs c)
theorem Karg10_66 : V66 m outs c main_arg10 = m ((c : Thread nD τ).loc main_arg10) :=
  (V66_of m outs c main_arg10 (by decide)).trans (Karg10_65 m outs c)
theorem Karg10_67 : V67 m outs c main_arg10 = m ((c : Thread nD τ).loc main_arg10) :=
  (V67_of m outs c main_arg10 (by decide)).trans (Karg10_66 m outs c)
theorem Karg10_68 : V68 m outs c main_arg10 = m ((c : Thread nD τ).loc main_arg10) :=
  (V68_of m outs c main_arg10 (by decide)).trans (Karg10_67 m outs c)
theorem Karg10_69 : V69 m outs c main_arg10 = m ((c : Thread nD τ).loc main_arg10) :=
  (V69_of m outs c main_arg10 (by decide)).trans (Karg10_68 m outs c)
theorem Karg10_70 : V70 m outs c main_arg10 = m ((c : Thread nD τ).loc main_arg10) :=
  (V70_of m outs c main_arg10 (by decide)).trans (Karg10_69 m outs c)
theorem Karg10_71 : V71 m outs c main_arg10 = m ((c : Thread nD τ).loc main_arg10) :=
  (V71_of m outs c main_arg10 (by decide)).trans (Karg10_70 m outs c)
theorem Karg10_72 : V72 m outs c main_arg10 = m ((c : Thread nD τ).loc main_arg10) :=
  (V72_of m outs c main_arg10 (by decide)).trans (Karg10_71 m outs c)
theorem Karg10_73 : V73 m outs c main_arg10 = m ((c : Thread nD τ).loc main_arg10) :=
  (V73_of m outs c main_arg10 (by decide)).trans (Karg10_72 m outs c)
theorem Karg10_74 : V74 m outs c main_arg10 = m ((c : Thread nD τ).loc main_arg10) :=
  (V74_of m outs c main_arg10 (by decide)).trans (Karg10_73 m outs c)
theorem Karg10_75 : V75 m outs c main_arg10 = m ((c : Thread nD τ).loc main_arg10) :=
  (V75_of m outs c main_arg10 (by decide)).trans (Karg10_74 m outs c)
theorem Karg10_76 : V76 m outs c main_arg10 = m ((c : Thread nD τ).loc main_arg10) :=
  (V76_of m outs c main_arg10 (by decide)).trans (Karg10_75 m outs c)
theorem Karg10_77 : V77 m outs c main_arg10 = m ((c : Thread nD τ).loc main_arg10) :=
  (V77_of m outs c main_arg10 (by decide)).trans (Karg10_76 m outs c)
theorem Karg10_78 : V78 m outs c main_arg10 = m ((c : Thread nD τ).loc main_arg10) :=
  (V78_of m outs c main_arg10 (by decide)).trans (Karg10_77 m outs c)
theorem Karg10_79 : V79 m outs c main_arg10 = m ((c : Thread nD τ).loc main_arg10) :=
  (V79_of m outs c main_arg10 (by decide)).trans (Karg10_78 m outs c)
theorem Karg10_80 : V80 m outs c main_arg10 = m ((c : Thread nD τ).loc main_arg10) :=
  (V80_of m outs c main_arg10 (by decide)).trans (Karg10_79 m outs c)
theorem Karg10_81 : V81 m outs c main_arg10 = m ((c : Thread nD τ).loc main_arg10) :=
  (V81_of m outs c main_arg10 (by decide)).trans (Karg10_80 m outs c)
/-! ### main_arg11 -/
theorem Karg11_0 : V0 m c main_arg11 = m ((c : Thread nD τ).loc main_arg11) := rfl
theorem Karg11_1 : V1 m c main_arg11 = m ((c : Thread nD τ).loc main_arg11) :=
  (V1_of m c main_arg11 (by decide)).trans (Karg11_0 m c)
theorem Karg11_2 : V2 m outs c main_arg11 = m ((c : Thread nD τ).loc main_arg11) :=
  (V2_of m outs c main_arg11 (by decide)).trans (Karg11_1 m c)
theorem Karg11_3 : V3 m outs c main_arg11 = m ((c : Thread nD τ).loc main_arg11) :=
  (V3_of m outs c main_arg11 (by decide)).trans (Karg11_2 m outs c)
theorem Karg11_4 : V4 m outs c main_arg11 = m ((c : Thread nD τ).loc main_arg11) :=
  (V4_of m outs c main_arg11 (by decide)).trans (Karg11_3 m outs c)
theorem Karg11_5 : V5 m outs c main_arg11 = m ((c : Thread nD τ).loc main_arg11) :=
  (V5_of m outs c main_arg11 (by decide)).trans (Karg11_4 m outs c)
theorem Karg11_6 : V6 m outs c main_arg11 = m ((c : Thread nD τ).loc main_arg11) :=
  (V6_of m outs c main_arg11 (by decide)).trans (Karg11_5 m outs c)
theorem Karg11_7 : V7 m outs c main_arg11 = m ((c : Thread nD τ).loc main_arg11) :=
  (V7_of m outs c main_arg11 (by decide)).trans (Karg11_6 m outs c)
theorem Karg11_8 : V8 m outs c main_arg11 = m ((c : Thread nD τ).loc main_arg11) :=
  (V8_of m outs c main_arg11 (by decide)).trans (Karg11_7 m outs c)
theorem Karg11_9 : V9 m outs c main_arg11 = m ((c : Thread nD τ).loc main_arg11) :=
  (V9_of m outs c main_arg11 (by decide)).trans (Karg11_8 m outs c)
theorem Karg11_10 : V10 m outs c main_arg11 = m ((c : Thread nD τ).loc main_arg11) :=
  (V10_of m outs c main_arg11 (by decide)).trans (Karg11_9 m outs c)
theorem Karg11_11 : V11 m outs c main_arg11 = m ((c : Thread nD τ).loc main_arg11) :=
  (V11_of m outs c main_arg11 (by decide)).trans (Karg11_10 m outs c)
theorem Karg11_12 : V12 m outs c main_arg11 = m ((c : Thread nD τ).loc main_arg11) :=
  (V12_of m outs c main_arg11 (by decide)).trans (Karg11_11 m outs c)
theorem Karg11_13 : V13 m outs c main_arg11 = m ((c : Thread nD τ).loc main_arg11) :=
  (V13_of m outs c main_arg11 (by decide)).trans (Karg11_12 m outs c)
theorem Karg11_14 : V14 m outs c main_arg11 = m ((c : Thread nD τ).loc main_arg11) :=
  (V14_of m outs c main_arg11 (by decide)).trans (Karg11_13 m outs c)
theorem Karg11_15 : V15 m outs c main_arg11 = m ((c : Thread nD τ).loc main_arg11) :=
  (V15_of m outs c main_arg11 (by decide)).trans (Karg11_14 m outs c)
theorem Karg11_16 : V16 m outs c main_arg11 = m ((c : Thread nD τ).loc main_arg11) :=
  (V16_of m outs c main_arg11 (by decide)).trans (Karg11_15 m outs c)
theorem Karg11_17 : V17 m outs c main_arg11 = m ((c : Thread nD τ).loc main_arg11) :=
  (V17_of m outs c main_arg11 (by decide)).trans (Karg11_16 m outs c)
theorem Karg11_18 : V18 m outs c main_arg11 = m ((c : Thread nD τ).loc main_arg11) :=
  (V18_of m outs c main_arg11 (by decide)).trans (Karg11_17 m outs c)
theorem Karg11_19 : V19 m outs c main_arg11 = m ((c : Thread nD τ).loc main_arg11) :=
  (V19_of m outs c main_arg11 (by decide)).trans (Karg11_18 m outs c)
theorem Karg11_20 : V20 m outs c main_arg11 = m ((c : Thread nD τ).loc main_arg11) :=
  (V20_of m outs c main_arg11 (by decide)).trans (Karg11_19 m outs c)
theorem Karg11_21 : V21 m outs c main_arg11 = m ((c : Thread nD τ).loc main_arg11) :=
  (V21_of m outs c main_arg11 (by decide)).trans (Karg11_20 m outs c)
theorem Karg11_22 : V22 m outs c main_arg11 = m ((c : Thread nD τ).loc main_arg11) :=
  (V22_of m outs c main_arg11 (by decide)).trans (Karg11_21 m outs c)
theorem Karg11_23 : V23 m outs c main_arg11 = m ((c : Thread nD τ).loc main_arg11) :=
  (V23_of m outs c main_arg11 (by decide)).trans (Karg11_22 m outs c)
theorem Karg11_24 : V24 m outs c main_arg11 = m ((c : Thread nD τ).loc main_arg11) :=
  (V24_of m outs c main_arg11 (by decide)).trans (Karg11_23 m outs c)
theorem Karg11_25 : V25 m outs c main_arg11 = m ((c : Thread nD τ).loc main_arg11) :=
  (V25_of m outs c main_arg11 (by decide)).trans (Karg11_24 m outs c)
theorem Karg11_26 : V26 m outs c main_arg11 = m ((c : Thread nD τ).loc main_arg11) :=
  (V26_of m outs c main_arg11 (by decide)).trans (Karg11_25 m outs c)
theorem Karg11_27 : V27 m outs c main_arg11 = m ((c : Thread nD τ).loc main_arg11) :=
  (V27_of m outs c main_arg11 (by decide)).trans (Karg11_26 m outs c)
theorem Karg11_28 : V28 m outs c main_arg11 = m ((c : Thread nD τ).loc main_arg11) :=
  (V28_of m outs c main_arg11 (by decide)).trans (Karg11_27 m outs c)
theorem Karg11_29 : V29 m outs c main_arg11 = m ((c : Thread nD τ).loc main_arg11) :=
  (V29_of m outs c main_arg11 (by decide)).trans (Karg11_28 m outs c)
theorem Karg11_30 : V30 m outs c main_arg11 = m ((c : Thread nD τ).loc main_arg11) :=
  (V30_of m outs c main_arg11 (by decide)).trans (Karg11_29 m outs c)
theorem Karg11_31 : V31 m outs c main_arg11 = m ((c : Thread nD τ).loc main_arg11) :=
  (V31_of m outs c main_arg11 (by decide)).trans (Karg11_30 m outs c)
theorem Karg11_32 : V32 m outs c main_arg11 = m ((c : Thread nD τ).loc main_arg11) :=
  (V32_of m outs c main_arg11 (by decide)).trans (Karg11_31 m outs c)
theorem Karg11_33 : V33 m outs c main_arg11 = m ((c : Thread nD τ).loc main_arg11) :=
  (V33_of m outs c main_arg11 (by decide)).trans (Karg11_32 m outs c)
theorem Karg11_34 : V34 m outs c main_arg11 = m ((c : Thread nD τ).loc main_arg11) :=
  (V34_of m outs c main_arg11 (by decide)).trans (Karg11_33 m outs c)
theorem Karg11_35 : V35 m outs c main_arg11 = m ((c : Thread nD τ).loc main_arg11) :=
  (V35_of m outs c main_arg11 (by decide)).trans (Karg11_34 m outs c)
theorem Karg11_36 : V36 m outs c main_arg11 = m ((c : Thread nD τ).loc main_arg11) :=
  (V36_of m outs c main_arg11 (by decide)).trans (Karg11_35 m outs c)
theorem Karg11_37 : V37 m outs c main_arg11 = m ((c : Thread nD τ).loc main_arg11) :=
  (V37_of m outs c main_arg11 (by decide)).trans (Karg11_36 m outs c)
theorem Karg11_38 : V38 m outs c main_arg11 = m ((c : Thread nD τ).loc main_arg11) :=
  (V38_of m outs c main_arg11 (by decide)).trans (Karg11_37 m outs c)
theorem Karg11_39 : V39 m outs c main_arg11 = m ((c : Thread nD τ).loc main_arg11) :=
  (V39_of m outs c main_arg11 (by decide)).trans (Karg11_38 m outs c)
theorem Karg11_40 : V40 m outs c main_arg11 = m ((c : Thread nD τ).loc main_arg11) :=
  (V40_of m outs c main_arg11 (by decide)).trans (Karg11_39 m outs c)
theorem Karg11_41 : V41 m outs c main_arg11 = m ((c : Thread nD τ).loc main_arg11) :=
  (V41_of m outs c main_arg11 (by decide)).trans (Karg11_40 m outs c)
theorem Karg11_42 : V42 m outs c main_arg11 = m ((c : Thread nD τ).loc main_arg11) :=
  (V42_of m outs c main_arg11 (by decide)).trans (Karg11_41 m outs c)
theorem Karg11_43 : V43 m outs c main_arg11 = m ((c : Thread nD τ).loc main_arg11) :=
  (V43_of m outs c main_arg11 (by decide)).trans (Karg11_42 m outs c)
theorem Karg11_44 : V44 m outs c main_arg11 = m ((c : Thread nD τ).loc main_arg11) :=
  (V44_of m outs c main_arg11 (by decide)).trans (Karg11_43 m outs c)
theorem Karg11_45 : V45 m outs c main_arg11 = m ((c : Thread nD τ).loc main_arg11) :=
  (V45_of m outs c main_arg11 (by decide)).trans (Karg11_44 m outs c)
theorem Karg11_46 : V46 m outs c main_arg11 = m ((c : Thread nD τ).loc main_arg11) :=
  (V46_of m outs c main_arg11 (by decide)).trans (Karg11_45 m outs c)
theorem Karg11_47 : V47 m outs c main_arg11 = m ((c : Thread nD τ).loc main_arg11) :=
  (V47_of m outs c main_arg11 (by decide)).trans (Karg11_46 m outs c)
theorem Karg11_48 : V48 m outs c main_arg11 = m ((c : Thread nD τ).loc main_arg11) :=
  (V48_of m outs c main_arg11 (by decide)).trans (Karg11_47 m outs c)
theorem Karg11_49 : V49 m outs c main_arg11 = m ((c : Thread nD τ).loc main_arg11) :=
  (V49_of m outs c main_arg11 (by decide)).trans (Karg11_48 m outs c)
theorem Karg11_50 : V50 m outs c main_arg11 = m ((c : Thread nD τ).loc main_arg11) :=
  (V50_of m outs c main_arg11 (by decide)).trans (Karg11_49 m outs c)
theorem Karg11_51 : V51 m outs c main_arg11 = m ((c : Thread nD τ).loc main_arg11) :=
  (V51_of m outs c main_arg11 (by decide)).trans (Karg11_50 m outs c)
theorem Karg11_52 : V52 m outs c main_arg11 = m ((c : Thread nD τ).loc main_arg11) :=
  (V52_of m outs c main_arg11 (by decide)).trans (Karg11_51 m outs c)
theorem Karg11_53 : V53 m outs c main_arg11 = m ((c : Thread nD τ).loc main_arg11) :=
  (V53_of m outs c main_arg11 (by decide)).trans (Karg11_52 m outs c)
theorem Karg11_54 : V54 m outs c main_arg11 = m ((c : Thread nD τ).loc main_arg11) :=
  (V54_of m outs c main_arg11 (by decide)).trans (Karg11_53 m outs c)
theorem Karg11_55 : V55 m outs c main_arg11 = m ((c : Thread nD τ).loc main_arg11) :=
  (V55_of m outs c main_arg11 (by decide)).trans (Karg11_54 m outs c)
theorem Karg11_56 : V56 m outs c main_arg11 = m ((c : Thread nD τ).loc main_arg11) :=
  (V56_of m outs c main_arg11 (by decide)).trans (Karg11_55 m outs c)
theorem Karg11_57 : V57 m outs c main_arg11 = m ((c : Thread nD τ).loc main_arg11) :=
  (V57_of m outs c main_arg11 (by decide)).trans (Karg11_56 m outs c)
theorem Karg11_58 : V58 m outs c main_arg11 = m ((c : Thread nD τ).loc main_arg11) :=
  (V58_of m outs c main_arg11 (by decide)).trans (Karg11_57 m outs c)
theorem Karg11_59 : V59 m outs c main_arg11 = m ((c : Thread nD τ).loc main_arg11) :=
  (V59_of m outs c main_arg11 (by decide)).trans (Karg11_58 m outs c)
theorem Karg11_60 : V60 m outs c main_arg11 = m ((c : Thread nD τ).loc main_arg11) :=
  (V60_of m outs c main_arg11 (by decide)).trans (Karg11_59 m outs c)
theorem Karg11_61 : V61 m outs c main_arg11 = m ((c : Thread nD τ).loc main_arg11) :=
  (V61_of m outs c main_arg11 (by decide)).trans (Karg11_60 m outs c)
theorem Karg11_62 : V62 m outs c main_arg11 = m ((c : Thread nD τ).loc main_arg11) :=
  (V62_of m outs c main_arg11 (by decide)).trans (Karg11_61 m outs c)
theorem Karg11_63 : V63 m outs c main_arg11 = m ((c : Thread nD τ).loc main_arg11) :=
  (V63_of m outs c main_arg11 (by decide)).trans (Karg11_62 m outs c)
theorem Karg11_64 : V64 m outs c main_arg11 = m ((c : Thread nD τ).loc main_arg11) :=
  (V64_of m outs c main_arg11 (by decide)).trans (Karg11_63 m outs c)
theorem Karg11_65 : V65 m outs c main_arg11 = m ((c : Thread nD τ).loc main_arg11) :=
  (V65_of m outs c main_arg11 (by decide)).trans (Karg11_64 m outs c)
theorem Karg11_66 : V66 m outs c main_arg11 = m ((c : Thread nD τ).loc main_arg11) :=
  (V66_of m outs c main_arg11 (by decide)).trans (Karg11_65 m outs c)
theorem Karg11_67 : V67 m outs c main_arg11 = m ((c : Thread nD τ).loc main_arg11) :=
  (V67_of m outs c main_arg11 (by decide)).trans (Karg11_66 m outs c)
theorem Karg11_68 : V68 m outs c main_arg11 = m ((c : Thread nD τ).loc main_arg11) :=
  (V68_of m outs c main_arg11 (by decide)).trans (Karg11_67 m outs c)
theorem Karg11_69 : V69 m outs c main_arg11 = m ((c : Thread nD τ).loc main_arg11) :=
  (V69_of m outs c main_arg11 (by decide)).trans (Karg11_68 m outs c)
theorem Karg11_70 : V70 m outs c main_arg11 = m ((c : Thread nD τ).loc main_arg11) :=
  (V70_of m outs c main_arg11 (by decide)).trans (Karg11_69 m outs c)
theorem Karg11_71 : V71 m outs c main_arg11 = m ((c : Thread nD τ).loc main_arg11) :=
  (V71_of m outs c main_arg11 (by decide)).trans (Karg11_70 m outs c)
theorem Karg11_72 : V72 m outs c main_arg11 = m ((c : Thread nD τ).loc main_arg11) :=
  (V72_of m outs c main_arg11 (by decide)).trans (Karg11_71 m outs c)
theorem Karg11_73 : V73 m outs c main_arg11 = m ((c : Thread nD τ).loc main_arg11) :=
  (V73_of m outs c main_arg11 (by decide)).trans (Karg11_72 m outs c)
theorem Karg11_74 : V74 m outs c main_arg11 = m ((c : Thread nD τ).loc main_arg11) :=
  (V74_of m outs c main_arg11 (by decide)).trans (Karg11_73 m outs c)
theorem Karg11_75 : V75 m outs c main_arg11 = m ((c : Thread nD τ).loc main_arg11) :=
  (V75_of m outs c main_arg11 (by decide)).trans (Karg11_74 m outs c)
theorem Karg11_76 : V76 m outs c main_arg11 = m ((c : Thread nD τ).loc main_arg11) :=
  (V76_of m outs c main_arg11 (by decide)).trans (Karg11_75 m outs c)
theorem Karg11_77 : V77 m outs c main_arg11 = m ((c : Thread nD τ).loc main_arg11) :=
  (V77_of m outs c main_arg11 (by decide)).trans (Karg11_76 m outs c)
theorem Karg11_78 : V78 m outs c main_arg11 = m ((c : Thread nD τ).loc main_arg11) :=
  (V78_of m outs c main_arg11 (by decide)).trans (Karg11_77 m outs c)
theorem Karg11_79 : V79 m outs c main_arg11 = m ((c : Thread nD τ).loc main_arg11) :=
  (V79_of m outs c main_arg11 (by decide)).trans (Karg11_78 m outs c)
theorem Karg11_80 : V80 m outs c main_arg11 = m ((c : Thread nD τ).loc main_arg11) :=
  (V80_of m outs c main_arg11 (by decide)).trans (Karg11_79 m outs c)
theorem Karg11_81 : V81 m outs c main_arg11 = m ((c : Thread nD τ).loc main_arg11) :=
  (V81_of m outs c main_arg11 (by decide)).trans (Karg11_80 m outs c)
/-! ### main_arg12 -/
theorem Karg12_0 : V0 m c main_arg12 = m ((c : Thread nD τ).loc main_arg12) := rfl
theorem Karg12_1 : V1 m c main_arg12 = m ((c : Thread nD τ).loc main_arg12) :=
  (V1_of m c main_arg12 (by decide)).trans (Karg12_0 m c)
theorem Karg12_2 : V2 m outs c main_arg12 = m ((c : Thread nD τ).loc main_arg12) :=
  (V2_of m outs c main_arg12 (by decide)).trans (Karg12_1 m c)
theorem Karg12_3 : V3 m outs c main_arg12 = m ((c : Thread nD τ).loc main_arg12) :=
  (V3_of m outs c main_arg12 (by decide)).trans (Karg12_2 m outs c)
theorem Karg12_4 : V4 m outs c main_arg12 = m ((c : Thread nD τ).loc main_arg12) :=
  (V4_of m outs c main_arg12 (by decide)).trans (Karg12_3 m outs c)
theorem Karg12_5 : V5 m outs c main_arg12 = m ((c : Thread nD τ).loc main_arg12) :=
  (V5_of m outs c main_arg12 (by decide)).trans (Karg12_4 m outs c)
theorem Karg12_6 : V6 m outs c main_arg12 = m ((c : Thread nD τ).loc main_arg12) :=
  (V6_of m outs c main_arg12 (by decide)).trans (Karg12_5 m outs c)
theorem Karg12_7 : V7 m outs c main_arg12 = m ((c : Thread nD τ).loc main_arg12) :=
  (V7_of m outs c main_arg12 (by decide)).trans (Karg12_6 m outs c)
theorem Karg12_8 : V8 m outs c main_arg12 = m ((c : Thread nD τ).loc main_arg12) :=
  (V8_of m outs c main_arg12 (by decide)).trans (Karg12_7 m outs c)
theorem Karg12_9 : V9 m outs c main_arg12 = m ((c : Thread nD τ).loc main_arg12) :=
  (V9_of m outs c main_arg12 (by decide)).trans (Karg12_8 m outs c)
theorem Karg12_10 : V10 m outs c main_arg12 = m ((c : Thread nD τ).loc main_arg12) :=
  (V10_of m outs c main_arg12 (by decide)).trans (Karg12_9 m outs c)
theorem Karg12_11 : V11 m outs c main_arg12 = m ((c : Thread nD τ).loc main_arg12) :=
  (V11_of m outs c main_arg12 (by decide)).trans (Karg12_10 m outs c)
theorem Karg12_12 : V12 m outs c main_arg12 = m ((c : Thread nD τ).loc main_arg12) :=
  (V12_of m outs c main_arg12 (by decide)).trans (Karg12_11 m outs c)
theorem Karg12_13 : V13 m outs c main_arg12 = m ((c : Thread nD τ).loc main_arg12) :=
  (V13_of m outs c main_arg12 (by decide)).trans (Karg12_12 m outs c)
theorem Karg12_14 : V14 m outs c main_arg12 = m ((c : Thread nD τ).loc main_arg12) :=
  (V14_of m outs c main_arg12 (by decide)).trans (Karg12_13 m outs c)
theorem Karg12_15 : V15 m outs c main_arg12 = m ((c : Thread nD τ).loc main_arg12) :=
  (V15_of m outs c main_arg12 (by decide)).trans (Karg12_14 m outs c)
theorem Karg12_16 : V16 m outs c main_arg12 = m ((c : Thread nD τ).loc main_arg12) :=
  (V16_of m outs c main_arg12 (by decide)).trans (Karg12_15 m outs c)
theorem Karg12_17 : V17 m outs c main_arg12 = m ((c : Thread nD τ).loc main_arg12) :=
  (V17_of m outs c main_arg12 (by decide)).trans (Karg12_16 m outs c)
theorem Karg12_18 : V18 m outs c main_arg12 = m ((c : Thread nD τ).loc main_arg12) :=
  (V18_of m outs c main_arg12 (by decide)).trans (Karg12_17 m outs c)
theorem Karg12_19 : V19 m outs c main_arg12 = m ((c : Thread nD τ).loc main_arg12) :=
  (V19_of m outs c main_arg12 (by decide)).trans (Karg12_18 m outs c)
theorem Karg12_20 : V20 m outs c main_arg12 = m ((c : Thread nD τ).loc main_arg12) :=
  (V20_of m outs c main_arg12 (by decide)).trans (Karg12_19 m outs c)
theorem Karg12_21 : V21 m outs c main_arg12 = m ((c : Thread nD τ).loc main_arg12) :=
  (V21_of m outs c main_arg12 (by decide)).trans (Karg12_20 m outs c)
theorem Karg12_22 : V22 m outs c main_arg12 = m ((c : Thread nD τ).loc main_arg12) :=
  (V22_of m outs c main_arg12 (by decide)).trans (Karg12_21 m outs c)
theorem Karg12_23 : V23 m outs c main_arg12 = m ((c : Thread nD τ).loc main_arg12) :=
  (V23_of m outs c main_arg12 (by decide)).trans (Karg12_22 m outs c)
theorem Karg12_24 : V24 m outs c main_arg12 = m ((c : Thread nD τ).loc main_arg12) :=
  (V24_of m outs c main_arg12 (by decide)).trans (Karg12_23 m outs c)
theorem Karg12_25 : V25 m outs c main_arg12 = m ((c : Thread nD τ).loc main_arg12) :=
  (V25_of m outs c main_arg12 (by decide)).trans (Karg12_24 m outs c)
theorem Karg12_26 : V26 m outs c main_arg12 = m ((c : Thread nD τ).loc main_arg12) :=
  (V26_of m outs c main_arg12 (by decide)).trans (Karg12_25 m outs c)
theorem Karg12_27 : V27 m outs c main_arg12 = m ((c : Thread nD τ).loc main_arg12) :=
  (V27_of m outs c main_arg12 (by decide)).trans (Karg12_26 m outs c)
theorem Karg12_28 : V28 m outs c main_arg12 = m ((c : Thread nD τ).loc main_arg12) :=
  (V28_of m outs c main_arg12 (by decide)).trans (Karg12_27 m outs c)
theorem Karg12_29 : V29 m outs c main_arg12 = m ((c : Thread nD τ).loc main_arg12) :=
  (V29_of m outs c main_arg12 (by decide)).trans (Karg12_28 m outs c)
theorem Karg12_30 : V30 m outs c main_arg12 = m ((c : Thread nD τ).loc main_arg12) :=
  (V30_of m outs c main_arg12 (by decide)).trans (Karg12_29 m outs c)
theorem Karg12_31 : V31 m outs c main_arg12 = m ((c : Thread nD τ).loc main_arg12) :=
  (V31_of m outs c main_arg12 (by decide)).trans (Karg12_30 m outs c)
theorem Karg12_32 : V32 m outs c main_arg12 = m ((c : Thread nD τ).loc main_arg12) :=
  (V32_of m outs c main_arg12 (by decide)).trans (Karg12_31 m outs c)
theorem Karg12_33 : V33 m outs c main_arg12 = m ((c : Thread nD τ).loc main_arg12) :=
  (V33_of m outs c main_arg12 (by decide)).trans (Karg12_32 m outs c)
theorem Karg12_34 : V34 m outs c main_arg12 = m ((c : Thread nD τ).loc main_arg12) :=
  (V34_of m outs c main_arg12 (by decide)).trans (Karg12_33 m outs c)
theorem Karg12_35 : V35 m outs c main_arg12 = m ((c : Thread nD τ).loc main_arg12) :=
  (V35_of m outs c main_arg12 (by decide)).trans (Karg12_34 m outs c)
theorem Karg12_36 : V36 m outs c main_arg12 = m ((c : Thread nD τ).loc main_arg12) :=
  (V36_of m outs c main_arg12 (by decide)).trans (Karg12_35 m outs c)
theorem Karg12_37 : V37 m outs c main_arg12 = m ((c : Thread nD τ).loc main_arg12) :=
  (V37_of m outs c main_arg12 (by decide)).trans (Karg12_36 m outs c)
theorem Karg12_38 : V38 m outs c main_arg12 = m ((c : Thread nD τ).loc main_arg12) :=
  (V38_of m outs c main_arg12 (by decide)).trans (Karg12_37 m outs c)
theorem Karg12_39 : V39 m outs c main_arg12 = m ((c : Thread nD τ).loc main_arg12) :=
  (V39_of m outs c main_arg12 (by decide)).trans (Karg12_38 m outs c)
theorem Karg12_40 : V40 m outs c main_arg12 = m ((c : Thread nD τ).loc main_arg12) :=
  (V40_of m outs c main_arg12 (by decide)).trans (Karg12_39 m outs c)
theorem Karg12_41 : V41 m outs c main_arg12 = m ((c : Thread nD τ).loc main_arg12) :=
  (V41_of m outs c main_arg12 (by decide)).trans (Karg12_40 m outs c)
theorem Karg12_42 : V42 m outs c main_arg12 = m ((c : Thread nD τ).loc main_arg12) :=
  (V42_of m outs c main_arg12 (by decide)).trans (Karg12_41 m outs c)
theorem Karg12_43 : V43 m outs c main_arg12 = m ((c : Thread nD τ).loc main_arg12) :=
  (V43_of m outs c main_arg12 (by decide)).trans (Karg12_42 m outs c)
theorem Karg12_44 : V44 m outs c main_arg12 = m ((c : Thread nD τ).loc main_arg12) :=
  (V44_of m outs c main_arg12 (by decide)).trans (Karg12_43 m outs c)
theorem Karg12_45 : V45 m outs c main_arg12 = m ((c : Thread nD τ).loc main_arg12) :=
  (V45_of m outs c main_arg12 (by decide)).trans (Karg12_44 m outs c)
theorem Karg12_46 : V46 m outs c main_arg12 = m ((c : Thread nD τ).loc main_arg12) :=
  (V46_of m outs c main_arg12 (by decide)).trans (Karg12_45 m outs c)
theorem Karg12_47 : V47 m outs c main_arg12 = m ((c : Thread nD τ).loc main_arg12) :=
  (V47_of m outs c main_arg12 (by decide)).trans (Karg12_46 m outs c)
theorem Karg12_48 : V48 m outs c main_arg12 = m ((c : Thread nD τ).loc main_arg12) :=
  (V48_of m outs c main_arg12 (by decide)).trans (Karg12_47 m outs c)
theorem Karg12_49 : V49 m outs c main_arg12 = m ((c : Thread nD τ).loc main_arg12) :=
  (V49_of m outs c main_arg12 (by decide)).trans (Karg12_48 m outs c)
theorem Karg12_50 : V50 m outs c main_arg12 = m ((c : Thread nD τ).loc main_arg12) :=
  (V50_of m outs c main_arg12 (by decide)).trans (Karg12_49 m outs c)
theorem Karg12_51 : V51 m outs c main_arg12 = m ((c : Thread nD τ).loc main_arg12) :=
  (V51_of m outs c main_arg12 (by decide)).trans (Karg12_50 m outs c)
theorem Karg12_52 : V52 m outs c main_arg12 = m ((c : Thread nD τ).loc main_arg12) :=
  (V52_of m outs c main_arg12 (by decide)).trans (Karg12_51 m outs c)
theorem Karg12_53 : V53 m outs c main_arg12 = m ((c : Thread nD τ).loc main_arg12) :=
  (V53_of m outs c main_arg12 (by decide)).trans (Karg12_52 m outs c)
theorem Karg12_54 : V54 m outs c main_arg12 = m ((c : Thread nD τ).loc main_arg12) :=
  (V54_of m outs c main_arg12 (by decide)).trans (Karg12_53 m outs c)
theorem Karg12_55 : V55 m outs c main_arg12 = m ((c : Thread nD τ).loc main_arg12) :=
  (V55_of m outs c main_arg12 (by decide)).trans (Karg12_54 m outs c)
theorem Karg12_56 : V56 m outs c main_arg12 = m ((c : Thread nD τ).loc main_arg12) :=
  (V56_of m outs c main_arg12 (by decide)).trans (Karg12_55 m outs c)
theorem Karg12_57 : V57 m outs c main_arg12 = m ((c : Thread nD τ).loc main_arg12) :=
  (V57_of m outs c main_arg12 (by decide)).trans (Karg12_56 m outs c)
theorem Karg12_58 : V58 m outs c main_arg12 = m ((c : Thread nD τ).loc main_arg12) :=
  (V58_of m outs c main_arg12 (by decide)).trans (Karg12_57 m outs c)
theorem Karg12_59 : V59 m outs c main_arg12 = m ((c : Thread nD τ).loc main_arg12) :=
  (V59_of m outs c main_arg12 (by decide)).trans (Karg12_58 m outs c)
theorem Karg12_60 : V60 m outs c main_arg12 = m ((c : Thread nD τ).loc main_arg12) :=
  (V60_of m outs c main_arg12 (by decide)).trans (Karg12_59 m outs c)
theorem Karg12_61 : V61 m outs c main_arg12 = m ((c : Thread nD τ).loc main_arg12) :=
  (V61_of m outs c main_arg12 (by decide)).trans (Karg12_60 m outs c)
theorem Karg12_62 : V62 m outs c main_arg12 = m ((c : Thread nD τ).loc main_arg12) :=
  (V62_of m outs c main_arg12 (by decide)).trans (Karg12_61 m outs c)
theorem Karg12_63 : V63 m outs c main_arg12 = m ((c : Thread nD τ).loc main_arg12) :=
  (V63_of m outs c main_arg12 (by decide)).trans (Karg12_62 m outs c)
theorem Karg12_64 : V64 m outs c main_arg12 = m ((c : Thread nD τ).loc main_arg12) :=
  (V64_of m outs c main_arg12 (by decide)).trans (Karg12_63 m outs c)
theorem Karg12_65 : V65 m outs c main_arg12 = m ((c : Thread nD τ).loc main_arg12) :=
  (V65_of m outs c main_arg12 (by decide)).trans (Karg12_64 m outs c)
theorem Karg12_66 : V66 m outs c main_arg12 = m ((c : Thread nD τ).loc main_arg12) :=
  (V66_of m outs c main_arg12 (by decide)).trans (Karg12_65 m outs c)
theorem Karg12_67 : V67 m outs c main_arg12 = m ((c : Thread nD τ).loc main_arg12) :=
  (V67_of m outs c main_arg12 (by decide)).trans (Karg12_66 m outs c)
theorem Karg12_68 : V68 m outs c main_arg12 = m ((c : Thread nD τ).loc main_arg12) :=
  (V68_of m outs c main_arg12 (by decide)).trans (Karg12_67 m outs c)
theorem Karg12_69 : V69 m outs c main_arg12 = m ((c : Thread nD τ).loc main_arg12) :=
  (V69_of m outs c main_arg12 (by decide)).trans (Karg12_68 m outs c)
theorem Karg12_70 : V70 m outs c main_arg12 = m ((c : Thread nD τ).loc main_arg12) :=
  (V70_of m outs c main_arg12 (by decide)).trans (Karg12_69 m outs c)
theorem Karg12_71 : V71 m outs c main_arg12 = m ((c : Thread nD τ).loc main_arg12) :=
  (V71_of m outs c main_arg12 (by decide)).trans (Karg12_70 m outs c)
theorem Karg12_72 : V72 m outs c main_arg12 = m ((c : Thread nD τ).loc main_arg12) :=
  (V72_of m outs c main_arg12 (by decide)).trans (Karg12_71 m outs c)
theorem Karg12_73 : V73 m outs c main_arg12 = m ((c : Thread nD τ).loc main_arg12) :=
  (V73_of m outs c main_arg12 (by decide)).trans (Karg12_72 m outs c)
theorem Karg12_74 : V74 m outs c main_arg12 = m ((c : Thread nD τ).loc main_arg12) :=
  (V74_of m outs c main_arg12 (by decide)).trans (Karg12_73 m outs c)
theorem Karg12_75 : V75 m outs c main_arg12 = m ((c : Thread nD τ).loc main_arg12) :=
  (V75_of m outs c main_arg12 (by decide)).trans (Karg12_74 m outs c)
theorem Karg12_76 : V76 m outs c main_arg12 = m ((c : Thread nD τ).loc main_arg12) :=
  (V76_of m outs c main_arg12 (by decide)).trans (Karg12_75 m outs c)
theorem Karg12_77 : V77 m outs c main_arg12 = m ((c : Thread nD τ).loc main_arg12) :=
  (V77_of m outs c main_arg12 (by decide)).trans (Karg12_76 m outs c)
theorem Karg12_78 : V78 m outs c main_arg12 = m ((c : Thread nD τ).loc main_arg12) :=
  (V78_of m outs c main_arg12 (by decide)).trans (Karg12_77 m outs c)
theorem Karg12_79 : V79 m outs c main_arg12 = m ((c : Thread nD τ).loc main_arg12) :=
  (V79_of m outs c main_arg12 (by decide)).trans (Karg12_78 m outs c)
theorem Karg12_80 : V80 m outs c main_arg12 = m ((c : Thread nD τ).loc main_arg12) :=
  (V80_of m outs c main_arg12 (by decide)).trans (Karg12_79 m outs c)
theorem Karg12_81 : V81 m outs c main_arg12 = m ((c : Thread nD τ).loc main_arg12) :=
  (V81_of m outs c main_arg12 (by decide)).trans (Karg12_80 m outs c)
/-! ### main_arg13 -/
theorem Karg13_0 : V0 m c main_arg13 = m ((c : Thread nD τ).loc main_arg13) := rfl
theorem Karg13_1 : V1 m c main_arg13 = m ((c : Thread nD τ).loc main_arg13) :=
  (V1_of m c main_arg13 (by decide)).trans (Karg13_0 m c)
theorem Karg13_2 : V2 m outs c main_arg13 = m ((c : Thread nD τ).loc main_arg13) :=
  (V2_of m outs c main_arg13 (by decide)).trans (Karg13_1 m c)
theorem Karg13_3 : V3 m outs c main_arg13 = m ((c : Thread nD τ).loc main_arg13) :=
  (V3_of m outs c main_arg13 (by decide)).trans (Karg13_2 m outs c)
theorem Karg13_4 : V4 m outs c main_arg13 = m ((c : Thread nD τ).loc main_arg13) :=
  (V4_of m outs c main_arg13 (by decide)).trans (Karg13_3 m outs c)
theorem Karg13_5 : V5 m outs c main_arg13 = m ((c : Thread nD τ).loc main_arg13) :=
  (V5_of m outs c main_arg13 (by decide)).trans (Karg13_4 m outs c)
theorem Karg13_6 : V6 m outs c main_arg13 = m ((c : Thread nD τ).loc main_arg13) :=
  (V6_of m outs c main_arg13 (by decide)).trans (Karg13_5 m outs c)
theorem Karg13_7 : V7 m outs c main_arg13 = m ((c : Thread nD τ).loc main_arg13) :=
  (V7_of m outs c main_arg13 (by decide)).trans (Karg13_6 m outs c)
theorem Karg13_8 : V8 m outs c main_arg13 = m ((c : Thread nD τ).loc main_arg13) :=
  (V8_of m outs c main_arg13 (by decide)).trans (Karg13_7 m outs c)
theorem Karg13_9 : V9 m outs c main_arg13 = m ((c : Thread nD τ).loc main_arg13) :=
  (V9_of m outs c main_arg13 (by decide)).trans (Karg13_8 m outs c)
theorem Karg13_10 : V10 m outs c main_arg13 = m ((c : Thread nD τ).loc main_arg13) :=
  (V10_of m outs c main_arg13 (by decide)).trans (Karg13_9 m outs c)
theorem Karg13_11 : V11 m outs c main_arg13 = m ((c : Thread nD τ).loc main_arg13) :=
  (V11_of m outs c main_arg13 (by decide)).trans (Karg13_10 m outs c)
theorem Karg13_12 : V12 m outs c main_arg13 = m ((c : Thread nD τ).loc main_arg13) :=
  (V12_of m outs c main_arg13 (by decide)).trans (Karg13_11 m outs c)
theorem Karg13_13 : V13 m outs c main_arg13 = m ((c : Thread nD τ).loc main_arg13) :=
  (V13_of m outs c main_arg13 (by decide)).trans (Karg13_12 m outs c)
theorem Karg13_14 : V14 m outs c main_arg13 = m ((c : Thread nD τ).loc main_arg13) :=
  (V14_of m outs c main_arg13 (by decide)).trans (Karg13_13 m outs c)
theorem Karg13_15 : V15 m outs c main_arg13 = m ((c : Thread nD τ).loc main_arg13) :=
  (V15_of m outs c main_arg13 (by decide)).trans (Karg13_14 m outs c)
theorem Karg13_16 : V16 m outs c main_arg13 = m ((c : Thread nD τ).loc main_arg13) :=
  (V16_of m outs c main_arg13 (by decide)).trans (Karg13_15 m outs c)
theorem Karg13_17 : V17 m outs c main_arg13 = m ((c : Thread nD τ).loc main_arg13) :=
  (V17_of m outs c main_arg13 (by decide)).trans (Karg13_16 m outs c)
theorem Karg13_18 : V18 m outs c main_arg13 = m ((c : Thread nD τ).loc main_arg13) :=
  (V18_of m outs c main_arg13 (by decide)).trans (Karg13_17 m outs c)
theorem Karg13_19 : V19 m outs c main_arg13 = m ((c : Thread nD τ).loc main_arg13) :=
  (V19_of m outs c main_arg13 (by decide)).trans (Karg13_18 m outs c)
theorem Karg13_20 : V20 m outs c main_arg13 = m ((c : Thread nD τ).loc main_arg13) :=
  (V20_of m outs c main_arg13 (by decide)).trans (Karg13_19 m outs c)
theorem Karg13_21 : V21 m outs c main_arg13 = m ((c : Thread nD τ).loc main_arg13) :=
  (V21_of m outs c main_arg13 (by decide)).trans (Karg13_20 m outs c)
theorem Karg13_22 : V22 m outs c main_arg13 = m ((c : Thread nD τ).loc main_arg13) :=
  (V22_of m outs c main_arg13 (by decide)).trans (Karg13_21 m outs c)
theorem Karg13_23 : V23 m outs c main_arg13 = m ((c : Thread nD τ).loc main_arg13) :=
  (V23_of m outs c main_arg13 (by decide)).trans (Karg13_22 m outs c)
theorem Karg13_24 : V24 m outs c main_arg13 = m ((c : Thread nD τ).loc main_arg13) :=
  (V24_of m outs c main_arg13 (by decide)).trans (Karg13_23 m outs c)
theorem Karg13_25 : V25 m outs c main_arg13 = m ((c : Thread nD τ).loc main_arg13) :=
  (V25_of m outs c main_arg13 (by decide)).trans (Karg13_24 m outs c)
theorem Karg13_26 : V26 m outs c main_arg13 = m ((c : Thread nD τ).loc main_arg13) :=
  (V26_of m outs c main_arg13 (by decide)).trans (Karg13_25 m outs c)
theorem Karg13_27 : V27 m outs c main_arg13 = m ((c : Thread nD τ).loc main_arg13) :=
  (V27_of m outs c main_arg13 (by decide)).trans (Karg13_26 m outs c)
theorem Karg13_28 : V28 m outs c main_arg13 = m ((c : Thread nD τ).loc main_arg13) :=
  (V28_of m outs c main_arg13 (by decide)).trans (Karg13_27 m outs c)
theorem Karg13_29 : V29 m outs c main_arg13 = m ((c : Thread nD τ).loc main_arg13) :=
  (V29_of m outs c main_arg13 (by decide)).trans (Karg13_28 m outs c)
theorem Karg13_30 : V30 m outs c main_arg13 = m ((c : Thread nD τ).loc main_arg13) :=
  (V30_of m outs c main_arg13 (by decide)).trans (Karg13_29 m outs c)
theorem Karg13_31 : V31 m outs c main_arg13 = m ((c : Thread nD τ).loc main_arg13) :=
  (V31_of m outs c main_arg13 (by decide)).trans (Karg13_30 m outs c)
theorem Karg13_32 : V32 m outs c main_arg13 = m ((c : Thread nD τ).loc main_arg13) :=
  (V32_of m outs c main_arg13 (by decide)).trans (Karg13_31 m outs c)
theorem Karg13_33 : V33 m outs c main_arg13 = m ((c : Thread nD τ).loc main_arg13) :=
  (V33_of m outs c main_arg13 (by decide)).trans (Karg13_32 m outs c)
theorem Karg13_34 : V34 m outs c main_arg13 = m ((c : Thread nD τ).loc main_arg13) :=
  (V34_of m outs c main_arg13 (by decide)).trans (Karg13_33 m outs c)
theorem Karg13_35 : V35 m outs c main_arg13 = m ((c : Thread nD τ).loc main_arg13) :=
  (V35_of m outs c main_arg13 (by decide)).trans (Karg13_34 m outs c)
theorem Karg13_36 : V36 m outs c main_arg13 = m ((c : Thread nD τ).loc main_arg13) :=
  (V36_of m outs c main_arg13 (by decide)).trans (Karg13_35 m outs c)
theorem Karg13_37 : V37 m outs c main_arg13 = m ((c : Thread nD τ).loc main_arg13) :=
  (V37_of m outs c main_arg13 (by decide)).trans (Karg13_36 m outs c)
theorem Karg13_38 : V38 m outs c main_arg13 = m ((c : Thread nD τ).loc main_arg13) :=
  (V38_of m outs c main_arg13 (by decide)).trans (Karg13_37 m outs c)
theorem Karg13_39 : V39 m outs c main_arg13 = m ((c : Thread nD τ).loc main_arg13) :=
  (V39_of m outs c main_arg13 (by decide)).trans (Karg13_38 m outs c)
theorem Karg13_40 : V40 m outs c main_arg13 = m ((c : Thread nD τ).loc main_arg13) :=
  (V40_of m outs c main_arg13 (by decide)).trans (Karg13_39 m outs c)
theorem Karg13_41 : V41 m outs c main_arg13 = m ((c : Thread nD τ).loc main_arg13) :=
  (V41_of m outs c main_arg13 (by decide)).trans (Karg13_40 m outs c)
theorem Karg13_42 : V42 m outs c main_arg13 = m ((c : Thread nD τ).loc main_arg13) :=
  (V42_of m outs c main_arg13 (by decide)).trans (Karg13_41 m outs c)
theorem Karg13_43 : V43 m outs c main_arg13 = m ((c : Thread nD τ).loc main_arg13) :=
  (V43_of m outs c main_arg13 (by decide)).trans (Karg13_42 m outs c)
theorem Karg13_44 : V44 m outs c main_arg13 = m ((c : Thread nD τ).loc main_arg13) :=
  (V44_of m outs c main_arg13 (by decide)).trans (Karg13_43 m outs c)
theorem Karg13_45 : V45 m outs c main_arg13 = m ((c : Thread nD τ).loc main_arg13) :=
  (V45_of m outs c main_arg13 (by decide)).trans (Karg13_44 m outs c)
theorem Karg13_46 : V46 m outs c main_arg13 = m ((c : Thread nD τ).loc main_arg13) :=
  (V46_of m outs c main_arg13 (by decide)).trans (Karg13_45 m outs c)
theorem Karg13_47 : V47 m outs c main_arg13 = m ((c : Thread nD τ).loc main_arg13) :=
  (V47_of m outs c main_arg13 (by decide)).trans (Karg13_46 m outs c)
theorem Karg13_48 : V48 m outs c main_arg13 = m ((c : Thread nD τ).loc main_arg13) :=
  (V48_of m outs c main_arg13 (by decide)).trans (Karg13_47 m outs c)
theorem Karg13_49 : V49 m outs c main_arg13 = m ((c : Thread nD τ).loc main_arg13) :=
  (V49_of m outs c main_arg13 (by decide)).trans (Karg13_48 m outs c)
theorem Karg13_50 : V50 m outs c main_arg13 = m ((c : Thread nD τ).loc main_arg13) :=
  (V50_of m outs c main_arg13 (by decide)).trans (Karg13_49 m outs c)
theorem Karg13_51 : V51 m outs c main_arg13 = m ((c : Thread nD τ).loc main_arg13) :=
  (V51_of m outs c main_arg13 (by decide)).trans (Karg13_50 m outs c)
theorem Karg13_52 : V52 m outs c main_arg13 = m ((c : Thread nD τ).loc main_arg13) :=
  (V52_of m outs c main_arg13 (by decide)).trans (Karg13_51 m outs c)
theorem Karg13_53 : V53 m outs c main_arg13 = m ((c : Thread nD τ).loc main_arg13) :=
  (V53_of m outs c main_arg13 (by decide)).trans (Karg13_52 m outs c)
theorem Karg13_54 : V54 m outs c main_arg13 = m ((c : Thread nD τ).loc main_arg13) :=
  (V54_of m outs c main_arg13 (by decide)).trans (Karg13_53 m outs c)
theorem Karg13_55 : V55 m outs c main_arg13 = m ((c : Thread nD τ).loc main_arg13) :=
  (V55_of m outs c main_arg13 (by decide)).trans (Karg13_54 m outs c)
theorem Karg13_56 : V56 m outs c main_arg13 = m ((c : Thread nD τ).loc main_arg13) :=
  (V56_of m outs c main_arg13 (by decide)).trans (Karg13_55 m outs c)
theorem Karg13_57 : V57 m outs c main_arg13 = m ((c : Thread nD τ).loc main_arg13) :=
  (V57_of m outs c main_arg13 (by decide)).trans (Karg13_56 m outs c)
theorem Karg13_58 : V58 m outs c main_arg13 = m ((c : Thread nD τ).loc main_arg13) :=
  (V58_of m outs c main_arg13 (by decide)).trans (Karg13_57 m outs c)
theorem Karg13_59 : V59 m outs c main_arg13 = m ((c : Thread nD τ).loc main_arg13) :=
  (V59_of m outs c main_arg13 (by decide)).trans (Karg13_58 m outs c)
theorem Karg13_60 : V60 m outs c main_arg13 = m ((c : Thread nD τ).loc main_arg13) :=
  (V60_of m outs c main_arg13 (by decide)).trans (Karg13_59 m outs c)
theorem Karg13_61 : V61 m outs c main_arg13 = m ((c : Thread nD τ).loc main_arg13) :=
  (V61_of m outs c main_arg13 (by decide)).trans (Karg13_60 m outs c)
theorem Karg13_62 : V62 m outs c main_arg13 = m ((c : Thread nD τ).loc main_arg13) :=
  (V62_of m outs c main_arg13 (by decide)).trans (Karg13_61 m outs c)
theorem Karg13_63 : V63 m outs c main_arg13 = m ((c : Thread nD τ).loc main_arg13) :=
  (V63_of m outs c main_arg13 (by decide)).trans (Karg13_62 m outs c)
theorem Karg13_64 : V64 m outs c main_arg13 = m ((c : Thread nD τ).loc main_arg13) :=
  (V64_of m outs c main_arg13 (by decide)).trans (Karg13_63 m outs c)
theorem Karg13_65 : V65 m outs c main_arg13 = m ((c : Thread nD τ).loc main_arg13) :=
  (V65_of m outs c main_arg13 (by decide)).trans (Karg13_64 m outs c)
theorem Karg13_66 : V66 m outs c main_arg13 = m ((c : Thread nD τ).loc main_arg13) :=
  (V66_of m outs c main_arg13 (by decide)).trans (Karg13_65 m outs c)
theorem Karg13_67 : V67 m outs c main_arg13 = m ((c : Thread nD τ).loc main_arg13) :=
  (V67_of m outs c main_arg13 (by decide)).trans (Karg13_66 m outs c)
theorem Karg13_68 : V68 m outs c main_arg13 = m ((c : Thread nD τ).loc main_arg13) :=
  (V68_of m outs c main_arg13 (by decide)).trans (Karg13_67 m outs c)
theorem Karg13_69 : V69 m outs c main_arg13 = m ((c : Thread nD τ).loc main_arg13) :=
  (V69_of m outs c main_arg13 (by decide)).trans (Karg13_68 m outs c)
theorem Karg13_70 : V70 m outs c main_arg13 = m ((c : Thread nD τ).loc main_arg13) :=
  (V70_of m outs c main_arg13 (by decide)).trans (Karg13_69 m outs c)
theorem Karg13_71 : V71 m outs c main_arg13 = m ((c : Thread nD τ).loc main_arg13) :=
  (V71_of m outs c main_arg13 (by decide)).trans (Karg13_70 m outs c)
theorem Karg13_72 : V72 m outs c main_arg13 = m ((c : Thread nD τ).loc main_arg13) :=
  (V72_of m outs c main_arg13 (by decide)).trans (Karg13_71 m outs c)
theorem Karg13_73 : V73 m outs c main_arg13 = m ((c : Thread nD τ).loc main_arg13) :=
  (V73_of m outs c main_arg13 (by decide)).trans (Karg13_72 m outs c)
theorem Karg13_74 : V74 m outs c main_arg13 = m ((c : Thread nD τ).loc main_arg13) :=
  (V74_of m outs c main_arg13 (by decide)).trans (Karg13_73 m outs c)
theorem Karg13_75 : V75 m outs c main_arg13 = m ((c : Thread nD τ).loc main_arg13) :=
  (V75_of m outs c main_arg13 (by decide)).trans (Karg13_74 m outs c)
theorem Karg13_76 : V76 m outs c main_arg13 = m ((c : Thread nD τ).loc main_arg13) :=
  (V76_of m outs c main_arg13 (by decide)).trans (Karg13_75 m outs c)
theorem Karg13_77 : V77 m outs c main_arg13 = m ((c : Thread nD τ).loc main_arg13) :=
  (V77_of m outs c main_arg13 (by decide)).trans (Karg13_76 m outs c)
theorem Karg13_78 : V78 m outs c main_arg13 = m ((c : Thread nD τ).loc main_arg13) :=
  (V78_of m outs c main_arg13 (by decide)).trans (Karg13_77 m outs c)
theorem Karg13_79 : V79 m outs c main_arg13 = m ((c : Thread nD τ).loc main_arg13) :=
  (V79_of m outs c main_arg13 (by decide)).trans (Karg13_78 m outs c)
theorem Karg13_80 : V80 m outs c main_arg13 = m ((c : Thread nD τ).loc main_arg13) :=
  (V80_of m outs c main_arg13 (by decide)).trans (Karg13_79 m outs c)
theorem Karg13_81 : V81 m outs c main_arg13 = m ((c : Thread nD τ).loc main_arg13) :=
  (V81_of m outs c main_arg13 (by decide)).trans (Karg13_80 m outs c)
/-! ### main_arg14 -/
theorem Karg14_0 : V0 m c main_arg14 = m ((c : Thread nD τ).loc main_arg14) := rfl
theorem Karg14_1 : V1 m c main_arg14 = m ((c : Thread nD τ).loc main_arg14) :=
  (V1_of m c main_arg14 (by decide)).trans (Karg14_0 m c)
theorem Karg14_2 : V2 m outs c main_arg14 = m ((c : Thread nD τ).loc main_arg14) :=
  (V2_of m outs c main_arg14 (by decide)).trans (Karg14_1 m c)
theorem Karg14_3 : V3 m outs c main_arg14 = m ((c : Thread nD τ).loc main_arg14) :=
  (V3_of m outs c main_arg14 (by decide)).trans (Karg14_2 m outs c)
theorem Karg14_4 : V4 m outs c main_arg14 = m ((c : Thread nD τ).loc main_arg14) :=
  (V4_of m outs c main_arg14 (by decide)).trans (Karg14_3 m outs c)
theorem Karg14_5 : V5 m outs c main_arg14 = m ((c : Thread nD τ).loc main_arg14) :=
  (V5_of m outs c main_arg14 (by decide)).trans (Karg14_4 m outs c)
theorem Karg14_6 : V6 m outs c main_arg14 = m ((c : Thread nD τ).loc main_arg14) :=
  (V6_of m outs c main_arg14 (by decide)).trans (Karg14_5 m outs c)
theorem Karg14_7 : V7 m outs c main_arg14 = m ((c : Thread nD τ).loc main_arg14) :=
  (V7_of m outs c main_arg14 (by decide)).trans (Karg14_6 m outs c)
theorem Karg14_8 : V8 m outs c main_arg14 = m ((c : Thread nD τ).loc main_arg14) :=
  (V8_of m outs c main_arg14 (by decide)).trans (Karg14_7 m outs c)
theorem Karg14_9 : V9 m outs c main_arg14 = m ((c : Thread nD τ).loc main_arg14) :=
  (V9_of m outs c main_arg14 (by decide)).trans (Karg14_8 m outs c)
theorem Karg14_10 : V10 m outs c main_arg14 = m ((c : Thread nD τ).loc main_arg14) :=
  (V10_of m outs c main_arg14 (by decide)).trans (Karg14_9 m outs c)
theorem Karg14_11 : V11 m outs c main_arg14 = m ((c : Thread nD τ).loc main_arg14) :=
  (V11_of m outs c main_arg14 (by decide)).trans (Karg14_10 m outs c)
theorem Karg14_12 : V12 m outs c main_arg14 = m ((c : Thread nD τ).loc main_arg14) :=
  (V12_of m outs c main_arg14 (by decide)).trans (Karg14_11 m outs c)
theorem Karg14_13 : V13 m outs c main_arg14 = m ((c : Thread nD τ).loc main_arg14) :=
  (V13_of m outs c main_arg14 (by decide)).trans (Karg14_12 m outs c)
theorem Karg14_14 : V14 m outs c main_arg14 = m ((c : Thread nD τ).loc main_arg14) :=
  (V14_of m outs c main_arg14 (by decide)).trans (Karg14_13 m outs c)
theorem Karg14_15 : V15 m outs c main_arg14 = m ((c : Thread nD τ).loc main_arg14) :=
  (V15_of m outs c main_arg14 (by decide)).trans (Karg14_14 m outs c)
theorem Karg14_16 : V16 m outs c main_arg14 = m ((c : Thread nD τ).loc main_arg14) :=
  (V16_of m outs c main_arg14 (by decide)).trans (Karg14_15 m outs c)
theorem Karg14_17 : V17 m outs c main_arg14 = m ((c : Thread nD τ).loc main_arg14) :=
  (V17_of m outs c main_arg14 (by decide)).trans (Karg14_16 m outs c)
theorem Karg14_18 : V18 m outs c main_arg14 = m ((c : Thread nD τ).loc main_arg14) :=
  (V18_of m outs c main_arg14 (by decide)).trans (Karg14_17 m outs c)
theorem Karg14_19 : V19 m outs c main_arg14 = m ((c : Thread nD τ).loc main_arg14) :=
  (V19_of m outs c main_arg14 (by decide)).trans (Karg14_18 m outs c)
theorem Karg14_20 : V20 m outs c main_arg14 = m ((c : Thread nD τ).loc main_arg14) :=
  (V20_of m outs c main_arg14 (by decide)).trans (Karg14_19 m outs c)
theorem Karg14_21 : V21 m outs c main_arg14 = m ((c : Thread nD τ).loc main_arg14) :=
  (V21_of m outs c main_arg14 (by decide)).trans (Karg14_20 m outs c)
theorem Karg14_22 : V22 m outs c main_arg14 = m ((c : Thread nD τ).loc main_arg14) :=
  (V22_of m outs c main_arg14 (by decide)).trans (Karg14_21 m outs c)
theorem Karg14_23 : V23 m outs c main_arg14 = m ((c : Thread nD τ).loc main_arg14) :=
  (V23_of m outs c main_arg14 (by decide)).trans (Karg14_22 m outs c)
theorem Karg14_24 : V24 m outs c main_arg14 = m ((c : Thread nD τ).loc main_arg14) :=
  (V24_of m outs c main_arg14 (by decide)).trans (Karg14_23 m outs c)
theorem Karg14_25 : V25 m outs c main_arg14 = m ((c : Thread nD τ).loc main_arg14) :=
  (V25_of m outs c main_arg14 (by decide)).trans (Karg14_24 m outs c)
theorem Karg14_26 : V26 m outs c main_arg14 = m ((c : Thread nD τ).loc main_arg14) :=
  (V26_of m outs c main_arg14 (by decide)).trans (Karg14_25 m outs c)
theorem Karg14_27 : V27 m outs c main_arg14 = m ((c : Thread nD τ).loc main_arg14) :=
  (V27_of m outs c main_arg14 (by decide)).trans (Karg14_26 m outs c)
theorem Karg14_28 : V28 m outs c main_arg14 = m ((c : Thread nD τ).loc main_arg14) :=
  (V28_of m outs c main_arg14 (by decide)).trans (Karg14_27 m outs c)
theorem Karg14_29 : V29 m outs c main_arg14 = m ((c : Thread nD τ).loc main_arg14) :=
  (V29_of m outs c main_arg14 (by decide)).trans (Karg14_28 m outs c)
theorem Karg14_30 : V30 m outs c main_arg14 = m ((c : Thread nD τ).loc main_arg14) :=
  (V30_of m outs c main_arg14 (by decide)).trans (Karg14_29 m outs c)
theorem Karg14_31 : V31 m outs c main_arg14 = m ((c : Thread nD τ).loc main_arg14) :=
  (V31_of m outs c main_arg14 (by decide)).trans (Karg14_30 m outs c)
theorem Karg14_32 : V32 m outs c main_arg14 = m ((c : Thread nD τ).loc main_arg14) :=
  (V32_of m outs c main_arg14 (by decide)).trans (Karg14_31 m outs c)
theorem Karg14_33 : V33 m outs c main_arg14 = m ((c : Thread nD τ).loc main_arg14) :=
  (V33_of m outs c main_arg14 (by decide)).trans (Karg14_32 m outs c)
theorem Karg14_34 : V34 m outs c main_arg14 = m ((c : Thread nD τ).loc main_arg14) :=
  (V34_of m outs c main_arg14 (by decide)).trans (Karg14_33 m outs c)
theorem Karg14_35 : V35 m outs c main_arg14 = m ((c : Thread nD τ).loc main_arg14) :=
  (V35_of m outs c main_arg14 (by decide)).trans (Karg14_34 m outs c)
theorem Karg14_36 : V36 m outs c main_arg14 = m ((c : Thread nD τ).loc main_arg14) :=
  (V36_of m outs c main_arg14 (by decide)).trans (Karg14_35 m outs c)
theorem Karg14_37 : V37 m outs c main_arg14 = m ((c : Thread nD τ).loc main_arg14) :=
  (V37_of m outs c main_arg14 (by decide)).trans (Karg14_36 m outs c)
theorem Karg14_38 : V38 m outs c main_arg14 = m ((c : Thread nD τ).loc main_arg14) :=
  (V38_of m outs c main_arg14 (by decide)).trans (Karg14_37 m outs c)
theorem Karg14_39 : V39 m outs c main_arg14 = m ((c : Thread nD τ).loc main_arg14) :=
  (V39_of m outs c main_arg14 (by decide)).trans (Karg14_38 m outs c)
theorem Karg14_40 : V40 m outs c main_arg14 = m ((c : Thread nD τ).loc main_arg14) :=
  (V40_of m outs c main_arg14 (by decide)).trans (Karg14_39 m outs c)
theorem Karg14_41 : V41 m outs c main_arg14 = m ((c : Thread nD τ).loc main_arg14) :=
  (V41_of m outs c main_arg14 (by decide)).trans (Karg14_40 m outs c)
theorem Karg14_42 : V42 m outs c main_arg14 = m ((c : Thread nD τ).loc main_arg14) :=
  (V42_of m outs c main_arg14 (by decide)).trans (Karg14_41 m outs c)
theorem Karg14_43 : V43 m outs c main_arg14 = m ((c : Thread nD τ).loc main_arg14) :=
  (V43_of m outs c main_arg14 (by decide)).trans (Karg14_42 m outs c)
theorem Karg14_44 : V44 m outs c main_arg14 = m ((c : Thread nD τ).loc main_arg14) :=
  (V44_of m outs c main_arg14 (by decide)).trans (Karg14_43 m outs c)
theorem Karg14_45 : V45 m outs c main_arg14 = m ((c : Thread nD τ).loc main_arg14) :=
  (V45_of m outs c main_arg14 (by decide)).trans (Karg14_44 m outs c)
theorem Karg14_46 : V46 m outs c main_arg14 = m ((c : Thread nD τ).loc main_arg14) :=
  (V46_of m outs c main_arg14 (by decide)).trans (Karg14_45 m outs c)
theorem Karg14_47 : V47 m outs c main_arg14 = m ((c : Thread nD τ).loc main_arg14) :=
  (V47_of m outs c main_arg14 (by decide)).trans (Karg14_46 m outs c)
theorem Karg14_48 : V48 m outs c main_arg14 = m ((c : Thread nD τ).loc main_arg14) :=
  (V48_of m outs c main_arg14 (by decide)).trans (Karg14_47 m outs c)
theorem Karg14_49 : V49 m outs c main_arg14 = m ((c : Thread nD τ).loc main_arg14) :=
  (V49_of m outs c main_arg14 (by decide)).trans (Karg14_48 m outs c)
theorem Karg14_50 : V50 m outs c main_arg14 = m ((c : Thread nD τ).loc main_arg14) :=
  (V50_of m outs c main_arg14 (by decide)).trans (Karg14_49 m outs c)
theorem Karg14_51 : V51 m outs c main_arg14 = m ((c : Thread nD τ).loc main_arg14) :=
  (V51_of m outs c main_arg14 (by decide)).trans (Karg14_50 m outs c)
theorem Karg14_52 : V52 m outs c main_arg14 = m ((c : Thread nD τ).loc main_arg14) :=
  (V52_of m outs c main_arg14 (by decide)).trans (Karg14_51 m outs c)
theorem Karg14_53 : V53 m outs c main_arg14 = m ((c : Thread nD τ).loc main_arg14) :=
  (V53_of m outs c main_arg14 (by decide)).trans (Karg14_52 m outs c)
theorem Karg14_54 : V54 m outs c main_arg14 = m ((c : Thread nD τ).loc main_arg14) :=
  (V54_of m outs c main_arg14 (by decide)).trans (Karg14_53 m outs c)
theorem Karg14_55 : V55 m outs c main_arg14 = m ((c : Thread nD τ).loc main_arg14) :=
  (V55_of m outs c main_arg14 (by decide)).trans (Karg14_54 m outs c)
theorem Karg14_56 : V56 m outs c main_arg14 = m ((c : Thread nD τ).loc main_arg14) :=
  (V56_of m outs c main_arg14 (by decide)).trans (Karg14_55 m outs c)
theorem Karg14_57 : V57 m outs c main_arg14 = m ((c : Thread nD τ).loc main_arg14) :=
  (V57_of m outs c main_arg14 (by decide)).trans (Karg14_56 m outs c)
theorem Karg14_58 : V58 m outs c main_arg14 = m ((c : Thread nD τ).loc main_arg14) :=
  (V58_of m outs c main_arg14 (by decide)).trans (Karg14_57 m outs c)
theorem Karg14_59 : V59 m outs c main_arg14 = m ((c : Thread nD τ).loc main_arg14) :=
  (V59_of m outs c main_arg14 (by decide)).trans (Karg14_58 m outs c)
theorem Karg14_60 : V60 m outs c main_arg14 = m ((c : Thread nD τ).loc main_arg14) :=
  (V60_of m outs c main_arg14 (by decide)).trans (Karg14_59 m outs c)
theorem Karg14_61 : V61 m outs c main_arg14 = m ((c : Thread nD τ).loc main_arg14) :=
  (V61_of m outs c main_arg14 (by decide)).trans (Karg14_60 m outs c)
theorem Karg14_62 : V62 m outs c main_arg14 = m ((c : Thread nD τ).loc main_arg14) :=
  (V62_of m outs c main_arg14 (by decide)).trans (Karg14_61 m outs c)
theorem Karg14_63 : V63 m outs c main_arg14 = m ((c : Thread nD τ).loc main_arg14) :=
  (V63_of m outs c main_arg14 (by decide)).trans (Karg14_62 m outs c)
theorem Karg14_64 : V64 m outs c main_arg14 = m ((c : Thread nD τ).loc main_arg14) :=
  (V64_of m outs c main_arg14 (by decide)).trans (Karg14_63 m outs c)
theorem Karg14_65 : V65 m outs c main_arg14 = m ((c : Thread nD τ).loc main_arg14) :=
  (V65_of m outs c main_arg14 (by decide)).trans (Karg14_64 m outs c)
theorem Karg14_66 : V66 m outs c main_arg14 = m ((c : Thread nD τ).loc main_arg14) :=
  (V66_of m outs c main_arg14 (by decide)).trans (Karg14_65 m outs c)
theorem Karg14_67 : V67 m outs c main_arg14 = m ((c : Thread nD τ).loc main_arg14) :=
  (V67_of m outs c main_arg14 (by decide)).trans (Karg14_66 m outs c)
theorem Karg14_68 : V68 m outs c main_arg14 = m ((c : Thread nD τ).loc main_arg14) :=
  (V68_of m outs c main_arg14 (by decide)).trans (Karg14_67 m outs c)
theorem Karg14_69 : V69 m outs c main_arg14 = m ((c : Thread nD τ).loc main_arg14) :=
  (V69_of m outs c main_arg14 (by decide)).trans (Karg14_68 m outs c)
theorem Karg14_70 : V70 m outs c main_arg14 = m ((c : Thread nD τ).loc main_arg14) :=
  (V70_of m outs c main_arg14 (by decide)).trans (Karg14_69 m outs c)
theorem Karg14_71 : V71 m outs c main_arg14 = m ((c : Thread nD τ).loc main_arg14) :=
  (V71_of m outs c main_arg14 (by decide)).trans (Karg14_70 m outs c)
theorem Karg14_72 : V72 m outs c main_arg14 = m ((c : Thread nD τ).loc main_arg14) :=
  (V72_of m outs c main_arg14 (by decide)).trans (Karg14_71 m outs c)
theorem Karg14_73 : V73 m outs c main_arg14 = m ((c : Thread nD τ).loc main_arg14) :=
  (V73_of m outs c main_arg14 (by decide)).trans (Karg14_72 m outs c)
theorem Karg14_74 : V74 m outs c main_arg14 = m ((c : Thread nD τ).loc main_arg14) :=
  (V74_of m outs c main_arg14 (by decide)).trans (Karg14_73 m outs c)
theorem Karg14_75 : V75 m outs c main_arg14 = m ((c : Thread nD τ).loc main_arg14) :=
  (V75_of m outs c main_arg14 (by decide)).trans (Karg14_74 m outs c)
theorem Karg14_76 : V76 m outs c main_arg14 = m ((c : Thread nD τ).loc main_arg14) :=
  (V76_of m outs c main_arg14 (by decide)).trans (Karg14_75 m outs c)
theorem Karg14_77 : V77 m outs c main_arg14 = m ((c : Thread nD τ).loc main_arg14) :=
  (V77_of m outs c main_arg14 (by decide)).trans (Karg14_76 m outs c)
theorem Karg14_78 : V78 m outs c main_arg14 = m ((c : Thread nD τ).loc main_arg14) :=
  (V78_of m outs c main_arg14 (by decide)).trans (Karg14_77 m outs c)
theorem Karg14_79 : V79 m outs c main_arg14 = m ((c : Thread nD τ).loc main_arg14) :=
  (V79_of m outs c main_arg14 (by decide)).trans (Karg14_78 m outs c)
theorem Karg14_80 : V80 m outs c main_arg14 = m ((c : Thread nD τ).loc main_arg14) :=
  (V80_of m outs c main_arg14 (by decide)).trans (Karg14_79 m outs c)
theorem Karg14_81 : V81 m outs c main_arg14 = m ((c : Thread nD τ).loc main_arg14) :=
  (V81_of m outs c main_arg14 (by decide)).trans (Karg14_80 m outs c)
/-! ### main_arg15 -/
theorem Karg15_0 : V0 m c main_arg15 = m ((c : Thread nD τ).loc main_arg15) := rfl
theorem Karg15_1 : V1 m c main_arg15 = m ((c : Thread nD τ).loc main_arg15) :=
  (V1_of m c main_arg15 (by decide)).trans (Karg15_0 m c)
theorem Karg15_2 : V2 m outs c main_arg15 = m ((c : Thread nD τ).loc main_arg15) :=
  (V2_of m outs c main_arg15 (by decide)).trans (Karg15_1 m c)
theorem Karg15_3 : V3 m outs c main_arg15 = m ((c : Thread nD τ).loc main_arg15) :=
  (V3_of m outs c main_arg15 (by decide)).trans (Karg15_2 m outs c)
theorem Karg15_4 : V4 m outs c main_arg15 = m ((c : Thread nD τ).loc main_arg15) :=
  (V4_of m outs c main_arg15 (by decide)).trans (Karg15_3 m outs c)
theorem Karg15_5 : V5 m outs c main_arg15 = m ((c : Thread nD τ).loc main_arg15) :=
  (V5_of m outs c main_arg15 (by decide)).trans (Karg15_4 m outs c)
theorem Karg15_6 : V6 m outs c main_arg15 = m ((c : Thread nD τ).loc main_arg15) :=
  (V6_of m outs c main_arg15 (by decide)).trans (Karg15_5 m outs c)
theorem Karg15_7 : V7 m outs c main_arg15 = m ((c : Thread nD τ).loc main_arg15) :=
  (V7_of m outs c main_arg15 (by decide)).trans (Karg15_6 m outs c)
theorem Karg15_8 : V8 m outs c main_arg15 = m ((c : Thread nD τ).loc main_arg15) :=
  (V8_of m outs c main_arg15 (by decide)).trans (Karg15_7 m outs c)
theorem Karg15_9 : V9 m outs c main_arg15 = m ((c : Thread nD τ).loc main_arg15) :=
  (V9_of m outs c main_arg15 (by decide)).trans (Karg15_8 m outs c)
theorem Karg15_10 : V10 m outs c main_arg15 = m ((c : Thread nD τ).loc main_arg15) :=
  (V10_of m outs c main_arg15 (by decide)).trans (Karg15_9 m outs c)
theorem Karg15_11 : V11 m outs c main_arg15 = m ((c : Thread nD τ).loc main_arg15) :=
  (V11_of m outs c main_arg15 (by decide)).trans (Karg15_10 m outs c)
theorem Karg15_12 : V12 m outs c main_arg15 = m ((c : Thread nD τ).loc main_arg15) :=
  (V12_of m outs c main_arg15 (by decide)).trans (Karg15_11 m outs c)
theorem Karg15_13 : V13 m outs c main_arg15 = m ((c : Thread nD τ).loc main_arg15) :=
  (V13_of m outs c main_arg15 (by decide)).trans (Karg15_12 m outs c)
theorem Karg15_14 : V14 m outs c main_arg15 = m ((c : Thread nD τ).loc main_arg15) :=
  (V14_of m outs c main_arg15 (by decide)).trans (Karg15_13 m outs c)
theorem Karg15_15 : V15 m outs c main_arg15 = m ((c : Thread nD τ).loc main_arg15) :=
  (V15_of m outs c main_arg15 (by decide)).trans (Karg15_14 m outs c)
theorem Karg15_16 : V16 m outs c main_arg15 = m ((c : Thread nD τ).loc main_arg15) :=
  (V16_of m outs c main_arg15 (by decide)).trans (Karg15_15 m outs c)
theorem Karg15_17 : V17 m outs c main_arg15 = m ((c : Thread nD τ).loc main_arg15) :=
  (V17_of m outs c main_arg15 (by decide)).trans (Karg15_16 m outs c)
theorem Karg15_18 : V18 m outs c main_arg15 = m ((c : Thread nD τ).loc main_arg15) :=
  (V18_of m outs c main_arg15 (by decide)).trans (Karg15_17 m outs c)
theorem Karg15_19 : V19 m outs c main_arg15 = m ((c : Thread nD τ).loc main_arg15) :=
  (V19_of m outs c main_arg15 (by decide)).trans (Karg15_18 m outs c)
theorem Karg15_20 : V20 m outs c main_arg15 = m ((c : Thread nD τ).loc main_arg15) :=
  (V20_of m outs c main_arg15 (by decide)).trans (Karg15_19 m outs c)
theorem Karg15_21 : V21 m outs c main_arg15 = m ((c : Thread nD τ).loc main_arg15) :=
  (V21_of m outs c main_arg15 (by decide)).trans (Karg15_20 m outs c)
theorem Karg15_22 : V22 m outs c main_arg15 = m ((c : Thread nD τ).loc main_arg15) :=
  (V22_of m outs c main_arg15 (by decide)).trans (Karg15_21 m outs c)
theorem Karg15_23 : V23 m outs c main_arg15 = m ((c : Thread nD τ).loc main_arg15) :=
  (V23_of m outs c main_arg15 (by decide)).trans (Karg15_22 m outs c)
theorem Karg15_24 : V24 m outs c main_arg15 = m ((c : Thread nD τ).loc main_arg15) :=
  (V24_of m outs c main_arg15 (by decide)).trans (Karg15_23 m outs c)
theorem Karg15_25 : V25 m outs c main_arg15 = m ((c : Thread nD τ).loc main_arg15) :=
  (V25_of m outs c main_arg15 (by decide)).trans (Karg15_24 m outs c)
theorem Karg15_26 : V26 m outs c main_arg15 = m ((c : Thread nD τ).loc main_arg15) :=
  (V26_of m outs c main_arg15 (by decide)).trans (Karg15_25 m outs c)
theorem Karg15_27 : V27 m outs c main_arg15 = m ((c : Thread nD τ).loc main_arg15) :=
  (V27_of m outs c main_arg15 (by decide)).trans (Karg15_26 m outs c)
theorem Karg15_28 : V28 m outs c main_arg15 = m ((c : Thread nD τ).loc main_arg15) :=
  (V28_of m outs c main_arg15 (by decide)).trans (Karg15_27 m outs c)
theorem Karg15_29 : V29 m outs c main_arg15 = m ((c : Thread nD τ).loc main_arg15) :=
  (V29_of m outs c main_arg15 (by decide)).trans (Karg15_28 m outs c)
theorem Karg15_30 : V30 m outs c main_arg15 = m ((c : Thread nD τ).loc main_arg15) :=
  (V30_of m outs c main_arg15 (by decide)).trans (Karg15_29 m outs c)
theorem Karg15_31 : V31 m outs c main_arg15 = m ((c : Thread nD τ).loc main_arg15) :=
  (V31_of m outs c main_arg15 (by decide)).trans (Karg15_30 m outs c)
theorem Karg15_32 : V32 m outs c main_arg15 = m ((c : Thread nD τ).loc main_arg15) :=
  (V32_of m outs c main_arg15 (by decide)).trans (Karg15_31 m outs c)
theorem Karg15_33 : V33 m outs c main_arg15 = m ((c : Thread nD τ).loc main_arg15) :=
  (V33_of m outs c main_arg15 (by decide)).trans (Karg15_32 m outs c)
theorem Karg15_34 : V34 m outs c main_arg15 = m ((c : Thread nD τ).loc main_arg15) :=
  (V34_of m outs c main_arg15 (by decide)).trans (Karg15_33 m outs c)
theorem Karg15_35 : V35 m outs c main_arg15 = m ((c : Thread nD τ).loc main_arg15) :=
  (V35_of m outs c main_arg15 (by decide)).trans (Karg15_34 m outs c)
theorem Karg15_36 : V36 m outs c main_arg15 = m ((c : Thread nD τ).loc main_arg15) :=
  (V36_of m outs c main_arg15 (by decide)).trans (Karg15_35 m outs c)
theorem Karg15_37 : V37 m outs c main_arg15 = m ((c : Thread nD τ).loc main_arg15) :=
  (V37_of m outs c main_arg15 (by decide)).trans (Karg15_36 m outs c)
theorem Karg15_38 : V38 m outs c main_arg15 = m ((c : Thread nD τ).loc main_arg15) :=
  (V38_of m outs c main_arg15 (by decide)).trans (Karg15_37 m outs c)
theorem Karg15_39 : V39 m outs c main_arg15 = m ((c : Thread nD τ).loc main_arg15) :=
  (V39_of m outs c main_arg15 (by decide)).trans (Karg15_38 m outs c)
theorem Karg15_40 : V40 m outs c main_arg15 = m ((c : Thread nD τ).loc main_arg15) :=
  (V40_of m outs c main_arg15 (by decide)).trans (Karg15_39 m outs c)
theorem Karg15_41 : V41 m outs c main_arg15 = m ((c : Thread nD τ).loc main_arg15) :=
  (V41_of m outs c main_arg15 (by decide)).trans (Karg15_40 m outs c)
theorem Karg15_42 : V42 m outs c main_arg15 = m ((c : Thread nD τ).loc main_arg15) :=
  (V42_of m outs c main_arg15 (by decide)).trans (Karg15_41 m outs c)
theorem Karg15_43 : V43 m outs c main_arg15 = m ((c : Thread nD τ).loc main_arg15) :=
  (V43_of m outs c main_arg15 (by decide)).trans (Karg15_42 m outs c)
theorem Karg15_44 : V44 m outs c main_arg15 = m ((c : Thread nD τ).loc main_arg15) :=
  (V44_of m outs c main_arg15 (by decide)).trans (Karg15_43 m outs c)
theorem Karg15_45 : V45 m outs c main_arg15 = m ((c : Thread nD τ).loc main_arg15) :=
  (V45_of m outs c main_arg15 (by decide)).trans (Karg15_44 m outs c)
theorem Karg15_46 : V46 m outs c main_arg15 = m ((c : Thread nD τ).loc main_arg15) :=
  (V46_of m outs c main_arg15 (by decide)).trans (Karg15_45 m outs c)
theorem Karg15_47 : V47 m outs c main_arg15 = m ((c : Thread nD τ).loc main_arg15) :=
  (V47_of m outs c main_arg15 (by decide)).trans (Karg15_46 m outs c)
theorem Karg15_48 : V48 m outs c main_arg15 = m ((c : Thread nD τ).loc main_arg15) :=
  (V48_of m outs c main_arg15 (by decide)).trans (Karg15_47 m outs c)
theorem Karg15_49 : V49 m outs c main_arg15 = m ((c : Thread nD τ).loc main_arg15) :=
  (V49_of m outs c main_arg15 (by decide)).trans (Karg15_48 m outs c)
theorem Karg15_50 : V50 m outs c main_arg15 = m ((c : Thread nD τ).loc main_arg15) :=
  (V50_of m outs c main_arg15 (by decide)).trans (Karg15_49 m outs c)
theorem Karg15_51 : V51 m outs c main_arg15 = m ((c : Thread nD τ).loc main_arg15) :=
  (V51_of m outs c main_arg15 (by decide)).trans (Karg15_50 m outs c)
theorem Karg15_52 : V52 m outs c main_arg15 = m ((c : Thread nD τ).loc main_arg15) :=
  (V52_of m outs c main_arg15 (by decide)).trans (Karg15_51 m outs c)
theorem Karg15_53 : V53 m outs c main_arg15 = m ((c : Thread nD τ).loc main_arg15) :=
  (V53_of m outs c main_arg15 (by decide)).trans (Karg15_52 m outs c)
theorem Karg15_54 : V54 m outs c main_arg15 = m ((c : Thread nD τ).loc main_arg15) :=
  (V54_of m outs c main_arg15 (by decide)).trans (Karg15_53 m outs c)
theorem Karg15_55 : V55 m outs c main_arg15 = m ((c : Thread nD τ).loc main_arg15) :=
  (V55_of m outs c main_arg15 (by decide)).trans (Karg15_54 m outs c)
theorem Karg15_56 : V56 m outs c main_arg15 = m ((c : Thread nD τ).loc main_arg15) :=
  (V56_of m outs c main_arg15 (by decide)).trans (Karg15_55 m outs c)
theorem Karg15_57 : V57 m outs c main_arg15 = m ((c : Thread nD τ).loc main_arg15) :=
  (V57_of m outs c main_arg15 (by decide)).trans (Karg15_56 m outs c)
theorem Karg15_58 : V58 m outs c main_arg15 = m ((c : Thread nD τ).loc main_arg15) :=
  (V58_of m outs c main_arg15 (by decide)).trans (Karg15_57 m outs c)
theorem Karg15_59 : V59 m outs c main_arg15 = m ((c : Thread nD τ).loc main_arg15) :=
  (V59_of m outs c main_arg15 (by decide)).trans (Karg15_58 m outs c)
theorem Karg15_60 : V60 m outs c main_arg15 = m ((c : Thread nD τ).loc main_arg15) :=
  (V60_of m outs c main_arg15 (by decide)).trans (Karg15_59 m outs c)
theorem Karg15_61 : V61 m outs c main_arg15 = m ((c : Thread nD τ).loc main_arg15) :=
  (V61_of m outs c main_arg15 (by decide)).trans (Karg15_60 m outs c)
theorem Karg15_62 : V62 m outs c main_arg15 = m ((c : Thread nD τ).loc main_arg15) :=
  (V62_of m outs c main_arg15 (by decide)).trans (Karg15_61 m outs c)
theorem Karg15_63 : V63 m outs c main_arg15 = m ((c : Thread nD τ).loc main_arg15) :=
  (V63_of m outs c main_arg15 (by decide)).trans (Karg15_62 m outs c)
theorem Karg15_64 : V64 m outs c main_arg15 = m ((c : Thread nD τ).loc main_arg15) :=
  (V64_of m outs c main_arg15 (by decide)).trans (Karg15_63 m outs c)
theorem Karg15_65 : V65 m outs c main_arg15 = m ((c : Thread nD τ).loc main_arg15) :=
  (V65_of m outs c main_arg15 (by decide)).trans (Karg15_64 m outs c)
theorem Karg15_66 : V66 m outs c main_arg15 = m ((c : Thread nD τ).loc main_arg15) :=
  (V66_of m outs c main_arg15 (by decide)).trans (Karg15_65 m outs c)
theorem Karg15_67 : V67 m outs c main_arg15 = m ((c : Thread nD τ).loc main_arg15) :=
  (V67_of m outs c main_arg15 (by decide)).trans (Karg15_66 m outs c)
theorem Karg15_68 : V68 m outs c main_arg15 = m ((c : Thread nD τ).loc main_arg15) :=
  (V68_of m outs c main_arg15 (by decide)).trans (Karg15_67 m outs c)
theorem Karg15_69 : V69 m outs c main_arg15 = m ((c : Thread nD τ).loc main_arg15) :=
  (V69_of m outs c main_arg15 (by decide)).trans (Karg15_68 m outs c)
theorem Karg15_70 : V70 m outs c main_arg15 = m ((c : Thread nD τ).loc main_arg15) :=
  (V70_of m outs c main_arg15 (by decide)).trans (Karg15_69 m outs c)
theorem Karg15_71 : V71 m outs c main_arg15 = m ((c : Thread nD τ).loc main_arg15) :=
  (V71_of m outs c main_arg15 (by decide)).trans (Karg15_70 m outs c)
theorem Karg15_72 : V72 m outs c main_arg15 = m ((c : Thread nD τ).loc main_arg15) :=
  (V72_of m outs c main_arg15 (by decide)).trans (Karg15_71 m outs c)
theorem Karg15_73 : V73 m outs c main_arg15 = m ((c : Thread nD τ).loc main_arg15) :=
  (V73_of m outs c main_arg15 (by decide)).trans (Karg15_72 m outs c)
theorem Karg15_74 : V74 m outs c main_arg15 = m ((c : Thread nD τ).loc main_arg15) :=
  (V74_of m outs c main_arg15 (by decide)).trans (Karg15_73 m outs c)
theorem Karg15_75 : V75 m outs c main_arg15 = m ((c : Thread nD τ).loc main_arg15) :=
  (V75_of m outs c main_arg15 (by decide)).trans (Karg15_74 m outs c)
theorem Karg15_76 : V76 m outs c main_arg15 = m ((c : Thread nD τ).loc main_arg15) :=
  (V76_of m outs c main_arg15 (by decide)).trans (Karg15_75 m outs c)
theorem Karg15_77 : V77 m outs c main_arg15 = m ((c : Thread nD τ).loc main_arg15) :=
  (V77_of m outs c main_arg15 (by decide)).trans (Karg15_76 m outs c)
theorem Karg15_78 : V78 m outs c main_arg15 = m ((c : Thread nD τ).loc main_arg15) :=
  (V78_of m outs c main_arg15 (by decide)).trans (Karg15_77 m outs c)
theorem Karg15_79 : V79 m outs c main_arg15 = m ((c : Thread nD τ).loc main_arg15) :=
  (V79_of m outs c main_arg15 (by decide)).trans (Karg15_78 m outs c)
theorem Karg15_80 : V80 m outs c main_arg15 = m ((c : Thread nD τ).loc main_arg15) :=
  (V80_of m outs c main_arg15 (by decide)).trans (Karg15_79 m outs c)
theorem Karg15_81 : V81 m outs c main_arg15 = m ((c : Thread nD τ).loc main_arg15) :=
  (V81_of m outs c main_arg15 (by decide)).trans (Karg15_80 m outs c)
/-! ### main_arg16 -/
theorem Karg16_0 : V0 m c main_arg16 = m ((c : Thread nD τ).loc main_arg16) := rfl
theorem Karg16_1 : V1 m c main_arg16 = m ((c : Thread nD τ).loc main_arg16) :=
  (V1_of m c main_arg16 (by decide)).trans (Karg16_0 m c)
theorem Karg16_2 : V2 m outs c main_arg16 = m ((c : Thread nD τ).loc main_arg16) :=
  (V2_of m outs c main_arg16 (by decide)).trans (Karg16_1 m c)
theorem Karg16_3 : V3 m outs c main_arg16 = m ((c : Thread nD τ).loc main_arg16) :=
  (V3_of m outs c main_arg16 (by decide)).trans (Karg16_2 m outs c)
theorem Karg16_4 : V4 m outs c main_arg16 = m ((c : Thread nD τ).loc main_arg16) :=
  (V4_of m outs c main_arg16 (by decide)).trans (Karg16_3 m outs c)
theorem Karg16_5 : V5 m outs c main_arg16 = m ((c : Thread nD τ).loc main_arg16) :=
  (V5_of m outs c main_arg16 (by decide)).trans (Karg16_4 m outs c)
theorem Karg16_6 : V6 m outs c main_arg16 = m ((c : Thread nD τ).loc main_arg16) :=
  (V6_of m outs c main_arg16 (by decide)).trans (Karg16_5 m outs c)
theorem Karg16_7 : V7 m outs c main_arg16 = m ((c : Thread nD τ).loc main_arg16) :=
  (V7_of m outs c main_arg16 (by decide)).trans (Karg16_6 m outs c)
theorem Karg16_8 : V8 m outs c main_arg16 = m ((c : Thread nD τ).loc main_arg16) :=
  (V8_of m outs c main_arg16 (by decide)).trans (Karg16_7 m outs c)
theorem Karg16_9 : V9 m outs c main_arg16 = m ((c : Thread nD τ).loc main_arg16) :=
  (V9_of m outs c main_arg16 (by decide)).trans (Karg16_8 m outs c)
theorem Karg16_10 : V10 m outs c main_arg16 = m ((c : Thread nD τ).loc main_arg16) :=
  (V10_of m outs c main_arg16 (by decide)).trans (Karg16_9 m outs c)
theorem Karg16_11 : V11 m outs c main_arg16 = m ((c : Thread nD τ).loc main_arg16) :=
  (V11_of m outs c main_arg16 (by decide)).trans (Karg16_10 m outs c)
theorem Karg16_12 : V12 m outs c main_arg16 = m ((c : Thread nD τ).loc main_arg16) :=
  (V12_of m outs c main_arg16 (by decide)).trans (Karg16_11 m outs c)
theorem Karg16_13 : V13 m outs c main_arg16 = m ((c : Thread nD τ).loc main_arg16) :=
  (V13_of m outs c main_arg16 (by decide)).trans (Karg16_12 m outs c)
theorem Karg16_14 : V14 m outs c main_arg16 = m ((c : Thread nD τ).loc main_arg16) :=
  (V14_of m outs c main_arg16 (by decide)).trans (Karg16_13 m outs c)
theorem Karg16_15 : V15 m outs c main_arg16 = m ((c : Thread nD τ).loc main_arg16) :=
  (V15_of m outs c main_arg16 (by decide)).trans (Karg16_14 m outs c)
theorem Karg16_16 : V16 m outs c main_arg16 = m ((c : Thread nD τ).loc main_arg16) :=
  (V16_of m outs c main_arg16 (by decide)).trans (Karg16_15 m outs c)
theorem Karg16_17 : V17 m outs c main_arg16 = m ((c : Thread nD τ).loc main_arg16) :=
  (V17_of m outs c main_arg16 (by decide)).trans (Karg16_16 m outs c)
theorem Karg16_18 : V18 m outs c main_arg16 = m ((c : Thread nD τ).loc main_arg16) :=
  (V18_of m outs c main_arg16 (by decide)).trans (Karg16_17 m outs c)
theorem Karg16_19 : V19 m outs c main_arg16 = m ((c : Thread nD τ).loc main_arg16) :=
  (V19_of m outs c main_arg16 (by decide)).trans (Karg16_18 m outs c)
theorem Karg16_20 : V20 m outs c main_arg16 = m ((c : Thread nD τ).loc main_arg16) :=
  (V20_of m outs c main_arg16 (by decide)).trans (Karg16_19 m outs c)
theorem Karg16_21 : V21 m outs c main_arg16 = m ((c : Thread nD τ).loc main_arg16) :=
  (V21_of m outs c main_arg16 (by decide)).trans (Karg16_20 m outs c)
theorem Karg16_22 : V22 m outs c main_arg16 = m ((c : Thread nD τ).loc main_arg16) :=
  (V22_of m outs c main_arg16 (by decide)).trans (Karg16_21 m outs c)
theorem Karg16_23 : V23 m outs c main_arg16 = m ((c : Thread nD τ).loc main_arg16) :=
  (V23_of m outs c main_arg16 (by decide)).trans (Karg16_22 m outs c)
theorem Karg16_24 : V24 m outs c main_arg16 = m ((c : Thread nD τ).loc main_arg16) :=
  (V24_of m outs c main_arg16 (by decide)).trans (Karg16_23 m outs c)
theorem Karg16_25 : V25 m outs c main_arg16 = m ((c : Thread nD τ).loc main_arg16) :=
  (V25_of m outs c main_arg16 (by decide)).trans (Karg16_24 m outs c)
theorem Karg16_26 : V26 m outs c main_arg16 = m ((c : Thread nD τ).loc main_arg16) :=
  (V26_of m outs c main_arg16 (by decide)).trans (Karg16_25 m outs c)
theorem Karg16_27 : V27 m outs c main_arg16 = m ((c : Thread nD τ).loc main_arg16) :=
  (V27_of m outs c main_arg16 (by decide)).trans (Karg16_26 m outs c)
theorem Karg16_28 : V28 m outs c main_arg16 = m ((c : Thread nD τ).loc main_arg16) :=
  (V28_of m outs c main_arg16 (by decide)).trans (Karg16_27 m outs c)
theorem Karg16_29 : V29 m outs c main_arg16 = m ((c : Thread nD τ).loc main_arg16) :=
  (V29_of m outs c main_arg16 (by decide)).trans (Karg16_28 m outs c)
theorem Karg16_30 : V30 m outs c main_arg16 = m ((c : Thread nD τ).loc main_arg16) :=
  (V30_of m outs c main_arg16 (by decide)).trans (Karg16_29 m outs c)
theorem Karg16_31 : V31 m outs c main_arg16 = m ((c : Thread nD τ).loc main_arg16) :=
  (V31_of m outs c main_arg16 (by decide)).trans (Karg16_30 m outs c)
theorem Karg16_32 : V32 m outs c main_arg16 = m ((c : Thread nD τ).loc main_arg16) :=
  (V32_of m outs c main_arg16 (by decide)).trans (Karg16_31 m outs c)
theorem Karg16_33 : V33 m outs c main_arg16 = m ((c : Thread nD τ).loc main_arg16) :=
  (V33_of m outs c main_arg16 (by decide)).trans (Karg16_32 m outs c)
theorem Karg16_34 : V34 m outs c main_arg16 = m ((c : Thread nD τ).loc main_arg16) :=
  (V34_of m outs c main_arg16 (by decide)).trans (Karg16_33 m outs c)
theorem Karg16_35 : V35 m outs c main_arg16 = m ((c : Thread nD τ).loc main_arg16) :=
  (V35_of m outs c main_arg16 (by decide)).trans (Karg16_34 m outs c)
theorem Karg16_36 : V36 m outs c main_arg16 = m ((c : Thread nD τ).loc main_arg16) :=
  (V36_of m outs c main_arg16 (by decide)).trans (Karg16_35 m outs c)
theorem Karg16_37 : V37 m outs c main_arg16 = m ((c : Thread nD τ).loc main_arg16) :=
  (V37_of m outs c main_arg16 (by decide)).trans (Karg16_36 m outs c)
theorem Karg16_38 : V38 m outs c main_arg16 = m ((c : Thread nD τ).loc main_arg16) :=
  (V38_of m outs c main_arg16 (by decide)).trans (Karg16_37 m outs c)
theorem Karg16_39 : V39 m outs c main_arg16 = m ((c : Thread nD τ).loc main_arg16) :=
  (V39_of m outs c main_arg16 (by decide)).trans (Karg16_38 m outs c)
theorem Karg16_40 : V40 m outs c main_arg16 = m ((c : Thread nD τ).loc main_arg16) :=
  (V40_of m outs c main_arg16 (by decide)).trans (Karg16_39 m outs c)
theorem Karg16_41 : V41 m outs c main_arg16 = m ((c : Thread nD τ).loc main_arg16) :=
  (V41_of m outs c main_arg16 (by decide)).trans (Karg16_40 m outs c)
theorem Karg16_42 : V42 m outs c main_arg16 = m ((c : Thread nD τ).loc main_arg16) :=
  (V42_of m outs c main_arg16 (by decide)).trans (Karg16_41 m outs c)
theorem Karg16_43 : V43 m outs c main_arg16 = m ((c : Thread nD τ).loc main_arg16) :=
  (V43_of m outs c main_arg16 (by decide)).trans (Karg16_42 m outs c)
theorem Karg16_44 : V44 m outs c main_arg16 = m ((c : Thread nD τ).loc main_arg16) :=
  (V44_of m outs c main_arg16 (by decide)).trans (Karg16_43 m outs c)
theorem Karg16_45 : V45 m outs c main_arg16 = m ((c : Thread nD τ).loc main_arg16) :=
  (V45_of m outs c main_arg16 (by decide)).trans (Karg16_44 m outs c)
theorem Karg16_46 : V46 m outs c main_arg16 = m ((c : Thread nD τ).loc main_arg16) :=
  (V46_of m outs c main_arg16 (by decide)).trans (Karg16_45 m outs c)
theorem Karg16_47 : V47 m outs c main_arg16 = m ((c : Thread nD τ).loc main_arg16) :=
  (V47_of m outs c main_arg16 (by decide)).trans (Karg16_46 m outs c)
theorem Karg16_48 : V48 m outs c main_arg16 = m ((c : Thread nD τ).loc main_arg16) :=
  (V48_of m outs c main_arg16 (by decide)).trans (Karg16_47 m outs c)
theorem Karg16_49 : V49 m outs c main_arg16 = m ((c : Thread nD τ).loc main_arg16) :=
  (V49_of m outs c main_arg16 (by decide)).trans (Karg16_48 m outs c)
theorem Karg16_50 : V50 m outs c main_arg16 = m ((c : Thread nD τ).loc main_arg16) :=
  (V50_of m outs c main_arg16 (by decide)).trans (Karg16_49 m outs c)
theorem Karg16_51 : V51 m outs c main_arg16 = m ((c : Thread nD τ).loc main_arg16) :=
  (V51_of m outs c main_arg16 (by decide)).trans (Karg16_50 m outs c)
theorem Karg16_52 : V52 m outs c main_arg16 = m ((c : Thread nD τ).loc main_arg16) :=
  (V52_of m outs c main_arg16 (by decide)).trans (Karg16_51 m outs c)
theorem Karg16_53 : V53 m outs c main_arg16 = m ((c : Thread nD τ).loc main_arg16) :=
  (V53_of m outs c main_arg16 (by decide)).trans (Karg16_52 m outs c)
theorem Karg16_54 : V54 m outs c main_arg16 = m ((c : Thread nD τ).loc main_arg16) :=
  (V54_of m outs c main_arg16 (by decide)).trans (Karg16_53 m outs c)
theorem Karg16_55 : V55 m outs c main_arg16 = m ((c : Thread nD τ).loc main_arg16) :=
  (V55_of m outs c main_arg16 (by decide)).trans (Karg16_54 m outs c)
theorem Karg16_56 : V56 m outs c main_arg16 = m ((c : Thread nD τ).loc main_arg16) :=
  (V56_of m outs c main_arg16 (by decide)).trans (Karg16_55 m outs c)
theorem Karg16_57 : V57 m outs c main_arg16 = m ((c : Thread nD τ).loc main_arg16) :=
  (V57_of m outs c main_arg16 (by decide)).trans (Karg16_56 m outs c)
theorem Karg16_58 : V58 m outs c main_arg16 = m ((c : Thread nD τ).loc main_arg16) :=
  (V58_of m outs c main_arg16 (by decide)).trans (Karg16_57 m outs c)
theorem Karg16_59 : V59 m outs c main_arg16 = m ((c : Thread nD τ).loc main_arg16) :=
  (V59_of m outs c main_arg16 (by decide)).trans (Karg16_58 m outs c)
theorem Karg16_60 : V60 m outs c main_arg16 = m ((c : Thread nD τ).loc main_arg16) :=
  (V60_of m outs c main_arg16 (by decide)).trans (Karg16_59 m outs c)
theorem Karg16_61 : V61 m outs c main_arg16 = m ((c : Thread nD τ).loc main_arg16) :=
  (V61_of m outs c main_arg16 (by decide)).trans (Karg16_60 m outs c)
theorem Karg16_62 : V62 m outs c main_arg16 = m ((c : Thread nD τ).loc main_arg16) :=
  (V62_of m outs c main_arg16 (by decide)).trans (Karg16_61 m outs c)
theorem Karg16_63 : V63 m outs c main_arg16 = m ((c : Thread nD τ).loc main_arg16) :=
  (V63_of m outs c main_arg16 (by decide)).trans (Karg16_62 m outs c)
theorem Karg16_64 : V64 m outs c main_arg16 = m ((c : Thread nD τ).loc main_arg16) :=
  (V64_of m outs c main_arg16 (by decide)).trans (Karg16_63 m outs c)
theorem Karg16_65 : V65 m outs c main_arg16 = m ((c : Thread nD τ).loc main_arg16) :=
  (V65_of m outs c main_arg16 (by decide)).trans (Karg16_64 m outs c)
theorem Karg16_66 : V66 m outs c main_arg16 = m ((c : Thread nD τ).loc main_arg16) :=
  (V66_of m outs c main_arg16 (by decide)).trans (Karg16_65 m outs c)
theorem Karg16_67 : V67 m outs c main_arg16 = m ((c : Thread nD τ).loc main_arg16) :=
  (V67_of m outs c main_arg16 (by decide)).trans (Karg16_66 m outs c)
theorem Karg16_68 : V68 m outs c main_arg16 = m ((c : Thread nD τ).loc main_arg16) :=
  (V68_of m outs c main_arg16 (by decide)).trans (Karg16_67 m outs c)
theorem Karg16_69 : V69 m outs c main_arg16 = m ((c : Thread nD τ).loc main_arg16) :=
  (V69_of m outs c main_arg16 (by decide)).trans (Karg16_68 m outs c)
theorem Karg16_70 : V70 m outs c main_arg16 = m ((c : Thread nD τ).loc main_arg16) :=
  (V70_of m outs c main_arg16 (by decide)).trans (Karg16_69 m outs c)
theorem Karg16_71 : V71 m outs c main_arg16 = m ((c : Thread nD τ).loc main_arg16) :=
  (V71_of m outs c main_arg16 (by decide)).trans (Karg16_70 m outs c)
theorem Karg16_72 : V72 m outs c main_arg16 = m ((c : Thread nD τ).loc main_arg16) :=
  (V72_of m outs c main_arg16 (by decide)).trans (Karg16_71 m outs c)
theorem Karg16_73 : V73 m outs c main_arg16 = m ((c : Thread nD τ).loc main_arg16) :=
  (V73_of m outs c main_arg16 (by decide)).trans (Karg16_72 m outs c)
theorem Karg16_74 : V74 m outs c main_arg16 = m ((c : Thread nD τ).loc main_arg16) :=
  (V74_of m outs c main_arg16 (by decide)).trans (Karg16_73 m outs c)
theorem Karg16_75 : V75 m outs c main_arg16 = m ((c : Thread nD τ).loc main_arg16) :=
  (V75_of m outs c main_arg16 (by decide)).trans (Karg16_74 m outs c)
theorem Karg16_76 : V76 m outs c main_arg16 = m ((c : Thread nD τ).loc main_arg16) :=
  (V76_of m outs c main_arg16 (by decide)).trans (Karg16_75 m outs c)
theorem Karg16_77 : V77 m outs c main_arg16 = m ((c : Thread nD τ).loc main_arg16) :=
  (V77_of m outs c main_arg16 (by decide)).trans (Karg16_76 m outs c)
theorem Karg16_78 : V78 m outs c main_arg16 = m ((c : Thread nD τ).loc main_arg16) :=
  (V78_of m outs c main_arg16 (by decide)).trans (Karg16_77 m outs c)
theorem Karg16_79 : V79 m outs c main_arg16 = m ((c : Thread nD τ).loc main_arg16) :=
  (V79_of m outs c main_arg16 (by decide)).trans (Karg16_78 m outs c)
theorem Karg16_80 : V80 m outs c main_arg16 = m ((c : Thread nD τ).loc main_arg16) :=
  (V80_of m outs c main_arg16 (by decide)).trans (Karg16_79 m outs c)
theorem Karg16_81 : V81 m outs c main_arg16 = m ((c : Thread nD τ).loc main_arg16) :=
  (V81_of m outs c main_arg16 (by decide)).trans (Karg16_80 m outs c)
/-! ### main_arg17 -/
theorem Karg17_0 : V0 m c main_arg17 = m ((c : Thread nD τ).loc main_arg17) := rfl
theorem Karg17_1 : V1 m c main_arg17 = m ((c : Thread nD τ).loc main_arg17) :=
  (V1_of m c main_arg17 (by decide)).trans (Karg17_0 m c)
theorem Karg17_2 : V2 m outs c main_arg17 = m ((c : Thread nD τ).loc main_arg17) :=
  (V2_of m outs c main_arg17 (by decide)).trans (Karg17_1 m c)
theorem Karg17_3 : V3 m outs c main_arg17 = m ((c : Thread nD τ).loc main_arg17) :=
  (V3_of m outs c main_arg17 (by decide)).trans (Karg17_2 m outs c)
theorem Karg17_4 : V4 m outs c main_arg17 = m ((c : Thread nD τ).loc main_arg17) :=
  (V4_of m outs c main_arg17 (by decide)).trans (Karg17_3 m outs c)
theorem Karg17_5 : V5 m outs c main_arg17 = m ((c : Thread nD τ).loc main_arg17) :=
  (V5_of m outs c main_arg17 (by decide)).trans (Karg17_4 m outs c)
theorem Karg17_6 : V6 m outs c main_arg17 = m ((c : Thread nD τ).loc main_arg17) :=
  (V6_of m outs c main_arg17 (by decide)).trans (Karg17_5 m outs c)
theorem Karg17_7 : V7 m outs c main_arg17 = m ((c : Thread nD τ).loc main_arg17) :=
  (V7_of m outs c main_arg17 (by decide)).trans (Karg17_6 m outs c)
theorem Karg17_8 : V8 m outs c main_arg17 = m ((c : Thread nD τ).loc main_arg17) :=
  (V8_of m outs c main_arg17 (by decide)).trans (Karg17_7 m outs c)
theorem Karg17_9 : V9 m outs c main_arg17 = m ((c : Thread nD τ).loc main_arg17) :=
  (V9_of m outs c main_arg17 (by decide)).trans (Karg17_8 m outs c)
theorem Karg17_10 : V10 m outs c main_arg17 = m ((c : Thread nD τ).loc main_arg17) :=
  (V10_of m outs c main_arg17 (by decide)).trans (Karg17_9 m outs c)
theorem Karg17_11 : V11 m outs c main_arg17 = m ((c : Thread nD τ).loc main_arg17) :=
  (V11_of m outs c main_arg17 (by decide)).trans (Karg17_10 m outs c)
theorem Karg17_12 : V12 m outs c main_arg17 = m ((c : Thread nD τ).loc main_arg17) :=
  (V12_of m outs c main_arg17 (by decide)).trans (Karg17_11 m outs c)
theorem Karg17_13 : V13 m outs c main_arg17 = m ((c : Thread nD τ).loc main_arg17) :=
  (V13_of m outs c main_arg17 (by decide)).trans (Karg17_12 m outs c)
theorem Karg17_14 : V14 m outs c main_arg17 = m ((c : Thread nD τ).loc main_arg17) :=
  (V14_of m outs c main_arg17 (by decide)).trans (Karg17_13 m outs c)
theorem Karg17_15 : V15 m outs c main_arg17 = m ((c : Thread nD τ).loc main_arg17) :=
  (V15_of m outs c main_arg17 (by decide)).trans (Karg17_14 m outs c)
theorem Karg17_16 : V16 m outs c main_arg17 = m ((c : Thread nD τ).loc main_arg17) :=
  (V16_of m outs c main_arg17 (by decide)).trans (Karg17_15 m outs c)
theorem Karg17_17 : V17 m outs c main_arg17 = m ((c : Thread nD τ).loc main_arg17) :=
  (V17_of m outs c main_arg17 (by decide)).trans (Karg17_16 m outs c)
theorem Karg17_18 : V18 m outs c main_arg17 = m ((c : Thread nD τ).loc main_arg17) :=
  (V18_of m outs c main_arg17 (by decide)).trans (Karg17_17 m outs c)
theorem Karg17_19 : V19 m outs c main_arg17 = m ((c : Thread nD τ).loc main_arg17) :=
  (V19_of m outs c main_arg17 (by decide)).trans (Karg17_18 m outs c)
theorem Karg17_20 : V20 m outs c main_arg17 = m ((c : Thread nD τ).loc main_arg17) :=
  (V20_of m outs c main_arg17 (by decide)).trans (Karg17_19 m outs c)
theorem Karg17_21 : V21 m outs c main_arg17 = m ((c : Thread nD τ).loc main_arg17) :=
  (V21_of m outs c main_arg17 (by decide)).trans (Karg17_20 m outs c)
theorem Karg17_22 : V22 m outs c main_arg17 = m ((c : Thread nD τ).loc main_arg17) :=
  (V22_of m outs c main_arg17 (by decide)).trans (Karg17_21 m outs c)
theorem Karg17_23 : V23 m outs c main_arg17 = m ((c : Thread nD τ).loc main_arg17) :=
  (V23_of m outs c main_arg17 (by decide)).trans (Karg17_22 m outs c)
theorem Karg17_24 : V24 m outs c main_arg17 = m ((c : Thread nD τ).loc main_arg17) :=
  (V24_of m outs c main_arg17 (by decide)).trans (Karg17_23 m outs c)
theorem Karg17_25 : V25 m outs c main_arg17 = m ((c : Thread nD τ).loc main_arg17) :=
  (V25_of m outs c main_arg17 (by decide)).trans (Karg17_24 m outs c)
theorem Karg17_26 : V26 m outs c main_arg17 = m ((c : Thread nD τ).loc main_arg17) :=
  (V26_of m outs c main_arg17 (by decide)).trans (Karg17_25 m outs c)
theorem Karg17_27 : V27 m outs c main_arg17 = m ((c : Thread nD τ).loc main_arg17) :=
  (V27_of m outs c main_arg17 (by decide)).trans (Karg17_26 m outs c)
theorem Karg17_28 : V28 m outs c main_arg17 = m ((c : Thread nD τ).loc main_arg17) :=
  (V28_of m outs c main_arg17 (by decide)).trans (Karg17_27 m outs c)
theorem Karg17_29 : V29 m outs c main_arg17 = m ((c : Thread nD τ).loc main_arg17) :=
  (V29_of m outs c main_arg17 (by decide)).trans (Karg17_28 m outs c)
theorem Karg17_30 : V30 m outs c main_arg17 = m ((c : Thread nD τ).loc main_arg17) :=
  (V30_of m outs c main_arg17 (by decide)).trans (Karg17_29 m outs c)
theorem Karg17_31 : V31 m outs c main_arg17 = m ((c : Thread nD τ).loc main_arg17) :=
  (V31_of m outs c main_arg17 (by decide)).trans (Karg17_30 m outs c)
theorem Karg17_32 : V32 m outs c main_arg17 = m ((c : Thread nD τ).loc main_arg17) :=
  (V32_of m outs c main_arg17 (by decide)).trans (Karg17_31 m outs c)
theorem Karg17_33 : V33 m outs c main_arg17 = m ((c : Thread nD τ).loc main_arg17) :=
  (V33_of m outs c main_arg17 (by decide)).trans (Karg17_32 m outs c)
theorem Karg17_34 : V34 m outs c main_arg17 = m ((c : Thread nD τ).loc main_arg17) :=
  (V34_of m outs c main_arg17 (by decide)).trans (Karg17_33 m outs c)
theorem Karg17_35 : V35 m outs c main_arg17 = m ((c : Thread nD τ).loc main_arg17) :=
  (V35_of m outs c main_arg17 (by decide)).trans (Karg17_34 m outs c)
theorem Karg17_36 : V36 m outs c main_arg17 = m ((c : Thread nD τ).loc main_arg17) :=
  (V36_of m outs c main_arg17 (by decide)).trans (Karg17_35 m outs c)
theorem Karg17_37 : V37 m outs c main_arg17 = m ((c : Thread nD τ).loc main_arg17) :=
  (V37_of m outs c main_arg17 (by decide)).trans (Karg17_36 m outs c)
theorem Karg17_38 : V38 m outs c main_arg17 = m ((c : Thread nD τ).loc main_arg17) :=
  (V38_of m outs c main_arg17 (by decide)).trans (Karg17_37 m outs c)
theorem Karg17_39 : V39 m outs c main_arg17 = m ((c : Thread nD τ).loc main_arg17) :=
  (V39_of m outs c main_arg17 (by decide)).trans (Karg17_38 m outs c)
theorem Karg17_40 : V40 m outs c main_arg17 = m ((c : Thread nD τ).loc main_arg17) :=
  (V40_of m outs c main_arg17 (by decide)).trans (Karg17_39 m outs c)
theorem Karg17_41 : V41 m outs c main_arg17 = m ((c : Thread nD τ).loc main_arg17) :=
  (V41_of m outs c main_arg17 (by decide)).trans (Karg17_40 m outs c)
theorem Karg17_42 : V42 m outs c main_arg17 = m ((c : Thread nD τ).loc main_arg17) :=
  (V42_of m outs c main_arg17 (by decide)).trans (Karg17_41 m outs c)
theorem Karg17_43 : V43 m outs c main_arg17 = m ((c : Thread nD τ).loc main_arg17) :=
  (V43_of m outs c main_arg17 (by decide)).trans (Karg17_42 m outs c)
theorem Karg17_44 : V44 m outs c main_arg17 = m ((c : Thread nD τ).loc main_arg17) :=
  (V44_of m outs c main_arg17 (by decide)).trans (Karg17_43 m outs c)
theorem Karg17_45 : V45 m outs c main_arg17 = m ((c : Thread nD τ).loc main_arg17) :=
  (V45_of m outs c main_arg17 (by decide)).trans (Karg17_44 m outs c)
theorem Karg17_46 : V46 m outs c main_arg17 = m ((c : Thread nD τ).loc main_arg17) :=
  (V46_of m outs c main_arg17 (by decide)).trans (Karg17_45 m outs c)
theorem Karg17_47 : V47 m outs c main_arg17 = m ((c : Thread nD τ).loc main_arg17) :=
  (V47_of m outs c main_arg17 (by decide)).trans (Karg17_46 m outs c)
theorem Karg17_48 : V48 m outs c main_arg17 = m ((c : Thread nD τ).loc main_arg17) :=
  (V48_of m outs c main_arg17 (by decide)).trans (Karg17_47 m outs c)
theorem Karg17_49 : V49 m outs c main_arg17 = m ((c : Thread nD τ).loc main_arg17) :=
  (V49_of m outs c main_arg17 (by decide)).trans (Karg17_48 m outs c)
theorem Karg17_50 : V50 m outs c main_arg17 = m ((c : Thread nD τ).loc main_arg17) :=
  (V50_of m outs c main_arg17 (by decide)).trans (Karg17_49 m outs c)
theorem Karg17_51 : V51 m outs c main_arg17 = m ((c : Thread nD τ).loc main_arg17) :=
  (V51_of m outs c main_arg17 (by decide)).trans (Karg17_50 m outs c)
theorem Karg17_52 : V52 m outs c main_arg17 = m ((c : Thread nD τ).loc main_arg17) :=
  (V52_of m outs c main_arg17 (by decide)).trans (Karg17_51 m outs c)
theorem Karg17_53 : V53 m outs c main_arg17 = m ((c : Thread nD τ).loc main_arg17) :=
  (V53_of m outs c main_arg17 (by decide)).trans (Karg17_52 m outs c)
theorem Karg17_54 : V54 m outs c main_arg17 = m ((c : Thread nD τ).loc main_arg17) :=
  (V54_of m outs c main_arg17 (by decide)).trans (Karg17_53 m outs c)
theorem Karg17_55 : V55 m outs c main_arg17 = m ((c : Thread nD τ).loc main_arg17) :=
  (V55_of m outs c main_arg17 (by decide)).trans (Karg17_54 m outs c)
theorem Karg17_56 : V56 m outs c main_arg17 = m ((c : Thread nD τ).loc main_arg17) :=
  (V56_of m outs c main_arg17 (by decide)).trans (Karg17_55 m outs c)
theorem Karg17_57 : V57 m outs c main_arg17 = m ((c : Thread nD τ).loc main_arg17) :=
  (V57_of m outs c main_arg17 (by decide)).trans (Karg17_56 m outs c)
theorem Karg17_58 : V58 m outs c main_arg17 = m ((c : Thread nD τ).loc main_arg17) :=
  (V58_of m outs c main_arg17 (by decide)).trans (Karg17_57 m outs c)
theorem Karg17_59 : V59 m outs c main_arg17 = m ((c : Thread nD τ).loc main_arg17) :=
  (V59_of m outs c main_arg17 (by decide)).trans (Karg17_58 m outs c)
theorem Karg17_60 : V60 m outs c main_arg17 = m ((c : Thread nD τ).loc main_arg17) :=
  (V60_of m outs c main_arg17 (by decide)).trans (Karg17_59 m outs c)
theorem Karg17_61 : V61 m outs c main_arg17 = m ((c : Thread nD τ).loc main_arg17) :=
  (V61_of m outs c main_arg17 (by decide)).trans (Karg17_60 m outs c)
theorem Karg17_62 : V62 m outs c main_arg17 = m ((c : Thread nD τ).loc main_arg17) :=
  (V62_of m outs c main_arg17 (by decide)).trans (Karg17_61 m outs c)
theorem Karg17_63 : V63 m outs c main_arg17 = m ((c : Thread nD τ).loc main_arg17) :=
  (V63_of m outs c main_arg17 (by decide)).trans (Karg17_62 m outs c)
theorem Karg17_64 : V64 m outs c main_arg17 = m ((c : Thread nD τ).loc main_arg17) :=
  (V64_of m outs c main_arg17 (by decide)).trans (Karg17_63 m outs c)
theorem Karg17_65 : V65 m outs c main_arg17 = m ((c : Thread nD τ).loc main_arg17) :=
  (V65_of m outs c main_arg17 (by decide)).trans (Karg17_64 m outs c)
theorem Karg17_66 : V66 m outs c main_arg17 = m ((c : Thread nD τ).loc main_arg17) :=
  (V66_of m outs c main_arg17 (by decide)).trans (Karg17_65 m outs c)
theorem Karg17_67 : V67 m outs c main_arg17 = m ((c : Thread nD τ).loc main_arg17) :=
  (V67_of m outs c main_arg17 (by decide)).trans (Karg17_66 m outs c)
theorem Karg17_68 : V68 m outs c main_arg17 = m ((c : Thread nD τ).loc main_arg17) :=
  (V68_of m outs c main_arg17 (by decide)).trans (Karg17_67 m outs c)
theorem Karg17_69 : V69 m outs c main_arg17 = m ((c : Thread nD τ).loc main_arg17) :=
  (V69_of m outs c main_arg17 (by decide)).trans (Karg17_68 m outs c)
theorem Karg17_70 : V70 m outs c main_arg17 = m ((c : Thread nD τ).loc main_arg17) :=
  (V70_of m outs c main_arg17 (by decide)).trans (Karg17_69 m outs c)
theorem Karg17_71 : V71 m outs c main_arg17 = m ((c : Thread nD τ).loc main_arg17) :=
  (V71_of m outs c main_arg17 (by decide)).trans (Karg17_70 m outs c)
theorem Karg17_72 : V72 m outs c main_arg17 = m ((c : Thread nD τ).loc main_arg17) :=
  (V72_of m outs c main_arg17 (by decide)).trans (Karg17_71 m outs c)
theorem Karg17_73 : V73 m outs c main_arg17 = m ((c : Thread nD τ).loc main_arg17) :=
  (V73_of m outs c main_arg17 (by decide)).trans (Karg17_72 m outs c)
theorem Karg17_74 : V74 m outs c main_arg17 = m ((c : Thread nD τ).loc main_arg17) :=
  (V74_of m outs c main_arg17 (by decide)).trans (Karg17_73 m outs c)
theorem Karg17_75 : V75 m outs c main_arg17 = m ((c : Thread nD τ).loc main_arg17) :=
  (V75_of m outs c main_arg17 (by decide)).trans (Karg17_74 m outs c)
theorem Karg17_76 : V76 m outs c main_arg17 = m ((c : Thread nD τ).loc main_arg17) :=
  (V76_of m outs c main_arg17 (by decide)).trans (Karg17_75 m outs c)
theorem Karg17_77 : V77 m outs c main_arg17 = m ((c : Thread nD τ).loc main_arg17) :=
  (V77_of m outs c main_arg17 (by decide)).trans (Karg17_76 m outs c)
theorem Karg17_78 : V78 m outs c main_arg17 = m ((c : Thread nD τ).loc main_arg17) :=
  (V78_of m outs c main_arg17 (by decide)).trans (Karg17_77 m outs c)
theorem Karg17_79 : V79 m outs c main_arg17 = m ((c : Thread nD τ).loc main_arg17) :=
  (V79_of m outs c main_arg17 (by decide)).trans (Karg17_78 m outs c)
theorem Karg17_80 : V80 m outs c main_arg17 = m ((c : Thread nD τ).loc main_arg17) :=
  (V80_of m outs c main_arg17 (by decide)).trans (Karg17_79 m outs c)
theorem Karg17_81 : V81 m outs c main_arg17 = m ((c : Thread nD τ).loc main_arg17) :=
  (V81_of m outs c main_arg17 (by decide)).trans (Karg17_80 m outs c)
/-! ### main_arg18 -/
theorem Karg18_0 : V0 m c main_arg18 = m ((c : Thread nD τ).loc main_arg18) := rfl
theorem Karg18_1 : V1 m c main_arg18 = m ((c : Thread nD τ).loc main_arg18) :=
  (V1_of m c main_arg18 (by decide)).trans (Karg18_0 m c)
theorem Karg18_2 : V2 m outs c main_arg18 = m ((c : Thread nD τ).loc main_arg18) :=
  (V2_of m outs c main_arg18 (by decide)).trans (Karg18_1 m c)
theorem Karg18_3 : V3 m outs c main_arg18 = m ((c : Thread nD τ).loc main_arg18) :=
  (V3_of m outs c main_arg18 (by decide)).trans (Karg18_2 m outs c)
theorem Karg18_4 : V4 m outs c main_arg18 = m ((c : Thread nD τ).loc main_arg18) :=
  (V4_of m outs c main_arg18 (by decide)).trans (Karg18_3 m outs c)
theorem Karg18_5 : V5 m outs c main_arg18 = m ((c : Thread nD τ).loc main_arg18) :=
  (V5_of m outs c main_arg18 (by decide)).trans (Karg18_4 m outs c)
theorem Karg18_6 : V6 m outs c main_arg18 = m ((c : Thread nD τ).loc main_arg18) :=
  (V6_of m outs c main_arg18 (by decide)).trans (Karg18_5 m outs c)
theorem Karg18_7 : V7 m outs c main_arg18 = m ((c : Thread nD τ).loc main_arg18) :=
  (V7_of m outs c main_arg18 (by decide)).trans (Karg18_6 m outs c)
theorem Karg18_8 : V8 m outs c main_arg18 = m ((c : Thread nD τ).loc main_arg18) :=
  (V8_of m outs c main_arg18 (by decide)).trans (Karg18_7 m outs c)
theorem Karg18_9 : V9 m outs c main_arg18 = m ((c : Thread nD τ).loc main_arg18) :=
  (V9_of m outs c main_arg18 (by decide)).trans (Karg18_8 m outs c)
theorem Karg18_10 : V10 m outs c main_arg18 = m ((c : Thread nD τ).loc main_arg18) :=
  (V10_of m outs c main_arg18 (by decide)).trans (Karg18_9 m outs c)
theorem Karg18_11 : V11 m outs c main_arg18 = m ((c : Thread nD τ).loc main_arg18) :=
  (V11_of m outs c main_arg18 (by decide)).trans (Karg18_10 m outs c)
theorem Karg18_12 : V12 m outs c main_arg18 = m ((c : Thread nD τ).loc main_arg18) :=
  (V12_of m outs c main_arg18 (by decide)).trans (Karg18_11 m outs c)
theorem Karg18_13 : V13 m outs c main_arg18 = m ((c : Thread nD τ).loc main_arg18) :=
  (V13_of m outs c main_arg18 (by decide)).trans (Karg18_12 m outs c)
theorem Karg18_14 : V14 m outs c main_arg18 = m ((c : Thread nD τ).loc main_arg18) :=
  (V14_of m outs c main_arg18 (by decide)).trans (Karg18_13 m outs c)
theorem Karg18_15 : V15 m outs c main_arg18 = m ((c : Thread nD τ).loc main_arg18) :=
  (V15_of m outs c main_arg18 (by decide)).trans (Karg18_14 m outs c)
theorem Karg18_16 : V16 m outs c main_arg18 = m ((c : Thread nD τ).loc main_arg18) :=
  (V16_of m outs c main_arg18 (by decide)).trans (Karg18_15 m outs c)
theorem Karg18_17 : V17 m outs c main_arg18 = m ((c : Thread nD τ).loc main_arg18) :=
  (V17_of m outs c main_arg18 (by decide)).trans (Karg18_16 m outs c)
theorem Karg18_18 : V18 m outs c main_arg18 = m ((c : Thread nD τ).loc main_arg18) :=
  (V18_of m outs c main_arg18 (by decide)).trans (Karg18_17 m outs c)
theorem Karg18_19 : V19 m outs c main_arg18 = m ((c : Thread nD τ).loc main_arg18) :=
  (V19_of m outs c main_arg18 (by decide)).trans (Karg18_18 m outs c)
theorem Karg18_20 : V20 m outs c main_arg18 = m ((c : Thread nD τ).loc main_arg18) :=
  (V20_of m outs c main_arg18 (by decide)).trans (Karg18_19 m outs c)
theorem Karg18_21 : V21 m outs c main_arg18 = m ((c : Thread nD τ).loc main_arg18) :=
  (V21_of m outs c main_arg18 (by decide)).trans (Karg18_20 m outs c)
theorem Karg18_22 : V22 m outs c main_arg18 = m ((c : Thread nD τ).loc main_arg18) :=
  (V22_of m outs c main_arg18 (by decide)).trans (Karg18_21 m outs c)
theorem Karg18_23 : V23 m outs c main_arg18 = m ((c : Thread nD τ).loc main_arg18) :=
  (V23_of m outs c main_arg18 (by decide)).trans (Karg18_22 m outs c)
theorem Karg18_24 : V24 m outs c main_arg18 = m ((c : Thread nD τ).loc main_arg18) :=
  (V24_of m outs c main_arg18 (by decide)).trans (Karg18_23 m outs c)
theorem Karg18_25 : V25 m outs c main_arg18 = m ((c : Thread nD τ).loc main_arg18) :=
  (V25_of m outs c main_arg18 (by decide)).trans (Karg18_24 m outs c)
theorem Karg18_26 : V26 m outs c main_arg18 = m ((c : Thread nD τ).loc main_arg18) :=
  (V26_of m outs c main_arg18 (by decide)).trans (Karg18_25 m outs c)
theorem Karg18_27 : V27 m outs c main_arg18 = m ((c : Thread nD τ).loc main_arg18) :=
  (V27_of m outs c main_arg18 (by decide)).trans (Karg18_26 m outs c)
theorem Karg18_28 : V28 m outs c main_arg18 = m ((c : Thread nD τ).loc main_arg18) :=
  (V28_of m outs c main_arg18 (by decide)).trans (Karg18_27 m outs c)
theorem Karg18_29 : V29 m outs c main_arg18 = m ((c : Thread nD τ).loc main_arg18) :=
  (V29_of m outs c main_arg18 (by decide)).trans (Karg18_28 m outs c)
theorem Karg18_30 : V30 m outs c main_arg18 = m ((c : Thread nD τ).loc main_arg18) :=
  (V30_of m outs c main_arg18 (by decide)).trans (Karg18_29 m outs c)
theorem Karg18_31 : V31 m outs c main_arg18 = m ((c : Thread nD τ).loc main_arg18) :=
  (V31_of m outs c main_arg18 (by decide)).trans (Karg18_30 m outs c)
theorem Karg18_32 : V32 m outs c main_arg18 = m ((c : Thread nD τ).loc main_arg18) :=
  (V32_of m outs c main_arg18 (by decide)).trans (Karg18_31 m outs c)
theorem Karg18_33 : V33 m outs c main_arg18 = m ((c : Thread nD τ).loc main_arg18) :=
  (V33_of m outs c main_arg18 (by decide)).trans (Karg18_32 m outs c)
theorem Karg18_34 : V34 m outs c main_arg18 = m ((c : Thread nD τ).loc main_arg18) :=
  (V34_of m outs c main_arg18 (by decide)).trans (Karg18_33 m outs c)
theorem Karg18_35 : V35 m outs c main_arg18 = m ((c : Thread nD τ).loc main_arg18) :=
  (V35_of m outs c main_arg18 (by decide)).trans (Karg18_34 m outs c)
theorem Karg18_36 : V36 m outs c main_arg18 = m ((c : Thread nD τ).loc main_arg18) :=
  (V36_of m outs c main_arg18 (by decide)).trans (Karg18_35 m outs c)
theorem Karg18_37 : V37 m outs c main_arg18 = m ((c : Thread nD τ).loc main_arg18) :=
  (V37_of m outs c main_arg18 (by decide)).trans (Karg18_36 m outs c)
theorem Karg18_38 : V38 m outs c main_arg18 = m ((c : Thread nD τ).loc main_arg18) :=
  (V38_of m outs c main_arg18 (by decide)).trans (Karg18_37 m outs c)
theorem Karg18_39 : V39 m outs c main_arg18 = m ((c : Thread nD τ).loc main_arg18) :=
  (V39_of m outs c main_arg18 (by decide)).trans (Karg18_38 m outs c)
theorem Karg18_40 : V40 m outs c main_arg18 = m ((c : Thread nD τ).loc main_arg18) :=
  (V40_of m outs c main_arg18 (by decide)).trans (Karg18_39 m outs c)
theorem Karg18_41 : V41 m outs c main_arg18 = m ((c : Thread nD τ).loc main_arg18) :=
  (V41_of m outs c main_arg18 (by decide)).trans (Karg18_40 m outs c)
theorem Karg18_42 : V42 m outs c main_arg18 = m ((c : Thread nD τ).loc main_arg18) :=
  (V42_of m outs c main_arg18 (by decide)).trans (Karg18_41 m outs c)
theorem Karg18_43 : V43 m outs c main_arg18 = m ((c : Thread nD τ).loc main_arg18) :=
  (V43_of m outs c main_arg18 (by decide)).trans (Karg18_42 m outs c)
theorem Karg18_44 : V44 m outs c main_arg18 = m ((c : Thread nD τ).loc main_arg18) :=
  (V44_of m outs c main_arg18 (by decide)).trans (Karg18_43 m outs c)
theorem Karg18_45 : V45 m outs c main_arg18 = m ((c : Thread nD τ).loc main_arg18) :=
  (V45_of m outs c main_arg18 (by decide)).trans (Karg18_44 m outs c)
theorem Karg18_46 : V46 m outs c main_arg18 = m ((c : Thread nD τ).loc main_arg18) :=
  (V46_of m outs c main_arg18 (by decide)).trans (Karg18_45 m outs c)
theorem Karg18_47 : V47 m outs c main_arg18 = m ((c : Thread nD τ).loc main_arg18) :=
  (V47_of m outs c main_arg18 (by decide)).trans (Karg18_46 m outs c)
theorem Karg18_48 : V48 m outs c main_arg18 = m ((c : Thread nD τ).loc main_arg18) :=
  (V48_of m outs c main_arg18 (by decide)).trans (Karg18_47 m outs c)
theorem Karg18_49 : V49 m outs c main_arg18 = m ((c : Thread nD τ).loc main_arg18) :=
  (V49_of m outs c main_arg18 (by decide)).trans (Karg18_48 m outs c)
theorem Karg18_50 : V50 m outs c main_arg18 = m ((c : Thread nD τ).loc main_arg18) :=
  (V50_of m outs c main_arg18 (by decide)).trans (Karg18_49 m outs c)
theorem Karg18_51 : V51 m outs c main_arg18 = m ((c : Thread nD τ).loc main_arg18) :=
  (V51_of m outs c main_arg18 (by decide)).trans (Karg18_50 m outs c)
theorem Karg18_52 : V52 m outs c main_arg18 = m ((c : Thread nD τ).loc main_arg18) :=
  (V52_of m outs c main_arg18 (by decide)).trans (Karg18_51 m outs c)
theorem Karg18_53 : V53 m outs c main_arg18 = m ((c : Thread nD τ).loc main_arg18) :=
  (V53_of m outs c main_arg18 (by decide)).trans (Karg18_52 m outs c)
theorem Karg18_54 : V54 m outs c main_arg18 = m ((c : Thread nD τ).loc main_arg18) :=
  (V54_of m outs c main_arg18 (by decide)).trans (Karg18_53 m outs c)
theorem Karg18_55 : V55 m outs c main_arg18 = m ((c : Thread nD τ).loc main_arg18) :=
  (V55_of m outs c main_arg18 (by decide)).trans (Karg18_54 m outs c)
theorem Karg18_56 : V56 m outs c main_arg18 = m ((c : Thread nD τ).loc main_arg18) :=
  (V56_of m outs c main_arg18 (by decide)).trans (Karg18_55 m outs c)
theorem Karg18_57 : V57 m outs c main_arg18 = m ((c : Thread nD τ).loc main_arg18) :=
  (V57_of m outs c main_arg18 (by decide)).trans (Karg18_56 m outs c)
theorem Karg18_58 : V58 m outs c main_arg18 = m ((c : Thread nD τ).loc main_arg18) :=
  (V58_of m outs c main_arg18 (by decide)).trans (Karg18_57 m outs c)
theorem Karg18_59 : V59 m outs c main_arg18 = m ((c : Thread nD τ).loc main_arg18) :=
  (V59_of m outs c main_arg18 (by decide)).trans (Karg18_58 m outs c)
theorem Karg18_60 : V60 m outs c main_arg18 = m ((c : Thread nD τ).loc main_arg18) :=
  (V60_of m outs c main_arg18 (by decide)).trans (Karg18_59 m outs c)
theorem Karg18_61 : V61 m outs c main_arg18 = m ((c : Thread nD τ).loc main_arg18) :=
  (V61_of m outs c main_arg18 (by decide)).trans (Karg18_60 m outs c)
theorem Karg18_62 : V62 m outs c main_arg18 = m ((c : Thread nD τ).loc main_arg18) :=
  (V62_of m outs c main_arg18 (by decide)).trans (Karg18_61 m outs c)
theorem Karg18_63 : V63 m outs c main_arg18 = m ((c : Thread nD τ).loc main_arg18) :=
  (V63_of m outs c main_arg18 (by decide)).trans (Karg18_62 m outs c)
theorem Karg18_64 : V64 m outs c main_arg18 = m ((c : Thread nD τ).loc main_arg18) :=
  (V64_of m outs c main_arg18 (by decide)).trans (Karg18_63 m outs c)
theorem Karg18_65 : V65 m outs c main_arg18 = m ((c : Thread nD τ).loc main_arg18) :=
  (V65_of m outs c main_arg18 (by decide)).trans (Karg18_64 m outs c)
theorem Karg18_66 : V66 m outs c main_arg18 = m ((c : Thread nD τ).loc main_arg18) :=
  (V66_of m outs c main_arg18 (by decide)).trans (Karg18_65 m outs c)
theorem Karg18_67 : V67 m outs c main_arg18 = m ((c : Thread nD τ).loc main_arg18) :=
  (V67_of m outs c main_arg18 (by decide)).trans (Karg18_66 m outs c)
theorem Karg18_68 : V68 m outs c main_arg18 = m ((c : Thread nD τ).loc main_arg18) :=
  (V68_of m outs c main_arg18 (by decide)).trans (Karg18_67 m outs c)
theorem Karg18_69 : V69 m outs c main_arg18 = m ((c : Thread nD τ).loc main_arg18) :=
  (V69_of m outs c main_arg18 (by decide)).trans (Karg18_68 m outs c)
theorem Karg18_70 : V70 m outs c main_arg18 = m ((c : Thread nD τ).loc main_arg18) :=
  (V70_of m outs c main_arg18 (by decide)).trans (Karg18_69 m outs c)
theorem Karg18_71 : V71 m outs c main_arg18 = m ((c : Thread nD τ).loc main_arg18) :=
  (V71_of m outs c main_arg18 (by decide)).trans (Karg18_70 m outs c)
theorem Karg18_72 : V72 m outs c main_arg18 = m ((c : Thread nD τ).loc main_arg18) :=
  (V72_of m outs c main_arg18 (by decide)).trans (Karg18_71 m outs c)
theorem Karg18_73 : V73 m outs c main_arg18 = m ((c : Thread nD τ).loc main_arg18) :=
  (V73_of m outs c main_arg18 (by decide)).trans (Karg18_72 m outs c)
theorem Karg18_74 : V74 m outs c main_arg18 = m ((c : Thread nD τ).loc main_arg18) :=
  (V74_of m outs c main_arg18 (by decide)).trans (Karg18_73 m outs c)
theorem Karg18_75 : V75 m outs c main_arg18 = m ((c : Thread nD τ).loc main_arg18) :=
  (V75_of m outs c main_arg18 (by decide)).trans (Karg18_74 m outs c)
theorem Karg18_76 : V76 m outs c main_arg18 = m ((c : Thread nD τ).loc main_arg18) :=
  (V76_of m outs c main_arg18 (by decide)).trans (Karg18_75 m outs c)
theorem Karg18_77 : V77 m outs c main_arg18 = m ((c : Thread nD τ).loc main_arg18) :=
  (V77_of m outs c main_arg18 (by decide)).trans (Karg18_76 m outs c)
theorem Karg18_78 : V78 m outs c main_arg18 = m ((c : Thread nD τ).loc main_arg18) :=
  (V78_of m outs c main_arg18 (by decide)).trans (Karg18_77 m outs c)
theorem Karg18_79 : V79 m outs c main_arg18 = m ((c : Thread nD τ).loc main_arg18) :=
  (V79_of m outs c main_arg18 (by decide)).trans (Karg18_78 m outs c)
theorem Karg18_80 : V80 m outs c main_arg18 = m ((c : Thread nD τ).loc main_arg18) :=
  (V80_of m outs c main_arg18 (by decide)).trans (Karg18_79 m outs c)
theorem Karg18_81 : V81 m outs c main_arg18 = m ((c : Thread nD τ).loc main_arg18) :=
  (V81_of m outs c main_arg18 (by decide)).trans (Karg18_80 m outs c)
/-! ### main_arg19 -/
theorem Karg19_0 : V0 m c main_arg19 = m ((c : Thread nD τ).loc main_arg19) := rfl
theorem Karg19_1 : V1 m c main_arg19 = m ((c : Thread nD τ).loc main_arg19) :=
  (V1_of m c main_arg19 (by decide)).trans (Karg19_0 m c)
theorem Karg19_2 : V2 m outs c main_arg19 = m ((c : Thread nD τ).loc main_arg19) :=
  (V2_of m outs c main_arg19 (by decide)).trans (Karg19_1 m c)
theorem Karg19_3 : V3 m outs c main_arg19 = m ((c : Thread nD τ).loc main_arg19) :=
  (V3_of m outs c main_arg19 (by decide)).trans (Karg19_2 m outs c)
theorem Karg19_4 : V4 m outs c main_arg19 = m ((c : Thread nD τ).loc main_arg19) :=
  (V4_of m outs c main_arg19 (by decide)).trans (Karg19_3 m outs c)
theorem Karg19_5 : V5 m outs c main_arg19 = m ((c : Thread nD τ).loc main_arg19) :=
  (V5_of m outs c main_arg19 (by decide)).trans (Karg19_4 m outs c)
theorem Karg19_6 : V6 m outs c main_arg19 = m ((c : Thread nD τ).loc main_arg19) :=
  (V6_of m outs c main_arg19 (by decide)).trans (Karg19_5 m outs c)
theorem Karg19_7 : V7 m outs c main_arg19 = m ((c : Thread nD τ).loc main_arg19) :=
  (V7_of m outs c main_arg19 (by decide)).trans (Karg19_6 m outs c)
theorem Karg19_8 : V8 m outs c main_arg19 = m ((c : Thread nD τ).loc main_arg19) :=
  (V8_of m outs c main_arg19 (by decide)).trans (Karg19_7 m outs c)
theorem Karg19_9 : V9 m outs c main_arg19 = m ((c : Thread nD τ).loc main_arg19) :=
  (V9_of m outs c main_arg19 (by decide)).trans (Karg19_8 m outs c)
theorem Karg19_10 : V10 m outs c main_arg19 = m ((c : Thread nD τ).loc main_arg19) :=
  (V10_of m outs c main_arg19 (by decide)).trans (Karg19_9 m outs c)
theorem Karg19_11 : V11 m outs c main_arg19 = m ((c : Thread nD τ).loc main_arg19) :=
  (V11_of m outs c main_arg19 (by decide)).trans (Karg19_10 m outs c)
theorem Karg19_12 : V12 m outs c main_arg19 = m ((c : Thread nD τ).loc main_arg19) :=
  (V12_of m outs c main_arg19 (by decide)).trans (Karg19_11 m outs c)
theorem Karg19_13 : V13 m outs c main_arg19 = m ((c : Thread nD τ).loc main_arg19) :=
  (V13_of m outs c main_arg19 (by decide)).trans (Karg19_12 m outs c)
theorem Karg19_14 : V14 m outs c main_arg19 = m ((c : Thread nD τ).loc main_arg19) :=
  (V14_of m outs c main_arg19 (by decide)).trans (Karg19_13 m outs c)
theorem Karg19_15 : V15 m outs c main_arg19 = m ((c : Thread nD τ).loc main_arg19) :=
  (V15_of m outs c main_arg19 (by decide)).trans (Karg19_14 m outs c)
theorem Karg19_16 : V16 m outs c main_arg19 = m ((c : Thread nD τ).loc main_arg19) :=
  (V16_of m outs c main_arg19 (by decide)).trans (Karg19_15 m outs c)
theorem Karg19_17 : V17 m outs c main_arg19 = m ((c : Thread nD τ).loc main_arg19) :=
  (V17_of m outs c main_arg19 (by decide)).trans (Karg19_16 m outs c)
theorem Karg19_18 : V18 m outs c main_arg19 = m ((c : Thread nD τ).loc main_arg19) :=
  (V18_of m outs c main_arg19 (by decide)).trans (Karg19_17 m outs c)
theorem Karg19_19 : V19 m outs c main_arg19 = m ((c : Thread nD τ).loc main_arg19) :=
  (V19_of m outs c main_arg19 (by decide)).trans (Karg19_18 m outs c)
theorem Karg19_20 : V20 m outs c main_arg19 = m ((c : Thread nD τ).loc main_arg19) :=
  (V20_of m outs c main_arg19 (by decide)).trans (Karg19_19 m outs c)
theorem Karg19_21 : V21 m outs c main_arg19 = m ((c : Thread nD τ).loc main_arg19) :=
  (V21_of m outs c main_arg19 (by decide)).trans (Karg19_20 m outs c)
theorem Karg19_22 : V22 m outs c main_arg19 = m ((c : Thread nD τ).loc main_arg19) :=
  (V22_of m outs c main_arg19 (by decide)).trans (Karg19_21 m outs c)
theorem Karg19_23 : V23 m outs c main_arg19 = m ((c : Thread nD τ).loc main_arg19) :=
  (V23_of m outs c main_arg19 (by decide)).trans (Karg19_22 m outs c)
theorem Karg19_24 : V24 m outs c main_arg19 = m ((c : Thread nD τ).loc main_arg19) :=
  (V24_of m outs c main_arg19 (by decide)).trans (Karg19_23 m outs c)
theorem Karg19_25 : V25 m outs c main_arg19 = m ((c : Thread nD τ).loc main_arg19) :=
  (V25_of m outs c main_arg19 (by decide)).trans (Karg19_24 m outs c)
theorem Karg19_26 : V26 m outs c main_arg19 = m ((c : Thread nD τ).loc main_arg19) :=
  (V26_of m outs c main_arg19 (by decide)).trans (Karg19_25 m outs c)
theorem Karg19_27 : V27 m outs c main_arg19 = m ((c : Thread nD τ).loc main_arg19) :=
  (V27_of m outs c main_arg19 (by decide)).trans (Karg19_26 m outs c)
theorem Karg19_28 : V28 m outs c main_arg19 = m ((c : Thread nD τ).loc main_arg19) :=
  (V28_of m outs c main_arg19 (by decide)).trans (Karg19_27 m outs c)
theorem Karg19_29 : V29 m outs c main_arg19 = m ((c : Thread nD τ).loc main_arg19) :=
  (V29_of m outs c main_arg19 (by decide)).trans (Karg19_28 m outs c)
theorem Karg19_30 : V30 m outs c main_arg19 = m ((c : Thread nD τ).loc main_arg19) :=
  (V30_of m outs c main_arg19 (by decide)).trans (Karg19_29 m outs c)
theorem Karg19_31 : V31 m outs c main_arg19 = m ((c : Thread nD τ).loc main_arg19) :=
  (V31_of m outs c main_arg19 (by decide)).trans (Karg19_30 m outs c)
theorem Karg19_32 : V32 m outs c main_arg19 = m ((c : Thread nD τ).loc main_arg19) :=
  (V32_of m outs c main_arg19 (by decide)).trans (Karg19_31 m outs c)
theorem Karg19_33 : V33 m outs c main_arg19 = m ((c : Thread nD τ).loc main_arg19) :=
  (V33_of m outs c main_arg19 (by decide)).trans (Karg19_32 m outs c)
theorem Karg19_34 : V34 m outs c main_arg19 = m ((c : Thread nD τ).loc main_arg19) :=
  (V34_of m outs c main_arg19 (by decide)).trans (Karg19_33 m outs c)
theorem Karg19_35 : V35 m outs c main_arg19 = m ((c : Thread nD τ).loc main_arg19) :=
  (V35_of m outs c main_arg19 (by decide)).trans (Karg19_34 m outs c)
theorem Karg19_36 : V36 m outs c main_arg19 = m ((c : Thread nD τ).loc main_arg19) :=
  (V36_of m outs c main_arg19 (by decide)).trans (Karg19_35 m outs c)
theorem Karg19_37 : V37 m outs c main_arg19 = m ((c : Thread nD τ).loc main_arg19) :=
  (V37_of m outs c main_arg19 (by decide)).trans (Karg19_36 m outs c)
theorem Karg19_38 : V38 m outs c main_arg19 = m ((c : Thread nD τ).loc main_arg19) :=
  (V38_of m outs c main_arg19 (by decide)).trans (Karg19_37 m outs c)
theorem Karg19_39 : V39 m outs c main_arg19 = m ((c : Thread nD τ).loc main_arg19) :=
  (V39_of m outs c main_arg19 (by decide)).trans (Karg19_38 m outs c)
theorem Karg19_40 : V40 m outs c main_arg19 = m ((c : Thread nD τ).loc main_arg19) :=
  (V40_of m outs c main_arg19 (by decide)).trans (Karg19_39 m outs c)
theorem Karg19_41 : V41 m outs c main_arg19 = m ((c : Thread nD τ).loc main_arg19) :=
  (V41_of m outs c main_arg19 (by decide)).trans (Karg19_40 m outs c)
theorem Karg19_42 : V42 m outs c main_arg19 = m ((c : Thread nD τ).loc main_arg19) :=
  (V42_of m outs c main_arg19 (by decide)).trans (Karg19_41 m outs c)
theorem Karg19_43 : V43 m outs c main_arg19 = m ((c : Thread nD τ).loc main_arg19) :=
  (V43_of m outs c main_arg19 (by decide)).trans (Karg19_42 m outs c)
theorem Karg19_44 : V44 m outs c main_arg19 = m ((c : Thread nD τ).loc main_arg19) :=
  (V44_of m outs c main_arg19 (by decide)).trans (Karg19_43 m outs c)
theorem Karg19_45 : V45 m outs c main_arg19 = m ((c : Thread nD τ).loc main_arg19) :=
  (V45_of m outs c main_arg19 (by decide)).trans (Karg19_44 m outs c)
theorem Karg19_46 : V46 m outs c main_arg19 = m ((c : Thread nD τ).loc main_arg19) :=
  (V46_of m outs c main_arg19 (by decide)).trans (Karg19_45 m outs c)
theorem Karg19_47 : V47 m outs c main_arg19 = m ((c : Thread nD τ).loc main_arg19) :=
  (V47_of m outs c main_arg19 (by decide)).trans (Karg19_46 m outs c)
theorem Karg19_48 : V48 m outs c main_arg19 = m ((c : Thread nD τ).loc main_arg19) :=
  (V48_of m outs c main_arg19 (by decide)).trans (Karg19_47 m outs c)
theorem Karg19_49 : V49 m outs c main_arg19 = m ((c : Thread nD τ).loc main_arg19) :=
  (V49_of m outs c main_arg19 (by decide)).trans (Karg19_48 m outs c)
theorem Karg19_50 : V50 m outs c main_arg19 = m ((c : Thread nD τ).loc main_arg19) :=
  (V50_of m outs c main_arg19 (by decide)).trans (Karg19_49 m outs c)
theorem Karg19_51 : V51 m outs c main_arg19 = m ((c : Thread nD τ).loc main_arg19) :=
  (V51_of m outs c main_arg19 (by decide)).trans (Karg19_50 m outs c)
theorem Karg19_52 : V52 m outs c main_arg19 = m ((c : Thread nD τ).loc main_arg19) :=
  (V52_of m outs c main_arg19 (by decide)).trans (Karg19_51 m outs c)
theorem Karg19_53 : V53 m outs c main_arg19 = m ((c : Thread nD τ).loc main_arg19) :=
  (V53_of m outs c main_arg19 (by decide)).trans (Karg19_52 m outs c)
theorem Karg19_54 : V54 m outs c main_arg19 = m ((c : Thread nD τ).loc main_arg19) :=
  (V54_of m outs c main_arg19 (by decide)).trans (Karg19_53 m outs c)
theorem Karg19_55 : V55 m outs c main_arg19 = m ((c : Thread nD τ).loc main_arg19) :=
  (V55_of m outs c main_arg19 (by decide)).trans (Karg19_54 m outs c)
theorem Karg19_56 : V56 m outs c main_arg19 = m ((c : Thread nD τ).loc main_arg19) :=
  (V56_of m outs c main_arg19 (by decide)).trans (Karg19_55 m outs c)
theorem Karg19_57 : V57 m outs c main_arg19 = m ((c : Thread nD τ).loc main_arg19) :=
  (V57_of m outs c main_arg19 (by decide)).trans (Karg19_56 m outs c)
theorem Karg19_58 : V58 m outs c main_arg19 = m ((c : Thread nD τ).loc main_arg19) :=
  (V58_of m outs c main_arg19 (by decide)).trans (Karg19_57 m outs c)
theorem Karg19_59 : V59 m outs c main_arg19 = m ((c : Thread nD τ).loc main_arg19) :=
  (V59_of m outs c main_arg19 (by decide)).trans (Karg19_58 m outs c)
theorem Karg19_60 : V60 m outs c main_arg19 = m ((c : Thread nD τ).loc main_arg19) :=
  (V60_of m outs c main_arg19 (by decide)).trans (Karg19_59 m outs c)
theorem Karg19_61 : V61 m outs c main_arg19 = m ((c : Thread nD τ).loc main_arg19) :=
  (V61_of m outs c main_arg19 (by decide)).trans (Karg19_60 m outs c)
theorem Karg19_62 : V62 m outs c main_arg19 = m ((c : Thread nD τ).loc main_arg19) :=
  (V62_of m outs c main_arg19 (by decide)).trans (Karg19_61 m outs c)
theorem Karg19_63 : V63 m outs c main_arg19 = m ((c : Thread nD τ).loc main_arg19) :=
  (V63_of m outs c main_arg19 (by decide)).trans (Karg19_62 m outs c)
theorem Karg19_64 : V64 m outs c main_arg19 = m ((c : Thread nD τ).loc main_arg19) :=
  (V64_of m outs c main_arg19 (by decide)).trans (Karg19_63 m outs c)
theorem Karg19_65 : V65 m outs c main_arg19 = m ((c : Thread nD τ).loc main_arg19) :=
  (V65_of m outs c main_arg19 (by decide)).trans (Karg19_64 m outs c)
theorem Karg19_66 : V66 m outs c main_arg19 = m ((c : Thread nD τ).loc main_arg19) :=
  (V66_of m outs c main_arg19 (by decide)).trans (Karg19_65 m outs c)
theorem Karg19_67 : V67 m outs c main_arg19 = m ((c : Thread nD τ).loc main_arg19) :=
  (V67_of m outs c main_arg19 (by decide)).trans (Karg19_66 m outs c)
theorem Karg19_68 : V68 m outs c main_arg19 = m ((c : Thread nD τ).loc main_arg19) :=
  (V68_of m outs c main_arg19 (by decide)).trans (Karg19_67 m outs c)
theorem Karg19_69 : V69 m outs c main_arg19 = m ((c : Thread nD τ).loc main_arg19) :=
  (V69_of m outs c main_arg19 (by decide)).trans (Karg19_68 m outs c)
theorem Karg19_70 : V70 m outs c main_arg19 = m ((c : Thread nD τ).loc main_arg19) :=
  (V70_of m outs c main_arg19 (by decide)).trans (Karg19_69 m outs c)
theorem Karg19_71 : V71 m outs c main_arg19 = m ((c : Thread nD τ).loc main_arg19) :=
  (V71_of m outs c main_arg19 (by decide)).trans (Karg19_70 m outs c)
theorem Karg19_72 : V72 m outs c main_arg19 = m ((c : Thread nD τ).loc main_arg19) :=
  (V72_of m outs c main_arg19 (by decide)).trans (Karg19_71 m outs c)
theorem Karg19_73 : V73 m outs c main_arg19 = m ((c : Thread nD τ).loc main_arg19) :=
  (V73_of m outs c main_arg19 (by decide)).trans (Karg19_72 m outs c)
theorem Karg19_74 : V74 m outs c main_arg19 = m ((c : Thread nD τ).loc main_arg19) :=
  (V74_of m outs c main_arg19 (by decide)).trans (Karg19_73 m outs c)
theorem Karg19_75 : V75 m outs c main_arg19 = m ((c : Thread nD τ).loc main_arg19) :=
  (V75_of m outs c main_arg19 (by decide)).trans (Karg19_74 m outs c)
theorem Karg19_76 : V76 m outs c main_arg19 = m ((c : Thread nD τ).loc main_arg19) :=
  (V76_of m outs c main_arg19 (by decide)).trans (Karg19_75 m outs c)
theorem Karg19_77 : V77 m outs c main_arg19 = m ((c : Thread nD τ).loc main_arg19) :=
  (V77_of m outs c main_arg19 (by decide)).trans (Karg19_76 m outs c)
theorem Karg19_78 : V78 m outs c main_arg19 = m ((c : Thread nD τ).loc main_arg19) :=
  (V78_of m outs c main_arg19 (by decide)).trans (Karg19_77 m outs c)
theorem Karg19_79 : V79 m outs c main_arg19 = m ((c : Thread nD τ).loc main_arg19) :=
  (V79_of m outs c main_arg19 (by decide)).trans (Karg19_78 m outs c)
theorem Karg19_80 : V80 m outs c main_arg19 = m ((c : Thread nD τ).loc main_arg19) :=
  (V80_of m outs c main_arg19 (by decide)).trans (Karg19_79 m outs c)
theorem Karg19_81 : V81 m outs c main_arg19 = m ((c : Thread nD τ).loc main_arg19) :=
  (V81_of m outs c main_arg19 (by decide)).trans (Karg19_80 m outs c)

end Cert.Bridge

end
-- ==== Proof.Bridge.ArgsKeptK3.lean ====
/- Arguments 20 to 29 of the kernel program hold their launch contents after every item of @main: no host operation
   writes an argument and no kernel region may change one.  One step per item, each from the step before. -/
import proofs.«411400_j9251359555630_1_alg».proof.Proof.KI.RegionsP

set_option maxRecDepth 8192

noncomputable section

namespace Cert.Bridge

open Idealize.ShloMosaic Idealize.ShloMosaic.TcCoe Idealize.SL.Sem
open Cert.KernelIdeal Cert.KernelIdeal.Gen

variable {F : FTy → Type} [FloatOps F]
variable (m : (ℓ : Loc nD τ sig) → Buf (Elt F) ℓ) (outs : Outs (F := F)) (c : Dev nD)

/-! ### main_arg20 -/
theorem Karg20_0 : V0 m c main_arg20 = m ((c : Thread nD τ).loc main_arg20) := rfl
theorem Karg20_1 : V1 m c main_arg20 = m ((c : Thread nD τ).loc main_arg20) :=
  (V1_of m c main_arg20 (by decide)).trans (Karg20_0 m c)
theorem Karg20_2 : V2 m outs c main_arg20 = m ((c : Thread nD τ).loc main_arg20) :=
  (V2_of m outs c main_arg20 (by decide)).trans (Karg20_1 m c)
theorem Karg20_3 : V3 m outs c main_arg20 = m ((c : Thread nD τ).loc main_arg20) :=
  (V3_of m outs c main_arg20 (by decide)).trans (Karg20_2 m outs c)
theorem Karg20_4 : V4 m outs c main_arg20 = m ((c : Thread nD τ).loc main_arg20) :=
  (V4_of m outs c main_arg20 (by decide)).trans (Karg20_3 m outs c)
theorem Karg20_5 : V5 m outs c main_arg20 = m ((c : Thread nD τ).loc main_arg20) :=
  (V5_of m outs c main_arg20 (by decide)).trans (Karg20_4 m outs c)
theorem Karg20_6 : V6 m outs c main_arg20 = m ((c : Thread nD τ).loc main_arg20) :=
  (V6_of m outs c main_arg20 (by decide)).trans (Karg20_5 m outs c)
theorem Karg20_7 : V7 m outs c main_arg20 = m ((c : Thread nD τ).loc main_arg20) :=
  (V7_of m outs c main_arg20 (by decide)).trans (Karg20_6 m outs c)
theorem Karg20_8 : V8 m outs c main_arg20 = m ((c : Thread nD τ).loc main_arg20) :=
  (V8_of m outs c main_arg20 (by decide)).trans (Karg20_7 m outs c)
theorem Karg20_9 : V9 m outs c main_arg20 = m ((c : Thread nD τ).loc main_arg20) :=
  (V9_of m outs c main_arg20 (by decide)).trans (Karg20_8 m outs c)
theorem Karg20_10 : V10 m outs c main_arg20 = m ((c : Thread nD τ).loc main_arg20) :=
  (V10_of m outs c main_arg20 (by decide)).trans (Karg20_9 m outs c)
theorem Karg20_11 : V11 m outs c main_arg20 = m ((c : Thread nD τ).loc main_arg20) :=
  (V11_of m outs c main_arg20 (by decide)).trans (Karg20_10 m outs c)
theorem Karg20_12 : V12 m outs c main_arg20 = m ((c : Thread nD τ).loc main_arg20) :=
  (V12_of m outs c main_arg20 (by decide)).trans (Karg20_11 m outs c)
theorem Karg20_13 : V13 m outs c main_arg20 = m ((c : Thread nD τ).loc main_arg20) :=
  (V13_of m outs c main_arg20 (by decide)).trans (Karg20_12 m outs c)
theorem Karg20_14 : V14 m outs c main_arg20 = m ((c : Thread nD τ).loc main_arg20) :=
  (V14_of m outs c main_arg20 (by decide)).trans (Karg20_13 m outs c)
theorem Karg20_15 : V15 m outs c main_arg20 = m ((c : Thread nD τ).loc main_arg20) :=
  (V15_of m outs c main_arg20 (by decide)).trans (Karg20_14 m outs c)
theorem Karg20_16 : V16 m outs c main_arg20 = m ((c : Thread nD τ).loc main_arg20) :=
  (V16_of m outs c main_arg20 (by decide)).trans (Karg20_15 m outs c)
theorem Karg20_17 : V17 m outs c main_arg20 = m ((c : Thread nD τ).loc main_arg20) :=
  (V17_of m outs c main_arg20 (by decide)).trans (Karg20_16 m outs c)
theorem Karg20_18 : V18 m outs c main_arg20 = m ((c : Thread nD τ).loc main_arg20) :=
  (V18_of m outs c main_arg20 (by decide)).trans (Karg20_17 m outs c)
theorem Karg20_19 : V19 m outs c main_arg20 = m ((c : Thread nD τ).loc main_arg20) :=
  (V19_of m outs c main_arg20 (by decide)).trans (Karg20_18 m outs c)
theorem Karg20_20 : V20 m outs c main_arg20 = m ((c : Thread nD τ).loc main_arg20) :=
  (V20_of m outs c main_arg20 (by decide)).trans (Karg20_19 m outs c)
theorem Karg20_21 : V21 m outs c main_arg20 = m ((c : Thread nD τ).loc main_arg20) :=
  (V21_of m outs c main_arg20 (by decide)).trans (Karg20_20 m outs c)
theorem Karg20_22 : V22 m outs c main_arg20 = m ((c : Thread nD τ).loc main_arg20) :=
  (V22_of m outs c main_arg20 (by decide)).trans (Karg20_21 m outs c)
theorem Karg20_23 : V23 m outs c main_arg20 = m ((c : Thread nD τ).loc main_arg20) :=
  (V23_of m outs c main_arg20 (by decide)).trans (Karg20_22 m outs c)
theorem Karg20_24 : V24 m outs c main_arg20 = m ((c : Thread nD τ).loc main_arg20) :=
  (V24_of m outs c main_arg20 (by decide)).trans (Karg20_23 m outs c)
theorem Karg20_25 : V25 m outs c main_arg20 = m ((c : Thread nD τ).loc main_arg20) :=
  (V25_of m outs c main_arg20 (by decide)).trans (Karg20_24 m outs c)
theorem Karg20_26 : V26 m outs c main_arg20 = m ((c : Thread nD τ).loc main_arg20) :=
  (V26_of m outs c main_arg20 (by decide)).trans (Karg20_25 m outs c)
theorem Karg20_27 : V27 m outs c main_arg20 = m ((c : Thread nD τ).loc main_arg20) :=
  (V27_of m outs c main_arg20 (by decide)).trans (Karg20_26 m outs c)
theorem Karg20_28 : V28 m outs c main_arg20 = m ((c : Thread nD τ).loc main_arg20) :=
  (V28_of m outs c main_arg20 (by decide)).trans (Karg20_27 m outs c)
theorem Karg20_29 : V29 m outs c main_arg20 = m ((c : Thread nD τ).loc main_arg20) :=
  (V29_of m outs c main_arg20 (by decide)).trans (Karg20_28 m outs c)
theorem Karg20_30 : V30 m outs c main_arg20 = m ((c : Thread nD τ).loc main_arg20) :=
  (V30_of m outs c main_arg20 (by decide)).trans (Karg20_29 m outs c)
theorem Karg20_31 : V31 m outs c main_arg20 = m ((c : Thread nD τ).loc main_arg20) :=
  (V31_of m outs c main_arg20 (by decide)).trans (Karg20_30 m outs c)
theorem Karg20_32 : V32 m outs c main_arg20 = m ((c : Thread nD τ).loc main_arg20) :=
  (V32_of m outs c main_arg20 (by decide)).trans (Karg20_31 m outs c)
theorem Karg20_33 : V33 m outs c main_arg20 = m ((c : Thread nD τ).loc main_arg20) :=
  (V33_of m outs c main_arg20 (by decide)).trans (Karg20_32 m outs c)
theorem Karg20_34 : V34 m outs c main_arg20 = m ((c : Thread nD τ).loc main_arg20) :=
  (V34_of m outs c main_arg20 (by decide)).trans (Karg20_33 m outs c)
theorem Karg20_35 : V35 m outs c main_arg20 = m ((c : Thread nD τ).loc main_arg20) :=
  (V35_of m outs c main_arg20 (by decide)).trans (Karg20_34 m outs c)
theorem Karg20_36 : V36 m outs c main_arg20 = m ((c : Thread nD τ).loc main_arg20) :=
  (V36_of m outs c main_arg20 (by decide)).trans (Karg20_35 m outs c)
theorem Karg20_37 : V37 m outs c main_arg20 = m ((c : Thread nD τ).loc main_arg20) :=
  (V37_of m outs c main_arg20 (by decide)).trans (Karg20_36 m outs c)
theorem Karg20_38 : V38 m outs c main_arg20 = m ((c : Thread nD τ).loc main_arg20) :=
  (V38_of m outs c main_arg20 (by decide)).trans (Karg20_37 m outs c)
theorem Karg20_39 : V39 m outs c main_arg20 = m ((c : Thread nD τ).loc main_arg20) :=
  (V39_of m outs c main_arg20 (by decide)).trans (Karg20_38 m outs c)
theorem Karg20_40 : V40 m outs c main_arg20 = m ((c : Thread nD τ).loc main_arg20) :=
  (V40_of m outs c main_arg20 (by decide)).trans (Karg20_39 m outs c)
theorem Karg20_41 : V41 m outs c main_arg20 = m ((c : Thread nD τ).loc main_arg20) :=
  (V41_of m outs c main_arg20 (by decide)).trans (Karg20_40 m outs c)
theorem Karg20_42 : V42 m outs c main_arg20 = m ((c : Thread nD τ).loc main_arg20) :=
  (V42_of m outs c main_arg20 (by decide)).trans (Karg20_41 m outs c)
theorem Karg20_43 : V43 m outs c main_arg20 = m ((c : Thread nD τ).loc main_arg20) :=
  (V43_of m outs c main_arg20 (by decide)).trans (Karg20_42 m outs c)
theorem Karg20_44 : V44 m outs c main_arg20 = m ((c : Thread nD τ).loc main_arg20) :=
  (V44_of m outs c main_arg20 (by decide)).trans (Karg20_43 m outs c)
theorem Karg20_45 : V45 m outs c main_arg20 = m ((c : Thread nD τ).loc main_arg20) :=
  (V45_of m outs c main_arg20 (by decide)).trans (Karg20_44 m outs c)
theorem Karg20_46 : V46 m outs c main_arg20 = m ((c : Thread nD τ).loc main_arg20) :=
  (V46_of m outs c main_arg20 (by decide)).trans (Karg20_45 m outs c)
theorem Karg20_47 : V47 m outs c main_arg20 = m ((c : Thread nD τ).loc main_arg20) :=
  (V47_of m outs c main_arg20 (by decide)).trans (Karg20_46 m outs c)
theorem Karg20_48 : V48 m outs c main_arg20 = m ((c : Thread nD τ).loc main_arg20) :=
  (V48_of m outs c main_arg20 (by decide)).trans (Karg20_47 m outs c)
theorem Karg20_49 : V49 m outs c main_arg20 = m ((c : Thread nD τ).loc main_arg20) :=
  (V49_of m outs c main_arg20 (by decide)).trans (Karg20_48 m outs c)
theorem Karg20_50 : V50 m outs c main_arg20 = m ((c : Thread nD τ).loc main_arg20) :=
  (V50_of m outs c main_arg20 (by decide)).trans (Karg20_49 m outs c)
theorem Karg20_51 : V51 m outs c main_arg20 = m ((c : Thread nD τ).loc main_arg20) :=
  (V51_of m outs c main_arg20 (by decide)).trans (Karg20_50 m outs c)
theorem Karg20_52 : V52 m outs c main_arg20 = m ((c : Thread nD τ).loc main_arg20) :=
  (V52_of m outs c main_arg20 (by decide)).trans (Karg20_51 m outs c)
theorem Karg20_53 : V53 m outs c main_arg20 = m ((c : Thread nD τ).loc main_arg20) :=
  (V53_of m outs c main_arg20 (by decide)).trans (Karg20_52 m outs c)
theorem Karg20_54 : V54 m outs c main_arg20 = m ((c : Thread nD τ).loc main_arg20) :=
  (V54_of m outs c main_arg20 (by decide)).trans (Karg20_53 m outs c)
theorem Karg20_55 : V55 m outs c main_arg20 = m ((c : Thread nD τ).loc main_arg20) :=
  (V55_of m outs c main_arg20 (by decide)).trans (Karg20_54 m outs c)
theorem Karg20_56 : V56 m outs c main_arg20 = m ((c : Thread nD τ).loc main_arg20) :=
  (V56_of m outs c main_arg20 (by decide)).trans (Karg20_55 m outs c)
theorem Karg20_57 : V57 m outs c main_arg20 = m ((c : Thread nD τ).loc main_arg20) :=
  (V57_of m outs c main_arg20 (by decide)).trans (Karg20_56 m outs c)
theorem Karg20_58 : V58 m outs c main_arg20 = m ((c : Thread nD τ).loc main_arg20) :=
  (V58_of m outs c main_arg20 (by decide)).trans (Karg20_57 m outs c)
theorem Karg20_59 : V59 m outs c main_arg20 = m ((c : Thread nD τ).loc main_arg20) :=
  (V59_of m outs c main_arg20 (by decide)).trans (Karg20_58 m outs c)
theorem Karg20_60 : V60 m outs c main_arg20 = m ((c : Thread nD τ).loc main_arg20) :=
  (V60_of m outs c main_arg20 (by decide)).trans (Karg20_59 m outs c)
theorem Karg20_61 : V61 m outs c main_arg20 = m ((c : Thread nD τ).loc main_arg20) :=
  (V61_of m outs c main_arg20 (by decide)).trans (Karg20_60 m outs c)
theorem Karg20_62 : V62 m outs c main_arg20 = m ((c : Thread nD τ).loc main_arg20) :=
  (V62_of m outs c main_arg20 (by decide)).trans (Karg20_61 m outs c)
theorem Karg20_63 : V63 m outs c main_arg20 = m ((c : Thread nD τ).loc main_arg20) :=
  (V63_of m outs c main_arg20 (by decide)).trans (Karg20_62 m outs c)
theorem Karg20_64 : V64 m outs c main_arg20 = m ((c : Thread nD τ).loc main_arg20) :=
  (V64_of m outs c main_arg20 (by decide)).trans (Karg20_63 m outs c)
theorem Karg20_65 : V65 m outs c main_arg20 = m ((c : Thread nD τ).loc main_arg20) :=
  (V65_of m outs c main_arg20 (by decide)).trans (Karg20_64 m outs c)
theorem Karg20_66 : V66 m outs c main_arg20 = m ((c : Thread nD τ).loc main_arg20) :=
  (V66_of m outs c main_arg20 (by decide)).trans (Karg20_65 m outs c)
theorem Karg20_67 : V67 m outs c main_arg20 = m ((c : Thread nD τ).loc main_arg20) :=
  (V67_of m outs c main_arg20 (by decide)).trans (Karg20_66 m outs c)
theorem Karg20_68 : V68 m outs c main_arg20 = m ((c : Thread nD τ).loc main_arg20) :=
  (V68_of m outs c main_arg20 (by decide)).trans (Karg20_67 m outs c)
theorem Karg20_69 : V69 m outs c main_arg20 = m ((c : Thread nD τ).loc main_arg20) :=
  (V69_of m outs c main_arg20 (by decide)).trans (Karg20_68 m outs c)
theorem Karg20_70 : V70 m outs c main_arg20 = m ((c : Thread nD τ).loc main_arg20) :=
  (V70_of m outs c main_arg20 (by decide)).trans (Karg20_69 m outs c)
theorem Karg20_71 : V71 m outs c main_arg20 = m ((c : Thread nD τ).loc main_arg20) :=
  (V71_of m outs c main_arg20 (by decide)).trans (Karg20_70 m outs c)
theorem Karg20_72 : V72 m outs c main_arg20 = m ((c : Thread nD τ).loc main_arg20) :=
  (V72_of m outs c main_arg20 (by decide)).trans (Karg20_71 m outs c)
theorem Karg20_73 : V73 m outs c main_arg20 = m ((c : Thread nD τ).loc main_arg20) :=
  (V73_of m outs c main_arg20 (by decide)).trans (Karg20_72 m outs c)
theorem Karg20_74 : V74 m outs c main_arg20 = m ((c : Thread nD τ).loc main_arg20) :=
  (V74_of m outs c main_arg20 (by decide)).trans (Karg20_73 m outs c)
theorem Karg20_75 : V75 m outs c main_arg20 = m ((c : Thread nD τ).loc main_arg20) :=
  (V75_of m outs c main_arg20 (by decide)).trans (Karg20_74 m outs c)
theorem Karg20_76 : V76 m outs c main_arg20 = m ((c : Thread nD τ).loc main_arg20) :=
  (V76_of m outs c main_arg20 (by decide)).trans (Karg20_75 m outs c)
theorem Karg20_77 : V77 m outs c main_arg20 = m ((c : Thread nD τ).loc main_arg20) :=
  (V77_of m outs c main_arg20 (by decide)).trans (Karg20_76 m outs c)
theorem Karg20_78 : V78 m outs c main_arg20 = m ((c : Thread nD τ).loc main_arg20) :=
  (V78_of m outs c main_arg20 (by decide)).trans (Karg20_77 m outs c)
theorem Karg20_79 : V79 m outs c main_arg20 = m ((c : Thread nD τ).loc main_arg20) :=
  (V79_of m outs c main_arg20 (by decide)).trans (Karg20_78 m outs c)
theorem Karg20_80 : V80 m outs c main_arg20 = m ((c : Thread nD τ).loc main_arg20) :=
  (V80_of m outs c main_arg20 (by decide)).trans (Karg20_79 m outs c)
theorem Karg20_81 : V81 m outs c main_arg20 = m ((c : Thread nD τ).loc main_arg20) :=
  (V81_of m outs c main_arg20 (by decide)).trans (Karg20_80 m outs c)
/-! ### main_arg21 -/
theorem Karg21_0 : V0 m c main_arg21 = m ((c : Thread nD τ).loc main_arg21) := rfl
theorem Karg21_1 : V1 m c main_arg21 = m ((c : Thread nD τ).loc main_arg21) :=
  (V1_of m c main_arg21 (by decide)).trans (Karg21_0 m c)
theorem Karg21_2 : V2 m outs c main_arg21 = m ((c : Thread nD τ).loc main_arg21) :=
  (V2_of m outs c main_arg21 (by decide)).trans (Karg21_1 m c)
theorem Karg21_3 : V3 m outs c main_arg21 = m ((c : Thread nD τ).loc main_arg21) :=
  (V3_of m outs c main_arg21 (by decide)).trans (Karg21_2 m outs c)
theorem Karg21_4 : V4 m outs c main_arg21 = m ((c : Thread nD τ).loc main_arg21) :=
  (V4_of m outs c main_arg21 (by decide)).trans (Karg21_3 m outs c)
theorem Karg21_5 : V5 m outs c main_arg21 = m ((c : Thread nD τ).loc main_arg21) :=
  (V5_of m outs c main_arg21 (by decide)).trans (Karg21_4 m outs c)
theorem Karg21_6 : V6 m outs c main_arg21 = m ((c : Thread nD τ).loc main_arg21) :=
  (V6_of m outs c main_arg21 (by decide)).trans (Karg21_5 m outs c)
theorem Karg21_7 : V7 m outs c main_arg21 = m ((c : Thread nD τ).loc main_arg21) :=
  (V7_of m outs c main_arg21 (by decide)).trans (Karg21_6 m outs c)
theorem Karg21_8 : V8 m outs c main_arg21 = m ((c : Thread nD τ).loc main_arg21) :=
  (V8_of m outs c main_arg21 (by decide)).trans (Karg21_7 m outs c)
theorem Karg21_9 : V9 m outs c main_arg21 = m ((c : Thread nD τ).loc main_arg21) :=
  (V9_of m outs c main_arg21 (by decide)).trans (Karg21_8 m outs c)
theorem Karg21_10 : V10 m outs c main_arg21 = m ((c : Thread nD τ).loc main_arg21) :=
  (V10_of m outs c main_arg21 (by decide)).trans (Karg21_9 m outs c)
theorem Karg21_11 : V11 m outs c main_arg21 = m ((c : Thread nD τ).loc main_arg21) :=
  (V11_of m outs c main_arg21 (by decide)).trans (Karg21_10 m outs c)
theorem Karg21_12 : V12 m outs c main_arg21 = m ((c : Thread nD τ).loc main_arg21) :=
  (V12_of m outs c main_arg21 (by decide)).trans (Karg21_11 m outs c)
theorem Karg21_13 : V13 m outs c main_arg21 = m ((c : Thread nD τ).loc main_arg21) :=
  (V13_of m outs c main_arg21 (by decide)).trans (Karg21_12 m outs c)
theorem Karg21_14 : V14 m outs c main_arg21 = m ((c : Thread nD τ).loc main_arg21) :=
  (V14_of m outs c main_arg21 (by decide)).trans (Karg21_13 m outs c)
theorem Karg21_15 : V15 m outs c main_arg21 = m ((c : Thread nD τ).loc main_arg21) :=
  (V15_of m outs c main_arg21 (by decide)).trans (Karg21_14 m outs c)
theorem Karg21_16 : V16 m outs c main_arg21 = m ((c : Thread nD τ).loc main_arg21) :=
  (V16_of m outs c main_arg21 (by decide)).trans (Karg21_15 m outs c)
theorem Karg21_17 : V17 m outs c main_arg21 = m ((c : Thread nD τ).loc main_arg21) :=
  (V17_of m outs c main_arg21 (by decide)).trans (Karg21_16 m outs c)
theorem Karg21_18 : V18 m outs c main_arg21 = m ((c : Thread nD τ).loc main_arg21) :=
  (V18_of m outs c main_arg21 (by decide)).trans (Karg21_17 m outs c)
theorem Karg21_19 : V19 m outs c main_arg21 = m ((c : Thread nD τ).loc main_arg21) :=
  (V19_of m outs c main_arg21 (by decide)).trans (Karg21_18 m outs c)
theorem Karg21_20 : V20 m outs c main_arg21 = m ((c : Thread nD τ).loc main_arg21) :=
  (V20_of m outs c main_arg21 (by decide)).trans (Karg21_19 m outs c)
theorem Karg21_21 : V21 m outs c main_arg21 = m ((c : Thread nD τ).loc main_arg21) :=
  (V21_of m outs c main_arg21 (by decide)).trans (Karg21_20 m outs c)
theorem Karg21_22 : V22 m outs c main_arg21 = m ((c : Thread nD τ).loc main_arg21) :=
  (V22_of m outs c main_arg21 (by decide)).trans (Karg21_21 m outs c)
theorem Karg21_23 : V23 m outs c main_arg21 = m ((c : Thread nD τ).loc main_arg21) :=
  (V23_of m outs c main_arg21 (by decide)).trans (Karg21_22 m outs c)
theorem Karg21_24 : V24 m outs c main_arg21 = m ((c : Thread nD τ).loc main_arg21) :=
  (V24_of m outs c main_arg21 (by decide)).trans (Karg21_23 m outs c)
theorem Karg21_25 : V25 m outs c main_arg21 = m ((c : Thread nD τ).loc main_arg21) :=
  (V25_of m outs c main_arg21 (by decide)).trans (Karg21_24 m outs c)
theorem Karg21_26 : V26 m outs c main_arg21 = m ((c : Thread nD τ).loc main_arg21) :=
  (V26_of m outs c main_arg21 (by decide)).trans (Karg21_25 m outs c)
theorem Karg21_27 : V27 m outs c main_arg21 = m ((c : Thread nD τ).loc main_arg21) :=
  (V27_of m outs c main_arg21 (by decide)).trans (Karg21_26 m outs c)
theorem Karg21_28 : V28 m outs c main_arg21 = m ((c : Thread nD τ).loc main_arg21) :=
  (V28_of m outs c main_arg21 (by decide)).trans (Karg21_27 m outs c)
theorem Karg21_29 : V29 m outs c main_arg21 = m ((c : Thread nD τ).loc main_arg21) :=
  (V29_of m outs c main_arg21 (by decide)).trans (Karg21_28 m outs c)
theorem Karg21_30 : V30 m outs c main_arg21 = m ((c : Thread nD τ).loc main_arg21) :=
  (V30_of m outs c main_arg21 (by decide)).trans (Karg21_29 m outs c)
theorem Karg21_31 : V31 m outs c main_arg21 = m ((c : Thread nD τ).loc main_arg21) :=
  (V31_of m outs c main_arg21 (by decide)).trans (Karg21_30 m outs c)
theorem Karg21_32 : V32 m outs c main_arg21 = m ((c : Thread nD τ).loc main_arg21) :=
  (V32_of m outs c main_arg21 (by decide)).trans (Karg21_31 m outs c)
theorem Karg21_33 : V33 m outs c main_arg21 = m ((c : Thread nD τ).loc main_arg21) :=
  (V33_of m outs c main_arg21 (by decide)).trans (Karg21_32 m outs c)
theorem Karg21_34 : V34 m outs c main_arg21 = m ((c : Thread nD τ).loc main_arg21) :=
  (V34_of m outs c main_arg21 (by decide)).trans (Karg21_33 m outs c)
theorem Karg21_35 : V35 m outs c main_arg21 = m ((c : Thread nD τ).loc main_arg21) :=
  (V35_of m outs c main_arg21 (by decide)).trans (Karg21_34 m outs c)
theorem Karg21_36 : V36 m outs c main_arg21 = m ((c : Thread nD τ).loc main_arg21) :=
  (V36_of m outs c main_arg21 (by decide)).trans (Karg21_35 m outs c)
theorem Karg21_37 : V37 m outs c main_arg21 = m ((c : Thread nD τ).loc main_arg21) :=
  (V37_of m outs c main_arg21 (by decide)).trans (Karg21_36 m outs c)
theorem Karg21_38 : V38 m outs c main_arg21 = m ((c : Thread nD τ).loc main_arg21) :=
  (V38_of m outs c main_arg21 (by decide)).trans (Karg21_37 m outs c)
theorem Karg21_39 : V39 m outs c main_arg21 = m ((c : Thread nD τ).loc main_arg21) :=
  (V39_of m outs c main_arg21 (by decide)).trans (Karg21_38 m outs c)
theorem Karg21_40 : V40 m outs c main_arg21 = m ((c : Thread nD τ).loc main_arg21) :=
  (V40_of m outs c main_arg21 (by decide)).trans (Karg21_39 m outs c)
theorem Karg21_41 : V41 m outs c main_arg21 = m ((c : Thread nD τ).loc main_arg21) :=
  (V41_of m outs c main_arg21 (by decide)).trans (Karg21_40 m outs c)
theorem Karg21_42 : V42 m outs c main_arg21 = m ((c : Thread nD τ).loc main_arg21) :=
  (V42_of m outs c main_arg21 (by decide)).trans (Karg21_41 m outs c)
theorem Karg21_43 : V43 m outs c main_arg21 = m ((c : Thread nD τ).loc main_arg21) :=
  (V43_of m outs c main_arg21 (by decide)).trans (Karg21_42 m outs c)
theorem Karg21_44 : V44 m outs c main_arg21 = m ((c : Thread nD τ).loc main_arg21) :=
  (V44_of m outs c main_arg21 (by decide)).trans (Karg21_43 m outs c)
theorem Karg21_45 : V45 m outs c main_arg21 = m ((c : Thread nD τ).loc main_arg21) :=
  (V45_of m outs c main_arg21 (by decide)).trans (Karg21_44 m outs c)
theorem Karg21_46 : V46 m outs c main_arg21 = m ((c : Thread nD τ).loc main_arg21) :=
  (V46_of m outs c main_arg21 (by decide)).trans (Karg21_45 m outs c)
theorem Karg21_47 : V47 m outs c main_arg21 = m ((c : Thread nD τ).loc main_arg21) :=
  (V47_of m outs c main_arg21 (by decide)).trans (Karg21_46 m outs c)
theorem Karg21_48 : V48 m outs c main_arg21 = m ((c : Thread nD τ).loc main_arg21) :=
  (V48_of m outs c main_arg21 (by decide)).trans (Karg21_47 m outs c)
theorem Karg21_49 : V49 m outs c main_arg21 = m ((c : Thread nD τ).loc main_arg21) :=
  (V49_of m outs c main_arg21 (by decide)).trans (Karg21_48 m outs c)
theorem Karg21_50 : V50 m outs c main_arg21 = m ((c : Thread nD τ).loc main_arg21) :=
  (V50_of m outs c main_arg21 (by decide)).trans (Karg21_49 m outs c)
theorem Karg21_51 : V51 m outs c main_arg21 = m ((c : Thread nD τ).loc main_arg21) :=
  (V51_of m outs c main_arg21 (by decide)).trans (Karg21_50 m outs c)
theorem Karg21_52 : V52 m outs c main_arg21 = m ((c : Thread nD τ).loc main_arg21) :=
  (V52_of m outs c main_arg21 (by decide)).trans (Karg21_51 m outs c)
theorem Karg21_53 : V53 m outs c main_arg21 = m ((c : Thread nD τ).loc main_arg21) :=
  (V53_of m outs c main_arg21 (by decide)).trans (Karg21_52 m outs c)
theorem Karg21_54 : V54 m outs c main_arg21 = m ((c : Thread nD τ).loc main_arg21) :=
  (V54_of m outs c main_arg21 (by decide)).trans (Karg21_53 m outs c)
theorem Karg21_55 : V55 m outs c main_arg21 = m ((c : Thread nD τ).loc main_arg21) :=
  (V55_of m outs c main_arg21 (by decide)).trans (Karg21_54 m outs c)
theorem Karg21_56 : V56 m outs c main_arg21 = m ((c : Thread nD τ).loc main_arg21) :=
  (V56_of m outs c main_arg21 (by decide)).trans (Karg21_55 m outs c)
theorem Karg21_57 : V57 m outs c main_arg21 = m ((c : Thread nD τ).loc main_arg21) :=
  (V57_of m outs c main_arg21 (by decide)).trans (Karg21_56 m outs c)
theorem Karg21_58 : V58 m outs c main_arg21 = m ((c : Thread nD τ).loc main_arg21) :=
  (V58_of m outs c main_arg21 (by decide)).trans (Karg21_57 m outs c)
theorem Karg21_59 : V59 m outs c main_arg21 = m ((c : Thread nD τ).loc main_arg21) :=
  (V59_of m outs c main_arg21 (by decide)).trans (Karg21_58 m outs c)
theorem Karg21_60 : V60 m outs c main_arg21 = m ((c : Thread nD τ).loc main_arg21) :=
  (V60_of m outs c main_arg21 (by decide)).trans (Karg21_59 m outs c)
theorem Karg21_61 : V61 m outs c main_arg21 = m ((c : Thread nD τ).loc main_arg21) :=
  (V61_of m outs c main_arg21 (by decide)).trans (Karg21_60 m outs c)
theorem Karg21_62 : V62 m outs c main_arg21 = m ((c : Thread nD τ).loc main_arg21) :=
  (V62_of m outs c main_arg21 (by decide)).trans (Karg21_61 m outs c)
theorem Karg21_63 : V63 m outs c main_arg21 = m ((c : Thread nD τ).loc main_arg21) :=
  (V63_of m outs c main_arg21 (by decide)).trans (Karg21_62 m outs c)
theorem Karg21_64 : V64 m outs c main_arg21 = m ((c : Thread nD τ).loc main_arg21) :=
  (V64_of m outs c main_arg21 (by decide)).trans (Karg21_63 m outs c)
theorem Karg21_65 : V65 m outs c main_arg21 = m ((c : Thread nD τ).loc main_arg21) :=
  (V65_of m outs c main_arg21 (by decide)).trans (Karg21_64 m outs c)
theorem Karg21_66 : V66 m outs c main_arg21 = m ((c : Thread nD τ).loc main_arg21) :=
  (V66_of m outs c main_arg21 (by decide)).trans (Karg21_65 m outs c)
theorem Karg21_67 : V67 m outs c main_arg21 = m ((c : Thread nD τ).loc main_arg21) :=
  (V67_of m outs c main_arg21 (by decide)).trans (Karg21_66 m outs c)
theorem Karg21_68 : V68 m outs c main_arg21 = m ((c : Thread nD τ).loc main_arg21) :=
  (V68_of m outs c main_arg21 (by decide)).trans (Karg21_67 m outs c)
theorem Karg21_69 : V69 m outs c main_arg21 = m ((c : Thread nD τ).loc main_arg21) :=
  (V69_of m outs c main_arg21 (by decide)).trans (Karg21_68 m outs c)
theorem Karg21_70 : V70 m outs c main_arg21 = m ((c : Thread nD τ).loc main_arg21) :=
  (V70_of m outs c main_arg21 (by decide)).trans (Karg21_69 m outs c)
theorem Karg21_71 : V71 m outs c main_arg21 = m ((c : Thread nD τ).loc main_arg21) :=
  (V71_of m outs c main_arg21 (by decide)).trans (Karg21_70 m outs c)
theorem Karg21_72 : V72 m outs c main_arg21 = m ((c : Thread nD τ).loc main_arg21) :=
  (V72_of m outs c main_arg21 (by decide)).trans (Karg21_71 m outs c)
theorem Karg21_73 : V73 m outs c main_arg21 = m ((c : Thread nD τ).loc main_arg21) :=
  (V73_of m outs c main_arg21 (by decide)).trans (Karg21_72 m outs c)
theorem Karg21_74 : V74 m outs c main_arg21 = m ((c : Thread nD τ).loc main_arg21) :=
  (V74_of m outs c main_arg21 (by decide)).trans (Karg21_73 m outs c)
theorem Karg21_75 : V75 m outs c main_arg21 = m ((c : Thread nD τ).loc main_arg21) :=
  (V75_of m outs c main_arg21 (by decide)).trans (Karg21_74 m outs c)
theorem Karg21_76 : V76 m outs c main_arg21 = m ((c : Thread nD τ).loc main_arg21) :=
  (V76_of m outs c main_arg21 (by decide)).trans (Karg21_75 m outs c)
theorem Karg21_77 : V77 m outs c main_arg21 = m ((c : Thread nD τ).loc main_arg21) :=
  (V77_of m outs c main_arg21 (by decide)).trans (Karg21_76 m outs c)
theorem Karg21_78 : V78 m outs c main_arg21 = m ((c : Thread nD τ).loc main_arg21) :=
  (V78_of m outs c main_arg21 (by decide)).trans (Karg21_77 m outs c)
theorem Karg21_79 : V79 m outs c main_arg21 = m ((c : Thread nD τ).loc main_arg21) :=
  (V79_of m outs c main_arg21 (by decide)).trans (Karg21_78 m outs c)
theorem Karg21_80 : V80 m outs c main_arg21 = m ((c : Thread nD τ).loc main_arg21) :=
  (V80_of m outs c main_arg21 (by decide)).trans (Karg21_79 m outs c)
theorem Karg21_81 : V81 m outs c main_arg21 = m ((c : Thread nD τ).loc main_arg21) :=
  (V81_of m outs c main_arg21 (by decide)).trans (Karg21_80 m outs c)
/-! ### main_arg22 -/
theorem Karg22_0 : V0 m c main_arg22 = m ((c : Thread nD τ).loc main_arg22) := rfl
theorem Karg22_1 : V1 m c main_arg22 = m ((c : Thread nD τ).loc main_arg22) :=
  (V1_of m c main_arg22 (by decide)).trans (Karg22_0 m c)
theorem Karg22_2 : V2 m outs c main_arg22 = m ((c : Thread nD τ).loc main_arg22) :=
  (V2_of m outs c main_arg22 (by decide)).trans (Karg22_1 m c)
theorem Karg22_3 : V3 m outs c main_arg22 = m ((c : Thread nD τ).loc main_arg22) :=
  (V3_of m outs c main_arg22 (by decide)).trans (Karg22_2 m outs c)
theorem Karg22_4 : V4 m outs c main_arg22 = m ((c : Thread nD τ).loc main_arg22) :=
  (V4_of m outs c main_arg22 (by decide)).trans (Karg22_3 m outs c)
theorem Karg22_5 : V5 m outs c main_arg22 = m ((c : Thread nD τ).loc main_arg22) :=
  (V5_of m outs c main_arg22 (by decide)).trans (Karg22_4 m outs c)
theorem Karg22_6 : V6 m outs c main_arg22 = m ((c : Thread nD τ).loc main_arg22) :=
  (V6_of m outs c main_arg22 (by decide)).trans (Karg22_5 m outs c)
theorem Karg22_7 : V7 m outs c main_arg22 = m ((c : Thread nD τ).loc main_arg22) :=
  (V7_of m outs c main_arg22 (by decide)).trans (Karg22_6 m outs c)
theorem Karg22_8 : V8 m outs c main_arg22 = m ((c : Thread nD τ).loc main_arg22) :=
  (V8_of m outs c main_arg22 (by decide)).trans (Karg22_7 m outs c)
theorem Karg22_9 : V9 m outs c main_arg22 = m ((c : Thread nD τ).loc main_arg22) :=
  (V9_of m outs c main_arg22 (by decide)).trans (Karg22_8 m outs c)
theorem Karg22_10 : V10 m outs c main_arg22 = m ((c : Thread nD τ).loc main_arg22) :=
  (V10_of m outs c main_arg22 (by decide)).trans (Karg22_9 m outs c)
theorem Karg22_11 : V11 m outs c main_arg22 = m ((c : Thread nD τ).loc main_arg22) :=
  (V11_of m outs c main_arg22 (by decide)).trans (Karg22_10 m outs c)
theorem Karg22_12 : V12 m outs c main_arg22 = m ((c : Thread nD τ).loc main_arg22) :=
  (V12_of m outs c main_arg22 (by decide)).trans (Karg22_11 m outs c)
theorem Karg22_13 : V13 m outs c main_arg22 = m ((c : Thread nD τ).loc main_arg22) :=
  (V13_of m outs c main_arg22 (by decide)).trans (Karg22_12 m outs c)
theorem Karg22_14 : V14 m outs c main_arg22 = m ((c : Thread nD τ).loc main_arg22) :=
  (V14_of m outs c main_arg22 (by decide)).trans (Karg22_13 m outs c)
theorem Karg22_15 : V15 m outs c main_arg22 = m ((c : Thread nD τ).loc main_arg22) :=
  (V15_of m outs c main_arg22 (by decide)).trans (Karg22_14 m outs c)
theorem Karg22_16 : V16 m outs c main_arg22 = m ((c : Thread nD τ).loc main_arg22) :=
  (V16_of m outs c main_arg22 (by decide)).trans (Karg22_15 m outs c)
theorem Karg22_17 : V17 m outs c main_arg22 = m ((c : Thread nD τ).loc main_arg22) :=
  (V17_of m outs c main_arg22 (by decide)).trans (Karg22_16 m outs c)
theorem Karg22_18 : V18 m outs c main_arg22 = m ((c : Thread nD τ).loc main_arg22) :=
  (V18_of m outs c main_arg22 (by decide)).trans (Karg22_17 m outs c)
theorem Karg22_19 : V19 m outs c main_arg22 = m ((c : Thread nD τ).loc main_arg22) :=
  (V19_of m outs c main_arg22 (by decide)).trans (Karg22_18 m outs c)
theorem Karg22_20 : V20 m outs c main_arg22 = m ((c : Thread nD τ).loc main_arg22) :=
  (V20_of m outs c main_arg22 (by decide)).trans (Karg22_19 m outs c)
theorem Karg22_21 : V21 m outs c main_arg22 = m ((c : Thread nD τ).loc main_arg22) :=
  (V21_of m outs c main_arg22 (by decide)).trans (Karg22_20 m outs c)
theorem Karg22_22 : V22 m outs c main_arg22 = m ((c : Thread nD τ).loc main_arg22) :=
  (V22_of m outs c main_arg22 (by decide)).trans (Karg22_21 m outs c)
theorem Karg22_23 : V23 m outs c main_arg22 = m ((c : Thread nD τ).loc main_arg22) :=
  (V23_of m outs c main_arg22 (by decide)).trans (Karg22_22 m outs c)
theorem Karg22_24 : V24 m outs c main_arg22 = m ((c : Thread nD τ).loc main_arg22) :=
  (V24_of m outs c main_arg22 (by decide)).trans (Karg22_23 m outs c)
theorem Karg22_25 : V25 m outs c main_arg22 = m ((c : Thread nD τ).loc main_arg22) :=
  (V25_of m outs c main_arg22 (by decide)).trans (Karg22_24 m outs c)
theorem Karg22_26 : V26 m outs c main_arg22 = m ((c : Thread nD τ).loc main_arg22) :=
  (V26_of m outs c main_arg22 (by decide)).trans (Karg22_25 m outs c)
theorem Karg22_27 : V27 m outs c main_arg22 = m ((c : Thread nD τ).loc main_arg22) :=
  (V27_of m outs c main_arg22 (by decide)).trans (Karg22_26 m outs c)
theorem Karg22_28 : V28 m outs c main_arg22 = m ((c : Thread nD τ).loc main_arg22) :=
  (V28_of m outs c main_arg22 (by decide)).trans (Karg22_27 m outs c)
theorem Karg22_29 : V29 m outs c main_arg22 = m ((c : Thread nD τ).loc main_arg22) :=
  (V29_of m outs c main_arg22 (by decide)).trans (Karg22_28 m outs c)
theorem Karg22_30 : V30 m outs c main_arg22 = m ((c : Thread nD τ).loc main_arg22) :=
  (V30_of m outs c main_arg22 (by decide)).trans (Karg22_29 m outs c)
theorem Karg22_31 : V31 m outs c main_arg22 = m ((c : Thread nD τ).loc main_arg22) :=
  (V31_of m outs c main_arg22 (by decide)).trans (Karg22_30 m outs c)
theorem Karg22_32 : V32 m outs c main_arg22 = m ((c : Thread nD τ).loc main_arg22) :=
  (V32_of m outs c main_arg22 (by decide)).trans (Karg22_31 m outs c)
theorem Karg22_33 : V33 m outs c main_arg22 = m ((c : Thread nD τ).loc main_arg22) :=
  (V33_of m outs c main_arg22 (by decide)).trans (Karg22_32 m outs c)
theorem Karg22_34 : V34 m outs c main_arg22 = m ((c : Thread nD τ).loc main_arg22) :=
  (V34_of m outs c main_arg22 (by decide)).trans (Karg22_33 m outs c)
theorem Karg22_35 : V35 m outs c main_arg22 = m ((c : Thread nD τ).loc main_arg22) :=
  (V35_of m outs c main_arg22 (by decide)).trans (Karg22_34 m outs c)
theorem Karg22_36 : V36 m outs c main_arg22 = m ((c : Thread nD τ).loc main_arg22) :=
  (V36_of m outs c main_arg22 (by decide)).trans (Karg22_35 m outs c)
theorem Karg22_37 : V37 m outs c main_arg22 = m ((c : Thread nD τ).loc main_arg22) :=
  (V37_of m outs c main_arg22 (by decide)).trans (Karg22_36 m outs c)
theorem Karg22_38 : V38 m outs c main_arg22 = m ((c : Thread nD τ).loc main_arg22) :=
  (V38_of m outs c main_arg22 (by decide)).trans (Karg22_37 m outs c)
theorem Karg22_39 : V39 m outs c main_arg22 = m ((c : Thread nD τ).loc main_arg22) :=
  (V39_of m outs c main_arg22 (by decide)).trans (Karg22_38 m outs c)
theorem Karg22_40 : V40 m outs c main_arg22 = m ((c : Thread nD τ).loc main_arg22) :=
  (V40_of m outs c main_arg22 (by decide)).trans (Karg22_39 m outs c)
theorem Karg22_41 : V41 m outs c main_arg22 = m ((c : Thread nD τ).loc main_arg22) :=
  (V41_of m outs c main_arg22 (by decide)).trans (Karg22_40 m outs c)
theorem Karg22_42 : V42 m outs c main_arg22 = m ((c : Thread nD τ).loc main_arg22) :=
  (V42_of m outs c main_arg22 (by decide)).trans (Karg22_41 m outs c)
theorem Karg22_43 : V43 m outs c main_arg22 = m ((c : Thread nD τ).loc main_arg22) :=
  (V43_of m outs c main_arg22 (by decide)).trans (Karg22_42 m outs c)
theorem Karg22_44 : V44 m outs c main_arg22 = m ((c : Thread nD τ).loc main_arg22) :=
  (V44_of m outs c main_arg22 (by decide)).trans (Karg22_43 m outs c)
theorem Karg22_45 : V45 m outs c main_arg22 = m ((c : Thread nD τ).loc main_arg22) :=
  (V45_of m outs c main_arg22 (by decide)).trans (Karg22_44 m outs c)
theorem Karg22_46 : V46 m outs c main_arg22 = m ((c : Thread nD τ).loc main_arg22) :=
  (V46_of m outs c main_arg22 (by decide)).trans (Karg22_45 m outs c)
theorem Karg22_47 : V47 m outs c main_arg22 = m ((c : Thread nD τ).loc main_arg22) :=
  (V47_of m outs c main_arg22 (by decide)).trans (Karg22_46 m outs c)
theorem Karg22_48 : V48 m outs c main_arg22 = m ((c : Thread nD τ).loc main_arg22) :=
  (V48_of m outs c main_arg22 (by decide)).trans (Karg22_47 m outs c)
theorem Karg22_49 : V49 m outs c main_arg22 = m ((c : Thread nD τ).loc main_arg22) :=
  (V49_of m outs c main_arg22 (by decide)).trans (Karg22_48 m outs c)
theorem Karg22_50 : V50 m outs c main_arg22 = m ((c : Thread nD τ).loc main_arg22) :=
  (V50_of m outs c main_arg22 (by decide)).trans (Karg22_49 m outs c)
theorem Karg22_51 : V51 m outs c main_arg22 = m ((c : Thread nD τ).loc main_arg22) :=
  (V51_of m outs c main_arg22 (by decide)).trans (Karg22_50 m outs c)
theorem Karg22_52 : V52 m outs c main_arg22 = m ((c : Thread nD τ).loc main_arg22) :=
  (V52_of m outs c main_arg22 (by decide)).trans (Karg22_51 m outs c)
theorem Karg22_53 : V53 m outs c main_arg22 = m ((c : Thread nD τ).loc main_arg22) :=
  (V53_of m outs c main_arg22 (by decide)).trans (Karg22_52 m outs c)
theorem Karg22_54 : V54 m outs c main_arg22 = m ((c : Thread nD τ).loc main_arg22) :=
  (V54_of m outs c main_arg22 (by decide)).trans (Karg22_53 m outs c)
theorem Karg22_55 : V55 m outs c main_arg22 = m ((c : Thread nD τ).loc main_arg22) :=
  (V55_of m outs c main_arg22 (by decide)).trans (Karg22_54 m outs c)
theorem Karg22_56 : V56 m outs c main_arg22 = m ((c : Thread nD τ).loc main_arg22) :=
  (V56_of m outs c main_arg22 (by decide)).trans (Karg22_55 m outs c)
theorem Karg22_57 : V57 m outs c main_arg22 = m ((c : Thread nD τ).loc main_arg22) :=
  (V57_of m outs c main_arg22 (by decide)).trans (Karg22_56 m outs c)
theorem Karg22_58 : V58 m outs c main_arg22 = m ((c : Thread nD τ).loc main_arg22) :=
  (V58_of m outs c main_arg22 (by decide)).trans (Karg22_57 m outs c)
theorem Karg22_59 : V59 m outs c main_arg22 = m ((c : Thread nD τ).loc main_arg22) :=
  (V59_of m outs c main_arg22 (by decide)).trans (Karg22_58 m outs c)
theorem Karg22_60 : V60 m outs c main_arg22 = m ((c : Thread nD τ).loc main_arg22) :=
  (V60_of m outs c main_arg22 (by decide)).trans (Karg22_59 m outs c)
theorem Karg22_61 : V61 m outs c main_arg22 = m ((c : Thread nD τ).loc main_arg22) :=
  (V61_of m outs c main_arg22 (by decide)).trans (Karg22_60 m outs c)
theorem Karg22_62 : V62 m outs c main_arg22 = m ((c : Thread nD τ).loc main_arg22) :=
  (V62_of m outs c main_arg22 (by decide)).trans (Karg22_61 m outs c)
theorem Karg22_63 : V63 m outs c main_arg22 = m ((c : Thread nD τ).loc main_arg22) :=
  (V63_of m outs c main_arg22 (by decide)).trans (Karg22_62 m outs c)
theorem Karg22_64 : V64 m outs c main_arg22 = m ((c : Thread nD τ).loc main_arg22) :=
  (V64_of m outs c main_arg22 (by decide)).trans (Karg22_63 m outs c)
theorem Karg22_65 : V65 m outs c main_arg22 = m ((c : Thread nD τ).loc main_arg22) :=
  (V65_of m outs c main_arg22 (by decide)).trans (Karg22_64 m outs c)
theorem Karg22_66 : V66 m outs c main_arg22 = m ((c : Thread nD τ).loc main_arg22) :=
  (V66_of m outs c main_arg22 (by decide)).trans (Karg22_65 m outs c)
theorem Karg22_67 : V67 m outs c main_arg22 = m ((c : Thread nD τ).loc main_arg22) :=
  (V67_of m outs c main_arg22 (by decide)).trans (Karg22_66 m outs c)
theorem Karg22_68 : V68 m outs c main_arg22 = m ((c : Thread nD τ).loc main_arg22) :=
  (V68_of m outs c main_arg22 (by decide)).trans (Karg22_67 m outs c)
theorem Karg22_69 : V69 m outs c main_arg22 = m ((c : Thread nD τ).loc main_arg22) :=
  (V69_of m outs c main_arg22 (by decide)).trans (Karg22_68 m outs c)
theorem Karg22_70 : V70 m outs c main_arg22 = m ((c : Thread nD τ).loc main_arg22) :=
  (V70_of m outs c main_arg22 (by decide)).trans (Karg22_69 m outs c)
theorem Karg22_71 : V71 m outs c main_arg22 = m ((c : Thread nD τ).loc main_arg22) :=
  (V71_of m outs c main_arg22 (by decide)).trans (Karg22_70 m outs c)
theorem Karg22_72 : V72 m outs c main_arg22 = m ((c : Thread nD τ).loc main_arg22) :=
  (V72_of m outs c main_arg22 (by decide)).trans (Karg22_71 m outs c)
theorem Karg22_73 : V73 m outs c main_arg22 = m ((c : Thread nD τ).loc main_arg22) :=
  (V73_of m outs c main_arg22 (by decide)).trans (Karg22_72 m outs c)
theorem Karg22_74 : V74 m outs c main_arg22 = m ((c : Thread nD τ).loc main_arg22) :=
  (V74_of m outs c main_arg22 (by decide)).trans (Karg22_73 m outs c)
theorem Karg22_75 : V75 m outs c main_arg22 = m ((c : Thread nD τ).loc main_arg22) :=
  (V75_of m outs c main_arg22 (by decide)).trans (Karg22_74 m outs c)
theorem Karg22_76 : V76 m outs c main_arg22 = m ((c : Thread nD τ).loc main_arg22) :=
  (V76_of m outs c main_arg22 (by decide)).trans (Karg22_75 m outs c)
theorem Karg22_77 : V77 m outs c main_arg22 = m ((c : Thread nD τ).loc main_arg22) :=
  (V77_of m outs c main_arg22 (by decide)).trans (Karg22_76 m outs c)
theorem Karg22_78 : V78 m outs c main_arg22 = m ((c : Thread nD τ).loc main_arg22) :=
  (V78_of m outs c main_arg22 (by decide)).trans (Karg22_77 m outs c)
theorem Karg22_79 : V79 m outs c main_arg22 = m ((c : Thread nD τ).loc main_arg22) :=
  (V79_of m outs c main_arg22 (by decide)).trans (Karg22_78 m outs c)
theorem Karg22_80 : V80 m outs c main_arg22 = m ((c : Thread nD τ).loc main_arg22) :=
  (V80_of m outs c main_arg22 (by decide)).trans (Karg22_79 m outs c)
theorem Karg22_81 : V81 m outs c main_arg22 = m ((c : Thread nD τ).loc main_arg22) :=
  (V81_of m outs c main_arg22 (by decide)).trans (Karg22_80 m outs c)
/-! ### main_arg23 -/
theorem Karg23_0 : V0 m c main_arg23 = m ((c : Thread nD τ).loc main_arg23) := rfl
theorem Karg23_1 : V1 m c main_arg23 = m ((c : Thread nD τ).loc main_arg23) :=
  (V1_of m c main_arg23 (by decide)).trans (Karg23_0 m c)
theorem Karg23_2 : V2 m outs c main_arg23 = m ((c : Thread nD τ).loc main_arg23) :=
  (V2_of m outs c main_arg23 (by decide)).trans (Karg23_1 m c)
theorem Karg23_3 : V3 m outs c main_arg23 = m ((c : Thread nD τ).loc main_arg23) :=
  (V3_of m outs c main_arg23 (by decide)).trans (Karg23_2 m outs c)
theorem Karg23_4 : V4 m outs c main_arg23 = m ((c : Thread nD τ).loc main_arg23) :=
  (V4_of m outs c main_arg23 (by decide)).trans (Karg23_3 m outs c)
theorem Karg23_5 : V5 m outs c main_arg23 = m ((c : Thread nD τ).loc main_arg23) :=
  (V5_of m outs c main_arg23 (by decide)).trans (Karg23_4 m outs c)
theorem Karg23_6 : V6 m outs c main_arg23 = m ((c : Thread nD τ).loc main_arg23) :=
  (V6_of m outs c main_arg23 (by decide)).trans (Karg23_5 m outs c)
theorem Karg23_7 : V7 m outs c main_arg23 = m ((c : Thread nD τ).loc main_arg23) :=
  (V7_of m outs c main_arg23 (by decide)).trans (Karg23_6 m outs c)
theorem Karg23_8 : V8 m outs c main_arg23 = m ((c : Thread nD τ).loc main_arg23) :=
  (V8_of m outs c main_arg23 (by decide)).trans (Karg23_7 m outs c)
theorem Karg23_9 : V9 m outs c main_arg23 = m ((c : Thread nD τ).loc main_arg23) :=
  (V9_of m outs c main_arg23 (by decide)).trans (Karg23_8 m outs c)
theorem Karg23_10 : V10 m outs c main_arg23 = m ((c : Thread nD τ).loc main_arg23) :=
  (V10_of m outs c main_arg23 (by decide)).trans (Karg23_9 m outs c)
theorem Karg23_11 : V11 m outs c main_arg23 = m ((c : Thread nD τ).loc main_arg23) :=
  (V11_of m outs c main_arg23 (by decide)).trans (Karg23_10 m outs c)
theorem Karg23_12 : V12 m outs c main_arg23 = m ((c : Thread nD τ).loc main_arg23) :=
  (V12_of m outs c main_arg23 (by decide)).trans (Karg23_11 m outs c)
theorem Karg23_13 : V13 m outs c main_arg23 = m ((c : Thread nD τ).loc main_arg23) :=
  (V13_of m outs c main_arg23 (by decide)).trans (Karg23_12 m outs c)
theorem Karg23_14 : V14 m outs c main_arg23 = m ((c : Thread nD τ).loc main_arg23) :=
  (V14_of m outs c main_arg23 (by decide)).trans (Karg23_13 m outs c)
theorem Karg23_15 : V15 m outs c main_arg23 = m ((c : Thread nD τ).loc main_arg23) :=
  (V15_of m outs c main_arg23 (by decide)).trans (Karg23_14 m outs c)
theorem Karg23_16 : V16 m outs c main_arg23 = m ((c : Thread nD τ).loc main_arg23) :=
  (V16_of m outs c main_arg23 (by decide)).trans (Karg23_15 m outs c)
theorem Karg23_17 : V17 m outs c main_arg23 = m ((c : Thread nD τ).loc main_arg23) :=
  (V17_of m outs c main_arg23 (by decide)).trans (Karg23_16 m outs c)
theorem Karg23_18 : V18 m outs c main_arg23 = m ((c : Thread nD τ).loc main_arg23) :=
  (V18_of m outs c main_arg23 (by decide)).trans (Karg23_17 m outs c)
theorem Karg23_19 : V19 m outs c main_arg23 = m ((c : Thread nD τ).loc main_arg23) :=
  (V19_of m outs c main_arg23 (by decide)).trans (Karg23_18 m outs c)
theorem Karg23_20 : V20 m outs c main_arg23 = m ((c : Thread nD τ).loc main_arg23) :=
  (V20_of m outs c main_arg23 (by decide)).trans (Karg23_19 m outs c)
theorem Karg23_21 : V21 m outs c main_arg23 = m ((c : Thread nD τ).loc main_arg23) :=
  (V21_of m outs c main_arg23 (by decide)).trans (Karg23_20 m outs c)
theorem Karg23_22 : V22 m outs c main_arg23 = m ((c : Thread nD τ).loc main_arg23) :=
  (V22_of m outs c main_arg23 (by decide)).trans (Karg23_21 m outs c)
theorem Karg23_23 : V23 m outs c main_arg23 = m ((c : Thread nD τ).loc main_arg23) :=
  (V23_of m outs c main_arg23 (by decide)).trans (Karg23_22 m outs c)
theorem Karg23_24 : V24 m outs c main_arg23 = m ((c : Thread nD τ).loc main_arg23) :=
  (V24_of m outs c main_arg23 (by decide)).trans (Karg23_23 m outs c)
theorem Karg23_25 : V25 m outs c main_arg23 = m ((c : Thread nD τ).loc main_arg23) :=
  (V25_of m outs c main_arg23 (by decide)).trans (Karg23_24 m outs c)
theorem Karg23_26 : V26 m outs c main_arg23 = m ((c : Thread nD τ).loc main_arg23) :=
  (V26_of m outs c main_arg23 (by decide)).trans (Karg23_25 m outs c)
theorem Karg23_27 : V27 m outs c main_arg23 = m ((c : Thread nD τ).loc main_arg23) :=
  (V27_of m outs c main_arg23 (by decide)).trans (Karg23_26 m outs c)
theorem Karg23_28 : V28 m outs c main_arg23 = m ((c : Thread nD τ).loc main_arg23) :=
  (V28_of m outs c main_arg23 (by decide)).trans (Karg23_27 m outs c)
theorem Karg23_29 : V29 m outs c main_arg23 = m ((c : Thread nD τ).loc main_arg23) :=
  (V29_of m outs c main_arg23 (by decide)).trans (Karg23_28 m outs c)
theorem Karg23_30 : V30 m outs c main_arg23 = m ((c : Thread nD τ).loc main_arg23) :=
  (V30_of m outs c main_arg23 (by decide)).trans (Karg23_29 m outs c)
theorem Karg23_31 : V31 m outs c main_arg23 = m ((c : Thread nD τ).loc main_arg23) :=
  (V31_of m outs c main_arg23 (by decide)).trans (Karg23_30 m outs c)
theorem Karg23_32 : V32 m outs c main_arg23 = m ((c : Thread nD τ).loc main_arg23) :=
  (V32_of m outs c main_arg23 (by decide)).trans (Karg23_31 m outs c)
theorem Karg23_33 : V33 m outs c main_arg23 = m ((c : Thread nD τ).loc main_arg23) :=
  (V33_of m outs c main_arg23 (by decide)).trans (Karg23_32 m outs c)
theorem Karg23_34 : V34 m outs c main_arg23 = m ((c : Thread nD τ).loc main_arg23) :=
  (V34_of m outs c main_arg23 (by decide)).trans (Karg23_33 m outs c)
theorem Karg23_35 : V35 m outs c main_arg23 = m ((c : Thread nD τ).loc main_arg23) :=
  (V35_of m outs c main_arg23 (by decide)).trans (Karg23_34 m outs c)
theorem Karg23_36 : V36 m outs c main_arg23 = m ((c : Thread nD τ).loc main_arg23) :=
  (V36_of m outs c main_arg23 (by decide)).trans (Karg23_35 m outs c)
theorem Karg23_37 : V37 m outs c main_arg23 = m ((c : Thread nD τ).loc main_arg23) :=
  (V37_of m outs c main_arg23 (by decide)).trans (Karg23_36 m outs c)
theorem Karg23_38 : V38 m outs c main_arg23 = m ((c : Thread nD τ).loc main_arg23) :=
  (V38_of m outs c main_arg23 (by decide)).trans (Karg23_37 m outs c)
theorem Karg23_39 : V39 m outs c main_arg23 = m ((c : Thread nD τ).loc main_arg23) :=
  (V39_of m outs c main_arg23 (by decide)).trans (Karg23_38 m outs c)
theorem Karg23_40 : V40 m outs c main_arg23 = m ((c : Thread nD τ).loc main_arg23) :=
  (V40_of m outs c main_arg23 (by decide)).trans (Karg23_39 m outs c)
theorem Karg23_41 : V41 m outs c main_arg23 = m ((c : Thread nD τ).loc main_arg23) :=
  (V41_of m outs c main_arg23 (by decide)).trans (Karg23_40 m outs c)
theorem Karg23_42 : V42 m outs c main_arg23 = m ((c : Thread nD τ).loc main_arg23) :=
  (V42_of m outs c main_arg23 (by decide)).trans (Karg23_41 m outs c)
theorem Karg23_43 : V43 m outs c main_arg23 = m ((c : Thread nD τ).loc main_arg23) :=
  (V43_of m outs c main_arg23 (by decide)).trans (Karg23_42 m outs c)
theorem Karg23_44 : V44 m outs c main_arg23 = m ((c : Thread nD τ).loc main_arg23) :=
  (V44_of m outs c main_arg23 (by decide)).trans (Karg23_43 m outs c)
theorem Karg23_45 : V45 m outs c main_arg23 = m ((c : Thread nD τ).loc main_arg23) :=
  (V45_of m outs c main_arg23 (by decide)).trans (Karg23_44 m outs c)
theorem Karg23_46 : V46 m outs c main_arg23 = m ((c : Thread nD τ).loc main_arg23) :=
  (V46_of m outs c main_arg23 (by decide)).trans (Karg23_45 m outs c)
theorem Karg23_47 : V47 m outs c main_arg23 = m ((c : Thread nD τ).loc main_arg23) :=
  (V47_of m outs c main_arg23 (by decide)).trans (Karg23_46 m outs c)
theorem Karg23_48 : V48 m outs c main_arg23 = m ((c : Thread nD τ).loc main_arg23) :=
  (V48_of m outs c main_arg23 (by decide)).trans (Karg23_47 m outs c)
theorem Karg23_49 : V49 m outs c main_arg23 = m ((c : Thread nD τ).loc main_arg23) :=
  (V49_of m outs c main_arg23 (by decide)).trans (Karg23_48 m outs c)
theorem Karg23_50 : V50 m outs c main_arg23 = m ((c : Thread nD τ).loc main_arg23) :=
  (V50_of m outs c main_arg23 (by decide)).trans (Karg23_49 m outs c)
theorem Karg23_51 : V51 m outs c main_arg23 = m ((c : Thread nD τ).loc main_arg23) :=
  (V51_of m outs c main_arg23 (by decide)).trans (Karg23_50 m outs c)
theorem Karg23_52 : V52 m outs c main_arg23 = m ((c : Thread nD τ).loc main_arg23) :=
  (V52_of m outs c main_arg23 (by decide)).trans (Karg23_51 m outs c)
theorem Karg23_53 : V53 m outs c main_arg23 = m ((c : Thread nD τ).loc main_arg23) :=
  (V53_of m outs c main_arg23 (by decide)).trans (Karg23_52 m outs c)
theorem Karg23_54 : V54 m outs c main_arg23 = m ((c : Thread nD τ).loc main_arg23) :=
  (V54_of m outs c main_arg23 (by decide)).trans (Karg23_53 m outs c)
theorem Karg23_55 : V55 m outs c main_arg23 = m ((c : Thread nD τ).loc main_arg23) :=
  (V55_of m outs c main_arg23 (by decide)).trans (Karg23_54 m outs c)
theorem Karg23_56 : V56 m outs c main_arg23 = m ((c : Thread nD τ).loc main_arg23) :=
  (V56_of m outs c main_arg23 (by decide)).trans (Karg23_55 m outs c)
theorem Karg23_57 : V57 m outs c main_arg23 = m ((c : Thread nD τ).loc main_arg23) :=
  (V57_of m outs c main_arg23 (by decide)).trans (Karg23_56 m outs c)
theorem Karg23_58 : V58 m outs c main_arg23 = m ((c : Thread nD τ).loc main_arg23) :=
  (V58_of m outs c main_arg23 (by decide)).trans (Karg23_57 m outs c)
theorem Karg23_59 : V59 m outs c main_arg23 = m ((c : Thread nD τ).loc main_arg23) :=
  (V59_of m outs c main_arg23 (by decide)).trans (Karg23_58 m outs c)
theorem Karg23_60 : V60 m outs c main_arg23 = m ((c : Thread nD τ).loc main_arg23) :=
  (V60_of m outs c main_arg23 (by decide)).trans (Karg23_59 m outs c)
theorem Karg23_61 : V61 m outs c main_arg23 = m ((c : Thread nD τ).loc main_arg23) :=
  (V61_of m outs c main_arg23 (by decide)).trans (Karg23_60 m outs c)
theorem Karg23_62 : V62 m outs c main_arg23 = m ((c : Thread nD τ).loc main_arg23) :=
  (V62_of m outs c main_arg23 (by decide)).trans (Karg23_61 m outs c)
theorem Karg23_63 : V63 m outs c main_arg23 = m ((c : Thread nD τ).loc main_arg23) :=
  (V63_of m outs c main_arg23 (by decide)).trans (Karg23_62 m outs c)
theorem Karg23_64 : V64 m outs c main_arg23 = m ((c : Thread nD τ).loc main_arg23) :=
  (V64_of m outs c main_arg23 (by decide)).trans (Karg23_63 m outs c)
theorem Karg23_65 : V65 m outs c main_arg23 = m ((c : Thread nD τ).loc main_arg23) :=
  (V65_of m outs c main_arg23 (by decide)).trans (Karg23_64 m outs c)
theorem Karg23_66 : V66 m outs c main_arg23 = m ((c : Thread nD τ).loc main_arg23) :=
  (V66_of m outs c main_arg23 (by decide)).trans (Karg23_65 m outs c)
theorem Karg23_67 : V67 m outs c main_arg23 = m ((c : Thread nD τ).loc main_arg23) :=
  (V67_of m outs c main_arg23 (by decide)).trans (Karg23_66 m outs c)
theorem Karg23_68 : V68 m outs c main_arg23 = m ((c : Thread nD τ).loc main_arg23) :=
  (V68_of m outs c main_arg23 (by decide)).trans (Karg23_67 m outs c)
theorem Karg23_69 : V69 m outs c main_arg23 = m ((c : Thread nD τ).loc main_arg23) :=
  (V69_of m outs c main_arg23 (by decide)).trans (Karg23_68 m outs c)
theorem Karg23_70 : V70 m outs c main_arg23 = m ((c : Thread nD τ).loc main_arg23) :=
  (V70_of m outs c main_arg23 (by decide)).trans (Karg23_69 m outs c)
theorem Karg23_71 : V71 m outs c main_arg23 = m ((c : Thread nD τ).loc main_arg23) :=
  (V71_of m outs c main_arg23 (by decide)).trans (Karg23_70 m outs c)
theorem Karg23_72 : V72 m outs c main_arg23 = m ((c : Thread nD τ).loc main_arg23) :=
  (V72_of m outs c main_arg23 (by decide)).trans (Karg23_71 m outs c)
theorem Karg23_73 : V73 m outs c main_arg23 = m ((c : Thread nD τ).loc main_arg23) :=
  (V73_of m outs c main_arg23 (by decide)).trans (Karg23_72 m outs c)
theorem Karg23_74 : V74 m outs c main_arg23 = m ((c : Thread nD τ).loc main_arg23) :=
  (V74_of m outs c main_arg23 (by decide)).trans (Karg23_73 m outs c)
theorem Karg23_75 : V75 m outs c main_arg23 = m ((c : Thread nD τ).loc main_arg23) :=
  (V75_of m outs c main_arg23 (by decide)).trans (Karg23_74 m outs c)
theorem Karg23_76 : V76 m outs c main_arg23 = m ((c : Thread nD τ).loc main_arg23) :=
  (V76_of m outs c main_arg23 (by decide)).trans (Karg23_75 m outs c)
theorem Karg23_77 : V77 m outs c main_arg23 = m ((c : Thread nD τ).loc main_arg23) :=
  (V77_of m outs c main_arg23 (by decide)).trans (Karg23_76 m outs c)
theorem Karg23_78 : V78 m outs c main_arg23 = m ((c : Thread nD τ).loc main_arg23) :=
  (V78_of m outs c main_arg23 (by decide)).trans (Karg23_77 m outs c)
theorem Karg23_79 : V79 m outs c main_arg23 = m ((c : Thread nD τ).loc main_arg23) :=
  (V79_of m outs c main_arg23 (by decide)).trans (Karg23_78 m outs c)
theorem Karg23_80 : V80 m outs c main_arg23 = m ((c : Thread nD τ).loc main_arg23) :=
  (V80_of m outs c main_arg23 (by decide)).trans (Karg23_79 m outs c)
theorem Karg23_81 : V81 m outs c main_arg23 = m ((c : Thread nD τ).loc main_arg23) :=
  (V81_of m outs c main_arg23 (by decide)).trans (Karg23_80 m outs c)
/-! ### main_arg24 -/
theorem Karg24_0 : V0 m c main_arg24 = m ((c : Thread nD τ).loc main_arg24) := rfl
theorem Karg24_1 : V1 m c main_arg24 = m ((c : Thread nD τ).loc main_arg24) :=
  (V1_of m c main_arg24 (by decide)).trans (Karg24_0 m c)
theorem Karg24_2 : V2 m outs c main_arg24 = m ((c : Thread nD τ).loc main_arg24) :=
  (V2_of m outs c main_arg24 (by decide)).trans (Karg24_1 m c)
theorem Karg24_3 : V3 m outs c main_arg24 = m ((c : Thread nD τ).loc main_arg24) :=
  (V3_of m outs c main_arg24 (by decide)).trans (Karg24_2 m outs c)
theorem Karg24_4 : V4 m outs c main_arg24 = m ((c : Thread nD τ).loc main_arg24) :=
  (V4_of m outs c main_arg24 (by decide)).trans (Karg24_3 m outs c)
theorem Karg24_5 : V5 m outs c main_arg24 = m ((c : Thread nD τ).loc main_arg24) :=
  (V5_of m outs c main_arg24 (by decide)).trans (Karg24_4 m outs c)
theorem Karg24_6 : V6 m outs c main_arg24 = m ((c : Thread nD τ).loc main_arg24) :=
  (V6_of m outs c main_arg24 (by decide)).trans (Karg24_5 m outs c)
theorem Karg24_7 : V7 m outs c main_arg24 = m ((c : Thread nD τ).loc main_arg24) :=
  (V7_of m outs c main_arg24 (by decide)).trans (Karg24_6 m outs c)
theorem Karg24_8 : V8 m outs c main_arg24 = m ((c : Thread nD τ).loc main_arg24) :=
  (V8_of m outs c main_arg24 (by decide)).trans (Karg24_7 m outs c)
theorem Karg24_9 : V9 m outs c main_arg24 = m ((c : Thread nD τ).loc main_arg24) :=
  (V9_of m outs c main_arg24 (by decide)).trans (Karg24_8 m outs c)
theorem Karg24_10 : V10 m outs c main_arg24 = m ((c : Thread nD τ).loc main_arg24) :=
  (V10_of m outs c main_arg24 (by decide)).trans (Karg24_9 m outs c)
theorem Karg24_11 : V11 m outs c main_arg24 = m ((c : Thread nD τ).loc main_arg24) :=
  (V11_of m outs c main_arg24 (by decide)).trans (Karg24_10 m outs c)
theorem Karg24_12 : V12 m outs c main_arg24 = m ((c : Thread nD τ).loc main_arg24) :=
  (V12_of m outs c main_arg24 (by decide)).trans (Karg24_11 m outs c)
theorem Karg24_13 : V13 m outs c main_arg24 = m ((c : Thread nD τ).loc main_arg24) :=
  (V13_of m outs c main_arg24 (by decide)).trans (Karg24_12 m outs c)
theorem Karg24_14 : V14 m outs c main_arg24 = m ((c : Thread nD τ).loc main_arg24) :=
  (V14_of m outs c main_arg24 (by decide)).trans (Karg24_13 m outs c)
theorem Karg24_15 : V15 m outs c main_arg24 = m ((c : Thread nD τ).loc main_arg24) :=
  (V15_of m outs c main_arg24 (by decide)).trans (Karg24_14 m outs c)
theorem Karg24_16 : V16 m outs c main_arg24 = m ((c : Thread nD τ).loc main_arg24) :=
  (V16_of m outs c main_arg24 (by decide)).trans (Karg24_15 m outs c)
theorem Karg24_17 : V17 m outs c main_arg24 = m ((c : Thread nD τ).loc main_arg24) :=
  (V17_of m outs c main_arg24 (by decide)).trans (Karg24_16 m outs c)
theorem Karg24_18 : V18 m outs c main_arg24 = m ((c : Thread nD τ).loc main_arg24) :=
  (V18_of m outs c main_arg24 (by decide)).trans (Karg24_17 m outs c)
theorem Karg24_19 : V19 m outs c main_arg24 = m ((c : Thread nD τ).loc main_arg24) :=
  (V19_of m outs c main_arg24 (by decide)).trans (Karg24_18 m outs c)
theorem Karg24_20 : V20 m outs c main_arg24 = m ((c : Thread nD τ).loc main_arg24) :=
  (V20_of m outs c main_arg24 (by decide)).trans (Karg24_19 m outs c)
theorem Karg24_21 : V21 m outs c main_arg24 = m ((c : Thread nD τ).loc main_arg24) :=
  (V21_of m outs c main_arg24 (by decide)).trans (Karg24_20 m outs c)
theorem Karg24_22 : V22 m outs c main_arg24 = m ((c : Thread nD τ).loc main_arg24) :=
  (V22_of m outs c main_arg24 (by decide)).trans (Karg24_21 m outs c)
theorem Karg24_23 : V23 m outs c main_arg24 = m ((c : Thread nD τ).loc main_arg24) :=
  (V23_of m outs c main_arg24 (by decide)).trans (Karg24_22 m outs c)
theorem Karg24_24 : V24 m outs c main_arg24 = m ((c : Thread nD τ).loc main_arg24) :=
  (V24_of m outs c main_arg24 (by decide)).trans (Karg24_23 m outs c)
theorem Karg24_25 : V25 m outs c main_arg24 = m ((c : Thread nD τ).loc main_arg24) :=
  (V25_of m outs c main_arg24 (by decide)).trans (Karg24_24 m outs c)
theorem Karg24_26 : V26 m outs c main_arg24 = m ((c : Thread nD τ).loc main_arg24) :=
  (V26_of m outs c main_arg24 (by decide)).trans (Karg24_25 m outs c)
theorem Karg24_27 : V27 m outs c main_arg24 = m ((c : Thread nD τ).loc main_arg24) :=
  (V27_of m outs c main_arg24 (by decide)).trans (Karg24_26 m outs c)
theorem Karg24_28 : V28 m outs c main_arg24 = m ((c : Thread nD τ).loc main_arg24) :=
  (V28_of m outs c main_arg24 (by decide)).trans (Karg24_27 m outs c)
theorem Karg24_29 : V29 m outs c main_arg24 = m ((c : Thread nD τ).loc main_arg24) :=
  (V29_of m outs c main_arg24 (by decide)).trans (Karg24_28 m outs c)
theorem Karg24_30 : V30 m outs c main_arg24 = m ((c : Thread nD τ).loc main_arg24) :=
  (V30_of m outs c main_arg24 (by decide)).trans (Karg24_29 m outs c)
theorem Karg24_31 : V31 m outs c main_arg24 = m ((c : Thread nD τ).loc main_arg24) :=
  (V31_of m outs c main_arg24 (by decide)).trans (Karg24_30 m outs c)
theorem Karg24_32 : V32 m outs c main_arg24 = m ((c : Thread nD τ).loc main_arg24) :=
  (V32_of m outs c main_arg24 (by decide)).trans (Karg24_31 m outs c)
theorem Karg24_33 : V33 m outs c main_arg24 = m ((c : Thread nD τ).loc main_arg24) :=
  (V33_of m outs c main_arg24 (by decide)).trans (Karg24_32 m outs c)
theorem Karg24_34 : V34 m outs c main_arg24 = m ((c : Thread nD τ).loc main_arg24) :=
  (V34_of m outs c main_arg24 (by decide)).trans (Karg24_33 m outs c)
theorem Karg24_35 : V35 m outs c main_arg24 = m ((c : Thread nD τ).loc main_arg24) :=
  (V35_of m outs c main_arg24 (by decide)).trans (Karg24_34 m outs c)
theorem Karg24_36 : V36 m outs c main_arg24 = m ((c : Thread nD τ).loc main_arg24) :=
  (V36_of m outs c main_arg24 (by decide)).trans (Karg24_35 m outs c)
theorem Karg24_37 : V37 m outs c main_arg24 = m ((c : Thread nD τ).loc main_arg24) :=
  (V37_of m outs c main_arg24 (by decide)).trans (Karg24_36 m outs c)
theorem Karg24_38 : V38 m outs c main_arg24 = m ((c : Thread nD τ).loc main_arg24) :=
  (V38_of m outs c main_arg24 (by decide)).trans (Karg24_37 m outs c)
theorem Karg24_39 : V39 m outs c main_arg24 = m ((c : Thread nD τ).loc main_arg24) :=
  (V39_of m outs c main_arg24 (by decide)).trans (Karg24_38 m outs c)
theorem Karg24_40 : V40 m outs c main_arg24 = m ((c : Thread nD τ).loc main_arg24) :=
  (V40_of m outs c main_arg24 (by decide)).trans (Karg24_39 m outs c)
theorem Karg24_41 : V41 m outs c main_arg24 = m ((c : Thread nD τ).loc main_arg24) :=
  (V41_of m outs c main_arg24 (by decide)).trans (Karg24_40 m outs c)
theorem Karg24_42 : V42 m outs c main_arg24 = m ((c : Thread nD τ).loc main_arg24) :=
  (V42_of m outs c main_arg24 (by decide)).trans (Karg24_41 m outs c)
theorem Karg24_43 : V43 m outs c main_arg24 = m ((c : Thread nD τ).loc main_arg24) :=
  (V43_of m outs c main_arg24 (by decide)).trans (Karg24_42 m outs c)
theorem Karg24_44 : V44 m outs c main_arg24 = m ((c : Thread nD τ).loc main_arg24) :=
  (V44_of m outs c main_arg24 (by decide)).trans (Karg24_43 m outs c)
theorem Karg24_45 : V45 m outs c main_arg24 = m ((c : Thread nD τ).loc main_arg24) :=
  (V45_of m outs c main_arg24 (by decide)).trans (Karg24_44 m outs c)
theorem Karg24_46 : V46 m outs c main_arg24 = m ((c : Thread nD τ).loc main_arg24) :=
  (V46_of m outs c main_arg24 (by decide)).trans (Karg24_45 m outs c)
theorem Karg24_47 : V47 m outs c main_arg24 = m ((c : Thread nD τ).loc main_arg24) :=
  (V47_of m outs c main_arg24 (by decide)).trans (Karg24_46 m outs c)
theorem Karg24_48 : V48 m outs c main_arg24 = m ((c : Thread nD τ).loc main_arg24) :=
  (V48_of m outs c main_arg24 (by decide)).trans (Karg24_47 m outs c)
theorem Karg24_49 : V49 m outs c main_arg24 = m ((c : Thread nD τ).loc main_arg24) :=
  (V49_of m outs c main_arg24 (by decide)).trans (Karg24_48 m outs c)
theorem Karg24_50 : V50 m outs c main_arg24 = m ((c : Thread nD τ).loc main_arg24) :=
  (V50_of m outs c main_arg24 (by decide)).trans (Karg24_49 m outs c)
theorem Karg24_51 : V51 m outs c main_arg24 = m ((c : Thread nD τ).loc main_arg24) :=
  (V51_of m outs c main_arg24 (by decide)).trans (Karg24_50 m outs c)
theorem Karg24_52 : V52 m outs c main_arg24 = m ((c : Thread nD τ).loc main_arg24) :=
  (V52_of m outs c main_arg24 (by decide)).trans (Karg24_51 m outs c)
theorem Karg24_53 : V53 m outs c main_arg24 = m ((c : Thread nD τ).loc main_arg24) :=
  (V53_of m outs c main_arg24 (by decide)).trans (Karg24_52 m outs c)
theorem Karg24_54 : V54 m outs c main_arg24 = m ((c : Thread nD τ).loc main_arg24) :=
  (V54_of m outs c main_arg24 (by decide)).trans (Karg24_53 m outs c)
theorem Karg24_55 : V55 m outs c main_arg24 = m ((c : Thread nD τ).loc main_arg24) :=
  (V55_of m outs c main_arg24 (by decide)).trans (Karg24_54 m outs c)
theorem Karg24_56 : V56 m outs c main_arg24 = m ((c : Thread nD τ).loc main_arg24) :=
  (V56_of m outs c main_arg24 (by decide)).trans (Karg24_55 m outs c)
theorem Karg24_57 : V57 m outs c main_arg24 = m ((c : Thread nD τ).loc main_arg24) :=
  (V57_of m outs c main_arg24 (by decide)).trans (Karg24_56 m outs c)
theorem Karg24_58 : V58 m outs c main_arg24 = m ((c : Thread nD τ).loc main_arg24) :=
  (V58_of m outs c main_arg24 (by decide)).trans (Karg24_57 m outs c)
theorem Karg24_59 : V59 m outs c main_arg24 = m ((c : Thread nD τ).loc main_arg24) :=
  (V59_of m outs c main_arg24 (by decide)).trans (Karg24_58 m outs c)
theorem Karg24_60 : V60 m outs c main_arg24 = m ((c : Thread nD τ).loc main_arg24) :=
  (V60_of m outs c main_arg24 (by decide)).trans (Karg24_59 m outs c)
theorem Karg24_61 : V61 m outs c main_arg24 = m ((c : Thread nD τ).loc main_arg24) :=
  (V61_of m outs c main_arg24 (by decide)).trans (Karg24_60 m outs c)
theorem Karg24_62 : V62 m outs c main_arg24 = m ((c : Thread nD τ).loc main_arg24) :=
  (V62_of m outs c main_arg24 (by decide)).trans (Karg24_61 m outs c)
theorem Karg24_63 : V63 m outs c main_arg24 = m ((c : Thread nD τ).loc main_arg24) :=
  (V63_of m outs c main_arg24 (by decide)).trans (Karg24_62 m outs c)
theorem Karg24_64 : V64 m outs c main_arg24 = m ((c : Thread nD τ).loc main_arg24) :=
  (V64_of m outs c main_arg24 (by decide)).trans (Karg24_63 m outs c)
theorem Karg24_65 : V65 m outs c main_arg24 = m ((c : Thread nD τ).loc main_arg24) :=
  (V65_of m outs c main_arg24 (by decide)).trans (Karg24_64 m outs c)
theorem Karg24_66 : V66 m outs c main_arg24 = m ((c : Thread nD τ).loc main_arg24) :=
  (V66_of m outs c main_arg24 (by decide)).trans (Karg24_65 m outs c)
theorem Karg24_67 : V67 m outs c main_arg24 = m ((c : Thread nD τ).loc main_arg24) :=
  (V67_of m outs c main_arg24 (by decide)).trans (Karg24_66 m outs c)
theorem Karg24_68 : V68 m outs c main_arg24 = m ((c : Thread nD τ).loc main_arg24) :=
  (V68_of m outs c main_arg24 (by decide)).trans (Karg24_67 m outs c)
theorem Karg24_69 : V69 m outs c main_arg24 = m ((c : Thread nD τ).loc main_arg24) :=
  (V69_of m outs c main_arg24 (by decide)).trans (Karg24_68 m outs c)
theorem Karg24_70 : V70 m outs c main_arg24 = m ((c : Thread nD τ).loc main_arg24) :=
  (V70_of m outs c main_arg24 (by decide)).trans (Karg24_69 m outs c)
theorem Karg24_71 : V71 m outs c main_arg24 = m ((c : Thread nD τ).loc main_arg24) :=
  (V71_of m outs c main_arg24 (by decide)).trans (Karg24_70 m outs c)
theorem Karg24_72 : V72 m outs c main_arg24 = m ((c : Thread nD τ).loc main_arg24) :=
  (V72_of m outs c main_arg24 (by decide)).trans (Karg24_71 m outs c)
theorem Karg24_73 : V73 m outs c main_arg24 = m ((c : Thread nD τ).loc main_arg24) :=
  (V73_of m outs c main_arg24 (by decide)).trans (Karg24_72 m outs c)
theorem Karg24_74 : V74 m outs c main_arg24 = m ((c : Thread nD τ).loc main_arg24) :=
  (V74_of m outs c main_arg24 (by decide)).trans (Karg24_73 m outs c)
theorem Karg24_75 : V75 m outs c main_arg24 = m ((c : Thread nD τ).loc main_arg24) :=
  (V75_of m outs c main_arg24 (by decide)).trans (Karg24_74 m outs c)
theorem Karg24_76 : V76 m outs c main_arg24 = m ((c : Thread nD τ).loc main_arg24) :=
  (V76_of m outs c main_arg24 (by decide)).trans (Karg24_75 m outs c)
theorem Karg24_77 : V77 m outs c main_arg24 = m ((c : Thread nD τ).loc main_arg24) :=
  (V77_of m outs c main_arg24 (by decide)).trans (Karg24_76 m outs c)
theorem Karg24_78 : V78 m outs c main_arg24 = m ((c : Thread nD τ).loc main_arg24) :=
  (V78_of m outs c main_arg24 (by decide)).trans (Karg24_77 m outs c)
theorem Karg24_79 : V79 m outs c main_arg24 = m ((c : Thread nD τ).loc main_arg24) :=
  (V79_of m outs c main_arg24 (by decide)).trans (Karg24_78 m outs c)
theorem Karg24_80 : V80 m outs c main_arg24 = m ((c : Thread nD τ).loc main_arg24) :=
  (V80_of m outs c main_arg24 (by decide)).trans (Karg24_79 m outs c)
theorem Karg24_81 : V81 m outs c main_arg24 = m ((c : Thread nD τ).loc main_arg24) :=
  (V81_of m outs c main_arg24 (by decide)).trans (Karg24_80 m outs c)
/-! ### main_arg25 -/
theorem Karg25_0 : V0 m c main_arg25 = m ((c : Thread nD τ).loc main_arg25) := rfl
theorem Karg25_1 : V1 m c main_arg25 = m ((c : Thread nD τ).loc main_arg25) :=
  (V1_of m c main_arg25 (by decide)).trans (Karg25_0 m c)
theorem Karg25_2 : V2 m outs c main_arg25 = m ((c : Thread nD τ).loc main_arg25) :=
  (V2_of m outs c main_arg25 (by decide)).trans (Karg25_1 m c)
theorem Karg25_3 : V3 m outs c main_arg25 = m ((c : Thread nD τ).loc main_arg25) :=
  (V3_of m outs c main_arg25 (by decide)).trans (Karg25_2 m outs c)
theorem Karg25_4 : V4 m outs c main_arg25 = m ((c : Thread nD τ).loc main_arg25) :=
  (V4_of m outs c main_arg25 (by decide)).trans (Karg25_3 m outs c)
theorem Karg25_5 : V5 m outs c main_arg25 = m ((c : Thread nD τ).loc main_arg25) :=
  (V5_of m outs c main_arg25 (by decide)).trans (Karg25_4 m outs c)
theorem Karg25_6 : V6 m outs c main_arg25 = m ((c : Thread nD τ).loc main_arg25) :=
  (V6_of m outs c main_arg25 (by decide)).trans (Karg25_5 m outs c)
theorem Karg25_7 : V7 m outs c main_arg25 = m ((c : Thread nD τ).loc main_arg25) :=
  (V7_of m outs c main_arg25 (by decide)).trans (Karg25_6 m outs c)
theorem Karg25_8 : V8 m outs c main_arg25 = m ((c : Thread nD τ).loc main_arg25) :=
  (V8_of m outs c main_arg25 (by decide)).trans (Karg25_7 m outs c)
theorem Karg25_9 : V9 m outs c main_arg25 = m ((c : Thread nD τ).loc main_arg25) :=
  (V9_of m outs c main_arg25 (by decide)).trans (Karg25_8 m outs c)
theorem Karg25_10 : V10 m outs c main_arg25 = m ((c : Thread nD τ).loc main_arg25) :=
  (V10_of m outs c main_arg25 (by decide)).trans (Karg25_9 m outs c)
theorem Karg25_11 : V11 m outs c main_arg25 = m ((c : Thread nD τ).loc main_arg25) :=
  (V11_of m outs c main_arg25 (by decide)).trans (Karg25_10 m outs c)
theorem Karg25_12 : V12 m outs c main_arg25 = m ((c : Thread nD τ).loc main_arg25) :=
  (V12_of m outs c main_arg25 (by decide)).trans (Karg25_11 m outs c)
theorem Karg25_13 : V13 m outs c main_arg25 = m ((c : Thread nD τ).loc main_arg25) :=
  (V13_of m outs c main_arg25 (by decide)).trans (Karg25_12 m outs c)
theorem Karg25_14 : V14 m outs c main_arg25 = m ((c : Thread nD τ).loc main_arg25) :=
  (V14_of m outs c main_arg25 (by decide)).trans (Karg25_13 m outs c)
theorem Karg25_15 : V15 m outs c main_arg25 = m ((c : Thread nD τ).loc main_arg25) :=
  (V15_of m outs c main_arg25 (by decide)).trans (Karg25_14 m outs c)
theorem Karg25_16 : V16 m outs c main_arg25 = m ((c : Thread nD τ).loc main_arg25) :=
  (V16_of m outs c main_arg25 (by decide)).trans (Karg25_15 m outs c)
theorem Karg25_17 : V17 m outs c main_arg25 = m ((c : Thread nD τ).loc main_arg25) :=
  (V17_of m outs c main_arg25 (by decide)).trans (Karg25_16 m outs c)
theorem Karg25_18 : V18 m outs c main_arg25 = m ((c : Thread nD τ).loc main_arg25) :=
  (V18_of m outs c main_arg25 (by decide)).trans (Karg25_17 m outs c)
theorem Karg25_19 : V19 m outs c main_arg25 = m ((c : Thread nD τ).loc main_arg25) :=
  (V19_of m outs c main_arg25 (by decide)).trans (Karg25_18 m outs c)
theorem Karg25_20 : V20 m outs c main_arg25 = m ((c : Thread nD τ).loc main_arg25) :=
  (V20_of m outs c main_arg25 (by decide)).trans (Karg25_19 m outs c)
theorem Karg25_21 : V21 m outs c main_arg25 = m ((c : Thread nD τ).loc main_arg25) :=
  (V21_of m outs c main_arg25 (by decide)).trans (Karg25_20 m outs c)
theorem Karg25_22 : V22 m outs c main_arg25 = m ((c : Thread nD τ).loc main_arg25) :=
  (V22_of m outs c main_arg25 (by decide)).trans (Karg25_21 m outs c)
theorem Karg25_23 : V23 m outs c main_arg25 = m ((c : Thread nD τ).loc main_arg25) :=
  (V23_of m outs c main_arg25 (by decide)).trans (Karg25_22 m outs c)
theorem Karg25_24 : V24 m outs c main_arg25 = m ((c : Thread nD τ).loc main_arg25) :=
  (V24_of m outs c main_arg25 (by decide)).trans (Karg25_23 m outs c)
theorem Karg25_25 : V25 m outs c main_arg25 = m ((c : Thread nD τ).loc main_arg25) :=
  (V25_of m outs c main_arg25 (by decide)).trans (Karg25_24 m outs c)
theorem Karg25_26 : V26 m outs c main_arg25 = m ((c : Thread nD τ).loc main_arg25) :=
  (V26_of m outs c main_arg25 (by decide)).trans (Karg25_25 m outs c)
theorem Karg25_27 : V27 m outs c main_arg25 = m ((c : Thread nD τ).loc main_arg25) :=
  (V27_of m outs c main_arg25 (by decide)).trans (Karg25_26 m outs c)
theorem Karg25_28 : V28 m outs c main_arg25 = m ((c : Thread nD τ).loc main_arg25) :=
  (V28_of m outs c main_arg25 (by decide)).trans (Karg25_27 m outs c)
theorem Karg25_29 : V29 m outs c main_arg25 = m ((c : Thread nD τ).loc main_arg25) :=
  (V29_of m outs c main_arg25 (by decide)).trans (Karg25_28 m outs c)
theorem Karg25_30 : V30 m outs c main_arg25 = m ((c : Thread nD τ).loc main_arg25) :=
  (V30_of m outs c main_arg25 (by decide)).trans (Karg25_29 m outs c)
theorem Karg25_31 : V31 m outs c main_arg25 = m ((c : Thread nD τ).loc main_arg25) :=
  (V31_of m outs c main_arg25 (by decide)).trans (Karg25_30 m outs c)
theorem Karg25_32 : V32 m outs c main_arg25 = m ((c : Thread nD τ).loc main_arg25) :=
  (V32_of m outs c main_arg25 (by decide)).trans (Karg25_31 m outs c)
theorem Karg25_33 : V33 m outs c main_arg25 = m ((c : Thread nD τ).loc main_arg25) :=
  (V33_of m outs c main_arg25 (by decide)).trans (Karg25_32 m outs c)
theorem Karg25_34 : V34 m outs c main_arg25 = m ((c : Thread nD τ).loc main_arg25) :=
  (V34_of m outs c main_arg25 (by decide)).trans (Karg25_33 m outs c)
theorem Karg25_35 : V35 m outs c main_arg25 = m ((c : Thread nD τ).loc main_arg25) :=
  (V35_of m outs c main_arg25 (by decide)).trans (Karg25_34 m outs c)
theorem Karg25_36 : V36 m outs c main_arg25 = m ((c : Thread nD τ).loc main_arg25) :=
  (V36_of m outs c main_arg25 (by decide)).trans (Karg25_35 m outs c)
theorem Karg25_37 : V37 m outs c main_arg25 = m ((c : Thread nD τ).loc main_arg25) :=
  (V37_of m outs c main_arg25 (by decide)).trans (Karg25_36 m outs c)
theorem Karg25_38 : V38 m outs c main_arg25 = m ((c : Thread nD τ).loc main_arg25) :=
  (V38_of m outs c main_arg25 (by decide)).trans (Karg25_37 m outs c)
theorem Karg25_39 : V39 m outs c main_arg25 = m ((c : Thread nD τ).loc main_arg25) :=
  (V39_of m outs c main_arg25 (by decide)).trans (Karg25_38 m outs c)
theorem Karg25_40 : V40 m outs c main_arg25 = m ((c : Thread nD τ).loc main_arg25) :=
  (V40_of m outs c main_arg25 (by decide)).trans (Karg25_39 m outs c)
theorem Karg25_41 : V41 m outs c main_arg25 = m ((c : Thread nD τ).loc main_arg25) :=
  (V41_of m outs c main_arg25 (by decide)).trans (Karg25_40 m outs c)
theorem Karg25_42 : V42 m outs c main_arg25 = m ((c : Thread nD τ).loc main_arg25) :=
  (V42_of m outs c main_arg25 (by decide)).trans (Karg25_41 m outs c)
theorem Karg25_43 : V43 m outs c main_arg25 = m ((c : Thread nD τ).loc main_arg25) :=
  (V43_of m outs c main_arg25 (by decide)).trans (Karg25_42 m outs c)
theorem Karg25_44 : V44 m outs c main_arg25 = m ((c : Thread nD τ).loc main_arg25) :=
  (V44_of m outs c main_arg25 (by decide)).trans (Karg25_43 m outs c)
theorem Karg25_45 : V45 m outs c main_arg25 = m ((c : Thread nD τ).loc main_arg25) :=
  (V45_of m outs c main_arg25 (by decide)).trans (Karg25_44 m outs c)
theorem Karg25_46 : V46 m outs c main_arg25 = m ((c : Thread nD τ).loc main_arg25) :=
  (V46_of m outs c main_arg25 (by decide)).trans (Karg25_45 m outs c)
theorem Karg25_47 : V47 m outs c main_arg25 = m ((c : Thread nD τ).loc main_arg25) :=
  (V47_of m outs c main_arg25 (by decide)).trans (Karg25_46 m outs c)
theorem Karg25_48 : V48 m outs c main_arg25 = m ((c : Thread nD τ).loc main_arg25) :=
  (V48_of m outs c main_arg25 (by decide)).trans (Karg25_47 m outs c)
theorem Karg25_49 : V49 m outs c main_arg25 = m ((c : Thread nD τ).loc main_arg25) :=
  (V49_of m outs c main_arg25 (by decide)).trans (Karg25_48 m outs c)
theorem Karg25_50 : V50 m outs c main_arg25 = m ((c : Thread nD τ).loc main_arg25) :=
  (V50_of m outs c main_arg25 (by decide)).trans (Karg25_49 m outs c)
theorem Karg25_51 : V51 m outs c main_arg25 = m ((c : Thread nD τ).loc main_arg25) :=
  (V51_of m outs c main_arg25 (by decide)).trans (Karg25_50 m outs c)
theorem Karg25_52 : V52 m outs c main_arg25 = m ((c : Thread nD τ).loc main_arg25) :=
  (V52_of m outs c main_arg25 (by decide)).trans (Karg25_51 m outs c)
theorem Karg25_53 : V53 m outs c main_arg25 = m ((c : Thread nD τ).loc main_arg25) :=
  (V53_of m outs c main_arg25 (by decide)).trans (Karg25_52 m outs c)
theorem Karg25_54 : V54 m outs c main_arg25 = m ((c : Thread nD τ).loc main_arg25) :=
  (V54_of m outs c main_arg25 (by decide)).trans (Karg25_53 m outs c)
theorem Karg25_55 : V55 m outs c main_arg25 = m ((c : Thread nD τ).loc main_arg25) :=
  (V55_of m outs c main_arg25 (by decide)).trans (Karg25_54 m outs c)
theorem Karg25_56 : V56 m outs c main_arg25 = m ((c : Thread nD τ).loc main_arg25) :=
  (V56_of m outs c main_arg25 (by decide)).trans (Karg25_55 m outs c)
theorem Karg25_57 : V57 m outs c main_arg25 = m ((c : Thread nD τ).loc main_arg25) :=
  (V57_of m outs c main_arg25 (by decide)).trans (Karg25_56 m outs c)
theorem Karg25_58 : V58 m outs c main_arg25 = m ((c : Thread nD τ).loc main_arg25) :=
  (V58_of m outs c main_arg25 (by decide)).trans (Karg25_57 m outs c)
theorem Karg25_59 : V59 m outs c main_arg25 = m ((c : Thread nD τ).loc main_arg25) :=
  (V59_of m outs c main_arg25 (by decide)).trans (Karg25_58 m outs c)
theorem Karg25_60 : V60 m outs c main_arg25 = m ((c : Thread nD τ).loc main_arg25) :=
  (V60_of m outs c main_arg25 (by decide)).trans (Karg25_59 m outs c)
theorem Karg25_61 : V61 m outs c main_arg25 = m ((c : Thread nD τ).loc main_arg25) :=
  (V61_of m outs c main_arg25 (by decide)).trans (Karg25_60 m outs c)
theorem Karg25_62 : V62 m outs c main_arg25 = m ((c : Thread nD τ).loc main_arg25) :=
  (V62_of m outs c main_arg25 (by decide)).trans (Karg25_61 m outs c)
theorem Karg25_63 : V63 m outs c main_arg25 = m ((c : Thread nD τ).loc main_arg25) :=
  (V63_of m outs c main_arg25 (by decide)).trans (Karg25_62 m outs c)
theorem Karg25_64 : V64 m outs c main_arg25 = m ((c : Thread nD τ).loc main_arg25) :=
  (V64_of m outs c main_arg25 (by decide)).trans (Karg25_63 m outs c)
theorem Karg25_65 : V65 m outs c main_arg25 = m ((c : Thread nD τ).loc main_arg25) :=
  (V65_of m outs c main_arg25 (by decide)).trans (Karg25_64 m outs c)
theorem Karg25_66 : V66 m outs c main_arg25 = m ((c : Thread nD τ).loc main_arg25) :=
  (V66_of m outs c main_arg25 (by decide)).trans (Karg25_65 m outs c)
theorem Karg25_67 : V67 m outs c main_arg25 = m ((c : Thread nD τ).loc main_arg25) :=
  (V67_of m outs c main_arg25 (by decide)).trans (Karg25_66 m outs c)
theorem Karg25_68 : V68 m outs c main_arg25 = m ((c : Thread nD τ).loc main_arg25) :=
  (V68_of m outs c main_arg25 (by decide)).trans (Karg25_67 m outs c)
theorem Karg25_69 : V69 m outs c main_arg25 = m ((c : Thread nD τ).loc main_arg25) :=
  (V69_of m outs c main_arg25 (by decide)).trans (Karg25_68 m outs c)
theorem Karg25_70 : V70 m outs c main_arg25 = m ((c : Thread nD τ).loc main_arg25) :=
  (V70_of m outs c main_arg25 (by decide)).trans (Karg25_69 m outs c)
theorem Karg25_71 : V71 m outs c main_arg25 = m ((c : Thread nD τ).loc main_arg25) :=
  (V71_of m outs c main_arg25 (by decide)).trans (Karg25_70 m outs c)
theorem Karg25_72 : V72 m outs c main_arg25 = m ((c : Thread nD τ).loc main_arg25) :=
  (V72_of m outs c main_arg25 (by decide)).trans (Karg25_71 m outs c)
theorem Karg25_73 : V73 m outs c main_arg25 = m ((c : Thread nD τ).loc main_arg25) :=
  (V73_of m outs c main_arg25 (by decide)).trans (Karg25_72 m outs c)
theorem Karg25_74 : V74 m outs c main_arg25 = m ((c : Thread nD τ).loc main_arg25) :=
  (V74_of m outs c main_arg25 (by decide)).trans (Karg25_73 m outs c)
theorem Karg25_75 : V75 m outs c main_arg25 = m ((c : Thread nD τ).loc main_arg25) :=
  (V75_of m outs c main_arg25 (by decide)).trans (Karg25_74 m outs c)
theorem Karg25_76 : V76 m outs c main_arg25 = m ((c : Thread nD τ).loc main_arg25) :=
  (V76_of m outs c main_arg25 (by decide)).trans (Karg25_75 m outs c)
theorem Karg25_77 : V77 m outs c main_arg25 = m ((c : Thread nD τ).loc main_arg25) :=
  (V77_of m outs c main_arg25 (by decide)).trans (Karg25_76 m outs c)
theorem Karg25_78 : V78 m outs c main_arg25 = m ((c : Thread nD τ).loc main_arg25) :=
  (V78_of m outs c main_arg25 (by decide)).trans (Karg25_77 m outs c)
theorem Karg25_79 : V79 m outs c main_arg25 = m ((c : Thread nD τ).loc main_arg25) :=
  (V79_of m outs c main_arg25 (by decide)).trans (Karg25_78 m outs c)
theorem Karg25_80 : V80 m outs c main_arg25 = m ((c : Thread nD τ).loc main_arg25) :=
  (V80_of m outs c main_arg25 (by decide)).trans (Karg25_79 m outs c)
theorem Karg25_81 : V81 m outs c main_arg25 = m ((c : Thread nD τ).loc main_arg25) :=
  (V81_of m outs c main_arg25 (by decide)).trans (Karg25_80 m outs c)
/-! ### main_arg26 -/
theorem Karg26_0 : V0 m c main_arg26 = m ((c : Thread nD τ).loc main_arg26) := rfl
theorem Karg26_1 : V1 m c main_arg26 = m ((c : Thread nD τ).loc main_arg26) :=
  (V1_of m c main_arg26 (by decide)).trans (Karg26_0 m c)
theorem Karg26_2 : V2 m outs c main_arg26 = m ((c : Thread nD τ).loc main_arg26) :=
  (V2_of m outs c main_arg26 (by decide)).trans (Karg26_1 m c)
theorem Karg26_3 : V3 m outs c main_arg26 = m ((c : Thread nD τ).loc main_arg26) :=
  (V3_of m outs c main_arg26 (by decide)).trans (Karg26_2 m outs c)
theorem Karg26_4 : V4 m outs c main_arg26 = m ((c : Thread nD τ).loc main_arg26) :=
  (V4_of m outs c main_arg26 (by decide)).trans (Karg26_3 m outs c)
theorem Karg26_5 : V5 m outs c main_arg26 = m ((c : Thread nD τ).loc main_arg26) :=
  (V5_of m outs c main_arg26 (by decide)).trans (Karg26_4 m outs c)
theorem Karg26_6 : V6 m outs c main_arg26 = m ((c : Thread nD τ).loc main_arg26) :=
  (V6_of m outs c main_arg26 (by decide)).trans (Karg26_5 m outs c)
theorem Karg26_7 : V7 m outs c main_arg26 = m ((c : Thread nD τ).loc main_arg26) :=
  (V7_of m outs c main_arg26 (by decide)).trans (Karg26_6 m outs c)
theorem Karg26_8 : V8 m outs c main_arg26 = m ((c : Thread nD τ).loc main_arg26) :=
  (V8_of m outs c main_arg26 (by decide)).trans (Karg26_7 m outs c)
theorem Karg26_9 : V9 m outs c main_arg26 = m ((c : Thread nD τ).loc main_arg26) :=
  (V9_of m outs c main_arg26 (by decide)).trans (Karg26_8 m outs c)
theorem Karg26_10 : V10 m outs c main_arg26 = m ((c : Thread nD τ).loc main_arg26) :=
  (V10_of m outs c main_arg26 (by decide)).trans (Karg26_9 m outs c)
theorem Karg26_11 : V11 m outs c main_arg26 = m ((c : Thread nD τ).loc main_arg26) :=
  (V11_of m outs c main_arg26 (by decide)).trans (Karg26_10 m outs c)
theorem Karg26_12 : V12 m outs c main_arg26 = m ((c : Thread nD τ).loc main_arg26) :=
  (V12_of m outs c main_arg26 (by decide)).trans (Karg26_11 m outs c)
theorem Karg26_13 : V13 m outs c main_arg26 = m ((c : Thread nD τ).loc main_arg26) :=
  (V13_of m outs c main_arg26 (by decide)).trans (Karg26_12 m outs c)
theorem Karg26_14 : V14 m outs c main_arg26 = m ((c : Thread nD τ).loc main_arg26) :=
  (V14_of m outs c main_arg26 (by decide)).trans (Karg26_13 m outs c)
theorem Karg26_15 : V15 m outs c main_arg26 = m ((c : Thread nD τ).loc main_arg26) :=
  (V15_of m outs c main_arg26 (by decide)).trans (Karg26_14 m outs c)
theorem Karg26_16 : V16 m outs c main_arg26 = m ((c : Thread nD τ).loc main_arg26) :=
  (V16_of m outs c main_arg26 (by decide)).trans (Karg26_15 m outs c)
theorem Karg26_17 : V17 m outs c main_arg26 = m ((c : Thread nD τ).loc main_arg26) :=
  (V17_of m outs c main_arg26 (by decide)).trans (Karg26_16 m outs c)
theorem Karg26_18 : V18 m outs c main_arg26 = m ((c : Thread nD τ).loc main_arg26) :=
  (V18_of m outs c main_arg26 (by decide)).trans (Karg26_17 m outs c)
theorem Karg26_19 : V19 m outs c main_arg26 = m ((c : Thread nD τ).loc main_arg26) :=
  (V19_of m outs c main_arg26 (by decide)).trans (Karg26_18 m outs c)
theorem Karg26_20 : V20 m outs c main_arg26 = m ((c : Thread nD τ).loc main_arg26) :=
  (V20_of m outs c main_arg26 (by decide)).trans (Karg26_19 m outs c)
theorem Karg26_21 : V21 m outs c main_arg26 = m ((c : Thread nD τ).loc main_arg26) :=
  (V21_of m outs c main_arg26 (by decide)).trans (Karg26_20 m outs c)
theorem Karg26_22 : V22 m outs c main_arg26 = m ((c : Thread nD τ).loc main_arg26) :=
  (V22_of m outs c main_arg26 (by decide)).trans (Karg26_21 m outs c)
theorem Karg26_23 : V23 m outs c main_arg26 = m ((c : Thread nD τ).loc main_arg26) :=
  (V23_of m outs c main_arg26 (by decide)).trans (Karg26_22 m outs c)
theorem Karg26_24 : V24 m outs c main_arg26 = m ((c : Thread nD τ).loc main_arg26) :=
  (V24_of m outs c main_arg26 (by decide)).trans (Karg26_23 m outs c)
theorem Karg26_25 : V25 m outs c main_arg26 = m ((c : Thread nD τ).loc main_arg26) :=
  (V25_of m outs c main_arg26 (by decide)).trans (Karg26_24 m outs c)
theorem Karg26_26 : V26 m outs c main_arg26 = m ((c : Thread nD τ).loc main_arg26) :=
  (V26_of m outs c main_arg26 (by decide)).trans (Karg26_25 m outs c)
theorem Karg26_27 : V27 m outs c main_arg26 = m ((c : Thread nD τ).loc main_arg26) :=
  (V27_of m outs c main_arg26 (by decide)).trans (Karg26_26 m outs c)
theorem Karg26_28 : V28 m outs c main_arg26 = m ((c : Thread nD τ).loc main_arg26) :=
  (V28_of m outs c main_arg26 (by decide)).trans (Karg26_27 m outs c)
theorem Karg26_29 : V29 m outs c main_arg26 = m ((c : Thread nD τ).loc main_arg26) :=
  (V29_of m outs c main_arg26 (by decide)).trans (Karg26_28 m outs c)
theorem Karg26_30 : V30 m outs c main_arg26 = m ((c : Thread nD τ).loc main_arg26) :=
  (V30_of m outs c main_arg26 (by decide)).trans (Karg26_29 m outs c)
theorem Karg26_31 : V31 m outs c main_arg26 = m ((c : Thread nD τ).loc main_arg26) :=
  (V31_of m outs c main_arg26 (by decide)).trans (Karg26_30 m outs c)
theorem Karg26_32 : V32 m outs c main_arg26 = m ((c : Thread nD τ).loc main_arg26) :=
  (V32_of m outs c main_arg26 (by decide)).trans (Karg26_31 m outs c)
theorem Karg26_33 : V33 m outs c main_arg26 = m ((c : Thread nD τ).loc main_arg26) :=
  (V33_of m outs c main_arg26 (by decide)).trans (Karg26_32 m outs c)
theorem Karg26_34 : V34 m outs c main_arg26 = m ((c : Thread nD τ).loc main_arg26) :=
  (V34_of m outs c main_arg26 (by decide)).trans (Karg26_33 m outs c)
theorem Karg26_35 : V35 m outs c main_arg26 = m ((c : Thread nD τ).loc main_arg26) :=
  (V35_of m outs c main_arg26 (by decide)).trans (Karg26_34 m outs c)
theorem Karg26_36 : V36 m outs c main_arg26 = m ((c : Thread nD τ).loc main_arg26) :=
  (V36_of m outs c main_arg26 (by decide)).trans (Karg26_35 m outs c)
theorem Karg26_37 : V37 m outs c main_arg26 = m ((c : Thread nD τ).loc main_arg26) :=
  (V37_of m outs c main_arg26 (by decide)).trans (Karg26_36 m outs c)
theorem Karg26_38 : V38 m outs c main_arg26 = m ((c : Thread nD τ).loc main_arg26) :=
  (V38_of m outs c main_arg26 (by decide)).trans (Karg26_37 m outs c)
theorem Karg26_39 : V39 m outs c main_arg26 = m ((c : Thread nD τ).loc main_arg26) :=
  (V39_of m outs c main_arg26 (by decide)).trans (Karg26_38 m outs c)
theorem Karg26_40 : V40 m outs c main_arg26 = m ((c : Thread nD τ).loc main_arg26) :=
  (V40_of m outs c main_arg26 (by decide)).trans (Karg26_39 m outs c)
theorem Karg26_41 : V41 m outs c main_arg26 = m ((c : Thread nD τ).loc main_arg26) :=
  (V41_of m outs c main_arg26 (by decide)).trans (Karg26_40 m outs c)
theorem Karg26_42 : V42 m outs c main_arg26 = m ((c : Thread nD τ).loc main_arg26) :=
  (V42_of m outs c main_arg26 (by decide)).trans (Karg26_41 m outs c)
theorem Karg26_43 : V43 m outs c main_arg26 = m ((c : Thread nD τ).loc main_arg26) :=
  (V43_of m outs c main_arg26 (by decide)).trans (Karg26_42 m outs c)
theorem Karg26_44 : V44 m outs c main_arg26 = m ((c : Thread nD τ).loc main_arg26) :=
  (V44_of m outs c main_arg26 (by decide)).trans (Karg26_43 m outs c)
theorem Karg26_45 : V45 m outs c main_arg26 = m ((c : Thread nD τ).loc main_arg26) :=
  (V45_of m outs c main_arg26 (by decide)).trans (Karg26_44 m outs c)
theorem Karg26_46 : V46 m outs c main_arg26 = m ((c : Thread nD τ).loc main_arg26) :=
  (V46_of m outs c main_arg26 (by decide)).trans (Karg26_45 m outs c)
theorem Karg26_47 : V47 m outs c main_arg26 = m ((c : Thread nD τ).loc main_arg26) :=
  (V47_of m outs c main_arg26 (by decide)).trans (Karg26_46 m outs c)
theorem Karg26_48 : V48 m outs c main_arg26 = m ((c : Thread nD τ).loc main_arg26) :=
  (V48_of m outs c main_arg26 (by decide)).trans (Karg26_47 m outs c)
theorem Karg26_49 : V49 m outs c main_arg26 = m ((c : Thread nD τ).loc main_arg26) :=
  (V49_of m outs c main_arg26 (by decide)).trans (Karg26_48 m outs c)
theorem Karg26_50 : V50 m outs c main_arg26 = m ((c : Thread nD τ).loc main_arg26) :=
  (V50_of m outs c main_arg26 (by decide)).trans (Karg26_49 m outs c)
theorem Karg26_51 : V51 m outs c main_arg26 = m ((c : Thread nD τ).loc main_arg26) :=
  (V51_of m outs c main_arg26 (by decide)).trans (Karg26_50 m outs c)
theorem Karg26_52 : V52 m outs c main_arg26 = m ((c : Thread nD τ).loc main_arg26) :=
  (V52_of m outs c main_arg26 (by decide)).trans (Karg26_51 m outs c)
theorem Karg26_53 : V53 m outs c main_arg26 = m ((c : Thread nD τ).loc main_arg26) :=
  (V53_of m outs c main_arg26 (by decide)).trans (Karg26_52 m outs c)
theorem Karg26_54 : V54 m outs c main_arg26 = m ((c : Thread nD τ).loc main_arg26) :=
  (V54_of m outs c main_arg26 (by decide)).trans (Karg26_53 m outs c)
theorem Karg26_55 : V55 m outs c main_arg26 = m ((c : Thread nD τ).loc main_arg26) :=
  (V55_of m outs c main_arg26 (by decide)).trans (Karg26_54 m outs c)
theorem Karg26_56 : V56 m outs c main_arg26 = m ((c : Thread nD τ).loc main_arg26) :=
  (V56_of m outs c main_arg26 (by decide)).trans (Karg26_55 m outs c)
theorem Karg26_57 : V57 m outs c main_arg26 = m ((c : Thread nD τ).loc main_arg26) :=
  (V57_of m outs c main_arg26 (by decide)).trans (Karg26_56 m outs c)
theorem Karg26_58 : V58 m outs c main_arg26 = m ((c : Thread nD τ).loc main_arg26) :=
  (V58_of m outs c main_arg26 (by decide)).trans (Karg26_57 m outs c)
theorem Karg26_59 : V59 m outs c main_arg26 = m ((c : Thread nD τ).loc main_arg26) :=
  (V59_of m outs c main_arg26 (by decide)).trans (Karg26_58 m outs c)
theorem Karg26_60 : V60 m outs c main_arg26 = m ((c : Thread nD τ).loc main_arg26) :=
  (V60_of m outs c main_arg26 (by decide)).trans (Karg26_59 m outs c)
theorem Karg26_61 : V61 m outs c main_arg26 = m ((c : Thread nD τ).loc main_arg26) :=
  (V61_of m outs c main_arg26 (by decide)).trans (Karg26_60 m outs c)
theorem Karg26_62 : V62 m outs c main_arg26 = m ((c : Thread nD τ).loc main_arg26) :=
  (V62_of m outs c main_arg26 (by decide)).trans (Karg26_61 m outs c)
theorem Karg26_63 : V63 m outs c main_arg26 = m ((c : Thread nD τ).loc main_arg26) :=
  (V63_of m outs c main_arg26 (by decide)).trans (Karg26_62 m outs c)
theorem Karg26_64 : V64 m outs c main_arg26 = m ((c : Thread nD τ).loc main_arg26) :=
  (V64_of m outs c main_arg26 (by decide)).trans (Karg26_63 m outs c)
theorem Karg26_65 : V65 m outs c main_arg26 = m ((c : Thread nD τ).loc main_arg26) :=
  (V65_of m outs c main_arg26 (by decide)).trans (Karg26_64 m outs c)
theorem Karg26_66 : V66 m outs c main_arg26 = m ((c : Thread nD τ).loc main_arg26) :=
  (V66_of m outs c main_arg26 (by decide)).trans (Karg26_65 m outs c)
theorem Karg26_67 : V67 m outs c main_arg26 = m ((c : Thread nD τ).loc main_arg26) :=
  (V67_of m outs c main_arg26 (by decide)).trans (Karg26_66 m outs c)
theorem Karg26_68 : V68 m outs c main_arg26 = m ((c : Thread nD τ).loc main_arg26) :=
  (V68_of m outs c main_arg26 (by decide)).trans (Karg26_67 m outs c)
theorem Karg26_69 : V69 m outs c main_arg26 = m ((c : Thread nD τ).loc main_arg26) :=
  (V69_of m outs c main_arg26 (by decide)).trans (Karg26_68 m outs c)
theorem Karg26_70 : V70 m outs c main_arg26 = m ((c : Thread nD τ).loc main_arg26) :=
  (V70_of m outs c main_arg26 (by decide)).trans (Karg26_69 m outs c)
theorem Karg26_71 : V71 m outs c main_arg26 = m ((c : Thread nD τ).loc main_arg26) :=
  (V71_of m outs c main_arg26 (by decide)).trans (Karg26_70 m outs c)
theorem Karg26_72 : V72 m outs c main_arg26 = m ((c : Thread nD τ).loc main_arg26) :=
  (V72_of m outs c main_arg26 (by decide)).trans (Karg26_71 m outs c)
theorem Karg26_73 : V73 m outs c main_arg26 = m ((c : Thread nD τ).loc main_arg26) :=
  (V73_of m outs c main_arg26 (by decide)).trans (Karg26_72 m outs c)
theorem Karg26_74 : V74 m outs c main_arg26 = m ((c : Thread nD τ).loc main_arg26) :=
  (V74_of m outs c main_arg26 (by decide)).trans (Karg26_73 m outs c)
theorem Karg26_75 : V75 m outs c main_arg26 = m ((c : Thread nD τ).loc main_arg26) :=
  (V75_of m outs c main_arg26 (by decide)).trans (Karg26_74 m outs c)
theorem Karg26_76 : V76 m outs c main_arg26 = m ((c : Thread nD τ).loc main_arg26) :=
  (V76_of m outs c main_arg26 (by decide)).trans (Karg26_75 m outs c)
theorem Karg26_77 : V77 m outs c main_arg26 = m ((c : Thread nD τ).loc main_arg26) :=
  (V77_of m outs c main_arg26 (by decide)).trans (Karg26_76 m outs c)
theorem Karg26_78 : V78 m outs c main_arg26 = m ((c : Thread nD τ).loc main_arg26) :=
  (V78_of m outs c main_arg26 (by decide)).trans (Karg26_77 m outs c)
theorem Karg26_79 : V79 m outs c main_arg26 = m ((c : Thread nD τ).loc main_arg26) :=
  (V79_of m outs c main_arg26 (by decide)).trans (Karg26_78 m outs c)
theorem Karg26_80 : V80 m outs c main_arg26 = m ((c : Thread nD τ).loc main_arg26) :=
  (V80_of m outs c main_arg26 (by decide)).trans (Karg26_79 m outs c)
theorem Karg26_81 : V81 m outs c main_arg26 = m ((c : Thread nD τ).loc main_arg26) :=
  (V81_of m outs c main_arg26 (by decide)).trans (Karg26_80 m outs c)
/-! ### main_arg27 -/
theorem Karg27_0 : V0 m c main_arg27 = m ((c : Thread nD τ).loc main_arg27) := rfl
theorem Karg27_1 : V1 m c main_arg27 = m ((c : Thread nD τ).loc main_arg27) :=
  (V1_of m c main_arg27 (by decide)).trans (Karg27_0 m c)
theorem Karg27_2 : V2 m outs c main_arg27 = m ((c : Thread nD τ).loc main_arg27) :=
  (V2_of m outs c main_arg27 (by decide)).trans (Karg27_1 m c)
theorem Karg27_3 : V3 m outs c main_arg27 = m ((c : Thread nD τ).loc main_arg27) :=
  (V3_of m outs c main_arg27 (by decide)).trans (Karg27_2 m outs c)
theorem Karg27_4 : V4 m outs c main_arg27 = m ((c : Thread nD τ).loc main_arg27) :=
  (V4_of m outs c main_arg27 (by decide)).trans (Karg27_3 m outs c)
theorem Karg27_5 : V5 m outs c main_arg27 = m ((c : Thread nD τ).loc main_arg27) :=
  (V5_of m outs c main_arg27 (by decide)).trans (Karg27_4 m outs c)
theorem Karg27_6 : V6 m outs c main_arg27 = m ((c : Thread nD τ).loc main_arg27) :=
  (V6_of m outs c main_arg27 (by decide)).trans (Karg27_5 m outs c)
theorem Karg27_7 : V7 m outs c main_arg27 = m ((c : Thread nD τ).loc main_arg27) :=
  (V7_of m outs c main_arg27 (by decide)).trans (Karg27_6 m outs c)
theorem Karg27_8 : V8 m outs c main_arg27 = m ((c : Thread nD τ).loc main_arg27) :=
  (V8_of m outs c main_arg27 (by decide)).trans (Karg27_7 m outs c)
theorem Karg27_9 : V9 m outs c main_arg27 = m ((c : Thread nD τ).loc main_arg27) :=
  (V9_of m outs c main_arg27 (by decide)).trans (Karg27_8 m outs c)
theorem Karg27_10 : V10 m outs c main_arg27 = m ((c : Thread nD τ).loc main_arg27) :=
  (V10_of m outs c main_arg27 (by decide)).trans (Karg27_9 m outs c)
theorem Karg27_11 : V11 m outs c main_arg27 = m ((c : Thread nD τ).loc main_arg27) :=
  (V11_of m outs c main_arg27 (by decide)).trans (Karg27_10 m outs c)
theorem Karg27_12 : V12 m outs c main_arg27 = m ((c : Thread nD τ).loc main_arg27) :=
  (V12_of m outs c main_arg27 (by decide)).trans (Karg27_11 m outs c)
theorem Karg27_13 : V13 m outs c main_arg27 = m ((c : Thread nD τ).loc main_arg27) :=
  (V13_of m outs c main_arg27 (by decide)).trans (Karg27_12 m outs c)
theorem Karg27_14 : V14 m outs c main_arg27 = m ((c : Thread nD τ).loc main_arg27) :=
  (V14_of m outs c main_arg27 (by decide)).trans (Karg27_13 m outs c)
theorem Karg27_15 : V15 m outs c main_arg27 = m ((c : Thread nD τ).loc main_arg27) :=
  (V15_of m outs c main_arg27 (by decide)).trans (Karg27_14 m outs c)
theorem Karg27_16 : V16 m outs c main_arg27 = m ((c : Thread nD τ).loc main_arg27) :=
  (V16_of m outs c main_arg27 (by decide)).trans (Karg27_15 m outs c)
theorem Karg27_17 : V17 m outs c main_arg27 = m ((c : Thread nD τ).loc main_arg27) :=
  (V17_of m outs c main_arg27 (by decide)).trans (Karg27_16 m outs c)
theorem Karg27_18 : V18 m outs c main_arg27 = m ((c : Thread nD τ).loc main_arg27) :=
  (V18_of m outs c main_arg27 (by decide)).trans (Karg27_17 m outs c)
theorem Karg27_19 : V19 m outs c main_arg27 = m ((c : Thread nD τ).loc main_arg27) :=
  (V19_of m outs c main_arg27 (by decide)).trans (Karg27_18 m outs c)
theorem Karg27_20 : V20 m outs c main_arg27 = m ((c : Thread nD τ).loc main_arg27) :=
  (V20_of m outs c main_arg27 (by decide)).trans (Karg27_19 m outs c)
theorem Karg27_21 : V21 m outs c main_arg27 = m ((c : Thread nD τ).loc main_arg27) :=
  (V21_of m outs c main_arg27 (by decide)).trans (Karg27_20 m outs c)
theorem Karg27_22 : V22 m outs c main_arg27 = m ((c : Thread nD τ).loc main_arg27) :=
  (V22_of m outs c main_arg27 (by decide)).trans (Karg27_21 m outs c)
theorem Karg27_23 : V23 m outs c main_arg27 = m ((c : Thread nD τ).loc main_arg27) :=
  (V23_of m outs c main_arg27 (by decide)).trans (Karg27_22 m outs c)
theorem Karg27_24 : V24 m outs c main_arg27 = m ((c : Thread nD τ).loc main_arg27) :=
  (V24_of m outs c main_arg27 (by decide)).trans (Karg27_23 m outs c)
theorem Karg27_25 : V25 m outs c main_arg27 = m ((c : Thread nD τ).loc main_arg27) :=
  (V25_of m outs c main_arg27 (by decide)).trans (Karg27_24 m outs c)
theorem Karg27_26 : V26 m outs c main_arg27 = m ((c : Thread nD τ).loc main_arg27) :=
  (V26_of m outs c main_arg27 (by decide)).trans (Karg27_25 m outs c)
theorem Karg27_27 : V27 m outs c main_arg27 = m ((c : Thread nD τ).loc main_arg27) :=
  (V27_of m outs c main_arg27 (by decide)).trans (Karg27_26 m outs c)
theorem Karg27_28 : V28 m outs c main_arg27 = m ((c : Thread nD τ).loc main_arg27) :=
  (V28_of m outs c main_arg27 (by decide)).trans (Karg27_27 m outs c)
theorem Karg27_29 : V29 m outs c main_arg27 = m ((c : Thread nD τ).loc main_arg27) :=
  (V29_of m outs c main_arg27 (by decide)).trans (Karg27_28 m outs c)
theorem Karg27_30 : V30 m outs c main_arg27 = m ((c : Thread nD τ).loc main_arg27) :=
  (V30_of m outs c main_arg27 (by decide)).trans (Karg27_29 m outs c)
theorem Karg27_31 : V31 m outs c main_arg27 = m ((c : Thread nD τ).loc main_arg27) :=
  (V31_of m outs c main_arg27 (by decide)).trans (Karg27_30 m outs c)
theorem Karg27_32 : V32 m outs c main_arg27 = m ((c : Thread nD τ).loc main_arg27) :=
  (V32_of m outs c main_arg27 (by decide)).trans (Karg27_31 m outs c)
theorem Karg27_33 : V33 m outs c main_arg27 = m ((c : Thread nD τ).loc main_arg27) :=
  (V33_of m outs c main_arg27 (by decide)).trans (Karg27_32 m outs c)
theorem Karg27_34 : V34 m outs c main_arg27 = m ((c : Thread nD τ).loc main_arg27) :=
  (V34_of m outs c main_arg27 (by decide)).trans (Karg27_33 m outs c)
theorem Karg27_35 : V35 m outs c main_arg27 = m ((c : Thread nD τ).loc main_arg27) :=
  (V35_of m outs c main_arg27 (by decide)).trans (Karg27_34 m outs c)
theorem Karg27_36 : V36 m outs c main_arg27 = m ((c : Thread nD τ).loc main_arg27) :=
  (V36_of m outs c main_arg27 (by decide)).trans (Karg27_35 m outs c)
theorem Karg27_37 : V37 m outs c main_arg27 = m ((c : Thread nD τ).loc main_arg27) :=
  (V37_of m outs c main_arg27 (by decide)).trans (Karg27_36 m outs c)
theorem Karg27_38 : V38 m outs c main_arg27 = m ((c : Thread nD τ).loc main_arg27) :=
  (V38_of m outs c main_arg27 (by decide)).trans (Karg27_37 m outs c)
theorem Karg27_39 : V39 m outs c main_arg27 = m ((c : Thread nD τ).loc main_arg27) :=
  (V39_of m outs c main_arg27 (by decide)).trans (Karg27_38 m outs c)
theorem Karg27_40 : V40 m outs c main_arg27 = m ((c : Thread nD τ).loc main_arg27) :=
  (V40_of m outs c main_arg27 (by decide)).trans (Karg27_39 m outs c)
theorem Karg27_41 : V41 m outs c main_arg27 = m ((c : Thread nD τ).loc main_arg27) :=
  (V41_of m outs c main_arg27 (by decide)).trans (Karg27_40 m outs c)
theorem Karg27_42 : V42 m outs c main_arg27 = m ((c : Thread nD τ).loc main_arg27) :=
  (V42_of m outs c main_arg27 (by decide)).trans (Karg27_41 m outs c)
theorem Karg27_43 : V43 m outs c main_arg27 = m ((c : Thread nD τ).loc main_arg27) :=
  (V43_of m outs c main_arg27 (by decide)).trans (Karg27_42 m outs c)
theorem Karg27_44 : V44 m outs c main_arg27 = m ((c : Thread nD τ).loc main_arg27) :=
  (V44_of m outs c main_arg27 (by decide)).trans (Karg27_43 m outs c)
theorem Karg27_45 : V45 m outs c main_arg27 = m ((c : Thread nD τ).loc main_arg27) :=
  (V45_of m outs c main_arg27 (by decide)).trans (Karg27_44 m outs c)
theorem Karg27_46 : V46 m outs c main_arg27 = m ((c : Thread nD τ).loc main_arg27) :=
  (V46_of m outs c main_arg27 (by decide)).trans (Karg27_45 m outs c)
theorem Karg27_47 : V47 m outs c main_arg27 = m ((c : Thread nD τ).loc main_arg27) :=
  (V47_of m outs c main_arg27 (by decide)).trans (Karg27_46 m outs c)
theorem Karg27_48 : V48 m outs c main_arg27 = m ((c : Thread nD τ).loc main_arg27) :=
  (V48_of m outs c main_arg27 (by decide)).trans (Karg27_47 m outs c)
theorem Karg27_49 : V49 m outs c main_arg27 = m ((c : Thread nD τ).loc main_arg27) :=
  (V49_of m outs c main_arg27 (by decide)).trans (Karg27_48 m outs c)
theorem Karg27_50 : V50 m outs c main_arg27 = m ((c : Thread nD τ).loc main_arg27) :=
  (V50_of m outs c main_arg27 (by decide)).trans (Karg27_49 m outs c)
theorem Karg27_51 : V51 m outs c main_arg27 = m ((c : Thread nD τ).loc main_arg27) :=
  (V51_of m outs c main_arg27 (by decide)).trans (Karg27_50 m outs c)
theorem Karg27_52 : V52 m outs c main_arg27 = m ((c : Thread nD τ).loc main_arg27) :=
  (V52_of m outs c main_arg27 (by decide)).trans (Karg27_51 m outs c)
theorem Karg27_53 : V53 m outs c main_arg27 = m ((c : Thread nD τ).loc main_arg27) :=
  (V53_of m outs c main_arg27 (by decide)).trans (Karg27_52 m outs c)
theorem Karg27_54 : V54 m outs c main_arg27 = m ((c : Thread nD τ).loc main_arg27) :=
  (V54_of m outs c main_arg27 (by decide)).trans (Karg27_53 m outs c)
theorem Karg27_55 : V55 m outs c main_arg27 = m ((c : Thread nD τ).loc main_arg27) :=
  (V55_of m outs c main_arg27 (by decide)).trans (Karg27_54 m outs c)
theorem Karg27_56 : V56 m outs c main_arg27 = m ((c : Thread nD τ).loc main_arg27) :=
  (V56_of m outs c main_arg27 (by decide)).trans (Karg27_55 m outs c)
theorem Karg27_57 : V57 m outs c main_arg27 = m ((c : Thread nD τ).loc main_arg27) :=
  (V57_of m outs c main_arg27 (by decide)).trans (Karg27_56 m outs c)
theorem Karg27_58 : V58 m outs c main_arg27 = m ((c : Thread nD τ).loc main_arg27) :=
  (V58_of m outs c main_arg27 (by decide)).trans (Karg27_57 m outs c)
theorem Karg27_59 : V59 m outs c main_arg27 = m ((c : Thread nD τ).loc main_arg27) :=
  (V59_of m outs c main_arg27 (by decide)).trans (Karg27_58 m outs c)
theorem Karg27_60 : V60 m outs c main_arg27 = m ((c : Thread nD τ).loc main_arg27) :=
  (V60_of m outs c main_arg27 (by decide)).trans (Karg27_59 m outs c)
theorem Karg27_61 : V61 m outs c main_arg27 = m ((c : Thread nD τ).loc main_arg27) :=
  (V61_of m outs c main_arg27 (by decide)).trans (Karg27_60 m outs c)
theorem Karg27_62 : V62 m outs c main_arg27 = m ((c : Thread nD τ).loc main_arg27) :=
  (V62_of m outs c main_arg27 (by decide)).trans (Karg27_61 m outs c)
theorem Karg27_63 : V63 m outs c main_arg27 = m ((c : Thread nD τ).loc main_arg27) :=
  (V63_of m outs c main_arg27 (by decide)).trans (Karg27_62 m outs c)
theorem Karg27_64 : V64 m outs c main_arg27 = m ((c : Thread nD τ).loc main_arg27) :=
  (V64_of m outs c main_arg27 (by decide)).trans (Karg27_63 m outs c)
theorem Karg27_65 : V65 m outs c main_arg27 = m ((c : Thread nD τ).loc main_arg27) :=
  (V65_of m outs c main_arg27 (by decide)).trans (Karg27_64 m outs c)
theorem Karg27_66 : V66 m outs c main_arg27 = m ((c : Thread nD τ).loc main_arg27) :=
  (V66_of m outs c main_arg27 (by decide)).trans (Karg27_65 m outs c)
theorem Karg27_67 : V67 m outs c main_arg27 = m ((c : Thread nD τ).loc main_arg27) :=
  (V67_of m outs c main_arg27 (by decide)).trans (Karg27_66 m outs c)
theorem Karg27_68 : V68 m outs c main_arg27 = m ((c : Thread nD τ).loc main_arg27) :=
  (V68_of m outs c main_arg27 (by decide)).trans (Karg27_67 m outs c)
theorem Karg27_69 : V69 m outs c main_arg27 = m ((c : Thread nD τ).loc main_arg27) :=
  (V69_of m outs c main_arg27 (by decide)).trans (Karg27_68 m outs c)
theorem Karg27_70 : V70 m outs c main_arg27 = m ((c : Thread nD τ).loc main_arg27) :=
  (V70_of m outs c main_arg27 (by decide)).trans (Karg27_69 m outs c)
theorem Karg27_71 : V71 m outs c main_arg27 = m ((c : Thread nD τ).loc main_arg27) :=
  (V71_of m outs c main_arg27 (by decide)).trans (Karg27_70 m outs c)
theorem Karg27_72 : V72 m outs c main_arg27 = m ((c : Thread nD τ).loc main_arg27) :=
  (V72_of m outs c main_arg27 (by decide)).trans (Karg27_71 m outs c)
theorem Karg27_73 : V73 m outs c main_arg27 = m ((c : Thread nD τ).loc main_arg27) :=
  (V73_of m outs c main_arg27 (by decide)).trans (Karg27_72 m outs c)
theorem Karg27_74 : V74 m outs c main_arg27 = m ((c : Thread nD τ).loc main_arg27) :=
  (V74_of m outs c main_arg27 (by decide)).trans (Karg27_73 m outs c)
theorem Karg27_75 : V75 m outs c main_arg27 = m ((c : Thread nD τ).loc main_arg27) :=
  (V75_of m outs c main_arg27 (by decide)).trans (Karg27_74 m outs c)
theorem Karg27_76 : V76 m outs c main_arg27 = m ((c : Thread nD τ).loc main_arg27) :=
  (V76_of m outs c main_arg27 (by decide)).trans (Karg27_75 m outs c)
theorem Karg27_77 : V77 m outs c main_arg27 = m ((c : Thread nD τ).loc main_arg27) :=
  (V77_of m outs c main_arg27 (by decide)).trans (Karg27_76 m outs c)
theorem Karg27_78 : V78 m outs c main_arg27 = m ((c : Thread nD τ).loc main_arg27) :=
  (V78_of m outs c main_arg27 (by decide)).trans (Karg27_77 m outs c)
theorem Karg27_79 : V79 m outs c main_arg27 = m ((c : Thread nD τ).loc main_arg27) :=
  (V79_of m outs c main_arg27 (by decide)).trans (Karg27_78 m outs c)
theorem Karg27_80 : V80 m outs c main_arg27 = m ((c : Thread nD τ).loc main_arg27) :=
  (V80_of m outs c main_arg27 (by decide)).trans (Karg27_79 m outs c)
theorem Karg27_81 : V81 m outs c main_arg27 = m ((c : Thread nD τ).loc main_arg27) :=
  (V81_of m outs c main_arg27 (by decide)).trans (Karg27_80 m outs c)
/-! ### main_arg28 -/
theorem Karg28_0 : V0 m c main_arg28 = m ((c : Thread nD τ).loc main_arg28) := rfl
theorem Karg28_1 : V1 m c main_arg28 = m ((c : Thread nD τ).loc main_arg28) :=
  (V1_of m c main_arg28 (by decide)).trans (Karg28_0 m c)
theorem Karg28_2 : V2 m outs c main_arg28 = m ((c : Thread nD τ).loc main_arg28) :=
  (V2_of m outs c main_arg28 (by decide)).trans (Karg28_1 m c)
theorem Karg28_3 : V3 m outs c main_arg28 = m ((c : Thread nD τ).loc main_arg28) :=
  (V3_of m outs c main_arg28 (by decide)).trans (Karg28_2 m outs c)
theorem Karg28_4 : V4 m outs c main_arg28 = m ((c : Thread nD τ).loc main_arg28) :=
  (V4_of m outs c main_arg28 (by decide)).trans (Karg28_3 m outs c)
theorem Karg28_5 : V5 m outs c main_arg28 = m ((c : Thread nD τ).loc main_arg28) :=
  (V5_of m outs c main_arg28 (by decide)).trans (Karg28_4 m outs c)
theorem Karg28_6 : V6 m outs c main_arg28 = m ((c : Thread nD τ).loc main_arg28) :=
  (V6_of m outs c main_arg28 (by decide)).trans (Karg28_5 m outs c)
theorem Karg28_7 : V7 m outs c main_arg28 = m ((c : Thread nD τ).loc main_arg28) :=
  (V7_of m outs c main_arg28 (by decide)).trans (Karg28_6 m outs c)
theorem Karg28_8 : V8 m outs c main_arg28 = m ((c : Thread nD τ).loc main_arg28) :=
  (V8_of m outs c main_arg28 (by decide)).trans (Karg28_7 m outs c)
theorem Karg28_9 : V9 m outs c main_arg28 = m ((c : Thread nD τ).loc main_arg28) :=
  (V9_of m outs c main_arg28 (by decide)).trans (Karg28_8 m outs c)
theorem Karg28_10 : V10 m outs c main_arg28 = m ((c : Thread nD τ).loc main_arg28) :=
  (V10_of m outs c main_arg28 (by decide)).trans (Karg28_9 m outs c)
theorem Karg28_11 : V11 m outs c main_arg28 = m ((c : Thread nD τ).loc main_arg28) :=
  (V11_of m outs c main_arg28 (by decide)).trans (Karg28_10 m outs c)
theorem Karg28_12 : V12 m outs c main_arg28 = m ((c : Thread nD τ).loc main_arg28) :=
  (V12_of m outs c main_arg28 (by decide)).trans (Karg28_11 m outs c)
theorem Karg28_13 : V13 m outs c main_arg28 = m ((c : Thread nD τ).loc main_arg28) :=
  (V13_of m outs c main_arg28 (by decide)).trans (Karg28_12 m outs c)
theorem Karg28_14 : V14 m outs c main_arg28 = m ((c : Thread nD τ).loc main_arg28) :=
  (V14_of m outs c main_arg28 (by decide)).trans (Karg28_13 m outs c)
theorem Karg28_15 : V15 m outs c main_arg28 = m ((c : Thread nD τ).loc main_arg28) :=
  (V15_of m outs c main_arg28 (by decide)).trans (Karg28_14 m outs c)
theorem Karg28_16 : V16 m outs c main_arg28 = m ((c : Thread nD τ).loc main_arg28) :=
  (V16_of m outs c main_arg28 (by decide)).trans (Karg28_15 m outs c)
theorem Karg28_17 : V17 m outs c main_arg28 = m ((c : Thread nD τ).loc main_arg28) :=
  (V17_of m outs c main_arg28 (by decide)).trans (Karg28_16 m outs c)
theorem Karg28_18 : V18 m outs c main_arg28 = m ((c : Thread nD τ).loc main_arg28) :=
  (V18_of m outs c main_arg28 (by decide)).trans (Karg28_17 m outs c)
theorem Karg28_19 : V19 m outs c main_arg28 = m ((c : Thread nD τ).loc main_arg28) :=
  (V19_of m outs c main_arg28 (by decide)).trans (Karg28_18 m outs c)
theorem Karg28_20 : V20 m outs c main_arg28 = m ((c : Thread nD τ).loc main_arg28) :=
  (V20_of m outs c main_arg28 (by decide)).trans (Karg28_19 m outs c)
theorem Karg28_21 : V21 m outs c main_arg28 = m ((c : Thread nD τ).loc main_arg28) :=
  (V21_of m outs c main_arg28 (by decide)).trans (Karg28_20 m outs c)
theorem Karg28_22 : V22 m outs c main_arg28 = m ((c : Thread nD τ).loc main_arg28) :=
  (V22_of m outs c main_arg28 (by decide)).trans (Karg28_21 m outs c)
theorem Karg28_23 : V23 m outs c main_arg28 = m ((c : Thread nD τ).loc main_arg28) :=
  (V23_of m outs c main_arg28 (by decide)).trans (Karg28_22 m outs c)
theorem Karg28_24 : V24 m outs c main_arg28 = m ((c : Thread nD τ).loc main_arg28) :=
  (V24_of m outs c main_arg28 (by decide)).trans (Karg28_23 m outs c)
theorem Karg28_25 : V25 m outs c main_arg28 = m ((c : Thread nD τ).loc main_arg28) :=
  (V25_of m outs c main_arg28 (by decide)).trans (Karg28_24 m outs c)
theorem Karg28_26 : V26 m outs c main_arg28 = m ((c : Thread nD τ).loc main_arg28) :=
  (V26_of m outs c main_arg28 (by decide)).trans (Karg28_25 m outs c)
theorem Karg28_27 : V27 m outs c main_arg28 = m ((c : Thread nD τ).loc main_arg28) :=
  (V27_of m outs c main_arg28 (by decide)).trans (Karg28_26 m outs c)
theorem Karg28_28 : V28 m outs c main_arg28 = m ((c : Thread nD τ).loc main_arg28) :=
  (V28_of m outs c main_arg28 (by decide)).trans (Karg28_27 m outs c)
theorem Karg28_29 : V29 m outs c main_arg28 = m ((c : Thread nD τ).loc main_arg28) :=
  (V29_of m outs c main_arg28 (by decide)).trans (Karg28_28 m outs c)
theorem Karg28_30 : V30 m outs c main_arg28 = m ((c : Thread nD τ).loc main_arg28) :=
  (V30_of m outs c main_arg28 (by decide)).trans (Karg28_29 m outs c)
theorem Karg28_31 : V31 m outs c main_arg28 = m ((c : Thread nD τ).loc main_arg28) :=
  (V31_of m outs c main_arg28 (by decide)).trans (Karg28_30 m outs c)
theorem Karg28_32 : V32 m outs c main_arg28 = m ((c : Thread nD τ).loc main_arg28) :=
  (V32_of m outs c main_arg28 (by decide)).trans (Karg28_31 m outs c)
theorem Karg28_33 : V33 m outs c main_arg28 = m ((c : Thread nD τ).loc main_arg28) :=
  (V33_of m outs c main_arg28 (by decide)).trans (Karg28_32 m outs c)
theorem Karg28_34 : V34 m outs c main_arg28 = m ((c : Thread nD τ).loc main_arg28) :=
  (V34_of m outs c main_arg28 (by decide)).trans (Karg28_33 m outs c)
theorem Karg28_35 : V35 m outs c main_arg28 = m ((c : Thread nD τ).loc main_arg28) :=
  (V35_of m outs c main_arg28 (by decide)).trans (Karg28_34 m outs c)
theorem Karg28_36 : V36 m outs c main_arg28 = m ((c : Thread nD τ).loc main_arg28) :=
  (V36_of m outs c main_arg28 (by decide)).trans (Karg28_35 m outs c)
theorem Karg28_37 : V37 m outs c main_arg28 = m ((c : Thread nD τ).loc main_arg28) :=
  (V37_of m outs c main_arg28 (by decide)).trans (Karg28_36 m outs c)
theorem Karg28_38 : V38 m outs c main_arg28 = m ((c : Thread nD τ).loc main_arg28) :=
  (V38_of m outs c main_arg28 (by decide)).trans (Karg28_37 m outs c)
theorem Karg28_39 : V39 m outs c main_arg28 = m ((c : Thread nD τ).loc main_arg28) :=
  (V39_of m outs c main_arg28 (by decide)).trans (Karg28_38 m outs c)
theorem Karg28_40 : V40 m outs c main_arg28 = m ((c : Thread nD τ).loc main_arg28) :=
  (V40_of m outs c main_arg28 (by decide)).trans (Karg28_39 m outs c)
theorem Karg28_41 : V41 m outs c main_arg28 = m ((c : Thread nD τ).loc main_arg28) :=
  (V41_of m outs c main_arg28 (by decide)).trans (Karg28_40 m outs c)
theorem Karg28_42 : V42 m outs c main_arg28 = m ((c : Thread nD τ).loc main_arg28) :=
  (V42_of m outs c main_arg28 (by decide)).trans (Karg28_41 m outs c)
theorem Karg28_43 : V43 m outs c main_arg28 = m ((c : Thread nD τ).loc main_arg28) :=
  (V43_of m outs c main_arg28 (by decide)).trans (Karg28_42 m outs c)
theorem Karg28_44 : V44 m outs c main_arg28 = m ((c : Thread nD τ).loc main_arg28) :=
  (V44_of m outs c main_arg28 (by decide)).trans (Karg28_43 m outs c)
theorem Karg28_45 : V45 m outs c main_arg28 = m ((c : Thread nD τ).loc main_arg28) :=
  (V45_of m outs c main_arg28 (by decide)).trans (Karg28_44 m outs c)
theorem Karg28_46 : V46 m outs c main_arg28 = m ((c : Thread nD τ).loc main_arg28) :=
  (V46_of m outs c main_arg28 (by decide)).trans (Karg28_45 m outs c)
theorem Karg28_47 : V47 m outs c main_arg28 = m ((c : Thread nD τ).loc main_arg28) :=
  (V47_of m outs c main_arg28 (by decide)).trans (Karg28_46 m outs c)
theorem Karg28_48 : V48 m outs c main_arg28 = m ((c : Thread nD τ).loc main_arg28) :=
  (V48_of m outs c main_arg28 (by decide)).trans (Karg28_47 m outs c)
theorem Karg28_49 : V49 m outs c main_arg28 = m ((c : Thread nD τ).loc main_arg28) :=
  (V49_of m outs c main_arg28 (by decide)).trans (Karg28_48 m outs c)
theorem Karg28_50 : V50 m outs c main_arg28 = m ((c : Thread nD τ).loc main_arg28) :=
  (V50_of m outs c main_arg28 (by decide)).trans (Karg28_49 m outs c)
theorem Karg28_51 : V51 m outs c main_arg28 = m ((c : Thread nD τ).loc main_arg28) :=
  (V51_of m outs c main_arg28 (by decide)).trans (Karg28_50 m outs c)
theorem Karg28_52 : V52 m outs c main_arg28 = m ((c : Thread nD τ).loc main_arg28) :=
  (V52_of m outs c main_arg28 (by decide)).trans (Karg28_51 m outs c)
theorem Karg28_53 : V53 m outs c main_arg28 = m ((c : Thread nD τ).loc main_arg28) :=
  (V53_of m outs c main_arg28 (by decide)).trans (Karg28_52 m outs c)
theorem Karg28_54 : V54 m outs c main_arg28 = m ((c : Thread nD τ).loc main_arg28) :=
  (V54_of m outs c main_arg28 (by decide)).trans (Karg28_53 m outs c)
theorem Karg28_55 : V55 m outs c main_arg28 = m ((c : Thread nD τ).loc main_arg28) :=
  (V55_of m outs c main_arg28 (by decide)).trans (Karg28_54 m outs c)
theorem Karg28_56 : V56 m outs c main_arg28 = m ((c : Thread nD τ).loc main_arg28) :=
  (V56_of m outs c main_arg28 (by decide)).trans (Karg28_55 m outs c)
theorem Karg28_57 : V57 m outs c main_arg28 = m ((c : Thread nD τ).loc main_arg28) :=
  (V57_of m outs c main_arg28 (by decide)).trans (Karg28_56 m outs c)
theorem Karg28_58 : V58 m outs c main_arg28 = m ((c : Thread nD τ).loc main_arg28) :=
  (V58_of m outs c main_arg28 (by decide)).trans (Karg28_57 m outs c)
theorem Karg28_59 : V59 m outs c main_arg28 = m ((c : Thread nD τ).loc main_arg28) :=
  (V59_of m outs c main_arg28 (by decide)).trans (Karg28_58 m outs c)
theorem Karg28_60 : V60 m outs c main_arg28 = m ((c : Thread nD τ).loc main_arg28) :=
  (V60_of m outs c main_arg28 (by decide)).trans (Karg28_59 m outs c)
theorem Karg28_61 : V61 m outs c main_arg28 = m ((c : Thread nD τ).loc main_arg28) :=
  (V61_of m outs c main_arg28 (by decide)).trans (Karg28_60 m outs c)
theorem Karg28_62 : V62 m outs c main_arg28 = m ((c : Thread nD τ).loc main_arg28) :=
  (V62_of m outs c main_arg28 (by decide)).trans (Karg28_61 m outs c)
theorem Karg28_63 : V63 m outs c main_arg28 = m ((c : Thread nD τ).loc main_arg28) :=
  (V63_of m outs c main_arg28 (by decide)).trans (Karg28_62 m outs c)
theorem Karg28_64 : V64 m outs c main_arg28 = m ((c : Thread nD τ).loc main_arg28) :=
  (V64_of m outs c main_arg28 (by decide)).trans (Karg28_63 m outs c)
theorem Karg28_65 : V65 m outs c main_arg28 = m ((c : Thread nD τ).loc main_arg28) :=
  (V65_of m outs c main_arg28 (by decide)).trans (Karg28_64 m outs c)
theorem Karg28_66 : V66 m outs c main_arg28 = m ((c : Thread nD τ).loc main_arg28) :=
  (V66_of m outs c main_arg28 (by decide)).trans (Karg28_65 m outs c)
theorem Karg28_67 : V67 m outs c main_arg28 = m ((c : Thread nD τ).loc main_arg28) :=
  (V67_of m outs c main_arg28 (by decide)).trans (Karg28_66 m outs c)
theorem Karg28_68 : V68 m outs c main_arg28 = m ((c : Thread nD τ).loc main_arg28) :=
  (V68_of m outs c main_arg28 (by decide)).trans (Karg28_67 m outs c)
theorem Karg28_69 : V69 m outs c main_arg28 = m ((c : Thread nD τ).loc main_arg28) :=
  (V69_of m outs c main_arg28 (by decide)).trans (Karg28_68 m outs c)
theorem Karg28_70 : V70 m outs c main_arg28 = m ((c : Thread nD τ).loc main_arg28) :=
  (V70_of m outs c main_arg28 (by decide)).trans (Karg28_69 m outs c)
theorem Karg28_71 : V71 m outs c main_arg28 = m ((c : Thread nD τ).loc main_arg28) :=
  (V71_of m outs c main_arg28 (by decide)).trans (Karg28_70 m outs c)
theorem Karg28_72 : V72 m outs c main_arg28 = m ((c : Thread nD τ).loc main_arg28) :=
  (V72_of m outs c main_arg28 (by decide)).trans (Karg28_71 m outs c)
theorem Karg28_73 : V73 m outs c main_arg28 = m ((c : Thread nD τ).loc main_arg28) :=
  (V73_of m outs c main_arg28 (by decide)).trans (Karg28_72 m outs c)
theorem Karg28_74 : V74 m outs c main_arg28 = m ((c : Thread nD τ).loc main_arg28) :=
  (V74_of m outs c main_arg28 (by decide)).trans (Karg28_73 m outs c)
theorem Karg28_75 : V75 m outs c main_arg28 = m ((c : Thread nD τ).loc main_arg28) :=
  (V75_of m outs c main_arg28 (by decide)).trans (Karg28_74 m outs c)
theorem Karg28_76 : V76 m outs c main_arg28 = m ((c : Thread nD τ).loc main_arg28) :=
  (V76_of m outs c main_arg28 (by decide)).trans (Karg28_75 m outs c)
theorem Karg28_77 : V77 m outs c main_arg28 = m ((c : Thread nD τ).loc main_arg28) :=
  (V77_of m outs c main_arg28 (by decide)).trans (Karg28_76 m outs c)
theorem Karg28_78 : V78 m outs c main_arg28 = m ((c : Thread nD τ).loc main_arg28) :=
  (V78_of m outs c main_arg28 (by decide)).trans (Karg28_77 m outs c)
theorem Karg28_79 : V79 m outs c main_arg28 = m ((c : Thread nD τ).loc main_arg28) :=
  (V79_of m outs c main_arg28 (by decide)).trans (Karg28_78 m outs c)
theorem Karg28_80 : V80 m outs c main_arg28 = m ((c : Thread nD τ).loc main_arg28) :=
  (V80_of m outs c main_arg28 (by decide)).trans (Karg28_79 m outs c)
theorem Karg28_81 : V81 m outs c main_arg28 = m ((c : Thread nD τ).loc main_arg28) :=
  (V81_of m outs c main_arg28 (by decide)).trans (Karg28_80 m outs c)
/-! ### main_arg29 -/
theorem Karg29_0 : V0 m c main_arg29 = m ((c : Thread nD τ).loc main_arg29) := rfl
theorem Karg29_1 : V1 m c main_arg29 = m ((c : Thread nD τ).loc main_arg29) :=
  (V1_of m c main_arg29 (by decide)).trans (Karg29_0 m c)
theorem Karg29_2 : V2 m outs c main_arg29 = m ((c : Thread nD τ).loc main_arg29) :=
  (V2_of m outs c main_arg29 (by decide)).trans (Karg29_1 m c)
theorem Karg29_3 : V3 m outs c main_arg29 = m ((c : Thread nD τ).loc main_arg29) :=
  (V3_of m outs c main_arg29 (by decide)).trans (Karg29_2 m outs c)
theorem Karg29_4 : V4 m outs c main_arg29 = m ((c : Thread nD τ).loc main_arg29) :=
  (V4_of m outs c main_arg29 (by decide)).trans (Karg29_3 m outs c)
theorem Karg29_5 : V5 m outs c main_arg29 = m ((c : Thread nD τ).loc main_arg29) :=
  (V5_of m outs c main_arg29 (by decide)).trans (Karg29_4 m outs c)
theorem Karg29_6 : V6 m outs c main_arg29 = m ((c : Thread nD τ).loc main_arg29) :=
  (V6_of m outs c main_arg29 (by decide)).trans (Karg29_5 m outs c)
theorem Karg29_7 : V7 m outs c main_arg29 = m ((c : Thread nD τ).loc main_arg29) :=
  (V7_of m outs c main_arg29 (by decide)).trans (Karg29_6 m outs c)
theorem Karg29_8 : V8 m outs c main_arg29 = m ((c : Thread nD τ).loc main_arg29) :=
  (V8_of m outs c main_arg29 (by decide)).trans (Karg29_7 m outs c)
theorem Karg29_9 : V9 m outs c main_arg29 = m ((c : Thread nD τ).loc main_arg29) :=
  (V9_of m outs c main_arg29 (by decide)).trans (Karg29_8 m outs c)
theorem Karg29_10 : V10 m outs c main_arg29 = m ((c : Thread nD τ).loc main_arg29) :=
  (V10_of m outs c main_arg29 (by decide)).trans (Karg29_9 m outs c)
theorem Karg29_11 : V11 m outs c main_arg29 = m ((c : Thread nD τ).loc main_arg29) :=
  (V11_of m outs c main_arg29 (by decide)).trans (Karg29_10 m outs c)
theorem Karg29_12 : V12 m outs c main_arg29 = m ((c : Thread nD τ).loc main_arg29) :=
  (V12_of m outs c main_arg29 (by decide)).trans (Karg29_11 m outs c)
theorem Karg29_13 : V13 m outs c main_arg29 = m ((c : Thread nD τ).loc main_arg29) :=
  (V13_of m outs c main_arg29 (by decide)).trans (Karg29_12 m outs c)
theorem Karg29_14 : V14 m outs c main_arg29 = m ((c : Thread nD τ).loc main_arg29) :=
  (V14_of m outs c main_arg29 (by decide)).trans (Karg29_13 m outs c)
theorem Karg29_15 : V15 m outs c main_arg29 = m ((c : Thread nD τ).loc main_arg29) :=
  (V15_of m outs c main_arg29 (by decide)).trans (Karg29_14 m outs c)
theorem Karg29_16 : V16 m outs c main_arg29 = m ((c : Thread nD τ).loc main_arg29) :=
  (V16_of m outs c main_arg29 (by decide)).trans (Karg29_15 m outs c)
theorem Karg29_17 : V17 m outs c main_arg29 = m ((c : Thread nD τ).loc main_arg29) :=
  (V17_of m outs c main_arg29 (by decide)).trans (Karg29_16 m outs c)
theorem Karg29_18 : V18 m outs c main_arg29 = m ((c : Thread nD τ).loc main_arg29) :=
  (V18_of m outs c main_arg29 (by decide)).trans (Karg29_17 m outs c)
theorem Karg29_19 : V19 m outs c main_arg29 = m ((c : Thread nD τ).loc main_arg29) :=
  (V19_of m outs c main_arg29 (by decide)).trans (Karg29_18 m outs c)
theorem Karg29_20 : V20 m outs c main_arg29 = m ((c : Thread nD τ).loc main_arg29) :=
  (V20_of m outs c main_arg29 (by decide)).trans (Karg29_19 m outs c)
theorem Karg29_21 : V21 m outs c main_arg29 = m ((c : Thread nD τ).loc main_arg29) :=
  (V21_of m outs c main_arg29 (by decide)).trans (Karg29_20 m outs c)
theorem Karg29_22 : V22 m outs c main_arg29 = m ((c : Thread nD τ).loc main_arg29) :=
  (V22_of m outs c main_arg29 (by decide)).trans (Karg29_21 m outs c)
theorem Karg29_23 : V23 m outs c main_arg29 = m ((c : Thread nD τ).loc main_arg29) :=
  (V23_of m outs c main_arg29 (by decide)).trans (Karg29_22 m outs c)
theorem Karg29_24 : V24 m outs c main_arg29 = m ((c : Thread nD τ).loc main_arg29) :=
  (V24_of m outs c main_arg29 (by decide)).trans (Karg29_23 m outs c)
theorem Karg29_25 : V25 m outs c main_arg29 = m ((c : Thread nD τ).loc main_arg29) :=
  (V25_of m outs c main_arg29 (by decide)).trans (Karg29_24 m outs c)
theorem Karg29_26 : V26 m outs c main_arg29 = m ((c : Thread nD τ).loc main_arg29) :=
  (V26_of m outs c main_arg29 (by decide)).trans (Karg29_25 m outs c)
theorem Karg29_27 : V27 m outs c main_arg29 = m ((c : Thread nD τ).loc main_arg29) :=
  (V27_of m outs c main_arg29 (by decide)).trans (Karg29_26 m outs c)
theorem Karg29_28 : V28 m outs c main_arg29 = m ((c : Thread nD τ).loc main_arg29) :=
  (V28_of m outs c main_arg29 (by decide)).trans (Karg29_27 m outs c)
theorem Karg29_29 : V29 m outs c main_arg29 = m ((c : Thread nD τ).loc main_arg29) :=
  (V29_of m outs c main_arg29 (by decide)).trans (Karg29_28 m outs c)
theorem Karg29_30 : V30 m outs c main_arg29 = m ((c : Thread nD τ).loc main_arg29) :=
  (V30_of m outs c main_arg29 (by decide)).trans (Karg29_29 m outs c)
theorem Karg29_31 : V31 m outs c main_arg29 = m ((c : Thread nD τ).loc main_arg29) :=
  (V31_of m outs c main_arg29 (by decide)).trans (Karg29_30 m outs c)
theorem Karg29_32 : V32 m outs c main_arg29 = m ((c : Thread nD τ).loc main_arg29) :=
  (V32_of m outs c main_arg29 (by decide)).trans (Karg29_31 m outs c)
theorem Karg29_33 : V33 m outs c main_arg29 = m ((c : Thread nD τ).loc main_arg29) :=
  (V33_of m outs c main_arg29 (by decide)).trans (Karg29_32 m outs c)
theorem Karg29_34 : V34 m outs c main_arg29 = m ((c : Thread nD τ).loc main_arg29) :=
  (V34_of m outs c main_arg29 (by decide)).trans (Karg29_33 m outs c)
theorem Karg29_35 : V35 m outs c main_arg29 = m ((c : Thread nD τ).loc main_arg29) :=
  (V35_of m outs c main_arg29 (by decide)).trans (Karg29_34 m outs c)
theorem Karg29_36 : V36 m outs c main_arg29 = m ((c : Thread nD τ).loc main_arg29) :=
  (V36_of m outs c main_arg29 (by decide)).trans (Karg29_35 m outs c)
theorem Karg29_37 : V37 m outs c main_arg29 = m ((c : Thread nD τ).loc main_arg29) :=
  (V37_of m outs c main_arg29 (by decide)).trans (Karg29_36 m outs c)
theorem Karg29_38 : V38 m outs c main_arg29 = m ((c : Thread nD τ).loc main_arg29) :=
  (V38_of m outs c main_arg29 (by decide)).trans (Karg29_37 m outs c)
theorem Karg29_39 : V39 m outs c main_arg29 = m ((c : Thread nD τ).loc main_arg29) :=
  (V39_of m outs c main_arg29 (by decide)).trans (Karg29_38 m outs c)
theorem Karg29_40 : V40 m outs c main_arg29 = m ((c : Thread nD τ).loc main_arg29) :=
  (V40_of m outs c main_arg29 (by decide)).trans (Karg29_39 m outs c)
theorem Karg29_41 : V41 m outs c main_arg29 = m ((c : Thread nD τ).loc main_arg29) :=
  (V41_of m outs c main_arg29 (by decide)).trans (Karg29_40 m outs c)
theorem Karg29_42 : V42 m outs c main_arg29 = m ((c : Thread nD τ).loc main_arg29) :=
  (V42_of m outs c main_arg29 (by decide)).trans (Karg29_41 m outs c)
theorem Karg29_43 : V43 m outs c main_arg29 = m ((c : Thread nD τ).loc main_arg29) :=
  (V43_of m outs c main_arg29 (by decide)).trans (Karg29_42 m outs c)
theorem Karg29_44 : V44 m outs c main_arg29 = m ((c : Thread nD τ).loc main_arg29) :=
  (V44_of m outs c main_arg29 (by decide)).trans (Karg29_43 m outs c)
theorem Karg29_45 : V45 m outs c main_arg29 = m ((c : Thread nD τ).loc main_arg29) :=
  (V45_of m outs c main_arg29 (by decide)).trans (Karg29_44 m outs c)
theorem Karg29_46 : V46 m outs c main_arg29 = m ((c : Thread nD τ).loc main_arg29) :=
  (V46_of m outs c main_arg29 (by decide)).trans (Karg29_45 m outs c)
theorem Karg29_47 : V47 m outs c main_arg29 = m ((c : Thread nD τ).loc main_arg29) :=
  (V47_of m outs c main_arg29 (by decide)).trans (Karg29_46 m outs c)
theorem Karg29_48 : V48 m outs c main_arg29 = m ((c : Thread nD τ).loc main_arg29) :=
  (V48_of m outs c main_arg29 (by decide)).trans (Karg29_47 m outs c)
theorem Karg29_49 : V49 m outs c main_arg29 = m ((c : Thread nD τ).loc main_arg29) :=
  (V49_of m outs c main_arg29 (by decide)).trans (Karg29_48 m outs c)
theorem Karg29_50 : V50 m outs c main_arg29 = m ((c : Thread nD τ).loc main_arg29) :=
  (V50_of m outs c main_arg29 (by decide)).trans (Karg29_49 m outs c)
theorem Karg29_51 : V51 m outs c main_arg29 = m ((c : Thread nD τ).loc main_arg29) :=
  (V51_of m outs c main_arg29 (by decide)).trans (Karg29_50 m outs c)
theorem Karg29_52 : V52 m outs c main_arg29 = m ((c : Thread nD τ).loc main_arg29) :=
  (V52_of m outs c main_arg29 (by decide)).trans (Karg29_51 m outs c)
theorem Karg29_53 : V53 m outs c main_arg29 = m ((c : Thread nD τ).loc main_arg29) :=
  (V53_of m outs c main_arg29 (by decide)).trans (Karg29_52 m outs c)
theorem Karg29_54 : V54 m outs c main_arg29 = m ((c : Thread nD τ).loc main_arg29) :=
  (V54_of m outs c main_arg29 (by decide)).trans (Karg29_53 m outs c)
theorem Karg29_55 : V55 m outs c main_arg29 = m ((c : Thread nD τ).loc main_arg29) :=
  (V55_of m outs c main_arg29 (by decide)).trans (Karg29_54 m outs c)
theorem Karg29_56 : V56 m outs c main_arg29 = m ((c : Thread nD τ).loc main_arg29) :=
  (V56_of m outs c main_arg29 (by decide)).trans (Karg29_55 m outs c)
theorem Karg29_57 : V57 m outs c main_arg29 = m ((c : Thread nD τ).loc main_arg29) :=
  (V57_of m outs c main_arg29 (by decide)).trans (Karg29_56 m outs c)
theorem Karg29_58 : V58 m outs c main_arg29 = m ((c : Thread nD τ).loc main_arg29) :=
  (V58_of m outs c main_arg29 (by decide)).trans (Karg29_57 m outs c)
theorem Karg29_59 : V59 m outs c main_arg29 = m ((c : Thread nD τ).loc main_arg29) :=
  (V59_of m outs c main_arg29 (by decide)).trans (Karg29_58 m outs c)
theorem Karg29_60 : V60 m outs c main_arg29 = m ((c : Thread nD τ).loc main_arg29) :=
  (V60_of m outs c main_arg29 (by decide)).trans (Karg29_59 m outs c)
theorem Karg29_61 : V61 m outs c main_arg29 = m ((c : Thread nD τ).loc main_arg29) :=
  (V61_of m outs c main_arg29 (by decide)).trans (Karg29_60 m outs c)
theorem Karg29_62 : V62 m outs c main_arg29 = m ((c : Thread nD τ).loc main_arg29) :=
  (V62_of m outs c main_arg29 (by decide)).trans (Karg29_61 m outs c)
theorem Karg29_63 : V63 m outs c main_arg29 = m ((c : Thread nD τ).loc main_arg29) :=
  (V63_of m outs c main_arg29 (by decide)).trans (Karg29_62 m outs c)
theorem Karg29_64 : V64 m outs c main_arg29 = m ((c : Thread nD τ).loc main_arg29) :=
  (V64_of m outs c main_arg29 (by decide)).trans (Karg29_63 m outs c)
theorem Karg29_65 : V65 m outs c main_arg29 = m ((c : Thread nD τ).loc main_arg29) :=
  (V65_of m outs c main_arg29 (by decide)).trans (Karg29_64 m outs c)
theorem Karg29_66 : V66 m outs c main_arg29 = m ((c : Thread nD τ).loc main_arg29) :=
  (V66_of m outs c main_arg29 (by decide)).trans (Karg29_65 m outs c)
theorem Karg29_67 : V67 m outs c main_arg29 = m ((c : Thread nD τ).loc main_arg29) :=
  (V67_of m outs c main_arg29 (by decide)).trans (Karg29_66 m outs c)
theorem Karg29_68 : V68 m outs c main_arg29 = m ((c : Thread nD τ).loc main_arg29) :=
  (V68_of m outs c main_arg29 (by decide)).trans (Karg29_67 m outs c)
theorem Karg29_69 : V69 m outs c main_arg29 = m ((c : Thread nD τ).loc main_arg29) :=
  (V69_of m outs c main_arg29 (by decide)).trans (Karg29_68 m outs c)
theorem Karg29_70 : V70 m outs c main_arg29 = m ((c : Thread nD τ).loc main_arg29) :=
  (V70_of m outs c main_arg29 (by decide)).trans (Karg29_69 m outs c)
theorem Karg29_71 : V71 m outs c main_arg29 = m ((c : Thread nD τ).loc main_arg29) :=
  (V71_of m outs c main_arg29 (by decide)).trans (Karg29_70 m outs c)
theorem Karg29_72 : V72 m outs c main_arg29 = m ((c : Thread nD τ).loc main_arg29) :=
  (V72_of m outs c main_arg29 (by decide)).trans (Karg29_71 m outs c)
theorem Karg29_73 : V73 m outs c main_arg29 = m ((c : Thread nD τ).loc main_arg29) :=
  (V73_of m outs c main_arg29 (by decide)).trans (Karg29_72 m outs c)
theorem Karg29_74 : V74 m outs c main_arg29 = m ((c : Thread nD τ).loc main_arg29) :=
  (V74_of m outs c main_arg29 (by decide)).trans (Karg29_73 m outs c)
theorem Karg29_75 : V75 m outs c main_arg29 = m ((c : Thread nD τ).loc main_arg29) :=
  (V75_of m outs c main_arg29 (by decide)).trans (Karg29_74 m outs c)
theorem Karg29_76 : V76 m outs c main_arg29 = m ((c : Thread nD τ).loc main_arg29) :=
  (V76_of m outs c main_arg29 (by decide)).trans (Karg29_75 m outs c)
theorem Karg29_77 : V77 m outs c main_arg29 = m ((c : Thread nD τ).loc main_arg29) :=
  (V77_of m outs c main_arg29 (by decide)).trans (Karg29_76 m outs c)
theorem Karg29_78 : V78 m outs c main_arg29 = m ((c : Thread nD τ).loc main_arg29) :=
  (V78_of m outs c main_arg29 (by decide)).trans (Karg29_77 m outs c)
theorem Karg29_79 : V79 m outs c main_arg29 = m ((c : Thread nD τ).loc main_arg29) :=
  (V79_of m outs c main_arg29 (by decide)).trans (Karg29_78 m outs c)
theorem Karg29_80 : V80 m outs c main_arg29 = m ((c : Thread nD τ).loc main_arg29) :=
  (V80_of m outs c main_arg29 (by decide)).trans (Karg29_79 m outs c)
theorem Karg29_81 : V81 m outs c main_arg29 = m ((c : Thread nD τ).loc main_arg29) :=
  (V81_of m outs c main_arg29 (by decide)).trans (Karg29_80 m outs c)

end Cert.Bridge

end
-- ==== Proof.Bridge.ArgsKeptK.lean ====
/- Every argument buffer of the kernel program holds its launch contents after every item of @main: the thirty
   per-argument facts of each item, stated for all arguments at once. -/
import proofs.«411400_j9251359555630_1_alg».proof.Proof.Bridge.ArgsKeptK1
import proofs.«411400_j9251359555630_1_alg».proof.Proof.Bridge.ArgsKeptK2
import proofs.«411400_j9251359555630_1_alg».proof.Proof.Bridge.ArgsKeptK3

set_option maxRecDepth 8192

noncomputable section

namespace Cert.Bridge

open Idealize.ShloMosaic Idealize.ShloMosaic.TcCoe Idealize.SL.Sem
open Cert.KernelIdeal Cert.KernelIdeal.Gen

variable {F : FTy → Type} [FloatOps F]
variable (m : (ℓ : Loc nD τ sig) → Buf (Elt F) ℓ) (outs : Outs (F := F)) (c : Dev nD)

/-- The thirty argument buffers of the kernel program's @main. -/
abbrev kargs : List (Ref sig .tc) :=
  [main_arg0, main_arg1, main_arg2, main_arg3, main_arg4, main_arg5, main_arg6, main_arg7, main_arg8, main_arg9, main_arg10, main_arg11, main_arg12, main_arg13, main_arg14, main_arg15, main_arg16, main_arg17, main_arg18, main_arg19, main_arg20, main_arg21, main_arg22, main_arg23, main_arg24, main_arg25, main_arg26, main_arg27, main_arg28, main_arg29]

theorem Kkept_0 : ∀ r ∈ kargs, V0 m c r = m ((c : Thread nD τ).loc r) :=
  List.forall_mem_cons.2 ⟨Karg0_0 m c, List.forall_mem_cons.2 ⟨Karg1_0 m c, List.forall_mem_cons.2 ⟨Karg2_0 m c, List.forall_mem_cons.2 ⟨Karg3_0 m c, List.forall_mem_cons.2 ⟨Karg4_0 m c, List.forall_mem_cons.2 ⟨Karg5_0 m c, List.forall_mem_cons.2 ⟨Karg6_0 m c, List.forall_mem_cons.2 ⟨Karg7_0 m c, List.forall_mem_cons.2 ⟨Karg8_0 m c, List.forall_mem_cons.2 ⟨Karg9_0 m c, List.forall_mem_cons.2 ⟨Karg10_0 m c, List.forall_mem_cons.2 ⟨Karg11_0 m c, List.forall_mem_cons.2 ⟨Karg12_0 m c, List.forall_mem_cons.2 ⟨Karg13_0 m c, List.forall_mem_cons.2 ⟨Karg14_0 m c, List.forall_mem_cons.2 ⟨Karg15_0 m c, List.forall_mem_cons.2 ⟨Karg16_0 m c, List.forall_mem_cons.2 ⟨Karg17_0 m c, List.forall_mem_cons.2 ⟨Karg18_0 m c, List.forall_mem_cons.2 ⟨Karg19_0 m c, List.forall_mem_cons.2 ⟨Karg20_0 m c, List.forall_mem_cons.2 ⟨Karg21_0 m c, List.forall_mem_cons.2 ⟨Karg22_0 m c, List.forall_mem_cons.2 ⟨Karg23_0 m c, List.forall_mem_cons.2 ⟨Karg24_0 m c, List.forall_mem_cons.2 ⟨Karg25_0 m c, List.forall_mem_cons.2 ⟨Karg26_0 m c, List.forall_mem_cons.2 ⟨Karg27_0 m c, List.forall_mem_cons.2 ⟨Karg28_0 m c, List.forall_mem_cons.2 ⟨Karg29_0 m c, fun _ h => absurd h List.not_mem_nil⟩⟩⟩⟩⟩⟩⟩⟩⟩⟩⟩⟩⟩⟩⟩⟩⟩⟩⟩⟩⟩⟩⟩⟩⟩⟩⟩⟩⟩⟩
theorem Kkept_1 : ∀ r ∈ kargs, V1 m c r = m ((c : Thread nD τ).loc r) :=
  List.forall_mem_cons.2 ⟨Karg0_1 m c, List.forall_mem_cons.2 ⟨Karg1_1 m c, List.forall_mem_cons.2 ⟨Karg2_1 m c, List.forall_mem_cons.2 ⟨Karg3_1 m c, List.forall_mem_cons.2 ⟨Karg4_1 m c, List.forall_mem_cons.2 ⟨Karg5_1 m c, List.forall_mem_cons.2 ⟨Karg6_1 m c, List.forall_mem_cons.2 ⟨Karg7_1 m c, List.forall_mem_cons.2 ⟨Karg8_1 m c, List.forall_mem_cons.2 ⟨Karg9_1 m c, List.forall_mem_cons.2 ⟨Karg10_1 m c, List.forall_mem_cons.2 ⟨Karg11_1 m c, List.forall_mem_cons.2 ⟨Karg12_1 m c, List.forall_mem_cons.2 ⟨Karg13_1 m c, List.forall_mem_cons.2 ⟨Karg14_1 m c, List.forall_mem_cons.2 ⟨Karg15_1 m c, List.forall_mem_cons.2 ⟨Karg16_1 m c, List.forall_mem_cons.2 ⟨Karg17_1 m c, List.forall_mem_cons.2 ⟨Karg18_1 m c, List.forall_mem_cons.2 ⟨Karg19_1 m c, List.forall_mem_cons.2 ⟨Karg20_1 m c, List.forall_mem_cons.2 ⟨Karg21_1 m c, List.forall_mem_cons.2 ⟨Karg22_1 m c, List.forall_mem_cons.2 ⟨Karg23_1 m c, List.forall_mem_cons.2 ⟨Karg24_1 m c, List.forall_mem_cons.2 ⟨Karg25_1 m c, List.forall_mem_cons.2 ⟨Karg26_1 m c, List.forall_mem_cons.2 ⟨Karg27_1 m c, List.forall_mem_cons.2 ⟨Karg28_1 m c, List.forall_mem_cons.2 ⟨Karg29_1 m c, fun _ h => absurd h List.not_mem_nil⟩⟩⟩⟩⟩⟩⟩⟩⟩⟩⟩⟩⟩⟩⟩⟩⟩⟩⟩⟩⟩⟩⟩⟩⟩⟩⟩⟩⟩⟩
theorem Kkept_2 : ∀ r ∈ kargs, V2 m outs c r = m ((c : Thread nD τ).loc r) :=
  List.forall_mem_cons.2 ⟨Karg0_2 m outs c, List.forall_mem_cons.2 ⟨Karg1_2 m outs c, List.forall_mem_cons.2 ⟨Karg2_2 m outs c, List.forall_mem_cons.2 ⟨Karg3_2 m outs c, List.forall_mem_cons.2 ⟨Karg4_2 m outs c, List.forall_mem_cons.2 ⟨Karg5_2 m outs c, List.forall_mem_cons.2 ⟨Karg6_2 m outs c, List.forall_mem_cons.2 ⟨Karg7_2 m outs c, List.forall_mem_cons.2 ⟨Karg8_2 m outs c, List.forall_mem_cons.2 ⟨Karg9_2 m outs c, List.forall_mem_cons.2 ⟨Karg10_2 m outs c, List.forall_mem_cons.2 ⟨Karg11_2 m outs c, List.forall_mem_cons.2 ⟨Karg12_2 m outs c, List.forall_mem_cons.2 ⟨Karg13_2 m outs c, List.forall_mem_cons.2 ⟨Karg14_2 m outs c, List.forall_mem_cons.2 ⟨Karg15_2 m outs c, List.forall_mem_cons.2 ⟨Karg16_2 m outs c, List.forall_mem_cons.2 ⟨Karg17_2 m outs c, List.forall_mem_cons.2 ⟨Karg18_2 m outs c, List.forall_mem_cons.2 ⟨Karg19_2 m outs c, List.forall_mem_cons.2 ⟨Karg20_2 m outs c, List.forall_mem_cons.2 ⟨Karg21_2 m outs c, List.forall_mem_cons.2 ⟨Karg22_2 m outs c, List.forall_mem_cons.2 ⟨Karg23_2 m outs c, List.forall_mem_cons.2 ⟨Karg24_2 m outs c, List.forall_mem_cons.2 ⟨Karg25_2 m outs c, List.forall_mem_cons.2 ⟨Karg26_2 m outs c, List.forall_mem_cons.2 ⟨Karg27_2 m outs c, List.forall_mem_cons.2 ⟨Karg28_2 m outs c, List.forall_mem_cons.2 ⟨Karg29_2 m outs c, fun _ h => absurd h List.not_mem_nil⟩⟩⟩⟩⟩⟩⟩⟩⟩⟩⟩⟩⟩⟩⟩⟩⟩⟩⟩⟩⟩⟩⟩⟩⟩⟩⟩⟩⟩⟩
theorem Kkept_3 : ∀ r ∈ kargs, V3 m outs c r = m ((c : Thread nD τ).loc r) :=
  List.forall_mem_cons.2 ⟨Karg0_3 m outs c, List.forall_mem_cons.2 ⟨Karg1_3 m outs c, List.forall_mem_cons.2 ⟨Karg2_3 m outs c, List.forall_mem_cons.2 ⟨Karg3_3 m outs c, List.forall_mem_cons.2 ⟨Karg4_3 m outs c, List.forall_mem_cons.2 ⟨Karg5_3 m outs c, List.forall_mem_cons.2 ⟨Karg6_3 m outs c, List.forall_mem_cons.2 ⟨Karg7_3 m outs c, List.forall_mem_cons.2 ⟨Karg8_3 m outs c, List.forall_mem_cons.2 ⟨Karg9_3 m outs c, List.forall_mem_cons.2 ⟨Karg10_3 m outs c, List.forall_mem_cons.2 ⟨Karg11_3 m outs c, List.forall_mem_cons.2 ⟨Karg12_3 m outs c, List.forall_mem_cons.2 ⟨Karg13_3 m outs c, List.forall_mem_cons.2 ⟨Karg14_3 m outs c, List.forall_mem_cons.2 ⟨Karg15_3 m outs c, List.forall_mem_cons.2 ⟨Karg16_3 m outs c, List.forall_mem_cons.2 ⟨Karg17_3 m outs c, List.forall_mem_cons.2 ⟨Karg18_3 m outs c, List.forall_mem_cons.2 ⟨Karg19_3 m outs c, List.forall_mem_cons.2 ⟨Karg20_3 m outs c, List.forall_mem_cons.2 ⟨Karg21_3 m outs c, List.forall_mem_cons.2 ⟨Karg22_3 m outs c, List.forall_mem_cons.2 ⟨Karg23_3 m outs c, List.forall_mem_cons.2 ⟨Karg24_3 m outs c, List.forall_mem_cons.2 ⟨Karg25_3 m outs c, List.forall_mem_cons.2 ⟨Karg26_3 m outs c, List.forall_mem_cons.2 ⟨Karg27_3 m outs c, List.forall_mem_cons.2 ⟨Karg28_3 m outs c, List.forall_mem_cons.2 ⟨Karg29_3 m outs c, fun _ h => absurd h List.not_mem_nil⟩⟩⟩⟩⟩⟩⟩⟩⟩⟩⟩⟩⟩⟩⟩⟩⟩⟩⟩⟩⟩⟩⟩⟩⟩⟩⟩⟩⟩⟩
theorem Kkept_4 : ∀ r ∈ kargs, V4 m outs c r = m ((c : Thread nD τ).loc r) :=
  List.forall_mem_cons.2 ⟨Karg0_4 m outs c, List.forall_mem_cons.2 ⟨Karg1_4 m outs c, List.forall_mem_cons.2 ⟨Karg2_4 m outs c, List.forall_mem_cons.2 ⟨Karg3_4 m outs c, List.forall_mem_cons.2 ⟨Karg4_4 m outs c, List.forall_mem_cons.2 ⟨Karg5_4 m outs c, List.forall_mem_cons.2 ⟨Karg6_4 m outs c, List.forall_mem_cons.2 ⟨Karg7_4 m outs c, List.forall_mem_cons.2 ⟨Karg8_4 m outs c, List.forall_mem_cons.2 ⟨Karg9_4 m outs c, List.forall_mem_cons.2 ⟨Karg10_4 m outs c, List.forall_mem_cons.2 ⟨Karg11_4 m outs c, List.forall_mem_cons.2 ⟨Karg12_4 m outs c, List.forall_mem_cons.2 ⟨Karg13_4 m outs c, List.forall_mem_cons.2 ⟨Karg14_4 m outs c, List.forall_mem_cons.2 ⟨Karg15_4 m outs c, List.forall_mem_cons.2 ⟨Karg16_4 m outs c, List.forall_mem_cons.2 ⟨Karg17_4 m outs c, List.forall_mem_cons.2 ⟨Karg18_4 m outs c, List.forall_mem_cons.2 ⟨Karg19_4 m outs c, List.forall_mem_cons.2 ⟨Karg20_4 m outs c, List.forall_mem_cons.2 ⟨Karg21_4 m outs c, List.forall_mem_cons.2 ⟨Karg22_4 m outs c, List.forall_mem_cons.2 ⟨Karg23_4 m outs c, List.forall_mem_cons.2 ⟨Karg24_4 m outs c, List.forall_mem_cons.2 ⟨Karg25_4 m outs c, List.forall_mem_cons.2 ⟨Karg26_4 m outs c, List.forall_mem_cons.2 ⟨Karg27_4 m outs c, List.forall_mem_cons.2 ⟨Karg28_4 m outs c, List.forall_mem_cons.2 ⟨Karg29_4 m outs c, fun _ h => absurd h List.not_mem_nil⟩⟩⟩⟩⟩⟩⟩⟩⟩⟩⟩⟩⟩⟩⟩⟩⟩⟩⟩⟩⟩⟩⟩⟩⟩⟩⟩⟩⟩⟩
theorem Kkept_5 : ∀ r ∈ kargs, V5 m outs c r = m ((c : Thread nD τ).loc r) :=
  List.forall_mem_cons.2 ⟨Karg0_5 m outs c, List.forall_mem_cons.2 ⟨Karg1_5 m outs c, List.forall_mem_cons.2 ⟨Karg2_5 m outs c, List.forall_mem_cons.2 ⟨Karg3_5 m outs c, List.forall_mem_cons.2 ⟨Karg4_5 m outs c, List.forall_mem_cons.2 ⟨Karg5_5 m outs c, List.forall_mem_cons.2 ⟨Karg6_5 m outs c, List.forall_mem_cons.2 ⟨Karg7_5 m outs c, List.forall_mem_cons.2 ⟨Karg8_5 m outs c, List.forall_mem_cons.2 ⟨Karg9_5 m outs c, List.forall_mem_cons.2 ⟨Karg10_5 m outs c, List.forall_mem_cons.2 ⟨Karg11_5 m outs c, List.forall_mem_cons.2 ⟨Karg12_5 m outs c, List.forall_mem_cons.2 ⟨Karg13_5 m outs c, List.forall_mem_cons.2 ⟨Karg14_5 m outs c, List.forall_mem_cons.2 ⟨Karg15_5 m outs c, List.forall_mem_cons.2 ⟨Karg16_5 m outs c, List.forall_mem_cons.2 ⟨Karg17_5 m outs c, List.forall_mem_cons.2 ⟨Karg18_5 m outs c, List.forall_mem_cons.2 ⟨Karg19_5 m outs c, List.forall_mem_cons.2 ⟨Karg20_5 m outs c, List.forall_mem_cons.2 ⟨Karg21_5 m outs c, List.forall_mem_cons.2 ⟨Karg22_5 m outs c, List.forall_mem_cons.2 ⟨Karg23_5 m outs c, List.forall_mem_cons.2 ⟨Karg24_5 m outs c, List.forall_mem_cons.2 ⟨Karg25_5 m outs c, List.forall_mem_cons.2 ⟨Karg26_5 m outs c, List.forall_mem_cons.2 ⟨Karg27_5 m outs c, List.forall_mem_cons.2 ⟨Karg28_5 m outs c, List.forall_mem_cons.2 ⟨Karg29_5 m outs c, fun _ h => absurd h List.not_mem_nil⟩⟩⟩⟩⟩⟩⟩⟩⟩⟩⟩⟩⟩⟩⟩⟩⟩⟩⟩⟩⟩⟩⟩⟩⟩⟩⟩⟩⟩⟩
theorem Kkept_6 : ∀ r ∈ kargs, V6 m outs c r = m ((c : Thread nD τ).loc r) :=
  List.forall_mem_cons.2 ⟨Karg0_6 m outs c, List.forall_mem_cons.2 ⟨Karg1_6 m outs c, List.forall_mem_cons.2 ⟨Karg2_6 m outs c, List.forall_mem_cons.2 ⟨Karg3_6 m outs c, List.forall_mem_cons.2 ⟨Karg4_6 m outs c, List.forall_mem_cons.2 ⟨Karg5_6 m outs c, List.forall_mem_cons.2 ⟨Karg6_6 m outs c, List.forall_mem_cons.2 ⟨Karg7_6 m outs c, List.forall_mem_cons.2 ⟨Karg8_6 m outs c, List.forall_mem_cons.2 ⟨Karg9_6 m outs c, List.forall_mem_cons.2 ⟨Karg10_6 m outs c, List.forall_mem_cons.2 ⟨Karg11_6 m outs c, List.forall_mem_cons.2 ⟨Karg12_6 m outs c, List.forall_mem_cons.2 ⟨Karg13_6 m outs c, List.forall_mem_cons.2 ⟨Karg14_6 m outs c, List.forall_mem_cons.2 ⟨Karg15_6 m outs c, List.forall_mem_cons.2 ⟨Karg16_6 m outs c, List.forall_mem_cons.2 ⟨Karg17_6 m outs c, List.forall_mem_cons.2 ⟨Karg18_6 m outs c, List.forall_mem_cons.2 ⟨Karg19_6 m outs c, List.forall_mem_cons.2 ⟨Karg20_6 m outs c, List.forall_mem_cons.2 ⟨Karg21_6 m outs c, List.forall_mem_cons.2 ⟨Karg22_6 m outs c, List.forall_mem_cons.2 ⟨Karg23_6 m outs c, List.forall_mem_cons.2 ⟨Karg24_6 m outs c, List.forall_mem_cons.2 ⟨Karg25_6 m outs c, List.forall_mem_cons.2 ⟨Karg26_6 m outs c, List.forall_mem_cons.2 ⟨Karg27_6 m outs c, List.forall_mem_cons.2 ⟨Karg28_6 m outs c, List.forall_mem_cons.2 ⟨Karg29_6 m outs c, fun _ h => absurd h List.not_mem_nil⟩⟩⟩⟩⟩⟩⟩⟩⟩⟩⟩⟩⟩⟩⟩⟩⟩⟩⟩⟩⟩⟩⟩⟩⟩⟩⟩⟩⟩⟩
theorem Kkept_7 : ∀ r ∈ kargs, V7 m outs c r = m ((c : Thread nD τ).loc r) :=
  List.forall_mem_cons.2 ⟨Karg0_7 m outs c, List.forall_mem_cons.2 ⟨Karg1_7 m outs c, List.forall_mem_cons.2 ⟨Karg2_7 m outs c, List.forall_mem_cons.2 ⟨Karg3_7 m outs c, List.forall_mem_cons.2 ⟨Karg4_7 m outs c, List.forall_mem_cons.2 ⟨Karg5_7 m outs c, List.forall_mem_cons.2 ⟨Karg6_7 m outs c, List.forall_mem_cons.2 ⟨Karg7_7 m outs c, List.forall_mem_cons.2 ⟨Karg8_7 m outs c, List.forall_mem_cons.2 ⟨Karg9_7 m outs c, List.forall_mem_cons.2 ⟨Karg10_7 m outs c, List.forall_mem_cons.2 ⟨Karg11_7 m outs c, List.forall_mem_cons.2 ⟨Karg12_7 m outs c, List.forall_mem_cons.2 ⟨Karg13_7 m outs c, List.forall_mem_cons.2 ⟨Karg14_7 m outs c, List.forall_mem_cons.2 ⟨Karg15_7 m outs c, List.forall_mem_cons.2 ⟨Karg16_7 m outs c, List.forall_mem_cons.2 ⟨Karg17_7 m outs c, List.forall_mem_cons.2 ⟨Karg18_7 m outs c, List.forall_mem_cons.2 ⟨Karg19_7 m outs c, List.forall_mem_cons.2 ⟨Karg20_7 m outs c, List.forall_mem_cons.2 ⟨Karg21_7 m outs c, List.forall_mem_cons.2 ⟨Karg22_7 m outs c, List.forall_mem_cons.2 ⟨Karg23_7 m outs c, List.forall_mem_cons.2 ⟨Karg24_7 m outs c, List.forall_mem_cons.2 ⟨Karg25_7 m outs c, List.forall_mem_cons.2 ⟨Karg26_7 m outs c, List.forall_mem_cons.2 ⟨Karg27_7 m outs c, List.forall_mem_cons.2 ⟨Karg28_7 m outs c, List.forall_mem_cons.2 ⟨Karg29_7 m outs c, fun _ h => absurd h List.not_mem_nil⟩⟩⟩⟩⟩⟩⟩⟩⟩⟩⟩⟩⟩⟩⟩⟩⟩⟩⟩⟩⟩⟩⟩⟩⟩⟩⟩⟩⟩⟩
theorem Kkept_8 : ∀ r ∈ kargs, V8 m outs c r = m ((c : Thread nD τ).loc r) :=
  List.forall_mem_cons.2 ⟨Karg0_8 m outs c, List.forall_mem_cons.2 ⟨Karg1_8 m outs c, List.forall_mem_cons.2 ⟨Karg2_8 m outs c, List.forall_mem_cons.2 ⟨Karg3_8 m outs c, List.forall_mem_cons.2 ⟨Karg4_8 m outs c, List.forall_mem_cons.2 ⟨Karg5_8 m outs c, List.forall_mem_cons.2 ⟨Karg6_8 m outs c, List.forall_mem_cons.2 ⟨Karg7_8 m outs c, List.forall_mem_cons.2 ⟨Karg8_8 m outs c, List.forall_mem_cons.2 ⟨Karg9_8 m outs c, List.forall_mem_cons.2 ⟨Karg10_8 m outs c, List.forall_mem_cons.2 ⟨Karg11_8 m outs c, List.forall_mem_cons.2 ⟨Karg12_8 m outs c, List.forall_mem_cons.2 ⟨Karg13_8 m outs c, List.forall_mem_cons.2 ⟨Karg14_8 m outs c, List.forall_mem_cons.2 ⟨Karg15_8 m outs c, List.forall_mem_cons.2 ⟨Karg16_8 m outs c, List.forall_mem_cons.2 ⟨Karg17_8 m outs c, List.forall_mem_cons.2 ⟨Karg18_8 m outs c, List.forall_mem_cons.2 ⟨Karg19_8 m outs c, List.forall_mem_cons.2 ⟨Karg20_8 m outs c, List.forall_mem_cons.2 ⟨Karg21_8 m outs c, List.forall_mem_cons.2 ⟨Karg22_8 m outs c, List.forall_mem_cons.2 ⟨Karg23_8 m outs c, List.forall_mem_cons.2 ⟨Karg24_8 m outs c, List.forall_mem_cons.2 ⟨Karg25_8 m outs c, List.forall_mem_cons.2 ⟨Karg26_8 m outs c, List.forall_mem_cons.2 ⟨Karg27_8 m outs c, List.forall_mem_cons.2 ⟨Karg28_8 m outs c, List.forall_mem_cons.2 ⟨Karg29_8 m outs c, fun _ h => absurd h List.not_mem_nil⟩⟩⟩⟩⟩⟩⟩⟩⟩⟩⟩⟩⟩⟩⟩⟩⟩⟩⟩⟩⟩⟩⟩⟩⟩⟩⟩⟩⟩⟩
theorem Kkept_9 : ∀ r ∈ kargs, V9 m outs c r = m ((c : Thread nD τ).loc r) :=
  List.forall_mem_cons.2 ⟨Karg0_9 m outs c, List.forall_mem_cons.2 ⟨Karg1_9 m outs c, List.forall_mem_cons.2 ⟨Karg2_9 m outs c, List.forall_mem_cons.2 ⟨Karg3_9 m outs c, List.forall_mem_cons.2 ⟨Karg4_9 m outs c, List.forall_mem_cons.2 ⟨Karg5_9 m outs c, List.forall_mem_cons.2 ⟨Karg6_9 m outs c, List.forall_mem_cons.2 ⟨Karg7_9 m outs c, List.forall_mem_cons.2 ⟨Karg8_9 m outs c, List.forall_mem_cons.2 ⟨Karg9_9 m outs c, List.forall_mem_cons.2 ⟨Karg10_9 m outs c, List.forall_mem_cons.2 ⟨Karg11_9 m outs c, List.forall_mem_cons.2 ⟨Karg12_9 m outs c, List.forall_mem_cons.2 ⟨Karg13_9 m outs c, List.forall_mem_cons.2 ⟨Karg14_9 m outs c, List.forall_mem_cons.2 ⟨Karg15_9 m outs c, List.forall_mem_cons.2 ⟨Karg16_9 m outs c, List.forall_mem_cons.2 ⟨Karg17_9 m outs c, List.forall_mem_cons.2 ⟨Karg18_9 m outs c, List.forall_mem_cons.2 ⟨Karg19_9 m outs c, List.forall_mem_cons.2 ⟨Karg20_9 m outs c, List.forall_mem_cons.2 ⟨Karg21_9 m outs c, List.forall_mem_cons.2 ⟨Karg22_9 m outs c, List.forall_mem_cons.2 ⟨Karg23_9 m outs c, List.forall_mem_cons.2 ⟨Karg24_9 m outs c, List.forall_mem_cons.2 ⟨Karg25_9 m outs c, List.forall_mem_cons.2 ⟨Karg26_9 m outs c, List.forall_mem_cons.2 ⟨Karg27_9 m outs c, List.forall_mem_cons.2 ⟨Karg28_9 m outs c, List.forall_mem_cons.2 ⟨Karg29_9 m outs c, fun _ h => absurd h List.not_mem_nil⟩⟩⟩⟩⟩⟩⟩⟩⟩⟩⟩⟩⟩⟩⟩⟩⟩⟩⟩⟩⟩⟩⟩⟩⟩⟩⟩⟩⟩⟩
theorem Kkept_10 : ∀ r ∈ kargs, V10 m outs c r = m ((c : Thread nD τ).loc r) :=
  List.forall_mem_cons.2 ⟨Karg0_10 m outs c, List.forall_mem_cons.2 ⟨Karg1_10 m outs c, List.forall_mem_cons.2 ⟨Karg2_10 m outs c, List.forall_mem_cons.2 ⟨Karg3_10 m outs c, List.forall_mem_cons.2 ⟨Karg4_10 m outs c, List.forall_mem_cons.2 ⟨Karg5_10 m outs c, List.forall_mem_cons.2 ⟨Karg6_10 m outs c, List.forall_mem_cons.2 ⟨Karg7_10 m outs c, List.forall_mem_cons.2 ⟨Karg8_10 m outs c, List.forall_mem_cons.2 ⟨Karg9_10 m outs c, List.forall_mem_cons.2 ⟨Karg10_10 m outs c, List.forall_mem_cons.2 ⟨Karg11_10 m outs c, List.forall_mem_cons.2 ⟨Karg12_10 m outs c, List.forall_mem_cons.2 ⟨Karg13_10 m outs c, List.forall_mem_cons.2 ⟨Karg14_10 m outs c, List.forall_mem_cons.2 ⟨Karg15_10 m outs c, List.forall_mem_cons.2 ⟨Karg16_10 m outs c, List.forall_mem_cons.2 ⟨Karg17_10 m outs c, List.forall_mem_cons.2 ⟨Karg18_10 m outs c, List.forall_mem_cons.2 ⟨Karg19_10 m outs c, List.forall_mem_cons.2 ⟨Karg20_10 m outs c, List.forall_mem_cons.2 ⟨Karg21_10 m outs c, List.forall_mem_cons.2 ⟨Karg22_10 m outs c, List.forall_mem_cons.2 ⟨Karg23_10 m outs c, List.forall_mem_cons.2 ⟨Karg24_10 m outs c, List.forall_mem_cons.2 ⟨Karg25_10 m outs c, List.forall_mem_cons.2 ⟨Karg26_10 m outs c, List.forall_mem_cons.2 ⟨Karg27_10 m outs c, List.forall_mem_cons.2 ⟨Karg28_10 m outs c, List.forall_mem_cons.2 ⟨Karg29_10 m outs c, fun _ h => absurd h List.not_mem_nil⟩⟩⟩⟩⟩⟩⟩⟩⟩⟩⟩⟩⟩⟩⟩⟩⟩⟩⟩⟩⟩⟩⟩⟩⟩⟩⟩⟩⟩⟩
theorem Kkept_11 : ∀ r ∈ kargs, V11 m outs c r = m ((c : Thread nD τ).loc r) :=
  List.forall_mem_cons.2 ⟨Karg0_11 m outs c, List.forall_mem_cons.2 ⟨Karg1_11 m outs c, List.forall_mem_cons.2 ⟨Karg2_11 m outs c, List.forall_mem_cons.2 ⟨Karg3_11 m outs c, List.forall_mem_cons.2 ⟨Karg4_11 m outs c, List.forall_mem_cons.2 ⟨Karg5_11 m outs c, List.forall_mem_cons.2 ⟨Karg6_11 m outs c, List.forall_mem_cons.2 ⟨Karg7_11 m outs c, List.forall_mem_cons.2 ⟨Karg8_11 m outs c, List.forall_mem_cons.2 ⟨Karg9_11 m outs c, List.forall_mem_cons.2 ⟨Karg10_11 m outs c, List.forall_mem_cons.2 ⟨Karg11_11 m outs c, List.forall_mem_cons.2 ⟨Karg12_11 m outs c, List.forall_mem_cons.2 ⟨Karg13_11 m outs c, List.forall_mem_cons.2 ⟨Karg14_11 m outs c, List.forall_mem_cons.2 ⟨Karg15_11 m outs c, List.forall_mem_cons.2 ⟨Karg16_11 m outs c, List.forall_mem_cons.2 ⟨Karg17_11 m outs c, List.forall_mem_cons.2 ⟨Karg18_11 m outs c, List.forall_mem_cons.2 ⟨Karg19_11 m outs c, List.forall_mem_cons.2 ⟨Karg20_11 m outs c, List.forall_mem_cons.2 ⟨Karg21_11 m outs c, List.forall_mem_cons.2 ⟨Karg22_11 m outs c, List.forall_mem_cons.2 ⟨Karg23_11 m outs c, List.forall_mem_cons.2 ⟨Karg24_11 m outs c, List.forall_mem_cons.2 ⟨Karg25_11 m outs c, List.forall_mem_cons.2 ⟨Karg26_11 m outs c, List.forall_mem_cons.2 ⟨Karg27_11 m outs c, List.forall_mem_cons.2 ⟨Karg28_11 m outs c, List.forall_mem_cons.2 ⟨Karg29_11 m outs c, fun _ h => absurd h List.not_mem_nil⟩⟩⟩⟩⟩⟩⟩⟩⟩⟩⟩⟩⟩⟩⟩⟩⟩⟩⟩⟩⟩⟩⟩⟩⟩⟩⟩⟩⟩⟩
theorem Kkept_12 : ∀ r ∈ kargs, V12 m outs c r = m ((c : Thread nD τ).loc r) :=
  List.forall_mem_cons.2 ⟨Karg0_12 m outs c, List.forall_mem_cons.2 ⟨Karg1_12 m outs c, List.forall_mem_cons.2 ⟨Karg2_12 m outs c, List.forall_mem_cons.2 ⟨Karg3_12 m outs c, List.forall_mem_cons.2 ⟨Karg4_12 m outs c, List.forall_mem_cons.2 ⟨Karg5_12 m outs c, List.forall_mem_cons.2 ⟨Karg6_12 m outs c, List.forall_mem_cons.2 ⟨Karg7_12 m outs c, List.forall_mem_cons.2 ⟨Karg8_12 m outs c, List.forall_mem_cons.2 ⟨Karg9_12 m outs c, List.forall_mem_cons.2 ⟨Karg10_12 m outs c, List.forall_mem_cons.2 ⟨Karg11_12 m outs c, List.forall_mem_cons.2 ⟨Karg12_12 m outs c, List.forall_mem_cons.2 ⟨Karg13_12 m outs c, List.forall_mem_cons.2 ⟨Karg14_12 m outs c, List.forall_mem_cons.2 ⟨Karg15_12 m outs c, List.forall_mem_cons.2 ⟨Karg16_12 m outs c, List.forall_mem_cons.2 ⟨Karg17_12 m outs c, List.forall_mem_cons.2 ⟨Karg18_12 m outs c, List.forall_mem_cons.2 ⟨Karg19_12 m outs c, List.forall_mem_cons.2 ⟨Karg20_12 m outs c, List.forall_mem_cons.2 ⟨Karg21_12 m outs c, List.forall_mem_cons.2 ⟨Karg22_12 m outs c, List.forall_mem_cons.2 ⟨Karg23_12 m outs c, List.forall_mem_cons.2 ⟨Karg24_12 m outs c, List.forall_mem_cons.2 ⟨Karg25_12 m outs c, List.forall_mem_cons.2 ⟨Karg26_12 m outs c, List.forall_mem_cons.2 ⟨Karg27_12 m outs c, List.forall_mem_cons.2 ⟨Karg28_12 m outs c, List.forall_mem_cons.2 ⟨Karg29_12 m outs c, fun _ h => absurd h List.not_mem_nil⟩⟩⟩⟩⟩⟩⟩⟩⟩⟩⟩⟩⟩⟩⟩⟩⟩⟩⟩⟩⟩⟩⟩⟩⟩⟩⟩⟩⟩⟩
theorem Kkept_13 : ∀ r ∈ kargs, V13 m outs c r = m ((c : Thread nD τ).loc r) :=
  List.forall_mem_cons.2 ⟨Karg0_13 m outs c, List.forall_mem_cons.2 ⟨Karg1_13 m outs c, List.forall_mem_cons.2 ⟨Karg2_13 m outs c, List.forall_mem_cons.2 ⟨Karg3_13 m outs c, List.forall_mem_cons.2 ⟨Karg4_13 m outs c, List.forall_mem_cons.2 ⟨Karg5_13 m outs c, List.forall_mem_cons.2 ⟨Karg6_13 m outs c, List.forall_mem_cons.2 ⟨Karg7_13 m outs c, List.forall_mem_cons.2 ⟨Karg8_13 m outs c, List.forall_mem_cons.2 ⟨Karg9_13 m outs c, List.forall_mem_cons.2 ⟨Karg10_13 m outs c, List.forall_mem_cons.2 ⟨Karg11_13 m outs c, List.forall_mem_cons.2 ⟨Karg12_13 m outs c, List.forall_mem_cons.2 ⟨Karg13_13 m outs c, List.forall_mem_cons.2 ⟨Karg14_13 m outs c, List.forall_mem_cons.2 ⟨Karg15_13 m outs c, List.forall_mem_cons.2 ⟨Karg16_13 m outs c, List.forall_mem_cons.2 ⟨Karg17_13 m outs c, List.forall_mem_cons.2 ⟨Karg18_13 m outs c, List.forall_mem_cons.2 ⟨Karg19_13 m outs c, List.forall_mem_cons.2 ⟨Karg20_13 m outs c, List.forall_mem_cons.2 ⟨Karg21_13 m outs c, List.forall_mem_cons.2 ⟨Karg22_13 m outs c, List.forall_mem_cons.2 ⟨Karg23_13 m outs c, List.forall_mem_cons.2 ⟨Karg24_13 m outs c, List.forall_mem_cons.2 ⟨Karg25_13 m outs c, List.forall_mem_cons.2 ⟨Karg26_13 m outs c, List.forall_mem_cons.2 ⟨Karg27_13 m outs c, List.forall_mem_cons.2 ⟨Karg28_13 m outs c, List.forall_mem_cons.2 ⟨Karg29_13 m outs c, fun _ h => absurd h List.not_mem_nil⟩⟩⟩⟩⟩⟩⟩⟩⟩⟩⟩⟩⟩⟩⟩⟩⟩⟩⟩⟩⟩⟩⟩⟩⟩⟩⟩⟩⟩⟩
theorem Kkept_14 : ∀ r ∈ kargs, V14 m outs c r = m ((c : Thread nD τ).loc r) :=
  List.forall_mem_cons.2 ⟨Karg0_14 m outs c, List.forall_mem_cons.2 ⟨Karg1_14 m outs c, List.forall_mem_cons.2 ⟨Karg2_14 m outs c, List.forall_mem_cons.2 ⟨Karg3_14 m outs c, List.forall_mem_cons.2 ⟨Karg4_14 m outs c, List.forall_mem_cons.2 ⟨Karg5_14 m outs c, List.forall_mem_cons.2 ⟨Karg6_14 m outs c, List.forall_mem_cons.2 ⟨Karg7_14 m outs c, List.forall_mem_cons.2 ⟨Karg8_14 m outs c, List.forall_mem_cons.2 ⟨Karg9_14 m outs c, List.forall_mem_cons.2 ⟨Karg10_14 m outs c, List.forall_mem_cons.2 ⟨Karg11_14 m outs c, List.forall_mem_cons.2 ⟨Karg12_14 m outs c, List.forall_mem_cons.2 ⟨Karg13_14 m outs c, List.forall_mem_cons.2 ⟨Karg14_14 m outs c, List.forall_mem_cons.2 ⟨Karg15_14 m outs c, List.forall_mem_cons.2 ⟨Karg16_14 m outs c, List.forall_mem_cons.2 ⟨Karg17_14 m outs c, List.forall_mem_cons.2 ⟨Karg18_14 m outs c, List.forall_mem_cons.2 ⟨Karg19_14 m outs c, List.forall_mem_cons.2 ⟨Karg20_14 m outs c, List.forall_mem_cons.2 ⟨Karg21_14 m outs c, List.forall_mem_cons.2 ⟨Karg22_14 m outs c, List.forall_mem_cons.2 ⟨Karg23_14 m outs c, List.forall_mem_cons.2 ⟨Karg24_14 m outs c, List.forall_mem_cons.2 ⟨Karg25_14 m outs c, List.forall_mem_cons.2 ⟨Karg26_14 m outs c, List.forall_mem_cons.2 ⟨Karg27_14 m outs c, List.forall_mem_cons.2 ⟨Karg28_14 m outs c, List.forall_mem_cons.2 ⟨Karg29_14 m outs c, fun _ h => absurd h List.not_mem_nil⟩⟩⟩⟩⟩⟩⟩⟩⟩⟩⟩⟩⟩⟩⟩⟩⟩⟩⟩⟩⟩⟩⟩⟩⟩⟩⟩⟩⟩⟩
theorem Kkept_15 : ∀ r ∈ kargs, V15 m outs c r = m ((c : Thread nD τ).loc r) :=
  List.forall_mem_cons.2 ⟨Karg0_15 m outs c, List.forall_mem_cons.2 ⟨Karg1_15 m outs c, List.forall_mem_cons.2 ⟨Karg2_15 m outs c, List.forall_mem_cons.2 ⟨Karg3_15 m outs c, List.forall_mem_cons.2 ⟨Karg4_15 m outs c, List.forall_mem_cons.2 ⟨Karg5_15 m outs c, List.forall_mem_cons.2 ⟨Karg6_15 m outs c, List.forall_mem_cons.2 ⟨Karg7_15 m outs c, List.forall_mem_cons.2 ⟨Karg8_15 m outs c, List.forall_mem_cons.2 ⟨Karg9_15 m outs c, List.forall_mem_cons.2 ⟨Karg10_15 m outs c, List.forall_mem_cons.2 ⟨Karg11_15 m outs c, List.forall_mem_cons.2 ⟨Karg12_15 m outs c, List.forall_mem_cons.2 ⟨Karg13_15 m outs c, List.forall_mem_cons.2 ⟨Karg14_15 m outs c, List.forall_mem_cons.2 ⟨Karg15_15 m outs c, List.forall_mem_cons.2 ⟨Karg16_15 m outs c, List.forall_mem_cons.2 ⟨Karg17_15 m outs c, List.forall_mem_cons.2 ⟨Karg18_15 m outs c, List.forall_mem_cons.2 ⟨Karg19_15 m outs c, List.forall_mem_cons.2 ⟨Karg20_15 m outs c, List.forall_mem_cons.2 ⟨Karg21_15 m outs c, List.forall_mem_cons.2 ⟨Karg22_15 m outs c, List.forall_mem_cons.2 ⟨Karg23_15 m outs c, List.forall_mem_cons.2 ⟨Karg24_15 m outs c, List.forall_mem_cons.2 ⟨Karg25_15 m outs c, List.forall_mem_cons.2 ⟨Karg26_15 m outs c, List.forall_mem_cons.2 ⟨Karg27_15 m outs c, List.forall_mem_cons.2 ⟨Karg28_15 m outs c, List.forall_mem_cons.2 ⟨Karg29_15 m outs c, fun _ h => absurd h List.not_mem_nil⟩⟩⟩⟩⟩⟩⟩⟩⟩⟩⟩⟩⟩⟩⟩⟩⟩⟩⟩⟩⟩⟩⟩⟩⟩⟩⟩⟩⟩⟩
theorem Kkept_16 : ∀ r ∈ kargs, V16 m outs c r = m ((c : Thread nD τ).loc r) :=
  List.forall_mem_cons.2 ⟨Karg0_16 m outs c, List.forall_mem_cons.2 ⟨Karg1_16 m outs c, List.forall_mem_cons.2 ⟨Karg2_16 m outs c, List.forall_mem_cons.2 ⟨Karg3_16 m outs c, List.forall_mem_cons.2 ⟨Karg4_16 m outs c, List.forall_mem_cons.2 ⟨Karg5_16 m outs c, List.forall_mem_cons.2 ⟨Karg6_16 m outs c, List.forall_mem_cons.2 ⟨Karg7_16 m outs c, List.forall_mem_cons.2 ⟨Karg8_16 m outs c, List.forall_mem_cons.2 ⟨Karg9_16 m outs c, List.forall_mem_cons.2 ⟨Karg10_16 m outs c, List.forall_mem_cons.2 ⟨Karg11_16 m outs c, List.forall_mem_cons.2 ⟨Karg12_16 m outs c, List.forall_mem_cons.2 ⟨Karg13_16 m outs c, List.forall_mem_cons.2 ⟨Karg14_16 m outs c, List.forall_mem_cons.2 ⟨Karg15_16 m outs c, List.forall_mem_cons.2 ⟨Karg16_16 m outs c, List.forall_mem_cons.2 ⟨Karg17_16 m outs c, List.forall_mem_cons.2 ⟨Karg18_16 m outs c, List.forall_mem_cons.2 ⟨Karg19_16 m outs c, List.forall_mem_cons.2 ⟨Karg20_16 m outs c, List.forall_mem_cons.2 ⟨Karg21_16 m outs c, List.forall_mem_cons.2 ⟨Karg22_16 m outs c, List.forall_mem_cons.2 ⟨Karg23_16 m outs c, List.forall_mem_cons.2 ⟨Karg24_16 m outs c, List.forall_mem_cons.2 ⟨Karg25_16 m outs c, List.forall_mem_cons.2 ⟨Karg26_16 m outs c, List.forall_mem_cons.2 ⟨Karg27_16 m outs c, List.forall_mem_cons.2 ⟨Karg28_16 m outs c, List.forall_mem_cons.2 ⟨Karg29_16 m outs c, fun _ h => absurd h List.not_mem_nil⟩⟩⟩⟩⟩⟩⟩⟩⟩⟩⟩⟩⟩⟩⟩⟩⟩⟩⟩⟩⟩⟩⟩⟩⟩⟩⟩⟩⟩⟩
theorem Kkept_17 : ∀ r ∈ kargs, V17 m outs c r = m ((c : Thread nD τ).loc r) :=
  List.forall_mem_cons.2 ⟨Karg0_17 m outs c, List.forall_mem_cons.2 ⟨Karg1_17 m outs c, List.forall_mem_cons.2 ⟨Karg2_17 m outs c, List.forall_mem_cons.2 ⟨Karg3_17 m outs c, List.forall_mem_cons.2 ⟨Karg4_17 m outs c, List.forall_mem_cons.2 ⟨Karg5_17 m outs c, List.forall_mem_cons.2 ⟨Karg6_17 m outs c, List.forall_mem_cons.2 ⟨Karg7_17 m outs c, List.forall_mem_cons.2 ⟨Karg8_17 m outs c, List.forall_mem_cons.2 ⟨Karg9_17 m outs c, List.forall_mem_cons.2 ⟨Karg10_17 m outs c, List.forall_mem_cons.2 ⟨Karg11_17 m outs c, List.forall_mem_cons.2 ⟨Karg12_17 m outs c, List.forall_mem_cons.2 ⟨Karg13_17 m outs c, List.forall_mem_cons.2 ⟨Karg14_17 m outs c, List.forall_mem_cons.2 ⟨Karg15_17 m outs c, List.forall_mem_cons.2 ⟨Karg16_17 m outs c, List.forall_mem_cons.2 ⟨Karg17_17 m outs c, List.forall_mem_cons.2 ⟨Karg18_17 m outs c, List.forall_mem_cons.2 ⟨Karg19_17 m outs c, List.forall_mem_cons.2 ⟨Karg20_17 m outs c, List.forall_mem_cons.2 ⟨Karg21_17 m outs c, List.forall_mem_cons.2 ⟨Karg22_17 m outs c, List.forall_mem_cons.2 ⟨Karg23_17 m outs c, List.forall_mem_cons.2 ⟨Karg24_17 m outs c, List.forall_mem_cons.2 ⟨Karg25_17 m outs c, List.forall_mem_cons.2 ⟨Karg26_17 m outs c, List.forall_mem_cons.2 ⟨Karg27_17 m outs c, List.forall_mem_cons.2 ⟨Karg28_17 m outs c, List.forall_mem_cons.2 ⟨Karg29_17 m outs c, fun _ h => absurd h List.not_mem_nil⟩⟩⟩⟩⟩⟩⟩⟩⟩⟩⟩⟩⟩⟩⟩⟩⟩⟩⟩⟩⟩⟩⟩⟩⟩⟩⟩⟩⟩⟩
theorem Kkept_18 : ∀ r ∈ kargs, V18 m outs c r = m ((c : Thread nD τ).loc r) :=
  List.forall_mem_cons.2 ⟨Karg0_18 m outs c, List.forall_mem_cons.2 ⟨Karg1_18 m outs c, List.forall_mem_cons.2 ⟨Karg2_18 m outs c, List.forall_mem_cons.2 ⟨Karg3_18 m outs c, List.forall_mem_cons.2 ⟨Karg4_18 m outs c, List.forall_mem_cons.2 ⟨Karg5_18 m outs c, List.forall_mem_cons.2 ⟨Karg6_18 m outs c, List.forall_mem_cons.2 ⟨Karg7_18 m outs c, List.forall_mem_cons.2 ⟨Karg8_18 m outs c, List.forall_mem_cons.2 ⟨Karg9_18 m outs c, List.forall_mem_cons.2 ⟨Karg10_18 m outs c, List.forall_mem_cons.2 ⟨Karg11_18 m outs c, List.forall_mem_cons.2 ⟨Karg12_18 m outs c, List.forall_mem_cons.2 ⟨Karg13_18 m outs c, List.forall_mem_cons.2 ⟨Karg14_18 m outs c, List.forall_mem_cons.2 ⟨Karg15_18 m outs c, List.forall_mem_cons.2 ⟨Karg16_18 m outs c, List.forall_mem_cons.2 ⟨Karg17_18 m outs c, List.forall_mem_cons.2 ⟨Karg18_18 m outs c, List.forall_mem_cons.2 ⟨Karg19_18 m outs c, List.forall_mem_cons.2 ⟨Karg20_18 m outs c, List.forall_mem_cons.2 ⟨Karg21_18 m outs c, List.forall_mem_cons.2 ⟨Karg22_18 m outs c, List.forall_mem_cons.2 ⟨Karg23_18 m outs c, List.forall_mem_cons.2 ⟨Karg24_18 m outs c, List.forall_mem_cons.2 ⟨Karg25_18 m outs c, List.forall_mem_cons.2 ⟨Karg26_18 m outs c, List.forall_mem_cons.2 ⟨Karg27_18 m outs c, List.forall_mem_cons.2 ⟨Karg28_18 m outs c, List.forall_mem_cons.2 ⟨Karg29_18 m outs c, fun _ h => absurd h List.not_mem_nil⟩⟩⟩⟩⟩⟩⟩⟩⟩⟩⟩⟩⟩⟩⟩⟩⟩⟩⟩⟩⟩⟩⟩⟩⟩⟩⟩⟩⟩⟩
theorem Kkept_19 : ∀ r ∈ kargs, V19 m outs c r = m ((c : Thread nD τ).loc r) :=
  List.forall_mem_cons.2 ⟨Karg0_19 m outs c, List.forall_mem_cons.2 ⟨Karg1_19 m outs c, List.forall_mem_cons.2 ⟨Karg2_19 m outs c, List.forall_mem_cons.2 ⟨Karg3_19 m outs c, List.forall_mem_cons.2 ⟨Karg4_19 m outs c, List.forall_mem_cons.2 ⟨Karg5_19 m outs c, List.forall_mem_cons.2 ⟨Karg6_19 m outs c, List.forall_mem_cons.2 ⟨Karg7_19 m outs c, List.forall_mem_cons.2 ⟨Karg8_19 m outs c, List.forall_mem_cons.2 ⟨Karg9_19 m outs c, List.forall_mem_cons.2 ⟨Karg10_19 m outs c, List.forall_mem_cons.2 ⟨Karg11_19 m outs c, List.forall_mem_cons.2 ⟨Karg12_19 m outs c, List.forall_mem_cons.2 ⟨Karg13_19 m outs c, List.forall_mem_cons.2 ⟨Karg14_19 m outs c, List.forall_mem_cons.2 ⟨Karg15_19 m outs c, List.forall_mem_cons.2 ⟨Karg16_19 m outs c, List.forall_mem_cons.2 ⟨Karg17_19 m outs c, List.forall_mem_cons.2 ⟨Karg18_19 m outs c, List.forall_mem_cons.2 ⟨Karg19_19 m outs c, List.forall_mem_cons.2 ⟨Karg20_19 m outs c, List.forall_mem_cons.2 ⟨Karg21_19 m outs c, List.forall_mem_cons.2 ⟨Karg22_19 m outs c, List.forall_mem_cons.2 ⟨Karg23_19 m outs c, List.forall_mem_cons.2 ⟨Karg24_19 m outs c, List.forall_mem_cons.2 ⟨Karg25_19 m outs c, List.forall_mem_cons.2 ⟨Karg26_19 m outs c, List.forall_mem_cons.2 ⟨Karg27_19 m outs c, List.forall_mem_cons.2 ⟨Karg28_19 m outs c, List.forall_mem_cons.2 ⟨Karg29_19 m outs c, fun _ h => absurd h List.not_mem_nil⟩⟩⟩⟩⟩⟩⟩⟩⟩⟩⟩⟩⟩⟩⟩⟩⟩⟩⟩⟩⟩⟩⟩⟩⟩⟩⟩⟩⟩⟩
theorem Kkept_20 : ∀ r ∈ kargs, V20 m outs c r = m ((c : Thread nD τ).loc r) :=
  List.forall_mem_cons.2 ⟨Karg0_20 m outs c, List.forall_mem_cons.2 ⟨Karg1_20 m outs c, List.forall_mem_cons.2 ⟨Karg2_20 m outs c, List.forall_mem_cons.2 ⟨Karg3_20 m outs c, List.forall_mem_cons.2 ⟨Karg4_20 m outs c, List.forall_mem_cons.2 ⟨Karg5_20 m outs c, List.forall_mem_cons.2 ⟨Karg6_20 m outs c, List.forall_mem_cons.2 ⟨Karg7_20 m outs c, List.forall_mem_cons.2 ⟨Karg8_20 m outs c, List.forall_mem_cons.2 ⟨Karg9_20 m outs c, List.forall_mem_cons.2 ⟨Karg10_20 m outs c, List.forall_mem_cons.2 ⟨Karg11_20 m outs c, List.forall_mem_cons.2 ⟨Karg12_20 m outs c, List.forall_mem_cons.2 ⟨Karg13_20 m outs c, List.forall_mem_cons.2 ⟨Karg14_20 m outs c, List.forall_mem_cons.2 ⟨Karg15_20 m outs c, List.forall_mem_cons.2 ⟨Karg16_20 m outs c, List.forall_mem_cons.2 ⟨Karg17_20 m outs c, List.forall_mem_cons.2 ⟨Karg18_20 m outs c, List.forall_mem_cons.2 ⟨Karg19_20 m outs c, List.forall_mem_cons.2 ⟨Karg20_20 m outs c, List.forall_mem_cons.2 ⟨Karg21_20 m outs c, List.forall_mem_cons.2 ⟨Karg22_20 m outs c, List.forall_mem_cons.2 ⟨Karg23_20 m outs c, List.forall_mem_cons.2 ⟨Karg24_20 m outs c, List.forall_mem_cons.2 ⟨Karg25_20 m outs c, List.forall_mem_cons.2 ⟨Karg26_20 m outs c, List.forall_mem_cons.2 ⟨Karg27_20 m outs c, List.forall_mem_cons.2 ⟨Karg28_20 m outs c, List.forall_mem_cons.2 ⟨Karg29_20 m outs c, fun _ h => absurd h List.not_mem_nil⟩⟩⟩⟩⟩⟩⟩⟩⟩⟩⟩⟩⟩⟩⟩⟩⟩⟩⟩⟩⟩⟩⟩⟩⟩⟩⟩⟩⟩⟩
theorem Kkept_21 : ∀ r ∈ kargs, V21 m outs c r = m ((c : Thread nD τ).loc r) :=
  List.forall_mem_cons.2 ⟨Karg0_21 m outs c, List.forall_mem_cons.2 ⟨Karg1_21 m outs c, List.forall_mem_cons.2 ⟨Karg2_21 m outs c, List.forall_mem_cons.2 ⟨Karg3_21 m outs c, List.forall_mem_cons.2 ⟨Karg4_21 m outs c, List.forall_mem_cons.2 ⟨Karg5_21 m outs c, List.forall_mem_cons.2 ⟨Karg6_21 m outs c, List.forall_mem_cons.2 ⟨Karg7_21 m outs c, List.forall_mem_cons.2 ⟨Karg8_21 m outs c, List.forall_mem_cons.2 ⟨Karg9_21 m outs c, List.forall_mem_cons.2 ⟨Karg10_21 m outs c, List.forall_mem_cons.2 ⟨Karg11_21 m outs c, List.forall_mem_cons.2 ⟨Karg12_21 m outs c, List.forall_mem_cons.2 ⟨Karg13_21 m outs c, List.forall_mem_cons.2 ⟨Karg14_21 m outs c, List.forall_mem_cons.2 ⟨Karg15_21 m outs c, List.forall_mem_cons.2 ⟨Karg16_21 m outs c, List.forall_mem_cons.2 ⟨Karg17_21 m outs c, List.forall_mem_cons.2 ⟨Karg18_21 m outs c, List.forall_mem_cons.2 ⟨Karg19_21 m outs c, List.forall_mem_cons.2 ⟨Karg20_21 m outs c, List.forall_mem_cons.2 ⟨Karg21_21 m outs c, List.forall_mem_cons.2 ⟨Karg22_21 m outs c, List.forall_mem_cons.2 ⟨Karg23_21 m outs c, List.forall_mem_cons.2 ⟨Karg24_21 m outs c, List.forall_mem_cons.2 ⟨Karg25_21 m outs c, List.forall_mem_cons.2 ⟨Karg26_21 m outs c, List.forall_mem_cons.2 ⟨Karg27_21 m outs c, List.forall_mem_cons.2 ⟨Karg28_21 m outs c, List.forall_mem_cons.2 ⟨Karg29_21 m outs c, fun _ h => absurd h List.not_mem_nil⟩⟩⟩⟩⟩⟩⟩⟩⟩⟩⟩⟩⟩⟩⟩⟩⟩⟩⟩⟩⟩⟩⟩⟩⟩⟩⟩⟩⟩⟩
theorem Kkept_22 : ∀ r ∈ kargs, V22 m outs c r = m ((c : Thread nD τ).loc r) :=
  List.forall_mem_cons.2 ⟨Karg0_22 m outs c, List.forall_mem_cons.2 ⟨Karg1_22 m outs c, List.forall_mem_cons.2 ⟨Karg2_22 m outs c, List.forall_mem_cons.2 ⟨Karg3_22 m outs c, List.forall_mem_cons.2 ⟨Karg4_22 m outs c, List.forall_mem_cons.2 ⟨Karg5_22 m outs c, List.forall_mem_cons.2 ⟨Karg6_22 m outs c, List.forall_mem_cons.2 ⟨Karg7_22 m outs c, List.forall_mem_cons.2 ⟨Karg8_22 m outs c, List.forall_mem_cons.2 ⟨Karg9_22 m outs c, List.forall_mem_cons.2 ⟨Karg10_22 m outs c, List.forall_mem_cons.2 ⟨Karg11_22 m outs c, List.forall_mem_cons.2 ⟨Karg12_22 m outs c, List.forall_mem_cons.2 ⟨Karg13_22 m outs c, List.forall_mem_cons.2 ⟨Karg14_22 m outs c, List.forall_mem_cons.2 ⟨Karg15_22 m outs c, List.forall_mem_cons.2 ⟨Karg16_22 m outs c, List.forall_mem_cons.2 ⟨Karg17_22 m outs c, List.forall_mem_cons.2 ⟨Karg18_22 m outs c, List.forall_mem_cons.2 ⟨Karg19_22 m outs c, List.forall_mem_cons.2 ⟨Karg20_22 m outs c, List.forall_mem_cons.2 ⟨Karg21_22 m outs c, List.forall_mem_cons.2 ⟨Karg22_22 m outs c, List.forall_mem_cons.2 ⟨Karg23_22 m outs c, List.forall_mem_cons.2 ⟨Karg24_22 m outs c, List.forall_mem_cons.2 ⟨Karg25_22 m outs c, List.forall_mem_cons.2 ⟨Karg26_22 m outs c, List.forall_mem_cons.2 ⟨Karg27_22 m outs c, List.forall_mem_cons.2 ⟨Karg28_22 m outs c, List.forall_mem_cons.2 ⟨Karg29_22 m outs c, fun _ h => absurd h List.not_mem_nil⟩⟩⟩⟩⟩⟩⟩⟩⟩⟩⟩⟩⟩⟩⟩⟩⟩⟩⟩⟩⟩⟩⟩⟩⟩⟩⟩⟩⟩⟩
theorem Kkept_23 : ∀ r ∈ kargs, V23 m outs c r = m ((c : Thread nD τ).loc r) :=
  List.forall_mem_cons.2 ⟨Karg0_23 m outs c, List.forall_mem_cons.2 ⟨Karg1_23 m outs c, List.forall_mem_cons.2 ⟨Karg2_23 m outs c, List.forall_mem_cons.2 ⟨Karg3_23 m outs c, List.forall_mem_cons.2 ⟨Karg4_23 m outs c, List.forall_mem_cons.2 ⟨Karg5_23 m outs c, List.forall_mem_cons.2 ⟨Karg6_23 m outs c, List.forall_mem_cons.2 ⟨Karg7_23 m outs c, List.forall_mem_cons.2 ⟨Karg8_23 m outs c, List.forall_mem_cons.2 ⟨Karg9_23 m outs c, List.forall_mem_cons.2 ⟨Karg10_23 m outs c, List.forall_mem_cons.2 ⟨Karg11_23 m outs c, List.forall_mem_cons.2 ⟨Karg12_23 m outs c, List.forall_mem_cons.2 ⟨Karg13_23 m outs c, List.forall_mem_cons.2 ⟨Karg14_23 m outs c, List.forall_mem_cons.2 ⟨Karg15_23 m outs c, List.forall_mem_cons.2 ⟨Karg16_23 m outs c, List.forall_mem_cons.2 ⟨Karg17_23 m outs c, List.forall_mem_cons.2 ⟨Karg18_23 m outs c, List.forall_mem_cons.2 ⟨Karg19_23 m outs c, List.forall_mem_cons.2 ⟨Karg20_23 m outs c, List.forall_mem_cons.2 ⟨Karg21_23 m outs c, List.forall_mem_cons.2 ⟨Karg22_23 m outs c, List.forall_mem_cons.2 ⟨Karg23_23 m outs c, List.forall_mem_cons.2 ⟨Karg24_23 m outs c, List.forall_mem_cons.2 ⟨Karg25_23 m outs c, List.forall_mem_cons.2 ⟨Karg26_23 m outs c, List.forall_mem_cons.2 ⟨Karg27_23 m outs c, List.forall_mem_cons.2 ⟨Karg28_23 m outs c, List.forall_mem_cons.2 ⟨Karg29_23 m outs c, fun _ h => absurd h List.not_mem_nil⟩⟩⟩⟩⟩⟩⟩⟩⟩⟩⟩⟩⟩⟩⟩⟩⟩⟩⟩⟩⟩⟩⟩⟩⟩⟩⟩⟩⟩⟩
theorem Kkept_24 : ∀ r ∈ kargs, V24 m outs c r = m ((c : Thread nD τ).loc r) :=
  List.forall_mem_cons.2 ⟨Karg0_24 m outs c, List.forall_mem_cons.2 ⟨Karg1_24 m outs c, List.forall_mem_cons.2 ⟨Karg2_24 m outs c, List.forall_mem_cons.2 ⟨Karg3_24 m outs c, List.forall_mem_cons.2 ⟨Karg4_24 m outs c, List.forall_mem_cons.2 ⟨Karg5_24 m outs c, List.forall_mem_cons.2 ⟨Karg6_24 m outs c, List.forall_mem_cons.2 ⟨Karg7_24 m outs c, List.forall_mem_cons.2 ⟨Karg8_24 m outs c, List.forall_mem_cons.2 ⟨Karg9_24 m outs c, List.forall_mem_cons.2 ⟨Karg10_24 m outs c, List.forall_mem_cons.2 ⟨Karg11_24 m outs c, List.forall_mem_cons.2 ⟨Karg12_24 m outs c, List.forall_mem_cons.2 ⟨Karg13_24 m outs c, List.forall_mem_cons.2 ⟨Karg14_24 m outs c, List.forall_mem_cons.2 ⟨Karg15_24 m outs c, List.forall_mem_cons.2 ⟨Karg16_24 m outs c, List.forall_mem_cons.2 ⟨Karg17_24 m outs c, List.forall_mem_cons.2 ⟨Karg18_24 m outs c, List.forall_mem_cons.2 ⟨Karg19_24 m outs c, List.forall_mem_cons.2 ⟨Karg20_24 m outs c, List.forall_mem_cons.2 ⟨Karg21_24 m outs c, List.forall_mem_cons.2 ⟨Karg22_24 m outs c, List.forall_mem_cons.2 ⟨Karg23_24 m outs c, List.forall_mem_cons.2 ⟨Karg24_24 m outs c, List.forall_mem_cons.2 ⟨Karg25_24 m outs c, List.forall_mem_cons.2 ⟨Karg26_24 m outs c, List.forall_mem_cons.2 ⟨Karg27_24 m outs c, List.forall_mem_cons.2 ⟨Karg28_24 m outs c, List.forall_mem_cons.2 ⟨Karg29_24 m outs c, fun _ h => absurd h List.not_mem_nil⟩⟩⟩⟩⟩⟩⟩⟩⟩⟩⟩⟩⟩⟩⟩⟩⟩⟩⟩⟩⟩⟩⟩⟩⟩⟩⟩⟩⟩⟩
theorem Kkept_25 : ∀ r ∈ kargs, V25 m outs c r = m ((c : Thread nD τ).loc r) :=
  List.forall_mem_cons.2 ⟨Karg0_25 m outs c, List.forall_mem_cons.2 ⟨Karg1_25 m outs c, List.forall_mem_cons.2 ⟨Karg2_25 m outs c, List.forall_mem_cons.2 ⟨Karg3_25 m outs c, List.forall_mem_cons.2 ⟨Karg4_25 m outs c, List.forall_mem_cons.2 ⟨Karg5_25 m outs c, List.forall_mem_cons.2 ⟨Karg6_25 m outs c, List.forall_mem_cons.2 ⟨Karg7_25 m outs c, List.forall_mem_cons.2 ⟨Karg8_25 m outs c, List.forall_mem_cons.2 ⟨Karg9_25 m outs c, List.forall_mem_cons.2 ⟨Karg10_25 m outs c, List.forall_mem_cons.2 ⟨Karg11_25 m outs c, List.forall_mem_cons.2 ⟨Karg12_25 m outs c, List.forall_mem_cons.2 ⟨Karg13_25 m outs c, List.forall_mem_cons.2 ⟨Karg14_25 m outs c, List.forall_mem_cons.2 ⟨Karg15_25 m outs c, List.forall_mem_cons.2 ⟨Karg16_25 m outs c, List.forall_mem_cons.2 ⟨Karg17_25 m outs c, List.forall_mem_cons.2 ⟨Karg18_25 m outs c, List.forall_mem_cons.2 ⟨Karg19_25 m outs c, List.forall_mem_cons.2 ⟨Karg20_25 m outs c, List.forall_mem_cons.2 ⟨Karg21_25 m outs c, List.forall_mem_cons.2 ⟨Karg22_25 m outs c, List.forall_mem_cons.2 ⟨Karg23_25 m outs c, List.forall_mem_cons.2 ⟨Karg24_25 m outs c, List.forall_mem_cons.2 ⟨Karg25_25 m outs c, List.forall_mem_cons.2 ⟨Karg26_25 m outs c, List.forall_mem_cons.2 ⟨Karg27_25 m outs c, List.forall_mem_cons.2 ⟨Karg28_25 m outs c, List.forall_mem_cons.2 ⟨Karg29_25 m outs c, fun _ h => absurd h List.not_mem_nil⟩⟩⟩⟩⟩⟩⟩⟩⟩⟩⟩⟩⟩⟩⟩⟩⟩⟩⟩⟩⟩⟩⟩⟩⟩⟩⟩⟩⟩⟩
theorem Kkept_26 : ∀ r ∈ kargs, V26 m outs c r = m ((c : Thread nD τ).loc r) :=
  List.forall_mem_cons.2 ⟨Karg0_26 m outs c, List.forall_mem_cons.2 ⟨Karg1_26 m outs c, List.forall_mem_cons.2 ⟨Karg2_26 m outs c, List.forall_mem_cons.2 ⟨Karg3_26 m outs c, List.forall_mem_cons.2 ⟨Karg4_26 m outs c, List.forall_mem_cons.2 ⟨Karg5_26 m outs c, List.forall_mem_cons.2 ⟨Karg6_26 m outs c, List.forall_mem_cons.2 ⟨Karg7_26 m outs c, List.forall_mem_cons.2 ⟨Karg8_26 m outs c, List.forall_mem_cons.2 ⟨Karg9_26 m outs c, List.forall_mem_cons.2 ⟨Karg10_26 m outs c, List.forall_mem_cons.2 ⟨Karg11_26 m outs c, List.forall_mem_cons.2 ⟨Karg12_26 m outs c, List.forall_mem_cons.2 ⟨Karg13_26 m outs c, List.forall_mem_cons.2 ⟨Karg14_26 m outs c, List.forall_mem_cons.2 ⟨Karg15_26 m outs c, List.forall_mem_cons.2 ⟨Karg16_26 m outs c, List.forall_mem_cons.2 ⟨Karg17_26 m outs c, List.forall_mem_cons.2 ⟨Karg18_26 m outs c, List.forall_mem_cons.2 ⟨Karg19_26 m outs c, List.forall_mem_cons.2 ⟨Karg20_26 m outs c, List.forall_mem_cons.2 ⟨Karg21_26 m outs c, List.forall_mem_cons.2 ⟨Karg22_26 m outs c, List.forall_mem_cons.2 ⟨Karg23_26 m outs c, List.forall_mem_cons.2 ⟨Karg24_26 m outs c, List.forall_mem_cons.2 ⟨Karg25_26 m outs c, List.forall_mem_cons.2 ⟨Karg26_26 m outs c, List.forall_mem_cons.2 ⟨Karg27_26 m outs c, List.forall_mem_cons.2 ⟨Karg28_26 m outs c, List.forall_mem_cons.2 ⟨Karg29_26 m outs c, fun _ h => absurd h List.not_mem_nil⟩⟩⟩⟩⟩⟩⟩⟩⟩⟩⟩⟩⟩⟩⟩⟩⟩⟩⟩⟩⟩⟩⟩⟩⟩⟩⟩⟩⟩⟩
theorem Kkept_27 : ∀ r ∈ kargs, V27 m outs c r = m ((c : Thread nD τ).loc r) :=
  List.forall_mem_cons.2 ⟨Karg0_27 m outs c, List.forall_mem_cons.2 ⟨Karg1_27 m outs c, List.forall_mem_cons.2 ⟨Karg2_27 m outs c, List.forall_mem_cons.2 ⟨Karg3_27 m outs c, List.forall_mem_cons.2 ⟨Karg4_27 m outs c, List.forall_mem_cons.2 ⟨Karg5_27 m outs c, List.forall_mem_cons.2 ⟨Karg6_27 m outs c, List.forall_mem_cons.2 ⟨Karg7_27 m outs c, List.forall_mem_cons.2 ⟨Karg8_27 m outs c, List.forall_mem_cons.2 ⟨Karg9_27 m outs c, List.forall_mem_cons.2 ⟨Karg10_27 m outs c, List.forall_mem_cons.2 ⟨Karg11_27 m outs c, List.forall_mem_cons.2 ⟨Karg12_27 m outs c, List.forall_mem_cons.2 ⟨Karg13_27 m outs c, List.forall_mem_cons.2 ⟨Karg14_27 m outs c, List.forall_mem_cons.2 ⟨Karg15_27 m outs c, List.forall_mem_cons.2 ⟨Karg16_27 m outs c, List.forall_mem_cons.2 ⟨Karg17_27 m outs c, List.forall_mem_cons.2 ⟨Karg18_27 m outs c, List.forall_mem_cons.2 ⟨Karg19_27 m outs c, List.forall_mem_cons.2 ⟨Karg20_27 m outs c, List.forall_mem_cons.2 ⟨Karg21_27 m outs c, List.forall_mem_cons.2 ⟨Karg22_27 m outs c, List.forall_mem_cons.2 ⟨Karg23_27 m outs c, List.forall_mem_cons.2 ⟨Karg24_27 m outs c, List.forall_mem_cons.2 ⟨Karg25_27 m outs c, List.forall_mem_cons.2 ⟨Karg26_27 m outs c, List.forall_mem_cons.2 ⟨Karg27_27 m outs c, List.forall_mem_cons.2 ⟨Karg28_27 m outs c, List.forall_mem_cons.2 ⟨Karg29_27 m outs c, fun _ h => absurd h List.not_mem_nil⟩⟩⟩⟩⟩⟩⟩⟩⟩⟩⟩⟩⟩⟩⟩⟩⟩⟩⟩⟩⟩⟩⟩⟩⟩⟩⟩⟩⟩⟩
theorem Kkept_28 : ∀ r ∈ kargs, V28 m outs c r = m ((c : Thread nD τ).loc r) :=
  List.forall_mem_cons.2 ⟨Karg0_28 m outs c, List.forall_mem_cons.2 ⟨Karg1_28 m outs c, List.forall_mem_cons.2 ⟨Karg2_28 m outs c, List.forall_mem_cons.2 ⟨Karg3_28 m outs c, List.forall_mem_cons.2 ⟨Karg4_28 m outs c, List.forall_mem_cons.2 ⟨Karg5_28 m outs c, List.forall_mem_cons.2 ⟨Karg6_28 m outs c, List.forall_mem_cons.2 ⟨Karg7_28 m outs c, List.forall_mem_cons.2 ⟨Karg8_28 m outs c, List.forall_mem_cons.2 ⟨Karg9_28 m outs c, List.forall_mem_cons.2 ⟨Karg10_28 m outs c, List.forall_mem_cons.2 ⟨Karg11_28 m outs c, List.forall_mem_cons.2 ⟨Karg12_28 m outs c, List.forall_mem_cons.2 ⟨Karg13_28 m outs c, List.forall_mem_cons.2 ⟨Karg14_28 m outs c, List.forall_mem_cons.2 ⟨Karg15_28 m outs c, List.forall_mem_cons.2 ⟨Karg16_28 m outs c, List.forall_mem_cons.2 ⟨Karg17_28 m outs c, List.forall_mem_cons.2 ⟨Karg18_28 m outs c, List.forall_mem_cons.2 ⟨Karg19_28 m outs c, List.forall_mem_cons.2 ⟨Karg20_28 m outs c, List.forall_mem_cons.2 ⟨Karg21_28 m outs c, List.forall_mem_cons.2 ⟨Karg22_28 m outs c, List.forall_mem_cons.2 ⟨Karg23_28 m outs c, List.forall_mem_cons.2 ⟨Karg24_28 m outs c, List.forall_mem_cons.2 ⟨Karg25_28 m outs c, List.forall_mem_cons.2 ⟨Karg26_28 m outs c, List.forall_mem_cons.2 ⟨Karg27_28 m outs c, List.forall_mem_cons.2 ⟨Karg28_28 m outs c, List.forall_mem_cons.2 ⟨Karg29_28 m outs c, fun _ h => absurd h List.not_mem_nil⟩⟩⟩⟩⟩⟩⟩⟩⟩⟩⟩⟩⟩⟩⟩⟩⟩⟩⟩⟩⟩⟩⟩⟩⟩⟩⟩⟩⟩⟩
theorem Kkept_29 : ∀ r ∈ kargs, V29 m outs c r = m ((c : Thread nD τ).loc r) :=
  List.forall_mem_cons.2 ⟨Karg0_29 m outs c, List.forall_mem_cons.2 ⟨Karg1_29 m outs c, List.forall_mem_cons.2 ⟨Karg2_29 m outs c, List.forall_mem_cons.2 ⟨Karg3_29 m outs c, List.forall_mem_cons.2 ⟨Karg4_29 m outs c, List.forall_mem_cons.2 ⟨Karg5_29 m outs c, List.forall_mem_cons.2 ⟨Karg6_29 m outs c, List.forall_mem_cons.2 ⟨Karg7_29 m outs c, List.forall_mem_cons.2 ⟨Karg8_29 m outs c, List.forall_mem_cons.2 ⟨Karg9_29 m outs c, List.forall_mem_cons.2 ⟨Karg10_29 m outs c, List.forall_mem_cons.2 ⟨Karg11_29 m outs c, List.forall_mem_cons.2 ⟨Karg12_29 m outs c, List.forall_mem_cons.2 ⟨Karg13_29 m outs c, List.forall_mem_cons.2 ⟨Karg14_29 m outs c, List.forall_mem_cons.2 ⟨Karg15_29 m outs c, List.forall_mem_cons.2 ⟨Karg16_29 m outs c, List.forall_mem_cons.2 ⟨Karg17_29 m outs c, List.forall_mem_cons.2 ⟨Karg18_29 m outs c, List.forall_mem_cons.2 ⟨Karg19_29 m outs c, List.forall_mem_cons.2 ⟨Karg20_29 m outs c, List.forall_mem_cons.2 ⟨Karg21_29 m outs c, List.forall_mem_cons.2 ⟨Karg22_29 m outs c, List.forall_mem_cons.2 ⟨Karg23_29 m outs c, List.forall_mem_cons.2 ⟨Karg24_29 m outs c, List.forall_mem_cons.2 ⟨Karg25_29 m outs c, List.forall_mem_cons.2 ⟨Karg26_29 m outs c, List.forall_mem_cons.2 ⟨Karg27_29 m outs c, List.forall_mem_cons.2 ⟨Karg28_29 m outs c, List.forall_mem_cons.2 ⟨Karg29_29 m outs c, fun _ h => absurd h List.not_mem_nil⟩⟩⟩⟩⟩⟩⟩⟩⟩⟩⟩⟩⟩⟩⟩⟩⟩⟩⟩⟩⟩⟩⟩⟩⟩⟩⟩⟩⟩⟩
theorem Kkept_30 : ∀ r ∈ kargs, V30 m outs c r = m ((c : Thread nD τ).loc r) :=
  List.forall_mem_cons.2 ⟨Karg0_30 m outs c, List.forall_mem_cons.2 ⟨Karg1_30 m outs c, List.forall_mem_cons.2 ⟨Karg2_30 m outs c, List.forall_mem_cons.2 ⟨Karg3_30 m outs c, List.forall_mem_cons.2 ⟨Karg4_30 m outs c, List.forall_mem_cons.2 ⟨Karg5_30 m outs c, List.forall_mem_cons.2 ⟨Karg6_30 m outs c, List.forall_mem_cons.2 ⟨Karg7_30 m outs c, List.forall_mem_cons.2 ⟨Karg8_30 m outs c, List.forall_mem_cons.2 ⟨Karg9_30 m outs c, List.forall_mem_cons.2 ⟨Karg10_30 m outs c, List.forall_mem_cons.2 ⟨Karg11_30 m outs c, List.forall_mem_cons.2 ⟨Karg12_30 m outs c, List.forall_mem_cons.2 ⟨Karg13_30 m outs c, List.forall_mem_cons.2 ⟨Karg14_30 m outs c, List.forall_mem_cons.2 ⟨Karg15_30 m outs c, List.forall_mem_cons.2 ⟨Karg16_30 m outs c, List.forall_mem_cons.2 ⟨Karg17_30 m outs c, List.forall_mem_cons.2 ⟨Karg18_30 m outs c, List.forall_mem_cons.2 ⟨Karg19_30 m outs c, List.forall_mem_cons.2 ⟨Karg20_30 m outs c, List.forall_mem_cons.2 ⟨Karg21_30 m outs c, List.forall_mem_cons.2 ⟨Karg22_30 m outs c, List.forall_mem_cons.2 ⟨Karg23_30 m outs c, List.forall_mem_cons.2 ⟨Karg24_30 m outs c, List.forall_mem_cons.2 ⟨Karg25_30 m outs c, List.forall_mem_cons.2 ⟨Karg26_30 m outs c, List.forall_mem_cons.2 ⟨Karg27_30 m outs c, List.forall_mem_cons.2 ⟨Karg28_30 m outs c, List.forall_mem_cons.2 ⟨Karg29_30 m outs c, fun _ h => absurd h List.not_mem_nil⟩⟩⟩⟩⟩⟩⟩⟩⟩⟩⟩⟩⟩⟩⟩⟩⟩⟩⟩⟩⟩⟩⟩⟩⟩⟩⟩⟩⟩⟩
theorem Kkept_31 : ∀ r ∈ kargs, V31 m outs c r = m ((c : Thread nD τ).loc r) :=
  List.forall_mem_cons.2 ⟨Karg0_31 m outs c, List.forall_mem_cons.2 ⟨Karg1_31 m outs c, List.forall_mem_cons.2 ⟨Karg2_31 m outs c, List.forall_mem_cons.2 ⟨Karg3_31 m outs c, List.forall_mem_cons.2 ⟨Karg4_31 m outs c, List.forall_mem_cons.2 ⟨Karg5_31 m outs c, List.forall_mem_cons.2 ⟨Karg6_31 m outs c, List.forall_mem_cons.2 ⟨Karg7_31 m outs c, List.forall_mem_cons.2 ⟨Karg8_31 m outs c, List.forall_mem_cons.2 ⟨Karg9_31 m outs c, List.forall_mem_cons.2 ⟨Karg10_31 m outs c, List.forall_mem_cons.2 ⟨Karg11_31 m outs c, List.forall_mem_cons.2 ⟨Karg12_31 m outs c, List.forall_mem_cons.2 ⟨Karg13_31 m outs c, List.forall_mem_cons.2 ⟨Karg14_31 m outs c, List.forall_mem_cons.2 ⟨Karg15_31 m outs c, List.forall_mem_cons.2 ⟨Karg16_31 m outs c, List.forall_mem_cons.2 ⟨Karg17_31 m outs c, List.forall_mem_cons.2 ⟨Karg18_31 m outs c, List.forall_mem_cons.2 ⟨Karg19_31 m outs c, List.forall_mem_cons.2 ⟨Karg20_31 m outs c, List.forall_mem_cons.2 ⟨Karg21_31 m outs c, List.forall_mem_cons.2 ⟨Karg22_31 m outs c, List.forall_mem_cons.2 ⟨Karg23_31 m outs c, List.forall_mem_cons.2 ⟨Karg24_31 m outs c, List.forall_mem_cons.2 ⟨Karg25_31 m outs c, List.forall_mem_cons.2 ⟨Karg26_31 m outs c, List.forall_mem_cons.2 ⟨Karg27_31 m outs c, List.forall_mem_cons.2 ⟨Karg28_31 m outs c, List.forall_mem_cons.2 ⟨Karg29_31 m outs c, fun _ h => absurd h List.not_mem_nil⟩⟩⟩⟩⟩⟩⟩⟩⟩⟩⟩⟩⟩⟩⟩⟩⟩⟩⟩⟩⟩⟩⟩⟩⟩⟩⟩⟩⟩⟩
theorem Kkept_32 : ∀ r ∈ kargs, V32 m outs c r = m ((c : Thread nD τ).loc r) :=
  List.forall_mem_cons.2 ⟨Karg0_32 m outs c, List.forall_mem_cons.2 ⟨Karg1_32 m outs c, List.forall_mem_cons.2 ⟨Karg2_32 m outs c, List.forall_mem_cons.2 ⟨Karg3_32 m outs c, List.forall_mem_cons.2 ⟨Karg4_32 m outs c, List.forall_mem_cons.2 ⟨Karg5_32 m outs c, List.forall_mem_cons.2 ⟨Karg6_32 m outs c, List.forall_mem_cons.2 ⟨Karg7_32 m outs c, List.forall_mem_cons.2 ⟨Karg8_32 m outs c, List.forall_mem_cons.2 ⟨Karg9_32 m outs c, List.forall_mem_cons.2 ⟨Karg10_32 m outs c, List.forall_mem_cons.2 ⟨Karg11_32 m outs c, List.forall_mem_cons.2 ⟨Karg12_32 m outs c, List.forall_mem_cons.2 ⟨Karg13_32 m outs c, List.forall_mem_cons.2 ⟨Karg14_32 m outs c, List.forall_mem_cons.2 ⟨Karg15_32 m outs c, List.forall_mem_cons.2 ⟨Karg16_32 m outs c, List.forall_mem_cons.2 ⟨Karg17_32 m outs c, List.forall_mem_cons.2 ⟨Karg18_32 m outs c, List.forall_mem_cons.2 ⟨Karg19_32 m outs c, List.forall_mem_cons.2 ⟨Karg20_32 m outs c, List.forall_mem_cons.2 ⟨Karg21_32 m outs c, List.forall_mem_cons.2 ⟨Karg22_32 m outs c, List.forall_mem_cons.2 ⟨Karg23_32 m outs c, List.forall_mem_cons.2 ⟨Karg24_32 m outs c, List.forall_mem_cons.2 ⟨Karg25_32 m outs c, List.forall_mem_cons.2 ⟨Karg26_32 m outs c, List.forall_mem_cons.2 ⟨Karg27_32 m outs c, List.forall_mem_cons.2 ⟨Karg28_32 m outs c, List.forall_mem_cons.2 ⟨Karg29_32 m outs c, fun _ h => absurd h List.not_mem_nil⟩⟩⟩⟩⟩⟩⟩⟩⟩⟩⟩⟩⟩⟩⟩⟩⟩⟩⟩⟩⟩⟩⟩⟩⟩⟩⟩⟩⟩⟩
theorem Kkept_33 : ∀ r ∈ kargs, V33 m outs c r = m ((c : Thread nD τ).loc r) :=
  List.forall_mem_cons.2 ⟨Karg0_33 m outs c, List.forall_mem_cons.2 ⟨Karg1_33 m outs c, List.forall_mem_cons.2 ⟨Karg2_33 m outs c, List.forall_mem_cons.2 ⟨Karg3_33 m outs c, List.forall_mem_cons.2 ⟨Karg4_33 m outs c, List.forall_mem_cons.2 ⟨Karg5_33 m outs c, List.forall_mem_cons.2 ⟨Karg6_33 m outs c, List.forall_mem_cons.2 ⟨Karg7_33 m outs c, List.forall_mem_cons.2 ⟨Karg8_33 m outs c, List.forall_mem_cons.2 ⟨Karg9_33 m outs c, List.forall_mem_cons.2 ⟨Karg10_33 m outs c, List.forall_mem_cons.2 ⟨Karg11_33 m outs c, List.forall_mem_cons.2 ⟨Karg12_33 m outs c, List.forall_mem_cons.2 ⟨Karg13_33 m outs c, List.forall_mem_cons.2 ⟨Karg14_33 m outs c, List.forall_mem_cons.2 ⟨Karg15_33 m outs c, List.forall_mem_cons.2 ⟨Karg16_33 m outs c, List.forall_mem_cons.2 ⟨Karg17_33 m outs c, List.forall_mem_cons.2 ⟨Karg18_33 m outs c, List.forall_mem_cons.2 ⟨Karg19_33 m outs c, List.forall_mem_cons.2 ⟨Karg20_33 m outs c, List.forall_mem_cons.2 ⟨Karg21_33 m outs c, List.forall_mem_cons.2 ⟨Karg22_33 m outs c, List.forall_mem_cons.2 ⟨Karg23_33 m outs c, List.forall_mem_cons.2 ⟨Karg24_33 m outs c, List.forall_mem_cons.2 ⟨Karg25_33 m outs c, List.forall_mem_cons.2 ⟨Karg26_33 m outs c, List.forall_mem_cons.2 ⟨Karg27_33 m outs c, List.forall_mem_cons.2 ⟨Karg28_33 m outs c, List.forall_mem_cons.2 ⟨Karg29_33 m outs c, fun _ h => absurd h List.not_mem_nil⟩⟩⟩⟩⟩⟩⟩⟩⟩⟩⟩⟩⟩⟩⟩⟩⟩⟩⟩⟩⟩⟩⟩⟩⟩⟩⟩⟩⟩⟩
theorem Kkept_34 : ∀ r ∈ kargs, V34 m outs c r = m ((c : Thread nD τ).loc r) :=
  List.forall_mem_cons.2 ⟨Karg0_34 m outs c, List.forall_mem_cons.2 ⟨Karg1_34 m outs c, List.forall_mem_cons.2 ⟨Karg2_34 m outs c, List.forall_mem_cons.2 ⟨Karg3_34 m outs c, List.forall_mem_cons.2 ⟨Karg4_34 m outs c, List.forall_mem_cons.2 ⟨Karg5_34 m outs c, List.forall_mem_cons.2 ⟨Karg6_34 m outs c, List.forall_mem_cons.2 ⟨Karg7_34 m outs c, List.forall_mem_cons.2 ⟨Karg8_34 m outs c, List.forall_mem_cons.2 ⟨Karg9_34 m outs c, List.forall_mem_cons.2 ⟨Karg10_34 m outs c, List.forall_mem_cons.2 ⟨Karg11_34 m outs c, List.forall_mem_cons.2 ⟨Karg12_34 m outs c, List.forall_mem_cons.2 ⟨Karg13_34 m outs c, List.forall_mem_cons.2 ⟨Karg14_34 m outs c, List.forall_mem_cons.2 ⟨Karg15_34 m outs c, List.forall_mem_cons.2 ⟨Karg16_34 m outs c, List.forall_mem_cons.2 ⟨Karg17_34 m outs c, List.forall_mem_cons.2 ⟨Karg18_34 m outs c, List.forall_mem_cons.2 ⟨Karg19_34 m outs c, List.forall_mem_cons.2 ⟨Karg20_34 m outs c, List.forall_mem_cons.2 ⟨Karg21_34 m outs c, List.forall_mem_cons.2 ⟨Karg22_34 m outs c, List.forall_mem_cons.2 ⟨Karg23_34 m outs c, List.forall_mem_cons.2 ⟨Karg24_34 m outs c, List.forall_mem_cons.2 ⟨Karg25_34 m outs c, List.forall_mem_cons.2 ⟨Karg26_34 m outs c, List.forall_mem_cons.2 ⟨Karg27_34 m outs c, List.forall_mem_cons.2 ⟨Karg28_34 m outs c, List.forall_mem_cons.2 ⟨Karg29_34 m outs c, fun _ h => absurd h List.not_mem_nil⟩⟩⟩⟩⟩⟩⟩⟩⟩⟩⟩⟩⟩⟩⟩⟩⟩⟩⟩⟩⟩⟩⟩⟩⟩⟩⟩⟩⟩⟩
theorem Kkept_35 : ∀ r ∈ kargs, V35 m outs c r = m ((c : Thread nD τ).loc r) :=
  List.forall_mem_cons.2 ⟨Karg0_35 m outs c, List.forall_mem_cons.2 ⟨Karg1_35 m outs c, List.forall_mem_cons.2 ⟨Karg2_35 m outs c, List.forall_mem_cons.2 ⟨Karg3_35 m outs c, List.forall_mem_cons.2 ⟨Karg4_35 m outs c, List.forall_mem_cons.2 ⟨Karg5_35 m outs c, List.forall_mem_cons.2 ⟨Karg6_35 m outs c, List.forall_mem_cons.2 ⟨Karg7_35 m outs c, List.forall_mem_cons.2 ⟨Karg8_35 m outs c, List.forall_mem_cons.2 ⟨Karg9_35 m outs c, List.forall_mem_cons.2 ⟨Karg10_35 m outs c, List.forall_mem_cons.2 ⟨Karg11_35 m outs c, List.forall_mem_cons.2 ⟨Karg12_35 m outs c, List.forall_mem_cons.2 ⟨Karg13_35 m outs c, List.forall_mem_cons.2 ⟨Karg14_35 m outs c, List.forall_mem_cons.2 ⟨Karg15_35 m outs c, List.forall_mem_cons.2 ⟨Karg16_35 m outs c, List.forall_mem_cons.2 ⟨Karg17_35 m outs c, List.forall_mem_cons.2 ⟨Karg18_35 m outs c, List.forall_mem_cons.2 ⟨Karg19_35 m outs c, List.forall_mem_cons.2 ⟨Karg20_35 m outs c, List.forall_mem_cons.2 ⟨Karg21_35 m outs c, List.forall_mem_cons.2 ⟨Karg22_35 m outs c, List.forall_mem_cons.2 ⟨Karg23_35 m outs c, List.forall_mem_cons.2 ⟨Karg24_35 m outs c, List.forall_mem_cons.2 ⟨Karg25_35 m outs c, List.forall_mem_cons.2 ⟨Karg26_35 m outs c, List.forall_mem_cons.2 ⟨Karg27_35 m outs c, List.forall_mem_cons.2 ⟨Karg28_35 m outs c, List.forall_mem_cons.2 ⟨Karg29_35 m outs c, fun _ h => absurd h List.not_mem_nil⟩⟩⟩⟩⟩⟩⟩⟩⟩⟩⟩⟩⟩⟩⟩⟩⟩⟩⟩⟩⟩⟩⟩⟩⟩⟩⟩⟩⟩⟩
theorem Kkept_36 : ∀ r ∈ kargs, V36 m outs c r = m ((c : Thread nD τ).loc r) :=
  List.forall_mem_cons.2 ⟨Karg0_36 m outs c, List.forall_mem_cons.2 ⟨Karg1_36 m outs c, List.forall_mem_cons.2 ⟨Karg2_36 m outs c, List.forall_mem_cons.2 ⟨Karg3_36 m outs c, List.forall_mem_cons.2 ⟨Karg4_36 m outs c, List.forall_mem_cons.2 ⟨Karg5_36 m outs c, List.forall_mem_cons.2 ⟨Karg6_36 m outs c, List.forall_mem_cons.2 ⟨Karg7_36 m outs c, List.forall_mem_cons.2 ⟨Karg8_36 m outs c, List.forall_mem_cons.2 ⟨Karg9_36 m outs c, List.forall_mem_cons.2 ⟨Karg10_36 m outs c, List.forall_mem_cons.2 ⟨Karg11_36 m outs c, List.forall_mem_cons.2 ⟨Karg12_36 m outs c, List.forall_mem_cons.2 ⟨Karg13_36 m outs c, List.forall_mem_cons.2 ⟨Karg14_36 m outs c, List.forall_mem_cons.2 ⟨Karg15_36 m outs c, List.forall_mem_cons.2 ⟨Karg16_36 m outs c, List.forall_mem_cons.2 ⟨Karg17_36 m outs c, List.forall_mem_cons.2 ⟨Karg18_36 m outs c, List.forall_mem_cons.2 ⟨Karg19_36 m outs c, List.forall_mem_cons.2 ⟨Karg20_36 m outs c, List.forall_mem_cons.2 ⟨Karg21_36 m outs c, List.forall_mem_cons.2 ⟨Karg22_36 m outs c, List.forall_mem_cons.2 ⟨Karg23_36 m outs c, List.forall_mem_cons.2 ⟨Karg24_36 m outs c, List.forall_mem_cons.2 ⟨Karg25_36 m outs c, List.forall_mem_cons.2 ⟨Karg26_36 m outs c, List.forall_mem_cons.2 ⟨Karg27_36 m outs c, List.forall_mem_cons.2 ⟨Karg28_36 m outs c, List.forall_mem_cons.2 ⟨Karg29_36 m outs c, fun _ h => absurd h List.not_mem_nil⟩⟩⟩⟩⟩⟩⟩⟩⟩⟩⟩⟩⟩⟩⟩⟩⟩⟩⟩⟩⟩⟩⟩⟩⟩⟩⟩⟩⟩⟩
theorem Kkept_37 : ∀ r ∈ kargs, V37 m outs c r = m ((c : Thread nD τ).loc r) :=
  List.forall_mem_cons.2 ⟨Karg0_37 m outs c, List.forall_mem_cons.2 ⟨Karg1_37 m outs c, List.forall_mem_cons.2 ⟨Karg2_37 m outs c, List.forall_mem_cons.2 ⟨Karg3_37 m outs c, List.forall_mem_cons.2 ⟨Karg4_37 m outs c, List.forall_mem_cons.2 ⟨Karg5_37 m outs c, List.forall_mem_cons.2 ⟨Karg6_37 m outs c, List.forall_mem_cons.2 ⟨Karg7_37 m outs c, List.forall_mem_cons.2 ⟨Karg8_37 m outs c, List.forall_mem_cons.2 ⟨Karg9_37 m outs c, List.forall_mem_cons.2 ⟨Karg10_37 m outs c, List.forall_mem_cons.2 ⟨Karg11_37 m outs c, List.forall_mem_cons.2 ⟨Karg12_37 m outs c, List.forall_mem_cons.2 ⟨Karg13_37 m outs c, List.forall_mem_cons.2 ⟨Karg14_37 m outs c, List.forall_mem_cons.2 ⟨Karg15_37 m outs c, List.forall_mem_cons.2 ⟨Karg16_37 m outs c, List.forall_mem_cons.2 ⟨Karg17_37 m outs c, List.forall_mem_cons.2 ⟨Karg18_37 m outs c, List.forall_mem_cons.2 ⟨Karg19_37 m outs c, List.forall_mem_cons.2 ⟨Karg20_37 m outs c, List.forall_mem_cons.2 ⟨Karg21_37 m outs c, List.forall_mem_cons.2 ⟨Karg22_37 m outs c, List.forall_mem_cons.2 ⟨Karg23_37 m outs c, List.forall_mem_cons.2 ⟨Karg24_37 m outs c, List.forall_mem_cons.2 ⟨Karg25_37 m outs c, List.forall_mem_cons.2 ⟨Karg26_37 m outs c, List.forall_mem_cons.2 ⟨Karg27_37 m outs c, List.forall_mem_cons.2 ⟨Karg28_37 m outs c, List.forall_mem_cons.2 ⟨Karg29_37 m outs c, fun _ h => absurd h List.not_mem_nil⟩⟩⟩⟩⟩⟩⟩⟩⟩⟩⟩⟩⟩⟩⟩⟩⟩⟩⟩⟩⟩⟩⟩⟩⟩⟩⟩⟩⟩⟩
theorem Kkept_38 : ∀ r ∈ kargs, V38 m outs c r = m ((c : Thread nD τ).loc r) :=
  List.forall_mem_cons.2 ⟨Karg0_38 m outs c, List.forall_mem_cons.2 ⟨Karg1_38 m outs c, List.forall_mem_cons.2 ⟨Karg2_38 m outs c, List.forall_mem_cons.2 ⟨Karg3_38 m outs c, List.forall_mem_cons.2 ⟨Karg4_38 m outs c, List.forall_mem_cons.2 ⟨Karg5_38 m outs c, List.forall_mem_cons.2 ⟨Karg6_38 m outs c, List.forall_mem_cons.2 ⟨Karg7_38 m outs c, List.forall_mem_cons.2 ⟨Karg8_38 m outs c, List.forall_mem_cons.2 ⟨Karg9_38 m outs c, List.forall_mem_cons.2 ⟨Karg10_38 m outs c, List.forall_mem_cons.2 ⟨Karg11_38 m outs c, List.forall_mem_cons.2 ⟨Karg12_38 m outs c, List.forall_mem_cons.2 ⟨Karg13_38 m outs c, List.forall_mem_cons.2 ⟨Karg14_38 m outs c, List.forall_mem_cons.2 ⟨Karg15_38 m outs c, List.forall_mem_cons.2 ⟨Karg16_38 m outs c, List.forall_mem_cons.2 ⟨Karg17_38 m outs c, List.forall_mem_cons.2 ⟨Karg18_38 m outs c, List.forall_mem_cons.2 ⟨Karg19_38 m outs c, List.forall_mem_cons.2 ⟨Karg20_38 m outs c, List.forall_mem_cons.2 ⟨Karg21_38 m outs c, List.forall_mem_cons.2 ⟨Karg22_38 m outs c, List.forall_mem_cons.2 ⟨Karg23_38 m outs c, List.forall_mem_cons.2 ⟨Karg24_38 m outs c, List.forall_mem_cons.2 ⟨Karg25_38 m outs c, List.forall_mem_cons.2 ⟨Karg26_38 m outs c, List.forall_mem_cons.2 ⟨Karg27_38 m outs c, List.forall_mem_cons.2 ⟨Karg28_38 m outs c, List.forall_mem_cons.2 ⟨Karg29_38 m outs c, fun _ h => absurd h List.not_mem_nil⟩⟩⟩⟩⟩⟩⟩⟩⟩⟩⟩⟩⟩⟩⟩⟩⟩⟩⟩⟩⟩⟩⟩⟩⟩⟩⟩⟩⟩⟩
theorem Kkept_39 : ∀ r ∈ kargs, V39 m outs c r = m ((c : Thread nD τ).loc r) :=
  List.forall_mem_cons.2 ⟨Karg0_39 m outs c, List.forall_mem_cons.2 ⟨Karg1_39 m outs c, List.forall_mem_cons.2 ⟨Karg2_39 m outs c, List.forall_mem_cons.2 ⟨Karg3_39 m outs c, List.forall_mem_cons.2 ⟨Karg4_39 m outs c, List.forall_mem_cons.2 ⟨Karg5_39 m outs c, List.forall_mem_cons.2 ⟨Karg6_39 m outs c, List.forall_mem_cons.2 ⟨Karg7_39 m outs c, List.forall_mem_cons.2 ⟨Karg8_39 m outs c, List.forall_mem_cons.2 ⟨Karg9_39 m outs c, List.forall_mem_cons.2 ⟨Karg10_39 m outs c, List.forall_mem_cons.2 ⟨Karg11_39 m outs c, List.forall_mem_cons.2 ⟨Karg12_39 m outs c, List.forall_mem_cons.2 ⟨Karg13_39 m outs c, List.forall_mem_cons.2 ⟨Karg14_39 m outs c, List.forall_mem_cons.2 ⟨Karg15_39 m outs c, List.forall_mem_cons.2 ⟨Karg16_39 m outs c, List.forall_mem_cons.2 ⟨Karg17_39 m outs c, List.forall_mem_cons.2 ⟨Karg18_39 m outs c, List.forall_mem_cons.2 ⟨Karg19_39 m outs c, List.forall_mem_cons.2 ⟨Karg20_39 m outs c, List.forall_mem_cons.2 ⟨Karg21_39 m outs c, List.forall_mem_cons.2 ⟨Karg22_39 m outs c, List.forall_mem_cons.2 ⟨Karg23_39 m outs c, List.forall_mem_cons.2 ⟨Karg24_39 m outs c, List.forall_mem_cons.2 ⟨Karg25_39 m outs c, List.forall_mem_cons.2 ⟨Karg26_39 m outs c, List.forall_mem_cons.2 ⟨Karg27_39 m outs c, List.forall_mem_cons.2 ⟨Karg28_39 m outs c, List.forall_mem_cons.2 ⟨Karg29_39 m outs c, fun _ h => absurd h List.not_mem_nil⟩⟩⟩⟩⟩⟩⟩⟩⟩⟩⟩⟩⟩⟩⟩⟩⟩⟩⟩⟩⟩⟩⟩⟩⟩⟩⟩⟩⟩⟩
theorem Kkept_40 : ∀ r ∈ kargs, V40 m outs c r = m ((c : Thread nD τ).loc r) :=
  List.forall_mem_cons.2 ⟨Karg0_40 m outs c, List.forall_mem_cons.2 ⟨Karg1_40 m outs c, List.forall_mem_cons.2 ⟨Karg2_40 m outs c, List.forall_mem_cons.2 ⟨Karg3_40 m outs c, List.forall_mem_cons.2 ⟨Karg4_40 m outs c, List.forall_mem_cons.2 ⟨Karg5_40 m outs c, List.forall_mem_cons.2 ⟨Karg6_40 m outs c, List.forall_mem_cons.2 ⟨Karg7_40 m outs c, List.forall_mem_cons.2 ⟨Karg8_40 m outs c, List.forall_mem_cons.2 ⟨Karg9_40 m outs c, List.forall_mem_cons.2 ⟨Karg10_40 m outs c, List.forall_mem_cons.2 ⟨Karg11_40 m outs c, List.forall_mem_cons.2 ⟨Karg12_40 m outs c, List.forall_mem_cons.2 ⟨Karg13_40 m outs c, List.forall_mem_cons.2 ⟨Karg14_40 m outs c, List.forall_mem_cons.2 ⟨Karg15_40 m outs c, List.forall_mem_cons.2 ⟨Karg16_40 m outs c, List.forall_mem_cons.2 ⟨Karg17_40 m outs c, List.forall_mem_cons.2 ⟨Karg18_40 m outs c, List.forall_mem_cons.2 ⟨Karg19_40 m outs c, List.forall_mem_cons.2 ⟨Karg20_40 m outs c, List.forall_mem_cons.2 ⟨Karg21_40 m outs c, List.forall_mem_cons.2 ⟨Karg22_40 m outs c, List.forall_mem_cons.2 ⟨Karg23_40 m outs c, List.forall_mem_cons.2 ⟨Karg24_40 m outs c, List.forall_mem_cons.2 ⟨Karg25_40 m outs c, List.forall_mem_cons.2 ⟨Karg26_40 m outs c, List.forall_mem_cons.2 ⟨Karg27_40 m outs c, List.forall_mem_cons.2 ⟨Karg28_40 m outs c, List.forall_mem_cons.2 ⟨Karg29_40 m outs c, fun _ h => absurd h List.not_mem_nil⟩⟩⟩⟩⟩⟩⟩⟩⟩⟩⟩⟩⟩⟩⟩⟩⟩⟩⟩⟩⟩⟩⟩⟩⟩⟩⟩⟩⟩⟩
theorem Kkept_41 : ∀ r ∈ kargs, V41 m outs c r = m ((c : Thread nD τ).loc r) :=
  List.forall_mem_cons.2 ⟨Karg0_41 m outs c, List.forall_mem_cons.2 ⟨Karg1_41 m outs c, List.forall_mem_cons.2 ⟨Karg2_41 m outs c, List.forall_mem_cons.2 ⟨Karg3_41 m outs c, List.forall_mem_cons.2 ⟨Karg4_41 m outs c, List.forall_mem_cons.2 ⟨Karg5_41 m outs c, List.forall_mem_cons.2 ⟨Karg6_41 m outs c, List.forall_mem_cons.2 ⟨Karg7_41 m outs c, List.forall_mem_cons.2 ⟨Karg8_41 m outs c, List.forall_mem_cons.2 ⟨Karg9_41 m outs c, List.forall_mem_cons.2 ⟨Karg10_41 m outs c, List.forall_mem_cons.2 ⟨Karg11_41 m outs c, List.forall_mem_cons.2 ⟨Karg12_41 m outs c, List.forall_mem_cons.2 ⟨Karg13_41 m outs c, List.forall_mem_cons.2 ⟨Karg14_41 m outs c, List.forall_mem_cons.2 ⟨Karg15_41 m outs c, List.forall_mem_cons.2 ⟨Karg16_41 m outs c, List.forall_mem_cons.2 ⟨Karg17_41 m outs c, List.forall_mem_cons.2 ⟨Karg18_41 m outs c, List.forall_mem_cons.2 ⟨Karg19_41 m outs c, List.forall_mem_cons.2 ⟨Karg20_41 m outs c, List.forall_mem_cons.2 ⟨Karg21_41 m outs c, List.forall_mem_cons.2 ⟨Karg22_41 m outs c, List.forall_mem_cons.2 ⟨Karg23_41 m outs c, List.forall_mem_cons.2 ⟨Karg24_41 m outs c, List.forall_mem_cons.2 ⟨Karg25_41 m outs c, List.forall_mem_cons.2 ⟨Karg26_41 m outs c, List.forall_mem_cons.2 ⟨Karg27_41 m outs c, List.forall_mem_cons.2 ⟨Karg28_41 m outs c, List.forall_mem_cons.2 ⟨Karg29_41 m outs c, fun _ h => absurd h List.not_mem_nil⟩⟩⟩⟩⟩⟩⟩⟩⟩⟩⟩⟩⟩⟩⟩⟩⟩⟩⟩⟩⟩⟩⟩⟩⟩⟩⟩⟩⟩⟩
theorem Kkept_42 : ∀ r ∈ kargs, V42 m outs c r = m ((c : Thread nD τ).loc r) :=
  List.forall_mem_cons.2 ⟨Karg0_42 m outs c, List.forall_mem_cons.2 ⟨Karg1_42 m outs c, List.forall_mem_cons.2 ⟨Karg2_42 m outs c, List.forall_mem_cons.2 ⟨Karg3_42 m outs c, List.forall_mem_cons.2 ⟨Karg4_42 m outs c, List.forall_mem_cons.2 ⟨Karg5_42 m outs c, List.forall_mem_cons.2 ⟨Karg6_42 m outs c, List.forall_mem_cons.2 ⟨Karg7_42 m outs c, List.forall_mem_cons.2 ⟨Karg8_42 m outs c, List.forall_mem_cons.2 ⟨Karg9_42 m outs c, List.forall_mem_cons.2 ⟨Karg10_42 m outs c, List.forall_mem_cons.2 ⟨Karg11_42 m outs c, List.forall_mem_cons.2 ⟨Karg12_42 m outs c, List.forall_mem_cons.2 ⟨Karg13_42 m outs c, List.forall_mem_cons.2 ⟨Karg14_42 m outs c, List.forall_mem_cons.2 ⟨Karg15_42 m outs c, List.forall_mem_cons.2 ⟨Karg16_42 m outs c, List.forall_mem_cons.2 ⟨Karg17_42 m outs c, List.forall_mem_cons.2 ⟨Karg18_42 m outs c, List.forall_mem_cons.2 ⟨Karg19_42 m outs c, List.forall_mem_cons.2 ⟨Karg20_42 m outs c, List.forall_mem_cons.2 ⟨Karg21_42 m outs c, List.forall_mem_cons.2 ⟨Karg22_42 m outs c, List.forall_mem_cons.2 ⟨Karg23_42 m outs c, List.forall_mem_cons.2 ⟨Karg24_42 m outs c, List.forall_mem_cons.2 ⟨Karg25_42 m outs c, List.forall_mem_cons.2 ⟨Karg26_42 m outs c, List.forall_mem_cons.2 ⟨Karg27_42 m outs c, List.forall_mem_cons.2 ⟨Karg28_42 m outs c, List.forall_mem_cons.2 ⟨Karg29_42 m outs c, fun _ h => absurd h List.not_mem_nil⟩⟩⟩⟩⟩⟩⟩⟩⟩⟩⟩⟩⟩⟩⟩⟩⟩⟩⟩⟩⟩⟩⟩⟩⟩⟩⟩⟩⟩⟩
theorem Kkept_43 : ∀ r ∈ kargs, V43 m outs c r = m ((c : Thread nD τ).loc r) :=
  List.forall_mem_cons.2 ⟨Karg0_43 m outs c, List.forall_mem_cons.2 ⟨Karg1_43 m outs c, List.forall_mem_cons.2 ⟨Karg2_43 m outs c, List.forall_mem_cons.2 ⟨Karg3_43 m outs c, List.forall_mem_cons.2 ⟨Karg4_43 m outs c, List.forall_mem_cons.2 ⟨Karg5_43 m outs c, List.forall_mem_cons.2 ⟨Karg6_43 m outs c, List.forall_mem_cons.2 ⟨Karg7_43 m outs c, List.forall_mem_cons.2 ⟨Karg8_43 m outs c, List.forall_mem_cons.2 ⟨Karg9_43 m outs c, List.forall_mem_cons.2 ⟨Karg10_43 m outs c, List.forall_mem_cons.2 ⟨Karg11_43 m outs c, List.forall_mem_cons.2 ⟨Karg12_43 m outs c, List.forall_mem_cons.2 ⟨Karg13_43 m outs c, List.forall_mem_cons.2 ⟨Karg14_43 m outs c, List.forall_mem_cons.2 ⟨Karg15_43 m outs c, List.forall_mem_cons.2 ⟨Karg16_43 m outs c, List.forall_mem_cons.2 ⟨Karg17_43 m outs c, List.forall_mem_cons.2 ⟨Karg18_43 m outs c, List.forall_mem_cons.2 ⟨Karg19_43 m outs c, List.forall_mem_cons.2 ⟨Karg20_43 m outs c, List.forall_mem_cons.2 ⟨Karg21_43 m outs c, List.forall_mem_cons.2 ⟨Karg22_43 m outs c, List.forall_mem_cons.2 ⟨Karg23_43 m outs c, List.forall_mem_cons.2 ⟨Karg24_43 m outs c, List.forall_mem_cons.2 ⟨Karg25_43 m outs c, List.forall_mem_cons.2 ⟨Karg26_43 m outs c, List.forall_mem_cons.2 ⟨Karg27_43 m outs c, List.forall_mem_cons.2 ⟨Karg28_43 m outs c, List.forall_mem_cons.2 ⟨Karg29_43 m outs c, fun _ h => absurd h List.not_mem_nil⟩⟩⟩⟩⟩⟩⟩⟩⟩⟩⟩⟩⟩⟩⟩⟩⟩⟩⟩⟩⟩⟩⟩⟩⟩⟩⟩⟩⟩⟩
theorem Kkept_44 : ∀ r ∈ kargs, V44 m outs c r = m ((c : Thread nD τ).loc r) :=
  List.forall_mem_cons.2 ⟨Karg0_44 m outs c, List.forall_mem_cons.2 ⟨Karg1_44 m outs c, List.forall_mem_cons.2 ⟨Karg2_44 m outs c, List.forall_mem_cons.2 ⟨Karg3_44 m outs c, List.forall_mem_cons.2 ⟨Karg4_44 m outs c, List.forall_mem_cons.2 ⟨Karg5_44 m outs c, List.forall_mem_cons.2 ⟨Karg6_44 m outs c, List.forall_mem_cons.2 ⟨Karg7_44 m outs c, List.forall_mem_cons.2 ⟨Karg8_44 m outs c, List.forall_mem_cons.2 ⟨Karg9_44 m outs c, List.forall_mem_cons.2 ⟨Karg10_44 m outs c, List.forall_mem_cons.2 ⟨Karg11_44 m outs c, List.forall_mem_cons.2 ⟨Karg12_44 m outs c, List.forall_mem_cons.2 ⟨Karg13_44 m outs c, List.forall_mem_cons.2 ⟨Karg14_44 m outs c, List.forall_mem_cons.2 ⟨Karg15_44 m outs c, List.forall_mem_cons.2 ⟨Karg16_44 m outs c, List.forall_mem_cons.2 ⟨Karg17_44 m outs c, List.forall_mem_cons.2 ⟨Karg18_44 m outs c, List.forall_mem_cons.2 ⟨Karg19_44 m outs c, List.forall_mem_cons.2 ⟨Karg20_44 m outs c, List.forall_mem_cons.2 ⟨Karg21_44 m outs c, List.forall_mem_cons.2 ⟨Karg22_44 m outs c, List.forall_mem_cons.2 ⟨Karg23_44 m outs c, List.forall_mem_cons.2 ⟨Karg24_44 m outs c, List.forall_mem_cons.2 ⟨Karg25_44 m outs c, List.forall_mem_cons.2 ⟨Karg26_44 m outs c, List.forall_mem_cons.2 ⟨Karg27_44 m outs c, List.forall_mem_cons.2 ⟨Karg28_44 m outs c, List.forall_mem_cons.2 ⟨Karg29_44 m outs c, fun _ h => absurd h List.not_mem_nil⟩⟩⟩⟩⟩⟩⟩⟩⟩⟩⟩⟩⟩⟩⟩⟩⟩⟩⟩⟩⟩⟩⟩⟩⟩⟩⟩⟩⟩⟩
theorem Kkept_45 : ∀ r ∈ kargs, V45 m outs c r = m ((c : Thread nD τ).loc r) :=
  List.forall_mem_cons.2 ⟨Karg0_45 m outs c, List.forall_mem_cons.2 ⟨Karg1_45 m outs c, List.forall_mem_cons.2 ⟨Karg2_45 m outs c, List.forall_mem_cons.2 ⟨Karg3_45 m outs c, List.forall_mem_cons.2 ⟨Karg4_45 m outs c, List.forall_mem_cons.2 ⟨Karg5_45 m outs c, List.forall_mem_cons.2 ⟨Karg6_45 m outs c, List.forall_mem_cons.2 ⟨Karg7_45 m outs c, List.forall_mem_cons.2 ⟨Karg8_45 m outs c, List.forall_mem_cons.2 ⟨Karg9_45 m outs c, List.forall_mem_cons.2 ⟨Karg10_45 m outs c, List.forall_mem_cons.2 ⟨Karg11_45 m outs c, List.forall_mem_cons.2 ⟨Karg12_45 m outs c, List.forall_mem_cons.2 ⟨Karg13_45 m outs c, List.forall_mem_cons.2 ⟨Karg14_45 m outs c, List.forall_mem_cons.2 ⟨Karg15_45 m outs c, List.forall_mem_cons.2 ⟨Karg16_45 m outs c, List.forall_mem_cons.2 ⟨Karg17_45 m outs c, List.forall_mem_cons.2 ⟨Karg18_45 m outs c, List.forall_mem_cons.2 ⟨Karg19_45 m outs c, List.forall_mem_cons.2 ⟨Karg20_45 m outs c, List.forall_mem_cons.2 ⟨Karg21_45 m outs c, List.forall_mem_cons.2 ⟨Karg22_45 m outs c, List.forall_mem_cons.2 ⟨Karg23_45 m outs c, List.forall_mem_cons.2 ⟨Karg24_45 m outs c, List.forall_mem_cons.2 ⟨Karg25_45 m outs c, List.forall_mem_cons.2 ⟨Karg26_45 m outs c, List.forall_mem_cons.2 ⟨Karg27_45 m outs c, List.forall_mem_cons.2 ⟨Karg28_45 m outs c, List.forall_mem_cons.2 ⟨Karg29_45 m outs c, fun _ h => absurd h List.not_mem_nil⟩⟩⟩⟩⟩⟩⟩⟩⟩⟩⟩⟩⟩⟩⟩⟩⟩⟩⟩⟩⟩⟩⟩⟩⟩⟩⟩⟩⟩⟩
theorem Kkept_46 : ∀ r ∈ kargs, V46 m outs c r = m ((c : Thread nD τ).loc r) :=
  List.forall_mem_cons.2 ⟨Karg0_46 m outs c, List.forall_mem_cons.2 ⟨Karg1_46 m outs c, List.forall_mem_cons.2 ⟨Karg2_46 m outs c, List.forall_mem_cons.2 ⟨Karg3_46 m outs c, List.forall_mem_cons.2 ⟨Karg4_46 m outs c, List.forall_mem_cons.2 ⟨Karg5_46 m outs c, List.forall_mem_cons.2 ⟨Karg6_46 m outs c, List.forall_mem_cons.2 ⟨Karg7_46 m outs c, List.forall_mem_cons.2 ⟨Karg8_46 m outs c, List.forall_mem_cons.2 ⟨Karg9_46 m outs c, List.forall_mem_cons.2 ⟨Karg10_46 m outs c, List.forall_mem_cons.2 ⟨Karg11_46 m outs c, List.forall_mem_cons.2 ⟨Karg12_46 m outs c, List.forall_mem_cons.2 ⟨Karg13_46 m outs c, List.forall_mem_cons.2 ⟨Karg14_46 m outs c, List.forall_mem_cons.2 ⟨Karg15_46 m outs c, List.forall_mem_cons.2 ⟨Karg16_46 m outs c, List.forall_mem_cons.2 ⟨Karg17_46 m outs c, List.forall_mem_cons.2 ⟨Karg18_46 m outs c, List.forall_mem_cons.2 ⟨Karg19_46 m outs c, List.forall_mem_cons.2 ⟨Karg20_46 m outs c, List.forall_mem_cons.2 ⟨Karg21_46 m outs c, List.forall_mem_cons.2 ⟨Karg22_46 m outs c, List.forall_mem_cons.2 ⟨Karg23_46 m outs c, List.forall_mem_cons.2 ⟨Karg24_46 m outs c, List.forall_mem_cons.2 ⟨Karg25_46 m outs c, List.forall_mem_cons.2 ⟨Karg26_46 m outs c, List.forall_mem_cons.2 ⟨Karg27_46 m outs c, List.forall_mem_cons.2 ⟨Karg28_46 m outs c, List.forall_mem_cons.2 ⟨Karg29_46 m outs c, fun _ h => absurd h List.not_mem_nil⟩⟩⟩⟩⟩⟩⟩⟩⟩⟩⟩⟩⟩⟩⟩⟩⟩⟩⟩⟩⟩⟩⟩⟩⟩⟩⟩⟩⟩⟩
theorem Kkept_47 : ∀ r ∈ kargs, V47 m outs c r = m ((c : Thread nD τ).loc r) :=
  List.forall_mem_cons.2 ⟨Karg0_47 m outs c, List.forall_mem_cons.2 ⟨Karg1_47 m outs c, List.forall_mem_cons.2 ⟨Karg2_47 m outs c, List.forall_mem_cons.2 ⟨Karg3_47 m outs c, List.forall_mem_cons.2 ⟨Karg4_47 m outs c, List.forall_mem_cons.2 ⟨Karg5_47 m outs c, List.forall_mem_cons.2 ⟨Karg6_47 m outs c, List.forall_mem_cons.2 ⟨Karg7_47 m outs c, List.forall_mem_cons.2 ⟨Karg8_47 m outs c, List.forall_mem_cons.2 ⟨Karg9_47 m outs c, List.forall_mem_cons.2 ⟨Karg10_47 m outs c, List.forall_mem_cons.2 ⟨Karg11_47 m outs c, List.forall_mem_cons.2 ⟨Karg12_47 m outs c, List.forall_mem_cons.2 ⟨Karg13_47 m outs c, List.forall_mem_cons.2 ⟨Karg14_47 m outs c, List.forall_mem_cons.2 ⟨Karg15_47 m outs c, List.forall_mem_cons.2 ⟨Karg16_47 m outs c, List.forall_mem_cons.2 ⟨Karg17_47 m outs c, List.forall_mem_cons.2 ⟨Karg18_47 m outs c, List.forall_mem_cons.2 ⟨Karg19_47 m outs c, List.forall_mem_cons.2 ⟨Karg20_47 m outs c, List.forall_mem_cons.2 ⟨Karg21_47 m outs c, List.forall_mem_cons.2 ⟨Karg22_47 m outs c, List.forall_mem_cons.2 ⟨Karg23_47 m outs c, List.forall_mem_cons.2 ⟨Karg24_47 m outs c, List.forall_mem_cons.2 ⟨Karg25_47 m outs c, List.forall_mem_cons.2 ⟨Karg26_47 m outs c, List.forall_mem_cons.2 ⟨Karg27_47 m outs c, List.forall_mem_cons.2 ⟨Karg28_47 m outs c, List.forall_mem_cons.2 ⟨Karg29_47 m outs c, fun _ h => absurd h List.not_mem_nil⟩⟩⟩⟩⟩⟩⟩⟩⟩⟩⟩⟩⟩⟩⟩⟩⟩⟩⟩⟩⟩⟩⟩⟩⟩⟩⟩⟩⟩⟩
theorem Kkept_48 : ∀ r ∈ kargs, V48 m outs c r = m ((c : Thread nD τ).loc r) :=
  List.forall_mem_cons.2 ⟨Karg0_48 m outs c, List.forall_mem_cons.2 ⟨Karg1_48 m outs c, List.forall_mem_cons.2 ⟨Karg2_48 m outs c, List.forall_mem_cons.2 ⟨Karg3_48 m outs c, List.forall_mem_cons.2 ⟨Karg4_48 m outs c, List.forall_mem_cons.2 ⟨Karg5_48 m outs c, List.forall_mem_cons.2 ⟨Karg6_48 m outs c, List.forall_mem_cons.2 ⟨Karg7_48 m outs c, List.forall_mem_cons.2 ⟨Karg8_48 m outs c, List.forall_mem_cons.2 ⟨Karg9_48 m outs c, List.forall_mem_cons.2 ⟨Karg10_48 m outs c, List.forall_mem_cons.2 ⟨Karg11_48 m outs c, List.forall_mem_cons.2 ⟨Karg12_48 m outs c, List.forall_mem_cons.2 ⟨Karg13_48 m outs c, List.forall_mem_cons.2 ⟨Karg14_48 m outs c, List.forall_mem_cons.2 ⟨Karg15_48 m outs c, List.forall_mem_cons.2 ⟨Karg16_48 m outs c, List.forall_mem_cons.2 ⟨Karg17_48 m outs c, List.forall_mem_cons.2 ⟨Karg18_48 m outs c, List.forall_mem_cons.2 ⟨Karg19_48 m outs c, List.forall_mem_cons.2 ⟨Karg20_48 m outs c, List.forall_mem_cons.2 ⟨Karg21_48 m outs c, List.forall_mem_cons.2 ⟨Karg22_48 m outs c, List.forall_mem_cons.2 ⟨Karg23_48 m outs c, List.forall_mem_cons.2 ⟨Karg24_48 m outs c, List.forall_mem_cons.2 ⟨Karg25_48 m outs c, List.forall_mem_cons.2 ⟨Karg26_48 m outs c, List.forall_mem_cons.2 ⟨Karg27_48 m outs c, List.forall_mem_cons.2 ⟨Karg28_48 m outs c, List.forall_mem_cons.2 ⟨Karg29_48 m outs c, fun _ h => absurd h List.not_mem_nil⟩⟩⟩⟩⟩⟩⟩⟩⟩⟩⟩⟩⟩⟩⟩⟩⟩⟩⟩⟩⟩⟩⟩⟩⟩⟩⟩⟩⟩⟩
theorem Kkept_49 : ∀ r ∈ kargs, V49 m outs c r = m ((c : Thread nD τ).loc r) :=
  List.forall_mem_cons.2 ⟨Karg0_49 m outs c, List.forall_mem_cons.2 ⟨Karg1_49 m outs c, List.forall_mem_cons.2 ⟨Karg2_49 m outs c, List.forall_mem_cons.2 ⟨Karg3_49 m outs c, List.forall_mem_cons.2 ⟨Karg4_49 m outs c, List.forall_mem_cons.2 ⟨Karg5_49 m outs c, List.forall_mem_cons.2 ⟨Karg6_49 m outs c, List.forall_mem_cons.2 ⟨Karg7_49 m outs c, List.forall_mem_cons.2 ⟨Karg8_49 m outs c, List.forall_mem_cons.2 ⟨Karg9_49 m outs c, List.forall_mem_cons.2 ⟨Karg10_49 m outs c, List.forall_mem_cons.2 ⟨Karg11_49 m outs c, List.forall_mem_cons.2 ⟨Karg12_49 m outs c, List.forall_mem_cons.2 ⟨Karg13_49 m outs c, List.forall_mem_cons.2 ⟨Karg14_49 m outs c, List.forall_mem_cons.2 ⟨Karg15_49 m outs c, List.forall_mem_cons.2 ⟨Karg16_49 m outs c, List.forall_mem_cons.2 ⟨Karg17_49 m outs c, List.forall_mem_cons.2 ⟨Karg18_49 m outs c, List.forall_mem_cons.2 ⟨Karg19_49 m outs c, List.forall_mem_cons.2 ⟨Karg20_49 m outs c, List.forall_mem_cons.2 ⟨Karg21_49 m outs c, List.forall_mem_cons.2 ⟨Karg22_49 m outs c, List.forall_mem_cons.2 ⟨Karg23_49 m outs c, List.forall_mem_cons.2 ⟨Karg24_49 m outs c, List.forall_mem_cons.2 ⟨Karg25_49 m outs c, List.forall_mem_cons.2 ⟨Karg26_49 m outs c, List.forall_mem_cons.2 ⟨Karg27_49 m outs c, List.forall_mem_cons.2 ⟨Karg28_49 m outs c, List.forall_mem_cons.2 ⟨Karg29_49 m outs c, fun _ h => absurd h List.not_mem_nil⟩⟩⟩⟩⟩⟩⟩⟩⟩⟩⟩⟩⟩⟩⟩⟩⟩⟩⟩⟩⟩⟩⟩⟩⟩⟩⟩⟩⟩⟩
theorem Kkept_50 : ∀ r ∈ kargs, V50 m outs c r = m ((c : Thread nD τ).loc r) :=
  List.forall_mem_cons.2 ⟨Karg0_50 m outs c, List.forall_mem_cons.2 ⟨Karg1_50 m outs c, List.forall_mem_cons.2 ⟨Karg2_50 m outs c, List.forall_mem_cons.2 ⟨Karg3_50 m outs c, List.forall_mem_cons.2 ⟨Karg4_50 m outs c, List.forall_mem_cons.2 ⟨Karg5_50 m outs c, List.forall_mem_cons.2 ⟨Karg6_50 m outs c, List.forall_mem_cons.2 ⟨Karg7_50 m outs c, List.forall_mem_cons.2 ⟨Karg8_50 m outs c, List.forall_mem_cons.2 ⟨Karg9_50 m outs c, List.forall_mem_cons.2 ⟨Karg10_50 m outs c, List.forall_mem_cons.2 ⟨Karg11_50 m outs c, List.forall_mem_cons.2 ⟨Karg12_50 m outs c, List.forall_mem_cons.2 ⟨Karg13_50 m outs c, List.forall_mem_cons.2 ⟨Karg14_50 m outs c, List.forall_mem_cons.2 ⟨Karg15_50 m outs c, List.forall_mem_cons.2 ⟨Karg16_50 m outs c, List.forall_mem_cons.2 ⟨Karg17_50 m outs c, List.forall_mem_cons.2 ⟨Karg18_50 m outs c, List.forall_mem_cons.2 ⟨Karg19_50 m outs c, List.forall_mem_cons.2 ⟨Karg20_50 m outs c, List.forall_mem_cons.2 ⟨Karg21_50 m outs c, List.forall_mem_cons.2 ⟨Karg22_50 m outs c, List.forall_mem_cons.2 ⟨Karg23_50 m outs c, List.forall_mem_cons.2 ⟨Karg24_50 m outs c, List.forall_mem_cons.2 ⟨Karg25_50 m outs c, List.forall_mem_cons.2 ⟨Karg26_50 m outs c, List.forall_mem_cons.2 ⟨Karg27_50 m outs c, List.forall_mem_cons.2 ⟨Karg28_50 m outs c, List.forall_mem_cons.2 ⟨Karg29_50 m outs c, fun _ h => absurd h List.not_mem_nil⟩⟩⟩⟩⟩⟩⟩⟩⟩⟩⟩⟩⟩⟩⟩⟩⟩⟩⟩⟩⟩⟩⟩⟩⟩⟩⟩⟩⟩⟩
theorem Kkept_51 : ∀ r ∈ kargs, V51 m outs c r = m ((c : Thread nD τ).loc r) :=
  List.forall_mem_cons.2 ⟨Karg0_51 m outs c, List.forall_mem_cons.2 ⟨Karg1_51 m outs c, List.forall_mem_cons.2 ⟨Karg2_51 m outs c, List.forall_mem_cons.2 ⟨Karg3_51 m outs c, List.forall_mem_cons.2 ⟨Karg4_51 m outs c, List.forall_mem_cons.2 ⟨Karg5_51 m outs c, List.forall_mem_cons.2 ⟨Karg6_51 m outs c, List.forall_mem_cons.2 ⟨Karg7_51 m outs c, List.forall_mem_cons.2 ⟨Karg8_51 m outs c, List.forall_mem_cons.2 ⟨Karg9_51 m outs c, List.forall_mem_cons.2 ⟨Karg10_51 m outs c, List.forall_mem_cons.2 ⟨Karg11_51 m outs c, List.forall_mem_cons.2 ⟨Karg12_51 m outs c, List.forall_mem_cons.2 ⟨Karg13_51 m outs c, List.forall_mem_cons.2 ⟨Karg14_51 m outs c, List.forall_mem_cons.2 ⟨Karg15_51 m outs c, List.forall_mem_cons.2 ⟨Karg16_51 m outs c, List.forall_mem_cons.2 ⟨Karg17_51 m outs c, List.forall_mem_cons.2 ⟨Karg18_51 m outs c, List.forall_mem_cons.2 ⟨Karg19_51 m outs c, List.forall_mem_cons.2 ⟨Karg20_51 m outs c, List.forall_mem_cons.2 ⟨Karg21_51 m outs c, List.forall_mem_cons.2 ⟨Karg22_51 m outs c, List.forall_mem_cons.2 ⟨Karg23_51 m outs c, List.forall_mem_cons.2 ⟨Karg24_51 m outs c, List.forall_mem_cons.2 ⟨Karg25_51 m outs c, List.forall_mem_cons.2 ⟨Karg26_51 m outs c, List.forall_mem_cons.2 ⟨Karg27_51 m outs c, List.forall_mem_cons.2 ⟨Karg28_51 m outs c, List.forall_mem_cons.2 ⟨Karg29_51 m outs c, fun _ h => absurd h List.not_mem_nil⟩⟩⟩⟩⟩⟩⟩⟩⟩⟩⟩⟩⟩⟩⟩⟩⟩⟩⟩⟩⟩⟩⟩⟩⟩⟩⟩⟩⟩⟩
theorem Kkept_52 : ∀ r ∈ kargs, V52 m outs c r = m ((c : Thread nD τ).loc r) :=
  List.forall_mem_cons.2 ⟨Karg0_52 m outs c, List.forall_mem_cons.2 ⟨Karg1_52 m outs c, List.forall_mem_cons.2 ⟨Karg2_52 m outs c, List.forall_mem_cons.2 ⟨Karg3_52 m outs c, List.forall_mem_cons.2 ⟨Karg4_52 m outs c, List.forall_mem_cons.2 ⟨Karg5_52 m outs c, List.forall_mem_cons.2 ⟨Karg6_52 m outs c, List.forall_mem_cons.2 ⟨Karg7_52 m outs c, List.forall_mem_cons.2 ⟨Karg8_52 m outs c, List.forall_mem_cons.2 ⟨Karg9_52 m outs c, List.forall_mem_cons.2 ⟨Karg10_52 m outs c, List.forall_mem_cons.2 ⟨Karg11_52 m outs c, List.forall_mem_cons.2 ⟨Karg12_52 m outs c, List.forall_mem_cons.2 ⟨Karg13_52 m outs c, List.forall_mem_cons.2 ⟨Karg14_52 m outs c, List.forall_mem_cons.2 ⟨Karg15_52 m outs c, List.forall_mem_cons.2 ⟨Karg16_52 m outs c, List.forall_mem_cons.2 ⟨Karg17_52 m outs c, List.forall_mem_cons.2 ⟨Karg18_52 m outs c, List.forall_mem_cons.2 ⟨Karg19_52 m outs c, List.forall_mem_cons.2 ⟨Karg20_52 m outs c, List.forall_mem_cons.2 ⟨Karg21_52 m outs c, List.forall_mem_cons.2 ⟨Karg22_52 m outs c, List.forall_mem_cons.2 ⟨Karg23_52 m outs c, List.forall_mem_cons.2 ⟨Karg24_52 m outs c, List.forall_mem_cons.2 ⟨Karg25_52 m outs c, List.forall_mem_cons.2 ⟨Karg26_52 m outs c, List.forall_mem_cons.2 ⟨Karg27_52 m outs c, List.forall_mem_cons.2 ⟨Karg28_52 m outs c, List.forall_mem_cons.2 ⟨Karg29_52 m outs c, fun _ h => absurd h List.not_mem_nil⟩⟩⟩⟩⟩⟩⟩⟩⟩⟩⟩⟩⟩⟩⟩⟩⟩⟩⟩⟩⟩⟩⟩⟩⟩⟩⟩⟩⟩⟩
theorem Kkept_53 : ∀ r ∈ kargs, V53 m outs c r = m ((c : Thread nD τ).loc r) :=
  List.forall_mem_cons.2 ⟨Karg0_53 m outs c, List.forall_mem_cons.2 ⟨Karg1_53 m outs c, List.forall_mem_cons.2 ⟨Karg2_53 m outs c, List.forall_mem_cons.2 ⟨Karg3_53 m outs c, List.forall_mem_cons.2 ⟨Karg4_53 m outs c, List.forall_mem_cons.2 ⟨Karg5_53 m outs c, List.forall_mem_cons.2 ⟨Karg6_53 m outs c, List.forall_mem_cons.2 ⟨Karg7_53 m outs c, List.forall_mem_cons.2 ⟨Karg8_53 m outs c, List.forall_mem_cons.2 ⟨Karg9_53 m outs c, List.forall_mem_cons.2 ⟨Karg10_53 m outs c, List.forall_mem_cons.2 ⟨Karg11_53 m outs c, List.forall_mem_cons.2 ⟨Karg12_53 m outs c, List.forall_mem_cons.2 ⟨Karg13_53 m outs c, List.forall_mem_cons.2 ⟨Karg14_53 m outs c, List.forall_mem_cons.2 ⟨Karg15_53 m outs c, List.forall_mem_cons.2 ⟨Karg16_53 m outs c, List.forall_mem_cons.2 ⟨Karg17_53 m outs c, List.forall_mem_cons.2 ⟨Karg18_53 m outs c, List.forall_mem_cons.2 ⟨Karg19_53 m outs c, List.forall_mem_cons.2 ⟨Karg20_53 m outs c, List.forall_mem_cons.2 ⟨Karg21_53 m outs c, List.forall_mem_cons.2 ⟨Karg22_53 m outs c, List.forall_mem_cons.2 ⟨Karg23_53 m outs c, List.forall_mem_cons.2 ⟨Karg24_53 m outs c, List.forall_mem_cons.2 ⟨Karg25_53 m outs c, List.forall_mem_cons.2 ⟨Karg26_53 m outs c, List.forall_mem_cons.2 ⟨Karg27_53 m outs c, List.forall_mem_cons.2 ⟨Karg28_53 m outs c, List.forall_mem_cons.2 ⟨Karg29_53 m outs c, fun _ h => absurd h List.not_mem_nil⟩⟩⟩⟩⟩⟩⟩⟩⟩⟩⟩⟩⟩⟩⟩⟩⟩⟩⟩⟩⟩⟩⟩⟩⟩⟩⟩⟩⟩⟩
theorem Kkept_54 : ∀ r ∈ kargs, V54 m outs c r = m ((c : Thread nD τ).loc r) :=
  List.forall_mem_cons.2 ⟨Karg0_54 m outs c, List.forall_mem_cons.2 ⟨Karg1_54 m outs c, List.forall_mem_cons.2 ⟨Karg2_54 m outs c, List.forall_mem_cons.2 ⟨Karg3_54 m outs c, List.forall_mem_cons.2 ⟨Karg4_54 m outs c, List.forall_mem_cons.2 ⟨Karg5_54 m outs c, List.forall_mem_cons.2 ⟨Karg6_54 m outs c, List.forall_mem_cons.2 ⟨Karg7_54 m outs c, List.forall_mem_cons.2 ⟨Karg8_54 m outs c, List.forall_mem_cons.2 ⟨Karg9_54 m outs c, List.forall_mem_cons.2 ⟨Karg10_54 m outs c, List.forall_mem_cons.2 ⟨Karg11_54 m outs c, List.forall_mem_cons.2 ⟨Karg12_54 m outs c, List.forall_mem_cons.2 ⟨Karg13_54 m outs c, List.forall_mem_cons.2 ⟨Karg14_54 m outs c, List.forall_mem_cons.2 ⟨Karg15_54 m outs c, List.forall_mem_cons.2 ⟨Karg16_54 m outs c, List.forall_mem_cons.2 ⟨Karg17_54 m outs c, List.forall_mem_cons.2 ⟨Karg18_54 m outs c, List.forall_mem_cons.2 ⟨Karg19_54 m outs c, List.forall_mem_cons.2 ⟨Karg20_54 m outs c, List.forall_mem_cons.2 ⟨Karg21_54 m outs c, List.forall_mem_cons.2 ⟨Karg22_54 m outs c, List.forall_mem_cons.2 ⟨Karg23_54 m outs c, List.forall_mem_cons.2 ⟨Karg24_54 m outs c, List.forall_mem_cons.2 ⟨Karg25_54 m outs c, List.forall_mem_cons.2 ⟨Karg26_54 m outs c, List.forall_mem_cons.2 ⟨Karg27_54 m outs c, List.forall_mem_cons.2 ⟨Karg28_54 m outs c, List.forall_mem_cons.2 ⟨Karg29_54 m outs c, fun _ h => absurd h List.not_mem_nil⟩⟩⟩⟩⟩⟩⟩⟩⟩⟩⟩⟩⟩⟩⟩⟩⟩⟩⟩⟩⟩⟩⟩⟩⟩⟩⟩⟩⟩⟩
theorem Kkept_55 : ∀ r ∈ kargs, V55 m outs c r = m ((c : Thread nD τ).loc r) :=
  List.forall_mem_cons.2 ⟨Karg0_55 m outs c, List.forall_mem_cons.2 ⟨Karg1_55 m outs c, List.forall_mem_cons.2 ⟨Karg2_55 m outs c, List.forall_mem_cons.2 ⟨Karg3_55 m outs c, List.forall_mem_cons.2 ⟨Karg4_55 m outs c, List.forall_mem_cons.2 ⟨Karg5_55 m outs c, List.forall_mem_cons.2 ⟨Karg6_55 m outs c, List.forall_mem_cons.2 ⟨Karg7_55 m outs c, List.forall_mem_cons.2 ⟨Karg8_55 m outs c, List.forall_mem_cons.2 ⟨Karg9_55 m outs c, List.forall_mem_cons.2 ⟨Karg10_55 m outs c, List.forall_mem_cons.2 ⟨Karg11_55 m outs c, List.forall_mem_cons.2 ⟨Karg12_55 m outs c, List.forall_mem_cons.2 ⟨Karg13_55 m outs c, List.forall_mem_cons.2 ⟨Karg14_55 m outs c, List.forall_mem_cons.2 ⟨Karg15_55 m outs c, List.forall_mem_cons.2 ⟨Karg16_55 m outs c, List.forall_mem_cons.2 ⟨Karg17_55 m outs c, List.forall_mem_cons.2 ⟨Karg18_55 m outs c, List.forall_mem_cons.2 ⟨Karg19_55 m outs c, List.forall_mem_cons.2 ⟨Karg20_55 m outs c, List.forall_mem_cons.2 ⟨Karg21_55 m outs c, List.forall_mem_cons.2 ⟨Karg22_55 m outs c, List.forall_mem_cons.2 ⟨Karg23_55 m outs c, List.forall_mem_cons.2 ⟨Karg24_55 m outs c, List.forall_mem_cons.2 ⟨Karg25_55 m outs c, List.forall_mem_cons.2 ⟨Karg26_55 m outs c, List.forall_mem_cons.2 ⟨Karg27_55 m outs c, List.forall_mem_cons.2 ⟨Karg28_55 m outs c, List.forall_mem_cons.2 ⟨Karg29_55 m outs c, fun _ h => absurd h List.not_mem_nil⟩⟩⟩⟩⟩⟩⟩⟩⟩⟩⟩⟩⟩⟩⟩⟩⟩⟩⟩⟩⟩⟩⟩⟩⟩⟩⟩⟩⟩⟩
theorem Kkept_56 : ∀ r ∈ kargs, V56 m outs c r = m ((c : Thread nD τ).loc r) :=
  List.forall_mem_cons.2 ⟨Karg0_56 m outs c, List.forall_mem_cons.2 ⟨Karg1_56 m outs c, List.forall_mem_cons.2 ⟨Karg2_56 m outs c, List.forall_mem_cons.2 ⟨Karg3_56 m outs c, List.forall_mem_cons.2 ⟨Karg4_56 m outs c, List.forall_mem_cons.2 ⟨Karg5_56 m outs c, List.forall_mem_cons.2 ⟨Karg6_56 m outs c, List.forall_mem_cons.2 ⟨Karg7_56 m outs c, List.forall_mem_cons.2 ⟨Karg8_56 m outs c, List.forall_mem_cons.2 ⟨Karg9_56 m outs c, List.forall_mem_cons.2 ⟨Karg10_56 m outs c, List.forall_mem_cons.2 ⟨Karg11_56 m outs c, List.forall_mem_cons.2 ⟨Karg12_56 m outs c, List.forall_mem_cons.2 ⟨Karg13_56 m outs c, List.forall_mem_cons.2 ⟨Karg14_56 m outs c, List.forall_mem_cons.2 ⟨Karg15_56 m outs c, List.forall_mem_cons.2 ⟨Karg16_56 m outs c, List.forall_mem_cons.2 ⟨Karg17_56 m outs c, List.forall_mem_cons.2 ⟨Karg18_56 m outs c, List.forall_mem_cons.2 ⟨Karg19_56 m outs c, List.forall_mem_cons.2 ⟨Karg20_56 m outs c, List.forall_mem_cons.2 ⟨Karg21_56 m outs c, List.forall_mem_cons.2 ⟨Karg22_56 m outs c, List.forall_mem_cons.2 ⟨Karg23_56 m outs c, List.forall_mem_cons.2 ⟨Karg24_56 m outs c, List.forall_mem_cons.2 ⟨Karg25_56 m outs c, List.forall_mem_cons.2 ⟨Karg26_56 m outs c, List.forall_mem_cons.2 ⟨Karg27_56 m outs c, List.forall_mem_cons.2 ⟨Karg28_56 m outs c, List.forall_mem_cons.2 ⟨Karg29_56 m outs c, fun _ h => absurd h List.not_mem_nil⟩⟩⟩⟩⟩⟩⟩⟩⟩⟩⟩⟩⟩⟩⟩⟩⟩⟩⟩⟩⟩⟩⟩⟩⟩⟩⟩⟩⟩⟩
theorem Kkept_57 : ∀ r ∈ kargs, V57 m outs c r = m ((c : Thread nD τ).loc r) :=
  List.forall_mem_cons.2 ⟨Karg0_57 m outs c, List.forall_mem_cons.2 ⟨Karg1_57 m outs c, List.forall_mem_cons.2 ⟨Karg2_57 m outs c, List.forall_mem_cons.2 ⟨Karg3_57 m outs c, List.forall_mem_cons.2 ⟨Karg4_57 m outs c, List.forall_mem_cons.2 ⟨Karg5_57 m outs c, List.forall_mem_cons.2 ⟨Karg6_57 m outs c, List.forall_mem_cons.2 ⟨Karg7_57 m outs c, List.forall_mem_cons.2 ⟨Karg8_57 m outs c, List.forall_mem_cons.2 ⟨Karg9_57 m outs c, List.forall_mem_cons.2 ⟨Karg10_57 m outs c, List.forall_mem_cons.2 ⟨Karg11_57 m outs c, List.forall_mem_cons.2 ⟨Karg12_57 m outs c, List.forall_mem_cons.2 ⟨Karg13_57 m outs c, List.forall_mem_cons.2 ⟨Karg14_57 m outs c, List.forall_mem_cons.2 ⟨Karg15_57 m outs c, List.forall_mem_cons.2 ⟨Karg16_57 m outs c, List.forall_mem_cons.2 ⟨Karg17_57 m outs c, List.forall_mem_cons.2 ⟨Karg18_57 m outs c, List.forall_mem_cons.2 ⟨Karg19_57 m outs c, List.forall_mem_cons.2 ⟨Karg20_57 m outs c, List.forall_mem_cons.2 ⟨Karg21_57 m outs c, List.forall_mem_cons.2 ⟨Karg22_57 m outs c, List.forall_mem_cons.2 ⟨Karg23_57 m outs c, List.forall_mem_cons.2 ⟨Karg24_57 m outs c, List.forall_mem_cons.2 ⟨Karg25_57 m outs c, List.forall_mem_cons.2 ⟨Karg26_57 m outs c, List.forall_mem_cons.2 ⟨Karg27_57 m outs c, List.forall_mem_cons.2 ⟨Karg28_57 m outs c, List.forall_mem_cons.2 ⟨Karg29_57 m outs c, fun _ h => absurd h List.not_mem_nil⟩⟩⟩⟩⟩⟩⟩⟩⟩⟩⟩⟩⟩⟩⟩⟩⟩⟩⟩⟩⟩⟩⟩⟩⟩⟩⟩⟩⟩⟩
theorem Kkept_58 : ∀ r ∈ kargs, V58 m outs c r = m ((c : Thread nD τ).loc r) :=
  List.forall_mem_cons.2 ⟨Karg0_58 m outs c, List.forall_mem_cons.2 ⟨Karg1_58 m outs c, List.forall_mem_cons.2 ⟨Karg2_58 m outs c, List.forall_mem_cons.2 ⟨Karg3_58 m outs c, List.forall_mem_cons.2 ⟨Karg4_58 m outs c, List.forall_mem_cons.2 ⟨Karg5_58 m outs c, List.forall_mem_cons.2 ⟨Karg6_58 m outs c, List.forall_mem_cons.2 ⟨Karg7_58 m outs c, List.forall_mem_cons.2 ⟨Karg8_58 m outs c, List.forall_mem_cons.2 ⟨Karg9_58 m outs c, List.forall_mem_cons.2 ⟨Karg10_58 m outs c, List.forall_mem_cons.2 ⟨Karg11_58 m outs c, List.forall_mem_cons.2 ⟨Karg12_58 m outs c, List.forall_mem_cons.2 ⟨Karg13_58 m outs c, List.forall_mem_cons.2 ⟨Karg14_58 m outs c, List.forall_mem_cons.2 ⟨Karg15_58 m outs c, List.forall_mem_cons.2 ⟨Karg16_58 m outs c, List.forall_mem_cons.2 ⟨Karg17_58 m outs c, List.forall_mem_cons.2 ⟨Karg18_58 m outs c, List.forall_mem_cons.2 ⟨Karg19_58 m outs c, List.forall_mem_cons.2 ⟨Karg20_58 m outs c, List.forall_mem_cons.2 ⟨Karg21_58 m outs c, List.forall_mem_cons.2 ⟨Karg22_58 m outs c, List.forall_mem_cons.2 ⟨Karg23_58 m outs c, List.forall_mem_cons.2 ⟨Karg24_58 m outs c, List.forall_mem_cons.2 ⟨Karg25_58 m outs c, List.forall_mem_cons.2 ⟨Karg26_58 m outs c, List.forall_mem_cons.2 ⟨Karg27_58 m outs c, List.forall_mem_cons.2 ⟨Karg28_58 m outs c, List.forall_mem_cons.2 ⟨Karg29_58 m outs c, fun _ h => absurd h List.not_mem_nil⟩⟩⟩⟩⟩⟩⟩⟩⟩⟩⟩⟩⟩⟩⟩⟩⟩⟩⟩⟩⟩⟩⟩⟩⟩⟩⟩⟩⟩⟩
theorem Kkept_59 : ∀ r ∈ kargs, V59 m outs c r = m ((c : Thread nD τ).loc r) :=
  List.forall_mem_cons.2 ⟨Karg0_59 m outs c, List.forall_mem_cons.2 ⟨Karg1_59 m outs c, List.forall_mem_cons.2 ⟨Karg2_59 m outs c, List.forall_mem_cons.2 ⟨Karg3_59 m outs c, List.forall_mem_cons.2 ⟨Karg4_59 m outs c, List.forall_mem_cons.2 ⟨Karg5_59 m outs c, List.forall_mem_cons.2 ⟨Karg6_59 m outs c, List.forall_mem_cons.2 ⟨Karg7_59 m outs c, List.forall_mem_cons.2 ⟨Karg8_59 m outs c, List.forall_mem_cons.2 ⟨Karg9_59 m outs c, List.forall_mem_cons.2 ⟨Karg10_59 m outs c, List.forall_mem_cons.2 ⟨Karg11_59 m outs c, List.forall_mem_cons.2 ⟨Karg12_59 m outs c, List.forall_mem_cons.2 ⟨Karg13_59 m outs c, List.forall_mem_cons.2 ⟨Karg14_59 m outs c, List.forall_mem_cons.2 ⟨Karg15_59 m outs c, List.forall_mem_cons.2 ⟨Karg16_59 m outs c, List.forall_mem_cons.2 ⟨Karg17_59 m outs c, List.forall_mem_cons.2 ⟨Karg18_59 m outs c, List.forall_mem_cons.2 ⟨Karg19_59 m outs c, List.forall_mem_cons.2 ⟨Karg20_59 m outs c, List.forall_mem_cons.2 ⟨Karg21_59 m outs c, List.forall_mem_cons.2 ⟨Karg22_59 m outs c, List.forall_mem_cons.2 ⟨Karg23_59 m outs c, List.forall_mem_cons.2 ⟨Karg24_59 m outs c, List.forall_mem_cons.2 ⟨Karg25_59 m outs c, List.forall_mem_cons.2 ⟨Karg26_59 m outs c, List.forall_mem_cons.2 ⟨Karg27_59 m outs c, List.forall_mem_cons.2 ⟨Karg28_59 m outs c, List.forall_mem_cons.2 ⟨Karg29_59 m outs c, fun _ h => absurd h List.not_mem_nil⟩⟩⟩⟩⟩⟩⟩⟩⟩⟩⟩⟩⟩⟩⟩⟩⟩⟩⟩⟩⟩⟩⟩⟩⟩⟩⟩⟩⟩⟩
theorem Kkept_60 : ∀ r ∈ kargs, V60 m outs c r = m ((c : Thread nD τ).loc r) :=
  List.forall_mem_cons.2 ⟨Karg0_60 m outs c, List.forall_mem_cons.2 ⟨Karg1_60 m outs c, List.forall_mem_cons.2 ⟨Karg2_60 m outs c, List.forall_mem_cons.2 ⟨Karg3_60 m outs c, List.forall_mem_cons.2 ⟨Karg4_60 m outs c, List.forall_mem_cons.2 ⟨Karg5_60 m outs c, List.forall_mem_cons.2 ⟨Karg6_60 m outs c, List.forall_mem_cons.2 ⟨Karg7_60 m outs c, List.forall_mem_cons.2 ⟨Karg8_60 m outs c, List.forall_mem_cons.2 ⟨Karg9_60 m outs c, List.forall_mem_cons.2 ⟨Karg10_60 m outs c, List.forall_mem_cons.2 ⟨Karg11_60 m outs c, List.forall_mem_cons.2 ⟨Karg12_60 m outs c, List.forall_mem_cons.2 ⟨Karg13_60 m outs c, List.forall_mem_cons.2 ⟨Karg14_60 m outs c, List.forall_mem_cons.2 ⟨Karg15_60 m outs c, List.forall_mem_cons.2 ⟨Karg16_60 m outs c, List.forall_mem_cons.2 ⟨Karg17_60 m outs c, List.forall_mem_cons.2 ⟨Karg18_60 m outs c, List.forall_mem_cons.2 ⟨Karg19_60 m outs c, List.forall_mem_cons.2 ⟨Karg20_60 m outs c, List.forall_mem_cons.2 ⟨Karg21_60 m outs c, List.forall_mem_cons.2 ⟨Karg22_60 m outs c, List.forall_mem_cons.2 ⟨Karg23_60 m outs c, List.forall_mem_cons.2 ⟨Karg24_60 m outs c, List.forall_mem_cons.2 ⟨Karg25_60 m outs c, List.forall_mem_cons.2 ⟨Karg26_60 m outs c, List.forall_mem_cons.2 ⟨Karg27_60 m outs c, List.forall_mem_cons.2 ⟨Karg28_60 m outs c, List.forall_mem_cons.2 ⟨Karg29_60 m outs c, fun _ h => absurd h List.not_mem_nil⟩⟩⟩⟩⟩⟩⟩⟩⟩⟩⟩⟩⟩⟩⟩⟩⟩⟩⟩⟩⟩⟩⟩⟩⟩⟩⟩⟩⟩⟩
theorem Kkept_61 : ∀ r ∈ kargs, V61 m outs c r = m ((c : Thread nD τ).loc r) :=
  List.forall_mem_cons.2 ⟨Karg0_61 m outs c, List.forall_mem_cons.2 ⟨Karg1_61 m outs c, List.forall_mem_cons.2 ⟨Karg2_61 m outs c, List.forall_mem_cons.2 ⟨Karg3_61 m outs c, List.forall_mem_cons.2 ⟨Karg4_61 m outs c, List.forall_mem_cons.2 ⟨Karg5_61 m outs c, List.forall_mem_cons.2 ⟨Karg6_61 m outs c, List.forall_mem_cons.2 ⟨Karg7_61 m outs c, List.forall_mem_cons.2 ⟨Karg8_61 m outs c, List.forall_mem_cons.2 ⟨Karg9_61 m outs c, List.forall_mem_cons.2 ⟨Karg10_61 m outs c, List.forall_mem_cons.2 ⟨Karg11_61 m outs c, List.forall_mem_cons.2 ⟨Karg12_61 m outs c, List.forall_mem_cons.2 ⟨Karg13_61 m outs c, List.forall_mem_cons.2 ⟨Karg14_61 m outs c, List.forall_mem_cons.2 ⟨Karg15_61 m outs c, List.forall_mem_cons.2 ⟨Karg16_61 m outs c, List.forall_mem_cons.2 ⟨Karg17_61 m outs c, List.forall_mem_cons.2 ⟨Karg18_61 m outs c, List.forall_mem_cons.2 ⟨Karg19_61 m outs c, List.forall_mem_cons.2 ⟨Karg20_61 m outs c, List.forall_mem_cons.2 ⟨Karg21_61 m outs c, List.forall_mem_cons.2 ⟨Karg22_61 m outs c, List.forall_mem_cons.2 ⟨Karg23_61 m outs c, List.forall_mem_cons.2 ⟨Karg24_61 m outs c, List.forall_mem_cons.2 ⟨Karg25_61 m outs c, List.forall_mem_cons.2 ⟨Karg26_61 m outs c, List.forall_mem_cons.2 ⟨Karg27_61 m outs c, List.forall_mem_cons.2 ⟨Karg28_61 m outs c, List.forall_mem_cons.2 ⟨Karg29_61 m outs c, fun _ h => absurd h List.not_mem_nil⟩⟩⟩⟩⟩⟩⟩⟩⟩⟩⟩⟩⟩⟩⟩⟩⟩⟩⟩⟩⟩⟩⟩⟩⟩⟩⟩⟩⟩⟩
theorem Kkept_62 : ∀ r ∈ kargs, V62 m outs c r = m ((c : Thread nD τ).loc r) :=
  List.forall_mem_cons.2 ⟨Karg0_62 m outs c, List.forall_mem_cons.2 ⟨Karg1_62 m outs c, List.forall_mem_cons.2 ⟨Karg2_62 m outs c, List.forall_mem_cons.2 ⟨Karg3_62 m outs c, List.forall_mem_cons.2 ⟨Karg4_62 m outs c, List.forall_mem_cons.2 ⟨Karg5_62 m outs c, List.forall_mem_cons.2 ⟨Karg6_62 m outs c, List.forall_mem_cons.2 ⟨Karg7_62 m outs c, List.forall_mem_cons.2 ⟨Karg8_62 m outs c, List.forall_mem_cons.2 ⟨Karg9_62 m outs c, List.forall_mem_cons.2 ⟨Karg10_62 m outs c, List.forall_mem_cons.2 ⟨Karg11_62 m outs c, List.forall_mem_cons.2 ⟨Karg12_62 m outs c, List.forall_mem_cons.2 ⟨Karg13_62 m outs c, List.forall_mem_cons.2 ⟨Karg14_62 m outs c, List.forall_mem_cons.2 ⟨Karg15_62 m outs c, List.forall_mem_cons.2 ⟨Karg16_62 m outs c, List.forall_mem_cons.2 ⟨Karg17_62 m outs c, List.forall_mem_cons.2 ⟨Karg18_62 m outs c, List.forall_mem_cons.2 ⟨Karg19_62 m outs c, List.forall_mem_cons.2 ⟨Karg20_62 m outs c, List.forall_mem_cons.2 ⟨Karg21_62 m outs c, List.forall_mem_cons.2 ⟨Karg22_62 m outs c, List.forall_mem_cons.2 ⟨Karg23_62 m outs c, List.forall_mem_cons.2 ⟨Karg24_62 m outs c, List.forall_mem_cons.2 ⟨Karg25_62 m outs c, List.forall_mem_cons.2 ⟨Karg26_62 m outs c, List.forall_mem_cons.2 ⟨Karg27_62 m outs c, List.forall_mem_cons.2 ⟨Karg28_62 m outs c, List.forall_mem_cons.2 ⟨Karg29_62 m outs c, fun _ h => absurd h List.not_mem_nil⟩⟩⟩⟩⟩⟩⟩⟩⟩⟩⟩⟩⟩⟩⟩⟩⟩⟩⟩⟩⟩⟩⟩⟩⟩⟩⟩⟩⟩⟩
theorem Kkept_63 : ∀ r ∈ kargs, V63 m outs c r = m ((c : Thread nD τ).loc r) :=
  List.forall_mem_cons.2 ⟨Karg0_63 m outs c, List.forall_mem_cons.2 ⟨Karg1_63 m outs c, List.forall_mem_cons.2 ⟨Karg2_63 m outs c, List.forall_mem_cons.2 ⟨Karg3_63 m outs c, List.forall_mem_cons.2 ⟨Karg4_63 m outs c, List.forall_mem_cons.2 ⟨Karg5_63 m outs c, List.forall_mem_cons.2 ⟨Karg6_63 m outs c, List.forall_mem_cons.2 ⟨Karg7_63 m outs c, List.forall_mem_cons.2 ⟨Karg8_63 m outs c, List.forall_mem_cons.2 ⟨Karg9_63 m outs c, List.forall_mem_cons.2 ⟨Karg10_63 m outs c, List.forall_mem_cons.2 ⟨Karg11_63 m outs c, List.forall_mem_cons.2 ⟨Karg12_63 m outs c, List.forall_mem_cons.2 ⟨Karg13_63 m outs c, List.forall_mem_cons.2 ⟨Karg14_63 m outs c, List.forall_mem_cons.2 ⟨Karg15_63 m outs c, List.forall_mem_cons.2 ⟨Karg16_63 m outs c, List.forall_mem_cons.2 ⟨Karg17_63 m outs c, List.forall_mem_cons.2 ⟨Karg18_63 m outs c, List.forall_mem_cons.2 ⟨Karg19_63 m outs c, List.forall_mem_cons.2 ⟨Karg20_63 m outs c, List.forall_mem_cons.2 ⟨Karg21_63 m outs c, List.forall_mem_cons.2 ⟨Karg22_63 m outs c, List.forall_mem_cons.2 ⟨Karg23_63 m outs c, List.forall_mem_cons.2 ⟨Karg24_63 m outs c, List.forall_mem_cons.2 ⟨Karg25_63 m outs c, List.forall_mem_cons.2 ⟨Karg26_63 m outs c, List.forall_mem_cons.2 ⟨Karg27_63 m outs c, List.forall_mem_cons.2 ⟨Karg28_63 m outs c, List.forall_mem_cons.2 ⟨Karg29_63 m outs c, fun _ h => absurd h List.not_mem_nil⟩⟩⟩⟩⟩⟩⟩⟩⟩⟩⟩⟩⟩⟩⟩⟩⟩⟩⟩⟩⟩⟩⟩⟩⟩⟩⟩⟩⟩⟩
theorem Kkept_64 : ∀ r ∈ kargs, V64 m outs c r = m ((c : Thread nD τ).loc r) :=
  List.forall_mem_cons.2 ⟨Karg0_64 m outs c, List.forall_mem_cons.2 ⟨Karg1_64 m outs c, List.forall_mem_cons.2 ⟨Karg2_64 m outs c, List.forall_mem_cons.2 ⟨Karg3_64 m outs c, List.forall_mem_cons.2 ⟨Karg4_64 m outs c, List.forall_mem_cons.2 ⟨Karg5_64 m outs c, List.forall_mem_cons.2 ⟨Karg6_64 m outs c, List.forall_mem_cons.2 ⟨Karg7_64 m outs c, List.forall_mem_cons.2 ⟨Karg8_64 m outs c, List.forall_mem_cons.2 ⟨Karg9_64 m outs c, List.forall_mem_cons.2 ⟨Karg10_64 m outs c, List.forall_mem_cons.2 ⟨Karg11_64 m outs c, List.forall_mem_cons.2 ⟨Karg12_64 m outs c, List.forall_mem_cons.2 ⟨Karg13_64 m outs c, List.forall_mem_cons.2 ⟨Karg14_64 m outs c, List.forall_mem_cons.2 ⟨Karg15_64 m outs c, List.forall_mem_cons.2 ⟨Karg16_64 m outs c, List.forall_mem_cons.2 ⟨Karg17_64 m outs c, List.forall_mem_cons.2 ⟨Karg18_64 m outs c, List.forall_mem_cons.2 ⟨Karg19_64 m outs c, List.forall_mem_cons.2 ⟨Karg20_64 m outs c, List.forall_mem_cons.2 ⟨Karg21_64 m outs c, List.forall_mem_cons.2 ⟨Karg22_64 m outs c, List.forall_mem_cons.2 ⟨Karg23_64 m outs c, List.forall_mem_cons.2 ⟨Karg24_64 m outs c, List.forall_mem_cons.2 ⟨Karg25_64 m outs c, List.forall_mem_cons.2 ⟨Karg26_64 m outs c, List.forall_mem_cons.2 ⟨Karg27_64 m outs c, List.forall_mem_cons.2 ⟨Karg28_64 m outs c, List.forall_mem_cons.2 ⟨Karg29_64 m outs c, fun _ h => absurd h List.not_mem_nil⟩⟩⟩⟩⟩⟩⟩⟩⟩⟩⟩⟩⟩⟩⟩⟩⟩⟩⟩⟩⟩⟩⟩⟩⟩⟩⟩⟩⟩⟩
theorem Kkept_65 : ∀ r ∈ kargs, V65 m outs c r = m ((c : Thread nD τ).loc r) :=
  List.forall_mem_cons.2 ⟨Karg0_65 m outs c, List.forall_mem_cons.2 ⟨Karg1_65 m outs c, List.forall_mem_cons.2 ⟨Karg2_65 m outs c, List.forall_mem_cons.2 ⟨Karg3_65 m outs c, List.forall_mem_cons.2 ⟨Karg4_65 m outs c, List.forall_mem_cons.2 ⟨Karg5_65 m outs c, List.forall_mem_cons.2 ⟨Karg6_65 m outs c, List.forall_mem_cons.2 ⟨Karg7_65 m outs c, List.forall_mem_cons.2 ⟨Karg8_65 m outs c, List.forall_mem_cons.2 ⟨Karg9_65 m outs c, List.forall_mem_cons.2 ⟨Karg10_65 m outs c, List.forall_mem_cons.2 ⟨Karg11_65 m outs c, List.forall_mem_cons.2 ⟨Karg12_65 m outs c, List.forall_mem_cons.2 ⟨Karg13_65 m outs c, List.forall_mem_cons.2 ⟨Karg14_65 m outs c, List.forall_mem_cons.2 ⟨Karg15_65 m outs c, List.forall_mem_cons.2 ⟨Karg16_65 m outs c, List.forall_mem_cons.2 ⟨Karg17_65 m outs c, List.forall_mem_cons.2 ⟨Karg18_65 m outs c, List.forall_mem_cons.2 ⟨Karg19_65 m outs c, List.forall_mem_cons.2 ⟨Karg20_65 m outs c, List.forall_mem_cons.2 ⟨Karg21_65 m outs c, List.forall_mem_cons.2 ⟨Karg22_65 m outs c, List.forall_mem_cons.2 ⟨Karg23_65 m outs c, List.forall_mem_cons.2 ⟨Karg24_65 m outs c, List.forall_mem_cons.2 ⟨Karg25_65 m outs c, List.forall_mem_cons.2 ⟨Karg26_65 m outs c, List.forall_mem_cons.2 ⟨Karg27_65 m outs c, List.forall_mem_cons.2 ⟨Karg28_65 m outs c, List.forall_mem_cons.2 ⟨Karg29_65 m outs c, fun _ h => absurd h List.not_mem_nil⟩⟩⟩⟩⟩⟩⟩⟩⟩⟩⟩⟩⟩⟩⟩⟩⟩⟩⟩⟩⟩⟩⟩⟩⟩⟩⟩⟩⟩⟩
theorem Kkept_66 : ∀ r ∈ kargs, V66 m outs c r = m ((c : Thread nD τ).loc r) :=
  List.forall_mem_cons.2 ⟨Karg0_66 m outs c, List.forall_mem_cons.2 ⟨Karg1_66 m outs c, List.forall_mem_cons.2 ⟨Karg2_66 m outs c, List.forall_mem_cons.2 ⟨Karg3_66 m outs c, List.forall_mem_cons.2 ⟨Karg4_66 m outs c, List.forall_mem_cons.2 ⟨Karg5_66 m outs c, List.forall_mem_cons.2 ⟨Karg6_66 m outs c, List.forall_mem_cons.2 ⟨Karg7_66 m outs c, List.forall_mem_cons.2 ⟨Karg8_66 m outs c, List.forall_mem_cons.2 ⟨Karg9_66 m outs c, List.forall_mem_cons.2 ⟨Karg10_66 m outs c, List.forall_mem_cons.2 ⟨Karg11_66 m outs c, List.forall_mem_cons.2 ⟨Karg12_66 m outs c, List.forall_mem_cons.2 ⟨Karg13_66 m outs c, List.forall_mem_cons.2 ⟨Karg14_66 m outs c, List.forall_mem_cons.2 ⟨Karg15_66 m outs c, List.forall_mem_cons.2 ⟨Karg16_66 m outs c, List.forall_mem_cons.2 ⟨Karg17_66 m outs c, List.forall_mem_cons.2 ⟨Karg18_66 m outs c, List.forall_mem_cons.2 ⟨Karg19_66 m outs c, List.forall_mem_cons.2 ⟨Karg20_66 m outs c, List.forall_mem_cons.2 ⟨Karg21_66 m outs c, List.forall_mem_cons.2 ⟨Karg22_66 m outs c, List.forall_mem_cons.2 ⟨Karg23_66 m outs c, List.forall_mem_cons.2 ⟨Karg24_66 m outs c, List.forall_mem_cons.2 ⟨Karg25_66 m outs c, List.forall_mem_cons.2 ⟨Karg26_66 m outs c, List.forall_mem_cons.2 ⟨Karg27_66 m outs c, List.forall_mem_cons.2 ⟨Karg28_66 m outs c, List.forall_mem_cons.2 ⟨Karg29_66 m outs c, fun _ h => absurd h List.not_mem_nil⟩⟩⟩⟩⟩⟩⟩⟩⟩⟩⟩⟩⟩⟩⟩⟩⟩⟩⟩⟩⟩⟩⟩⟩⟩⟩⟩⟩⟩⟩
theorem Kkept_67 : ∀ r ∈ kargs, V67 m outs c r = m ((c : Thread nD τ).loc r) :=
  List.forall_mem_cons.2 ⟨Karg0_67 m outs c, List.forall_mem_cons.2 ⟨Karg1_67 m outs c, List.forall_mem_cons.2 ⟨Karg2_67 m outs c, List.forall_mem_cons.2 ⟨Karg3_67 m outs c, List.forall_mem_cons.2 ⟨Karg4_67 m outs c, List.forall_mem_cons.2 ⟨Karg5_67 m outs c, List.forall_mem_cons.2 ⟨Karg6_67 m outs c, List.forall_mem_cons.2 ⟨Karg7_67 m outs c, List.forall_mem_cons.2 ⟨Karg8_67 m outs c, List.forall_mem_cons.2 ⟨Karg9_67 m outs c, List.forall_mem_cons.2 ⟨Karg10_67 m outs c, List.forall_mem_cons.2 ⟨Karg11_67 m outs c, List.forall_mem_cons.2 ⟨Karg12_67 m outs c, List.forall_mem_cons.2 ⟨Karg13_67 m outs c, List.forall_mem_cons.2 ⟨Karg14_67 m outs c, List.forall_mem_cons.2 ⟨Karg15_67 m outs c, List.forall_mem_cons.2 ⟨Karg16_67 m outs c, List.forall_mem_cons.2 ⟨Karg17_67 m outs c, List.forall_mem_cons.2 ⟨Karg18_67 m outs c, List.forall_mem_cons.2 ⟨Karg19_67 m outs c, List.forall_mem_cons.2 ⟨Karg20_67 m outs c, List.forall_mem_cons.2 ⟨Karg21_67 m outs c, List.forall_mem_cons.2 ⟨Karg22_67 m outs c, List.forall_mem_cons.2 ⟨Karg23_67 m outs c, List.forall_mem_cons.2 ⟨Karg24_67 m outs c, List.forall_mem_cons.2 ⟨Karg25_67 m outs c, List.forall_mem_cons.2 ⟨Karg26_67 m outs c, List.forall_mem_cons.2 ⟨Karg27_67 m outs c, List.forall_mem_cons.2 ⟨Karg28_67 m outs c, List.forall_mem_cons.2 ⟨Karg29_67 m outs c, fun _ h => absurd h List.not_mem_nil⟩⟩⟩⟩⟩⟩⟩⟩⟩⟩⟩⟩⟩⟩⟩⟩⟩⟩⟩⟩⟩⟩⟩⟩⟩⟩⟩⟩⟩⟩
theorem Kkept_68 : ∀ r ∈ kargs, V68 m outs c r = m ((c : Thread nD τ).loc r) :=
  List.forall_mem_cons.2 ⟨Karg0_68 m outs c, List.forall_mem_cons.2 ⟨Karg1_68 m outs c, List.forall_mem_cons.2 ⟨Karg2_68 m outs c, List.forall_mem_cons.2 ⟨Karg3_68 m outs c, List.forall_mem_cons.2 ⟨Karg4_68 m outs c, List.forall_mem_cons.2 ⟨Karg5_68 m outs c, List.forall_mem_cons.2 ⟨Karg6_68 m outs c, List.forall_mem_cons.2 ⟨Karg7_68 m outs c, List.forall_mem_cons.2 ⟨Karg8_68 m outs c, List.forall_mem_cons.2 ⟨Karg9_68 m outs c, List.forall_mem_cons.2 ⟨Karg10_68 m outs c, List.forall_mem_cons.2 ⟨Karg11_68 m outs c, List.forall_mem_cons.2 ⟨Karg12_68 m outs c, List.forall_mem_cons.2 ⟨Karg13_68 m outs c, List.forall_mem_cons.2 ⟨Karg14_68 m outs c, List.forall_mem_cons.2 ⟨Karg15_68 m outs c, List.forall_mem_cons.2 ⟨Karg16_68 m outs c, List.forall_mem_cons.2 ⟨Karg17_68 m outs c, List.forall_mem_cons.2 ⟨Karg18_68 m outs c, List.forall_mem_cons.2 ⟨Karg19_68 m outs c, List.forall_mem_cons.2 ⟨Karg20_68 m outs c, List.forall_mem_cons.2 ⟨Karg21_68 m outs c, List.forall_mem_cons.2 ⟨Karg22_68 m outs c, List.forall_mem_cons.2 ⟨Karg23_68 m outs c, List.forall_mem_cons.2 ⟨Karg24_68 m outs c, List.forall_mem_cons.2 ⟨Karg25_68 m outs c, List.forall_mem_cons.2 ⟨Karg26_68 m outs c, List.forall_mem_cons.2 ⟨Karg27_68 m outs c, List.forall_mem_cons.2 ⟨Karg28_68 m outs c, List.forall_mem_cons.2 ⟨Karg29_68 m outs c, fun _ h => absurd h List.not_mem_nil⟩⟩⟩⟩⟩⟩⟩⟩⟩⟩⟩⟩⟩⟩⟩⟩⟩⟩⟩⟩⟩⟩⟩⟩⟩⟩⟩⟩⟩⟩
theorem Kkept_69 : ∀ r ∈ kargs, V69 m outs c r = m ((c : Thread nD τ).loc r) :=
  List.forall_mem_cons.2 ⟨Karg0_69 m outs c, List.forall_mem_cons.2 ⟨Karg1_69 m outs c, List.forall_mem_cons.2 ⟨Karg2_69 m outs c, List.forall_mem_cons.2 ⟨Karg3_69 m outs c, List.forall_mem_cons.2 ⟨Karg4_69 m outs c, List.forall_mem_cons.2 ⟨Karg5_69 m outs c, List.forall_mem_cons.2 ⟨Karg6_69 m outs c, List.forall_mem_cons.2 ⟨Karg7_69 m outs c, List.forall_mem_cons.2 ⟨Karg8_69 m outs c, List.forall_mem_cons.2 ⟨Karg9_69 m outs c, List.forall_mem_cons.2 ⟨Karg10_69 m outs c, List.forall_mem_cons.2 ⟨Karg11_69 m outs c, List.forall_mem_cons.2 ⟨Karg12_69 m outs c, List.forall_mem_cons.2 ⟨Karg13_69 m outs c, List.forall_mem_cons.2 ⟨Karg14_69 m outs c, List.forall_mem_cons.2 ⟨Karg15_69 m outs c, List.forall_mem_cons.2 ⟨Karg16_69 m outs c, List.forall_mem_cons.2 ⟨Karg17_69 m outs c, List.forall_mem_cons.2 ⟨Karg18_69 m outs c, List.forall_mem_cons.2 ⟨Karg19_69 m outs c, List.forall_mem_cons.2 ⟨Karg20_69 m outs c, List.forall_mem_cons.2 ⟨Karg21_69 m outs c, List.forall_mem_cons.2 ⟨Karg22_69 m outs c, List.forall_mem_cons.2 ⟨Karg23_69 m outs c, List.forall_mem_cons.2 ⟨Karg24_69 m outs c, List.forall_mem_cons.2 ⟨Karg25_69 m outs c, List.forall_mem_cons.2 ⟨Karg26_69 m outs c, List.forall_mem_cons.2 ⟨Karg27_69 m outs c, List.forall_mem_cons.2 ⟨Karg28_69 m outs c, List.forall_mem_cons.2 ⟨Karg29_69 m outs c, fun _ h => absurd h List.not_mem_nil⟩⟩⟩⟩⟩⟩⟩⟩⟩⟩⟩⟩⟩⟩⟩⟩⟩⟩⟩⟩⟩⟩⟩⟩⟩⟩⟩⟩⟩⟩
theorem Kkept_70 : ∀ r ∈ kargs, V70 m outs c r = m ((c : Thread nD τ).loc r) :=
  List.forall_mem_cons.2 ⟨Karg0_70 m outs c, List.forall_mem_cons.2 ⟨Karg1_70 m outs c, List.forall_mem_cons.2 ⟨Karg2_70 m outs c, List.forall_mem_cons.2 ⟨Karg3_70 m outs c, List.forall_mem_cons.2 ⟨Karg4_70 m outs c, List.forall_mem_cons.2 ⟨Karg5_70 m outs c, List.forall_mem_cons.2 ⟨Karg6_70 m outs c, List.forall_mem_cons.2 ⟨Karg7_70 m outs c, List.forall_mem_cons.2 ⟨Karg8_70 m outs c, List.forall_mem_cons.2 ⟨Karg9_70 m outs c, List.forall_mem_cons.2 ⟨Karg10_70 m outs c, List.forall_mem_cons.2 ⟨Karg11_70 m outs c, List.forall_mem_cons.2 ⟨Karg12_70 m outs c, List.forall_mem_cons.2 ⟨Karg13_70 m outs c, List.forall_mem_cons.2 ⟨Karg14_70 m outs c, List.forall_mem_cons.2 ⟨Karg15_70 m outs c, List.forall_mem_cons.2 ⟨Karg16_70 m outs c, List.forall_mem_cons.2 ⟨Karg17_70 m outs c, List.forall_mem_cons.2 ⟨Karg18_70 m outs c, List.forall_mem_cons.2 ⟨Karg19_70 m outs c, List.forall_mem_cons.2 ⟨Karg20_70 m outs c, List.forall_mem_cons.2 ⟨Karg21_70 m outs c, List.forall_mem_cons.2 ⟨Karg22_70 m outs c, List.forall_mem_cons.2 ⟨Karg23_70 m outs c, List.forall_mem_cons.2 ⟨Karg24_70 m outs c, List.forall_mem_cons.2 ⟨Karg25_70 m outs c, List.forall_mem_cons.2 ⟨Karg26_70 m outs c, List.forall_mem_cons.2 ⟨Karg27_70 m outs c, List.forall_mem_cons.2 ⟨Karg28_70 m outs c, List.forall_mem_cons.2 ⟨Karg29_70 m outs c, fun _ h => absurd h List.not_mem_nil⟩⟩⟩⟩⟩⟩⟩⟩⟩⟩⟩⟩⟩⟩⟩⟩⟩⟩⟩⟩⟩⟩⟩⟩⟩⟩⟩⟩⟩⟩
theorem Kkept_71 : ∀ r ∈ kargs, V71 m outs c r = m ((c : Thread nD τ).loc r) :=
  List.forall_mem_cons.2 ⟨Karg0_71 m outs c, List.forall_mem_cons.2 ⟨Karg1_71 m outs c, List.forall_mem_cons.2 ⟨Karg2_71 m outs c, List.forall_mem_cons.2 ⟨Karg3_71 m outs c, List.forall_mem_cons.2 ⟨Karg4_71 m outs c, List.forall_mem_cons.2 ⟨Karg5_71 m outs c, List.forall_mem_cons.2 ⟨Karg6_71 m outs c, List.forall_mem_cons.2 ⟨Karg7_71 m outs c, List.forall_mem_cons.2 ⟨Karg8_71 m outs c, List.forall_mem_cons.2 ⟨Karg9_71 m outs c, List.forall_mem_cons.2 ⟨Karg10_71 m outs c, List.forall_mem_cons.2 ⟨Karg11_71 m outs c, List.forall_mem_cons.2 ⟨Karg12_71 m outs c, List.forall_mem_cons.2 ⟨Karg13_71 m outs c, List.forall_mem_cons.2 ⟨Karg14_71 m outs c, List.forall_mem_cons.2 ⟨Karg15_71 m outs c, List.forall_mem_cons.2 ⟨Karg16_71 m outs c, List.forall_mem_cons.2 ⟨Karg17_71 m outs c, List.forall_mem_cons.2 ⟨Karg18_71 m outs c, List.forall_mem_cons.2 ⟨Karg19_71 m outs c, List.forall_mem_cons.2 ⟨Karg20_71 m outs c, List.forall_mem_cons.2 ⟨Karg21_71 m outs c, List.forall_mem_cons.2 ⟨Karg22_71 m outs c, List.forall_mem_cons.2 ⟨Karg23_71 m outs c, List.forall_mem_cons.2 ⟨Karg24_71 m outs c, List.forall_mem_cons.2 ⟨Karg25_71 m outs c, List.forall_mem_cons.2 ⟨Karg26_71 m outs c, List.forall_mem_cons.2 ⟨Karg27_71 m outs c, List.forall_mem_cons.2 ⟨Karg28_71 m outs c, List.forall_mem_cons.2 ⟨Karg29_71 m outs c, fun _ h => absurd h List.not_mem_nil⟩⟩⟩⟩⟩⟩⟩⟩⟩⟩⟩⟩⟩⟩⟩⟩⟩⟩⟩⟩⟩⟩⟩⟩⟩⟩⟩⟩⟩⟩
theorem Kkept_72 : ∀ r ∈ kargs, V72 m outs c r = m ((c : Thread nD τ).loc r) :=
  List.forall_mem_cons.2 ⟨Karg0_72 m outs c, List.forall_mem_cons.2 ⟨Karg1_72 m outs c, List.forall_mem_cons.2 ⟨Karg2_72 m outs c, List.forall_mem_cons.2 ⟨Karg3_72 m outs c, List.forall_mem_cons.2 ⟨Karg4_72 m outs c, List.forall_mem_cons.2 ⟨Karg5_72 m outs c, List.forall_mem_cons.2 ⟨Karg6_72 m outs c, List.forall_mem_cons.2 ⟨Karg7_72 m outs c, List.forall_mem_cons.2 ⟨Karg8_72 m outs c, List.forall_mem_cons.2 ⟨Karg9_72 m outs c, List.forall_mem_cons.2 ⟨Karg10_72 m outs c, List.forall_mem_cons.2 ⟨Karg11_72 m outs c, List.forall_mem_cons.2 ⟨Karg12_72 m outs c, List.forall_mem_cons.2 ⟨Karg13_72 m outs c, List.forall_mem_cons.2 ⟨Karg14_72 m outs c, List.forall_mem_cons.2 ⟨Karg15_72 m outs c, List.forall_mem_cons.2 ⟨Karg16_72 m outs c, List.forall_mem_cons.2 ⟨Karg17_72 m outs c, List.forall_mem_cons.2 ⟨Karg18_72 m outs c, List.forall_mem_cons.2 ⟨Karg19_72 m outs c, List.forall_mem_cons.2 ⟨Karg20_72 m outs c, List.forall_mem_cons.2 ⟨Karg21_72 m outs c, List.forall_mem_cons.2 ⟨Karg22_72 m outs c, List.forall_mem_cons.2 ⟨Karg23_72 m outs c, List.forall_mem_cons.2 ⟨Karg24_72 m outs c, List.forall_mem_cons.2 ⟨Karg25_72 m outs c, List.forall_mem_cons.2 ⟨Karg26_72 m outs c, List.forall_mem_cons.2 ⟨Karg27_72 m outs c, List.forall_mem_cons.2 ⟨Karg28_72 m outs c, List.forall_mem_cons.2 ⟨Karg29_72 m outs c, fun _ h => absurd h List.not_mem_nil⟩⟩⟩⟩⟩⟩⟩⟩⟩⟩⟩⟩⟩⟩⟩⟩⟩⟩⟩⟩⟩⟩⟩⟩⟩⟩⟩⟩⟩⟩
theorem Kkept_73 : ∀ r ∈ kargs, V73 m outs c r = m ((c : Thread nD τ).loc r) :=
  List.forall_mem_cons.2 ⟨Karg0_73 m outs c, List.forall_mem_cons.2 ⟨Karg1_73 m outs c, List.forall_mem_cons.2 ⟨Karg2_73 m outs c, List.forall_mem_cons.2 ⟨Karg3_73 m outs c, List.forall_mem_cons.2 ⟨Karg4_73 m outs c, List.forall_mem_cons.2 ⟨Karg5_73 m outs c, List.forall_mem_cons.2 ⟨Karg6_73 m outs c, List.forall_mem_cons.2 ⟨Karg7_73 m outs c, List.forall_mem_cons.2 ⟨Karg8_73 m outs c, List.forall_mem_cons.2 ⟨Karg9_73 m outs c, List.forall_mem_cons.2 ⟨Karg10_73 m outs c, List.forall_mem_cons.2 ⟨Karg11_73 m outs c, List.forall_mem_cons.2 ⟨Karg12_73 m outs c, List.forall_mem_cons.2 ⟨Karg13_73 m outs c, List.forall_mem_cons.2 ⟨Karg14_73 m outs c, List.forall_mem_cons.2 ⟨Karg15_73 m outs c, List.forall_mem_cons.2 ⟨Karg16_73 m outs c, List.forall_mem_cons.2 ⟨Karg17_73 m outs c, List.forall_mem_cons.2 ⟨Karg18_73 m outs c, List.forall_mem_cons.2 ⟨Karg19_73 m outs c, List.forall_mem_cons.2 ⟨Karg20_73 m outs c, List.forall_mem_cons.2 ⟨Karg21_73 m outs c, List.forall_mem_cons.2 ⟨Karg22_73 m outs c, List.forall_mem_cons.2 ⟨Karg23_73 m outs c, List.forall_mem_cons.2 ⟨Karg24_73 m outs c, List.forall_mem_cons.2 ⟨Karg25_73 m outs c, List.forall_mem_cons.2 ⟨Karg26_73 m outs c, List.forall_mem_cons.2 ⟨Karg27_73 m outs c, List.forall_mem_cons.2 ⟨Karg28_73 m outs c, List.forall_mem_cons.2 ⟨Karg29_73 m outs c, fun _ h => absurd h List.not_mem_nil⟩⟩⟩⟩⟩⟩⟩⟩⟩⟩⟩⟩⟩⟩⟩⟩⟩⟩⟩⟩⟩⟩⟩⟩⟩⟩⟩⟩⟩⟩
theorem Kkept_74 : ∀ r ∈ kargs, V74 m outs c r = m ((c : Thread nD τ).loc r) :=
  List.forall_mem_cons.2 ⟨Karg0_74 m outs c, List.forall_mem_cons.2 ⟨Karg1_74 m outs c, List.forall_mem_cons.2 ⟨Karg2_74 m outs c, List.forall_mem_cons.2 ⟨Karg3_74 m outs c, List.forall_mem_cons.2 ⟨Karg4_74 m outs c, List.forall_mem_cons.2 ⟨Karg5_74 m outs c, List.forall_mem_cons.2 ⟨Karg6_74 m outs c, List.forall_mem_cons.2 ⟨Karg7_74 m outs c, List.forall_mem_cons.2 ⟨Karg8_74 m outs c, List.forall_mem_cons.2 ⟨Karg9_74 m outs c, List.forall_mem_cons.2 ⟨Karg10_74 m outs c, List.forall_mem_cons.2 ⟨Karg11_74 m outs c, List.forall_mem_cons.2 ⟨Karg12_74 m outs c, List.forall_mem_cons.2 ⟨Karg13_74 m outs c, List.forall_mem_cons.2 ⟨Karg14_74 m outs c, List.forall_mem_cons.2 ⟨Karg15_74 m outs c, List.forall_mem_cons.2 ⟨Karg16_74 m outs c, List.forall_mem_cons.2 ⟨Karg17_74 m outs c, List.forall_mem_cons.2 ⟨Karg18_74 m outs c, List.forall_mem_cons.2 ⟨Karg19_74 m outs c, List.forall_mem_cons.2 ⟨Karg20_74 m outs c, List.forall_mem_cons.2 ⟨Karg21_74 m outs c, List.forall_mem_cons.2 ⟨Karg22_74 m outs c, List.forall_mem_cons.2 ⟨Karg23_74 m outs c, List.forall_mem_cons.2 ⟨Karg24_74 m outs c, List.forall_mem_cons.2 ⟨Karg25_74 m outs c, List.forall_mem_cons.2 ⟨Karg26_74 m outs c, List.forall_mem_cons.2 ⟨Karg27_74 m outs c, List.forall_mem_cons.2 ⟨Karg28_74 m outs c, List.forall_mem_cons.2 ⟨Karg29_74 m outs c, fun _ h => absurd h List.not_mem_nil⟩⟩⟩⟩⟩⟩⟩⟩⟩⟩⟩⟩⟩⟩⟩⟩⟩⟩⟩⟩⟩⟩⟩⟩⟩⟩⟩⟩⟩⟩
theorem Kkept_75 : ∀ r ∈ kargs, V75 m outs c r = m ((c : Thread nD τ).loc r) :=
  List.forall_mem_cons.2 ⟨Karg0_75 m outs c, List.forall_mem_cons.2 ⟨Karg1_75 m outs c, List.forall_mem_cons.2 ⟨Karg2_75 m outs c, List.forall_mem_cons.2 ⟨Karg3_75 m outs c, List.forall_mem_cons.2 ⟨Karg4_75 m outs c, List.forall_mem_cons.2 ⟨Karg5_75 m outs c, List.forall_mem_cons.2 ⟨Karg6_75 m outs c, List.forall_mem_cons.2 ⟨Karg7_75 m outs c, List.forall_mem_cons.2 ⟨Karg8_75 m outs c, List.forall_mem_cons.2 ⟨Karg9_75 m outs c, List.forall_mem_cons.2 ⟨Karg10_75 m outs c, List.forall_mem_cons.2 ⟨Karg11_75 m outs c, List.forall_mem_cons.2 ⟨Karg12_75 m outs c, List.forall_mem_cons.2 ⟨Karg13_75 m outs c, List.forall_mem_cons.2 ⟨Karg14_75 m outs c, List.forall_mem_cons.2 ⟨Karg15_75 m outs c, List.forall_mem_cons.2 ⟨Karg16_75 m outs c, List.forall_mem_cons.2 ⟨Karg17_75 m outs c, List.forall_mem_cons.2 ⟨Karg18_75 m outs c, List.forall_mem_cons.2 ⟨Karg19_75 m outs c, List.forall_mem_cons.2 ⟨Karg20_75 m outs c, List.forall_mem_cons.2 ⟨Karg21_75 m outs c, List.forall_mem_cons.2 ⟨Karg22_75 m outs c, List.forall_mem_cons.2 ⟨Karg23_75 m outs c, List.forall_mem_cons.2 ⟨Karg24_75 m outs c, List.forall_mem_cons.2 ⟨Karg25_75 m outs c, List.forall_mem_cons.2 ⟨Karg26_75 m outs c, List.forall_mem_cons.2 ⟨Karg27_75 m outs c, List.forall_mem_cons.2 ⟨Karg28_75 m outs c, List.forall_mem_cons.2 ⟨Karg29_75 m outs c, fun _ h => absurd h List.not_mem_nil⟩⟩⟩⟩⟩⟩⟩⟩⟩⟩⟩⟩⟩⟩⟩⟩⟩⟩⟩⟩⟩⟩⟩⟩⟩⟩⟩⟩⟩⟩
theorem Kkept_76 : ∀ r ∈ kargs, V76 m outs c r = m ((c : Thread nD τ).loc r) :=
  List.forall_mem_cons.2 ⟨Karg0_76 m outs c, List.forall_mem_cons.2 ⟨Karg1_76 m outs c, List.forall_mem_cons.2 ⟨Karg2_76 m outs c, List.forall_mem_cons.2 ⟨Karg3_76 m outs c, List.forall_mem_cons.2 ⟨Karg4_76 m outs c, List.forall_mem_cons.2 ⟨Karg5_76 m outs c, List.forall_mem_cons.2 ⟨Karg6_76 m outs c, List.forall_mem_cons.2 ⟨Karg7_76 m outs c, List.forall_mem_cons.2 ⟨Karg8_76 m outs c, List.forall_mem_cons.2 ⟨Karg9_76 m outs c, List.forall_mem_cons.2 ⟨Karg10_76 m outs c, List.forall_mem_cons.2 ⟨Karg11_76 m outs c, List.forall_mem_cons.2 ⟨Karg12_76 m outs c, List.forall_mem_cons.2 ⟨Karg13_76 m outs c, List.forall_mem_cons.2 ⟨Karg14_76 m outs c, List.forall_mem_cons.2 ⟨Karg15_76 m outs c, List.forall_mem_cons.2 ⟨Karg16_76 m outs c, List.forall_mem_cons.2 ⟨Karg17_76 m outs c, List.forall_mem_cons.2 ⟨Karg18_76 m outs c, List.forall_mem_cons.2 ⟨Karg19_76 m outs c, List.forall_mem_cons.2 ⟨Karg20_76 m outs c, List.forall_mem_cons.2 ⟨Karg21_76 m outs c, List.forall_mem_cons.2 ⟨Karg22_76 m outs c, List.forall_mem_cons.2 ⟨Karg23_76 m outs c, List.forall_mem_cons.2 ⟨Karg24_76 m outs c, List.forall_mem_cons.2 ⟨Karg25_76 m outs c, List.forall_mem_cons.2 ⟨Karg26_76 m outs c, List.forall_mem_cons.2 ⟨Karg27_76 m outs c, List.forall_mem_cons.2 ⟨Karg28_76 m outs c, List.forall_mem_cons.2 ⟨Karg29_76 m outs c, fun _ h => absurd h List.not_mem_nil⟩⟩⟩⟩⟩⟩⟩⟩⟩⟩⟩⟩⟩⟩⟩⟩⟩⟩⟩⟩⟩⟩⟩⟩⟩⟩⟩⟩⟩⟩
theorem Kkept_77 : ∀ r ∈ kargs, V77 m outs c r = m ((c : Thread nD τ).loc r) :=
  List.forall_mem_cons.2 ⟨Karg0_77 m outs c, List.forall_mem_cons.2 ⟨Karg1_77 m outs c, List.forall_mem_cons.2 ⟨Karg2_77 m outs c, List.forall_mem_cons.2 ⟨Karg3_77 m outs c, List.forall_mem_cons.2 ⟨Karg4_77 m outs c, List.forall_mem_cons.2 ⟨Karg5_77 m outs c, List.forall_mem_cons.2 ⟨Karg6_77 m outs c, List.forall_mem_cons.2 ⟨Karg7_77 m outs c, List.forall_mem_cons.2 ⟨Karg8_77 m outs c, List.forall_mem_cons.2 ⟨Karg9_77 m outs c, List.forall_mem_cons.2 ⟨Karg10_77 m outs c, List.forall_mem_cons.2 ⟨Karg11_77 m outs c, List.forall_mem_cons.2 ⟨Karg12_77 m outs c, List.forall_mem_cons.2 ⟨Karg13_77 m outs c, List.forall_mem_cons.2 ⟨Karg14_77 m outs c, List.forall_mem_cons.2 ⟨Karg15_77 m outs c, List.forall_mem_cons.2 ⟨Karg16_77 m outs c, List.forall_mem_cons.2 ⟨Karg17_77 m outs c, List.forall_mem_cons.2 ⟨Karg18_77 m outs c, List.forall_mem_cons.2 ⟨Karg19_77 m outs c, List.forall_mem_cons.2 ⟨Karg20_77 m outs c, List.forall_mem_cons.2 ⟨Karg21_77 m outs c, List.forall_mem_cons.2 ⟨Karg22_77 m outs c, List.forall_mem_cons.2 ⟨Karg23_77 m outs c, List.forall_mem_cons.2 ⟨Karg24_77 m outs c, List.forall_mem_cons.2 ⟨Karg25_77 m outs c, List.forall_mem_cons.2 ⟨Karg26_77 m outs c, List.forall_mem_cons.2 ⟨Karg27_77 m outs c, List.forall_mem_cons.2 ⟨Karg28_77 m outs c, List.forall_mem_cons.2 ⟨Karg29_77 m outs c, fun _ h => absurd h List.not_mem_nil⟩⟩⟩⟩⟩⟩⟩⟩⟩⟩⟩⟩⟩⟩⟩⟩⟩⟩⟩⟩⟩⟩⟩⟩⟩⟩⟩⟩⟩⟩
theorem Kkept_78 : ∀ r ∈ kargs, V78 m outs c r = m ((c : Thread nD τ).loc r) :=
  List.forall_mem_cons.2 ⟨Karg0_78 m outs c, List.forall_mem_cons.2 ⟨Karg1_78 m outs c, List.forall_mem_cons.2 ⟨Karg2_78 m outs c, List.forall_mem_cons.2 ⟨Karg3_78 m outs c, List.forall_mem_cons.2 ⟨Karg4_78 m outs c, List.forall_mem_cons.2 ⟨Karg5_78 m outs c, List.forall_mem_cons.2 ⟨Karg6_78 m outs c, List.forall_mem_cons.2 ⟨Karg7_78 m outs c, List.forall_mem_cons.2 ⟨Karg8_78 m outs c, List.forall_mem_cons.2 ⟨Karg9_78 m outs c, List.forall_mem_cons.2 ⟨Karg10_78 m outs c, List.forall_mem_cons.2 ⟨Karg11_78 m outs c, List.forall_mem_cons.2 ⟨Karg12_78 m outs c, List.forall_mem_cons.2 ⟨Karg13_78 m outs c, List.forall_mem_cons.2 ⟨Karg14_78 m outs c, List.forall_mem_cons.2 ⟨Karg15_78 m outs c, List.forall_mem_cons.2 ⟨Karg16_78 m outs c, List.forall_mem_cons.2 ⟨Karg17_78 m outs c, List.forall_mem_cons.2 ⟨Karg18_78 m outs c, List.forall_mem_cons.2 ⟨Karg19_78 m outs c, List.forall_mem_cons.2 ⟨Karg20_78 m outs c, List.forall_mem_cons.2 ⟨Karg21_78 m outs c, List.forall_mem_cons.2 ⟨Karg22_78 m outs c, List.forall_mem_cons.2 ⟨Karg23_78 m outs c, List.forall_mem_cons.2 ⟨Karg24_78 m outs c, List.forall_mem_cons.2 ⟨Karg25_78 m outs c, List.forall_mem_cons.2 ⟨Karg26_78 m outs c, List.forall_mem_cons.2 ⟨Karg27_78 m outs c, List.forall_mem_cons.2 ⟨Karg28_78 m outs c, List.forall_mem_cons.2 ⟨Karg29_78 m outs c, fun _ h => absurd h List.not_mem_nil⟩⟩⟩⟩⟩⟩⟩⟩⟩⟩⟩⟩⟩⟩⟩⟩⟩⟩⟩⟩⟩⟩⟩⟩⟩⟩⟩⟩⟩⟩
theorem Kkept_79 : ∀ r ∈ kargs, V79 m outs c r = m ((c : Thread nD τ).loc r) :=
  List.forall_mem_cons.2 ⟨Karg0_79 m outs c, List.forall_mem_cons.2 ⟨Karg1_79 m outs c, List.forall_mem_cons.2 ⟨Karg2_79 m outs c, List.forall_mem_cons.2 ⟨Karg3_79 m outs c, List.forall_mem_cons.2 ⟨Karg4_79 m outs c, List.forall_mem_cons.2 ⟨Karg5_79 m outs c, List.forall_mem_cons.2 ⟨Karg6_79 m outs c, List.forall_mem_cons.2 ⟨Karg7_79 m outs c, List.forall_mem_cons.2 ⟨Karg8_79 m outs c, List.forall_mem_cons.2 ⟨Karg9_79 m outs c, List.forall_mem_cons.2 ⟨Karg10_79 m outs c, List.forall_mem_cons.2 ⟨Karg11_79 m outs c, List.forall_mem_cons.2 ⟨Karg12_79 m outs c, List.forall_mem_cons.2 ⟨Karg13_79 m outs c, List.forall_mem_cons.2 ⟨Karg14_79 m outs c, List.forall_mem_cons.2 ⟨Karg15_79 m outs c, List.forall_mem_cons.2 ⟨Karg16_79 m outs c, List.forall_mem_cons.2 ⟨Karg17_79 m outs c, List.forall_mem_cons.2 ⟨Karg18_79 m outs c, List.forall_mem_cons.2 ⟨Karg19_79 m outs c, List.forall_mem_cons.2 ⟨Karg20_79 m outs c, List.forall_mem_cons.2 ⟨Karg21_79 m outs c, List.forall_mem_cons.2 ⟨Karg22_79 m outs c, List.forall_mem_cons.2 ⟨Karg23_79 m outs c, List.forall_mem_cons.2 ⟨Karg24_79 m outs c, List.forall_mem_cons.2 ⟨Karg25_79 m outs c, List.forall_mem_cons.2 ⟨Karg26_79 m outs c, List.forall_mem_cons.2 ⟨Karg27_79 m outs c, List.forall_mem_cons.2 ⟨Karg28_79 m outs c, List.forall_mem_cons.2 ⟨Karg29_79 m outs c, fun _ h => absurd h List.not_mem_nil⟩⟩⟩⟩⟩⟩⟩⟩⟩⟩⟩⟩⟩⟩⟩⟩⟩⟩⟩⟩⟩⟩⟩⟩⟩⟩⟩⟩⟩⟩
theorem Kkept_80 : ∀ r ∈ kargs, V80 m outs c r = m ((c : Thread nD τ).loc r) :=
  List.forall_mem_cons.2 ⟨Karg0_80 m outs c, List.forall_mem_cons.2 ⟨Karg1_80 m outs c, List.forall_mem_cons.2 ⟨Karg2_80 m outs c, List.forall_mem_cons.2 ⟨Karg3_80 m outs c, List.forall_mem_cons.2 ⟨Karg4_80 m outs c, List.forall_mem_cons.2 ⟨Karg5_80 m outs c, List.forall_mem_cons.2 ⟨Karg6_80 m outs c, List.forall_mem_cons.2 ⟨Karg7_80 m outs c, List.forall_mem_cons.2 ⟨Karg8_80 m outs c, List.forall_mem_cons.2 ⟨Karg9_80 m outs c, List.forall_mem_cons.2 ⟨Karg10_80 m outs c, List.forall_mem_cons.2 ⟨Karg11_80 m outs c, List.forall_mem_cons.2 ⟨Karg12_80 m outs c, List.forall_mem_cons.2 ⟨Karg13_80 m outs c, List.forall_mem_cons.2 ⟨Karg14_80 m outs c, List.forall_mem_cons.2 ⟨Karg15_80 m outs c, List.forall_mem_cons.2 ⟨Karg16_80 m outs c, List.forall_mem_cons.2 ⟨Karg17_80 m outs c, List.forall_mem_cons.2 ⟨Karg18_80 m outs c, List.forall_mem_cons.2 ⟨Karg19_80 m outs c, List.forall_mem_cons.2 ⟨Karg20_80 m outs c, List.forall_mem_cons.2 ⟨Karg21_80 m outs c, List.forall_mem_cons.2 ⟨Karg22_80 m outs c, List.forall_mem_cons.2 ⟨Karg23_80 m outs c, List.forall_mem_cons.2 ⟨Karg24_80 m outs c, List.forall_mem_cons.2 ⟨Karg25_80 m outs c, List.forall_mem_cons.2 ⟨Karg26_80 m outs c, List.forall_mem_cons.2 ⟨Karg27_80 m outs c, List.forall_mem_cons.2 ⟨Karg28_80 m outs c, List.forall_mem_cons.2 ⟨Karg29_80 m outs c, fun _ h => absurd h List.not_mem_nil⟩⟩⟩⟩⟩⟩⟩⟩⟩⟩⟩⟩⟩⟩⟩⟩⟩⟩⟩⟩⟩⟩⟩⟩⟩⟩⟩⟩⟩⟩
theorem Kkept_81 : ∀ r ∈ kargs, V81 m outs c r = m ((c : Thread nD τ).loc r) :=
  List.forall_mem_cons.2 ⟨Karg0_81 m outs c, List.forall_mem_cons.2 ⟨Karg1_81 m outs c, List.forall_mem_cons.2 ⟨Karg2_81 m outs c, List.forall_mem_cons.2 ⟨Karg3_81 m outs c, List.forall_mem_cons.2 ⟨Karg4_81 m outs c, List.forall_mem_cons.2 ⟨Karg5_81 m outs c, List.forall_mem_cons.2 ⟨Karg6_81 m outs c, List.forall_mem_cons.2 ⟨Karg7_81 m outs c, List.forall_mem_cons.2 ⟨Karg8_81 m outs c, List.forall_mem_cons.2 ⟨Karg9_81 m outs c, List.forall_mem_cons.2 ⟨Karg10_81 m outs c, List.forall_mem_cons.2 ⟨Karg11_81 m outs c, List.forall_mem_cons.2 ⟨Karg12_81 m outs c, List.forall_mem_cons.2 ⟨Karg13_81 m outs c, List.forall_mem_cons.2 ⟨Karg14_81 m outs c, List.forall_mem_cons.2 ⟨Karg15_81 m outs c, List.forall_mem_cons.2 ⟨Karg16_81 m outs c, List.forall_mem_cons.2 ⟨Karg17_81 m outs c, List.forall_mem_cons.2 ⟨Karg18_81 m outs c, List.forall_mem_cons.2 ⟨Karg19_81 m outs c, List.forall_mem_cons.2 ⟨Karg20_81 m outs c, List.forall_mem_cons.2 ⟨Karg21_81 m outs c, List.forall_mem_cons.2 ⟨Karg22_81 m outs c, List.forall_mem_cons.2 ⟨Karg23_81 m outs c, List.forall_mem_cons.2 ⟨Karg24_81 m outs c, List.forall_mem_cons.2 ⟨Karg25_81 m outs c, List.forall_mem_cons.2 ⟨Karg26_81 m outs c, List.forall_mem_cons.2 ⟨Karg27_81 m outs c, List.forall_mem_cons.2 ⟨Karg28_81 m outs c, List.forall_mem_cons.2 ⟨Karg29_81 m outs c, fun _ h => absurd h List.not_mem_nil⟩⟩⟩⟩⟩⟩⟩⟩⟩⟩⟩⟩⟩⟩⟩⟩⟩⟩⟩⟩⟩⟩⟩⟩⟩⟩⟩⟩⟩⟩

end Cert.Bridge

end
-- ==== Proof.Bridge.ArgsKept.lean ====
import proofs.«411400_j9251359555630_1_alg».proof.Proof.Bridge.ArgsKeptK
import proofs.«411400_j9251359555630_1_alg».proof.Proof.Bridge.ArgsKeptR
-- ==== Proof.Bridge.Gap3.lean ====
/-
  The host stretch between the kernel program's third pooling region and its next edge aggregation, against the same
  stretch of the reference: from equal contents where the pooling region is entered, and the pooled sums read entry by
  entry, to equal contents where the aggregation region is entered.

  The stretch is the virtual-node update.  The pooled rows plus the virtual-node features go through two dense layers,
  each followed by a batch normalisation over the 64 rows and a rectifier; the result is gathered back to the nodes and
  added to the node features, which are then gathered along the edges' source column.  Both programs run the same
  operations on these buffers.  They differ in buffer names, in the narrower float format the kernel program gives the
  rows it gathers (at the ideal instance a change of float format is the identity), in how the index column is made a
  one-column matrix (a reshape in one program, a broadcast along a new unit axis in the other), and in where the pooled
  sums come from: the kernel region's output array in one, an accumulating scatter into a zero array in the other.

  Each statement below first holds for ARBITRARY contents of the two programs' buffers that agree on the buffers the
  operations read; the two runs' named contents are then instances.  The stretch is cut once, where the second dense
  layer's input to its normalisation is complete, so that no term carries both normalisations.
-/
import proofs.«411400_j9251359555630_1_alg».proof.Proof.KI.RegionsP
import proofs.«411400_j9251359555630_1_alg».proof.Proof.Ref.Run
import proofs.«411400_j9251359555630_1_alg».proof.Proof.LibHostRead
import proofs.«411400_j9251359555630_1_alg».proof.Proof.Bridge.Agree
import proofs.«411400_j9251359555630_1_alg».proof.Proof.Bridge.ArgsKept
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value
import Idealize.ShloMosaic.Lib.IdealHost

set_option maxRecDepth 16384
set_option maxHeartbeats 4000000

noncomputable section

namespace Cert.Bridge

open Idealize.ShloMosaic Idealize.ShloMosaic.TcCoe Idealize.SL.Sem Idealize.ShloMosaic.StableHlo
open Idealize.ShloMosaic.ValueIdx
open scoped BigOperators

/-! ## Three facts about single operations at the ideal instance -/

/-- A change to a narrower float format leaves an array of extended reals as it is. -/
theorem gap3_truncf {s : Shape} (a : FVec Ideal s .f32) (h : FTy.bf16.bits < FTy.f32.bits) :
    (truncf .bf16 a h : s.Idx → EReal) = a := rfl

/-- A vector reshaped to a one-column matrix and the vector broadcast along a new unit axis are the same array. -/
theorem gap3_col_cast_eq_bcast {α : Type} {a : ℕ} (x : (⟨1, ![a]⟩ : Shape).Idx → α)
    (hc : (⟨1, ![a]⟩ : Shape).ShapeCasts ⟨2, ![a, 1]⟩)
    (hb : (⟨1, ![a]⟩ : Shape).BroadcastsInDim ⟨2, ![a, 1]⟩ ![0]) :
    shapeCast ⟨2, ![a, 1]⟩ x hc = broadcastInDim ⟨2, ![a, 1]⟩ ![0] hb x := by
  funext j
  obtain ⟨p, u, rfl⟩ : ∃ p u, j = ix2 p u := ⟨j 0, j 1, eq_ix2 j⟩
  have hu : u.val = 0 := by omega
  rw [shapeCast_apply x hc (ix2 p u) (ix1 p) (by
        rw [Shape.rowMajor_val_one, Shape.rowMajor_val_two]
        show p.val = p.val * 1 + u.val
        omega)]
  rw [broadcastInDim_apply ![0] hb x (ix2 p u) (ix1 p) (fun b => by
        match b with
        | ⟨0, _⟩ =>
          show p.val = if a = 1 then 0 else p.val
          split
          · omega
          · rfl)]

/-- The scalar constant zero broadcast to any shape is the zero array. -/
theorem gap3_zero_bcast {T : Shape} (h : (⟨0, ![]⟩ : Shape).BroadcastsInDim T ![]) :
    broadcastInDim T ![] h (constant (F := Ideal) ⟨0, ![]⟩ .f32 0x00000000#32) = fun _ => (0 : EReal) := by
  funext j
  rw [broadcastInDim_scalar_apply, constant_apply, Ideal.ofBits_zero_f32]

variable [Cert.KernelIdeal.Facts] [Cert.ReferenceIdeal.Facts]

/-! ## The stretch over arbitrary contents -/

section Generic

variable {F : FTy → Type} [FloatOps F]
variable (WK : Valuation Cert.KernelIdeal.τ Cert.KernelIdeal.sig (Elt F))
variable (WR : Valuation Cert.ReferenceIdeal.τ Cert.ReferenceIdeal.sig (Elt F))

/-! ### First part: the first dense layer, its normalisation and rectifier, the second dense layer

The kernel program's items 22 to 26 against the reference's two operation lists that begin at its pooling scatter.
The kernel side reads the pooled sums from a buffer; the hypothesis `h152` says that buffer holds what the reference's
scatter computes. -/

/-- The second dense layer's output (the input of the second normalisation). -/
theorem gap3_segA_v181 (h152 : (WK (Proc.devRef .tc Cert.KernelIdeal.main_v152) : (⟨2, ![64, 300]⟩ : Shape).Idx → F .f32) = Host.scatterAdd (F := F) (φ := .f32) Cert.ReferenceIdeal.scatter_S64x300_S10000x1_S10000x300_1_0_0_1 (WR (Proc.devRef .tc Cert.ReferenceIdeal.main_v148)) (WR (Proc.devRef .tc Cert.ReferenceIdeal.main_v149)) (WR (Proc.devRef .tc Cert.ReferenceIdeal.main_v147)))
    (h5 : (WK (Proc.devRef .tc Cert.KernelIdeal.main_v5) : (⟨2, ![64, 300]⟩ : Shape).Idx → F .f32) = WR (Proc.devRef .tc Cert.ReferenceIdeal.main_v5))
    (ha20 : (WK (Proc.devRef .tc Cert.KernelIdeal.main_arg20) : (⟨2, ![300, 600]⟩ : Shape).Idx → F .f32) = WR (Proc.devRef .tc Cert.ReferenceIdeal.main_arg20)) (ha21 : (WK (Proc.devRef .tc Cert.KernelIdeal.main_arg21) : (⟨1, ![600]⟩ : Shape).Idx → F .f32) = WR (Proc.devRef .tc Cert.ReferenceIdeal.main_arg21))
    (ha22 : (WK (Proc.devRef .tc Cert.KernelIdeal.main_arg22) : (⟨1, ![600]⟩ : Shape).Idx → F .f32) = WR (Proc.devRef .tc Cert.ReferenceIdeal.main_arg22)) (ha23 : (WK (Proc.devRef .tc Cert.KernelIdeal.main_arg23) : (⟨1, ![600]⟩ : Shape).Idx → F .f32) = WR (Proc.devRef .tc Cert.ReferenceIdeal.main_arg23))
    (ha24 : (WK (Proc.devRef .tc Cert.KernelIdeal.main_arg24) : (⟨2, ![600, 300]⟩ : Shape).Idx → F .f32) = WR (Proc.devRef .tc Cert.ReferenceIdeal.main_arg24)) (ha25 : (WK (Proc.devRef .tc Cert.KernelIdeal.main_arg25) : (⟨1, ![300]⟩ : Shape).Idx → F .f32) = WR (Proc.devRef .tc Cert.ReferenceIdeal.main_arg25)) :
    (StableHlo.after Cert.KernelIdeal.Gen.hostOps3_4 (StableHlo.after Cert.KernelIdeal.Gen.hostOps3_3 (StableHlo.after Cert.KernelIdeal.Gen.hostOps3_2 (StableHlo.after Cert.KernelIdeal.Gen.hostOps3_1 (StableHlo.after Cert.KernelIdeal.Gen.hostOps3 WK)))) (Proc.devRef .tc Cert.KernelIdeal.main_v181) : (⟨2, ![64, 300]⟩ : Shape).Idx → F .f32)
      = StableHlo.after Cert.ReferenceIdeal.RefRun.ops8 (StableHlo.after Cert.ReferenceIdeal.RefRun.ops7 WR) (Proc.devRef .tc Cert.ReferenceIdeal.main_v179) := by
  after_results_simp
  rw [h152, h5, ha20, ha21, ha22, ha23, ha24, ha25]
  all_goals try simp only [TRef.ofBuf, TRef.toBuf, cast_eq]
  all_goals rfl

/-- Its column means. -/
theorem gap3_segA_v184 (h152 : (WK (Proc.devRef .tc Cert.KernelIdeal.main_v152) : (⟨2, ![64, 300]⟩ : Shape).Idx → F .f32) = Host.scatterAdd (F := F) (φ := .f32) Cert.ReferenceIdeal.scatter_S64x300_S10000x1_S10000x300_1_0_0_1 (WR (Proc.devRef .tc Cert.ReferenceIdeal.main_v148)) (WR (Proc.devRef .tc Cert.ReferenceIdeal.main_v149)) (WR (Proc.devRef .tc Cert.ReferenceIdeal.main_v147)))
    (h5 : (WK (Proc.devRef .tc Cert.KernelIdeal.main_v5) : (⟨2, ![64, 300]⟩ : Shape).Idx → F .f32) = WR (Proc.devRef .tc Cert.ReferenceIdeal.main_v5))
    (ha20 : (WK (Proc.devRef .tc Cert.KernelIdeal.main_arg20) : (⟨2, ![300, 600]⟩ : Shape).Idx → F .f32) = WR (Proc.devRef .tc Cert.ReferenceIdeal.main_arg20)) (ha21 : (WK (Proc.devRef .tc Cert.KernelIdeal.main_arg21) : (⟨1, ![600]⟩ : Shape).Idx → F .f32) = WR (Proc.devRef .tc Cert.ReferenceIdeal.main_arg21))
    (ha22 : (WK (Proc.devRef .tc Cert.KernelIdeal.main_arg22) : (⟨1, ![600]⟩ : Shape).Idx → F .f32) = WR (Proc.devRef .tc Cert.ReferenceIdeal.main_arg22)) (ha23 : (WK (Proc.devRef .tc Cert.KernelIdeal.main_arg23) : (⟨1, ![600]⟩ : Shape).Idx → F .f32) = WR (Proc.devRef .tc Cert.ReferenceIdeal.main_arg23))
    (ha24 : (WK (Proc.devRef .tc Cert.KernelIdeal.main_arg24) : (⟨2, ![600, 300]⟩ : Shape).Idx → F .f32) = WR (Proc.devRef .tc Cert.ReferenceIdeal.main_arg24)) (ha25 : (WK (Proc.devRef .tc Cert.KernelIdeal.main_arg25) : (⟨1, ![300]⟩ : Shape).Idx → F .f32) = WR (Proc.devRef .tc Cert.ReferenceIdeal.main_arg25)) :
    (StableHlo.after Cert.KernelIdeal.Gen.hostOps3_4 (StableHlo.after Cert.KernelIdeal.Gen.hostOps3_3 (StableHlo.after Cert.KernelIdeal.Gen.hostOps3_2 (StableHlo.after Cert.KernelIdeal.Gen.hostOps3_1 (StableHlo.after Cert.KernelIdeal.Gen.hostOps3 WK)))) (Proc.devRef .tc Cert.KernelIdeal.main_v184) : (⟨1, ![300]⟩ : Shape).Idx → F .f32)
      = StableHlo.after Cert.ReferenceIdeal.RefRun.ops8 (StableHlo.after Cert.ReferenceIdeal.RefRun.ops7 WR) (Proc.devRef .tc Cert.ReferenceIdeal.main_v182) := by
  after_results_simp
  rw [h152, h5, ha20, ha21, ha22, ha23, ha24, ha25]
  all_goals try simp only [TRef.ofBuf, TRef.toBuf, cast_eq]
  all_goals rfl

/-- The integer constant zero the variance is called with (its degrees-of-freedom correction). -/
theorem gap3_segA_c26 :
    (StableHlo.after Cert.KernelIdeal.Gen.hostOps3_4 (StableHlo.after Cert.KernelIdeal.Gen.hostOps3_3 (StableHlo.after Cert.KernelIdeal.Gen.hostOps3_2 (StableHlo.after Cert.KernelIdeal.Gen.hostOps3_1 (StableHlo.after Cert.KernelIdeal.Gen.hostOps3 WK)))) (Proc.devRef .tc Cert.KernelIdeal.main_c_26) : (⟨0, ![]⟩ : Shape).Idx → BitVec 32)
      = StableHlo.after Cert.ReferenceIdeal.RefRun.ops8 (StableHlo.after Cert.ReferenceIdeal.RefRun.ops7 WR) (Proc.devRef .tc Cert.ReferenceIdeal.main_c_29) := by
  after_results_simp
  try rfl

/-- The first part writes neither of the edge columns nor the node features. -/
theorem gap3_segA_K_v1 : StableHlo.after Cert.KernelIdeal.Gen.hostOps3_4 (StableHlo.after Cert.KernelIdeal.Gen.hostOps3_3 (StableHlo.after Cert.KernelIdeal.Gen.hostOps3_2 (StableHlo.after Cert.KernelIdeal.Gen.hostOps3_1 (StableHlo.after Cert.KernelIdeal.Gen.hostOps3 WK)))) (Proc.devRef .tc Cert.KernelIdeal.main_v1) = WK (Proc.devRef .tc Cert.KernelIdeal.main_v1) := by
  after_results_simp
theorem gap3_segA_K_v3 : StableHlo.after Cert.KernelIdeal.Gen.hostOps3_4 (StableHlo.after Cert.KernelIdeal.Gen.hostOps3_3 (StableHlo.after Cert.KernelIdeal.Gen.hostOps3_2 (StableHlo.after Cert.KernelIdeal.Gen.hostOps3_1 (StableHlo.after Cert.KernelIdeal.Gen.hostOps3 WK)))) (Proc.devRef .tc Cert.KernelIdeal.main_v3) = WK (Proc.devRef .tc Cert.KernelIdeal.main_v3) := by
  after_results_simp
theorem gap3_segA_K_v149 : StableHlo.after Cert.KernelIdeal.Gen.hostOps3_4 (StableHlo.after Cert.KernelIdeal.Gen.hostOps3_3 (StableHlo.after Cert.KernelIdeal.Gen.hostOps3_2 (StableHlo.after Cert.KernelIdeal.Gen.hostOps3_1 (StableHlo.after Cert.KernelIdeal.Gen.hostOps3 WK)))) (Proc.devRef .tc Cert.KernelIdeal.main_v149) = WK (Proc.devRef .tc Cert.KernelIdeal.main_v149) := by
  after_results_simp
theorem gap3_segA_R_v1 : StableHlo.after Cert.ReferenceIdeal.RefRun.ops8 (StableHlo.after Cert.ReferenceIdeal.RefRun.ops7 WR) (Proc.devRef .tc Cert.ReferenceIdeal.main_v1) = WR (Proc.devRef .tc Cert.ReferenceIdeal.main_v1) := by
  after_results_simp
theorem gap3_segA_R_v3 : StableHlo.after Cert.ReferenceIdeal.RefRun.ops8 (StableHlo.after Cert.ReferenceIdeal.RefRun.ops7 WR) (Proc.devRef .tc Cert.ReferenceIdeal.main_v3) = WR (Proc.devRef .tc Cert.ReferenceIdeal.main_v3) := by
  after_results_simp
theorem gap3_segA_R_v147 : StableHlo.after Cert.ReferenceIdeal.RefRun.ops8 (StableHlo.after Cert.ReferenceIdeal.RefRun.ops7 WR) (Proc.devRef .tc Cert.ReferenceIdeal.main_v147) = WR (Proc.devRef .tc Cert.ReferenceIdeal.main_v147) := by
  after_results_simp

/-! ### Second part: the second normalisation and rectifier, the gather back to the nodes, the gather along the edges

The kernel program's items 27 to 30 against the reference's next two operation lists. -/

/-- The updated virtual-node features. -/
theorem gap3_segB_v201 (h181 : (WK (Proc.devRef .tc Cert.KernelIdeal.main_v181) : (⟨2, ![64, 300]⟩ : Shape).Idx → F .f32) = WR (Proc.devRef .tc Cert.ReferenceIdeal.main_v179))
    (h184 : (WK (Proc.devRef .tc Cert.KernelIdeal.main_v184) : (⟨1, ![300]⟩ : Shape).Idx → F .f32) = WR (Proc.devRef .tc Cert.ReferenceIdeal.main_v182))
    (hc26 : (WK (Proc.devRef .tc Cert.KernelIdeal.main_c_26) : (⟨0, ![]⟩ : Shape).Idx → BitVec 32) = WR (Proc.devRef .tc Cert.ReferenceIdeal.main_c_29))
    (ha26 : (WK (Proc.devRef .tc Cert.KernelIdeal.main_arg26) : (⟨1, ![300]⟩ : Shape).Idx → F .f32) = WR (Proc.devRef .tc Cert.ReferenceIdeal.main_arg26)) (ha27 : (WK (Proc.devRef .tc Cert.KernelIdeal.main_arg27) : (⟨1, ![300]⟩ : Shape).Idx → F .f32) = WR (Proc.devRef .tc Cert.ReferenceIdeal.main_arg27)) :
    (StableHlo.after Cert.KernelIdeal.Gen.hostOps3_8 (StableHlo.after Cert.KernelIdeal.Gen.hostOps3_7 (StableHlo.after Cert.KernelIdeal.Gen.hostOps3_6 (StableHlo.after Cert.KernelIdeal.Gen.hostOps3_5 WK))) (Proc.devRef .tc Cert.KernelIdeal.main_v201) : (⟨2, ![64, 300]⟩ : Shape).Idx → F .f32)
      = StableHlo.after Cert.ReferenceIdeal.RefRun.ops10 (StableHlo.after Cert.ReferenceIdeal.RefRun.ops9 WR) (Proc.devRef .tc Cert.ReferenceIdeal.main_v199) := by
  after_results_simp
  rw [h181, h184, hc26, ha26, ha27]
  all_goals try simp only [TRef.ofBuf, TRef.toBuf, cast_eq]
  all_goals rfl

/-- The node features plus each node's graph's virtual-node features. -/
theorem gap3_segB_v209 (h181 : (WK (Proc.devRef .tc Cert.KernelIdeal.main_v181) : (⟨2, ![64, 300]⟩ : Shape).Idx → F .f32) = WR (Proc.devRef .tc Cert.ReferenceIdeal.main_v179))
    (h184 : (WK (Proc.devRef .tc Cert.KernelIdeal.main_v184) : (⟨1, ![300]⟩ : Shape).Idx → F .f32) = WR (Proc.devRef .tc Cert.ReferenceIdeal.main_v182))
    (hc26 : (WK (Proc.devRef .tc Cert.KernelIdeal.main_c_26) : (⟨0, ![]⟩ : Shape).Idx → BitVec 32) = WR (Proc.devRef .tc Cert.ReferenceIdeal.main_c_29))
    (ha26 : (WK (Proc.devRef .tc Cert.KernelIdeal.main_arg26) : (⟨1, ![300]⟩ : Shape).Idx → F .f32) = WR (Proc.devRef .tc Cert.ReferenceIdeal.main_arg26)) (ha27 : (WK (Proc.devRef .tc Cert.KernelIdeal.main_arg27) : (⟨1, ![300]⟩ : Shape).Idx → F .f32) = WR (Proc.devRef .tc Cert.ReferenceIdeal.main_arg27))
    (ha2 : (WK (Proc.devRef .tc Cert.KernelIdeal.main_arg2) : (⟨1, ![10000]⟩ : Shape).Idx → BitVec 32) = WR (Proc.devRef .tc Cert.ReferenceIdeal.main_arg2))
    (h149 : (WK (Proc.devRef .tc Cert.KernelIdeal.main_v149) : (⟨2, ![10000, 300]⟩ : Shape).Idx → F .f32) = WR (Proc.devRef .tc Cert.ReferenceIdeal.main_v147)) :
    (StableHlo.after Cert.KernelIdeal.Gen.hostOps3_8 (StableHlo.after Cert.KernelIdeal.Gen.hostOps3_7 (StableHlo.after Cert.KernelIdeal.Gen.hostOps3_6 (StableHlo.after Cert.KernelIdeal.Gen.hostOps3_5 WK))) (Proc.devRef .tc Cert.KernelIdeal.main_v209) : (⟨2, ![10000, 300]⟩ : Shape).Idx → F .f32)
      = StableHlo.after Cert.ReferenceIdeal.RefRun.ops10 (StableHlo.after Cert.ReferenceIdeal.RefRun.ops9 WR) (Proc.devRef .tc Cert.ReferenceIdeal.main_v207) := by
  after_results_simp
  rw [h181, h184, hc26, ha26, ha27, ha2, h149]
  all_goals try simp only [TRef.ofBuf, TRef.toBuf, cast_eq]
  all_goals rfl

/-- Layer 1's slice of a stacked weight array: the same slice and reshape of the same argument. -/
theorem gap3_segB_v211 (ha10 : (WK (Proc.devRef .tc Cert.KernelIdeal.main_arg10) : (⟨3, ![4, 300, 600]⟩ : Shape).Idx → F .f32) = WR (Proc.devRef .tc Cert.ReferenceIdeal.main_arg10)) :
    (StableHlo.after Cert.KernelIdeal.Gen.hostOps3_8 (StableHlo.after Cert.KernelIdeal.Gen.hostOps3_7 (StableHlo.after Cert.KernelIdeal.Gen.hostOps3_6 (StableHlo.after Cert.KernelIdeal.Gen.hostOps3_5 WK))) (Proc.devRef .tc Cert.KernelIdeal.main_v211) : (⟨2, ![300, 600]⟩ : Shape).Idx → F .f32)
      = StableHlo.after Cert.ReferenceIdeal.RefRun.ops10 (StableHlo.after Cert.ReferenceIdeal.RefRun.ops9 WR) (Proc.devRef .tc Cert.ReferenceIdeal.main_v209) := by
  after_results_simp
  rw [ha10]
  all_goals try simp only [TRef.ofBuf, TRef.toBuf, cast_eq]
  all_goals rfl

/-- Layer 1's slice of a stacked weight array: the same slice and reshape of the same argument. -/
theorem gap3_segB_v213 (ha11 : (WK (Proc.devRef .tc Cert.KernelIdeal.main_arg11) : (⟨2, ![4, 600]⟩ : Shape).Idx → F .f32) = WR (Proc.devRef .tc Cert.ReferenceIdeal.main_arg11)) :
    (StableHlo.after Cert.KernelIdeal.Gen.hostOps3_8 (StableHlo.after Cert.KernelIdeal.Gen.hostOps3_7 (StableHlo.after Cert.KernelIdeal.Gen.hostOps3_6 (StableHlo.after Cert.KernelIdeal.Gen.hostOps3_5 WK))) (Proc.devRef .tc Cert.KernelIdeal.main_v213) : (⟨1, ![600]⟩ : Shape).Idx → F .f32)
      = StableHlo.after Cert.ReferenceIdeal.RefRun.ops10 (StableHlo.after Cert.ReferenceIdeal.RefRun.ops9 WR) (Proc.devRef .tc Cert.ReferenceIdeal.main_v211) := by
  after_results_simp
  rw [ha11]
  all_goals try simp only [TRef.ofBuf, TRef.toBuf, cast_eq]
  all_goals rfl

/-- Layer 1's slice of a stacked weight array: the same slice and reshape of the same argument. -/
theorem gap3_segB_v215 (ha12 : (WK (Proc.devRef .tc Cert.KernelIdeal.main_arg12) : (⟨2, ![4, 600]⟩ : Shape).Idx → F .f32) = WR (Proc.devRef .tc Cert.ReferenceIdeal.main_arg12)) :
    (StableHlo.after Cert.KernelIdeal.Gen.hostOps3_8 (StableHlo.after Cert.KernelIdeal.Gen.hostOps3_7 (StableHlo.after Cert.KernelIdeal.Gen.hostOps3_6 (StableHlo.after Cert.KernelIdeal.Gen.hostOps3_5 WK))) (Proc.devRef .tc Cert.KernelIdeal.main_v215) : (⟨1, ![600]⟩ : Shape).Idx → F .f32)
      = StableHlo.after Cert.ReferenceIdeal.RefRun.ops10 (StableHlo.after Cert.ReferenceIdeal.RefRun.ops9 WR) (Proc.devRef .tc Cert.ReferenceIdeal.main_v213) := by
  after_results_simp
  rw [ha12]
  all_goals try simp only [TRef.ofBuf, TRef.toBuf, cast_eq]
  all_goals rfl

/-- Layer 1's slice of a stacked weight array: the same slice and reshape of the same argument. -/
theorem gap3_segB_v217 (ha13 : (WK (Proc.devRef .tc Cert.KernelIdeal.main_arg13) : (⟨2, ![4, 600]⟩ : Shape).Idx → F .f32) = WR (Proc.devRef .tc Cert.ReferenceIdeal.main_arg13)) :
    (StableHlo.after Cert.KernelIdeal.Gen.hostOps3_8 (StableHlo.after Cert.KernelIdeal.Gen.hostOps3_7 (StableHlo.after Cert.KernelIdeal.Gen.hostOps3_6 (StableHlo.after Cert.KernelIdeal.Gen.hostOps3_5 WK))) (Proc.devRef .tc Cert.KernelIdeal.main_v217) : (⟨1, ![600]⟩ : Shape).Idx → F .f32)
      = StableHlo.after Cert.ReferenceIdeal.RefRun.ops10 (StableHlo.after Cert.ReferenceIdeal.RefRun.ops9 WR) (Proc.devRef .tc Cert.ReferenceIdeal.main_v215) := by
  after_results_simp
  rw [ha13]
  all_goals try simp only [TRef.ofBuf, TRef.toBuf, cast_eq]
  all_goals rfl

/-- Layer 1's slice of a stacked weight array: the same slice and reshape of the same argument. -/
theorem gap3_segB_v219 (ha14 : (WK (Proc.devRef .tc Cert.KernelIdeal.main_arg14) : (⟨3, ![4, 600, 300]⟩ : Shape).Idx → F .f32) = WR (Proc.devRef .tc Cert.ReferenceIdeal.main_arg14)) :
    (StableHlo.after Cert.KernelIdeal.Gen.hostOps3_8 (StableHlo.after Cert.KernelIdeal.Gen.hostOps3_7 (StableHlo.after Cert.KernelIdeal.Gen.hostOps3_6 (StableHlo.after Cert.KernelIdeal.Gen.hostOps3_5 WK))) (Proc.devRef .tc Cert.KernelIdeal.main_v219) : (⟨2, ![600, 300]⟩ : Shape).Idx → F .f32)
      = StableHlo.after Cert.ReferenceIdeal.RefRun.ops10 (StableHlo.after Cert.ReferenceIdeal.RefRun.ops9 WR) (Proc.devRef .tc Cert.ReferenceIdeal.main_v217) := by
  after_results_simp
  rw [ha14]
  all_goals try simp only [TRef.ofBuf, TRef.toBuf, cast_eq]
  all_goals rfl

/-- Layer 1's slice of a stacked weight array: the same slice and reshape of the same argument. -/
theorem gap3_segB_v221 (ha15 : (WK (Proc.devRef .tc Cert.KernelIdeal.main_arg15) : (⟨2, ![4, 300]⟩ : Shape).Idx → F .f32) = WR (Proc.devRef .tc Cert.ReferenceIdeal.main_arg15)) :
    (StableHlo.after Cert.KernelIdeal.Gen.hostOps3_8 (StableHlo.after Cert.KernelIdeal.Gen.hostOps3_7 (StableHlo.after Cert.KernelIdeal.Gen.hostOps3_6 (StableHlo.after Cert.KernelIdeal.Gen.hostOps3_5 WK))) (Proc.devRef .tc Cert.KernelIdeal.main_v221) : (⟨1, ![300]⟩ : Shape).Idx → F .f32)
      = StableHlo.after Cert.ReferenceIdeal.RefRun.ops10 (StableHlo.after Cert.ReferenceIdeal.RefRun.ops9 WR) (Proc.devRef .tc Cert.ReferenceIdeal.main_v219) := by
  after_results_simp
  rw [ha15]
  all_goals try simp only [TRef.ofBuf, TRef.toBuf, cast_eq]
  all_goals rfl

/-- The edges' source column, wrapped into range and made a one-column matrix: the gather's index operand. -/
theorem gap3_segB_v228 (h1 : (WK (Proc.devRef .tc Cert.KernelIdeal.main_v1) : (⟨1, ![160000]⟩ : Shape).Idx → BitVec 32) = WR (Proc.devRef .tc Cert.ReferenceIdeal.main_v1)) :
    (StableHlo.after Cert.KernelIdeal.Gen.hostOps3_8 (StableHlo.after Cert.KernelIdeal.Gen.hostOps3_7 (StableHlo.after Cert.KernelIdeal.Gen.hostOps3_6 (StableHlo.after Cert.KernelIdeal.Gen.hostOps3_5 WK))) (Proc.devRef .tc Cert.KernelIdeal.main_v228) : (⟨2, ![160000, 1]⟩ : Shape).Idx → BitVec 32)
      = StableHlo.after Cert.ReferenceIdeal.RefRun.ops10 (StableHlo.after Cert.ReferenceIdeal.RefRun.ops9 WR) (Proc.devRef .tc Cert.ReferenceIdeal.main_v225) := by
  after_results_simp
  rw [h1]
  all_goals rfl

/-- The edges' target column as a one-column matrix: a reshape in one program, a broadcast in the other. -/
theorem gap3_segB_v230 (h3 : (WK (Proc.devRef .tc Cert.KernelIdeal.main_v3) : (⟨1, ![160000]⟩ : Shape).Idx → BitVec 32) = WR (Proc.devRef .tc Cert.ReferenceIdeal.main_v3)) :
    (StableHlo.after Cert.KernelIdeal.Gen.hostOps3_8 (StableHlo.after Cert.KernelIdeal.Gen.hostOps3_7 (StableHlo.after Cert.KernelIdeal.Gen.hostOps3_6 (StableHlo.after Cert.KernelIdeal.Gen.hostOps3_5 WK))) (Proc.devRef .tc Cert.KernelIdeal.main_v230) : (⟨2, ![160000, 1]⟩ : Shape).Idx → BitVec 32)
      = StableHlo.after Cert.ReferenceIdeal.RefRun.ops10 (StableHlo.after Cert.ReferenceIdeal.RefRun.ops9 WR) (Proc.devRef .tc Cert.ReferenceIdeal.main_v228) := by
  after_results_simp
  rw [h3]
  exact gap3_col_cast_eq_bcast (a := 160000) (WR (Proc.devRef .tc Cert.ReferenceIdeal.main_v3)) _ _

/-- The second part does not write the edge columns. -/
theorem gap3_segB_K_v1 : StableHlo.after Cert.KernelIdeal.Gen.hostOps3_8 (StableHlo.after Cert.KernelIdeal.Gen.hostOps3_7 (StableHlo.after Cert.KernelIdeal.Gen.hostOps3_6 (StableHlo.after Cert.KernelIdeal.Gen.hostOps3_5 WK))) (Proc.devRef .tc Cert.KernelIdeal.main_v1) = WK (Proc.devRef .tc Cert.KernelIdeal.main_v1) := by
  after_results_simp
theorem gap3_segB_K_v3 : StableHlo.after Cert.KernelIdeal.Gen.hostOps3_8 (StableHlo.after Cert.KernelIdeal.Gen.hostOps3_7 (StableHlo.after Cert.KernelIdeal.Gen.hostOps3_6 (StableHlo.after Cert.KernelIdeal.Gen.hostOps3_5 WK))) (Proc.devRef .tc Cert.KernelIdeal.main_v3) = WK (Proc.devRef .tc Cert.KernelIdeal.main_v3) := by
  after_results_simp
theorem gap3_segB_R_v1 : StableHlo.after Cert.ReferenceIdeal.RefRun.ops10 (StableHlo.after Cert.ReferenceIdeal.RefRun.ops9 WR) (Proc.devRef .tc Cert.ReferenceIdeal.main_v1) = WR (Proc.devRef .tc Cert.ReferenceIdeal.main_v1) := by
  after_results_simp
theorem gap3_segB_R_v3 : StableHlo.after Cert.ReferenceIdeal.RefRun.ops10 (StableHlo.after Cert.ReferenceIdeal.RefRun.ops9 WR) (Proc.devRef .tc Cert.ReferenceIdeal.main_v3) = WR (Proc.devRef .tc Cert.ReferenceIdeal.main_v3) := by
  after_results_simp

end Generic

/-! ## The two statements that hold at the ideal instance only -/

section GenericIdeal

variable (WK : Valuation Cert.KernelIdeal.τ Cert.KernelIdeal.sig (Elt Ideal))
variable (WR : Valuation Cert.ReferenceIdeal.τ Cert.ReferenceIdeal.sig (Elt Ideal))

/-- The rows gathered along the edges' source column.  The kernel program narrows the float format of the node features
    before it gathers; at the ideal instance that changes nothing, so equal node features and equal index columns give
    equal gathered rows. -/
theorem gap3_segB_v229
    (h209 : (StableHlo.after Cert.KernelIdeal.Gen.hostOps3_8 (StableHlo.after Cert.KernelIdeal.Gen.hostOps3_7 (StableHlo.after Cert.KernelIdeal.Gen.hostOps3_6 (StableHlo.after Cert.KernelIdeal.Gen.hostOps3_5 WK))) (Proc.devRef .tc Cert.KernelIdeal.main_v209) : (⟨2, ![10000, 300]⟩ : Shape).Idx → EReal)
      = StableHlo.after Cert.ReferenceIdeal.RefRun.ops10 (StableHlo.after Cert.ReferenceIdeal.RefRun.ops9 WR) (Proc.devRef .tc Cert.ReferenceIdeal.main_v207))
    (h228 : (StableHlo.after Cert.KernelIdeal.Gen.hostOps3_8 (StableHlo.after Cert.KernelIdeal.Gen.hostOps3_7 (StableHlo.after Cert.KernelIdeal.Gen.hostOps3_6 (StableHlo.after Cert.KernelIdeal.Gen.hostOps3_5 WK))) (Proc.devRef .tc Cert.KernelIdeal.main_v228) : (⟨2, ![160000, 1]⟩ : Shape).Idx → BitVec 32)
      = StableHlo.after Cert.ReferenceIdeal.RefRun.ops10 (StableHlo.after Cert.ReferenceIdeal.RefRun.ops9 WR) (Proc.devRef .tc Cert.ReferenceIdeal.main_v225)) :
    (StableHlo.after Cert.KernelIdeal.Gen.hostOps3_8 (StableHlo.after Cert.KernelIdeal.Gen.hostOps3_7 (StableHlo.after Cert.KernelIdeal.Gen.hostOps3_6 (StableHlo.after Cert.KernelIdeal.Gen.hostOps3_5 WK))) (Proc.devRef .tc Cert.KernelIdeal.main_v229) : (⟨2, ![160000, 300]⟩ : Shape).Idx → EReal)
      = StableHlo.after Cert.ReferenceIdeal.RefRun.ops10 (StableHlo.after Cert.ReferenceIdeal.RefRun.ops9 WR) (Proc.devRef .tc Cert.ReferenceIdeal.main_v226) := by
  have eK : StableHlo.after Cert.KernelIdeal.Gen.hostOps3_8 (StableHlo.after Cert.KernelIdeal.Gen.hostOps3_7 (StableHlo.after Cert.KernelIdeal.Gen.hostOps3_6 (StableHlo.after Cert.KernelIdeal.Gen.hostOps3_5 WK))) (Proc.devRef .tc Cert.KernelIdeal.main_v229)
      = Host.gather (α := EReal) Cert.KernelIdeal.gather_S10000x300_S160000x1_S160000x300_1_0_n_n_0_1_1300
          (truncf (F := Ideal) (s := Cert.KernelIdeal.S10000x300) (φ := .f32) .bf16 (StableHlo.after Cert.KernelIdeal.Gen.hostOps3_8 (StableHlo.after Cert.KernelIdeal.Gen.hostOps3_7 (StableHlo.after Cert.KernelIdeal.Gen.hostOps3_6 (StableHlo.after Cert.KernelIdeal.Gen.hostOps3_5 WK))) (Proc.devRef .tc Cert.KernelIdeal.main_v209)) (by decide : FTy.bf16.bits < FTy.f32.bits))
          (StableHlo.after Cert.KernelIdeal.Gen.hostOps3_8 (StableHlo.after Cert.KernelIdeal.Gen.hostOps3_7 (StableHlo.after Cert.KernelIdeal.Gen.hostOps3_6 (StableHlo.after Cert.KernelIdeal.Gen.hostOps3_5 WK))) (Proc.devRef .tc Cert.KernelIdeal.main_v228)) := by
    after_results_simp
    try rfl
  have eR : StableHlo.after Cert.ReferenceIdeal.RefRun.ops10 (StableHlo.after Cert.ReferenceIdeal.RefRun.ops9 WR) (Proc.devRef .tc Cert.ReferenceIdeal.main_v226)
      = Host.gather (α := EReal) Cert.ReferenceIdeal.gather_S10000x300_S160000x1_S160000x300_1_0_n_n_0_1_1300
          (StableHlo.after Cert.ReferenceIdeal.RefRun.ops10 (StableHlo.after Cert.ReferenceIdeal.RefRun.ops9 WR) (Proc.devRef .tc Cert.ReferenceIdeal.main_v207))
          (StableHlo.after Cert.ReferenceIdeal.RefRun.ops10 (StableHlo.after Cert.ReferenceIdeal.RefRun.ops9 WR) (Proc.devRef .tc Cert.ReferenceIdeal.main_v225)) := by
    after_results_simp
    try rfl
  rw [eK, eR, h209, h228, gap3_truncf]
  all_goals rfl

/-- The operand of the reference's next accumulating scatter is the zero array. -/
theorem gap3_segB_zero :
    (StableHlo.after Cert.ReferenceIdeal.RefRun.ops10 (StableHlo.after Cert.ReferenceIdeal.RefRun.ops9 WR) (Proc.devRef .tc Cert.ReferenceIdeal.main_v227) : (⟨2, ![10000, 300]⟩ : Shape).Idx → EReal) = fun _ => (0 : EReal) := by
  after_results_simp
  exact gap3_zero_bcast _

end GenericIdeal

/-! ## The two runs' named contents -/

section Named

variable (m : (ℓ : Loc Cert.KernelIdeal.nD Cert.KernelIdeal.τ Cert.KernelIdeal.sig) → Buf (Elt Ideal) ℓ)
variable (m' : (ℓ : Loc Cert.ReferenceIdeal.nD Cert.ReferenceIdeal.τ Cert.ReferenceIdeal.sig) → Buf (Elt Ideal) ℓ)
variable (outs : Cert.KernelIdeal.Gen.Outs (F := Ideal)) (c : Dev Cert.KernelIdeal.nD)

/-- Two buffers that each hold what their memory held at launch hold the same when the memories agree there. -/
theorem gap3_join {α : Type} {x mK y mR : α} (hK : x = mK) (ha : mR = mK) (hR : y = mR) : x = y :=
  hK.trans (ha.symm.trans hR.symm)

/-- What the pooling region left in its output array is what the reference's accumulating scatter into the zero array
    computes: both are, entry by entry, the sum of the data rows whose index word names the entry's row. -/
theorem gap3_pool (E : Entry2 m m' outs c) (hV : Val2 m outs c) :
    (Cert.KernelIdeal.Gen.V22 m outs c (Proc.devRef .tc Cert.KernelIdeal.main_v152) : (⟨2, ![64, 300]⟩ : Shape).Idx → EReal)
      = Host.scatterAdd (F := Ideal) (φ := .f32) Cert.ReferenceIdeal.scatter_S64x300_S10000x1_S10000x300_1_0_0_1 (Cert.ReferenceIdeal.RefRun.R7 m' c (Proc.devRef .tc Cert.ReferenceIdeal.main_v148)) (Cert.ReferenceIdeal.RefRun.R7 m' c (Proc.devRef .tc Cert.ReferenceIdeal.main_v149)) (Cert.ReferenceIdeal.RefRun.R7 m' c (Proc.devRef .tc Cert.ReferenceIdeal.main_v147)) := by
  have hL : (Cert.KernelIdeal.Gen.V22 m outs c (Proc.devRef .tc Cert.KernelIdeal.main_v152) : (⟨2, ![64, 300]⟩ : Shape).Idx → EReal) = outs 22 Cert.KernelIdeal.main_v152 c :=
    Function.update_self _ _ _
  funext j
  obtain ⟨n, q, rfl⟩ : ∃ n q, j = ix2 n q := ⟨j 0, j 1, eq_ix2 j⟩
  have hs := Cert.HostRead.rowScatterAdd_apply (N := 64) (M := 10000) (D := 300) (w := 32)
    Cert.ReferenceIdeal.scatter_S64x300_S10000x1_S10000x300_1_0_0_1 rfl rfl rfl rfl
    (Cert.ReferenceIdeal.RefRun.R7 m' c (Proc.devRef .tc Cert.ReferenceIdeal.main_v148)) (Cert.ReferenceIdeal.RefRun.R7 m' c (Proc.devRef .tc Cert.ReferenceIdeal.main_v149)) (Cert.ReferenceIdeal.RefRun.R7 m' c (Proc.devRef .tc Cert.ReferenceIdeal.main_v147)) n q
  refine (congrFun hL (ix2 n q)).trans ((hV n q).trans ?_)
  refine Eq.trans ?_ hs.symm
  rw [E.v150, E.v151, E.zero]
  all_goals rfl

/-- The hypotheses of the first part at the named contents. -/
theorem gap3_v181 (A : Args m m' c) (E : Entry2 m m' outs c) (hV : Val2 m outs c) :
    (Cert.KernelIdeal.Gen.V27 m outs c (Proc.devRef .tc Cert.KernelIdeal.main_v181) : (⟨2, ![64, 300]⟩ : Shape).Idx → EReal) = Cert.ReferenceIdeal.RefRun.R9 m' c (Proc.devRef .tc Cert.ReferenceIdeal.main_v179) := by
  rw [Cert.ReferenceIdeal.RefRun.R9_eq, Cert.ReferenceIdeal.RefRun.R8_eq]
  exact gap3_segA_v181 (Cert.KernelIdeal.Gen.V22 m outs c) (Cert.ReferenceIdeal.RefRun.R7 m' c) (gap3_pool m m' outs c E hV)
      ((Cert.KernelIdeal.Gen.V22_of m outs c Cert.KernelIdeal.main_v5 (by decide)).trans E.v5)
      (gap3_join (Kkept_22 m outs c Cert.KernelIdeal.main_arg20 (by decide)) A.a20 (Rkept_7 m' c Cert.ReferenceIdeal.main_arg20 (by decide))) (gap3_join (Kkept_22 m outs c Cert.KernelIdeal.main_arg21 (by decide)) A.a21 (Rkept_7 m' c Cert.ReferenceIdeal.main_arg21 (by decide)))
      (gap3_join (Kkept_22 m outs c Cert.KernelIdeal.main_arg22 (by decide)) A.a22 (Rkept_7 m' c Cert.ReferenceIdeal.main_arg22 (by decide))) (gap3_join (Kkept_22 m outs c Cert.KernelIdeal.main_arg23 (by decide)) A.a23 (Rkept_7 m' c Cert.ReferenceIdeal.main_arg23 (by decide)))
      (gap3_join (Kkept_22 m outs c Cert.KernelIdeal.main_arg24 (by decide)) A.a24 (Rkept_7 m' c Cert.ReferenceIdeal.main_arg24 (by decide))) (gap3_join (Kkept_22 m outs c Cert.KernelIdeal.main_arg25 (by decide)) A.a25 (Rkept_7 m' c Cert.ReferenceIdeal.main_arg25 (by decide)))

theorem gap3_v184 (A : Args m m' c) (E : Entry2 m m' outs c) (hV : Val2 m outs c) :
    (Cert.KernelIdeal.Gen.V27 m outs c (Proc.devRef .tc Cert.KernelIdeal.main_v184) : (⟨1, ![300]⟩ : Shape).Idx → EReal) = Cert.ReferenceIdeal.RefRun.R9 m' c (Proc.devRef .tc Cert.ReferenceIdeal.main_v182) := by
  rw [Cert.ReferenceIdeal.RefRun.R9_eq, Cert.ReferenceIdeal.RefRun.R8_eq]
  exact gap3_segA_v184 (Cert.KernelIdeal.Gen.V22 m outs c) (Cert.ReferenceIdeal.RefRun.R7 m' c) (gap3_pool m m' outs c E hV)
      ((Cert.KernelIdeal.Gen.V22_of m outs c Cert.KernelIdeal.main_v5 (by decide)).trans E.v5)
      (gap3_join (Kkept_22 m outs c Cert.KernelIdeal.main_arg20 (by decide)) A.a20 (Rkept_7 m' c Cert.ReferenceIdeal.main_arg20 (by decide))) (gap3_join (Kkept_22 m outs c Cert.KernelIdeal.main_arg21 (by decide)) A.a21 (Rkept_7 m' c Cert.ReferenceIdeal.main_arg21 (by decide)))
      (gap3_join (Kkept_22 m outs c Cert.KernelIdeal.main_arg22 (by decide)) A.a22 (Rkept_7 m' c Cert.ReferenceIdeal.main_arg22 (by decide))) (gap3_join (Kkept_22 m outs c Cert.KernelIdeal.main_arg23 (by decide)) A.a23 (Rkept_7 m' c Cert.ReferenceIdeal.main_arg23 (by decide)))
      (gap3_join (Kkept_22 m outs c Cert.KernelIdeal.main_arg24 (by decide)) A.a24 (Rkept_7 m' c Cert.ReferenceIdeal.main_arg24 (by decide))) (gap3_join (Kkept_22 m outs c Cert.KernelIdeal.main_arg25 (by decide)) A.a25 (Rkept_7 m' c Cert.ReferenceIdeal.main_arg25 (by decide)))

theorem gap3_c26 :
    (Cert.KernelIdeal.Gen.V27 m outs c (Proc.devRef .tc Cert.KernelIdeal.main_c_26) : (⟨0, ![]⟩ : Shape).Idx → BitVec 32) = Cert.ReferenceIdeal.RefRun.R9 m' c (Proc.devRef .tc Cert.ReferenceIdeal.main_c_29) := by
  rw [Cert.ReferenceIdeal.RefRun.R9_eq, Cert.ReferenceIdeal.RefRun.R8_eq]
  exact gap3_segA_c26 (Cert.KernelIdeal.Gen.V22 m outs c) (Cert.ReferenceIdeal.RefRun.R7 m' c)

/-- The edge columns and the node features where the second part begins. -/
theorem gap3_mid_v1 (E : Entry2 m m' outs c) :
    (Cert.KernelIdeal.Gen.V27 m outs c (Proc.devRef .tc Cert.KernelIdeal.main_v1) : (⟨1, ![160000]⟩ : Shape).Idx → BitVec 32) = Cert.ReferenceIdeal.RefRun.R9 m' c (Proc.devRef .tc Cert.ReferenceIdeal.main_v1) := by
  rw [Cert.ReferenceIdeal.RefRun.R9_eq, Cert.ReferenceIdeal.RefRun.R8_eq]
  exact (gap3_segA_K_v1 (Cert.KernelIdeal.Gen.V22 m outs c)).trans (((Cert.KernelIdeal.Gen.V22_of m outs c Cert.KernelIdeal.main_v1 (by decide)).trans E.v1).trans
      (gap3_segA_R_v1 (Cert.ReferenceIdeal.RefRun.R7 m' c)).symm)
theorem gap3_mid_v3 (E : Entry2 m m' outs c) :
    (Cert.KernelIdeal.Gen.V27 m outs c (Proc.devRef .tc Cert.KernelIdeal.main_v3) : (⟨1, ![160000]⟩ : Shape).Idx → BitVec 32) = Cert.ReferenceIdeal.RefRun.R9 m' c (Proc.devRef .tc Cert.ReferenceIdeal.main_v3) := by
  rw [Cert.ReferenceIdeal.RefRun.R9_eq, Cert.ReferenceIdeal.RefRun.R8_eq]
  exact (gap3_segA_K_v3 (Cert.KernelIdeal.Gen.V22 m outs c)).trans (((Cert.KernelIdeal.Gen.V22_of m outs c Cert.KernelIdeal.main_v3 (by decide)).trans E.v3).trans
      (gap3_segA_R_v3 (Cert.ReferenceIdeal.RefRun.R7 m' c)).symm)
theorem gap3_mid_v149 (E : Entry2 m m' outs c) :
    (Cert.KernelIdeal.Gen.V27 m outs c (Proc.devRef .tc Cert.KernelIdeal.main_v149) : (⟨2, ![10000, 300]⟩ : Shape).Idx → EReal) = Cert.ReferenceIdeal.RefRun.R9 m' c (Proc.devRef .tc Cert.ReferenceIdeal.main_v147) := by
  rw [Cert.ReferenceIdeal.RefRun.R9_eq, Cert.ReferenceIdeal.RefRun.R8_eq]
  exact (gap3_segA_K_v149 (Cert.KernelIdeal.Gen.V22 m outs c)).trans (((Cert.KernelIdeal.Gen.V22_of m outs c Cert.KernelIdeal.main_v149 (by decide)).trans E.v149).trans
      (gap3_segA_R_v147 (Cert.ReferenceIdeal.RefRun.R7 m' c)).symm)

/-- The node features plus each node's graph's virtual-node features after the second part, over the contents the
    second part starts from. -/
theorem gap3_v209 (A : Args m m' c) (E : Entry2 m m' outs c) (hV : Val2 m outs c) :
    (StableHlo.after Cert.KernelIdeal.Gen.hostOps3_8 (StableHlo.after Cert.KernelIdeal.Gen.hostOps3_7 (StableHlo.after Cert.KernelIdeal.Gen.hostOps3_6 (StableHlo.after Cert.KernelIdeal.Gen.hostOps3_5 (Cert.KernelIdeal.Gen.V27 m outs c)))) (Proc.devRef .tc Cert.KernelIdeal.main_v209) : (⟨2, ![10000, 300]⟩ : Shape).Idx → EReal)
      = StableHlo.after Cert.ReferenceIdeal.RefRun.ops10 (StableHlo.after Cert.ReferenceIdeal.RefRun.ops9 (Cert.ReferenceIdeal.RefRun.R9 m' c)) (Proc.devRef .tc Cert.ReferenceIdeal.main_v207) :=
  gap3_segB_v209 (Cert.KernelIdeal.Gen.V27 m outs c) (Cert.ReferenceIdeal.RefRun.R9 m' c) (gap3_v181 m m' outs c A E hV) (gap3_v184 m m' outs c A E hV)
    (gap3_c26 m m' outs c) (gap3_join (Kkept_27 m outs c Cert.KernelIdeal.main_arg26 (by decide)) A.a26 (Rkept_9 m' c Cert.ReferenceIdeal.main_arg26 (by decide))) (gap3_join (Kkept_27 m outs c Cert.KernelIdeal.main_arg27 (by decide)) A.a27 (Rkept_9 m' c Cert.ReferenceIdeal.main_arg27 (by decide)))
    (gap3_join (Kkept_27 m outs c Cert.KernelIdeal.main_arg2 (by decide)) A.a2 (Rkept_9 m' c Cert.ReferenceIdeal.main_arg2 (by decide))) (gap3_mid_v149 m m' outs c E)

/-- From equal contents where the pooling region is entered, and that region's sums, to equal contents where the next
    aggregation region is entered.  The reference's contents there are its contents where the second part starts, run
    through the two operation lists of the second part: that is written out first, so that every field is one of the
    statements above as it stands. -/
theorem gap3 (A : Args m m' c) (E : Entry2 m m' outs c) (hV : Val2 m outs c) : Entry3 m m' outs c := by
  have hR : Cert.ReferenceIdeal.RefRun.R11 m' c = StableHlo.after Cert.ReferenceIdeal.RefRun.ops10 (StableHlo.after Cert.ReferenceIdeal.RefRun.ops9 (Cert.ReferenceIdeal.RefRun.R9 m' c)) := by
    rw [Cert.ReferenceIdeal.RefRun.R11_eq, Cert.ReferenceIdeal.RefRun.R10_eq]
  constructor <;> rw [hR]
  · exact (gap3_segB_K_v1 (Cert.KernelIdeal.Gen.V27 m outs c)).trans ((gap3_mid_v1 m m' outs c E).trans (gap3_segB_R_v1 (Cert.ReferenceIdeal.RefRun.R9 m' c)).symm)
  · exact (gap3_segB_K_v3 (Cert.KernelIdeal.Gen.V27 m outs c)).trans ((gap3_mid_v3 m m' outs c E).trans (gap3_segB_R_v3 (Cert.ReferenceIdeal.RefRun.R9 m' c)).symm)
  · exact gap3_segB_v201 (Cert.KernelIdeal.Gen.V27 m outs c) (Cert.ReferenceIdeal.RefRun.R9 m' c) (gap3_v181 m m' outs c A E hV) (gap3_v184 m m' outs c A E hV)
      (gap3_c26 m m' outs c) (gap3_join (Kkept_27 m outs c Cert.KernelIdeal.main_arg26 (by decide)) A.a26 (Rkept_9 m' c Cert.ReferenceIdeal.main_arg26 (by decide))) (gap3_join (Kkept_27 m outs c Cert.KernelIdeal.main_arg27 (by decide)) A.a27 (Rkept_9 m' c Cert.ReferenceIdeal.main_arg27 (by decide)))
  · exact gap3_v209 m m' outs c A E hV
  · exact gap3_segB_v211 (Cert.KernelIdeal.Gen.V27 m outs c) (Cert.ReferenceIdeal.RefRun.R9 m' c) (gap3_join (Kkept_27 m outs c Cert.KernelIdeal.main_arg10 (by decide)) A.a10 (Rkept_9 m' c Cert.ReferenceIdeal.main_arg10 (by decide)))
  · exact gap3_segB_v213 (Cert.KernelIdeal.Gen.V27 m outs c) (Cert.ReferenceIdeal.RefRun.R9 m' c) (gap3_join (Kkept_27 m outs c Cert.KernelIdeal.main_arg11 (by decide)) A.a11 (Rkept_9 m' c Cert.ReferenceIdeal.main_arg11 (by decide)))
  · exact gap3_segB_v215 (Cert.KernelIdeal.Gen.V27 m outs c) (Cert.ReferenceIdeal.RefRun.R9 m' c) (gap3_join (Kkept_27 m outs c Cert.KernelIdeal.main_arg12 (by decide)) A.a12 (Rkept_9 m' c Cert.ReferenceIdeal.main_arg12 (by decide)))
  · exact gap3_segB_v217 (Cert.KernelIdeal.Gen.V27 m outs c) (Cert.ReferenceIdeal.RefRun.R9 m' c) (gap3_join (Kkept_27 m outs c Cert.KernelIdeal.main_arg13 (by decide)) A.a13 (Rkept_9 m' c Cert.ReferenceIdeal.main_arg13 (by decide)))
  · exact gap3_segB_v219 (Cert.KernelIdeal.Gen.V27 m outs c) (Cert.ReferenceIdeal.RefRun.R9 m' c) (gap3_join (Kkept_27 m outs c Cert.KernelIdeal.main_arg14 (by decide)) A.a14 (Rkept_9 m' c Cert.ReferenceIdeal.main_arg14 (by decide)))
  · exact gap3_segB_v221 (Cert.KernelIdeal.Gen.V27 m outs c) (Cert.ReferenceIdeal.RefRun.R9 m' c) (gap3_join (Kkept_27 m outs c Cert.KernelIdeal.main_arg15 (by decide)) A.a15 (Rkept_9 m' c Cert.ReferenceIdeal.main_arg15 (by decide)))
  · exact gap3_segB_v229 (Cert.KernelIdeal.Gen.V27 m outs c) (Cert.ReferenceIdeal.RefRun.R9 m' c) (gap3_v209 m m' outs c A E hV)
      (gap3_segB_v228 (Cert.KernelIdeal.Gen.V27 m outs c) (Cert.ReferenceIdeal.RefRun.R9 m' c) (gap3_mid_v1 m m' outs c E))
  · exact gap3_segB_v230 (Cert.KernelIdeal.Gen.V27 m outs c) (Cert.ReferenceIdeal.RefRun.R9 m' c) (gap3_mid_v3 m m' outs c E)
  · exact gap3_segB_zero (Cert.ReferenceIdeal.RefRun.R9 m' c)

end Named

end Cert.Bridge

end
-- ==== Proof.Bridge.Gap4.lean ====
/-
  The stretch of host operations between an edge aggregation and the pooling that follows it: one layer's two affine maps,
  each followed by a batch normalisation and a rectifier.  Both programs apply the same operations, one after the other,
  to arrays that hold the same contents; they differ only at the ends: the kernel program reads the aggregated array
  off the leading rows of its padded region output where the reference reads its accumulating scatter, it reshapes the
  segment ids where the reference broadcasts them, and it narrows the layer's output to a shorter float format, which
  leaves an array of extended reals as it is.

  The statements about the shared operations hold for arbitrary contents of the two programs' buffers that agree on
  what the operations read, at any float instance: the operations are never opened.  Only the ends are read at the
  ideal instance.
-/
import proofs.«411400_j9251359555630_1_alg».proof.Proof.Bridge.Agree
import proofs.«411400_j9251359555630_1_alg».proof.Proof.Bridge.ArgsKeptR
import proofs.«411400_j9251359555630_1_alg».proof.Proof.Bridge.Lemmas
import proofs.«411400_j9251359555630_1_alg».proof.Proof.LibHostRead
import Idealize.ShloMosaic.PureOps.Ideal.Laws

set_option maxRecDepth 16384
set_option maxHeartbeats 8000000

noncomputable section

namespace Cert.Bridge

open Idealize.ShloMosaic Idealize.ShloMosaic.TcCoe Idealize.SL.Sem Idealize.ShloMosaic.ValueIdx
open Idealize.ShloMosaic.StableHlo
open scoped BigOperators

variable [Cert.KernelIdeal.Facts] [Cert.ReferenceIdeal.Facts]

/-! ## The shared operations, over any two valuations that agree on what they read -/

section Chain

variable {F : FTy → Type} [FloatOps F]
variable (VK : Valuation Cert.KernelIdeal.τ Cert.KernelIdeal.sig (Elt F))
variable (VR : Valuation Cert.ReferenceIdeal.τ Cert.ReferenceIdeal.sig (Elt F))

/-- The layer's output.  From valuations that leave the same aggregated array (the kernel program's slice of its padded
    region output, the reference's scatter) after their first lists, the same node features, weights, biases, scales and shifts, both lines of
    operations leave the same array in the layer's output buffer: they are the same operations in the same order. -/
theorem gap4_chain
    (hagg : (after Cert.KernelIdeal.Gen.hostOps4 VK (Proc.devRef .tc Cert.KernelIdeal.main_v232) : (⟨Cert.KernelIdeal.S10000x300, .f32⟩ : BufTy).Contents (Elt F))
            = after Cert.ReferenceIdeal.RefRun.ops11 VR (Proc.devRef .tc Cert.ReferenceIdeal.main_v229))
    (hx : (VK (Proc.devRef .tc Cert.KernelIdeal.main_v209) : (⟨Cert.KernelIdeal.S10000x300, .f32⟩ : BufTy).Contents (Elt F)) = VR (Proc.devRef .tc Cert.ReferenceIdeal.main_v207))
    (hW1 : (VK (Proc.devRef .tc Cert.KernelIdeal.main_v211) : (⟨Cert.KernelIdeal.S300x600, .f32⟩ : BufTy).Contents (Elt F)) = VR (Proc.devRef .tc Cert.ReferenceIdeal.main_v209))
    (hb1 : (VK (Proc.devRef .tc Cert.KernelIdeal.main_v213) : (⟨Cert.KernelIdeal.S600, .f32⟩ : BufTy).Contents (Elt F)) = VR (Proc.devRef .tc Cert.ReferenceIdeal.main_v211))
    (hg1 : (VK (Proc.devRef .tc Cert.KernelIdeal.main_v215) : (⟨Cert.KernelIdeal.S600, .f32⟩ : BufTy).Contents (Elt F)) = VR (Proc.devRef .tc Cert.ReferenceIdeal.main_v213))
    (hs1 : (VK (Proc.devRef .tc Cert.KernelIdeal.main_v217) : (⟨Cert.KernelIdeal.S600, .f32⟩ : BufTy).Contents (Elt F)) = VR (Proc.devRef .tc Cert.ReferenceIdeal.main_v215))
    (hW2 : (VK (Proc.devRef .tc Cert.KernelIdeal.main_v219) : (⟨Cert.KernelIdeal.S600x300, .f32⟩ : BufTy).Contents (Elt F)) = VR (Proc.devRef .tc Cert.ReferenceIdeal.main_v217))
    (hb2 : (VK (Proc.devRef .tc Cert.KernelIdeal.main_v221) : (⟨Cert.KernelIdeal.S300, .f32⟩ : BufTy).Contents (Elt F)) = VR (Proc.devRef .tc Cert.ReferenceIdeal.main_v219))
    (ha18 : (VK (Proc.devRef .tc Cert.KernelIdeal.main_arg18) : (⟨Cert.KernelIdeal.S4x300, .f32⟩ : BufTy).Contents (Elt F)) = VR (Proc.devRef .tc Cert.ReferenceIdeal.main_arg18))
    (ha19 : (VK (Proc.devRef .tc Cert.KernelIdeal.main_arg19) : (⟨Cert.KernelIdeal.S4x300, .f32⟩ : BufTy).Contents (Elt F)) = VR (Proc.devRef .tc Cert.ReferenceIdeal.main_arg19)) :
    (after Cert.KernelIdeal.Gen.hostOps4_7 (after Cert.KernelIdeal.Gen.hostOps4_6 (after Cert.KernelIdeal.Gen.hostOps4_5
      (after Cert.KernelIdeal.Gen.hostOps4_4 (after Cert.KernelIdeal.Gen.hostOps4_3 (after Cert.KernelIdeal.Gen.hostOps4_2
        (after Cert.KernelIdeal.Gen.hostOps4_1 (after Cert.KernelIdeal.Gen.hostOps4 VK)))))))
        (Proc.devRef .tc Cert.KernelIdeal.main_v285) : (⟨Cert.KernelIdeal.S10000x300, .f32⟩ : BufTy).Contents (Elt F))
      = after Cert.ReferenceIdeal.RefRun.ops12 (after Cert.ReferenceIdeal.RefRun.ops11 VR)
          (Proc.devRef .tc Cert.ReferenceIdeal.main_v282) := by
  simp only [Cert.KernelIdeal.Gen.hostOps4, Cert.KernelIdeal.Gen.hostOps4_1, Cert.KernelIdeal.Gen.hostOps4_2, Cert.KernelIdeal.Gen.hostOps4_3, Cert.KernelIdeal.Gen.hostOps4_4, Cert.KernelIdeal.Gen.hostOps4_5, Cert.KernelIdeal.Gen.hostOps4_6, Cert.KernelIdeal.Gen.hostOps4_7,
    Cert.ReferenceIdeal.RefRun.ops11, Cert.ReferenceIdeal.RefRun.ops12] at hagg ⊢
  simp (disch := decide) only [after_cons, after_nil,
    nullary_result', unary_result', binary_result', ternary_result', quaternary_result', reshape_result', nary4_result', nary_result',
    unaryIndexed_result', binaryIndexed_result',
    nullary_result_ne', unary_result_ne', binary_result_ne', ternary_result_ne', quaternary_result_ne', reshape_result_ne',
    nary_result_ne', unaryIndexed_result_ne', binaryIndexed_result_ne'] at hagg ⊢
  rw [hagg, hx, hW1, hb1, hg1, hs1, hW2, hb2, ha18, ha19]
  all_goals try simp only [TRef.ofBuf, TRef.toBuf, cast_eq]
  all_goals rfl

/-- The segment ids as a column.  The kernel program reshapes the vector of ids, the reference broadcasts it along the new
    axis of extent one: the same column. -/
theorem gap4_ids
    (ha2 : (VK (Proc.devRef .tc Cert.KernelIdeal.main_arg2) : (⟨Cert.KernelIdeal.S10000, .i32⟩ : BufTy).Contents (Elt F)) = VR (Proc.devRef .tc Cert.ReferenceIdeal.main_arg2)) :
    (after Cert.KernelIdeal.Gen.hostOps4_8 VK (Proc.devRef .tc Cert.KernelIdeal.main_v286) : (⟨Cert.KernelIdeal.S10000x1, .i32⟩ : BufTy).Contents (Elt F))
      = after Cert.ReferenceIdeal.RefRun.ops12 VR (Proc.devRef .tc Cert.ReferenceIdeal.main_v284) := by
  simp only [Cert.KernelIdeal.Gen.hostOps4_8, Cert.ReferenceIdeal.RefRun.ops12]
  after_results_simp
  rw [← ha2]
  exact reshape_col_eq_bcast (n := 10000) (VK (Proc.devRef .tc Cert.KernelIdeal.main_arg2))
    Cert.KernelIdeal.Facts₀.shapeCasts_S10000_S10000x1 Cert.ReferenceIdeal.Facts₀.bcast_S10000_S10000x1_0

end Chain

/-! ## The ends, at the ideal instance -/

section Ends

variable (VK : Valuation Cert.KernelIdeal.τ Cert.KernelIdeal.sig (Elt Ideal))
variable (VR : Valuation Cert.ReferenceIdeal.τ Cert.ReferenceIdeal.sig (Elt Ideal))

/-- The layer's output narrowed to the shorter float format: as an array of extended reals, the output itself. -/
theorem gap4_narrow :
    (after (Cert.KernelIdeal.Gen.hostOps4_8 (F := Ideal)) VK (Proc.devRef .tc Cert.KernelIdeal.main_v287) : (⟨2, ![10000, 300]⟩ : Shape).Idx → EReal)
      = VK (Proc.devRef .tc Cert.KernelIdeal.main_v285) := by
  simp only [Cert.KernelIdeal.Gen.hostOps4_8]
  after_results_simp
  rfl

/-- The operand the reference's pooling scatter accumulates into: the zero constant spread over the array. -/
theorem gap4_zero :
    (after (Cert.ReferenceIdeal.RefRun.ops12 (F := Ideal)) VR (Proc.devRef .tc Cert.ReferenceIdeal.main_v283) : (⟨2, ![64, 300]⟩ : Shape).Idx → EReal)
      = fun _ => (0 : EReal) := by
  simp only [Cert.ReferenceIdeal.RefRun.ops12]
  after_results_simp
  funext j
  exact Idealize.ShloMosaic.Ideal.ofBits_zero_f32

end Ends

/-! ## The aggregated array -/

section Gap

variable (m : (ℓ : Loc Cert.KernelIdeal.nD Cert.KernelIdeal.τ Cert.KernelIdeal.sig) → Buf (Elt Ideal) ℓ)
variable (m' : (ℓ : Loc Cert.ReferenceIdeal.nD Cert.ReferenceIdeal.τ Cert.ReferenceIdeal.sig) → Buf (Elt Ideal) ℓ)
variable (outs : Cert.KernelIdeal.Gen.Outs (F := Ideal)) (c : Dev Cert.KernelIdeal.nD)

/-! ## The argument arrays the stretch reads, on the kernel side -/

/-- The argument array `arg18` is still the memory's where the stretch reads it: no item before that point writes it. -/
theorem gap4_ka18 :
    Cert.KernelIdeal.Gen.V32 m outs c (Proc.devRef .tc Cert.KernelIdeal.main_arg18) = m ((c.tc : Thread Cert.KernelIdeal.nD Cert.KernelIdeal.τ).loc Cert.KernelIdeal.main_arg18) :=
  (Cert.KernelIdeal.Gen.V32_of m outs c Cert.KernelIdeal.main_arg18 (by decide)).trans <|
    (Cert.KernelIdeal.Gen.V31_of m outs c Cert.KernelIdeal.main_arg18 (by decide)).trans <|
    (Cert.KernelIdeal.Gen.V30_of m outs c Cert.KernelIdeal.main_arg18 (by decide)).trans <|
    (Cert.KernelIdeal.Gen.V29_of m outs c Cert.KernelIdeal.main_arg18 (by decide)).trans <|
    (Cert.KernelIdeal.Gen.V28_of m outs c Cert.KernelIdeal.main_arg18 (by decide)).trans <|
    (Cert.KernelIdeal.Gen.V27_of m outs c Cert.KernelIdeal.main_arg18 (by decide)).trans <|
    (Cert.KernelIdeal.Gen.V26_of m outs c Cert.KernelIdeal.main_arg18 (by decide)).trans <|
    (Cert.KernelIdeal.Gen.V25_of m outs c Cert.KernelIdeal.main_arg18 (by decide)).trans <|
    (Cert.KernelIdeal.Gen.V24_of m outs c Cert.KernelIdeal.main_arg18 (by decide)).trans <|
    (Cert.KernelIdeal.Gen.V23_of m outs c Cert.KernelIdeal.main_arg18 (by decide)).trans <|
    (Cert.KernelIdeal.Gen.V22_of m outs c Cert.KernelIdeal.main_arg18 (by decide)).trans <|
    (Cert.KernelIdeal.Gen.V21_of m outs c Cert.KernelIdeal.main_arg18 (by decide)).trans <|
    (Cert.KernelIdeal.Gen.V20_of m outs c Cert.KernelIdeal.main_arg18 (by decide)).trans <|
    (Cert.KernelIdeal.Gen.V19_of m outs c Cert.KernelIdeal.main_arg18 (by decide)).trans <|
    (Cert.KernelIdeal.Gen.V18_of m outs c Cert.KernelIdeal.main_arg18 (by decide)).trans <|
    (Cert.KernelIdeal.Gen.V17_of m outs c Cert.KernelIdeal.main_arg18 (by decide)).trans <|
    (Cert.KernelIdeal.Gen.V16_of m outs c Cert.KernelIdeal.main_arg18 (by decide)).trans <|
    (Cert.KernelIdeal.Gen.V15_of m outs c Cert.KernelIdeal.main_arg18 (by decide)).trans <|
    (Cert.KernelIdeal.Gen.V14_of m outs c Cert.KernelIdeal.main_arg18 (by decide)).trans <|
    (Cert.KernelIdeal.Gen.V13_of m outs c Cert.KernelIdeal.main_arg18 (by decide)).trans <|
    (Cert.KernelIdeal.Gen.V12_of m outs c Cert.KernelIdeal.main_arg18 (by decide)).trans <|
    (Cert.KernelIdeal.Gen.V11_of m outs c Cert.KernelIdeal.main_arg18 (by decide)).trans <|
    (Cert.KernelIdeal.Gen.V10_of m outs c Cert.KernelIdeal.main_arg18 (by decide)).trans <|
    (Cert.KernelIdeal.Gen.V9_of m outs c Cert.KernelIdeal.main_arg18 (by decide)).trans <|
    (Cert.KernelIdeal.Gen.V8_of m outs c Cert.KernelIdeal.main_arg18 (by decide)).trans <|
    (Cert.KernelIdeal.Gen.V7_of m outs c Cert.KernelIdeal.main_arg18 (by decide)).trans <|
    (Cert.KernelIdeal.Gen.V6_of m outs c Cert.KernelIdeal.main_arg18 (by decide)).trans <|
    (Cert.KernelIdeal.Gen.V5_of m outs c Cert.KernelIdeal.main_arg18 (by decide)).trans <|
    (Cert.KernelIdeal.Gen.V4_of m outs c Cert.KernelIdeal.main_arg18 (by decide)).trans <|
    (Cert.KernelIdeal.Gen.V3_of m outs c Cert.KernelIdeal.main_arg18 (by decide)).trans <|
    (Cert.KernelIdeal.Gen.V2_of m outs c Cert.KernelIdeal.main_arg18 (by decide)).trans <|
    (Cert.KernelIdeal.Gen.V1_of m c Cert.KernelIdeal.main_arg18 (by decide))

/-- The argument array `arg19` is still the memory's where the stretch reads it: no item before that point writes it. -/
theorem gap4_ka19 :
    Cert.KernelIdeal.Gen.V32 m outs c (Proc.devRef .tc Cert.KernelIdeal.main_arg19) = m ((c.tc : Thread Cert.KernelIdeal.nD Cert.KernelIdeal.τ).loc Cert.KernelIdeal.main_arg19) :=
  (Cert.KernelIdeal.Gen.V32_of m outs c Cert.KernelIdeal.main_arg19 (by decide)).trans <|
    (Cert.KernelIdeal.Gen.V31_of m outs c Cert.KernelIdeal.main_arg19 (by decide)).trans <|
    (Cert.KernelIdeal.Gen.V30_of m outs c Cert.KernelIdeal.main_arg19 (by decide)).trans <|
    (Cert.KernelIdeal.Gen.V29_of m outs c Cert.KernelIdeal.main_arg19 (by decide)).trans <|
    (Cert.KernelIdeal.Gen.V28_of m outs c Cert.KernelIdeal.main_arg19 (by decide)).trans <|
    (Cert.KernelIdeal.Gen.V27_of m outs c Cert.KernelIdeal.main_arg19 (by decide)).trans <|
    (Cert.KernelIdeal.Gen.V26_of m outs c Cert.KernelIdeal.main_arg19 (by decide)).trans <|
    (Cert.KernelIdeal.Gen.V25_of m outs c Cert.KernelIdeal.main_arg19 (by decide)).trans <|
    (Cert.KernelIdeal.Gen.V24_of m outs c Cert.KernelIdeal.main_arg19 (by decide)).trans <|
    (Cert.KernelIdeal.Gen.V23_of m outs c Cert.KernelIdeal.main_arg19 (by decide)).trans <|
    (Cert.KernelIdeal.Gen.V22_of m outs c Cert.KernelIdeal.main_arg19 (by decide)).trans <|
    (Cert.KernelIdeal.Gen.V21_of m outs c Cert.KernelIdeal.main_arg19 (by decide)).trans <|
    (Cert.KernelIdeal.Gen.V20_of m outs c Cert.KernelIdeal.main_arg19 (by decide)).trans <|
    (Cert.KernelIdeal.Gen.V19_of m outs c Cert.KernelIdeal.main_arg19 (by decide)).trans <|
    (Cert.KernelIdeal.Gen.V18_of m outs c Cert.KernelIdeal.main_arg19 (by decide)).trans <|
    (Cert.KernelIdeal.Gen.V17_of m outs c Cert.KernelIdeal.main_arg19 (by decide)).trans <|
    (Cert.KernelIdeal.Gen.V16_of m outs c Cert.KernelIdeal.main_arg19 (by decide)).trans <|
    (Cert.KernelIdeal.Gen.V15_of m outs c Cert.KernelIdeal.main_arg19 (by decide)).trans <|
    (Cert.KernelIdeal.Gen.V14_of m outs c Cert.KernelIdeal.main_arg19 (by decide)).trans <|
    (Cert.KernelIdeal.Gen.V13_of m outs c Cert.KernelIdeal.main_arg19 (by decide)).trans <|
    (Cert.KernelIdeal.Gen.V12_of m outs c Cert.KernelIdeal.main_arg19 (by decide)).trans <|
    (Cert.KernelIdeal.Gen.V11_of m outs c Cert.KernelIdeal.main_arg19 (by decide)).trans <|
    (Cert.KernelIdeal.Gen.V10_of m outs c Cert.KernelIdeal.main_arg19 (by decide)).trans <|
    (Cert.KernelIdeal.Gen.V9_of m outs c Cert.KernelIdeal.main_arg19 (by decide)).trans <|
    (Cert.KernelIdeal.Gen.V8_of m outs c Cert.KernelIdeal.main_arg19 (by decide)).trans <|
    (Cert.KernelIdeal.Gen.V7_of m outs c Cert.KernelIdeal.main_arg19 (by decide)).trans <|
    (Cert.KernelIdeal.Gen.V6_of m outs c Cert.KernelIdeal.main_arg19 (by decide)).trans <|
    (Cert.KernelIdeal.Gen.V5_of m outs c Cert.KernelIdeal.main_arg19 (by decide)).trans <|
    (Cert.KernelIdeal.Gen.V4_of m outs c Cert.KernelIdeal.main_arg19 (by decide)).trans <|
    (Cert.KernelIdeal.Gen.V3_of m outs c Cert.KernelIdeal.main_arg19 (by decide)).trans <|
    (Cert.KernelIdeal.Gen.V2_of m outs c Cert.KernelIdeal.main_arg19 (by decide)).trans <|
    (Cert.KernelIdeal.Gen.V1_of m c Cert.KernelIdeal.main_arg19 (by decide))

/-- The argument array `arg2` is still the memory's where the stretch reads it: no item before that point writes it. -/
theorem gap4_ka2 :
    Cert.KernelIdeal.Gen.V40 m outs c (Proc.devRef .tc Cert.KernelIdeal.main_arg2) = m ((c.tc : Thread Cert.KernelIdeal.nD Cert.KernelIdeal.τ).loc Cert.KernelIdeal.main_arg2) :=
  (Cert.KernelIdeal.Gen.V40_of m outs c Cert.KernelIdeal.main_arg2 (by decide)).trans <|
    (Cert.KernelIdeal.Gen.V39_of m outs c Cert.KernelIdeal.main_arg2 (by decide)).trans <|
    (Cert.KernelIdeal.Gen.V38_of m outs c Cert.KernelIdeal.main_arg2 (by decide)).trans <|
    (Cert.KernelIdeal.Gen.V37_of m outs c Cert.KernelIdeal.main_arg2 (by decide)).trans <|
    (Cert.KernelIdeal.Gen.V36_of m outs c Cert.KernelIdeal.main_arg2 (by decide)).trans <|
    (Cert.KernelIdeal.Gen.V35_of m outs c Cert.KernelIdeal.main_arg2 (by decide)).trans <|
    (Cert.KernelIdeal.Gen.V34_of m outs c Cert.KernelIdeal.main_arg2 (by decide)).trans <|
    (Cert.KernelIdeal.Gen.V33_of m outs c Cert.KernelIdeal.main_arg2 (by decide)).trans <|
    (Cert.KernelIdeal.Gen.V32_of m outs c Cert.KernelIdeal.main_arg2 (by decide)).trans <|
    (Cert.KernelIdeal.Gen.V31_of m outs c Cert.KernelIdeal.main_arg2 (by decide)).trans <|
    (Cert.KernelIdeal.Gen.V30_of m outs c Cert.KernelIdeal.main_arg2 (by decide)).trans <|
    (Cert.KernelIdeal.Gen.V29_of m outs c Cert.KernelIdeal.main_arg2 (by decide)).trans <|
    (Cert.KernelIdeal.Gen.V28_of m outs c Cert.KernelIdeal.main_arg2 (by decide)).trans <|
    (Cert.KernelIdeal.Gen.V27_of m outs c Cert.KernelIdeal.main_arg2 (by decide)).trans <|
    (Cert.KernelIdeal.Gen.V26_of m outs c Cert.KernelIdeal.main_arg2 (by decide)).trans <|
    (Cert.KernelIdeal.Gen.V25_of m outs c Cert.KernelIdeal.main_arg2 (by decide)).trans <|
    (Cert.KernelIdeal.Gen.V24_of m outs c Cert.KernelIdeal.main_arg2 (by decide)).trans <|
    (Cert.KernelIdeal.Gen.V23_of m outs c Cert.KernelIdeal.main_arg2 (by decide)).trans <|
    (Cert.KernelIdeal.Gen.V22_of m outs c Cert.KernelIdeal.main_arg2 (by decide)).trans <|
    (Cert.KernelIdeal.Gen.V21_of m outs c Cert.KernelIdeal.main_arg2 (by decide)).trans <|
    (Cert.KernelIdeal.Gen.V20_of m outs c Cert.KernelIdeal.main_arg2 (by decide)).trans <|
    (Cert.KernelIdeal.Gen.V19_of m outs c Cert.KernelIdeal.main_arg2 (by decide)).trans <|
    (Cert.KernelIdeal.Gen.V18_of m outs c Cert.KernelIdeal.main_arg2 (by decide)).trans <|
    (Cert.KernelIdeal.Gen.V17_of m outs c Cert.KernelIdeal.main_arg2 (by decide)).trans <|
    (Cert.KernelIdeal.Gen.V16_of m outs c Cert.KernelIdeal.main_arg2 (by decide)).trans <|
    (Cert.KernelIdeal.Gen.V15_of m outs c Cert.KernelIdeal.main_arg2 (by decide)).trans <|
    (Cert.KernelIdeal.Gen.V14_of m outs c Cert.KernelIdeal.main_arg2 (by decide)).trans <|
    (Cert.KernelIdeal.Gen.V13_of m outs c Cert.KernelIdeal.main_arg2 (by decide)).trans <|
    (Cert.KernelIdeal.Gen.V12_of m outs c Cert.KernelIdeal.main_arg2 (by decide)).trans <|
    (Cert.KernelIdeal.Gen.V11_of m outs c Cert.KernelIdeal.main_arg2 (by decide)).trans <|
    (Cert.KernelIdeal.Gen.V10_of m outs c Cert.KernelIdeal.main_arg2 (by decide)).trans <|
    (Cert.KernelIdeal.Gen.V9_of m outs c Cert.KernelIdeal.main_arg2 (by decide)).trans <|
    (Cert.KernelIdeal.Gen.V8_of m outs c Cert.KernelIdeal.main_arg2 (by decide)).trans <|
    (Cert.KernelIdeal.Gen.V7_of m outs c Cert.KernelIdeal.main_arg2 (by decide)).trans <|
    (Cert.KernelIdeal.Gen.V6_of m outs c Cert.KernelIdeal.main_arg2 (by decide)).trans <|
    (Cert.KernelIdeal.Gen.V5_of m outs c Cert.KernelIdeal.main_arg2 (by decide)).trans <|
    (Cert.KernelIdeal.Gen.V4_of m outs c Cert.KernelIdeal.main_arg2 (by decide)).trans <|
    (Cert.KernelIdeal.Gen.V3_of m outs c Cert.KernelIdeal.main_arg2 (by decide)).trans <|
    (Cert.KernelIdeal.Gen.V2_of m outs c Cert.KernelIdeal.main_arg2 (by decide)).trans <|
    (Cert.KernelIdeal.Gen.V1_of m c Cert.KernelIdeal.main_arg2 (by decide))

/-- The leading ten thousand rows of the region's padded output are the reference's scatter of the same data rows by
    the same ids into the zero array: entry (n, q) of either is the sum of the rows whose id is n, at column q. -/
theorem gap4_agg (hE : Entry3 m m' outs c) (hV : Val3 m outs c) :
    (after (Cert.KernelIdeal.Gen.hostOps4 (F := Ideal)) (Cert.KernelIdeal.Gen.V32 m outs c) (Proc.devRef .tc Cert.KernelIdeal.main_v232) : (⟨Cert.KernelIdeal.S10000x300, .f32⟩ : BufTy).Contents (Elt Ideal))
      = after (Cert.ReferenceIdeal.RefRun.ops11 (F := Ideal)) (Cert.ReferenceIdeal.RefRun.R11 m' c) (Proc.devRef .tc Cert.ReferenceIdeal.main_v229) := by
  have hout : Cert.KernelIdeal.Gen.V32 m outs c (Proc.devRef .tc Cert.KernelIdeal.main_v231) = outs 32 Cert.KernelIdeal.main_v231 c := by
    simp only [Cert.KernelIdeal.Gen.V32, Function.update_self]
  simp only [Cert.KernelIdeal.Gen.hostOps4, Cert.ReferenceIdeal.RefRun.ops11]
  after_results_simp
  rw [Host.scatterAdd, Idealize.ShloMosaic.Ideal.hostScatterAdd_def]
  show (_ : (⟨2, ![10000, 300]⟩ : Shape).Idx → EReal) = _
  funext j
  obtain ⟨n, q, rfl⟩ : ∃ n q, j = ix2 n q := ⟨_, _, eq_ix2 j⟩
  refine (slice_rows_apply (D := 300) (Cert.KernelIdeal.Gen.V32 m outs c (Proc.devRef .tc Cert.KernelIdeal.main_v231)) _ n q).trans ?_
  refine ((congrFun hout _).trans ((hV ⟨n.val, by have := n.isLt; omega⟩ q).trans ?_)).trans
    (Cert.HostRead.rowScatterAdd_apply (N := 10000) (M := 160000) (D := 300) (w := 32)
      Cert.ReferenceIdeal.scatter_S10000x300_S160000x1_S160000x300_1_0_0_1 rfl rfl rfl rfl _ _ _ n q).symm
  rw [congrFun hE.zero (ix2 n q)]
  refine congrArg (0 + ·) (Finset.sum_congr rfl fun p _ => ?_)
  exact if_congr (Iff.of_eq (congrArg (fun w : BitVec 32 => w.toInt = (n.val : Int)) (congrFun hE.v230 (ix2 p 0))))
    (congrFun hE.v229 (ix2 p q)) rfl

/-! ## From the entry of one region to the entry of the next -/

theorem gap4 (hA : Args m m' c) (hE : Entry3 m m' outs c) (hV : Val3 m outs c) : Entry4 m m' outs c := by
  -- what neither stretch writes is carried
  have kcar : ∀ r : Ref Cert.KernelIdeal.sig .tc,
      r ∉ Cert.KernelIdeal.Gen.hostOps4_8_W → r ∉ Cert.KernelIdeal.Gen.hostOps4_7_W → r ∉ Cert.KernelIdeal.Gen.hostOps4_6_W →
      r ∉ Cert.KernelIdeal.Gen.hostOps4_5_W → r ∉ Cert.KernelIdeal.Gen.hostOps4_4_W → r ∉ Cert.KernelIdeal.Gen.hostOps4_3_W →
      r ∉ Cert.KernelIdeal.Gen.hostOps4_2_W → r ∉ Cert.KernelIdeal.Gen.hostOps4_1_W → r ∉ Cert.KernelIdeal.Gen.hostOps4_W →
      r ∉ ([Cert.KernelIdeal.main_v231] : List (Ref Cert.KernelIdeal.sig .tc)) →
      Cert.KernelIdeal.Gen.V41 m outs c r = Cert.KernelIdeal.Gen.V31 m outs c r :=
    fun r h8 h7 h6 h5 h4 h3 h2 h1 h0 hu =>
      (Cert.KernelIdeal.Gen.V41_of m outs c r h8).trans <| (Cert.KernelIdeal.Gen.V40_of m outs c r h7).trans <|
      (Cert.KernelIdeal.Gen.V39_of m outs c r h6).trans <| (Cert.KernelIdeal.Gen.V38_of m outs c r h5).trans <|
      (Cert.KernelIdeal.Gen.V37_of m outs c r h4).trans <| (Cert.KernelIdeal.Gen.V36_of m outs c r h3).trans <|
      (Cert.KernelIdeal.Gen.V35_of m outs c r h2).trans <| (Cert.KernelIdeal.Gen.V34_of m outs c r h1).trans <|
      (Cert.KernelIdeal.Gen.V33_of m outs c r h0).trans <| Cert.KernelIdeal.Gen.V32_of m outs c r hu
  have rcar : ∀ r : Ref Cert.ReferenceIdeal.sig .tc,
      r ∉ Cert.ReferenceIdeal.RefRun.ops12_W → r ∉ Cert.ReferenceIdeal.RefRun.ops11_W →
      Cert.ReferenceIdeal.RefRun.R13 m' c (Proc.devRef .tc r) = Cert.ReferenceIdeal.RefRun.R11 m' c (Proc.devRef .tc r) := by
    intro r h12 h11
    rw [Cert.ReferenceIdeal.RefRun.R13_eq, after_of_writes_sub Cert.ReferenceIdeal.RefRun.ops12 _ Cert.ReferenceIdeal.RefRun.ops12_writes h12,
      Cert.ReferenceIdeal.RefRun.R12_eq, after_of_writes_sub Cert.ReferenceIdeal.RefRun.ops11 _ Cert.ReferenceIdeal.RefRun.ops11_writes h11]
  -- the layer's output
  have hh : (Cert.KernelIdeal.Gen.V40 m outs c (Proc.devRef .tc Cert.KernelIdeal.main_v285) : (⟨2, ![10000, 300]⟩ : Shape).Idx → EReal)
      = Cert.ReferenceIdeal.RefRun.R13 m' c (Proc.devRef .tc Cert.ReferenceIdeal.main_v282) := by
    rw [Cert.ReferenceIdeal.RefRun.R13_eq, Cert.ReferenceIdeal.RefRun.R12_eq]
    exact gap4_chain (Cert.KernelIdeal.Gen.V32 m outs c) (Cert.ReferenceIdeal.RefRun.R11 m' c) (gap4_agg m m' outs c hE hV)
      ((Cert.KernelIdeal.Gen.V32_of m outs c Cert.KernelIdeal.main_v209 (by decide)).trans hE.v209)
      ((Cert.KernelIdeal.Gen.V32_of m outs c Cert.KernelIdeal.main_v211 (by decide)).trans hE.v211)
      ((Cert.KernelIdeal.Gen.V32_of m outs c Cert.KernelIdeal.main_v213 (by decide)).trans hE.v213)
      ((Cert.KernelIdeal.Gen.V32_of m outs c Cert.KernelIdeal.main_v215 (by decide)).trans hE.v215)
      ((Cert.KernelIdeal.Gen.V32_of m outs c Cert.KernelIdeal.main_v217 (by decide)).trans hE.v217)
      ((Cert.KernelIdeal.Gen.V32_of m outs c Cert.KernelIdeal.main_v219 (by decide)).trans hE.v219)
      ((Cert.KernelIdeal.Gen.V32_of m outs c Cert.KernelIdeal.main_v221 (by decide)).trans hE.v221)
      ((gap4_ka18 m outs c).trans (hA.a18.symm.trans (Rkept_11 m' c Cert.ReferenceIdeal.main_arg18 (by decide)).symm))
      ((gap4_ka19 m outs c).trans (hA.a19.symm.trans (Rkept_11 m' c Cert.ReferenceIdeal.main_arg19 (by decide)).symm))
  refine ⟨?_, ?_, ?_, ?_, ?_, ?_, ?_⟩
  · exact (kcar Cert.KernelIdeal.main_v1 (by decide) (by decide) (by decide) (by decide) (by decide) (by decide) (by decide) (by decide) (by decide) (by decide)).trans
      (hE.v1.trans (rcar Cert.ReferenceIdeal.main_v1 (by decide) (by decide)).symm)
  · exact (kcar Cert.KernelIdeal.main_v3 (by decide) (by decide) (by decide) (by decide) (by decide) (by decide) (by decide) (by decide) (by decide) (by decide)).trans
      (hE.v3.trans (rcar Cert.ReferenceIdeal.main_v3 (by decide) (by decide)).symm)
  · exact (kcar Cert.KernelIdeal.main_v201 (by decide) (by decide) (by decide) (by decide) (by decide) (by decide) (by decide) (by decide) (by decide) (by decide)).trans
      (hE.v201.trans (rcar Cert.ReferenceIdeal.main_v199 (by decide) (by decide)).symm)
  · exact (Cert.KernelIdeal.Gen.V41_of m outs c Cert.KernelIdeal.main_v285 (by decide)).trans hh
  · rw [Cert.ReferenceIdeal.RefRun.R13_eq]
    exact gap4_ids (Cert.KernelIdeal.Gen.V40 m outs c) (Cert.ReferenceIdeal.RefRun.R12 m' c)
      ((gap4_ka2 m outs c).trans
        (hA.a2.symm.trans (Rkept_12 m' c Cert.ReferenceIdeal.main_arg2 (by decide)).symm))
  · exact (gap4_narrow (Cert.KernelIdeal.Gen.V40 m outs c)).trans hh
  · rw [Cert.ReferenceIdeal.RefRun.R13_eq]
    exact gap4_zero (Cert.ReferenceIdeal.RefRun.R12 m' c)

end Gap

end Cert.Bridge

end
-- ==== Proof.Bridge.Gap5.lean ====
/-
  The host stretch between the kernel program's second virtual-node pooling region (its fifth kernel region) and the
  edge aggregation that follows, against the same stretch of the reference: from equal contents where the pooling
  region is entered, and the pooled sums read entry by entry, to equal contents where the aggregation region is entered.

  The stretch is a virtual-node update: the pooled rows plus the virtual-node features go through two dense layers,
  each followed by a batch normalisation over the 64 rows and a rectifier; the result is gathered back to the nodes and
  added to the node features, which are then gathered along the edges' source column.  Both programs run the same
  operations on these buffers.  They differ in buffer names, in the narrower float format the kernel program gives the
  rows it gathers (at the ideal instance a change of float format is the identity), in how the index column is made a
  one-column matrix (a reshape in one program, a broadcast along a new unit axis in the other), and in where the pooled
  sums come from: the kernel region's output array in one, an accumulating scatter into a zero array in the other.

  Each statement first holds for ARBITRARY contents of the two programs' buffers that agree on the buffers the operations
  read, and for any float values; the two runs' named contents are then instances.
-/
import proofs.«411400_j9251359555630_1_alg».proof.Proof.KI.RegionsP
import proofs.«411400_j9251359555630_1_alg».proof.Proof.Ref.Run
import proofs.«411400_j9251359555630_1_alg».proof.Proof.LibHostRead
import proofs.«411400_j9251359555630_1_alg».proof.Proof.Bridge.Agree
import proofs.«411400_j9251359555630_1_alg».proof.Proof.Bridge.ArgsKept
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value
import Idealize.ShloMosaic.Lib.IdealHost

set_option maxRecDepth 16384
set_option maxHeartbeats 4000000

noncomputable section

namespace Cert.Bridge

open Idealize.ShloMosaic Idealize.ShloMosaic.TcCoe Idealize.SL.Sem Idealize.ShloMosaic.StableHlo
open Idealize.ShloMosaic.ValueIdx
open scoped BigOperators

/-- The kernel program's items 42 to 50 run from contents `W`. -/
local notation "kRun5[" W "]" => StableHlo.after Cert.KernelIdeal.Gen.hostOps5_8 (StableHlo.after Cert.KernelIdeal.Gen.hostOps5_7 (StableHlo.after Cert.KernelIdeal.Gen.hostOps5_6 (StableHlo.after Cert.KernelIdeal.Gen.hostOps5_5 (StableHlo.after Cert.KernelIdeal.Gen.hostOps5_4 (StableHlo.after Cert.KernelIdeal.Gen.hostOps5_3 (StableHlo.after Cert.KernelIdeal.Gen.hostOps5_2 (StableHlo.after Cert.KernelIdeal.Gen.hostOps5_1 (StableHlo.after Cert.KernelIdeal.Gen.hostOps5 W))))))))
/-- The reference's four operation lists from its pooling scatter on, run from contents `W`. -/
local notation "rRun5[" W "]" => StableHlo.after Cert.ReferenceIdeal.RefRun.ops16 (StableHlo.after Cert.ReferenceIdeal.RefRun.ops15 (StableHlo.after Cert.ReferenceIdeal.RefRun.ops14 (StableHlo.after Cert.ReferenceIdeal.RefRun.ops13 W)))

/-! ## Three facts about single operations at the ideal instance -/

/-- A change to a narrower float format leaves an array of extended reals as it is. -/
theorem gap5_truncf {s : Shape} (a : FVec Ideal s .f32) (h : FTy.bf16.bits < FTy.f32.bits) :
    (truncf .bf16 a h : s.Idx → EReal) = a := rfl

/-- A vector reshaped to a one-column matrix and the vector broadcast along a new unit axis are the same array. -/
theorem gap5_col_cast_eq_bcast {α : Type} {a : ℕ} (x : (⟨1, ![a]⟩ : Shape).Idx → α)
    (hc : (⟨1, ![a]⟩ : Shape).ShapeCasts ⟨2, ![a, 1]⟩)
    (hb : (⟨1, ![a]⟩ : Shape).BroadcastsInDim ⟨2, ![a, 1]⟩ ![0]) :
    shapeCast ⟨2, ![a, 1]⟩ x hc = broadcastInDim ⟨2, ![a, 1]⟩ ![0] hb x := by
  funext j
  obtain ⟨p, u, rfl⟩ : ∃ p u, j = ix2 p u := ⟨j 0, j 1, eq_ix2 j⟩
  have hu : u.val = 0 := by omega
  rw [shapeCast_apply x hc (ix2 p u) (ix1 p) (by
        rw [Shape.rowMajor_val_one, Shape.rowMajor_val_two]
        show p.val = p.val * 1 + u.val
        omega)]
  rw [broadcastInDim_apply ![0] hb x (ix2 p u) (ix1 p) (fun b => by
        match b with
        | ⟨0, _⟩ =>
          show p.val = if a = 1 then 0 else p.val
          split
          · omega
          · rfl)]

/-- The scalar constant zero broadcast to any shape is the zero array. -/
theorem gap5_zero_bcast {T : Shape} (h : (⟨0, ![]⟩ : Shape).BroadcastsInDim T ![]) :
    broadcastInDim T ![] h (constant (F := Ideal) ⟨0, ![]⟩ .f32 0x00000000#32) = fun _ => (0 : EReal) := by
  funext j
  rw [broadcastInDim_scalar_apply, constant_apply, Ideal.ofBits_zero_f32]

variable [Cert.KernelIdeal.Facts] [Cert.ReferenceIdeal.Facts]

/-! ## The stretch over arbitrary contents and any float values -/

section Generic

variable {F : FTy → Type} [FloatOps F]
variable (WK : Valuation Cert.KernelIdeal.τ Cert.KernelIdeal.sig (Elt F))
variable (WR : Valuation Cert.ReferenceIdeal.τ Cert.ReferenceIdeal.sig (Elt F))

/-- The updated virtual-node features.  The kernel side reads the pooled sums from a buffer; the hypothesis `h288`
    says that buffer holds what the reference's scatter computes. -/
theorem gap5_run_v337 (h288 : (WK (Proc.devRef .tc Cert.KernelIdeal.main_v288) : (⟨2, ![64, 300]⟩ : Shape).Idx → F .f32)
      = Host.scatterAdd (F := F) (φ := .f32) Cert.ReferenceIdeal.scatter_S64x300_S10000x1_S10000x300_1_0_0_1 (WR (Proc.devRef .tc Cert.ReferenceIdeal.main_v283)) (WR (Proc.devRef .tc Cert.ReferenceIdeal.main_v284)) (WR (Proc.devRef .tc Cert.ReferenceIdeal.main_v282)))
    (h201 : (WK (Proc.devRef .tc Cert.KernelIdeal.main_v201) : (⟨2, ![64, 300]⟩ : Shape).Idx → F .f32) = WR (Proc.devRef .tc Cert.ReferenceIdeal.main_v199))
    (ha20 : (WK (Proc.devRef .tc Cert.KernelIdeal.main_arg20) : (⟨2, ![300, 600]⟩ : Shape).Idx → F .f32) = WR (Proc.devRef .tc Cert.ReferenceIdeal.main_arg20)) (ha21 : (WK (Proc.devRef .tc Cert.KernelIdeal.main_arg21) : (⟨1, ![600]⟩ : Shape).Idx → F .f32) = WR (Proc.devRef .tc Cert.ReferenceIdeal.main_arg21))
    (ha22 : (WK (Proc.devRef .tc Cert.KernelIdeal.main_arg22) : (⟨1, ![600]⟩ : Shape).Idx → F .f32) = WR (Proc.devRef .tc Cert.ReferenceIdeal.main_arg22)) (ha23 : (WK (Proc.devRef .tc Cert.KernelIdeal.main_arg23) : (⟨1, ![600]⟩ : Shape).Idx → F .f32) = WR (Proc.devRef .tc Cert.ReferenceIdeal.main_arg23))
    (ha24 : (WK (Proc.devRef .tc Cert.KernelIdeal.main_arg24) : (⟨2, ![600, 300]⟩ : Shape).Idx → F .f32) = WR (Proc.devRef .tc Cert.ReferenceIdeal.main_arg24)) (ha25 : (WK (Proc.devRef .tc Cert.KernelIdeal.main_arg25) : (⟨1, ![300]⟩ : Shape).Idx → F .f32) = WR (Proc.devRef .tc Cert.ReferenceIdeal.main_arg25))
    (ha26 : (WK (Proc.devRef .tc Cert.KernelIdeal.main_arg26) : (⟨1, ![300]⟩ : Shape).Idx → F .f32) = WR (Proc.devRef .tc Cert.ReferenceIdeal.main_arg26)) (ha27 : (WK (Proc.devRef .tc Cert.KernelIdeal.main_arg27) : (⟨1, ![300]⟩ : Shape).Idx → F .f32) = WR (Proc.devRef .tc Cert.ReferenceIdeal.main_arg27)) :
    (kRun5[WK] (Proc.devRef .tc Cert.KernelIdeal.main_v337) : (⟨2, ![64, 300]⟩ : Shape).Idx → F .f32) = rRun5[WR] (Proc.devRef .tc Cert.ReferenceIdeal.main_v334) := by
  after_results_simp
  rw [h288, h201, ha20, ha21, ha22, ha23, ha24, ha25, ha26, ha27]
  all_goals try simp only [TRef.ofBuf, TRef.toBuf, cast_eq]
  all_goals rfl

/-- The node features plus each node's graph's virtual-node features. -/
theorem gap5_run_v345 (h288 : (WK (Proc.devRef .tc Cert.KernelIdeal.main_v288) : (⟨2, ![64, 300]⟩ : Shape).Idx → F .f32)
      = Host.scatterAdd (F := F) (φ := .f32) Cert.ReferenceIdeal.scatter_S64x300_S10000x1_S10000x300_1_0_0_1 (WR (Proc.devRef .tc Cert.ReferenceIdeal.main_v283)) (WR (Proc.devRef .tc Cert.ReferenceIdeal.main_v284)) (WR (Proc.devRef .tc Cert.ReferenceIdeal.main_v282)))
    (h201 : (WK (Proc.devRef .tc Cert.KernelIdeal.main_v201) : (⟨2, ![64, 300]⟩ : Shape).Idx → F .f32) = WR (Proc.devRef .tc Cert.ReferenceIdeal.main_v199))
    (ha20 : (WK (Proc.devRef .tc Cert.KernelIdeal.main_arg20) : (⟨2, ![300, 600]⟩ : Shape).Idx → F .f32) = WR (Proc.devRef .tc Cert.ReferenceIdeal.main_arg20)) (ha21 : (WK (Proc.devRef .tc Cert.KernelIdeal.main_arg21) : (⟨1, ![600]⟩ : Shape).Idx → F .f32) = WR (Proc.devRef .tc Cert.ReferenceIdeal.main_arg21))
    (ha22 : (WK (Proc.devRef .tc Cert.KernelIdeal.main_arg22) : (⟨1, ![600]⟩ : Shape).Idx → F .f32) = WR (Proc.devRef .tc Cert.ReferenceIdeal.main_arg22)) (ha23 : (WK (Proc.devRef .tc Cert.KernelIdeal.main_arg23) : (⟨1, ![600]⟩ : Shape).Idx → F .f32) = WR (Proc.devRef .tc Cert.ReferenceIdeal.main_arg23))
    (ha24 : (WK (Proc.devRef .tc Cert.KernelIdeal.main_arg24) : (⟨2, ![600, 300]⟩ : Shape).Idx → F .f32) = WR (Proc.devRef .tc Cert.ReferenceIdeal.main_arg24)) (ha25 : (WK (Proc.devRef .tc Cert.KernelIdeal.main_arg25) : (⟨1, ![300]⟩ : Shape).Idx → F .f32) = WR (Proc.devRef .tc Cert.ReferenceIdeal.main_arg25))
    (ha26 : (WK (Proc.devRef .tc Cert.KernelIdeal.main_arg26) : (⟨1, ![300]⟩ : Shape).Idx → F .f32) = WR (Proc.devRef .tc Cert.ReferenceIdeal.main_arg26)) (ha27 : (WK (Proc.devRef .tc Cert.KernelIdeal.main_arg27) : (⟨1, ![300]⟩ : Shape).Idx → F .f32) = WR (Proc.devRef .tc Cert.ReferenceIdeal.main_arg27))
    (ha2 : (WK (Proc.devRef .tc Cert.KernelIdeal.main_arg2) : (⟨1, ![10000]⟩ : Shape).Idx → BitVec 32) = WR (Proc.devRef .tc Cert.ReferenceIdeal.main_arg2))
    (h285 : (WK (Proc.devRef .tc Cert.KernelIdeal.main_v285) : (⟨2, ![10000, 300]⟩ : Shape).Idx → F .f32) = WR (Proc.devRef .tc Cert.ReferenceIdeal.main_v282)) :
    (kRun5[WK] (Proc.devRef .tc Cert.KernelIdeal.main_v345) : (⟨2, ![10000, 300]⟩ : Shape).Idx → F .f32) = rRun5[WR] (Proc.devRef .tc Cert.ReferenceIdeal.main_v342) := by
  after_results_simp
  rw [h288, h201, ha20, ha21, ha22, ha23, ha24, ha25, ha26, ha27, ha2, h285]
  all_goals try simp only [TRef.ofBuf, TRef.toBuf, cast_eq]
  all_goals rfl

/-- Layer 2's slice of a stacked weight array: the same slice and reshape of the same argument. -/
theorem gap5_run_v347 (ha10 : (WK (Proc.devRef .tc Cert.KernelIdeal.main_arg10) : (⟨3, ![4, 300, 600]⟩ : Shape).Idx → F .f32) = WR (Proc.devRef .tc Cert.ReferenceIdeal.main_arg10)) :
    (kRun5[WK] (Proc.devRef .tc Cert.KernelIdeal.main_v347) : (⟨2, ![300, 600]⟩ : Shape).Idx → F .f32) = rRun5[WR] (Proc.devRef .tc Cert.ReferenceIdeal.main_v344) := by
  after_results_simp
  rw [ha10]
  all_goals try simp only [TRef.ofBuf, TRef.toBuf, cast_eq]
  all_goals rfl

/-- Layer 2's slice of a stacked weight array: the same slice and reshape of the same argument. -/
theorem gap5_run_v349 (ha11 : (WK (Proc.devRef .tc Cert.KernelIdeal.main_arg11) : (⟨2, ![4, 600]⟩ : Shape).Idx → F .f32) = WR (Proc.devRef .tc Cert.ReferenceIdeal.main_arg11)) :
    (kRun5[WK] (Proc.devRef .tc Cert.KernelIdeal.main_v349) : (⟨1, ![600]⟩ : Shape).Idx → F .f32) = rRun5[WR] (Proc.devRef .tc Cert.ReferenceIdeal.main_v346) := by
  after_results_simp
  rw [ha11]
  all_goals try simp only [TRef.ofBuf, TRef.toBuf, cast_eq]
  all_goals rfl

/-- Layer 2's slice of a stacked weight array: the same slice and reshape of the same argument. -/
theorem gap5_run_v351 (ha12 : (WK (Proc.devRef .tc Cert.KernelIdeal.main_arg12) : (⟨2, ![4, 600]⟩ : Shape).Idx → F .f32) = WR (Proc.devRef .tc Cert.ReferenceIdeal.main_arg12)) :
    (kRun5[WK] (Proc.devRef .tc Cert.KernelIdeal.main_v351) : (⟨1, ![600]⟩ : Shape).Idx → F .f32) = rRun5[WR] (Proc.devRef .tc Cert.ReferenceIdeal.main_v348) := by
  after_results_simp
  rw [ha12]
  all_goals try simp only [TRef.ofBuf, TRef.toBuf, cast_eq]
  all_goals rfl

/-- Layer 2's slice of a stacked weight array: the same slice and reshape of the same argument. -/
theorem gap5_run_v353 (ha13 : (WK (Proc.devRef .tc Cert.KernelIdeal.main_arg13) : (⟨2, ![4, 600]⟩ : Shape).Idx → F .f32) = WR (Proc.devRef .tc Cert.ReferenceIdeal.main_arg13)) :
    (kRun5[WK] (Proc.devRef .tc Cert.KernelIdeal.main_v353) : (⟨1, ![600]⟩ : Shape).Idx → F .f32) = rRun5[WR] (Proc.devRef .tc Cert.ReferenceIdeal.main_v350) := by
  after_results_simp
  rw [ha13]
  all_goals try simp only [TRef.ofBuf, TRef.toBuf, cast_eq]
  all_goals rfl

/-- Layer 2's slice of a stacked weight array: the same slice and reshape of the same argument. -/
theorem gap5_run_v355 (ha14 : (WK (Proc.devRef .tc Cert.KernelIdeal.main_arg14) : (⟨3, ![4, 600, 300]⟩ : Shape).Idx → F .f32) = WR (Proc.devRef .tc Cert.ReferenceIdeal.main_arg14)) :
    (kRun5[WK] (Proc.devRef .tc Cert.KernelIdeal.main_v355) : (⟨2, ![600, 300]⟩ : Shape).Idx → F .f32) = rRun5[WR] (Proc.devRef .tc Cert.ReferenceIdeal.main_v352) := by
  after_results_simp
  rw [ha14]
  all_goals try simp only [TRef.ofBuf, TRef.toBuf, cast_eq]
  all_goals rfl

/-- Layer 2's slice of a stacked weight array: the same slice and reshape of the same argument. -/
theorem gap5_run_v357 (ha15 : (WK (Proc.devRef .tc Cert.KernelIdeal.main_arg15) : (⟨2, ![4, 300]⟩ : Shape).Idx → F .f32) = WR (Proc.devRef .tc Cert.ReferenceIdeal.main_arg15)) :
    (kRun5[WK] (Proc.devRef .tc Cert.KernelIdeal.main_v357) : (⟨1, ![300]⟩ : Shape).Idx → F .f32) = rRun5[WR] (Proc.devRef .tc Cert.ReferenceIdeal.main_v354) := by
  after_results_simp
  rw [ha15]
  all_goals try simp only [TRef.ofBuf, TRef.toBuf, cast_eq]
  all_goals rfl

/-- The edges' source column, wrapped into range and made a one-column matrix: the gather's index operand. -/
theorem gap5_run_v364 (h1 : (WK (Proc.devRef .tc Cert.KernelIdeal.main_v1) : (⟨1, ![160000]⟩ : Shape).Idx → BitVec 32) = WR (Proc.devRef .tc Cert.ReferenceIdeal.main_v1)) :
    (kRun5[WK] (Proc.devRef .tc Cert.KernelIdeal.main_v364) : (⟨2, ![160000, 1]⟩ : Shape).Idx → BitVec 32) = rRun5[WR] (Proc.devRef .tc Cert.ReferenceIdeal.main_v360) := by
  after_results_simp
  rw [h1]
  all_goals rfl

/-- The edges' target column as a one-column matrix: a reshape in one program, a broadcast in the other. -/
theorem gap5_run_v366 (h3 : (WK (Proc.devRef .tc Cert.KernelIdeal.main_v3) : (⟨1, ![160000]⟩ : Shape).Idx → BitVec 32) = WR (Proc.devRef .tc Cert.ReferenceIdeal.main_v3)) :
    (kRun5[WK] (Proc.devRef .tc Cert.KernelIdeal.main_v366) : (⟨2, ![160000, 1]⟩ : Shape).Idx → BitVec 32) = rRun5[WR] (Proc.devRef .tc Cert.ReferenceIdeal.main_v363) := by
  after_results_simp
  rw [h3]
  exact gap5_col_cast_eq_bcast (a := 160000) (WR (Proc.devRef .tc Cert.ReferenceIdeal.main_v3)) _ _

/-- The stretch does not write the edge columns. -/
theorem gap5_run_K_v1 : kRun5[WK] (Proc.devRef .tc Cert.KernelIdeal.main_v1) = WK (Proc.devRef .tc Cert.KernelIdeal.main_v1) := by
  after_results_simp
theorem gap5_run_K_v3 : kRun5[WK] (Proc.devRef .tc Cert.KernelIdeal.main_v3) = WK (Proc.devRef .tc Cert.KernelIdeal.main_v3) := by
  after_results_simp
theorem gap5_run_R_v1 : rRun5[WR] (Proc.devRef .tc Cert.ReferenceIdeal.main_v1) = WR (Proc.devRef .tc Cert.ReferenceIdeal.main_v1) := by
  after_results_simp
theorem gap5_run_R_v3 : rRun5[WR] (Proc.devRef .tc Cert.ReferenceIdeal.main_v3) = WR (Proc.devRef .tc Cert.ReferenceIdeal.main_v3) := by
  after_results_simp

end Generic

/-! ## The two statements that hold at the ideal instance only -/

section GenericIdeal

variable (WK : Valuation Cert.KernelIdeal.τ Cert.KernelIdeal.sig (Elt Ideal))
variable (WR : Valuation Cert.ReferenceIdeal.τ Cert.ReferenceIdeal.sig (Elt Ideal))

/-- The rows gathered along the edges' source column.  The kernel program narrows the float format of the node features
    before it gathers; at the ideal instance that changes nothing, so equal node features and equal index columns give
    equal gathered rows. -/
theorem gap5_run_v365
    (h345 : (kRun5[WK] (Proc.devRef .tc Cert.KernelIdeal.main_v345) : (⟨2, ![10000, 300]⟩ : Shape).Idx → EReal) = rRun5[WR] (Proc.devRef .tc Cert.ReferenceIdeal.main_v342))
    (h364 : (kRun5[WK] (Proc.devRef .tc Cert.KernelIdeal.main_v364) : (⟨2, ![160000, 1]⟩ : Shape).Idx → BitVec 32) = rRun5[WR] (Proc.devRef .tc Cert.ReferenceIdeal.main_v360)) :
    (kRun5[WK] (Proc.devRef .tc Cert.KernelIdeal.main_v365) : (⟨2, ![160000, 300]⟩ : Shape).Idx → EReal) = rRun5[WR] (Proc.devRef .tc Cert.ReferenceIdeal.main_v361) := by
  have eK : kRun5[WK] (Proc.devRef .tc Cert.KernelIdeal.main_v365)
      = Host.gather (α := EReal) Cert.KernelIdeal.gather_S10000x300_S160000x1_S160000x300_1_0_n_n_0_1_1300
          (truncf (F := Ideal) (s := Cert.KernelIdeal.S10000x300) (φ := .f32) .bf16 (kRun5[WK] (Proc.devRef .tc Cert.KernelIdeal.main_v345)) (by decide : FTy.bf16.bits < FTy.f32.bits))
          (kRun5[WK] (Proc.devRef .tc Cert.KernelIdeal.main_v364)) := by
    after_results_simp
    try rfl
  have eR : rRun5[WR] (Proc.devRef .tc Cert.ReferenceIdeal.main_v361)
      = Host.gather (α := EReal) Cert.ReferenceIdeal.gather_S10000x300_S160000x1_S160000x300_1_0_n_n_0_1_1300
          (rRun5[WR] (Proc.devRef .tc Cert.ReferenceIdeal.main_v342))
          (rRun5[WR] (Proc.devRef .tc Cert.ReferenceIdeal.main_v360)) := by
    after_results_simp
    try rfl
  rw [eK, eR, h345, h364, gap5_truncf]
  all_goals rfl

/-- The operand of the reference's next accumulating scatter is the zero array. -/
theorem gap5_run_zero :
    (rRun5[WR] (Proc.devRef .tc Cert.ReferenceIdeal.main_v362) : (⟨2, ![10000, 300]⟩ : Shape).Idx → EReal) = fun _ => (0 : EReal) := by
  after_results_simp
  exact gap5_zero_bcast _

end GenericIdeal

/-! ## The two runs' named contents -/

section Named

variable (m : (ℓ : Loc Cert.KernelIdeal.nD Cert.KernelIdeal.τ Cert.KernelIdeal.sig) → Buf (Elt Ideal) ℓ)
variable (m' : (ℓ : Loc Cert.ReferenceIdeal.nD Cert.ReferenceIdeal.τ Cert.ReferenceIdeal.sig) → Buf (Elt Ideal) ℓ)
variable (outs : Cert.KernelIdeal.Gen.Outs (F := Ideal)) (c : Dev Cert.KernelIdeal.nD)

/-- Two buffers that each hold what their memory held at launch hold the same when the memories agree there. -/
theorem gap5_join {α : Type} {x mK y mR : α} (hK : x = mK) (ha : mR = mK) (hR : y = mR) : x = y :=
  hK.trans (ha.symm.trans hR.symm)

/-- What the pooling region left in its output array is what the reference's accumulating scatter into the zero array
    computes: both are, entry by entry, the sum of the data rows whose index word names the entry's row. -/
theorem gap5_pool (E : Entry4 m m' outs c) (hV : Val4 m outs c) :
    ((Cert.KernelIdeal.Gen.V42 m outs c) (Proc.devRef .tc Cert.KernelIdeal.main_v288) : (⟨2, ![64, 300]⟩ : Shape).Idx → EReal)
      = Host.scatterAdd (F := Ideal) (φ := .f32) Cert.ReferenceIdeal.scatter_S64x300_S10000x1_S10000x300_1_0_0_1 ((Cert.ReferenceIdeal.RefRun.R13 m' c) (Proc.devRef .tc Cert.ReferenceIdeal.main_v283)) ((Cert.ReferenceIdeal.RefRun.R13 m' c) (Proc.devRef .tc Cert.ReferenceIdeal.main_v284)) ((Cert.ReferenceIdeal.RefRun.R13 m' c) (Proc.devRef .tc Cert.ReferenceIdeal.main_v282)) := by
  have hL : ((Cert.KernelIdeal.Gen.V42 m outs c) (Proc.devRef .tc Cert.KernelIdeal.main_v288) : (⟨2, ![64, 300]⟩ : Shape).Idx → EReal) = outs 42 Cert.KernelIdeal.main_v288 c :=
    Function.update_self _ _ _
  funext j
  obtain ⟨n, q, rfl⟩ : ∃ n q, j = ix2 n q := ⟨j 0, j 1, eq_ix2 j⟩
  have hs := Cert.HostRead.rowScatterAdd_apply (N := 64) (M := 10000) (D := 300) (w := 32)
    Cert.ReferenceIdeal.scatter_S64x300_S10000x1_S10000x300_1_0_0_1 rfl rfl rfl rfl
    ((Cert.ReferenceIdeal.RefRun.R13 m' c) (Proc.devRef .tc Cert.ReferenceIdeal.main_v283)) ((Cert.ReferenceIdeal.RefRun.R13 m' c) (Proc.devRef .tc Cert.ReferenceIdeal.main_v284)) ((Cert.ReferenceIdeal.RefRun.R13 m' c) (Proc.devRef .tc Cert.ReferenceIdeal.main_v282)) n q
  refine (congrFun hL (ix2 n q)).trans ((hV n q).trans ?_)
  refine Eq.trans ?_ hs.symm
  rw [E.v286, E.v287, E.zero]
  all_goals rfl

/-- The updated virtual-node features after the stretch, over the contents the stretch starts from. -/
theorem gap5_v337 (A : Args m m' c) (E : Entry4 m m' outs c) (hV : Val4 m outs c) :
    (kRun5[(Cert.KernelIdeal.Gen.V42 m outs c)] (Proc.devRef .tc Cert.KernelIdeal.main_v337) : (⟨2, ![64, 300]⟩ : Shape).Idx → EReal) = rRun5[(Cert.ReferenceIdeal.RefRun.R13 m' c)] (Proc.devRef .tc Cert.ReferenceIdeal.main_v334) :=
  gap5_run_v337 (Cert.KernelIdeal.Gen.V42 m outs c) (Cert.ReferenceIdeal.RefRun.R13 m' c) (gap5_pool m m' outs c E hV)
    ((Cert.KernelIdeal.Gen.V42_of m outs c Cert.KernelIdeal.main_v201 (by decide)).trans E.v201)
    (gap5_join (Kkept_42 m outs c Cert.KernelIdeal.main_arg20 (by decide)) A.a20 (Rkept_13 m' c Cert.ReferenceIdeal.main_arg20 (by decide))) (gap5_join (Kkept_42 m outs c Cert.KernelIdeal.main_arg21 (by decide)) A.a21 (Rkept_13 m' c Cert.ReferenceIdeal.main_arg21 (by decide)))
    (gap5_join (Kkept_42 m outs c Cert.KernelIdeal.main_arg22 (by decide)) A.a22 (Rkept_13 m' c Cert.ReferenceIdeal.main_arg22 (by decide))) (gap5_join (Kkept_42 m outs c Cert.KernelIdeal.main_arg23 (by decide)) A.a23 (Rkept_13 m' c Cert.ReferenceIdeal.main_arg23 (by decide)))
    (gap5_join (Kkept_42 m outs c Cert.KernelIdeal.main_arg24 (by decide)) A.a24 (Rkept_13 m' c Cert.ReferenceIdeal.main_arg24 (by decide))) (gap5_join (Kkept_42 m outs c Cert.KernelIdeal.main_arg25 (by decide)) A.a25 (Rkept_13 m' c Cert.ReferenceIdeal.main_arg25 (by decide)))
    (gap5_join (Kkept_42 m outs c Cert.KernelIdeal.main_arg26 (by decide)) A.a26 (Rkept_13 m' c Cert.ReferenceIdeal.main_arg26 (by decide))) (gap5_join (Kkept_42 m outs c Cert.KernelIdeal.main_arg27 (by decide)) A.a27 (Rkept_13 m' c Cert.ReferenceIdeal.main_arg27 (by decide)))

/-- The node features plus each node's graph's virtual-node features after the stretch. -/
theorem gap5_v345 (A : Args m m' c) (E : Entry4 m m' outs c) (hV : Val4 m outs c) :
    (kRun5[(Cert.KernelIdeal.Gen.V42 m outs c)] (Proc.devRef .tc Cert.KernelIdeal.main_v345) : (⟨2, ![10000, 300]⟩ : Shape).Idx → EReal) = rRun5[(Cert.ReferenceIdeal.RefRun.R13 m' c)] (Proc.devRef .tc Cert.ReferenceIdeal.main_v342) :=
  gap5_run_v345 (Cert.KernelIdeal.Gen.V42 m outs c) (Cert.ReferenceIdeal.RefRun.R13 m' c) (gap5_pool m m' outs c E hV)
    ((Cert.KernelIdeal.Gen.V42_of m outs c Cert.KernelIdeal.main_v201 (by decide)).trans E.v201)
    (gap5_join (Kkept_42 m outs c Cert.KernelIdeal.main_arg20 (by decide)) A.a20 (Rkept_13 m' c Cert.ReferenceIdeal.main_arg20 (by decide))) (gap5_join (Kkept_42 m outs c Cert.KernelIdeal.main_arg21 (by decide)) A.a21 (Rkept_13 m' c Cert.ReferenceIdeal.main_arg21 (by decide)))
    (gap5_join (Kkept_42 m outs c Cert.KernelIdeal.main_arg22 (by decide)) A.a22 (Rkept_13 m' c Cert.ReferenceIdeal.main_arg22 (by decide))) (gap5_join (Kkept_42 m outs c Cert.KernelIdeal.main_arg23 (by decide)) A.a23 (Rkept_13 m' c Cert.ReferenceIdeal.main_arg23 (by decide)))
    (gap5_join (Kkept_42 m outs c Cert.KernelIdeal.main_arg24 (by decide)) A.a24 (Rkept_13 m' c Cert.ReferenceIdeal.main_arg24 (by decide))) (gap5_join (Kkept_42 m outs c Cert.KernelIdeal.main_arg25 (by decide)) A.a25 (Rkept_13 m' c Cert.ReferenceIdeal.main_arg25 (by decide)))
    (gap5_join (Kkept_42 m outs c Cert.KernelIdeal.main_arg26 (by decide)) A.a26 (Rkept_13 m' c Cert.ReferenceIdeal.main_arg26 (by decide))) (gap5_join (Kkept_42 m outs c Cert.KernelIdeal.main_arg27 (by decide)) A.a27 (Rkept_13 m' c Cert.ReferenceIdeal.main_arg27 (by decide)))
    (gap5_join (Kkept_42 m outs c Cert.KernelIdeal.main_arg2 (by decide)) A.a2 (Rkept_13 m' c Cert.ReferenceIdeal.main_arg2 (by decide)))
    ((Cert.KernelIdeal.Gen.V42_of m outs c Cert.KernelIdeal.main_v285 (by decide)).trans E.v285)

/-- From equal contents where the pooling region is entered, and that region's sums, to equal contents where the next
    aggregation region is entered.  The reference's contents there are its contents where the stretch starts, run through
    the stretch's four operation lists: that is written out first, so that every field is one of the statements above
    as it stands. -/
theorem gap5 (A : Args m m' c) (E : Entry4 m m' outs c) (hV : Val4 m outs c) : Entry5 m m' outs c := by
  have hR : Cert.ReferenceIdeal.RefRun.R17 m' c = rRun5[(Cert.ReferenceIdeal.RefRun.R13 m' c)] := by
    rw [Cert.ReferenceIdeal.RefRun.R17_eq, Cert.ReferenceIdeal.RefRun.R16_eq, Cert.ReferenceIdeal.RefRun.R15_eq, Cert.ReferenceIdeal.RefRun.R14_eq]
  constructor <;> rw [hR]
  · exact (gap5_run_K_v1 (Cert.KernelIdeal.Gen.V42 m outs c)).trans (((Cert.KernelIdeal.Gen.V42_of m outs c Cert.KernelIdeal.main_v1 (by decide)).trans E.v1).trans (gap5_run_R_v1 (Cert.ReferenceIdeal.RefRun.R13 m' c)).symm)
  · exact (gap5_run_K_v3 (Cert.KernelIdeal.Gen.V42 m outs c)).trans (((Cert.KernelIdeal.Gen.V42_of m outs c Cert.KernelIdeal.main_v3 (by decide)).trans E.v3).trans (gap5_run_R_v3 (Cert.ReferenceIdeal.RefRun.R13 m' c)).symm)
  · exact gap5_v337 m m' outs c A E hV
  · exact gap5_v345 m m' outs c A E hV
  · exact gap5_run_v347 (Cert.KernelIdeal.Gen.V42 m outs c) (Cert.ReferenceIdeal.RefRun.R13 m' c) (gap5_join (Kkept_42 m outs c Cert.KernelIdeal.main_arg10 (by decide)) A.a10 (Rkept_13 m' c Cert.ReferenceIdeal.main_arg10 (by decide)))
  · exact gap5_run_v349 (Cert.KernelIdeal.Gen.V42 m outs c) (Cert.ReferenceIdeal.RefRun.R13 m' c) (gap5_join (Kkept_42 m outs c Cert.KernelIdeal.main_arg11 (by decide)) A.a11 (Rkept_13 m' c Cert.ReferenceIdeal.main_arg11 (by decide)))
  · exact gap5_run_v351 (Cert.KernelIdeal.Gen.V42 m outs c) (Cert.ReferenceIdeal.RefRun.R13 m' c) (gap5_join (Kkept_42 m outs c Cert.KernelIdeal.main_arg12 (by decide)) A.a12 (Rkept_13 m' c Cert.ReferenceIdeal.main_arg12 (by decide)))
  · exact gap5_run_v353 (Cert.KernelIdeal.Gen.V42 m outs c) (Cert.ReferenceIdeal.RefRun.R13 m' c) (gap5_join (Kkept_42 m outs c Cert.KernelIdeal.main_arg13 (by decide)) A.a13 (Rkept_13 m' c Cert.ReferenceIdeal.main_arg13 (by decide)))
  · exact gap5_run_v355 (Cert.KernelIdeal.Gen.V42 m outs c) (Cert.ReferenceIdeal.RefRun.R13 m' c) (gap5_join (Kkept_42 m outs c Cert.KernelIdeal.main_arg14 (by decide)) A.a14 (Rkept_13 m' c Cert.ReferenceIdeal.main_arg14 (by decide)))
  · exact gap5_run_v357 (Cert.KernelIdeal.Gen.V42 m outs c) (Cert.ReferenceIdeal.RefRun.R13 m' c) (gap5_join (Kkept_42 m outs c Cert.KernelIdeal.main_arg15 (by decide)) A.a15 (Rkept_13 m' c Cert.ReferenceIdeal.main_arg15 (by decide)))
  · exact gap5_run_v365 (Cert.KernelIdeal.Gen.V42 m outs c) (Cert.ReferenceIdeal.RefRun.R13 m' c) (gap5_v345 m m' outs c A E hV)
      (gap5_run_v364 (Cert.KernelIdeal.Gen.V42 m outs c) (Cert.ReferenceIdeal.RefRun.R13 m' c) ((Cert.KernelIdeal.Gen.V42_of m outs c Cert.KernelIdeal.main_v1 (by decide)).trans E.v1))
  · exact gap5_run_v366 (Cert.KernelIdeal.Gen.V42 m outs c) (Cert.ReferenceIdeal.RefRun.R13 m' c) ((Cert.KernelIdeal.Gen.V42_of m outs c Cert.KernelIdeal.main_v3 (by decide)).trans E.v3)
  · exact gap5_run_zero (Cert.ReferenceIdeal.RefRun.R13 m' c)

end Named

end Cert.Bridge

end
-- ==== Proof.Bridge.Gap6.lean ====
/-
  The stretch of host operations between an edge aggregation and the pooling that follows it: one layer's two affine maps,
  each followed by a batch normalisation and a rectifier.  Both programs apply the same operations, one after the other,
  to arrays that hold the same contents; they differ only at the ends: the kernel program reads the aggregated array
  off the leading rows of its padded region output where the reference reads its accumulating scatter, it reshapes the
  segment ids where the reference broadcasts them, and it narrows the layer's output to a shorter float format, which
  leaves an array of extended reals as it is.

  The statements about the shared operations hold for arbitrary contents of the two programs' buffers that agree on
  what the operations read, at any float instance: the operations are never opened.  Only the ends are read at the
  ideal instance.
-/
import proofs.«411400_j9251359555630_1_alg».proof.Proof.Bridge.Agree
import proofs.«411400_j9251359555630_1_alg».proof.Proof.Bridge.ArgsKeptR
import proofs.«411400_j9251359555630_1_alg».proof.Proof.Bridge.Lemmas
import proofs.«411400_j9251359555630_1_alg».proof.Proof.LibHostRead
import Idealize.ShloMosaic.PureOps.Ideal.Laws

set_option maxRecDepth 16384
set_option maxHeartbeats 8000000

noncomputable section

namespace Cert.Bridge

open Idealize.ShloMosaic Idealize.ShloMosaic.TcCoe Idealize.SL.Sem Idealize.ShloMosaic.ValueIdx
open Idealize.ShloMosaic.StableHlo
open scoped BigOperators

variable [Cert.KernelIdeal.Facts] [Cert.ReferenceIdeal.Facts]

/-! ## The shared operations, over any two valuations that agree on what they read -/

section Chain

variable {F : FTy → Type} [FloatOps F]
variable (VK : Valuation Cert.KernelIdeal.τ Cert.KernelIdeal.sig (Elt F))
variable (VR : Valuation Cert.ReferenceIdeal.τ Cert.ReferenceIdeal.sig (Elt F))

/-- The layer's output.  From valuations that leave the same aggregated array (the kernel program's slice of its padded
    region output, the reference's scatter) after their first lists, the same node features, weights, biases, scales and shifts, both lines of
    operations leave the same array in the layer's output buffer: they are the same operations in the same order. -/
theorem gap6_chain
    (hagg : (after Cert.KernelIdeal.Gen.hostOps6 VK (Proc.devRef .tc Cert.KernelIdeal.main_v368) : (⟨Cert.KernelIdeal.S10000x300, .f32⟩ : BufTy).Contents (Elt F))
            = after Cert.ReferenceIdeal.RefRun.ops17 VR (Proc.devRef .tc Cert.ReferenceIdeal.main_v364))
    (hx : (VK (Proc.devRef .tc Cert.KernelIdeal.main_v345) : (⟨Cert.KernelIdeal.S10000x300, .f32⟩ : BufTy).Contents (Elt F)) = VR (Proc.devRef .tc Cert.ReferenceIdeal.main_v342))
    (hW1 : (VK (Proc.devRef .tc Cert.KernelIdeal.main_v347) : (⟨Cert.KernelIdeal.S300x600, .f32⟩ : BufTy).Contents (Elt F)) = VR (Proc.devRef .tc Cert.ReferenceIdeal.main_v344))
    (hb1 : (VK (Proc.devRef .tc Cert.KernelIdeal.main_v349) : (⟨Cert.KernelIdeal.S600, .f32⟩ : BufTy).Contents (Elt F)) = VR (Proc.devRef .tc Cert.ReferenceIdeal.main_v346))
    (hg1 : (VK (Proc.devRef .tc Cert.KernelIdeal.main_v351) : (⟨Cert.KernelIdeal.S600, .f32⟩ : BufTy).Contents (Elt F)) = VR (Proc.devRef .tc Cert.ReferenceIdeal.main_v348))
    (hs1 : (VK (Proc.devRef .tc Cert.KernelIdeal.main_v353) : (⟨Cert.KernelIdeal.S600, .f32⟩ : BufTy).Contents (Elt F)) = VR (Proc.devRef .tc Cert.ReferenceIdeal.main_v350))
    (hW2 : (VK (Proc.devRef .tc Cert.KernelIdeal.main_v355) : (⟨Cert.KernelIdeal.S600x300, .f32⟩ : BufTy).Contents (Elt F)) = VR (Proc.devRef .tc Cert.ReferenceIdeal.main_v352))
    (hb2 : (VK (Proc.devRef .tc Cert.KernelIdeal.main_v357) : (⟨Cert.KernelIdeal.S300, .f32⟩ : BufTy).Contents (Elt F)) = VR (Proc.devRef .tc Cert.ReferenceIdeal.main_v354))
    (ha18 : (VK (Proc.devRef .tc Cert.KernelIdeal.main_arg18) : (⟨Cert.KernelIdeal.S4x300, .f32⟩ : BufTy).Contents (Elt F)) = VR (Proc.devRef .tc Cert.ReferenceIdeal.main_arg18))
    (ha19 : (VK (Proc.devRef .tc Cert.KernelIdeal.main_arg19) : (⟨Cert.KernelIdeal.S4x300, .f32⟩ : BufTy).Contents (Elt F)) = VR (Proc.devRef .tc Cert.ReferenceIdeal.main_arg19)) :
    (after Cert.KernelIdeal.Gen.hostOps6_7 (after Cert.KernelIdeal.Gen.hostOps6_6 (after Cert.KernelIdeal.Gen.hostOps6_5
      (after Cert.KernelIdeal.Gen.hostOps6_4 (after Cert.KernelIdeal.Gen.hostOps6_3 (after Cert.KernelIdeal.Gen.hostOps6_2
        (after Cert.KernelIdeal.Gen.hostOps6_1 (after Cert.KernelIdeal.Gen.hostOps6 VK)))))))
        (Proc.devRef .tc Cert.KernelIdeal.main_v421) : (⟨Cert.KernelIdeal.S10000x300, .f32⟩ : BufTy).Contents (Elt F))
      = after Cert.ReferenceIdeal.RefRun.ops19 (after Cert.ReferenceIdeal.RefRun.ops18 (after Cert.ReferenceIdeal.RefRun.ops17 VR))
          (Proc.devRef .tc Cert.ReferenceIdeal.main_v417) := by
  simp only [Cert.KernelIdeal.Gen.hostOps6, Cert.KernelIdeal.Gen.hostOps6_1, Cert.KernelIdeal.Gen.hostOps6_2, Cert.KernelIdeal.Gen.hostOps6_3, Cert.KernelIdeal.Gen.hostOps6_4, Cert.KernelIdeal.Gen.hostOps6_5, Cert.KernelIdeal.Gen.hostOps6_6, Cert.KernelIdeal.Gen.hostOps6_7,
    Cert.ReferenceIdeal.RefRun.ops17, Cert.ReferenceIdeal.RefRun.ops18, Cert.ReferenceIdeal.RefRun.ops19] at hagg ⊢
  simp (disch := decide) only [after_cons, after_nil,
    nullary_result', unary_result', binary_result', ternary_result', quaternary_result', reshape_result', nary4_result', nary_result',
    unaryIndexed_result', binaryIndexed_result',
    nullary_result_ne', unary_result_ne', binary_result_ne', ternary_result_ne', quaternary_result_ne', reshape_result_ne',
    nary_result_ne', unaryIndexed_result_ne', binaryIndexed_result_ne'] at hagg ⊢
  rw [hagg, hx, hW1, hb1, hg1, hs1, hW2, hb2, ha18, ha19]
  all_goals try simp only [TRef.ofBuf, TRef.toBuf, cast_eq]
  all_goals rfl

/-- The segment ids as a column.  The kernel program reshapes the vector of ids, the reference broadcasts it along the new
    axis of extent one: the same column. -/
theorem gap6_ids
    (ha2 : (VK (Proc.devRef .tc Cert.KernelIdeal.main_arg2) : (⟨Cert.KernelIdeal.S10000, .i32⟩ : BufTy).Contents (Elt F)) = VR (Proc.devRef .tc Cert.ReferenceIdeal.main_arg2)) :
    (after Cert.KernelIdeal.Gen.hostOps6_8 VK (Proc.devRef .tc Cert.KernelIdeal.main_v422) : (⟨Cert.KernelIdeal.S10000x1, .i32⟩ : BufTy).Contents (Elt F))
      = after Cert.ReferenceIdeal.RefRun.ops19 VR (Proc.devRef .tc Cert.ReferenceIdeal.main_v419) := by
  simp only [Cert.KernelIdeal.Gen.hostOps6_8, Cert.ReferenceIdeal.RefRun.ops19]
  after_results_simp
  rw [← ha2]
  exact reshape_col_eq_bcast (n := 10000) (VK (Proc.devRef .tc Cert.KernelIdeal.main_arg2))
    Cert.KernelIdeal.Facts₀.shapeCasts_S10000_S10000x1 Cert.ReferenceIdeal.Facts₀.bcast_S10000_S10000x1_0

end Chain

/-! ## The ends, at the ideal instance -/

section Ends

variable (VK : Valuation Cert.KernelIdeal.τ Cert.KernelIdeal.sig (Elt Ideal))
variable (VR : Valuation Cert.ReferenceIdeal.τ Cert.ReferenceIdeal.sig (Elt Ideal))

/-- The layer's output narrowed to the shorter float format: as an array of extended reals, the output itself. -/
theorem gap6_narrow :
    (after (Cert.KernelIdeal.Gen.hostOps6_8 (F := Ideal)) VK (Proc.devRef .tc Cert.KernelIdeal.main_v423) : (⟨2, ![10000, 300]⟩ : Shape).Idx → EReal)
      = VK (Proc.devRef .tc Cert.KernelIdeal.main_v421) := by
  simp only [Cert.KernelIdeal.Gen.hostOps6_8]
  after_results_simp
  rfl

/-- The operand the reference's pooling scatter accumulates into: the zero constant spread over the array. -/
theorem gap6_zero :
    (after (Cert.ReferenceIdeal.RefRun.ops19 (F := Ideal)) VR (Proc.devRef .tc Cert.ReferenceIdeal.main_v418) : (⟨2, ![64, 300]⟩ : Shape).Idx → EReal)
      = fun _ => (0 : EReal) := by
  simp only [Cert.ReferenceIdeal.RefRun.ops19]
  after_results_simp
  funext j
  exact Idealize.ShloMosaic.Ideal.ofBits_zero_f32

end Ends

/-! ## The aggregated array -/

section Gap

variable (m : (ℓ : Loc Cert.KernelIdeal.nD Cert.KernelIdeal.τ Cert.KernelIdeal.sig) → Buf (Elt Ideal) ℓ)
variable (m' : (ℓ : Loc Cert.ReferenceIdeal.nD Cert.ReferenceIdeal.τ Cert.ReferenceIdeal.sig) → Buf (Elt Ideal) ℓ)
variable (outs : Cert.KernelIdeal.Gen.Outs (F := Ideal)) (c : Dev Cert.KernelIdeal.nD)

/-! ## The argument arrays the stretch reads, on the kernel side -/

/-- The argument array `arg18` is still the memory's where the stretch reads it: no item after that point writes it. -/
theorem gap6_ka18 :
    Cert.KernelIdeal.Gen.V52 m outs c (Proc.devRef .tc Cert.KernelIdeal.main_arg18) = m ((c.tc : Thread Cert.KernelIdeal.nD Cert.KernelIdeal.τ).loc Cert.KernelIdeal.main_arg18) :=
  (Cert.KernelIdeal.Gen.V53_of m outs c Cert.KernelIdeal.main_arg18 (by decide)).symm.trans <|
    (Cert.KernelIdeal.Gen.V54_of m outs c Cert.KernelIdeal.main_arg18 (by decide)).symm.trans <|
    (Cert.KernelIdeal.Gen.V55_of m outs c Cert.KernelIdeal.main_arg18 (by decide)).symm.trans <|
    (Cert.KernelIdeal.Gen.V56_of m outs c Cert.KernelIdeal.main_arg18 (by decide)).symm.trans <|
    (Cert.KernelIdeal.Gen.V57_of m outs c Cert.KernelIdeal.main_arg18 (by decide)).symm.trans <|
    (Cert.KernelIdeal.Gen.V58_of m outs c Cert.KernelIdeal.main_arg18 (by decide)).symm.trans <|
    (Cert.KernelIdeal.Gen.V59_of m outs c Cert.KernelIdeal.main_arg18 (by decide)).symm.trans <|
    (Cert.KernelIdeal.Gen.V60_of m outs c Cert.KernelIdeal.main_arg18 (by decide)).symm.trans <|
    (Cert.KernelIdeal.Gen.V61_of m outs c Cert.KernelIdeal.main_arg18 (by decide)).symm.trans <|
    (Cert.KernelIdeal.Gen.V62_of m outs c Cert.KernelIdeal.main_arg18 (by decide)).symm.trans <|
    (Cert.KernelIdeal.Gen.V63_of m outs c Cert.KernelIdeal.main_arg18 (by decide)).symm.trans <|
    (Cert.KernelIdeal.Gen.V64_of m outs c Cert.KernelIdeal.main_arg18 (by decide)).symm.trans <|
    (Cert.KernelIdeal.Gen.V65_of m outs c Cert.KernelIdeal.main_arg18 (by decide)).symm.trans <|
    (Cert.KernelIdeal.Gen.V66_of m outs c Cert.KernelIdeal.main_arg18 (by decide)).symm.trans <|
    (Cert.KernelIdeal.Gen.V67_of m outs c Cert.KernelIdeal.main_arg18 (by decide)).symm.trans <|
    (Cert.KernelIdeal.Gen.V68_of m outs c Cert.KernelIdeal.main_arg18 (by decide)).symm.trans <|
    (Cert.KernelIdeal.Gen.V69_of m outs c Cert.KernelIdeal.main_arg18 (by decide)).symm.trans <|
    (Cert.KernelIdeal.Gen.V70_of m outs c Cert.KernelIdeal.main_arg18 (by decide)).symm.trans <|
    (Cert.KernelIdeal.Gen.V71_of m outs c Cert.KernelIdeal.main_arg18 (by decide)).symm.trans <|
    (Cert.KernelIdeal.Gen.V72_of m outs c Cert.KernelIdeal.main_arg18 (by decide)).symm.trans <|
    (Cert.KernelIdeal.Gen.V73_of m outs c Cert.KernelIdeal.main_arg18 (by decide)).symm.trans <|
    (Cert.KernelIdeal.Gen.V74_of m outs c Cert.KernelIdeal.main_arg18 (by decide)).symm.trans <|
    (Cert.KernelIdeal.Gen.V75_of m outs c Cert.KernelIdeal.main_arg18 (by decide)).symm.trans <|
    (Cert.KernelIdeal.Gen.V76_of m outs c Cert.KernelIdeal.main_arg18 (by decide)).symm.trans <|
    (Cert.KernelIdeal.Gen.V77_of m outs c Cert.KernelIdeal.main_arg18 (by decide)).symm.trans <|
    (Cert.KernelIdeal.Gen.V78_of m outs c Cert.KernelIdeal.main_arg18 (by decide)).symm.trans <|
    (Cert.KernelIdeal.Gen.V79_of m outs c Cert.KernelIdeal.main_arg18 (by decide)).symm.trans <|
    (Cert.KernelIdeal.Gen.V80_of m outs c Cert.KernelIdeal.main_arg18 (by decide)).symm.trans <|
    (Cert.KernelIdeal.Gen.V81_of m outs c Cert.KernelIdeal.main_arg18 (by decide)).symm.trans <|
    Cert.KernelIdeal.Gen.V81_main_arg18 m outs c

/-- The argument array `arg19` is still the memory's where the stretch reads it: no item after that point writes it. -/
theorem gap6_ka19 :
    Cert.KernelIdeal.Gen.V52 m outs c (Proc.devRef .tc Cert.KernelIdeal.main_arg19) = m ((c.tc : Thread Cert.KernelIdeal.nD Cert.KernelIdeal.τ).loc Cert.KernelIdeal.main_arg19) :=
  (Cert.KernelIdeal.Gen.V53_of m outs c Cert.KernelIdeal.main_arg19 (by decide)).symm.trans <|
    (Cert.KernelIdeal.Gen.V54_of m outs c Cert.KernelIdeal.main_arg19 (by decide)).symm.trans <|
    (Cert.KernelIdeal.Gen.V55_of m outs c Cert.KernelIdeal.main_arg19 (by decide)).symm.trans <|
    (Cert.KernelIdeal.Gen.V56_of m outs c Cert.KernelIdeal.main_arg19 (by decide)).symm.trans <|
    (Cert.KernelIdeal.Gen.V57_of m outs c Cert.KernelIdeal.main_arg19 (by decide)).symm.trans <|
    (Cert.KernelIdeal.Gen.V58_of m outs c Cert.KernelIdeal.main_arg19 (by decide)).symm.trans <|
    (Cert.KernelIdeal.Gen.V59_of m outs c Cert.KernelIdeal.main_arg19 (by decide)).symm.trans <|
    (Cert.KernelIdeal.Gen.V60_of m outs c Cert.KernelIdeal.main_arg19 (by decide)).symm.trans <|
    (Cert.KernelIdeal.Gen.V61_of m outs c Cert.KernelIdeal.main_arg19 (by decide)).symm.trans <|
    (Cert.KernelIdeal.Gen.V62_of m outs c Cert.KernelIdeal.main_arg19 (by decide)).symm.trans <|
    (Cert.KernelIdeal.Gen.V63_of m outs c Cert.KernelIdeal.main_arg19 (by decide)).symm.trans <|
    (Cert.KernelIdeal.Gen.V64_of m outs c Cert.KernelIdeal.main_arg19 (by decide)).symm.trans <|
    (Cert.KernelIdeal.Gen.V65_of m outs c Cert.KernelIdeal.main_arg19 (by decide)).symm.trans <|
    (Cert.KernelIdeal.Gen.V66_of m outs c Cert.KernelIdeal.main_arg19 (by decide)).symm.trans <|
    (Cert.KernelIdeal.Gen.V67_of m outs c Cert.KernelIdeal.main_arg19 (by decide)).symm.trans <|
    (Cert.KernelIdeal.Gen.V68_of m outs c Cert.KernelIdeal.main_arg19 (by decide)).symm.trans <|
    (Cert.KernelIdeal.Gen.V69_of m outs c Cert.KernelIdeal.main_arg19 (by decide)).symm.trans <|
    (Cert.KernelIdeal.Gen.V70_of m outs c Cert.KernelIdeal.main_arg19 (by decide)).symm.trans <|
    (Cert.KernelIdeal.Gen.V71_of m outs c Cert.KernelIdeal.main_arg19 (by decide)).symm.trans <|
    (Cert.KernelIdeal.Gen.V72_of m outs c Cert.KernelIdeal.main_arg19 (by decide)).symm.trans <|
    (Cert.KernelIdeal.Gen.V73_of m outs c Cert.KernelIdeal.main_arg19 (by decide)).symm.trans <|
    (Cert.KernelIdeal.Gen.V74_of m outs c Cert.KernelIdeal.main_arg19 (by decide)).symm.trans <|
    (Cert.KernelIdeal.Gen.V75_of m outs c Cert.KernelIdeal.main_arg19 (by decide)).symm.trans <|
    (Cert.KernelIdeal.Gen.V76_of m outs c Cert.KernelIdeal.main_arg19 (by decide)).symm.trans <|
    (Cert.KernelIdeal.Gen.V77_of m outs c Cert.KernelIdeal.main_arg19 (by decide)).symm.trans <|
    (Cert.KernelIdeal.Gen.V78_of m outs c Cert.KernelIdeal.main_arg19 (by decide)).symm.trans <|
    (Cert.KernelIdeal.Gen.V79_of m outs c Cert.KernelIdeal.main_arg19 (by decide)).symm.trans <|
    (Cert.KernelIdeal.Gen.V80_of m outs c Cert.KernelIdeal.main_arg19 (by decide)).symm.trans <|
    (Cert.KernelIdeal.Gen.V81_of m outs c Cert.KernelIdeal.main_arg19 (by decide)).symm.trans <|
    Cert.KernelIdeal.Gen.V81_main_arg19 m outs c

/-- The argument array `arg2` is still the memory's where the stretch reads it: no item after that point writes it. -/
theorem gap6_ka2 :
    Cert.KernelIdeal.Gen.V60 m outs c (Proc.devRef .tc Cert.KernelIdeal.main_arg2) = m ((c.tc : Thread Cert.KernelIdeal.nD Cert.KernelIdeal.τ).loc Cert.KernelIdeal.main_arg2) :=
  (Cert.KernelIdeal.Gen.V61_of m outs c Cert.KernelIdeal.main_arg2 (by decide)).symm.trans <|
    (Cert.KernelIdeal.Gen.V62_of m outs c Cert.KernelIdeal.main_arg2 (by decide)).symm.trans <|
    (Cert.KernelIdeal.Gen.V63_of m outs c Cert.KernelIdeal.main_arg2 (by decide)).symm.trans <|
    (Cert.KernelIdeal.Gen.V64_of m outs c Cert.KernelIdeal.main_arg2 (by decide)).symm.trans <|
    (Cert.KernelIdeal.Gen.V65_of m outs c Cert.KernelIdeal.main_arg2 (by decide)).symm.trans <|
    (Cert.KernelIdeal.Gen.V66_of m outs c Cert.KernelIdeal.main_arg2 (by decide)).symm.trans <|
    (Cert.KernelIdeal.Gen.V67_of m outs c Cert.KernelIdeal.main_arg2 (by decide)).symm.trans <|
    (Cert.KernelIdeal.Gen.V68_of m outs c Cert.KernelIdeal.main_arg2 (by decide)).symm.trans <|
    (Cert.KernelIdeal.Gen.V69_of m outs c Cert.KernelIdeal.main_arg2 (by decide)).symm.trans <|
    (Cert.KernelIdeal.Gen.V70_of m outs c Cert.KernelIdeal.main_arg2 (by decide)).symm.trans <|
    (Cert.KernelIdeal.Gen.V71_of m outs c Cert.KernelIdeal.main_arg2 (by decide)).symm.trans <|
    (Cert.KernelIdeal.Gen.V72_of m outs c Cert.KernelIdeal.main_arg2 (by decide)).symm.trans <|
    (Cert.KernelIdeal.Gen.V73_of m outs c Cert.KernelIdeal.main_arg2 (by decide)).symm.trans <|
    (Cert.KernelIdeal.Gen.V74_of m outs c Cert.KernelIdeal.main_arg2 (by decide)).symm.trans <|
    (Cert.KernelIdeal.Gen.V75_of m outs c Cert.KernelIdeal.main_arg2 (by decide)).symm.trans <|
    (Cert.KernelIdeal.Gen.V76_of m outs c Cert.KernelIdeal.main_arg2 (by decide)).symm.trans <|
    (Cert.KernelIdeal.Gen.V77_of m outs c Cert.KernelIdeal.main_arg2 (by decide)).symm.trans <|
    (Cert.KernelIdeal.Gen.V78_of m outs c Cert.KernelIdeal.main_arg2 (by decide)).symm.trans <|
    (Cert.KernelIdeal.Gen.V79_of m outs c Cert.KernelIdeal.main_arg2 (by decide)).symm.trans <|
    (Cert.KernelIdeal.Gen.V80_of m outs c Cert.KernelIdeal.main_arg2 (by decide)).symm.trans <|
    (Cert.KernelIdeal.Gen.V81_of m outs c Cert.KernelIdeal.main_arg2 (by decide)).symm.trans <|
    Cert.KernelIdeal.Gen.V81_main_arg2 m outs c

/-- The leading ten thousand rows of the region's padded output are the reference's scatter of the same data rows by
    the same ids into the zero array: entry (n, q) of either is the sum of the rows whose id is n, at column q. -/
theorem gap6_agg (hE : Entry5 m m' outs c) (hV : Val5 m outs c) :
    (after (Cert.KernelIdeal.Gen.hostOps6 (F := Ideal)) (Cert.KernelIdeal.Gen.V52 m outs c) (Proc.devRef .tc Cert.KernelIdeal.main_v368) : (⟨Cert.KernelIdeal.S10000x300, .f32⟩ : BufTy).Contents (Elt Ideal))
      = after (Cert.ReferenceIdeal.RefRun.ops17 (F := Ideal)) (Cert.ReferenceIdeal.RefRun.R17 m' c) (Proc.devRef .tc Cert.ReferenceIdeal.main_v364) := by
  have hout : Cert.KernelIdeal.Gen.V52 m outs c (Proc.devRef .tc Cert.KernelIdeal.main_v367) = outs 52 Cert.KernelIdeal.main_v367 c := by
    simp only [Cert.KernelIdeal.Gen.V52, Function.update_self]
  simp only [Cert.KernelIdeal.Gen.hostOps6, Cert.ReferenceIdeal.RefRun.ops17]
  after_results_simp
  rw [Host.scatterAdd, Idealize.ShloMosaic.Ideal.hostScatterAdd_def]
  show (_ : (⟨2, ![10000, 300]⟩ : Shape).Idx → EReal) = _
  funext j
  obtain ⟨n, q, rfl⟩ : ∃ n q, j = ix2 n q := ⟨_, _, eq_ix2 j⟩
  refine (slice_rows_apply (D := 300) (Cert.KernelIdeal.Gen.V52 m outs c (Proc.devRef .tc Cert.KernelIdeal.main_v367)) _ n q).trans ?_
  refine ((congrFun hout _).trans ((hV ⟨n.val, by have := n.isLt; omega⟩ q).trans ?_)).trans
    (Cert.HostRead.rowScatterAdd_apply (N := 10000) (M := 160000) (D := 300) (w := 32)
      Cert.ReferenceIdeal.scatter_S10000x300_S160000x1_S160000x300_1_0_0_1 rfl rfl rfl rfl _ _ _ n q).symm
  rw [congrFun hE.zero (ix2 n q)]
  refine congrArg (0 + ·) (Finset.sum_congr rfl fun p _ => ?_)
  exact if_congr (Iff.of_eq (congrArg (fun w : BitVec 32 => w.toInt = (n.val : Int)) (congrFun hE.v366 (ix2 p 0))))
    (congrFun hE.v365 (ix2 p q)) rfl

/-! ## From the entry of one region to the entry of the next -/

theorem gap6 (hA : Args m m' c) (hE : Entry5 m m' outs c) (hV : Val5 m outs c) : Entry6 m m' outs c := by
  -- what neither stretch writes is carried
  have kcar : ∀ r : Ref Cert.KernelIdeal.sig .tc,
      r ∉ Cert.KernelIdeal.Gen.hostOps6_8_W → r ∉ Cert.KernelIdeal.Gen.hostOps6_7_W → r ∉ Cert.KernelIdeal.Gen.hostOps6_6_W →
      r ∉ Cert.KernelIdeal.Gen.hostOps6_5_W → r ∉ Cert.KernelIdeal.Gen.hostOps6_4_W → r ∉ Cert.KernelIdeal.Gen.hostOps6_3_W →
      r ∉ Cert.KernelIdeal.Gen.hostOps6_2_W → r ∉ Cert.KernelIdeal.Gen.hostOps6_1_W → r ∉ Cert.KernelIdeal.Gen.hostOps6_W →
      r ∉ ([Cert.KernelIdeal.main_v367] : List (Ref Cert.KernelIdeal.sig .tc)) →
      Cert.KernelIdeal.Gen.V61 m outs c r = Cert.KernelIdeal.Gen.V51 m outs c r :=
    fun r h8 h7 h6 h5 h4 h3 h2 h1 h0 hu =>
      (Cert.KernelIdeal.Gen.V61_of m outs c r h8).trans <| (Cert.KernelIdeal.Gen.V60_of m outs c r h7).trans <|
      (Cert.KernelIdeal.Gen.V59_of m outs c r h6).trans <| (Cert.KernelIdeal.Gen.V58_of m outs c r h5).trans <|
      (Cert.KernelIdeal.Gen.V57_of m outs c r h4).trans <| (Cert.KernelIdeal.Gen.V56_of m outs c r h3).trans <|
      (Cert.KernelIdeal.Gen.V55_of m outs c r h2).trans <| (Cert.KernelIdeal.Gen.V54_of m outs c r h1).trans <|
      (Cert.KernelIdeal.Gen.V53_of m outs c r h0).trans <| Cert.KernelIdeal.Gen.V52_of m outs c r hu
  have rcar : ∀ r : Ref Cert.ReferenceIdeal.sig .tc,
      r ∉ Cert.ReferenceIdeal.RefRun.ops19_W → r ∉ Cert.ReferenceIdeal.RefRun.ops18_W → r ∉ Cert.ReferenceIdeal.RefRun.ops17_W →
      Cert.ReferenceIdeal.RefRun.R20 m' c (Proc.devRef .tc r) = Cert.ReferenceIdeal.RefRun.R17 m' c (Proc.devRef .tc r) := by
    intro r h19 h18 h17
    rw [Cert.ReferenceIdeal.RefRun.R20_eq, after_of_writes_sub Cert.ReferenceIdeal.RefRun.ops19 _ Cert.ReferenceIdeal.RefRun.ops19_writes h19,
      Cert.ReferenceIdeal.RefRun.R19_eq, after_of_writes_sub Cert.ReferenceIdeal.RefRun.ops18 _ Cert.ReferenceIdeal.RefRun.ops18_writes h18,
      Cert.ReferenceIdeal.RefRun.R18_eq, after_of_writes_sub Cert.ReferenceIdeal.RefRun.ops17 _ Cert.ReferenceIdeal.RefRun.ops17_writes h17]
  -- the layer's output
  have hh : (Cert.KernelIdeal.Gen.V60 m outs c (Proc.devRef .tc Cert.KernelIdeal.main_v421) : (⟨2, ![10000, 300]⟩ : Shape).Idx → EReal)
      = Cert.ReferenceIdeal.RefRun.R20 m' c (Proc.devRef .tc Cert.ReferenceIdeal.main_v417) := by
    rw [Cert.ReferenceIdeal.RefRun.R20_eq, Cert.ReferenceIdeal.RefRun.R19_eq, Cert.ReferenceIdeal.RefRun.R18_eq]
    exact gap6_chain (Cert.KernelIdeal.Gen.V52 m outs c) (Cert.ReferenceIdeal.RefRun.R17 m' c) (gap6_agg m m' outs c hE hV)
      ((Cert.KernelIdeal.Gen.V52_of m outs c Cert.KernelIdeal.main_v345 (by decide)).trans hE.v345)
      ((Cert.KernelIdeal.Gen.V52_of m outs c Cert.KernelIdeal.main_v347 (by decide)).trans hE.v347)
      ((Cert.KernelIdeal.Gen.V52_of m outs c Cert.KernelIdeal.main_v349 (by decide)).trans hE.v349)
      ((Cert.KernelIdeal.Gen.V52_of m outs c Cert.KernelIdeal.main_v351 (by decide)).trans hE.v351)
      ((Cert.KernelIdeal.Gen.V52_of m outs c Cert.KernelIdeal.main_v353 (by decide)).trans hE.v353)
      ((Cert.KernelIdeal.Gen.V52_of m outs c Cert.KernelIdeal.main_v355 (by decide)).trans hE.v355)
      ((Cert.KernelIdeal.Gen.V52_of m outs c Cert.KernelIdeal.main_v357 (by decide)).trans hE.v357)
      ((gap6_ka18 m outs c).trans (hA.a18.symm.trans (Rkept_17 m' c Cert.ReferenceIdeal.main_arg18 (by decide)).symm))
      ((gap6_ka19 m outs c).trans (hA.a19.symm.trans (Rkept_17 m' c Cert.ReferenceIdeal.main_arg19 (by decide)).symm))
  refine ⟨?_, ?_, ?_, ?_, ?_, ?_, ?_⟩
  · exact (kcar Cert.KernelIdeal.main_v1 (by decide) (by decide) (by decide) (by decide) (by decide) (by decide) (by decide) (by decide) (by decide) (by decide)).trans
      (hE.v1.trans (rcar Cert.ReferenceIdeal.main_v1 (by decide) (by decide) (by decide)).symm)
  · exact (kcar Cert.KernelIdeal.main_v3 (by decide) (by decide) (by decide) (by decide) (by decide) (by decide) (by decide) (by decide) (by decide) (by decide)).trans
      (hE.v3.trans (rcar Cert.ReferenceIdeal.main_v3 (by decide) (by decide) (by decide)).symm)
  · exact (kcar Cert.KernelIdeal.main_v337 (by decide) (by decide) (by decide) (by decide) (by decide) (by decide) (by decide) (by decide) (by decide) (by decide)).trans
      (hE.v337.trans (rcar Cert.ReferenceIdeal.main_v334 (by decide) (by decide) (by decide)).symm)
  · exact (Cert.KernelIdeal.Gen.V61_of m outs c Cert.KernelIdeal.main_v421 (by decide)).trans hh
  · rw [Cert.ReferenceIdeal.RefRun.R20_eq]
    exact gap6_ids (Cert.KernelIdeal.Gen.V60 m outs c) (Cert.ReferenceIdeal.RefRun.R19 m' c)
      ((gap6_ka2 m outs c).trans
        (hA.a2.symm.trans (Rkept_19 m' c Cert.ReferenceIdeal.main_arg2 (by decide)).symm))
  · exact (gap6_narrow (Cert.KernelIdeal.Gen.V60 m outs c)).trans hh
  · rw [Cert.ReferenceIdeal.RefRun.R20_eq]
    exact gap6_zero (Cert.ReferenceIdeal.RefRun.R19 m' c)

end Gap

end Cert.Bridge

end
-- ==== Proof.Bridge.Gap7.lean ====
/-
  The host stretch between the kernel program's third virtual-node pooling region (its seventh kernel region) and the
  edge aggregation that follows, against the same stretch of the reference: from equal contents where the pooling
  region is entered, and the pooled sums read entry by entry, to equal contents where the aggregation region is entered.

  The stretch is a virtual-node update: the pooled rows plus the virtual-node features go through two dense layers,
  each followed by a batch normalisation over the 64 rows and a rectifier; the result is gathered back to the nodes and
  added to the node features, which are then gathered along the edges' source column.  Both programs run the same
  operations on these buffers.  They differ in buffer names, in the narrower float format the kernel program gives the
  rows it gathers (at the ideal instance a change of float format is the identity), in how the index column is made a
  one-column matrix (a reshape in one program, a broadcast along a new unit axis in the other), and in where the pooled
  sums come from: the kernel region's output array in one, an accumulating scatter into a zero array in the other.

  Each statement first holds for ARBITRARY contents of the two programs' buffers that agree on the buffers the operations
  read, and for any float values; the two runs' named contents are then instances.
-/
import proofs.«411400_j9251359555630_1_alg».proof.Proof.KI.RegionsP
import proofs.«411400_j9251359555630_1_alg».proof.Proof.Ref.Run
import proofs.«411400_j9251359555630_1_alg».proof.Proof.LibHostRead
import proofs.«411400_j9251359555630_1_alg».proof.Proof.Bridge.Agree
import proofs.«411400_j9251359555630_1_alg».proof.Proof.Bridge.ArgsKept
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value
import Idealize.ShloMosaic.Lib.IdealHost

set_option maxRecDepth 16384
set_option maxHeartbeats 4000000

noncomputable section

namespace Cert.Bridge

open Idealize.ShloMosaic Idealize.ShloMosaic.TcCoe Idealize.SL.Sem Idealize.ShloMosaic.StableHlo
open Idealize.ShloMosaic.ValueIdx
open scoped BigOperators

/-- The kernel program's items 62 to 70 run from contents `W`. -/
local notation "kRun7[" W "]" => StableHlo.after Cert.KernelIdeal.Gen.hostOps7_8 (StableHlo.after Cert.KernelIdeal.Gen.hostOps7_7 (StableHlo.after Cert.KernelIdeal.Gen.hostOps7_6 (StableHlo.after Cert.KernelIdeal.Gen.hostOps7_5 (StableHlo.after Cert.KernelIdeal.Gen.hostOps7_4 (StableHlo.after Cert.KernelIdeal.Gen.hostOps7_3 (StableHlo.after Cert.KernelIdeal.Gen.hostOps7_2 (StableHlo.after Cert.KernelIdeal.Gen.hostOps7_1 (StableHlo.after Cert.KernelIdeal.Gen.hostOps7 W))))))))
/-- The reference's three operation lists from its pooling scatter on, run from contents `W`. -/
local notation "rRun7[" W "]" => StableHlo.after Cert.ReferenceIdeal.RefRun.ops22 (StableHlo.after Cert.ReferenceIdeal.RefRun.ops21 (StableHlo.after Cert.ReferenceIdeal.RefRun.ops20 W))

/-! ## Three facts about single operations at the ideal instance -/

/-- A change to a narrower float format leaves an array of extended reals as it is. -/
theorem gap7_truncf {s : Shape} (a : FVec Ideal s .f32) (h : FTy.bf16.bits < FTy.f32.bits) :
    (truncf .bf16 a h : s.Idx → EReal) = a := rfl

/-- A vector reshaped to a one-column matrix and the vector broadcast along a new unit axis are the same array. -/
theorem gap7_col_cast_eq_bcast {α : Type} {a : ℕ} (x : (⟨1, ![a]⟩ : Shape).Idx → α)
    (hc : (⟨1, ![a]⟩ : Shape).ShapeCasts ⟨2, ![a, 1]⟩)
    (hb : (⟨1, ![a]⟩ : Shape).BroadcastsInDim ⟨2, ![a, 1]⟩ ![0]) :
    shapeCast ⟨2, ![a, 1]⟩ x hc = broadcastInDim ⟨2, ![a, 1]⟩ ![0] hb x := by
  funext j
  obtain ⟨p, u, rfl⟩ : ∃ p u, j = ix2 p u := ⟨j 0, j 1, eq_ix2 j⟩
  have hu : u.val = 0 := by omega
  rw [shapeCast_apply x hc (ix2 p u) (ix1 p) (by
        rw [Shape.rowMajor_val_one, Shape.rowMajor_val_two]
        show p.val = p.val * 1 + u.val
        omega)]
  rw [broadcastInDim_apply ![0] hb x (ix2 p u) (ix1 p) (fun b => by
        match b with
        | ⟨0, _⟩ =>
          show p.val = if a = 1 then 0 else p.val
          split
          · omega
          · rfl)]

/-- The scalar constant zero broadcast to any shape is the zero array. -/
theorem gap7_zero_bcast {T : Shape} (h : (⟨0, ![]⟩ : Shape).BroadcastsInDim T ![]) :
    broadcastInDim T ![] h (constant (F := Ideal) ⟨0, ![]⟩ .f32 0x00000000#32) = fun _ => (0 : EReal) := by
  funext j
  rw [broadcastInDim_scalar_apply, constant_apply, Ideal.ofBits_zero_f32]

variable [Cert.KernelIdeal.Facts] [Cert.ReferenceIdeal.Facts]

/-! ## The stretch over arbitrary contents and any float values -/

section Generic

variable {F : FTy → Type} [FloatOps F]
variable (WK : Valuation Cert.KernelIdeal.τ Cert.KernelIdeal.sig (Elt F))
variable (WR : Valuation Cert.ReferenceIdeal.τ Cert.ReferenceIdeal.sig (Elt F))

/-- The updated virtual-node features.  The kernel side reads the pooled sums from a buffer; the hypothesis `h424`
    says that buffer holds what the reference's scatter computes. -/
theorem gap7_run_v473 (h424 : (WK (Proc.devRef .tc Cert.KernelIdeal.main_v424) : (⟨2, ![64, 300]⟩ : Shape).Idx → F .f32)
      = Host.scatterAdd (F := F) (φ := .f32) Cert.ReferenceIdeal.scatter_S64x300_S10000x1_S10000x300_1_0_0_1 (WR (Proc.devRef .tc Cert.ReferenceIdeal.main_v418)) (WR (Proc.devRef .tc Cert.ReferenceIdeal.main_v419)) (WR (Proc.devRef .tc Cert.ReferenceIdeal.main_v417)))
    (h337 : (WK (Proc.devRef .tc Cert.KernelIdeal.main_v337) : (⟨2, ![64, 300]⟩ : Shape).Idx → F .f32) = WR (Proc.devRef .tc Cert.ReferenceIdeal.main_v334))
    (ha20 : (WK (Proc.devRef .tc Cert.KernelIdeal.main_arg20) : (⟨2, ![300, 600]⟩ : Shape).Idx → F .f32) = WR (Proc.devRef .tc Cert.ReferenceIdeal.main_arg20)) (ha21 : (WK (Proc.devRef .tc Cert.KernelIdeal.main_arg21) : (⟨1, ![600]⟩ : Shape).Idx → F .f32) = WR (Proc.devRef .tc Cert.ReferenceIdeal.main_arg21))
    (ha22 : (WK (Proc.devRef .tc Cert.KernelIdeal.main_arg22) : (⟨1, ![600]⟩ : Shape).Idx → F .f32) = WR (Proc.devRef .tc Cert.ReferenceIdeal.main_arg22)) (ha23 : (WK (Proc.devRef .tc Cert.KernelIdeal.main_arg23) : (⟨1, ![600]⟩ : Shape).Idx → F .f32) = WR (Proc.devRef .tc Cert.ReferenceIdeal.main_arg23))
    (ha24 : (WK (Proc.devRef .tc Cert.KernelIdeal.main_arg24) : (⟨2, ![600, 300]⟩ : Shape).Idx → F .f32) = WR (Proc.devRef .tc Cert.ReferenceIdeal.main_arg24)) (ha25 : (WK (Proc.devRef .tc Cert.KernelIdeal.main_arg25) : (⟨1, ![300]⟩ : Shape).Idx → F .f32) = WR (Proc.devRef .tc Cert.ReferenceIdeal.main_arg25))
    (ha26 : (WK (Proc.devRef .tc Cert.KernelIdeal.main_arg26) : (⟨1, ![300]⟩ : Shape).Idx → F .f32) = WR (Proc.devRef .tc Cert.ReferenceIdeal.main_arg26)) (ha27 : (WK (Proc.devRef .tc Cert.KernelIdeal.main_arg27) : (⟨1, ![300]⟩ : Shape).Idx → F .f32) = WR (Proc.devRef .tc Cert.ReferenceIdeal.main_arg27)) :
    (kRun7[WK] (Proc.devRef .tc Cert.KernelIdeal.main_v473) : (⟨2, ![64, 300]⟩ : Shape).Idx → F .f32) = rRun7[WR] (Proc.devRef .tc Cert.ReferenceIdeal.main_v469) := by
  after_results_simp
  rw [h424, h337, ha20, ha21, ha22, ha23, ha24, ha25, ha26, ha27]
  all_goals try simp only [TRef.ofBuf, TRef.toBuf, cast_eq]
  all_goals rfl

/-- The node features plus each node's graph's virtual-node features. -/
theorem gap7_run_v481 (h424 : (WK (Proc.devRef .tc Cert.KernelIdeal.main_v424) : (⟨2, ![64, 300]⟩ : Shape).Idx → F .f32)
      = Host.scatterAdd (F := F) (φ := .f32) Cert.ReferenceIdeal.scatter_S64x300_S10000x1_S10000x300_1_0_0_1 (WR (Proc.devRef .tc Cert.ReferenceIdeal.main_v418)) (WR (Proc.devRef .tc Cert.ReferenceIdeal.main_v419)) (WR (Proc.devRef .tc Cert.ReferenceIdeal.main_v417)))
    (h337 : (WK (Proc.devRef .tc Cert.KernelIdeal.main_v337) : (⟨2, ![64, 300]⟩ : Shape).Idx → F .f32) = WR (Proc.devRef .tc Cert.ReferenceIdeal.main_v334))
    (ha20 : (WK (Proc.devRef .tc Cert.KernelIdeal.main_arg20) : (⟨2, ![300, 600]⟩ : Shape).Idx → F .f32) = WR (Proc.devRef .tc Cert.ReferenceIdeal.main_arg20)) (ha21 : (WK (Proc.devRef .tc Cert.KernelIdeal.main_arg21) : (⟨1, ![600]⟩ : Shape).Idx → F .f32) = WR (Proc.devRef .tc Cert.ReferenceIdeal.main_arg21))
    (ha22 : (WK (Proc.devRef .tc Cert.KernelIdeal.main_arg22) : (⟨1, ![600]⟩ : Shape).Idx → F .f32) = WR (Proc.devRef .tc Cert.ReferenceIdeal.main_arg22)) (ha23 : (WK (Proc.devRef .tc Cert.KernelIdeal.main_arg23) : (⟨1, ![600]⟩ : Shape).Idx → F .f32) = WR (Proc.devRef .tc Cert.ReferenceIdeal.main_arg23))
    (ha24 : (WK (Proc.devRef .tc Cert.KernelIdeal.main_arg24) : (⟨2, ![600, 300]⟩ : Shape).Idx → F .f32) = WR (Proc.devRef .tc Cert.ReferenceIdeal.main_arg24)) (ha25 : (WK (Proc.devRef .tc Cert.KernelIdeal.main_arg25) : (⟨1, ![300]⟩ : Shape).Idx → F .f32) = WR (Proc.devRef .tc Cert.ReferenceIdeal.main_arg25))
    (ha26 : (WK (Proc.devRef .tc Cert.KernelIdeal.main_arg26) : (⟨1, ![300]⟩ : Shape).Idx → F .f32) = WR (Proc.devRef .tc Cert.ReferenceIdeal.main_arg26)) (ha27 : (WK (Proc.devRef .tc Cert.KernelIdeal.main_arg27) : (⟨1, ![300]⟩ : Shape).Idx → F .f32) = WR (Proc.devRef .tc Cert.ReferenceIdeal.main_arg27))
    (ha2 : (WK (Proc.devRef .tc Cert.KernelIdeal.main_arg2) : (⟨1, ![10000]⟩ : Shape).Idx → BitVec 32) = WR (Proc.devRef .tc Cert.ReferenceIdeal.main_arg2))
    (h421 : (WK (Proc.devRef .tc Cert.KernelIdeal.main_v421) : (⟨2, ![10000, 300]⟩ : Shape).Idx → F .f32) = WR (Proc.devRef .tc Cert.ReferenceIdeal.main_v417)) :
    (kRun7[WK] (Proc.devRef .tc Cert.KernelIdeal.main_v481) : (⟨2, ![10000, 300]⟩ : Shape).Idx → F .f32) = rRun7[WR] (Proc.devRef .tc Cert.ReferenceIdeal.main_v477) := by
  after_results_simp
  rw [h424, h337, ha20, ha21, ha22, ha23, ha24, ha25, ha26, ha27, ha2, h421]
  all_goals try simp only [TRef.ofBuf, TRef.toBuf, cast_eq]
  all_goals rfl

/-- Layer 3's slice of a stacked weight array: the same slice and reshape of the same argument. -/
theorem gap7_run_v483 (ha10 : (WK (Proc.devRef .tc Cert.KernelIdeal.main_arg10) : (⟨3, ![4, 300, 600]⟩ : Shape).Idx → F .f32) = WR (Proc.devRef .tc Cert.ReferenceIdeal.main_arg10)) :
    (kRun7[WK] (Proc.devRef .tc Cert.KernelIdeal.main_v483) : (⟨2, ![300, 600]⟩ : Shape).Idx → F .f32) = rRun7[WR] (Proc.devRef .tc Cert.ReferenceIdeal.main_v479) := by
  after_results_simp
  rw [ha10]
  all_goals try simp only [TRef.ofBuf, TRef.toBuf, cast_eq]
  all_goals rfl

/-- Layer 3's slice of a stacked weight array: the same slice and reshape of the same argument. -/
theorem gap7_run_v485 (ha11 : (WK (Proc.devRef .tc Cert.KernelIdeal.main_arg11) : (⟨2, ![4, 600]⟩ : Shape).Idx → F .f32) = WR (Proc.devRef .tc Cert.ReferenceIdeal.main_arg11)) :
    (kRun7[WK] (Proc.devRef .tc Cert.KernelIdeal.main_v485) : (⟨1, ![600]⟩ : Shape).Idx → F .f32) = rRun7[WR] (Proc.devRef .tc Cert.ReferenceIdeal.main_v481) := by
  after_results_simp
  rw [ha11]
  all_goals try simp only [TRef.ofBuf, TRef.toBuf, cast_eq]
  all_goals rfl

/-- Layer 3's slice of a stacked weight array: the same slice and reshape of the same argument. -/
theorem gap7_run_v487 (ha12 : (WK (Proc.devRef .tc Cert.KernelIdeal.main_arg12) : (⟨2, ![4, 600]⟩ : Shape).Idx → F .f32) = WR (Proc.devRef .tc Cert.ReferenceIdeal.main_arg12)) :
    (kRun7[WK] (Proc.devRef .tc Cert.KernelIdeal.main_v487) : (⟨1, ![600]⟩ : Shape).Idx → F .f32) = rRun7[WR] (Proc.devRef .tc Cert.ReferenceIdeal.main_v483) := by
  after_results_simp
  rw [ha12]
  all_goals try simp only [TRef.ofBuf, TRef.toBuf, cast_eq]
  all_goals rfl

/-- Layer 3's slice of a stacked weight array: the same slice and reshape of the same argument. -/
theorem gap7_run_v489 (ha13 : (WK (Proc.devRef .tc Cert.KernelIdeal.main_arg13) : (⟨2, ![4, 600]⟩ : Shape).Idx → F .f32) = WR (Proc.devRef .tc Cert.ReferenceIdeal.main_arg13)) :
    (kRun7[WK] (Proc.devRef .tc Cert.KernelIdeal.main_v489) : (⟨1, ![600]⟩ : Shape).Idx → F .f32) = rRun7[WR] (Proc.devRef .tc Cert.ReferenceIdeal.main_v485) := by
  after_results_simp
  rw [ha13]
  all_goals try simp only [TRef.ofBuf, TRef.toBuf, cast_eq]
  all_goals rfl

/-- Layer 3's slice of a stacked weight array: the same slice and reshape of the same argument. -/
theorem gap7_run_v491 (ha14 : (WK (Proc.devRef .tc Cert.KernelIdeal.main_arg14) : (⟨3, ![4, 600, 300]⟩ : Shape).Idx → F .f32) = WR (Proc.devRef .tc Cert.ReferenceIdeal.main_arg14)) :
    (kRun7[WK] (Proc.devRef .tc Cert.KernelIdeal.main_v491) : (⟨2, ![600, 300]⟩ : Shape).Idx → F .f32) = rRun7[WR] (Proc.devRef .tc Cert.ReferenceIdeal.main_v487) := by
  after_results_simp
  rw [ha14]
  all_goals try simp only [TRef.ofBuf, TRef.toBuf, cast_eq]
  all_goals rfl

/-- Layer 3's slice of a stacked weight array: the same slice and reshape of the same argument. -/
theorem gap7_run_v493 (ha15 : (WK (Proc.devRef .tc Cert.KernelIdeal.main_arg15) : (⟨2, ![4, 300]⟩ : Shape).Idx → F .f32) = WR (Proc.devRef .tc Cert.ReferenceIdeal.main_arg15)) :
    (kRun7[WK] (Proc.devRef .tc Cert.KernelIdeal.main_v493) : (⟨1, ![300]⟩ : Shape).Idx → F .f32) = rRun7[WR] (Proc.devRef .tc Cert.ReferenceIdeal.main_v489) := by
  after_results_simp
  rw [ha15]
  all_goals try simp only [TRef.ofBuf, TRef.toBuf, cast_eq]
  all_goals rfl

/-- The edges' source column, wrapped into range and made a one-column matrix: the gather's index operand. -/
theorem gap7_run_v500 (h1 : (WK (Proc.devRef .tc Cert.KernelIdeal.main_v1) : (⟨1, ![160000]⟩ : Shape).Idx → BitVec 32) = WR (Proc.devRef .tc Cert.ReferenceIdeal.main_v1)) :
    (kRun7[WK] (Proc.devRef .tc Cert.KernelIdeal.main_v500) : (⟨2, ![160000, 1]⟩ : Shape).Idx → BitVec 32) = rRun7[WR] (Proc.devRef .tc Cert.ReferenceIdeal.main_v495) := by
  after_results_simp
  rw [h1]
  all_goals rfl

/-- The edges' target column as a one-column matrix: a reshape in one program, a broadcast in the other. -/
theorem gap7_run_v502 (h3 : (WK (Proc.devRef .tc Cert.KernelIdeal.main_v3) : (⟨1, ![160000]⟩ : Shape).Idx → BitVec 32) = WR (Proc.devRef .tc Cert.ReferenceIdeal.main_v3)) :
    (kRun7[WK] (Proc.devRef .tc Cert.KernelIdeal.main_v502) : (⟨2, ![160000, 1]⟩ : Shape).Idx → BitVec 32) = rRun7[WR] (Proc.devRef .tc Cert.ReferenceIdeal.main_v498) := by
  after_results_simp
  rw [h3]
  exact gap7_col_cast_eq_bcast (a := 160000) (WR (Proc.devRef .tc Cert.ReferenceIdeal.main_v3)) _ _

end Generic

/-! ## The two statements that hold at the ideal instance only -/

section GenericIdeal

variable (WK : Valuation Cert.KernelIdeal.τ Cert.KernelIdeal.sig (Elt Ideal))
variable (WR : Valuation Cert.ReferenceIdeal.τ Cert.ReferenceIdeal.sig (Elt Ideal))

/-- The rows gathered along the edges' source column.  The kernel program narrows the float format of the node features
    before it gathers; at the ideal instance that changes nothing, so equal node features and equal index columns give
    equal gathered rows. -/
theorem gap7_run_v501
    (h481 : (kRun7[WK] (Proc.devRef .tc Cert.KernelIdeal.main_v481) : (⟨2, ![10000, 300]⟩ : Shape).Idx → EReal) = rRun7[WR] (Proc.devRef .tc Cert.ReferenceIdeal.main_v477))
    (h500 : (kRun7[WK] (Proc.devRef .tc Cert.KernelIdeal.main_v500) : (⟨2, ![160000, 1]⟩ : Shape).Idx → BitVec 32) = rRun7[WR] (Proc.devRef .tc Cert.ReferenceIdeal.main_v495)) :
    (kRun7[WK] (Proc.devRef .tc Cert.KernelIdeal.main_v501) : (⟨2, ![160000, 300]⟩ : Shape).Idx → EReal) = rRun7[WR] (Proc.devRef .tc Cert.ReferenceIdeal.main_v496) := by
  have eK : kRun7[WK] (Proc.devRef .tc Cert.KernelIdeal.main_v501)
      = Host.gather (α := EReal) Cert.KernelIdeal.gather_S10000x300_S160000x1_S160000x300_1_0_n_n_0_1_1300
          (truncf (F := Ideal) (s := Cert.KernelIdeal.S10000x300) (φ := .f32) .bf16 (kRun7[WK] (Proc.devRef .tc Cert.KernelIdeal.main_v481)) (by decide : FTy.bf16.bits < FTy.f32.bits))
          (kRun7[WK] (Proc.devRef .tc Cert.KernelIdeal.main_v500)) := by
    after_results_simp
    try rfl
  have eR : rRun7[WR] (Proc.devRef .tc Cert.ReferenceIdeal.main_v496)
      = Host.gather (α := EReal) Cert.ReferenceIdeal.gather_S10000x300_S160000x1_S160000x300_1_0_n_n_0_1_1300
          (rRun7[WR] (Proc.devRef .tc Cert.ReferenceIdeal.main_v477))
          (rRun7[WR] (Proc.devRef .tc Cert.ReferenceIdeal.main_v495)) := by
    after_results_simp
    try rfl
  rw [eK, eR, h481, h500, gap7_truncf]
  all_goals rfl

/-- The operand of the reference's next accumulating scatter is the zero array. -/
theorem gap7_run_zero :
    (rRun7[WR] (Proc.devRef .tc Cert.ReferenceIdeal.main_v497) : (⟨2, ![10000, 300]⟩ : Shape).Idx → EReal) = fun _ => (0 : EReal) := by
  after_results_simp
  exact gap7_zero_bcast _

end GenericIdeal

/-! ## The two runs' named contents -/

section Named

variable (m : (ℓ : Loc Cert.KernelIdeal.nD Cert.KernelIdeal.τ Cert.KernelIdeal.sig) → Buf (Elt Ideal) ℓ)
variable (m' : (ℓ : Loc Cert.ReferenceIdeal.nD Cert.ReferenceIdeal.τ Cert.ReferenceIdeal.sig) → Buf (Elt Ideal) ℓ)
variable (outs : Cert.KernelIdeal.Gen.Outs (F := Ideal)) (c : Dev Cert.KernelIdeal.nD)

/-- Two buffers that each hold what their memory held at launch hold the same when the memories agree there. -/
theorem gap7_join {α : Type} {x mK y mR : α} (hK : x = mK) (ha : mR = mK) (hR : y = mR) : x = y :=
  hK.trans (ha.symm.trans hR.symm)

/-- What the pooling region left in its output array is what the reference's accumulating scatter into the zero array
    computes: both are, entry by entry, the sum of the data rows whose index word names the entry's row. -/
theorem gap7_pool (E : Entry6 m m' outs c) (hV : Val6 m outs c) :
    ((Cert.KernelIdeal.Gen.V62 m outs c) (Proc.devRef .tc Cert.KernelIdeal.main_v424) : (⟨2, ![64, 300]⟩ : Shape).Idx → EReal)
      = Host.scatterAdd (F := Ideal) (φ := .f32) Cert.ReferenceIdeal.scatter_S64x300_S10000x1_S10000x300_1_0_0_1 ((Cert.ReferenceIdeal.RefRun.R20 m' c) (Proc.devRef .tc Cert.ReferenceIdeal.main_v418)) ((Cert.ReferenceIdeal.RefRun.R20 m' c) (Proc.devRef .tc Cert.ReferenceIdeal.main_v419)) ((Cert.ReferenceIdeal.RefRun.R20 m' c) (Proc.devRef .tc Cert.ReferenceIdeal.main_v417)) := by
  have hL : ((Cert.KernelIdeal.Gen.V62 m outs c) (Proc.devRef .tc Cert.KernelIdeal.main_v424) : (⟨2, ![64, 300]⟩ : Shape).Idx → EReal) = outs 62 Cert.KernelIdeal.main_v424 c :=
    Function.update_self _ _ _
  funext j
  obtain ⟨n, q, rfl⟩ : ∃ n q, j = ix2 n q := ⟨j 0, j 1, eq_ix2 j⟩
  have hs := Cert.HostRead.rowScatterAdd_apply (N := 64) (M := 10000) (D := 300) (w := 32)
    Cert.ReferenceIdeal.scatter_S64x300_S10000x1_S10000x300_1_0_0_1 rfl rfl rfl rfl
    ((Cert.ReferenceIdeal.RefRun.R20 m' c) (Proc.devRef .tc Cert.ReferenceIdeal.main_v418)) ((Cert.ReferenceIdeal.RefRun.R20 m' c) (Proc.devRef .tc Cert.ReferenceIdeal.main_v419)) ((Cert.ReferenceIdeal.RefRun.R20 m' c) (Proc.devRef .tc Cert.ReferenceIdeal.main_v417)) n q
  refine (congrFun hL (ix2 n q)).trans ((hV n q).trans ?_)
  refine Eq.trans ?_ hs.symm
  rw [E.v422, E.v423, E.zero]
  all_goals rfl

/-- The updated virtual-node features after the stretch, over the contents the stretch starts from. -/
theorem gap7_v473 (A : Args m m' c) (E : Entry6 m m' outs c) (hV : Val6 m outs c) :
    (kRun7[(Cert.KernelIdeal.Gen.V62 m outs c)] (Proc.devRef .tc Cert.KernelIdeal.main_v473) : (⟨2, ![64, 300]⟩ : Shape).Idx → EReal) = rRun7[(Cert.ReferenceIdeal.RefRun.R20 m' c)] (Proc.devRef .tc Cert.ReferenceIdeal.main_v469) :=
  gap7_run_v473 (Cert.KernelIdeal.Gen.V62 m outs c) (Cert.ReferenceIdeal.RefRun.R20 m' c) (gap7_pool m m' outs c E hV)
    ((Cert.KernelIdeal.Gen.V62_of m outs c Cert.KernelIdeal.main_v337 (by decide)).trans E.v337)
    (gap7_join (Kkept_62 m outs c Cert.KernelIdeal.main_arg20 (by decide)) A.a20 (Rkept_20 m' c Cert.ReferenceIdeal.main_arg20 (by decide))) (gap7_join (Kkept_62 m outs c Cert.KernelIdeal.main_arg21 (by decide)) A.a21 (Rkept_20 m' c Cert.ReferenceIdeal.main_arg21 (by decide)))
    (gap7_join (Kkept_62 m outs c Cert.KernelIdeal.main_arg22 (by decide)) A.a22 (Rkept_20 m' c Cert.ReferenceIdeal.main_arg22 (by decide))) (gap7_join (Kkept_62 m outs c Cert.KernelIdeal.main_arg23 (by decide)) A.a23 (Rkept_20 m' c Cert.ReferenceIdeal.main_arg23 (by decide)))
    (gap7_join (Kkept_62 m outs c Cert.KernelIdeal.main_arg24 (by decide)) A.a24 (Rkept_20 m' c Cert.ReferenceIdeal.main_arg24 (by decide))) (gap7_join (Kkept_62 m outs c Cert.KernelIdeal.main_arg25 (by decide)) A.a25 (Rkept_20 m' c Cert.ReferenceIdeal.main_arg25 (by decide)))
    (gap7_join (Kkept_62 m outs c Cert.KernelIdeal.main_arg26 (by decide)) A.a26 (Rkept_20 m' c Cert.ReferenceIdeal.main_arg26 (by decide))) (gap7_join (Kkept_62 m outs c Cert.KernelIdeal.main_arg27 (by decide)) A.a27 (Rkept_20 m' c Cert.ReferenceIdeal.main_arg27 (by decide)))

/-- The node features plus each node's graph's virtual-node features after the stretch. -/
theorem gap7_v481 (A : Args m m' c) (E : Entry6 m m' outs c) (hV : Val6 m outs c) :
    (kRun7[(Cert.KernelIdeal.Gen.V62 m outs c)] (Proc.devRef .tc Cert.KernelIdeal.main_v481) : (⟨2, ![10000, 300]⟩ : Shape).Idx → EReal) = rRun7[(Cert.ReferenceIdeal.RefRun.R20 m' c)] (Proc.devRef .tc Cert.ReferenceIdeal.main_v477) :=
  gap7_run_v481 (Cert.KernelIdeal.Gen.V62 m outs c) (Cert.ReferenceIdeal.RefRun.R20 m' c) (gap7_pool m m' outs c E hV)
    ((Cert.KernelIdeal.Gen.V62_of m outs c Cert.KernelIdeal.main_v337 (by decide)).trans E.v337)
    (gap7_join (Kkept_62 m outs c Cert.KernelIdeal.main_arg20 (by decide)) A.a20 (Rkept_20 m' c Cert.ReferenceIdeal.main_arg20 (by decide))) (gap7_join (Kkept_62 m outs c Cert.KernelIdeal.main_arg21 (by decide)) A.a21 (Rkept_20 m' c Cert.ReferenceIdeal.main_arg21 (by decide)))
    (gap7_join (Kkept_62 m outs c Cert.KernelIdeal.main_arg22 (by decide)) A.a22 (Rkept_20 m' c Cert.ReferenceIdeal.main_arg22 (by decide))) (gap7_join (Kkept_62 m outs c Cert.KernelIdeal.main_arg23 (by decide)) A.a23 (Rkept_20 m' c Cert.ReferenceIdeal.main_arg23 (by decide)))
    (gap7_join (Kkept_62 m outs c Cert.KernelIdeal.main_arg24 (by decide)) A.a24 (Rkept_20 m' c Cert.ReferenceIdeal.main_arg24 (by decide))) (gap7_join (Kkept_62 m outs c Cert.KernelIdeal.main_arg25 (by decide)) A.a25 (Rkept_20 m' c Cert.ReferenceIdeal.main_arg25 (by decide)))
    (gap7_join (Kkept_62 m outs c Cert.KernelIdeal.main_arg26 (by decide)) A.a26 (Rkept_20 m' c Cert.ReferenceIdeal.main_arg26 (by decide))) (gap7_join (Kkept_62 m outs c Cert.KernelIdeal.main_arg27 (by decide)) A.a27 (Rkept_20 m' c Cert.ReferenceIdeal.main_arg27 (by decide)))
    (gap7_join (Kkept_62 m outs c Cert.KernelIdeal.main_arg2 (by decide)) A.a2 (Rkept_20 m' c Cert.ReferenceIdeal.main_arg2 (by decide)))
    ((Cert.KernelIdeal.Gen.V62_of m outs c Cert.KernelIdeal.main_v421 (by decide)).trans E.v421)

/-- From equal contents where the pooling region is entered, and that region's sums, to equal contents where the next
    aggregation region is entered.  The reference's contents there are its contents where the stretch starts, run through
    the stretch's three operation lists: that is written out first, so that every field is one of the statements above
    as it stands. -/
theorem gap7 (A : Args m m' c) (E : Entry6 m m' outs c) (hV : Val6 m outs c) : Entry7 m m' outs c := by
  have hR : Cert.ReferenceIdeal.RefRun.R23 m' c = rRun7[(Cert.ReferenceIdeal.RefRun.R20 m' c)] := by
    rw [Cert.ReferenceIdeal.RefRun.R23_eq, Cert.ReferenceIdeal.RefRun.R22_eq, Cert.ReferenceIdeal.RefRun.R21_eq]
  constructor <;> rw [hR]
  · exact gap7_v481 m m' outs c A E hV
  · exact gap7_run_v483 (Cert.KernelIdeal.Gen.V62 m outs c) (Cert.ReferenceIdeal.RefRun.R20 m' c) (gap7_join (Kkept_62 m outs c Cert.KernelIdeal.main_arg10 (by decide)) A.a10 (Rkept_20 m' c Cert.ReferenceIdeal.main_arg10 (by decide)))
  · exact gap7_run_v485 (Cert.KernelIdeal.Gen.V62 m outs c) (Cert.ReferenceIdeal.RefRun.R20 m' c) (gap7_join (Kkept_62 m outs c Cert.KernelIdeal.main_arg11 (by decide)) A.a11 (Rkept_20 m' c Cert.ReferenceIdeal.main_arg11 (by decide)))
  · exact gap7_run_v487 (Cert.KernelIdeal.Gen.V62 m outs c) (Cert.ReferenceIdeal.RefRun.R20 m' c) (gap7_join (Kkept_62 m outs c Cert.KernelIdeal.main_arg12 (by decide)) A.a12 (Rkept_20 m' c Cert.ReferenceIdeal.main_arg12 (by decide)))
  · exact gap7_run_v489 (Cert.KernelIdeal.Gen.V62 m outs c) (Cert.ReferenceIdeal.RefRun.R20 m' c) (gap7_join (Kkept_62 m outs c Cert.KernelIdeal.main_arg13 (by decide)) A.a13 (Rkept_20 m' c Cert.ReferenceIdeal.main_arg13 (by decide)))
  · exact gap7_run_v491 (Cert.KernelIdeal.Gen.V62 m outs c) (Cert.ReferenceIdeal.RefRun.R20 m' c) (gap7_join (Kkept_62 m outs c Cert.KernelIdeal.main_arg14 (by decide)) A.a14 (Rkept_20 m' c Cert.ReferenceIdeal.main_arg14 (by decide)))
  · exact gap7_run_v493 (Cert.KernelIdeal.Gen.V62 m outs c) (Cert.ReferenceIdeal.RefRun.R20 m' c) (gap7_join (Kkept_62 m outs c Cert.KernelIdeal.main_arg15 (by decide)) A.a15 (Rkept_20 m' c Cert.ReferenceIdeal.main_arg15 (by decide)))
  · exact gap7_run_v501 (Cert.KernelIdeal.Gen.V62 m outs c) (Cert.ReferenceIdeal.RefRun.R20 m' c) (gap7_v481 m m' outs c A E hV)
      (gap7_run_v500 (Cert.KernelIdeal.Gen.V62 m outs c) (Cert.ReferenceIdeal.RefRun.R20 m' c) ((Cert.KernelIdeal.Gen.V62_of m outs c Cert.KernelIdeal.main_v1 (by decide)).trans E.v1))
  · exact gap7_run_v502 (Cert.KernelIdeal.Gen.V62 m outs c) (Cert.ReferenceIdeal.RefRun.R20 m' c) ((Cert.KernelIdeal.Gen.V62_of m outs c Cert.KernelIdeal.main_v3 (by decide)).trans E.v3)
  · exact gap7_run_zero (Cert.ReferenceIdeal.RefRun.R20 m' c)

end Named

end Cert.Bridge

end
-- ==== Proof.Bridge.Gap8Core.lean ====
/-
  The host stretch between the last edge-aggregation region and the final pooling region, over ANY two buffer
  contents: what the pooling region's three operands and the reference's zero operand hold after the two programs'
  operation lists, given what the lists read.  The two programs apply the same operations to the node features; the
  kernel's index words for the counts pass through a select that is the identity on nonnegative words; its pooling
  indices are a reshape where the reference broadcasts.
-/
import proofs.«411400_j9251359555630_1_alg».proof.Proof.Gen.KernelIdeal.Launch
import proofs.«411400_j9251359555630_1_alg».proof.Proof.Ref.OpsW9
import proofs.«411400_j9251359555630_1_alg».proof.Proof.Ref.OpsW10
import proofs.«411400_j9251359555630_1_alg».proof.Proof.Bridge.Lemmas
import Idealize.ShloMosaic.Lib.StableHlo.Run
import Idealize.ShloMosaic.Lib.ValueIdx
import Idealize.ShloMosaic.PureOps.Ideal

set_option maxRecDepth 8192

noncomputable section

namespace Cert.Bridge

open Idealize.ShloMosaic Idealize.ShloMosaic.TcCoe Idealize.SL.Sem Idealize.ShloMosaic.ValueIdx
open Idealize.ShloMosaic.StableHlo
open scoped BigOperators

variable [Cert.KernelIdeal.Facts] [Cert.ReferenceIdeal.Facts]

/-! ## The stretch over ANY two contents -/

set_option maxHeartbeats 4000000 in
/-- The node features.  If the kernel's sliced aggregate is the reference's scatter of its own operands, and the seven
    weight arrays, the residual input and the two batch-norm arguments agree, then the arrays the pooling region and
    the reference's last scatter take as data agree.  Both sides are the same operations applied to those operands. -/
theorem gap8_data_core
    (W : Valuation Cert.KernelIdeal.τ Cert.KernelIdeal.sig (Elt Ideal)) (W' : Valuation Cert.ReferenceIdeal.τ Cert.ReferenceIdeal.sig (Elt Ideal))
    (hagg : ((extractStridedSlice Cert.KernelIdeal.S10000x300 ![0, 0] · Cert.KernelIdeal.Facts₀.slices_S10240x300_S10000x300_0_0)
          : (⟨Cert.KernelIdeal.S10240x300, .f32⟩ : BufTy).Contents (Elt Ideal) → (⟨Cert.KernelIdeal.S10000x300, .f32⟩ : BufTy).Contents (Elt Ideal))
        (W (Proc.devRef .tc Cert.KernelIdeal.main_v503))
      = Host.scatterAdd (F := Ideal) (φ := .f32) Cert.ReferenceIdeal.scatter_S10000x300_S160000x1_S160000x300_1_0_0_1
          (W' (Proc.devRef .tc Cert.ReferenceIdeal.main_v497)) (W' (Proc.devRef .tc Cert.ReferenceIdeal.main_v498)) (W' (Proc.devRef .tc Cert.ReferenceIdeal.main_v496)))
    (h481 : @Eq ((⟨2, ![10000, 300]⟩ : Shape).Idx → EReal) (W (Proc.devRef .tc Cert.KernelIdeal.main_v481)) (W' (Proc.devRef .tc Cert.ReferenceIdeal.main_v477)))
    (h483 : @Eq ((⟨2, ![300, 600]⟩ : Shape).Idx → EReal) (W (Proc.devRef .tc Cert.KernelIdeal.main_v483)) (W' (Proc.devRef .tc Cert.ReferenceIdeal.main_v479)))
    (h485 : @Eq ((⟨1, ![600]⟩ : Shape).Idx → EReal) (W (Proc.devRef .tc Cert.KernelIdeal.main_v485)) (W' (Proc.devRef .tc Cert.ReferenceIdeal.main_v481)))
    (h487 : @Eq ((⟨1, ![600]⟩ : Shape).Idx → EReal) (W (Proc.devRef .tc Cert.KernelIdeal.main_v487)) (W' (Proc.devRef .tc Cert.ReferenceIdeal.main_v483)))
    (h489 : @Eq ((⟨1, ![600]⟩ : Shape).Idx → EReal) (W (Proc.devRef .tc Cert.KernelIdeal.main_v489)) (W' (Proc.devRef .tc Cert.ReferenceIdeal.main_v485)))
    (h491 : @Eq ((⟨2, ![600, 300]⟩ : Shape).Idx → EReal) (W (Proc.devRef .tc Cert.KernelIdeal.main_v491)) (W' (Proc.devRef .tc Cert.ReferenceIdeal.main_v487)))
    (h493 : @Eq ((⟨1, ![300]⟩ : Shape).Idx → EReal) (W (Proc.devRef .tc Cert.KernelIdeal.main_v493)) (W' (Proc.devRef .tc Cert.ReferenceIdeal.main_v489)))
    (h18 : @Eq ((⟨2, ![4, 300]⟩ : Shape).Idx → EReal) (W (Proc.devRef .tc Cert.KernelIdeal.main_arg18)) (W' (Proc.devRef .tc Cert.ReferenceIdeal.main_arg18)))
    (h19 : @Eq ((⟨2, ![4, 300]⟩ : Shape).Idx → EReal) (W (Proc.devRef .tc Cert.KernelIdeal.main_arg19)) (W' (Proc.devRef .tc Cert.ReferenceIdeal.main_arg19))) :
    @Eq ((⟨2, ![10000, 300]⟩ : Shape).Idx → EReal)
      (after Cert.KernelIdeal.Gen.hostOps8_6 (after Cert.KernelIdeal.Gen.hostOps8_5 (after Cert.KernelIdeal.Gen.hostOps8_4 (after Cert.KernelIdeal.Gen.hostOps8_3 (after Cert.KernelIdeal.Gen.hostOps8_2
        (after Cert.KernelIdeal.Gen.hostOps8_1 (after Cert.KernelIdeal.Gen.hostOps8 W)))))) (Proc.devRef .tc Cert.KernelIdeal.main_v567))
      (after Cert.ReferenceIdeal.RefRun.ops26 (after Cert.ReferenceIdeal.RefRun.ops25 (after Cert.ReferenceIdeal.RefRun.ops24 (after Cert.ReferenceIdeal.RefRun.ops23 W'))) (Proc.devRef .tc Cert.ReferenceIdeal.main_v551)) := by
  after_results_simp
  -- name the kernel's sliced aggregate, then replace it by the reference's scatter
  first
    | simp only [hagg]
    | (generalize hX : extractStridedSlice Cert.KernelIdeal.S10000x300 ![0, 0] (W (Proc.devRef .tc Cert.KernelIdeal.main_v503)) _ = X
       have hX' : X = Host.scatterAdd (F := Ideal) (φ := .f32) Cert.ReferenceIdeal.scatter_S10000x300_S160000x1_S160000x300_1_0_0_1
           (W' (Proc.devRef .tc Cert.ReferenceIdeal.main_v497)) (W' (Proc.devRef .tc Cert.ReferenceIdeal.main_v498))
           (W' (Proc.devRef .tc Cert.ReferenceIdeal.main_v496)) := hX.symm.trans hagg
       subst hX')
  simp only [h481, h483, h485, h487, h489, h491, h493, h18, h19]
  all_goals try simp only [TRef.ofBuf, TRef.toBuf, cast_eq]
  all_goals rfl

set_option maxHeartbeats 1000000 in
/-- The counts.  If `batch` agrees and is nonnegative, the two scatters of ones agree. -/
theorem gap8_counts_core
    (W : Valuation Cert.KernelIdeal.τ Cert.KernelIdeal.sig (Elt Ideal)) (W' : Valuation Cert.ReferenceIdeal.τ Cert.ReferenceIdeal.sig (Elt Ideal))
    (h2 : @Eq (IVec ⟨1, ![10000]⟩ 32) (W (Proc.devRef .tc Cert.KernelIdeal.main_arg2)) (W' (Proc.devRef .tc Cert.ReferenceIdeal.main_arg2)))
    (hb : ∀ i, 0 ≤ ((W (Proc.devRef .tc Cert.KernelIdeal.main_arg2) : IVec ⟨1, ![10000]⟩ 32) i).toInt) :
    @Eq ((⟨1, ![64]⟩ : Shape).Idx → EReal)
      (after Cert.KernelIdeal.Gen.hostOps8_6 (after Cert.KernelIdeal.Gen.hostOps8_5 (after Cert.KernelIdeal.Gen.hostOps8_4 (after Cert.KernelIdeal.Gen.hostOps8_3 (after Cert.KernelIdeal.Gen.hostOps8_2
        (after Cert.KernelIdeal.Gen.hostOps8_1 (after Cert.KernelIdeal.Gen.hostOps8 W)))))) (Proc.devRef .tc Cert.KernelIdeal.main_v565))
      (after Cert.ReferenceIdeal.RefRun.ops26 (after Cert.ReferenceIdeal.RefRun.ops25 (after Cert.ReferenceIdeal.RefRun.ops24 (after Cert.ReferenceIdeal.RefRun.ops23 W'))) (Proc.devRef .tc Cert.ReferenceIdeal.main_v555)) := by
  after_results_simp
  -- name the kernel's selected index words, then replace them by `batch` itself
  generalize hS : select _ _ (W (Proc.devRef .tc Cert.KernelIdeal.main_arg2)) = S
  have hS' : S = W' (Proc.devRef .tc Cert.ReferenceIdeal.main_arg2) :=
    hS.symm.trans ((select_of_nonneg _ _ _ (fun _ => rfl) hb).trans h2)
  subst hS'
  all_goals try simp only [TRef.ofBuf, TRef.toBuf, cast_eq]
  all_goals rfl

set_option maxHeartbeats 1000000 in
/-- The pooling indices: the kernel's reshape of `batch` against the reference's broadcast of it. -/
theorem gap8_ids_core
    (W : Valuation Cert.KernelIdeal.τ Cert.KernelIdeal.sig (Elt Ideal)) (W' : Valuation Cert.ReferenceIdeal.τ Cert.ReferenceIdeal.sig (Elt Ideal))
    (h2 : @Eq (IVec ⟨1, ![10000]⟩ 32) (W (Proc.devRef .tc Cert.KernelIdeal.main_arg2)) (W' (Proc.devRef .tc Cert.ReferenceIdeal.main_arg2))) :
    @Eq ((⟨2, ![10000, 1]⟩ : Shape).Idx → BitVec 32)
      (after Cert.KernelIdeal.Gen.hostOps8_6 (after Cert.KernelIdeal.Gen.hostOps8_5 (after Cert.KernelIdeal.Gen.hostOps8_4 (after Cert.KernelIdeal.Gen.hostOps8_3 (after Cert.KernelIdeal.Gen.hostOps8_2
        (after Cert.KernelIdeal.Gen.hostOps8_1 (after Cert.KernelIdeal.Gen.hostOps8 W)))))) (Proc.devRef .tc Cert.KernelIdeal.main_v566))
      (after Cert.ReferenceIdeal.RefRun.ops26 (after Cert.ReferenceIdeal.RefRun.ops25 (after Cert.ReferenceIdeal.RefRun.ops24 (after Cert.ReferenceIdeal.RefRun.ops23 W'))) (Proc.devRef .tc Cert.ReferenceIdeal.main_v557)) := by
  after_results_simp
  simp only [h2]
  exact reshape_col_eq_bcast _ _ _

set_option maxHeartbeats 1000000 in
/-- The reference's last scatter adds into the zero array. -/
theorem gap8_zero_core (W' : Valuation Cert.ReferenceIdeal.τ Cert.ReferenceIdeal.sig (Elt Ideal)) :
    (after Cert.ReferenceIdeal.RefRun.ops26 (after Cert.ReferenceIdeal.RefRun.ops25 (after Cert.ReferenceIdeal.RefRun.ops24 (after Cert.ReferenceIdeal.RefRun.ops23 W'))) (Proc.devRef .tc Cert.ReferenceIdeal.main_v556)
        : (⟨2, ![64, 300]⟩ : Shape).Idx → EReal) = fun _ => (0 : EReal) := by
  after_results_simp
  funext j
  show Ideal.ofBits .f32 0x00000000#32 = 0
  simp [Ideal.ofBits, Ideal.ieee]

end Cert.Bridge

end
-- ==== Proof.Bridge.Gap8.lean ====
/-
  The host stretch between the last edge-aggregation region and the final pooling region: the last layer's two dense
  maps with their batch norms, the per-graph node counts, and the pooling region's operands.

  The node features: the kernel slices rows 0..9999 of its region's padded output where the reference uses its
  accumulating scatter's result; entry by entry both are the segment sums of the same edge messages.  From there on the
  two programs apply the same operations, so the features agree once the operands do (the kernel's final change of float
  format is the identity on extended reals).

  The counts: the kernel scatters ones by `select (batch < 0) (batch + 64) batch`, the reference by `batch`; the
  precondition `batch ≥ 0` makes the select the identity.  This is the one place that precondition is used.

  The pooling indices: the kernel reshapes `batch` from [10000] to [10000, 1], the reference broadcasts it along axis 0
  into [10000, 1]; both read entry (p, 0) from `batch[p]`.
-/
import proofs.«411400_j9251359555630_1_alg».proof.Proof.Bridge.Agree
import proofs.«411400_j9251359555630_1_alg».proof.Proof.Bridge.ArgsKeptR
import proofs.«411400_j9251359555630_1_alg».proof.Proof.LibHostRead
import Idealize.ShloMosaic.Lib.StableHlo.Run
import proofs.«411400_j9251359555630_1_alg».proof.Proof.Bridge.Lemmas
import proofs.«411400_j9251359555630_1_alg».proof.Proof.Bridge.Gap8Core

set_option maxRecDepth 8192

noncomputable section

namespace Cert.Bridge

open Idealize.ShloMosaic Idealize.ShloMosaic.TcCoe Idealize.SL.Sem Idealize.ShloMosaic.ValueIdx
open Idealize.ShloMosaic.StableHlo
open scoped BigOperators

variable [Cert.KernelIdeal.Facts] [Cert.ReferenceIdeal.Facts]

variable (m : (ℓ : Loc Cert.KernelIdeal.nD Cert.KernelIdeal.τ Cert.KernelIdeal.sig) → Buf (Elt Ideal) ℓ)
variable (m' : (ℓ : Loc Cert.ReferenceIdeal.nD Cert.ReferenceIdeal.τ Cert.ReferenceIdeal.sig) → Buf (Elt Ideal) ℓ)
variable (outs : Cert.KernelIdeal.Gen.Outs (F := Ideal)) (c : Dev Cert.KernelIdeal.nD)

/-! ## The stretch between the two programs' runs -/

/-- Rows 0..9999 of the kernel's aggregate, entry by entry, are the reference's scatter of the edge messages into the
    zero array: both are `0 + ∑ p, if ids p = n then data (p, q) else 0` over operands that agree where the region
    is entered. -/
theorem agg_eq_scatter (E : Entry7 m m' outs c) (hv : Val7 m outs c) :
    (extractStridedSlice Cert.KernelIdeal.S10000x300 ![0, 0] (outs 72 Cert.KernelIdeal.main_v503 c) Cert.KernelIdeal.Facts₀.slices_S10240x300_S10000x300_0_0
        : (⟨2, ![10000, 300]⟩ : Shape).Idx → EReal)
      = Host.scatterAdd (F := Ideal) (φ := .f32) Cert.ReferenceIdeal.scatter_S10000x300_S160000x1_S160000x300_1_0_0_1
          (Cert.ReferenceIdeal.RefRun.R23 m' c (Proc.devRef .tc Cert.ReferenceIdeal.main_v497)) (Cert.ReferenceIdeal.RefRun.R23 m' c (Proc.devRef .tc Cert.ReferenceIdeal.main_v498))
          (Cert.ReferenceIdeal.RefRun.R23 m' c (Proc.devRef .tc Cert.ReferenceIdeal.main_v496)) := by
  funext j
  rw [E.zero, ← E.v502, ← E.v501, eq_ix2 j]
  have hS := slice_rows_apply (D := 300) (outs 72 Cert.KernelIdeal.main_v503 c)
    Cert.KernelIdeal.Facts₀.slices_S10240x300_S10000x300_0_0 (j 0) (j 1)
  have hL := hv ⟨(j 0).val, by have := idx2_lt0 j; omega⟩ (j 1)
  have hR := Cert.HostRead.rowScatterAdd_apply (N := 10000) (M := 160000) (D := 300) (w := 32)
    Cert.ReferenceIdeal.scatter_S10000x300_S160000x1_S160000x300_1_0_0_1 rfl rfl rfl rfl (fun _ => (0 : EReal))
    (Cert.KernelIdeal.Gen.V71 m outs c (Proc.devRef .tc Cert.KernelIdeal.main_v502)) (Cert.KernelIdeal.Gen.V71 m outs c (Proc.devRef .tc Cert.KernelIdeal.main_v501)) (j 0) (j 1)
  exact hS.trans (hL.trans hR.symm)

/-- A buffer that none of the items after the last edge-aggregation region writes holds, right after that region, what
    it holds at the end of the run. -/
theorem k72_eq_end (r : Ref Cert.KernelIdeal.sig .tc)
    (h73 : r ∉ Cert.KernelIdeal.Gen.hostOps8_W) (h74 : r ∉ Cert.KernelIdeal.Gen.hostOps8_1_W) (h75 : r ∉ Cert.KernelIdeal.Gen.hostOps8_2_W)
    (h76 : r ∉ Cert.KernelIdeal.Gen.hostOps8_3_W) (h77 : r ∉ Cert.KernelIdeal.Gen.hostOps8_4_W) (h78 : r ∉ Cert.KernelIdeal.Gen.hostOps8_5_W)
    (h79 : r ∉ Cert.KernelIdeal.Gen.hostOps8_6_W) (h80 : r ∉ ([Cert.KernelIdeal.main_v568] : List (Ref Cert.KernelIdeal.sig .tc)))
    (h81 : r ∉ Cert.KernelIdeal.Gen.hostOps9_W) :
    Cert.KernelIdeal.Gen.V72 m outs c r = Cert.KernelIdeal.Gen.V81 m outs c r :=
  (Cert.KernelIdeal.Gen.V73_of m outs c r h73).symm.trans <| (Cert.KernelIdeal.Gen.V74_of m outs c r h74).symm.trans <|
  (Cert.KernelIdeal.Gen.V75_of m outs c r h75).symm.trans <| (Cert.KernelIdeal.Gen.V76_of m outs c r h76).symm.trans <|
  (Cert.KernelIdeal.Gen.V77_of m outs c r h77).symm.trans <| (Cert.KernelIdeal.Gen.V78_of m outs c r h78).symm.trans <|
  (Cert.KernelIdeal.Gen.V79_of m outs c r h79).symm.trans <| (Cert.KernelIdeal.Gen.V80_of m outs c r h80).symm.trans <|
  (Cert.KernelIdeal.Gen.V81_of m outs c r h81).symm

/-- From agreement where the last edge-aggregation region is entered, that region's output read as segment sums, and
    every segment word of `batch` nonnegative: agreement where the final pooling region is entered. -/
theorem gap8 (A : Args m m' c) (E : Entry7 m m' outs c) (hv : Val7 m outs c)
    (hb : ∀ i, 0 ≤ ((m ((c.tc : Thread Cert.KernelIdeal.nD Cert.KernelIdeal.τ).loc Cert.KernelIdeal.main_arg2) : IVec ⟨1, ![10000]⟩ 32) i).toInt) :
    Entry8 m m' outs c := by
  have hRun : Cert.ReferenceIdeal.RefRun.R27 m' c
      = after Cert.ReferenceIdeal.RefRun.ops26 (after Cert.ReferenceIdeal.RefRun.ops25 (after Cert.ReferenceIdeal.RefRun.ops24 (after Cert.ReferenceIdeal.RefRun.ops23 (Cert.ReferenceIdeal.RefRun.R23 m' c)))) := by
    rw [Cert.ReferenceIdeal.RefRun.R27_eq, Cert.ReferenceIdeal.RefRun.R26_eq, Cert.ReferenceIdeal.RefRun.R25_eq, Cert.ReferenceIdeal.RefRun.R24_eq]
  have hk2 : (Cert.KernelIdeal.Gen.V72 m outs c (Proc.devRef .tc Cert.KernelIdeal.main_arg2) : IVec ⟨1, ![10000]⟩ 32)
      = m ((c.tc : Thread Cert.KernelIdeal.nD Cert.KernelIdeal.τ).loc Cert.KernelIdeal.main_arg2) :=
    ((k72_eq_end m outs c Cert.KernelIdeal.main_arg2 (by decide) (by decide) (by decide) (by decide) (by decide) (by decide)
        (by decide) (by decide) (by decide)).trans (Cert.KernelIdeal.Gen.V81_main_arg2 m outs c))
  have h2 : (Cert.KernelIdeal.Gen.V72 m outs c (Proc.devRef .tc Cert.KernelIdeal.main_arg2) : IVec ⟨1, ![10000]⟩ 32)
      = Cert.ReferenceIdeal.RefRun.R23 m' c (Proc.devRef .tc Cert.ReferenceIdeal.main_arg2) :=
    hk2.trans (A.a2.symm.trans (Rkept_23 m' c Cert.ReferenceIdeal.main_arg2 (by decide)).symm)
  refine ⟨?_, ?_, ?_, ?_⟩
  · rw [hRun]
    exact gap8_counts_core (Cert.KernelIdeal.Gen.V72 m outs c) (Cert.ReferenceIdeal.RefRun.R23 m' c) h2 (fun i => by rw [hk2]; exact hb i)
  · rw [hRun]
    exact gap8_ids_core (Cert.KernelIdeal.Gen.V72 m outs c) (Cert.ReferenceIdeal.RefRun.R23 m' c) h2
  · rw [hRun]
    refine gap8_data_core (Cert.KernelIdeal.Gen.V72 m outs c) (Cert.ReferenceIdeal.RefRun.R23 m' c) ?_
      ((Cert.KernelIdeal.Gen.V72_of m outs c Cert.KernelIdeal.main_v481 (by decide)).trans E.v481)
      ((Cert.KernelIdeal.Gen.V72_of m outs c Cert.KernelIdeal.main_v483 (by decide)).trans E.v483)
      ((Cert.KernelIdeal.Gen.V72_of m outs c Cert.KernelIdeal.main_v485 (by decide)).trans E.v485)
      ((Cert.KernelIdeal.Gen.V72_of m outs c Cert.KernelIdeal.main_v487 (by decide)).trans E.v487)
      ((Cert.KernelIdeal.Gen.V72_of m outs c Cert.KernelIdeal.main_v489 (by decide)).trans E.v489)
      ((Cert.KernelIdeal.Gen.V72_of m outs c Cert.KernelIdeal.main_v491 (by decide)).trans E.v491)
      ((Cert.KernelIdeal.Gen.V72_of m outs c Cert.KernelIdeal.main_v493 (by decide)).trans E.v493)
      (((k72_eq_end m outs c Cert.KernelIdeal.main_arg18 (by decide) (by decide) (by decide) (by decide) (by decide) (by decide)
        (by decide) (by decide) (by decide)).trans (Cert.KernelIdeal.Gen.V81_main_arg18 m outs c)).trans
        (A.a18.symm.trans (Rkept_23 m' c Cert.ReferenceIdeal.main_arg18 (by decide)).symm))
      (((k72_eq_end m outs c Cert.KernelIdeal.main_arg19 (by decide) (by decide) (by decide) (by decide) (by decide) (by decide)
        (by decide) (by decide) (by decide)).trans (Cert.KernelIdeal.Gen.V81_main_arg19 m outs c)).trans
        (A.a19.symm.trans (Rkept_23 m' c Cert.ReferenceIdeal.main_arg19 (by decide)).symm))
    show (extractStridedSlice Cert.KernelIdeal.S10000x300 ![0, 0]
        (Function.update (Cert.KernelIdeal.Gen.V71 m outs c) (Proc.devRef .tc Cert.KernelIdeal.main_v503) (outs 72 Cert.KernelIdeal.main_v503 c)
          (Proc.devRef .tc Cert.KernelIdeal.main_v503)) Cert.KernelIdeal.Facts₀.slices_S10240x300_S10000x300_0_0) = _
    rw [Function.update_self]
    exact agg_eq_scatter m m' outs c E hv
  · rw [hRun]
    exact gap8_zero_core (Cert.ReferenceIdeal.RefRun.R23 m' c)

end Cert.Bridge

end
-- ==== Proof.Bridge.Gap9Core.lean ====
/-
  The last host stretch over ANY two buffer contents: both programs divide the pooled sums by max(counts, 1) and apply
  the last dense layer; the kernel reads the pooled sums from its region's output array where the reference has its
  accumulating scatter, and the other eight operations are the same.
-/
import proofs.«411400_j9251359555630_1_alg».proof.Proof.Gen.KernelIdeal.Launch
import proofs.«411400_j9251359555630_1_alg».proof.Proof.Ref.OpsW10
import proofs.«411400_j9251359555630_1_alg».proof.Proof.Ref.OpsW11
import Idealize.ShloMosaic.Lib.StableHlo.Run
import Idealize.ShloMosaic.Lib.ValueIdx
import Idealize.ShloMosaic.PureOps.Ideal

set_option maxRecDepth 8192

noncomputable section

namespace Cert.Bridge

open Idealize.ShloMosaic Idealize.ShloMosaic.TcCoe Idealize.SL.Sem Idealize.ShloMosaic.ValueIdx
open Idealize.ShloMosaic.StableHlo
open scoped BigOperators

variable [Cert.KernelIdeal.Facts] [Cert.ReferenceIdeal.Facts]

set_option maxHeartbeats 1000000 in
/-- The last stretch over ANY two contents: if the counts agree, the kernel's pooled array is the reference's scatter
    of its own operands, and the two weight arguments agree, then the two results agree.  Both sides are the same eight
    operations applied to those operands. -/
theorem gap9_core
    (W : Valuation Cert.KernelIdeal.τ Cert.KernelIdeal.sig (Elt Ideal))
    (W' : Valuation Cert.ReferenceIdeal.τ Cert.ReferenceIdeal.sig (Elt Ideal))
    (hcnt : @Eq ((⟨1, ![64]⟩ : Shape).Idx → EReal) (W (Proc.devRef .tc Cert.KernelIdeal.main_v565)) (W' (Proc.devRef .tc Cert.ReferenceIdeal.main_v555)))
    (hpool : (W (Proc.devRef .tc Cert.KernelIdeal.main_v568) : (⟨2, ![64, 300]⟩ : Shape).Idx → EReal)
      = Host.scatterAdd (F := Ideal) (φ := .f32) Cert.ReferenceIdeal.scatter_S64x300_S10000x1_S10000x300_1_0_0_1
          (W' (Proc.devRef .tc Cert.ReferenceIdeal.main_v556)) (W' (Proc.devRef .tc Cert.ReferenceIdeal.main_v557))
          (W' (Proc.devRef .tc Cert.ReferenceIdeal.main_v551)))
    (h28 : @Eq ((⟨2, ![300, 10]⟩ : Shape).Idx → EReal) (W (Proc.devRef .tc Cert.KernelIdeal.main_arg28)) (W' (Proc.devRef .tc Cert.ReferenceIdeal.main_arg28)))
    (h29 : @Eq ((⟨1, ![10]⟩ : Shape).Idx → EReal) (W (Proc.devRef .tc Cert.KernelIdeal.main_arg29)) (W' (Proc.devRef .tc Cert.ReferenceIdeal.main_arg29))) :
    @Eq ((⟨2, ![64, 10]⟩ : Shape).Idx → EReal)
      (after Cert.KernelIdeal.Gen.hostOps9 W (Proc.devRef .tc Cert.KernelIdeal.main_v577))
      (after Cert.ReferenceIdeal.RefRun.ops28 (after Cert.ReferenceIdeal.RefRun.ops27 W')
          (Proc.devRef .tc Cert.ReferenceIdeal.main_v567)) := by
  after_results_simp
  simp only [hcnt, hpool, h28, h29]
  all_goals try simp only [TRef.ofBuf, TRef.toBuf, cast_eq]
  all_goals rfl

end Cert.Bridge

end
-- ==== Proof.Bridge.Gap9.lean ====
/-
  The last host stretch (after the final pooling region): both programs divide the pooled sums by max(counts, 1) and
  apply the last dense layer.  The kernel reads the pooled sums from its region's output array, the reference from its
  accumulating scatter into a zero array; entry by entry both are the sum of the data rows whose segment word is the row.
  The remaining eight operations are the same on both sides, so the results agree once the operands do.
-/
import proofs.«411400_j9251359555630_1_alg».proof.Proof.Bridge.Agree
import proofs.«411400_j9251359555630_1_alg».proof.Proof.Bridge.ArgsKeptR
import proofs.«411400_j9251359555630_1_alg».proof.Proof.LibHostRead
import Idealize.ShloMosaic.Lib.StableHlo.Run
import proofs.«411400_j9251359555630_1_alg».proof.Proof.Bridge.Gap9Core

set_option maxRecDepth 8192

noncomputable section

namespace Cert.Bridge

open Idealize.ShloMosaic Idealize.ShloMosaic.TcCoe Idealize.SL.Sem Idealize.ShloMosaic.ValueIdx
open Idealize.ShloMosaic.StableHlo
open scoped BigOperators

variable [Cert.KernelIdeal.Facts] [Cert.ReferenceIdeal.Facts]

variable (m : (ℓ : Loc Cert.KernelIdeal.nD Cert.KernelIdeal.τ Cert.KernelIdeal.sig) → Buf (Elt Ideal) ℓ)
variable (m' : (ℓ : Loc Cert.ReferenceIdeal.nD Cert.ReferenceIdeal.τ Cert.ReferenceIdeal.sig) → Buf (Elt Ideal) ℓ)
variable (outs : Cert.KernelIdeal.Gen.Outs (F := Ideal)) (c : Dev Cert.KernelIdeal.nD)

/-- The kernel's pooled array, entry by entry, is the reference's scatter of the data rows into the zero array: both
    are `0 + ∑ p, if ids p = n then data (p, q) else 0` over operands that agree where the region is entered. -/
theorem pool_eq_scatter (E : Entry8 m m' outs c) (hv : Val8 m outs c) :
    (outs 80 Cert.KernelIdeal.main_v568 c : (⟨2, ![64, 300]⟩ : Shape).Idx → EReal)
      = Host.scatterAdd (F := Ideal) (φ := .f32) Cert.ReferenceIdeal.scatter_S64x300_S10000x1_S10000x300_1_0_0_1
          (Cert.ReferenceIdeal.RefRun.R27 m' c (Proc.devRef .tc Cert.ReferenceIdeal.main_v556))
          (Cert.ReferenceIdeal.RefRun.R27 m' c (Proc.devRef .tc Cert.ReferenceIdeal.main_v557))
          (Cert.ReferenceIdeal.RefRun.R27 m' c (Proc.devRef .tc Cert.ReferenceIdeal.main_v551)) := by
  funext j
  rw [E.zero, ← E.v566, ← E.v567, eq_ix2 j]
  have hL := hv (j 0) (j 1)
  have hR := Cert.HostRead.rowScatterAdd_apply (N := 64) (M := 10000) (D := 300) (w := 32)
    Cert.ReferenceIdeal.scatter_S64x300_S10000x1_S10000x300_1_0_0_1 rfl rfl rfl rfl (fun _ => (0 : EReal))
    (Cert.KernelIdeal.Gen.V79 m outs c (Proc.devRef .tc Cert.KernelIdeal.main_v566))
    (Cert.KernelIdeal.Gen.V79 m outs c (Proc.devRef .tc Cert.KernelIdeal.main_v567)) (j 0) (j 1)
  exact hL.trans hR.symm

/-- From agreement where the final pooling region is entered, and that region's output read as segment sums, the two
    programs' results agree. -/
theorem gap9 (A : Args m m' c) (E : Entry8 m m' outs c) (hv : Val8 m outs c) :
    @Eq ((⟨2, ![64, 10]⟩ : Shape).Idx → EReal)
      (Cert.KernelIdeal.Gen.V81 m outs c (Proc.devRef .tc Cert.KernelIdeal.main_v577))
      (Cert.ReferenceIdeal.RefRun.R29 m' c (Proc.devRef .tc Cert.ReferenceIdeal.main_v567)) := by
  rw [Cert.ReferenceIdeal.RefRun.R29_eq, Cert.ReferenceIdeal.RefRun.R28_eq]
  refine gap9_core (Cert.KernelIdeal.Gen.V80 m outs c) (Cert.ReferenceIdeal.RefRun.R27 m' c) ?_ ?_ ?_ ?_
  · exact (Cert.KernelIdeal.Gen.V80_of m outs c Cert.KernelIdeal.main_v565 (by decide)).trans E.v565
  · show (Function.update (Cert.KernelIdeal.Gen.V79 m outs c) (Proc.devRef .tc Cert.KernelIdeal.main_v568)
        (outs 80 Cert.KernelIdeal.main_v568 c) (Proc.devRef .tc Cert.KernelIdeal.main_v568)) = _
    rw [Function.update_self]
    exact pool_eq_scatter m m' outs c E hv
  · -- no later item writes an argument: before the last stretch it holds what it holds at the end, its launch contents
    exact ((Cert.KernelIdeal.Gen.V81_of m outs c Cert.KernelIdeal.main_arg28 (by decide)).symm.trans
        (Cert.KernelIdeal.Gen.V81_main_arg28 m outs c)).trans
      (A.a28.symm.trans (Rkept_27 m' c Cert.ReferenceIdeal.main_arg28 (by decide)).symm)
  · exact ((Cert.KernelIdeal.Gen.V81_of m outs c Cert.KernelIdeal.main_arg29 (by decide)).symm.trans
        (Cert.KernelIdeal.Gen.V81_main_arg29 m outs c)).trans
      (A.a29.symm.trans (Rkept_27 m' c Cert.ReferenceIdeal.main_arg29 (by decide)).symm)

end Cert.Bridge

end
-- ==== Proof.PreBatch.lean ====
/-
  The precondition's last conjunct, read back: every segment word of the pooling index array is nonnegative.

  The printed precondition is one chain of conjunctions; its last factor is the reduction by `and`, over all 10000
  entries, of the comparison `batch[i] ≥ 0` (signed) against a broadcast zero.  The whole predicate being 1 makes that
  factor 1, a reduction by `and` into a single entry that is 1 had a 1 at every entry, and a signed comparison word that
  is 1 says its operands are ordered as integers.
-/
import proofs.«411400_j9251359555630_1_alg».proof.Defs
import Idealize.ShloMosaic.Lib.ReduceAll
import Idealize.ShloMosaic.Lib.ValueIdx

noncomputable section

namespace Cert.PreBatch

open Idealize.ShloMosaic Idealize.SL.Sem
open Cert.Pre_finite_inputs

variable [Cert.Pre_finite_inputs.Facts]

/-- The scalar shape has one index. -/
instance : Subsingleton S_.Idx := ⟨fun a b => funext fun d => d.elim0⟩

/-- The last nine operations of the predicate: if their result is 1 then every word of the index array, read signed,
    is at least 0.  (The result is `v138 ∧ all (batch ≥ 0)`; the second factor is a reduction by `and` over the one
    axis into the scalar shape.) -/
theorem of_part8 {F : FTy → Type} [FloatOps F] (a2 : IVec S10000 32) (v133 : IVec S_ 1) (v136 : IVec S10 1)
    (h : fn_part8 (F := F) a2 v133 v136 ValueIdx.ix0 = 1#1) (i : S10000.Idx) : 0 ≤ (a2 i).toInt := by
  dsimp only [fn_part8] at h
  have h1 := (IntOp.andi_eq_one.1 h).2
  have h2 := Host.reduce_andi_all _ _ _ _ _ h1 i
  have h3 : (0#32 : BitVec 32).toInt ≤ (a2 i).toInt := IntOp.cmpi_sge.1 h2
  rw [show (0#32 : BitVec 32).toInt = 0 from by decide] at h3
  exact h3

variable [Cert.Kernel.Facts] [Cert.KernelIdeal.Facts] [Cert.ReferenceIdeal.Facts]

/-- Under the kernel program's precondition every word of `batch` (the third argument array) is nonnegative, on every
    device.  The predicate's eight windows each end in the call of the next, so its value at the one index is the last
    window's value at the names live there. -/
theorem batch_nonneg (m : (ℓ : Loc Cert.KernelIdeal.nD Cert.KernelIdeal.τ Cert.KernelIdeal.sig) → Buf (Elt Ideal) ℓ)
    (hpre : Cert.Pre_KernelIdeal m) (c : Dev Cert.KernelIdeal.nD) (i : S10000.Idx) :
    0 ≤ ((m ((c.tc : Thread Cert.KernelIdeal.nD Cert.KernelIdeal.τ).loc Cert.KernelIdeal.main_arg2) : IVec S10000 32) i).toInt := by
  have h := congrFun (hpre c) ValueIdx.ix0
  exact of_part8 (F := Ideal) _ _ _ h i

end Cert.PreBatch

end
-- ==== Proof.Bridge.Final.lean ====
/-
  The two programs' results are the same array.

  Each kernel region leaves in its output array the segment sums of its data rows (the regions' value lemmas, read at
  the family that names every region's output).  The memories agree on the arguments.  Stretch by stretch, the buffers
  the next region reads then hold the same contents on both sides, up to the last stretch, whose result buffers are
  the programs' results.
-/
import proofs.«411400_j9251359555630_1_alg».proof.Proof.KI.Vals
import proofs.«411400_j9251359555630_1_alg».proof.Proof.KI.Reg0Value
import proofs.«411400_j9251359555630_1_alg».proof.Proof.KI.Reg1Value
import proofs.«411400_j9251359555630_1_alg».proof.Proof.KI.Reg2Value
import proofs.«411400_j9251359555630_1_alg».proof.Proof.KI.Reg3Value
import proofs.«411400_j9251359555630_1_alg».proof.Proof.KI.Reg4Value
import proofs.«411400_j9251359555630_1_alg».proof.Proof.KI.Reg5Value
import proofs.«411400_j9251359555630_1_alg».proof.Proof.KI.Reg6Value
import proofs.«411400_j9251359555630_1_alg».proof.Proof.KI.Reg7Value
import proofs.«411400_j9251359555630_1_alg».proof.Proof.KI.Reg8Value
import proofs.«411400_j9251359555630_1_alg».proof.Proof.Bridge.Agree
import proofs.«411400_j9251359555630_1_alg».proof.Proof.Bridge.Gap0
import proofs.«411400_j9251359555630_1_alg».proof.Proof.Bridge.Gap1
import proofs.«411400_j9251359555630_1_alg».proof.Proof.Bridge.Gap2
import proofs.«411400_j9251359555630_1_alg».proof.Proof.Bridge.Gap3
import proofs.«411400_j9251359555630_1_alg».proof.Proof.Bridge.Gap4
import proofs.«411400_j9251359555630_1_alg».proof.Proof.Bridge.Gap5
import proofs.«411400_j9251359555630_1_alg».proof.Proof.Bridge.Gap6
import proofs.«411400_j9251359555630_1_alg».proof.Proof.Bridge.Gap7
import proofs.«411400_j9251359555630_1_alg».proof.Proof.Bridge.Gap8
import proofs.«411400_j9251359555630_1_alg».proof.Proof.Bridge.Gap9
import proofs.«411400_j9251359555630_1_alg».proof.Proof.PreBatch

noncomputable section

namespace Cert.Bridge

open Idealize.ShloMosaic Idealize.ShloMosaic.TcCoe Idealize.SL.Sem Idealize.ShloMosaic.ValueIdx
open scoped BigOperators

variable [Cert.Kernel.Facts] [Cert.KernelIdeal.Facts] [Cert.ReferenceIdeal.Facts] [Cert.Pre_finite_inputs.Facts]
variable (m : (ℓ : Loc Cert.KernelIdeal.nD Cert.KernelIdeal.τ Cert.KernelIdeal.sig) → Buf (Elt Ideal) ℓ)
variable (m' : (ℓ : Loc Cert.ReferenceIdeal.nD Cert.ReferenceIdeal.τ Cert.ReferenceIdeal.sig) → Buf (Elt Ideal) ℓ)
variable (c : Dev Cert.KernelIdeal.nD)

/-! ## What each region leaves, at the family of all the regions' outputs -/

/-- Region 0's output array, named in the family of region outputs, holds at (n, q) the sum of the data rows whose
    index word is n. -/
theorem val0_of : Val0 m (Cert.KernelIdeal.Run.outs m) c := fun n q => by
  rw [Cert.KernelIdeal.Run.outs_2, Cert.KernelIdeal.Run.Veq_1]
  exact Cert.KernelIdeal.Reg0.val0 (Cert.KernelIdeal.Run.Vin0 m) c n q

/-- Region 1's output array, named in the family of region outputs, holds at (n, q) the sum of the data rows whose
    index word is n. -/
theorem val1_of : Val1 m (Cert.KernelIdeal.Run.outs m) c := fun n q => by
  rw [Cert.KernelIdeal.Run.outs_12, Cert.KernelIdeal.Run.Veq_11]
  exact Cert.KernelIdeal.Reg1.val1 (Cert.KernelIdeal.Run.Vin1 m) c n q

/-- Region 2's output array, named in the family of region outputs, holds at (n, q) the sum of the data rows whose
    index word is n. -/
theorem val2_of : Val2 m (Cert.KernelIdeal.Run.outs m) c := fun n q => by
  rw [Cert.KernelIdeal.Run.outs_22, Cert.KernelIdeal.Run.Veq_21]
  exact Cert.KernelIdeal.Reg2.val2 (Cert.KernelIdeal.Run.Vin2 m) c n q

/-- Region 3's output array, named in the family of region outputs, holds at (n, q) the sum of the data rows whose
    index word is n. -/
theorem val3_of : Val3 m (Cert.KernelIdeal.Run.outs m) c := fun n q => by
  rw [Cert.KernelIdeal.Run.outs_32, Cert.KernelIdeal.Run.Veq_31]
  exact Cert.KernelIdeal.Reg3.val3 (Cert.KernelIdeal.Run.Vin3 m) c n q

/-- Region 4's output array, named in the family of region outputs, holds at (n, q) the sum of the data rows whose
    index word is n. -/
theorem val4_of : Val4 m (Cert.KernelIdeal.Run.outs m) c := fun n q => by
  rw [Cert.KernelIdeal.Run.outs_42, Cert.KernelIdeal.Run.Veq_41]
  exact Cert.KernelIdeal.Reg4.val4 (Cert.KernelIdeal.Run.Vin4 m) c n q

/-- Region 5's output array, named in the family of region outputs, holds at (n, q) the sum of the data rows whose
    index word is n. -/
theorem val5_of : Val5 m (Cert.KernelIdeal.Run.outs m) c := fun n q => by
  rw [Cert.KernelIdeal.Run.outs_52, Cert.KernelIdeal.Run.Veq_51]
  exact Cert.KernelIdeal.Reg5.val5 (Cert.KernelIdeal.Run.Vin5 m) c n q

/-- Region 6's output array, named in the family of region outputs, holds at (n, q) the sum of the data rows whose
    index word is n. -/
theorem val6_of : Val6 m (Cert.KernelIdeal.Run.outs m) c := fun n q => by
  rw [Cert.KernelIdeal.Run.outs_62, Cert.KernelIdeal.Run.Veq_61]
  exact Cert.KernelIdeal.Reg6.val6 (Cert.KernelIdeal.Run.Vin6 m) c n q

/-- Region 7's output array, named in the family of region outputs, holds at (n, q) the sum of the data rows whose
    index word is n. -/
theorem val7_of : Val7 m (Cert.KernelIdeal.Run.outs m) c := fun n q => by
  rw [Cert.KernelIdeal.Run.outs_72, Cert.KernelIdeal.Run.Veq_71]
  exact Cert.KernelIdeal.Reg7.val7 (Cert.KernelIdeal.Run.Vin7 m) c n q

/-- Region 8's output array, named in the family of region outputs, holds at (n, q) the sum of the data rows whose
    index word is n. -/
theorem val8_of : Val8 m (Cert.KernelIdeal.Run.outs m) c := fun n q => by
  rw [Cert.KernelIdeal.Run.outs_80, Cert.KernelIdeal.Run.Veq_79]
  exact Cert.KernelIdeal.Reg8.val8 (Cert.KernelIdeal.Run.Vin8 m) c n q

/-! ## The arguments -/

/-- Memories that agree on every argument on every device agree on them on this one.  (Each equation is written with its
    closed array type; the statement's own hypothesis is the same equations at the buffers' contents types, which are
    those array types once the signature tables are evaluated.) -/
theorem args_of
    (hagree :
      ∀ c : Dev Cert.KernelIdeal.nD,
        @Eq ((⟨2, ![10000, 128]⟩ : Shape).Idx → EReal) (m' ((c.tc : Thread Cert.ReferenceIdeal.nD Cert.ReferenceIdeal.τ).loc Cert.ReferenceIdeal.main_arg0)) (m ((c.tc : Thread Cert.KernelIdeal.nD Cert.KernelIdeal.τ).loc Cert.KernelIdeal.main_arg0))
        ∧ @Eq ((⟨2, ![2, 160000]⟩ : Shape).Idx → BitVec 32) (m' ((c.tc : Thread Cert.ReferenceIdeal.nD Cert.ReferenceIdeal.τ).loc Cert.ReferenceIdeal.main_arg1)) (m ((c.tc : Thread Cert.KernelIdeal.nD Cert.KernelIdeal.τ).loc Cert.KernelIdeal.main_arg1))
        ∧ @Eq ((⟨1, ![10000]⟩ : Shape).Idx → BitVec 32) (m' ((c.tc : Thread Cert.ReferenceIdeal.nD Cert.ReferenceIdeal.τ).loc Cert.ReferenceIdeal.main_arg2)) (m ((c.tc : Thread Cert.KernelIdeal.nD Cert.KernelIdeal.τ).loc Cert.KernelIdeal.main_arg2))
        ∧ @Eq ((⟨2, ![1, 300]⟩ : Shape).Idx → EReal) (m' ((c.tc : Thread Cert.ReferenceIdeal.nD Cert.ReferenceIdeal.τ).loc Cert.ReferenceIdeal.main_arg3)) (m ((c.tc : Thread Cert.KernelIdeal.nD Cert.KernelIdeal.τ).loc Cert.KernelIdeal.main_arg3))
        ∧ @Eq ((⟨2, ![128, 600]⟩ : Shape).Idx → EReal) (m' ((c.tc : Thread Cert.ReferenceIdeal.nD Cert.ReferenceIdeal.τ).loc Cert.ReferenceIdeal.main_arg4)) (m ((c.tc : Thread Cert.KernelIdeal.nD Cert.KernelIdeal.τ).loc Cert.KernelIdeal.main_arg4))
        ∧ @Eq ((⟨1, ![600]⟩ : Shape).Idx → EReal) (m' ((c.tc : Thread Cert.ReferenceIdeal.nD Cert.ReferenceIdeal.τ).loc Cert.ReferenceIdeal.main_arg5)) (m ((c.tc : Thread Cert.KernelIdeal.nD Cert.KernelIdeal.τ).loc Cert.KernelIdeal.main_arg5))
        ∧ @Eq ((⟨1, ![600]⟩ : Shape).Idx → EReal) (m' ((c.tc : Thread Cert.ReferenceIdeal.nD Cert.ReferenceIdeal.τ).loc Cert.ReferenceIdeal.main_arg6)) (m ((c.tc : Thread Cert.KernelIdeal.nD Cert.KernelIdeal.τ).loc Cert.KernelIdeal.main_arg6))
        ∧ @Eq ((⟨1, ![600]⟩ : Shape).Idx → EReal) (m' ((c.tc : Thread Cert.ReferenceIdeal.nD Cert.ReferenceIdeal.τ).loc Cert.ReferenceIdeal.main_arg7)) (m ((c.tc : Thread Cert.KernelIdeal.nD Cert.KernelIdeal.τ).loc Cert.KernelIdeal.main_arg7))
        ∧ @Eq ((⟨2, ![600, 300]⟩ : Shape).Idx → EReal) (m' ((c.tc : Thread Cert.ReferenceIdeal.nD Cert.ReferenceIdeal.τ).loc Cert.ReferenceIdeal.main_arg8)) (m ((c.tc : Thread Cert.KernelIdeal.nD Cert.KernelIdeal.τ).loc Cert.KernelIdeal.main_arg8))
        ∧ @Eq ((⟨1, ![300]⟩ : Shape).Idx → EReal) (m' ((c.tc : Thread Cert.ReferenceIdeal.nD Cert.ReferenceIdeal.τ).loc Cert.ReferenceIdeal.main_arg9)) (m ((c.tc : Thread Cert.KernelIdeal.nD Cert.KernelIdeal.τ).loc Cert.KernelIdeal.main_arg9))
        ∧ @Eq ((⟨3, ![4, 300, 600]⟩ : Shape).Idx → EReal) (m' ((c.tc : Thread Cert.ReferenceIdeal.nD Cert.ReferenceIdeal.τ).loc Cert.ReferenceIdeal.main_arg10)) (m ((c.tc : Thread Cert.KernelIdeal.nD Cert.KernelIdeal.τ).loc Cert.KernelIdeal.main_arg10))
        ∧ @Eq ((⟨2, ![4, 600]⟩ : Shape).Idx → EReal) (m' ((c.tc : Thread Cert.ReferenceIdeal.nD Cert.ReferenceIdeal.τ).loc Cert.ReferenceIdeal.main_arg11)) (m ((c.tc : Thread Cert.KernelIdeal.nD Cert.KernelIdeal.τ).loc Cert.KernelIdeal.main_arg11))
        ∧ @Eq ((⟨2, ![4, 600]⟩ : Shape).Idx → EReal) (m' ((c.tc : Thread Cert.ReferenceIdeal.nD Cert.ReferenceIdeal.τ).loc Cert.ReferenceIdeal.main_arg12)) (m ((c.tc : Thread Cert.KernelIdeal.nD Cert.KernelIdeal.τ).loc Cert.KernelIdeal.main_arg12))
        ∧ @Eq ((⟨2, ![4, 600]⟩ : Shape).Idx → EReal) (m' ((c.tc : Thread Cert.ReferenceIdeal.nD Cert.ReferenceIdeal.τ).loc Cert.ReferenceIdeal.main_arg13)) (m ((c.tc : Thread Cert.KernelIdeal.nD Cert.KernelIdeal.τ).loc Cert.KernelIdeal.main_arg13))
        ∧ @Eq ((⟨3, ![4, 600, 300]⟩ : Shape).Idx → EReal) (m' ((c.tc : Thread Cert.ReferenceIdeal.nD Cert.ReferenceIdeal.τ).loc Cert.ReferenceIdeal.main_arg14)) (m ((c.tc : Thread Cert.KernelIdeal.nD Cert.KernelIdeal.τ).loc Cert.KernelIdeal.main_arg14))
        ∧ @Eq ((⟨2, ![4, 300]⟩ : Shape).Idx → EReal) (m' ((c.tc : Thread Cert.ReferenceIdeal.nD Cert.ReferenceIdeal.τ).loc Cert.ReferenceIdeal.main_arg15)) (m ((c.tc : Thread Cert.KernelIdeal.nD Cert.KernelIdeal.τ).loc Cert.KernelIdeal.main_arg15))
        ∧ @Eq ((⟨1, ![300]⟩ : Shape).Idx → EReal) (m' ((c.tc : Thread Cert.ReferenceIdeal.nD Cert.ReferenceIdeal.τ).loc Cert.ReferenceIdeal.main_arg16)) (m ((c.tc : Thread Cert.KernelIdeal.nD Cert.KernelIdeal.τ).loc Cert.KernelIdeal.main_arg16))
        ∧ @Eq ((⟨1, ![300]⟩ : Shape).Idx → EReal) (m' ((c.tc : Thread Cert.ReferenceIdeal.nD Cert.ReferenceIdeal.τ).loc Cert.ReferenceIdeal.main_arg17)) (m ((c.tc : Thread Cert.KernelIdeal.nD Cert.KernelIdeal.τ).loc Cert.KernelIdeal.main_arg17))
        ∧ @Eq ((⟨2, ![4, 300]⟩ : Shape).Idx → EReal) (m' ((c.tc : Thread Cert.ReferenceIdeal.nD Cert.ReferenceIdeal.τ).loc Cert.ReferenceIdeal.main_arg18)) (m ((c.tc : Thread Cert.KernelIdeal.nD Cert.KernelIdeal.τ).loc Cert.KernelIdeal.main_arg18))
        ∧ @Eq ((⟨2, ![4, 300]⟩ : Shape).Idx → EReal) (m' ((c.tc : Thread Cert.ReferenceIdeal.nD Cert.ReferenceIdeal.τ).loc Cert.ReferenceIdeal.main_arg19)) (m ((c.tc : Thread Cert.KernelIdeal.nD Cert.KernelIdeal.τ).loc Cert.KernelIdeal.main_arg19))
        ∧ @Eq ((⟨2, ![300, 600]⟩ : Shape).Idx → EReal) (m' ((c.tc : Thread Cert.ReferenceIdeal.nD Cert.ReferenceIdeal.τ).loc Cert.ReferenceIdeal.main_arg20)) (m ((c.tc : Thread Cert.KernelIdeal.nD Cert.KernelIdeal.τ).loc Cert.KernelIdeal.main_arg20))
        ∧ @Eq ((⟨1, ![600]⟩ : Shape).Idx → EReal) (m' ((c.tc : Thread Cert.ReferenceIdeal.nD Cert.ReferenceIdeal.τ).loc Cert.ReferenceIdeal.main_arg21)) (m ((c.tc : Thread Cert.KernelIdeal.nD Cert.KernelIdeal.τ).loc Cert.KernelIdeal.main_arg21))
        ∧ @Eq ((⟨1, ![600]⟩ : Shape).Idx → EReal) (m' ((c.tc : Thread Cert.ReferenceIdeal.nD Cert.ReferenceIdeal.τ).loc Cert.ReferenceIdeal.main_arg22)) (m ((c.tc : Thread Cert.KernelIdeal.nD Cert.KernelIdeal.τ).loc Cert.KernelIdeal.main_arg22))
        ∧ @Eq ((⟨1, ![600]⟩ : Shape).Idx → EReal) (m' ((c.tc : Thread Cert.ReferenceIdeal.nD Cert.ReferenceIdeal.τ).loc Cert.ReferenceIdeal.main_arg23)) (m ((c.tc : Thread Cert.KernelIdeal.nD Cert.KernelIdeal.τ).loc Cert.KernelIdeal.main_arg23))
        ∧ @Eq ((⟨2, ![600, 300]⟩ : Shape).Idx → EReal) (m' ((c.tc : Thread Cert.ReferenceIdeal.nD Cert.ReferenceIdeal.τ).loc Cert.ReferenceIdeal.main_arg24)) (m ((c.tc : Thread Cert.KernelIdeal.nD Cert.KernelIdeal.τ).loc Cert.KernelIdeal.main_arg24))
        ∧ @Eq ((⟨1, ![300]⟩ : Shape).Idx → EReal) (m' ((c.tc : Thread Cert.ReferenceIdeal.nD Cert.ReferenceIdeal.τ).loc Cert.ReferenceIdeal.main_arg25)) (m ((c.tc : Thread Cert.KernelIdeal.nD Cert.KernelIdeal.τ).loc Cert.KernelIdeal.main_arg25))
        ∧ @Eq ((⟨1, ![300]⟩ : Shape).Idx → EReal) (m' ((c.tc : Thread Cert.ReferenceIdeal.nD Cert.ReferenceIdeal.τ).loc Cert.ReferenceIdeal.main_arg26)) (m ((c.tc : Thread Cert.KernelIdeal.nD Cert.KernelIdeal.τ).loc Cert.KernelIdeal.main_arg26))
        ∧ @Eq ((⟨1, ![300]⟩ : Shape).Idx → EReal) (m' ((c.tc : Thread Cert.ReferenceIdeal.nD Cert.ReferenceIdeal.τ).loc Cert.ReferenceIdeal.main_arg27)) (m ((c.tc : Thread Cert.KernelIdeal.nD Cert.KernelIdeal.τ).loc Cert.KernelIdeal.main_arg27))
        ∧ @Eq ((⟨2, ![300, 10]⟩ : Shape).Idx → EReal) (m' ((c.tc : Thread Cert.ReferenceIdeal.nD Cert.ReferenceIdeal.τ).loc Cert.ReferenceIdeal.main_arg28)) (m ((c.tc : Thread Cert.KernelIdeal.nD Cert.KernelIdeal.τ).loc Cert.KernelIdeal.main_arg28))
        ∧ @Eq ((⟨1, ![10]⟩ : Shape).Idx → EReal) (m' ((c.tc : Thread Cert.ReferenceIdeal.nD Cert.ReferenceIdeal.τ).loc Cert.ReferenceIdeal.main_arg29)) (m ((c.tc : Thread Cert.KernelIdeal.nD Cert.KernelIdeal.τ).loc Cert.KernelIdeal.main_arg29))) :
    Args m m' c := by
  obtain ⟨h0, h1, h2, h3, h4, h5, h6, h7, h8, h9, h10, h11, h12, h13, h14, h15, h16, h17, h18, h19, h20, h21, h22, h23, h24, h25, h26, h27, h28, h29⟩ := hagree c
  exact ⟨h0, h1, h2, h3, h4, h5, h6, h7, h8, h9, h10, h11, h12, h13, h14, h15, h16, h17, h18, h19, h20, h21, h22, h23, h24, h25, h26, h27, h28, h29⟩

/-! ## The result -/

/-- From memories that agree on the arguments, of which the kernel program's precondition holds (the graph ids are not
    negative), the kernel program's result buffer after its last item holds what the reference's holds after its last
    operation. -/
theorem result_eq (hpre : Cert.Pre_KernelIdeal m)
    (hagree :
      ∀ c : Dev Cert.KernelIdeal.nD,
        @Eq ((⟨2, ![10000, 128]⟩ : Shape).Idx → EReal) (m' ((c.tc : Thread Cert.ReferenceIdeal.nD Cert.ReferenceIdeal.τ).loc Cert.ReferenceIdeal.main_arg0)) (m ((c.tc : Thread Cert.KernelIdeal.nD Cert.KernelIdeal.τ).loc Cert.KernelIdeal.main_arg0))
        ∧ @Eq ((⟨2, ![2, 160000]⟩ : Shape).Idx → BitVec 32) (m' ((c.tc : Thread Cert.ReferenceIdeal.nD Cert.ReferenceIdeal.τ).loc Cert.ReferenceIdeal.main_arg1)) (m ((c.tc : Thread Cert.KernelIdeal.nD Cert.KernelIdeal.τ).loc Cert.KernelIdeal.main_arg1))
        ∧ @Eq ((⟨1, ![10000]⟩ : Shape).Idx → BitVec 32) (m' ((c.tc : Thread Cert.ReferenceIdeal.nD Cert.ReferenceIdeal.τ).loc Cert.ReferenceIdeal.main_arg2)) (m ((c.tc : Thread Cert.KernelIdeal.nD Cert.KernelIdeal.τ).loc Cert.KernelIdeal.main_arg2))
        ∧ @Eq ((⟨2, ![1, 300]⟩ : Shape).Idx → EReal) (m' ((c.tc : Thread Cert.ReferenceIdeal.nD Cert.ReferenceIdeal.τ).loc Cert.ReferenceIdeal.main_arg3)) (m ((c.tc : Thread Cert.KernelIdeal.nD Cert.KernelIdeal.τ).loc Cert.KernelIdeal.main_arg3))
        ∧ @Eq ((⟨2, ![128, 600]⟩ : Shape).Idx → EReal) (m' ((c.tc : Thread Cert.ReferenceIdeal.nD Cert.ReferenceIdeal.τ).loc Cert.ReferenceIdeal.main_arg4)) (m ((c.tc : Thread Cert.KernelIdeal.nD Cert.KernelIdeal.τ).loc Cert.KernelIdeal.main_arg4))
        ∧ @Eq ((⟨1, ![600]⟩ : Shape).Idx → EReal) (m' ((c.tc : Thread Cert.ReferenceIdeal.nD Cert.ReferenceIdeal.τ).loc Cert.ReferenceIdeal.main_arg5)) (m ((c.tc : Thread Cert.KernelIdeal.nD Cert.KernelIdeal.τ).loc Cert.KernelIdeal.main_arg5))
        ∧ @Eq ((⟨1, ![600]⟩ : Shape).Idx → EReal) (m' ((c.tc : Thread Cert.ReferenceIdeal.nD Cert.ReferenceIdeal.τ).loc Cert.ReferenceIdeal.main_arg6)) (m ((c.tc : Thread Cert.KernelIdeal.nD Cert.KernelIdeal.τ).loc Cert.KernelIdeal.main_arg6))
        ∧ @Eq ((⟨1, ![600]⟩ : Shape).Idx → EReal) (m' ((c.tc : Thread Cert.ReferenceIdeal.nD Cert.ReferenceIdeal.τ).loc Cert.ReferenceIdeal.main_arg7)) (m ((c.tc : Thread Cert.KernelIdeal.nD Cert.KernelIdeal.τ).loc Cert.KernelIdeal.main_arg7))
        ∧ @Eq ((⟨2, ![600, 300]⟩ : Shape).Idx → EReal) (m' ((c.tc : Thread Cert.ReferenceIdeal.nD Cert.ReferenceIdeal.τ).loc Cert.ReferenceIdeal.main_arg8)) (m ((c.tc : Thread Cert.KernelIdeal.nD Cert.KernelIdeal.τ).loc Cert.KernelIdeal.main_arg8))
        ∧ @Eq ((⟨1, ![300]⟩ : Shape).Idx → EReal) (m' ((c.tc : Thread Cert.ReferenceIdeal.nD Cert.ReferenceIdeal.τ).loc Cert.ReferenceIdeal.main_arg9)) (m ((c.tc : Thread Cert.KernelIdeal.nD Cert.KernelIdeal.τ).loc Cert.KernelIdeal.main_arg9))
        ∧ @Eq ((⟨3, ![4, 300, 600]⟩ : Shape).Idx → EReal) (m' ((c.tc : Thread Cert.ReferenceIdeal.nD Cert.ReferenceIdeal.τ).loc Cert.ReferenceIdeal.main_arg10)) (m ((c.tc : Thread Cert.KernelIdeal.nD Cert.KernelIdeal.τ).loc Cert.KernelIdeal.main_arg10))
        ∧ @Eq ((⟨2, ![4, 600]⟩ : Shape).Idx → EReal) (m' ((c.tc : Thread Cert.ReferenceIdeal.nD Cert.ReferenceIdeal.τ).loc Cert.ReferenceIdeal.main_arg11)) (m ((c.tc : Thread Cert.KernelIdeal.nD Cert.KernelIdeal.τ).loc Cert.KernelIdeal.main_arg11))
        ∧ @Eq ((⟨2, ![4, 600]⟩ : Shape).Idx → EReal) (m' ((c.tc : Thread Cert.ReferenceIdeal.nD Cert.ReferenceIdeal.τ).loc Cert.ReferenceIdeal.main_arg12)) (m ((c.tc : Thread Cert.KernelIdeal.nD Cert.KernelIdeal.τ).loc Cert.KernelIdeal.main_arg12))
        ∧ @Eq ((⟨2, ![4, 600]⟩ : Shape).Idx → EReal) (m' ((c.tc : Thread Cert.ReferenceIdeal.nD Cert.ReferenceIdeal.τ).loc Cert.ReferenceIdeal.main_arg13)) (m ((c.tc : Thread Cert.KernelIdeal.nD Cert.KernelIdeal.τ).loc Cert.KernelIdeal.main_arg13))
        ∧ @Eq ((⟨3, ![4, 600, 300]⟩ : Shape).Idx → EReal) (m' ((c.tc : Thread Cert.ReferenceIdeal.nD Cert.ReferenceIdeal.τ).loc Cert.ReferenceIdeal.main_arg14)) (m ((c.tc : Thread Cert.KernelIdeal.nD Cert.KernelIdeal.τ).loc Cert.KernelIdeal.main_arg14))
        ∧ @Eq ((⟨2, ![4, 300]⟩ : Shape).Idx → EReal) (m' ((c.tc : Thread Cert.ReferenceIdeal.nD Cert.ReferenceIdeal.τ).loc Cert.ReferenceIdeal.main_arg15)) (m ((c.tc : Thread Cert.KernelIdeal.nD Cert.KernelIdeal.τ).loc Cert.KernelIdeal.main_arg15))
        ∧ @Eq ((⟨1, ![300]⟩ : Shape).Idx → EReal) (m' ((c.tc : Thread Cert.ReferenceIdeal.nD Cert.ReferenceIdeal.τ).loc Cert.ReferenceIdeal.main_arg16)) (m ((c.tc : Thread Cert.KernelIdeal.nD Cert.KernelIdeal.τ).loc Cert.KernelIdeal.main_arg16))
        ∧ @Eq ((⟨1, ![300]⟩ : Shape).Idx → EReal) (m' ((c.tc : Thread Cert.ReferenceIdeal.nD Cert.ReferenceIdeal.τ).loc Cert.ReferenceIdeal.main_arg17)) (m ((c.tc : Thread Cert.KernelIdeal.nD Cert.KernelIdeal.τ).loc Cert.KernelIdeal.main_arg17))
        ∧ @Eq ((⟨2, ![4, 300]⟩ : Shape).Idx → EReal) (m' ((c.tc : Thread Cert.ReferenceIdeal.nD Cert.ReferenceIdeal.τ).loc Cert.ReferenceIdeal.main_arg18)) (m ((c.tc : Thread Cert.KernelIdeal.nD Cert.KernelIdeal.τ).loc Cert.KernelIdeal.main_arg18))
        ∧ @Eq ((⟨2, ![4, 300]⟩ : Shape).Idx → EReal) (m' ((c.tc : Thread Cert.ReferenceIdeal.nD Cert.ReferenceIdeal.τ).loc Cert.ReferenceIdeal.main_arg19)) (m ((c.tc : Thread Cert.KernelIdeal.nD Cert.KernelIdeal.τ).loc Cert.KernelIdeal.main_arg19))
        ∧ @Eq ((⟨2, ![300, 600]⟩ : Shape).Idx → EReal) (m' ((c.tc : Thread Cert.ReferenceIdeal.nD Cert.ReferenceIdeal.τ).loc Cert.ReferenceIdeal.main_arg20)) (m ((c.tc : Thread Cert.KernelIdeal.nD Cert.KernelIdeal.τ).loc Cert.KernelIdeal.main_arg20))
        ∧ @Eq ((⟨1, ![600]⟩ : Shape).Idx → EReal) (m' ((c.tc : Thread Cert.ReferenceIdeal.nD Cert.ReferenceIdeal.τ).loc Cert.ReferenceIdeal.main_arg21)) (m ((c.tc : Thread Cert.KernelIdeal.nD Cert.KernelIdeal.τ).loc Cert.KernelIdeal.main_arg21))
        ∧ @Eq ((⟨1, ![600]⟩ : Shape).Idx → EReal) (m' ((c.tc : Thread Cert.ReferenceIdeal.nD Cert.ReferenceIdeal.τ).loc Cert.ReferenceIdeal.main_arg22)) (m ((c.tc : Thread Cert.KernelIdeal.nD Cert.KernelIdeal.τ).loc Cert.KernelIdeal.main_arg22))
        ∧ @Eq ((⟨1, ![600]⟩ : Shape).Idx → EReal) (m' ((c.tc : Thread Cert.ReferenceIdeal.nD Cert.ReferenceIdeal.τ).loc Cert.ReferenceIdeal.main_arg23)) (m ((c.tc : Thread Cert.KernelIdeal.nD Cert.KernelIdeal.τ).loc Cert.KernelIdeal.main_arg23))
        ∧ @Eq ((⟨2, ![600, 300]⟩ : Shape).Idx → EReal) (m' ((c.tc : Thread Cert.ReferenceIdeal.nD Cert.ReferenceIdeal.τ).loc Cert.ReferenceIdeal.main_arg24)) (m ((c.tc : Thread Cert.KernelIdeal.nD Cert.KernelIdeal.τ).loc Cert.KernelIdeal.main_arg24))
        ∧ @Eq ((⟨1, ![300]⟩ : Shape).Idx → EReal) (m' ((c.tc : Thread Cert.ReferenceIdeal.nD Cert.ReferenceIdeal.τ).loc Cert.ReferenceIdeal.main_arg25)) (m ((c.tc : Thread Cert.KernelIdeal.nD Cert.KernelIdeal.τ).loc Cert.KernelIdeal.main_arg25))
        ∧ @Eq ((⟨1, ![300]⟩ : Shape).Idx → EReal) (m' ((c.tc : Thread Cert.ReferenceIdeal.nD Cert.ReferenceIdeal.τ).loc Cert.ReferenceIdeal.main_arg26)) (m ((c.tc : Thread Cert.KernelIdeal.nD Cert.KernelIdeal.τ).loc Cert.KernelIdeal.main_arg26))
        ∧ @Eq ((⟨1, ![300]⟩ : Shape).Idx → EReal) (m' ((c.tc : Thread Cert.ReferenceIdeal.nD Cert.ReferenceIdeal.τ).loc Cert.ReferenceIdeal.main_arg27)) (m ((c.tc : Thread Cert.KernelIdeal.nD Cert.KernelIdeal.τ).loc Cert.KernelIdeal.main_arg27))
        ∧ @Eq ((⟨2, ![300, 10]⟩ : Shape).Idx → EReal) (m' ((c.tc : Thread Cert.ReferenceIdeal.nD Cert.ReferenceIdeal.τ).loc Cert.ReferenceIdeal.main_arg28)) (m ((c.tc : Thread Cert.KernelIdeal.nD Cert.KernelIdeal.τ).loc Cert.KernelIdeal.main_arg28))
        ∧ @Eq ((⟨1, ![10]⟩ : Shape).Idx → EReal) (m' ((c.tc : Thread Cert.ReferenceIdeal.nD Cert.ReferenceIdeal.τ).loc Cert.ReferenceIdeal.main_arg29)) (m ((c.tc : Thread Cert.KernelIdeal.nD Cert.KernelIdeal.τ).loc Cert.KernelIdeal.main_arg29))) :
    @Eq ((⟨2, ![64, 10]⟩ : Shape).Idx → EReal)
      (Cert.KernelIdeal.Run.Vend m c (Proc.devRef .tc Cert.KernelIdeal.main_v577))
      (Cert.ReferenceIdeal.RefRun.resVal m' c) := by
  have A : Args m m' c := args_of m m' c hagree
  have E0 : Entry0 m m' c := gap0 m m' c A
  have E1 : Entry1 m m' (Cert.KernelIdeal.Run.outs m) c := gap1 m m' (Cert.KernelIdeal.Run.outs m) c A E0 (val0_of m c)
  have E2 : Entry2 m m' (Cert.KernelIdeal.Run.outs m) c := gap2 m m' (Cert.KernelIdeal.Run.outs m) c A E1 (val1_of m c)
  have E3 : Entry3 m m' (Cert.KernelIdeal.Run.outs m) c := gap3 m m' (Cert.KernelIdeal.Run.outs m) c A E2 (val2_of m c)
  have E4 : Entry4 m m' (Cert.KernelIdeal.Run.outs m) c := gap4 m m' (Cert.KernelIdeal.Run.outs m) c A E3 (val3_of m c)
  have E5 : Entry5 m m' (Cert.KernelIdeal.Run.outs m) c := gap5 m m' (Cert.KernelIdeal.Run.outs m) c A E4 (val4_of m c)
  have E6 : Entry6 m m' (Cert.KernelIdeal.Run.outs m) c := gap6 m m' (Cert.KernelIdeal.Run.outs m) c A E5 (val5_of m c)
  have E7 : Entry7 m m' (Cert.KernelIdeal.Run.outs m) c := gap7 m m' (Cert.KernelIdeal.Run.outs m) c A E6 (val6_of m c)
  have E8 : Entry8 m m' (Cert.KernelIdeal.Run.outs m) c :=
    gap8 m m' (Cert.KernelIdeal.Run.outs m) c A E7 (val7_of m c) (fun i => Cert.PreBatch.batch_nonneg m hpre c i)
  unfold Cert.ReferenceIdeal.RefRun.resVal
  exact gap9 m m' (Cert.KernelIdeal.Run.outs m) c A E8 (val8_of m c)

end Cert.Bridge

end
-- ==== Proof.Claims.lean ====
/-
  The value claim of the certificate: at the extended reals the kernel program and the reference end with one result.

  WHAT THE KERNEL PROGRAM COMPUTES.  A graph network whose nine segment sums (five over the edges, into the node rows;
  four over the nodes, into the 64 graph rows) are each computed as ACCUMULATED ONE-HOT MATRIX PRODUCTS: for a block
  of data rows and a block of output rows, the matrix whose (data row, output row) entry is 1 where the data row's
  index word equals the output row's number and 0 elsewhere is transposed and multiplied with the block of data, and
  the products of the successive blocks are added into an accumulator that starts at zero; after the last block the
  accumulator is the output block.  Everything between two such sums (gathers, dense products, normalizations) is the
  reference's own operation on the same arrays; the narrowing of the data to a shorter float format before a sum is the
  identity at the extended reals.

  WHY IT EQUALS THE REFERENCE.  The reference adds each data row into the output row its index word names.  At the
  extended reals 1 · x = x and 0 · x = 0 hold for EVERY x, the two infinities included, so a one-hot product is the
  guarded value exactly; 0 + x = x, and finite sums of extended reals may be split into blocks and reordered (addition
  there is a commutative monoid).  So the accumulated products are the sum, over all data rows, of the rows whose index
  word is the output row's number: the reference's segment sum.  The contents of the two programs therefore agree
  stretch by stretch, from the arguments up to the result.

  WHERE "the graph ids are not negative" IS USED.  At the per-graph node COUNTS only (the divisor of the final mean).
  The kernel program counts by an indexed add, which first adds 64 to a negative id, so that a node whose id lies in
  [-64, 0) is counted in a graph row; the reference counts by a segment sum of ones, which drops every row whose id is
  out of range, a negative one included.  With no negative id the adjustment is the identity and the two counts agree
  (an id of 64 or more matches no graph row on either side).  The nine one-hot sums need no such condition: an index
  word that is no output row's number matches no row on either side.
-/
import proofs.«411400_j9251359555630_1_alg».proof.Proof.ClaimsFrames
import proofs.«411400_j9251359555630_1_alg».proof.Proof.KI.Run
import proofs.«411400_j9251359555630_1_alg».proof.Proof.Bridge.Final

noncomputable section

namespace Cert.Proof.Claims

open Idealize.ShloMosaic Idealize.ShloMosaic.TcCoe Idealize.SL.Sem

/-- At the extended reals, from memories that agree on the arguments, of which the precondition holds: the kernel
    program ends with its result buffer at the contents after its last item, the reference with its result buffer at
    the fold of its operations, and these are one array (the stretch-by-stretch agreement); both leave their
    arguments as launched. -/
theorem algebraic : Cert.algebraic_KernelIdeal_ReferenceIdeal := by
  intro m g m' g' hpre hagree
  refine ⟨_, Cert.KernelIdeal.Run.run_main m g (regsKI m), ?_⟩
  refine (θ_run Cert.ReferenceIdeal.defs _ _).mono (fun _ h c => ⟨(h c).1.trans ?_, (h c).2⟩)
    (Cert.ReferenceIdeal.RefRun.run (F := Ideal) m' g')
  exact (Cert.Bridge.result_eq m m' c hpre hagree).symm

end Cert.Proof.Claims

end
-- ==== Proof.lean ====
/-
  The certificate's claim: the conjunction of the five claims, under the witnesses of the facts the programs and the
  precondition state.

  The kernel program is a graph network whose nine segment sums are computed as accumulated one-hot matrix products:
  per block of data rows, the transposed matrix of indicators "the row's index word is this output row's number"
  times the block of data, the blocks' products added into an accumulator that starts at zero.  At the extended reals
  1 · x = x and 0 · x = 0 for every x (the infinities included), 0 + x = x, and a finite sum may be split into blocks
  and reordered; so each accumulated product is the sum of the data rows whose index word names the output row, which
  is the reference's segment sum, and the two programs' contents agree from the arguments to the result.  The
  precondition's "graph ids are not negative" is needed for the per-graph node counts alone: the kernel program's
  indexed add moves a negative id up by 64 before counting, the reference's segment sum of ones drops it.

  The five claims: the three frames (each program runs to the end with its arguments unchanged), the idealization's
  claim (no operation was rewritten, so there is nothing to preserve), and the value claim at the extended reals.
-/
import proofs.«411400_j9251359555630_1_alg».proof.Defs
import proofs.«411400_j9251359555630_1_alg».proof.Proof.Gen.Kernel
import proofs.«411400_j9251359555630_1_alg».proof.Proof.Gen.Kernel.Skeleton
import proofs.«411400_j9251359555630_1_alg».proof.Proof.Gen.Kernel.Launch
import proofs.«411400_j9251359555630_1_alg».proof.Proof.K.RegionsP
import proofs.«411400_j9251359555630_1_alg».proof.Proof.Gen.Kernel.Points
import proofs.«411400_j9251359555630_1_alg».proof.Proof.Gen.KernelIdeal
import proofs.«411400_j9251359555630_1_alg».proof.Proof.Gen.KernelIdeal.Skeleton
import proofs.«411400_j9251359555630_1_alg».proof.Proof.Gen.KernelIdeal.Launch
import proofs.«411400_j9251359555630_1_alg».proof.Proof.KI.RegionsP
import proofs.«411400_j9251359555630_1_alg».proof.Proof.Gen.KernelIdeal.Points
import proofs.«411400_j9251359555630_1_alg».proof.Proof.Gen.ReferenceIdeal
import proofs.«411400_j9251359555630_1_alg».proof.Proof.Gen.Pre_finite_inputs
import proofs.«411400_j9251359555630_1_alg».proof.Proof.Claims
import Idealize.ShloMosaic.Adequacy
import Idealize.ShloMosaic.Init

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    Claims.frame_K, Claims.frame_KI, Claims.frame_R, Claims.preserves, Claims.algebraic⟩

end Cert.Proof

end
